-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v538)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v538) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v660) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2000x128 : Shape := ⟨2, ![2000, 128]⟩
abbrev S5000x128 : Shape := ⟨2, ![5000, 128]⟩
abbrev S3000x128 : Shape := ⟨2, ![3000, 128]⟩
abbrev S128x128 : Shape := ⟨2, ![128, 128]⟩
abbrev S128 : Shape := ⟨1, ![128]⟩
abbrev S2x128 : Shape := ⟨2, ![2, 128]⟩
abbrev S2x6x128x128 : Shape := ⟨4, ![2, 6, 128, 128]⟩
abbrev S2x6x128 : Shape := ⟨3, ![2, 6, 128]⟩
abbrev S2x4x128 : Shape := ⟨3, ![2, 4, 128]⟩
abbrev S800000 : Shape := ⟨1, ![800000]⟩
abbrev S400000 : Shape := ⟨1, ![400000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S3000x128 : S_.BroadcastsInDim S3000x128 (![] : Fin 0 → Fin S3000x128.rank)
  reducesTo_S3000x128_S_d0_1 : S3000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2x6x128x128 : S_.BroadcastsInDim S2x6x128x128 (![] : Fin 0 → Fin S2x6x128x128.rank)
  reducesTo_S2x6x128x128_S_d0_1_2_3 : S2x6x128x128.ReducesTo [0, 1, 2, 3] S_
  bcast_S_S2x6x128 : S_.BroadcastsInDim S2x6x128 (![] : Fin 0 → Fin S2x6x128.rank)
  reducesTo_S2x6x128_S_d0_1_2 : S2x6x128.ReducesTo [0, 1, 2] S_
  bcast_S_S2x4x128 : S_.BroadcastsInDim S2x4x128 (![] : Fin 0 → Fin S2x4x128.rank)
  reducesTo_S2x4x128_S_d0_1_2 : S2x4x128.ReducesTo [0, 1, 2] S_

variable [Facts]

def fn_part4 {F : FTy → Type} [FloatOps F] (main_arg14 : FVec F S2x6x128x128 .f32) (main_arg15 : FVec F S2x4x128 .f32) (main_arg16 : FVec F S2x4x128 .f32) (main_v63 : IVec S_ 1) (main_v67 : IVec S_ 1) : IVec S_ 1 :=
  let main_v68 : IVec S_ 1 := andi main_v63 main_v67
  let main_v69 : FVec F S2x6x128x128 .f32 := Host.absf main_arg14
  let main_cst_26 : FVec F S_ .f32 := constant S_ .f32 0x7F800000#32
  let main_v70 : FVec F S2x6x128x128 .f32 := broadcastInDim S2x6x128x128 ![] bcast_S_S2x6x128x128 main_cst_26
  let main_v71 : IVec S2x6x128x128 1 := cmpf .olt main_v69 main_v70
  let main_c_27 : IVec S_ 1 := constantI S_ 1 1#1
  let main_v72 : IVec S_ 1 := (fun x v => Host.reduce IntOp.andi x v reducesTo_S2x6x128x128_S_d0_1_2_3 h_S_) main_v71 main_c_27
  let main_v73 : IVec S_ 1 := andi main_v68 main_v72
  let main_v74 : FVec F S2x4x128 .f32 := Host.absf main_arg15
  let main_cst_28 : FVec F S_ .f32 := constant S_ .f32 0x7F800000#32
  let main_v75 : FVec F S2x4x128 .f32 := broadcastInDim S2x4x128 ![] bcast_S_S2x4x128 main_cst_28
  let main_v76 : IVec S2x4x128 1 := cmpf .olt main_v74 main_v75
  let main_c_29 : IVec S_ 1 := constantI S_ 1 1#1
  let main_v77 : IVec S_ 1 := (fun x v => Host.reduce IntOp.andi x v reducesTo_S2x4x128_S_d0_1_2 h_S_) main_v76 main_c_29
  let main_v78 : IVec S_ 1 := andi main_v73 main_v77
  let main_v79 : FVec F S2x4x128 .f32 := Host.absf main_arg16
  let main_cst_30 : FVec F S_ .f32 := constant S_ .f32 0x7F800000#32
  let main_v80 : FVec F S2x4x128 .f32 := broadcastInDim S2x4x128 ![] bcast_S_S2x4x128 main_cst_30
  let main_v81 : IVec S2x4x128 1 := cmpf .olt main_v79 main_v80
  let main_c_31 : IVec S_ 1 := constantI S_ 1 1#1
  let main_v82 : IVec S_ 1 := (fun x v => Host.reduce IntOp.andi x v reducesTo_S2x4x128_S_d0_1_2 h_S_) main_v81 main_c_31
  let main_v83 : IVec S_ 1 := andi main_v78 main_v82
  main_v83

def fn_part3 {F : FTy → Type} [FloatOps F] (main_arg11 : FVec F S2x128 .f32) (main_arg12 : FVec F S2x6x128x128 .f32) (main_arg13 : FVec F S2x6x128 .f32) (main_arg14 : FVec F S2x6x128x128 .f32) (main_arg15 : FVec F S2x4x128 .f32) (main_arg16 : FVec F S2x4x128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x6x128x128 .f32 := Host.absf main_arg12
  let main_cst_22 : FVec F S_ .f32 := constant S_ .f32 0x7F800000#32
  let main_v60 : FVec F S2x6x128x128 .f32 := broadcastInDim S2x6x128x128 ![] bcast_S_S2x6x128x128 main_cst_22
  let main_v61 : IVec S2x6x128x128 1 := cmpf .olt main_v59 main_v60
  let main_c_23 : IVec S_ 1 := constantI S_ 1 1#1
  let main_v62 : IVec S_ 1 := (fun x v => Host.reduce IntOp.andi x v reducesTo_S2x6x128x128_S_d0_1_2_3 h_S_) main_v61 main_c_23
  let main_v63 : IVec S_ 1 := andi main_v58 main_v62
  let main_v64 : FVec F S2x6x128 .f32 := Host.absf main_arg13
  let main_cst_24 : FVec F S_ .f32 := constant S_ .f32 0x7F800000#32
  let main_v65 : FVec F S2x6x128 .f32 := broadcastInDim S2x6x128 ![] bcast_S_S2x6x128 main_cst_24
  let main_v66 : IVec S2x6x128 1 := cmpf .olt main_v64 main_v65
  let main_c_25 : IVec S_ 1 := constantI S_ 1 1#1
  let main_v67 : IVec S_ 1 := (fun x v => Host.reduce IntOp.andi x v reducesTo_S2x6x128_S_d0_1_2 h_S_) main_v66 main_c_25
  fn_part4 (F := F) main_arg14 main_arg15 main_arg16 main_v63 main_v67

def fn_part2 {F : FTy → Type} [FloatOps F] (main_arg7 : FVec F S128 .f32) (main_arg8 : FVec F S128x128 .f32) (main_arg9 : FVec F S128 .f32) (main_arg10 : FVec F S2x128 .f32) (main_arg11 : FVec F S2x128 .f32) (main_arg12 : FVec F S2x6x128x128 .f32) (main_arg13 : FVec F S2x6x128 .f32) (main_arg14 : FVec F S2x6x128x128 .f32) (main_arg15 : FVec F S2x4x128 .f32) (main_arg16 : FVec F S2x4x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_arg12 main_arg13 main_arg14 main_arg15 main_arg16 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S2x128 .f32) (main_arg11 : FVec F S2x128 .f32) (main_arg12 : FVec F S2x6x128x128 .f32) (main_arg13 : FVec F S2x6x128 .f32) (main_arg14 : FVec F S2x6x128x128 .f32) (main_arg15 : FVec F S2x4x128 .f32) (main_arg16 : FVec F S2x4x128 .f32) (main_v13 : IVec S_ 1) (main_v16 : IVec S3000x128 1) : IVec S_ 1 :=
  let main_c_5 : IVec S_ 1 := constantI S_ 1 1#1
  let main_v17 : IVec S_ 1 := (fun x v => Host.reduce IntOp.andi x v reducesTo_S3000x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x128 .f32) (main_arg1 : FVec F S2000x128 .f32) (main_arg2 : FVec F S5000x128 .f32) (main_arg3 : FVec F S3000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S2x128 .f32) (main_arg11 : FVec F S2x128 .f32) (main_arg12 : FVec F S2x6x128x128 .f32) (main_arg13 : FVec F S2x6x128 .f32) (main_arg14 : FVec F S2x6x128x128 .f32) (main_arg15 : FVec F S2x4x128 .f32) (main_arg16 : FVec F S2x4x128 .f32) (main_arg17 : IVec S800000 32) (main_arg18 : IVec S800000 32) (main_arg19 : IVec S400000 32) (main_arg20 : IVec S400000 32) (main_arg21 : IVec S400000 32) (main_arg22 : IVec S400000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2000x128 .f32 := Host.absf main_arg1
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S5000x128 .f32 := Host.absf main_arg2
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  let main_v14 : FVec F S3000x128 .f32 := Host.absf main_arg3
  let main_cst_4 : FVec F S_ .f32 := constant S_ .f32 0x7F800000#32
  let main_v15 : FVec F S3000x128 .f32 := broadcastInDim S3000x128 ![] bcast_S_S3000x128 main_cst_4
  let main_v16 : IVec S3000x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2000x128 : Shape := ⟨2, ![2000, 128]⟩
abbrev S5000x128 : Shape := ⟨2, ![5000, 128]⟩
abbrev S3000x128 : Shape := ⟨2, ![3000, 128]⟩
abbrev S128x128 : Shape := ⟨2, ![128, 128]⟩
abbrev S128 : Shape := ⟨1, ![128]⟩
abbrev S2x128 : Shape := ⟨2, ![2, 128]⟩
abbrev S2x6x128x128 : Shape := ⟨4, ![2, 6, 128, 128]⟩
abbrev S2x6x128 : Shape := ⟨3, ![2, 6, 128]⟩
abbrev S2x4x128 : Shape := ⟨3, ![2, 4, 128]⟩
abbrev S800000 : Shape := ⟨1, ![800000]⟩
abbrev S400000 : Shape := ⟨1, ![400000]⟩
abbrev S1x128 : Shape := ⟨2, ![1, 128]⟩
abbrev S2x1x128 : Shape := ⟨3, ![2, 1, 128]⟩
abbrev S1x1x128 : Shape := ⟨3, ![1, 1, 128]⟩
abbrev S_ : Shape := ⟨0, ![]⟩
abbrev S2000 : Shape := ⟨1, ![2000]⟩
abbrev S2000x1 : Shape := ⟨2, ![2000, 1]⟩
abbrev S100000 : Shape := ⟨1, ![100000]⟩
abbrev S800000x1 : Shape := ⟨2, ![800000, 1]⟩
abbrev S400000x1 : Shape := ⟨2, ![400000, 1]⟩
abbrev S5000 : Shape := ⟨1, ![5000]⟩
abbrev S3000 : Shape := ⟨1, ![3000]⟩
abbrev S800000x128 : Shape := ⟨2, ![800000, 128]⟩
abbrev S100000x1 : Shape := ⟨2, ![100000, 1]⟩
abbrev S400000x128 : Shape := ⟨2, ![400000, 128]⟩
abbrev S5000x1 : Shape := ⟨2, ![5000, 1]⟩
abbrev S3000x1 : Shape := ⟨2, ![3000, 1]⟩
abbrev S1x1x128x128 : Shape := ⟨4, ![1, 1, 128, 128]⟩
abbrev S110000x128 : Shape := ⟨2, ![110000, 128]⟩

abbrev nBuf : Space → Nat
  | .hbm => 680
  | .vmem => 156
  | .smem => 0
  | _ => 0

abbrev hbmTy0_0 (i : Nat) : BufTy := match i % 128 with
  | 0 => ⟨S100000x128, .f32⟩
  | 1 => ⟨S2000x128, .f32⟩
  | 2 => ⟨S5000x128, .f32⟩
  | 3 => ⟨S3000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S2x128, .f32⟩
  | 11 => ⟨S2x128, .f32⟩
  | 12 => ⟨S2x6x128x128, .f32⟩
  | 13 => ⟨S2x6x128, .f32⟩
  | 14 => ⟨S2x6x128x128, .f32⟩
  | 15 => ⟨S2x4x128, .f32⟩
  | 16 => ⟨S2x4x128, .f32⟩
  | 17 => ⟨S800000, .i32⟩
  | 18 => ⟨S800000, .i32⟩
  | 19 => ⟨S400000, .i32⟩
  | 20 => ⟨S400000, .i32⟩
  | 21 => ⟨S400000, .i32⟩
  | 22 => ⟨S400000, .i32⟩
  | 23 => ⟨S128x128, .f32⟩
  | 24 => ⟨S1x128, .f32⟩
  | 25 => ⟨S100000x128, .f32⟩
  | 26 => ⟨S2x1x128, .f32⟩
  | 27 => ⟨S2x1x128, .f32⟩
  | 28 => ⟨S_, .f32⟩
  | 29 => ⟨S128, .f32⟩
  | 30 => ⟨S_, .f32⟩
  | 31 => ⟨S128, .f32⟩
  | 32 => ⟨S1x128, .f32⟩
  | 33 => ⟨S128, .f32⟩
  | 34 => ⟨S1x128, .f32⟩
  | 35 => ⟨S128, .f32⟩
  | 36 => ⟨S_, .f32⟩
  | 37 => ⟨S128, .f32⟩
  | 38 => ⟨S128, .f32⟩
  | 39 => ⟨S_, .f32⟩
  | 40 => ⟨S128, .f32⟩
  | 41 => ⟨S128, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S128, .f32⟩
  | 49 => ⟨S128, .f32⟩
  | 50 => ⟨S128, .f32⟩
  | 51 => ⟨S128x128, .f32⟩
  | 52 => ⟨S1x128, .f32⟩
  | 53 => ⟨S1x128, .f32⟩
  | 54 => ⟨S1x128, .f32⟩
  | 55 => ⟨S100000x128, .f32⟩
  | 56 => ⟨S2x1x128, .f32⟩
  | 57 => ⟨S2x1x128, .f32⟩
  | 58 => ⟨S_, .f32⟩
  | 59 => ⟨S128, .f32⟩
  | 60 => ⟨S_, .f32⟩
  | 61 => ⟨S128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S128, .f32⟩
  | 73 => ⟨S128, .f32⟩
  | 74 => ⟨S_, .f32⟩
  | 75 => ⟨S128, .f32⟩
  | 76 => ⟨S128, .f32⟩
  | 77 => ⟨S128, .f32⟩
  | 78 => ⟨S128, .f32⟩
  | 79 => ⟨S128, .f32⟩
  | 80 => ⟨S128, .f32⟩
  | 81 => ⟨S128x128, .f32⟩
  | 82 => ⟨S1x128, .f32⟩
  | 83 => ⟨S1x128, .f32⟩
  | 84 => ⟨S1x128, .f32⟩
  | 85 => ⟨S100000x128, .f32⟩
  | 86 => ⟨S100000x128, .f32⟩
  | 87 => ⟨S_, .f32⟩
  | 88 => ⟨S800000, .f32⟩
  | 89 => ⟨S_, .f32⟩
  | 90 => ⟨S100000, .f32⟩
  | 91 => ⟨S800000x1, .i32⟩
  | 92 => ⟨S100000, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S_, .f32⟩
  | 100 => ⟨S400000, .f32⟩
  | 101 => ⟨S_, .f32⟩
  | 102 => ⟨S100000, .f32⟩
  | 103 => ⟨S400000x1, .i32⟩
  | 104 => ⟨S100000, .f32⟩
  | 105 => ⟨S_, .f32⟩
  | 106 => ⟨S100000, .f32⟩
  | 107 => ⟨S100000, .f32⟩
  | 108 => ⟨S_, .f32⟩
  | 109 => ⟨S100000, .f32⟩
  | 110 => ⟨S100000, .f32⟩
  | 111 => ⟨S_, .f32⟩
  | 112 => ⟨S400000, .f32⟩
  | 113 => ⟨S_, .f32⟩
  | 114 => ⟨S100000, .f32⟩
  | 115 => ⟨S400000x1, .i32⟩
  | 116 => ⟨S100000, .f32⟩
  | 117 => ⟨S_, .f32⟩
  | 118 => ⟨S100000, .f32⟩
  | 119 => ⟨S100000, .f32⟩
  | 120 => ⟨S_, .f32⟩
  | 121 => ⟨S100000, .f32⟩
  | 122 => ⟨S100000, .f32⟩
  | 123 => ⟨S_, .f32⟩
  | 124 => ⟨S800000, .f32⟩
  | 125 => ⟨S_, .f32⟩
  | 126 => ⟨S2000, .f32⟩
  | 127 => ⟨S800000x1, .i32⟩
  | _ => ⟨S100000x128, .f32⟩

abbrev hbmTy0_1 (i : Nat) : BufTy := match i % 128 with
  | 0 => ⟨S2000, .f32⟩
  | 1 => ⟨S_, .f32⟩
  | 2 => ⟨S2000, .f32⟩
  | 3 => ⟨S2000, .f32⟩
  | 4 => ⟨S_, .f32⟩
  | 5 => ⟨S2000, .f32⟩
  | 6 => ⟨S2000, .f32⟩
  | 7 => ⟨S_, .f32⟩
  | 8 => ⟨S400000, .f32⟩
  | 9 => ⟨S_, .f32⟩
  | 10 => ⟨S5000, .f32⟩
  | 11 => ⟨S400000x1, .i32⟩
  | 12 => ⟨S5000, .f32⟩
  | 13 => ⟨S_, .f32⟩
  | 14 => ⟨S5000, .f32⟩
  | 15 => ⟨S5000, .f32⟩
  | 16 => ⟨S_, .f32⟩
  | 17 => ⟨S5000, .f32⟩
  | 18 => ⟨S5000, .f32⟩
  | 19 => ⟨S_, .f32⟩
  | 20 => ⟨S400000, .f32⟩
  | 21 => ⟨S_, .f32⟩
  | 22 => ⟨S3000, .f32⟩
  | 23 => ⟨S400000x1, .i32⟩
  | 24 => ⟨S3000, .f32⟩
  | 25 => ⟨S_, .f32⟩
  | 26 => ⟨S3000, .f32⟩
  | 27 => ⟨S3000, .f32⟩
  | 28 => ⟨S_, .f32⟩
  | 29 => ⟨S3000, .f32⟩
  | 30 => ⟨S3000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S100000x128, .f32⟩
  | 42 => ⟨S800000x1, .i32⟩
  | 43 => ⟨S100000x128, .f32⟩
  | 44 => ⟨S100000x1, .f32⟩
  | 45 => ⟨S100000x128, .f32⟩
  | 46 => ⟨S100000x128, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x128, .f32⟩
  | 56 => ⟨S_, .f32⟩
  | 57 => ⟨S100000x128, .f32⟩
  | 58 => ⟨S400000x1, .i32⟩
  | 59 => ⟨S100000x128, .f32⟩
  | 60 => ⟨S100000x1, .f32⟩
  | 61 => ⟨S100000x128, .f32⟩
  | 62 => ⟨S100000x128, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x128, .f32⟩
  | 72 => ⟨S_, .f32⟩
  | 73 => ⟨S100000x128, .f32⟩
  | 74 => ⟨S400000x1, .i32⟩
  | 75 => ⟨S100000x128, .f32⟩
  | 76 => ⟨S100000x1, .f32⟩
  | 77 => ⟨S100000x128, .f32⟩
  | 78 => ⟨S100000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S2000x128, .f32⟩
  | 90 => ⟨S800000x1, .i32⟩
  | 91 => ⟨S2000x128, .f32⟩
  | 92 => ⟨S2000x1, .f32⟩
  | 93 => ⟨S2000x128, .f32⟩
  | 94 => ⟨S2000x128, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x128, .f32⟩
  | 104 => ⟨S_, .f32⟩
  | 105 => ⟨S5000x128, .f32⟩
  | 106 => ⟨S400000x1, .i32⟩
  | 107 => ⟨S5000x128, .f32⟩
  | 108 => ⟨S5000x1, .f32⟩
  | 109 => ⟨S5000x128, .f32⟩
  | 110 => ⟨S5000x128, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000x128, .f32⟩
  | 120 => ⟨S_, .f32⟩
  | 121 => ⟨S3000x128, .f32⟩
  | 122 => ⟨S400000x1, .i32⟩
  | 123 => ⟨S3000x128, .f32⟩
  | 124 => ⟨S3000x1, .f32⟩
  | 125 => ⟨S3000x128, .f32⟩
  | 126 => ⟨S3000x128, .f32⟩
  | 127 => ⟨S1x1x128x128, .f32⟩
  | _ => ⟨S100000x128, .f32⟩

abbrev hbmTy0_2 (i : Nat) : BufTy := match i % 128 with
  | 0 => ⟨S128x128, .f32⟩
  | 1 => ⟨S1x1x128x128, .f32⟩
  | 2 => ⟨S128x128, .f32⟩
  | 3 => ⟨S128x128, .f32⟩
  | 4 => ⟨S1x1x128x128, .f32⟩
  | 5 => ⟨S128x128, .f32⟩
  | 6 => ⟨S128x128, .f32⟩
  | 7 => ⟨S1x1x128, .f32⟩
  | 8 => ⟨S128, .f32⟩
  | 9 => ⟨S1x1x128, .f32⟩
  | 10 => ⟨S128, .f32⟩
  | 11 => ⟨S128, .f32⟩
  | 12 => ⟨S1x1x128, .f32⟩
  | 13 => ⟨S128, .f32⟩
  | 14 => ⟨S128, .f32⟩
  | 15 => ⟨S1x1x128x128, .f32⟩
  | 16 => ⟨S128x128, .f32⟩
  | 17 => ⟨S128x128, .f32⟩
  | 18 => ⟨S1x1x128x128, .f32⟩
  | 19 => ⟨S128x128, .f32⟩
  | 20 => ⟨S128x128, .f32⟩
  | 21 => ⟨S1x1x128x128, .f32⟩
  | 22 => ⟨S128x128, .f32⟩
  | 23 => ⟨S128x128, .f32⟩
  | 24 => ⟨S128x128, .f32⟩
  | 25 => ⟨S1x128, .f32⟩
  | 26 => ⟨S100000x128, .f32⟩
  | 27 => ⟨S2x1x128, .f32⟩
  | 28 => ⟨S2x1x128, .f32⟩
  | 29 => ⟨S_, .f32⟩
  | 30 => ⟨S128, .f32⟩
  | 31 => ⟨S_, .f32⟩
  | 32 => ⟨S128, .f32⟩
  | 33 => ⟨S1x1x128, .f32⟩
  | 34 => ⟨S128, .f32⟩
  | 35 => ⟨S1x1x128, .f32⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S128, .f32⟩
  | 45 => ⟨S_, .f32⟩
  | 46 => ⟨S128, .f32⟩
  | 47 => ⟨S128, .f32⟩
  | 48 => ⟨S128, .f32⟩
  | 49 => ⟨S128, .f32⟩
  | 50 => ⟨S128, .f32⟩
  | 51 => ⟨S128, .f32⟩
  | 52 => ⟨S1x128, .f32⟩
  | 53 => ⟨S1x128, .f32⟩
  | 54 => ⟨S100000x128, .f32⟩
  | 55 => ⟨S1x1x128x128, .f32⟩
  | 56 => ⟨S128x128, .f32⟩
  | 57 => ⟨S128x128, .f32⟩
  | 58 => ⟨S1x1x128x128, .f32⟩
  | 59 => ⟨S128x128, .f32⟩
  | 60 => ⟨S128x128, .f32⟩
  | 61 => ⟨S1x1x128, .f32⟩
  | 62 => ⟨S128, .f32⟩
  | 63 => ⟨S1x128, .f32⟩
  | 64 => ⟨S2000x128, .f32⟩
  | 65 => ⟨S1x128, .f32⟩
  | 66 => ⟨S1x128, .f32⟩
  | 67 => ⟨S128, .f32⟩
  | 68 => ⟨S128, .f32⟩
  | 69 => ⟨S1x1x128, .f32⟩
  | 70 => ⟨S128, .f32⟩
  | 71 => ⟨S1x1x128, .f32⟩
  | 72 => ⟨S128, .f32⟩
  | 73 => ⟨S_, .f32⟩
  | 74 => ⟨S128, .f32⟩
  | 75 => ⟨S128, .f32⟩
  | 76 => ⟨S_, .f32⟩
  | 77 => ⟨S128, .f32⟩
  | 78 => ⟨S128, .f32⟩
  | 79 => ⟨S128, .f32⟩
  | 80 => ⟨S128, .f32⟩
  | 81 => ⟨S_, .f32⟩
  | 82 => ⟨S128, .f32⟩
  | 83 => ⟨S128, .f32⟩
  | 84 => ⟨S128, .f32⟩
  | 85 => ⟨S128, .f32⟩
  | 86 => ⟨S128, .f32⟩
  | 87 => ⟨S128, .f32⟩
  | 88 => ⟨S1x128, .f32⟩
  | 89 => ⟨S1x128, .f32⟩
  | 90 => ⟨S2000x128, .f32⟩
  | 91 => ⟨S1x1x128x128, .f32⟩
  | 92 => ⟨S128x128, .f32⟩
  | 93 => ⟨S128x128, .f32⟩
  | 94 => ⟨S1x1x128x128, .f32⟩
  | 95 => ⟨S128x128, .f32⟩
  | 96 => ⟨S128x128, .f32⟩
  | 97 => ⟨S1x1x128, .f32⟩
  | 98 => ⟨S128, .f32⟩
  | 99 => ⟨S1x128, .f32⟩
  | 100 => ⟨S5000x128, .f32⟩
  | 101 => ⟨S1x128, .f32⟩
  | 102 => ⟨S1x128, .f32⟩
  | 103 => ⟨S128, .f32⟩
  | 104 => ⟨S128, .f32⟩
  | 105 => ⟨S1x1x128, .f32⟩
  | 106 => ⟨S128, .f32⟩
  | 107 => ⟨S1x1x128, .f32⟩
  | 108 => ⟨S128, .f32⟩
  | 109 => ⟨S_, .f32⟩
  | 110 => ⟨S128, .f32⟩
  | 111 => ⟨S128, .f32⟩
  | 112 => ⟨S_, .f32⟩
  | 113 => ⟨S128, .f32⟩
  | 114 => ⟨S128, .f32⟩
  | 115 => ⟨S128, .f32⟩
  | 116 => ⟨S128, .f32⟩
  | 117 => ⟨S_, .f32⟩
  | 118 => ⟨S128, .f32⟩
  | 119 => ⟨S128, .f32⟩
  | 120 => ⟨S128, .f32⟩
  | 121 => ⟨S128, .f32⟩
  | 122 => ⟨S128, .f32⟩
  | 123 => ⟨S128, .f32⟩
  | 124 => ⟨S1x128, .f32⟩
  | 125 => ⟨S1x128, .f32⟩
  | 126 => ⟨S5000x128, .f32⟩
  | 127 => ⟨S1x1x128x128, .f32⟩
  | _ => ⟨S100000x128, .f32⟩

abbrev hbmTy0_3 (i : Nat) : BufTy := match i % 128 with
  | 0 => ⟨S128x128, .f32⟩
  | 1 => ⟨S128x128, .f32⟩
  | 2 => ⟨S1x1x128x128, .f32⟩
  | 3 => ⟨S128x128, .f32⟩
  | 4 => ⟨S128x128, .f32⟩
  | 5 => ⟨S1x1x128, .f32⟩
  | 6 => ⟨S128, .f32⟩
  | 7 => ⟨S1x128, .f32⟩
  | 8 => ⟨S3000x128, .f32⟩
  | 9 => ⟨S1x128, .f32⟩
  | 10 => ⟨S1x128, .f32⟩
  | 11 => ⟨S128, .f32⟩
  | 12 => ⟨S128, .f32⟩
  | 13 => ⟨S1x1x128, .f32⟩
  | 14 => ⟨S128, .f32⟩
  | 15 => ⟨S1x1x128, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S128, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S1x128, .f32⟩
  | 33 => ⟨S1x128, .f32⟩
  | 34 => ⟨S3000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S100000x128, .f32⟩
  | 46 => ⟨S800000x1, .i32⟩
  | 47 => ⟨S100000x128, .f32⟩
  | 48 => ⟨S100000x1, .f32⟩
  | 49 => ⟨S100000x128, .f32⟩
  | 50 => ⟨S100000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S_, .f32⟩
  | 61 => ⟨S100000x128, .f32⟩
  | 62 => ⟨S400000x1, .i32⟩
  | 63 => ⟨S100000x128, .f32⟩
  | 64 => ⟨S100000x1, .f32⟩
  | 65 => ⟨S100000x128, .f32⟩
  | 66 => ⟨S100000x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x128, .f32⟩
  | 76 => ⟨S_, .f32⟩
  | 77 => ⟨S100000x128, .f32⟩
  | 78 => ⟨S400000x1, .i32⟩
  | 79 => ⟨S100000x128, .f32⟩
  | 80 => ⟨S100000x1, .f32⟩
  | 81 => ⟨S100000x128, .f32⟩
  | 82 => ⟨S100000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S2000x128, .f32⟩
  | 94 => ⟨S800000x1, .i32⟩
  | 95 => ⟨S2000x128, .f32⟩
  | 96 => ⟨S2000x1, .f32⟩
  | 97 => ⟨S2000x128, .f32⟩
  | 98 => ⟨S2000x128, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x128, .f32⟩
  | 108 => ⟨S_, .f32⟩
  | 109 => ⟨S5000x128, .f32⟩
  | 110 => ⟨S400000x1, .i32⟩
  | 111 => ⟨S5000x128, .f32⟩
  | 112 => ⟨S5000x1, .f32⟩
  | 113 => ⟨S5000x128, .f32⟩
  | 114 => ⟨S5000x128, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x128, .f32⟩
  | 124 => ⟨S_, .f32⟩
  | 125 => ⟨S3000x128, .f32⟩
  | 126 => ⟨S400000x1, .i32⟩
  | 127 => ⟨S3000x128, .f32⟩
  | _ => ⟨S100000x128, .f32⟩

abbrev hbmTy0_4 (i : Nat) : BufTy := match i % 128 with
  | 0 => ⟨S3000x1, .f32⟩
  | 1 => ⟨S3000x128, .f32⟩
  | 2 => ⟨S3000x128, .f32⟩
  | 3 => ⟨S1x1x128x128, .f32⟩
  | 4 => ⟨S128x128, .f32⟩
  | 5 => ⟨S1x1x128x128, .f32⟩
  | 6 => ⟨S128x128, .f32⟩
  | 7 => ⟨S128x128, .f32⟩
  | 8 => ⟨S1x1x128x128, .f32⟩
  | 9 => ⟨S128x128, .f32⟩
  | 10 => ⟨S128x128, .f32⟩
  | 11 => ⟨S1x1x128, .f32⟩
  | 12 => ⟨S128, .f32⟩
  | 13 => ⟨S1x1x128, .f32⟩
  | 14 => ⟨S128, .f32⟩
  | 15 => ⟨S128, .f32⟩
  | 16 => ⟨S1x1x128, .f32⟩
  | 17 => ⟨S128, .f32⟩
  | 18 => ⟨S128, .f32⟩
  | 19 => ⟨S1x1x128x128, .f32⟩
  | 20 => ⟨S128x128, .f32⟩
  | 21 => ⟨S128x128, .f32⟩
  | 22 => ⟨S1x1x128x128, .f32⟩
  | 23 => ⟨S128x128, .f32⟩
  | 24 => ⟨S128x128, .f32⟩
  | 25 => ⟨S1x1x128x128, .f32⟩
  | 26 => ⟨S128x128, .f32⟩
  | 27 => ⟨S128x128, .f32⟩
  | 28 => ⟨S128x128, .f32⟩
  | 29 => ⟨S1x128, .f32⟩
  | 30 => ⟨S100000x128, .f32⟩
  | 31 => ⟨S2x1x128, .f32⟩
  | 32 => ⟨S2x1x128, .f32⟩
  | 33 => ⟨S_, .f32⟩
  | 34 => ⟨S128, .f32⟩
  | 35 => ⟨S_, .f32⟩
  | 36 => ⟨S128, .f32⟩
  | 37 => ⟨S1x1x128, .f32⟩
  | 38 => ⟨S128, .f32⟩
  | 39 => ⟨S1x1x128, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S128, .f32⟩
  | 55 => ⟨S128, .f32⟩
  | 56 => ⟨S1x128, .f32⟩
  | 57 => ⟨S1x128, .f32⟩
  | 58 => ⟨S100000x128, .f32⟩
  | 59 => ⟨S1x1x128x128, .f32⟩
  | 60 => ⟨S128x128, .f32⟩
  | 61 => ⟨S128x128, .f32⟩
  | 62 => ⟨S1x1x128x128, .f32⟩
  | 63 => ⟨S128x128, .f32⟩
  | 64 => ⟨S128x128, .f32⟩
  | 65 => ⟨S1x1x128, .f32⟩
  | 66 => ⟨S128, .f32⟩
  | 67 => ⟨S1x128, .f32⟩
  | 68 => ⟨S2000x128, .f32⟩
  | 69 => ⟨S1x128, .f32⟩
  | 70 => ⟨S1x128, .f32⟩
  | 71 => ⟨S128, .f32⟩
  | 72 => ⟨S128, .f32⟩
  | 73 => ⟨S1x1x128, .f32⟩
  | 74 => ⟨S128, .f32⟩
  | 75 => ⟨S1x1x128, .f32⟩
  | 76 => ⟨S128, .f32⟩
  | 77 => ⟨S_, .f32⟩
  | 78 => ⟨S128, .f32⟩
  | 79 => ⟨S128, .f32⟩
  | 80 => ⟨S_, .f32⟩
  | 81 => ⟨S128, .f32⟩
  | 82 => ⟨S128, .f32⟩
  | 83 => ⟨S128, .f32⟩
  | 84 => ⟨S128, .f32⟩
  | 85 => ⟨S_, .f32⟩
  | 86 => ⟨S128, .f32⟩
  | 87 => ⟨S128, .f32⟩
  | 88 => ⟨S128, .f32⟩
  | 89 => ⟨S128, .f32⟩
  | 90 => ⟨S128, .f32⟩
  | 91 => ⟨S128, .f32⟩
  | 92 => ⟨S1x128, .f32⟩
  | 93 => ⟨S1x128, .f32⟩
  | 94 => ⟨S2000x128, .f32⟩
  | 95 => ⟨S1x1x128x128, .f32⟩
  | 96 => ⟨S128x128, .f32⟩
  | 97 => ⟨S128x128, .f32⟩
  | 98 => ⟨S1x1x128x128, .f32⟩
  | 99 => ⟨S128x128, .f32⟩
  | 100 => ⟨S128x128, .f32⟩
  | 101 => ⟨S1x1x128, .f32⟩
  | 102 => ⟨S128, .f32⟩
  | 103 => ⟨S1x128, .f32⟩
  | 104 => ⟨S5000x128, .f32⟩
  | 105 => ⟨S1x128, .f32⟩
  | 106 => ⟨S1x128, .f32⟩
  | 107 => ⟨S128, .f32⟩
  | 108 => ⟨S128, .f32⟩
  | 109 => ⟨S1x1x128, .f32⟩
  | 110 => ⟨S128, .f32⟩
  | 111 => ⟨S1x1x128, .f32⟩
  | 112 => ⟨S128, .f32⟩
  | 113 => ⟨S_, .f32⟩
  | 114 => ⟨S128, .f32⟩
  | 115 => ⟨S128, .f32⟩
  | 116 => ⟨S_, .f32⟩
  | 117 => ⟨S128, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S128, .f32⟩
  | 127 => ⟨S128, .f32⟩
  | _ => ⟨S100000x128, .f32⟩

abbrev hbmTy0_5 (i : Nat) : BufTy := match i % 128 with
  | 0 => ⟨S1x128, .f32⟩
  | 1 => ⟨S1x128, .f32⟩
  | 2 => ⟨S5000x128, .f32⟩
  | 3 => ⟨S1x1x128x128, .f32⟩
  | 4 => ⟨S128x128, .f32⟩
  | 5 => ⟨S128x128, .f32⟩
  | 6 => ⟨S1x1x128x128, .f32⟩
  | 7 => ⟨S128x128, .f32⟩
  | 8 => ⟨S128x128, .f32⟩
  | 9 => ⟨S1x1x128, .f32⟩
  | 10 => ⟨S128, .f32⟩
  | 11 => ⟨S1x128, .f32⟩
  | 12 => ⟨S3000x128, .f32⟩
  | 13 => ⟨S1x128, .f32⟩
  | 14 => ⟨S1x128, .f32⟩
  | 15 => ⟨S128, .f32⟩
  | 16 => ⟨S128, .f32⟩
  | 17 => ⟨S1x1x128, .f32⟩
  | 18 => ⟨S128, .f32⟩
  | 19 => ⟨S1x1x128, .f32⟩
  | 20 => ⟨S128, .f32⟩
  | 21 => ⟨S_, .f32⟩
  | 22 => ⟨S128, .f32⟩
  | 23 => ⟨S128, .f32⟩
  | 24 => ⟨S_, .f32⟩
  | 25 => ⟨S128, .f32⟩
  | 26 => ⟨S128, .f32⟩
  | 27 => ⟨S128, .f32⟩
  | 28 => ⟨S128, .f32⟩
  | 29 => ⟨S_, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S1x128, .f32⟩
  | 37 => ⟨S1x128, .f32⟩
  | 38 => ⟨S3000x128, .f32⟩
  | 39 => ⟨S110000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x128, .f32⟩

abbrev vmemTy0_0 (i : Nat) : BufTy := match i % 128 with
  | 0 => ⟨S2000x128, .f32⟩
  | 1 => ⟨S2000x128, .f32⟩
  | 2 => ⟨S128x128, .f32⟩
  | 3 => ⟨S1x128, .f32⟩
  | 4 => ⟨S2000x128, .f32⟩
  | 5 => ⟨S2000x128, .f32⟩
  | 6 => ⟨S1x1x128, .f32⟩
  | 7 => ⟨S1x1x128, .f32⟩
  | 8 => ⟨S1x1x128, .f32⟩
  | 9 => ⟨S1x1x128, .f32⟩
  | 10 => ⟨S2000x128, .f32⟩
  | 11 => ⟨S2000x128, .f32⟩
  | 12 => ⟨S1x128, .f32⟩
  | 13 => ⟨S1x128, .f32⟩
  | 14 => ⟨S128x128, .f32⟩
  | 15 => ⟨S1x128, .f32⟩
  | 16 => ⟨S2000x128, .f32⟩
  | 17 => ⟨S2000x128, .f32⟩
  | 18 => ⟨S1x1x128, .f32⟩
  | 19 => ⟨S1x1x128, .f32⟩
  | 20 => ⟨S1x1x128, .f32⟩
  | 21 => ⟨S1x1x128, .f32⟩
  | 22 => ⟨S2000x128, .f32⟩
  | 23 => ⟨S2000x128, .f32⟩
  | 24 => ⟨S1x128, .f32⟩
  | 25 => ⟨S1x128, .f32⟩
  | 26 => ⟨S128x128, .f32⟩
  | 27 => ⟨S1x128, .f32⟩
  | 28 => ⟨S2000x128, .f32⟩
  | 29 => ⟨S2000x128, .f32⟩
  | 30 => ⟨S2000x128, .f32⟩
  | 31 => ⟨S2000x128, .f32⟩
  | 32 => ⟨S2000x128, .f32⟩
  | 33 => ⟨S2000x128, .f32⟩
  | 34 => ⟨S2000x128, .f32⟩
  | 35 => ⟨S2000x128, .f32⟩
  | 36 => ⟨S2000x128, .f32⟩
  | 37 => ⟨S2000x128, .f32⟩
  | 38 => ⟨S2000x128, .f32⟩
  | 39 => ⟨S2000x128, .f32⟩
  | 40 => ⟨S2000x128, .f32⟩
  | 41 => ⟨S2000x128, .f32⟩
  | 42 => ⟨S128x128, .f32⟩
  | 43 => ⟨S128x128, .f32⟩
  | 44 => ⟨S128x128, .f32⟩
  | 45 => ⟨S128x128, .f32⟩
  | 46 => ⟨S1x128, .f32⟩
  | 47 => ⟨S2000x128, .f32⟩
  | 48 => ⟨S2000x128, .f32⟩
  | 49 => ⟨S1x1x128, .f32⟩
  | 50 => ⟨S1x1x128, .f32⟩
  | 51 => ⟨S1x1x128, .f32⟩
  | 52 => ⟨S1x1x128, .f32⟩
  | 53 => ⟨S2000x128, .f32⟩
  | 54 => ⟨S2000x128, .f32⟩
  | 55 => ⟨S1x128, .f32⟩
  | 56 => ⟨S1x128, .f32⟩
  | 57 => ⟨S2000x128, .f32⟩
  | 58 => ⟨S2000x128, .f32⟩
  | 59 => ⟨S2000x128, .f32⟩
  | 60 => ⟨S2000x128, .f32⟩
  | 61 => ⟨S128x128, .f32⟩
  | 62 => ⟨S128x128, .f32⟩
  | 63 => ⟨S1x128, .f32⟩
  | 64 => ⟨S2000x128, .f32⟩
  | 65 => ⟨S1x128, .f32⟩
  | 66 => ⟨S1x128, .f32⟩
  | 67 => ⟨S2000x128, .f32⟩
  | 68 => ⟨S1x128, .f32⟩
  | 69 => ⟨S1x128, .f32⟩
  | 70 => ⟨S2000x128, .f32⟩
  | 71 => ⟨S5000x128, .f32⟩
  | 72 => ⟨S5000x128, .f32⟩
  | 73 => ⟨S128x128, .f32⟩
  | 74 => ⟨S128x128, .f32⟩
  | 75 => ⟨S1x128, .f32⟩
  | 76 => ⟨S5000x128, .f32⟩
  | 77 => ⟨S1x128, .f32⟩
  | 78 => ⟨S1x128, .f32⟩
  | 79 => ⟨S5000x128, .f32⟩
  | 80 => ⟨S1x128, .f32⟩
  | 81 => ⟨S1x128, .f32⟩
  | 82 => ⟨S5000x128, .f32⟩
  | 83 => ⟨S3000x128, .f32⟩
  | 84 => ⟨S3000x128, .f32⟩
  | 85 => ⟨S128x128, .f32⟩
  | 86 => ⟨S128x128, .f32⟩
  | 87 => ⟨S1x128, .f32⟩
  | 88 => ⟨S3000x128, .f32⟩
  | 89 => ⟨S1x128, .f32⟩
  | 90 => ⟨S1x128, .f32⟩
  | 91 => ⟨S3000x128, .f32⟩
  | 92 => ⟨S1x128, .f32⟩
  | 93 => ⟨S1x128, .f32⟩
  | 94 => ⟨S3000x128, .f32⟩
  | 95 => ⟨S2000x128, .f32⟩
  | 96 => ⟨S2000x128, .f32⟩
  | 97 => ⟨S2000x128, .f32⟩
  | 98 => ⟨S2000x128, .f32⟩
  | 99 => ⟨S2000x128, .f32⟩
  | 100 => ⟨S2000x128, .f32⟩
  | 101 => ⟨S2000x128, .f32⟩
  | 102 => ⟨S2000x128, .f32⟩
  | 103 => ⟨S128x128, .f32⟩
  | 104 => ⟨S128x128, .f32⟩
  | 105 => ⟨S128x128, .f32⟩
  | 106 => ⟨S128x128, .f32⟩
  | 107 => ⟨S1x128, .f32⟩
  | 108 => ⟨S2000x128, .f32⟩
  | 109 => ⟨S2000x128, .f32⟩
  | 110 => ⟨S1x1x128, .f32⟩
  | 111 => ⟨S1x1x128, .f32⟩
  | 112 => ⟨S1x1x128, .f32⟩
  | 113 => ⟨S1x1x128, .f32⟩
  | 114 => ⟨S2000x128, .f32⟩
  | 115 => ⟨S2000x128, .f32⟩
  | 116 => ⟨S1x128, .f32⟩
  | 117 => ⟨S1x128, .f32⟩
  | 118 => ⟨S2000x128, .f32⟩
  | 119 => ⟨S2000x128, .f32⟩
  | 120 => ⟨S2000x128, .f32⟩
  | 121 => ⟨S2000x128, .f32⟩
  | 122 => ⟨S128x128, .f32⟩
  | 123 => ⟨S128x128, .f32⟩
  | 124 => ⟨S1x128, .f32⟩
  | 125 => ⟨S2000x128, .f32⟩
  | 126 => ⟨S1x128, .f32⟩
  | 127 => ⟨S1x128, .f32⟩
  | _ => ⟨S100000x128, .f32⟩

abbrev vmemTy0_1 (i : Nat) : BufTy := match i % 128 with
  | 0 => ⟨S2000x128, .f32⟩
  | 1 => ⟨S1x128, .f32⟩
  | 2 => ⟨S1x128, .f32⟩
  | 3 => ⟨S2000x128, .f32⟩
  | 4 => ⟨S5000x128, .f32⟩
  | 5 => ⟨S5000x128, .f32⟩
  | 6 => ⟨S128x128, .f32⟩
  | 7 => ⟨S128x128, .f32⟩
  | 8 => ⟨S1x128, .f32⟩
  | 9 => ⟨S5000x128, .f32⟩
  | 10 => ⟨S1x128, .f32⟩
  | 11 => ⟨S1x128, .f32⟩
  | 12 => ⟨S5000x128, .f32⟩
  | 13 => ⟨S1x128, .f32⟩
  | 14 => ⟨S1x128, .f32⟩
  | 15 => ⟨S5000x128, .f32⟩
  | 16 => ⟨S3000x128, .f32⟩
  | 17 => ⟨S3000x128, .f32⟩
  | 18 => ⟨S128x128, .f32⟩
  | 19 => ⟨S128x128, .f32⟩
  | 20 => ⟨S1x128, .f32⟩
  | 21 => ⟨S3000x128, .f32⟩
  | 22 => ⟨S1x128, .f32⟩
  | 23 => ⟨S1x128, .f32⟩
  | 24 => ⟨S3000x128, .f32⟩
  | 25 => ⟨S1x128, .f32⟩
  | 26 => ⟨S1x128, .f32⟩
  | 27 => ⟨S3000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 156 → Bool
  | ⟨i, _⟩ => dmaSemScopedAt i

abbrev sig : RefSig :=
  ofTc nBuf bufTy 0 156 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2_0 : Ref sig .tc := ⟨.hbm, 25, rfl⟩
abbrev main_v2_1 : Ref sig .tc := ⟨.hbm, 26, rfl⟩
abbrev main_v2_2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25_0 : Ref sig .tc := ⟨.hbm, 55, rfl⟩
abbrev main_v25_1 : Ref sig .tc := ⟨.hbm, 56, rfl⟩
abbrev main_v25_2 : Ref sig .tc := ⟨.hbm, 57, rfl⟩
abbrev main_cst_4 : Ref sig .tc := ⟨.hbm, 58, rfl⟩
abbrev main_v26 : Ref sig .tc := ⟨.hbm, 59, rfl⟩
abbrev main_cst_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_8 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_9 : Ref sig .tc := ⟨.hbm, 87, rfl⟩
abbrev main_v50 : Ref sig .tc := ⟨.hbm, 88, rfl⟩
abbrev main_cst_10 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_11 : Ref sig .tc := ⟨.hbm, 93, rfl⟩
abbrev main_v54 : Ref sig .tc := ⟨.hbm, 94, rfl⟩
abbrev main_v55 : Ref sig .tc := ⟨.hbm, 95, rfl⟩
abbrev main_cst_12 : Ref sig .tc := ⟨.hbm, 96, rfl⟩
abbrev main_v56 : Ref sig .tc := ⟨.hbm, 97, rfl⟩
abbrev main_v57 : Ref sig .tc := ⟨.hbm, 98, rfl⟩
abbrev main_cst_13 : Ref sig .tc := ⟨.hbm, 99, rfl⟩
abbrev main_v58 : Ref sig .tc := ⟨.hbm, 100, rfl⟩
abbrev main_cst_14 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_15 : Ref sig .tc := ⟨.hbm, 105, rfl⟩
abbrev main_v62 : Ref sig .tc := ⟨.hbm, 106, rfl⟩
abbrev main_v63 : Ref sig .tc := ⟨.hbm, 107, rfl⟩
abbrev main_cst_16 : Ref sig .tc := ⟨.hbm, 108, rfl⟩
abbrev main_v64 : Ref sig .tc := ⟨.hbm, 109, rfl⟩
abbrev main_v65 : Ref sig .tc := ⟨.hbm, 110, rfl⟩
abbrev main_cst_17 : Ref sig .tc := ⟨.hbm, 111, rfl⟩
abbrev main_v66 : Ref sig .tc := ⟨.hbm, 112, rfl⟩
abbrev main_cst_18 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_19 : Ref sig .tc := ⟨.hbm, 117, rfl⟩
abbrev main_v70 : Ref sig .tc := ⟨.hbm, 118, rfl⟩
abbrev main_v71 : Ref sig .tc := ⟨.hbm, 119, rfl⟩
abbrev main_cst_20 : Ref sig .tc := ⟨.hbm, 120, rfl⟩
abbrev main_v72 : Ref sig .tc := ⟨.hbm, 121, rfl⟩
abbrev main_v73 : Ref sig .tc := ⟨.hbm, 122, rfl⟩
abbrev main_cst_21 : Ref sig .tc := ⟨.hbm, 123, rfl⟩
abbrev main_v74 : Ref sig .tc := ⟨.hbm, 124, rfl⟩
abbrev main_cst_22 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_23 : Ref sig .tc := ⟨.hbm, 129, rfl⟩
abbrev main_v78 : Ref sig .tc := ⟨.hbm, 130, rfl⟩
abbrev main_v79 : Ref sig .tc := ⟨.hbm, 131, rfl⟩
abbrev main_cst_24 : Ref sig .tc := ⟨.hbm, 132, rfl⟩
abbrev main_v80 : Ref sig .tc := ⟨.hbm, 133, rfl⟩
abbrev main_v81 : Ref sig .tc := ⟨.hbm, 134, rfl⟩
abbrev main_cst_25 : Ref sig .tc := ⟨.hbm, 135, rfl⟩
abbrev main_v82 : Ref sig .tc := ⟨.hbm, 136, rfl⟩
abbrev main_cst_26 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_27 : Ref sig .tc := ⟨.hbm, 141, rfl⟩
abbrev main_v86 : Ref sig .tc := ⟨.hbm, 142, rfl⟩
abbrev main_v87 : Ref sig .tc := ⟨.hbm, 143, rfl⟩
abbrev main_cst_28 : Ref sig .tc := ⟨.hbm, 144, rfl⟩
abbrev main_v88 : Ref sig .tc := ⟨.hbm, 145, rfl⟩
abbrev main_v89 : Ref sig .tc := ⟨.hbm, 146, rfl⟩
abbrev main_cst_29 : Ref sig .tc := ⟨.hbm, 147, rfl⟩
abbrev main_v90 : Ref sig .tc := ⟨.hbm, 148, rfl⟩
abbrev main_cst_30 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_31 : Ref sig .tc := ⟨.hbm, 153, rfl⟩
abbrev main_v94 : Ref sig .tc := ⟨.hbm, 154, rfl⟩
abbrev main_v95 : Ref sig .tc := ⟨.hbm, 155, rfl⟩
abbrev main_cst_32 : Ref sig .tc := ⟨.hbm, 156, rfl⟩
abbrev main_v96 : Ref sig .tc := ⟨.hbm, 157, rfl⟩
abbrev main_v97 : Ref sig .tc := ⟨.hbm, 158, rfl⟩
abbrev main_c : Ref sig .tc := ⟨.hbm, 159, rfl⟩
abbrev main_v98 : Ref sig .tc := ⟨.hbm, 160, rfl⟩
abbrev main_v99 : Ref sig .tc := ⟨.hbm, 161, rfl⟩
abbrev main_c_33 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_34 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_c_35 : Ref sig .tc := ⟨.hbm, 175, rfl⟩
abbrev main_v111 : Ref sig .tc := ⟨.hbm, 176, rfl⟩
abbrev main_v112 : Ref sig .tc := ⟨.hbm, 177, rfl⟩
abbrev main_c_36 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_37 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_c_38 : Ref sig .tc := ⟨.hbm, 191, rfl⟩
abbrev main_v124 : Ref sig .tc := ⟨.hbm, 192, rfl⟩
abbrev main_v125 : Ref sig .tc := ⟨.hbm, 193, rfl⟩
abbrev main_c_39 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_cst_40 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_c_41 : Ref sig .tc := ⟨.hbm, 207, rfl⟩
abbrev main_v137 : Ref sig .tc := ⟨.hbm, 208, rfl⟩
abbrev main_v138 : Ref sig .tc := ⟨.hbm, 209, rfl⟩
abbrev main_c_42 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_43 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_c_44 : Ref sig .tc := ⟨.hbm, 223, rfl⟩
abbrev main_v150 : Ref sig .tc := ⟨.hbm, 224, rfl⟩
abbrev main_v151 : Ref sig .tc := ⟨.hbm, 225, rfl⟩
abbrev main_c_45 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_cst_46 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_c_47 : Ref sig .tc := ⟨.hbm, 239, rfl⟩
abbrev main_v163 : Ref sig .tc := ⟨.hbm, 240, rfl⟩
abbrev main_v164 : Ref sig .tc := ⟨.hbm, 241, rfl⟩
abbrev main_c_48 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_cst_49 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203_0 : Ref sig .tc := ⟨.hbm, 282, rfl⟩
abbrev main_v203_1 : Ref sig .tc := ⟨.hbm, 283, rfl⟩
abbrev main_v203_2 : Ref sig .tc := ⟨.hbm, 284, rfl⟩
abbrev main_cst_50 : Ref sig .tc := ⟨.hbm, 285, rfl⟩
abbrev main_v204 : Ref sig .tc := ⟨.hbm, 286, rfl⟩
abbrev main_cst_51 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_cst_52 : Ref sig .tc := ⟨.hbm, 293, rfl⟩
abbrev main_v210 : Ref sig .tc := ⟨.hbm, 294, rfl⟩
abbrev main_v211 : Ref sig .tc := ⟨.hbm, 295, rfl⟩
abbrev main_cst_53 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_cst_54 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234_0 : Ref sig .tc := ⟨.hbm, 320, rfl⟩
abbrev main_v234_1 : Ref sig .tc := ⟨.hbm, 321, rfl⟩
abbrev main_v234_2 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_cst_55 : Ref sig .tc := ⟨.hbm, 329, rfl⟩
abbrev main_v241 : Ref sig .tc := ⟨.hbm, 330, rfl⟩
abbrev main_v242 : Ref sig .tc := ⟨.hbm, 331, rfl⟩
abbrev main_cst_56 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_cst_57 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265_0 : Ref sig .tc := ⟨.hbm, 356, rfl⟩
abbrev main_v265_1 : Ref sig .tc := ⟨.hbm, 357, rfl⟩
abbrev main_v265_2 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_cst_58 : Ref sig .tc := ⟨.hbm, 365, rfl⟩
abbrev main_v272 : Ref sig .tc := ⟨.hbm, 366, rfl⟩
abbrev main_v273 : Ref sig .tc := ⟨.hbm, 367, rfl⟩
abbrev main_cst_59 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_cst_60 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_v282 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296_0 : Ref sig .tc := ⟨.hbm, 392, rfl⟩
abbrev main_v296_1 : Ref sig .tc := ⟨.hbm, 393, rfl⟩
abbrev main_v296_2 : Ref sig .tc := ⟨.hbm, 394, rfl⟩
abbrev main_v297 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_cst_61 : Ref sig .tc := ⟨.hbm, 401, rfl⟩
abbrev main_v303 : Ref sig .tc := ⟨.hbm, 402, rfl⟩
abbrev main_v304 : Ref sig .tc := ⟨.hbm, 403, rfl⟩
abbrev main_cst_62 : Ref sig .tc := ⟨.hbm, 404, rfl⟩
abbrev main_v305 : Ref sig .tc := ⟨.hbm, 405, rfl⟩
abbrev main_v306 : Ref sig .tc := ⟨.hbm, 406, rfl⟩
abbrev main_v307 : Ref sig .tc := ⟨.hbm, 407, rfl⟩
abbrev main_v308 : Ref sig .tc := ⟨.hbm, 408, rfl⟩
abbrev main_cst_63 : Ref sig .tc := ⟨.hbm, 409, rfl⟩
abbrev main_v309 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_c_64 : Ref sig .tc := ⟨.hbm, 419, rfl⟩
abbrev main_v318 : Ref sig .tc := ⟨.hbm, 420, rfl⟩
abbrev main_v319 : Ref sig .tc := ⟨.hbm, 421, rfl⟩
abbrev main_c_65 : Ref sig .tc := ⟨.hbm, 422, rfl⟩
abbrev main_v320 : Ref sig .tc := ⟨.hbm, 423, rfl⟩
abbrev main_v321 : Ref sig .tc := ⟨.hbm, 424, rfl⟩
abbrev main_v322 : Ref sig .tc := ⟨.hbm, 425, rfl⟩
abbrev main_v323 : Ref sig .tc := ⟨.hbm, 426, rfl⟩
abbrev main_v324 : Ref sig .tc := ⟨.hbm, 427, rfl⟩
abbrev main_cst_66 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_v329 : Ref sig .tc := ⟨.hbm, 433, rfl⟩
abbrev main_v330 : Ref sig .tc := ⟨.hbm, 434, rfl⟩
abbrev main_c_67 : Ref sig .tc := ⟨.hbm, 435, rfl⟩
abbrev main_v331 : Ref sig .tc := ⟨.hbm, 436, rfl⟩
abbrev main_v332 : Ref sig .tc := ⟨.hbm, 437, rfl⟩
abbrev main_c_68 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_v337 : Ref sig .tc := ⟨.hbm, 443, rfl⟩
abbrev main_cst_69 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_v341 : Ref sig .tc := ⟨.hbm, 448, rfl⟩
abbrev main_v342 : Ref sig .tc := ⟨.hbm, 449, rfl⟩
abbrev main_v343 : Ref sig .tc := ⟨.hbm, 450, rfl⟩
abbrev main_c_70 : Ref sig .tc := ⟨.hbm, 451, rfl⟩
abbrev main_v344 : Ref sig .tc := ⟨.hbm, 452, rfl⟩
abbrev main_v345 : Ref sig .tc := ⟨.hbm, 453, rfl⟩
abbrev main_c_71 : Ref sig .tc := ⟨.hbm, 454, rfl⟩
abbrev main_v346 : Ref sig .tc := ⟨.hbm, 455, rfl⟩
abbrev main_v347 : Ref sig .tc := ⟨.hbm, 456, rfl⟩
abbrev main_v348 : Ref sig .tc := ⟨.hbm, 457, rfl⟩
abbrev main_v349 : Ref sig .tc := ⟨.hbm, 458, rfl⟩
abbrev main_v350 : Ref sig .tc := ⟨.hbm, 459, rfl⟩
abbrev main_cst_72 : Ref sig .tc := ⟨.hbm, 460, rfl⟩
abbrev main_v351 : Ref sig .tc := ⟨.hbm, 461, rfl⟩
abbrev main_v352 : Ref sig .tc := ⟨.hbm, 462, rfl⟩
abbrev main_v353 : Ref sig .tc := ⟨.hbm, 463, rfl⟩
abbrev main_v354 : Ref sig .tc := ⟨.hbm, 464, rfl⟩
abbrev main_v355 : Ref sig .tc := ⟨.hbm, 465, rfl⟩
abbrev main_v356 : Ref sig .tc := ⟨.hbm, 466, rfl⟩
abbrev main_c_73 : Ref sig .tc := ⟨.hbm, 467, rfl⟩
abbrev main_v357 : Ref sig .tc := ⟨.hbm, 468, rfl⟩
abbrev main_v358 : Ref sig .tc := ⟨.hbm, 469, rfl⟩
abbrev main_c_74 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_cst_75 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_c_76 : Ref sig .tc := ⟨.hbm, 483, rfl⟩
abbrev main_v370 : Ref sig .tc := ⟨.hbm, 484, rfl⟩
abbrev main_v371 : Ref sig .tc := ⟨.hbm, 485, rfl⟩
abbrev main_c_77 : Ref sig .tc := ⟨.hbm, 486, rfl⟩
abbrev main_v372 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_cst_78 : Ref sig .tc := ⟨.hbm, 492, rfl⟩
abbrev main_v377 : Ref sig .tc := ⟨.hbm, 493, rfl⟩
abbrev main_v378 : Ref sig .tc := ⟨.hbm, 494, rfl⟩
abbrev main_v379 : Ref sig .tc := ⟨.hbm, 495, rfl⟩
abbrev main_v380 : Ref sig .tc := ⟨.hbm, 496, rfl⟩
abbrev main_v381 : Ref sig .tc := ⟨.hbm, 497, rfl⟩
abbrev main_v382 : Ref sig .tc := ⟨.hbm, 498, rfl⟩
abbrev main_c_79 : Ref sig .tc := ⟨.hbm, 499, rfl⟩
abbrev main_v383 : Ref sig .tc := ⟨.hbm, 500, rfl⟩
abbrev main_v384 : Ref sig .tc := ⟨.hbm, 501, rfl⟩
abbrev main_c_80 : Ref sig .tc := ⟨.hbm, 502, rfl⟩
abbrev main_v385 : Ref sig .tc := ⟨.hbm, 503, rfl⟩
abbrev main_v386 : Ref sig .tc := ⟨.hbm, 504, rfl⟩
abbrev main_v387 : Ref sig .tc := ⟨.hbm, 505, rfl⟩
abbrev main_v388 : Ref sig .tc := ⟨.hbm, 506, rfl⟩
abbrev main_v389 : Ref sig .tc := ⟨.hbm, 507, rfl⟩
abbrev main_cst_81 : Ref sig .tc := ⟨.hbm, 508, rfl⟩
abbrev main_v390 : Ref sig .tc := ⟨.hbm, 509, rfl⟩
abbrev main_v391 : Ref sig .tc := ⟨.hbm, 510, rfl⟩
abbrev main_v392 : Ref sig .tc := ⟨.hbm, 511, rfl⟩
abbrev main_v393 : Ref sig .tc := ⟨.hbm, 512, rfl⟩
abbrev main_v394 : Ref sig .tc := ⟨.hbm, 513, rfl⟩
abbrev main_v395 : Ref sig .tc := ⟨.hbm, 514, rfl⟩
abbrev main_v396 : Ref sig .tc := ⟨.hbm, 515, rfl⟩
abbrev main_v397 : Ref sig .tc := ⟨.hbm, 516, rfl⟩
abbrev main_v398 : Ref sig .tc := ⟨.hbm, 517, rfl⟩
abbrev main_v399 : Ref sig .tc := ⟨.hbm, 518, rfl⟩
abbrev main_v400 : Ref sig .tc := ⟨.hbm, 519, rfl⟩
abbrev main_v401 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩
abbrev main_v405 : Ref sig .tc := ⟨.hbm, 524, rfl⟩
abbrev main_v406 : Ref sig .tc := ⟨.hbm, 525, rfl⟩
abbrev main_v407 : Ref sig .tc := ⟨.hbm, 526, rfl⟩
abbrev main_v408 : Ref sig .tc := ⟨.hbm, 527, rfl⟩
abbrev main_v409 : Ref sig .tc := ⟨.hbm, 528, rfl⟩
abbrev main_v410 : Ref sig .tc := ⟨.hbm, 529, rfl⟩
abbrev main_v411 : Ref sig .tc := ⟨.hbm, 530, rfl⟩
abbrev main_v412 : Ref sig .tc := ⟨.hbm, 531, rfl⟩
abbrev main_v413 : Ref sig .tc := ⟨.hbm, 532, rfl⟩
abbrev main_v414 : Ref sig .tc := ⟨.hbm, 533, rfl⟩
abbrev main_v415 : Ref sig .tc := ⟨.hbm, 534, rfl⟩
abbrev main_v416 : Ref sig .tc := ⟨.hbm, 535, rfl⟩
abbrev main_v417 : Ref sig .tc := ⟨.hbm, 536, rfl⟩
abbrev main_v418 : Ref sig .tc := ⟨.hbm, 537, rfl⟩
abbrev main_v419 : Ref sig .tc := ⟨.hbm, 538, rfl⟩
abbrev main_v420 : Ref sig .tc := ⟨.hbm, 539, rfl⟩
abbrev main_v421 : Ref sig .tc := ⟨.hbm, 540, rfl⟩
abbrev main_v422 : Ref sig .tc := ⟨.hbm, 541, rfl⟩
abbrev main_v423_0 : Ref sig .tc := ⟨.hbm, 542, rfl⟩
abbrev main_v423_1 : Ref sig .tc := ⟨.hbm, 543, rfl⟩
abbrev main_v423_2 : Ref sig .tc := ⟨.hbm, 544, rfl⟩
abbrev main_cst_82 : Ref sig .tc := ⟨.hbm, 545, rfl⟩
abbrev main_v424 : Ref sig .tc := ⟨.hbm, 546, rfl⟩
abbrev main_cst_83 : Ref sig .tc := ⟨.hbm, 547, rfl⟩
abbrev main_v425 : Ref sig .tc := ⟨.hbm, 548, rfl⟩
abbrev main_v426 : Ref sig .tc := ⟨.hbm, 549, rfl⟩
abbrev main_v427 : Ref sig .tc := ⟨.hbm, 550, rfl⟩
abbrev main_v428 : Ref sig .tc := ⟨.hbm, 551, rfl⟩
abbrev main_v429 : Ref sig .tc := ⟨.hbm, 552, rfl⟩
abbrev main_cst_84 : Ref sig .tc := ⟨.hbm, 553, rfl⟩
abbrev main_v430 : Ref sig .tc := ⟨.hbm, 554, rfl⟩
abbrev main_v431 : Ref sig .tc := ⟨.hbm, 555, rfl⟩
abbrev main_cst_85 : Ref sig .tc := ⟨.hbm, 556, rfl⟩
abbrev main_v432 : Ref sig .tc := ⟨.hbm, 557, rfl⟩
abbrev main_v433 : Ref sig .tc := ⟨.hbm, 558, rfl⟩
abbrev main_v434 : Ref sig .tc := ⟨.hbm, 559, rfl⟩
abbrev main_v435 : Ref sig .tc := ⟨.hbm, 560, rfl⟩
abbrev main_cst_86 : Ref sig .tc := ⟨.hbm, 561, rfl⟩
abbrev main_v436 : Ref sig .tc := ⟨.hbm, 562, rfl⟩
abbrev main_v437 : Ref sig .tc := ⟨.hbm, 563, rfl⟩
abbrev main_v438 : Ref sig .tc := ⟨.hbm, 564, rfl⟩
abbrev main_v439 : Ref sig .tc := ⟨.hbm, 565, rfl⟩
abbrev main_v440 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_v444 : Ref sig .tc := ⟨.hbm, 570, rfl⟩
abbrev main_v445 : Ref sig .tc := ⟨.hbm, 571, rfl⟩
abbrev main_v446 : Ref sig .tc := ⟨.hbm, 572, rfl⟩
abbrev main_v447 : Ref sig .tc := ⟨.hbm, 573, rfl⟩
abbrev main_v448 : Ref sig .tc := ⟨.hbm, 574, rfl⟩
abbrev main_v449 : Ref sig .tc := ⟨.hbm, 575, rfl⟩
abbrev main_v450 : Ref sig .tc := ⟨.hbm, 576, rfl⟩
abbrev main_v451 : Ref sig .tc := ⟨.hbm, 577, rfl⟩
abbrev main_v452 : Ref sig .tc := ⟨.hbm, 578, rfl⟩
abbrev main_v453 : Ref sig .tc := ⟨.hbm, 579, rfl⟩
abbrev main_v454_0 : Ref sig .tc := ⟨.hbm, 580, rfl⟩
abbrev main_v454_1 : Ref sig .tc := ⟨.hbm, 581, rfl⟩
abbrev main_v454_2 : Ref sig .tc := ⟨.hbm, 582, rfl⟩
abbrev main_v455 : Ref sig .tc := ⟨.hbm, 583, rfl⟩
abbrev main_v456 : Ref sig .tc := ⟨.hbm, 584, rfl⟩
abbrev main_v457 : Ref sig .tc := ⟨.hbm, 585, rfl⟩
abbrev main_v458 : Ref sig .tc := ⟨.hbm, 586, rfl⟩
abbrev main_v459 : Ref sig .tc := ⟨.hbm, 587, rfl⟩
abbrev main_v460 : Ref sig .tc := ⟨.hbm, 588, rfl⟩
abbrev main_cst_87 : Ref sig .tc := ⟨.hbm, 589, rfl⟩
abbrev main_v461 : Ref sig .tc := ⟨.hbm, 590, rfl⟩
abbrev main_v462 : Ref sig .tc := ⟨.hbm, 591, rfl⟩
abbrev main_cst_88 : Ref sig .tc := ⟨.hbm, 592, rfl⟩
abbrev main_v463 : Ref sig .tc := ⟨.hbm, 593, rfl⟩
abbrev main_v464 : Ref sig .tc := ⟨.hbm, 594, rfl⟩
abbrev main_v465 : Ref sig .tc := ⟨.hbm, 595, rfl⟩
abbrev main_v466 : Ref sig .tc := ⟨.hbm, 596, rfl⟩
abbrev main_cst_89 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_v472 : Ref sig .tc := ⟨.hbm, 603, rfl⟩
abbrev main_v473 : Ref sig .tc := ⟨.hbm, 604, rfl⟩
abbrev main_v474 : Ref sig .tc := ⟨.hbm, 605, rfl⟩
abbrev main_v475 : Ref sig .tc := ⟨.hbm, 606, rfl⟩
abbrev main_v476 : Ref sig .tc := ⟨.hbm, 607, rfl⟩
abbrev main_v477 : Ref sig .tc := ⟨.hbm, 608, rfl⟩
abbrev main_v478 : Ref sig .tc := ⟨.hbm, 609, rfl⟩
abbrev main_v479 : Ref sig .tc := ⟨.hbm, 610, rfl⟩
abbrev main_v480 : Ref sig .tc := ⟨.hbm, 611, rfl⟩
abbrev main_v481 : Ref sig .tc := ⟨.hbm, 612, rfl⟩
abbrev main_v482 : Ref sig .tc := ⟨.hbm, 613, rfl⟩
abbrev main_v483 : Ref sig .tc := ⟨.hbm, 614, rfl⟩
abbrev main_v484 : Ref sig .tc := ⟨.hbm, 615, rfl⟩
abbrev main_v485_0 : Ref sig .tc := ⟨.hbm, 616, rfl⟩
abbrev main_v485_1 : Ref sig .tc := ⟨.hbm, 617, rfl⟩
abbrev main_v485_2 : Ref sig .tc := ⟨.hbm, 618, rfl⟩
abbrev main_v486 : Ref sig .tc := ⟨.hbm, 619, rfl⟩
abbrev main_v487 : Ref sig .tc := ⟨.hbm, 620, rfl⟩
abbrev main_v488 : Ref sig .tc := ⟨.hbm, 621, rfl⟩
abbrev main_v489 : Ref sig .tc := ⟨.hbm, 622, rfl⟩
abbrev main_v490 : Ref sig .tc := ⟨.hbm, 623, rfl⟩
abbrev main_v491 : Ref sig .tc := ⟨.hbm, 624, rfl⟩
abbrev main_cst_90 : Ref sig .tc := ⟨.hbm, 625, rfl⟩
abbrev main_v492 : Ref sig .tc := ⟨.hbm, 626, rfl⟩
abbrev main_v493 : Ref sig .tc := ⟨.hbm, 627, rfl⟩
abbrev main_cst_91 : Ref sig .tc := ⟨.hbm, 628, rfl⟩
abbrev main_v494 : Ref sig .tc := ⟨.hbm, 629, rfl⟩
abbrev main_v495 : Ref sig .tc := ⟨.hbm, 630, rfl⟩
abbrev main_v496 : Ref sig .tc := ⟨.hbm, 631, rfl⟩
abbrev main_v497 : Ref sig .tc := ⟨.hbm, 632, rfl⟩
abbrev main_cst_92 : Ref sig .tc := ⟨.hbm, 633, rfl⟩
abbrev main_v498 : Ref sig .tc := ⟨.hbm, 634, rfl⟩
abbrev main_v499 : Ref sig .tc := ⟨.hbm, 635, rfl⟩
abbrev main_v500 : Ref sig .tc := ⟨.hbm, 636, rfl⟩
abbrev main_v501 : Ref sig .tc := ⟨.hbm, 637, rfl⟩
abbrev main_v502 : Ref sig .tc := ⟨.hbm, 638, rfl⟩
abbrev main_v503 : Ref sig .tc := ⟨.hbm, 639, rfl⟩
abbrev main_v504 : Ref sig .tc := ⟨.hbm, 640, rfl⟩
abbrev main_v505 : Ref sig .tc := ⟨.hbm, 641, rfl⟩
abbrev main_v506 : Ref sig .tc := ⟨.hbm, 642, rfl⟩
abbrev main_v507 : Ref sig .tc := ⟨.hbm, 643, rfl⟩
abbrev main_v508 : Ref sig .tc := ⟨.hbm, 644, rfl⟩
abbrev main_v509 : Ref sig .tc := ⟨.hbm, 645, rfl⟩
abbrev main_v510 : Ref sig .tc := ⟨.hbm, 646, rfl⟩
abbrev main_v511 : Ref sig .tc := ⟨.hbm, 647, rfl⟩
abbrev main_v512 : Ref sig .tc := ⟨.hbm, 648, rfl⟩
abbrev main_v513 : Ref sig .tc := ⟨.hbm, 649, rfl⟩
abbrev main_v514 : Ref sig .tc := ⟨.hbm, 650, rfl⟩
abbrev main_v515 : Ref sig .tc := ⟨.hbm, 651, rfl⟩
abbrev main_v516_0 : Ref sig .tc := ⟨.hbm, 652, rfl⟩
abbrev main_v516_1 : Ref sig .tc := ⟨.hbm, 653, rfl⟩
abbrev main_v516_2 : Ref sig .tc := ⟨.hbm, 654, rfl⟩
abbrev main_v517 : Ref sig .tc := ⟨.hbm, 655, rfl⟩
abbrev main_v518 : Ref sig .tc := ⟨.hbm, 656, rfl⟩
abbrev main_v519 : Ref sig .tc := ⟨.hbm, 657, rfl⟩
abbrev main_v520 : Ref sig .tc := ⟨.hbm, 658, rfl⟩
abbrev main_v521 : Ref sig .tc := ⟨.hbm, 659, rfl⟩
abbrev main_v522 : Ref sig .tc := ⟨.hbm, 660, rfl⟩
abbrev main_cst_93 : Ref sig .tc := ⟨.hbm, 661, rfl⟩
abbrev main_v523 : Ref sig .tc := ⟨.hbm, 662, rfl⟩
abbrev main_v524 : Ref sig .tc := ⟨.hbm, 663, rfl⟩
abbrev main_cst_94 : Ref sig .tc := ⟨.hbm, 664, rfl⟩
abbrev main_v525 : Ref sig .tc := ⟨.hbm, 665, rfl⟩
abbrev main_v526 : Ref sig .tc := ⟨.hbm, 666, rfl⟩
abbrev main_v527 : Ref sig .tc := ⟨.hbm, 667, rfl⟩
abbrev main_v528 : Ref sig .tc := ⟨.hbm, 668, rfl⟩
abbrev main_cst_95 : Ref sig .tc := ⟨.hbm, 669, rfl⟩
abbrev main_v529 : Ref sig .tc := ⟨.hbm, 670, rfl⟩
abbrev main_v530 : Ref sig .tc := ⟨.hbm, 671, rfl⟩
abbrev main_v531 : Ref sig .tc := ⟨.hbm, 672, rfl⟩
abbrev main_v532 : Ref sig .tc := ⟨.hbm, 673, rfl⟩
abbrev main_v533 : Ref sig .tc := ⟨.hbm, 674, rfl⟩
abbrev main_v534 : Ref sig .tc := ⟨.hbm, 675, rfl⟩
abbrev main_v535 : Ref sig .tc := ⟨.hbm, 676, rfl⟩
abbrev main_v536 : Ref sig .tc := ⟨.hbm, 677, rfl⟩
abbrev main_v537 : Ref sig .tc := ⟨.hbm, 678, rfl⟩
abbrev main_v538 : Ref sig .tc := ⟨.hbm, 679, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg8_0 : Ref sig .tc := ⟨.vmem, 46, rfl⟩
abbrev cc4_stg9_0 : Ref sig .tc := ⟨.vmem, 47, rfl⟩
abbrev cc4_stg9_1 : Ref sig .tc := ⟨.vmem, 48, rfl⟩
abbrev cc4_stg10_0 : Ref sig .tc := ⟨.vmem, 49, rfl⟩
abbrev cc4_stg10_1 : Ref sig .tc := ⟨.vmem, 50, rfl⟩
abbrev cc4_stg11_0 : Ref sig .tc := ⟨.vmem, 51, rfl⟩
abbrev cc4_stg11_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg3_1 : Ref sig .tc := ⟨.vmem, 58, rfl⟩
abbrev cc6_stg0_0 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc7_stg0_0 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc8_stg0_0 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg6_0 : Ref sig .tc := ⟨.vmem, 77, rfl⟩
abbrev cc8_stg7_0 : Ref sig .tc := ⟨.vmem, 78, rfl⟩
abbrev cc9_stg0_0 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc10_stg0_0 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg3_0 : Ref sig .tc := ⟨.vmem, 86, rfl⟩
abbrev cc10_stg4_0 : Ref sig .tc := ⟨.vmem, 87, rfl⟩
abbrev cc10_stg5_0 : Ref sig .tc := ⟨.vmem, 88, rfl⟩
abbrev cc10_stg6_0 : Ref sig .tc := ⟨.vmem, 89, rfl⟩
abbrev cc10_stg7_0 : Ref sig .tc := ⟨.vmem, 90, rfl⟩
abbrev cc11_stg0_0 : Ref sig .tc := ⟨.vmem, 91, rfl⟩
abbrev cc11_stg1_0 : Ref sig .tc := ⟨.vmem, 92, rfl⟩
abbrev cc11_stg2_0 : Ref sig .tc := ⟨.vmem, 93, rfl⟩
abbrev cc11_stg3_0 : Ref sig .tc := ⟨.vmem, 94, rfl⟩
abbrev cc12_stg0_0 : Ref sig .tc := ⟨.vmem, 95, rfl⟩
abbrev cc12_stg0_1 : Ref sig .tc := ⟨.vmem, 96, rfl⟩
abbrev cc12_stg1_0 : Ref sig .tc := ⟨.vmem, 97, rfl⟩
abbrev cc12_stg1_1 : Ref sig .tc := ⟨.vmem, 98, rfl⟩
abbrev cc12_stg2_0 : Ref sig .tc := ⟨.vmem, 99, rfl⟩
abbrev cc12_stg2_1 : Ref sig .tc := ⟨.vmem, 100, rfl⟩
abbrev cc12_stg3_0 : Ref sig .tc := ⟨.vmem, 101, rfl⟩
abbrev cc12_stg3_1 : Ref sig .tc := ⟨.vmem, 102, rfl⟩
abbrev cc12_stg4_0 : Ref sig .tc := ⟨.vmem, 103, rfl⟩
abbrev cc12_stg5_0 : Ref sig .tc := ⟨.vmem, 104, rfl⟩
abbrev cc12_stg6_0 : Ref sig .tc := ⟨.vmem, 105, rfl⟩
abbrev cc12_stg7_0 : Ref sig .tc := ⟨.vmem, 106, rfl⟩
abbrev cc12_stg8_0 : Ref sig .tc := ⟨.vmem, 107, rfl⟩
abbrev cc12_stg9_0 : Ref sig .tc := ⟨.vmem, 108, rfl⟩
abbrev cc12_stg9_1 : Ref sig .tc := ⟨.vmem, 109, rfl⟩
abbrev cc12_stg10_0 : Ref sig .tc := ⟨.vmem, 110, rfl⟩
abbrev cc12_stg10_1 : Ref sig .tc := ⟨.vmem, 111, rfl⟩
abbrev cc12_stg11_0 : Ref sig .tc := ⟨.vmem, 112, rfl⟩
abbrev cc12_stg11_1 : Ref sig .tc := ⟨.vmem, 113, rfl⟩
abbrev cc13_stg0_0 : Ref sig .tc := ⟨.vmem, 114, rfl⟩
abbrev cc13_stg0_1 : Ref sig .tc := ⟨.vmem, 115, rfl⟩
abbrev cc13_stg1_0 : Ref sig .tc := ⟨.vmem, 116, rfl⟩
abbrev cc13_stg2_0 : Ref sig .tc := ⟨.vmem, 117, rfl⟩
abbrev cc13_stg3_0 : Ref sig .tc := ⟨.vmem, 118, rfl⟩
abbrev cc13_stg3_1 : Ref sig .tc := ⟨.vmem, 119, rfl⟩
abbrev cc14_stg0_0 : Ref sig .tc := ⟨.vmem, 120, rfl⟩
abbrev cc14_stg1_0 : Ref sig .tc := ⟨.vmem, 121, rfl⟩
abbrev cc14_stg2_0 : Ref sig .tc := ⟨.vmem, 122, rfl⟩
abbrev cc14_stg3_0 : Ref sig .tc := ⟨.vmem, 123, rfl⟩
abbrev cc14_stg4_0 : Ref sig .tc := ⟨.vmem, 124, rfl⟩
abbrev cc14_stg5_0 : Ref sig .tc := ⟨.vmem, 125, rfl⟩
abbrev cc14_stg6_0 : Ref sig .tc := ⟨.vmem, 126, rfl⟩
abbrev cc14_stg7_0 : Ref sig .tc := ⟨.vmem, 127, rfl⟩
abbrev cc15_stg0_0 : Ref sig .tc := ⟨.vmem, 128, rfl⟩
abbrev cc15_stg1_0 : Ref sig .tc := ⟨.vmem, 129, rfl⟩
abbrev cc15_stg2_0 : Ref sig .tc := ⟨.vmem, 130, rfl⟩
abbrev cc15_stg3_0 : Ref sig .tc := ⟨.vmem, 131, rfl⟩
abbrev cc16_stg0_0 : Ref sig .tc := ⟨.vmem, 132, rfl⟩
abbrev cc16_stg1_0 : Ref sig .tc := ⟨.vmem, 133, rfl⟩
abbrev cc16_stg2_0 : Ref sig .tc := ⟨.vmem, 134, rfl⟩
abbrev cc16_stg3_0 : Ref sig .tc := ⟨.vmem, 135, rfl⟩
abbrev cc16_stg4_0 : Ref sig .tc := ⟨.vmem, 136, rfl⟩
abbrev cc16_stg5_0 : Ref sig .tc := ⟨.vmem, 137, rfl⟩
abbrev cc16_stg6_0 : Ref sig .tc := ⟨.vmem, 138, rfl⟩
abbrev cc16_stg7_0 : Ref sig .tc := ⟨.vmem, 139, rfl⟩
abbrev cc17_stg0_0 : Ref sig .tc := ⟨.vmem, 140, rfl⟩
abbrev cc17_stg1_0 : Ref sig .tc := ⟨.vmem, 141, rfl⟩
abbrev cc17_stg2_0 : Ref sig .tc := ⟨.vmem, 142, rfl⟩
abbrev cc17_stg3_0 : Ref sig .tc := ⟨.vmem, 143, rfl⟩
abbrev cc18_stg0_0 : Ref sig .tc := ⟨.vmem, 144, rfl⟩
abbrev cc18_stg1_0 : Ref sig .tc := ⟨.vmem, 145, rfl⟩
abbrev cc18_stg2_0 : Ref sig .tc := ⟨.vmem, 146, rfl⟩
abbrev cc18_stg3_0 : Ref sig .tc := ⟨.vmem, 147, rfl⟩
abbrev cc18_stg4_0 : Ref sig .tc := ⟨.vmem, 148, rfl⟩
abbrev cc18_stg5_0 : Ref sig .tc := ⟨.vmem, 149, rfl⟩
abbrev cc18_stg6_0 : Ref sig .tc := ⟨.vmem, 150, rfl⟩
abbrev cc18_stg7_0 : Ref sig .tc := ⟨.vmem, 151, rfl⟩
abbrev cc19_stg0_0 : Ref sig .tc := ⟨.vmem, 152, rfl⟩
abbrev cc19_stg1_0 : Ref sig .tc := ⟨.vmem, 153, rfl⟩
abbrev cc19_stg2_0 : Ref sig .tc := ⟨.vmem, 154, rfl⟩
abbrev cc19_stg3_0 : Ref sig .tc := ⟨.vmem, 155, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem9_0 : DmaSem sig := 47
abbrev cc4_sem9_1 : DmaSem sig := 48
abbrev cc4_sem10_0 : DmaSem sig := 49
abbrev cc4_sem10_1 : DmaSem sig := 50
abbrev cc4_sem11_0 : DmaSem sig := 51
abbrev cc4_sem11_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem3_0 : DmaSem sig := 57
abbrev cc5_sem3_1 : DmaSem sig := 58
abbrev cc6_sem0_0 : DmaSem sig := 59
abbrev cc6_sem1_0 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc7_sem0_0 : DmaSem sig := 67
abbrev cc7_sem1_0 : DmaSem sig := 68
abbrev cc7_sem2_0 : DmaSem sig := 69
abbrev cc7_sem3_0 : DmaSem sig := 70
abbrev cc8_sem0_0 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem6_0 : DmaSem sig := 77
abbrev cc8_sem7_0 : DmaSem sig := 78
abbrev cc9_sem0_0 : DmaSem sig := 79
abbrev cc9_sem1_0 : DmaSem sig := 80
abbrev cc9_sem2_0 : DmaSem sig := 81
abbrev cc9_sem3_0 : DmaSem sig := 82
abbrev cc10_sem0_0 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88
abbrev cc10_sem6_0 : DmaSem sig := 89
abbrev cc10_sem7_0 : DmaSem sig := 90
abbrev cc11_sem0_0 : DmaSem sig := 91
abbrev cc11_sem1_0 : DmaSem sig := 92
abbrev cc11_sem2_0 : DmaSem sig := 93
abbrev cc11_sem3_0 : DmaSem sig := 94
abbrev cc12_sem0_0 : DmaSem sig := 95
abbrev cc12_sem0_1 : DmaSem sig := 96
abbrev cc12_sem1_0 : DmaSem sig := 97
abbrev cc12_sem1_1 : DmaSem sig := 98
abbrev cc12_sem2_0 : DmaSem sig := 99
abbrev cc12_sem2_1 : DmaSem sig := 100
abbrev cc12_sem3_0 : DmaSem sig := 101
abbrev cc12_sem3_1 : DmaSem sig := 102
abbrev cc12_sem4_0 : DmaSem sig := 103
abbrev cc12_sem5_0 : DmaSem sig := 104
abbrev cc12_sem6_0 : DmaSem sig := 105
abbrev cc12_sem7_0 : DmaSem sig := 106
abbrev cc12_sem8_0 : DmaSem sig := 107
abbrev cc12_sem9_0 : DmaSem sig := 108
abbrev cc12_sem9_1 : DmaSem sig := 109
abbrev cc12_sem10_0 : DmaSem sig := 110
abbrev cc12_sem10_1 : DmaSem sig := 111
abbrev cc12_sem11_0 : DmaSem sig := 112
abbrev cc12_sem11_1 : DmaSem sig := 113
abbrev cc13_sem0_0 : DmaSem sig := 114
abbrev cc13_sem0_1 : DmaSem sig := 115
abbrev cc13_sem1_0 : DmaSem sig := 116
abbrev cc13_sem2_0 : DmaSem sig := 117
abbrev cc13_sem3_0 : DmaSem sig := 118
abbrev cc13_sem3_1 : DmaSem sig := 119
abbrev cc14_sem0_0 : DmaSem sig := 120
abbrev cc14_sem1_0 : DmaSem sig := 121
abbrev cc14_sem2_0 : DmaSem sig := 122
abbrev cc14_sem3_0 : DmaSem sig := 123
abbrev cc14_sem4_0 : DmaSem sig := 124
abbrev cc14_sem5_0 : DmaSem sig := 125
abbrev cc14_sem6_0 : DmaSem sig := 126
abbrev cc14_sem7_0 : DmaSem sig := 127
abbrev cc15_sem0_0 : DmaSem sig := 128
abbrev cc15_sem1_0 : DmaSem sig := 129
abbrev cc15_sem2_0 : DmaSem sig := 130
abbrev cc15_sem3_0 : DmaSem sig := 131
abbrev cc16_sem0_0 : DmaSem sig := 132
abbrev cc16_sem1_0 : DmaSem sig := 133
abbrev cc16_sem2_0 : DmaSem sig := 134
abbrev cc16_sem3_0 : DmaSem sig := 135
abbrev cc16_sem4_0 : DmaSem sig := 136
abbrev cc16_sem5_0 : DmaSem sig := 137
abbrev cc16_sem6_0 : DmaSem sig := 138
abbrev cc16_sem7_0 : DmaSem sig := 139
abbrev cc17_sem0_0 : DmaSem sig := 140
abbrev cc17_sem1_0 : DmaSem sig := 141
abbrev cc17_sem2_0 : DmaSem sig := 142
abbrev cc17_sem3_0 : DmaSem sig := 143
abbrev cc18_sem0_0 : DmaSem sig := 144
abbrev cc18_sem1_0 : DmaSem sig := 145
abbrev cc18_sem2_0 : DmaSem sig := 146
abbrev cc18_sem3_0 : DmaSem sig := 147
abbrev cc18_sem4_0 : DmaSem sig := 148
abbrev cc18_sem5_0 : DmaSem sig := 149
abbrev cc18_sem6_0 : DmaSem sig := 150
abbrev cc18_sem7_0 : DmaSem sig := 151
abbrev cc19_sem0_0 : DmaSem sig := 152
abbrev cc19_sem1_0 : DmaSem sig := 153
abbrev cc19_sem2_0 : DmaSem sig := 154
abbrev cc19_sem3_0 : DmaSem sig := 155

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![2, 25], ![false, false]⟩

def cc4_transform_0 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_10 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_11 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S1x1x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, false]

abbrev stage4_11 : Fin 2 → Memref sig .tc .vmem S1x1x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S2000x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2000x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S2000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2000x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S5000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S5000x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S5000x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S5000x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S5000x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S3000x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S3000x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S3000x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S3000x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S3000x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev grid12 : Pipeline.Grid := ⟨2, ![2, 25], ![false, false]⟩

def cc12_transform_0 (i : grid12.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc12_transform_1 (i : grid12.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc12_transform_2 (i : grid12.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc12_transform_3 (i : grid12.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc12_transform_10 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_11 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S2000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, true]

abbrev stage12_2 : Fin 2 → Memref sig .tc .vmem S2000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true]

abbrev stage12_4 : Fin 1 → Memref sig .tc .vmem S128x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false, false]

abbrev stage12_5 : Fin 1 → Memref sig .tc .vmem S128x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false, false]

abbrev stage12_6 : Fin 1 → Memref sig .tc .vmem S128x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false, false]

abbrev stage12_7 : Fin 1 → Memref sig .tc .vmem S128x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false, false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false, false]

abbrev stage12_9 : Fin 2 → Memref sig .tc .vmem S2000x128 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true, true]

abbrev stage12_10 : Fin 2 → Memref sig .tc .vmem S1x1x128 .f32 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true, false]

abbrev stage12_11 : Fin 2 → Memref sig .tc .vmem S1x1x128 .f32 := fun | 0 => Memref.whole cc12_stg11_0 | 1 => Memref.whole cc12_stg11_1 | ⟨_ + 2, h⟩ => absurd h (Nat.not_lt.2 (Nat.le_add_left _ _))
abbrev sem12_11 : Fin 2 → DmaSem sig := fun | 0 => cc12_sem11_0 | 1 => cc12_sem11_1 | ⟨_ + 2, h⟩ => absurd h (Nat.not_lt.2 (Nat.le_add_left _ _))
abbrev reads12_11 : Fin grid12.rank → Bool := ![true, false]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 1 → Memref sig .tc .vmem S2000x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S2000x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true]

abbrev stage14_2 : Fin 1 → Memref sig .tc .vmem S128x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S2000x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![true]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S1x128 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S2000x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S2000x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S5000x128 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S5000x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![true]

abbrev stage16_2 : Fin 1 → Memref sig .tc .vmem S128x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S5000x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![true]

abbrev stage16_6 : Fin 1 → Memref sig .tc .vmem S1x128 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 1 → Memref sig .tc .vmem S1x128 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S5000x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S5000x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_6 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_7 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 1 → Memref sig .tc .vmem S3000x128 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S3000x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![true]

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S128x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S3000x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![true]

abbrev stage18_6 : Fin 1 → Memref sig .tc .vmem S1x128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev stage18_7 : Fin 1 → Memref sig .tc .vmem S1x128 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))
abbrev reads18_7 : Fin grid18.rank → Bool := ![false]

abbrev grid19 : Pipeline.Grid := ⟨1, ![1], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 1 → Memref sig .tc .vmem S3000x128 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S3000x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![true]

class Facts₀ : Prop where
  transposes_S128x128_S128x128_1_0 : S128x128.Transposes [1, 0] S128x128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  shapeCasts_S1x128_S1x1x128 : S1x128.ShapeCasts S1x1x128
  shapeCasts_S1x1x128_S1x1x128 : S1x1x128.ShapeCasts S1x1x128
  reducesTo_S2x1x128_S128_d0_1 : S2x1x128.ReducesTo [0, 1] S128
  h_S_ : 0 < S_.numel
  slices_S2x128_S1x128_0_0 : S2x128.Slices ![0, 0] S1x128
  shapeCasts_S1x128_S128 : S1x128.ShapeCasts S128
  bcast_S_S128 : S_.BroadcastsInDim S128 (![] : Fin 0 → Fin S128.rank)
  shapeCasts_S2000x128_S2000x128 : S2000x128.ShapeCasts S2000x128
  slices_S2x128_S1x128_1_0 : S2x128.Slices ![1, 0] S1x128
  reduces_S2000x128_S2000 : S2000x128.Reduces [1] S2000
  shapeCasts_S2000_S2000x1 : S2000.ShapeCasts S2000x1
  broadcasts_S2000x1_S2000x128 : S2000x1.Broadcasts S2000x128
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S2000 : S_.BroadcastsInDim S2000 (![] : Fin 0 → Fin S2000.rank)
  bcast_S_S5000 : S_.BroadcastsInDim S5000 (![] : Fin 0 → Fin S5000.rank)
  bcast_S_S3000 : S_.BroadcastsInDim S3000 (![] : Fin 0 → Fin S3000.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S2000x128 : S_.BroadcastsInDim S2000x128 (![] : Fin 0 → Fin S2000x128.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S_S5000x128 : S_.BroadcastsInDim S5000x128 (![] : Fin 0 → Fin S5000x128.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S_S3000x128 : S_.BroadcastsInDim S3000x128 (![] : Fin 0 → Fin S3000x128.rank)
  bcast_S3000_S3000x1_0 : S3000.BroadcastsInDim S3000x1 (![0] : Fin 1 → Fin S3000x1.rank)
  bcast_S3000x1_S3000x128_0_1 : S3000x1.BroadcastsInDim S3000x128 (![0, 1] : Fin 2 → Fin S3000x128.rank)
  slices_S2x6x128x128_S1x1x128x128_0_1_0_0 : S2x6x128x128.Slices ![0, 1, 0, 0] S1x1x128x128
  shapeCasts_S1x1x128x128_S128x128 : S1x1x128x128.ShapeCasts S128x128
  slices_S2x6x128x128_S1x1x128x128_0_3_0_0 : S2x6x128x128.Slices ![0, 3, 0, 0] S1x1x128x128
  slices_S2x6x128x128_S1x1x128x128_0_5_0_0 : S2x6x128x128.Slices ![0, 5, 0, 0] S1x1x128x128
  slices_S2x6x128_S1x1x128_0_1_0 : S2x6x128.Slices ![0, 1, 0] S1x1x128
  shapeCasts_S1x1x128_S128 : S1x1x128.ShapeCasts S128
  slices_S2x6x128_S1x1x128_0_3_0 : S2x6x128.Slices ![0, 3, 0] S1x1x128
  slices_S2x6x128_S1x1x128_0_5_0 : S2x6x128.Slices ![0, 5, 0] S1x1x128
  slices_S2x4x128_S1x1x128_0_0_0 : S2x4x128.Slices ![0, 0, 0] S1x1x128
  slices_S2x6x128x128_S1x1x128x128_0_0_0_0 : S2x6x128x128.Slices ![0, 0, 0, 0] S1x1x128x128
  slices_S2x6x128_S1x1x128_0_0_0 : S2x6x128.Slices ![0, 0, 0] S1x1x128
  slices_S2x4x128_S1x1x128_0_1_0 : S2x4x128.Slices ![0, 1, 0] S1x1x128
  slices_S2x6x128x128_S1x1x128x128_0_2_0_0 : S2x6x128x128.Slices ![0, 2, 0, 0] S1x1x128x128
  slices_S2x6x128_S1x1x128_0_2_0 : S2x6x128.Slices ![0, 2, 0] S1x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S128 : S5000x128.Reduces [0] S128
  slices_S2x4x128_S1x1x128_0_2_0 : S2x4x128.Slices ![0, 2, 0] S1x1x128
  slices_S2x6x128x128_S1x1x128x128_0_4_0_0 : S2x6x128x128.Slices ![0, 4, 0, 0] S1x1x128x128
  slices_S2x6x128_S1x1x128_0_4_0 : S2x6x128.Slices ![0, 4, 0] S1x1x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  broadcasts_S1x128_S3000x128 : S1x128.Broadcasts S3000x128
  reduces_S3000x128_S128 : S3000x128.Reduces [0] S128
  slices_S2x4x128_S1x1x128_0_3_0 : S2x4x128.Slices ![0, 3, 0] S1x1x128
  slices_S2x6x128x128_S1x1x128x128_1_1_0_0 : S2x6x128x128.Slices ![1, 1, 0, 0] S1x1x128x128
  slices_S2x6x128x128_S1x1x128x128_1_3_0_0 : S2x6x128x128.Slices ![1, 3, 0, 0] S1x1x128x128
  slices_S2x6x128x128_S1x1x128x128_1_5_0_0 : S2x6x128x128.Slices ![1, 5, 0, 0] S1x1x128x128
  slices_S2x6x128_S1x1x128_1_1_0 : S2x6x128.Slices ![1, 1, 0] S1x1x128
  slices_S2x6x128_S1x1x128_1_3_0 : S2x6x128.Slices ![1, 3, 0] S1x1x128
  slices_S2x6x128_S1x1x128_1_5_0 : S2x6x128.Slices ![1, 5, 0] S1x1x128
  slices_S2x4x128_S1x1x128_1_0_0 : S2x4x128.Slices ![1, 0, 0] S1x1x128
  slices_S2x6x128x128_S1x1x128x128_1_0_0_0 : S2x6x128x128.Slices ![1, 0, 0, 0] S1x1x128x128
  slices_S2x6x128_S1x1x128_1_0_0 : S2x6x128.Slices ![1, 0, 0] S1x1x128
  slices_S2x4x128_S1x1x128_1_1_0 : S2x4x128.Slices ![1, 1, 0] S1x1x128
  slices_S2x6x128x128_S1x1x128x128_1_2_0_0 : S2x6x128x128.Slices ![1, 2, 0, 0] S1x1x128x128
  slices_S2x6x128_S1x1x128_1_2_0 : S2x6x128.Slices ![1, 2, 0] S1x1x128
  slices_S2x4x128_S1x1x128_1_2_0 : S2x4x128.Slices ![1, 2, 0] S1x1x128
  slices_S2x6x128x128_S1x1x128x128_1_4_0_0 : S2x6x128x128.Slices ![1, 4, 0, 0] S1x1x128x128
  slices_S2x6x128_S1x1x128_1_4_0 : S2x6x128.Slices ![1, 4, 0] S1x1x128
  slices_S2x4x128_S1x1x128_1_3_0 : S2x4x128.Slices ![1, 3, 0] S1x1x128
  concatenates_S100000x128_S2000x128_S5000x128_S3000x128_S110000x128_d0 : Shape.Concatenates [S100000x128, S2000x128, S5000x128, S3000x128] S110000x128 0
  dot_S2000x128_S128x128_S2000x128_1_0_0_1_n_n_wf : DotDims.WF S2000x128 S128x128 S2000x128 [1] [0] [0] [1] [] []
  scatter_S100000_S800000x1_S800000_n_0_0_1_wf : ScatterDims.WF S100000 S800000x1 S800000 [] [0] [0] 1
  scatter_S100000_S400000x1_S400000_n_0_0_1_wf : ScatterDims.WF S100000 S400000x1 S400000 [] [0] [0] 1
  scatter_S2000_S800000x1_S800000_n_0_0_1_wf : ScatterDims.WF S2000 S800000x1 S800000 [] [0] [0] 1
  scatter_S5000_S400000x1_S400000_n_0_0_1_wf : ScatterDims.WF S5000 S400000x1 S400000 [] [0] [0] 1
  scatter_S3000_S400000x1_S400000_n_0_0_1_wf : ScatterDims.WF S3000 S400000x1 S400000 [] [0] [0] 1
  gather_S2000x128_S800000x1_S800000x128_1_0_n_n_0_1_1128_wf : GatherDims.WF S2000x128 S800000x1 S800000x128 [1] [0] [] [0] [] 1 ![1, 128]
  scatter_S100000x128_S800000x1_S800000x128_1_0_0_1_wf : ScatterDims.WF S100000x128 S800000x1 S800000x128 [1] [0] [0] 1
  gather_S5000x128_S400000x1_S400000x128_1_0_n_n_0_1_1128_wf : GatherDims.WF S5000x128 S400000x1 S400000x128 [1] [0] [] [0] [] 1 ![1, 128]
  scatter_S100000x128_S400000x1_S400000x128_1_0_0_1_wf : ScatterDims.WF S100000x128 S400000x1 S400000x128 [1] [0] [0] 1
  gather_S3000x128_S400000x1_S400000x128_1_0_n_n_0_1_1128_wf : GatherDims.WF S3000x128 S400000x1 S400000x128 [1] [0] [] [0] [] 1 ![1, 128]
  gather_S100000x128_S800000x1_S800000x128_1_0_n_n_0_1_1128_wf : GatherDims.WF S100000x128 S800000x1 S800000x128 [1] [0] [] [0] [] 1 ![1, 128]
  scatter_S2000x128_S800000x1_S800000x128_1_0_0_1_wf : ScatterDims.WF S2000x128 S800000x1 S800000x128 [1] [0] [0] 1
  gather_S100000x128_S400000x1_S400000x128_1_0_n_n_0_1_1128_wf : GatherDims.WF S100000x128 S400000x1 S400000x128 [1] [0] [] [0] [] 1 ![1, 128]
  scatter_S5000x128_S400000x1_S400000x128_1_0_0_1_wf : ScatterDims.WF S5000x128 S400000x1 S400000x128 [1] [0] [0] 1
  scatter_S3000x128_S400000x1_S400000x128_1_0_0_1_wf : ScatterDims.WF S3000x128 S400000x1 S400000x128 [1] [0] [0] 1
  dot_S5000x128_S128x128_S5000x128_1_0_0_1_n_n_wf : DotDims.WF S5000x128 S128x128 S5000x128 [1] [0] [0] [1] [] []
  dot_S3000x128_S128x128_S3000x128_1_0_0_1_n_n_wf : DotDims.WF S3000x128 S128x128 S3000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S2x1x128.size a
  hwx1_6 : ∀ i : grid1.Coords, EltTy.bits .f32 = 32 ∨ (Rect.block (s := S2x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S2x1x128.size a
  hwx1_7 : ∀ i : grid1.Coords, EltTy.bits .f32 = 32 ∨ (Rect.block (s := S2x1x128) S1x1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S100000x128.size a
  hwx4_9 : ∀ i : grid4.Coords, EltTy.bits .f32 = 32 ∨ (Rect.block (s := S100000x128) S2000x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S1x1x128.size a ≤ S2x1x128.size a
  hwx4_10 : ∀ i : grid4.Coords, EltTy.bits .f32 = 32 ∨ (Rect.block (s := S2x1x128) S1x1x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1x1x128.size a ≤ S2x1x128.size a
  hwx4_11 : ∀ i : grid4.Coords, EltTy.bits .f32 = 32 ∨ (Rect.block (s := S2x1x128) S1x1x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S2000x128.size a
  hwx6_0 : ∀ i : grid6.Coords, EltTy.bits .f32 = 32 ∨ (Rect.block (s := S2000x128) S2000x128.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S2000x128.size a
  hwx6_1 : ∀ i : grid6.Coords, EltTy.bits .f32 = 32 ∨ (Rect.block (s := S2000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 1
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S2000x128.size a
  hwx6_5 : ∀ i : grid6.Coords, EltTy.bits .f32 = 32 ∨ (Rect.block (s := S2000x128) S2000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S2000x128.size a
  hwx7_0 : ∀ i : grid7.Coords, EltTy.bits .f32 = 32 ∨ (Rect.block (s := S2000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S2000x128.size a
  hwx7_3 : ∀ i : grid7.Coords, EltTy.bits .f32 = 32 ∨ (Rect.block (s := S2000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S5000x128.size a
  hwx8_0 : ∀ i : grid8.Coords, EltTy.bits .f32 = 32 ∨ (Rect.block (s := S5000x128) S5000x128.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S5000x128.size a
  hwx8_1 : ∀ i : grid8.Coords, EltTy.bits .f32 = 32 ∨ (Rect.block (s := S5000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 1
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S5000x128.size a
  hwx8_5 : ∀ i : grid8.Coords, EltTy.bits .f32 = 32 ∨ (Rect.block (s := S5000x128) S5000x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S5000x128.size a
  hwx9_0 : ∀ i : grid9.Coords, EltTy.bits .f32 = 32 ∨ (Rect.block (s := S5000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S5000x128.size a
  hwx9_3 : ∀ i : grid9.Coords, EltTy.bits .f32 = 32 ∨ (Rect.block (s := S5000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S3000x128.size a ≤ S3000x128.size a
  hwx10_0 : ∀ i : grid10.Coords, EltTy.bits .f32 = 32 ∨ (Rect.block (s := S3000x128) S3000x128.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S3000x128.size a ≤ S3000x128.size a
  hwx10_1 : ∀ i : grid10.Coords, EltTy.bits .f32 = 32 ∨ (Rect.block (s := S3000x128) S3000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 1
  hreads10_5 : ∀ i i' : grid10.Coords, (∀ a, reads10_5 a = true → i a = i' a) → cc10_transform_5 i = cc10_transform_5 i'
  hinb10_5 : ∀ (i : grid10.Coords) a, (cc10_transform_5 i a + 1) * S3000x128.size a ≤ S3000x128.size a
  hwx10_5 : ∀ i : grid10.Coords, EltTy.bits .f32 = 32 ∨ (Rect.block (s := S3000x128) S3000x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S3000x128.size a ≤ S3000x128.size a
  hwx11_0 : ∀ i : grid11.Coords, EltTy.bits .f32 = 32 ∨ (Rect.block (s := S3000x128) S3000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S3000x128.size a ≤ S3000x128.size a
  hwx11_3 : ∀ i : grid11.Coords, EltTy.bits .f32 = 32 ∨ (Rect.block (s := S3000x128) S3000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S100000x128.size a
  hwx12_0 : ∀ i : grid12.Coords, EltTy.bits .f32 = 32 ∨ (Rect.block (s := S100000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x128.size a ≤ S100000x128.size a
  hwx12_1 : ∀ i : grid12.Coords, EltTy.bits .f32 = 32 ∨ (Rect.block (s := S100000x128) S2000x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x128.size a ≤ S100000x128.size a
  hwx12_2 : ∀ i : grid12.Coords, EltTy.bits .f32 = 32 ∨ (Rect.block (s := S100000x128) S2000x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S100000x128.size a
  hwx12_3 : ∀ i : grid12.Coords, EltTy.bits .f32 = 32 ∨ (Rect.block (s := S100000x128) S2000x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128x128.size a ≤ S128x128.size a
  hwx12_4 : ∀ i : grid12.Coords, EltTy.bits .f32 = 32 ∨ (Rect.block (s := S128x128) S128x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x128.size a ≤ S128x128.size a
  hwx12_5 : ∀ i : grid12.Coords, EltTy.bits .f32 = 32 ∨ (Rect.block (s := S128x128) S128x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S128x128.size a ≤ S128x128.size a
  hwx12_6 : ∀ i : grid12.Coords, EltTy.bits .f32 = 32 ∨ (Rect.block (s := S128x128) S128x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S128x128.size a ≤ S128x128.size a
  hwx12_7 : ∀ i : grid12.Coords, EltTy.bits .f32 = 32 ∨ (Rect.block (s := S128x128) S128x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S2000x128.size a ≤ S100000x128.size a
  hwx12_9 : ∀ i : grid12.Coords, EltTy.bits .f32 = 32 ∨ (Rect.block (s := S100000x128) S2000x128.size (cc12_transform_9 i) (hinb12_9 i)).WholeWords (EltTy.packing .f32)
  hstage12_10 : ∀ j, (stage12_10 j).IsWhole
  nbuf12_10 : grid12.bufCount reads12_10 false = 2
  hreads12_10 : ∀ i i' : grid12.Coords, (∀ a, reads12_10 a = true → i a = i' a) → cc12_transform_10 i = cc12_transform_10 i'
  hinb12_10 : ∀ (i : grid12.Coords) a, (cc12_transform_10 i a + 1) * S1x1x128.size a ≤ S2x1x128.size a
  hwx12_10 : ∀ i : grid12.Coords, EltTy.bits .f32 = 32 ∨ (Rect.block (s := S2x1x128) S1x1x128.size (cc12_transform_10 i) (hinb12_10 i)).WholeWords (EltTy.packing .f32)
  hstage12_11 : ∀ j, (stage12_11 j).IsWhole
  nbuf12_11 : grid12.bufCount reads12_11 false = 2
  hreads12_11 : ∀ i i' : grid12.Coords, (∀ a, reads12_11 a = true → i a = i' a) → cc12_transform_11 i = cc12_transform_11 i'
  hinb12_11 : ∀ (i : grid12.Coords) a, (cc12_transform_11 i a + 1) * S1x1x128.size a ≤ S2x1x128.size a
  hwx12_11 : ∀ i : grid12.Coords, EltTy.bits .f32 = 32 ∨ (Rect.block (s := S2x1x128) S1x1x128.size (cc12_transform_11 i) (hinb12_11 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S100000x128.size a
  hwx13_0 : ∀ i : grid13.Coords, EltTy.bits .f32 = 32 ∨ (Rect.block (s := S100000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S100000x128.size a
  hwx13_3 : ∀ i : grid13.Coords, EltTy.bits .f32 = 32 ∨ (Rect.block (s := S100000x128) S2000x128.size (cc13_transform_3 i) (hinb13_3 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S2000x128.size a
  hwx14_0 : ∀ i : grid14.Coords, EltTy.bits .f32 = 32 ∨ (Rect.block (s := S2000x128) S2000x128.size (cc14_transform_0 i) (hinb14_0 i)).WholeWords (EltTy.packing .f32)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S2000x128.size a ≤ S2000x128.size a
  hwx14_1 : ∀ i : grid14.Coords, EltTy.bits .f32 = 32 ∨ (Rect.block (s := S2000x128) S2000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x128.size a ≤ S128x128.size a
  hwx14_2 : ∀ i : grid14.Coords, EltTy.bits .f32 = 32 ∨ (Rect.block (s := S128x128) S128x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x128.size a ≤ S128x128.size a
  hwx14_3 : ∀ i : grid14.Coords, EltTy.bits .f32 = 32 ∨ (Rect.block (s := S128x128) S128x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 1
  hreads14_5 : ∀ i i' : grid14.Coords, (∀ a, reads14_5 a = true → i a = i' a) → cc14_transform_5 i = cc14_transform_5 i'
  hinb14_5 : ∀ (i : grid14.Coords) a, (cc14_transform_5 i a + 1) * S2000x128.size a ≤ S2000x128.size a
  hwx14_5 : ∀ i : grid14.Coords, EltTy.bits .f32 = 32 ∨ (Rect.block (s := S2000x128) S2000x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S1x128.size a ≤ S1x128.size a
  hwx14_7 : ∀ i : grid14.Coords, EltTy.bits .f32 = 32 ∨ (Rect.block (s := S1x128) S1x128.size (cc14_transform_7 i) (hinb14_7 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S2000x128.size a
  hwx15_0 : ∀ i : grid15.Coords, EltTy.bits .f32 = 32 ∨ (Rect.block (s := S2000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 1
  hreads15_3 : ∀ i i' : grid15.Coords, (∀ a, reads15_3 a = true → i a = i' a) → cc15_transform_3 i = cc15_transform_3 i'
  hinb15_3 : ∀ (i : grid15.Coords) a, (cc15_transform_3 i a + 1) * S2000x128.size a ≤ S2000x128.size a
  hwx15_3 : ∀ i : grid15.Coords, EltTy.bits .f32 = 32 ∨ (Rect.block (s := S2000x128) S2000x128.size (cc15_transform_3 i) (hinb15_3 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S5000x128.size a
  hwx16_0 : ∀ i : grid16.Coords, EltTy.bits .f32 = 32 ∨ (Rect.block (s := S5000x128) S5000x128.size (cc16_transform_0 i) (hinb16_0 i)).WholeWords (EltTy.packing .f32)
  hstage16_1 : ∀ j, (stage16_1 j).IsWhole
  nbuf16_1 : grid16.bufCount reads16_1 false = 1
  hreads16_1 : ∀ i i' : grid16.Coords, (∀ a, reads16_1 a = true → i a = i' a) → cc16_transform_1 i = cc16_transform_1 i'
  hinb16_1 : ∀ (i : grid16.Coords) a, (cc16_transform_1 i a + 1) * S5000x128.size a ≤ S5000x128.size a
  hwx16_1 : ∀ i : grid16.Coords, EltTy.bits .f32 = 32 ∨ (Rect.block (s := S5000x128) S5000x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S128x128.size a ≤ S128x128.size a
  hwx16_2 : ∀ i : grid16.Coords, EltTy.bits .f32 = 32 ∨ (Rect.block (s := S128x128) S128x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x128.size a ≤ S128x128.size a
  hwx16_3 : ∀ i : grid16.Coords, EltTy.bits .f32 = 32 ∨ (Rect.block (s := S128x128) S128x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 false = 1
  hreads16_5 : ∀ i i' : grid16.Coords, (∀ a, reads16_5 a = true → i a = i' a) → cc16_transform_5 i = cc16_transform_5 i'
  hinb16_5 : ∀ (i : grid16.Coords) a, (cc16_transform_5 i a + 1) * S5000x128.size a ≤ S5000x128.size a
  hwx16_5 : ∀ i : grid16.Coords, EltTy.bits .f32 = 32 ∨ (Rect.block (s := S5000x128) S5000x128.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x128.size a ≤ S1x128.size a
  hwx16_6 : ∀ i : grid16.Coords, EltTy.bits .f32 = 32 ∨ (Rect.block (s := S1x128) S1x128.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S1x128.size a ≤ S1x128.size a
  hwx16_7 : ∀ i : grid16.Coords, EltTy.bits .f32 = 32 ∨ (Rect.block (s := S1x128) S1x128.size (cc16_transform_7 i) (hinb16_7 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S5000x128.size a
  hwx17_0 : ∀ i : grid17.Coords, EltTy.bits .f32 = 32 ∨ (Rect.block (s := S5000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 1
  hreads17_3 : ∀ i i' : grid17.Coords, (∀ a, reads17_3 a = true → i a = i' a) → cc17_transform_3 i = cc17_transform_3 i'
  hinb17_3 : ∀ (i : grid17.Coords) a, (cc17_transform_3 i a + 1) * S5000x128.size a ≤ S5000x128.size a
  hwx17_3 : ∀ i : grid17.Coords, EltTy.bits .f32 = 32 ∨ (Rect.block (s := S5000x128) S5000x128.size (cc17_transform_3 i) (hinb17_3 i)).WholeWords (EltTy.packing .f32)
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S3000x128.size a ≤ S3000x128.size a
  hwx18_0 : ∀ i : grid18.Coords, EltTy.bits .f32 = 32 ∨ (Rect.block (s := S3000x128) S3000x128.size (cc18_transform_0 i) (hinb18_0 i)).WholeWords (EltTy.packing .f32)
  hstage18_1 : ∀ j, (stage18_1 j).IsWhole
  nbuf18_1 : grid18.bufCount reads18_1 false = 1
  hreads18_1 : ∀ i i' : grid18.Coords, (∀ a, reads18_1 a = true → i a = i' a) → cc18_transform_1 i = cc18_transform_1 i'
  hinb18_1 : ∀ (i : grid18.Coords) a, (cc18_transform_1 i a + 1) * S3000x128.size a ≤ S3000x128.size a
  hwx18_1 : ∀ i : grid18.Coords, EltTy.bits .f32 = 32 ∨ (Rect.block (s := S3000x128) S3000x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x128.size a ≤ S128x128.size a
  hwx18_2 : ∀ i : grid18.Coords, EltTy.bits .f32 = 32 ∨ (Rect.block (s := S128x128) S128x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128x128.size a ≤ S128x128.size a
  hwx18_3 : ∀ i : grid18.Coords, EltTy.bits .f32 = 32 ∨ (Rect.block (s := S128x128) S128x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 false = 1
  hreads18_5 : ∀ i i' : grid18.Coords, (∀ a, reads18_5 a = true → i a = i' a) → cc18_transform_5 i = cc18_transform_5 i'
  hinb18_5 : ∀ (i : grid18.Coords) a, (cc18_transform_5 i a + 1) * S3000x128.size a ≤ S3000x128.size a
  hwx18_5 : ∀ i : grid18.Coords, EltTy.bits .f32 = 32 ∨ (Rect.block (s := S3000x128) S3000x128.size (cc18_transform_5 i) (hinb18_5 i)).WholeWords (EltTy.packing .f32)
  hstage18_6 : ∀ j, (stage18_6 j).IsWhole
  nbuf18_6 : grid18.bufCount reads18_6 true = 1
  hreads18_6 : ∀ i i' : grid18.Coords, (∀ a, reads18_6 a = true → i a = i' a) → cc18_transform_6 i = cc18_transform_6 i'
  hinb18_6 : ∀ (i : grid18.Coords) a, (cc18_transform_6 i a + 1) * S1x128.size a ≤ S1x128.size a
  hwx18_6 : ∀ i : grid18.Coords, EltTy.bits .f32 = 32 ∨ (Rect.block (s := S1x128) S1x128.size (cc18_transform_6 i) (hinb18_6 i)).WholeWords (EltTy.packing .f32)
  hstage18_7 : ∀ j, (stage18_7 j).IsWhole
  nbuf18_7 : grid18.bufCount reads18_7 true = 1
  hreads18_7 : ∀ i i' : grid18.Coords, (∀ a, reads18_7 a = true → i a = i' a) → cc18_transform_7 i = cc18_transform_7 i'
  hinb18_7 : ∀ (i : grid18.Coords) a, (cc18_transform_7 i a + 1) * S1x128.size a ≤ S1x128.size a
  hwx18_7 : ∀ i : grid18.Coords, EltTy.bits .f32 = 32 ∨ (Rect.block (s := S1x128) S1x128.size (cc18_transform_7 i) (hinb18_7 i)).WholeWords (EltTy.packing .f32)
  hrank19 : 0 < grid19.rank
  hstage19_0 : ∀ j, (stage19_0 j).IsWhole
  nbuf19_0 : grid19.bufCount reads19_0 false = 1
  hreads19_0 : ∀ i i' : grid19.Coords, (∀ a, reads19_0 a = true → i a = i' a) → cc19_transform_0 i = cc19_transform_0 i'
  hinb19_0 : ∀ (i : grid19.Coords) a, (cc19_transform_0 i a + 1) * S3000x128.size a ≤ S3000x128.size a
  hwx19_0 : ∀ i : grid19.Coords, EltTy.bits .f32 = 32 ∨ (Rect.block (s := S3000x128) S3000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hstage19_3 : ∀ j, (stage19_3 j).IsWhole
  nbuf19_3 : grid19.bufCount reads19_3 false = 1
  hreads19_3 : ∀ i i' : grid19.Coords, (∀ a, reads19_3 a = true → i a = i' a) → cc19_transform_3 i = cc19_transform_3 i'
  hinb19_3 : ∀ (i : grid19.Coords) a, (cc19_transform_3 i a + 1) * S3000x128.size a ≤ S3000x128.size a
  hwx19_3 : ∀ i : grid19.Coords, EltTy.bits .f32 = 32 ∨ (Rect.block (s := S3000x128) S3000x128.size (cc19_transform_3 i) (hinb19_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def scatter_S2000_S800000x1_S800000_n_0_0_1 : ScatterDims S2000 S800000x1 S800000 where
  updateWindowDims := []
  insertedWindowDims := [0]
  scatterDimsToOperandDims := [0]
  indexVectorDim := 1
  wf := scatter_S2000_S800000x1_S800000_n_0_0_1_wf
def scatter_S5000_S400000x1_S400000_n_0_0_1 : ScatterDims S5000 S400000x1 S400000 where
  updateWindowDims := []
  insertedWindowDims := [0]
  scatterDimsToOperandDims := [0]
  indexVectorDim := 1
  wf := scatter_S5000_S400000x1_S400000_n_0_0_1_wf
def scatter_S3000_S400000x1_S400000_n_0_0_1 : ScatterDims S3000 S400000x1 S400000 where
  updateWindowDims := []
  insertedWindowDims := [0]
  scatterDimsToOperandDims := [0]
  indexVectorDim := 1
  wf := scatter_S3000_S400000x1_S400000_n_0_0_1_wf
def gather_S2000x128_S800000x1_S800000x128_1_0_n_n_0_1_1128 : GatherDims S2000x128 S800000x1 S800000x128 where
  offsetDims := [1]
  collapsedSliceDims := [0]
  operandBatchingDims := []
  startIndicesBatchingDims := []
  startIndexMap := [0]
  indexVectorDim := 1
  sliceSizes := ![1, 128]
  wf := gather_S2000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S5000x128_S400000x1_S400000x128_1_0_n_n_0_1_1128 : GatherDims S5000x128 S400000x1 S400000x128 where
  offsetDims := [1]
  collapsedSliceDims := [0]
  operandBatchingDims := []
  startIndicesBatchingDims := []
  startIndexMap := [0]
  indexVectorDim := 1
  sliceSizes := ![1, 128]
  wf := gather_S5000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S3000x128_S400000x1_S400000x128_1_0_n_n_0_1_1128 : GatherDims S3000x128 S400000x1 S400000x128 where
  offsetDims := [1]
  collapsedSliceDims := [0]
  operandBatchingDims := []
  startIndicesBatchingDims := []
  startIndexMap := [0]
  indexVectorDim := 1
  sliceSizes := ![1, 128]
  wf := gather_S3000x128_S400000x1_S400000x128_1_0_n_n_0_1_1128_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S2000x128_S800000x1_S800000x128_1_0_0_1 : ScatterDims S2000x128 S800000x1 S800000x128 where
  updateWindowDims := [1]
  insertedWindowDims := [0]
  scatterDimsToOperandDims := [0]
  indexVectorDim := 1
  wf := scatter_S2000x128_S800000x1_S800000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S5000x128_S400000x1_S400000x128_1_0_0_1 : ScatterDims S5000x128 S400000x1 S400000x128 where
  updateWindowDims := [1]
  insertedWindowDims := [0]
  scatterDimsToOperandDims := [0]
  indexVectorDim := 1
  wf := scatter_S5000x128_S400000x1_S400000x128_1_0_0_1_wf
def scatter_S3000x128_S400000x1_S400000x128_1_0_0_1 : ScatterDims S3000x128 S400000x1 S400000x128 where
  updateWindowDims := [1]
  insertedWindowDims := [0]
  scatterDimsToOperandDims := [0]
  indexVectorDim := 1
  wf := scatter_S3000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S1x1x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v25_2) S1x1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v25_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v110) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v123) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v136) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v49) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v194) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v197) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v200) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v201) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v202) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v203_0) S2000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v203_1) S1x1x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v203_2) S1x1x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v203_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v222) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v223) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v224) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v149) S2000x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S2000x128.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v227) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v230) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v233) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v234_0) S2000x128.size cc6_transform_5 reads6_5 true false 1 stage6_5 sem6_5
    hrank6 hreads6_5 hinb6_5 nbuf6_5 (Memref.isWhole_whole _) hwx6_5 hstage6_5

abbrev win6_6 : Pipeline.Window sig grid6 :=
  Pipeline.Window.ofSpec (Memref.whole main_v234_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v234_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v234_0) S2000x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v253) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v254) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v255) S2000x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v162) S5000x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg2) S5000x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v258) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v261) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v264) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v265_0) S5000x128.size cc8_transform_5 reads8_5 true false 1 stage8_5 sem8_5
    hrank8 hreads8_5 hinb8_5 nbuf8_5 (Memref.isWhole_whole _) hwx8_5 hstage8_5

abbrev win8_6 : Pipeline.Window sig grid8 :=
  Pipeline.Window.ofSpec (Memref.whole main_v265_1) S1x128.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v265_2) S1x128.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v265_0) S5000x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v284) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v285) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v286) S5000x128.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v175) S3000x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_arg3) S3000x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v289) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v292) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v295) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v296_0) S3000x128.size cc10_transform_5 reads10_5 true false 1 stage10_5 sem10_5
    hrank10 hreads10_5 hinb10_5 nbuf10_5 (Memref.isWhole_whole _) hwx10_5 hstage10_5

abbrev win10_6 : Pipeline.Window sig grid10 :=
  Pipeline.Window.ofSpec (Memref.whole main_v296_1) S1x128.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v296_2) S1x128.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v296_0) S3000x128.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v315) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v316) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v317) S3000x128.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v330) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v343) S2000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v356) S2000x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v224) S2000x128.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v414) S128x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v417) S128x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v420) S128x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v421) S128x128.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v422) S1x128.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v423_0) S2000x128.size cc12_transform_9 reads12_9 true false 2 stage12_9 sem12_9
    hrank12 hreads12_9 hinb12_9 nbuf12_9 (Memref.isWhole_whole _) hwx12_9 hstage12_9

abbrev win12_10 : Pipeline.Window sig grid12 :=
  Pipeline.Window.ofSpec (Memref.whole main_v423_1) S1x1x128.size cc12_transform_10 reads12_10 true false 2 stage12_10 sem12_10
    hrank12 hreads12_10 hinb12_10 nbuf12_10 (Memref.isWhole_whole _) hwx12_10 hstage12_10

abbrev win12_11 : Pipeline.Window sig grid12 :=
  Pipeline.Window.ofSpec (Memref.whole main_v423_2) S1x1x128.size cc12_transform_11 reads12_11 true false 2 stage12_11 sem12_11
    hrank12 hreads12_11 hinb12_11 nbuf12_11 (Memref.isWhole_whole _) hwx12_11 hstage12_11

abbrev win12 : Fin 12 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | ⟨_ + 12, h⟩ => absurd h (Nat.not_lt.2 (Nat.le_add_left _ _))
abbrev spec12 : Fin 12 → Pipeline.WinSpec sig grid12.rank := fun w => (win12 w).toWinSpec

abbrev win13_0 : Pipeline.Window sig grid13 :=
  Pipeline.Window.ofSpec (Memref.whole main_v423_0) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v442) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v443) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v444) S2000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v369) S2000x128.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v255) S2000x128.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v447) S128x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v450) S128x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v453) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v454_0) S2000x128.size cc14_transform_5 reads14_5 true false 1 stage14_5 sem14_5
    hrank14 hreads14_5 hinb14_5 nbuf14_5 (Memref.isWhole_whole _) hwx14_5 hstage14_5

abbrev win14_6 : Pipeline.Window sig grid14 :=
  Pipeline.Window.ofSpec (Memref.whole main_v454_1) S1x128.size cc14_transform_6 reads14_6 true true 1 stage14_6 sem14_6
    hrank14 hreads14_6 hinb14_6 nbuf14_6 (Memref.isWhole_whole _) hwx14_6 hstage14_6

abbrev win14_7 : Pipeline.Window sig grid14 :=
  Pipeline.Window.ofSpec (Memref.whole main_v454_2) S1x128.size cc14_transform_7 reads14_7 true true 1 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v454_0) S2000x128.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_v473) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v474) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v475) S2000x128.size cc15_transform_3 reads15_3 true false 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v382) S5000x128.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_v286) S5000x128.size cc16_transform_1 reads16_1 false false 1 stage16_1 sem16_1
    hrank16 hreads16_1 hinb16_1 nbuf16_1 (Memref.isWhole_whole _) hwx16_1 hstage16_1

abbrev win16_2 : Pipeline.Window sig grid16 :=
  Pipeline.Window.ofSpec (Memref.whole main_v478) S128x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v481) S128x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v484) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v485_0) S5000x128.size cc16_transform_5 reads16_5 true false 1 stage16_5 sem16_5
    hrank16 hreads16_5 hinb16_5 nbuf16_5 (Memref.isWhole_whole _) hwx16_5 hstage16_5

abbrev win16_6 : Pipeline.Window sig grid16 :=
  Pipeline.Window.ofSpec (Memref.whole main_v485_1) S1x128.size cc16_transform_6 reads16_6 true true 1 stage16_6 sem16_6
    hrank16 hreads16_6 hinb16_6 nbuf16_6 (Memref.isWhole_whole _) hwx16_6 hstage16_6

abbrev win16_7 : Pipeline.Window sig grid16 :=
  Pipeline.Window.ofSpec (Memref.whole main_v485_2) S1x128.size cc16_transform_7 reads16_7 true true 1 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

abbrev win17_0 : Pipeline.Window sig grid17 :=
  Pipeline.Window.ofSpec (Memref.whole main_v485_0) S5000x128.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v504) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v505) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v506) S5000x128.size cc17_transform_3 reads17_3 true false 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v395) S3000x128.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v317) S3000x128.size cc18_transform_1 reads18_1 false false 1 stage18_1 sem18_1
    hrank18 hreads18_1 hinb18_1 nbuf18_1 (Memref.isWhole_whole _) hwx18_1 hstage18_1

abbrev win18_2 : Pipeline.Window sig grid18 :=
  Pipeline.Window.ofSpec (Memref.whole main_v509) S128x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v512) S128x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v515) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v516_0) S3000x128.size cc18_transform_5 reads18_5 true false 1 stage18_5 sem18_5
    hrank18 hreads18_5 hinb18_5 nbuf18_5 (Memref.isWhole_whole _) hwx18_5 hstage18_5

abbrev win18_6 : Pipeline.Window sig grid18 :=
  Pipeline.Window.ofSpec (Memref.whole main_v516_1) S1x128.size cc18_transform_6 reads18_6 true true 1 stage18_6 sem18_6
    hrank18 hreads18_6 hinb18_6 nbuf18_6 (Memref.isWhole_whole _) hwx18_6 hstage18_6

abbrev win18_7 : Pipeline.Window sig grid18 :=
  Pipeline.Window.ofSpec (Memref.whole main_v516_2) S1x128.size cc18_transform_7 reads18_7 true true 1 stage18_7 sem18_7
    hrank18 hreads18_7 hinb18_7 nbuf18_7 (Memref.isWhole_whole _) hwx18_7 hstage18_7

abbrev win18 : Fin 8 → Pipeline.Window sig grid18 := fun | 0 => win18_0 | 1 => win18_1 | 2 => win18_2 | 3 => win18_3 | 4 => win18_4 | 5 => win18_5 | 6 => win18_6 | 7 => win18_7 | ⟨_ + 8, h⟩ => absurd h (Nat.not_lt.2 (Nat.le_add_left _ _))
abbrev spec18 : Fin 8 → Pipeline.WinSpec sig grid18.rank := fun w => (win18 w).toWinSpec

abbrev win19_0 : Pipeline.Window sig grid19 :=
  Pipeline.Window.ofSpec (Memref.whole main_v516_0) S3000x128.size cc19_transform_0 reads19_0 false false 1 stage19_0 sem19_0
    hrank19 hreads19_0 hinb19_0 nbuf19_0 (Memref.isWhole_whole _) hwx19_0 hstage19_0

abbrev win19_1 : Pipeline.Window sig grid19 :=
  Pipeline.Window.ofSpec (Memref.whole main_v535) S1x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v536) S1x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v537) S3000x128.size cc19_transform_3 reads19_3 true false 1 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

class Facts : Prop extends Facts₀ where

variable [Facts]
-- ==== ReferenceIdeal.lean ====
abbrev S100000x128 : Shape := ⟨2, ![100000, 128]⟩
abbrev S2000x128 : Shape := ⟨2, ![2000, 128]⟩
abbrev S5000x128 : Shape := ⟨2, ![5000, 128]⟩
abbrev S3000x128 : Shape := ⟨2, ![3000, 128]⟩
abbrev S128x128 : Shape := ⟨2, ![128, 128]⟩
abbrev S128 : Shape := ⟨1, ![128]⟩
abbrev S2x128 : Shape := ⟨2, ![2, 128]⟩
abbrev S2x6x128x128 : Shape := ⟨4, ![2, 6, 128, 128]⟩
abbrev S2x6x128 : Shape := ⟨3, ![2, 6, 128]⟩
abbrev S2x4x128 : Shape := ⟨3, ![2, 4, 128]⟩
abbrev S800000 : Shape := ⟨1, ![800000]⟩
abbrev S400000 : Shape := ⟨1, ![400000]⟩
abbrev S1x128 : Shape := ⟨2, ![1, 128]⟩
abbrev S_ : Shape := ⟨0, ![]⟩
abbrev S100000 : Shape := ⟨1, ![100000]⟩
abbrev S100000x1 : Shape := ⟨2, ![100000, 1]⟩
abbrev S1x1x128x128 : Shape := ⟨4, ![1, 1, 128, 128]⟩
abbrev S1x1x128 : Shape := ⟨3, ![1, 1, 128]⟩
abbrev S800000x1 : Shape := ⟨2, ![800000, 1]⟩
abbrev S800000x128 : Shape := ⟨2, ![800000, 128]⟩
abbrev S400000x1 : Shape := ⟨2, ![400000, 1]⟩
abbrev S400000x128 : Shape := ⟨2, ![400000, 128]⟩
abbrev S2000 : Shape := ⟨1, ![2000]⟩
abbrev S2000x1 : Shape := ⟨2, ![2000, 1]⟩
abbrev S5000 : Shape := ⟨1, ![5000]⟩
abbrev S5000x1 : Shape := ⟨2, ![5000, 1]⟩
abbrev S3000 : Shape := ⟨1, ![3000]⟩
abbrev S3000x1 : Shape := ⟨2, ![3000, 1]⟩
abbrev S110000x128 : Shape := ⟨2, ![110000, 128]⟩

abbrev nBuf : Space → Nat
  | .hbm => 1031
  | .vmem => 0
  | .smem => 0
  | _ => 0

abbrev hbmTy0_0 (i : Nat) : BufTy := match i % 128 with
  | 0 => ⟨S100000x128, .f32⟩
  | 1 => ⟨S2000x128, .f32⟩
  | 2 => ⟨S5000x128, .f32⟩
  | 3 => ⟨S3000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S2x128, .f32⟩
  | 11 => ⟨S2x128, .f32⟩
  | 12 => ⟨S2x6x128x128, .f32⟩
  | 13 => ⟨S2x6x128, .f32⟩
  | 14 => ⟨S2x6x128x128, .f32⟩
  | 15 => ⟨S2x4x128, .f32⟩
  | 16 => ⟨S2x4x128, .f32⟩
  | 17 => ⟨S800000, .i32⟩
  | 18 => ⟨S800000, .i32⟩
  | 19 => ⟨S400000, .i32⟩
  | 20 => ⟨S400000, .i32⟩
  | 21 => ⟨S400000, .i32⟩
  | 22 => ⟨S400000, .i32⟩
  | 23 => ⟨S128x128, .f32⟩
  | 24 => ⟨S100000x128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S128x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S100000x128, .f32⟩
  | 101 => ⟨S100000x128, .f32⟩
  | 102 => ⟨S100000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S128x128, .f32⟩
  | 8 => ⟨S100000x128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S100000, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S100000x128, .f32⟩
  | 21 => ⟨S100000x128, .f32⟩
  | 22 => ⟨S1x1x128x128, .f32⟩
  | 23 => ⟨S128x128, .f32⟩
  | 24 => ⟨S1x1x128, .f32⟩
  | 25 => ⟨S128, .f32⟩
  | 26 => ⟨S1x1x128x128, .f32⟩
  | 27 => ⟨S128x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S100000x128, .f32⟩
  | 39 => ⟨S800000x1, .i32⟩
  | 40 => ⟨S100000x128, .f32⟩
  | 41 => ⟨S_, .f32⟩
  | 42 => ⟨S800000, .f32⟩
  | 43 => ⟨S_, .f32⟩
  | 44 => ⟨S100000, .f32⟩
  | 45 => ⟨S800000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S128x128, .f32⟩
  | 54 => ⟨S100000x128, .f32⟩
  | 55 => ⟨S1x128, .f32⟩
  | 56 => ⟨S100000x128, .f32⟩
  | 57 => ⟨S100000x128, .f32⟩
  | 58 => ⟨S128x128, .f32⟩
  | 59 => ⟨S100000x128, .f32⟩
  | 60 => ⟨S100000x128, .f32⟩
  | 61 => ⟨S1x1x128x128, .f32⟩
  | 62 => ⟨S128x128, .f32⟩
  | 63 => ⟨S1x1x128, .f32⟩
  | 64 => ⟨S128, .f32⟩
  | 65 => ⟨S1x1x128x128, .f32⟩
  | 66 => ⟨S128x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x128, .f32⟩
  | 76 => ⟨S_, .f32⟩
  | 77 => ⟨S100000x128, .f32⟩
  | 78 => ⟨S400000x1, .i32⟩
  | 79 => ⟨S100000x128, .f32⟩
  | 80 => ⟨S_, .f32⟩
  | 81 => ⟨S400000, .f32⟩
  | 82 => ⟨S_, .f32⟩
  | 83 => ⟨S100000, .f32⟩
  | 84 => ⟨S400000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S128x128, .f32⟩
  | 93 => ⟨S100000x128, .f32⟩
  | 94 => ⟨S1x128, .f32⟩
  | 95 => ⟨S100000x128, .f32⟩
  | 96 => ⟨S100000x128, .f32⟩
  | 97 => ⟨S128x128, .f32⟩
  | 98 => ⟨S100000x128, .f32⟩
  | 99 => ⟨S100000x128, .f32⟩
  | 100 => ⟨S100000x128, .f32⟩
  | 101 => ⟨S1x1x128x128, .f32⟩
  | 102 => ⟨S128x128, .f32⟩
  | 103 => ⟨S1x1x128, .f32⟩
  | 104 => ⟨S128, .f32⟩
  | 105 => ⟨S1x1x128x128, .f32⟩
  | 106 => ⟨S128x128, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S400000x128, .f32⟩
  | 116 => ⟨S_, .f32⟩
  | 117 => ⟨S100000x128, .f32⟩
  | 118 => ⟨S400000x1, .i32⟩
  | 119 => ⟨S100000x128, .f32⟩
  | 120 => ⟨S_, .f32⟩
  | 121 => ⟨S400000, .f32⟩
  | 122 => ⟨S_, .f32⟩
  | 123 => ⟨S100000, .f32⟩
  | 124 => ⟨S400000x1, .i32⟩
  | 125 => ⟨S100000, .f32⟩
  | 126 => ⟨S_, .f32⟩
  | 127 => ⟨S100000, .f32⟩
  | _ => ⟨S100000x128, .f32⟩

abbrev hbmTy0_2 (i : Nat) : BufTy := match i % 128 with
  | 0 => ⟨S100000, .f32⟩
  | 1 => ⟨S100000x1, .f32⟩
  | 2 => ⟨S100000x128, .f32⟩
  | 3 => ⟨S100000x128, .f32⟩
  | 4 => ⟨S128x128, .f32⟩
  | 5 => ⟨S100000x128, .f32⟩
  | 6 => ⟨S1x128, .f32⟩
  | 7 => ⟨S100000x128, .f32⟩
  | 8 => ⟨S100000x128, .f32⟩
  | 9 => ⟨S128x128, .f32⟩
  | 10 => ⟨S100000x128, .f32⟩
  | 11 => ⟨S100000x128, .f32⟩
  | 12 => ⟨S100000x128, .f32⟩
  | 13 => ⟨S1x1x128x128, .f32⟩
  | 14 => ⟨S128x128, .f32⟩
  | 15 => ⟨S1x1x128, .f32⟩
  | 16 => ⟨S128, .f32⟩
  | 17 => ⟨S1x1x128x128, .f32⟩
  | 18 => ⟨S128x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S2000x128, .f32⟩
  | 30 => ⟨S800000x1, .i32⟩
  | 31 => ⟨S2000x128, .f32⟩
  | 32 => ⟨S_, .f32⟩
  | 33 => ⟨S800000, .f32⟩
  | 34 => ⟨S_, .f32⟩
  | 35 => ⟨S2000, .f32⟩
  | 36 => ⟨S800000x1, .i32⟩
  | 37 => ⟨S2000, .f32⟩
  | 38 => ⟨S_, .f32⟩
  | 39 => ⟨S2000, .f32⟩
  | 40 => ⟨S2000, .f32⟩
  | 41 => ⟨S2000x1, .f32⟩
  | 42 => ⟨S2000x128, .f32⟩
  | 43 => ⟨S2000x128, .f32⟩
  | 44 => ⟨S128x128, .f32⟩
  | 45 => ⟨S2000x128, .f32⟩
  | 46 => ⟨S1x128, .f32⟩
  | 47 => ⟨S2000x128, .f32⟩
  | 48 => ⟨S2000x128, .f32⟩
  | 49 => ⟨S128x128, .f32⟩
  | 50 => ⟨S2000x128, .f32⟩
  | 51 => ⟨S2000x128, .f32⟩
  | 52 => ⟨S1x1x128x128, .f32⟩
  | 53 => ⟨S128x128, .f32⟩
  | 54 => ⟨S1x1x128, .f32⟩
  | 55 => ⟨S128, .f32⟩
  | 56 => ⟨S1x1x128x128, .f32⟩
  | 57 => ⟨S128x128, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S_, .f32⟩
  | 68 => ⟨S5000x128, .f32⟩
  | 69 => ⟨S400000x1, .i32⟩
  | 70 => ⟨S5000x128, .f32⟩
  | 71 => ⟨S_, .f32⟩
  | 72 => ⟨S400000, .f32⟩
  | 73 => ⟨S_, .f32⟩
  | 74 => ⟨S5000, .f32⟩
  | 75 => ⟨S400000x1, .i32⟩
  | 76 => ⟨S5000, .f32⟩
  | 77 => ⟨S_, .f32⟩
  | 78 => ⟨S5000, .f32⟩
  | 79 => ⟨S5000, .f32⟩
  | 80 => ⟨S5000x1, .f32⟩
  | 81 => ⟨S5000x128, .f32⟩
  | 82 => ⟨S5000x128, .f32⟩
  | 83 => ⟨S128x128, .f32⟩
  | 84 => ⟨S5000x128, .f32⟩
  | 85 => ⟨S1x128, .f32⟩
  | 86 => ⟨S5000x128, .f32⟩
  | 87 => ⟨S5000x128, .f32⟩
  | 88 => ⟨S128x128, .f32⟩
  | 89 => ⟨S5000x128, .f32⟩
  | 90 => ⟨S5000x128, .f32⟩
  | 91 => ⟨S1x1x128x128, .f32⟩
  | 92 => ⟨S128x128, .f32⟩
  | 93 => ⟨S1x1x128, .f32⟩
  | 94 => ⟨S128, .f32⟩
  | 95 => ⟨S1x1x128x128, .f32⟩
  | 96 => ⟨S128x128, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S_, .f32⟩
  | 107 => ⟨S3000x128, .f32⟩
  | 108 => ⟨S400000x1, .i32⟩
  | 109 => ⟨S3000x128, .f32⟩
  | 110 => ⟨S_, .f32⟩
  | 111 => ⟨S400000, .f32⟩
  | 112 => ⟨S_, .f32⟩
  | 113 => ⟨S3000, .f32⟩
  | 114 => ⟨S400000x1, .i32⟩
  | 115 => ⟨S3000, .f32⟩
  | 116 => ⟨S_, .f32⟩
  | 117 => ⟨S3000, .f32⟩
  | 118 => ⟨S3000, .f32⟩
  | 119 => ⟨S3000x1, .f32⟩
  | 120 => ⟨S3000x128, .f32⟩
  | 121 => ⟨S3000x128, .f32⟩
  | 122 => ⟨S128x128, .f32⟩
  | 123 => ⟨S3000x128, .f32⟩
  | 124 => ⟨S1x128, .f32⟩
  | 125 => ⟨S3000x128, .f32⟩
  | 126 => ⟨S3000x128, .f32⟩
  | 127 => ⟨S128x128, .f32⟩
  | _ => ⟨S100000x128, .f32⟩

abbrev hbmTy0_3 (i : Nat) : BufTy := match i % 128 with
  | 0 => ⟨S3000x128, .f32⟩
  | 1 => ⟨S3000x128, .f32⟩
  | 2 => ⟨S1x1x128, .f32⟩
  | 3 => ⟨S128, .f32⟩
  | 4 => ⟨S1x1x128, .f32⟩
  | 5 => ⟨S128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x1x128, .f32⟩
  | 54 => ⟨S128, .f32⟩
  | 55 => ⟨S1x1x128, .f32⟩
  | 56 => ⟨S128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S2000x128, .f32⟩
  | 70 => ⟨S2000x128, .f32⟩
  | 71 => ⟨S2000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S2000x128, .f32⟩
  | 87 => ⟨S2000x128, .f32⟩
  | 88 => ⟨S_, .f32⟩
  | 89 => ⟨S128, .f32⟩
  | 90 => ⟨S128, .f32⟩
  | 91 => ⟨S128, .f32⟩
  | 92 => ⟨S1x128, .f32⟩
  | 93 => ⟨S2000x128, .f32⟩
  | 94 => ⟨S2000x128, .f32⟩
  | 95 => ⟨S1x128, .f32⟩
  | 96 => ⟨S2000x128, .f32⟩
  | 97 => ⟨S2000x128, .f32⟩
  | 98 => ⟨S1x128, .f32⟩
  | 99 => ⟨S2000x128, .f32⟩
  | 100 => ⟨S2000x128, .f32⟩
  | 101 => ⟨S_, .f32⟩
  | 102 => ⟨S2000x128, .f32⟩
  | 103 => ⟨S2000x128, .f32⟩
  | 104 => ⟨S1x1x128, .f32⟩
  | 105 => ⟨S128, .f32⟩
  | 106 => ⟨S1x1x128, .f32⟩
  | 107 => ⟨S128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S5000x128, .f32⟩
  | 121 => ⟨S5000x128, .f32⟩
  | 122 => ⟨S5000x128, .f32⟩
  | 123 => ⟨S_, .f32⟩
  | 124 => ⟨S_, .f32⟩
  | 125 => ⟨S_, .f32⟩
  | 126 => ⟨S_, .f32⟩
  | 127 => ⟨S128, .f32⟩
  | _ => ⟨S100000x128, .f32⟩

abbrev hbmTy0_4 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S5000x128, .f32⟩
  | 10 => ⟨S5000x128, .f32⟩
  | 11 => ⟨S_, .f32⟩
  | 12 => ⟨S128, .f32⟩
  | 13 => ⟨S128, .f32⟩
  | 14 => ⟨S128, .f32⟩
  | 15 => ⟨S1x128, .f32⟩
  | 16 => ⟨S5000x128, .f32⟩
  | 17 => ⟨S5000x128, .f32⟩
  | 18 => ⟨S1x128, .f32⟩
  | 19 => ⟨S5000x128, .f32⟩
  | 20 => ⟨S5000x128, .f32⟩
  | 21 => ⟨S1x128, .f32⟩
  | 22 => ⟨S5000x128, .f32⟩
  | 23 => ⟨S5000x128, .f32⟩
  | 24 => ⟨S_, .f32⟩
  | 25 => ⟨S5000x128, .f32⟩
  | 26 => ⟨S5000x128, .f32⟩
  | 27 => ⟨S1x1x128, .f32⟩
  | 28 => ⟨S128, .f32⟩
  | 29 => ⟨S1x1x128, .f32⟩
  | 30 => ⟨S128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S3000x128, .f32⟩
  | 44 => ⟨S3000x128, .f32⟩
  | 45 => ⟨S3000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S3000x128, .f32⟩
  | 61 => ⟨S3000x128, .f32⟩
  | 62 => ⟨S_, .f32⟩
  | 63 => ⟨S128, .f32⟩
  | 64 => ⟨S128, .f32⟩
  | 65 => ⟨S128, .f32⟩
  | 66 => ⟨S1x128, .f32⟩
  | 67 => ⟨S3000x128, .f32⟩
  | 68 => ⟨S3000x128, .f32⟩
  | 69 => ⟨S1x128, .f32⟩
  | 70 => ⟨S3000x128, .f32⟩
  | 71 => ⟨S3000x128, .f32⟩
  | 72 => ⟨S1x128, .f32⟩
  | 73 => ⟨S3000x128, .f32⟩
  | 74 => ⟨S3000x128, .f32⟩
  | 75 => ⟨S_, .f32⟩
  | 76 => ⟨S3000x128, .f32⟩
  | 77 => ⟨S3000x128, .f32⟩
  | 78 => ⟨S1x1x128x128, .f32⟩
  | 79 => ⟨S128x128, .f32⟩
  | 80 => ⟨S1x1x128, .f32⟩
  | 81 => ⟨S128, .f32⟩
  | 82 => ⟨S1x1x128x128, .f32⟩
  | 83 => ⟨S128x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S100000x128, .f32⟩
  | 95 => ⟨S800000x1, .i32⟩
  | 96 => ⟨S100000x128, .f32⟩
  | 97 => ⟨S_, .f32⟩
  | 98 => ⟨S800000, .f32⟩
  | 99 => ⟨S_, .f32⟩
  | 100 => ⟨S100000, .f32⟩
  | 101 => ⟨S800000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x128, .f32⟩
  | 108 => ⟨S100000x128, .f32⟩
  | 109 => ⟨S128x128, .f32⟩
  | 110 => ⟨S100000x128, .f32⟩
  | 111 => ⟨S1x128, .f32⟩
  | 112 => ⟨S100000x128, .f32⟩
  | 113 => ⟨S100000x128, .f32⟩
  | 114 => ⟨S128x128, .f32⟩
  | 115 => ⟨S100000x128, .f32⟩
  | 116 => ⟨S100000x128, .f32⟩
  | 117 => ⟨S1x1x128x128, .f32⟩
  | 118 => ⟨S128x128, .f32⟩
  | 119 => ⟨S1x1x128, .f32⟩
  | 120 => ⟨S128, .f32⟩
  | 121 => ⟨S1x1x128x128, .f32⟩
  | 122 => ⟨S128x128, .f32⟩
  | 123 => ⟨S_, .i32⟩
  | 124 => ⟨S400000, .i32⟩
  | 125 => ⟨S400000, .i1⟩
  | 126 => ⟨S_, .i32⟩
  | 127 => ⟨S400000, .i32⟩
  | _ => ⟨S100000x128, .f32⟩

abbrev hbmTy0_5 (i : Nat) : BufTy := match i % 128 with
  | 0 => ⟨S400000, .i32⟩
  | 1 => ⟨S400000, .i32⟩
  | 2 => ⟨S400000x1, .i32⟩
  | 3 => ⟨S400000x128, .f32⟩
  | 4 => ⟨S_, .f32⟩
  | 5 => ⟨S100000x128, .f32⟩
  | 6 => ⟨S400000x1, .i32⟩
  | 7 => ⟨S100000x128, .f32⟩
  | 8 => ⟨S_, .f32⟩
  | 9 => ⟨S400000, .f32⟩
  | 10 => ⟨S_, .f32⟩
  | 11 => ⟨S100000, .f32⟩
  | 12 => ⟨S400000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S128x128, .f32⟩
  | 21 => ⟨S100000x128, .f32⟩
  | 22 => ⟨S1x128, .f32⟩
  | 23 => ⟨S100000x128, .f32⟩
  | 24 => ⟨S100000x128, .f32⟩
  | 25 => ⟨S128x128, .f32⟩
  | 26 => ⟨S100000x128, .f32⟩
  | 27 => ⟨S100000x128, .f32⟩
  | 28 => ⟨S100000x128, .f32⟩
  | 29 => ⟨S1x1x128x128, .f32⟩
  | 30 => ⟨S128x128, .f32⟩
  | 31 => ⟨S1x1x128, .f32⟩
  | 32 => ⟨S128, .f32⟩
  | 33 => ⟨S1x1x128x128, .f32⟩
  | 34 => ⟨S128x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S_, .f32⟩
  | 45 => ⟨S100000x128, .f32⟩
  | 46 => ⟨S400000x1, .i32⟩
  | 47 => ⟨S100000x128, .f32⟩
  | 48 => ⟨S_, .f32⟩
  | 49 => ⟨S400000, .f32⟩
  | 50 => ⟨S_, .f32⟩
  | 51 => ⟨S100000, .f32⟩
  | 52 => ⟨S400000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S128x128, .f32⟩
  | 61 => ⟨S100000x128, .f32⟩
  | 62 => ⟨S1x128, .f32⟩
  | 63 => ⟨S100000x128, .f32⟩
  | 64 => ⟨S100000x128, .f32⟩
  | 65 => ⟨S128x128, .f32⟩
  | 66 => ⟨S100000x128, .f32⟩
  | 67 => ⟨S100000x128, .f32⟩
  | 68 => ⟨S100000x128, .f32⟩
  | 69 => ⟨S1x1x128x128, .f32⟩
  | 70 => ⟨S128x128, .f32⟩
  | 71 => ⟨S1x1x128, .f32⟩
  | 72 => ⟨S128, .f32⟩
  | 73 => ⟨S1x1x128x128, .f32⟩
  | 74 => ⟨S128x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S2000x128, .f32⟩
  | 86 => ⟨S800000x1, .i32⟩
  | 87 => ⟨S2000x128, .f32⟩
  | 88 => ⟨S_, .f32⟩
  | 89 => ⟨S800000, .f32⟩
  | 90 => ⟨S_, .f32⟩
  | 91 => ⟨S2000, .f32⟩
  | 92 => ⟨S800000x1, .i32⟩
  | 93 => ⟨S2000, .f32⟩
  | 94 => ⟨S_, .f32⟩
  | 95 => ⟨S2000, .f32⟩
  | 96 => ⟨S2000, .f32⟩
  | 97 => ⟨S2000x1, .f32⟩
  | 98 => ⟨S2000x128, .f32⟩
  | 99 => ⟨S2000x128, .f32⟩
  | 100 => ⟨S128x128, .f32⟩
  | 101 => ⟨S2000x128, .f32⟩
  | 102 => ⟨S1x128, .f32⟩
  | 103 => ⟨S2000x128, .f32⟩
  | 104 => ⟨S2000x128, .f32⟩
  | 105 => ⟨S128x128, .f32⟩
  | 106 => ⟨S2000x128, .f32⟩
  | 107 => ⟨S2000x128, .f32⟩
  | 108 => ⟨S1x1x128x128, .f32⟩
  | 109 => ⟨S128x128, .f32⟩
  | 110 => ⟨S1x1x128, .f32⟩
  | 111 => ⟨S128, .f32⟩
  | 112 => ⟨S1x1x128x128, .f32⟩
  | 113 => ⟨S128x128, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x128, .f32⟩
  | 123 => ⟨S_, .f32⟩
  | 124 => ⟨S5000x128, .f32⟩
  | 125 => ⟨S400000x1, .i32⟩
  | 126 => ⟨S5000x128, .f32⟩
  | 127 => ⟨S_, .f32⟩
  | _ => ⟨S100000x128, .f32⟩

abbrev hbmTy0_6 (i : Nat) : BufTy := match i % 128 with
  | 0 => ⟨S400000, .f32⟩
  | 1 => ⟨S_, .f32⟩
  | 2 => ⟨S5000, .f32⟩
  | 3 => ⟨S400000x1, .i32⟩
  | 4 => ⟨S5000, .f32⟩
  | 5 => ⟨S_, .f32⟩
  | 6 => ⟨S5000, .f32⟩
  | 7 => ⟨S5000, .f32⟩
  | 8 => ⟨S5000x1, .f32⟩
  | 9 => ⟨S5000x128, .f32⟩
  | 10 => ⟨S5000x128, .f32⟩
  | 11 => ⟨S128x128, .f32⟩
  | 12 => ⟨S5000x128, .f32⟩
  | 13 => ⟨S1x128, .f32⟩
  | 14 => ⟨S5000x128, .f32⟩
  | 15 => ⟨S5000x128, .f32⟩
  | 16 => ⟨S128x128, .f32⟩
  | 17 => ⟨S5000x128, .f32⟩
  | 18 => ⟨S5000x128, .f32⟩
  | 19 => ⟨S1x1x128x128, .f32⟩
  | 20 => ⟨S128x128, .f32⟩
  | 21 => ⟨S1x1x128, .f32⟩
  | 22 => ⟨S128, .f32⟩
  | 23 => ⟨S1x1x128x128, .f32⟩
  | 24 => ⟨S128x128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .f32⟩
  | 35 => ⟨S3000x128, .f32⟩
  | 36 => ⟨S400000x1, .i32⟩
  | 37 => ⟨S3000x128, .f32⟩
  | 38 => ⟨S_, .f32⟩
  | 39 => ⟨S400000, .f32⟩
  | 40 => ⟨S_, .f32⟩
  | 41 => ⟨S3000, .f32⟩
  | 42 => ⟨S400000x1, .i32⟩
  | 43 => ⟨S3000, .f32⟩
  | 44 => ⟨S_, .f32⟩
  | 45 => ⟨S3000, .f32⟩
  | 46 => ⟨S3000, .f32⟩
  | 47 => ⟨S3000x1, .f32⟩
  | 48 => ⟨S3000x128, .f32⟩
  | 49 => ⟨S3000x128, .f32⟩
  | 50 => ⟨S128x128, .f32⟩
  | 51 => ⟨S3000x128, .f32⟩
  | 52 => ⟨S1x128, .f32⟩
  | 53 => ⟨S3000x128, .f32⟩
  | 54 => ⟨S3000x128, .f32⟩
  | 55 => ⟨S128x128, .f32⟩
  | 56 => ⟨S3000x128, .f32⟩
  | 57 => ⟨S3000x128, .f32⟩
  | 58 => ⟨S1x1x128, .f32⟩
  | 59 => ⟨S128, .f32⟩
  | 60 => ⟨S1x1x128, .f32⟩
  | 61 => ⟨S128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S_, .f32⟩
  | 94 => ⟨S128, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S1x1x128, .f32⟩
  | 110 => ⟨S128, .f32⟩
  | 111 => ⟨S1x1x128, .f32⟩
  | 112 => ⟨S128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S2000x128, .f32⟩
  | 126 => ⟨S2000x128, .f32⟩
  | 127 => ⟨S2000x128, .f32⟩
  | _ => ⟨S100000x128, .f32⟩

abbrev hbmTy0_7 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S2000x128, .f32⟩
  | 15 => ⟨S2000x128, .f32⟩
  | 16 => ⟨S_, .f32⟩
  | 17 => ⟨S128, .f32⟩
  | 18 => ⟨S128, .f32⟩
  | 19 => ⟨S128, .f32⟩
  | 20 => ⟨S1x128, .f32⟩
  | 21 => ⟨S2000x128, .f32⟩
  | 22 => ⟨S2000x128, .f32⟩
  | 23 => ⟨S1x128, .f32⟩
  | 24 => ⟨S2000x128, .f32⟩
  | 25 => ⟨S2000x128, .f32⟩
  | 26 => ⟨S1x128, .f32⟩
  | 27 => ⟨S2000x128, .f32⟩
  | 28 => ⟨S2000x128, .f32⟩
  | 29 => ⟨S_, .f32⟩
  | 30 => ⟨S2000x128, .f32⟩
  | 31 => ⟨S2000x128, .f32⟩
  | 32 => ⟨S1x1x128, .f32⟩
  | 33 => ⟨S128, .f32⟩
  | 34 => ⟨S1x1x128, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S5000x128, .f32⟩
  | 49 => ⟨S5000x128, .f32⟩
  | 50 => ⟨S5000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S5000x128, .f32⟩
  | 66 => ⟨S5000x128, .f32⟩
  | 67 => ⟨S_, .f32⟩
  | 68 => ⟨S128, .f32⟩
  | 69 => ⟨S128, .f32⟩
  | 70 => ⟨S128, .f32⟩
  | 71 => ⟨S1x128, .f32⟩
  | 72 => ⟨S5000x128, .f32⟩
  | 73 => ⟨S5000x128, .f32⟩
  | 74 => ⟨S1x128, .f32⟩
  | 75 => ⟨S5000x128, .f32⟩
  | 76 => ⟨S5000x128, .f32⟩
  | 77 => ⟨S1x128, .f32⟩
  | 78 => ⟨S5000x128, .f32⟩
  | 79 => ⟨S5000x128, .f32⟩
  | 80 => ⟨S_, .f32⟩
  | 81 => ⟨S5000x128, .f32⟩
  | 82 => ⟨S5000x128, .f32⟩
  | 83 => ⟨S1x1x128, .f32⟩
  | 84 => ⟨S128, .f32⟩
  | 85 => ⟨S1x1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S3000x128, .f32⟩
  | 100 => ⟨S3000x128, .f32⟩
  | 101 => ⟨S3000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S3000x128, .f32⟩
  | 117 => ⟨S3000x128, .f32⟩
  | 118 => ⟨S_, .f32⟩
  | 119 => ⟨S128, .f32⟩
  | 120 => ⟨S128, .f32⟩
  | 121 => ⟨S128, .f32⟩
  | 122 => ⟨S1x128, .f32⟩
  | 123 => ⟨S3000x128, .f32⟩
  | 124 => ⟨S3000x128, .f32⟩
  | 125 => ⟨S1x128, .f32⟩
  | 126 => ⟨S3000x128, .f32⟩
  | 127 => ⟨S3000x128, .f32⟩
  | _ => ⟨S100000x128, .f32⟩

abbrev hbmTy0_8 (i : Nat) : BufTy := match i % 128 with
  | 0 => ⟨S1x128, .f32⟩
  | 1 => ⟨S3000x128, .f32⟩
  | 2 => ⟨S3000x128, .f32⟩
  | 3 => ⟨S_, .f32⟩
  | 4 => ⟨S3000x128, .f32⟩
  | 5 => ⟨S3000x128, .f32⟩
  | 6 => ⟨S110000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_1 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_call1_cst : Ref sig .tc := ⟨.hbm, 76, rfl⟩
abbrev main_call1_v0 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_2 : Ref sig .tc := ⟨.hbm, 88, rfl⟩
abbrev main_v38 : Ref sig .tc := ⟨.hbm, 89, rfl⟩
abbrev main_cst_3 : Ref sig .tc := ⟨.hbm, 90, rfl⟩
abbrev main_v39 : Ref sig .tc := ⟨.hbm, 91, rfl⟩
abbrev main_v40 : Ref sig .tc := ⟨.hbm, 92, rfl⟩
abbrev main_c_4 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_cst_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_cst_1 : Ref sig .tc := ⟨.hbm, 104, rfl⟩
abbrev main_call2_v8 : Ref sig .tc := ⟨.hbm, 105, rfl⟩
abbrev main_call2_cst_2 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_cst_3 : Ref sig .tc := ⟨.hbm, 110, rfl⟩
abbrev main_call2_v12 : Ref sig .tc := ⟨.hbm, 111, rfl⟩
abbrev main_call2_cst_4 : Ref sig .tc := ⟨.hbm, 112, rfl⟩
abbrev main_call2_call0_v0 : Ref sig .tc := ⟨.hbm, 113, rfl⟩
abbrev main_call2_call0_v1 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_5 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_call3_cst : Ref sig .tc := ⟨.hbm, 132, rfl⟩
abbrev main_call3_v0 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_call4_v0 : Ref sig .tc := ⟨.hbm, 140, rfl⟩
abbrev main_call4_cst : Ref sig .tc := ⟨.hbm, 141, rfl⟩
abbrev main_call4_v1 : Ref sig .tc := ⟨.hbm, 142, rfl⟩
abbrev main_call4_v2 : Ref sig .tc := ⟨.hbm, 143, rfl⟩
abbrev main_v63 : Ref sig .tc := ⟨.hbm, 144, rfl⟩
abbrev main_cst_6 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_c_7 : Ref sig .tc := ⟨.hbm, 156, rfl⟩
abbrev main_v74 : Ref sig .tc := ⟨.hbm, 157, rfl⟩
abbrev main_v75 : Ref sig .tc := ⟨.hbm, 158, rfl⟩
abbrev main_c_8 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_cst_9 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_10 : Ref sig .tc := ⟨.hbm, 169, rfl⟩
abbrev main_v84 : Ref sig .tc := ⟨.hbm, 170, rfl⟩
abbrev main_cst_11 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_cst_12 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_c_13 : Ref sig .tc := ⟨.hbm, 195, rfl⟩
abbrev main_v107 : Ref sig .tc := ⟨.hbm, 196, rfl⟩
abbrev main_v108 : Ref sig .tc := ⟨.hbm, 197, rfl⟩
abbrev main_c_14 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_cst_15 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_cst_16 : Ref sig .tc := ⟨.hbm, 208, rfl⟩
abbrev main_v117 : Ref sig .tc := ⟨.hbm, 209, rfl⟩
abbrev main_cst_17 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_cst_18 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_c_19 : Ref sig .tc := ⟨.hbm, 235, rfl⟩
abbrev main_v141 : Ref sig .tc := ⟨.hbm, 236, rfl⟩
abbrev main_v142 : Ref sig .tc := ⟨.hbm, 237, rfl⟩
abbrev main_c_20 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_cst_21 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_cst_22 : Ref sig .tc := ⟨.hbm, 248, rfl⟩
abbrev main_v151 : Ref sig .tc := ⟨.hbm, 249, rfl⟩
abbrev main_cst_23 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_cst_24 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_c_25 : Ref sig .tc := ⟨.hbm, 275, rfl⟩
abbrev main_v175 : Ref sig .tc := ⟨.hbm, 276, rfl⟩
abbrev main_v176 : Ref sig .tc := ⟨.hbm, 277, rfl⟩
abbrev main_c_26 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_cst_27 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_cst_28 : Ref sig .tc := ⟨.hbm, 288, rfl⟩
abbrev main_v185 : Ref sig .tc := ⟨.hbm, 289, rfl⟩
abbrev main_cst_29 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_cst_30 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_c_31 : Ref sig .tc := ⟨.hbm, 314, rfl⟩
abbrev main_v208 : Ref sig .tc := ⟨.hbm, 315, rfl⟩
abbrev main_v209 : Ref sig .tc := ⟨.hbm, 316, rfl⟩
abbrev main_c_32 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_cst_33 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_34 : Ref sig .tc := ⟨.hbm, 327, rfl⟩
abbrev main_v218 : Ref sig .tc := ⟨.hbm, 328, rfl⟩
abbrev main_cst_35 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_cst_36 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_v237 : Ref sig .tc := ⟨.hbm, 349, rfl⟩
abbrev main_v238 : Ref sig .tc := ⟨.hbm, 350, rfl⟩
abbrev main_v239 : Ref sig .tc := ⟨.hbm, 351, rfl⟩
abbrev main_v240 : Ref sig .tc := ⟨.hbm, 352, rfl⟩
abbrev main_c_37 : Ref sig .tc := ⟨.hbm, 353, rfl⟩
abbrev main_v241 : Ref sig .tc := ⟨.hbm, 354, rfl⟩
abbrev main_v242 : Ref sig .tc := ⟨.hbm, 355, rfl⟩
abbrev main_c_38 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_cst_39 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_cst_40 : Ref sig .tc := ⟨.hbm, 366, rfl⟩
abbrev main_v251 : Ref sig .tc := ⟨.hbm, 367, rfl⟩
abbrev main_cst_41 : Ref sig .tc := ⟨.hbm, 368, rfl⟩
abbrev main_v252 : Ref sig .tc := ⟨.hbm, 369, rfl⟩
abbrev main_v253 : Ref sig .tc := ⟨.hbm, 370, rfl⟩
abbrev main_v254 : Ref sig .tc := ⟨.hbm, 371, rfl⟩
abbrev main_cst_42 : Ref sig .tc := ⟨.hbm, 372, rfl⟩
abbrev main_v255 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_v267 : Ref sig .tc := ⟨.hbm, 385, rfl⟩
abbrev main_v268 : Ref sig .tc := ⟨.hbm, 386, rfl⟩
abbrev main_v269 : Ref sig .tc := ⟨.hbm, 387, rfl⟩
abbrev main_v270 : Ref sig .tc := ⟨.hbm, 388, rfl⟩
abbrev main_v271 : Ref sig .tc := ⟨.hbm, 389, rfl⟩
abbrev main_cst_43 : Ref sig .tc := ⟨.hbm, 390, rfl⟩
abbrev main_v272 : Ref sig .tc := ⟨.hbm, 391, rfl⟩
abbrev main_cst_44 : Ref sig .tc := ⟨.hbm, 392, rfl⟩
abbrev main_v273 : Ref sig .tc := ⟨.hbm, 393, rfl⟩
abbrev main_v274 : Ref sig .tc := ⟨.hbm, 394, rfl⟩
abbrev main_c_45 : Ref sig .tc := ⟨.hbm, 395, rfl⟩
abbrev main_call5_cst : Ref sig .tc := ⟨.hbm, 396, rfl⟩
abbrev main_call5_v0 : Ref sig .tc := ⟨.hbm, 397, rfl⟩
abbrev main_call5_v1 : Ref sig .tc := ⟨.hbm, 398, rfl⟩
abbrev main_call5_cst_0 : Ref sig .tc := ⟨.hbm, 399, rfl⟩
abbrev main_call5_v2 : Ref sig .tc := ⟨.hbm, 400, rfl⟩
abbrev main_call5_v3 : Ref sig .tc := ⟨.hbm, 401, rfl⟩
abbrev main_call5_v4 : Ref sig .tc := ⟨.hbm, 402, rfl⟩
abbrev main_call5_v5 : Ref sig .tc := ⟨.hbm, 403, rfl⟩
abbrev main_call5_v6 : Ref sig .tc := ⟨.hbm, 404, rfl⟩
abbrev main_call5_v7 : Ref sig .tc := ⟨.hbm, 405, rfl⟩
abbrev main_call5_cst_1 : Ref sig .tc := ⟨.hbm, 406, rfl⟩
abbrev main_call5_v8 : Ref sig .tc := ⟨.hbm, 407, rfl⟩
abbrev main_call5_cst_2 : Ref sig .tc := ⟨.hbm, 408, rfl⟩
abbrev main_call5_v9 : Ref sig .tc := ⟨.hbm, 409, rfl⟩
abbrev main_call5_v10 : Ref sig .tc := ⟨.hbm, 410, rfl⟩
abbrev main_call5_v11 : Ref sig .tc := ⟨.hbm, 411, rfl⟩
abbrev main_call5_cst_3 : Ref sig .tc := ⟨.hbm, 412, rfl⟩
abbrev main_call5_v12 : Ref sig .tc := ⟨.hbm, 413, rfl⟩
abbrev main_call5_cst_4 : Ref sig .tc := ⟨.hbm, 414, rfl⟩
abbrev main_call5_call0_v0 : Ref sig .tc := ⟨.hbm, 415, rfl⟩
abbrev main_call5_call0_v1 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_cst_46 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_v286 : Ref sig .tc := ⟨.hbm, 429, rfl⟩
abbrev main_v287 : Ref sig .tc := ⟨.hbm, 430, rfl⟩
abbrev main_v288 : Ref sig .tc := ⟨.hbm, 431, rfl⟩
abbrev main_v289 : Ref sig .tc := ⟨.hbm, 432, rfl⟩
abbrev main_v290 : Ref sig .tc := ⟨.hbm, 433, rfl⟩
abbrev main_call6_cst : Ref sig .tc := ⟨.hbm, 434, rfl⟩
abbrev main_call6_v0 : Ref sig .tc := ⟨.hbm, 435, rfl⟩
abbrev main_v291 : Ref sig .tc := ⟨.hbm, 436, rfl⟩
abbrev main_v292 : Ref sig .tc := ⟨.hbm, 437, rfl⟩
abbrev main_v293 : Ref sig .tc := ⟨.hbm, 438, rfl⟩
abbrev main_v294 : Ref sig .tc := ⟨.hbm, 439, rfl⟩
abbrev main_v295 : Ref sig .tc := ⟨.hbm, 440, rfl⟩
abbrev main_cst_47 : Ref sig .tc := ⟨.hbm, 441, rfl⟩
abbrev main_v296 : Ref sig .tc := ⟨.hbm, 442, rfl⟩
abbrev main_cst_48 : Ref sig .tc := ⟨.hbm, 443, rfl⟩
abbrev main_v297 : Ref sig .tc := ⟨.hbm, 444, rfl⟩
abbrev main_v298 : Ref sig .tc := ⟨.hbm, 445, rfl⟩
abbrev main_c_49 : Ref sig .tc := ⟨.hbm, 446, rfl⟩
abbrev main_call7_cst : Ref sig .tc := ⟨.hbm, 447, rfl⟩
abbrev main_call7_v0 : Ref sig .tc := ⟨.hbm, 448, rfl⟩
abbrev main_call7_v1 : Ref sig .tc := ⟨.hbm, 449, rfl⟩
abbrev main_call7_cst_0 : Ref sig .tc := ⟨.hbm, 450, rfl⟩
abbrev main_call7_v2 : Ref sig .tc := ⟨.hbm, 451, rfl⟩
abbrev main_call7_v3 : Ref sig .tc := ⟨.hbm, 452, rfl⟩
abbrev main_call7_v4 : Ref sig .tc := ⟨.hbm, 453, rfl⟩
abbrev main_call7_v5 : Ref sig .tc := ⟨.hbm, 454, rfl⟩
abbrev main_call7_v6 : Ref sig .tc := ⟨.hbm, 455, rfl⟩
abbrev main_call7_v7 : Ref sig .tc := ⟨.hbm, 456, rfl⟩
abbrev main_call7_cst_1 : Ref sig .tc := ⟨.hbm, 457, rfl⟩
abbrev main_call7_v8 : Ref sig .tc := ⟨.hbm, 458, rfl⟩
abbrev main_call7_cst_2 : Ref sig .tc := ⟨.hbm, 459, rfl⟩
abbrev main_call7_v9 : Ref sig .tc := ⟨.hbm, 460, rfl⟩
abbrev main_call7_v10 : Ref sig .tc := ⟨.hbm, 461, rfl⟩
abbrev main_call7_v11 : Ref sig .tc := ⟨.hbm, 462, rfl⟩
abbrev main_call7_cst_3 : Ref sig .tc := ⟨.hbm, 463, rfl⟩
abbrev main_call7_v12 : Ref sig .tc := ⟨.hbm, 464, rfl⟩
abbrev main_call7_cst_4 : Ref sig .tc := ⟨.hbm, 465, rfl⟩
abbrev main_call7_call0_v0 : Ref sig .tc := ⟨.hbm, 466, rfl⟩
abbrev main_call7_call0_v1 : Ref sig .tc := ⟨.hbm, 467, rfl⟩
abbrev main_v299 : Ref sig .tc := ⟨.hbm, 468, rfl⟩
abbrev main_v300 : Ref sig .tc := ⟨.hbm, 469, rfl⟩
abbrev main_v301 : Ref sig .tc := ⟨.hbm, 470, rfl⟩
abbrev main_v302 : Ref sig .tc := ⟨.hbm, 471, rfl⟩
abbrev main_cst_50 : Ref sig .tc := ⟨.hbm, 472, rfl⟩
abbrev main_v303 : Ref sig .tc := ⟨.hbm, 473, rfl⟩
abbrev main_v304 : Ref sig .tc := ⟨.hbm, 474, rfl⟩
abbrev main_v305 : Ref sig .tc := ⟨.hbm, 475, rfl⟩
abbrev main_v306 : Ref sig .tc := ⟨.hbm, 476, rfl⟩
abbrev main_v307 : Ref sig .tc := ⟨.hbm, 477, rfl⟩
abbrev main_v308 : Ref sig .tc := ⟨.hbm, 478, rfl⟩
abbrev main_v309 : Ref sig .tc := ⟨.hbm, 479, rfl⟩
abbrev main_v310 : Ref sig .tc := ⟨.hbm, 480, rfl⟩
abbrev main_v311 : Ref sig .tc := ⟨.hbm, 481, rfl⟩
abbrev main_v312 : Ref sig .tc := ⟨.hbm, 482, rfl⟩
abbrev main_v313 : Ref sig .tc := ⟨.hbm, 483, rfl⟩
abbrev main_v314 : Ref sig .tc := ⟨.hbm, 484, rfl⟩
abbrev main_call8_cst : Ref sig .tc := ⟨.hbm, 485, rfl⟩
abbrev main_call8_v0 : Ref sig .tc := ⟨.hbm, 486, rfl⟩
abbrev main_v315 : Ref sig .tc := ⟨.hbm, 487, rfl⟩
abbrev main_v316 : Ref sig .tc := ⟨.hbm, 488, rfl⟩
abbrev main_v317 : Ref sig .tc := ⟨.hbm, 489, rfl⟩
abbrev main_v318 : Ref sig .tc := ⟨.hbm, 490, rfl⟩
abbrev main_v319 : Ref sig .tc := ⟨.hbm, 491, rfl⟩
abbrev main_cst_51 : Ref sig .tc := ⟨.hbm, 492, rfl⟩
abbrev main_v320 : Ref sig .tc := ⟨.hbm, 493, rfl⟩
abbrev main_cst_52 : Ref sig .tc := ⟨.hbm, 494, rfl⟩
abbrev main_v321 : Ref sig .tc := ⟨.hbm, 495, rfl⟩
abbrev main_v322 : Ref sig .tc := ⟨.hbm, 496, rfl⟩
abbrev main_c_53 : Ref sig .tc := ⟨.hbm, 497, rfl⟩
abbrev main_call9_cst : Ref sig .tc := ⟨.hbm, 498, rfl⟩
abbrev main_call9_v0 : Ref sig .tc := ⟨.hbm, 499, rfl⟩
abbrev main_call9_v1 : Ref sig .tc := ⟨.hbm, 500, rfl⟩
abbrev main_call9_cst_0 : Ref sig .tc := ⟨.hbm, 501, rfl⟩
abbrev main_call9_v2 : Ref sig .tc := ⟨.hbm, 502, rfl⟩
abbrev main_call9_v3 : Ref sig .tc := ⟨.hbm, 503, rfl⟩
abbrev main_call9_v4 : Ref sig .tc := ⟨.hbm, 504, rfl⟩
abbrev main_call9_v5 : Ref sig .tc := ⟨.hbm, 505, rfl⟩
abbrev main_call9_v6 : Ref sig .tc := ⟨.hbm, 506, rfl⟩
abbrev main_call9_v7 : Ref sig .tc := ⟨.hbm, 507, rfl⟩
abbrev main_call9_cst_1 : Ref sig .tc := ⟨.hbm, 508, rfl⟩
abbrev main_call9_v8 : Ref sig .tc := ⟨.hbm, 509, rfl⟩
abbrev main_call9_cst_2 : Ref sig .tc := ⟨.hbm, 510, rfl⟩
abbrev main_call9_v9 : Ref sig .tc := ⟨.hbm, 511, rfl⟩
abbrev main_call9_v10 : Ref sig .tc := ⟨.hbm, 512, rfl⟩
abbrev main_call9_v11 : Ref sig .tc := ⟨.hbm, 513, rfl⟩
abbrev main_call9_cst_3 : Ref sig .tc := ⟨.hbm, 514, rfl⟩
abbrev main_call9_v12 : Ref sig .tc := ⟨.hbm, 515, rfl⟩
abbrev main_call9_cst_4 : Ref sig .tc := ⟨.hbm, 516, rfl⟩
abbrev main_call9_call0_v0 : Ref sig .tc := ⟨.hbm, 517, rfl⟩
abbrev main_call9_call0_v1 : Ref sig .tc := ⟨.hbm, 518, rfl⟩
abbrev main_v323 : Ref sig .tc := ⟨.hbm, 519, rfl⟩
abbrev main_v324 : Ref sig .tc := ⟨.hbm, 520, rfl⟩
abbrev main_v325 : Ref sig .tc := ⟨.hbm, 521, rfl⟩
abbrev main_v326 : Ref sig .tc := ⟨.hbm, 522, rfl⟩
abbrev main_cst_54 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_v330 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_v334 : Ref sig .tc := ⟨.hbm, 531, rfl⟩
abbrev main_v335 : Ref sig .tc := ⟨.hbm, 532, rfl⟩
abbrev main_v336 : Ref sig .tc := ⟨.hbm, 533, rfl⟩
abbrev main_v337 : Ref sig .tc := ⟨.hbm, 534, rfl⟩
abbrev main_v338 : Ref sig .tc := ⟨.hbm, 535, rfl⟩
abbrev main_call10_cst : Ref sig .tc := ⟨.hbm, 536, rfl⟩
abbrev main_call10_v0 : Ref sig .tc := ⟨.hbm, 537, rfl⟩
abbrev main_v339 : Ref sig .tc := ⟨.hbm, 538, rfl⟩
abbrev main_v340 : Ref sig .tc := ⟨.hbm, 539, rfl⟩
abbrev main_v341 : Ref sig .tc := ⟨.hbm, 540, rfl⟩
abbrev main_v342 : Ref sig .tc := ⟨.hbm, 541, rfl⟩
abbrev main_v343 : Ref sig .tc := ⟨.hbm, 542, rfl⟩
abbrev main_cst_55 : Ref sig .tc := ⟨.hbm, 543, rfl⟩
abbrev main_v344 : Ref sig .tc := ⟨.hbm, 544, rfl⟩
abbrev main_cst_56 : Ref sig .tc := ⟨.hbm, 545, rfl⟩
abbrev main_v345 : Ref sig .tc := ⟨.hbm, 546, rfl⟩
abbrev main_v346 : Ref sig .tc := ⟨.hbm, 547, rfl⟩
abbrev main_c_57 : Ref sig .tc := ⟨.hbm, 548, rfl⟩
abbrev main_call11_cst : Ref sig .tc := ⟨.hbm, 549, rfl⟩
abbrev main_call11_v0 : Ref sig .tc := ⟨.hbm, 550, rfl⟩
abbrev main_call11_v1 : Ref sig .tc := ⟨.hbm, 551, rfl⟩
abbrev main_call11_cst_0 : Ref sig .tc := ⟨.hbm, 552, rfl⟩
abbrev main_call11_v2 : Ref sig .tc := ⟨.hbm, 553, rfl⟩
abbrev main_call11_v3 : Ref sig .tc := ⟨.hbm, 554, rfl⟩
abbrev main_call11_v4 : Ref sig .tc := ⟨.hbm, 555, rfl⟩
abbrev main_call11_v5 : Ref sig .tc := ⟨.hbm, 556, rfl⟩
abbrev main_call11_v6 : Ref sig .tc := ⟨.hbm, 557, rfl⟩
abbrev main_call11_v7 : Ref sig .tc := ⟨.hbm, 558, rfl⟩
abbrev main_call11_cst_1 : Ref sig .tc := ⟨.hbm, 559, rfl⟩
abbrev main_call11_v8 : Ref sig .tc := ⟨.hbm, 560, rfl⟩
abbrev main_call11_cst_2 : Ref sig .tc := ⟨.hbm, 561, rfl⟩
abbrev main_call11_v9 : Ref sig .tc := ⟨.hbm, 562, rfl⟩
abbrev main_call11_v10 : Ref sig .tc := ⟨.hbm, 563, rfl⟩
abbrev main_call11_v11 : Ref sig .tc := ⟨.hbm, 564, rfl⟩
abbrev main_call11_cst_3 : Ref sig .tc := ⟨.hbm, 565, rfl⟩
abbrev main_call11_v12 : Ref sig .tc := ⟨.hbm, 566, rfl⟩
abbrev main_call11_cst_4 : Ref sig .tc := ⟨.hbm, 567, rfl⟩
abbrev main_call11_call0_v0 : Ref sig .tc := ⟨.hbm, 568, rfl⟩
abbrev main_call11_call0_v1 : Ref sig .tc := ⟨.hbm, 569, rfl⟩
abbrev main_v347 : Ref sig .tc := ⟨.hbm, 570, rfl⟩
abbrev main_v348 : Ref sig .tc := ⟨.hbm, 571, rfl⟩
abbrev main_v349 : Ref sig .tc := ⟨.hbm, 572, rfl⟩
abbrev main_v350 : Ref sig .tc := ⟨.hbm, 573, rfl⟩
abbrev main_cst_58 : Ref sig .tc := ⟨.hbm, 574, rfl⟩
abbrev main_v351 : Ref sig .tc := ⟨.hbm, 575, rfl⟩
abbrev main_v352 : Ref sig .tc := ⟨.hbm, 576, rfl⟩
abbrev main_v353 : Ref sig .tc := ⟨.hbm, 577, rfl⟩
abbrev main_v354 : Ref sig .tc := ⟨.hbm, 578, rfl⟩
abbrev main_v355 : Ref sig .tc := ⟨.hbm, 579, rfl⟩
abbrev main_v356 : Ref sig .tc := ⟨.hbm, 580, rfl⟩
abbrev main_v357 : Ref sig .tc := ⟨.hbm, 581, rfl⟩
abbrev main_v358 : Ref sig .tc := ⟨.hbm, 582, rfl⟩
abbrev main_v359 : Ref sig .tc := ⟨.hbm, 583, rfl⟩
abbrev main_v360 : Ref sig .tc := ⟨.hbm, 584, rfl⟩
abbrev main_v361 : Ref sig .tc := ⟨.hbm, 585, rfl⟩
abbrev main_v362 : Ref sig .tc := ⟨.hbm, 586, rfl⟩
abbrev main_call12_cst : Ref sig .tc := ⟨.hbm, 587, rfl⟩
abbrev main_call12_v0 : Ref sig .tc := ⟨.hbm, 588, rfl⟩
abbrev main_v363 : Ref sig .tc := ⟨.hbm, 589, rfl⟩
abbrev main_v364 : Ref sig .tc := ⟨.hbm, 590, rfl⟩
abbrev main_v365 : Ref sig .tc := ⟨.hbm, 591, rfl⟩
abbrev main_v366 : Ref sig .tc := ⟨.hbm, 592, rfl⟩
abbrev main_v367 : Ref sig .tc := ⟨.hbm, 593, rfl⟩
abbrev main_v368 : Ref sig .tc := ⟨.hbm, 594, rfl⟩
abbrev main_v369 : Ref sig .tc := ⟨.hbm, 595, rfl⟩
abbrev main_c_59 : Ref sig .tc := ⟨.hbm, 596, rfl⟩
abbrev main_v370 : Ref sig .tc := ⟨.hbm, 597, rfl⟩
abbrev main_v371 : Ref sig .tc := ⟨.hbm, 598, rfl⟩
abbrev main_c_60 : Ref sig .tc := ⟨.hbm, 599, rfl⟩
abbrev main_v372 : Ref sig .tc := ⟨.hbm, 600, rfl⟩
abbrev main_v373 : Ref sig .tc := ⟨.hbm, 601, rfl⟩
abbrev main_v374 : Ref sig .tc := ⟨.hbm, 602, rfl⟩
abbrev main_v375 : Ref sig .tc := ⟨.hbm, 603, rfl⟩
abbrev main_v376 : Ref sig .tc := ⟨.hbm, 604, rfl⟩
abbrev main_cst_61 : Ref sig .tc := ⟨.hbm, 605, rfl⟩
abbrev main_v377 : Ref sig .tc := ⟨.hbm, 606, rfl⟩
abbrev main_v378 : Ref sig .tc := ⟨.hbm, 607, rfl⟩
abbrev main_v379 : Ref sig .tc := ⟨.hbm, 608, rfl⟩
abbrev main_cst_62 : Ref sig .tc := ⟨.hbm, 609, rfl⟩
abbrev main_v380 : Ref sig .tc := ⟨.hbm, 610, rfl⟩
abbrev main_cst_63 : Ref sig .tc := ⟨.hbm, 611, rfl⟩
abbrev main_v381 : Ref sig .tc := ⟨.hbm, 612, rfl⟩
abbrev main_v382 : Ref sig .tc := ⟨.hbm, 613, rfl⟩
abbrev main_v383 : Ref sig .tc := ⟨.hbm, 614, rfl⟩
abbrev main_cst_64 : Ref sig .tc := ⟨.hbm, 615, rfl⟩
abbrev main_v384 : Ref sig .tc := ⟨.hbm, 616, rfl⟩
abbrev main_v385 : Ref sig .tc := ⟨.hbm, 617, rfl⟩
abbrev main_v386 : Ref sig .tc := ⟨.hbm, 618, rfl⟩
abbrev main_v387 : Ref sig .tc := ⟨.hbm, 619, rfl⟩
abbrev main_v388 : Ref sig .tc := ⟨.hbm, 620, rfl⟩
abbrev main_v389 : Ref sig .tc := ⟨.hbm, 621, rfl⟩
abbrev main_v390 : Ref sig .tc := ⟨.hbm, 622, rfl⟩
abbrev main_v391 : Ref sig .tc := ⟨.hbm, 623, rfl⟩
abbrev main_v392 : Ref sig .tc := ⟨.hbm, 624, rfl⟩
abbrev main_v393 : Ref sig .tc := ⟨.hbm, 625, rfl⟩
abbrev main_v394 : Ref sig .tc := ⟨.hbm, 626, rfl⟩
abbrev main_v395 : Ref sig .tc := ⟨.hbm, 627, rfl⟩
abbrev main_v396 : Ref sig .tc := ⟨.hbm, 628, rfl⟩
abbrev main_v397 : Ref sig .tc := ⟨.hbm, 629, rfl⟩
abbrev main_v398 : Ref sig .tc := ⟨.hbm, 630, rfl⟩
abbrev main_v399 : Ref sig .tc := ⟨.hbm, 631, rfl⟩
abbrev main_v400 : Ref sig .tc := ⟨.hbm, 632, rfl⟩
abbrev main_v401 : Ref sig .tc := ⟨.hbm, 633, rfl⟩
abbrev main_v402 : Ref sig .tc := ⟨.hbm, 634, rfl⟩
abbrev main_c_65 : Ref sig .tc := ⟨.hbm, 635, rfl⟩
abbrev main_v403 : Ref sig .tc := ⟨.hbm, 636, rfl⟩
abbrev main_v404 : Ref sig .tc := ⟨.hbm, 637, rfl⟩
abbrev main_c_66 : Ref sig .tc := ⟨.hbm, 638, rfl⟩
abbrev main_v405 : Ref sig .tc := ⟨.hbm, 639, rfl⟩
abbrev main_v406 : Ref sig .tc := ⟨.hbm, 640, rfl⟩
abbrev main_v407 : Ref sig .tc := ⟨.hbm, 641, rfl⟩
abbrev main_v408 : Ref sig .tc := ⟨.hbm, 642, rfl⟩
abbrev main_v409 : Ref sig .tc := ⟨.hbm, 643, rfl⟩
abbrev main_cst_67 : Ref sig .tc := ⟨.hbm, 644, rfl⟩
abbrev main_v410 : Ref sig .tc := ⟨.hbm, 645, rfl⟩
abbrev main_v411 : Ref sig .tc := ⟨.hbm, 646, rfl⟩
abbrev main_v412 : Ref sig .tc := ⟨.hbm, 647, rfl⟩
abbrev main_cst_68 : Ref sig .tc := ⟨.hbm, 648, rfl⟩
abbrev main_v413 : Ref sig .tc := ⟨.hbm, 649, rfl⟩
abbrev main_cst_69 : Ref sig .tc := ⟨.hbm, 650, rfl⟩
abbrev main_v414 : Ref sig .tc := ⟨.hbm, 651, rfl⟩
abbrev main_v415 : Ref sig .tc := ⟨.hbm, 652, rfl⟩
abbrev main_v416 : Ref sig .tc := ⟨.hbm, 653, rfl⟩
abbrev main_cst_70 : Ref sig .tc := ⟨.hbm, 654, rfl⟩
abbrev main_v417 : Ref sig .tc := ⟨.hbm, 655, rfl⟩
abbrev main_v418 : Ref sig .tc := ⟨.hbm, 656, rfl⟩
abbrev main_v419 : Ref sig .tc := ⟨.hbm, 657, rfl⟩
abbrev main_v420 : Ref sig .tc := ⟨.hbm, 658, rfl⟩
abbrev main_v421 : Ref sig .tc := ⟨.hbm, 659, rfl⟩
abbrev main_v422 : Ref sig .tc := ⟨.hbm, 660, rfl⟩
abbrev main_v423 : Ref sig .tc := ⟨.hbm, 661, rfl⟩
abbrev main_v424 : Ref sig .tc := ⟨.hbm, 662, rfl⟩
abbrev main_v425 : Ref sig .tc := ⟨.hbm, 663, rfl⟩
abbrev main_v426 : Ref sig .tc := ⟨.hbm, 664, rfl⟩
abbrev main_v427 : Ref sig .tc := ⟨.hbm, 665, rfl⟩
abbrev main_v428 : Ref sig .tc := ⟨.hbm, 666, rfl⟩
abbrev main_v429 : Ref sig .tc := ⟨.hbm, 667, rfl⟩
abbrev main_v430 : Ref sig .tc := ⟨.hbm, 668, rfl⟩
abbrev main_v431 : Ref sig .tc := ⟨.hbm, 669, rfl⟩
abbrev main_v432 : Ref sig .tc := ⟨.hbm, 670, rfl⟩
abbrev main_v433 : Ref sig .tc := ⟨.hbm, 671, rfl⟩
abbrev main_v434 : Ref sig .tc := ⟨.hbm, 672, rfl⟩
abbrev main_v435 : Ref sig .tc := ⟨.hbm, 673, rfl⟩
abbrev main_v436 : Ref sig .tc := ⟨.hbm, 674, rfl⟩
abbrev main_c_71 : Ref sig .tc := ⟨.hbm, 675, rfl⟩
abbrev main_v437 : Ref sig .tc := ⟨.hbm, 676, rfl⟩
abbrev main_v438 : Ref sig .tc := ⟨.hbm, 677, rfl⟩
abbrev main_c_72 : Ref sig .tc := ⟨.hbm, 678, rfl⟩
abbrev main_v439 : Ref sig .tc := ⟨.hbm, 679, rfl⟩
abbrev main_v440 : Ref sig .tc := ⟨.hbm, 680, rfl⟩
abbrev main_v441 : Ref sig .tc := ⟨.hbm, 681, rfl⟩
abbrev main_v442 : Ref sig .tc := ⟨.hbm, 682, rfl⟩
abbrev main_v443 : Ref sig .tc := ⟨.hbm, 683, rfl⟩
abbrev main_cst_73 : Ref sig .tc := ⟨.hbm, 684, rfl⟩
abbrev main_v444 : Ref sig .tc := ⟨.hbm, 685, rfl⟩
abbrev main_v445 : Ref sig .tc := ⟨.hbm, 686, rfl⟩
abbrev main_v446 : Ref sig .tc := ⟨.hbm, 687, rfl⟩
abbrev main_cst_74 : Ref sig .tc := ⟨.hbm, 688, rfl⟩
abbrev main_v447 : Ref sig .tc := ⟨.hbm, 689, rfl⟩
abbrev main_cst_75 : Ref sig .tc := ⟨.hbm, 690, rfl⟩
abbrev main_v448 : Ref sig .tc := ⟨.hbm, 691, rfl⟩
abbrev main_v449 : Ref sig .tc := ⟨.hbm, 692, rfl⟩
abbrev main_v450 : Ref sig .tc := ⟨.hbm, 693, rfl⟩
abbrev main_cst_76 : Ref sig .tc := ⟨.hbm, 694, rfl⟩
abbrev main_v451 : Ref sig .tc := ⟨.hbm, 695, rfl⟩
abbrev main_v452 : Ref sig .tc := ⟨.hbm, 696, rfl⟩
abbrev main_v453 : Ref sig .tc := ⟨.hbm, 697, rfl⟩
abbrev main_v454 : Ref sig .tc := ⟨.hbm, 698, rfl⟩
abbrev main_v455 : Ref sig .tc := ⟨.hbm, 699, rfl⟩
abbrev main_v456 : Ref sig .tc := ⟨.hbm, 700, rfl⟩
abbrev main_v457 : Ref sig .tc := ⟨.hbm, 701, rfl⟩
abbrev main_v458 : Ref sig .tc := ⟨.hbm, 702, rfl⟩
abbrev main_v459 : Ref sig .tc := ⟨.hbm, 703, rfl⟩
abbrev main_v460 : Ref sig .tc := ⟨.hbm, 704, rfl⟩
abbrev main_v461 : Ref sig .tc := ⟨.hbm, 705, rfl⟩
abbrev main_v462 : Ref sig .tc := ⟨.hbm, 706, rfl⟩
abbrev main_v463 : Ref sig .tc := ⟨.hbm, 707, rfl⟩
abbrev main_v464 : Ref sig .tc := ⟨.hbm, 708, rfl⟩
abbrev main_v465 : Ref sig .tc := ⟨.hbm, 709, rfl⟩
abbrev main_v466 : Ref sig .tc := ⟨.hbm, 710, rfl⟩
abbrev main_v467 : Ref sig .tc := ⟨.hbm, 711, rfl⟩
abbrev main_v468 : Ref sig .tc := ⟨.hbm, 712, rfl⟩
abbrev main_v469 : Ref sig .tc := ⟨.hbm, 713, rfl⟩
abbrev main_v470 : Ref sig .tc := ⟨.hbm, 714, rfl⟩
abbrev main_c_77 : Ref sig .tc := ⟨.hbm, 715, rfl⟩
abbrev main_v471 : Ref sig .tc := ⟨.hbm, 716, rfl⟩
abbrev main_v472 : Ref sig .tc := ⟨.hbm, 717, rfl⟩
abbrev main_c_78 : Ref sig .tc := ⟨.hbm, 718, rfl⟩
abbrev main_v473 : Ref sig .tc := ⟨.hbm, 719, rfl⟩
abbrev main_v474 : Ref sig .tc := ⟨.hbm, 720, rfl⟩
abbrev main_v475 : Ref sig .tc := ⟨.hbm, 721, rfl⟩
abbrev main_v476 : Ref sig .tc := ⟨.hbm, 722, rfl⟩
abbrev main_v477 : Ref sig .tc := ⟨.hbm, 723, rfl⟩
abbrev main_cst_79 : Ref sig .tc := ⟨.hbm, 724, rfl⟩
abbrev main_v478 : Ref sig .tc := ⟨.hbm, 725, rfl⟩
abbrev main_v479 : Ref sig .tc := ⟨.hbm, 726, rfl⟩
abbrev main_v480 : Ref sig .tc := ⟨.hbm, 727, rfl⟩
abbrev main_cst_80 : Ref sig .tc := ⟨.hbm, 728, rfl⟩
abbrev main_v481 : Ref sig .tc := ⟨.hbm, 729, rfl⟩
abbrev main_cst_81 : Ref sig .tc := ⟨.hbm, 730, rfl⟩
abbrev main_v482 : Ref sig .tc := ⟨.hbm, 731, rfl⟩
abbrev main_v483 : Ref sig .tc := ⟨.hbm, 732, rfl⟩
abbrev main_v484 : Ref sig .tc := ⟨.hbm, 733, rfl⟩
abbrev main_cst_82 : Ref sig .tc := ⟨.hbm, 734, rfl⟩
abbrev main_v485 : Ref sig .tc := ⟨.hbm, 735, rfl⟩
abbrev main_v486 : Ref sig .tc := ⟨.hbm, 736, rfl⟩
abbrev main_v487 : Ref sig .tc := ⟨.hbm, 737, rfl⟩
abbrev main_v488 : Ref sig .tc := ⟨.hbm, 738, rfl⟩
abbrev main_v489 : Ref sig .tc := ⟨.hbm, 739, rfl⟩
abbrev main_v490 : Ref sig .tc := ⟨.hbm, 740, rfl⟩
abbrev main_v491 : Ref sig .tc := ⟨.hbm, 741, rfl⟩
abbrev main_v492 : Ref sig .tc := ⟨.hbm, 742, rfl⟩
abbrev main_v493 : Ref sig .tc := ⟨.hbm, 743, rfl⟩
abbrev main_v494 : Ref sig .tc := ⟨.hbm, 744, rfl⟩
abbrev main_v495 : Ref sig .tc := ⟨.hbm, 745, rfl⟩
abbrev main_v496 : Ref sig .tc := ⟨.hbm, 746, rfl⟩
abbrev main_v497 : Ref sig .tc := ⟨.hbm, 747, rfl⟩
abbrev main_v498 : Ref sig .tc := ⟨.hbm, 748, rfl⟩
abbrev main_v499 : Ref sig .tc := ⟨.hbm, 749, rfl⟩
abbrev main_v500 : Ref sig .tc := ⟨.hbm, 750, rfl⟩
abbrev main_v501 : Ref sig .tc := ⟨.hbm, 751, rfl⟩
abbrev main_v502 : Ref sig .tc := ⟨.hbm, 752, rfl⟩
abbrev main_v503 : Ref sig .tc := ⟨.hbm, 753, rfl⟩
abbrev main_c_83 : Ref sig .tc := ⟨.hbm, 754, rfl⟩
abbrev main_v504 : Ref sig .tc := ⟨.hbm, 755, rfl⟩
abbrev main_v505 : Ref sig .tc := ⟨.hbm, 756, rfl⟩
abbrev main_c_84 : Ref sig .tc := ⟨.hbm, 757, rfl⟩
abbrev main_v506 : Ref sig .tc := ⟨.hbm, 758, rfl⟩
abbrev main_v507 : Ref sig .tc := ⟨.hbm, 759, rfl⟩
abbrev main_v508 : Ref sig .tc := ⟨.hbm, 760, rfl⟩
abbrev main_v509 : Ref sig .tc := ⟨.hbm, 761, rfl⟩
abbrev main_v510 : Ref sig .tc := ⟨.hbm, 762, rfl⟩
abbrev main_cst_85 : Ref sig .tc := ⟨.hbm, 763, rfl⟩
abbrev main_v511 : Ref sig .tc := ⟨.hbm, 764, rfl⟩
abbrev main_v512 : Ref sig .tc := ⟨.hbm, 765, rfl⟩
abbrev main_v513 : Ref sig .tc := ⟨.hbm, 766, rfl⟩
abbrev main_cst_86 : Ref sig .tc := ⟨.hbm, 767, rfl⟩
abbrev main_v514 : Ref sig .tc := ⟨.hbm, 768, rfl⟩
abbrev main_cst_87 : Ref sig .tc := ⟨.hbm, 769, rfl⟩
abbrev main_v515 : Ref sig .tc := ⟨.hbm, 770, rfl⟩
abbrev main_v516 : Ref sig .tc := ⟨.hbm, 771, rfl⟩
abbrev main_v517 : Ref sig .tc := ⟨.hbm, 772, rfl⟩
abbrev main_cst_88 : Ref sig .tc := ⟨.hbm, 773, rfl⟩
abbrev main_v518 : Ref sig .tc := ⟨.hbm, 774, rfl⟩
abbrev main_v519 : Ref sig .tc := ⟨.hbm, 775, rfl⟩
abbrev main_v520 : Ref sig .tc := ⟨.hbm, 776, rfl⟩
abbrev main_v521 : Ref sig .tc := ⟨.hbm, 777, rfl⟩
abbrev main_v522 : Ref sig .tc := ⟨.hbm, 778, rfl⟩
abbrev main_v523 : Ref sig .tc := ⟨.hbm, 779, rfl⟩
abbrev main_v524 : Ref sig .tc := ⟨.hbm, 780, rfl⟩
abbrev main_v525 : Ref sig .tc := ⟨.hbm, 781, rfl⟩
abbrev main_v526 : Ref sig .tc := ⟨.hbm, 782, rfl⟩
abbrev main_v527 : Ref sig .tc := ⟨.hbm, 783, rfl⟩
abbrev main_v528 : Ref sig .tc := ⟨.hbm, 784, rfl⟩
abbrev main_v529 : Ref sig .tc := ⟨.hbm, 785, rfl⟩
abbrev main_v530 : Ref sig .tc := ⟨.hbm, 786, rfl⟩
abbrev main_v531 : Ref sig .tc := ⟨.hbm, 787, rfl⟩
abbrev main_v532 : Ref sig .tc := ⟨.hbm, 788, rfl⟩
abbrev main_v533 : Ref sig .tc := ⟨.hbm, 789, rfl⟩
abbrev main_v534 : Ref sig .tc := ⟨.hbm, 790, rfl⟩
abbrev main_v535 : Ref sig .tc := ⟨.hbm, 791, rfl⟩
abbrev main_v536 : Ref sig .tc := ⟨.hbm, 792, rfl⟩
abbrev main_c_89 : Ref sig .tc := ⟨.hbm, 793, rfl⟩
abbrev main_v537 : Ref sig .tc := ⟨.hbm, 794, rfl⟩
abbrev main_v538 : Ref sig .tc := ⟨.hbm, 795, rfl⟩
abbrev main_c_90 : Ref sig .tc := ⟨.hbm, 796, rfl⟩
abbrev main_v539 : Ref sig .tc := ⟨.hbm, 797, rfl⟩
abbrev main_v540 : Ref sig .tc := ⟨.hbm, 798, rfl⟩
abbrev main_v541 : Ref sig .tc := ⟨.hbm, 799, rfl⟩
abbrev main_v542 : Ref sig .tc := ⟨.hbm, 800, rfl⟩
abbrev main_v543 : Ref sig .tc := ⟨.hbm, 801, rfl⟩
abbrev main_cst_91 : Ref sig .tc := ⟨.hbm, 802, rfl⟩
abbrev main_v544 : Ref sig .tc := ⟨.hbm, 803, rfl⟩
abbrev main_v545 : Ref sig .tc := ⟨.hbm, 804, rfl⟩
abbrev main_v546 : Ref sig .tc := ⟨.hbm, 805, rfl⟩
abbrev main_cst_92 : Ref sig .tc := ⟨.hbm, 806, rfl⟩
abbrev main_v547 : Ref sig .tc := ⟨.hbm, 807, rfl⟩
abbrev main_cst_93 : Ref sig .tc := ⟨.hbm, 808, rfl⟩
abbrev main_v548 : Ref sig .tc := ⟨.hbm, 809, rfl⟩
abbrev main_v549 : Ref sig .tc := ⟨.hbm, 810, rfl⟩
abbrev main_v550 : Ref sig .tc := ⟨.hbm, 811, rfl⟩
abbrev main_cst_94 : Ref sig .tc := ⟨.hbm, 812, rfl⟩
abbrev main_v551 : Ref sig .tc := ⟨.hbm, 813, rfl⟩
abbrev main_v552 : Ref sig .tc := ⟨.hbm, 814, rfl⟩
abbrev main_v553 : Ref sig .tc := ⟨.hbm, 815, rfl⟩
abbrev main_v554 : Ref sig .tc := ⟨.hbm, 816, rfl⟩
abbrev main_v555 : Ref sig .tc := ⟨.hbm, 817, rfl⟩
abbrev main_v556 : Ref sig .tc := ⟨.hbm, 818, rfl⟩
abbrev main_v557 : Ref sig .tc := ⟨.hbm, 819, rfl⟩
abbrev main_v558 : Ref sig .tc := ⟨.hbm, 820, rfl⟩
abbrev main_v559 : Ref sig .tc := ⟨.hbm, 821, rfl⟩
abbrev main_v560 : Ref sig .tc := ⟨.hbm, 822, rfl⟩
abbrev main_v561 : Ref sig .tc := ⟨.hbm, 823, rfl⟩
abbrev main_v562 : Ref sig .tc := ⟨.hbm, 824, rfl⟩
abbrev main_v563 : Ref sig .tc := ⟨.hbm, 825, rfl⟩
abbrev main_v564 : Ref sig .tc := ⟨.hbm, 826, rfl⟩
abbrev main_v565 : Ref sig .tc := ⟨.hbm, 827, rfl⟩
abbrev main_v566 : Ref sig .tc := ⟨.hbm, 828, rfl⟩
abbrev main_v567 : Ref sig .tc := ⟨.hbm, 829, rfl⟩
abbrev main_cst_95 : Ref sig .tc := ⟨.hbm, 830, rfl⟩
abbrev main_v568 : Ref sig .tc := ⟨.hbm, 831, rfl⟩
abbrev main_cst_96 : Ref sig .tc := ⟨.hbm, 832, rfl⟩
abbrev main_v569 : Ref sig .tc := ⟨.hbm, 833, rfl⟩
abbrev main_v570 : Ref sig .tc := ⟨.hbm, 834, rfl⟩
abbrev main_c_97 : Ref sig .tc := ⟨.hbm, 835, rfl⟩
abbrev main_call13_cst : Ref sig .tc := ⟨.hbm, 836, rfl⟩
abbrev main_call13_v0 : Ref sig .tc := ⟨.hbm, 837, rfl⟩
abbrev main_call13_v1 : Ref sig .tc := ⟨.hbm, 838, rfl⟩
abbrev main_call13_cst_0 : Ref sig .tc := ⟨.hbm, 839, rfl⟩
abbrev main_call13_v2 : Ref sig .tc := ⟨.hbm, 840, rfl⟩
abbrev main_call13_v3 : Ref sig .tc := ⟨.hbm, 841, rfl⟩
abbrev main_call13_v4 : Ref sig .tc := ⟨.hbm, 842, rfl⟩
abbrev main_call13_v5 : Ref sig .tc := ⟨.hbm, 843, rfl⟩
abbrev main_call13_v6 : Ref sig .tc := ⟨.hbm, 844, rfl⟩
abbrev main_call13_v7 : Ref sig .tc := ⟨.hbm, 845, rfl⟩
abbrev main_call13_cst_1 : Ref sig .tc := ⟨.hbm, 846, rfl⟩
abbrev main_call13_v8 : Ref sig .tc := ⟨.hbm, 847, rfl⟩
abbrev main_call13_cst_2 : Ref sig .tc := ⟨.hbm, 848, rfl⟩
abbrev main_call13_v9 : Ref sig .tc := ⟨.hbm, 849, rfl⟩
abbrev main_call13_v10 : Ref sig .tc := ⟨.hbm, 850, rfl⟩
abbrev main_call13_v11 : Ref sig .tc := ⟨.hbm, 851, rfl⟩
abbrev main_call13_cst_3 : Ref sig .tc := ⟨.hbm, 852, rfl⟩
abbrev main_call13_v12 : Ref sig .tc := ⟨.hbm, 853, rfl⟩
abbrev main_call13_cst_4 : Ref sig .tc := ⟨.hbm, 854, rfl⟩
abbrev main_call13_call0_v0 : Ref sig .tc := ⟨.hbm, 855, rfl⟩
abbrev main_call13_call0_v1 : Ref sig .tc := ⟨.hbm, 856, rfl⟩
abbrev main_v571 : Ref sig .tc := ⟨.hbm, 857, rfl⟩
abbrev main_v572 : Ref sig .tc := ⟨.hbm, 858, rfl⟩
abbrev main_v573 : Ref sig .tc := ⟨.hbm, 859, rfl⟩
abbrev main_v574 : Ref sig .tc := ⟨.hbm, 860, rfl⟩
abbrev main_cst_98 : Ref sig .tc := ⟨.hbm, 861, rfl⟩
abbrev main_v575 : Ref sig .tc := ⟨.hbm, 862, rfl⟩
abbrev main_v576 : Ref sig .tc := ⟨.hbm, 863, rfl⟩
abbrev main_v577 : Ref sig .tc := ⟨.hbm, 864, rfl⟩
abbrev main_v578 : Ref sig .tc := ⟨.hbm, 865, rfl⟩
abbrev main_v579 : Ref sig .tc := ⟨.hbm, 866, rfl⟩
abbrev main_v580 : Ref sig .tc := ⟨.hbm, 867, rfl⟩
abbrev main_v581 : Ref sig .tc := ⟨.hbm, 868, rfl⟩
abbrev main_v582 : Ref sig .tc := ⟨.hbm, 869, rfl⟩
abbrev main_v583 : Ref sig .tc := ⟨.hbm, 870, rfl⟩
abbrev main_v584 : Ref sig .tc := ⟨.hbm, 871, rfl⟩
abbrev main_v585 : Ref sig .tc := ⟨.hbm, 872, rfl⟩
abbrev main_v586 : Ref sig .tc := ⟨.hbm, 873, rfl⟩
abbrev main_call14_cst : Ref sig .tc := ⟨.hbm, 874, rfl⟩
abbrev main_call14_v0 : Ref sig .tc := ⟨.hbm, 875, rfl⟩
abbrev main_v587 : Ref sig .tc := ⟨.hbm, 876, rfl⟩
abbrev main_v588 : Ref sig .tc := ⟨.hbm, 877, rfl⟩
abbrev main_v589 : Ref sig .tc := ⟨.hbm, 878, rfl⟩
abbrev main_v590 : Ref sig .tc := ⟨.hbm, 879, rfl⟩
abbrev main_v591 : Ref sig .tc := ⟨.hbm, 880, rfl⟩
abbrev main_cst_99 : Ref sig .tc := ⟨.hbm, 881, rfl⟩
abbrev main_v592 : Ref sig .tc := ⟨.hbm, 882, rfl⟩
abbrev main_cst_100 : Ref sig .tc := ⟨.hbm, 883, rfl⟩
abbrev main_v593 : Ref sig .tc := ⟨.hbm, 884, rfl⟩
abbrev main_v594 : Ref sig .tc := ⟨.hbm, 885, rfl⟩
abbrev main_c_101 : Ref sig .tc := ⟨.hbm, 886, rfl⟩
abbrev main_call15_cst : Ref sig .tc := ⟨.hbm, 887, rfl⟩
abbrev main_call15_v0 : Ref sig .tc := ⟨.hbm, 888, rfl⟩
abbrev main_call15_v1 : Ref sig .tc := ⟨.hbm, 889, rfl⟩
abbrev main_call15_cst_0 : Ref sig .tc := ⟨.hbm, 890, rfl⟩
abbrev main_call15_v2 : Ref sig .tc := ⟨.hbm, 891, rfl⟩
abbrev main_call15_v3 : Ref sig .tc := ⟨.hbm, 892, rfl⟩
abbrev main_call15_v4 : Ref sig .tc := ⟨.hbm, 893, rfl⟩
abbrev main_call15_v5 : Ref sig .tc := ⟨.hbm, 894, rfl⟩
abbrev main_call15_v6 : Ref sig .tc := ⟨.hbm, 895, rfl⟩
abbrev main_call15_v7 : Ref sig .tc := ⟨.hbm, 896, rfl⟩
abbrev main_call15_cst_1 : Ref sig .tc := ⟨.hbm, 897, rfl⟩
abbrev main_call15_v8 : Ref sig .tc := ⟨.hbm, 898, rfl⟩
abbrev main_call15_cst_2 : Ref sig .tc := ⟨.hbm, 899, rfl⟩
abbrev main_call15_v9 : Ref sig .tc := ⟨.hbm, 900, rfl⟩
abbrev main_call15_v10 : Ref sig .tc := ⟨.hbm, 901, rfl⟩
abbrev main_call15_v11 : Ref sig .tc := ⟨.hbm, 902, rfl⟩
abbrev main_call15_cst_3 : Ref sig .tc := ⟨.hbm, 903, rfl⟩
abbrev main_call15_v12 : Ref sig .tc := ⟨.hbm, 904, rfl⟩
abbrev main_call15_cst_4 : Ref sig .tc := ⟨.hbm, 905, rfl⟩
abbrev main_call15_call0_v0 : Ref sig .tc := ⟨.hbm, 906, rfl⟩
abbrev main_call15_call0_v1 : Ref sig .tc := ⟨.hbm, 907, rfl⟩
abbrev main_v595 : Ref sig .tc := ⟨.hbm, 908, rfl⟩
abbrev main_v596 : Ref sig .tc := ⟨.hbm, 909, rfl⟩
abbrev main_v597 : Ref sig .tc := ⟨.hbm, 910, rfl⟩
abbrev main_v598 : Ref sig .tc := ⟨.hbm, 911, rfl⟩
abbrev main_cst_102 : Ref sig .tc := ⟨.hbm, 912, rfl⟩
abbrev main_v599 : Ref sig .tc := ⟨.hbm, 913, rfl⟩
abbrev main_v600 : Ref sig .tc := ⟨.hbm, 914, rfl⟩
abbrev main_v601 : Ref sig .tc := ⟨.hbm, 915, rfl⟩
abbrev main_v602 : Ref sig .tc := ⟨.hbm, 916, rfl⟩
abbrev main_v603 : Ref sig .tc := ⟨.hbm, 917, rfl⟩
abbrev main_v604 : Ref sig .tc := ⟨.hbm, 918, rfl⟩
abbrev main_v605 : Ref sig .tc := ⟨.hbm, 919, rfl⟩
abbrev main_v606 : Ref sig .tc := ⟨.hbm, 920, rfl⟩
abbrev main_v607 : Ref sig .tc := ⟨.hbm, 921, rfl⟩
abbrev main_v608 : Ref sig .tc := ⟨.hbm, 922, rfl⟩
abbrev main_v609 : Ref sig .tc := ⟨.hbm, 923, rfl⟩
abbrev main_v610 : Ref sig .tc := ⟨.hbm, 924, rfl⟩
abbrev main_call16_cst : Ref sig .tc := ⟨.hbm, 925, rfl⟩
abbrev main_call16_v0 : Ref sig .tc := ⟨.hbm, 926, rfl⟩
abbrev main_v611 : Ref sig .tc := ⟨.hbm, 927, rfl⟩
abbrev main_v612 : Ref sig .tc := ⟨.hbm, 928, rfl⟩
abbrev main_v613 : Ref sig .tc := ⟨.hbm, 929, rfl⟩
abbrev main_v614 : Ref sig .tc := ⟨.hbm, 930, rfl⟩
abbrev main_v615 : Ref sig .tc := ⟨.hbm, 931, rfl⟩
abbrev main_cst_103 : Ref sig .tc := ⟨.hbm, 932, rfl⟩
abbrev main_v616 : Ref sig .tc := ⟨.hbm, 933, rfl⟩
abbrev main_cst_104 : Ref sig .tc := ⟨.hbm, 934, rfl⟩
abbrev main_v617 : Ref sig .tc := ⟨.hbm, 935, rfl⟩
abbrev main_v618 : Ref sig .tc := ⟨.hbm, 936, rfl⟩
abbrev main_c_105 : Ref sig .tc := ⟨.hbm, 937, rfl⟩
abbrev main_call17_cst : Ref sig .tc := ⟨.hbm, 938, rfl⟩
abbrev main_call17_v0 : Ref sig .tc := ⟨.hbm, 939, rfl⟩
abbrev main_call17_v1 : Ref sig .tc := ⟨.hbm, 940, rfl⟩
abbrev main_call17_cst_0 : Ref sig .tc := ⟨.hbm, 941, rfl⟩
abbrev main_call17_v2 : Ref sig .tc := ⟨.hbm, 942, rfl⟩
abbrev main_call17_v3 : Ref sig .tc := ⟨.hbm, 943, rfl⟩
abbrev main_call17_v4 : Ref sig .tc := ⟨.hbm, 944, rfl⟩
abbrev main_call17_v5 : Ref sig .tc := ⟨.hbm, 945, rfl⟩
abbrev main_call17_v6 : Ref sig .tc := ⟨.hbm, 946, rfl⟩
abbrev main_call17_v7 : Ref sig .tc := ⟨.hbm, 947, rfl⟩
abbrev main_call17_cst_1 : Ref sig .tc := ⟨.hbm, 948, rfl⟩
abbrev main_call17_v8 : Ref sig .tc := ⟨.hbm, 949, rfl⟩
abbrev main_call17_cst_2 : Ref sig .tc := ⟨.hbm, 950, rfl⟩
abbrev main_call17_v9 : Ref sig .tc := ⟨.hbm, 951, rfl⟩
abbrev main_call17_v10 : Ref sig .tc := ⟨.hbm, 952, rfl⟩
abbrev main_call17_v11 : Ref sig .tc := ⟨.hbm, 953, rfl⟩
abbrev main_call17_cst_3 : Ref sig .tc := ⟨.hbm, 954, rfl⟩
abbrev main_call17_v12 : Ref sig .tc := ⟨.hbm, 955, rfl⟩
abbrev main_call17_cst_4 : Ref sig .tc := ⟨.hbm, 956, rfl⟩
abbrev main_call17_call0_v0 : Ref sig .tc := ⟨.hbm, 957, rfl⟩
abbrev main_call17_call0_v1 : Ref sig .tc := ⟨.hbm, 958, rfl⟩
abbrev main_v619 : Ref sig .tc := ⟨.hbm, 959, rfl⟩
abbrev main_v620 : Ref sig .tc := ⟨.hbm, 960, rfl⟩
abbrev main_v621 : Ref sig .tc := ⟨.hbm, 961, rfl⟩
abbrev main_v622 : Ref sig .tc := ⟨.hbm, 962, rfl⟩
abbrev main_cst_106 : Ref sig .tc := ⟨.hbm, 963, rfl⟩
abbrev main_v623 : Ref sig .tc := ⟨.hbm, 964, rfl⟩
abbrev main_v624 : Ref sig .tc := ⟨.hbm, 965, rfl⟩
abbrev main_v625 : Ref sig .tc := ⟨.hbm, 966, rfl⟩
abbrev main_v626 : Ref sig .tc := ⟨.hbm, 967, rfl⟩
abbrev main_v627 : Ref sig .tc := ⟨.hbm, 968, rfl⟩
abbrev main_v628 : Ref sig .tc := ⟨.hbm, 969, rfl⟩
abbrev main_v629 : Ref sig .tc := ⟨.hbm, 970, rfl⟩
abbrev main_v630 : Ref sig .tc := ⟨.hbm, 971, rfl⟩
abbrev main_v631 : Ref sig .tc := ⟨.hbm, 972, rfl⟩
abbrev main_v632 : Ref sig .tc := ⟨.hbm, 973, rfl⟩
abbrev main_v633 : Ref sig .tc := ⟨.hbm, 974, rfl⟩
abbrev main_v634 : Ref sig .tc := ⟨.hbm, 975, rfl⟩
abbrev main_call18_cst : Ref sig .tc := ⟨.hbm, 976, rfl⟩
abbrev main_call18_v0 : Ref sig .tc := ⟨.hbm, 977, rfl⟩
abbrev main_v635 : Ref sig .tc := ⟨.hbm, 978, rfl⟩
abbrev main_v636 : Ref sig .tc := ⟨.hbm, 979, rfl⟩
abbrev main_v637 : Ref sig .tc := ⟨.hbm, 980, rfl⟩
abbrev main_v638 : Ref sig .tc := ⟨.hbm, 981, rfl⟩
abbrev main_v639 : Ref sig .tc := ⟨.hbm, 982, rfl⟩
abbrev main_cst_107 : Ref sig .tc := ⟨.hbm, 983, rfl⟩
abbrev main_v640 : Ref sig .tc := ⟨.hbm, 984, rfl⟩
abbrev main_cst_108 : Ref sig .tc := ⟨.hbm, 985, rfl⟩
abbrev main_v641 : Ref sig .tc := ⟨.hbm, 986, rfl⟩
abbrev main_v642 : Ref sig .tc := ⟨.hbm, 987, rfl⟩
abbrev main_c_109 : Ref sig .tc := ⟨.hbm, 988, rfl⟩
abbrev main_call19_cst : Ref sig .tc := ⟨.hbm, 989, rfl⟩
abbrev main_call19_v0 : Ref sig .tc := ⟨.hbm, 990, rfl⟩
abbrev main_call19_v1 : Ref sig .tc := ⟨.hbm, 991, rfl⟩
abbrev main_call19_cst_0 : Ref sig .tc := ⟨.hbm, 992, rfl⟩
abbrev main_call19_v2 : Ref sig .tc := ⟨.hbm, 993, rfl⟩
abbrev main_call19_v3 : Ref sig .tc := ⟨.hbm, 994, rfl⟩
abbrev main_call19_v4 : Ref sig .tc := ⟨.hbm, 995, rfl⟩
abbrev main_call19_v5 : Ref sig .tc := ⟨.hbm, 996, rfl⟩
abbrev main_call19_v6 : Ref sig .tc := ⟨.hbm, 997, rfl⟩
abbrev main_call19_v7 : Ref sig .tc := ⟨.hbm, 998, rfl⟩
abbrev main_call19_cst_1 : Ref sig .tc := ⟨.hbm, 999, rfl⟩
abbrev main_call19_v8 : Ref sig .tc := ⟨.hbm, 1000, rfl⟩
abbrev main_call19_cst_2 : Ref sig .tc := ⟨.hbm, 1001, rfl⟩
abbrev main_call19_v9 : Ref sig .tc := ⟨.hbm, 1002, rfl⟩
abbrev main_call19_v10 : Ref sig .tc := ⟨.hbm, 1003, rfl⟩
abbrev main_call19_v11 : Ref sig .tc := ⟨.hbm, 1004, rfl⟩
abbrev main_call19_cst_3 : Ref sig .tc := ⟨.hbm, 1005, rfl⟩
abbrev main_call19_v12 : Ref sig .tc := ⟨.hbm, 1006, rfl⟩
abbrev main_call19_cst_4 : Ref sig .tc := ⟨.hbm, 1007, rfl⟩
abbrev main_call19_call0_v0 : Ref sig .tc := ⟨.hbm, 1008, rfl⟩
abbrev main_call19_call0_v1 : Ref sig .tc := ⟨.hbm, 1009, rfl⟩
abbrev main_v643 : Ref sig .tc := ⟨.hbm, 1010, rfl⟩
abbrev main_v644 : Ref sig .tc := ⟨.hbm, 1011, rfl⟩
abbrev main_v645 : Ref sig .tc := ⟨.hbm, 1012, rfl⟩
abbrev main_v646 : Ref sig .tc := ⟨.hbm, 1013, rfl⟩
abbrev main_cst_110 : Ref sig .tc := ⟨.hbm, 1014, rfl⟩
abbrev main_v647 : Ref sig .tc := ⟨.hbm, 1015, rfl⟩
abbrev main_v648 : Ref sig .tc := ⟨.hbm, 1016, rfl⟩
abbrev main_v649 : Ref sig .tc := ⟨.hbm, 1017, rfl⟩
abbrev main_v650 : Ref sig .tc := ⟨.hbm, 1018, rfl⟩
abbrev main_v651 : Ref sig .tc := ⟨.hbm, 1019, rfl⟩
abbrev main_v652 : Ref sig .tc := ⟨.hbm, 1020, rfl⟩
abbrev main_v653 : Ref sig .tc := ⟨.hbm, 1021, rfl⟩
abbrev main_v654 : Ref sig .tc := ⟨.hbm, 1022, rfl⟩
abbrev main_v655 : Ref sig .tc := ⟨.hbm, 1023, rfl⟩
abbrev main_v656 : Ref sig .tc := ⟨.hbm, 1024, rfl⟩
abbrev main_v657 : Ref sig .tc := ⟨.hbm, 1025, rfl⟩
abbrev main_v658 : Ref sig .tc := ⟨.hbm, 1026, rfl⟩
abbrev main_call20_cst : Ref sig .tc := ⟨.hbm, 1027, rfl⟩
abbrev main_call20_v0 : Ref sig .tc := ⟨.hbm, 1028, rfl⟩
abbrev main_v659 : Ref sig .tc := ⟨.hbm, 1029, rfl⟩
abbrev main_v660 : Ref sig .tc := ⟨.hbm, 1030, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128_S1x128_0_0 : S2x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  slices_S2x128_S1x128_1_0 : S2x128.Slices ![1, 0] S1x128
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x6x128x128_S1x1x128x128_0_1_0_0 : S2x6x128x128.Slices ![0, 1, 0, 0] S1x1x128x128
  shapeCasts_S1x1x128x128_S128x128 : S1x1x128x128.ShapeCasts S128x128
  slices_S2x6x128_S1x1x128_0_1_0 : S2x6x128.Slices ![0, 1, 0] S1x1x128
  shapeCasts_S1x1x128_S128 : S1x1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  slices_S2x6x128x128_S1x1x128x128_0_3_0_0 : S2x6x128x128.Slices ![0, 3, 0, 0] S1x1x128x128
  slices_S2x6x128_S1x1x128_0_3_0 : S2x6x128.Slices ![0, 3, 0] S1x1x128
  bcast_S_S400000 : S_.BroadcastsInDim S400000 (![] : Fin 0 → Fin S400000.rank)
  bcast_S400000_S400000x1_0 : S400000.BroadcastsInDim S400000x1 (![0] : Fin 1 → Fin S400000x1.rank)
  slices_S2x6x128x128_S1x1x128x128_0_5_0_0 : S2x6x128x128.Slices ![0, 5, 0, 0] S1x1x128x128
  slices_S2x6x128_S1x1x128_0_5_0 : S2x6x128.Slices ![0, 5, 0] S1x1x128
  slices_S2x6x128x128_S1x1x128x128_0_0_0_0 : S2x6x128x128.Slices ![0, 0, 0, 0] S1x1x128x128
  slices_S2x6x128_S1x1x128_0_0_0 : S2x6x128.Slices ![0, 0, 0] S1x1x128
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S1x128_S2000x128_0_1 : S1x128.BroadcastsInDim S2000x128 (![0, 1] : Fin 2 → Fin S2000x128.rank)
  slices_S2x6x128x128_S1x1x128x128_0_2_0_0 : S2x6x128x128.Slices ![0, 2, 0, 0] S1x1x128x128
  slices_S2x6x128_S1x1x128_0_2_0 : S2x6x128.Slices ![0, 2, 0] S1x1x128
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  slices_S2x6x128x128_S1x1x128x128_0_4_0_0 : S2x6x128x128.Slices ![0, 4, 0, 0] S1x1x128x128
  slices_S2x6x128_S1x1x128_0_4_0 : S2x6x128.Slices ![0, 4, 0] S1x1x128
  bcast_S_S3000x128 : S_.BroadcastsInDim S3000x128 (![] : Fin 0 → Fin S3000x128.rank)
  bcast_S_S3000 : S_.BroadcastsInDim S3000 (![] : Fin 0 → Fin S3000.rank)
  bcast_S3000_S3000x1_0 : S3000.BroadcastsInDim S3000x1 (![0] : Fin 1 → Fin S3000x1.rank)
  bcast_S3000x1_S3000x128_0_1 : S3000x1.BroadcastsInDim S3000x128 (![0, 1] : Fin 2 → Fin S3000x128.rank)
  bcast_S1x128_S3000x128_0_1 : S1x128.BroadcastsInDim S3000x128 (![0, 1] : Fin 2 → Fin S3000x128.rank)
  slices_S2x4x128_S1x1x128_0_0_0 : S2x4x128.Slices ![0, 0, 0] S1x1x128
  slices_S2x4x128_S1x1x128_0_1_0 : S2x4x128.Slices ![0, 1, 0] S1x1x128
  reducesTo_S2000x128_S128_d0 : S2000x128.ReducesTo [0] S128
  slices_S2x4x128_S1x1x128_0_2_0 : S2x4x128.Slices ![0, 2, 0] S1x1x128
  reducesTo_S5000x128_S128_d0 : S5000x128.ReducesTo [0] S128
  slices_S2x4x128_S1x1x128_0_3_0 : S2x4x128.Slices ![0, 3, 0] S1x1x128
  reducesTo_S3000x128_S128_d0 : S3000x128.ReducesTo [0] S128
  slices_S2x6x128x128_S1x1x128x128_1_1_0_0 : S2x6x128x128.Slices ![1, 1, 0, 0] S1x1x128x128
  slices_S2x6x128_S1x1x128_1_1_0 : S2x6x128.Slices ![1, 1, 0] S1x1x128
  slices_S2x6x128x128_S1x1x128x128_1_3_0_0 : S2x6x128x128.Slices ![1, 3, 0, 0] S1x1x128x128
  slices_S2x6x128_S1x1x128_1_3_0 : S2x6x128.Slices ![1, 3, 0] S1x1x128
  slices_S2x6x128x128_S1x1x128x128_1_5_0_0 : S2x6x128x128.Slices ![1, 5, 0, 0] S1x1x128x128
  slices_S2x6x128_S1x1x128_1_5_0 : S2x6x128.Slices ![1, 5, 0] S1x1x128
  slices_S2x6x128x128_S1x1x128x128_1_0_0_0 : S2x6x128x128.Slices ![1, 0, 0, 0] S1x1x128x128
  slices_S2x6x128_S1x1x128_1_0_0 : S2x6x128.Slices ![1, 0, 0] S1x1x128
  slices_S2x6x128x128_S1x1x128x128_1_2_0_0 : S2x6x128x128.Slices ![1, 2, 0, 0] S1x1x128x128
  slices_S2x6x128_S1x1x128_1_2_0 : S2x6x128.Slices ![1, 2, 0] S1x1x128
  slices_S2x6x128x128_S1x1x128x128_1_4_0_0 : S2x6x128x128.Slices ![1, 4, 0, 0] S1x1x128x128
  slices_S2x6x128_S1x1x128_1_4_0 : S2x6x128.Slices ![1, 4, 0] S1x1x128
  slices_S2x4x128_S1x1x128_1_0_0 : S2x4x128.Slices ![1, 0, 0] S1x1x128
  slices_S2x4x128_S1x1x128_1_1_0 : S2x4x128.Slices ![1, 1, 0] S1x1x128
  slices_S2x4x128_S1x1x128_1_2_0 : S2x4x128.Slices ![1, 2, 0] S1x1x128
  slices_S2x4x128_S1x1x128_1_3_0 : S2x4x128.Slices ![1, 3, 0] S1x1x128
  concatenates_S100000x128_S2000x128_S5000x128_S3000x128_S110000x128_d0 : Shape.Concatenates [S100000x128, S2000x128, S5000x128, S3000x128] S110000x128 0
  dot_S100000x128_S128x128_S100000x128_1_0_0_1_n_n_wf : DotDims.WF S100000x128 S128x128 S100000x128 [1] [0] [0] [1] [] []
  gather_S2000x128_S800000x1_S800000x128_1_0_n_n_0_1_1128_wf : GatherDims.WF S2000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S5000x128_S400000x1_S400000x128_1_0_n_n_0_1_1128_wf : GatherDims.WF S5000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  gather_S3000x128_S400000x1_S400000x128_1_0_n_n_0_1_1128_wf : GatherDims.WF S3000x128 S400000x1 S400000x128 [1] [0] [] [0] [] 1 ![1, 128]
  gather_S100000x128_S800000x1_S800000x128_1_0_n_n_0_1_1128_wf : GatherDims.WF S100000x128 S800000x1 S800000x128 [1] [0] [] [0] [] 1 ![1, 128]
  scatter_S2000x128_S800000x1_S800000x128_1_0_0_1_wf : ScatterDims.WF S2000x128 S800000x1 S800000x128 [1] [0] [0] 1
  scatter_S2000_S800000x1_S800000_n_0_0_1_wf : ScatterDims.WF S2000 S800000x1 S800000 [] [0] [0] 1
  dot_S2000x128_S128x128_S2000x128_1_0_0_1_n_n_wf : DotDims.WF S2000x128 S128x128 S2000x128 [1] [0] [0] [1] [] []
  gather_S100000x128_S400000x1_S400000x128_1_0_n_n_0_1_1128_wf : GatherDims.WF S100000x128 S400000x1 S400000x128 [1] [0] [] [0] [] 1 ![1, 128]
  scatter_S5000x128_S400000x1_S400000x128_1_0_0_1_wf : ScatterDims.WF S5000x128 S400000x1 S400000x128 [1] [0] [0] 1
  scatter_S5000_S400000x1_S400000_n_0_0_1_wf : ScatterDims.WF S5000 S400000x1 S400000 [] [0] [0] 1
  dot_S5000x128_S128x128_S5000x128_1_0_0_1_n_n_wf : DotDims.WF S5000x128 S128x128 S5000x128 [1] [0] [0] [1] [] []
  scatter_S3000x128_S400000x1_S400000x128_1_0_0_1_wf : ScatterDims.WF S3000x128 S400000x1 S400000x128 [1] [0] [0] 1
  scatter_S3000_S400000x1_S400000_n_0_0_1_wf : ScatterDims.WF S3000 S400000x1 S400000 [] [0] [0] 1
  dot_S3000x128_S128x128_S3000x128_1_0_0_1_n_n_wf : DotDims.WF S3000x128 S128x128 S3000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S2000x128_S800000x1_S800000x128_1_0_n_n_0_1_1128 : GatherDims S2000x128 S800000x1 S800000x128 where
  offsetDims := [1]
  collapsedSliceDims := [0]
  operandBatchingDims := []
  startIndicesBatchingDims := []
  startIndexMap := [0]
  indexVectorDim := 1
  sliceSizes := ![1, 128]
  wf := gather_S2000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S5000x128_S400000x1_S400000x128_1_0_n_n_0_1_1128 : GatherDims S5000x128 S400000x1 S400000x128 where
  offsetDims := [1]
  collapsedSliceDims := [0]
  operandBatchingDims := []
  startIndicesBatchingDims := []
  startIndexMap := [0]
  indexVectorDim := 1
  sliceSizes := ![1, 128]
  wf := gather_S5000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S3000x128_S400000x1_S400000x128_1_0_n_n_0_1_1128 : GatherDims S3000x128 S400000x1 S400000x128 where
  offsetDims := [1]
  collapsedSliceDims := [0]
  operandBatchingDims := []
  startIndicesBatchingDims := []
  startIndexMap := [0]
  indexVectorDim := 1
  sliceSizes := ![1, 128]
  wf := gather_S3000x128_S400000x1_S400000x128_1_0_n_n_0_1_1128_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S2000x128_S800000x1_S800000x128_1_0_0_1 : ScatterDims S2000x128 S800000x1 S800000x128 where
  updateWindowDims := [1]
  insertedWindowDims := [0]
  scatterDimsToOperandDims := [0]
  indexVectorDim := 1
  wf := scatter_S2000x128_S800000x1_S800000x128_1_0_0_1_wf
def scatter_S2000_S800000x1_S800000_n_0_0_1 : ScatterDims S2000 S800000x1 S800000 where
  updateWindowDims := []
  insertedWindowDims := [0]
  scatterDimsToOperandDims := [0]
  indexVectorDim := 1
  wf := scatter_S2000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S5000x128_S400000x1_S400000x128_1_0_0_1 : ScatterDims S5000x128 S400000x1 S400000x128 where
  updateWindowDims := [1]
  insertedWindowDims := [0]
  scatterDimsToOperandDims := [0]
  indexVectorDim := 1
  wf := scatter_S5000x128_S400000x1_S400000x128_1_0_0_1_wf
def scatter_S5000_S400000x1_S400000_n_0_0_1 : ScatterDims S5000 S400000x1 S400000 where
  updateWindowDims := []
  insertedWindowDims := [0]
  scatterDimsToOperandDims := [0]
  indexVectorDim := 1
  wf := scatter_S5000_S400000x1_S400000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S3000x128_S400000x1_S400000x128_1_0_0_1 : ScatterDims S3000x128 S400000x1 S400000x128 where
  updateWindowDims := [1]
  insertedWindowDims := [0]
  scatterDimsToOperandDims := [0]
  indexVectorDim := 1
  wf := scatter_S3000x128_S400000x1_S400000x128_1_0_0_1_wf
def scatter_S3000_S400000x1_S400000_n_0_0_1 : ScatterDims S3000 S400000x1 S400000 where
  updateWindowDims := []
  insertedWindowDims := [0]
  scatterDimsToOperandDims := [0]
  indexVectorDim := 1
  wf := scatter_S3000_S400000x1_S400000_n_0_0_1_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf

class Facts : Prop extends Facts₀ where

variable [Facts]
-- ==== Proof.KB.R0.lean ====
/- Region 0 of the kernel program: the row block  y = b + x·w  of a 2000×128 block of rows, with each core's
   running column sums of y and of y·y kept in two accumulated output windows. The proof data of the region's
   pipeline at the contents the region is entered with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows: each holds its block whenever the body runs -/

/-- The row block of x is in its window's current buffer at every point (the window is uncut and never idle; where
    it is not fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix w, fetched once, stays in its buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row b, fetched once, stays in its buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0
abbrev rS0 : Rect S1x1x128 := Rect.unit (s := S1x1x128) ![0, 0, 0] S1x1x128.size inb_S1x1x128_S1x1x128_0_0_0

/-- The whole-buffer rectangles sit at offset zero on every axis. -/
theorem off2_0 : (![0, 0] : Fin 2 → ℕ) = fun _ => 0 := funext fun a => by fin_cases a <;> rfl
theorem off3_0 : (![0, 0, 0] : Fin 3 → ℕ) = fun _ => 0 := funext fun a => by fin_cases a <;> rfl

/-- A list of stores whose last is of the whole buffer covers the buffer. -/
theorem coverX0 (p : Vec F S2000x128 .f32) (L : List (View.Piece (Elt F) S2000x128 .f32)) (y : S2000x128.Idx) :
    ∃ pc ∈ ((⟨rX0, p⟩ : View.Piece (Elt F) S2000x128 .f32) :: L), y ∈ pc.1.set :=
  ⟨_, List.mem_cons_self, View.mem_set_unit_zero off2_0 inb_S2000x128_S2000x128_0_0 y⟩
theorem coverS0 (p : Vec F S1x1x128 .f32) (L : List (View.Piece (Elt F) S1x1x128 .f32)) (y : S1x1x128.Idx) :
    ∃ pc ∈ ((⟨rS0, p⟩ : View.Piece (Elt F) S1x1x128 .f32) :: L), y ∈ pc.1.set :=
  ⟨_, List.mem_cons_self, View.mem_set_unit_zero off3_0 inb_S1x1x128_S1x1x128_0_0_0 y⟩

/-! ## The branch on grid coordinate 1 -/

/-- The body's one conditional: grid coordinate 1 is zero (the first of a core's 25 points). -/
abbrev cond0 (i : grid0.Coords) : Prop :=
  (Scalar.cmpi .ne (Scalar.extui (Scalar.cmpi .eq (BitVec.ofNat 32 (i 1).val) 0#32)) 0#32) = 1#1
/-- It holds at the points 0 and 25 — decided over the grid. -/
theorem hcond0 : ∀ t : Fin cfg0.N, cond0 (grid0.coords t) ↔ t.val % 25 = 0 :=
  (by decide +kernel : ∀ t : Fin grid0.N, cond0 (grid0.coords t) ↔ t.val % 25 = 0)

/-! ## The body's triple, in each case of the branch -/

set_option maxHeartbeats 4000000 in
/-- FIRST POINT OF A CORE (coordinate 1 is zero). On whole staging memrefs, the inputs' reading x, w, b and the
    outputs' holding anything, the body runs to the continuation with the inputs as they were, the y buffer at
    b + x·w, and each running sum at its zero plus this block's column sums. -/
theorem sound_kernel0_A (c : Dev nD) (E : Set ℕ) (i : grid0.Coords) (hc : cond0 i) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x1x128 .f32) (harg6 : arg6.IsWhole) (arg7 : Memref sig .tc .vmem S1x1x128 .f32) (harg7 : arg7.IsWhole)
    (x : Vec F S2000x128 .f32) (w : Vec F S128x128 .f32) (b : Vec F S1x128 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay3 b x w)
            ∗ owns (c : Thread nD τ) arg6 fullShare (k0_pay4 b x w k0_pay1)
            ∗ owns (c : Thread nD τ) arg7 fullShare (k0_pay5 b x w k0_pay2)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2 hf3 hf4
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverX0 _ _)]
    sl_unfold_run_names
    rw [View.canon_cons_unit_zero off2_0]
    simp only [View.readAt_eq_ld, View.ld_unit_zero (S := S2000x128) off2_0, View.ld_unit_zero (S := S128x128) off2_0, View.ld_unit_zero (S := S1x128) off2_0, View.ld_unit_zero (S := S1x1x128) off3_0]
  isplitl [H6]
  · iexists _; isplitr
    swap; · iexact H6
    ipureintro
    rw [View.read_writes_eq_canon _ _ _ (coverS0 _ _)]
    sl_unfold_run_names
    rw [View.canon_cons_unit_zero off3_0, View.readCov_unit_zero _ off3_0]
    simp only [View.readAt_eq_ld, View.ld_unit_zero (S := S2000x128) off2_0, View.ld_unit_zero (S := S128x128) off2_0, View.ld_unit_zero (S := S1x128) off2_0, View.ld_unit_zero (S := S1x1x128) off3_0]
  iexists _; isplitr
  swap; · iexact H7
  ipureintro
  rw [View.read_writes_eq_canon _ _ _ (coverS0 _ _)]
  sl_unfold_run_names
  rw [View.canon_cons_unit_zero off3_0, View.readCov_unit_zero _ off3_0]
  simp only [View.readAt_eq_ld, View.ld_unit_zero (S := S2000x128) off2_0, View.ld_unit_zero (S := S128x128) off2_0, View.ld_unit_zero (S := S1x128) off2_0, View.ld_unit_zero (S := S1x1x128) off3_0]

set_option maxHeartbeats 4000000 in
/-- A LATER POINT OF A CORE (coordinate 1 is not zero). As above, with the two running sums' buffers holding what
    the point before left, `a4` and `a5`: each ends at that plus this block's column sums. -/
theorem sound_kernel0_B (c : Dev nD) (E : Set ℕ) (i : grid0.Coords) (hc : ¬cond0 i) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x1x128 .f32) (harg6 : arg6.IsWhole) (arg7 : Memref sig .tc .vmem S1x1x128 .f32) (harg7 : arg7.IsWhole)
    (x : Vec F S2000x128 .f32) (w : Vec F S128x128 .f32) (b : Vec F S1x128 .f32)
    (a4 : Vec F S1x1x128 .f32) (a5 : Vec F S1x1x128 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ owns (c : Thread nD τ) arg6 fullShare a4 ∗ owns (c : Thread nD τ) arg7 fullShare a5
        ∗ (iprop(owns (c : Thread nD τ) arg2 fullShare x ∗ owns (c : Thread nD τ) arg3 fullShare w ∗ owns (c : Thread nD τ) arg4 fullShare b
            ∗ owns (c : Thread nD τ) arg5 fullShare (k0_pay3 b x w)
            ∗ owns (c : Thread nD τ) arg6 fullShare (k0_pay4 b x w a4)
            ∗ owns (c : Thread nD τ) arg7 fullShare (k0_pay5 b x w a5)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2 hf3 hf4 hf6 hf7
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverX0 _ _)]
    sl_unfold_run_names
    rw [View.canon_cons_unit_zero off2_0]
    simp only [View.readAt_eq_ld, View.ld_unit_zero (S := S2000x128) off2_0, View.ld_unit_zero (S := S128x128) off2_0, View.ld_unit_zero (S := S1x128) off2_0, View.ld_unit_zero (S := S1x1x128) off3_0]
  isplitl [H6]
  · iexists _; isplitr
    swap; · iexact H6
    ipureintro
    rw [View.read_writes_eq_canon _ _ _ (coverS0 _ _)]
    sl_unfold_run_names
    rw [View.canon_cons_unit_zero off3_0]
    simp only [View.readAt_eq_ld, View.ld_unit_zero (S := S2000x128) off2_0, View.ld_unit_zero (S := S128x128) off2_0, View.ld_unit_zero (S := S1x128) off2_0, View.ld_unit_zero (S := S1x1x128) off3_0]
  iexists _; isplitr
  swap; · iexact H7
  ipureintro
  rw [View.read_writes_eq_canon _ _ _ (coverS0 _ _)]
  sl_unfold_run_names
  rw [View.canon_cons_unit_zero off3_0]
  simp only [View.readAt_eq_ld, View.ld_unit_zero (S := S2000x128) off2_0, View.ld_unit_zero (S := S128x128) off2_0, View.ld_unit_zero (S := S1x128) off2_0, View.ld_unit_zero (S := S1x1x128) off3_0]

/-! ## What the two accumulated windows hold after each point -/

/-- Core `c`'s running column sum of y after the body at point `n`: over the zero at the first of the
    core's 25 points, over what the point before left at the others. -/
def sumAt0 (c : Dev nD) : (n : ℕ) → n < cfg0.N → Vec F S1x1x128 .f32
  | 0, hn => k0_pay4 (iblk0 V c 2 ⟨0, hn⟩) (iblk0 V c 0 ⟨0, hn⟩) (iblk0 V c 1 ⟨0, hn⟩) k0_pay1
  | n + 1, hn => k0_pay4 (iblk0 V c 2 ⟨n + 1, hn⟩) (iblk0 V c 0 ⟨n + 1, hn⟩) (iblk0 V c 1 ⟨n + 1, hn⟩)
      (if (n + 1) % 25 = 0 then k0_pay1 else sumAt0 c n (Nat.lt_of_succ_lt hn))

/-- At the first of a core's points: from the zero. -/
theorem sumAt0_A (c : Dev nD) (t : Fin cfg0.N) (h0 : t.val % 25 = 0) :
    sumAt0 V c t.val t.isLt = k0_pay4 (iblk0 V c 2 t) (iblk0 V c 0 t) (iblk0 V c 1 t) k0_pay1 := by
  obtain ⟨n, hn⟩ := t
  cases n with
  | zero => rfl
  | succ n =>
    show k0_pay4 _ _ _ (if (n + 1) % 25 = 0 then _ else _) = _
    rw [if_pos h0]

/-- At a later one: from what the point before left. -/
theorem sumAt0_B (c : Dev nD) (t : Fin cfg0.N) (h0 : ¬t.val % 25 = 0) :
    sumAt0 V c t.val t.isLt = k0_pay4 (iblk0 V c 2 t) (iblk0 V c 0 t) (iblk0 V c 1 t) (sumAt0 V c (t.val - 1) (Nat.lt_of_le_of_lt (Nat.sub_le _ _) t.isLt)) := by
  obtain ⟨n, hn⟩ := t
  cases n with
  | zero => exact absurd (Nat.zero_mod _) h0
  | succ n =>
    show k0_pay4 _ _ _ (if (n + 1) % 25 = 0 then _ else _) = _
    rw [if_neg h0]; rfl

/-- Core `c`'s running column sum of y·y after the body at point `n`: over the zero at the first of the
    core's 25 points, over what the point before left at the others. -/
def sqAt0 (c : Dev nD) : (n : ℕ) → n < cfg0.N → Vec F S1x1x128 .f32
  | 0, hn => k0_pay5 (iblk0 V c 2 ⟨0, hn⟩) (iblk0 V c 0 ⟨0, hn⟩) (iblk0 V c 1 ⟨0, hn⟩) k0_pay2
  | n + 1, hn => k0_pay5 (iblk0 V c 2 ⟨n + 1, hn⟩) (iblk0 V c 0 ⟨n + 1, hn⟩) (iblk0 V c 1 ⟨n + 1, hn⟩)
      (if (n + 1) % 25 = 0 then k0_pay2 else sqAt0 c n (Nat.lt_of_succ_lt hn))

/-- At the first of a core's points: from the zero. -/
theorem sqAt0_A (c : Dev nD) (t : Fin cfg0.N) (h0 : t.val % 25 = 0) :
    sqAt0 V c t.val t.isLt = k0_pay5 (iblk0 V c 2 t) (iblk0 V c 0 t) (iblk0 V c 1 t) k0_pay2 := by
  obtain ⟨n, hn⟩ := t
  cases n with
  | zero => rfl
  | succ n =>
    show k0_pay5 _ _ _ (if (n + 1) % 25 = 0 then _ else _) = _
    rw [if_pos h0]

/-- At a later one: from what the point before left. -/
theorem sqAt0_B (c : Dev nD) (t : Fin cfg0.N) (h0 : ¬t.val % 25 = 0) :
    sqAt0 V c t.val t.isLt = k0_pay5 (iblk0 V c 2 t) (iblk0 V c 0 t) (iblk0 V c 1 t) (sqAt0 V c (t.val - 1) (Nat.lt_of_le_of_lt (Nat.sub_le _ _) t.isLt)) := by
  obtain ⟨n, hn⟩ := t
  cases n with
  | zero => exact absurd (Nat.zero_mod _) h0
  | succ n =>
    show k0_pay5 _ _ _ (if (n + 1) % 25 = 0 then _ else _) = _
    rw [if_neg h0]; rfl

/-! ## The pipeline's proof data -/

/-- The pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 2 t) (iblk0 V c 0 t) (iblk0 V c 1 t)
    | ⟨4, _⟩ => sumAt0 V c t.val t.isLt
    | ⟨5, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 2 t) (iblk0 V c 0 t) (iblk0 V c 1 t) := by dsimp only [dat0]
theorem after0_4 (c : Dev nD) (t : Fin cfg0.N) : (dat0 V c).after 4 t = sumAt0 V c t.val t.isLt := by dsimp only [dat0]
theorem after0_5 (c : Dev nD) (t : Fin cfg0.N) : (dat0 V c).after 5 t = sqAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a point that is not the first of a core's 25, each running sum's current buffer holds what the body left at
    the point before: that point did not write it back (write-backs are at the points ≡ 24 mod 25). -/
theorem before0_4_B (c : Dev nD) (t : Fin cfg0.N) (h0 : ¬t.val % 25 = 0) (d) :
    (dat0 V c).before 4 t d = sumAt0 V c (t.val - 1) (Nat.lt_of_le_of_lt (Nat.sub_le _ _) t.isLt) := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 25 = 0) (d) :
    (dat0 V c).before 5 t d = sqAt0 V c (t.val - 1) (Nat.lt_of_le_of_lt (Nat.sub_le _ _) t.isLt) := by
  have hN : t.val < 50 := lt_of_lt_of_eq t.isLt (show cfg0.N = 50 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- Each window's current staging memref at point `t`. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks; the closed form of the branch says which case the
    point is in; in the second the running sums' buffers hold what the point before left; so the case's triple
    applies, and the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 25 = 0
  · rw [sumAt0_A V c t h0, sqAt0_A V c t h0]
    iintro ⟨HΦ, Ho, ⟨%d0, H0⟩, ⟨%d1, H1⟩, ⟨%d2, H2⟩, ⟨%d3, H3⟩, ⟨%d4, H4⟩, ⟨%d5, H5⟩⟩
    iapply (sound_kernel0_A c Set.univ (grid0.coords t) ((hcond0 t).mpr h0) _ _ _ _ _ _ _ _ _ _ _ _
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [sumAt0_B V c t h0, sqAt0_B V c t h0]
    simp only [before0_4_B V c t h0, before0_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel0_B c Set.univ (grid0.coords t) (fun h => h0 ((hcond0 t).mp h)) _ _ _ _ _ _ _ _ _ _ _ _
      (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/- Region 1 of the kernel program: a row block of the encoder's hidden layer is scaled, shifted and rectified,
   rounded, multiplied by the rounded weight matrix and offset by the bias; the block's column sums and column sums
   of squares are accumulated over the 25 row blocks of a core. This module gives the proof data of the region's
   pipeline at the contents the region is entered with, and the body obligation: what each staging buffer holds
   after the body at every grid point, the two accumulators by recursion on the point. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch condition -/

/-- The condition of the body's conditional as a chain of word operations on the second grid coordinate:
    it says that coordinate is zero. -/
abbrev cond1_0 (i : grid1.Coords) : Prop :=
  (Scalar.cmpi .ne (Scalar.extui (Scalar.cmpi .eq (BitVec.ofNat 32 (i 1).val) 0#32)) 0#32) = 1#1

/-- Over the grid (2, 25) it holds exactly at the first point of each run of 25 points. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## Whole-buffer rectangles -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- After a list of stores whose LAST one went through the whole-shape rectangle, the buffer reads as that
    store's payload, whatever it held and whatever the earlier stores were. -/
private theorem read_writes_cons_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩),
    View.canon_cons_unit_zero h]

/-! ## The body's triple, case by case -/

set_option maxHeartbeats 2000000 in
/-- FIRST POINT OF A RUN (second coordinate zero). On whole staging memrefs, the five inputs at read contents
    `x0 … x4` and the three outputs at anything, the body runs to the continuation with the inputs as they
    were, the row-block output at the matmul payload, and the two sum outputs at one accumulation step over the
    zero rows the conditional stored. -/
theorem sound_kernel1_A (c : Dev nD) (E : Set ℕ) (i : grid1.Coords)
    (arg2 : Memref sig .tc .vmem S2000x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S1x1x128 .f32) (harg8 : arg8.IsWhole)
    (arg9 : Memref sig .tc .vmem S1x1x128 .f32) (harg9 : arg9.IsWhole)
    (hc : cond1_0 i)
    (x0 : Vec F S2000x128 .f32) (x1 x2 : Vec F S1x128 .f32) (x3 : Vec F S128x128 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay4 x4 x0 x1 x2 x3)
            ∗ owns (c : Thread nD τ) arg8 fullShare (k1_pay6 x4 x0 x1 x2 x3 k1_pay2)
            ∗ owns (c : Thread nD τ) arg9 fullShare (k1_pay1 (k1_pay5 x4 x0 x1 x2 x3) k1_pay3)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_whole _ _ hz2]
    simp only [View.readAt_eq_ld, View.ld_unit_zero (S := S2000x128) hz2, View.ld_unit_zero (S := S1x128) hz2,
      View.ld_unit_zero (S := S128x128) hz2, View.ld_unit_zero (S := S1x1x128) hz3]
  isplitl [H6]
  · iexists _; isplitr
    swap; · iexact H6
    ipureintro
    sl_unfold_run_names
    rw [read_writes_cons_whole (S := S1x1x128) _ _ hz3, View.readCov_unit_zero (S := S1x1x128) _ hz3]
    simp only [View.readAt_eq_ld, View.ld_unit_zero (S := S2000x128) hz2, View.ld_unit_zero (S := S1x128) hz2,
      View.ld_unit_zero (S := S128x128) hz2, View.ld_unit_zero (S := S1x1x128) hz3]
  iexists _; isplitr
  swap; · iexact H7
  ipureintro
  sl_unfold_run_names
  rw [read_writes_cons_whole (S := S1x1x128) _ _ hz3, View.readCov_unit_zero (S := S1x1x128) _ hz3]
  simp only [View.readAt_eq_ld, View.ld_unit_zero (S := S2000x128) hz2, View.ld_unit_zero (S := S1x128) hz2,
      View.ld_unit_zero (S := S128x128) hz2, View.ld_unit_zero (S := S1x1x128) hz3]

set_option maxHeartbeats 2000000 in
/-- LATER POINTS OF A RUN (second coordinate not zero). The two sum outputs are held at their running contents
    `xo6`, `xo7`; the body leaves each at one accumulation step over them. -/
theorem sound_kernel1_B (c : Dev nD) (E : Set ℕ) (i : grid1.Coords)
    (arg2 : Memref sig .tc .vmem S2000x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S1x1x128 .f32) (harg8 : arg8.IsWhole)
    (arg9 : Memref sig .tc .vmem S1x1x128 .f32) (harg9 : arg9.IsWhole)
    (hc : ¬cond1_0 i)
    (x0 : Vec F S2000x128 .f32) (x1 x2 : Vec F S1x128 .f32) (x3 : Vec F S128x128 .f32) (x4 : Vec F S1x128 .f32)
    (xo6 xo7 : Vec F S1x1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xo6 ∗ owns (c : Thread nD τ) arg9 fullShare xo7
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay4 x4 x0 x1 x2 x3)
            ∗ owns (c : Thread nD τ) arg8 fullShare (k1_pay6 x4 x0 x1 x2 x3 xo6)
            ∗ owns (c : Thread nD τ) arg9 fullShare (k1_pay1 (k1_pay5 x4 x0 x1 x2 x3) xo7)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_whole _ _ hz2]
    simp only [View.readAt_eq_ld, View.ld_unit_zero (S := S2000x128) hz2, View.ld_unit_zero (S := S1x128) hz2,
      View.ld_unit_zero (S := S128x128) hz2, View.ld_unit_zero (S := S1x1x128) hz3]
  isplitl [H6]
  · iexists _; isplitr
    swap; · iexact H6
    ipureintro
    sl_unfold_run_names
    rw [read_writes_cons_whole (S := S1x1x128) _ _ hz3]
    simp only [View.readAt_eq_ld, View.ld_unit_zero (S := S2000x128) hz2, View.ld_unit_zero (S := S1x128) hz2,
      View.ld_unit_zero (S := S128x128) hz2, View.ld_unit_zero (S := S1x1x128) hz3]
  iexists _; isplitr
  swap; · iexact H7
  ipureintro
  sl_unfold_run_names
  rw [read_writes_cons_whole (S := S1x1x128) _ _ hz3]
  simp only [View.readAt_eq_ld, View.ld_unit_zero (S := S2000x128) hz2, View.ld_unit_zero (S := S1x128) hz2,
      View.ld_unit_zero (S := S128x128) hz2, View.ld_unit_zero (S := S1x1x128) hz3]

/-! ## What the outputs hold after each point -/

/-- The row block of the result at point `t`: `relu(x·scale + shift)`, rounded to bf16, times the rounded
    weights, plus the bias — the matmul payload over the point's input blocks. -/
def out1_5 (c : Dev nD) (t : Fin cfg1.N) : Vec F S2000x128 .f32 :=
  k1_pay4 (iblk1 V c 4 t) (iblk1 V c 0 t) (iblk1 V c 1 t) (iblk1 V c 2 t) (iblk1 V c 3 t)

/-- One step of the column sums at point `t`: the block's column sums added to `prev`. -/
def acc1_6 (c : Dev nD) (t : Fin cfg1.N) (prev : Vec F S1x1x128 .f32) : Vec F S1x1x128 .f32 :=
  k1_pay6 (iblk1 V c 4 t) (iblk1 V c 0 t) (iblk1 V c 1 t) (iblk1 V c 2 t) (iblk1 V c 3 t) prev

/-- One step of the sums of squares at point `t`: the block's column sums of squares added to `prev`. -/
def acc1_7 (c : Dev nD) (t : Fin cfg1.N) (prev : Vec F S1x1x128 .f32) : Vec F S1x1x128 .f32 :=
  k1_pay1 (k1_pay5 (iblk1 V c 4 t) (iblk1 V c 0 t) (iblk1 V c 1 t) (iblk1 V c 2 t) (iblk1 V c 3 t)) prev

/-- The column sums after point `n`: restarted from the zero row at the multiples of 25, stepped from the point
    before elsewhere. -/
def sums1_6 (c : Dev nD) : (n : ℕ) → n < cfg1.N → Vec F S1x1x128 .f32
  | 0, hn => acc1_6 V c ⟨0, hn⟩ k1_pay2
  | n + 1, hn =>
    if (n + 1) % 25 = 0 then acc1_6 V c ⟨n + 1, hn⟩ k1_pay2
    else acc1_6 V c ⟨n + 1, hn⟩ (sums1_6 c n (Nat.lt_of_succ_lt hn))

/-- The sums of squares after point `n`, likewise. -/
def sums1_7 (c : Dev nD) : (n : ℕ) → n < cfg1.N → Vec F S1x1x128 .f32
  | 0, hn => acc1_7 V c ⟨0, hn⟩ k1_pay3
  | n + 1, hn =>
    if (n + 1) % 25 = 0 then acc1_7 V c ⟨n + 1, hn⟩ k1_pay3
    else acc1_7 V c ⟨n + 1, hn⟩ (sums1_7 c n (Nat.lt_of_succ_lt hn))

theorem sums1_6_A (c : Dev nD) (t : Fin cfg1.N) (h0 : t.val % 25 = 0) :
    sums1_6 V c t.val t.isLt = acc1_6 V c t k1_pay2 := by
  obtain ⟨n, hn⟩ := t
  cases n with
  | zero => exact rfl
  | succ n => exact (if_pos h0).trans rfl

theorem sums1_6_B (c : Dev nD) (t : Fin cfg1.N) (h0 : ¬t.val % 25 = 0) :
    sums1_6 V c t.val t.isLt = acc1_6 V c t (sums1_6 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sums1_7_A (c : Dev nD) (t : Fin cfg1.N) (h0 : t.val % 25 = 0) :
    sums1_7 V c t.val t.isLt = acc1_7 V c t k1_pay3 := by
  obtain ⟨n, hn⟩ := t
  cases n with
  | zero => exact rfl
  | succ n => exact (if_pos h0).trans rfl

theorem sums1_7_B (c : Dev nD) (t : Fin cfg1.N) (h0 : ¬t.val % 25 = 0) :
    sums1_7 V c t.val t.isLt = acc1_7 V c t (sums1_7 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
    | ⟨6, _⟩ => sums1_6 V c t.val t.isLt
    | ⟨7, _⟩ => sums1_7 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = sums1_6 V c t.val t.isLt := by dsimp only [dat1]
theorem after1_7 (c : Dev nD) (t : Fin cfg1.N) : (dat1 V c).after 7 t = sums1_7 V c t.val t.isLt := by dsimp only [dat1]

/-! ## What the body finds in each staging buffer -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- At a point that is not the first of its run, a sum output's buffer still holds what the body left at the
    point before: that point did not write it back (write-backs are at the points ≡ 24 mod 25). -/
theorem before1_6_B (c : Dev nD) (t : Fin cfg1.N) (h0 : ¬t.val % 25 = 0) (d) :
    (dat1 V c).before 6 t d = sums1_6 V c (t.val - 1) (Nat.lt_of_le_of_lt (Nat.sub_le _ _) t.isLt) := by
  have hN : t.val < 50 := lt_of_lt_of_eq t.isLt (show cfg1.N = 50 from N_1)
  rw [Dat.before_out_kept _ 6 rfl t (by omega) (Bool.eq_false_iff.mpr fun h => by have := (flush1_6 _).mp h; dsimp only at this; omega)
    (fun _ => rfl) (fun _ _ => rfl)]
  dsimp only [dat1]

theorem before1_7_B (c : Dev nD) (t : Fin cfg1.N) (h0 : ¬t.val % 25 = 0) (d) :
    (dat1 V c).before 7 t d = sums1_7 V c (t.val - 1) (Nat.lt_of_le_of_lt (Nat.sub_le _ _) t.isLt) := by
  have hN : t.val < 50 := lt_of_lt_of_eq t.isLt (show cfg1.N = 50 from N_1)
  rw [Dat.before_out_kept _ 7 rfl t (by omega) (Bool.eq_false_iff.mpr fun h => by have := (flush1_7 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1600000 in
/-- The body at any point: the inputs' buffers hold their blocks; the point's position in its run of 25 says which
    case applies; in the later case the sum outputs hold what the point before left. The invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 25 = 0
  · rw [sums1_6_A V c t h0, sums1_7_A V c t h0]
    unfold out1_5 acc1_6 acc1_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) _ _ _ _ _ _ _ _ _ _ _ _ _ _ _ _ ((hcond1_0 t).mpr h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sums1_6_B V c t h0, sums1_7_B V c t h0]
    simp only [before1_6_B V c t h0, before1_7_B V c t h0]
    unfold out1_5 acc1_6 acc1_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ (fun h => h0 ((hcond1_0 t).mp h))
      (iblk1 V c 0 t) (iblk1 V c 1 t) (iblk1 V c 2 t) (iblk1 V c 3 t) (iblk1 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
/- Region 2 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows: the current staging buffer holds the window's block at every point

Each of the five inputs is uncut and never idle, and the body leaves its block in place; so whether or not the
point fetches it, the buffer holds the block of the point (unfetched, the block index has not moved). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_x : Rect S2000x128 := Rect.unit (s := S2000x128) ![0, 0] S2000x128.size inb_S2000x128_S2000x128_0_0
abbrev r2_v : Rect S1x128 := Rect.unit (s := S1x128) ![0, 0] S1x128.size inb_S1x128_S1x128_0_0
abbrev r2_m : Rect S128x128 := Rect.unit (s := S128x128) ![0, 0] S128x128.size inb_S128x128_S128x128_0_0

/-! ## What the body leaves in the output window's buffer

`y = b + relu (x * scale + shift) · w` on the row block: one store of the whole buffer, of the payload at the five
input blocks (`x0` the rows, `x1` the scale, `x2` the shift, `x3` the weights, `x4` the bias). -/

def out2_5 (x0 : Vec F S2000x128 .f32) (x1 x2 : Vec F S1x128 .f32) (x3 : Vec F S128x128 .f32) (x4 : Vec F S1x128 .f32) :
    Vec F S2000x128 .f32 :=
  View.canon [⟨r2_x, k2_pay1 (View.ld x4 r2_v) (View.ld x0 r2_x) (View.ld x1 r2_v) (View.ld x2 r2_v) (View.ld x3 r2_m)⟩]

/-- The one store is of the whole buffer, so it covers it. -/
theorem cover2_5 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

/-! ## The body's triple -/

set_option maxHeartbeats 4000000 in
/-- The body on whole staging memrefs, the inputs' at the contents `x0 … x4` and the output's at anything, runs to
    the continuation holding the inputs' as they were and the output's at `out2_5` of the inputs'. The load of the
    output buffer before the store reads contents nobody names; its value is not used. -/
theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data on core `c`: the arrays as the region finds them; after the body at point `t` each input's
    buffer at its block and the output's at `out2_5` of the five input blocks; the invariant that of a body which
    touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3.lean ====
/- Region 3 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of `y` sits in its staging buffer at every point: the window is fetched at every point, and
    the body leaves the block where it found it. Stated for any proof data over the region-entry arrays whose
    body keeps window 0's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body touches: the whole 2000 × 128 block. -/
abbrev r3_0 : Rect S2000x128 := Rect.unit (s := S2000x128) ![0, 0] S2000x128.size inb_S2000x128_S2000x128_0_0

/-- The normalised rows: what the body's single store leaves in the output block, from the block of `y`.
    Each row of `y` divided by the larger of its Euclidean norm and the literal 1e-12. -/
def out3_1 (x0 : Vec F S2000x128 .f32) : Vec F S2000x128 .f32 :=
  View.canon [⟨r3_0, k3_pay1 (View.ld x0 r3_0)⟩]

/-- The store is of the whole block, so it covers it. -/
theorem cover3_1 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs: with `y`'s block `x0` in the first and anything in the second, it ends
    with the first unchanged and the second holding the normalised rows of `x0`. The read of the output
    block that precedes the store yields a value nothing uses. -/
theorem sound_kernel3 (c : Dev nD) (E : Set ℕ) (i : grid3.Coords) (arg1 : Memref sig .tc .vmem S2000x128 .f32) (harg1 : arg1.IsWhole)
    (arg2 : Memref sig .tc .vmem S2000x128 .f32) (harg2 : arg2.IsWhole)
    (x0 : Vec F S2000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__l2norm_kernel i arg1 harg1 arg2 harg2) K := by
  simp only [cc3__l2norm_kernel_eq_skeleton]; unfold cc3__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- The block of `y` is in its staging buffer when the body starts, at every point. -/
theorem before3_0 (c : Dev nD) (t : Fin cfg3.N) (d) : (dat3 V c).before 0 t d = iblk3 V c 0 t :=
  before3_0_of V (dat3 V c) (A_eq3 V c 0) (after3_0 V c) t d

/-- What the body starts from at point `t`, the two windows spelled out, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it ends with. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any grid point: the block of `y` is staged, so the body's triple applies; the invariant and
    the tallies are carried across untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.R4.lean ====
/- Region 4 of the kernel program: one row-block step of `y = b + x0·w0 + x1·w1 + x2·w2 + x3·w3` with running
   column sums of `y` and `y·y` per sweep of the second grid axis. The body's run in its two cases (the running
   rows zeroed first, or continued), what each window's staging buffer holds after each grid point, the proof data
   of the pipeline at the contents the region is entered with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes

The body forms, on a block of 2000 rows, `y = b + x0·w0 + x1·w1 + x2·w2 + x3·w3` (each product a matrix product
of the block, rounded to bf16, with a 128×128 weight matrix, into a zero accumulator), stores it, and adds the
column sums of `y` and of `y·y` to two running rows. -/

/-- The block of `y` from the four row blocks, the four weights and the bias row. -/
def yrows4 (x0 x1 x2 x3 : Vec F S2000x128 .f32) (w0 w1 w2 w3 : Vec F S128x128 .f32) (b : Vec F S1x128 .f32) : Vec F S2000x128 .f32 :=
  k4_pay1 (k4_pay6 b x0 w0 x1 w1 x2 w2) (k4_pay7 x3) w3

/-- The running row of column sums after the block: what it held, plus the column sums of the block of `y`. -/
def colsum4 (x0 x1 x2 x3 : Vec F S2000x128 .f32) (w0 w1 w2 w3 : Vec F S128x128 .f32) (b : Vec F S1x128 .f32) (acc : Vec F S1x1x128 .f32) : Vec F S1x1x128 .f32 :=
  k4_pay2 (k4_pay6 b x0 w0 x1 w1 x2 w2) (k4_pay7 x3) w3 acc

/-- The running row of column sums of squares after the block. -/
def colsq4 (x0 x1 x2 x3 : Vec F S2000x128 .f32) (w0 w1 w2 w3 : Vec F S128x128 .f32) (b : Vec F S1x128 .f32) (acc : Vec F S1x1x128 .f32) : Vec F S1x1x128 .f32 :=
  k4_pay3 (k4_pay6 b x0 w0 x1 w1 x2 w2) (k4_pay7 x3) w3 acc

/-- The condition of the body's conditional (the running rows are zeroed), from the grid coordinates. -/
abbrev cond4 (i : grid4.Coords) : Prop :=
  (Scalar.cmpi .ne (Scalar.extui (Scalar.cmpi .eq (BitVec.ofNat 32 (i 1).val) 0#32)) 0#32) = 1#1

/-- It holds exactly at the first point of each sweep of the second grid axis. -/
theorem hcond4 : ∀ t : Fin cfg4.N, cond4 (grid4.coords t) ↔ t.val % 25 = 0 :=
  (by decide +kernel : ∀ t : Fin grid4.N, cond4 (grid4.coords t) ↔ t.val % 25 = 0)

private theorem hz2 : (![0, 0] : Fin 2 → ℕ) = fun _ => 0 := by
  funext a; match a with | ⟨0, _⟩ => rfl | ⟨1, _⟩ => rfl
private theorem hz3 : (![0, 0, 0] : Fin 3 → ℕ) = fun _ => 0 := by
  funext a; match a with | ⟨0, _⟩ => rfl | ⟨1, _⟩ => rfl | ⟨2, _⟩ => rfl

set_option maxHeartbeats 4000000 in
/-- The body at a point where the running rows are zeroed first: on whole staging memrefs, the inputs' at their
    contents and the outputs' at anything, it runs to the continuation holding the inputs' as they were, the
    block of `y`, and the two rows started from zero. -/
theorem sound_kernel4_reset (c : Dev nD) (E : Set ℕ) (i : grid4.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : cond4 i) (x0 x1 x2 x3 : Vec F S2000x128 .f32) (w0 w1 w2 w3 : Vec F S128x128 .f32) (b : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows4 x0 x1 x2 x3 w0 w1 w2 w3 b)
            ∗ owns (c : Thread nD τ) arg12 fullShare (colsum4 x0 x1 x2 x3 w0 w1 w2 w3 b k4_pay4)
            ∗ owns (c : Thread nD τ) arg13 fullShare (colsq4 x0 x1 x2 x3 w0 w1 w2 w3 b k4_pay5)) -∗ K ⟨⟩))
      ⊢ wp frame (wpE (defs₀ (F := F)) Variants.none c none) E (cc4_kernel i arg2 harg2 arg3 harg3 arg4 harg4 arg5 harg5 arg6 harg6 arg7 harg7 arg8 harg8 arg9 harg9 arg10 harg10 arg11 harg11 arg12 harg12 arg13 harg13) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf2 hf3 hf4 hf5 hf6 hf7 hf8 hf9 hf10
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows4
    sl_unfold_words
    simp only [View.readAt_eq_ld, View.ld_unit_zero (S := S2000x128) hz2, View.ld_unit_zero (S := S128x128) hz2, View.ld_unit_zero (S := S1x128) hz2, View.readCov_unit_zero (S := S1x1x128) _ hz3]
  isplitl [H12]
  · iexists _; isplitr
    swap; · iexact H12
    ipureintro
    rw [View.read_writes_eq_canon _ _ _ (fun y => ⟨_, List.mem_cons_self, View.mem_set_unit_zero hz3 inb_S1x1x128_S1x1x128_0_0_0 y⟩),
      View.canon_cons_unit_zero hz3]
    unfold colsum4
    sl_unfold_words
    simp only [View.readAt_eq_ld, View.ld_unit_zero (S := S2000x128) hz2, View.ld_unit_zero (S := S128x128) hz2, View.ld_unit_zero (S := S1x128) hz2, View.readCov_unit_zero (S := S1x1x128) _ hz3]
  · iexists _; isplitr
    swap; · iexact H13
    ipureintro
    rw [View.read_writes_eq_canon _ _ _ (fun y => ⟨_, List.mem_cons_self, View.mem_set_unit_zero hz3 inb_S1x1x128_S1x1x128_0_0_0 y⟩),
      View.canon_cons_unit_zero hz3]
    unfold colsq4
    sl_unfold_words
    simp only [View.readAt_eq_ld, View.ld_unit_zero (S := S2000x128) hz2, View.ld_unit_zero (S := S128x128) hz2, View.ld_unit_zero (S := S1x128) hz2, View.readCov_unit_zero (S := S1x1x128) _ hz3]

set_option maxHeartbeats 4000000 in
/-- The body at a later point of a sweep: the two running rows are read at what the point before left (`a12`,
    `a13`) and left with the block's column sums added. -/
theorem sound_kernel4_acc (c : Dev nD) (E : Set ℕ) (i : grid4.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : ¬cond4 i) (x0 x1 x2 x3 : Vec F S2000x128 .f32) (w0 w1 w2 w3 : Vec F S128x128 .f32) (b : Vec F S1x128 .f32) (a12 a13 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ owns (c : Thread nD τ) arg12 fullShare a12 ∗ owns (c : Thread nD τ) arg13 fullShare a13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows4 x0 x1 x2 x3 w0 w1 w2 w3 b)
            ∗ owns (c : Thread nD τ) arg12 fullShare (colsum4 x0 x1 x2 x3 w0 w1 w2 w3 b a12)
            ∗ owns (c : Thread nD τ) arg13 fullShare (colsq4 x0 x1 x2 x3 w0 w1 w2 w3 b a13)) -∗ K ⟨⟩))
      ⊢ wp frame (wpE (defs₀ (F := F)) Variants.none c none) E (cc4_kernel i arg2 harg2 arg3 harg3 arg4 harg4 arg5 harg5 arg6 harg6 arg7 harg7 arg8 harg8 arg9 harg9 arg10 harg10 arg11 harg11 arg12 harg12 arg13 harg13) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  subst hf2 hf3 hf4 hf5 hf6 hf7 hf8 hf9 hf10 hf12 hf13
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows4
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  isplitl [H12]
  · iexists _; isplitr
    swap; · iexact H12
    ipureintro
    rw [View.read_writes_eq_canon _ _ _ (fun y => ⟨_, List.mem_singleton_self _, View.mem_set_unit_zero hz3 inb_S1x1x128_S1x1x128_0_0_0 y⟩),
      View.canon_unit_zero hz3]
    unfold colsum4
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  · iexists _; isplitr
    swap; · iexact H13
    ipureintro
    rw [View.read_writes_eq_canon _ _ _ (fun y => ⟨_, List.mem_singleton_self _, View.mem_set_unit_zero hz3 inb_S1x1x128_S1x1x128_0_0_0 y⟩),
      View.canon_unit_zero hz3]
    unfold colsq4
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]

/-! ## The windows' blocks and the proof data -/

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## What the outputs hold after each point -/

/-- The block of `y` at point `t`: from the four row blocks there, the weights and the bias row. -/
def yStep4 (c : Dev nD) (t : Fin cfg4.N) : Vec F S2000x128 .f32 :=
  yrows4 (iblk4 V c 0 t) (iblk4 V c 1 t) (iblk4 V c 2 t) (iblk4 V c 3 t) (iblk4 V c 4 t) (iblk4 V c 5 t) (iblk4 V c 6 t) (iblk4 V c 7 t) (iblk4 V c 8 t)

/-- One step of the running column sums at point `t`, from what the row held. -/
def sumStep4 (c : Dev nD) (t : Fin cfg4.N) (acc : Vec F S1x1x128 .f32) : Vec F S1x1x128 .f32 :=
  colsum4 (iblk4 V c 0 t) (iblk4 V c 1 t) (iblk4 V c 2 t) (iblk4 V c 3 t) (iblk4 V c 4 t) (iblk4 V c 5 t) (iblk4 V c 6 t) (iblk4 V c 7 t) (iblk4 V c 8 t) acc

/-- One step of the running column sums of squares at point `t`. -/
def sqStep4 (c : Dev nD) (t : Fin cfg4.N) (acc : Vec F S1x1x128 .f32) : Vec F S1x1x128 .f32 :=
  colsq4 (iblk4 V c 0 t) (iblk4 V c 1 t) (iblk4 V c 2 t) (iblk4 V c 3 t) (iblk4 V c 4 t) (iblk4 V c 5 t) (iblk4 V c 6 t) (iblk4 V c 7 t) (iblk4 V c 8 t) acc

/-- The running row of column sums after the body at position `n`: started from zero at the first point of each
    sweep of the second grid axis, otherwise continued from what the point before left. -/
def sumAt4 (c : Dev nD) : (n : ℕ) → n < cfg4.N → Vec F S1x1x128 .f32
  | 0, hn => sumStep4 V c ⟨0, hn⟩ (k4_pay4 (F := F))
  | n + 1, hn =>
    if (n + 1) % 25 = 0 then sumStep4 V c ⟨n + 1, hn⟩ (k4_pay4 (F := F))
    else sumStep4 V c ⟨n + 1, hn⟩ (sumAt4 c n (Nat.lt_of_succ_lt hn))

/-- The running row of column sums of squares after the body at position `n`. -/
def sqAt4 (c : Dev nD) : (n : ℕ) → n < cfg4.N → Vec F S1x1x128 .f32
  | 0, hn => sqStep4 V c ⟨0, hn⟩ (k4_pay5 (F := F))
  | n + 1, hn =>
    if (n + 1) % 25 = 0 then sqStep4 V c ⟨n + 1, hn⟩ (k4_pay5 (F := F))
    else sqStep4 V c ⟨n + 1, hn⟩ (sqAt4 c n (Nat.lt_of_succ_lt hn))

theorem sumAt4_reset (c : Dev nD) (t : Fin cfg4.N) (h0 : t.val % 25 = 0) :
    sumAt4 V c t.val t.isLt = sumStep4 V c t (k4_pay4 (F := F)) := by
  obtain ⟨n, hn⟩ := t
  cases n with
  | zero => exact rfl
  | succ n => exact (if_pos h0).trans rfl

theorem sumAt4_acc (c : Dev nD) (t : Fin cfg4.N) (h0 : ¬t.val % 25 = 0) :
    sumAt4 V c t.val t.isLt = sumStep4 V c t (sumAt4 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sqAt4_reset (c : Dev nD) (t : Fin cfg4.N) (h0 : t.val % 25 = 0) :
    sqAt4 V c t.val t.isLt = sqStep4 V c t (k4_pay5 (F := F)) := by
  obtain ⟨n, hn⟩ := t
  cases n with
  | zero => exact rfl
  | succ n => exact (if_pos h0).trans rfl

theorem sqAt4_acc (c : Dev nD) (t : Fin cfg4.N) (h0 : ¬t.val % 25 = 0) :
    sqAt4 V c t.val t.isLt = sqStep4 V c t (sqAt4 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline's proof data on core `c`: the arrays as the region finds them; after the body at point `t` each
    input's buffer at its block, the block of `y`, and the two running rows. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => yStep4 V c t
    | ⟨10, _⟩ => sumAt4 V c t.val t.isLt
    | ⟨11, _⟩ => sqAt4 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = yStep4 V c t := by dsimp only [dat4]
theorem after4_10 (c : Dev nD) (t : Fin cfg4.N) : (dat4 V c).after 10 t = sumAt4 V c t.val t.isLt := by dsimp only [dat4]
theorem after4_11 (c : Dev nD) (t : Fin cfg4.N) : (dat4 V c).after 11 t = sqAt4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- At a later point of a sweep the running row of sums is found at what the point before left: the point is not the
    first, and the row was not written back between. -/
theorem before4_10_acc (c : Dev nD) (t : Fin cfg4.N) (h0 : ¬t.val % 25 = 0) (d) :
    (dat4 V c).before 10 t d = sumAt4 V c (t.val - 1) (Nat.lt_of_le_of_lt (Nat.sub_le _ _) t.isLt) := by
  rw [Dat.before_out_kept _ 10 rfl t (by omega) (Bool.eq_false_iff.mpr fun h => by have := (flush4_10 _).mp h; dsimp only at this; omega)
    (fun _ => rfl) (fun _ _ => rfl)]
  dsimp only [dat4]

theorem before4_11_acc (c : Dev nD) (t : Fin cfg4.N) (h0 : ¬t.val % 25 = 0) (d) :
    (dat4 V c).before 11 t d = sqAt4 V c (t.val - 1) (Nat.lt_of_le_of_lt (Nat.sub_le _ _) t.isLt) := by
  rw [Dat.before_out_kept _ 11 rfl t (by omega) (Bool.eq_false_iff.mpr fun h => by have := (flush4_11 _).mp h; dsimp only at this; omega)
    (fun _ => rfl) (fun _ _ => rfl)]
  dsimp only [dat4]

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

set_option maxHeartbeats 4000000 in
/-- The body at any point: the inputs' buffers hold their blocks; at the first point of a sweep the running rows are
    zeroed whatever they held, at a later one they hold what the point before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  by_cases h0 : t.val % 25 = 0
  · rw [sumAt4_reset V c t h0, sqAt4_reset V c t h0]
    unfold yStep4 sumStep4 sqStep4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel4_reset c Set.univ (grid4.coords t) _ _ _ _ _ _ _ _ _ _ _ _ _ _ _ _ _ _ _ _ _ _ _ _ ((hcond4 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [sumAt4_acc V c t h0, sqAt4_acc V c t h0]
    simp only [before4_10_acc V c t h0, before4_11_acc V c t h0]
    unfold yStep4 sumStep4 sqStep4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel4_acc c Set.univ (grid4.coords t) _ _ _ _ _ _ _ _ _ _ _ _ _ _ _ _ _ _ _ _ _ _ _ _ (fun h => h0 ((hcond4 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.R5.lean ====
/- Region 5 of the kernel program (an affine map followed by a rectifier, one row block per grid point): the proof
   data of its pipeline at the contents the region is entered with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every grid point, whether the block was brought
    in at that point or at an earlier one: between two fetches the block index does not move, and the body leaves
    the buffer as it found it. Stated for any proof data whose array is the entry contents and whose body keeps
    the block; once per input window (the row block, the scale row, the shift row). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl)
    (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl)
    (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl)
    (fun t => by rw [hafter]; unfold Dat.blockOf iblk5; rw [hA]; try rfl) t d).trans
    (by unfold Dat.fetched Dat.blockOf iblk5; rw [hA]; try rfl)

/-! ## The body's accesses -/

/-- The whole row block. -/
abbrev r5_blk : Rect S2000x128 := Rect.unit (s := S2000x128) ![0, 0] S2000x128.size inb_S2000x128_S2000x128_0_0
/-- The whole row of per-column coefficients. -/
abbrev r5_row : Rect S1x128 := Rect.unit (s := S1x128) ![0, 0] S1x128.size inb_S1x128_S1x128_0_0

/-! ## What the body leaves in the output window's buffer -/

/-- The output buffer after the body, from the three input blocks: one store over the whole block, of the
    rectified affine image of the row block under the two coefficient rows. -/
def out5_3 (y : Vec F S2000x128 .f32) (a : Vec F S1x128 .f32) (b : Vec F S1x128 .f32) : Vec F S2000x128 .f32 :=
  View.canon [⟨r5_blk, k5_pay1 (View.ld y r5_blk) (View.ld a r5_row) (View.ld b r5_row)⟩]

/-- The one store covers the buffer. -/
theorem cover5_3 (p : Vec F S2000x128 .f32) (z : S2000x128.Idx) :
    ∃ pc ∈ ([⟨r5_blk, p⟩] : List (View.Piece (Elt F) S2000x128 .f32)), z ∈ pc.1.set :=
  View.cover_of_tiled [⟨r5_blk, p⟩] S2000x128.size (by rfl) z

/-! ## The body's triple -/

set_option maxHeartbeats 1000000 in
/-- The body on whole staging buffers: the three inputs at known contents, the output at anything. It reads the
    inputs (and, idly, the output), stores the payload over the whole output, and returns with the inputs as they
    were and the output at `out5_3` of them. -/
theorem sound_kernel5 (c : Dev nD) (E : Set ℕ) (i : grid5.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (y : Vec F S2000x128 .f32) (a : Vec F S1x128 .f32) (b : Vec F S1x128 .f32) (K : PUnit → sProp 𝕄) :
    iprop(owns (c : Thread nD τ) arg1 fullShare y ∗ owns (c : Thread nD τ) arg2 fullShare a
        ∗ owns (c : Thread nD τ) arg3 fullShare b ∗ (∃ d, owns (c : Thread nD τ) arg4 fullShare d)
        ∗ (iprop(owns (c : Thread nD τ) arg1 fullShare y ∗ owns (c : Thread nD τ) arg2 fullShare a
            ∗ owns (c : Thread nD τ) arg3 fullShare b ∗ owns (c : Thread nD τ) arg4 fullShare (out5_3 y a b)) -∗ K ⟨⟩))
      ⊢ wp frame (wpE (defs₀ (F := F)) Variants.none c none) E
          (cc5__affine_relu_kernel i arg1 harg1 arg2 harg2 arg3 harg3 arg4 harg4) K := by
  simp only [cc5__affine_relu_kernel_eq_skeleton]; unfold cc5__affine_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_3 _)

/-! ## The pipeline's proof data -/

/-- The pipeline's proof data on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    what the core owes pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.R6.lean ====
/- Region 6 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## An input window's staging buffer holds its block at every point -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body loads and stores through: each a whole buffer -/

abbrev r6_a : Rect S2000x128 := Rect.unit (s := S2000x128) ![0, 0] S2000x128.size inb_S2000x128_S2000x128_0_0
abbrev r6_w : Rect S128x128 := Rect.unit (s := S128x128) ![0, 0] S128x128.size inb_S128x128_S128x128_0_0
abbrev r6_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y6 (x0 x1 : Vec F S2000x128 .f32) (x2 x3 : Vec F S128x128 .f32) (x4 : Vec F S1x128 .f32) : FVec F S2000x128 .f32 :=
  k6_pay4 (View.ld x4 r6_s) (View.ld x0 r6_a) (View.ld x2 r6_w) (View.ld x1 r6_a) (View.ld x3 r6_w)

/-- Window 5: one store of `y` over the whole buffer. -/
def out6_5 (x0 x1 : Vec F S2000x128 .f32) (x2 x3 : Vec F S128x128 .f32) (x4 : Vec F S1x128 .f32) : Vec F S2000x128 .f32 :=
  View.canon [⟨r6_a, y6 x0 x1 x2 x3 x4⟩]

/-- Window 6: the zero row stored first, then the column sums of `y` added onto the row read back. -/
def out6_6 (x0 x1 : Vec F S2000x128 .f32) (x2 x3 : Vec F S128x128 .f32) (x4 : Vec F S1x128 .f32) : Vec F S1x128 .f32 :=
  View.canon [⟨r6_s, k6_pay6 (View.ld x4 r6_s) (View.ld x0 r6_a) (View.ld x2 r6_w) (View.ld x1 r6_a) (View.ld x3 r6_w) (k6_pay2 (F := F))⟩,
    ⟨r6_s, k6_pay2 (F := F)⟩]

/-- Window 7: the zero row stored first, then the column sums of `y·y` added onto the row read back. -/
def out6_7 (x0 x1 : Vec F S2000x128 .f32) (x2 x3 : Vec F S128x128 .f32) (x4 : Vec F S1x128 .f32) : Vec F S1x128 .f32 :=
  View.canon [⟨r6_s, k6_pay1 (k6_pay5 (View.ld x4 r6_s) (View.ld x0 r6_a) (View.ld x2 r6_w) (View.ld x1 r6_a) (View.ld x3 r6_w)) (k6_pay3 (F := F))⟩,
    ⟨r6_s, k6_pay3 (F := F)⟩]

/-- A store through the whole-buffer rectangle covers the buffer, whatever was stored before it. -/
theorem cover6_a (p0 : Vec F S2000x128 .f32) (y : S2000x128.Idx) :
    ∃ pc ∈ ([⟨r6_a, p0⟩] : List (View.Piece (Elt F) S2000x128 .f32)), y ∈ pc.1.set :=
  View.cover_of_tiled [⟨r6_a, p0⟩] S2000x128.size (by rfl) y

theorem cover6_s (p0 p1 : Vec F S1x128 .f32) (y : S1x128.Idx) :
    ∃ pc ∈ ([⟨r6_s, p0⟩, ⟨r6_s, p1⟩] : List (View.Piece (Elt F) S1x128 .f32)), y ∈ pc.1.set := by
  obtain ⟨pc, hpc, hy⟩ := View.cover_of_tiled ([⟨r6_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond6_0 (i : grid6.Coords) : Prop :=
  (Scalar.cmpi .ne (Scalar.extui (Scalar.cmpi .eq (BitVec.ofNat 32 (i 0).val) 0#32)) 0#32) = 1#1
/-- It holds at every point of the grid: decided over the grid. -/
theorem hcond6_0 : ∀ t : Fin cfg6.N, cond6_0 (grid6.coords t) :=
  (by decide +kernel : ∀ t : Fin grid6.N, cond6_0 (grid6.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out6_·` of the inputs'. -/
theorem sound_kernel6 (c : Dev nD) (E : Set ℕ) (i : grid6.Coords) (hc0 : cond6_0 i) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4) ∗ owns (c : Thread nD τ) arg7 fullShare (out6_6 x0 x1 x2 x3 x4)
            ∗ owns (c : Thread nD τ) arg8 fullShare (out6_7 x0 x1 x2 x3 x4)) -∗ K ⟨⟩))
      ⊢ wp frame (wpE (defs₀ (F := F)) Variants.none c none) E (cc6_kernel i arg1 harg1 arg2 harg2 arg3 harg3 arg4 harg4 arg5 harg5 arg6 harg6 arg7 harg7 arg8 harg8) K := by
  simp only [cc6_kernel_eq_skeleton]; unfold cc6_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_a _)
  isplitl [H6]
  · iexists _; isplitr
    swap; · iexact H6
    ipureintro
    sl_unfold_run_names
    refine (View.read_writes_eq_canon _ _ _ (cover6_s _ _)).trans ?_
    unfold out6_6
    rw [View.readCov_cons_toLoadRect]
    rfl
  · iexists _; isplitr
    swap; · iexact H7
    ipureintro
    sl_unfold_run_names
    refine (View.read_writes_eq_canon _ _ _ (cover6_s _ _)).trans ?_
    unfold out6_7
    rw [View.readCov_cons_toLoadRect]
    rfl

/-! ## The pipeline's proof data -/

/-- The proof data of the pipeline on core `c`: the arrays as the region finds them; after the body at point `t`
    each input's buffer at its block and each output's at `out6_·` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
    | ⟨6, _⟩ => out6_6 (iblk6 V c 0 t) (iblk6 V c 1 t) (iblk6 V c 2 t) (iblk6 V c 3 t) (iblk6 V c 4 t)
    | ⟨7, _⟩ => out6_7 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 1000000 in
/-- The body at any point: the inputs' memrefs hold their blocks, the branch is the one taken, so the triple applies;
    the invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) (hcond6_0 t) _ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.R7.lean ====
/- Region 7 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The two rectangles the body touches: each buffer whole -/

/-- All of the large buffer (the operand `y` and the result). -/
abbrev big7 : Rect S2000x128 := Rect.unit (s := S2000x128) ![0, 0] S2000x128.size inb_S2000x128_S2000x128_0_0
/-- All of a one-row buffer (the scale and the shift). -/
abbrev row7 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out7_3 (y : Vec F S2000x128 .f32) (sc sf : Vec F S1x128 .f32) : Vec F S2000x128 .f32 :=
  View.canon [⟨big7, k7_pay1 (View.ld y big7) (View.ld sc row7) (View.ld sf row7)⟩]

/-- That one store reaches every index of the buffer. -/
theorem whole7_3 (p : Vec F S2000x128 .f32) (j : S2000x128.Idx) :
    ∃ pc ∈ ([⟨big7, p⟩] : List (View.Piece (Elt F) S2000x128 .f32)), j ∈ pc.1.set :=
  View.cover_of_tiled [⟨big7, p⟩] S2000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out7_3 y sc sf`. The load of
    the result's buffer before the store reads contents nothing is known of, and its value is dropped. -/
theorem run_kernel7 (c : Dev nD) (E : Set ℕ) (i : grid7.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S2000x128 .f32) (h4 : a4.IsWhole)
    (y : Vec F S2000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out7_3 y sc sf)) -∗ K ⟨⟩))
      ⊢ wp frame (wpE (defs₀ (F := F)) Variants.none c none) E (cc7__affine_relu_kernel i a1 h1 a2 h2 a3 h3 a4 h4) K := by
  simp only [cc7__affine_relu_kernel_eq_skeleton]; unfold cc7__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole7_3 _)

/-! ## The proof data -/

/-- The pipeline's proof data on core `c`: the arrays as the region finds them; after the body each operand's buffer
    still at its block, the result's at `out7_3` of the three blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-! ## What the body finds in the operands' buffers

An operand window is never written by the body, is uncut and has no idle point, so at every point its current buffer
holds the window's block there, whether the pipeline fetched at that point or the block index stood still. -/

theorem before7_0 (c : Dev nD) (t : Fin cfg7.N) (d) : (dat7 V c).before 0 t d = iblk7 V c 0 t :=
  ((dat7 V c).before_in_eq_fetched 0 rfl (fun _ => rfl) (fun _ _ _ => rfl)
    (fun s => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
    (fun s => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl)
    (fun s => by rw [after7_2]; unfold Dat.blockOf iblk7; rw [A_eq7]; try rfl) t d).trans
    (by unfold Dat.fetched Dat.blockOf iblk7; rw [A_eq7]; try rfl)

/-! ## The body obligation -/

/-- The body at a point `t`, on the current staging buffers: the operands' buffers hold their blocks, the invariant
    and what the core owes ride along untouched. -/
theorem run_body7 (c : Dev nD) (t : Fin cfg7.N) :
    iprop((dat7 V c).Φ t.castSucc ∗ (dat7 V c).owesAt () t.castSucc
        ∗ (∃ d, owns (c : Thread nD τ) (st7_0 t) fullShare ((dat7 V c).before 0 t d))
        ∗ (∃ d, owns (c : Thread nD τ) (st7_1 t) fullShare ((dat7 V c).before 1 t d))
        ∗ (∃ d, owns (c : Thread nD τ) (st7_2 t) fullShare ((dat7 V c).before 2 t d))
        ∗ (∃ d, owns (c : Thread nD τ) (st7_3 t) fullShare ((dat7 V c).before 3 t d)))
      ⊢ wp frame (wpE (defs₀ (F := F)) Variants.none c none) Set.univ (bodyAt7 t) (fun _ =>
        iprop((dat7 V c).Φ t.succ ∗ (dat7 V c).owesAt () t.succ
          ∗ owns (c : Thread nD τ) (st7_0 t) fullShare ((dat7 V c).after 0 t)
          ∗ owns (c : Thread nD τ) (st7_1 t) fullShare ((dat7 V c).after 1 t)
          ∗ owns (c : Thread nD τ) (st7_2 t) fullShare ((dat7 V c).after 2 t)
          ∗ owns (c : Thread nD τ) (st7_3 t) fullShare ((dat7 V c).after 3 t))) := by
  unfold bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, B0⟩, ⟨%d1, B1⟩, ⟨%d2, B2⟩, ⟨%d3, B3⟩⟩
  iapply (run_kernel7 c Set.univ _ _ _ _ _ _ _ _ _ (iblk7 V c 0 t) (iblk7 V c 1 t) (iblk7 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation7 (c : Dev nD) : BodyObligation (dat7 (F := F) V c) (defs₀ (F := F)) Variants.none () Set.univ := fun t => by
  rw [bigSep_W7, bigSep_W7]
  exact run_body7 V c t

end Cert.Kernel.Hand

end
-- ==== Proof.KB.R8.lean ====
/- Region 8 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## An input window's staging buffer holds its block at every point -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The rectangles the body loads and stores through: each a whole buffer -/

abbrev r8_a : Rect S5000x128 := Rect.unit (s := S5000x128) ![0, 0] S5000x128.size inb_S5000x128_S5000x128_0_0
abbrev r8_w : Rect S128x128 := Rect.unit (s := S128x128) ![0, 0] S128x128.size inb_S128x128_S128x128_0_0
abbrev r8_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y8 (x0 x1 : Vec F S5000x128 .f32) (x2 x3 : Vec F S128x128 .f32) (x4 : Vec F S1x128 .f32) : FVec F S5000x128 .f32 :=
  k8_pay4 (View.ld x4 r8_s) (View.ld x0 r8_a) (View.ld x2 r8_w) (View.ld x1 r8_a) (View.ld x3 r8_w)

/-- Window 5: one store of `y` over the whole buffer. -/
def out8_5 (x0 x1 : Vec F S5000x128 .f32) (x2 x3 : Vec F S128x128 .f32) (x4 : Vec F S1x128 .f32) : Vec F S5000x128 .f32 :=
  View.canon [⟨r8_a, y8 x0 x1 x2 x3 x4⟩]

/-- Window 6: the zero row stored first, then the column sums of `y` added onto the row read back. -/
def out8_6 (x0 x1 : Vec F S5000x128 .f32) (x2 x3 : Vec F S128x128 .f32) (x4 : Vec F S1x128 .f32) : Vec F S1x128 .f32 :=
  View.canon [⟨r8_s, k8_pay6 (View.ld x4 r8_s) (View.ld x0 r8_a) (View.ld x2 r8_w) (View.ld x1 r8_a) (View.ld x3 r8_w) (k8_pay2 (F := F))⟩,
    ⟨r8_s, k8_pay2 (F := F)⟩]

/-- Window 7: the zero row stored first, then the column sums of `y·y` added onto the row read back. -/
def out8_7 (x0 x1 : Vec F S5000x128 .f32) (x2 x3 : Vec F S128x128 .f32) (x4 : Vec F S1x128 .f32) : Vec F S1x128 .f32 :=
  View.canon [⟨r8_s, k8_pay1 (k8_pay5 (View.ld x4 r8_s) (View.ld x0 r8_a) (View.ld x2 r8_w) (View.ld x1 r8_a) (View.ld x3 r8_w)) (k8_pay3 (F := F))⟩,
    ⟨r8_s, k8_pay3 (F := F)⟩]

/-- A store through the whole-buffer rectangle covers the buffer, whatever was stored before it. -/
theorem cover8_a (p0 : Vec F S5000x128 .f32) (y : S5000x128.Idx) :
    ∃ pc ∈ ([⟨r8_a, p0⟩] : List (View.Piece (Elt F) S5000x128 .f32)), y ∈ pc.1.set :=
  View.cover_of_tiled [⟨r8_a, p0⟩] S5000x128.size (by rfl) y

theorem cover8_s (p0 p1 : Vec F S1x128 .f32) (y : S1x128.Idx) :
    ∃ pc ∈ ([⟨r8_s, p0⟩, ⟨r8_s, p1⟩] : List (View.Piece (Elt F) S1x128 .f32)), y ∈ pc.1.set := by
  obtain ⟨pc, hpc, hy⟩ := View.cover_of_tiled ([⟨r8_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond8_0 (i : grid8.Coords) : Prop :=
  (Scalar.cmpi .ne (Scalar.extui (Scalar.cmpi .eq (BitVec.ofNat 32 (i 0).val) 0#32)) 0#32) = 1#1
/-- It holds at every point of the grid: decided over the grid. -/
theorem hcond8_0 : ∀ t : Fin cfg8.N, cond8_0 (grid8.coords t) :=
  (by decide +kernel : ∀ t : Fin grid8.N, cond8_0 (grid8.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out8_·` of the inputs'. -/
theorem sound_kernel8 (c : Dev nD) (E : Set ℕ) (i : grid8.Coords) (hc0 : cond8_0 i) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4) ∗ owns (c : Thread nD τ) arg7 fullShare (out8_6 x0 x1 x2 x3 x4)
            ∗ owns (c : Thread nD τ) arg8 fullShare (out8_7 x0 x1 x2 x3 x4)) -∗ K ⟨⟩))
      ⊢ wp frame (wpE (defs₀ (F := F)) Variants.none c none) E (cc8_kernel i arg1 harg1 arg2 harg2 arg3 harg3 arg4 harg4 arg5 harg5 arg6 harg6 arg7 harg7 arg8 harg8) K := by
  simp only [cc8_kernel_eq_skeleton]; unfold cc8_kernel_skel
  simp only [k8_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover8_a _)
  isplitl [H6]
  · iexists _; isplitr
    swap; · iexact H6
    ipureintro
    sl_unfold_run_names
    refine (View.read_writes_eq_canon _ _ _ (cover8_s _ _)).trans ?_
    unfold out8_6
    rw [View.readCov_cons_toLoadRect]
    rfl
  · iexists _; isplitr
    swap; · iexact H7
    ipureintro
    sl_unfold_run_names
    refine (View.read_writes_eq_canon _ _ _ (cover8_s _ _)).trans ?_
    unfold out8_7
    rw [View.readCov_cons_toLoadRect]
    rfl

/-! ## The pipeline's proof data -/

/-- The proof data of the pipeline on core `c`: the arrays as the region finds them; after the body at point `t`
    each input's buffer at its block and each output's at `out8_·` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
    | ⟨6, _⟩ => out8_6 (iblk8 V c 0 t) (iblk8 V c 1 t) (iblk8 V c 2 t) (iblk8 V c 3 t) (iblk8 V c 4 t)
    | ⟨7, _⟩ => out8_7 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

set_option maxHeartbeats 1000000 in
/-- The body at any point: the inputs' memrefs hold their blocks, the branch is the one taken, so the triple applies;
    the invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) (hcond8_0 t) _ _ _ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.R9.lean ====
/- Region 9 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The two rectangles the body touches: each buffer whole -/

/-- All of the large buffer (the operand `y` and the result). -/
abbrev big9 : Rect S5000x128 := Rect.unit (s := S5000x128) ![0, 0] S5000x128.size inb_S5000x128_S5000x128_0_0
/-- All of a one-row buffer (the scale and the shift). -/
abbrev row9 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out9_3 (y : Vec F S5000x128 .f32) (sc sf : Vec F S1x128 .f32) : Vec F S5000x128 .f32 :=
  View.canon [⟨big9, k9_pay1 (View.ld y big9) (View.ld sc row9) (View.ld sf row9)⟩]

/-- That one store reaches every index of the buffer. -/
theorem whole9_3 (p : Vec F S5000x128 .f32) (j : S5000x128.Idx) :
    ∃ pc ∈ ([⟨big9, p⟩] : List (View.Piece (Elt F) S5000x128 .f32)), j ∈ pc.1.set :=
  View.cover_of_tiled [⟨big9, p⟩] S5000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out9_3 y sc sf`. The load of
    the result's buffer before the store reads contents nothing is known of, and its value is dropped. -/
theorem run_kernel9 (c : Dev nD) (E : Set ℕ) (i : grid9.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S5000x128 .f32) (h4 : a4.IsWhole)
    (y : Vec F S5000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out9_3 y sc sf)) -∗ K ⟨⟩))
      ⊢ wp frame (wpE (defs₀ (F := F)) Variants.none c none) E (cc9__affine_relu_kernel i a1 h1 a2 h2 a3 h3 a4 h4) K := by
  simp only [cc9__affine_relu_kernel_eq_skeleton]; unfold cc9__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole9_3 _)

/-! ## The proof data -/

/-- The pipeline's proof data on core `c`: the arrays as the region finds them; after the body each operand's buffer
    still at its block, the result's at `out9_3` of the three blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-! ## What the body finds in the operands' buffers

An operand window is never written by the body, is uncut and has no idle point, so at every point its current buffer
holds the window's block there, whether the pipeline fetched at that point or the block index stood still. -/

theorem before9_0 (c : Dev nD) (t : Fin cfg9.N) (d) : (dat9 V c).before 0 t d = iblk9 V c 0 t :=
  ((dat9 V c).before_in_eq_fetched 0 rfl (fun _ => rfl) (fun _ _ _ => rfl)
    (fun s => by rw [after9_0]; unfold Dat.blockOf iblk9; rw [A_eq9]; try rfl) t d).trans
    (by unfold Dat.fetched Dat.blockOf iblk9; rw [A_eq9]; try rfl)

theorem before9_1 (c : Dev nD) (t : Fin cfg9.N) (d) : (dat9 V c).before 1 t d = iblk9 V c 1 t :=
  ((dat9 V c).before_in_eq_fetched 1 rfl (fun _ => rfl) (fun _ _ _ => rfl)
    (fun s => by rw [after9_1]; unfold Dat.blockOf iblk9; rw [A_eq9]; try rfl) t d).trans
    (by unfold Dat.fetched Dat.blockOf iblk9; rw [A_eq9]; try rfl)

theorem before9_2 (c : Dev nD) (t : Fin cfg9.N) (d) : (dat9 V c).before 2 t d = iblk9 V c 2 t :=
  ((dat9 V c).before_in_eq_fetched 2 rfl (fun _ => rfl) (fun _ _ _ => rfl)
    (fun s => by rw [after9_2]; unfold Dat.blockOf iblk9; rw [A_eq9]; try rfl) t d).trans
    (by unfold Dat.fetched Dat.blockOf iblk9; rw [A_eq9]; try rfl)

/-! ## The body obligation -/

/-- The body at a point `t`, on the current staging buffers: the operands' buffers hold their blocks, the invariant
    and what the core owes ride along untouched. -/
theorem run_body9 (c : Dev nD) (t : Fin cfg9.N) :
    iprop((dat9 V c).Φ t.castSucc ∗ (dat9 V c).owesAt () t.castSucc
        ∗ (∃ d, owns (c : Thread nD τ) (st9_0 t) fullShare ((dat9 V c).before 0 t d))
        ∗ (∃ d, owns (c : Thread nD τ) (st9_1 t) fullShare ((dat9 V c).before 1 t d))
        ∗ (∃ d, owns (c : Thread nD τ) (st9_2 t) fullShare ((dat9 V c).before 2 t d))
        ∗ (∃ d, owns (c : Thread nD τ) (st9_3 t) fullShare ((dat9 V c).before 3 t d)))
      ⊢ wp frame (wpE (defs₀ (F := F)) Variants.none c none) Set.univ (bodyAt9 t) (fun _ =>
        iprop((dat9 V c).Φ t.succ ∗ (dat9 V c).owesAt () t.succ
          ∗ owns (c : Thread nD τ) (st9_0 t) fullShare ((dat9 V c).after 0 t)
          ∗ owns (c : Thread nD τ) (st9_1 t) fullShare ((dat9 V c).after 1 t)
          ∗ owns (c : Thread nD τ) (st9_2 t) fullShare ((dat9 V c).after 2 t)
          ∗ owns (c : Thread nD τ) (st9_3 t) fullShare ((dat9 V c).after 3 t))) := by
  unfold bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, B0⟩, ⟨%d1, B1⟩, ⟨%d2, B2⟩, ⟨%d3, B3⟩⟩
  iapply (run_kernel9 c Set.univ _ _ _ _ _ _ _ _ _ (iblk9 V c 0 t) (iblk9 V c 1 t) (iblk9 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation9 (c : Dev nD) : BodyObligation (dat9 (F := F) V c) (defs₀ (F := F)) Variants.none () Set.univ := fun t => by
  rw [bigSep_W9, bigSep_W9]
  exact run_body9 V c t

end Cert.Kernel.Hand

end
-- ==== Proof.KB.R10.lean ====
/- Region 10 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## An input window's staging buffer holds its block at every point -/

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The rectangles the body loads and stores through: each a whole buffer -/

abbrev r10_a : Rect S3000x128 := Rect.unit (s := S3000x128) ![0, 0] S3000x128.size inb_S3000x128_S3000x128_0_0
abbrev r10_w : Rect S128x128 := Rect.unit (s := S128x128) ![0, 0] S128x128.size inb_S128x128_S128x128_0_0
abbrev r10_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y10 (x0 x1 : Vec F S3000x128 .f32) (x2 x3 : Vec F S128x128 .f32) (x4 : Vec F S1x128 .f32) : FVec F S3000x128 .f32 :=
  k10_pay4 (View.ld x4 r10_s) (View.ld x0 r10_a) (View.ld x2 r10_w) (View.ld x1 r10_a) (View.ld x3 r10_w)

/-- Window 5: one store of `y` over the whole buffer. -/
def out10_5 (x0 x1 : Vec F S3000x128 .f32) (x2 x3 : Vec F S128x128 .f32) (x4 : Vec F S1x128 .f32) : Vec F S3000x128 .f32 :=
  View.canon [⟨r10_a, y10 x0 x1 x2 x3 x4⟩]

/-- Window 6: the zero row stored first, then the column sums of `y` added onto the row read back. -/
def out10_6 (x0 x1 : Vec F S3000x128 .f32) (x2 x3 : Vec F S128x128 .f32) (x4 : Vec F S1x128 .f32) : Vec F S1x128 .f32 :=
  View.canon [⟨r10_s, k10_pay6 (View.ld x4 r10_s) (View.ld x0 r10_a) (View.ld x2 r10_w) (View.ld x1 r10_a) (View.ld x3 r10_w) (k10_pay2 (F := F))⟩,
    ⟨r10_s, k10_pay2 (F := F)⟩]

/-- Window 7: the zero row stored first, then the column sums of `y·y` added onto the row read back. -/
def out10_7 (x0 x1 : Vec F S3000x128 .f32) (x2 x3 : Vec F S128x128 .f32) (x4 : Vec F S1x128 .f32) : Vec F S1x128 .f32 :=
  View.canon [⟨r10_s, k10_pay1 (k10_pay5 (View.ld x4 r10_s) (View.ld x0 r10_a) (View.ld x2 r10_w) (View.ld x1 r10_a) (View.ld x3 r10_w)) (k10_pay3 (F := F))⟩,
    ⟨r10_s, k10_pay3 (F := F)⟩]

/-- A store through the whole-buffer rectangle covers the buffer, whatever was stored before it. -/
theorem cover10_a (p0 : Vec F S3000x128 .f32) (y : S3000x128.Idx) :
    ∃ pc ∈ ([⟨r10_a, p0⟩] : List (View.Piece (Elt F) S3000x128 .f32)), y ∈ pc.1.set :=
  View.cover_of_tiled [⟨r10_a, p0⟩] S3000x128.size (by rfl) y

theorem cover10_s (p0 p1 : Vec F S1x128 .f32) (y : S1x128.Idx) :
    ∃ pc ∈ ([⟨r10_s, p0⟩, ⟨r10_s, p1⟩] : List (View.Piece (Elt F) S1x128 .f32)), y ∈ pc.1.set := by
  obtain ⟨pc, hpc, hy⟩ := View.cover_of_tiled ([⟨r10_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond10_0 (i : grid10.Coords) : Prop :=
  (Scalar.cmpi .ne (Scalar.extui (Scalar.cmpi .eq (BitVec.ofNat 32 (i 0).val) 0#32)) 0#32) = 1#1
/-- It holds at every point of the grid: decided over the grid. -/
theorem hcond10_0 : ∀ t : Fin cfg10.N, cond10_0 (grid10.coords t) :=
  (by decide +kernel : ∀ t : Fin grid10.N, cond10_0 (grid10.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out10_·` of the inputs'. -/
theorem sound_kernel10 (c : Dev nD) (E : Set ℕ) (i : grid10.Coords) (hc0 : cond10_0 i) (arg1 : Memref sig .tc .vmem S3000x128 .f32) (harg1 : arg1.IsWhole) (arg2 : Memref sig .tc .vmem S3000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S3000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S3000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out10_5 x0 x1 x2 x3 x4) ∗ owns (c : Thread nD τ) arg7 fullShare (out10_6 x0 x1 x2 x3 x4)
            ∗ owns (c : Thread nD τ) arg8 fullShare (out10_7 x0 x1 x2 x3 x4)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover10_a _)
  isplitl [H6]
  · iexists _; isplitr
    swap; · iexact H6
    ipureintro
    sl_unfold_run_names
    refine (View.read_writes_eq_canon _ _ _ (cover10_s _ _)).trans ?_
    unfold out10_6
    rw [View.readCov_cons_toLoadRect]
    rfl
  · iexists _; isplitr
    swap; · iexact H7
    ipureintro
    sl_unfold_run_names
    refine (View.read_writes_eq_canon _ _ _ (cover10_s _ _)).trans ?_
    unfold out10_7
    rw [View.readCov_cons_toLoadRect]
    rfl

/-! ## The pipeline's proof data -/

/-- The proof data of the pipeline on core `c`: the arrays as the region finds them; after the body at point `t`
    each input's buffer at its block and each output's at `out10_·` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
    | ⟨6, _⟩ => out10_6 (iblk10 V c 0 t) (iblk10 V c 1 t) (iblk10 V c 2 t) (iblk10 V c 3 t) (iblk10 V c 4 t)
    | ⟨7, _⟩ => out10_7 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

set_option maxHeartbeats 1000000 in
/-- The body at any point: the inputs' memrefs hold their blocks, the branch is the one taken, so the triple applies;
    the invariant and the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ (grid10.coords t) (hcond10_0 t) _ _ _ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.KB.R11.lean ====
/- Region 11 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The two rectangles the body touches: each buffer whole -/

/-- All of the large buffer (the operand `y` and the result). -/
abbrev big11 : Rect S3000x128 := Rect.unit (s := S3000x128) ![0, 0] S3000x128.size inb_S3000x128_S3000x128_0_0
/-- All of a one-row buffer (the scale and the shift). -/
abbrev row11 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out11_3 (y : Vec F S3000x128 .f32) (sc sf : Vec F S1x128 .f32) : Vec F S3000x128 .f32 :=
  View.canon [⟨big11, k11_pay1 (View.ld y big11) (View.ld sc row11) (View.ld sf row11)⟩]

/-- That one store reaches every index of the buffer. -/
theorem whole11_3 (p : Vec F S3000x128 .f32) (j : S3000x128.Idx) :
    ∃ pc ∈ ([⟨big11, p⟩] : List (View.Piece (Elt F) S3000x128 .f32)), j ∈ pc.1.set :=
  View.cover_of_tiled [⟨big11, p⟩] S3000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out11_3 y sc sf`. The load of
    the result's buffer before the store reads contents nothing is known of, and its value is dropped. -/
theorem run_kernel11 (c : Dev nD) (E : Set ℕ) (i : grid11.Coords)
    (a1 : Memref sig .tc .vmem S3000x128 .f32) (h1 : a1.IsWhole) (a2 : Memref sig .tc .vmem S1x128 .f32) (h2 : a2.IsWhole)
    (a3 : Memref sig .tc .vmem S1x128 .f32) (h3 : a3.IsWhole) (a4 : Memref sig .tc .vmem S3000x128 .f32) (h4 : a4.IsWhole)
    (y : Vec F S3000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out11_3 y sc sf)) -∗ K ⟨⟩))
      ⊢ wp frame (wpE (defs₀ (F := F)) Variants.none c none) E (cc11__affine_relu_kernel i a1 h1 a2 h2 a3 h3 a4 h4) K := by
  simp only [cc11__affine_relu_kernel_eq_skeleton]; unfold cc11__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole11_3 _)

/-! ## The proof data -/

/-- The pipeline's proof data on core `c`: the arrays as the region finds them; after the body each operand's buffer
    still at its block, the result's at `out11_3` of the three blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-! ## What the body finds in the operands' buffers

An operand window is never written by the body, is uncut and has no idle point, so at every point its current buffer
holds the window's block there, whether the pipeline fetched at that point or the block index stood still. -/

theorem before11_0 (c : Dev nD) (t : Fin cfg11.N) (d) : (dat11 V c).before 0 t d = iblk11 V c 0 t :=
  ((dat11 V c).before_in_eq_fetched 0 rfl (fun _ => rfl) (fun _ _ _ => rfl)
    (fun s => by rw [after11_0]; unfold Dat.blockOf iblk11; rw [A_eq11]; try rfl) t d).trans
    (by unfold Dat.fetched Dat.blockOf iblk11; rw [A_eq11]; try rfl)

theorem before11_1 (c : Dev nD) (t : Fin cfg11.N) (d) : (dat11 V c).before 1 t d = iblk11 V c 1 t :=
  ((dat11 V c).before_in_eq_fetched 1 rfl (fun _ => rfl) (fun _ _ _ => rfl)
    (fun s => by rw [after11_1]; unfold Dat.blockOf iblk11; rw [A_eq11]; try rfl) t d).trans
    (by unfold Dat.fetched Dat.blockOf iblk11; rw [A_eq11]; try rfl)

theorem before11_2 (c : Dev nD) (t : Fin cfg11.N) (d) : (dat11 V c).before 2 t d = iblk11 V c 2 t :=
  ((dat11 V c).before_in_eq_fetched 2 rfl (fun _ => rfl) (fun _ _ _ => rfl)
    (fun s => by rw [after11_2]; unfold Dat.blockOf iblk11; rw [A_eq11]; try rfl) t d).trans
    (by unfold Dat.fetched Dat.blockOf iblk11; rw [A_eq11]; try rfl)

/-! ## The body obligation -/

/-- The body at a point `t`, on the current staging buffers: the operands' buffers hold their blocks, the invariant
    and what the core owes ride along untouched. -/
theorem run_body11 (c : Dev nD) (t : Fin cfg11.N) :
    iprop((dat11 V c).Φ t.castSucc ∗ (dat11 V c).owesAt () t.castSucc
        ∗ (∃ d, owns (c : Thread nD τ) (st11_0 t) fullShare ((dat11 V c).before 0 t d))
        ∗ (∃ d, owns (c : Thread nD τ) (st11_1 t) fullShare ((dat11 V c).before 1 t d))
        ∗ (∃ d, owns (c : Thread nD τ) (st11_2 t) fullShare ((dat11 V c).before 2 t d))
        ∗ (∃ d, owns (c : Thread nD τ) (st11_3 t) fullShare ((dat11 V c).before 3 t d)))
      ⊢ wp frame (wpE (defs₀ (F := F)) Variants.none c none) Set.univ (bodyAt11 t) (fun _ =>
        iprop((dat11 V c).Φ t.succ ∗ (dat11 V c).owesAt () t.succ
          ∗ owns (c : Thread nD τ) (st11_0 t) fullShare ((dat11 V c).after 0 t)
          ∗ owns (c : Thread nD τ) (st11_1 t) fullShare ((dat11 V c).after 1 t)
          ∗ owns (c : Thread nD τ) (st11_2 t) fullShare ((dat11 V c).after 2 t)
          ∗ owns (c : Thread nD τ) (st11_3 t) fullShare ((dat11 V c).after 3 t))) := by
  unfold bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, B0⟩, ⟨%d1, B1⟩, ⟨%d2, B2⟩, ⟨%d3, B3⟩⟩
  iapply (run_kernel11 c Set.univ _ _ _ _ _ _ _ _ _ (iblk11 V c 0 t) (iblk11 V c 1 t) (iblk11 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation11 (c : Dev nD) : BodyObligation (dat11 (F := F) V c) (defs₀ (F := F)) Variants.none () Set.univ := fun t => by
  rw [bigSep_W11, bigSep_W11]
  exact run_body11 V c t

end Cert.Kernel.Hand

end
-- ==== Proof.KB.R12.lean ====
/- Region 12 of the kernel program: one row-block step of `y = b + x0·w0 + x1·w1 + x2·w2 + x3·w3` with running
   column sums of `y` and `y·y` per sweep of the second grid axis. The body's run in its two cases (the running
   rows zeroed first, or continued), what each window's staging buffer holds after each grid point, the proof data
   of the pipeline at the contents the region is entered with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes

The body forms, on a block of 2000 rows, `y = b + x0·w0 + x1·w1 + x2·w2 + x3·w3` (each product a matrix product
of the block, rounded to bf16, with a 128×128 weight matrix, into a zero accumulator), stores it, and adds the
column sums of `y` and of `y·y` to two running rows. -/

/-- The block of `y` from the four row blocks, the four weights and the bias row. -/
def yrows12 (x0 x1 x2 x3 : Vec F S2000x128 .f32) (w0 w1 w2 w3 : Vec F S128x128 .f32) (b : Vec F S1x128 .f32) : Vec F S2000x128 .f32 :=
  k12_pay1 (k12_pay6 b x0 w0 x1 w1 x2 w2) (k12_pay7 x3) w3

/-- The running row of column sums after the block: what it held, plus the column sums of the block of `y`. -/
def colsum12 (x0 x1 x2 x3 : Vec F S2000x128 .f32) (w0 w1 w2 w3 : Vec F S128x128 .f32) (b : Vec F S1x128 .f32) (acc : Vec F S1x1x128 .f32) : Vec F S1x1x128 .f32 :=
  k12_pay2 (k12_pay6 b x0 w0 x1 w1 x2 w2) (k12_pay7 x3) w3 acc

/-- The running row of column sums of squares after the block. -/
def colsq12 (x0 x1 x2 x3 : Vec F S2000x128 .f32) (w0 w1 w2 w3 : Vec F S128x128 .f32) (b : Vec F S1x128 .f32) (acc : Vec F S1x1x128 .f32) : Vec F S1x1x128 .f32 :=
  k12_pay3 (k12_pay6 b x0 w0 x1 w1 x2 w2) (k12_pay7 x3) w3 acc

/-- The condition of the body's conditional (the running rows are zeroed), from the grid coordinates. -/
abbrev cond12 (i : grid12.Coords) : Prop :=
  (Scalar.cmpi .ne (Scalar.extui (Scalar.cmpi .eq (BitVec.ofNat 32 (i 1).val) 0#32)) 0#32) = 1#1

/-- It holds exactly at the first point of each sweep of the second grid axis. -/
theorem hcond12 : ∀ t : Fin cfg12.N, cond12 (grid12.coords t) ↔ t.val % 25 = 0 :=
  (by decide +kernel : ∀ t : Fin grid12.N, cond12 (grid12.coords t) ↔ t.val % 25 = 0)

private theorem hz2 : (![0, 0] : Fin 2 → ℕ) = fun _ => 0 := by
  funext a; match a with | ⟨0, _⟩ => rfl | ⟨1, _⟩ => rfl
private theorem hz3 : (![0, 0, 0] : Fin 3 → ℕ) = fun _ => 0 := by
  funext a; match a with | ⟨0, _⟩ => rfl | ⟨1, _⟩ => rfl | ⟨2, _⟩ => rfl

set_option maxHeartbeats 4000000 in
/-- The body at a point where the running rows are zeroed first: on whole staging memrefs, the inputs' at their
    contents and the outputs' at anything, it runs to the continuation holding the inputs' as they were, the
    block of `y`, and the two rows started from zero. -/
theorem sound_kernel12_reset (c : Dev nD) (E : Set ℕ) (i : grid12.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : cond12 i) (x0 x1 x2 x3 : Vec F S2000x128 .f32) (w0 w1 w2 w3 : Vec F S128x128 .f32) (b : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows12 x0 x1 x2 x3 w0 w1 w2 w3 b)
            ∗ owns (c : Thread nD τ) arg12 fullShare (colsum12 x0 x1 x2 x3 w0 w1 w2 w3 b k12_pay4)
            ∗ owns (c : Thread nD τ) arg13 fullShare (colsq12 x0 x1 x2 x3 w0 w1 w2 w3 b k12_pay5)) -∗ K ⟨⟩))
      ⊢ wp frame (wpE (defs₀ (F := F)) Variants.none c none) E (cc12_kernel i arg2 harg2 arg3 harg3 arg4 harg4 arg5 harg5 arg6 harg6 arg7 harg7 arg8 harg8 arg9 harg9 arg10 harg10 arg11 harg11 arg12 harg12 arg13 harg13) K := by
  simp only [cc12_kernel_eq_skeleton]; unfold cc12_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf2 hf3 hf4 hf5 hf6 hf7 hf8 hf9 hf10
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows12
    sl_unfold_words
    simp only [View.readAt_eq_ld, View.ld_unit_zero (S := S2000x128) hz2, View.ld_unit_zero (S := S128x128) hz2, View.ld_unit_zero (S := S1x128) hz2, View.readCov_unit_zero (S := S1x1x128) _ hz3]
  isplitl [H12]
  · iexists _; isplitr
    swap; · iexact H12
    ipureintro
    rw [View.read_writes_eq_canon _ _ _ (fun y => ⟨_, List.mem_cons_self, View.mem_set_unit_zero hz3 inb_S1x1x128_S1x1x128_0_0_0 y⟩),
      View.canon_cons_unit_zero hz3]
    unfold colsum12
    sl_unfold_words
    simp only [View.readAt_eq_ld, View.ld_unit_zero (S := S2000x128) hz2, View.ld_unit_zero (S := S128x128) hz2, View.ld_unit_zero (S := S1x128) hz2, View.readCov_unit_zero (S := S1x1x128) _ hz3]
  · iexists _; isplitr
    swap; · iexact H13
    ipureintro
    rw [View.read_writes_eq_canon _ _ _ (fun y => ⟨_, List.mem_cons_self, View.mem_set_unit_zero hz3 inb_S1x1x128_S1x1x128_0_0_0 y⟩),
      View.canon_cons_unit_zero hz3]
    unfold colsq12
    sl_unfold_words
    simp only [View.readAt_eq_ld, View.ld_unit_zero (S := S2000x128) hz2, View.ld_unit_zero (S := S128x128) hz2, View.ld_unit_zero (S := S1x128) hz2, View.readCov_unit_zero (S := S1x1x128) _ hz3]

set_option maxHeartbeats 4000000 in
/-- The body at a later point of a sweep: the two running rows are read at what the point before left (`a12`,
    `a13`) and left with the block's column sums added. -/
theorem sound_kernel12_acc (c : Dev nD) (E : Set ℕ) (i : grid12.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : ¬cond12 i) (x0 x1 x2 x3 : Vec F S2000x128 .f32) (w0 w1 w2 w3 : Vec F S128x128 .f32) (b : Vec F S1x128 .f32) (a12 a13 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ owns (c : Thread nD τ) arg12 fullShare a12 ∗ owns (c : Thread nD τ) arg13 fullShare a13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows12 x0 x1 x2 x3 w0 w1 w2 w3 b)
            ∗ owns (c : Thread nD τ) arg12 fullShare (colsum12 x0 x1 x2 x3 w0 w1 w2 w3 b a12)
            ∗ owns (c : Thread nD τ) arg13 fullShare (colsq12 x0 x1 x2 x3 w0 w1 w2 w3 b a13)) -∗ K ⟨⟩))
      ⊢ wp frame (wpE (defs₀ (F := F)) Variants.none c none) E (cc12_kernel i arg2 harg2 arg3 harg3 arg4 harg4 arg5 harg5 arg6 harg6 arg7 harg7 arg8 harg8 arg9 harg9 arg10 harg10 arg11 harg11 arg12 harg12 arg13 harg13) K := by
  simp only [cc12_kernel_eq_skeleton]; unfold cc12_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  subst hf2 hf3 hf4 hf5 hf6 hf7 hf8 hf9 hf10 hf12 hf13
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows12
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  isplitl [H12]
  · iexists _; isplitr
    swap; · iexact H12
    ipureintro
    rw [View.read_writes_eq_canon _ _ _ (fun y => ⟨_, List.mem_singleton_self _, View.mem_set_unit_zero hz3 inb_S1x1x128_S1x1x128_0_0_0 y⟩),
      View.canon_unit_zero hz3]
    unfold colsum12
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  · iexists _; isplitr
    swap; · iexact H13
    ipureintro
    rw [View.read_writes_eq_canon _ _ _ (fun y => ⟨_, List.mem_singleton_self _, View.mem_set_unit_zero hz3 inb_S1x1x128_S1x1x128_0_0_0 y⟩),
      View.canon_unit_zero hz3]
    unfold colsq12
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]

/-! ## The windows' blocks and the proof data -/

variable (V : (c : Dev nD) → (b : Ref sig .tc) → Buf (Elt F) ((c : Thread nD τ).loc b))

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-- Input window 7's current staging buffer holds its block at every point, fetched there or not. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- Input window 8's current staging buffer holds its block at every point, fetched there or not. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-! ## What the outputs hold after each point -/

/-- The block of `y` at point `t`: from the four row blocks there, the weights and the bias row. -/
def yStep12 (c : Dev nD) (t : Fin cfg12.N) : Vec F S2000x128 .f32 :=
  yrows12 (iblk12 V c 0 t) (iblk12 V c 1 t) (iblk12 V c 2 t) (iblk12 V c 3 t) (iblk12 V c 4 t) (iblk12 V c 5 t) (iblk12 V c 6 t) (iblk12 V c 7 t) (iblk12 V c 8 t)

/-- One step of the running column sums at point `t`, from what the row held. -/
def sumStep12 (c : Dev nD) (t : Fin cfg12.N) (acc : Vec F S1x1x128 .f32) : Vec F S1x1x128 .f32 :=
  colsum12 (iblk12 V c 0 t) (iblk12 V c 1 t) (iblk12 V c 2 t) (iblk12 V c 3 t) (iblk12 V c 4 t) (iblk12 V c 5 t) (iblk12 V c 6 t) (iblk12 V c 7 t) (iblk12 V c 8 t) acc

/-- One step of the running column sums of squares at point `t`. -/
def sqStep12 (c : Dev nD) (t : Fin cfg12.N) (acc : Vec F S1x1x128 .f32) : Vec F S1x1x128 .f32 :=
  colsq12 (iblk12 V c 0 t) (iblk12 V c 1 t) (iblk12 V c 2 t) (iblk12 V c 3 t) (iblk12 V c 4 t) (iblk12 V c 5 t) (iblk12 V c 6 t) (iblk12 V c 7 t) (iblk12 V c 8 t) acc

/-- The running row of column sums after the body at position `n`: started from zero at the first point of each
    sweep of the second grid axis, otherwise continued from what the point before left. -/
def sumAt12 (c : Dev nD) : (n : ℕ) → n < cfg12.N → Vec F S1x1x128 .f32
  | 0, hn => sumStep12 V c ⟨0, hn⟩ (k12_pay4 (F := F))
  | n + 1, hn =>
    if (n + 1) % 25 = 0 then sumStep12 V c ⟨n + 1, hn⟩ (k12_pay4 (F := F))
    else sumStep12 V c ⟨n + 1, hn⟩ (sumAt12 c n (Nat.lt_of_succ_lt hn))

/-- The running row of column sums of squares after the body at position `n`. -/
def sqAt12 (c : Dev nD) : (n : ℕ) → n < cfg12.N → Vec F S1x1x128 .f32
  | 0, hn => sqStep12 V c ⟨0, hn⟩ (k12_pay5 (F := F))
  | n + 1, hn =>
    if (n + 1) % 25 = 0 then sqStep12 V c ⟨n + 1, hn⟩ (k12_pay5 (F := F))
    else sqStep12 V c ⟨n + 1, hn⟩ (sqAt12 c n (Nat.lt_of_succ_lt hn))

theorem sumAt12_reset (c : Dev nD) (t : Fin cfg12.N) (h0 : t.val % 25 = 0) :
    sumAt12 V c t.val t.isLt = sumStep12 V c t (k12_pay4 (F := F)) := by
  obtain ⟨n, hn⟩ := t
  cases n with
  | zero => exact rfl
  | succ n => exact (if_pos h0).trans rfl

theorem sumAt12_acc (c : Dev nD) (t : Fin cfg12.N) (h0 : ¬t.val % 25 = 0) :
    sumAt12 V c t.val t.isLt = sumStep12 V c t (sumAt12 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sqAt12_reset (c : Dev nD) (t : Fin cfg12.N) (h0 : t.val % 25 = 0) :
    sqAt12 V c t.val t.isLt = sqStep12 V c t (k12_pay5 (F := F)) := by
  obtain ⟨n, hn⟩ := t
  cases n with
  | zero => exact rfl
  | succ n => exact (if_pos h0).trans rfl

theorem sqAt12_acc (c : Dev nD) (t : Fin cfg12.N) (h0 : ¬t.val % 25 = 0) :
    sqAt12 V c t.val t.isLt = sqStep12 V c t (sqAt12 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline's proof data on core `c`: the arrays as the region finds them; after the body at point `t` each
    input's buffer at its block, the block of `y`, and the two running rows. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => yStep12 V c t
    | ⟨10, _⟩ => sumAt12 V c t.val t.isLt
    | ⟨11, _⟩ => sqAt12 V c t.val t.isLt
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = yStep12 V c t := by dsimp only [dat12]
theorem after12_10 (c : Dev nD) (t : Fin cfg12.N) : (dat12 V c).after 10 t = sumAt12 V c t.val t.isLt := by dsimp only [dat12]
theorem after12_11 (c : Dev nD) (t : Fin cfg12.N) : (dat12 V c).after 11 t = sqAt12 V c t.val t.isLt := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

/-- At a later point of a sweep the running row of sums is found at what the point before left: the point is not the
    first, and the row was not written back between. -/
theorem before12_10_acc (c : Dev nD) (t : Fin cfg12.N) (h0 : ¬t.val % 25 = 0) (d) :
    (dat12 V c).before 10 t d = sumAt12 V c (t.val - 1) (Nat.lt_of_le_of_lt (Nat.sub_le _ _) t.isLt) := by
  rw [Dat.before_out_kept _ 10 rfl t (by omega) (Bool.eq_false_iff.mpr fun h => by have := (flush12_10 _).mp h; dsimp only at this; omega)
    (fun _ => rfl) (fun _ _ => rfl)]
  dsimp only [dat12]

theorem before12_11_acc (c : Dev nD) (t : Fin cfg12.N) (h0 : ¬t.val % 25 = 0) (d) :
    (dat12 V c).before 11 t d = sqAt12 V c (t.val - 1) (Nat.lt_of_le_of_lt (Nat.sub_le _ _) t.isLt) := by
  rw [Dat.before_out_kept _ 11 rfl t (by omega) (Bool.eq_false_iff.mpr fun h => by have := (flush12_11 _).mp h; dsimp only at this; omega)
    (fun _ => rfl) (fun _ _ => rfl)]
  dsimp only [dat12]

/-! ## The body obligation -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

set_option maxHeartbeats 4000000 in
/-- The body at any point: the inputs' buffers hold their blocks; at the first point of a sweep the running rows are
    zeroed whatever they held, at a later one they hold what the point before left. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  by_cases h0 : t.val % 25 = 0
  · rw [sumAt12_reset V c t h0, sqAt12_reset V c t h0]
    unfold yStep12 sumStep12 sqStep12
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel12_reset c Set.univ (grid12.coords t) _ _ _ _ _ _ _ _ _ _ _ _ _ _ _ _ _ _ _ _ _ _ _ _ ((hcond12 t).mpr h0) (iblk12 V c 0 t) (iblk12 V c 1 t) (iblk12 V c 2 t) (iblk12 V c 3 t) (iblk12 V c 4 t) (iblk12 V c 5 t) (iblk12 V c 6 t) (iblk12 V c 7 t) (iblk12 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [sumAt12_acc V c t h0, sqAt12_acc V c t h0]
    simp only [before12_10_acc V c t h0, before12_11_acc V c t h0]
    unfold yStep12 sumStep12 sqStep12
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel12_acc c Set.univ (grid12.coords t) _ _ _ _ _ _ _ _ _ _ _ _ _ _ _ _ _ _ _ _ _ _ _ _ (fun h => h0 ((hcond12 t).mp h)) (iblk12 V c 0 t) (iblk12 V c 1 t) (iblk12 V c 2 t) (iblk12 V c 3 t) (iblk12 V c 4 t) (iblk12 V c 5 t) (iblk12 V c 6 t) (iblk12 V c 7 t) (iblk12 V c 8 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.KB.R13.lean ====
/- Region 13 of the kernel program (an affine map followed by a rectifier, one row block per grid point): the proof
   data of its pipeline at the contents the region is entered with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's staging buffer holds the window's block at every grid point, whether the block was brought
    in at that point or at an earlier one: between two fetches the block index does not move, and the body leaves
    the buffer as it found it. Stated for any proof data whose array is the entry contents and whose body keeps
    the block; once per input window (the row block, the scale row, the shift row). -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl)
    (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl)
    (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl)
    (fun t => by rw [hafter]; unfold Dat.blockOf iblk13; rw [hA]; try rfl) t d).trans
    (by unfold Dat.fetched Dat.blockOf iblk13; rw [hA]; try rfl)

/-! ## The body's accesses -/

/-- The whole row block. -/
abbrev r13_blk : Rect S2000x128 := Rect.unit (s := S2000x128) ![0, 0] S2000x128.size inb_S2000x128_S2000x128_0_0
/-- The whole row of per-column coefficients. -/
abbrev r13_row : Rect S1x128 := Rect.unit (s := S1x128) ![0, 0] S1x128.size inb_S1x128_S1x128_0_0

/-! ## What the body leaves in the output window's buffer -/

/-- The output buffer after the body, from the three input blocks: one store over the whole block, of the
    rectified affine image of the row block under the two coefficient rows. -/
def out13_3 (y : Vec F S2000x128 .f32) (a : Vec F S1x128 .f32) (b : Vec F S1x128 .f32) : Vec F S2000x128 .f32 :=
  View.canon [⟨r13_blk, k13_pay1 (View.ld y r13_blk) (View.ld a r13_row) (View.ld b r13_row)⟩]

/-- The one store covers the buffer. -/
theorem cover13_3 (p : Vec F S2000x128 .f32) (z : S2000x128.Idx) :
    ∃ pc ∈ ([⟨r13_blk, p⟩] : List (View.Piece (Elt F) S2000x128 .f32)), z ∈ pc.1.set :=
  View.cover_of_tiled [⟨r13_blk, p⟩] S2000x128.size (by rfl) z

/-! ## The body's triple -/

set_option maxHeartbeats 1000000 in
/-- The body on whole staging buffers: the three inputs at known contents, the output at anything. It reads the
    inputs (and, idly, the output), stores the payload over the whole output, and returns with the inputs as they
    were and the output at `out13_3` of them. -/
theorem sound_kernel13 (c : Dev nD) (E : Set ℕ) (i : grid13.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (y : Vec F S2000x128 .f32) (a : Vec F S1x128 .f32) (b : Vec F S1x128 .f32) (K : PUnit → sProp 𝕄) :
    iprop(owns (c : Thread nD τ) arg1 fullShare y ∗ owns (c : Thread nD τ) arg2 fullShare a
        ∗ owns (c : Thread nD τ) arg3 fullShare b ∗ (∃ d, owns (c : Thread nD τ) arg4 fullShare d)
        ∗ (iprop(owns (c : Thread nD τ) arg1 fullShare y ∗ owns (c : Thread nD τ) arg2 fullShare a
            ∗ owns (c : Thread nD τ) arg3 fullShare b ∗ owns (c : Thread nD τ) arg4 fullShare (out13_3 y a b)) -∗ K ⟨⟩))
      ⊢ wp frame (wpE (defs₀ (F := F)) Variants.none c none) E
          (cc13__affine_relu_kernel i arg1 harg1 arg2 harg2 arg3 harg3 arg4 harg4) K := by
  simp only [cc13__affine_relu_kernel_eq_skeleton]; unfold cc13__affine_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_3 _)

/-! ## The pipeline's proof data -/

/-- The pipeline's proof data on core `c`. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

/-- Each input's staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' buffers hold their blocks, so the body's triple applies; the invariant and
    what the core owes pass through untouched. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.KB.R14.lean ====
/- Region 14 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## An input window's staging buffer holds its block at every point -/

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The rectangles the body loads and stores through: each a whole buffer -/

abbrev r14_a : Rect S2000x128 := Rect.unit (s := S2000x128) ![0, 0] S2000x128.size inb_S2000x128_S2000x128_0_0
abbrev r14_w : Rect S128x128 := Rect.unit (s := S128x128) ![0, 0] S128x128.size inb_S128x128_S128x128_0_0
abbrev r14_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y14 (x0 x1 : Vec F S2000x128 .f32) (x2 x3 : Vec F S128x128 .f32) (x4 : Vec F S1x128 .f32) : FVec F S2000x128 .f32 :=
  k14_pay4 (View.ld x4 r14_s) (View.ld x0 r14_a) (View.ld x2 r14_w) (View.ld x1 r14_a) (View.ld x3 r14_w)

/-- Window 5: one store of `y` over the whole buffer. -/
def out14_5 (x0 x1 : Vec F S2000x128 .f32) (x2 x3 : Vec F S128x128 .f32) (x4 : Vec F S1x128 .f32) : Vec F S2000x128 .f32 :=
  View.canon [⟨r14_a, y14 x0 x1 x2 x3 x4⟩]

/-- Window 6: the zero row stored first, then the column sums of `y` added onto the row read back. -/
def out14_6 (x0 x1 : Vec F S2000x128 .f32) (x2 x3 : Vec F S128x128 .f32) (x4 : Vec F S1x128 .f32) : Vec F S1x128 .f32 :=
  View.canon [⟨r14_s, k14_pay6 (View.ld x4 r14_s) (View.ld x0 r14_a) (View.ld x2 r14_w) (View.ld x1 r14_a) (View.ld x3 r14_w) (k14_pay2 (F := F))⟩,
    ⟨r14_s, k14_pay2 (F := F)⟩]

/-- Window 7: the zero row stored first, then the column sums of `y·y` added onto the row read back. -/
def out14_7 (x0 x1 : Vec F S2000x128 .f32) (x2 x3 : Vec F S128x128 .f32) (x4 : Vec F S1x128 .f32) : Vec F S1x128 .f32 :=
  View.canon [⟨r14_s, k14_pay1 (k14_pay5 (View.ld x4 r14_s) (View.ld x0 r14_a) (View.ld x2 r14_w) (View.ld x1 r14_a) (View.ld x3 r14_w)) (k14_pay3 (F := F))⟩,
    ⟨r14_s, k14_pay3 (F := F)⟩]

/-- A store through the whole-buffer rectangle covers the buffer, whatever was stored before it. -/
theorem cover14_a (p0 : Vec F S2000x128 .f32) (y : S2000x128.Idx) :
    ∃ pc ∈ ([⟨r14_a, p0⟩] : List (View.Piece (Elt F) S2000x128 .f32)), y ∈ pc.1.set :=
  View.cover_of_tiled [⟨r14_a, p0⟩] S2000x128.size (by rfl) y

theorem cover14_s (p0 p1 : Vec F S1x128 .f32) (y : S1x128.Idx) :
    ∃ pc ∈ ([⟨r14_s, p0⟩, ⟨r14_s, p1⟩] : List (View.Piece (Elt F) S1x128 .f32)), y ∈ pc.1.set := by
  obtain ⟨pc, hpc, hy⟩ := View.cover_of_tiled ([⟨r14_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond14_0 (i : grid14.Coords) : Prop :=
  (Scalar.cmpi .ne (Scalar.extui (Scalar.cmpi .eq (BitVec.ofNat 32 (i 0).val) 0#32)) 0#32) = 1#1
/-- It holds at every point of the grid: decided over the grid. -/
theorem hcond14_0 : ∀ t : Fin cfg14.N, cond14_0 (grid14.coords t) :=
  (by decide +kernel : ∀ t : Fin grid14.N, cond14_0 (grid14.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out14_·` of the inputs'. -/
theorem sound_kernel14 (c : Dev nD) (E : Set ℕ) (i : grid14.Coords) (hc0 : cond14_0 i) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out14_5 x0 x1 x2 x3 x4) ∗ owns (c : Thread nD τ) arg7 fullShare (out14_6 x0 x1 x2 x3 x4)
            ∗ owns (c : Thread nD τ) arg8 fullShare (out14_7 x0 x1 x2 x3 x4)) -∗ K ⟨⟩))
      ⊢ wp frame (wpE (defs₀ (F := F)) Variants.none c none) E (cc14_kernel i arg1 harg1 arg2 harg2 arg3 harg3 arg4 harg4 arg5 harg5 arg6 harg6 arg7 harg7 arg8 harg8) K := by
  simp only [cc14_kernel_eq_skeleton]; unfold cc14_kernel_skel
  simp only [k14_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover14_a _)
  isplitl [H6]
  · iexists _; isplitr
    swap; · iexact H6
    ipureintro
    sl_unfold_run_names
    refine (View.read_writes_eq_canon _ _ _ (cover14_s _ _)).trans ?_
    unfold out14_6
    rw [View.readCov_cons_toLoadRect]
    rfl
  · iexists _; isplitr
    swap; · iexact H7
    ipureintro
    sl_unfold_run_names
    refine (View.read_writes_eq_canon _ _ _ (cover14_s _ _)).trans ?_
    unfold out14_7
    rw [View.readCov_cons_toLoadRect]
    rfl

/-! ## The pipeline's proof data -/

/-- The proof data of the pipeline on core `c`: the arrays as the region finds them; after the body at point `t`
    each input's buffer at its block and each output's at `out14_·` of the input blocks; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
    | ⟨6, _⟩ => out14_6 (iblk14 V c 0 t) (iblk14 V c 1 t) (iblk14 V c 2 t) (iblk14 V c 3 t) (iblk14 V c 4 t)
    | ⟨7, _⟩ => out14_7 (iblk14 V c 0 t) (iblk14 V c 1 t) (iblk14 V c 2 t) (iblk14 V c 3 t) (iblk14 V c 4 t)
  Φ _ := Pipeline.ΦA spec14 c
  q _ := fullShare
  owed _ := 0

theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) := by dsimp only [dat14]
theorem after14_7 (c : Dev nD) (t : Fin cfg14.N) : (dat14 V c).after 7 t = out14_7 (iblk14 V c 0 t) (iblk14 V c 1 t) (iblk14 V c 2 t) (iblk14 V c 3 t) (iblk14 V c 4 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t))

set_option maxHeartbeats 1000000 in
/-- The body at any point: the inputs' memrefs hold their blocks, the branch is the one taken, so the triple applies;
    the invariant and the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel14 c Set.univ (grid14.coords t) (hcond14_0 t) _ _ _ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.KB.R15.lean ====
/- Region 15 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The two rectangles the body touches: each buffer whole -/

/-- All of the large buffer (the operand `y` and the result). -/
abbrev big15 : Rect S2000x128 := Rect.unit (s := S2000x128) ![0, 0] S2000x128.size inb_S2000x128_S2000x128_0_0
/-- All of a one-row buffer (the scale and the shift). -/
abbrev row15 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out15_3 (y : Vec F S2000x128 .f32) (sc sf : Vec F S1x128 .f32) : Vec F S2000x128 .f32 :=
  View.canon [⟨big15, k15_pay1 (View.ld y big15) (View.ld sc row15) (View.ld sf row15)⟩]

/-- That one store reaches every index of the buffer. -/
theorem whole15_3 (p : Vec F S2000x128 .f32) (j : S2000x128.Idx) :
    ∃ pc ∈ ([⟨big15, p⟩] : List (View.Piece (Elt F) S2000x128 .f32)), j ∈ pc.1.set :=
  View.cover_of_tiled [⟨big15, p⟩] S2000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out15_3 y sc sf`. The load of
    the result's buffer before the store reads contents nothing is known of, and its value is dropped. -/
theorem run_kernel15 (c : Dev nD) (E : Set ℕ) (i : grid15.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S2000x128 .f32) (h4 : a4.IsWhole)
    (y : Vec F S2000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out15_3 y sc sf)) -∗ K ⟨⟩))
      ⊢ wp frame (wpE (defs₀ (F := F)) Variants.none c none) E (cc15__affine_relu_kernel i a1 h1 a2 h2 a3 h3 a4 h4) K := by
  simp only [cc15__affine_relu_kernel_eq_skeleton]; unfold cc15__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole15_3 _)

/-! ## The proof data -/

/-- The pipeline's proof data on core `c`: the arrays as the region finds them; after the body each operand's buffer
    still at its block, the result's at `out15_3` of the three blocks. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

/-! ## What the body finds in the operands' buffers

An operand window is never written by the body, is uncut and has no idle point, so at every point its current buffer
holds the window's block there, whether the pipeline fetched at that point or the block index stood still. -/

theorem before15_0 (c : Dev nD) (t : Fin cfg15.N) (d) : (dat15 V c).before 0 t d = iblk15 V c 0 t :=
  ((dat15 V c).before_in_eq_fetched 0 rfl (fun _ => rfl) (fun _ _ _ => rfl)
    (fun s => by rw [after15_0]; unfold Dat.blockOf iblk15; rw [A_eq15]; try rfl) t d).trans
    (by unfold Dat.fetched Dat.blockOf iblk15; rw [A_eq15]; try rfl)

theorem before15_1 (c : Dev nD) (t : Fin cfg15.N) (d) : (dat15 V c).before 1 t d = iblk15 V c 1 t :=
  ((dat15 V c).before_in_eq_fetched 1 rfl (fun _ => rfl) (fun _ _ _ => rfl)
    (fun s => by rw [after15_1]; unfold Dat.blockOf iblk15; rw [A_eq15]; try rfl) t d).trans
    (by unfold Dat.fetched Dat.blockOf iblk15; rw [A_eq15]; try rfl)

theorem before15_2 (c : Dev nD) (t : Fin cfg15.N) (d) : (dat15 V c).before 2 t d = iblk15 V c 2 t :=
  ((dat15 V c).before_in_eq_fetched 2 rfl (fun _ => rfl) (fun _ _ _ => rfl)
    (fun s => by rw [after15_2]; unfold Dat.blockOf iblk15; rw [A_eq15]; try rfl) t d).trans
    (by unfold Dat.fetched Dat.blockOf iblk15; rw [A_eq15]; try rfl)

/-! ## The body obligation -/

/-- The body at a point `t`, on the current staging buffers: the operands' buffers hold their blocks, the invariant
    and what the core owes ride along untouched. -/
theorem run_body15 (c : Dev nD) (t : Fin cfg15.N) :
    iprop((dat15 V c).Φ t.castSucc ∗ (dat15 V c).owesAt () t.castSucc
        ∗ (∃ d, owns (c : Thread nD τ) (st15_0 t) fullShare ((dat15 V c).before 0 t d))
        ∗ (∃ d, owns (c : Thread nD τ) (st15_1 t) fullShare ((dat15 V c).before 1 t d))
        ∗ (∃ d, owns (c : Thread nD τ) (st15_2 t) fullShare ((dat15 V c).before 2 t d))
        ∗ (∃ d, owns (c : Thread nD τ) (st15_3 t) fullShare ((dat15 V c).before 3 t d)))
      ⊢ wp frame (wpE (defs₀ (F := F)) Variants.none c none) Set.univ (bodyAt15 t) (fun _ =>
        iprop((dat15 V c).Φ t.succ ∗ (dat15 V c).owesAt () t.succ
          ∗ owns (c : Thread nD τ) (st15_0 t) fullShare ((dat15 V c).after 0 t)
          ∗ owns (c : Thread nD τ) (st15_1 t) fullShare ((dat15 V c).after 1 t)
          ∗ owns (c : Thread nD τ) (st15_2 t) fullShare ((dat15 V c).after 2 t)
          ∗ owns (c : Thread nD τ) (st15_3 t) fullShare ((dat15 V c).after 3 t))) := by
  unfold bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, B0⟩, ⟨%d1, B1⟩, ⟨%d2, B2⟩, ⟨%d3, B3⟩⟩
  iapply (run_kernel15 c Set.univ _ _ _ _ _ _ _ _ _ (iblk15 V c 0 t) (iblk15 V c 1 t) (iblk15 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation15 (c : Dev nD) : BodyObligation (dat15 (F := F) V c) (defs₀ (F := F)) Variants.none () Set.univ := fun t => by
  rw [bigSep_W15, bigSep_W15]
  exact run_body15 V c t

end Cert.Kernel.Hand

end
-- ==== Proof.KB.R16.lean ====
/- Region 16 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## An input window's staging buffer holds its block at every point -/

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The rectangles the body loads and stores through: each a whole buffer -/

abbrev r16_a : Rect S5000x128 := Rect.unit (s := S5000x128) ![0, 0] S5000x128.size inb_S5000x128_S5000x128_0_0
abbrev r16_w : Rect S128x128 := Rect.unit (s := S128x128) ![0, 0] S128x128.size inb_S128x128_S128x128_0_0
abbrev r16_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y16 (x0 x1 : Vec F S5000x128 .f32) (x2 x3 : Vec F S128x128 .f32) (x4 : Vec F S1x128 .f32) : FVec F S5000x128 .f32 :=
  k16_pay4 (View.ld x4 r16_s) (View.ld x0 r16_a) (View.ld x2 r16_w) (View.ld x1 r16_a) (View.ld x3 r16_w)

/-- Window 5: one store of `y` over the whole buffer. -/
def out16_5 (x0 x1 : Vec F S5000x128 .f32) (x2 x3 : Vec F S128x128 .f32) (x4 : Vec F S1x128 .f32) : Vec F S5000x128 .f32 :=
  View.canon [⟨r16_a, y16 x0 x1 x2 x3 x4⟩]

/-- Window 6: the zero row stored first, then the column sums of `y` added onto the row read back. -/
def out16_6 (x0 x1 : Vec F S5000x128 .f32) (x2 x3 : Vec F S128x128 .f32) (x4 : Vec F S1x128 .f32) : Vec F S1x128 .f32 :=
  View.canon [⟨r16_s, k16_pay6 (View.ld x4 r16_s) (View.ld x0 r16_a) (View.ld x2 r16_w) (View.ld x1 r16_a) (View.ld x3 r16_w) (k16_pay2 (F := F))⟩,
    ⟨r16_s, k16_pay2 (F := F)⟩]

/-- Window 7: the zero row stored first, then the column sums of `y·y` added onto the row read back. -/
def out16_7 (x0 x1 : Vec F S5000x128 .f32) (x2 x3 : Vec F S128x128 .f32) (x4 : Vec F S1x128 .f32) : Vec F S1x128 .f32 :=
  View.canon [⟨r16_s, k16_pay1 (k16_pay5 (View.ld x4 r16_s) (View.ld x0 r16_a) (View.ld x2 r16_w) (View.ld x1 r16_a) (View.ld x3 r16_w)) (k16_pay3 (F := F))⟩,
    ⟨r16_s, k16_pay3 (F := F)⟩]

/-- A store through the whole-buffer rectangle covers the buffer, whatever was stored before it. -/
theorem cover16_a (p0 : Vec F S5000x128 .f32) (y : S5000x128.Idx) :
    ∃ pc ∈ ([⟨r16_a, p0⟩] : List (View.Piece (Elt F) S5000x128 .f32)), y ∈ pc.1.set :=
  View.cover_of_tiled [⟨r16_a, p0⟩] S5000x128.size (by rfl) y

theorem cover16_s (p0 p1 : Vec F S1x128 .f32) (y : S1x128.Idx) :
    ∃ pc ∈ ([⟨r16_s, p0⟩, ⟨r16_s, p1⟩] : List (View.Piece (Elt F) S1x128 .f32)), y ∈ pc.1.set := by
  obtain ⟨pc, hpc, hy⟩ := View.cover_of_tiled ([⟨r16_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond16_0 (i : grid16.Coords) : Prop :=
  (Scalar.cmpi .ne (Scalar.extui (Scalar.cmpi .eq (BitVec.ofNat 32 (i 0).val) 0#32)) 0#32) = 1#1
/-- It holds at every point of the grid: decided over the grid. -/
theorem hcond16_0 : ∀ t : Fin cfg16.N, cond16_0 (grid16.coords t) :=
  (by decide +kernel : ∀ t : Fin grid16.N, cond16_0 (grid16.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out16_·` of the inputs'. -/
theorem sound_kernel16 (c : Dev nD) (E : Set ℕ) (i : grid16.Coords) (hc0 : cond16_0 i) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out16_5 x0 x1 x2 x3 x4) ∗ owns (c : Thread nD τ) arg7 fullShare (out16_6 x0 x1 x2 x3 x4)
            ∗ owns (c : Thread nD τ) arg8 fullShare (out16_7 x0 x1 x2 x3 x4)) -∗ K ⟨⟩))
      ⊢ wp frame (wpE (defs₀ (F := F)) Variants.none c none) E (cc16_kernel i arg1 harg1 arg2 harg2 arg3 harg3 arg4 harg4 arg5 harg5 arg6 harg6 arg7 harg7 arg8 harg8) K := by
  simp only [cc16_kernel_eq_skeleton]; unfold cc16_kernel_skel
  simp only [k16_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover16_a _)
  isplitl [H6]
  · iexists _; isplitr
    swap; · iexact H6
    ipureintro
    sl_unfold_run_names
    refine (View.read_writes_eq_canon _ _ _ (cover16_s _ _)).trans ?_
    unfold out16_6
    rw [View.readCov_cons_toLoadRect]
    rfl
  · iexists _; isplitr
    swap; · iexact H7
    ipureintro
    sl_unfold_run_names
    refine (View.read_writes_eq_canon _ _ _ (cover16_s _ _)).trans ?_
    unfold out16_7
    rw [View.readCov_cons_toLoadRect]
    rfl

/-! ## The pipeline's proof data -/

/-- The proof data of the pipeline on core `c`: the arrays as the region finds them; after the body at point `t`
    each input's buffer at its block and each output's at `out16_·` of the input blocks; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
    | ⟨6, _⟩ => out16_6 (iblk16 V c 0 t) (iblk16 V c 1 t) (iblk16 V c 2 t) (iblk16 V c 3 t) (iblk16 V c 4 t)
    | ⟨7, _⟩ => out16_7 (iblk16 V c 0 t) (iblk16 V c 1 t) (iblk16 V c 2 t) (iblk16 V c 3 t) (iblk16 V c 4 t)
  Φ _ := Pipeline.ΦA spec16 c
  q _ := fullShare
  owed _ := 0

theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = out16_5 (iblk16 V c 0 t) (iblk16 V c 1 t) (iblk16 V c 2 t) (iblk16 V c 3 t) (iblk16 V c 4 t) := by dsimp only [dat16]
theorem after16_6 (c : Dev nD) (t : Fin cfg16.N) : (dat16 V c).after 6 t = out16_6 (iblk16 V c 0 t) (iblk16 V c 1 t) (iblk16 V c 2 t) (iblk16 V c 3 t) (iblk16 V c 4 t) := by dsimp only [dat16]
theorem after16_7 (c : Dev nD) (t : Fin cfg16.N) : (dat16 V c).after 7 t = out16_7 (iblk16 V c 0 t) (iblk16 V c 1 t) (iblk16 V c 2 t) (iblk16 V c 3 t) (iblk16 V c 4 t) := by dsimp only [dat16]

/-- Each input's current staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t))

set_option maxHeartbeats 1000000 in
/-- The body at any point: the inputs' memrefs hold their blocks, the branch is the one taken, so the triple applies;
    the invariant and the core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6, after16_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel16 c Set.univ (grid16.coords t) (hcond16_0 t) _ _ _ _ _ _ _ _ _ _ _ _ _ _ _ _ (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Hand

end
-- ==== Proof.KB.R17.lean ====
/- Region 17 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## The two rectangles the body touches: each buffer whole -/

/-- All of the large buffer (the operand `y` and the result). -/
abbrev big17 : Rect S5000x128 := Rect.unit (s := S5000x128) ![0, 0] S5000x128.size inb_S5000x128_S5000x128_0_0
/-- All of a one-row buffer (the scale and the shift). -/
abbrev row17 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out17_3 (y : Vec F S5000x128 .f32) (sc sf : Vec F S1x128 .f32) : Vec F S5000x128 .f32 :=
  View.canon [⟨big17, k17_pay1 (View.ld y big17) (View.ld sc row17) (View.ld sf row17)⟩]

/-- That one store reaches every index of the buffer. -/
theorem whole17_3 (p : Vec F S5000x128 .f32) (j : S5000x128.Idx) :
    ∃ pc ∈ ([⟨big17, p⟩] : List (View.Piece (Elt F) S5000x128 .f32)), j ∈ pc.1.set :=
  View.cover_of_tiled [⟨big17, p⟩] S5000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out17_3 y sc sf`. The load of
    the result's buffer before the store reads contents nothing is known of, and its value is dropped. -/
theorem run_kernel17 (c : Dev nD) (E : Set ℕ) (i : grid17.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S5000x128 .f32) (h4 : a4.IsWhole)
    (y : Vec F S5000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out17_3 y sc sf)) -∗ K ⟨⟩))
      ⊢ wp frame (wpE (defs₀ (F := F)) Variants.none c none) E (cc17__affine_relu_kernel i a1 h1 a2 h2 a3 h3 a4 h4) K := by
  simp only [cc17__affine_relu_kernel_eq_skeleton]; unfold cc17__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole17_3 _)

/-! ## The proof data -/

/-- The pipeline's proof data on core `c`: the arrays as the region finds them; after the body each operand's buffer
    still at its block, the result's at `out17_3` of the three blocks. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

/-! ## What the body finds in the operands' buffers

An operand window is never written by the body, is uncut and has no idle point, so at every point its current buffer
holds the window's block there, whether the pipeline fetched at that point or the block index stood still. -/

theorem before17_0 (c : Dev nD) (t : Fin cfg17.N) (d) : (dat17 V c).before 0 t d = iblk17 V c 0 t :=
  ((dat17 V c).before_in_eq_fetched 0 rfl (fun _ => rfl) (fun _ _ _ => rfl)
    (fun s => by rw [after17_0]; unfold Dat.blockOf iblk17; rw [A_eq17]; try rfl) t d).trans
    (by unfold Dat.fetched Dat.blockOf iblk17; rw [A_eq17]; try rfl)

theorem before17_1 (c : Dev nD) (t : Fin cfg17.N) (d) : (dat17 V c).before 1 t d = iblk17 V c 1 t :=
  ((dat17 V c).before_in_eq_fetched 1 rfl (fun _ => rfl) (fun _ _ _ => rfl)
    (fun s => by rw [after17_1]; unfold Dat.blockOf iblk17; rw [A_eq17]; try rfl) t d).trans
    (by unfold Dat.fetched Dat.blockOf iblk17; rw [A_eq17]; try rfl)

theorem before17_2 (c : Dev nD) (t : Fin cfg17.N) (d) : (dat17 V c).before 2 t d = iblk17 V c 2 t :=
  ((dat17 V c).before_in_eq_fetched 2 rfl (fun _ => rfl) (fun _ _ _ => rfl)
    (fun s => by rw [after17_2]; unfold Dat.blockOf iblk17; rw [A_eq17]; try rfl) t d).trans
    (by unfold Dat.fetched Dat.blockOf iblk17; rw [A_eq17]; try rfl)

/-! ## The body obligation -/

/-- The body at a point `t`, on the current staging buffers: the operands' buffers hold their blocks, the invariant
    and what the core owes ride along untouched. -/
theorem run_body17 (c : Dev nD) (t : Fin cfg17.N) :
    iprop((dat17 V c).Φ t.castSucc ∗ (dat17 V c).owesAt () t.castSucc
        ∗ (∃ d, owns (c : Thread nD τ) (st17_0 t) fullShare ((dat17 V c).before 0 t d))
        ∗ (∃ d, owns (c : Thread nD τ) (st17_1 t) fullShare ((dat17 V c).before 1 t d))
        ∗ (∃ d, owns (c : Thread nD τ) (st17_2 t) fullShare ((dat17 V c).before 2 t d))
        ∗ (∃ d, owns (c : Thread nD τ) (st17_3 t) fullShare ((dat17 V c).before 3 t d)))
      ⊢ wp frame (wpE (defs₀ (F := F)) Variants.none c none) Set.univ (bodyAt17 t) (fun _ =>
        iprop((dat17 V c).Φ t.succ ∗ (dat17 V c).owesAt () t.succ
          ∗ owns (c : Thread nD τ) (st17_0 t) fullShare ((dat17 V c).after 0 t)
          ∗ owns (c : Thread nD τ) (st17_1 t) fullShare ((dat17 V c).after 1 t)
          ∗ owns (c : Thread nD τ) (st17_2 t) fullShare ((dat17 V c).after 2 t)
          ∗ owns (c : Thread nD τ) (st17_3 t) fullShare ((dat17 V c).after 3 t))) := by
  unfold bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, B0⟩, ⟨%d1, B1⟩, ⟨%d2, B2⟩, ⟨%d3, B3⟩⟩
  iapply (run_kernel17 c Set.univ _ _ _ _ _ _ _ _ _ (iblk17 V c 0 t) (iblk17 V c 1 t) (iblk17 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation17 (c : Dev nD) : BodyObligation (dat17 (F := F) V c) (defs₀ (F := F)) Variants.none () Set.univ := fun t => by
  rw [bigSep_W17, bigSep_W17]
  exact run_body17 V c t

end Cert.Kernel.Hand

end
-- ==== Proof.KB.R18.lean ====
/- Region 18 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-! ## An input window's staging buffer holds its block at every point -/

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The rectangles the body loads and stores through: each a whole buffer -/

abbrev r18_a : Rect S3000x128 := Rect.unit (s := S3000x128) ![0, 0] S3000x128.size inb_S3000x128_S3000x128_0_0
abbrev r18_w : Rect S128x128 := Rect.unit (s := S128x128) ![0, 0] S128x128.size inb_S128x128_S128x128_0_0
abbrev r18_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y18 (x0 x1 : Vec F S3000x128 .f32) (x2 x3 : Vec F S128x128 .f32) (x4 : Vec F S1x128 .f32) : FVec F S3000x128 .f32 :=
  k18_pay4 (View.ld x4 r18_s) (View.ld x0 r18_a) (View.ld x2 r18_w) (View.ld x1 r18_a) (View.ld x3 r18_w)

/-- Window 5: one store of `y` over the whole buffer. -/
def out18_5 (x0 x1 : Vec F S3000x128 .f32) (x2 x3 : Vec F S128x128 .f32) (x4 : Vec F S1x128 .f32) : Vec F S3000x128 .f32 :=
  View.canon [⟨r18_a, y18 x0 x1 x2 x3 x4⟩]

/-- Window 6: the zero row stored first, then the column sums of `y` added onto the row read back. -/
def out18_6 (x0 x1 : Vec F S3000x128 .f32) (x2 x3 : Vec F S128x128 .f32) (x4 : Vec F S1x128 .f32) : Vec F S1x128 .f32 :=
  View.canon [⟨r18_s, k18_pay6 (View.ld x4 r18_s) (View.ld x0 r18_a) (View.ld x2 r18_w) (View.ld x1 r18_a) (View.ld x3 r18_w) (k18_pay2 (F := F))⟩,
    ⟨r18_s, k18_pay2 (F := F)⟩]

/-- Window 7: the zero row stored first, then the column sums of `y·y` added onto the row read back. -/
def out18_7 (x0 x1 : Vec F S3000x128 .f32) (x2 x3 : Vec F S128x128 .f32) (x4 : Vec F S1x128 .f32) : Vec F S1x128 .f32 :=
  View.canon [⟨r18_s, k18_pay1 (k18_pay5 (View.ld x4 r18_s) (View.ld x0 r18_a) (View.ld x2 r18_w) (View.ld x1 r18_a) (View.ld x3 r18_w)) (k18_pay3 (F := F))⟩,
    ⟨r18_s, k18_pay3 (F := F)⟩]

/-- A store through the whole-buffer rectangle covers the buffer, whatever was stored before it. -/
theorem cover18_a (p0 : Vec F S3000x128 .f32) (y : S3000x128.Idx) :
    ∃ pc ∈ ([⟨r18_a, p0⟩] : List (View.Piece (Elt F) S3000x128 .f32)), y ∈ pc.1.set :=
  View.cover_of_tiled [⟨r18_a, p0⟩] S3000x128.size (by rfl) y

theorem cover18_s (p0 p1 : Vec F S1x128 .f32) (y : S1x128.Idx) :
    ∃ pc ∈ ([⟨r18_s, p0⟩, ⟨r18_s, p1⟩] : List (View.Piece (Elt F) S1x128 .f32)), y ∈ pc.1.set := by
  obtain ⟨pc, hpc, hy⟩ := View.cover_of_tiled ([⟨r18_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond18_0 (i : grid18.Coords) : Prop :=
  (Scalar.cmpi .ne (Scalar.extui (Scalar.cmpi .eq (BitVec.ofNat 32 (i 0).val) 0#32)) 0#32) = 1#1
/-- It holds at every point of the grid: decided over the grid. -/
theorem hcond18_0 : ∀ t : Fin cfg18.N, cond18_0 (grid18.coords t) :=
  (by decide +kernel : ∀ t : Fin grid18.N, cond18_0 (grid18.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out18_·` of the inputs'. -/
theorem sound_kernel18 (c : Dev nD) (E : Set ℕ) (i : grid18.Coords) (hc0 : cond18_0 i) (arg1 : Memref sig .tc .vmem S3000x128 .f32) (harg1 : arg1.IsWhole) (arg2 : Memref sig .tc .vmem S3000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S3000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S3000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out18_5 x0 x1 x2 x3 x4) ∗ owns (c : Thread nD τ) arg7 fullShare (out18_6 x0 x1 x2 x3 x4)
            ∗ owns (c : Thread nD τ) arg8 fullShare (out18_7 x0 x1 x2 x3 x4)) -∗ K ⟨⟩))
      ⊢ wp frame (wpE (defs₀ (F := F)) Variants.none c none) E (cc18_kernel i arg1 harg1 arg2 harg2 arg3 harg3 arg4 harg4 arg5 harg5 arg6 harg6 arg7 harg7 arg8 harg8) K := by
  simp only [cc18_kernel_eq_skeleton]; unfold cc18_kernel_skel
  simp only [k18_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover18_a _)
  isplitl [H6]
  · iexists _; isplitr
    swap; · iexact H6
    ipureintro
    sl_unfold_run_names
    refine (View.read_writes_eq_canon _ _ _ (cover18_s _ _)).trans ?_
    unfold out18_6
    rw [View.readCov_cons_toLoadRect]
    rfl
  · iexists _; isplitr
    swap; · iexact H7
    ipureintro
    sl_unfold_run_names
    refine (View.read_writes_eq_canon _ _ _ (cover18_s _ _)).trans ?_
    unfold out18_7
    rw [View.readCov_cons_toLoadRect]
    rfl

/-! ## The pipeline's proof data -/

/-- The proof data of the pipeline on core `c`: the arrays as the region finds them; after the body at point `t`
    each input's buffer at its block and each output's at `out18_·` of the input blocks; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
    | ⟨6, _⟩ => out18_6 (iblk18 V c 0 t) (iblk18 V c 1 t) (iblk18 V c 2 t) (iblk18 V c 3 t) (iblk18 V c 4 t)
    | ⟨7, _⟩ => out18_7 (iblk18 V c 0 t) (iblk18 V c 1 t) (iblk18 V c 2 t) (iblk18 V c 3 t) (iblk18 V c 4 t)
  Φ _ := Pipeline.ΦA spec18 c
  q _ := fullShare
  owed _ := 0

theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = out18_5 (iblk18 V c 0 t) (iblk18 V c 1 t) (iblk18 V c 2 t) (iblk18 V c 3 t) (iblk18 V c 4 t) := by dsimp only [dat18]
theorem after18_6 (c : Dev nD) (t : Fin cfg18.N) : (dat18 V c).after 6 t = out18_6 (iblk18 V c 0 t) (iblk18 V c 1 t) (iblk18 V c 2 t) (iblk18 V c 3 t) (iblk18 V c 4 t) := by dsimp only [dat18]
theorem after18_7 (c : Dev nD) (t : Fin cfg18.N) : (dat18 V c).after 7 t = out18_7 (iblk18 V c 0 t) (iblk18 V c 1 t) (iblk18 V c 2 t) (iblk18 V c 3 t) (iblk18 V c 4 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d))
    ∗ (∃ d, owns (c : Thread nD τ) (st18_7 t) fullShare ((dat18 V c).before 7 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t)
    ∗ owns (c : Thread nD τ) (st18_7 t) fullShare ((dat18 V c).after 7 t))

set_option maxHeartbeats 1000000 in
/-- The body at any point: the inputs' memrefs hold their blocks, the branch is the one taken, so the triple applies;
    the invariant and the core's debts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6, after18_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel18 c Set.univ (grid18.coords t) (hcond18_0 t) _ _ _ _ _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.Kernel.Hand

end
-- ==== Proof.KB.R19.lean ====
/- Region 19 of the kernel program: the proof data of its pipeline at the contents the region is entered
   with, and the body obligation. -/
import proofs.«424088_j28020366639260_2_alg».proof.Proof.Gen.Kernel.Launch
import proofs.«424088_j28020366639260_2_alg».proof.Proof.Gen.Kernel.Skeleton
import proofs.«424088_j28020366639260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-! ## The two rectangles the body touches: each buffer whole -/

/-- All of the large buffer (the operand `y` and the result). -/
abbrev big19 : Rect S3000x128 := Rect.unit (s := S3000x128) ![0, 0] S3000x128.size inb_S3000x128_S3000x128_0_0
/-- All of a one-row buffer (the scale and the shift). -/
abbrev row19 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out19_3 (y : Vec F S3000x128 .f32) (sc sf : Vec F S1x128 .f32) : Vec F S3000x128 .f32 :=
  View.canon [⟨big19, k19_pay1 (View.ld y big19) (View.ld sc row19) (View.ld sf row19)⟩]

/-- That one store reaches every index of the buffer. -/
theorem whole19_3 (p : Vec F S3000x128 .f32) (j : S3000x128.Idx) :
    ∃ pc ∈ ([⟨big19, p⟩] : List (View.Piece (Elt F) S3000x128 .f32)), j ∈ pc.1.set :=
  View.cover_of_tiled [⟨big19, p⟩] S3000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out19_3 y sc sf`. The load of
    the result's buffer before the store reads contents nothing is known of, and its value is dropped. -/
theorem run_kernel19 (c : Dev nD) (E : Set ℕ) (i : grid19.Coords)
    (a1 : Memref sig .tc .vmem S3000x128 .f32) (h1 : a1.IsWhole) (a2 : Memref sig .tc .vmem S1x128 .f32) (h2 : a2.IsWhole)
    (a3 : Memref sig .tc .vmem S1x128 .f32) (h3 : a3.IsWhole) (a4 : Memref sig .tc .vmem S3000x128 .f32) (h4 : a4.IsWhole)
    (y : Vec F S3000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out19_3 y sc sf)) -∗ K ⟨⟩))
      ⊢ wp frame (wpE (defs₀ (F := F)) Variants.none c none) E (cc19__affine_relu_kernel i a1 h1 a2 h2 a3 h3 a4 h4) K := by
  simp only [cc19__affine_relu_kernel_eq_skeleton]; unfold cc19__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole19_3 _)

/-! ## The proof data -/

/-- The pipeline's proof data on core `c`: the arrays as the region finds them; after the body each operand's buffer
    still at its block, the result's at `out19_3` of the three blocks. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) :
    (dat19 V c).after 3 t = out19_3 (iblk19 V c 0 t) (iblk19 V c 1 t) (iblk19 V c 2 t) := by dsimp only [dat19]

/-! ## What the body finds in the operands' buffers

An operand window is never written by the body, is uncut and has no idle point, so at every point its current buffer
holds the window's block there, whether the pipeline fetched at that point or the block index stood still. -/

theorem before19_0 (c : Dev nD) (t : Fin cfg19.N) (d) : (dat19 V c).before 0 t d = iblk19 V c 0 t :=
  ((dat19 V c).before_in_eq_fetched 0 rfl (fun _ => rfl) (fun _ _ _ => rfl)
    (fun s => by rw [after19_0]; unfold Dat.blockOf iblk19; rw [A_eq19]; try rfl) t d).trans
    (by unfold Dat.fetched Dat.blockOf iblk19; rw [A_eq19]; try rfl)

theorem before19_1 (c : Dev nD) (t : Fin cfg19.N) (d) : (dat19 V c).before 1 t d = iblk19 V c 1 t :=
  ((dat19 V c).before_in_eq_fetched 1 rfl (fun _ => rfl) (fun _ _ _ => rfl)
    (fun s => by rw [after19_1]; unfold Dat.blockOf iblk19; rw [A_eq19]; try rfl) t d).trans
    (by unfold Dat.fetched Dat.blockOf iblk19; rw [A_eq19]; try rfl)

theorem before19_2 (c : Dev nD) (t : Fin cfg19.N) (d) : (dat19 V c).before 2 t d = iblk19 V c 2 t :=
  ((dat19 V c).before_in_eq_fetched 2 rfl (fun _ => rfl) (fun _ _ _ => rfl)
    (fun s => by rw [after19_2]; unfold Dat.blockOf iblk19; rw [A_eq19]; try rfl) t d).trans
    (by unfold Dat.fetched Dat.blockOf iblk19; rw [A_eq19]; try rfl)

/-! ## The body obligation -/

/-- The body at a point `t`, on the current staging buffers: the operands' buffers hold their blocks, the invariant
    and what the core owes ride along untouched. -/
theorem run_body19 (c : Dev nD) (t : Fin cfg19.N) :
    iprop((dat19 V c).Φ t.castSucc ∗ (dat19 V c).owesAt () t.castSucc
        ∗ (∃ d, owns (c : Thread nD τ) (st19_0 t) fullShare ((dat19 V c).before 0 t d))
        ∗ (∃ d, owns (c : Thread nD τ) (st19_1 t) fullShare ((dat19 V c).before 1 t d))
        ∗ (∃ d, owns (c : Thread nD τ) (st19_2 t) fullShare ((dat19 V c).before 2 t d))
        ∗ (∃ d, owns (c : Thread nD τ) (st19_3 t) fullShare ((dat19 V c).before 3 t d)))
      ⊢ wp frame (wpE (defs₀ (F := F)) Variants.none c none) Set.univ (bodyAt19 t) (fun _ =>
        iprop((dat19 V c).Φ t.succ ∗ (dat19 V c).owesAt () t.succ
          ∗ owns (c : Thread nD τ) (st19_0 t) fullShare ((dat19 V c).after 0 t)
          ∗ owns (c : Thread nD τ) (st19_1 t) fullShare ((dat19 V c).after 1 t)
          ∗ owns (c : Thread nD τ) (st19_2 t) fullShare ((dat19 V c).after 2 t)
          ∗ owns (c : Thread nD τ) (st19_3 t) fullShare ((dat19 V c).after 3 t))) := by
  unfold bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, B0⟩, ⟨%d1, B1⟩, ⟨%d2, B2⟩, ⟨%d3, B3⟩⟩
  iapply (run_kernel19 c Set.univ _ _ _ _ _ _ _ _ _ (iblk19 V c 0 t) (iblk19 V c 1 t) (iblk19 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation19 (c : Dev nD) : BodyObligation (dat19 (F := F) V c) (defs₀ (F := F)) Variants.none () Set.univ := fun t => by
  rw [bigSep_W19, bigSep_W19]
  exact run_body19 V c t

end Cert.Kernel.Hand

end
-- ==== Proof.KB.Fold.lean ====
/- The contents of every buffer at each of the 41 boundaries of @main's 40 items (20 host stretches and
   20 regions), as a fold from the launch memory: a host stretch rewrites the buffers its operations write,
   a region leaves its arrays at what its write-backs leave and every other buffer as it was entered. -/
import proofs.«424088_j28020366639260_2_alg».proof.Proof.KB.R0
import proofs.«424088_j28020366639260_2_alg».proof.Proof.KB.R1
import proofs.«424088_j28020366639260_2_alg».proof.Proof.KB.R2
import proofs.«424088_j28020366639260_2_alg».proof.Proof.KB.R3
import proofs.«424088_j28020366639260_2_alg».proof.Proof.KB.R4
import proofs.«424088_j28020366639260_2_alg».proof.Proof.KB.R5
import proofs.«424088_j28020366639260_2_alg».proof.Proof.KB.R6
import proofs.«424088_j28020366639260_2_alg».proof.Proof.KB.R7
import proofs.«424088_j28020366639260_2_alg».proof.Proof.KB.R8
import proofs.«424088_j28020366639260_2_alg».proof.Proof.KB.R9
import proofs.«424088_j28020366639260_2_alg».proof.Proof.KB.R10
import proofs.«424088_j28020366639260_2_alg».proof.Proof.KB.R11
import proofs.«424088_j28020366639260_2_alg».proof.Proof.KB.R12
import proofs.«424088_j28020366639260_2_alg».proof.Proof.KB.R13
import proofs.«424088_j28020366639260_2_alg».proof.Proof.KB.R14
import proofs.«424088_j28020366639260_2_alg».proof.Proof.KB.R15
import proofs.«424088_j28020366639260_2_alg».proof.Proof.KB.R16
import proofs.«424088_j28020366639260_2_alg».proof.Proof.KB.R17
import proofs.«424088_j28020366639260_2_alg».proof.Proof.KB.R18
import proofs.«424088_j28020366639260_2_alg».proof.Proof.KB.R19

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After item 1, the host stretch `hostOps0`. -/
def W1 : Dev nD → Valuation τ sig (Elt F) := fun c => StableHlo.after hostOps0 (W0 m ρ c)
theorem W1_eq (c : Dev nD) : W1 m ρ c = StableHlo.after hostOps0 (W0 m ρ c) := rfl

/-- Region 0 is entered with these contents at the TensorCore's references. -/
abbrev VE0 : (c : Dev nD) → (b : Ref sig .tc) → Buf (Elt F) ((c : Thread nD τ).loc b) := fun c b => W1 m ρ c b
/-- After item 2, region 0: its arrays at what the pipeline's write-backs leave (an input as entered),
    every other buffer as entered. -/
def W2 (c : Dev nD) : Valuation τ sig (Elt F) :=
  Pipeline.withArrays spec0 c (W1 m ρ c) fun w => (dat0 (VE0 m ρ) c).arrAt w cfg0.N
theorem Wexit0_arr (c : Dev nD) (w : Fin cfg0.W) :
    W2 m ρ c (Proc.devRef .tc (Pipeline.arrRef spec0 w)) = (dat0 (VE0 m ρ) c).arrAt w cfg0.N := by
  unfold W2; exact Pipeline.withArrays_arr spec0 launch0.win.arr_inj c _ _ w
theorem Wexit0_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- After item 3, the host stretch `hostOps1`. -/
def W3 : Dev nD → Valuation τ sig (Elt F) := fun c => StableHlo.after hostOps1 (W2 m ρ c)
theorem W3_eq (c : Dev nD) : W3 m ρ c = StableHlo.after hostOps1 (W2 m ρ c) := rfl

/-- Region 1 is entered with these contents at the TensorCore's references. -/
abbrev VE1 : (c : Dev nD) → (b : Ref sig .tc) → Buf (Elt F) ((c : Thread nD τ).loc b) := fun c b => W3 m ρ c b
/-- After item 4, region 1: its arrays at what the pipeline's write-backs leave (an input as entered),
    every other buffer as entered. -/
def W4 (c : Dev nD) : Valuation τ sig (Elt F) :=
  Pipeline.withArrays spec1 c (W3 m ρ c) fun w => (dat1 (VE1 m ρ) c).arrAt w cfg1.N
theorem Wexit1_arr (c : Dev nD) (w : Fin cfg1.W) :
    W4 m ρ c (Proc.devRef .tc (Pipeline.arrRef spec1 w)) = (dat1 (VE1 m ρ) c).arrAt w cfg1.N := by
  unfold W4; exact Pipeline.withArrays_arr spec1 launch1.win.arr_inj c _ _ w
theorem Wexit1_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- After item 5, the host stretch `hostOps2`. -/
def W5 : Dev nD → Valuation τ sig (Elt F) := fun c => StableHlo.after hostOps2 (W4 m ρ c)
theorem W5_eq (c : Dev nD) : W5 m ρ c = StableHlo.after hostOps2 (W4 m ρ c) := rfl

/-- Region 2 is entered with these contents at the TensorCore's references. -/
abbrev VE2 : (c : Dev nD) → (b : Ref sig .tc) → Buf (Elt F) ((c : Thread nD τ).loc b) := fun c b => W5 m ρ c b
/-- After item 6, region 2: its arrays at what the pipeline's write-backs leave (an input as entered),
    every other buffer as entered. -/
def W6 (c : Dev nD) : Valuation τ sig (Elt F) :=
  Pipeline.withArrays spec2 c (W5 m ρ c) fun w => (dat2 (VE2 m ρ) c).arrAt w cfg2.N
theorem Wexit2_arr (c : Dev nD) (w : Fin cfg2.W) :
    W6 m ρ c (Proc.devRef .tc (Pipeline.arrRef spec2 w)) = (dat2 (VE2 m ρ) c).arrAt w cfg2.N := by
  unfold W6; exact Pipeline.withArrays_arr spec2 launch2.win.arr_inj c _ _ w
theorem Wexit2_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

/-- Region 3 is entered with these contents at the TensorCore's references. -/
abbrev VE3 : (c : Dev nD) → (b : Ref sig .tc) → Buf (Elt F) ((c : Thread nD τ).loc b) := fun c b => W6 m ρ c b
/-- After item 7, region 3: its arrays at what the pipeline's write-backs leave (an input as entered),
    every other buffer as entered. -/
def W7 (c : Dev nD) : Valuation τ sig (Elt F) :=
  Pipeline.withArrays spec3 c (W6 m ρ c) fun w => (dat3 (VE3 m ρ) c).arrAt w cfg3.N
theorem Wexit3_arr (c : Dev nD) (w : Fin cfg3.W) :
    W7 m ρ c (Proc.devRef .tc (Pipeline.arrRef spec3 w)) = (dat3 (VE3 m ρ) c).arrAt w cfg3.N := by
  unfold W7; exact Pipeline.withArrays_arr spec3 launch3.win.arr_inj c _ _ w
theorem Wexit3_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

/-- After item 8, the host stretch `hostOps4`. -/
def W8 : Dev nD → Valuation τ sig (Elt F) := fun c => StableHlo.after hostOps4 (W7 m ρ c)
theorem W8_eq (c : Dev nD) : W8 m ρ c = StableHlo.after hostOps4 (W7 m ρ c) := rfl

/-- Region 4 is entered with these contents at the TensorCore's references. -/
abbrev VE4 : (c : Dev nD) → (b : Ref sig .tc) → Buf (Elt F) ((c : Thread nD τ).loc b) := fun c b => W8 m ρ c b
/-- After item 9, region 4: its arrays at what the pipeline's write-backs leave (an input as entered),
    every other buffer as entered. -/
def W9 (c : Dev nD) : Valuation τ sig (Elt F) :=
  Pipeline.withArrays spec4 c (W8 m ρ c) fun w => (dat4 (VE4 m ρ) c).arrAt w cfg4.N
theorem Wexit4_arr (c : Dev nD) (w : Fin cfg4.W) :
    W9 m ρ c (Proc.devRef .tc (Pipeline.arrRef spec4 w)) = (dat4 (VE4 m ρ) c).arrAt w cfg4.N := by
  unfold W9; exact Pipeline.withArrays_arr spec4 launch4.win.arr_inj c _ _ w
theorem Wexit4_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

/-- After item 10, the host stretch `hostOps5`. -/
def W10 : Dev nD → Valuation τ sig (Elt F) := fun c => StableHlo.after hostOps5 (W9 m ρ c)
theorem W10_eq (c : Dev nD) : W10 m ρ c = StableHlo.after hostOps5 (W9 m ρ c) := rfl

/-- Region 5 is entered with these contents at the TensorCore's references. -/
abbrev VE5 : (c : Dev nD) → (b : Ref sig .tc) → Buf (Elt F) ((c : Thread nD τ).loc b) := fun c b => W10 m ρ c b
/-- After item 11, region 5: its arrays at what the pipeline's write-backs leave (an input as entered),
    every other buffer as entered. -/
def W11 (c : Dev nD) : Valuation τ sig (Elt F) :=
  Pipeline.withArrays spec5 c (W10 m ρ c) fun w => (dat5 (VE5 m ρ) c).arrAt w cfg5.N
theorem Wexit5_arr (c : Dev nD) (w : Fin cfg5.W) :
    W11 m ρ c (Proc.devRef .tc (Pipeline.arrRef spec5 w)) = (dat5 (VE5 m ρ) c).arrAt w cfg5.N := by
  unfold W11; exact Pipeline.withArrays_arr spec5 launch5.win.arr_inj c _ _ w
theorem Wexit5_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb

/-- After item 12, the host stretch `hostOps6`. -/
def W12 : Dev nD → Valuation τ sig (Elt F) := fun c => StableHlo.after hostOps6 (W11 m ρ c)
theorem W12_eq (c : Dev nD) : W12 m ρ c = StableHlo.after hostOps6 (W11 m ρ c) := rfl

/-- Region 6 is entered with these contents at the TensorCore's references. -/
abbrev VE6 : (c : Dev nD) → (b : Ref sig .tc) → Buf (Elt F) ((c : Thread nD τ).loc b) := fun c b => W12 m ρ c b
/-- After item 13, region 6: its arrays at what the pipeline's write-backs leave (an input as entered),
    every other buffer as entered. -/
def W13 (c : Dev nD) : Valuation τ sig (Elt F) :=
  Pipeline.withArrays spec6 c (W12 m ρ c) fun w => (dat6 (VE6 m ρ) c).arrAt w cfg6.N
theorem Wexit6_arr (c : Dev nD) (w : Fin cfg6.W) :
    W13 m ρ c (Proc.devRef .tc (Pipeline.arrRef spec6 w)) = (dat6 (VE6 m ρ) c).arrAt w cfg6.N := by
  unfold W13; exact Pipeline.withArrays_arr spec6 launch6.win.arr_inj c _ _ w
theorem Wexit6_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb

/-- After item 14, the host stretch `hostOps7`. -/
def W14 : Dev nD → Valuation τ sig (Elt F) := fun c => StableHlo.after hostOps7 (W13 m ρ c)
theorem W14_eq (c : Dev nD) : W14 m ρ c = StableHlo.after hostOps7 (W13 m ρ c) := rfl

/-- Region 7 is entered with these contents at the TensorCore's references. -/
abbrev VE7 : (c : Dev nD) → (b : Ref sig .tc) → Buf (Elt F) ((c : Thread nD τ).loc b) := fun c b => W14 m ρ c b
/-- After item 15, region 7: its arrays at what the pipeline's write-backs leave (an input as entered),
    every other buffer as entered. -/
def W15 (c : Dev nD) : Valuation τ sig (Elt F) :=
  Pipeline.withArrays spec7 c (W14 m ρ c) fun w => (dat7 (VE7 m ρ) c).arrAt w cfg7.N
theorem Wexit7_arr (c : Dev nD) (w : Fin cfg7.W) :
    W15 m ρ c (Proc.devRef .tc (Pipeline.arrRef spec7 w)) = (dat7 (VE7 m ρ) c).arrAt w cfg7.N := by
  unfold W15; exact Pipeline.withArrays_arr spec7 launch7.win.arr_inj c _ _ w
theorem Wexit7_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb

/-- After item 16, the host stretch `hostOps8`. -/
def W16 : Dev nD → Valuation τ sig (Elt F) := fun c => StableHlo.after hostOps8 (W15 m ρ c)
theorem W16_eq (c : Dev nD) : W16 m ρ c = StableHlo.after hostOps8 (W15 m ρ c) := rfl

/-- Region 8 is entered with these contents at the TensorCore's references. -/
abbrev VE8 : (c : Dev nD) → (b : Ref sig .tc) → Buf (Elt F) ((c : Thread nD τ).loc b) := fun c b => W16 m ρ c b
/-- After item 17, region 8: its arrays at what the pipeline's write-backs leave (an input as entered),
    every other buffer as entered. -/
def W17 (c : Dev nD) : Valuation τ sig (Elt F) :=
  Pipeline.withArrays spec8 c (W16 m ρ c) fun w => (dat8 (VE8 m ρ) c).arrAt w cfg8.N
theorem Wexit8_arr (c : Dev nD) (w : Fin cfg8.W) :
    W17 m ρ c (Proc.devRef .tc (Pipeline.arrRef spec8 w)) = (dat8 (VE8 m ρ) c).arrAt w cfg8.N := by
  unfold W17; exact Pipeline.withArrays_arr spec8 launch8.win.arr_inj c _ _ w
theorem Wexit8_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb

/-- After item 18, the host stretch `hostOps9`. -/
def W18 : Dev nD → Valuation τ sig (Elt F) := fun c => StableHlo.after hostOps9 (W17 m ρ c)
theorem W18_eq (c : Dev nD) : W18 m ρ c = StableHlo.after hostOps9 (W17 m ρ c) := rfl

/-- Region 9 is entered with these contents at the TensorCore's references. -/
abbrev VE9 : (c : Dev nD) → (b : Ref sig .tc) → Buf (Elt F) ((c : Thread nD τ).loc b) := fun c b => W18 m ρ c b
/-- After item 19, region 9: its arrays at what the pipeline's write-backs leave (an input as entered),
    every other buffer as entered. -/
def W19 (c : Dev nD) : Valuation τ sig (Elt F) :=
  Pipeline.withArrays spec9 c (W18 m ρ c) fun w => (dat9 (VE9 m ρ) c).arrAt w cfg9.N
theorem Wexit9_arr (c : Dev nD) (w : Fin cfg9.W) :
    W19 m ρ c (Proc.devRef .tc (Pipeline.arrRef spec9 w)) = (dat9 (VE9 m ρ) c).arrAt w cfg9.N := by
  unfold W19; exact Pipeline.withArrays_arr spec9 launch9.win.arr_inj c _ _ w
theorem Wexit9_of_ne (c : Dev nD) (b : Ref sig .tc) (hb : ∀ w, Pipeline.arrRef spec9 w ≠ b) :
    W19 m ρ c (Proc.devRef .tc b) = W18 m ρ c (Proc.devRef .tc b) := by
  unfold W19; exact Pipeline.withArrays_of_ne spec9 c _ _ b hb

/-- After item 20, the host stretch `hostOps10`. -/
def W20 : Dev nD → Valuation τ sig (Elt F) := fun c => StableHlo.after hostOps10 (W19 m ρ c)
theorem W20_eq (c : Dev nD) : W20 m ρ c = StableHlo.after hostOps10 (W19 m ρ c) := rfl

/-- Region 10 is entered with these contents at the TensorCore's references. -/
abbrev VE10 : (c : Dev nD) → (b : Ref sig .tc) → Buf (Elt F) ((c : Thread nD τ).loc b) := fun c b => W20 m ρ c b
/-- After item 21, region 10: its arrays at what the pipeline's write-backs leave (an input as entered),
    every other buffer as entered. -/
def W21 (c : Dev nD) : Valuation τ sig (Elt F) :=
  Pipeline.withArrays spec10 c (W20 m ρ c) fun w => (dat10 (VE10 m ρ) c).arrAt w cfg10.N
theorem Wexit10_arr (c : Dev nD) (w : Fin cfg10.W) :
    W21 m ρ c (Proc.devRef .tc (Pipeline.arrRef spec10 w)) = (dat10 (VE10 m ρ) c).arrAt w cfg10.N := by
  unfold W21; exact Pipeline.withArrays_arr spec10 launch10.win.arr_inj c _ _ w
theorem Wexit10_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb

/-- After item 22, the host stretch `hostOps11`. -/
def W22 : Dev nD → Valuation τ sig (Elt F) := fun c => StableHlo.after hostOps11 (W21 m ρ c)
theorem W22_eq (c : Dev nD) : W22 m ρ c = StableHlo.after hostOps11 (W21 m ρ c) := rfl

/-- Region 11 is entered with these contents at the TensorCore's references. -/
abbrev VE11 : (c : Dev nD) → (b : Ref sig .tc) → Buf (Elt F) ((c : Thread nD τ).loc b) := fun c b => W22 m ρ c b
/-- After item 23, region 11: its arrays at what the pipeline's write-backs leave (an input as entered),
    every other buffer as entered. -/
def W23 (c : Dev nD) : Valuation τ sig (Elt F) :=
  Pipeline.withArrays spec11 c (W22 m ρ c) fun w => (dat11 (VE11 m ρ) c).arrAt w cfg11.N
theorem Wexit11_arr (c : Dev nD) (w : Fin cfg11.W) :
    W23 m ρ c (Proc.devRef .tc (Pipeline.arrRef spec11 w)) = (dat11 (VE11 m ρ) c).arrAt w cfg11.N := by
  unfold W23; exact Pipeline.withArrays_arr spec11 launch11.win.arr_inj c _ _ w
theorem Wexit11_of_ne (c : Dev nD) (b : Ref sig .tc) (hb : ∀ w, Pipeline.arrRef spec11 w ≠ b) :
    W23 m ρ c (Proc.devRef .tc b) = W22 m ρ c (Proc.devRef .tc b) := by
  unfold W23; exact Pipeline.withArrays_of_ne spec11 c _ _ b hb

/-- After item 24, the host stretch `hostOps12`. -/
def W24 : Dev nD → Valuation τ sig (Elt F) := fun c => StableHlo.after hostOps12 (W23 m ρ c)
theorem W24_eq (c : Dev nD) : W24 m ρ c = StableHlo.after hostOps12 (W23 m ρ c) := rfl

/-- Region 12 is entered with these contents at the TensorCore's references. -/
abbrev VE12 : (c : Dev nD) → (b : Ref sig .tc) → Buf (Elt F) ((c : Thread nD τ).loc b) := fun c b => W24 m ρ c b
/-- After item 25, region 12: its arrays at what the pipeline's write-backs leave (an input as entered),
    every other buffer as entered. -/
def W25 (c : Dev nD) : Valuation τ sig (Elt F) :=
  Pipeline.withArrays spec12 c (W24 m ρ c) fun w => (dat12 (VE12 m ρ) c).arrAt w cfg12.N
theorem Wexit12_arr (c : Dev nD) (w : Fin cfg12.W) :
    W25 m ρ c (Proc.devRef .tc (Pipeline.arrRef spec12 w)) = (dat12 (VE12 m ρ) c).arrAt w cfg12.N := by
  unfold W25; exact Pipeline.withArrays_arr spec12 launch12.win.arr_inj c _ _ w
theorem Wexit12_of_ne (c : Dev nD) (b : Ref sig .tc) (hb : ∀ w, Pipeline.arrRef spec12 w ≠ b) :
    W25 m ρ c (Proc.devRef .tc b) = W24 m ρ c (Proc.devRef .tc b) := by
  unfold W25; exact Pipeline.withArrays_of_ne spec12 c _ _ b hb

/-- After item 26, the host stretch `hostOps13`. -/
def W26 : Dev nD → Valuation τ sig (Elt F) := fun c => StableHlo.after hostOps13 (W25 m ρ c)
theorem W26_eq (c : Dev nD) : W26 m ρ c = StableHlo.after hostOps13 (W25 m ρ c) := rfl

/-- Region 13 is entered with these contents at the TensorCore's references. -/
abbrev VE13 : (c : Dev nD) → (b : Ref sig .tc) → Buf (Elt F) ((c : Thread nD τ).loc b) := fun c b => W26 m ρ c b
/-- After item 27, region 13: its arrays at what the pipeline's write-backs leave (an input as entered),
    every other buffer as entered. -/
def W27 (c : Dev nD) : Valuation τ sig (Elt F) :=
  Pipeline.withArrays spec13 c (W26 m ρ c) fun w => (dat13 (VE13 m ρ) c).arrAt w cfg13.N
theorem Wexit13_arr (c : Dev nD) (w : Fin cfg13.W) :
    W27 m ρ c (Proc.devRef .tc (Pipeline.arrRef spec13 w)) = (dat13 (VE13 m ρ) c).arrAt w cfg13.N := by
  unfold W27; exact Pipeline.withArrays_arr spec13 launch13.win.arr_inj c _ _ w
theorem Wexit13_of_ne (c : Dev nD) (b : Ref sig .tc) (hb : ∀ w, Pipeline.arrRef spec13 w ≠ b) :
    W27 m ρ c (Proc.devRef .tc b) = W26 m ρ c (Proc.devRef .tc b) := by
  unfold W27; exact Pipeline.withArrays_of_ne spec13 c _ _ b hb

/-- After item 28, the host stretch `hostOps14`. -/
def W28 : Dev nD → Valuation τ sig (Elt F) := fun c => StableHlo.after hostOps14 (W27 m ρ c)
theorem W28_eq (c : Dev nD) : W28 m ρ c = StableHlo.after hostOps14 (W27 m ρ c) := rfl

/-- Region 14 is entered with these contents at the TensorCore's references. -/
abbrev VE14 : (c : Dev nD) → (b : Ref sig .tc) → Buf (Elt F) ((c : Thread nD τ).loc b) := fun c b => W28 m ρ c b
/-- After item 29, region 14: its arrays at what the pipeline's write-backs leave (an input as entered),
    every other buffer as entered. -/
def W29 (c : Dev nD) : Valuation τ sig (Elt F) :=
  Pipeline.withArrays spec14 c (W28 m ρ c) fun w => (dat14 (VE14 m ρ) c).arrAt w cfg14.N
theorem Wexit14_arr (c : Dev nD) (w : Fin cfg14.W) :
    W29 m ρ c (Proc.devRef .tc (Pipeline.arrRef spec14 w)) = (dat14 (VE14 m ρ) c).arrAt w cfg14.N := by
  unfold W29; exact Pipeline.withArrays_arr spec14 launch14.win.arr_inj c _ _ w
theorem Wexit14_of_ne (c : Dev nD) (b : Ref sig .tc) (hb : ∀ w, Pipeline.arrRef spec14 w ≠ b) :
    W29 m ρ c (Proc.devRef .tc b) = W28 m ρ c (Proc.devRef .tc b) := by
  unfold W29; exact Pipeline.withArrays_of_ne spec14 c _ _ b hb

/-- After item 30, the host stretch `hostOps15`. -/
def W30 : Dev nD → Valuation τ sig (Elt F) := fun c => StableHlo.after hostOps15 (W29 m ρ c)
theorem W30_eq (c : Dev nD) : W30 m ρ c = StableHlo.after hostOps15 (W29 m ρ c) := rfl

/-- Region 15 is entered with these contents at the TensorCore's references. -/
abbrev VE15 : (c : Dev nD) → (b : Ref sig .tc) → Buf (Elt F) ((c : Thread nD τ).loc b) := fun c b => W30 m ρ c b
/-- After item 31, region 15: its arrays at what the pipeline's write-backs leave (an input as entered),
    every other buffer as entered. -/
def W31 (c : Dev nD) : Valuation τ sig (Elt F) :=
  Pipeline.withArrays spec15 c (W30 m ρ c) fun w => (dat15 (VE15 m ρ) c).arrAt w cfg15.N
theorem Wexit15_arr (c : Dev nD) (w : Fin cfg15.W) :
    W31 m ρ c (Proc.devRef .tc (Pipeline.arrRef spec15 w)) = (dat15 (VE15 m ρ) c).arrAt w cfg15.N := by
  unfold W31; exact Pipeline.withArrays_arr spec15 launch15.win.arr_inj c _ _ w
theorem Wexit15_of_ne (c : Dev nD) (b : Ref sig .tc) (hb : ∀ w, Pipeline.arrRef spec15 w ≠ b) :
    W31 m ρ c (Proc.devRef .tc b) = W30 m ρ c (Proc.devRef .tc b) := by
  unfold W31; exact Pipeline.withArrays_of_ne spec15 c _ _ b hb

/-- After item 32, the host stretch `hostOps16`. -/
def W32 : Dev nD → Valuation τ sig (Elt F) := fun c => StableHlo.after hostOps16 (W31 m ρ c)
theorem W32_eq (c : Dev nD) : W32 m ρ c = StableHlo.after hostOps16 (W31 m ρ c) := rfl

/-- Region 16 is entered with these contents at the TensorCore's references. -/
abbrev VE16 : (c : Dev nD) → (b : Ref sig .tc) → Buf (Elt F) ((c : Thread nD τ).loc b) := fun c b => W32 m ρ c b
/-- After item 33, region 16: its arrays at what the pipeline's write-backs leave (an input as entered),
    every other buffer as entered. -/
def W33 (c : Dev nD) : Valuation τ sig (Elt F) :=
  Pipeline.withArrays spec16 c (W32 m ρ c) fun w => (dat16 (VE16 m ρ) c).arrAt w cfg16.N
theorem Wexit16_arr (c : Dev nD) (w : Fin cfg16.W) :
    W33 m ρ c (Proc.devRef .tc (Pipeline.arrRef spec16 w)) = (dat16 (VE16 m ρ) c).arrAt w cfg16.N := by
  unfold W33; exact Pipeline.withArrays_arr spec16 launch16.win.arr_inj c _ _ w
theorem Wexit16_of_ne (c : Dev nD) (b : Ref sig .tc) (hb : ∀ w, Pipeline.arrRef spec16 w ≠ b) :
    W33 m ρ c (Proc.devRef .tc b) = W32 m ρ c (Proc.devRef .tc b) := by
  unfold W33; exact Pipeline.withArrays_of_ne spec16 c _ _ b hb

/-- After item 34, the host stretch `hostOps17`. -/
def W34 : Dev nD → Valuation τ sig (Elt F) := fun c => StableHlo.after hostOps17 (W33 m ρ c)
theorem W34_eq (c : Dev nD) : W34 m ρ c = StableHlo.after hostOps17 (W33 m ρ c) := rfl

/-- Region 17 is entered with these contents at the TensorCore's references. -/
abbrev VE17 : (c : Dev nD) → (b : Ref sig .tc) → Buf (Elt F) ((c : Thread nD τ).loc b) := fun c b => W34 m ρ c b
/-- After item 35, region 17: its arrays at what the pipeline's write-backs leave (an input as entered),
    every other buffer as entered. -/
def W35 (c : Dev nD) : Valuation τ sig (Elt F) :=
  Pipeline.withArrays spec17 c (W34 m ρ c) fun w => (dat17 (VE17 m ρ) c).arrAt w cfg17.N
theorem Wexit17_arr (c : Dev nD) (w : Fin cfg17.W) :
    W35 m ρ c (Proc.devRef .tc (Pipeline.arrRef spec17 w)) = (dat17 (VE17 m ρ) c).arrAt w cfg17.N := by
  unfold W35; exact Pipeline.withArrays_arr spec17 launch17.win.arr_inj c _ _ w
theorem Wexit17_of_ne (c : Dev nD) (b : Ref sig .tc) (hb : ∀ w, Pipeline.arrRef spec17 w ≠ b) :
    W35 m ρ c (Proc.devRef .tc b) = W34 m ρ c (Proc.devRef .tc b) := by
  unfold W35; exact Pipeline.withArrays_of_ne spec17 c _ _ b hb

/-- After item 36, the host stretch `hostOps18`. -/
def W36 : Dev nD → Valuation τ sig (Elt F) := fun c => StableHlo.after hostOps18 (W35 m ρ c)
theorem W36_eq (c : Dev nD) : W36 m ρ c = StableHlo.after hostOps18 (W35 m ρ c) := rfl

/-- Region 18 is entered with these contents at the TensorCore's references. -/
abbrev VE18 : (c : Dev nD) → (b : Ref sig .tc) → Buf (Elt F) ((c : Thread nD τ).loc b) := fun c b => W36 m ρ c b
/-- After item 37, region 18: its arrays at what the pipeline's write-backs leave (an input as entered),
    every other buffer as entered. -/
def W37 (c : Dev nD) : Valuation τ sig (Elt F) :=
  Pipeline.withArrays spec18 c (W36 m ρ c) fun w => (dat18 (VE18 m ρ) c).arrAt w cfg18.N
theorem Wexit18_arr (c : Dev nD) (w : Fin cfg18.W) :
    W37 m ρ c (Proc.devRef .tc (Pipeline.arrRef spec18 w)) = (dat18 (VE18 m ρ) c).arrAt w cfg18.N := by
  unfold W37; exact Pipeline.withArrays_arr spec18 launch18.win.arr_inj c _ _ w
theorem Wexit18_of_ne (c : Dev nD) (b : Ref sig .tc) (hb : ∀ w, Pipeline.arrRef spec18 w ≠ b) :
    W37 m ρ c (Proc.devRef .tc b) = W36 m ρ c (Proc.devRef .tc b) := by
  unfold W37; exact Pipeline.withArrays_of_ne spec18 c _ _ b hb

/-- After item 38, the host stretch `hostOps19`. -/
def W38 : Dev nD → Valuation τ sig (Elt F) := fun c => StableHlo.after hostOps19 (W37 m ρ c)
theorem W38_eq (c : Dev nD) : W38 m ρ c = StableHlo.after hostOps19 (W37 m ρ c) := rfl

/-- Region 19 is entered with these contents at the TensorCore's references. -/
abbrev VE19 : (c : Dev nD) → (b : Ref sig .tc) → Buf (Elt F) ((c : Thread nD τ).loc b) := fun c b => W38 m ρ c b
/-- After item 39, region 19: its arrays at what the pipeline's write-backs leave (an input as entered),
    every other buffer as entered. -/
def W39 (c : Dev nD) : Valuation τ sig (Elt F) :=
  Pipeline.withArrays spec19 c (W38 m ρ c) fun w => (dat19 (VE19 m ρ) c).arrAt w cfg19.N
theorem Wexit19_arr (c : Dev nD) (w : Fin cfg19.W) :
    W39 m ρ c (Proc.devRef .tc (Pipeline.arrRef spec19 w)) = (dat19 (VE19 m ρ) c).arrAt w cfg19.N := by
  unfold W39; exact Pipeline.withArrays_arr spec19 launch19.win.arr_inj c _ _ w
theorem Wexit19_of_ne (c : Dev nD) (b : Ref sig .tc) (hb : ∀ w, Pipeline.arrRef spec19 w ≠ b) :
    W39 m ρ c (Proc.devRef .tc b) = W38 m ρ c (Proc.devRef .tc b) := by
  unfold W39; exact Pipeline.withArrays_of_ne spec19 c _ _ b hb

/-- After item 40, the host stretch `hostOps20`. -/
def W40 : Dev nD → Valuation τ sig (Elt F) := fun c => StableHlo.after hostOps20 (W39 m ρ c)
theorem W40_eq (c : Dev nD) : W40 m ρ c = StableHlo.after hostOps20 (W39 m ρ c) := rfl

end Cert.Kernel.Hand

end
-- ==== Proof.KB.HostWrites.lean ====
/- What the host stretches of @main write and allocate. Each operation writes exactly its result buffer, so a
   stretch writes only the references in the list of its operations' results (in order, repetitions kept);
   the proof walks the list once, one step per operation. No operation allocates a buffer. -/
import proofs.«424088_j28020366639260_2_alg».proof.Proof.Gen.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The empty stretch writes nothing. -/
theorem writes_nil : ([] : List (HloOp τ sig (Elt F))).Forall fun op =>
    op.writes ⊆ (([] : List (Ref sig .tc)).map (Proc.devRef (τ := τ) .tc)).toFinset := trivial

/-- An operation writing exactly `y`, before a stretch writing within `W`, writes within `y :: W`. -/
theorem writes_cons {op : HloOp τ sig (Elt F)} {ops : List (HloOp τ sig (Elt F))} {y : Ref sig .tc} {W : List (Ref sig .tc)}
    (h1 : op.writes = {Proc.devRef (τ := τ) .tc y})
    (h2 : ops.Forall fun op => op.writes ⊆ (W.map (Proc.devRef (τ := τ) .tc)).toFinset) :
    (op :: ops).Forall fun op => op.writes ⊆ ((y :: W).map (Proc.devRef (τ := τ) .tc)).toFinset := by
  rw [List.forall_iff_forall_mem] at h2 ⊢
  intro o ho
  rcases List.mem_cons.mp ho with rfl | ho
  · rw [h1, Finset.singleton_subset_iff, List.mem_toFinset]
    exact List.mem_map_of_mem List.mem_cons_self
  · intro b hb
    have hmem := h2 o ho hb
    rw [List.mem_toFinset] at hmem ⊢
    rw [List.map_cons]
    exact List.mem_cons_of_mem _ hmem

/-- The empty stretch allocates nothing. -/
theorem fresh_nil : ([] : List (HloOp τ sig (Elt F))).Forall fun op => op.fresh = ∅ := trivial

/-- One more operation that allocates nothing. -/
theorem fresh_cons {op : HloOp τ sig (Elt F)} {ops : List (HloOp τ sig (Elt F))}
    (h1 : op.fresh = ∅) (h2 : ops.Forall fun op => op.fresh = ∅) : (op :: ops).Forall fun op => op.fresh = ∅ := by
  rw [List.forall_iff_forall_mem] at h2 ⊢
  intro o ho
  rcases List.mem_cons.mp ho with rfl | ho
  · exact h1
  · exact h2 o ho

/-- The results of `hostOps0`'s 2 operations, in order. -/
abbrev hostOps0_W : List (Ref sig .tc) :=
  [main_v0, main_v1]
theorem hostOps0_writes : (hostOps0 : List (HloOp τ sig (Elt F))).Forall fun op =>
    op.writes ⊆ (hostOps0_W.map (Proc.devRef (τ := τ) .tc)).toFinset := by
  repeat (first | exact writes_nil | refine writes_cons rfl ?_)
theorem hostOps0_fresh : (hostOps0 : List (HloOp τ sig (Elt F))).Forall fun op => op.fresh = ∅ := by
  repeat (first | exact fresh_nil | refine fresh_cons rfl ?_)

/-- The results of `hostOps1`'s 27 operations, in order. -/
abbrev hostOps1_W : List (Ref sig .tc) :=
  [main_cst, main_v3, main_cst_0, main_v4, main_v5, main_v6, main_v7, main_v8, main_cst_1, main_v9, main_v10, main_cst_2, main_v11, main_v12, main_v13, main_v14, main_cst_3, main_v15, main_v16, main_v17, main_v18, main_v19, main_v20, main_v21, main_v22, main_v23, main_v24]
theorem hostOps1_writes : (hostOps1 : List (HloOp τ sig (Elt F))).Forall fun op =>
    op.writes ⊆ (hostOps1_W.map (Proc.devRef (τ := τ) .tc)).toFinset := by
  repeat (first | exact writes_nil | refine writes_cons rfl ?_)
theorem hostOps1_fresh : (hostOps1 : List (HloOp τ sig (Elt F))).Forall fun op => op.fresh = ∅ := by
  repeat (first | exact fresh_nil | refine fresh_cons rfl ?_)

/-- The results of `hostOps2`'s 27 operations, in order. -/
abbrev hostOps2_W : List (Ref sig .tc) :=
  [main_cst_4, main_v26, main_cst_5, main_v27, main_v28, main_v29, main_v30, main_v31, main_cst_6, main_v32, main_v33, main_cst_7, main_v34, main_v35, main_v36, main_v37, main_cst_8, main_v38, main_v39, main_v40, main_v41, main_v42, main_v43, main_v44, main_v45, main_v46, main_v47]
theorem hostOps2_writes : (hostOps2 : List (HloOp τ sig (Elt F))).Forall fun op =>
    op.writes ⊆ (hostOps2_W.map (Proc.devRef (τ := τ) .tc)).toFinset := by
  repeat (first | exact writes_nil | refine writes_cons rfl ?_)
theorem hostOps2_fresh : (hostOps2 : List (HloOp τ sig (Elt F))).Forall fun op => op.fresh = ∅ := by
  repeat (first | exact fresh_nil | refine fresh_cons rfl ?_)

/-- The results of `hostOps4`'s 195 operations, in order. -/
abbrev hostOps4_W : List (Ref sig .tc) :=
  [main_cst_9, main_v50, main_cst_10, main_v51, main_v52, main_v53, main_cst_11, main_v54, main_v55, main_cst_12, main_v56, main_v57, main_cst_13, main_v58, main_cst_14, main_v59, main_v60, main_v61, main_cst_15, main_v62, main_v63, main_cst_16, main_v64, main_v65, main_cst_17, main_v66, main_cst_18, main_v67, main_v68, main_v69, main_cst_19, main_v70, main_v71, main_cst_20, main_v72, main_v73, main_cst_21, main_v74, main_cst_22, main_v75, main_v76, main_v77, main_cst_23, main_v78, main_v79, main_cst_24, main_v80, main_v81, main_cst_25, main_v82, main_cst_26, main_v83, main_v84, main_v85, main_cst_27, main_v86, main_v87, main_cst_28, main_v88, main_v89, main_cst_29, main_v90, main_cst_30, main_v91, main_v92, main_v93, main_cst_31, main_v94, main_v95, main_cst_32, main_v96, main_v97, main_c, main_v98, main_v99, main_c_33, main_v100, main_v101, main_v102, main_v103, main_v104, main_cst_34, main_v105, main_v106, main_v107, main_v108, main_v109, main_v110, main_c_35, main_v111, main_v112, main_c_36, main_v113, main_v114, main_v115, main_v116, main_v117, main_cst_37, main_v118, main_v119, main_v120, main_v121, main_v122, main_v123, main_c_38, main_v124, main_v125, main_c_39, main_v126, main_v127, main_v128, main_v129, main_v130, main_cst_40, main_v131, main_v132, main_v133, main_v134, main_v135, main_v136, main_c_41, main_v137, main_v138, main_c_42, main_v139, main_v140, main_v141, main_v142, main_v143, main_cst_43, main_v144, main_v145, main_v146, main_v147, main_v148, main_v149, main_c_44, main_v150, main_v151, main_c_45, main_v152, main_v153, main_v154, main_v155, main_v156, main_cst_46, main_v157, main_v158, main_v159, main_v160, main_v161, main_v162, main_c_47, main_v163, main_v164, main_c_48, main_v165, main_v166, main_v167, main_v168, main_v169, main_cst_49, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202]
set_option maxHeartbeats 4000000 in
theorem hostOps4_writes : (hostOps4 : List (HloOp τ sig (Elt F))).Forall fun op =>
    op.writes ⊆ (hostOps4_W.map (Proc.devRef (τ := τ) .tc)).toFinset := by
  repeat (first | exact writes_nil | refine writes_cons rfl ?_)
set_option maxHeartbeats 4000000 in
theorem hostOps4_fresh : (hostOps4 : List (HloOp τ sig (Elt F))).Forall fun op => op.fresh = ∅ := by
  repeat (first | exact fresh_nil | refine fresh_cons rfl ?_)

/-- The results of `hostOps5`'s 25 operations, in order. -/
abbrev hostOps5_W : List (Ref sig .tc) :=
  [main_cst_50, main_v204, main_cst_51, main_v205, main_v206, main_v207, main_v208, main_v209, main_cst_52, main_v210, main_v211, main_cst_53, main_v212, main_v213, main_v214, main_v215, main_cst_54, main_v216, main_v217, main_v218, main_v219, main_v220, main_v221, main_v222, main_v223]
theorem hostOps5_writes : (hostOps5 : List (HloOp τ sig (Elt F))).Forall fun op =>
    op.writes ⊆ (hostOps5_W.map (Proc.devRef (τ := τ) .tc)).toFinset := by
  repeat (first | exact writes_nil | refine writes_cons rfl ?_)
theorem hostOps5_fresh : (hostOps5 : List (HloOp τ sig (Elt F))).Forall fun op => op.fresh = ∅ := by
  repeat (first | exact fresh_nil | refine fresh_cons rfl ?_)

/-- The results of `hostOps6`'s 9 operations, in order. -/
abbrev hostOps6_W : List (Ref sig .tc) :=
  [main_v225, main_v226, main_v227, main_v228, main_v229, main_v230, main_v231, main_v232, main_v233]
theorem hostOps6_writes : (hostOps6 : List (HloOp τ sig (Elt F))).Forall fun op =>
    op.writes ⊆ (hostOps6_W.map (Proc.devRef (τ := τ) .tc)).toFinset := by
  repeat (first | exact writes_nil | refine writes_cons rfl ?_)
theorem hostOps6_fresh : (hostOps6 : List (HloOp τ sig (Elt F))).Forall fun op => op.fresh = ∅ := by
  repeat (first | exact fresh_nil | refine fresh_cons rfl ?_)

/-- The results of `hostOps7`'s 23 operations, in order. -/
abbrev hostOps7_W : List (Ref sig .tc) :=
  [main_v235, main_v236, main_v237, main_v238, main_v239, main_v240, main_cst_55, main_v241, main_v242, main_cst_56, main_v243, main_v244, main_v245, main_v246, main_cst_57, main_v247, main_v248, main_v249, main_v250, main_v251, main_v252, main_v253, main_v254]
theorem hostOps7_writes : (hostOps7 : List (HloOp τ sig (Elt F))).Forall fun op =>
    op.writes ⊆ (hostOps7_W.map (Proc.devRef (τ := τ) .tc)).toFinset := by
  repeat (first | exact writes_nil | refine writes_cons rfl ?_)
theorem hostOps7_fresh : (hostOps7 : List (HloOp τ sig (Elt F))).Forall fun op => op.fresh = ∅ := by
  repeat (first | exact fresh_nil | refine fresh_cons rfl ?_)

/-- The results of `hostOps8`'s 9 operations, in order. -/
abbrev hostOps8_W : List (Ref sig .tc) :=
  [main_v256, main_v257, main_v258, main_v259, main_v260, main_v261, main_v262, main_v263, main_v264]
theorem hostOps8_writes : (hostOps8 : List (HloOp τ sig (Elt F))).Forall fun op =>
    op.writes ⊆ (hostOps8_W.map (Proc.devRef (τ := τ) .tc)).toFinset := by
  repeat (first | exact writes_nil | refine writes_cons rfl ?_)
theorem hostOps8_fresh : (hostOps8 : List (HloOp τ sig (Elt F))).Forall fun op => op.fresh = ∅ := by
  repeat (first | exact fresh_nil | refine fresh_cons rfl ?_)

/-- The results of `hostOps9`'s 23 operations, in order. -/
abbrev hostOps9_W : List (Ref sig .tc) :=
  [main_v266, main_v267, main_v268, main_v269, main_v270, main_v271, main_cst_58, main_v272, main_v273, main_cst_59, main_v274, main_v275, main_v276, main_v277, main_cst_60, main_v278, main_v279, main_v280, main_v281, main_v282, main_v283, main_v284, main_v285]
theorem hostOps9_writes : (hostOps9 : List (HloOp τ sig (Elt F))).Forall fun op =>
    op.writes ⊆ (hostOps9_W.map (Proc.devRef (τ := τ) .tc)).toFinset := by
  repeat (first | exact writes_nil | refine writes_cons rfl ?_)
theorem hostOps9_fresh : (hostOps9 : List (HloOp τ sig (Elt F))).Forall fun op => op.fresh = ∅ := by
  repeat (first | exact fresh_nil | refine fresh_cons rfl ?_)

/-- The results of `hostOps10`'s 9 operations, in order. -/
abbrev hostOps10_W : List (Ref sig .tc) :=
  [main_v287, main_v288, main_v289, main_v290, main_v291, main_v292, main_v293, main_v294, main_v295]
theorem hostOps10_writes : (hostOps10 : List (HloOp τ sig (Elt F))).Forall fun op =>
    op.writes ⊆ (hostOps10_W.map (Proc.devRef (τ := τ) .tc)).toFinset := by
  repeat (first | exact writes_nil | refine writes_cons rfl ?_)
theorem hostOps10_fresh : (hostOps10 : List (HloOp τ sig (Elt F))).Forall fun op => op.fresh = ∅ := by
  repeat (first | exact fresh_nil | refine fresh_cons rfl ?_)

/-- The results of `hostOps11`'s 23 operations, in order. -/
abbrev hostOps11_W : List (Ref sig .tc) :=
  [main_v297, main_v298, main_v299, main_v300, main_v301, main_v302, main_cst_61, main_v303, main_v304, main_cst_62, main_v305, main_v306, main_v307, main_v308, main_cst_63, main_v309, main_v310, main_v311, main_v312, main_v313, main_v314, main_v315, main_v316]
theorem hostOps11_writes : (hostOps11 : List (HloOp τ sig (Elt F))).Forall fun op =>
    op.writes ⊆ (hostOps11_W.map (Proc.devRef (τ := τ) .tc)).toFinset := by
  repeat (first | exact writes_nil | refine writes_cons rfl ?_)
theorem hostOps11_fresh : (hostOps11 : List (HloOp τ sig (Elt F))).Forall fun op => op.fresh = ∅ := by
  repeat (first | exact fresh_nil | refine fresh_cons rfl ?_)

/-- The results of `hostOps12`'s 123 operations, in order. -/
abbrev hostOps12_W : List (Ref sig .tc) :=
  [main_c_64, main_v318, main_v319, main_c_65, main_v320, main_v321, main_v322, main_v323, main_v324, main_cst_66, main_v325, main_v326, main_v327, main_v328, main_v329, main_v330, main_c_67, main_v331, main_v332, main_c_68, main_v333, main_v334, main_v335, main_v336, main_v337, main_cst_69, main_v338, main_v339, main_v340, main_v341, main_v342, main_v343, main_c_70, main_v344, main_v345, main_c_71, main_v346, main_v347, main_v348, main_v349, main_v350, main_cst_72, main_v351, main_v352, main_v353, main_v354, main_v355, main_v356, main_c_73, main_v357, main_v358, main_c_74, main_v359, main_v360, main_v361, main_v362, main_v363, main_cst_75, main_v364, main_v365, main_v366, main_v367, main_v368, main_v369, main_c_76, main_v370, main_v371, main_c_77, main_v372, main_v373, main_v374, main_v375, main_v376, main_cst_78, main_v377, main_v378, main_v379, main_v380, main_v381, main_v382, main_c_79, main_v383, main_v384, main_c_80, main_v385, main_v386, main_v387, main_v388, main_v389, main_cst_81, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422]
set_option maxHeartbeats 4000000 in
theorem hostOps12_writes : (hostOps12 : List (HloOp τ sig (Elt F))).Forall fun op =>
    op.writes ⊆ (hostOps12_W.map (Proc.devRef (τ := τ) .tc)).toFinset := by
  repeat (first | exact writes_nil | refine writes_cons rfl ?_)
set_option maxHeartbeats 4000000 in
theorem hostOps12_fresh : (hostOps12 : List (HloOp τ sig (Elt F))).Forall fun op => op.fresh = ∅ := by
  repeat (first | exact fresh_nil | refine fresh_cons rfl ?_)

/-- The results of `hostOps13`'s 25 operations, in order. -/
abbrev hostOps13_W : List (Ref sig .tc) :=
  [main_cst_82, main_v424, main_cst_83, main_v425, main_v426, main_v427, main_v428, main_v429, main_cst_84, main_v430, main_v431, main_cst_85, main_v432, main_v433, main_v434, main_v435, main_cst_86, main_v436, main_v437, main_v438, main_v439, main_v440, main_v441, main_v442, main_v443]
theorem hostOps13_writes : (hostOps13 : List (HloOp τ sig (Elt F))).Forall fun op =>
    op.writes ⊆ (hostOps13_W.map (Proc.devRef (τ := τ) .tc)).toFinset := by
  repeat (first | exact writes_nil | refine writes_cons rfl ?_)
theorem hostOps13_fresh : (hostOps13 : List (HloOp τ sig (Elt F))).Forall fun op => op.fresh = ∅ := by
  repeat (first | exact fresh_nil | refine fresh_cons rfl ?_)

/-- The results of `hostOps14`'s 9 operations, in order. -/
abbrev hostOps14_W : List (Ref sig .tc) :=
  [main_v445, main_v446, main_v447, main_v448, main_v449, main_v450, main_v451, main_v452, main_v453]
theorem hostOps14_writes : (hostOps14 : List (HloOp τ sig (Elt F))).Forall fun op =>
    op.writes ⊆ (hostOps14_W.map (Proc.devRef (τ := τ) .tc)).toFinset := by
  repeat (first | exact writes_nil | refine writes_cons rfl ?_)
theorem hostOps14_fresh : (hostOps14 : List (HloOp τ sig (Elt F))).Forall fun op => op.fresh = ∅ := by
  repeat (first | exact fresh_nil | refine fresh_cons rfl ?_)

/-- The results of `hostOps15`'s 23 operations, in order. -/
abbrev hostOps15_W : List (Ref sig .tc) :=
  [main_v455, main_v456, main_v457, main_v458, main_v459, main_v460, main_cst_87, main_v461, main_v462, main_cst_88, main_v463, main_v464, main_v465, main_v466, main_cst_89, main_v467, main_v468, main_v469, main_v470, main_v471, main_v472, main_v473, main_v474]
theorem hostOps15_writes : (hostOps15 : List (HloOp τ sig (Elt F))).Forall fun op =>
    op.writes ⊆ (hostOps15_W.map (Proc.devRef (τ := τ) .tc)).toFinset := by
  repeat (first | exact writes_nil | refine writes_cons rfl ?_)
theorem hostOps15_fresh : (hostOps15 : List (HloOp τ sig (Elt F))).Forall fun op => op.fresh = ∅ := by
  repeat (first | exact fresh_nil | refine fresh_cons rfl ?_)

/-- The results of `hostOps16`'s 9 operations, in order. -/
abbrev hostOps16_W : List (Ref sig .tc) :=
  [main_v476, main_v477, main_v478, main_v479, main_v480, main_v481, main_v482, main_v483, main_v484]
theorem hostOps16_writes : (hostOps16 : List (HloOp τ sig (Elt F))).Forall fun op =>
    op.writes ⊆ (hostOps16_W.map (Proc.devRef (τ := τ) .tc)).toFinset := by
  repeat (first | exact writes_nil | refine writes_cons rfl ?_)
theorem hostOps16_fresh : (hostOps16 : List (HloOp τ sig (Elt F))).Forall fun op => op.fresh = ∅ := by
  repeat (first | exact fresh_nil | refine fresh_cons rfl ?_)

/-- The results of `hostOps17`'s 23 operations, in order. -/
abbrev hostOps17_W : List (Ref sig .tc) :=
  [main_v486, main_v487, main_v488, main_v489, main_v490, main_v491, main_cst_90, main_v492, main_v493, main_cst_91, main_v494, main_v495, main_v496, main_v497, main_cst_92, main_v498, main_v499, main_v500, main_v501, main_v502, main_v503, main_v504, main_v505]
theorem hostOps17_writes : (hostOps17 : List (HloOp τ sig (Elt F))).Forall fun op =>
    op.writes ⊆ (hostOps17_W.map (Proc.devRef (τ := τ) .tc)).toFinset := by
  repeat (first | exact writes_nil | refine writes_cons rfl ?_)
theorem hostOps17_fresh : (hostOps17 : List (HloOp τ sig (Elt F))).Forall fun op => op.fresh = ∅ := by
  repeat (first | exact fresh_nil | refine fresh_cons rfl ?_)

/-- The results of `hostOps18`'s 9 operations, in order. -/
abbrev hostOps18_W : List (Ref sig .tc) :=
  [main_v507, main_v508, main_v509, main_v510, main_v511, main_v512, main_v513, main_v514, main_v515]
theorem hostOps18_writes : (hostOps18 : List (HloOp τ sig (Elt F))).Forall fun op =>
    op.writes ⊆ (hostOps18_W.map (Proc.devRef (τ := τ) .tc)).toFinset := by
  repeat (first | exact writes_nil | refine writes_cons rfl ?_)
theorem hostOps18_fresh : (hostOps18 : List (HloOp τ sig (Elt F))).Forall fun op => op.fresh = ∅ := by
  repeat (first | exact fresh_nil | refine fresh_cons rfl ?_)

/-- The results of `hostOps19`'s 23 operations, in order. -/
abbrev hostOps19_W : List (Ref sig .tc) :=
  [main_v517, main_v518, main_v519, main_v520, main_v521, main_v522, main_cst_93, main_v523, main_v524, main_cst_94, main_v525, main_v526, main_v527, main_v528, main_cst_95, main_v529, main_v530, main_v531, main_v532, main_v533, main_v534, main_v535, main_v536]
theorem hostOps19_writes : (hostOps19 : List (HloOp τ sig (Elt F))).Forall fun op =>
    op.writes ⊆ (hostOps19_W.map (Proc.devRef (τ := τ) .tc)).toFinset := by
  repeat (first | exact writes_nil | refine writes_cons rfl ?_)
theorem hostOps19_fresh : (hostOps19 : List (HloOp τ sig (Elt F))).Forall fun op => op.fresh = ∅ := by
  repeat (first | exact fresh_nil | refine fresh_cons rfl ?_)

/-- The results of `hostOps20`'s 1 operation, in order. -/
abbrev hostOps20_W : List (Ref sig .tc) :=
  [main_v538]
theorem hostOps20_writes : (hostOps20 : List (HloOp τ sig (Elt F))).Forall fun op =>
    op.writes ⊆ (hostOps20_W.map (Proc.devRef (τ := τ) .tc)).toFinset := by
  repeat (first | exact writes_nil | refine writes_cons rfl ?_)
theorem hostOps20_fresh : (hostOps20 : List (HloOp τ sig (Elt F))).Forall fun op => op.fresh = ∅ := by
  repeat (first | exact fresh_nil | refine fresh_cons rfl ?_)

end Cert.Kernel.Hand

end
-- ==== Proof.KB.Args.lean ====
/- Every argument array reaches the return as launched. One fact per item of @main: a host stretch leaves a
   reference outside the list of its results as it was; a region leaves a reference as it was unless that
   reference is the array of one of its OUTPUT windows (an input window's array is never written back, and a
   reference that is no window's array bypasses the region). A reference that passes all 40 tests holds at the
   return what the launch memory held, and each of the 23 arguments passes them, each test by evaluation. -/
import proofs.«424088_j28020366639260_2_alg».proof.Proof.KB.Fold
import proofs.«424088_j28020366639260_2_alg».proof.Proof.KB.HostWrites

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Item 1 (`hostOps0`) leaves a reference that is none of its results as it was. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- Item 2 (region 0) leaves a reference as it was unless it is an output window's array. -/
theorem Wexit0_keep (c : Dev nD) (r : Ref sig .tc)
    (h : ∀ w : Fin cfg0.W, Pipeline.arrRef spec0 w = r → (cfg0.win w).isOut = false) :
    W2 m ρ c (Proc.devRef .tc r) = W1 m ρ c (Proc.devRef .tc r) := by
  by_cases hw : ∃ w, Pipeline.arrRef spec0 w = r
  · obtain ⟨w, rfl⟩ := hw
    exact (Wexit0_arr m ρ c w).trans (((dat0 (VE0 m ρ) c).arrAt_in w (h w rfl) _).trans (A_eq0 (VE0 m ρ) c w))
  · exact Wexit0_of_ne m ρ c r fun w e => hw ⟨w, e⟩

/-- Item 3 (`hostOps1`) leaves a reference that is none of its results as it was. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- Item 4 (region 1) leaves a reference as it was unless it is an output window's array. -/
theorem Wexit1_keep (c : Dev nD) (r : Ref sig .tc)
    (h : ∀ w : Fin cfg1.W, Pipeline.arrRef spec1 w = r → (cfg1.win w).isOut = false) :
    W4 m ρ c (Proc.devRef .tc r) = W3 m ρ c (Proc.devRef .tc r) := by
  by_cases hw : ∃ w, Pipeline.arrRef spec1 w = r
  · obtain ⟨w, rfl⟩ := hw
    exact (Wexit1_arr m ρ c w).trans (((dat1 (VE1 m ρ) c).arrAt_in w (h w rfl) _).trans (A_eq1 (VE1 m ρ) c w))
  · exact Wexit1_of_ne m ρ c r fun w e => hw ⟨w, e⟩

/-- Item 5 (`hostOps2`) leaves a reference that is none of its results as it was. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- Item 6 (region 2) leaves a reference as it was unless it is an output window's array. -/
theorem Wexit2_keep (c : Dev nD) (r : Ref sig .tc)
    (h : ∀ w : Fin cfg2.W, Pipeline.arrRef spec2 w = r → (cfg2.win w).isOut = false) :
    W6 m ρ c (Proc.devRef .tc r) = W5 m ρ c (Proc.devRef .tc r) := by
  by_cases hw : ∃ w, Pipeline.arrRef spec2 w = r
  · obtain ⟨w, rfl⟩ := hw
    exact (Wexit2_arr m ρ c w).trans (((dat2 (VE2 m ρ) c).arrAt_in w (h w rfl) _).trans (A_eq2 (VE2 m ρ) c w))
  · exact Wexit2_of_ne m ρ c r fun w e => hw ⟨w, e⟩

/-- Item 7 (region 3) leaves a reference as it was unless it is an output window's array. -/
theorem Wexit3_keep (c : Dev nD) (r : Ref sig .tc)
    (h : ∀ w : Fin cfg3.W, Pipeline.arrRef spec3 w = r → (cfg3.win w).isOut = false) :
    W7 m ρ c (Proc.devRef .tc r) = W6 m ρ c (Proc.devRef .tc r) := by
  by_cases hw : ∃ w, Pipeline.arrRef spec3 w = r
  · obtain ⟨w, rfl⟩ := hw
    exact (Wexit3_arr m ρ c w).trans (((dat3 (VE3 m ρ) c).arrAt_in w (h w rfl) _).trans (A_eq3 (VE3 m ρ) c w))
  · exact Wexit3_of_ne m ρ c r fun w e => hw ⟨w, e⟩

/-- Item 8 (`hostOps4`) leaves a reference that is none of its results as it was. -/
theorem W8_of (c : Dev nD) (r : Ref sig .tc) (h : r ∉ hostOps4_W) :
    W8 m ρ c (Proc.devRef .tc r) = W7 m ρ c (Proc.devRef .tc r) :=
  StableHlo.after_of_writes_sub hostOps4 _ hostOps4_writes h

/-- Item 9 (region 4) leaves a reference as it was unless it is an output window's array. -/
theorem Wexit4_keep (c : Dev nD) (r : Ref sig .tc)
    (h : ∀ w : Fin cfg4.W, Pipeline.arrRef spec4 w = r → (cfg4.win w).isOut = false) :
    W9 m ρ c (Proc.devRef .tc r) = W8 m ρ c (Proc.devRef .tc r) := by
  by_cases hw : ∃ w, Pipeline.arrRef spec4 w = r
  · obtain ⟨w, rfl⟩ := hw
    exact (Wexit4_arr m ρ c w).trans (((dat4 (VE4 m ρ) c).arrAt_in w (h w rfl) _).trans (A_eq4 (VE4 m ρ) c w))
  · exact Wexit4_of_ne m ρ c r fun w e => hw ⟨w, e⟩

/-- Item 10 (`hostOps5`) leaves a reference that is none of its results as it was. -/
theorem W10_of (c : Dev nD) (r : Ref sig .tc) (h : r ∉ hostOps5_W) :
    W10 m ρ c (Proc.devRef .tc r) = W9 m ρ c (Proc.devRef .tc r) :=
  StableHlo.after_of_writes_sub hostOps5 _ hostOps5_writes h

/-- Item 11 (region 5) leaves a reference as it was unless it is an output window's array. -/
theorem Wexit5_keep (c : Dev nD) (r : Ref sig .tc)
    (h : ∀ w : Fin cfg5.W, Pipeline.arrRef spec5 w = r → (cfg5.win w).isOut = false) :
    W11 m ρ c (Proc.devRef .tc r) = W10 m ρ c (Proc.devRef .tc r) := by
  by_cases hw : ∃ w, Pipeline.arrRef spec5 w = r
  · obtain ⟨w, rfl⟩ := hw
    exact (Wexit5_arr m ρ c w).trans (((dat5 (VE5 m ρ) c).arrAt_in w (h w rfl) _).trans (A_eq5 (VE5 m ρ) c w))
  · exact Wexit5_of_ne m ρ c r fun w e => hw ⟨w, e⟩

/-- Item 12 (`hostOps6`) leaves a reference that is none of its results as it was. -/
theorem W12_of (c : Dev nD) (r : Ref sig .tc) (h : r ∉ hostOps6_W) :
    W12 m ρ c (Proc.devRef .tc r) = W11 m ρ c (Proc.devRef .tc r) :=
  StableHlo.after_of_writes_sub hostOps6 _ hostOps6_writes h

/-- Item 13 (region 6) leaves a reference as it was unless it is an output window's array. -/
theorem Wexit6_keep (c : Dev nD) (r : Ref sig .tc)
    (h : ∀ w : Fin cfg6.W, Pipeline.arrRef spec6 w = r → (cfg6.win w).isOut = false) :
    W13 m ρ c (Proc.devRef .tc r) = W12 m ρ c (Proc.devRef .tc r) := by
  by_cases hw : ∃ w, Pipeline.arrRef spec6 w = r
  · obtain ⟨w, rfl⟩ := hw
    exact (Wexit6_arr m ρ c w).trans (((dat6 (VE6 m ρ) c).arrAt_in w (h w rfl) _).trans (A_eq6 (VE6 m ρ) c w))
  · exact Wexit6_of_ne m ρ c r fun w e => hw ⟨w, e⟩

/-- Item 14 (`hostOps7`) leaves a reference that is none of its results as it was. -/
theorem W14_of (c : Dev nD) (r : Ref sig .tc) (h : r ∉ hostOps7_W) :
    W14 m ρ c (Proc.devRef .tc r) = W13 m ρ c (Proc.devRef .tc r) :=
  StableHlo.after_of_writes_sub hostOps7 _ hostOps7_writes h

/-- Item 15 (region 7) leaves a reference as it was unless it is an output window's array. -/
theorem Wexit7_keep (c : Dev nD) (r : Ref sig .tc)
    (h : ∀ w : Fin cfg7.W, Pipeline.arrRef spec7 w = r → (cfg7.win w).isOut = false) :
    W15 m ρ c (Proc.devRef .tc r) = W14 m ρ c (Proc.devRef .tc r) := by
  by_cases hw : ∃ w, Pipeline.arrRef spec7 w = r
  · obtain ⟨w, rfl⟩ := hw
    exact (Wexit7_arr m ρ c w).trans (((dat7 (VE7 m ρ) c).arrAt_in w (h w rfl) _).trans (A_eq7 (VE7 m ρ) c w))
  · exact Wexit7_of_ne m ρ c r fun w e => hw ⟨w, e⟩

/-- Item 16 (`hostOps8`) leaves a reference that is none of its results as it was. -/
theorem W16_of (c : Dev nD) (r : Ref sig .tc) (h : r ∉ hostOps8_W) :
    W16 m ρ c (Proc.devRef .tc r) = W15 m ρ c (Proc.devRef .tc r) :=
  StableHlo.after_of_writes_sub hostOps8 _ hostOps8_writes h

/-- Item 17 (region 8) leaves a reference as it was unless it is an output window's array. -/
theorem Wexit8_keep (c : Dev nD) (r : Ref sig .tc)
    (h : ∀ w : Fin cfg8.W, Pipeline.arrRef spec8 w = r → (cfg8.win w).isOut = false) :
    W17 m ρ c (Proc.devRef .tc r) = W16 m ρ c (Proc.devRef .tc r) := by
  by_cases hw : ∃ w, Pipeline.arrRef spec8 w = r
  · obtain ⟨w, rfl⟩ := hw
    exact (Wexit8_arr m ρ c w).trans (((dat8 (VE8 m ρ) c).arrAt_in w (h w rfl) _).trans (A_eq8 (VE8 m ρ) c w))
  · exact Wexit8_of_ne m ρ c r fun w e => hw ⟨w, e⟩

/-- Item 18 (`hostOps9`) leaves a reference that is none of its results as it was. -/
theorem W18_of (c : Dev nD) (r : Ref sig .tc) (h : r ∉ hostOps9_W) :
    W18 m ρ c (Proc.devRef .tc r) = W17 m ρ c (Proc.devRef .tc r) :=
  StableHlo.after_of_writes_sub hostOps9 _ hostOps9_writes h

/-- Item 19 (region 9) leaves a reference as it was unless it is an output window's array. -/
theorem Wexit9_keep (c : Dev nD) (r : Ref sig .tc)
    (h : ∀ w : Fin cfg9.W, Pipeline.arrRef spec9 w = r → (cfg9.win w).isOut = false) :
    W19 m ρ c (Proc.devRef .tc r) = W18 m ρ c (Proc.devRef .tc r) := by
  by_cases hw : ∃ w, Pipeline.arrRef spec9 w = r
  · obtain ⟨w, rfl⟩ := hw
    exact (Wexit9_arr m ρ c w).trans (((dat9 (VE9 m ρ) c).arrAt_in w (h w rfl) _).trans (A_eq9 (VE9 m ρ) c w))
  · exact Wexit9_of_ne m ρ c r fun w e => hw ⟨w, e⟩

/-- Item 20 (`hostOps10`) leaves a reference that is none of its results as it was. -/
theorem W20_of (c : Dev nD) (r : Ref sig .tc) (h : r ∉ hostOps10_W) :
    W20 m ρ c (Proc.devRef .tc r) = W19 m ρ c (Proc.devRef .tc r) :=
  StableHlo.after_of_writes_sub hostOps10 _ hostOps10_writes h

/-- Item 21 (region 10) leaves a reference as it was unless it is an output window's array. -/
theorem Wexit10_keep (c : Dev nD) (r : Ref sig .tc)
    (h : ∀ w : Fin cfg10.W, Pipeline.arrRef spec10 w = r → (cfg10.win w).isOut = false) :
    W21 m ρ c (Proc.devRef .tc r) = W20 m ρ c (Proc.devRef .tc r) := by
  by_cases hw : ∃ w, Pipeline.arrRef spec10 w = r
  · obtain ⟨w, rfl⟩ := hw
    exact (Wexit10_arr m ρ c w).trans (((dat10 (VE10 m ρ) c).arrAt_in w (h w rfl) _).trans (A_eq10 (VE10 m ρ) c w))
  · exact Wexit10_of_ne m ρ c r fun w e => hw ⟨w, e⟩

/-- Item 22 (`hostOps11`) leaves a reference that is none of its results as it was. -/
theorem W22_of (c : Dev nD) (r : Ref sig .tc) (h : r ∉ hostOps11_W) :
    W22 m ρ c (Proc.devRef .tc r) = W21 m ρ c (Proc.devRef .tc r) :=
  StableHlo.after_of_writes_sub hostOps11 _ hostOps11_writes h

/-- Item 23 (region 11) leaves a reference as it was unless it is an output window's array. -/
theorem Wexit11_keep (c : Dev nD) (r : Ref sig .tc)
    (h : ∀ w : Fin cfg11.W, Pipeline.arrRef spec11 w = r → (cfg11.win w).isOut = false) :
    W23 m ρ c (Proc.devRef .tc r) = W22 m ρ c (Proc.devRef .tc r) := by
  by_cases hw : ∃ w, Pipeline.arrRef spec11 w = r
  · obtain ⟨w, rfl⟩ := hw
    exact (Wexit11_arr m ρ c w).trans (((dat11 (VE11 m ρ) c).arrAt_in w (h w rfl) _).trans (A_eq11 (VE11 m ρ) c w))
  · exact Wexit11_of_ne m ρ c r fun w e => hw ⟨w, e⟩

/-- Item 24 (`hostOps12`) leaves a reference that is none of its results as it was. -/
theorem W24_of (c : Dev nD) (r : Ref sig .tc) (h : r ∉ hostOps12_W) :
    W24 m ρ c (Proc.devRef .tc r) = W23 m ρ c (Proc.devRef .tc r) :=
  StableHlo.after_of_writes_sub hostOps12 _ hostOps12_writes h

/-- Item 25 (region 12) leaves a reference as it was unless it is an output window's array. -/
theorem Wexit12_keep (c : Dev nD) (r : Ref sig .tc)
    (h : ∀ w : Fin cfg12.W, Pipeline.arrRef spec12 w = r → (cfg12.win w).isOut = false) :
    W25 m ρ c (Proc.devRef .tc r) = W24 m ρ c (Proc.devRef .tc r) := by
  by_cases hw : ∃ w, Pipeline.arrRef spec12 w = r
  · obtain ⟨w, rfl⟩ := hw
    exact (Wexit12_arr m ρ c w).trans (((dat12 (VE12 m ρ) c).arrAt_in w (h w rfl) _).trans (A_eq12 (VE12 m ρ) c w))
  · exact Wexit12_of_ne m ρ c r fun w e => hw ⟨w, e⟩

/-- Item 26 (`hostOps13`) leaves a reference that is none of its results as it was. -/
theorem W26_of (c : Dev nD) (r : Ref sig .tc) (h : r ∉ hostOps13_W) :
    W26 m ρ c (Proc.devRef .tc r) = W25 m ρ c (Proc.devRef .tc r) :=
  StableHlo.after_of_writes_sub hostOps13 _ hostOps13_writes h

/-- Item 27 (region 13) leaves a reference as it was unless it is an output window's array. -/
theorem Wexit13_keep (c : Dev nD) (r : Ref sig .tc)
    (h : ∀ w : Fin cfg13.W, Pipeline.arrRef spec13 w = r → (cfg13.win w).isOut = false) :
    W27 m ρ c (Proc.devRef .tc r) = W26 m ρ c (Proc.devRef .tc r) := by
  by_cases hw : ∃ w, Pipeline.arrRef spec13 w = r
  · obtain ⟨w, rfl⟩ := hw
    exact (Wexit13_arr m ρ c w).trans (((dat13 (VE13 m ρ) c).arrAt_in w (h w rfl) _).trans (A_eq13 (VE13 m ρ) c w))
  · exact Wexit13_of_ne m ρ c r fun w e => hw ⟨w, e⟩

/-- Item 28 (`hostOps14`) leaves a reference that is none of its results as it was. -/
theorem W28_of (c : Dev nD) (r : Ref sig .tc) (h : r ∉ hostOps14_W) :
    W28 m ρ c (Proc.devRef .tc r) = W27 m ρ c (Proc.devRef .tc r) :=
  StableHlo.after_of_writes_sub hostOps14 _ hostOps14_writes h

/-- Item 29 (region 14) leaves a reference as it was unless it is an output window's array. -/
theorem Wexit14_keep (c : Dev nD) (r : Ref sig .tc)
    (h : ∀ w : Fin cfg14.W, Pipeline.arrRef spec14 w = r → (cfg14.win w).isOut = false) :
    W29 m ρ c (Proc.devRef .tc r) = W28 m ρ c (Proc.devRef .tc r) := by
  by_cases hw : ∃ w, Pipeline.arrRef spec14 w = r
  · obtain ⟨w, rfl⟩ := hw
    exact (Wexit14_arr m ρ c w).trans (((dat14 (VE14 m ρ) c).arrAt_in w (h w rfl) _).trans (A_eq14 (VE14 m ρ) c w))
  · exact Wexit14_of_ne m ρ c r fun w e => hw ⟨w, e⟩

/-- Item 30 (`hostOps15`) leaves a reference that is none of its results as it was. -/
theorem W30_of (c : Dev nD) (r : Ref sig .tc) (h : r ∉ hostOps15_W) :
    W30 m ρ c (Proc.devRef .tc r) = W29 m ρ c (Proc.devRef .tc r) :=
  StableHlo.after_of_writes_sub hostOps15 _ hostOps15_writes h

/-- Item 31 (region 15) leaves a reference as it was unless it is an output window's array. -/
theorem Wexit15_keep (c : Dev nD) (r : Ref sig .tc)
    (h : ∀ w : Fin cfg15.W, Pipeline.arrRef spec15 w = r → (cfg15.win w).isOut = false) :
    W31 m ρ c (Proc.devRef .tc r) = W30 m ρ c (Proc.devRef .tc r) := by
  by_cases hw : ∃ w, Pipeline.arrRef spec15 w = r
  · obtain ⟨w, rfl⟩ := hw
    exact (Wexit15_arr m ρ c w).trans (((dat15 (VE15 m ρ) c).arrAt_in w (h w rfl) _).trans (A_eq15 (VE15 m ρ) c w))
  · exact Wexit15_of_ne m ρ c r fun w e => hw ⟨w, e⟩

/-- Item 32 (`hostOps16`) leaves a reference that is none of its results as it was. -/
theorem W32_of (c : Dev nD) (r : Ref sig .tc) (h : r ∉ hostOps16_W) :
    W32 m ρ c (Proc.devRef .tc r) = W31 m ρ c (Proc.devRef .tc r) :=
  StableHlo.after_of_writes_sub hostOps16 _ hostOps16_writes h

/-- Item 33 (region 16) leaves a reference as it was unless it is an output window's array. -/
theorem Wexit16_keep (c : Dev nD) (r : Ref sig .tc)
    (h : ∀ w : Fin cfg16.W, Pipeline.arrRef spec16 w = r → (cfg16.win w).isOut = false) :
    W33 m ρ c (Proc.devRef .tc r) = W32 m ρ c (Proc.devRef .tc r) := by
  by_cases hw : ∃ w, Pipeline.arrRef spec16 w = r
  · obtain ⟨w, rfl⟩ := hw
    exact (Wexit16_arr m ρ c w).trans (((dat16 (VE16 m ρ) c).arrAt_in w (h w rfl) _).trans (A_eq16 (VE16 m ρ) c w))
  · exact Wexit16_of_ne m ρ c r fun w e => hw ⟨w, e⟩

/-- Item 34 (`hostOps17`) leaves a reference that is none of its results as it was. -/
theorem W34_of (c : Dev nD) (r : Ref sig .tc) (h : r ∉ hostOps17_W) :
    W34 m ρ c (Proc.devRef .tc r) = W33 m ρ c (Proc.devRef .tc r) :=
  StableHlo.after_of_writes_sub hostOps17 _ hostOps17_writes h

/-- Item 35 (region 17) leaves a reference as it was unless it is an output window's array. -/
theorem Wexit17_keep (c : Dev nD) (r : Ref sig .tc)
    (h : ∀ w : Fin cfg17.W, Pipeline.arrRef spec17 w = r → (cfg17.win w).isOut = false) :
    W35 m ρ c (Proc.devRef .tc r) = W34 m ρ c (Proc.devRef .tc r) := by
  by_cases hw : ∃ w, Pipeline.arrRef spec17 w = r
  · obtain ⟨w, rfl⟩ := hw
    exact (Wexit17_arr m ρ c w).trans (((dat17 (VE17 m ρ) c).arrAt_in w (h w rfl) _).trans (A_eq17 (VE17 m ρ) c w))
  · exact Wexit17_of_ne m ρ c r fun w e => hw ⟨w, e⟩

/-- Item 36 (`hostOps18`) leaves a reference that is none of its results as it was. -/
theorem W36_of (c : Dev nD) (r : Ref sig .tc) (h : r ∉ hostOps18_W) :
    W36 m ρ c (Proc.devRef .tc r) = W35 m ρ c (Proc.devRef .tc r) :=
  StableHlo.after_of_writes_sub hostOps18 _ hostOps18_writes h

/-- Item 37 (region 18) leaves a reference as it was unless it is an output window's array. -/
theorem Wexit18_keep (c : Dev nD) (r : Ref sig .tc)
    (h : ∀ w : Fin cfg18.W, Pipeline.arrRef spec18 w = r → (cfg18.win w).isOut = false) :
    W37 m ρ c (Proc.devRef .tc r) = W36 m ρ c (Proc.devRef .tc r) := by
  by_cases hw : ∃ w, Pipeline.arrRef spec18 w = r
  · obtain ⟨w, rfl⟩ := hw
    exact (Wexit18_arr m ρ c w).trans (((dat18 (VE18 m ρ) c).arrAt_in w (h w rfl) _).trans (A_eq18 (VE18 m ρ) c w))
  · exact Wexit18_of_ne m ρ c r fun w e => hw ⟨w, e⟩

/-- Item 38 (`hostOps19`) leaves a reference that is none of its results as it was. -/
theorem W38_of (c : Dev nD) (r : Ref sig .tc) (h : r ∉ hostOps19_W) :
    W38 m ρ c (Proc.devRef .tc r) = W37 m ρ c (Proc.devRef .tc r) :=
  StableHlo.after_of_writes_sub hostOps19 _ hostOps19_writes h

/-- Item 39 (region 19) leaves a reference as it was unless it is an output window's array. -/
theorem Wexit19_keep (c : Dev nD) (r : Ref sig .tc)
    (h : ∀ w : Fin cfg19.W, Pipeline.arrRef spec19 w = r → (cfg19.win w).isOut = false) :
    W39 m ρ c (Proc.devRef .tc r) = W38 m ρ c (Proc.devRef .tc r) := by
  by_cases hw : ∃ w, Pipeline.arrRef spec19 w = r
  · obtain ⟨w, rfl⟩ := hw
    exact (Wexit19_arr m ρ c w).trans (((dat19 (VE19 m ρ) c).arrAt_in w (h w rfl) _).trans (A_eq19 (VE19 m ρ) c w))
  · exact Wexit19_of_ne m ρ c r fun w e => hw ⟨w, e⟩

/-- Item 40 (`hostOps20`) leaves a reference that is none of its results as it was. -/
theorem W40_of (c : Dev nD) (r : Ref sig .tc) (h : r ∉ hostOps20_W) :
    W40 m ρ c (Proc.devRef .tc r) = W39 m ρ c (Proc.devRef .tc r) :=
  StableHlo.after_of_writes_sub hostOps20 _ hostOps20_writes h

/-- No item of @main writes `r`: the 40 tests, in the items' order. -/
abbrev Untouched (r : Ref sig .tc) : Prop :=
  r ∉ hostOps0_W
  ∧ (∀ w : Fin cfg0.W, Pipeline.arrRef spec0 w = r → (cfg0.win w).isOut = false)
  ∧ r ∉ hostOps1_W
  ∧ (∀ w : Fin cfg1.W, Pipeline.arrRef spec1 w = r → (cfg1.win w).isOut = false)
  ∧ r ∉ hostOps2_W
  ∧ (∀ w : Fin cfg2.W, Pipeline.arrRef spec2 w = r → (cfg2.win w).isOut = false)
  ∧ (∀ w : Fin cfg3.W, Pipeline.arrRef spec3 w = r → (cfg3.win w).isOut = false)
  ∧ r ∉ hostOps4_W
  ∧ (∀ w : Fin cfg4.W, Pipeline.arrRef spec4 w = r → (cfg4.win w).isOut = false)
  ∧ r ∉ hostOps5_W
  ∧ (∀ w : Fin cfg5.W, Pipeline.arrRef spec5 w = r → (cfg5.win w).isOut = false)
  ∧ r ∉ hostOps6_W
  ∧ (∀ w : Fin cfg6.W, Pipeline.arrRef spec6 w = r → (cfg6.win w).isOut = false)
  ∧ r ∉ hostOps7_W
  ∧ (∀ w : Fin cfg7.W, Pipeline.arrRef spec7 w = r → (cfg7.win w).isOut = false)
  ∧ r ∉ hostOps8_W
  ∧ (∀ w : Fin cfg8.W, Pipeline.arrRef spec8 w = r → (cfg8.win w).isOut = false)
  ∧ r ∉ hostOps9_W
  ∧ (∀ w : Fin cfg9.W, Pipeline.arrRef spec9 w = r → (cfg9.win w).isOut = false)
  ∧ r ∉ hostOps10_W
  ∧ (∀ w : Fin cfg10.W, Pipeline.arrRef spec10 w = r → (cfg10.win w).isOut = false)
  ∧ r ∉ hostOps11_W
  ∧ (∀ w : Fin cfg11.W, Pipeline.arrRef spec11 w = r → (cfg11.win w).isOut = false)
  ∧ r ∉ hostOps12_W
  ∧ (∀ w : Fin cfg12.W, Pipeline.arrRef spec12 w = r → (cfg12.win w).isOut = false)
  ∧ r ∉ hostOps13_W
  ∧ (∀ w : Fin cfg13.W, Pipeline.arrRef spec13 w = r → (cfg13.win w).isOut = false)
  ∧ r ∉ hostOps14_W
  ∧ (∀ w : Fin cfg14.W, Pipeline.arrRef spec14 w = r → (cfg14.win w).isOut = false)
  ∧ r ∉ hostOps15_W
  ∧ (∀ w : Fin cfg15.W, Pipeline.arrRef spec15 w = r → (cfg15.win w).isOut = false)
  ∧ r ∉ hostOps16_W
  ∧ (∀ w : Fin cfg16.W, Pipeline.arrRef spec16 w = r → (cfg16.win w).isOut = false)
  ∧ r ∉ hostOps17_W
  ∧ (∀ w : Fin cfg17.W, Pipeline.arrRef spec17 w = r → (cfg17.win w).isOut = false)
  ∧ r ∉ hostOps18_W
  ∧ (∀ w : Fin cfg18.W, Pipeline.arrRef spec18 w = r → (cfg18.win w).isOut = false)
  ∧ r ∉ hostOps19_W
  ∧ (∀ w : Fin cfg19.W, Pipeline.arrRef spec19 w = r → (cfg19.win w).isOut = false)
  ∧ r ∉ hostOps20_W

/-- A reference no item writes holds at the return what the launch memory held. -/
theorem W40_of_untouched (c : Dev nD) (r : Ref sig .tc) (h : Untouched r) :
    W40 m ρ c (Proc.devRef .tc r) = m ((c : Thread nD τ).loc r) := by
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40⟩ := h
  exact (W40_of m ρ c r h40).trans <|
    (Wexit19_keep m ρ c r h39).trans <|
    (W38_of m ρ c r h38).trans <|
    (Wexit18_keep m ρ c r h37).trans <|
    (W36_of m ρ c r h36).trans <|
    (Wexit17_keep m ρ c r h35).trans <|
    (W34_of m ρ c r h34).trans <|
    (Wexit16_keep m ρ c r h33).trans <|
    (W32_of m ρ c r h32).trans <|
    (Wexit15_keep m ρ c r h31).trans <|
    (W30_of m ρ c r h30).trans <|
    (Wexit14_keep m ρ c r h29).trans <|
    (W28_of m ρ c r h28).trans <|
    (Wexit13_keep m ρ c r h27).trans <|
    (W26_of m ρ c r h26).trans <|
    (Wexit12_keep m ρ c r h25).trans <|
    (W24_of m ρ c r h24).trans <|
    (Wexit11_keep m ρ c r h23).trans <|
    (W22_of m ρ c r h22).trans <|
    (Wexit10_keep m ρ c r h21).trans <|
    (W20_of m ρ c r h20).trans <|
    (Wexit9_keep m ρ c r h19).trans <|
    (W18_of m ρ c r h18).trans <|
    (Wexit8_keep m ρ c r h17).trans <|
    (W16_of m ρ c r h16).trans <|
    (Wexit7_keep m ρ c r h15).trans <|
    (W14_of m ρ c r h14).trans <|
    (Wexit6_keep m ρ c r h13).trans <|
    (W12_of m ρ c r h12).trans <|
    (Wexit5_keep m ρ c r h11).trans <|
    (W10_of m ρ c r h10).trans <|
    (Wexit4_keep m ρ c r h9).trans <|
    (W8_of m ρ c r h8).trans <|
    (Wexit3_keep m ρ c r h7).trans <|
    (Wexit2_keep m ρ c r h6).trans <|
    (W5_of m ρ c r h5).trans <|
    (Wexit1_keep m ρ c r h4).trans <|
    (W3_of m ρ c r h3).trans <|
    (Wexit0_keep m ρ c r h2).trans <|
    (W1_of m ρ c r h1).trans <| rfl

theorem untouched_main_arg0 : Untouched main_arg0 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg0 (c : Dev nD) : W40 m ρ c (Proc.devRef .tc main_arg0) = m ((c : Thread nD τ).loc main_arg0) :=
  W40_of_untouched m ρ c main_arg0 untouched_main_arg0

theorem untouched_main_arg1 : Untouched main_arg1 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg1 (c : Dev nD) : W40 m ρ c (Proc.devRef .tc main_arg1) = m ((c : Thread nD τ).loc main_arg1) :=
  W40_of_untouched m ρ c main_arg1 untouched_main_arg1

theorem untouched_main_arg2 : Untouched main_arg2 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg2 (c : Dev nD) : W40 m ρ c (Proc.devRef .tc main_arg2) = m ((c : Thread nD τ).loc main_arg2) :=
  W40_of_untouched m ρ c main_arg2 untouched_main_arg2

theorem untouched_main_arg3 : Untouched main_arg3 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg3 (c : Dev nD) : W40 m ρ c (Proc.devRef .tc main_arg3) = m ((c : Thread nD τ).loc main_arg3) :=
  W40_of_untouched m ρ c main_arg3 untouched_main_arg3

theorem untouched_main_arg4 : Untouched main_arg4 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg4 (c : Dev nD) : W40 m ρ c (Proc.devRef .tc main_arg4) = m ((c : Thread nD τ).loc main_arg4) :=
  W40_of_untouched m ρ c main_arg4 untouched_main_arg4

theorem untouched_main_arg5 : Untouched main_arg5 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg5 (c : Dev nD) : W40 m ρ c (Proc.devRef .tc main_arg5) = m ((c : Thread nD τ).loc main_arg5) :=
  W40_of_untouched m ρ c main_arg5 untouched_main_arg5

theorem untouched_main_arg6 : Untouched main_arg6 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg6 (c : Dev nD) : W40 m ρ c (Proc.devRef .tc main_arg6) = m ((c : Thread nD τ).loc main_arg6) :=
  W40_of_untouched m ρ c main_arg6 untouched_main_arg6

theorem untouched_main_arg7 : Untouched main_arg7 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg7 (c : Dev nD) : W40 m ρ c (Proc.devRef .tc main_arg7) = m ((c : Thread nD τ).loc main_arg7) :=
  W40_of_untouched m ρ c main_arg7 untouched_main_arg7

theorem untouched_main_arg8 : Untouched main_arg8 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg8 (c : Dev nD) : W40 m ρ c (Proc.devRef .tc main_arg8) = m ((c : Thread nD τ).loc main_arg8) :=
  W40_of_untouched m ρ c main_arg8 untouched_main_arg8

theorem untouched_main_arg9 : Untouched main_arg9 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg9 (c : Dev nD) : W40 m ρ c (Proc.devRef .tc main_arg9) = m ((c : Thread nD τ).loc main_arg9) :=
  W40_of_untouched m ρ c main_arg9 untouched_main_arg9

theorem untouched_main_arg10 : Untouched main_arg10 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg10 (c : Dev nD) : W40 m ρ c (Proc.devRef .tc main_arg10) = m ((c : Thread nD τ).loc main_arg10) :=
  W40_of_untouched m ρ c main_arg10 untouched_main_arg10

theorem untouched_main_arg11 : Untouched main_arg11 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg11 (c : Dev nD) : W40 m ρ c (Proc.devRef .tc main_arg11) = m ((c : Thread nD τ).loc main_arg11) :=
  W40_of_untouched m ρ c main_arg11 untouched_main_arg11

theorem untouched_main_arg12 : Untouched main_arg12 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg12 (c : Dev nD) : W40 m ρ c (Proc.devRef .tc main_arg12) = m ((c : Thread nD τ).loc main_arg12) :=
  W40_of_untouched m ρ c main_arg12 untouched_main_arg12

theorem untouched_main_arg13 : Untouched main_arg13 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg13 (c : Dev nD) : W40 m ρ c (Proc.devRef .tc main_arg13) = m ((c : Thread nD τ).loc main_arg13) :=
  W40_of_untouched m ρ c main_arg13 untouched_main_arg13

theorem untouched_main_arg14 : Untouched main_arg14 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg14 (c : Dev nD) : W40 m ρ c (Proc.devRef .tc main_arg14) = m ((c : Thread nD τ).loc main_arg14) :=
  W40_of_untouched m ρ c main_arg14 untouched_main_arg14

theorem untouched_main_arg15 : Untouched main_arg15 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg15 (c : Dev nD) : W40 m ρ c (Proc.devRef .tc main_arg15) = m ((c : Thread nD τ).loc main_arg15) :=
  W40_of_untouched m ρ c main_arg15 untouched_main_arg15

theorem untouched_main_arg16 : Untouched main_arg16 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg16 (c : Dev nD) : W40 m ρ c (Proc.devRef .tc main_arg16) = m ((c : Thread nD τ).loc main_arg16) :=
  W40_of_untouched m ρ c main_arg16 untouched_main_arg16

theorem untouched_main_arg17 : Untouched main_arg17 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg17 (c : Dev nD) : W40 m ρ c (Proc.devRef .tc main_arg17) = m ((c : Thread nD τ).loc main_arg17) :=
  W40_of_untouched m ρ c main_arg17 untouched_main_arg17

theorem untouched_main_arg18 : Untouched main_arg18 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg18 (c : Dev nD) : W40 m ρ c (Proc.devRef .tc main_arg18) = m ((c : Thread nD τ).loc main_arg18) :=
  W40_of_untouched m ρ c main_arg18 untouched_main_arg18

theorem untouched_main_arg19 : Untouched main_arg19 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg19 (c : Dev nD) : W40 m ρ c (Proc.devRef .tc main_arg19) = m ((c : Thread nD τ).loc main_arg19) :=
  W40_of_untouched m ρ c main_arg19 untouched_main_arg19

theorem untouched_main_arg20 : Untouched main_arg20 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg20 (c : Dev nD) : W40 m ρ c (Proc.devRef .tc main_arg20) = m ((c : Thread nD τ).loc main_arg20) :=
  W40_of_untouched m ρ c main_arg20 untouched_main_arg20

theorem untouched_main_arg21 : Untouched main_arg21 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg21 (c : Dev nD) : W40 m ρ c (Proc.devRef .tc main_arg21) = m ((c : Thread nD τ).loc main_arg21) :=
  W40_of_untouched m ρ c main_arg21 untouched_main_arg21

theorem untouched_main_arg22 : Untouched main_arg22 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg22 (c : Dev nD) : W40 m ρ c (Proc.devRef .tc main_arg22) = m ((c : Thread nD τ).loc main_arg22) :=
  W40_of_untouched m ρ c main_arg22 untouched_main_arg22

end Cert.Kernel.Hand

end
-- ==== Proof.KB.Pdats.lean ====
/- The proof data of all 20 pipelines, each at the contents its region is entered with, and the pieces of the
   thread state every segment of @main carries: every unscoped buffer held at the boundary's contents, the
   generator register at some state, nothing owed. -/
import proofs.«424088_j28020366639260_2_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table: the admissible contents are the trivial ones. -/
abbrev adm : (p : Fin 20) → (pcfgs (F := F) p).Adm := fun p => (cfgs p).toPCfg_adm

/-- Pipeline `p`'s proof data on core `c`, at region `p`'s entry contents. A literal match, so that the pinned
    configuration at a numeral reduces to the printed one. -/
def pdats : (p : Fin 20) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
  | ⟨8, _⟩ => fun c => dat8 (VE8 m ρ) c
  | ⟨9, _⟩ => fun c => dat9 (VE9 m ρ) c
  | ⟨10, _⟩ => fun c => dat10 (VE10 m ρ) c
  | ⟨11, _⟩ => fun c => dat11 (VE11 m ρ) c
  | ⟨12, _⟩ => fun c => dat12 (VE12 m ρ) c
  | ⟨13, _⟩ => fun c => dat13 (VE13 m ρ) c
  | ⟨14, _⟩ => fun c => dat14 (VE14 m ρ) c
  | ⟨15, _⟩ => fun c => dat15 (VE15 m ρ) c
  | ⟨16, _⟩ => fun c => dat16 (VE16 m ρ) c
  | ⟨17, _⟩ => fun c => dat17 (VE17 m ρ) c
  | ⟨18, _⟩ => fun c => dat18 (VE18 m ρ) c
  | ⟨19, _⟩ => fun c => dat19 (VE19 m ρ) c
  | ⟨_ + 20, h⟩ => absurd h (Nat.not_lt.2 (Nat.le_add_left _ _))

abbrev 𝒱₀ : Variants := Variants.none
/-- No core owes another anything, so no level is assigned. -/
abbrev L : GSem nD τ sig → Finset Unit := fun _ => ∅
abbrev lv : GSem nD τ sig → Unit → ℕ := fun _ _ => 0

/-- Beside the buffers: the core's generator register at some state, and the core owing nothing. -/
abbrev R (c : Dev nD) : sProp 𝕄 :=
  iprop((∃ r, prngReg c r) ∗ ∃ W, owes (c : Thread nD τ) (0 : CellTallies nD τ sig Unit) W)

/-- The thread state at a boundary whose contents are `W`. -/
abbrev St (W : Dev nD → Valuation τ sig (Elt F)) (c : Dev nD) : sProp 𝕄 :=
  iprop(StableHlo.held (c : Thread nD τ) (Pipeline.ucRefs τ sig) (W c) ∗ R c)

/-- A host stretch as a segment over the unscoped references, from the contents `W`; it leaves them at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the `owes`: every unscoped buffer at the return's contents, the generator
    register at some state. -/
abbrev Tₙ (c : Dev nD) : sProp 𝕄 :=
  iprop(StableHlo.held (c : Thread nD τ) (Pipeline.ucRefs τ sig) (W40 m ρ c) ∗ ∃ r, prngReg c r)

end Cert.Kernel.Hand

end
-- ==== Proof.KB.Reg0.lean ====
/- Region 0 of @main as a segment of the run. It is entered holding every unscoped buffer at the contents `W1`
   and left holding them at `W2`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 0 leaves, read at the TensorCore's references. -/
abbrev VX0 : (c : Dev nD) → (b : Ref sig .tc) → Buf (Elt F) ((c : Thread nD τ).loc b) := fun c b => W2 m ρ c b

/-- Each array of region 0 ends at the fold of its write-backs. -/
theorem exit_arr0 (c : Dev nD) (w : Fin cfg0.W) :
    (dat0 (VE0 m ρ) c).arrAt w cfg0.N = VX0 m ρ c (Pipeline.arrRef spec0 w) :=
  (Wexit0_arr m ρ c w).symm

/-- A reference that is no window's array ends as region 0 found it. -/
theorem exit_rest0 (c : Dev nD) (b : Ref sig .tc) (hb : b ∉ Finset.univ.image (Pipeline.arrRef spec0)) :
    VX0 m ρ c b = VE0 m ρ c b :=
  Wexit0_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    -- the unscoped buffers split into the windows' arrays and the rest; no table; the register to `X`
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 0 c).Φ 0 = Pipeline.ΦA spec0 c from rfl]
    unfold Pipeline.ΦA
    iintro ⟨Hprng, -, Hscoped⟩
    isplitl [Hscoped]; · iexact Hscoped
    iexact Hprng
  hout c := by
    rw [Pipeline.ownSems0_none, show (pdats m ρ 0 c).Φ (Fin.last _) = Pipeline.ΦA spec0 c from rfl]
    unfold Pipeline.ΦA
    iintro ⟨Hscoped, Hprng⟩
    isplitl [Hprng]; · iexact Hprng
    isplitr; · iempintro
    iexact Hscoped
  hexit c := by
    -- the arrays at their last contents and the rest make the unscoped buffers at `W2`
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (exit_arr0 m ρ c) (exit_rest0 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg1.lean ====
/- Region 1 of @main as a segment of the run. It is entered holding every unscoped buffer at the contents `W3`
   and left holding them at `W4`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 1 leaves, read at the TensorCore's references. -/
abbrev VX1 : (c : Dev nD) → (b : Ref sig .tc) → Buf (Elt F) ((c : Thread nD τ).loc b) := fun c b => W4 m ρ c b

/-- Each array of region 1 ends at the fold of its write-backs. -/
theorem exit_arr1 (c : Dev nD) (w : Fin cfg1.W) :
    (dat1 (VE1 m ρ) c).arrAt w cfg1.N = VX1 m ρ c (Pipeline.arrRef spec1 w) :=
  (Wexit1_arr m ρ c w).symm

/-- A reference that is no window's array ends as region 1 found it. -/
theorem exit_rest1 (c : Dev nD) (b : Ref sig .tc) (hb : b ∉ Finset.univ.image (Pipeline.arrRef spec1)) :
    VX1 m ρ c b = VE1 m ρ c b :=
  Wexit1_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    -- the unscoped buffers split into the windows' arrays and the rest; no table; the register to `X`
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 1 c).Φ 0 = Pipeline.ΦA spec1 c from rfl]
    unfold Pipeline.ΦA
    iintro ⟨Hprng, -, Hscoped⟩
    isplitl [Hscoped]; · iexact Hscoped
    iexact Hprng
  hout c := by
    rw [Pipeline.ownSems0_none, show (pdats m ρ 1 c).Φ (Fin.last _) = Pipeline.ΦA spec1 c from rfl]
    unfold Pipeline.ΦA
    iintro ⟨Hscoped, Hprng⟩
    isplitl [Hprng]; · iexact Hprng
    isplitr; · iempintro
    iexact Hscoped
  hexit c := by
    -- the arrays at their last contents and the rest make the unscoped buffers at `W4`
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (exit_arr1 m ρ c) (exit_rest1 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg2.lean ====
/- Region 2 of @main as a segment of the run. It is entered holding every unscoped buffer at the contents `W5`
   and left holding them at `W6`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 2 leaves, read at the TensorCore's references. -/
abbrev VX2 : (c : Dev nD) → (b : Ref sig .tc) → Buf (Elt F) ((c : Thread nD τ).loc b) := fun c b => W6 m ρ c b

/-- Each array of region 2 ends at the fold of its write-backs. -/
theorem exit_arr2 (c : Dev nD) (w : Fin cfg2.W) :
    (dat2 (VE2 m ρ) c).arrAt w cfg2.N = VX2 m ρ c (Pipeline.arrRef spec2 w) :=
  (Wexit2_arr m ρ c w).symm

/-- A reference that is no window's array ends as region 2 found it. -/
theorem exit_rest2 (c : Dev nD) (b : Ref sig .tc) (hb : b ∉ Finset.univ.image (Pipeline.arrRef spec2)) :
    VX2 m ρ c b = VE2 m ρ c b :=
  Wexit2_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 2 over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    -- the unscoped buffers split into the windows' arrays and the rest; no table; the register to `X`
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 2 c).Φ 0 = Pipeline.ΦA spec2 c from rfl]
    unfold Pipeline.ΦA
    iintro ⟨Hprng, -, Hscoped⟩
    isplitl [Hscoped]; · iexact Hscoped
    iexact Hprng
  hout c := by
    rw [Pipeline.ownSems0_none, show (pdats m ρ 2 c).Φ (Fin.last _) = Pipeline.ΦA spec2 c from rfl]
    unfold Pipeline.ΦA
    iintro ⟨Hscoped, Hprng⟩
    isplitl [Hprng]; · iexact Hprng
    isplitr; · iempintro
    iexact Hscoped
  hexit c := by
    -- the arrays at their last contents and the rest make the unscoped buffers at `W6`
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VE2 m ρ c) (VX2 m ρ c) ((pdats m ρ 2 c).arrAt · cfg2.N) (exit_arr2 m ρ c) (exit_rest2 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg3.lean ====
/- Region 3 of @main as a segment of the run. It is entered holding every unscoped buffer at the contents `W6`
   and left holding them at `W7`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 3 leaves, read at the TensorCore's references. -/
abbrev VX3 : (c : Dev nD) → (b : Ref sig .tc) → Buf (Elt F) ((c : Thread nD τ).loc b) := fun c b => W7 m ρ c b

/-- Each array of region 3 ends at the fold of its write-backs. -/
theorem exit_arr3 (c : Dev nD) (w : Fin cfg3.W) :
    (dat3 (VE3 m ρ) c).arrAt w cfg3.N = VX3 m ρ c (Pipeline.arrRef spec3 w) :=
  (Wexit3_arr m ρ c w).symm

/-- A reference that is no window's array ends as region 3 found it. -/
theorem exit_rest3 (c : Dev nD) (b : Ref sig .tc) (hb : b ∉ Finset.univ.image (Pipeline.arrRef spec3)) :
    VX3 m ρ c b = VE3 m ρ c b :=
  Wexit3_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 3 over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    -- the unscoped buffers split into the windows' arrays and the rest; no table; the register to `X`
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 3 c).Φ 0 = Pipeline.ΦA spec3 c from rfl]
    unfold Pipeline.ΦA
    iintro ⟨Hprng, -, Hscoped⟩
    isplitl [Hscoped]; · iexact Hscoped
    iexact Hprng
  hout c := by
    rw [Pipeline.ownSems0_none, show (pdats m ρ 3 c).Φ (Fin.last _) = Pipeline.ΦA spec3 c from rfl]
    unfold Pipeline.ΦA
    iintro ⟨Hscoped, Hprng⟩
    isplitl [Hprng]; · iexact Hprng
    isplitr; · iempintro
    iexact Hscoped
  hexit c := by
    -- the arrays at their last contents and the rest make the unscoped buffers at `W7`
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VE3 m ρ c) (VX3 m ρ c) ((pdats m ρ 3 c).arrAt · cfg3.N) (exit_arr3 m ρ c) (exit_rest3 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg4.lean ====
/- Region 4 of @main as a segment of the run. It is entered holding every unscoped buffer at the contents `W8`
   and left holding them at `W9`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 4 leaves, read at the TensorCore's references. -/
abbrev VX4 : (c : Dev nD) → (b : Ref sig .tc) → Buf (Elt F) ((c : Thread nD τ).loc b) := fun c b => W9 m ρ c b

/-- Each array of region 4 ends at the fold of its write-backs. -/
theorem exit_arr4 (c : Dev nD) (w : Fin cfg4.W) :
    (dat4 (VE4 m ρ) c).arrAt w cfg4.N = VX4 m ρ c (Pipeline.arrRef spec4 w) :=
  (Wexit4_arr m ρ c w).symm

/-- A reference that is no window's array ends as region 4 found it. -/
theorem exit_rest4 (c : Dev nD) (b : Ref sig .tc) (hb : b ∉ Finset.univ.image (Pipeline.arrRef spec4)) :
    VX4 m ρ c b = VE4 m ρ c b :=
  Wexit4_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 4 over the thread state. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (VE4 m ρ c)
  hentry c := by
    -- the unscoped buffers split into the windows' arrays and the rest; no table; the register to `X`
    rw [Pipeline.ownSems0_none]
    have hsplit := Pipeline.arrays_of_unscopedBufs (p := 4) (pcfgs (F := F)) adm (pdats m ρ) launch4.win launch4.arr_whole c
      ((pdats m ρ 4 c).share_full fun _ => rfl) (VE4 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 4 c).Φ 0 = Pipeline.ΦA spec4 c from rfl]
    unfold Pipeline.ΦA
    iintro ⟨Hprng, -, Hscoped⟩
    isplitl [Hscoped]; · iexact Hscoped
    iexact Hprng
  hout c := by
    rw [Pipeline.ownSems0_none, show (pdats m ρ 4 c).Φ (Fin.last _) = Pipeline.ΦA spec4 c from rfl]
    unfold Pipeline.ΦA
    iintro ⟨Hscoped, Hprng⟩
    isplitl [Hprng]; · iexact Hprng
    isplitr; · iempintro
    iexact Hscoped
  hexit c := by
    -- the arrays at their last contents and the rest make the unscoped buffers at `W9`
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (VE4 m ρ c) (VX4 m ρ c) ((pdats m ρ 4 c).arrAt · cfg4.N) (exit_arr4 m ρ c) (exit_rest4 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg5.lean ====
/- Region 5 of @main as a segment of the run. It is entered holding every unscoped buffer at the contents `W10`
   and left holding them at `W11`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 5 leaves, read at the TensorCore's references. -/
abbrev VX5 : (c : Dev nD) → (b : Ref sig .tc) → Buf (Elt F) ((c : Thread nD τ).loc b) := fun c b => W11 m ρ c b

/-- Each array of region 5 ends at the fold of its write-backs. -/
theorem exit_arr5 (c : Dev nD) (w : Fin cfg5.W) :
    (dat5 (VE5 m ρ) c).arrAt w cfg5.N = VX5 m ρ c (Pipeline.arrRef spec5 w) :=
  (Wexit5_arr m ρ c w).symm

/-- A reference that is no window's array ends as region 5 found it. -/
theorem exit_rest5 (c : Dev nD) (b : Ref sig .tc) (hb : b ∉ Finset.univ.image (Pipeline.arrRef spec5)) :
    VX5 m ρ c b = VE5 m ρ c b :=
  Wexit5_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 5 over the thread state. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (VE5 m ρ c)
  hentry c := by
    -- the unscoped buffers split into the windows' arrays and the rest; no table; the register to `X`
    rw [Pipeline.ownSems0_none]
    have hsplit := Pipeline.arrays_of_unscopedBufs (p := 5) (pcfgs (F := F)) adm (pdats m ρ) launch5.win launch5.arr_whole c
      ((pdats m ρ 5 c).share_full fun _ => rfl) (VE5 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 5 c).Φ 0 = Pipeline.ΦA spec5 c from rfl]
    unfold Pipeline.ΦA
    iintro ⟨Hprng, -, Hscoped⟩
    isplitl [Hscoped]; · iexact Hscoped
    iexact Hprng
  hout c := by
    rw [Pipeline.ownSems0_none, show (pdats m ρ 5 c).Φ (Fin.last _) = Pipeline.ΦA spec5 c from rfl]
    unfold Pipeline.ΦA
    iintro ⟨Hscoped, Hprng⟩
    isplitl [Hprng]; · iexact Hprng
    isplitr; · iempintro
    iexact Hscoped
  hexit c := by
    -- the arrays at their last contents and the rest make the unscoped buffers at `W11`
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (VE5 m ρ c) (VX5 m ρ c) ((pdats m ρ 5 c).arrAt · cfg5.N) (exit_arr5 m ρ c) (exit_rest5 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg6.lean ====
/- Region 6 of @main as a segment of the run. It is entered holding every unscoped buffer at the contents `W12`
   and left holding them at `W13`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 6 leaves, read at the TensorCore's references. -/
abbrev VX6 : (c : Dev nD) → (b : Ref sig .tc) → Buf (Elt F) ((c : Thread nD τ).loc b) := fun c b => W13 m ρ c b

/-- Each array of region 6 ends at the fold of its write-backs. -/
theorem exit_arr6 (c : Dev nD) (w : Fin cfg6.W) :
    (dat6 (VE6 m ρ) c).arrAt w cfg6.N = VX6 m ρ c (Pipeline.arrRef spec6 w) :=
  (Wexit6_arr m ρ c w).symm

/-- A reference that is no window's array ends as region 6 found it. -/
theorem exit_rest6 (c : Dev nD) (b : Ref sig .tc) (hb : b ∉ Finset.univ.image (Pipeline.arrRef spec6)) :
    VX6 m ρ c b = VE6 m ρ c b :=
  Wexit6_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 6 over the thread state. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (VE6 m ρ c)
  hentry c := by
    -- the unscoped buffers split into the windows' arrays and the rest; no table; the register to `X`
    rw [Pipeline.ownSems0_none]
    have hsplit := Pipeline.arrays_of_unscopedBufs (p := 6) (pcfgs (F := F)) adm (pdats m ρ) launch6.win launch6.arr_whole c
      ((pdats m ρ 6 c).share_full fun _ => rfl) (VE6 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 6 c).Φ 0 = Pipeline.ΦA spec6 c from rfl]
    unfold Pipeline.ΦA
    iintro ⟨Hprng, -, Hscoped⟩
    isplitl [Hscoped]; · iexact Hscoped
    iexact Hprng
  hout c := by
    rw [Pipeline.ownSems0_none, show (pdats m ρ 6 c).Φ (Fin.last _) = Pipeline.ΦA spec6 c from rfl]
    unfold Pipeline.ΦA
    iintro ⟨Hscoped, Hprng⟩
    isplitl [Hprng]; · iexact Hprng
    isplitr; · iempintro
    iexact Hscoped
  hexit c := by
    -- the arrays at their last contents and the rest make the unscoped buffers at `W13`
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (VE6 m ρ c) (VX6 m ρ c) ((pdats m ρ 6 c).arrAt · cfg6.N) (exit_arr6 m ρ c) (exit_rest6 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg7.lean ====
/- Region 7 of @main as a segment of the run. It is entered holding every unscoped buffer at the contents `W14`
   and left holding them at `W15`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 7 leaves, read at the TensorCore's references. -/
abbrev VX7 : (c : Dev nD) → (b : Ref sig .tc) → Buf (Elt F) ((c : Thread nD τ).loc b) := fun c b => W15 m ρ c b

/-- Each array of region 7 ends at the fold of its write-backs. -/
theorem exit_arr7 (c : Dev nD) (w : Fin cfg7.W) :
    (dat7 (VE7 m ρ) c).arrAt w cfg7.N = VX7 m ρ c (Pipeline.arrRef spec7 w) :=
  (Wexit7_arr m ρ c w).symm

/-- A reference that is no window's array ends as region 7 found it. -/
theorem exit_rest7 (c : Dev nD) (b : Ref sig .tc) (hb : b ∉ Finset.univ.image (Pipeline.arrRef spec7)) :
    VX7 m ρ c b = VE7 m ρ c b :=
  Wexit7_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 7 over the thread state. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (VE7 m ρ c)
  hentry c := by
    -- the unscoped buffers split into the windows' arrays and the rest; no table; the register to `X`
    rw [Pipeline.ownSems0_none]
    have hsplit := Pipeline.arrays_of_unscopedBufs (p := 7) (pcfgs (F := F)) adm (pdats m ρ) launch7.win launch7.arr_whole c
      ((pdats m ρ 7 c).share_full fun _ => rfl) (VE7 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 7 c).Φ 0 = Pipeline.ΦA spec7 c from rfl]
    unfold Pipeline.ΦA
    iintro ⟨Hprng, -, Hscoped⟩
    isplitl [Hscoped]; · iexact Hscoped
    iexact Hprng
  hout c := by
    rw [Pipeline.ownSems0_none, show (pdats m ρ 7 c).Φ (Fin.last _) = Pipeline.ΦA spec7 c from rfl]
    unfold Pipeline.ΦA
    iintro ⟨Hscoped, Hprng⟩
    isplitl [Hprng]; · iexact Hprng
    isplitr; · iempintro
    iexact Hscoped
  hexit c := by
    -- the arrays at their last contents and the rest make the unscoped buffers at `W15`
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (VE7 m ρ c) (VX7 m ρ c) ((pdats m ρ 7 c).arrAt · cfg7.N) (exit_arr7 m ρ c) (exit_rest7 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg8.lean ====
/- Region 8 of @main as a segment of the run. It is entered holding every unscoped buffer at the contents `W16`
   and left holding them at `W17`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 8 leaves, read at the TensorCore's references. -/
abbrev VX8 : (c : Dev nD) → (b : Ref sig .tc) → Buf (Elt F) ((c : Thread nD τ).loc b) := fun c b => W17 m ρ c b

/-- Each array of region 8 ends at the fold of its write-backs. -/
theorem exit_arr8 (c : Dev nD) (w : Fin cfg8.W) :
    (dat8 (VE8 m ρ) c).arrAt w cfg8.N = VX8 m ρ c (Pipeline.arrRef spec8 w) :=
  (Wexit8_arr m ρ c w).symm

/-- A reference that is no window's array ends as region 8 found it. -/
theorem exit_rest8 (c : Dev nD) (b : Ref sig .tc) (hb : b ∉ Finset.univ.image (Pipeline.arrRef spec8)) :
    VX8 m ρ c b = VE8 m ρ c b :=
  Wexit8_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 8 over the thread state. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VE8 m ρ) c).loose
  hwaits := Pipeline.hwaits_of_owed_zero _ _ _ _ L lv 8 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec8 c (VE8 m ρ c)
  hentry c := by
    -- the unscoped buffers split into the windows' arrays and the rest; no table; the register to `X`
    rw [Pipeline.ownSems0_none]
    have hsplit := Pipeline.arrays_of_unscopedBufs (p := 8) (pcfgs (F := F)) adm (pdats m ρ) launch8.win launch8.arr_whole c
      ((pdats m ρ 8 c).share_full fun _ => rfl) (VE8 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 8 c).Φ 0 = Pipeline.ΦA spec8 c from rfl]
    unfold Pipeline.ΦA
    iintro ⟨Hprng, -, Hscoped⟩
    isplitl [Hscoped]; · iexact Hscoped
    iexact Hprng
  hout c := by
    rw [Pipeline.ownSems0_none, show (pdats m ρ 8 c).Φ (Fin.last _) = Pipeline.ΦA spec8 c from rfl]
    unfold Pipeline.ΦA
    iintro ⟨Hscoped, Hprng⟩
    isplitl [Hprng]; · iexact Hprng
    isplitr; · iempintro
    iexact Hscoped
  hexit c := by
    -- the arrays at their last contents and the rest make the unscoped buffers at `W17`
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (VE8 m ρ c) (VX8 m ρ c) ((pdats m ρ 8 c).arrAt · cfg8.N) (exit_arr8 m ρ c) (exit_rest8 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg9.lean ====
/- Region 9 of @main as a segment of the run. It is entered holding every unscoped buffer at the contents `W18`
   and left holding them at `W19`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 9 leaves, read at the TensorCore's references. -/
abbrev VX9 : (c : Dev nD) → (b : Ref sig .tc) → Buf (Elt F) ((c : Thread nD τ).loc b) := fun c b => W19 m ρ c b

/-- Each array of region 9 ends at the fold of its write-backs. -/
theorem exit_arr9 (c : Dev nD) (w : Fin cfg9.W) :
    (dat9 (VE9 m ρ) c).arrAt w cfg9.N = VX9 m ρ c (Pipeline.arrRef spec9 w) :=
  (Wexit9_arr m ρ c w).symm

/-- A reference that is no window's array ends as region 9 found it. -/
theorem exit_rest9 (c : Dev nD) (b : Ref sig .tc) (hb : b ∉ Finset.univ.image (Pipeline.arrRef spec9)) :
    VX9 m ρ c b = VE9 m ρ c b :=
  Wexit9_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 9 over the thread state. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (VE9 m ρ) c).loose
  hwaits := Pipeline.hwaits_of_owed_zero _ _ _ _ L lv 9 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec9 c (VE9 m ρ c)
  hentry c := by
    -- the unscoped buffers split into the windows' arrays and the rest; no table; the register to `X`
    rw [Pipeline.ownSems0_none]
    have hsplit := Pipeline.arrays_of_unscopedBufs (p := 9) (pcfgs (F := F)) adm (pdats m ρ) launch9.win launch9.arr_whole c
      ((pdats m ρ 9 c).share_full fun _ => rfl) (VE9 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 9 c).Φ 0 = Pipeline.ΦA spec9 c from rfl]
    unfold Pipeline.ΦA
    iintro ⟨Hprng, -, Hscoped⟩
    isplitl [Hscoped]; · iexact Hscoped
    iexact Hprng
  hout c := by
    rw [Pipeline.ownSems0_none, show (pdats m ρ 9 c).Φ (Fin.last _) = Pipeline.ΦA spec9 c from rfl]
    unfold Pipeline.ΦA
    iintro ⟨Hscoped, Hprng⟩
    isplitl [Hprng]; · iexact Hprng
    isplitr; · iempintro
    iexact Hscoped
  hexit c := by
    -- the arrays at their last contents and the rest make the unscoped buffers at `W19`
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (VE9 m ρ c) (VX9 m ρ c) ((pdats m ρ 9 c).arrAt · cfg9.N) (exit_arr9 m ρ c) (exit_rest9 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg10.lean ====
/- Region 10 of @main as a segment of the run. It is entered holding every unscoped buffer at the contents `W20`
   and left holding them at `W21`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 10 leaves, read at the TensorCore's references. -/
abbrev VX10 : (c : Dev nD) → (b : Ref sig .tc) → Buf (Elt F) ((c : Thread nD τ).loc b) := fun c b => W21 m ρ c b

/-- Each array of region 10 ends at the fold of its write-backs. -/
theorem exit_arr10 (c : Dev nD) (w : Fin cfg10.W) :
    (dat10 (VE10 m ρ) c).arrAt w cfg10.N = VX10 m ρ c (Pipeline.arrRef spec10 w) :=
  (Wexit10_arr m ρ c w).symm

/-- A reference that is no window's array ends as region 10 found it. -/
theorem exit_rest10 (c : Dev nD) (b : Ref sig .tc) (hb : b ∉ Finset.univ.image (Pipeline.arrRef spec10)) :
    VX10 m ρ c b = VE10 m ρ c b :=
  Wexit10_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 10 over the thread state. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (VE10 m ρ) c).loose
  hwaits := Pipeline.hwaits_of_owed_zero _ _ _ _ L lv 10 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec10 c (VE10 m ρ c)
  hentry c := by
    -- the unscoped buffers split into the windows' arrays and the rest; no table; the register to `X`
    rw [Pipeline.ownSems0_none]
    have hsplit := Pipeline.arrays_of_unscopedBufs (p := 10) (pcfgs (F := F)) adm (pdats m ρ) launch10.win launch10.arr_whole c
      ((pdats m ρ 10 c).share_full fun _ => rfl) (VE10 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 10 c).Φ 0 = Pipeline.ΦA spec10 c from rfl]
    unfold Pipeline.ΦA
    iintro ⟨Hprng, -, Hscoped⟩
    isplitl [Hscoped]; · iexact Hscoped
    iexact Hprng
  hout c := by
    rw [Pipeline.ownSems0_none, show (pdats m ρ 10 c).Φ (Fin.last _) = Pipeline.ΦA spec10 c from rfl]
    unfold Pipeline.ΦA
    iintro ⟨Hscoped, Hprng⟩
    isplitl [Hprng]; · iexact Hprng
    isplitr; · iempintro
    iexact Hscoped
  hexit c := by
    -- the arrays at their last contents and the rest make the unscoped buffers at `W21`
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (VE10 m ρ c) (VX10 m ρ c) ((pdats m ρ 10 c).arrAt · cfg10.N) (exit_arr10 m ρ c) (exit_rest10 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg11.lean ====
/- Region 11 of @main as a segment of the run. It is entered holding every unscoped buffer at the contents `W22`
   and left holding them at `W23`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 11 leaves, read at the TensorCore's references. -/
abbrev VX11 : (c : Dev nD) → (b : Ref sig .tc) → Buf (Elt F) ((c : Thread nD τ).loc b) := fun c b => W23 m ρ c b

/-- Each array of region 11 ends at the fold of its write-backs. -/
theorem exit_arr11 (c : Dev nD) (w : Fin cfg11.W) :
    (dat11 (VE11 m ρ) c).arrAt w cfg11.N = VX11 m ρ c (Pipeline.arrRef spec11 w) :=
  (Wexit11_arr m ρ c w).symm

/-- A reference that is no window's array ends as region 11 found it. -/
theorem exit_rest11 (c : Dev nD) (b : Ref sig .tc) (hb : b ∉ Finset.univ.image (Pipeline.arrRef spec11)) :
    VX11 m ρ c b = VE11 m ρ c b :=
  Wexit11_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 11 over the thread state. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (VE11 m ρ) c).loose
  hwaits := Pipeline.hwaits_of_owed_zero _ _ _ _ L lv 11 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec11 c (VE11 m ρ c)
  hentry c := by
    -- the unscoped buffers split into the windows' arrays and the rest; no table; the register to `X`
    rw [Pipeline.ownSems0_none]
    have hsplit := Pipeline.arrays_of_unscopedBufs (p := 11) (pcfgs (F := F)) adm (pdats m ρ) launch11.win launch11.arr_whole c
      ((pdats m ρ 11 c).share_full fun _ => rfl) (VE11 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 11 c).Φ 0 = Pipeline.ΦA spec11 c from rfl]
    unfold Pipeline.ΦA
    iintro ⟨Hprng, -, Hscoped⟩
    isplitl [Hscoped]; · iexact Hscoped
    iexact Hprng
  hout c := by
    rw [Pipeline.ownSems0_none, show (pdats m ρ 11 c).Φ (Fin.last _) = Pipeline.ΦA spec11 c from rfl]
    unfold Pipeline.ΦA
    iintro ⟨Hscoped, Hprng⟩
    isplitl [Hprng]; · iexact Hprng
    isplitr; · iempintro
    iexact Hscoped
  hexit c := by
    -- the arrays at their last contents and the rest make the unscoped buffers at `W23`
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (VE11 m ρ c) (VX11 m ρ c) ((pdats m ρ 11 c).arrAt · cfg11.N) (exit_arr11 m ρ c) (exit_rest11 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg12.lean ====
/- Region 12 of @main as a segment of the run. It is entered holding every unscoped buffer at the contents `W24`
   and left holding them at `W25`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 12 leaves, read at the TensorCore's references. -/
abbrev VX12 : (c : Dev nD) → (b : Ref sig .tc) → Buf (Elt F) ((c : Thread nD τ).loc b) := fun c b => W25 m ρ c b

/-- Each array of region 12 ends at the fold of its write-backs. -/
theorem exit_arr12 (c : Dev nD) (w : Fin cfg12.W) :
    (dat12 (VE12 m ρ) c).arrAt w cfg12.N = VX12 m ρ c (Pipeline.arrRef spec12 w) :=
  (Wexit12_arr m ρ c w).symm

/-- A reference that is no window's array ends as region 12 found it. -/
theorem exit_rest12 (c : Dev nD) (b : Ref sig .tc) (hb : b ∉ Finset.univ.image (Pipeline.arrRef spec12)) :
    VX12 m ρ c b = VE12 m ρ c b :=
  Wexit12_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 12 over the thread state. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (VE12 m ρ) c).loose
  hwaits := Pipeline.hwaits_of_owed_zero _ _ _ _ L lv 12 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec12 c (VE12 m ρ c)
  hentry c := by
    -- the unscoped buffers split into the windows' arrays and the rest; no table; the register to `X`
    rw [Pipeline.ownSems0_none]
    have hsplit := Pipeline.arrays_of_unscopedBufs (p := 12) (pcfgs (F := F)) adm (pdats m ρ) launch12.win launch12.arr_whole c
      ((pdats m ρ 12 c).share_full fun _ => rfl) (VE12 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 12 c).Φ 0 = Pipeline.ΦA spec12 c from rfl]
    unfold Pipeline.ΦA
    iintro ⟨Hprng, -, Hscoped⟩
    isplitl [Hscoped]; · iexact Hscoped
    iexact Hprng
  hout c := by
    rw [Pipeline.ownSems0_none, show (pdats m ρ 12 c).Φ (Fin.last _) = Pipeline.ΦA spec12 c from rfl]
    unfold Pipeline.ΦA
    iintro ⟨Hscoped, Hprng⟩
    isplitl [Hprng]; · iexact Hprng
    isplitr; · iempintro
    iexact Hscoped
  hexit c := by
    -- the arrays at their last contents and the rest make the unscoped buffers at `W25`
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (VE12 m ρ c) (VX12 m ρ c) ((pdats m ρ 12 c).arrAt · cfg12.N) (exit_arr12 m ρ c) (exit_rest12 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg13.lean ====
/- Region 13 of @main as a segment of the run. It is entered holding every unscoped buffer at the contents `W26`
   and left holding them at `W27`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 13 leaves, read at the TensorCore's references. -/
abbrev VX13 : (c : Dev nD) → (b : Ref sig .tc) → Buf (Elt F) ((c : Thread nD τ).loc b) := fun c b => W27 m ρ c b

/-- Each array of region 13 ends at the fold of its write-backs. -/
theorem exit_arr13 (c : Dev nD) (w : Fin cfg13.W) :
    (dat13 (VE13 m ρ) c).arrAt w cfg13.N = VX13 m ρ c (Pipeline.arrRef spec13 w) :=
  (Wexit13_arr m ρ c w).symm

/-- A reference that is no window's array ends as region 13 found it. -/
theorem exit_rest13 (c : Dev nD) (b : Ref sig .tc) (hb : b ∉ Finset.univ.image (Pipeline.arrRef spec13)) :
    VX13 m ρ c b = VE13 m ρ c b :=
  Wexit13_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 13 over the thread state. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (VE13 m ρ) c).loose
  hwaits := Pipeline.hwaits_of_owed_zero _ _ _ _ L lv 13 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec13 c (VE13 m ρ c)
  hentry c := by
    -- the unscoped buffers split into the windows' arrays and the rest; no table; the register to `X`
    rw [Pipeline.ownSems0_none]
    have hsplit := Pipeline.arrays_of_unscopedBufs (p := 13) (pcfgs (F := F)) adm (pdats m ρ) launch13.win launch13.arr_whole c
      ((pdats m ρ 13 c).share_full fun _ => rfl) (VE13 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 13 c).Φ 0 = Pipeline.ΦA spec13 c from rfl]
    unfold Pipeline.ΦA
    iintro ⟨Hprng, -, Hscoped⟩
    isplitl [Hscoped]; · iexact Hscoped
    iexact Hprng
  hout c := by
    rw [Pipeline.ownSems0_none, show (pdats m ρ 13 c).Φ (Fin.last _) = Pipeline.ΦA spec13 c from rfl]
    unfold Pipeline.ΦA
    iintro ⟨Hscoped, Hprng⟩
    isplitl [Hprng]; · iexact Hprng
    isplitr; · iempintro
    iexact Hscoped
  hexit c := by
    -- the arrays at their last contents and the rest make the unscoped buffers at `W27`
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (VE13 m ρ c) (VX13 m ρ c) ((pdats m ρ 13 c).arrAt · cfg13.N) (exit_arr13 m ρ c) (exit_rest13 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg14.lean ====
/- Region 14 of @main as a segment of the run. It is entered holding every unscoped buffer at the contents `W28`
   and left holding them at `W29`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 14 leaves, read at the TensorCore's references. -/
abbrev VX14 : (c : Dev nD) → (b : Ref sig .tc) → Buf (Elt F) ((c : Thread nD τ).loc b) := fun c b => W29 m ρ c b

/-- Each array of region 14 ends at the fold of its write-backs. -/
theorem exit_arr14 (c : Dev nD) (w : Fin cfg14.W) :
    (dat14 (VE14 m ρ) c).arrAt w cfg14.N = VX14 m ρ c (Pipeline.arrRef spec14 w) :=
  (Wexit14_arr m ρ c w).symm

/-- A reference that is no window's array ends as region 14 found it. -/
theorem exit_rest14 (c : Dev nD) (b : Ref sig .tc) (hb : b ∉ Finset.univ.image (Pipeline.arrRef spec14)) :
    VX14 m ρ c b = VE14 m ρ c b :=
  Wexit14_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 14 over the thread state. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (VE14 m ρ) c).loose
  hwaits := Pipeline.hwaits_of_owed_zero _ _ _ _ L lv 14 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec14 c (VE14 m ρ c)
  hentry c := by
    -- the unscoped buffers split into the windows' arrays and the rest; no table; the register to `X`
    rw [Pipeline.ownSems0_none]
    have hsplit := Pipeline.arrays_of_unscopedBufs (p := 14) (pcfgs (F := F)) adm (pdats m ρ) launch14.win launch14.arr_whole c
      ((pdats m ρ 14 c).share_full fun _ => rfl) (VE14 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 14 c).Φ 0 = Pipeline.ΦA spec14 c from rfl]
    unfold Pipeline.ΦA
    iintro ⟨Hprng, -, Hscoped⟩
    isplitl [Hscoped]; · iexact Hscoped
    iexact Hprng
  hout c := by
    rw [Pipeline.ownSems0_none, show (pdats m ρ 14 c).Φ (Fin.last _) = Pipeline.ΦA spec14 c from rfl]
    unfold Pipeline.ΦA
    iintro ⟨Hscoped, Hprng⟩
    isplitl [Hprng]; · iexact Hprng
    isplitr; · iempintro
    iexact Hscoped
  hexit c := by
    -- the arrays at their last contents and the rest make the unscoped buffers at `W29`
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (VE14 m ρ c) (VX14 m ρ c) ((pdats m ρ 14 c).arrAt · cfg14.N) (exit_arr14 m ρ c) (exit_rest14 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg15.lean ====
/- Region 15 of @main as a segment of the run. It is entered holding every unscoped buffer at the contents `W30`
   and left holding them at `W31`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 15 leaves, read at the TensorCore's references. -/
abbrev VX15 : (c : Dev nD) → (b : Ref sig .tc) → Buf (Elt F) ((c : Thread nD τ).loc b) := fun c b => W31 m ρ c b

/-- Each array of region 15 ends at the fold of its write-backs. -/
theorem exit_arr15 (c : Dev nD) (w : Fin cfg15.W) :
    (dat15 (VE15 m ρ) c).arrAt w cfg15.N = VX15 m ρ c (Pipeline.arrRef spec15 w) :=
  (Wexit15_arr m ρ c w).symm

/-- A reference that is no window's array ends as region 15 found it. -/
theorem exit_rest15 (c : Dev nD) (b : Ref sig .tc) (hb : b ∉ Finset.univ.image (Pipeline.arrRef spec15)) :
    VX15 m ρ c b = VE15 m ρ c b :=
  Wexit15_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 15 over the thread state. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (VE15 m ρ) c).loose
  hwaits := Pipeline.hwaits_of_owed_zero _ _ _ _ L lv 15 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec15 c (VE15 m ρ c)
  hentry c := by
    -- the unscoped buffers split into the windows' arrays and the rest; no table; the register to `X`
    rw [Pipeline.ownSems0_none]
    have hsplit := Pipeline.arrays_of_unscopedBufs (p := 15) (pcfgs (F := F)) adm (pdats m ρ) launch15.win launch15.arr_whole c
      ((pdats m ρ 15 c).share_full fun _ => rfl) (VE15 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 15 c).Φ 0 = Pipeline.ΦA spec15 c from rfl]
    unfold Pipeline.ΦA
    iintro ⟨Hprng, -, Hscoped⟩
    isplitl [Hscoped]; · iexact Hscoped
    iexact Hprng
  hout c := by
    rw [Pipeline.ownSems0_none, show (pdats m ρ 15 c).Φ (Fin.last _) = Pipeline.ΦA spec15 c from rfl]
    unfold Pipeline.ΦA
    iintro ⟨Hscoped, Hprng⟩
    isplitl [Hprng]; · iexact Hprng
    isplitr; · iempintro
    iexact Hscoped
  hexit c := by
    -- the arrays at their last contents and the rest make the unscoped buffers at `W31`
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (VE15 m ρ c) (VX15 m ρ c) ((pdats m ρ 15 c).arrAt · cfg15.N) (exit_arr15 m ρ c) (exit_rest15 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg16.lean ====
/- Region 16 of @main as a segment of the run. It is entered holding every unscoped buffer at the contents `W32`
   and left holding them at `W33`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 16 leaves, read at the TensorCore's references. -/
abbrev VX16 : (c : Dev nD) → (b : Ref sig .tc) → Buf (Elt F) ((c : Thread nD τ).loc b) := fun c b => W33 m ρ c b

/-- Each array of region 16 ends at the fold of its write-backs. -/
theorem exit_arr16 (c : Dev nD) (w : Fin cfg16.W) :
    (dat16 (VE16 m ρ) c).arrAt w cfg16.N = VX16 m ρ c (Pipeline.arrRef spec16 w) :=
  (Wexit16_arr m ρ c w).symm

/-- A reference that is no window's array ends as region 16 found it. -/
theorem exit_rest16 (c : Dev nD) (b : Ref sig .tc) (hb : b ∉ Finset.univ.image (Pipeline.arrRef spec16)) :
    VX16 m ρ c b = VE16 m ρ c b :=
  Wexit16_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 16 over the thread state. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (VE16 m ρ) c).loose
  hwaits := Pipeline.hwaits_of_owed_zero _ _ _ _ L lv 16 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec16 c (VE16 m ρ c)
  hentry c := by
    -- the unscoped buffers split into the windows' arrays and the rest; no table; the register to `X`
    rw [Pipeline.ownSems0_none]
    have hsplit := Pipeline.arrays_of_unscopedBufs (p := 16) (pcfgs (F := F)) adm (pdats m ρ) launch16.win launch16.arr_whole c
      ((pdats m ρ 16 c).share_full fun _ => rfl) (VE16 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 16 c).Φ 0 = Pipeline.ΦA spec16 c from rfl]
    unfold Pipeline.ΦA
    iintro ⟨Hprng, -, Hscoped⟩
    isplitl [Hscoped]; · iexact Hscoped
    iexact Hprng
  hout c := by
    rw [Pipeline.ownSems0_none, show (pdats m ρ 16 c).Φ (Fin.last _) = Pipeline.ΦA spec16 c from rfl]
    unfold Pipeline.ΦA
    iintro ⟨Hscoped, Hprng⟩
    isplitl [Hprng]; · iexact Hprng
    isplitr; · iempintro
    iexact Hscoped
  hexit c := by
    -- the arrays at their last contents and the rest make the unscoped buffers at `W33`
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (VE16 m ρ c) (VX16 m ρ c) ((pdats m ρ 16 c).arrAt · cfg16.N) (exit_arr16 m ρ c) (exit_rest16 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg17.lean ====
/- Region 17 of @main as a segment of the run. It is entered holding every unscoped buffer at the contents `W34`
   and left holding them at `W35`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 17 leaves, read at the TensorCore's references. -/
abbrev VX17 : (c : Dev nD) → (b : Ref sig .tc) → Buf (Elt F) ((c : Thread nD τ).loc b) := fun c b => W35 m ρ c b

/-- Each array of region 17 ends at the fold of its write-backs. -/
theorem exit_arr17 (c : Dev nD) (w : Fin cfg17.W) :
    (dat17 (VE17 m ρ) c).arrAt w cfg17.N = VX17 m ρ c (Pipeline.arrRef spec17 w) :=
  (Wexit17_arr m ρ c w).symm

/-- A reference that is no window's array ends as region 17 found it. -/
theorem exit_rest17 (c : Dev nD) (b : Ref sig .tc) (hb : b ∉ Finset.univ.image (Pipeline.arrRef spec17)) :
    VX17 m ρ c b = VE17 m ρ c b :=
  Wexit17_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 17 over the thread state. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (VE17 m ρ) c).loose
  hwaits := Pipeline.hwaits_of_owed_zero _ _ _ _ L lv 17 fun _ _ => rfl
  pre c := iprop(StableHlo.held (c : Thread nD τ) (Pipeline.ucRefs τ sig) (W34 m ρ c) ∗ R c)
  post c := iprop(StableHlo.held (c : Thread nD τ) (Pipeline.ucRefs τ sig) (W35 m ρ c) ∗ R c)
  X c := iprop(∃ r, prngReg c r)
  Y c := iprop(∃ r, prngReg c r)
  Z c := Pipeline.unscopedRest (Ix := Unit) (Name := ℕ) (U := UR sig nD τ) (Lvl := ℕ) spec17 c (VE17 m ρ c)
  hentry c := by
    -- the unscoped buffers split into the windows' arrays and the rest; no table; the register to `X`
    rw [Pipeline.ownSems0_none]
    have hsplit := Pipeline.arrays_of_unscopedBufs (p := 17) (pcfgs (F := F)) adm (pdats m ρ) launch17.win launch17.arr_whole c
      ((pdats m ρ 17 c).share_full fun _ => rfl) (VE17 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 17 c).Φ 0 = Pipeline.ΦA spec17 c from rfl]
    unfold Pipeline.ΦA
    iintro ⟨Hprng, -, Hscoped⟩
    isplitl [Hscoped]; · iexact Hscoped
    iexact Hprng
  hout c := by
    rw [Pipeline.ownSems0_none, show (pdats m ρ 17 c).Φ (Fin.last _) = Pipeline.ΦA spec17 c from rfl]
    unfold Pipeline.ΦA
    iintro ⟨Hscoped, Hprng⟩
    isplitl [Hprng]; · iexact Hprng
    isplitr; · iempintro
    iexact Hscoped
  hexit c := by
    -- the arrays at their last contents and the rest make the unscoped buffers at `W35`
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (VE17 m ρ c) (VX17 m ρ c) ((pdats m ρ 17 c).arrAt · cfg17.N) (exit_arr17 m ρ c) (exit_rest17 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg18.lean ====
/- Region 18 of @main as a segment of the run. It is entered holding every unscoped buffer at the contents `W36`
   and left holding them at `W37`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 18 leaves, read at the TensorCore's references. -/
abbrev VX18 : (c : Dev nD) → (b : Ref sig .tc) → Buf (Elt F) ((c : Thread nD τ).loc b) := fun c b => W37 m ρ c b

/-- Each array of region 18 ends at the fold of its write-backs. -/
theorem exit_arr18 (c : Dev nD) (w : Fin cfg18.W) :
    (dat18 (VE18 m ρ) c).arrAt w cfg18.N = VX18 m ρ c (Pipeline.arrRef spec18 w) :=
  (Wexit18_arr m ρ c w).symm

/-- A reference that is no window's array ends as region 18 found it. -/
theorem exit_rest18 (c : Dev nD) (b : Ref sig .tc) (hb : b ∉ Finset.univ.image (Pipeline.arrRef spec18)) :
    VX18 m ρ c b = VE18 m ρ c b :=
  Wexit18_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 18 over the thread state. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (VE18 m ρ) c).loose
  hwaits := Pipeline.hwaits_of_owed_zero _ _ _ _ L lv 18 fun _ _ => rfl
  pre c := iprop(StableHlo.held (c : Thread nD τ) (Pipeline.ucRefs τ sig) (W36 m ρ c) ∗ R c)
  post c := iprop(StableHlo.held (c : Thread nD τ) (Pipeline.ucRefs τ sig) (W37 m ρ c) ∗ R c)
  X c := iprop(∃ r, prngReg c r)
  Y c := iprop(∃ r, prngReg c r)
  Z c := Pipeline.unscopedRest (Ix := Unit) (Name := ℕ) (U := UR sig nD τ) (Lvl := ℕ) spec18 c (VE18 m ρ c)
  hentry c := by
    -- the unscoped buffers split into the windows' arrays and the rest; no table; the register to `X`
    rw [Pipeline.ownSems0_none]
    have hsplit := Pipeline.arrays_of_unscopedBufs (p := 18) (pcfgs (F := F)) adm (pdats m ρ) launch18.win launch18.arr_whole c
      ((pdats m ρ 18 c).share_full fun _ => rfl) (VE18 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 18 c).Φ 0 = Pipeline.ΦA spec18 c from rfl]
    unfold Pipeline.ΦA
    iintro ⟨Hprng, -, Hscoped⟩
    isplitl [Hscoped]; · iexact Hscoped
    iexact Hprng
  hout c := by
    rw [Pipeline.ownSems0_none, show (pdats m ρ 18 c).Φ (Fin.last _) = Pipeline.ΦA spec18 c from rfl]
    unfold Pipeline.ΦA
    iintro ⟨Hscoped, Hprng⟩
    isplitl [Hprng]; · iexact Hprng
    isplitr; · iempintro
    iexact Hscoped
  hexit c := by
    -- the arrays at their last contents and the rest make the unscoped buffers at `W37`
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (VE18 m ρ c) (VX18 m ρ c) ((pdats m ρ 18 c).arrAt · cfg18.N) (exit_arr18 m ρ c) (exit_rest18 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Reg19.lean ====
/- Region 19 of @main as a segment of the run. It is entered holding every unscoped buffer at the contents `W38`
   and left holding them at `W39`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 19 leaves, read at the TensorCore's references. -/
abbrev VX19 : (c : Dev nD) → (b : Ref sig .tc) → Buf (Elt F) ((c : Thread nD τ).loc b) := fun c b => W39 m ρ c b

/-- Each array of region 19 ends at the fold of its write-backs. -/
theorem exit_arr19 (c : Dev nD) (w : Fin cfg19.W) :
    (dat19 (VE19 m ρ) c).arrAt w cfg19.N = VX19 m ρ c (Pipeline.arrRef spec19 w) :=
  (Wexit19_arr m ρ c w).symm

/-- A reference that is no window's array ends as region 19 found it. -/
theorem exit_rest19 (c : Dev nD) (b : Ref sig .tc) (hb : b ∉ Finset.univ.image (Pipeline.arrRef spec19)) :
    VX19 m ρ c b = VE19 m ρ c b :=
  Wexit19_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 19 over the thread state. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (VE19 m ρ) c).loose
  hwaits := Pipeline.hwaits_of_owed_zero _ _ _ _ L lv 19 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X c := iprop(∃ r, prngReg c r)
  Y c := iprop(∃ r, prngReg c r)
  Z c := Pipeline.unscopedRest (Ix := Unit) (Name := ℕ) (U := UR sig nD τ) (Lvl := ℕ) spec19 c (VE19 m ρ c)
  hentry c := by
    -- the unscoped buffers split into the windows' arrays and the rest; no table; the register to `X`
    rw [Pipeline.ownSems0_none]
    have hsplit := Pipeline.arrays_of_unscopedBufs (p := 19) (pcfgs (F := F)) adm (pdats m ρ) launch19.win launch19.arr_whole c
      ((pdats m ρ 19 c).share_full fun _ => rfl) (VE19 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 19 c).Φ 0 = Pipeline.ΦA spec19 c from rfl]
    unfold Pipeline.ΦA
    iintro ⟨Hprng, -, Hscoped⟩
    isplitl [Hscoped]; · iexact Hscoped
    iexact Hprng
  hout c := by
    rw [Pipeline.ownSems0_none, show (pdats m ρ 19 c).Φ (Fin.last _) = Pipeline.ΦA spec19 c from rfl]
    unfold Pipeline.ΦA
    iintro ⟨Hscoped, Hprng⟩
    isplitl [Hprng]; · iexact Hprng
    isplitr; · iempintro
    iexact Hscoped
  hexit c := by
    -- the arrays at their last contents and the rest make the unscoped buffers at `W39`
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (VE19 m ρ c) (VX19 m ρ c) ((pdats m ρ 19 c).arrAt · cfg19.N) (exit_arr19 m ρ c) (exit_rest19 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.Kernel.Hand

end
-- ==== Proof.KB.Run.lean ====
/- The run of @main. Its 40 items as segments over the thread state (a host segment per stretch, from the
   contents its boundary holds; a region record per pallas_call), @main as the segments' run, and the launch:
   every execution terminates without fault, and at the return every unscoped buffer of every core holds the
   last boundary's contents `W40`. With the arguments' passage through the fold, the frame claim follows. -/
import proofs.«424088_j28020366639260_2_alg».proof.Proof.KB.Args
import proofs.«424088_j28020366639260_2_alg».proof.Proof.KB.Reg0
import proofs.«424088_j28020366639260_2_alg».proof.Proof.KB.Reg1
import proofs.«424088_j28020366639260_2_alg».proof.Proof.KB.Reg2
import proofs.«424088_j28020366639260_2_alg».proof.Proof.KB.Reg3
import proofs.«424088_j28020366639260_2_alg».proof.Proof.KB.Reg4
import proofs.«424088_j28020366639260_2_alg».proof.Proof.KB.Reg5
import proofs.«424088_j28020366639260_2_alg».proof.Proof.KB.Reg6
import proofs.«424088_j28020366639260_2_alg».proof.Proof.KB.Reg7
import proofs.«424088_j28020366639260_2_alg».proof.Proof.KB.Reg8
import proofs.«424088_j28020366639260_2_alg».proof.Proof.KB.Reg9
import proofs.«424088_j28020366639260_2_alg».proof.Proof.KB.Reg10
import proofs.«424088_j28020366639260_2_alg».proof.Proof.KB.Reg11
import proofs.«424088_j28020366639260_2_alg».proof.Proof.KB.Reg12
import proofs.«424088_j28020366639260_2_alg».proof.Proof.KB.Reg13
import proofs.«424088_j28020366639260_2_alg».proof.Proof.KB.Reg14
import proofs.«424088_j28020366639260_2_alg».proof.Proof.KB.Reg15
import proofs.«424088_j28020366639260_2_alg».proof.Proof.KB.Reg16
import proofs.«424088_j28020366639260_2_alg».proof.Proof.KB.Reg17
import proofs.«424088_j28020366639260_2_alg».proof.Proof.KB.Reg18
import proofs.«424088_j28020366639260_2_alg».proof.Proof.KB.Reg19

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 40 segments, in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .host (hseg hostOps9 hostOps9_sub hostOps9_fresh (W17 m ρ)),
    .region (reg9 m ρ),
    .host (hseg hostOps10 hostOps10_sub hostOps10_fresh (W19 m ρ)),
    .region (reg10 m ρ),
    .host (hseg hostOps11 hostOps11_sub hostOps11_fresh (W21 m ρ)),
    .region (reg11 m ρ),
    .host (hseg hostOps12 hostOps12_sub hostOps12_fresh (W23 m ρ)),
    .region (reg12 m ρ),
    .host (hseg hostOps13 hostOps13_sub hostOps13_fresh (W25 m ρ)),
    .region (reg13 m ρ),
    .host (hseg hostOps14 hostOps14_sub hostOps14_fresh (W27 m ρ)),
    .region (reg14 m ρ),
    .host (hseg hostOps15 hostOps15_sub hostOps15_fresh (W29 m ρ)),
    .region (reg15 m ρ),
    .host (hseg hostOps16 hostOps16_sub hostOps16_fresh (W31 m ρ)),
    .region (reg16 m ρ),
    .host (hseg hostOps17 hostOps17_sub hostOps17_fresh (W33 m ρ)),
    .region (reg17 m ρ),
    .host (hseg hostOps18 hostOps18_sub hostOps18_fresh (W35 m ρ)),
    .region (reg18 m ρ),
    .host (hseg hostOps19 hostOps19_sub hostOps19_fresh (W37 m ρ)),
    .region (reg19 m ρ),
    .host (hseg hostOps20 hostOps20_sub hostOps20_fresh (W39 m ρ)) ]

/-- @main is the segments' run: the chain of @main's items against the segments' own fragments. -/
theorem main_run (c : Dev nD) : main (F := F) c = Pipeline.Seg.run (segs m ρ) := (main_chain c).trans (by chain_rfl)

/-- The pipelines of the regions, in order, are the 20 indices without repetition. -/
theorem pipes_nodup : (Pipeline.Seg.pipes (segs m ρ)).Nodup := by
  simp only [segs, Pipeline.Seg.pipes_host, Pipeline.Seg.pipes_region, Pipeline.Seg.pipes_nil]
  decide +kernel

/-- The last host segment's thread state regrouped: the buffers and the register on one side, the `owes` on the other. -/
theorem last_regroup (c : Dev nD) :
    (iprop(StableHlo.held (c : Thread nD τ) (Pipeline.ucRefs τ sig) (StableHlo.after hostOps20 (W39 m ρ c)) ∗ R c) : sProp 𝕄)
      ⊢ iprop(Tₙ m ρ c ∗ ∃ W, owes (c : Thread nD τ) (0 : CellTallies nD τ sig Unit) W) := by
  iintro ⟨Hbufs, Hprng, Howes⟩
  isplitr [Howes]
  · isplitl [Hbufs]; · iexact Hbufs
    iexact Hprng
  · iexact Howes

-- the launch theorem's implicit arguments come from unifying its conclusion with the statement, which needs
-- definitions unfolded inside the types of metavariables
set_option backward.isDefEq.respectTransparency.types false in
/-- THE RUN: from any memory with zero counters every weakly fair execution of @main on the TensorCores terminates,
    nothing faulting, and the final memory holds `W40` at every unscoped buffer of every core. -/
theorem run : θ_run defs (onTc (τ := τ) (main (F := F))) ⟨m, fun _ => 0, ρ⟩
    (fun r => ∀ c : Dev nD, ∀ b ∈ Pipeline.ucRefs τ sig, r.2.mem (((c : Thread nD τ)).1, b) = W40 m ρ c b) :=
  Pipeline.θ_run_regions_kit (pcfgs (F := F)) adm (pdats m ρ) () cellOf_inj emb₁ defs₀ 𝒱₀ L lv m ρ main (segs m ρ)
    (fun c Q => by rw [main_run m ρ c])
    (pipes_nodup m ρ)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_regroup m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W40 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W40 m ρ c) s')
      isplitl [Hbufs] <;> iassumption)
    (hQ := fun s h => h)

/-- THE FRAME: the run, with every argument array read back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨ (h c _ (mem_uc main_arg0 (by decide))).trans (Wlast_main_arg0 m ρ c),
      (h c _ (mem_uc main_arg1 (by decide))).trans (Wlast_main_arg1 m ρ c),
      (h c _ (mem_uc main_arg2 (by decide))).trans (Wlast_main_arg2 m ρ c),
      (h c _ (mem_uc main_arg3 (by decide))).trans (Wlast_main_arg3 m ρ c),
      (h c _ (mem_uc main_arg4 (by decide))).trans (Wlast_main_arg4 m ρ c),
      (h c _ (mem_uc main_arg5 (by decide))).trans (Wlast_main_arg5 m ρ c),
      (h c _ (mem_uc main_arg6 (by decide))).trans (Wlast_main_arg6 m ρ c),
      (h c _ (mem_uc main_arg7 (by decide))).trans (Wlast_main_arg7 m ρ c),
      (h c _ (mem_uc main_arg8 (by decide))).trans (Wlast_main_arg8 m ρ c),
      (h c _ (mem_uc main_arg9 (by decide))).trans (Wlast_main_arg9 m ρ c),
      (h c _ (mem_uc main_arg10 (by decide))).trans (Wlast_main_arg10 m ρ c),
      (h c _ (mem_uc main_arg11 (by decide))).trans (Wlast_main_arg11 m ρ c),
      (h c _ (mem_uc main_arg12 (by decide))).trans (Wlast_main_arg12 m ρ c),
      (h c _ (mem_uc main_arg13 (by decide))).trans (Wlast_main_arg13 m ρ c),
      (h c _ (mem_uc main_arg14 (by decide))).trans (Wlast_main_arg14 m ρ c),
      (h c _ (mem_uc main_arg15 (by decide))).trans (Wlast_main_arg15 m ρ c),
      (h c _ (mem_uc main_arg16 (by decide))).trans (Wlast_main_arg16 m ρ c),
      (h c _ (mem_uc main_arg17 (by decide))).trans (Wlast_main_arg17 m ρ c),
      (h c _ (mem_uc main_arg18 (by decide))).trans (Wlast_main_arg18 m ρ c),
      (h c _ (mem_uc main_arg19 (by decide))).trans (Wlast_main_arg19 m ρ c),
      (h c _ (mem_uc main_arg20 (by decide))).trans (Wlast_main_arg20 m ρ c),
      (h c _ (mem_uc main_arg21 (by decide))).trans (Wlast_main_arg21 m ρ c),
      (h c _ (mem_uc main_arg22 (by decide))).trans (Wlast_main_arg22 m ρ c) ⟩) (run m ρ)

end Cert.Kernel.Hand

end
-- ==== Proof.KI.R0.lean ====
/- Region 0 of the kernel program: the row block  y = b + x·w  of a 2000×128 block of rows, with each core's
   running column sums of y and of y·y kept in two accumulated output windows. The proof data of the region's
   pipeline at the contents the region is entered with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows: each holds its block whenever the body runs -/

/-- The row block of x is in its window's current buffer at every point (the window is uncut and never idle; where
    it is not fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix w, fetched once, stays in its buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row b, fetched once, stays in its buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0
abbrev rS0 : Rect S1x1x128 := Rect.unit (s := S1x1x128) ![0, 0, 0] S1x1x128.size inb_S1x1x128_S1x1x128_0_0_0

/-- The whole-buffer rectangles sit at offset zero on every axis. -/
theorem off2_0 : (![0, 0] : Fin 2 → ℕ) = fun _ => 0 := funext fun a => by fin_cases a <;> rfl
theorem off3_0 : (![0, 0, 0] : Fin 3 → ℕ) = fun _ => 0 := funext fun a => by fin_cases a <;> rfl

/-- A list of stores whose last is of the whole buffer covers the buffer. -/
theorem coverX0 (p : Vec F S2000x128 .f32) (L : List (View.Piece (Elt F) S2000x128 .f32)) (y : S2000x128.Idx) :
    ∃ pc ∈ ((⟨rX0, p⟩ : View.Piece (Elt F) S2000x128 .f32) :: L), y ∈ pc.1.set :=
  ⟨_, List.mem_cons_self, View.mem_set_unit_zero off2_0 inb_S2000x128_S2000x128_0_0 y⟩
theorem coverS0 (p : Vec F S1x1x128 .f32) (L : List (View.Piece (Elt F) S1x1x128 .f32)) (y : S1x1x128.Idx) :
    ∃ pc ∈ ((⟨rS0, p⟩ : View.Piece (Elt F) S1x1x128 .f32) :: L), y ∈ pc.1.set :=
  ⟨_, List.mem_cons_self, View.mem_set_unit_zero off3_0 inb_S1x1x128_S1x1x128_0_0_0 y⟩

/-! ## The branch on grid coordinate 1 -/

/-- The body's one conditional: grid coordinate 1 is zero (the first of a core's 25 points). -/
abbrev cond0 (i : grid0.Coords) : Prop :=
  (Scalar.cmpi .ne (Scalar.extui (Scalar.cmpi .eq (BitVec.ofNat 32 (i 1).val) 0#32)) 0#32) = 1#1
/-- It holds at the points 0 and 25 — decided over the grid. -/
theorem hcond0 : ∀ t : Fin cfg0.N, cond0 (grid0.coords t) ↔ t.val % 25 = 0 :=
  (by decide +kernel : ∀ t : Fin grid0.N, cond0 (grid0.coords t) ↔ t.val % 25 = 0)

/-! ## The body's triple, in each case of the branch -/

set_option maxHeartbeats 4000000 in
/-- FIRST POINT OF A CORE (coordinate 1 is zero). On whole staging memrefs, the inputs' reading x, w, b and the
    outputs' holding anything, the body runs to the continuation with the inputs as they were, the y buffer at
    b + x·w, and each running sum at its zero plus this block's column sums. -/
theorem sound_kernel0_A (c : Dev nD) (E : Set ℕ) (i : grid0.Coords) (hc : cond0 i) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x1x128 .f32) (harg6 : arg6.IsWhole) (arg7 : Memref sig .tc .vmem S1x1x128 .f32) (harg7 : arg7.IsWhole)
    (x : Vec F S2000x128 .f32) (w : Vec F S128x128 .f32) (b : Vec F S1x128 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay3 b x w)
            ∗ owns (c : Thread nD τ) arg6 fullShare (k0_pay4 b x w k0_pay1)
            ∗ owns (c : Thread nD τ) arg7 fullShare (k0_pay5 b x w k0_pay2)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2 hf3 hf4
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverX0 _ _)]
    sl_unfold_run_names
    rw [View.canon_cons_unit_zero off2_0]
    simp only [View.readAt_eq_ld, View.ld_unit_zero (S := S2000x128) off2_0, View.ld_unit_zero (S := S128x128) off2_0, View.ld_unit_zero (S := S1x128) off2_0, View.ld_unit_zero (S := S1x1x128) off3_0]
  isplitl [H6]
  · iexists _; isplitr
    swap; · iexact H6
    ipureintro
    rw [View.read_writes_eq_canon _ _ _ (coverS0 _ _)]
    sl_unfold_run_names
    rw [View.canon_cons_unit_zero off3_0, View.readCov_unit_zero _ off3_0]
    simp only [View.readAt_eq_ld, View.ld_unit_zero (S := S2000x128) off2_0, View.ld_unit_zero (S := S128x128) off2_0, View.ld_unit_zero (S := S1x128) off2_0, View.ld_unit_zero (S := S1x1x128) off3_0]
  iexists _; isplitr
  swap; · iexact H7
  ipureintro
  rw [View.read_writes_eq_canon _ _ _ (coverS0 _ _)]
  sl_unfold_run_names
  rw [View.canon_cons_unit_zero off3_0, View.readCov_unit_zero _ off3_0]
  simp only [View.readAt_eq_ld, View.ld_unit_zero (S := S2000x128) off2_0, View.ld_unit_zero (S := S128x128) off2_0, View.ld_unit_zero (S := S1x128) off2_0, View.ld_unit_zero (S := S1x1x128) off3_0]

set_option maxHeartbeats 4000000 in
/-- A LATER POINT OF A CORE (coordinate 1 is not zero). As above, with the two running sums' buffers holding what
    the point before left, `a4` and `a5`: each ends at that plus this block's column sums. -/
theorem sound_kernel0_B (c : Dev nD) (E : Set ℕ) (i : grid0.Coords) (hc : ¬cond0 i) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x1x128 .f32) (harg6 : arg6.IsWhole) (arg7 : Memref sig .tc .vmem S1x1x128 .f32) (harg7 : arg7.IsWhole)
    (x : Vec F S2000x128 .f32) (w : Vec F S128x128 .f32) (b : Vec F S1x128 .f32)
    (a4 : Vec F S1x1x128 .f32) (a5 : Vec F S1x1x128 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ owns (c : Thread nD τ) arg6 fullShare a4 ∗ owns (c : Thread nD τ) arg7 fullShare a5
        ∗ (iprop(owns (c : Thread nD τ) arg2 fullShare x ∗ owns (c : Thread nD τ) arg3 fullShare w ∗ owns (c : Thread nD τ) arg4 fullShare b
            ∗ owns (c : Thread nD τ) arg5 fullShare (k0_pay3 b x w)
            ∗ owns (c : Thread nD τ) arg6 fullShare (k0_pay4 b x w a4)
            ∗ owns (c : Thread nD τ) arg7 fullShare (k0_pay5 b x w a5)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2 hf3 hf4 hf6 hf7
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverX0 _ _)]
    sl_unfold_run_names
    rw [View.canon_cons_unit_zero off2_0]
    simp only [View.readAt_eq_ld, View.ld_unit_zero (S := S2000x128) off2_0, View.ld_unit_zero (S := S128x128) off2_0, View.ld_unit_zero (S := S1x128) off2_0, View.ld_unit_zero (S := S1x1x128) off3_0]
  isplitl [H6]
  · iexists _; isplitr
    swap; · iexact H6
    ipureintro
    rw [View.read_writes_eq_canon _ _ _ (coverS0 _ _)]
    sl_unfold_run_names
    rw [View.canon_cons_unit_zero off3_0]
    simp only [View.readAt_eq_ld, View.ld_unit_zero (S := S2000x128) off2_0, View.ld_unit_zero (S := S128x128) off2_0, View.ld_unit_zero (S := S1x128) off2_0, View.ld_unit_zero (S := S1x1x128) off3_0]
  iexists _; isplitr
  swap; · iexact H7
  ipureintro
  rw [View.read_writes_eq_canon _ _ _ (coverS0 _ _)]
  sl_unfold_run_names
  rw [View.canon_cons_unit_zero off3_0]
  simp only [View.readAt_eq_ld, View.ld_unit_zero (S := S2000x128) off2_0, View.ld_unit_zero (S := S128x128) off2_0, View.ld_unit_zero (S := S1x128) off2_0, View.ld_unit_zero (S := S1x1x128) off3_0]

/-! ## What the two accumulated windows hold after each point -/

/-- Core `c`'s running column sum of y after the body at point `n`: over the zero at the first of the
    core's 25 points, over what the point before left at the others. -/
def sumAt0 (c : Dev nD) : (n : ℕ) → n < cfg0.N → Vec F S1x1x128 .f32
  | 0, hn => k0_pay4 (iblk0 V c 2 ⟨0, hn⟩) (iblk0 V c 0 ⟨0, hn⟩) (iblk0 V c 1 ⟨0, hn⟩) k0_pay1
  | n + 1, hn => k0_pay4 (iblk0 V c 2 ⟨n + 1, hn⟩) (iblk0 V c 0 ⟨n + 1, hn⟩) (iblk0 V c 1 ⟨n + 1, hn⟩)
      (if (n + 1) % 25 = 0 then k0_pay1 else sumAt0 c n (Nat.lt_of_succ_lt hn))

/-- At the first of a core's points: from the zero. -/
theorem sumAt0_A (c : Dev nD) (t : Fin cfg0.N) (h0 : t.val % 25 = 0) :
    sumAt0 V c t.val t.isLt = k0_pay4 (iblk0 V c 2 t) (iblk0 V c 0 t) (iblk0 V c 1 t) k0_pay1 := by
  obtain ⟨n, hn⟩ := t
  cases n with
  | zero => rfl
  | succ n =>
    show k0_pay4 _ _ _ (if (n + 1) % 25 = 0 then _ else _) = _
    rw [if_pos h0]

/-- At a later one: from what the point before left. -/
theorem sumAt0_B (c : Dev nD) (t : Fin cfg0.N) (h0 : ¬t.val % 25 = 0) :
    sumAt0 V c t.val t.isLt = k0_pay4 (iblk0 V c 2 t) (iblk0 V c 0 t) (iblk0 V c 1 t) (sumAt0 V c (t.val - 1) (Nat.lt_of_le_of_lt (Nat.sub_le _ _) t.isLt)) := by
  obtain ⟨n, hn⟩ := t
  cases n with
  | zero => exact absurd (Nat.zero_mod _) h0
  | succ n =>
    show k0_pay4 _ _ _ (if (n + 1) % 25 = 0 then _ else _) = _
    rw [if_neg h0]; rfl

/-- Core `c`'s running column sum of y·y after the body at point `n`: over the zero at the first of the
    core's 25 points, over what the point before left at the others. -/
def sqAt0 (c : Dev nD) : (n : ℕ) → n < cfg0.N → Vec F S1x1x128 .f32
  | 0, hn => k0_pay5 (iblk0 V c 2 ⟨0, hn⟩) (iblk0 V c 0 ⟨0, hn⟩) (iblk0 V c 1 ⟨0, hn⟩) k0_pay2
  | n + 1, hn => k0_pay5 (iblk0 V c 2 ⟨n + 1, hn⟩) (iblk0 V c 0 ⟨n + 1, hn⟩) (iblk0 V c 1 ⟨n + 1, hn⟩)
      (if (n + 1) % 25 = 0 then k0_pay2 else sqAt0 c n (Nat.lt_of_succ_lt hn))

/-- At the first of a core's points: from the zero. -/
theorem sqAt0_A (c : Dev nD) (t : Fin cfg0.N) (h0 : t.val % 25 = 0) :
    sqAt0 V c t.val t.isLt = k0_pay5 (iblk0 V c 2 t) (iblk0 V c 0 t) (iblk0 V c 1 t) k0_pay2 := by
  obtain ⟨n, hn⟩ := t
  cases n with
  | zero => rfl
  | succ n =>
    show k0_pay5 _ _ _ (if (n + 1) % 25 = 0 then _ else _) = _
    rw [if_pos h0]

/-- At a later one: from what the point before left. -/
theorem sqAt0_B (c : Dev nD) (t : Fin cfg0.N) (h0 : ¬t.val % 25 = 0) :
    sqAt0 V c t.val t.isLt = k0_pay5 (iblk0 V c 2 t) (iblk0 V c 0 t) (iblk0 V c 1 t) (sqAt0 V c (t.val - 1) (Nat.lt_of_le_of_lt (Nat.sub_le _ _) t.isLt)) := by
  obtain ⟨n, hn⟩ := t
  cases n with
  | zero => exact absurd (Nat.zero_mod _) h0
  | succ n =>
    show k0_pay5 _ _ _ (if (n + 1) % 25 = 0 then _ else _) = _
    rw [if_neg h0]; rfl

/-! ## The pipeline's proof data -/

/-- The pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 2 t) (iblk0 V c 0 t) (iblk0 V c 1 t)
    | ⟨4, _⟩ => sumAt0 V c t.val t.isLt
    | ⟨5, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 2 t) (iblk0 V c 0 t) (iblk0 V c 1 t) := by dsimp only [dat0]
theorem after0_4 (c : Dev nD) (t : Fin cfg0.N) : (dat0 V c).after 4 t = sumAt0 V c t.val t.isLt := by dsimp only [dat0]
theorem after0_5 (c : Dev nD) (t : Fin cfg0.N) : (dat0 V c).after 5 t = sqAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a point that is not the first of a core's 25, each running sum's current buffer holds what the body left at
    the point before: that point did not write it back (write-backs are at the points ≡ 24 mod 25). -/
theorem before0_4_B (c : Dev nD) (t : Fin cfg0.N) (h0 : ¬t.val % 25 = 0) (d) :
    (dat0 V c).before 4 t d = sumAt0 V c (t.val - 1) (Nat.lt_of_le_of_lt (Nat.sub_le _ _) t.isLt) := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 25 = 0) (d) :
    (dat0 V c).before 5 t d = sqAt0 V c (t.val - 1) (Nat.lt_of_le_of_lt (Nat.sub_le _ _) t.isLt) := by
  have hN : t.val < 50 := lt_of_lt_of_eq t.isLt (show cfg0.N = 50 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- Each window's current staging memref at point `t`. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks; the closed form of the branch says which case the
    point is in; in the second the running sums' buffers hold what the point before left; so the case's triple
    applies, and the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 25 = 0
  · rw [sumAt0_A V c t h0, sqAt0_A V c t h0]
    iintro ⟨HΦ, Ho, ⟨%d0, H0⟩, ⟨%d1, H1⟩, ⟨%d2, H2⟩, ⟨%d3, H3⟩, ⟨%d4, H4⟩, ⟨%d5, H5⟩⟩
    iapply (sound_kernel0_A c Set.univ (grid0.coords t) ((hcond0 t).mpr h0) _ _ _ _ _ _ _ _ _ _ _ _
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [sumAt0_B V c t h0, sqAt0_B V c t h0]
    simp only [before0_4_B V c t h0, before0_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel0_B c Set.univ (grid0.coords t) (fun h => h0 ((hcond0 t).mp h)) _ _ _ _ _ _ _ _ _ _ _ _
      (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the kernel program: a row block of the encoder's hidden layer is scaled, shifted and rectified,
   rounded, multiplied by the rounded weight matrix and offset by the bias; the block's column sums and column sums
   of squares are accumulated over the 25 row blocks of a core. This module gives the proof data of the region's
   pipeline at the contents the region is entered with, and the body obligation: what each staging buffer holds
   after the body at every grid point, the two accumulators by recursion on the point. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch condition -/

/-- The condition of the body's conditional as a chain of word operations on the second grid coordinate:
    it says that coordinate is zero. -/
abbrev cond1_0 (i : grid1.Coords) : Prop :=
  (Scalar.cmpi .ne (Scalar.extui (Scalar.cmpi .eq (BitVec.ofNat 32 (i 1).val) 0#32)) 0#32) = 1#1

/-- Over the grid (2, 25) it holds exactly at the first point of each run of 25 points. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## Whole-buffer rectangles -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- After a list of stores whose LAST one went through the whole-shape rectangle, the buffer reads as that
    store's payload, whatever it held and whatever the earlier stores were. -/
private theorem read_writes_cons_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩),
    View.canon_cons_unit_zero h]

/-! ## The body's triple, case by case -/

set_option maxHeartbeats 2000000 in
/-- FIRST POINT OF A RUN (second coordinate zero). On whole staging memrefs, the five inputs at read contents
    `x0 … x4` and the three outputs at anything, the body runs to the continuation with the inputs as they
    were, the row-block output at the matmul payload, and the two sum outputs at one accumulation step over the
    zero rows the conditional stored. -/
theorem sound_kernel1_A (c : Dev nD) (E : Set ℕ) (i : grid1.Coords)
    (arg2 : Memref sig .tc .vmem S2000x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S1x1x128 .f32) (harg8 : arg8.IsWhole)
    (arg9 : Memref sig .tc .vmem S1x1x128 .f32) (harg9 : arg9.IsWhole)
    (hc : cond1_0 i)
    (x0 : Vec F S2000x128 .f32) (x1 x2 : Vec F S1x128 .f32) (x3 : Vec F S128x128 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay4 x4 x0 x1 x2 x3)
            ∗ owns (c : Thread nD τ) arg8 fullShare (k1_pay6 x4 x0 x1 x2 x3 k1_pay2)
            ∗ owns (c : Thread nD τ) arg9 fullShare (k1_pay1 (k1_pay5 x4 x0 x1 x2 x3) k1_pay3)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_whole _ _ hz2]
    simp only [View.readAt_eq_ld, View.ld_unit_zero (S := S2000x128) hz2, View.ld_unit_zero (S := S1x128) hz2,
      View.ld_unit_zero (S := S128x128) hz2, View.ld_unit_zero (S := S1x1x128) hz3]
  isplitl [H6]
  · iexists _; isplitr
    swap; · iexact H6
    ipureintro
    sl_unfold_run_names
    rw [read_writes_cons_whole (S := S1x1x128) _ _ hz3, View.readCov_unit_zero (S := S1x1x128) _ hz3]
    simp only [View.readAt_eq_ld, View.ld_unit_zero (S := S2000x128) hz2, View.ld_unit_zero (S := S1x128) hz2,
      View.ld_unit_zero (S := S128x128) hz2, View.ld_unit_zero (S := S1x1x128) hz3]
  iexists _; isplitr
  swap; · iexact H7
  ipureintro
  sl_unfold_run_names
  rw [read_writes_cons_whole (S := S1x1x128) _ _ hz3, View.readCov_unit_zero (S := S1x1x128) _ hz3]
  simp only [View.readAt_eq_ld, View.ld_unit_zero (S := S2000x128) hz2, View.ld_unit_zero (S := S1x128) hz2,
      View.ld_unit_zero (S := S128x128) hz2, View.ld_unit_zero (S := S1x1x128) hz3]

set_option maxHeartbeats 2000000 in
/-- LATER POINTS OF A RUN (second coordinate not zero). The two sum outputs are held at their running contents
    `xo6`, `xo7`; the body leaves each at one accumulation step over them. -/
theorem sound_kernel1_B (c : Dev nD) (E : Set ℕ) (i : grid1.Coords)
    (arg2 : Memref sig .tc .vmem S2000x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S1x1x128 .f32) (harg8 : arg8.IsWhole)
    (arg9 : Memref sig .tc .vmem S1x1x128 .f32) (harg9 : arg9.IsWhole)
    (hc : ¬cond1_0 i)
    (x0 : Vec F S2000x128 .f32) (x1 x2 : Vec F S1x128 .f32) (x3 : Vec F S128x128 .f32) (x4 : Vec F S1x128 .f32)
    (xo6 xo7 : Vec F S1x1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xo6 ∗ owns (c : Thread nD τ) arg9 fullShare xo7
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay4 x4 x0 x1 x2 x3)
            ∗ owns (c : Thread nD τ) arg8 fullShare (k1_pay6 x4 x0 x1 x2 x3 xo6)
            ∗ owns (c : Thread nD τ) arg9 fullShare (k1_pay1 (k1_pay5 x4 x0 x1 x2 x3) xo7)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_whole _ _ hz2]
    simp only [View.readAt_eq_ld, View.ld_unit_zero (S := S2000x128) hz2, View.ld_unit_zero (S := S1x128) hz2,
      View.ld_unit_zero (S := S128x128) hz2, View.ld_unit_zero (S := S1x1x128) hz3]
  isplitl [H6]
  · iexists _; isplitr
    swap; · iexact H6
    ipureintro
    sl_unfold_run_names
    rw [read_writes_cons_whole (S := S1x1x128) _ _ hz3]
    simp only [View.readAt_eq_ld, View.ld_unit_zero (S := S2000x128) hz2, View.ld_unit_zero (S := S1x128) hz2,
      View.ld_unit_zero (S := S128x128) hz2, View.ld_unit_zero (S := S1x1x128) hz3]
  iexists _; isplitr
  swap; · iexact H7
  ipureintro
  sl_unfold_run_names
  rw [read_writes_cons_whole (S := S1x1x128) _ _ hz3]
  simp only [View.readAt_eq_ld, View.ld_unit_zero (S := S2000x128) hz2, View.ld_unit_zero (S := S1x128) hz2,
      View.ld_unit_zero (S := S128x128) hz2, View.ld_unit_zero (S := S1x1x128) hz3]

/-! ## What the outputs hold after each point -/

/-- The row block of the result at point `t`: `relu(x·scale + shift)`, rounded to bf16, times the rounded
    weights, plus the bias — the matmul payload over the point's input blocks. -/
def out1_5 (c : Dev nD) (t : Fin cfg1.N) : Vec F S2000x128 .f32 :=
  k1_pay4 (iblk1 V c 4 t) (iblk1 V c 0 t) (iblk1 V c 1 t) (iblk1 V c 2 t) (iblk1 V c 3 t)

/-- One step of the column sums at point `t`: the block's column sums added to `prev`. -/
def acc1_6 (c : Dev nD) (t : Fin cfg1.N) (prev : Vec F S1x1x128 .f32) : Vec F S1x1x128 .f32 :=
  k1_pay6 (iblk1 V c 4 t) (iblk1 V c 0 t) (iblk1 V c 1 t) (iblk1 V c 2 t) (iblk1 V c 3 t) prev

/-- One step of the sums of squares at point `t`: the block's column sums of squares added to `prev`. -/
def acc1_7 (c : Dev nD) (t : Fin cfg1.N) (prev : Vec F S1x1x128 .f32) : Vec F S1x1x128 .f32 :=
  k1_pay1 (k1_pay5 (iblk1 V c 4 t) (iblk1 V c 0 t) (iblk1 V c 1 t) (iblk1 V c 2 t) (iblk1 V c 3 t)) prev

/-- The column sums after point `n`: restarted from the zero row at the multiples of 25, stepped from the point
    before elsewhere. -/
def sums1_6 (c : Dev nD) : (n : ℕ) → n < cfg1.N → Vec F S1x1x128 .f32
  | 0, hn => acc1_6 V c ⟨0, hn⟩ k1_pay2
  | n + 1, hn =>
    if (n + 1) % 25 = 0 then acc1_6 V c ⟨n + 1, hn⟩ k1_pay2
    else acc1_6 V c ⟨n + 1, hn⟩ (sums1_6 c n (Nat.lt_of_succ_lt hn))

/-- The sums of squares after point `n`, likewise. -/
def sums1_7 (c : Dev nD) : (n : ℕ) → n < cfg1.N → Vec F S1x1x128 .f32
  | 0, hn => acc1_7 V c ⟨0, hn⟩ k1_pay3
  | n + 1, hn =>
    if (n + 1) % 25 = 0 then acc1_7 V c ⟨n + 1, hn⟩ k1_pay3
    else acc1_7 V c ⟨n + 1, hn⟩ (sums1_7 c n (Nat.lt_of_succ_lt hn))

theorem sums1_6_A (c : Dev nD) (t : Fin cfg1.N) (h0 : t.val % 25 = 0) :
    sums1_6 V c t.val t.isLt = acc1_6 V c t k1_pay2 := by
  obtain ⟨n, hn⟩ := t
  cases n with
  | zero => exact rfl
  | succ n => exact (if_pos h0).trans rfl

theorem sums1_6_B (c : Dev nD) (t : Fin cfg1.N) (h0 : ¬t.val % 25 = 0) :
    sums1_6 V c t.val t.isLt = acc1_6 V c t (sums1_6 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sums1_7_A (c : Dev nD) (t : Fin cfg1.N) (h0 : t.val % 25 = 0) :
    sums1_7 V c t.val t.isLt = acc1_7 V c t k1_pay3 := by
  obtain ⟨n, hn⟩ := t
  cases n with
  | zero => exact rfl
  | succ n => exact (if_pos h0).trans rfl

theorem sums1_7_B (c : Dev nD) (t : Fin cfg1.N) (h0 : ¬t.val % 25 = 0) :
    sums1_7 V c t.val t.isLt = acc1_7 V c t (sums1_7 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
    | ⟨6, _⟩ => sums1_6 V c t.val t.isLt
    | ⟨7, _⟩ => sums1_7 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = sums1_6 V c t.val t.isLt := by dsimp only [dat1]
theorem after1_7 (c : Dev nD) (t : Fin cfg1.N) : (dat1 V c).after 7 t = sums1_7 V c t.val t.isLt := by dsimp only [dat1]

/-! ## What the body finds in each staging buffer -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- At a point that is not the first of its run, a sum output's buffer still holds what the body left at the
    point before: that point did not write it back (write-backs are at the points ≡ 24 mod 25). -/
theorem before1_6_B (c : Dev nD) (t : Fin cfg1.N) (h0 : ¬t.val % 25 = 0) (d) :
    (dat1 V c).before 6 t d = sums1_6 V c (t.val - 1) (Nat.lt_of_le_of_lt (Nat.sub_le _ _) t.isLt) := by
  have hN : t.val < 50 := lt_of_lt_of_eq t.isLt (show cfg1.N = 50 from N_1)
  rw [Dat.before_out_kept _ 6 rfl t (by omega) (Bool.eq_false_iff.mpr fun h => by have := (flush1_6 _).mp h; dsimp only at this; omega)
    (fun _ => rfl) (fun _ _ => rfl)]
  dsimp only [dat1]

theorem before1_7_B (c : Dev nD) (t : Fin cfg1.N) (h0 : ¬t.val % 25 = 0) (d) :
    (dat1 V c).before 7 t d = sums1_7 V c (t.val - 1) (Nat.lt_of_le_of_lt (Nat.sub_le _ _) t.isLt) := by
  have hN : t.val < 50 := lt_of_lt_of_eq t.isLt (show cfg1.N = 50 from N_1)
  rw [Dat.before_out_kept _ 7 rfl t (by omega) (Bool.eq_false_iff.mpr fun h => by have := (flush1_7 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1600000 in
/-- The body at any point: the inputs' buffers hold their blocks; the point's position in its run of 25 says which
    case applies; in the later case the sum outputs hold what the point before left. The invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 25 = 0
  · rw [sums1_6_A V c t h0, sums1_7_A V c t h0]
    unfold out1_5 acc1_6 acc1_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) _ _ _ _ _ _ _ _ _ _ _ _ _ _ _ _ ((hcond1_0 t).mpr h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sums1_6_B V c t h0, sums1_7_B V c t h0]
    simp only [before1_6_B V c t h0, before1_7_B V c t h0]
    unfold out1_5 acc1_6 acc1_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ (fun h => h0 ((hcond1_0 t).mp h))
      (iblk1 V c 0 t) (iblk1 V c 1 t) (iblk1 V c 2 t) (iblk1 V c 3 t) (iblk1 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows: the current staging buffer holds the window's block at every point

Each of the five inputs is uncut and never idle, and the body leaves its block in place; so whether or not the
point fetches it, the buffer holds the block of the point (unfetched, the block index has not moved). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_x : Rect S2000x128 := Rect.unit (s := S2000x128) ![0, 0] S2000x128.size inb_S2000x128_S2000x128_0_0
abbrev r2_v : Rect S1x128 := Rect.unit (s := S1x128) ![0, 0] S1x128.size inb_S1x128_S1x128_0_0
abbrev r2_m : Rect S128x128 := Rect.unit (s := S128x128) ![0, 0] S128x128.size inb_S128x128_S128x128_0_0

/-! ## What the body leaves in the output window's buffer

`y = b + relu (x * scale + shift) · w` on the row block: one store of the whole buffer, of the payload at the five
input blocks (`x0` the rows, `x1` the scale, `x2` the shift, `x3` the weights, `x4` the bias). -/

def out2_5 (x0 : Vec F S2000x128 .f32) (x1 x2 : Vec F S1x128 .f32) (x3 : Vec F S128x128 .f32) (x4 : Vec F S1x128 .f32) :
    Vec F S2000x128 .f32 :=
  View.canon [⟨r2_x, k2_pay1 (View.ld x4 r2_v) (View.ld x0 r2_x) (View.ld x1 r2_v) (View.ld x2 r2_v) (View.ld x3 r2_m)⟩]

/-- The one store is of the whole buffer, so it covers it. -/
theorem cover2_5 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

/-! ## The body's triple -/

set_option maxHeartbeats 4000000 in
/-- The body on whole staging memrefs, the inputs' at the contents `x0 … x4` and the output's at anything, runs to
    the continuation holding the inputs' as they were and the output's at `out2_5` of the inputs'. The load of the
    output buffer before the store reads contents nobody names; its value is not used. -/
theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data on core `c`: the arrays as the region finds them; after the body at point `t` each input's
    buffer at its block and the output's at `out2_5` of the five input blocks; the invariant that of a body which
    touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- Region 3 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of `y` sits in its staging buffer at every point: the window is fetched at every point, and
    the body leaves the block where it found it. Stated for any proof data over the region-entry arrays whose
    body keeps window 0's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body touches: the whole 2000 × 128 block. -/
abbrev r3_0 : Rect S2000x128 := Rect.unit (s := S2000x128) ![0, 0] S2000x128.size inb_S2000x128_S2000x128_0_0

/-- The normalised rows: what the body's single store leaves in the output block, from the block of `y`.
    Each row of `y` divided by the larger of its Euclidean norm and the literal 1e-12. -/
def out3_1 (x0 : Vec F S2000x128 .f32) : Vec F S2000x128 .f32 :=
  View.canon [⟨r3_0, k3_pay1 (View.ld x0 r3_0)⟩]

/-- The store is of the whole block, so it covers it. -/
theorem cover3_1 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs: with `y`'s block `x0` in the first and anything in the second, it ends
    with the first unchanged and the second holding the normalised rows of `x0`. The read of the output
    block that precedes the store yields a value nothing uses. -/
theorem sound_kernel3 (c : Dev nD) (E : Set ℕ) (i : grid3.Coords) (arg1 : Memref sig .tc .vmem S2000x128 .f32) (harg1 : arg1.IsWhole)
    (arg2 : Memref sig .tc .vmem S2000x128 .f32) (harg2 : arg2.IsWhole)
    (x0 : Vec F S2000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__l2norm_kernel i arg1 harg1 arg2 harg2) K := by
  simp only [cc3__l2norm_kernel_eq_skeleton]; unfold cc3__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- The block of `y` is in its staging buffer when the body starts, at every point. -/
theorem before3_0 (c : Dev nD) (t : Fin cfg3.N) (d) : (dat3 V c).before 0 t d = iblk3 V c 0 t :=
  before3_0_of V (dat3 V c) (A_eq3 V c 0) (after3_0 V c) t d

/-- What the body starts from at point `t`, the two windows spelled out, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it ends with. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any grid point: the block of `y` is staged, so the body's triple applies; the invariant and
    the tallies are carried across untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- Region 4 of the kernel program: one row-block step of `y = b + x0·w0 + x1·w1 + x2·w2 + x3·w3` with running
   column sums of `y` and `y·y` per sweep of the second grid axis. The body's run in its two cases (the running
   rows zeroed first, or continued), what each window's staging buffer holds after each grid point, the proof data
   of the pipeline at the contents the region is entered with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes

The body forms, on a block of 2000 rows, `y = b + x0·w0 + x1·w1 + x2·w2 + x3·w3` (each product a matrix product
of the block, rounded to bf16, with a 128×128 weight matrix, into a zero accumulator), stores it, and adds the
column sums of `y` and of `y·y` to two running rows. -/

/-- The block of `y` from the four row blocks, the four weights and the bias row. -/
def yrows4 (x0 x1 x2 x3 : Vec F S2000x128 .f32) (w0 w1 w2 w3 : Vec F S128x128 .f32) (b : Vec F S1x128 .f32) : Vec F S2000x128 .f32 :=
  k4_pay1 (k4_pay6 b x0 w0 x1 w1 x2 w2) (k4_pay7 x3) w3

/-- The running row of column sums after the block: what it held, plus the column sums of the block of `y`. -/
def colsum4 (x0 x1 x2 x3 : Vec F S2000x128 .f32) (w0 w1 w2 w3 : Vec F S128x128 .f32) (b : Vec F S1x128 .f32) (acc : Vec F S1x1x128 .f32) : Vec F S1x1x128 .f32 :=
  k4_pay2 (k4_pay6 b x0 w0 x1 w1 x2 w2) (k4_pay7 x3) w3 acc

/-- The running row of column sums of squares after the block. -/
def colsq4 (x0 x1 x2 x3 : Vec F S2000x128 .f32) (w0 w1 w2 w3 : Vec F S128x128 .f32) (b : Vec F S1x128 .f32) (acc : Vec F S1x1x128 .f32) : Vec F S1x1x128 .f32 :=
  k4_pay3 (k4_pay6 b x0 w0 x1 w1 x2 w2) (k4_pay7 x3) w3 acc

/-- The condition of the body's conditional (the running rows are zeroed), from the grid coordinates. -/
abbrev cond4 (i : grid4.Coords) : Prop :=
  (Scalar.cmpi .ne (Scalar.extui (Scalar.cmpi .eq (BitVec.ofNat 32 (i 1).val) 0#32)) 0#32) = 1#1

/-- It holds exactly at the first point of each sweep of the second grid axis. -/
theorem hcond4 : ∀ t : Fin cfg4.N, cond4 (grid4.coords t) ↔ t.val % 25 = 0 :=
  (by decide +kernel : ∀ t : Fin grid4.N, cond4 (grid4.coords t) ↔ t.val % 25 = 0)

private theorem hz2 : (![0, 0] : Fin 2 → ℕ) = fun _ => 0 := by
  funext a; match a with | ⟨0, _⟩ => rfl | ⟨1, _⟩ => rfl
private theorem hz3 : (![0, 0, 0] : Fin 3 → ℕ) = fun _ => 0 := by
  funext a; match a with | ⟨0, _⟩ => rfl | ⟨1, _⟩ => rfl | ⟨2, _⟩ => rfl

set_option maxHeartbeats 4000000 in
/-- The body at a point where the running rows are zeroed first: on whole staging memrefs, the inputs' at their
    contents and the outputs' at anything, it runs to the continuation holding the inputs' as they were, the
    block of `y`, and the two rows started from zero. -/
theorem sound_kernel4_reset (c : Dev nD) (E : Set ℕ) (i : grid4.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : cond4 i) (x0 x1 x2 x3 : Vec F S2000x128 .f32) (w0 w1 w2 w3 : Vec F S128x128 .f32) (b : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows4 x0 x1 x2 x3 w0 w1 w2 w3 b)
            ∗ owns (c : Thread nD τ) arg12 fullShare (colsum4 x0 x1 x2 x3 w0 w1 w2 w3 b k4_pay4)
            ∗ owns (c : Thread nD τ) arg13 fullShare (colsq4 x0 x1 x2 x3 w0 w1 w2 w3 b k4_pay5)) -∗ K ⟨⟩))
      ⊢ wp frame (wpE (defs₀ (F := F)) Variants.none c none) E (cc4_kernel i arg2 harg2 arg3 harg3 arg4 harg4 arg5 harg5 arg6 harg6 arg7 harg7 arg8 harg8 arg9 harg9 arg10 harg10 arg11 harg11 arg12 harg12 arg13 harg13) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf2 hf3 hf4 hf5 hf6 hf7 hf8 hf9 hf10
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows4
    sl_unfold_words
    simp only [View.readAt_eq_ld, View.ld_unit_zero (S := S2000x128) hz2, View.ld_unit_zero (S := S128x128) hz2, View.ld_unit_zero (S := S1x128) hz2, View.readCov_unit_zero (S := S1x1x128) _ hz3]
  isplitl [H12]
  · iexists _; isplitr
    swap; · iexact H12
    ipureintro
    rw [View.read_writes_eq_canon _ _ _ (fun y => ⟨_, List.mem_cons_self, View.mem_set_unit_zero hz3 inb_S1x1x128_S1x1x128_0_0_0 y⟩),
      View.canon_cons_unit_zero hz3]
    unfold colsum4
    sl_unfold_words
    simp only [View.readAt_eq_ld, View.ld_unit_zero (S := S2000x128) hz2, View.ld_unit_zero (S := S128x128) hz2, View.ld_unit_zero (S := S1x128) hz2, View.readCov_unit_zero (S := S1x1x128) _ hz3]
  · iexists _; isplitr
    swap; · iexact H13
    ipureintro
    rw [View.read_writes_eq_canon _ _ _ (fun y => ⟨_, List.mem_cons_self, View.mem_set_unit_zero hz3 inb_S1x1x128_S1x1x128_0_0_0 y⟩),
      View.canon_cons_unit_zero hz3]
    unfold colsq4
    sl_unfold_words
    simp only [View.readAt_eq_ld, View.ld_unit_zero (S := S2000x128) hz2, View.ld_unit_zero (S := S128x128) hz2, View.ld_unit_zero (S := S1x128) hz2, View.readCov_unit_zero (S := S1x1x128) _ hz3]

set_option maxHeartbeats 4000000 in
/-- The body at a later point of a sweep: the two running rows are read at what the point before left (`a12`,
    `a13`) and left with the block's column sums added. -/
theorem sound_kernel4_acc (c : Dev nD) (E : Set ℕ) (i : grid4.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : ¬cond4 i) (x0 x1 x2 x3 : Vec F S2000x128 .f32) (w0 w1 w2 w3 : Vec F S128x128 .f32) (b : Vec F S1x128 .f32) (a12 a13 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ owns (c : Thread nD τ) arg12 fullShare a12 ∗ owns (c : Thread nD τ) arg13 fullShare a13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows4 x0 x1 x2 x3 w0 w1 w2 w3 b)
            ∗ owns (c : Thread nD τ) arg12 fullShare (colsum4 x0 x1 x2 x3 w0 w1 w2 w3 b a12)
            ∗ owns (c : Thread nD τ) arg13 fullShare (colsq4 x0 x1 x2 x3 w0 w1 w2 w3 b a13)) -∗ K ⟨⟩))
      ⊢ wp frame (wpE (defs₀ (F := F)) Variants.none c none) E (cc4_kernel i arg2 harg2 arg3 harg3 arg4 harg4 arg5 harg5 arg6 harg6 arg7 harg7 arg8 harg8 arg9 harg9 arg10 harg10 arg11 harg11 arg12 harg12 arg13 harg13) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  subst hf2 hf3 hf4 hf5 hf6 hf7 hf8 hf9 hf10 hf12 hf13
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows4
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  isplitl [H12]
  · iexists _; isplitr
    swap; · iexact H12
    ipureintro
    rw [View.read_writes_eq_canon _ _ _ (fun y => ⟨_, List.mem_singleton_self _, View.mem_set_unit_zero hz3 inb_S1x1x128_S1x1x128_0_0_0 y⟩),
      View.canon_unit_zero hz3]
    unfold colsum4
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  · iexists _; isplitr
    swap; · iexact H13
    ipureintro
    rw [View.read_writes_eq_canon _ _ _ (fun y => ⟨_, List.mem_singleton_self _, View.mem_set_unit_zero hz3 inb_S1x1x128_S1x1x128_0_0_0 y⟩),
      View.canon_unit_zero hz3]
    unfold colsq4
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]

/-! ## The windows' blocks and the proof data -/

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## What the outputs hold after each point -/

/-- The block of `y` at point `t`: from the four row blocks there, the weights and the bias row. -/
def yStep4 (c : Dev nD) (t : Fin cfg4.N) : Vec F S2000x128 .f32 :=
  yrows4 (iblk4 V c 0 t) (iblk4 V c 1 t) (iblk4 V c 2 t) (iblk4 V c 3 t) (iblk4 V c 4 t) (iblk4 V c 5 t) (iblk4 V c 6 t) (iblk4 V c 7 t) (iblk4 V c 8 t)

/-- One step of the running column sums at point `t`, from what the row held. -/
def sumStep4 (c : Dev nD) (t : Fin cfg4.N) (acc : Vec F S1x1x128 .f32) : Vec F S1x1x128 .f32 :=
  colsum4 (iblk4 V c 0 t) (iblk4 V c 1 t) (iblk4 V c 2 t) (iblk4 V c 3 t) (iblk4 V c 4 t) (iblk4 V c 5 t) (iblk4 V c 6 t) (iblk4 V c 7 t) (iblk4 V c 8 t) acc

/-- One step of the running column sums of squares at point `t`. -/
def sqStep4 (c : Dev nD) (t : Fin cfg4.N) (acc : Vec F S1x1x128 .f32) : Vec F S1x1x128 .f32 :=
  colsq4 (iblk4 V c 0 t) (iblk4 V c 1 t) (iblk4 V c 2 t) (iblk4 V c 3 t) (iblk4 V c 4 t) (iblk4 V c 5 t) (iblk4 V c 6 t) (iblk4 V c 7 t) (iblk4 V c 8 t) acc

/-- The running row of column sums after the body at position `n`: started from zero at the first point of each
    sweep of the second grid axis, otherwise continued from what the point before left. -/
def sumAt4 (c : Dev nD) : (n : ℕ) → n < cfg4.N → Vec F S1x1x128 .f32
  | 0, hn => sumStep4 V c ⟨0, hn⟩ (k4_pay4 (F := F))
  | n + 1, hn =>
    if (n + 1) % 25 = 0 then sumStep4 V c ⟨n + 1, hn⟩ (k4_pay4 (F := F))
    else sumStep4 V c ⟨n + 1, hn⟩ (sumAt4 c n (Nat.lt_of_succ_lt hn))

/-- The running row of column sums of squares after the body at position `n`. -/
def sqAt4 (c : Dev nD) : (n : ℕ) → n < cfg4.N → Vec F S1x1x128 .f32
  | 0, hn => sqStep4 V c ⟨0, hn⟩ (k4_pay5 (F := F))
  | n + 1, hn =>
    if (n + 1) % 25 = 0 then sqStep4 V c ⟨n + 1, hn⟩ (k4_pay5 (F := F))
    else sqStep4 V c ⟨n + 1, hn⟩ (sqAt4 c n (Nat.lt_of_succ_lt hn))

theorem sumAt4_reset (c : Dev nD) (t : Fin cfg4.N) (h0 : t.val % 25 = 0) :
    sumAt4 V c t.val t.isLt = sumStep4 V c t (k4_pay4 (F := F)) := by
  obtain ⟨n, hn⟩ := t
  cases n with
  | zero => exact rfl
  | succ n => exact (if_pos h0).trans rfl

theorem sumAt4_acc (c : Dev nD) (t : Fin cfg4.N) (h0 : ¬t.val % 25 = 0) :
    sumAt4 V c t.val t.isLt = sumStep4 V c t (sumAt4 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sqAt4_reset (c : Dev nD) (t : Fin cfg4.N) (h0 : t.val % 25 = 0) :
    sqAt4 V c t.val t.isLt = sqStep4 V c t (k4_pay5 (F := F)) := by
  obtain ⟨n, hn⟩ := t
  cases n with
  | zero => exact rfl
  | succ n => exact (if_pos h0).trans rfl

theorem sqAt4_acc (c : Dev nD) (t : Fin cfg4.N) (h0 : ¬t.val % 25 = 0) :
    sqAt4 V c t.val t.isLt = sqStep4 V c t (sqAt4 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline's proof data on core `c`: the arrays as the region finds them; after the body at point `t` each
    input's buffer at its block, the block of `y`, and the two running rows. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => yStep4 V c t
    | ⟨10, _⟩ => sumAt4 V c t.val t.isLt
    | ⟨11, _⟩ => sqAt4 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = yStep4 V c t := by dsimp only [dat4]
theorem after4_10 (c : Dev nD) (t : Fin cfg4.N) : (dat4 V c).after 10 t = sumAt4 V c t.val t.isLt := by dsimp only [dat4]
theorem after4_11 (c : Dev nD) (t : Fin cfg4.N) : (dat4 V c).after 11 t = sqAt4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- At a later point of a sweep the running row of sums is found at what the point before left: the point is not the
    first, and the row was not written back between. -/
theorem before4_10_acc (c : Dev nD) (t : Fin cfg4.N) (h0 : ¬t.val % 25 = 0) (d) :
    (dat4 V c).before 10 t d = sumAt4 V c (t.val - 1) (Nat.lt_of_le_of_lt (Nat.sub_le _ _) t.isLt) := by
  rw [Dat.before_out_kept _ 10 rfl t (by omega) (Bool.eq_false_iff.mpr fun h => by have := (flush4_10 _).mp h; dsimp only at this; omega)
    (fun _ => rfl) (fun _ _ => rfl)]
  dsimp only [dat4]

theorem before4_11_acc (c : Dev nD) (t : Fin cfg4.N) (h0 : ¬t.val % 25 = 0) (d) :
    (dat4 V c).before 11 t d = sqAt4 V c (t.val - 1) (Nat.lt_of_le_of_lt (Nat.sub_le _ _) t.isLt) := by
  rw [Dat.before_out_kept _ 11 rfl t (by omega) (Bool.eq_false_iff.mpr fun h => by have := (flush4_11 _).mp h; dsimp only at this; omega)
    (fun _ => rfl) (fun _ _ => rfl)]
  dsimp only [dat4]

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

set_option maxHeartbeats 4000000 in
/-- The body at any point: the inputs' buffers hold their blocks; at the first point of a sweep the running rows are
    zeroed whatever they held, at a later one they hold what the point before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  by_cases h0 : t.val % 25 = 0
  · rw [sumAt4_reset V c t h0, sqAt4_reset V c t h0]
    unfold yStep4 sumStep4 sqStep4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel4_reset c Set.univ (grid4.coords t) _ _ _ _ _ _ _ _ _ _ _ _ _ _ _ _ _ _ _ _ _ _ _ _ ((hcond4 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [sumAt4_acc V c t h0, sqAt4_acc V c t h0]
    simp only [before4_10_acc V c t h0, before4_11_acc V c t h0]
    unfold yStep4 sumStep4 sqStep4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel4_acc c Set.univ (grid4.coords t) _ _ _ _ _ _ _ _ _ _ _ _ _ _ _ _ _ _ _ _ _ _ _ _ (fun h => h0 ((hcond4 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/- Region 5 of the kernel program (an affine map followed by a rectifier, one row block per grid point): the proof
   data of its pipeline at the contents the region is entered with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every grid point, whether the block was brought
    in at that point or at an earlier one: between two fetches the block index does not move, and the body leaves
    the buffer as it found it. Stated for any proof data whose array is the entry contents and whose body keeps
    the block; once per input window (the row block, the scale row, the shift row). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl)
    (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl)
    (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl)
    (fun t => by rw [hafter]; unfold Dat.blockOf iblk5; rw [hA]; try rfl) t d).trans
    (by unfold Dat.fetched Dat.blockOf iblk5; rw [hA]; try rfl)

/-! ## The body's accesses -/

/-- The whole row block. -/
abbrev r5_blk : Rect S2000x128 := Rect.unit (s := S2000x128) ![0, 0] S2000x128.size inb_S2000x128_S2000x128_0_0
/-- The whole row of per-column coefficients. -/
abbrev r5_row : Rect S1x128 := Rect.unit (s := S1x128) ![0, 0] S1x128.size inb_S1x128_S1x128_0_0

/-! ## What the body leaves in the output window's buffer -/

/-- The output buffer after the body, from the three input blocks: one store over the whole block, of the
    rectified affine image of the row block under the two coefficient rows. -/
def out5_3 (y : Vec F S2000x128 .f32) (a : Vec F S1x128 .f32) (b : Vec F S1x128 .f32) : Vec F S2000x128 .f32 :=
  View.canon [⟨r5_blk, k5_pay1 (View.ld y r5_blk) (View.ld a r5_row) (View.ld b r5_row)⟩]

/-- The one store covers the buffer. -/
theorem cover5_3 (p : Vec F S2000x128 .f32) (z : S2000x128.Idx) :
    ∃ pc ∈ ([⟨r5_blk, p⟩] : List (View.Piece (Elt F) S2000x128 .f32)), z ∈ pc.1.set :=
  View.cover_of_tiled [⟨r5_blk, p⟩] S2000x128.size (by rfl) z

/-! ## The body's triple -/

set_option maxHeartbeats 1000000 in
/-- The body on whole staging buffers: the three inputs at known contents, the output at anything. It reads the
    inputs (and, idly, the output), stores the payload over the whole output, and returns with the inputs as they
    were and the output at `out5_3` of them. -/
theorem sound_kernel5 (c : Dev nD) (E : Set ℕ) (i : grid5.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (y : Vec F S2000x128 .f32) (a : Vec F S1x128 .f32) (b : Vec F S1x128 .f32) (K : PUnit → sProp 𝕄) :
    iprop(owns (c : Thread nD τ) arg1 fullShare y ∗ owns (c : Thread nD τ) arg2 fullShare a
        ∗ owns (c : Thread nD τ) arg3 fullShare b ∗ (∃ d, owns (c : Thread nD τ) arg4 fullShare d)
        ∗ (iprop(owns (c : Thread nD τ) arg1 fullShare y ∗ owns (c : Thread nD τ) arg2 fullShare a
            ∗ owns (c : Thread nD τ) arg3 fullShare b ∗ owns (c : Thread nD τ) arg4 fullShare (out5_3 y a b)) -∗ K ⟨⟩))
      ⊢ wp frame (wpE (defs₀ (F := F)) Variants.none c none) E
          (cc5__affine_relu_kernel i arg1 harg1 arg2 harg2 arg3 harg3 arg4 harg4) K := by
  simp only [cc5__affine_relu_kernel_eq_skeleton]; unfold cc5__affine_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_3 _)

/-! ## The pipeline's proof data -/

/-- The pipeline's proof data on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    what the core owes pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/- Region 6 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## An input window's staging buffer holds its block at every point -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body loads and stores through: each a whole buffer -/

abbrev r6_a : Rect S2000x128 := Rect.unit (s := S2000x128) ![0, 0] S2000x128.size inb_S2000x128_S2000x128_0_0
abbrev r6_w : Rect S128x128 := Rect.unit (s := S128x128) ![0, 0] S128x128.size inb_S128x128_S128x128_0_0
abbrev r6_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y6 (x0 x1 : Vec F S2000x128 .f32) (x2 x3 : Vec F S128x128 .f32) (x4 : Vec F S1x128 .f32) : FVec F S2000x128 .f32 :=
  k6_pay4 (View.ld x4 r6_s) (View.ld x0 r6_a) (View.ld x2 r6_w) (View.ld x1 r6_a) (View.ld x3 r6_w)

/-- Window 5: one store of `y` over the whole buffer. -/
def out6_5 (x0 x1 : Vec F S2000x128 .f32) (x2 x3 : Vec F S128x128 .f32) (x4 : Vec F S1x128 .f32) : Vec F S2000x128 .f32 :=
  View.canon [⟨r6_a, y6 x0 x1 x2 x3 x4⟩]

/-- Window 6: the zero row stored first, then the column sums of `y` added onto the row read back. -/
def out6_6 (x0 x1 : Vec F S2000x128 .f32) (x2 x3 : Vec F S128x128 .f32) (x4 : Vec F S1x128 .f32) : Vec F S1x128 .f32 :=
  View.canon [⟨r6_s, k6_pay6 (View.ld x4 r6_s) (View.ld x0 r6_a) (View.ld x2 r6_w) (View.ld x1 r6_a) (View.ld x3 r6_w) (k6_pay2 (F := F))⟩,
    ⟨r6_s, k6_pay2 (F := F)⟩]

/-- Window 7: the zero row stored first, then the column sums of `y·y` added onto the row read back. -/
def out6_7 (x0 x1 : Vec F S2000x128 .f32) (x2 x3 : Vec F S128x128 .f32) (x4 : Vec F S1x128 .f32) : Vec F S1x128 .f32 :=
  View.canon [⟨r6_s, k6_pay1 (k6_pay5 (View.ld x4 r6_s) (View.ld x0 r6_a) (View.ld x2 r6_w) (View.ld x1 r6_a) (View.ld x3 r6_w)) (k6_pay3 (F := F))⟩,
    ⟨r6_s, k6_pay3 (F := F)⟩]

/-- A store through the whole-buffer rectangle covers the buffer, whatever was stored before it. -/
theorem cover6_a (p0 : Vec F S2000x128 .f32) (y : S2000x128.Idx) :
    ∃ pc ∈ ([⟨r6_a, p0⟩] : List (View.Piece (Elt F) S2000x128 .f32)), y ∈ pc.1.set :=
  View.cover_of_tiled [⟨r6_a, p0⟩] S2000x128.size (by rfl) y

theorem cover6_s (p0 p1 : Vec F S1x128 .f32) (y : S1x128.Idx) :
    ∃ pc ∈ ([⟨r6_s, p0⟩, ⟨r6_s, p1⟩] : List (View.Piece (Elt F) S1x128 .f32)), y ∈ pc.1.set := by
  obtain ⟨pc, hpc, hy⟩ := View.cover_of_tiled ([⟨r6_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond6_0 (i : grid6.Coords) : Prop :=
  (Scalar.cmpi .ne (Scalar.extui (Scalar.cmpi .eq (BitVec.ofNat 32 (i 0).val) 0#32)) 0#32) = 1#1
/-- It holds at every point of the grid: decided over the grid. -/
theorem hcond6_0 : ∀ t : Fin cfg6.N, cond6_0 (grid6.coords t) :=
  (by decide +kernel : ∀ t : Fin grid6.N, cond6_0 (grid6.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out6_·` of the inputs'. -/
theorem sound_kernel6 (c : Dev nD) (E : Set ℕ) (i : grid6.Coords) (hc0 : cond6_0 i) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4) ∗ owns (c : Thread nD τ) arg7 fullShare (out6_6 x0 x1 x2 x3 x4)
            ∗ owns (c : Thread nD τ) arg8 fullShare (out6_7 x0 x1 x2 x3 x4)) -∗ K ⟨⟩))
      ⊢ wp frame (wpE (defs₀ (F := F)) Variants.none c none) E (cc6_kernel i arg1 harg1 arg2 harg2 arg3 harg3 arg4 harg4 arg5 harg5 arg6 harg6 arg7 harg7 arg8 harg8) K := by
  simp only [cc6_kernel_eq_skeleton]; unfold cc6_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_a _)
  isplitl [H6]
  · iexists _; isplitr
    swap; · iexact H6
    ipureintro
    sl_unfold_run_names
    refine (View.read_writes_eq_canon _ _ _ (cover6_s _ _)).trans ?_
    unfold out6_6
    rw [View.readCov_cons_toLoadRect]
    rfl
  · iexists _; isplitr
    swap; · iexact H7
    ipureintro
    sl_unfold_run_names
    refine (View.read_writes_eq_canon _ _ _ (cover6_s _ _)).trans ?_
    unfold out6_7
    rw [View.readCov_cons_toLoadRect]
    rfl

/-! ## The pipeline's proof data -/

/-- The proof data of the pipeline on core `c`: the arrays as the region finds them; after the body at point `t`
    each input's buffer at its block and each output's at `out6_·` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
    | ⟨6, _⟩ => out6_6 (iblk6 V c 0 t) (iblk6 V c 1 t) (iblk6 V c 2 t) (iblk6 V c 3 t) (iblk6 V c 4 t)
    | ⟨7, _⟩ => out6_7 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 1000000 in
/-- The body at any point: the inputs' memrefs hold their blocks, the branch is the one taken, so the triple applies;
    the invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) (hcond6_0 t) _ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/- Region 7 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The two rectangles the body touches: each buffer whole -/

/-- All of the large buffer (the operand `y` and the result). -/
abbrev big7 : Rect S2000x128 := Rect.unit (s := S2000x128) ![0, 0] S2000x128.size inb_S2000x128_S2000x128_0_0
/-- All of a one-row buffer (the scale and the shift). -/
abbrev row7 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out7_3 (y : Vec F S2000x128 .f32) (sc sf : Vec F S1x128 .f32) : Vec F S2000x128 .f32 :=
  View.canon [⟨big7, k7_pay1 (View.ld y big7) (View.ld sc row7) (View.ld sf row7)⟩]

/-- That one store reaches every index of the buffer. -/
theorem whole7_3 (p : Vec F S2000x128 .f32) (j : S2000x128.Idx) :
    ∃ pc ∈ ([⟨big7, p⟩] : List (View.Piece (Elt F) S2000x128 .f32)), j ∈ pc.1.set :=
  View.cover_of_tiled [⟨big7, p⟩] S2000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out7_3 y sc sf`. The load of
    the result's buffer before the store reads contents nothing is known of, and its value is dropped. -/
theorem run_kernel7 (c : Dev nD) (E : Set ℕ) (i : grid7.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S2000x128 .f32) (h4 : a4.IsWhole)
    (y : Vec F S2000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out7_3 y sc sf)) -∗ K ⟨⟩))
      ⊢ wp frame (wpE (defs₀ (F := F)) Variants.none c none) E (cc7__affine_relu_kernel i a1 h1 a2 h2 a3 h3 a4 h4) K := by
  simp only [cc7__affine_relu_kernel_eq_skeleton]; unfold cc7__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole7_3 _)

/-! ## The proof data -/

/-- The pipeline's proof data on core `c`: the arrays as the region finds them; after the body each operand's buffer
    still at its block, the result's at `out7_3` of the three blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-! ## What the body finds in the operands' buffers

An operand window is never written by the body, is uncut and has no idle point, so at every point its current buffer
holds the window's block there, whether the pipeline fetched at that point or the block index stood still. -/

theorem before7_0 (c : Dev nD) (t : Fin cfg7.N) (d) : (dat7 V c).before 0 t d = iblk7 V c 0 t :=
  ((dat7 V c).before_in_eq_fetched 0 rfl (fun _ => rfl) (fun _ _ _ => rfl)
    (fun s => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
    (fun s => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl)
    (fun s => by rw [after7_2]; unfold Dat.blockOf iblk7; rw [A_eq7]; try rfl) t d).trans
    (by unfold Dat.fetched Dat.blockOf iblk7; rw [A_eq7]; try rfl)

/-! ## The body obligation -/

/-- The body at a point `t`, on the current staging buffers: the operands' buffers hold their blocks, the invariant
    and what the core owes ride along untouched. -/
theorem run_body7 (c : Dev nD) (t : Fin cfg7.N) :
    iprop((dat7 V c).Φ t.castSucc ∗ (dat7 V c).owesAt () t.castSucc
        ∗ (∃ d, owns (c : Thread nD τ) (st7_0 t) fullShare ((dat7 V c).before 0 t d))
        ∗ (∃ d, owns (c : Thread nD τ) (st7_1 t) fullShare ((dat7 V c).before 1 t d))
        ∗ (∃ d, owns (c : Thread nD τ) (st7_2 t) fullShare ((dat7 V c).before 2 t d))
        ∗ (∃ d, owns (c : Thread nD τ) (st7_3 t) fullShare ((dat7 V c).before 3 t d)))
      ⊢ wp frame (wpE (defs₀ (F := F)) Variants.none c none) Set.univ (bodyAt7 t) (fun _ =>
        iprop((dat7 V c).Φ t.succ ∗ (dat7 V c).owesAt () t.succ
          ∗ owns (c : Thread nD τ) (st7_0 t) fullShare ((dat7 V c).after 0 t)
          ∗ owns (c : Thread nD τ) (st7_1 t) fullShare ((dat7 V c).after 1 t)
          ∗ owns (c : Thread nD τ) (st7_2 t) fullShare ((dat7 V c).after 2 t)
          ∗ owns (c : Thread nD τ) (st7_3 t) fullShare ((dat7 V c).after 3 t))) := by
  unfold bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, B0⟩, ⟨%d1, B1⟩, ⟨%d2, B2⟩, ⟨%d3, B3⟩⟩
  iapply (run_kernel7 c Set.univ _ _ _ _ _ _ _ _ _ (iblk7 V c 0 t) (iblk7 V c 1 t) (iblk7 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation7 (c : Dev nD) : BodyObligation (dat7 (F := F) V c) (defs₀ (F := F)) Variants.none () Set.univ := fun t => by
  rw [bigSep_W7, bigSep_W7]
  exact run_body7 V c t

end Cert.KernelIdeal.Hand

end
-- ==== Proof.KI.R8.lean ====
/- Region 8 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## An input window's staging buffer holds its block at every point -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The rectangles the body loads and stores through: each a whole buffer -/

abbrev r8_a : Rect S5000x128 := Rect.unit (s := S5000x128) ![0, 0] S5000x128.size inb_S5000x128_S5000x128_0_0
abbrev r8_w : Rect S128x128 := Rect.unit (s := S128x128) ![0, 0] S128x128.size inb_S128x128_S128x128_0_0
abbrev r8_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y8 (x0 x1 : Vec F S5000x128 .f32) (x2 x3 : Vec F S128x128 .f32) (x4 : Vec F S1x128 .f32) : FVec F S5000x128 .f32 :=
  k8_pay4 (View.ld x4 r8_s) (View.ld x0 r8_a) (View.ld x2 r8_w) (View.ld x1 r8_a) (View.ld x3 r8_w)

/-- Window 5: one store of `y` over the whole buffer. -/
def out8_5 (x0 x1 : Vec F S5000x128 .f32) (x2 x3 : Vec F S128x128 .f32) (x4 : Vec F S1x128 .f32) : Vec F S5000x128 .f32 :=
  View.canon [⟨r8_a, y8 x0 x1 x2 x3 x4⟩]

/-- Window 6: the zero row stored first, then the column sums of `y` added onto the row read back. -/
def out8_6 (x0 x1 : Vec F S5000x128 .f32) (x2 x3 : Vec F S128x128 .f32) (x4 : Vec F S1x128 .f32) : Vec F S1x128 .f32 :=
  View.canon [⟨r8_s, k8_pay6 (View.ld x4 r8_s) (View.ld x0 r8_a) (View.ld x2 r8_w) (View.ld x1 r8_a) (View.ld x3 r8_w) (k8_pay2 (F := F))⟩,
    ⟨r8_s, k8_pay2 (F := F)⟩]

/-- Window 7: the zero row stored first, then the column sums of `y·y` added onto the row read back. -/
def out8_7 (x0 x1 : Vec F S5000x128 .f32) (x2 x3 : Vec F S128x128 .f32) (x4 : Vec F S1x128 .f32) : Vec F S1x128 .f32 :=
  View.canon [⟨r8_s, k8_pay1 (k8_pay5 (View.ld x4 r8_s) (View.ld x0 r8_a) (View.ld x2 r8_w) (View.ld x1 r8_a) (View.ld x3 r8_w)) (k8_pay3 (F := F))⟩,
    ⟨r8_s, k8_pay3 (F := F)⟩]

/-- A store through the whole-buffer rectangle covers the buffer, whatever was stored before it. -/
theorem cover8_a (p0 : Vec F S5000x128 .f32) (y : S5000x128.Idx) :
    ∃ pc ∈ ([⟨r8_a, p0⟩] : List (View.Piece (Elt F) S5000x128 .f32)), y ∈ pc.1.set :=
  View.cover_of_tiled [⟨r8_a, p0⟩] S5000x128.size (by rfl) y

theorem cover8_s (p0 p1 : Vec F S1x128 .f32) (y : S1x128.Idx) :
    ∃ pc ∈ ([⟨r8_s, p0⟩, ⟨r8_s, p1⟩] : List (View.Piece (Elt F) S1x128 .f32)), y ∈ pc.1.set := by
  obtain ⟨pc, hpc, hy⟩ := View.cover_of_tiled ([⟨r8_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond8_0 (i : grid8.Coords) : Prop :=
  (Scalar.cmpi .ne (Scalar.extui (Scalar.cmpi .eq (BitVec.ofNat 32 (i 0).val) 0#32)) 0#32) = 1#1
/-- It holds at every point of the grid: decided over the grid. -/
theorem hcond8_0 : ∀ t : Fin cfg8.N, cond8_0 (grid8.coords t) :=
  (by decide +kernel : ∀ t : Fin grid8.N, cond8_0 (grid8.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out8_·` of the inputs'. -/
theorem sound_kernel8 (c : Dev nD) (E : Set ℕ) (i : grid8.Coords) (hc0 : cond8_0 i) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4) ∗ owns (c : Thread nD τ) arg7 fullShare (out8_6 x0 x1 x2 x3 x4)
            ∗ owns (c : Thread nD τ) arg8 fullShare (out8_7 x0 x1 x2 x3 x4)) -∗ K ⟨⟩))
      ⊢ wp frame (wpE (defs₀ (F := F)) Variants.none c none) E (cc8_kernel i arg1 harg1 arg2 harg2 arg3 harg3 arg4 harg4 arg5 harg5 arg6 harg6 arg7 harg7 arg8 harg8) K := by
  simp only [cc8_kernel_eq_skeleton]; unfold cc8_kernel_skel
  simp only [k8_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover8_a _)
  isplitl [H6]
  · iexists _; isplitr
    swap; · iexact H6
    ipureintro
    sl_unfold_run_names
    refine (View.read_writes_eq_canon _ _ _ (cover8_s _ _)).trans ?_
    unfold out8_6
    rw [View.readCov_cons_toLoadRect]
    rfl
  · iexists _; isplitr
    swap; · iexact H7
    ipureintro
    sl_unfold_run_names
    refine (View.read_writes_eq_canon _ _ _ (cover8_s _ _)).trans ?_
    unfold out8_7
    rw [View.readCov_cons_toLoadRect]
    rfl

/-! ## The pipeline's proof data -/

/-- The proof data of the pipeline on core `c`: the arrays as the region finds them; after the body at point `t`
    each input's buffer at its block and each output's at `out8_·` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
    | ⟨6, _⟩ => out8_6 (iblk8 V c 0 t) (iblk8 V c 1 t) (iblk8 V c 2 t) (iblk8 V c 3 t) (iblk8 V c 4 t)
    | ⟨7, _⟩ => out8_7 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

set_option maxHeartbeats 1000000 in
/-- The body at any point: the inputs' memrefs hold their blocks, the branch is the one taken, so the triple applies;
    the invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) (hcond8_0 t) _ _ _ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
/- Region 9 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The two rectangles the body touches: each buffer whole -/

/-- All of the large buffer (the operand `y` and the result). -/
abbrev big9 : Rect S5000x128 := Rect.unit (s := S5000x128) ![0, 0] S5000x128.size inb_S5000x128_S5000x128_0_0
/-- All of a one-row buffer (the scale and the shift). -/
abbrev row9 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out9_3 (y : Vec F S5000x128 .f32) (sc sf : Vec F S1x128 .f32) : Vec F S5000x128 .f32 :=
  View.canon [⟨big9, k9_pay1 (View.ld y big9) (View.ld sc row9) (View.ld sf row9)⟩]

/-- That one store reaches every index of the buffer. -/
theorem whole9_3 (p : Vec F S5000x128 .f32) (j : S5000x128.Idx) :
    ∃ pc ∈ ([⟨big9, p⟩] : List (View.Piece (Elt F) S5000x128 .f32)), j ∈ pc.1.set :=
  View.cover_of_tiled [⟨big9, p⟩] S5000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out9_3 y sc sf`. The load of
    the result's buffer before the store reads contents nothing is known of, and its value is dropped. -/
theorem run_kernel9 (c : Dev nD) (E : Set ℕ) (i : grid9.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S5000x128 .f32) (h4 : a4.IsWhole)
    (y : Vec F S5000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out9_3 y sc sf)) -∗ K ⟨⟩))
      ⊢ wp frame (wpE (defs₀ (F := F)) Variants.none c none) E (cc9__affine_relu_kernel i a1 h1 a2 h2 a3 h3 a4 h4) K := by
  simp only [cc9__affine_relu_kernel_eq_skeleton]; unfold cc9__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole9_3 _)

/-! ## The proof data -/

/-- The pipeline's proof data on core `c`: the arrays as the region finds them; after the body each operand's buffer
    still at its block, the result's at `out9_3` of the three blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-! ## What the body finds in the operands' buffers

An operand window is never written by the body, is uncut and has no idle point, so at every point its current buffer
holds the window's block there, whether the pipeline fetched at that point or the block index stood still. -/

theorem before9_0 (c : Dev nD) (t : Fin cfg9.N) (d) : (dat9 V c).before 0 t d = iblk9 V c 0 t :=
  ((dat9 V c).before_in_eq_fetched 0 rfl (fun _ => rfl) (fun _ _ _ => rfl)
    (fun s => by rw [after9_0]; unfold Dat.blockOf iblk9; rw [A_eq9]; try rfl) t d).trans
    (by unfold Dat.fetched Dat.blockOf iblk9; rw [A_eq9]; try rfl)

theorem before9_1 (c : Dev nD) (t : Fin cfg9.N) (d) : (dat9 V c).before 1 t d = iblk9 V c 1 t :=
  ((dat9 V c).before_in_eq_fetched 1 rfl (fun _ => rfl) (fun _ _ _ => rfl)
    (fun s => by rw [after9_1]; unfold Dat.blockOf iblk9; rw [A_eq9]; try rfl) t d).trans
    (by unfold Dat.fetched Dat.blockOf iblk9; rw [A_eq9]; try rfl)

theorem before9_2 (c : Dev nD) (t : Fin cfg9.N) (d) : (dat9 V c).before 2 t d = iblk9 V c 2 t :=
  ((dat9 V c).before_in_eq_fetched 2 rfl (fun _ => rfl) (fun _ _ _ => rfl)
    (fun s => by rw [after9_2]; unfold Dat.blockOf iblk9; rw [A_eq9]; try rfl) t d).trans
    (by unfold Dat.fetched Dat.blockOf iblk9; rw [A_eq9]; try rfl)

/-! ## The body obligation -/

/-- The body at a point `t`, on the current staging buffers: the operands' buffers hold their blocks, the invariant
    and what the core owes ride along untouched. -/
theorem run_body9 (c : Dev nD) (t : Fin cfg9.N) :
    iprop((dat9 V c).Φ t.castSucc ∗ (dat9 V c).owesAt () t.castSucc
        ∗ (∃ d, owns (c : Thread nD τ) (st9_0 t) fullShare ((dat9 V c).before 0 t d))
        ∗ (∃ d, owns (c : Thread nD τ) (st9_1 t) fullShare ((dat9 V c).before 1 t d))
        ∗ (∃ d, owns (c : Thread nD τ) (st9_2 t) fullShare ((dat9 V c).before 2 t d))
        ∗ (∃ d, owns (c : Thread nD τ) (st9_3 t) fullShare ((dat9 V c).before 3 t d)))
      ⊢ wp frame (wpE (defs₀ (F := F)) Variants.none c none) Set.univ (bodyAt9 t) (fun _ =>
        iprop((dat9 V c).Φ t.succ ∗ (dat9 V c).owesAt () t.succ
          ∗ owns (c : Thread nD τ) (st9_0 t) fullShare ((dat9 V c).after 0 t)
          ∗ owns (c : Thread nD τ) (st9_1 t) fullShare ((dat9 V c).after 1 t)
          ∗ owns (c : Thread nD τ) (st9_2 t) fullShare ((dat9 V c).after 2 t)
          ∗ owns (c : Thread nD τ) (st9_3 t) fullShare ((dat9 V c).after 3 t))) := by
  unfold bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, B0⟩, ⟨%d1, B1⟩, ⟨%d2, B2⟩, ⟨%d3, B3⟩⟩
  iapply (run_kernel9 c Set.univ _ _ _ _ _ _ _ _ _ (iblk9 V c 0 t) (iblk9 V c 1 t) (iblk9 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation9 (c : Dev nD) : BodyObligation (dat9 (F := F) V c) (defs₀ (F := F)) Variants.none () Set.univ := fun t => by
  rw [bigSep_W9, bigSep_W9]
  exact run_body9 V c t

end Cert.KernelIdeal.Hand

end
-- ==== Proof.KI.R10.lean ====
/- Region 10 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## An input window's staging buffer holds its block at every point -/

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The rectangles the body loads and stores through: each a whole buffer -/

abbrev r10_a : Rect S3000x128 := Rect.unit (s := S3000x128) ![0, 0] S3000x128.size inb_S3000x128_S3000x128_0_0
abbrev r10_w : Rect S128x128 := Rect.unit (s := S128x128) ![0, 0] S128x128.size inb_S128x128_S128x128_0_0
abbrev r10_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y10 (x0 x1 : Vec F S3000x128 .f32) (x2 x3 : Vec F S128x128 .f32) (x4 : Vec F S1x128 .f32) : FVec F S3000x128 .f32 :=
  k10_pay4 (View.ld x4 r10_s) (View.ld x0 r10_a) (View.ld x2 r10_w) (View.ld x1 r10_a) (View.ld x3 r10_w)

/-- Window 5: one store of `y` over the whole buffer. -/
def out10_5 (x0 x1 : Vec F S3000x128 .f32) (x2 x3 : Vec F S128x128 .f32) (x4 : Vec F S1x128 .f32) : Vec F S3000x128 .f32 :=
  View.canon [⟨r10_a, y10 x0 x1 x2 x3 x4⟩]

/-- Window 6: the zero row stored first, then the column sums of `y` added onto the row read back. -/
def out10_6 (x0 x1 : Vec F S3000x128 .f32) (x2 x3 : Vec F S128x128 .f32) (x4 : Vec F S1x128 .f32) : Vec F S1x128 .f32 :=
  View.canon [⟨r10_s, k10_pay6 (View.ld x4 r10_s) (View.ld x0 r10_a) (View.ld x2 r10_w) (View.ld x1 r10_a) (View.ld x3 r10_w) (k10_pay2 (F := F))⟩,
    ⟨r10_s, k10_pay2 (F := F)⟩]

/-- Window 7: the zero row stored first, then the column sums of `y·y` added onto the row read back. -/
def out10_7 (x0 x1 : Vec F S3000x128 .f32) (x2 x3 : Vec F S128x128 .f32) (x4 : Vec F S1x128 .f32) : Vec F S1x128 .f32 :=
  View.canon [⟨r10_s, k10_pay1 (k10_pay5 (View.ld x4 r10_s) (View.ld x0 r10_a) (View.ld x2 r10_w) (View.ld x1 r10_a) (View.ld x3 r10_w)) (k10_pay3 (F := F))⟩,
    ⟨r10_s, k10_pay3 (F := F)⟩]

/-- A store through the whole-buffer rectangle covers the buffer, whatever was stored before it. -/
theorem cover10_a (p0 : Vec F S3000x128 .f32) (y : S3000x128.Idx) :
    ∃ pc ∈ ([⟨r10_a, p0⟩] : List (View.Piece (Elt F) S3000x128 .f32)), y ∈ pc.1.set :=
  View.cover_of_tiled [⟨r10_a, p0⟩] S3000x128.size (by rfl) y

theorem cover10_s (p0 p1 : Vec F S1x128 .f32) (y : S1x128.Idx) :
    ∃ pc ∈ ([⟨r10_s, p0⟩, ⟨r10_s, p1⟩] : List (View.Piece (Elt F) S1x128 .f32)), y ∈ pc.1.set := by
  obtain ⟨pc, hpc, hy⟩ := View.cover_of_tiled ([⟨r10_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond10_0 (i : grid10.Coords) : Prop :=
  (Scalar.cmpi .ne (Scalar.extui (Scalar.cmpi .eq (BitVec.ofNat 32 (i 0).val) 0#32)) 0#32) = 1#1
/-- It holds at every point of the grid: decided over the grid. -/
theorem hcond10_0 : ∀ t : Fin cfg10.N, cond10_0 (grid10.coords t) :=
  (by decide +kernel : ∀ t : Fin grid10.N, cond10_0 (grid10.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out10_·` of the inputs'. -/
theorem sound_kernel10 (c : Dev nD) (E : Set ℕ) (i : grid10.Coords) (hc0 : cond10_0 i) (arg1 : Memref sig .tc .vmem S3000x128 .f32) (harg1 : arg1.IsWhole) (arg2 : Memref sig .tc .vmem S3000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S3000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S3000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out10_5 x0 x1 x2 x3 x4) ∗ owns (c : Thread nD τ) arg7 fullShare (out10_6 x0 x1 x2 x3 x4)
            ∗ owns (c : Thread nD τ) arg8 fullShare (out10_7 x0 x1 x2 x3 x4)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover10_a _)
  isplitl [H6]
  · iexists _; isplitr
    swap; · iexact H6
    ipureintro
    sl_unfold_run_names
    refine (View.read_writes_eq_canon _ _ _ (cover10_s _ _)).trans ?_
    unfold out10_6
    rw [View.readCov_cons_toLoadRect]
    rfl
  · iexists _; isplitr
    swap; · iexact H7
    ipureintro
    sl_unfold_run_names
    refine (View.read_writes_eq_canon _ _ _ (cover10_s _ _)).trans ?_
    unfold out10_7
    rw [View.readCov_cons_toLoadRect]
    rfl

/-! ## The pipeline's proof data -/

/-- The proof data of the pipeline on core `c`: the arrays as the region finds them; after the body at point `t`
    each input's buffer at its block and each output's at `out10_·` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
    | ⟨6, _⟩ => out10_6 (iblk10 V c 0 t) (iblk10 V c 1 t) (iblk10 V c 2 t) (iblk10 V c 3 t) (iblk10 V c 4 t)
    | ⟨7, _⟩ => out10_7 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

set_option maxHeartbeats 1000000 in
/-- The body at any point: the inputs' memrefs hold their blocks, the branch is the one taken, so the triple applies;
    the invariant and the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ (grid10.coords t) (hcond10_0 t) _ _ _ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
/- Region 11 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The two rectangles the body touches: each buffer whole -/

/-- All of the large buffer (the operand `y` and the result). -/
abbrev big11 : Rect S3000x128 := Rect.unit (s := S3000x128) ![0, 0] S3000x128.size inb_S3000x128_S3000x128_0_0
/-- All of a one-row buffer (the scale and the shift). -/
abbrev row11 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out11_3 (y : Vec F S3000x128 .f32) (sc sf : Vec F S1x128 .f32) : Vec F S3000x128 .f32 :=
  View.canon [⟨big11, k11_pay1 (View.ld y big11) (View.ld sc row11) (View.ld sf row11)⟩]

/-- That one store reaches every index of the buffer. -/
theorem whole11_3 (p : Vec F S3000x128 .f32) (j : S3000x128.Idx) :
    ∃ pc ∈ ([⟨big11, p⟩] : List (View.Piece (Elt F) S3000x128 .f32)), j ∈ pc.1.set :=
  View.cover_of_tiled [⟨big11, p⟩] S3000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out11_3 y sc sf`. The load of
    the result's buffer before the store reads contents nothing is known of, and its value is dropped. -/
theorem run_kernel11 (c : Dev nD) (E : Set ℕ) (i : grid11.Coords)
    (a1 : Memref sig .tc .vmem S3000x128 .f32) (h1 : a1.IsWhole) (a2 : Memref sig .tc .vmem S1x128 .f32) (h2 : a2.IsWhole)
    (a3 : Memref sig .tc .vmem S1x128 .f32) (h3 : a3.IsWhole) (a4 : Memref sig .tc .vmem S3000x128 .f32) (h4 : a4.IsWhole)
    (y : Vec F S3000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out11_3 y sc sf)) -∗ K ⟨⟩))
      ⊢ wp frame (wpE (defs₀ (F := F)) Variants.none c none) E (cc11__affine_relu_kernel i a1 h1 a2 h2 a3 h3 a4 h4) K := by
  simp only [cc11__affine_relu_kernel_eq_skeleton]; unfold cc11__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole11_3 _)

/-! ## The proof data -/

/-- The pipeline's proof data on core `c`: the arrays as the region finds them; after the body each operand's buffer
    still at its block, the result's at `out11_3` of the three blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-! ## What the body finds in the operands' buffers

An operand window is never written by the body, is uncut and has no idle point, so at every point its current buffer
holds the window's block there, whether the pipeline fetched at that point or the block index stood still. -/

theorem before11_0 (c : Dev nD) (t : Fin cfg11.N) (d) : (dat11 V c).before 0 t d = iblk11 V c 0 t :=
  ((dat11 V c).before_in_eq_fetched 0 rfl (fun _ => rfl) (fun _ _ _ => rfl)
    (fun s => by rw [after11_0]; unfold Dat.blockOf iblk11; rw [A_eq11]; try rfl) t d).trans
    (by unfold Dat.fetched Dat.blockOf iblk11; rw [A_eq11]; try rfl)

theorem before11_1 (c : Dev nD) (t : Fin cfg11.N) (d) : (dat11 V c).before 1 t d = iblk11 V c 1 t :=
  ((dat11 V c).before_in_eq_fetched 1 rfl (fun _ => rfl) (fun _ _ _ => rfl)
    (fun s => by rw [after11_1]; unfold Dat.blockOf iblk11; rw [A_eq11]; try rfl) t d).trans
    (by unfold Dat.fetched Dat.blockOf iblk11; rw [A_eq11]; try rfl)

theorem before11_2 (c : Dev nD) (t : Fin cfg11.N) (d) : (dat11 V c).before 2 t d = iblk11 V c 2 t :=
  ((dat11 V c).before_in_eq_fetched 2 rfl (fun _ => rfl) (fun _ _ _ => rfl)
    (fun s => by rw [after11_2]; unfold Dat.blockOf iblk11; rw [A_eq11]; try rfl) t d).trans
    (by unfold Dat.fetched Dat.blockOf iblk11; rw [A_eq11]; try rfl)

/-! ## The body obligation -/

/-- The body at a point `t`, on the current staging buffers: the operands' buffers hold their blocks, the invariant
    and what the core owes ride along untouched. -/
theorem run_body11 (c : Dev nD) (t : Fin cfg11.N) :
    iprop((dat11 V c).Φ t.castSucc ∗ (dat11 V c).owesAt () t.castSucc
        ∗ (∃ d, owns (c : Thread nD τ) (st11_0 t) fullShare ((dat11 V c).before 0 t d))
        ∗ (∃ d, owns (c : Thread nD τ) (st11_1 t) fullShare ((dat11 V c).before 1 t d))
        ∗ (∃ d, owns (c : Thread nD τ) (st11_2 t) fullShare ((dat11 V c).before 2 t d))
        ∗ (∃ d, owns (c : Thread nD τ) (st11_3 t) fullShare ((dat11 V c).before 3 t d)))
      ⊢ wp frame (wpE (defs₀ (F := F)) Variants.none c none) Set.univ (bodyAt11 t) (fun _ =>
        iprop((dat11 V c).Φ t.succ ∗ (dat11 V c).owesAt () t.succ
          ∗ owns (c : Thread nD τ) (st11_0 t) fullShare ((dat11 V c).after 0 t)
          ∗ owns (c : Thread nD τ) (st11_1 t) fullShare ((dat11 V c).after 1 t)
          ∗ owns (c : Thread nD τ) (st11_2 t) fullShare ((dat11 V c).after 2 t)
          ∗ owns (c : Thread nD τ) (st11_3 t) fullShare ((dat11 V c).after 3 t))) := by
  unfold bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, B0⟩, ⟨%d1, B1⟩, ⟨%d2, B2⟩, ⟨%d3, B3⟩⟩
  iapply (run_kernel11 c Set.univ _ _ _ _ _ _ _ _ _ (iblk11 V c 0 t) (iblk11 V c 1 t) (iblk11 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation11 (c : Dev nD) : BodyObligation (dat11 (F := F) V c) (defs₀ (F := F)) Variants.none () Set.univ := fun t => by
  rw [bigSep_W11, bigSep_W11]
  exact run_body11 V c t

end Cert.KernelIdeal.Hand

end
-- ==== Proof.KI.R12.lean ====
/- Region 12 of the kernel program: one row-block step of `y = b + x0·w0 + x1·w1 + x2·w2 + x3·w3` with running
   column sums of `y` and `y·y` per sweep of the second grid axis. The body's run in its two cases (the running
   rows zeroed first, or continued), what each window's staging buffer holds after each grid point, the proof data
   of the pipeline at the contents the region is entered with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes

The body forms, on a block of 2000 rows, `y = b + x0·w0 + x1·w1 + x2·w2 + x3·w3` (each product a matrix product
of the block, rounded to bf16, with a 128×128 weight matrix, into a zero accumulator), stores it, and adds the
column sums of `y` and of `y·y` to two running rows. -/

/-- The block of `y` from the four row blocks, the four weights and the bias row. -/
def yrows12 (x0 x1 x2 x3 : Vec F S2000x128 .f32) (w0 w1 w2 w3 : Vec F S128x128 .f32) (b : Vec F S1x128 .f32) : Vec F S2000x128 .f32 :=
  k12_pay1 (k12_pay6 b x0 w0 x1 w1 x2 w2) (k12_pay7 x3) w3

/-- The running row of column sums after the block: what it held, plus the column sums of the block of `y`. -/
def colsum12 (x0 x1 x2 x3 : Vec F S2000x128 .f32) (w0 w1 w2 w3 : Vec F S128x128 .f32) (b : Vec F S1x128 .f32) (acc : Vec F S1x1x128 .f32) : Vec F S1x1x128 .f32 :=
  k12_pay2 (k12_pay6 b x0 w0 x1 w1 x2 w2) (k12_pay7 x3) w3 acc

/-- The running row of column sums of squares after the block. -/
def colsq12 (x0 x1 x2 x3 : Vec F S2000x128 .f32) (w0 w1 w2 w3 : Vec F S128x128 .f32) (b : Vec F S1x128 .f32) (acc : Vec F S1x1x128 .f32) : Vec F S1x1x128 .f32 :=
  k12_pay3 (k12_pay6 b x0 w0 x1 w1 x2 w2) (k12_pay7 x3) w3 acc

/-- The condition of the body's conditional (the running rows are zeroed), from the grid coordinates. -/
abbrev cond12 (i : grid12.Coords) : Prop :=
  (Scalar.cmpi .ne (Scalar.extui (Scalar.cmpi .eq (BitVec.ofNat 32 (i 1).val) 0#32)) 0#32) = 1#1

/-- It holds exactly at the first point of each sweep of the second grid axis. -/
theorem hcond12 : ∀ t : Fin cfg12.N, cond12 (grid12.coords t) ↔ t.val % 25 = 0 :=
  (by decide +kernel : ∀ t : Fin grid12.N, cond12 (grid12.coords t) ↔ t.val % 25 = 0)

private theorem hz2 : (![0, 0] : Fin 2 → ℕ) = fun _ => 0 := by
  funext a; match a with | ⟨0, _⟩ => rfl | ⟨1, _⟩ => rfl
private theorem hz3 : (![0, 0, 0] : Fin 3 → ℕ) = fun _ => 0 := by
  funext a; match a with | ⟨0, _⟩ => rfl | ⟨1, _⟩ => rfl | ⟨2, _⟩ => rfl

set_option maxHeartbeats 4000000 in
/-- The body at a point where the running rows are zeroed first: on whole staging memrefs, the inputs' at their
    contents and the outputs' at anything, it runs to the continuation holding the inputs' as they were, the
    block of `y`, and the two rows started from zero. -/
theorem sound_kernel12_reset (c : Dev nD) (E : Set ℕ) (i : grid12.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : cond12 i) (x0 x1 x2 x3 : Vec F S2000x128 .f32) (w0 w1 w2 w3 : Vec F S128x128 .f32) (b : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows12 x0 x1 x2 x3 w0 w1 w2 w3 b)
            ∗ owns (c : Thread nD τ) arg12 fullShare (colsum12 x0 x1 x2 x3 w0 w1 w2 w3 b k12_pay4)
            ∗ owns (c : Thread nD τ) arg13 fullShare (colsq12 x0 x1 x2 x3 w0 w1 w2 w3 b k12_pay5)) -∗ K ⟨⟩))
      ⊢ wp frame (wpE (defs₀ (F := F)) Variants.none c none) E (cc12_kernel i arg2 harg2 arg3 harg3 arg4 harg4 arg5 harg5 arg6 harg6 arg7 harg7 arg8 harg8 arg9 harg9 arg10 harg10 arg11 harg11 arg12 harg12 arg13 harg13) K := by
  simp only [cc12_kernel_eq_skeleton]; unfold cc12_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf2 hf3 hf4 hf5 hf6 hf7 hf8 hf9 hf10
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows12
    sl_unfold_words
    simp only [View.readAt_eq_ld, View.ld_unit_zero (S := S2000x128) hz2, View.ld_unit_zero (S := S128x128) hz2, View.ld_unit_zero (S := S1x128) hz2, View.readCov_unit_zero (S := S1x1x128) _ hz3]
  isplitl [H12]
  · iexists _; isplitr
    swap; · iexact H12
    ipureintro
    rw [View.read_writes_eq_canon _ _ _ (fun y => ⟨_, List.mem_cons_self, View.mem_set_unit_zero hz3 inb_S1x1x128_S1x1x128_0_0_0 y⟩),
      View.canon_cons_unit_zero hz3]
    unfold colsum12
    sl_unfold_words
    simp only [View.readAt_eq_ld, View.ld_unit_zero (S := S2000x128) hz2, View.ld_unit_zero (S := S128x128) hz2, View.ld_unit_zero (S := S1x128) hz2, View.readCov_unit_zero (S := S1x1x128) _ hz3]
  · iexists _; isplitr
    swap; · iexact H13
    ipureintro
    rw [View.read_writes_eq_canon _ _ _ (fun y => ⟨_, List.mem_cons_self, View.mem_set_unit_zero hz3 inb_S1x1x128_S1x1x128_0_0_0 y⟩),
      View.canon_cons_unit_zero hz3]
    unfold colsq12
    sl_unfold_words
    simp only [View.readAt_eq_ld, View.ld_unit_zero (S := S2000x128) hz2, View.ld_unit_zero (S := S128x128) hz2, View.ld_unit_zero (S := S1x128) hz2, View.readCov_unit_zero (S := S1x1x128) _ hz3]

set_option maxHeartbeats 4000000 in
/-- The body at a later point of a sweep: the two running rows are read at what the point before left (`a12`,
    `a13`) and left with the block's column sums added. -/
theorem sound_kernel12_acc (c : Dev nD) (E : Set ℕ) (i : grid12.Coords) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x1x128 .f32) (harg12 : arg12.IsWhole) (arg13 : Memref sig .tc .vmem S1x1x128 .f32) (harg13 : arg13.IsWhole)
    (hc : ¬cond12 i) (x0 x1 x2 x3 : Vec F S2000x128 .f32) (w0 w1 w2 w3 : Vec F S128x128 .f32) (b : Vec F S1x128 .f32) (a12 a13 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
        ∗ (∃ d, owns (c : Thread nD τ) arg11 fullShare d) ∗ owns (c : Thread nD τ) arg12 fullShare a12 ∗ owns (c : Thread nD τ) arg13 fullShare a13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare w0 ∗ owns (c : Thread nD τ) arg7 fullShare w1 ∗ owns (c : Thread nD τ) arg8 fullShare w2 ∗ owns (c : Thread nD τ) arg9 fullShare w3 ∗ owns (c : Thread nD τ) arg10 fullShare b
            ∗ owns (c : Thread nD τ) arg11 fullShare (yrows12 x0 x1 x2 x3 w0 w1 w2 w3 b)
            ∗ owns (c : Thread nD τ) arg12 fullShare (colsum12 x0 x1 x2 x3 w0 w1 w2 w3 b a12)
            ∗ owns (c : Thread nD τ) arg13 fullShare (colsq12 x0 x1 x2 x3 w0 w1 w2 w3 b a13)) -∗ K ⟨⟩))
      ⊢ wp frame (wpE (defs₀ (F := F)) Variants.none c none) E (cc12_kernel i arg2 harg2 arg3 harg3 arg4 harg4 arg5 harg5 arg6 harg6 arg7 harg7 arg8 harg8 arg9 harg9 arg10 harg10 arg11 harg11 arg12 harg12 arg13 harg13) K := by
  simp only [cc12_kernel_eq_skeleton]; unfold cc12_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  subst hf2 hf3 hf4 hf5 hf6 hf7 hf8 hf9 hf10 hf12 hf13
  sl_exec (disch := first | exact hc)
  sl_step

  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S2000x128_S2000x128_0_0 y⟩),
      View.canon_unit_zero hz2]
    unfold yrows12
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  isplitl [H12]
  · iexists _; isplitr
    swap; · iexact H12
    ipureintro
    rw [View.read_writes_eq_canon _ _ _ (fun y => ⟨_, List.mem_singleton_self _, View.mem_set_unit_zero hz3 inb_S1x1x128_S1x1x128_0_0_0 y⟩),
      View.canon_unit_zero hz3]
    unfold colsum12
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]
  · iexists _; isplitr
    swap; · iexact H13
    ipureintro
    rw [View.read_writes_eq_canon _ _ _ (fun y => ⟨_, List.mem_singleton_self _, View.mem_set_unit_zero hz3 inb_S1x1x128_S1x1x128_0_0_0 y⟩),
      View.canon_unit_zero hz3]
    unfold colsq12
    sl_unfold_words
    simp only [View.readAt_eq_ld, View.ld_unit_zero (S := S2000x128) hz2, View.ld_unit_zero (S := S128x128) hz2, View.ld_unit_zero (S := S1x128) hz2, View.ld_unit_zero (S := S1x1x128) hz3, View.readCov_unit_zero (S := S1x1x128) _ hz3]

/-! ## The windows' blocks and the proof data -/

variable (V : (c : Dev nD) → (b : Ref sig .tc) → Buf (Elt F) ((c : Thread nD τ).loc b))

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-- Input window 7's current staging buffer holds its block at every point, fetched there or not. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- Input window 8's current staging buffer holds its block at every point, fetched there or not. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-! ## What the outputs hold after each point -/

/-- The block of `y` at point `t`: from the four row blocks there, the weights and the bias row. -/
def yStep12 (c : Dev nD) (t : Fin cfg12.N) : Vec F S2000x128 .f32 :=
  yrows12 (iblk12 V c 0 t) (iblk12 V c 1 t) (iblk12 V c 2 t) (iblk12 V c 3 t) (iblk12 V c 4 t) (iblk12 V c 5 t) (iblk12 V c 6 t) (iblk12 V c 7 t) (iblk12 V c 8 t)

/-- One step of the running column sums at point `t`, from what the row held. -/
def sumStep12 (c : Dev nD) (t : Fin cfg12.N) (acc : Vec F S1x1x128 .f32) : Vec F S1x1x128 .f32 :=
  colsum12 (iblk12 V c 0 t) (iblk12 V c 1 t) (iblk12 V c 2 t) (iblk12 V c 3 t) (iblk12 V c 4 t) (iblk12 V c 5 t) (iblk12 V c 6 t) (iblk12 V c 7 t) (iblk12 V c 8 t) acc

/-- One step of the running column sums of squares at point `t`. -/
def sqStep12 (c : Dev nD) (t : Fin cfg12.N) (acc : Vec F S1x1x128 .f32) : Vec F S1x1x128 .f32 :=
  colsq12 (iblk12 V c 0 t) (iblk12 V c 1 t) (iblk12 V c 2 t) (iblk12 V c 3 t) (iblk12 V c 4 t) (iblk12 V c 5 t) (iblk12 V c 6 t) (iblk12 V c 7 t) (iblk12 V c 8 t) acc

/-- The running row of column sums after the body at position `n`: started from zero at the first point of each
    sweep of the second grid axis, otherwise continued from what the point before left. -/
def sumAt12 (c : Dev nD) : (n : ℕ) → n < cfg12.N → Vec F S1x1x128 .f32
  | 0, hn => sumStep12 V c ⟨0, hn⟩ (k12_pay4 (F := F))
  | n + 1, hn =>
    if (n + 1) % 25 = 0 then sumStep12 V c ⟨n + 1, hn⟩ (k12_pay4 (F := F))
    else sumStep12 V c ⟨n + 1, hn⟩ (sumAt12 c n (Nat.lt_of_succ_lt hn))

/-- The running row of column sums of squares after the body at position `n`. -/
def sqAt12 (c : Dev nD) : (n : ℕ) → n < cfg12.N → Vec F S1x1x128 .f32
  | 0, hn => sqStep12 V c ⟨0, hn⟩ (k12_pay5 (F := F))
  | n + 1, hn =>
    if (n + 1) % 25 = 0 then sqStep12 V c ⟨n + 1, hn⟩ (k12_pay5 (F := F))
    else sqStep12 V c ⟨n + 1, hn⟩ (sqAt12 c n (Nat.lt_of_succ_lt hn))

theorem sumAt12_reset (c : Dev nD) (t : Fin cfg12.N) (h0 : t.val % 25 = 0) :
    sumAt12 V c t.val t.isLt = sumStep12 V c t (k12_pay4 (F := F)) := by
  obtain ⟨n, hn⟩ := t
  cases n with
  | zero => exact rfl
  | succ n => exact (if_pos h0).trans rfl

theorem sumAt12_acc (c : Dev nD) (t : Fin cfg12.N) (h0 : ¬t.val % 25 = 0) :
    sumAt12 V c t.val t.isLt = sumStep12 V c t (sumAt12 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sqAt12_reset (c : Dev nD) (t : Fin cfg12.N) (h0 : t.val % 25 = 0) :
    sqAt12 V c t.val t.isLt = sqStep12 V c t (k12_pay5 (F := F)) := by
  obtain ⟨n, hn⟩ := t
  cases n with
  | zero => exact rfl
  | succ n => exact (if_pos h0).trans rfl

theorem sqAt12_acc (c : Dev nD) (t : Fin cfg12.N) (h0 : ¬t.val % 25 = 0) :
    sqAt12 V c t.val t.isLt = sqStep12 V c t (sqAt12 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline's proof data on core `c`: the arrays as the region finds them; after the body at point `t` each
    input's buffer at its block, the block of `y`, and the two running rows. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => yStep12 V c t
    | ⟨10, _⟩ => sumAt12 V c t.val t.isLt
    | ⟨11, _⟩ => sqAt12 V c t.val t.isLt
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = yStep12 V c t := by dsimp only [dat12]
theorem after12_10 (c : Dev nD) (t : Fin cfg12.N) : (dat12 V c).after 10 t = sumAt12 V c t.val t.isLt := by dsimp only [dat12]
theorem after12_11 (c : Dev nD) (t : Fin cfg12.N) : (dat12 V c).after 11 t = sqAt12 V c t.val t.isLt := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

/-- At a later point of a sweep the running row of sums is found at what the point before left: the point is not the
    first, and the row was not written back between. -/
theorem before12_10_acc (c : Dev nD) (t : Fin cfg12.N) (h0 : ¬t.val % 25 = 0) (d) :
    (dat12 V c).before 10 t d = sumAt12 V c (t.val - 1) (Nat.lt_of_le_of_lt (Nat.sub_le _ _) t.isLt) := by
  rw [Dat.before_out_kept _ 10 rfl t (by omega) (Bool.eq_false_iff.mpr fun h => by have := (flush12_10 _).mp h; dsimp only at this; omega)
    (fun _ => rfl) (fun _ _ => rfl)]
  dsimp only [dat12]

theorem before12_11_acc (c : Dev nD) (t : Fin cfg12.N) (h0 : ¬t.val % 25 = 0) (d) :
    (dat12 V c).before 11 t d = sqAt12 V c (t.val - 1) (Nat.lt_of_le_of_lt (Nat.sub_le _ _) t.isLt) := by
  rw [Dat.before_out_kept _ 11 rfl t (by omega) (Bool.eq_false_iff.mpr fun h => by have := (flush12_11 _).mp h; dsimp only at this; omega)
    (fun _ => rfl) (fun _ _ => rfl)]
  dsimp only [dat12]

/-! ## The body obligation -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

set_option maxHeartbeats 4000000 in
/-- The body at any point: the inputs' buffers hold their blocks; at the first point of a sweep the running rows are
    zeroed whatever they held, at a later one they hold what the point before left. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  by_cases h0 : t.val % 25 = 0
  · rw [sumAt12_reset V c t h0, sqAt12_reset V c t h0]
    unfold yStep12 sumStep12 sqStep12
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel12_reset c Set.univ (grid12.coords t) _ _ _ _ _ _ _ _ _ _ _ _ _ _ _ _ _ _ _ _ _ _ _ _ ((hcond12 t).mpr h0) (iblk12 V c 0 t) (iblk12 V c 1 t) (iblk12 V c 2 t) (iblk12 V c 3 t) (iblk12 V c 4 t) (iblk12 V c 5 t) (iblk12 V c 6 t) (iblk12 V c 7 t) (iblk12 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [sumAt12_acc V c t h0, sqAt12_acc V c t h0]
    simp only [before12_10_acc V c t h0, before12_11_acc V c t h0]
    unfold yStep12 sumStep12 sqStep12
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel12_acc c Set.univ (grid12.coords t) _ _ _ _ _ _ _ _ _ _ _ _ _ _ _ _ _ _ _ _ _ _ _ _ (fun h => h0 ((hcond12 t).mp h)) (iblk12 V c 0 t) (iblk12 V c 1 t) (iblk12 V c 2 t) (iblk12 V c 3 t) (iblk12 V c 4 t) (iblk12 V c 5 t) (iblk12 V c 6 t) (iblk12 V c 7 t) (iblk12 V c 8 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.R13.lean ====
/- Region 13 of the kernel program (an affine map followed by a rectifier, one row block per grid point): the proof
   data of its pipeline at the contents the region is entered with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's staging buffer holds the window's block at every grid point, whether the block was brought
    in at that point or at an earlier one: between two fetches the block index does not move, and the body leaves
    the buffer as it found it. Stated for any proof data whose array is the entry contents and whose body keeps
    the block; once per input window (the row block, the scale row, the shift row). -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl)
    (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl)
    (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl)
    (fun t => by rw [hafter]; unfold Dat.blockOf iblk13; rw [hA]; try rfl) t d).trans
    (by unfold Dat.fetched Dat.blockOf iblk13; rw [hA]; try rfl)

/-! ## The body's accesses -/

/-- The whole row block. -/
abbrev r13_blk : Rect S2000x128 := Rect.unit (s := S2000x128) ![0, 0] S2000x128.size inb_S2000x128_S2000x128_0_0
/-- The whole row of per-column coefficients. -/
abbrev r13_row : Rect S1x128 := Rect.unit (s := S1x128) ![0, 0] S1x128.size inb_S1x128_S1x128_0_0

/-! ## What the body leaves in the output window's buffer -/

/-- The output buffer after the body, from the three input blocks: one store over the whole block, of the
    rectified affine image of the row block under the two coefficient rows. -/
def out13_3 (y : Vec F S2000x128 .f32) (a : Vec F S1x128 .f32) (b : Vec F S1x128 .f32) : Vec F S2000x128 .f32 :=
  View.canon [⟨r13_blk, k13_pay1 (View.ld y r13_blk) (View.ld a r13_row) (View.ld b r13_row)⟩]

/-- The one store covers the buffer. -/
theorem cover13_3 (p : Vec F S2000x128 .f32) (z : S2000x128.Idx) :
    ∃ pc ∈ ([⟨r13_blk, p⟩] : List (View.Piece (Elt F) S2000x128 .f32)), z ∈ pc.1.set :=
  View.cover_of_tiled [⟨r13_blk, p⟩] S2000x128.size (by rfl) z

/-! ## The body's triple -/

set_option maxHeartbeats 1000000 in
/-- The body on whole staging buffers: the three inputs at known contents, the output at anything. It reads the
    inputs (and, idly, the output), stores the payload over the whole output, and returns with the inputs as they
    were and the output at `out13_3` of them. -/
theorem sound_kernel13 (c : Dev nD) (E : Set ℕ) (i : grid13.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (y : Vec F S2000x128 .f32) (a : Vec F S1x128 .f32) (b : Vec F S1x128 .f32) (K : PUnit → sProp 𝕄) :
    iprop(owns (c : Thread nD τ) arg1 fullShare y ∗ owns (c : Thread nD τ) arg2 fullShare a
        ∗ owns (c : Thread nD τ) arg3 fullShare b ∗ (∃ d, owns (c : Thread nD τ) arg4 fullShare d)
        ∗ (iprop(owns (c : Thread nD τ) arg1 fullShare y ∗ owns (c : Thread nD τ) arg2 fullShare a
            ∗ owns (c : Thread nD τ) arg3 fullShare b ∗ owns (c : Thread nD τ) arg4 fullShare (out13_3 y a b)) -∗ K ⟨⟩))
      ⊢ wp frame (wpE (defs₀ (F := F)) Variants.none c none) E
          (cc13__affine_relu_kernel i arg1 harg1 arg2 harg2 arg3 harg3 arg4 harg4) K := by
  simp only [cc13__affine_relu_kernel_eq_skeleton]; unfold cc13__affine_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_3 _)

/-! ## The pipeline's proof data -/

/-- The pipeline's proof data on core `c`. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

/-- Each input's staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' buffers hold their blocks, so the body's triple applies; the invariant and
    what the core owes pass through untouched. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.R14.lean ====
/- Region 14 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## An input window's staging buffer holds its block at every point -/

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The rectangles the body loads and stores through: each a whole buffer -/

abbrev r14_a : Rect S2000x128 := Rect.unit (s := S2000x128) ![0, 0] S2000x128.size inb_S2000x128_S2000x128_0_0
abbrev r14_w : Rect S128x128 := Rect.unit (s := S128x128) ![0, 0] S128x128.size inb_S128x128_S128x128_0_0
abbrev r14_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y14 (x0 x1 : Vec F S2000x128 .f32) (x2 x3 : Vec F S128x128 .f32) (x4 : Vec F S1x128 .f32) : FVec F S2000x128 .f32 :=
  k14_pay4 (View.ld x4 r14_s) (View.ld x0 r14_a) (View.ld x2 r14_w) (View.ld x1 r14_a) (View.ld x3 r14_w)

/-- Window 5: one store of `y` over the whole buffer. -/
def out14_5 (x0 x1 : Vec F S2000x128 .f32) (x2 x3 : Vec F S128x128 .f32) (x4 : Vec F S1x128 .f32) : Vec F S2000x128 .f32 :=
  View.canon [⟨r14_a, y14 x0 x1 x2 x3 x4⟩]

/-- Window 6: the zero row stored first, then the column sums of `y` added onto the row read back. -/
def out14_6 (x0 x1 : Vec F S2000x128 .f32) (x2 x3 : Vec F S128x128 .f32) (x4 : Vec F S1x128 .f32) : Vec F S1x128 .f32 :=
  View.canon [⟨r14_s, k14_pay6 (View.ld x4 r14_s) (View.ld x0 r14_a) (View.ld x2 r14_w) (View.ld x1 r14_a) (View.ld x3 r14_w) (k14_pay2 (F := F))⟩,
    ⟨r14_s, k14_pay2 (F := F)⟩]

/-- Window 7: the zero row stored first, then the column sums of `y·y` added onto the row read back. -/
def out14_7 (x0 x1 : Vec F S2000x128 .f32) (x2 x3 : Vec F S128x128 .f32) (x4 : Vec F S1x128 .f32) : Vec F S1x128 .f32 :=
  View.canon [⟨r14_s, k14_pay1 (k14_pay5 (View.ld x4 r14_s) (View.ld x0 r14_a) (View.ld x2 r14_w) (View.ld x1 r14_a) (View.ld x3 r14_w)) (k14_pay3 (F := F))⟩,
    ⟨r14_s, k14_pay3 (F := F)⟩]

/-- A store through the whole-buffer rectangle covers the buffer, whatever was stored before it. -/
theorem cover14_a (p0 : Vec F S2000x128 .f32) (y : S2000x128.Idx) :
    ∃ pc ∈ ([⟨r14_a, p0⟩] : List (View.Piece (Elt F) S2000x128 .f32)), y ∈ pc.1.set :=
  View.cover_of_tiled [⟨r14_a, p0⟩] S2000x128.size (by rfl) y

theorem cover14_s (p0 p1 : Vec F S1x128 .f32) (y : S1x128.Idx) :
    ∃ pc ∈ ([⟨r14_s, p0⟩, ⟨r14_s, p1⟩] : List (View.Piece (Elt F) S1x128 .f32)), y ∈ pc.1.set := by
  obtain ⟨pc, hpc, hy⟩ := View.cover_of_tiled ([⟨r14_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond14_0 (i : grid14.Coords) : Prop :=
  (Scalar.cmpi .ne (Scalar.extui (Scalar.cmpi .eq (BitVec.ofNat 32 (i 0).val) 0#32)) 0#32) = 1#1
/-- It holds at every point of the grid: decided over the grid. -/
theorem hcond14_0 : ∀ t : Fin cfg14.N, cond14_0 (grid14.coords t) :=
  (by decide +kernel : ∀ t : Fin grid14.N, cond14_0 (grid14.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out14_·` of the inputs'. -/
theorem sound_kernel14 (c : Dev nD) (E : Set ℕ) (i : grid14.Coords) (hc0 : cond14_0 i) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S2000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out14_5 x0 x1 x2 x3 x4) ∗ owns (c : Thread nD τ) arg7 fullShare (out14_6 x0 x1 x2 x3 x4)
            ∗ owns (c : Thread nD τ) arg8 fullShare (out14_7 x0 x1 x2 x3 x4)) -∗ K ⟨⟩))
      ⊢ wp frame (wpE (defs₀ (F := F)) Variants.none c none) E (cc14_kernel i arg1 harg1 arg2 harg2 arg3 harg3 arg4 harg4 arg5 harg5 arg6 harg6 arg7 harg7 arg8 harg8) K := by
  simp only [cc14_kernel_eq_skeleton]; unfold cc14_kernel_skel
  simp only [k14_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover14_a _)
  isplitl [H6]
  · iexists _; isplitr
    swap; · iexact H6
    ipureintro
    sl_unfold_run_names
    refine (View.read_writes_eq_canon _ _ _ (cover14_s _ _)).trans ?_
    unfold out14_6
    rw [View.readCov_cons_toLoadRect]
    rfl
  · iexists _; isplitr
    swap; · iexact H7
    ipureintro
    sl_unfold_run_names
    refine (View.read_writes_eq_canon _ _ _ (cover14_s _ _)).trans ?_
    unfold out14_7
    rw [View.readCov_cons_toLoadRect]
    rfl

/-! ## The pipeline's proof data -/

/-- The proof data of the pipeline on core `c`: the arrays as the region finds them; after the body at point `t`
    each input's buffer at its block and each output's at `out14_·` of the input blocks; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
    | ⟨6, _⟩ => out14_6 (iblk14 V c 0 t) (iblk14 V c 1 t) (iblk14 V c 2 t) (iblk14 V c 3 t) (iblk14 V c 4 t)
    | ⟨7, _⟩ => out14_7 (iblk14 V c 0 t) (iblk14 V c 1 t) (iblk14 V c 2 t) (iblk14 V c 3 t) (iblk14 V c 4 t)
  Φ _ := Pipeline.ΦA spec14 c
  q _ := fullShare
  owed _ := 0

theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) := by dsimp only [dat14]
theorem after14_7 (c : Dev nD) (t : Fin cfg14.N) : (dat14 V c).after 7 t = out14_7 (iblk14 V c 0 t) (iblk14 V c 1 t) (iblk14 V c 2 t) (iblk14 V c 3 t) (iblk14 V c 4 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t))

set_option maxHeartbeats 1000000 in
/-- The body at any point: the inputs' memrefs hold their blocks, the branch is the one taken, so the triple applies;
    the invariant and the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel14 c Set.univ (grid14.coords t) (hcond14_0 t) _ _ _ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.R15.lean ====
/- Region 15 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The two rectangles the body touches: each buffer whole -/

/-- All of the large buffer (the operand `y` and the result). -/
abbrev big15 : Rect S2000x128 := Rect.unit (s := S2000x128) ![0, 0] S2000x128.size inb_S2000x128_S2000x128_0_0
/-- All of a one-row buffer (the scale and the shift). -/
abbrev row15 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out15_3 (y : Vec F S2000x128 .f32) (sc sf : Vec F S1x128 .f32) : Vec F S2000x128 .f32 :=
  View.canon [⟨big15, k15_pay1 (View.ld y big15) (View.ld sc row15) (View.ld sf row15)⟩]

/-- That one store reaches every index of the buffer. -/
theorem whole15_3 (p : Vec F S2000x128 .f32) (j : S2000x128.Idx) :
    ∃ pc ∈ ([⟨big15, p⟩] : List (View.Piece (Elt F) S2000x128 .f32)), j ∈ pc.1.set :=
  View.cover_of_tiled [⟨big15, p⟩] S2000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out15_3 y sc sf`. The load of
    the result's buffer before the store reads contents nothing is known of, and its value is dropped. -/
theorem run_kernel15 (c : Dev nD) (E : Set ℕ) (i : grid15.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S2000x128 .f32) (h4 : a4.IsWhole)
    (y : Vec F S2000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out15_3 y sc sf)) -∗ K ⟨⟩))
      ⊢ wp frame (wpE (defs₀ (F := F)) Variants.none c none) E (cc15__affine_relu_kernel i a1 h1 a2 h2 a3 h3 a4 h4) K := by
  simp only [cc15__affine_relu_kernel_eq_skeleton]; unfold cc15__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole15_3 _)

/-! ## The proof data -/

/-- The pipeline's proof data on core `c`: the arrays as the region finds them; after the body each operand's buffer
    still at its block, the result's at `out15_3` of the three blocks. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

/-! ## What the body finds in the operands' buffers

An operand window is never written by the body, is uncut and has no idle point, so at every point its current buffer
holds the window's block there, whether the pipeline fetched at that point or the block index stood still. -/

theorem before15_0 (c : Dev nD) (t : Fin cfg15.N) (d) : (dat15 V c).before 0 t d = iblk15 V c 0 t :=
  ((dat15 V c).before_in_eq_fetched 0 rfl (fun _ => rfl) (fun _ _ _ => rfl)
    (fun s => by rw [after15_0]; unfold Dat.blockOf iblk15; rw [A_eq15]; try rfl) t d).trans
    (by unfold Dat.fetched Dat.blockOf iblk15; rw [A_eq15]; try rfl)

theorem before15_1 (c : Dev nD) (t : Fin cfg15.N) (d) : (dat15 V c).before 1 t d = iblk15 V c 1 t :=
  ((dat15 V c).before_in_eq_fetched 1 rfl (fun _ => rfl) (fun _ _ _ => rfl)
    (fun s => by rw [after15_1]; unfold Dat.blockOf iblk15; rw [A_eq15]; try rfl) t d).trans
    (by unfold Dat.fetched Dat.blockOf iblk15; rw [A_eq15]; try rfl)

theorem before15_2 (c : Dev nD) (t : Fin cfg15.N) (d) : (dat15 V c).before 2 t d = iblk15 V c 2 t :=
  ((dat15 V c).before_in_eq_fetched 2 rfl (fun _ => rfl) (fun _ _ _ => rfl)
    (fun s => by rw [after15_2]; unfold Dat.blockOf iblk15; rw [A_eq15]; try rfl) t d).trans
    (by unfold Dat.fetched Dat.blockOf iblk15; rw [A_eq15]; try rfl)

/-! ## The body obligation -/

/-- The body at a point `t`, on the current staging buffers: the operands' buffers hold their blocks, the invariant
    and what the core owes ride along untouched. -/
theorem run_body15 (c : Dev nD) (t : Fin cfg15.N) :
    iprop((dat15 V c).Φ t.castSucc ∗ (dat15 V c).owesAt () t.castSucc
        ∗ (∃ d, owns (c : Thread nD τ) (st15_0 t) fullShare ((dat15 V c).before 0 t d))
        ∗ (∃ d, owns (c : Thread nD τ) (st15_1 t) fullShare ((dat15 V c).before 1 t d))
        ∗ (∃ d, owns (c : Thread nD τ) (st15_2 t) fullShare ((dat15 V c).before 2 t d))
        ∗ (∃ d, owns (c : Thread nD τ) (st15_3 t) fullShare ((dat15 V c).before 3 t d)))
      ⊢ wp frame (wpE (defs₀ (F := F)) Variants.none c none) Set.univ (bodyAt15 t) (fun _ =>
        iprop((dat15 V c).Φ t.succ ∗ (dat15 V c).owesAt () t.succ
          ∗ owns (c : Thread nD τ) (st15_0 t) fullShare ((dat15 V c).after 0 t)
          ∗ owns (c : Thread nD τ) (st15_1 t) fullShare ((dat15 V c).after 1 t)
          ∗ owns (c : Thread nD τ) (st15_2 t) fullShare ((dat15 V c).after 2 t)
          ∗ owns (c : Thread nD τ) (st15_3 t) fullShare ((dat15 V c).after 3 t))) := by
  unfold bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, B0⟩, ⟨%d1, B1⟩, ⟨%d2, B2⟩, ⟨%d3, B3⟩⟩
  iapply (run_kernel15 c Set.univ _ _ _ _ _ _ _ _ _ (iblk15 V c 0 t) (iblk15 V c 1 t) (iblk15 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation15 (c : Dev nD) : BodyObligation (dat15 (F := F) V c) (defs₀ (F := F)) Variants.none () Set.univ := fun t => by
  rw [bigSep_W15, bigSep_W15]
  exact run_body15 V c t

end Cert.KernelIdeal.Hand

end
-- ==== Proof.KI.R16.lean ====
/- Region 16 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## An input window's staging buffer holds its block at every point -/

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The rectangles the body loads and stores through: each a whole buffer -/

abbrev r16_a : Rect S5000x128 := Rect.unit (s := S5000x128) ![0, 0] S5000x128.size inb_S5000x128_S5000x128_0_0
abbrev r16_w : Rect S128x128 := Rect.unit (s := S128x128) ![0, 0] S128x128.size inb_S128x128_S128x128_0_0
abbrev r16_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y16 (x0 x1 : Vec F S5000x128 .f32) (x2 x3 : Vec F S128x128 .f32) (x4 : Vec F S1x128 .f32) : FVec F S5000x128 .f32 :=
  k16_pay4 (View.ld x4 r16_s) (View.ld x0 r16_a) (View.ld x2 r16_w) (View.ld x1 r16_a) (View.ld x3 r16_w)

/-- Window 5: one store of `y` over the whole buffer. -/
def out16_5 (x0 x1 : Vec F S5000x128 .f32) (x2 x3 : Vec F S128x128 .f32) (x4 : Vec F S1x128 .f32) : Vec F S5000x128 .f32 :=
  View.canon [⟨r16_a, y16 x0 x1 x2 x3 x4⟩]

/-- Window 6: the zero row stored first, then the column sums of `y` added onto the row read back. -/
def out16_6 (x0 x1 : Vec F S5000x128 .f32) (x2 x3 : Vec F S128x128 .f32) (x4 : Vec F S1x128 .f32) : Vec F S1x128 .f32 :=
  View.canon [⟨r16_s, k16_pay6 (View.ld x4 r16_s) (View.ld x0 r16_a) (View.ld x2 r16_w) (View.ld x1 r16_a) (View.ld x3 r16_w) (k16_pay2 (F := F))⟩,
    ⟨r16_s, k16_pay2 (F := F)⟩]

/-- Window 7: the zero row stored first, then the column sums of `y·y` added onto the row read back. -/
def out16_7 (x0 x1 : Vec F S5000x128 .f32) (x2 x3 : Vec F S128x128 .f32) (x4 : Vec F S1x128 .f32) : Vec F S1x128 .f32 :=
  View.canon [⟨r16_s, k16_pay1 (k16_pay5 (View.ld x4 r16_s) (View.ld x0 r16_a) (View.ld x2 r16_w) (View.ld x1 r16_a) (View.ld x3 r16_w)) (k16_pay3 (F := F))⟩,
    ⟨r16_s, k16_pay3 (F := F)⟩]

/-- A store through the whole-buffer rectangle covers the buffer, whatever was stored before it. -/
theorem cover16_a (p0 : Vec F S5000x128 .f32) (y : S5000x128.Idx) :
    ∃ pc ∈ ([⟨r16_a, p0⟩] : List (View.Piece (Elt F) S5000x128 .f32)), y ∈ pc.1.set :=
  View.cover_of_tiled [⟨r16_a, p0⟩] S5000x128.size (by rfl) y

theorem cover16_s (p0 p1 : Vec F S1x128 .f32) (y : S1x128.Idx) :
    ∃ pc ∈ ([⟨r16_s, p0⟩, ⟨r16_s, p1⟩] : List (View.Piece (Elt F) S1x128 .f32)), y ∈ pc.1.set := by
  obtain ⟨pc, hpc, hy⟩ := View.cover_of_tiled ([⟨r16_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond16_0 (i : grid16.Coords) : Prop :=
  (Scalar.cmpi .ne (Scalar.extui (Scalar.cmpi .eq (BitVec.ofNat 32 (i 0).val) 0#32)) 0#32) = 1#1
/-- It holds at every point of the grid: decided over the grid. -/
theorem hcond16_0 : ∀ t : Fin cfg16.N, cond16_0 (grid16.coords t) :=
  (by decide +kernel : ∀ t : Fin grid16.N, cond16_0 (grid16.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out16_·` of the inputs'. -/
theorem sound_kernel16 (c : Dev nD) (E : Set ℕ) (i : grid16.Coords) (hc0 : cond16_0 i) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out16_5 x0 x1 x2 x3 x4) ∗ owns (c : Thread nD τ) arg7 fullShare (out16_6 x0 x1 x2 x3 x4)
            ∗ owns (c : Thread nD τ) arg8 fullShare (out16_7 x0 x1 x2 x3 x4)) -∗ K ⟨⟩))
      ⊢ wp frame (wpE (defs₀ (F := F)) Variants.none c none) E (cc16_kernel i arg1 harg1 arg2 harg2 arg3 harg3 arg4 harg4 arg5 harg5 arg6 harg6 arg7 harg7 arg8 harg8) K := by
  simp only [cc16_kernel_eq_skeleton]; unfold cc16_kernel_skel
  simp only [k16_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover16_a _)
  isplitl [H6]
  · iexists _; isplitr
    swap; · iexact H6
    ipureintro
    sl_unfold_run_names
    refine (View.read_writes_eq_canon _ _ _ (cover16_s _ _)).trans ?_
    unfold out16_6
    rw [View.readCov_cons_toLoadRect]
    rfl
  · iexists _; isplitr
    swap; · iexact H7
    ipureintro
    sl_unfold_run_names
    refine (View.read_writes_eq_canon _ _ _ (cover16_s _ _)).trans ?_
    unfold out16_7
    rw [View.readCov_cons_toLoadRect]
    rfl

/-! ## The pipeline's proof data -/

/-- The proof data of the pipeline on core `c`: the arrays as the region finds them; after the body at point `t`
    each input's buffer at its block and each output's at `out16_·` of the input blocks; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
    | ⟨6, _⟩ => out16_6 (iblk16 V c 0 t) (iblk16 V c 1 t) (iblk16 V c 2 t) (iblk16 V c 3 t) (iblk16 V c 4 t)
    | ⟨7, _⟩ => out16_7 (iblk16 V c 0 t) (iblk16 V c 1 t) (iblk16 V c 2 t) (iblk16 V c 3 t) (iblk16 V c 4 t)
  Φ _ := Pipeline.ΦA spec16 c
  q _ := fullShare
  owed _ := 0

theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = out16_5 (iblk16 V c 0 t) (iblk16 V c 1 t) (iblk16 V c 2 t) (iblk16 V c 3 t) (iblk16 V c 4 t) := by dsimp only [dat16]
theorem after16_6 (c : Dev nD) (t : Fin cfg16.N) : (dat16 V c).after 6 t = out16_6 (iblk16 V c 0 t) (iblk16 V c 1 t) (iblk16 V c 2 t) (iblk16 V c 3 t) (iblk16 V c 4 t) := by dsimp only [dat16]
theorem after16_7 (c : Dev nD) (t : Fin cfg16.N) : (dat16 V c).after 7 t = out16_7 (iblk16 V c 0 t) (iblk16 V c 1 t) (iblk16 V c 2 t) (iblk16 V c 3 t) (iblk16 V c 4 t) := by dsimp only [dat16]

/-- Each input's current staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t))

set_option maxHeartbeats 1000000 in
/-- The body at any point: the inputs' memrefs hold their blocks, the branch is the one taken, so the triple applies;
    the invariant and the core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6, after16_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel16 c Set.univ (grid16.coords t) (hcond16_0 t) _ _ _ _ _ _ _ _ _ _ _ _ _ _ _ _ (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Hand

end
-- ==== Proof.KI.R17.lean ====
/- Region 17 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## The two rectangles the body touches: each buffer whole -/

/-- All of the large buffer (the operand `y` and the result). -/
abbrev big17 : Rect S5000x128 := Rect.unit (s := S5000x128) ![0, 0] S5000x128.size inb_S5000x128_S5000x128_0_0
/-- All of a one-row buffer (the scale and the shift). -/
abbrev row17 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out17_3 (y : Vec F S5000x128 .f32) (sc sf : Vec F S1x128 .f32) : Vec F S5000x128 .f32 :=
  View.canon [⟨big17, k17_pay1 (View.ld y big17) (View.ld sc row17) (View.ld sf row17)⟩]

/-- That one store reaches every index of the buffer. -/
theorem whole17_3 (p : Vec F S5000x128 .f32) (j : S5000x128.Idx) :
    ∃ pc ∈ ([⟨big17, p⟩] : List (View.Piece (Elt F) S5000x128 .f32)), j ∈ pc.1.set :=
  View.cover_of_tiled [⟨big17, p⟩] S5000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out17_3 y sc sf`. The load of
    the result's buffer before the store reads contents nothing is known of, and its value is dropped. -/
theorem run_kernel17 (c : Dev nD) (E : Set ℕ) (i : grid17.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S5000x128 .f32) (h4 : a4.IsWhole)
    (y : Vec F S5000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out17_3 y sc sf)) -∗ K ⟨⟩))
      ⊢ wp frame (wpE (defs₀ (F := F)) Variants.none c none) E (cc17__affine_relu_kernel i a1 h1 a2 h2 a3 h3 a4 h4) K := by
  simp only [cc17__affine_relu_kernel_eq_skeleton]; unfold cc17__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole17_3 _)

/-! ## The proof data -/

/-- The pipeline's proof data on core `c`: the arrays as the region finds them; after the body each operand's buffer
    still at its block, the result's at `out17_3` of the three blocks. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

/-! ## What the body finds in the operands' buffers

An operand window is never written by the body, is uncut and has no idle point, so at every point its current buffer
holds the window's block there, whether the pipeline fetched at that point or the block index stood still. -/

theorem before17_0 (c : Dev nD) (t : Fin cfg17.N) (d) : (dat17 V c).before 0 t d = iblk17 V c 0 t :=
  ((dat17 V c).before_in_eq_fetched 0 rfl (fun _ => rfl) (fun _ _ _ => rfl)
    (fun s => by rw [after17_0]; unfold Dat.blockOf iblk17; rw [A_eq17]; try rfl) t d).trans
    (by unfold Dat.fetched Dat.blockOf iblk17; rw [A_eq17]; try rfl)

theorem before17_1 (c : Dev nD) (t : Fin cfg17.N) (d) : (dat17 V c).before 1 t d = iblk17 V c 1 t :=
  ((dat17 V c).before_in_eq_fetched 1 rfl (fun _ => rfl) (fun _ _ _ => rfl)
    (fun s => by rw [after17_1]; unfold Dat.blockOf iblk17; rw [A_eq17]; try rfl) t d).trans
    (by unfold Dat.fetched Dat.blockOf iblk17; rw [A_eq17]; try rfl)

theorem before17_2 (c : Dev nD) (t : Fin cfg17.N) (d) : (dat17 V c).before 2 t d = iblk17 V c 2 t :=
  ((dat17 V c).before_in_eq_fetched 2 rfl (fun _ => rfl) (fun _ _ _ => rfl)
    (fun s => by rw [after17_2]; unfold Dat.blockOf iblk17; rw [A_eq17]; try rfl) t d).trans
    (by unfold Dat.fetched Dat.blockOf iblk17; rw [A_eq17]; try rfl)

/-! ## The body obligation -/

/-- The body at a point `t`, on the current staging buffers: the operands' buffers hold their blocks, the invariant
    and what the core owes ride along untouched. -/
theorem run_body17 (c : Dev nD) (t : Fin cfg17.N) :
    iprop((dat17 V c).Φ t.castSucc ∗ (dat17 V c).owesAt () t.castSucc
        ∗ (∃ d, owns (c : Thread nD τ) (st17_0 t) fullShare ((dat17 V c).before 0 t d))
        ∗ (∃ d, owns (c : Thread nD τ) (st17_1 t) fullShare ((dat17 V c).before 1 t d))
        ∗ (∃ d, owns (c : Thread nD τ) (st17_2 t) fullShare ((dat17 V c).before 2 t d))
        ∗ (∃ d, owns (c : Thread nD τ) (st17_3 t) fullShare ((dat17 V c).before 3 t d)))
      ⊢ wp frame (wpE (defs₀ (F := F)) Variants.none c none) Set.univ (bodyAt17 t) (fun _ =>
        iprop((dat17 V c).Φ t.succ ∗ (dat17 V c).owesAt () t.succ
          ∗ owns (c : Thread nD τ) (st17_0 t) fullShare ((dat17 V c).after 0 t)
          ∗ owns (c : Thread nD τ) (st17_1 t) fullShare ((dat17 V c).after 1 t)
          ∗ owns (c : Thread nD τ) (st17_2 t) fullShare ((dat17 V c).after 2 t)
          ∗ owns (c : Thread nD τ) (st17_3 t) fullShare ((dat17 V c).after 3 t))) := by
  unfold bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, B0⟩, ⟨%d1, B1⟩, ⟨%d2, B2⟩, ⟨%d3, B3⟩⟩
  iapply (run_kernel17 c Set.univ _ _ _ _ _ _ _ _ _ (iblk17 V c 0 t) (iblk17 V c 1 t) (iblk17 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation17 (c : Dev nD) : BodyObligation (dat17 (F := F) V c) (defs₀ (F := F)) Variants.none () Set.univ := fun t => by
  rw [bigSep_W17, bigSep_W17]
  exact run_body17 V c t

end Cert.KernelIdeal.Hand

end
-- ==== Proof.KI.R18.lean ====
/- Region 18 of the kernel program: the proof data of its pipeline at the contents the region is entered
   with, and the body obligation.

   The body computes y = b + x0·w0 + x1·w1 on the whole arrays (window 5), and the column sums of y
   (window 6) and of y·y (window 7), each sum added onto a zero the body itself stored first: the
   grid has one point, at which the zeroing branch is taken. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-! ## An input window's staging buffer holds its block at every point -/

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The rectangles the body loads and stores through: each a whole buffer -/

abbrev r18_a : Rect S3000x128 := Rect.unit (s := S3000x128) ![0, 0] S3000x128.size inb_S3000x128_S3000x128_0_0
abbrev r18_w : Rect S128x128 := Rect.unit (s := S128x128) ![0, 0] S128x128.size inb_S128x128_S128x128_0_0
abbrev r18_s : Rect S1x128 := Rect.unit (s := S1x128) ![0, 0] S1x128.size inb_S1x128_S1x128_0_0

/-! ## What the body leaves in each output window's buffer, from the input blocks

`x0 x1` the two data blocks, `x2 x3` their weights, `x4` the bias row. -/

/-- The affine map's value `y`, as the body computes it from what it loads. -/
abbrev y18 (x0 x1 : Vec F S3000x128 .f32) (x2 x3 : Vec F S128x128 .f32) (x4 : Vec F S1x128 .f32) : FVec F S3000x128 .f32 :=
  k18_pay4 (View.ld x4 r18_s) (View.ld x0 r18_a) (View.ld x2 r18_w) (View.ld x1 r18_a) (View.ld x3 r18_w)

/-- Window 5: one store of `y` over the whole buffer. -/
def out18_5 (x0 x1 : Vec F S3000x128 .f32) (x2 x3 : Vec F S128x128 .f32) (x4 : Vec F S1x128 .f32) : Vec F S3000x128 .f32 :=
  View.canon [⟨r18_a, y18 x0 x1 x2 x3 x4⟩]

/-- Window 6: the zero row stored first, then the column sums of `y` added onto the row read back. -/
def out18_6 (x0 x1 : Vec F S3000x128 .f32) (x2 x3 : Vec F S128x128 .f32) (x4 : Vec F S1x128 .f32) : Vec F S1x128 .f32 :=
  View.canon [⟨r18_s, k18_pay6 (View.ld x4 r18_s) (View.ld x0 r18_a) (View.ld x2 r18_w) (View.ld x1 r18_a) (View.ld x3 r18_w) (k18_pay2 (F := F))⟩,
    ⟨r18_s, k18_pay2 (F := F)⟩]

/-- Window 7: the zero row stored first, then the column sums of `y·y` added onto the row read back. -/
def out18_7 (x0 x1 : Vec F S3000x128 .f32) (x2 x3 : Vec F S128x128 .f32) (x4 : Vec F S1x128 .f32) : Vec F S1x128 .f32 :=
  View.canon [⟨r18_s, k18_pay1 (k18_pay5 (View.ld x4 r18_s) (View.ld x0 r18_a) (View.ld x2 r18_w) (View.ld x1 r18_a) (View.ld x3 r18_w)) (k18_pay3 (F := F))⟩,
    ⟨r18_s, k18_pay3 (F := F)⟩]

/-- A store through the whole-buffer rectangle covers the buffer, whatever was stored before it. -/
theorem cover18_a (p0 : Vec F S3000x128 .f32) (y : S3000x128.Idx) :
    ∃ pc ∈ ([⟨r18_a, p0⟩] : List (View.Piece (Elt F) S3000x128 .f32)), y ∈ pc.1.set :=
  View.cover_of_tiled [⟨r18_a, p0⟩] S3000x128.size (by rfl) y

theorem cover18_s (p0 p1 : Vec F S1x128 .f32) (y : S1x128.Idx) :
    ∃ pc ∈ ([⟨r18_s, p0⟩, ⟨r18_s, p1⟩] : List (View.Piece (Elt F) S1x128 .f32)), y ∈ pc.1.set := by
  obtain ⟨pc, hpc, hy⟩ := View.cover_of_tiled ([⟨r18_s, p0⟩] : List (View.Piece (Elt F) S1x128 .f32)) S1x128.size (by rfl) y
  rw [List.mem_singleton] at hpc; subst hpc
  exact ⟨_, by simp, hy⟩

/-! ## The branch of the body -/

/-- The condition of the body's zeroing branch, from the grid coordinates. -/
abbrev cond18_0 (i : grid18.Coords) : Prop :=
  (Scalar.cmpi .ne (Scalar.extui (Scalar.cmpi .eq (BitVec.ofNat 32 (i 0).val) 0#32)) 0#32) = 1#1
/-- It holds at every point of the grid: decided over the grid. -/
theorem hcond18_0 : ∀ t : Fin cfg18.N, cond18_0 (grid18.coords t) :=
  (by decide +kernel : ∀ t : Fin grid18.N, cond18_0 (grid18.coords t))

/-! ## The body's triple -/

set_option maxHeartbeats 4000000 in
/-- The kernel body on whole staging memrefs, the inputs' at read contents `x·` and the outputs' at anything, at
    grid coordinates where the zeroing branch is taken, runs to the continuation holding the inputs' as they
    were and each output's at `out18_·` of the inputs'. -/
theorem sound_kernel18 (c : Dev nD) (E : Set ℕ) (i : grid18.Coords) (hc0 : cond18_0 i) (arg1 : Memref sig .tc .vmem S3000x128 .f32) (harg1 : arg1.IsWhole) (arg2 : Memref sig .tc .vmem S3000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S3000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S3000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out18_5 x0 x1 x2 x3 x4) ∗ owns (c : Thread nD τ) arg7 fullShare (out18_6 x0 x1 x2 x3 x4)
            ∗ owns (c : Thread nD τ) arg8 fullShare (out18_7 x0 x1 x2 x3 x4)) -∗ K ⟨⟩))
      ⊢ wp frame (wpE (defs₀ (F := F)) Variants.none c none) E (cc18_kernel i arg1 harg1 arg2 harg2 arg3 harg3 arg4 harg4 arg5 harg5 arg6 harg6 arg7 harg7 arg8 harg8) K := by
  simp only [cc18_kernel_eq_skeleton]; unfold cc18_kernel_skel
  simp only [k18_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover18_a _)
  isplitl [H6]
  · iexists _; isplitr
    swap; · iexact H6
    ipureintro
    sl_unfold_run_names
    refine (View.read_writes_eq_canon _ _ _ (cover18_s _ _)).trans ?_
    unfold out18_6
    rw [View.readCov_cons_toLoadRect]
    rfl
  · iexists _; isplitr
    swap; · iexact H7
    ipureintro
    sl_unfold_run_names
    refine (View.read_writes_eq_canon _ _ _ (cover18_s _ _)).trans ?_
    unfold out18_7
    rw [View.readCov_cons_toLoadRect]
    rfl

/-! ## The pipeline's proof data -/

/-- The proof data of the pipeline on core `c`: the arrays as the region finds them; after the body at point `t`
    each input's buffer at its block and each output's at `out18_·` of the input blocks; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
    | ⟨6, _⟩ => out18_6 (iblk18 V c 0 t) (iblk18 V c 1 t) (iblk18 V c 2 t) (iblk18 V c 3 t) (iblk18 V c 4 t)
    | ⟨7, _⟩ => out18_7 (iblk18 V c 0 t) (iblk18 V c 1 t) (iblk18 V c 2 t) (iblk18 V c 3 t) (iblk18 V c 4 t)
  Φ _ := Pipeline.ΦA spec18 c
  q _ := fullShare
  owed _ := 0

theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = out18_5 (iblk18 V c 0 t) (iblk18 V c 1 t) (iblk18 V c 2 t) (iblk18 V c 3 t) (iblk18 V c 4 t) := by dsimp only [dat18]
theorem after18_6 (c : Dev nD) (t : Fin cfg18.N) : (dat18 V c).after 6 t = out18_6 (iblk18 V c 0 t) (iblk18 V c 1 t) (iblk18 V c 2 t) (iblk18 V c 3 t) (iblk18 V c 4 t) := by dsimp only [dat18]
theorem after18_7 (c : Dev nD) (t : Fin cfg18.N) : (dat18 V c).after 7 t = out18_7 (iblk18 V c 0 t) (iblk18 V c 1 t) (iblk18 V c 2 t) (iblk18 V c 3 t) (iblk18 V c 4 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d))
    ∗ (∃ d, owns (c : Thread nD τ) (st18_7 t) fullShare ((dat18 V c).before 7 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t)
    ∗ owns (c : Thread nD τ) (st18_7 t) fullShare ((dat18 V c).after 7 t))

set_option maxHeartbeats 1000000 in
/-- The body at any point: the inputs' memrefs hold their blocks, the branch is the one taken, so the triple applies;
    the invariant and the core's debts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6, after18_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel18 c Set.univ (grid18.coords t) (hcond18_0 t) _ _ _ _ _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.KernelIdeal.Hand

end
-- ==== Proof.KI.R19.lean ====
/- Region 19 of the kernel program: the proof data of its pipeline at the contents the region is entered
   with, and the body obligation. -/
import proofs.«424088_j28020366639260_2_alg».proof.Proof.Gen.KernelIdeal.Launch
import proofs.«424088_j28020366639260_2_alg».proof.Proof.Gen.KernelIdeal.Skeleton
import proofs.«424088_j28020366639260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-! ## The two rectangles the body touches: each buffer whole -/

/-- All of the large buffer (the operand `y` and the result). -/
abbrev big19 : Rect S3000x128 := Rect.unit (s := S3000x128) ![0, 0] S3000x128.size inb_S3000x128_S3000x128_0_0
/-- All of a one-row buffer (the scale and the shift). -/
abbrev row19 : Rect S1x128 := Rect.unit (s := S1x128) ![0, 0] S1x128.size inb_S1x128_S1x128_0_0

/-! ## What the body leaves in the result's staging buffer -/

/-- The result's buffer after the body, from the three operands' buffers: one store over the whole buffer,
    its payload the skeleton's `max (y · scale + shift) 0`. -/
def out19_3 (y : Vec F S3000x128 .f32) (sc sf : Vec F S1x128 .f32) : Vec F S3000x128 .f32 :=
  View.canon [⟨big19, k19_pay1 (View.ld y big19) (View.ld sc row19) (View.ld sf row19)⟩]

/-- That one store reaches every index of the buffer. -/
theorem whole19_3 (p : Vec F S3000x128 .f32) (j : S3000x128.Idx) :
    ∃ pc ∈ ([⟨big19, p⟩] : List (View.Piece (Elt F) S3000x128 .f32)), j ∈ pc.1.set :=
  View.cover_of_tiled [⟨big19, p⟩] S3000x128.size (by rfl) j

/-! ## The body on arbitrary whole staging memrefs -/

set_option maxHeartbeats 1000000 in
/-- Given the three operand buffers at read contents `y`, `sc`, `sf` and the result's buffer at anything, the body
    runs to a continuation that finds the operands untouched and the result's buffer at `out19_3 y sc sf`. The load of
    the result's buffer before the store reads contents nothing is known of, and its value is dropped. -/
theorem run_kernel19 (c : Dev nD) (E : Set ℕ) (i : grid19.Coords)
    (a1 : Memref sig .tc .vmem S3000x128 .f32) (h1 : a1.IsWhole) (a2 : Memref sig .tc .vmem S1x128 .f32) (h2 : a2.IsWhole)
    (a3 : Memref sig .tc .vmem S1x128 .f32) (h3 : a3.IsWhole) (a4 : Memref sig .tc .vmem S3000x128 .f32) (h4 : a4.IsWhole)
    (y : Vec F S3000x128 .f32) (sc sf : Vec F S1x128 .f32) (K : PUnit → sProp 𝕄) :
    iprop(owns (c : Thread nD τ) a1 fullShare y ∗ owns (c : Thread nD τ) a2 fullShare sc ∗ owns (c : Thread nD τ) a3 fullShare sf
        ∗ (∃ d, owns (c : Thread nD τ) a4 fullShare d)
        ∗ (iprop(owns (c : Thread nD τ) a1 fullShare y ∗ owns (c : Thread nD τ) a2 fullShare sc ∗ owns (c : Thread nD τ) a3 fullShare sf
            ∗ owns (c : Thread nD τ) a4 fullShare (out19_3 y sc sf)) -∗ K ⟨⟩))
      ⊢ wp frame (wpE (defs₀ (F := F)) Variants.none c none) E (cc19__affine_relu_kernel i a1 h1 a2 h2 a3 h3 a4 h4) K := by
  simp only [cc19__affine_relu_kernel_eq_skeleton]; unfold cc19__affine_relu_kernel_skel
  unfold owns
  iintro ⟨⟨%g1, %e1, G1⟩, ⟨%g2, %e2, G2⟩, ⟨%g3, %e3, G3⟩, ⟨%d4, %g4, -, G4⟩, Hk⟩
  subst e1; subst e2; subst e3
  sl_exec
  sl_step
  iapply Hk
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (whole19_3 _)

/-! ## The proof data -/

/-- The pipeline's proof data on core `c`: the arrays as the region finds them; after the body each operand's buffer
    still at its block, the result's at `out19_3` of the three blocks. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) :
    (dat19 V c).after 3 t = out19_3 (iblk19 V c 0 t) (iblk19 V c 1 t) (iblk19 V c 2 t) := by dsimp only [dat19]

/-! ## What the body finds in the operands' buffers

An operand window is never written by the body, is uncut and has no idle point, so at every point its current buffer
holds the window's block there, whether the pipeline fetched at that point or the block index stood still. -/

theorem before19_0 (c : Dev nD) (t : Fin cfg19.N) (d) : (dat19 V c).before 0 t d = iblk19 V c 0 t :=
  ((dat19 V c).before_in_eq_fetched 0 rfl (fun _ => rfl) (fun _ _ _ => rfl)
    (fun s => by rw [after19_0]; unfold Dat.blockOf iblk19; rw [A_eq19]; try rfl) t d).trans
    (by unfold Dat.fetched Dat.blockOf iblk19; rw [A_eq19]; try rfl)

theorem before19_1 (c : Dev nD) (t : Fin cfg19.N) (d) : (dat19 V c).before 1 t d = iblk19 V c 1 t :=
  ((dat19 V c).before_in_eq_fetched 1 rfl (fun _ => rfl) (fun _ _ _ => rfl)
    (fun s => by rw [after19_1]; unfold Dat.blockOf iblk19; rw [A_eq19]; try rfl) t d).trans
    (by unfold Dat.fetched Dat.blockOf iblk19; rw [A_eq19]; try rfl)

theorem before19_2 (c : Dev nD) (t : Fin cfg19.N) (d) : (dat19 V c).before 2 t d = iblk19 V c 2 t :=
  ((dat19 V c).before_in_eq_fetched 2 rfl (fun _ => rfl) (fun _ _ _ => rfl)
    (fun s => by rw [after19_2]; unfold Dat.blockOf iblk19; rw [A_eq19]; try rfl) t d).trans
    (by unfold Dat.fetched Dat.blockOf iblk19; rw [A_eq19]; try rfl)

/-! ## The body obligation -/

/-- The body at a point `t`, on the current staging buffers: the operands' buffers hold their blocks, the invariant
    and what the core owes ride along untouched. -/
theorem run_body19 (c : Dev nD) (t : Fin cfg19.N) :
    iprop((dat19 V c).Φ t.castSucc ∗ (dat19 V c).owesAt () t.castSucc
        ∗ (∃ d, owns (c : Thread nD τ) (st19_0 t) fullShare ((dat19 V c).before 0 t d))
        ∗ (∃ d, owns (c : Thread nD τ) (st19_1 t) fullShare ((dat19 V c).before 1 t d))
        ∗ (∃ d, owns (c : Thread nD τ) (st19_2 t) fullShare ((dat19 V c).before 2 t d))
        ∗ (∃ d, owns (c : Thread nD τ) (st19_3 t) fullShare ((dat19 V c).before 3 t d)))
      ⊢ wp frame (wpE (defs₀ (F := F)) Variants.none c none) Set.univ (bodyAt19 t) (fun _ =>
        iprop((dat19 V c).Φ t.succ ∗ (dat19 V c).owesAt () t.succ
          ∗ owns (c : Thread nD τ) (st19_0 t) fullShare ((dat19 V c).after 0 t)
          ∗ owns (c : Thread nD τ) (st19_1 t) fullShare ((dat19 V c).after 1 t)
          ∗ owns (c : Thread nD τ) (st19_2 t) fullShare ((dat19 V c).after 2 t)
          ∗ owns (c : Thread nD τ) (st19_3 t) fullShare ((dat19 V c).after 3 t))) := by
  unfold bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, B0⟩, ⟨%d1, B1⟩, ⟨%d2, B2⟩, ⟨%d3, B3⟩⟩
  iapply (run_kernel19 c Set.univ _ _ _ _ _ _ _ _ _ (iblk19 V c 0 t) (iblk19 V c 1 t) (iblk19 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation19 (c : Dev nD) : BodyObligation (dat19 (F := F) V c) (defs₀ (F := F)) Variants.none () Set.univ := fun t => by
  rw [bigSep_W19, bigSep_W19]
  exact run_body19 V c t

end Cert.KernelIdeal.Hand

end
-- ==== Proof.KI.Fold.lean ====
/- The contents of every buffer at each of the 41 boundaries of @main's 40 items (20 host stretches and
   20 regions), as a fold from the launch memory: a host stretch rewrites the buffers its operations write,
   a region leaves its arrays at what its write-backs leave and every other buffer as it was entered. -/
import proofs.«424088_j28020366639260_2_alg».proof.Proof.KI.R0
import proofs.«424088_j28020366639260_2_alg».proof.Proof.KI.R1
import proofs.«424088_j28020366639260_2_alg».proof.Proof.KI.R2
import proofs.«424088_j28020366639260_2_alg».proof.Proof.KI.R3
import proofs.«424088_j28020366639260_2_alg».proof.Proof.KI.R4
import proofs.«424088_j28020366639260_2_alg».proof.Proof.KI.R5
import proofs.«424088_j28020366639260_2_alg».proof.Proof.KI.R6
import proofs.«424088_j28020366639260_2_alg».proof.Proof.KI.R7
import proofs.«424088_j28020366639260_2_alg».proof.Proof.KI.R8
import proofs.«424088_j28020366639260_2_alg».proof.Proof.KI.R9
import proofs.«424088_j28020366639260_2_alg».proof.Proof.KI.R10
import proofs.«424088_j28020366639260_2_alg».proof.Proof.KI.R11
import proofs.«424088_j28020366639260_2_alg».proof.Proof.KI.R12
import proofs.«424088_j28020366639260_2_alg».proof.Proof.KI.R13
import proofs.«424088_j28020366639260_2_alg».proof.Proof.KI.R14
import proofs.«424088_j28020366639260_2_alg».proof.Proof.KI.R15
import proofs.«424088_j28020366639260_2_alg».proof.Proof.KI.R16
import proofs.«424088_j28020366639260_2_alg».proof.Proof.KI.R17
import proofs.«424088_j28020366639260_2_alg».proof.Proof.KI.R18
import proofs.«424088_j28020366639260_2_alg».proof.Proof.KI.R19

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After item 1, the host stretch `hostOps0`. -/
def W1 : Dev nD → Valuation τ sig (Elt F) := fun c => StableHlo.after hostOps0 (W0 m ρ c)
theorem W1_eq (c : Dev nD) : W1 m ρ c = StableHlo.after hostOps0 (W0 m ρ c) := rfl

/-- Region 0 is entered with these contents at the TensorCore's references. -/
abbrev VE0 : (c : Dev nD) → (b : Ref sig .tc) → Buf (Elt F) ((c : Thread nD τ).loc b) := fun c b => W1 m ρ c b
/-- After item 2, region 0: its arrays at what the pipeline's write-backs leave (an input as entered),
    every other buffer as entered. -/
def W2 (c : Dev nD) : Valuation τ sig (Elt F) :=
  Pipeline.withArrays spec0 c (W1 m ρ c) fun w => (dat0 (VE0 m ρ) c).arrAt w cfg0.N
theorem Wexit0_arr (c : Dev nD) (w : Fin cfg0.W) :
    W2 m ρ c (Proc.devRef .tc (Pipeline.arrRef spec0 w)) = (dat0 (VE0 m ρ) c).arrAt w cfg0.N := by
  unfold W2; exact Pipeline.withArrays_arr spec0 launch0.win.arr_inj c _ _ w
theorem Wexit0_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- After item 3, the host stretch `hostOps1`. -/
def W3 : Dev nD → Valuation τ sig (Elt F) := fun c => StableHlo.after hostOps1 (W2 m ρ c)
theorem W3_eq (c : Dev nD) : W3 m ρ c = StableHlo.after hostOps1 (W2 m ρ c) := rfl

/-- Region 1 is entered with these contents at the TensorCore's references. -/
abbrev VE1 : (c : Dev nD) → (b : Ref sig .tc) → Buf (Elt F) ((c : Thread nD τ).loc b) := fun c b => W3 m ρ c b
/-- After item 4, region 1: its arrays at what the pipeline's write-backs leave (an input as entered),
    every other buffer as entered. -/
def W4 (c : Dev nD) : Valuation τ sig (Elt F) :=
  Pipeline.withArrays spec1 c (W3 m ρ c) fun w => (dat1 (VE1 m ρ) c).arrAt w cfg1.N
theorem Wexit1_arr (c : Dev nD) (w : Fin cfg1.W) :
    W4 m ρ c (Proc.devRef .tc (Pipeline.arrRef spec1 w)) = (dat1 (VE1 m ρ) c).arrAt w cfg1.N := by
  unfold W4; exact Pipeline.withArrays_arr spec1 launch1.win.arr_inj c _ _ w
theorem Wexit1_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- After item 5, the host stretch `hostOps2`. -/
def W5 : Dev nD → Valuation τ sig (Elt F) := fun c => StableHlo.after hostOps2 (W4 m ρ c)
theorem W5_eq (c : Dev nD) : W5 m ρ c = StableHlo.after hostOps2 (W4 m ρ c) := rfl

/-- Region 2 is entered with these contents at the TensorCore's references. -/
abbrev VE2 : (c : Dev nD) → (b : Ref sig .tc) → Buf (Elt F) ((c : Thread nD τ).loc b) := fun c b => W5 m ρ c b
/-- After item 6, region 2: its arrays at what the pipeline's write-backs leave (an input as entered),
    every other buffer as entered. -/
def W6 (c : Dev nD) : Valuation τ sig (Elt F) :=
  Pipeline.withArrays spec2 c (W5 m ρ c) fun w => (dat2 (VE2 m ρ) c).arrAt w cfg2.N
theorem Wexit2_arr (c : Dev nD) (w : Fin cfg2.W) :
    W6 m ρ c (Proc.devRef .tc (Pipeline.arrRef spec2 w)) = (dat2 (VE2 m ρ) c).arrAt w cfg2.N := by
  unfold W6; exact Pipeline.withArrays_arr spec2 launch2.win.arr_inj c _ _ w
theorem Wexit2_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

/-- Region 3 is entered with these contents at the TensorCore's references. -/
abbrev VE3 : (c : Dev nD) → (b : Ref sig .tc) → Buf (Elt F) ((c : Thread nD τ).loc b) := fun c b => W6 m ρ c b
/-- After item 7, region 3: its arrays at what the pipeline's write-backs leave (an input as entered),
    every other buffer as entered. -/
def W7 (c : Dev nD) : Valuation τ sig (Elt F) :=
  Pipeline.withArrays spec3 c (W6 m ρ c) fun w => (dat3 (VE3 m ρ) c).arrAt w cfg3.N
theorem Wexit3_arr (c : Dev nD) (w : Fin cfg3.W) :
    W7 m ρ c (Proc.devRef .tc (Pipeline.arrRef spec3 w)) = (dat3 (VE3 m ρ) c).arrAt w cfg3.N := by
  unfold W7; exact Pipeline.withArrays_arr spec3 launch3.win.arr_inj c _ _ w
theorem Wexit3_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

/-- After item 8, the host stretch `hostOps4`. -/
def W8 : Dev nD → Valuation τ sig (Elt F) := fun c => StableHlo.after hostOps4 (W7 m ρ c)
theorem W8_eq (c : Dev nD) : W8 m ρ c = StableHlo.after hostOps4 (W7 m ρ c) := rfl

/-- Region 4 is entered with these contents at the TensorCore's references. -/
abbrev VE4 : (c : Dev nD) → (b : Ref sig .tc) → Buf (Elt F) ((c : Thread nD τ).loc b) := fun c b => W8 m ρ c b
/-- After item 9, region 4: its arrays at what the pipeline's write-backs leave (an input as entered),
    every other buffer as entered. -/
def W9 (c : Dev nD) : Valuation τ sig (Elt F) :=
  Pipeline.withArrays spec4 c (W8 m ρ c) fun w => (dat4 (VE4 m ρ) c).arrAt w cfg4.N
theorem Wexit4_arr (c : Dev nD) (w : Fin cfg4.W) :
    W9 m ρ c (Proc.devRef .tc (Pipeline.arrRef spec4 w)) = (dat4 (VE4 m ρ) c).arrAt w cfg4.N := by
  unfold W9; exact Pipeline.withArrays_arr spec4 launch4.win.arr_inj c _ _ w
theorem Wexit4_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

/-- After item 10, the host stretch `hostOps5`. -/
def W10 : Dev nD → Valuation τ sig (Elt F) := fun c => StableHlo.after hostOps5 (W9 m ρ c)
theorem W10_eq (c : Dev nD) : W10 m ρ c = StableHlo.after hostOps5 (W9 m ρ c) := rfl

/-- Region 5 is entered with these contents at the TensorCore's references. -/
abbrev VE5 : (c : Dev nD) → (b : Ref sig .tc) → Buf (Elt F) ((c : Thread nD τ).loc b) := fun c b => W10 m ρ c b
/-- After item 11, region 5: its arrays at what the pipeline's write-backs leave (an input as entered),
    every other buffer as entered. -/
def W11 (c : Dev nD) : Valuation τ sig (Elt F) :=
  Pipeline.withArrays spec5 c (W10 m ρ c) fun w => (dat5 (VE5 m ρ) c).arrAt w cfg5.N
theorem Wexit5_arr (c : Dev nD) (w : Fin cfg5.W) :
    W11 m ρ c (Proc.devRef .tc (Pipeline.arrRef spec5 w)) = (dat5 (VE5 m ρ) c).arrAt w cfg5.N := by
  unfold W11; exact Pipeline.withArrays_arr spec5 launch5.win.arr_inj c _ _ w
theorem Wexit5_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb

/-- After item 12, the host stretch `hostOps6`. -/
def W12 : Dev nD → Valuation τ sig (Elt F) := fun c => StableHlo.after hostOps6 (W11 m ρ c)
theorem W12_eq (c : Dev nD) : W12 m ρ c = StableHlo.after hostOps6 (W11 m ρ c) := rfl

/-- Region 6 is entered with these contents at the TensorCore's references. -/
abbrev VE6 : (c : Dev nD) → (b : Ref sig .tc) → Buf (Elt F) ((c : Thread nD τ).loc b) := fun c b => W12 m ρ c b
/-- After item 13, region 6: its arrays at what the pipeline's write-backs leave (an input as entered),
    every other buffer as entered. -/
def W13 (c : Dev nD) : Valuation τ sig (Elt F) :=
  Pipeline.withArrays spec6 c (W12 m ρ c) fun w => (dat6 (VE6 m ρ) c).arrAt w cfg6.N
theorem Wexit6_arr (c : Dev nD) (w : Fin cfg6.W) :
    W13 m ρ c (Proc.devRef .tc (Pipeline.arrRef spec6 w)) = (dat6 (VE6 m ρ) c).arrAt w cfg6.N := by
  unfold W13; exact Pipeline.withArrays_arr spec6 launch6.win.arr_inj c _ _ w
theorem Wexit6_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb

/-- After item 14, the host stretch `hostOps7`. -/
def W14 : Dev nD → Valuation τ sig (Elt F) := fun c => StableHlo.after hostOps7 (W13 m ρ c)
theorem W14_eq (c : Dev nD) : W14 m ρ c = StableHlo.after hostOps7 (W13 m ρ c) := rfl

/-- Region 7 is entered with these contents at the TensorCore's references. -/
abbrev VE7 : (c : Dev nD) → (b : Ref sig .tc) → Buf (Elt F) ((c : Thread nD τ).loc b) := fun c b => W14 m ρ c b
/-- After item 15, region 7: its arrays at what the pipeline's write-backs leave (an input as entered),
    every other buffer as entered. -/
def W15 (c : Dev nD) : Valuation τ sig (Elt F) :=
  Pipeline.withArrays spec7 c (W14 m ρ c) fun w => (dat7 (VE7 m ρ) c).arrAt w cfg7.N
theorem Wexit7_arr (c : Dev nD) (w : Fin cfg7.W) :
    W15 m ρ c (Proc.devRef .tc (Pipeline.arrRef spec7 w)) = (dat7 (VE7 m ρ) c).arrAt w cfg7.N := by
  unfold W15; exact Pipeline.withArrays_arr spec7 launch7.win.arr_inj c _ _ w
theorem Wexit7_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb

/-- After item 16, the host stretch `hostOps8`. -/
def W16 : Dev nD → Valuation τ sig (Elt F) := fun c => StableHlo.after hostOps8 (W15 m ρ c)
theorem W16_eq (c : Dev nD) : W16 m ρ c = StableHlo.after hostOps8 (W15 m ρ c) := rfl

/-- Region 8 is entered with these contents at the TensorCore's references. -/
abbrev VE8 : (c : Dev nD) → (b : Ref sig .tc) → Buf (Elt F) ((c : Thread nD τ).loc b) := fun c b => W16 m ρ c b
/-- After item 17, region 8: its arrays at what the pipeline's write-backs leave (an input as entered),
    every other buffer as entered. -/
def W17 (c : Dev nD) : Valuation τ sig (Elt F) :=
  Pipeline.withArrays spec8 c (W16 m ρ c) fun w => (dat8 (VE8 m ρ) c).arrAt w cfg8.N
theorem Wexit8_arr (c : Dev nD) (w : Fin cfg8.W) :
    W17 m ρ c (Proc.devRef .tc (Pipeline.arrRef spec8 w)) = (dat8 (VE8 m ρ) c).arrAt w cfg8.N := by
  unfold W17; exact Pipeline.withArrays_arr spec8 launch8.win.arr_inj c _ _ w
theorem Wexit8_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb

/-- After item 18, the host stretch `hostOps9`. -/
def W18 : Dev nD → Valuation τ sig (Elt F) := fun c => StableHlo.after hostOps9 (W17 m ρ c)
theorem W18_eq (c : Dev nD) : W18 m ρ c = StableHlo.after hostOps9 (W17 m ρ c) := rfl

/-- Region 9 is entered with these contents at the TensorCore's references. -/
abbrev VE9 : (c : Dev nD) → (b : Ref sig .tc) → Buf (Elt F) ((c : Thread nD τ).loc b) := fun c b => W18 m ρ c b
/-- After item 19, region 9: its arrays at what the pipeline's write-backs leave (an input as entered),
    every other buffer as entered. -/
def W19 (c : Dev nD) : Valuation τ sig (Elt F) :=
  Pipeline.withArrays spec9 c (W18 m ρ c) fun w => (dat9 (VE9 m ρ) c).arrAt w cfg9.N
theorem Wexit9_arr (c : Dev nD) (w : Fin cfg9.W) :
    W19 m ρ c (Proc.devRef .tc (Pipeline.arrRef spec9 w)) = (dat9 (VE9 m ρ) c).arrAt w cfg9.N := by
  unfold W19; exact Pipeline.withArrays_arr spec9 launch9.win.arr_inj c _ _ w
theorem Wexit9_of_ne (c : Dev nD) (b : Ref sig .tc) (hb : ∀ w, Pipeline.arrRef spec9 w ≠ b) :
    W19 m ρ c (Proc.devRef .tc b) = W18 m ρ c (Proc.devRef .tc b) := by
  unfold W19; exact Pipeline.withArrays_of_ne spec9 c _ _ b hb

/-- After item 20, the host stretch `hostOps10`. -/
def W20 : Dev nD → Valuation τ sig (Elt F) := fun c => StableHlo.after hostOps10 (W19 m ρ c)
theorem W20_eq (c : Dev nD) : W20 m ρ c = StableHlo.after hostOps10 (W19 m ρ c) := rfl

/-- Region 10 is entered with these contents at the TensorCore's references. -/
abbrev VE10 : (c : Dev nD) → (b : Ref sig .tc) → Buf (Elt F) ((c : Thread nD τ).loc b) := fun c b => W20 m ρ c b
/-- After item 21, region 10: its arrays at what the pipeline's write-backs leave (an input as entered),
    every other buffer as entered. -/
def W21 (c : Dev nD) : Valuation τ sig (Elt F) :=
  Pipeline.withArrays spec10 c (W20 m ρ c) fun w => (dat10 (VE10 m ρ) c).arrAt w cfg10.N
theorem Wexit10_arr (c : Dev nD) (w : Fin cfg10.W) :
    W21 m ρ c (Proc.devRef .tc (Pipeline.arrRef spec10 w)) = (dat10 (VE10 m ρ) c).arrAt w cfg10.N := by
  unfold W21; exact Pipeline.withArrays_arr spec10 launch10.win.arr_inj c _ _ w
theorem Wexit10_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb

/-- After item 22, the host stretch `hostOps11`. -/
def W22 : Dev nD → Valuation τ sig (Elt F) := fun c => StableHlo.after hostOps11 (W21 m ρ c)
theorem W22_eq (c : Dev nD) : W22 m ρ c = StableHlo.after hostOps11 (W21 m ρ c) := rfl

/-- Region 11 is entered with these contents at the TensorCore's references. -/
abbrev VE11 : (c : Dev nD) → (b : Ref sig .tc) → Buf (Elt F) ((c : Thread nD τ).loc b) := fun c b => W22 m ρ c b
/-- After item 23, region 11: its arrays at what the pipeline's write-backs leave (an input as entered),
    every other buffer as entered. -/
def W23 (c : Dev nD) : Valuation τ sig (Elt F) :=
  Pipeline.withArrays spec11 c (W22 m ρ c) fun w => (dat11 (VE11 m ρ) c).arrAt w cfg11.N
theorem Wexit11_arr (c : Dev nD) (w : Fin cfg11.W) :
    W23 m ρ c (Proc.devRef .tc (Pipeline.arrRef spec11 w)) = (dat11 (VE11 m ρ) c).arrAt w cfg11.N := by
  unfold W23; exact Pipeline.withArrays_arr spec11 launch11.win.arr_inj c _ _ w
theorem Wexit11_of_ne (c : Dev nD) (b : Ref sig .tc) (hb : ∀ w, Pipeline.arrRef spec11 w ≠ b) :
    W23 m ρ c (Proc.devRef .tc b) = W22 m ρ c (Proc.devRef .tc b) := by
  unfold W23; exact Pipeline.withArrays_of_ne spec11 c _ _ b hb

/-- After item 24, the host stretch `hostOps12`. -/
def W24 : Dev nD → Valuation τ sig (Elt F) := fun c => StableHlo.after hostOps12 (W23 m ρ c)
theorem W24_eq (c : Dev nD) : W24 m ρ c = StableHlo.after hostOps12 (W23 m ρ c) := rfl

/-- Region 12 is entered with these contents at the TensorCore's references. -/
abbrev VE12 : (c : Dev nD) → (b : Ref sig .tc) → Buf (Elt F) ((c : Thread nD τ).loc b) := fun c b => W24 m ρ c b
/-- After item 25, region 12: its arrays at what the pipeline's write-backs leave (an input as entered),
    every other buffer as entered. -/
def W25 (c : Dev nD) : Valuation τ sig (Elt F) :=
  Pipeline.withArrays spec12 c (W24 m ρ c) fun w => (dat12 (VE12 m ρ) c).arrAt w cfg12.N
theorem Wexit12_arr (c : Dev nD) (w : Fin cfg12.W) :
    W25 m ρ c (Proc.devRef .tc (Pipeline.arrRef spec12 w)) = (dat12 (VE12 m ρ) c).arrAt w cfg12.N := by
  unfold W25; exact Pipeline.withArrays_arr spec12 launch12.win.arr_inj c _ _ w
theorem Wexit12_of_ne (c : Dev nD) (b : Ref sig .tc) (hb : ∀ w, Pipeline.arrRef spec12 w ≠ b) :
    W25 m ρ c (Proc.devRef .tc b) = W24 m ρ c (Proc.devRef .tc b) := by
  unfold W25; exact Pipeline.withArrays_of_ne spec12 c _ _ b hb

/-- After item 26, the host stretch `hostOps13`. -/
def W26 : Dev nD → Valuation τ sig (Elt F) := fun c => StableHlo.after hostOps13 (W25 m ρ c)
theorem W26_eq (c : Dev nD) : W26 m ρ c = StableHlo.after hostOps13 (W25 m ρ c) := rfl

/-- Region 13 is entered with these contents at the TensorCore's references. -/
abbrev VE13 : (c : Dev nD) → (b : Ref sig .tc) → Buf (Elt F) ((c : Thread nD τ).loc b) := fun c b => W26 m ρ c b
/-- After item 27, region 13: its arrays at what the pipeline's write-backs leave (an input as entered),
    every other buffer as entered. -/
def W27 (c : Dev nD) : Valuation τ sig (Elt F) :=
  Pipeline.withArrays spec13 c (W26 m ρ c) fun w => (dat13 (VE13 m ρ) c).arrAt w cfg13.N
theorem Wexit13_arr (c : Dev nD) (w : Fin cfg13.W) :
    W27 m ρ c (Proc.devRef .tc (Pipeline.arrRef spec13 w)) = (dat13 (VE13 m ρ) c).arrAt w cfg13.N := by
  unfold W27; exact Pipeline.withArrays_arr spec13 launch13.win.arr_inj c _ _ w
theorem Wexit13_of_ne (c : Dev nD) (b : Ref sig .tc) (hb : ∀ w, Pipeline.arrRef spec13 w ≠ b) :
    W27 m ρ c (Proc.devRef .tc b) = W26 m ρ c (Proc.devRef .tc b) := by
  unfold W27; exact Pipeline.withArrays_of_ne spec13 c _ _ b hb

/-- After item 28, the host stretch `hostOps14`. -/
def W28 : Dev nD → Valuation τ sig (Elt F) := fun c => StableHlo.after hostOps14 (W27 m ρ c)
theorem W28_eq (c : Dev nD) : W28 m ρ c = StableHlo.after hostOps14 (W27 m ρ c) := rfl

/-- Region 14 is entered with these contents at the TensorCore's references. -/
abbrev VE14 : (c : Dev nD) → (b : Ref sig .tc) → Buf (Elt F) ((c : Thread nD τ).loc b) := fun c b => W28 m ρ c b
/-- After item 29, region 14: its arrays at what the pipeline's write-backs leave (an input as entered),
    every other buffer as entered. -/
def W29 (c : Dev nD) : Valuation τ sig (Elt F) :=
  Pipeline.withArrays spec14 c (W28 m ρ c) fun w => (dat14 (VE14 m ρ) c).arrAt w cfg14.N
theorem Wexit14_arr (c : Dev nD) (w : Fin cfg14.W) :
    W29 m ρ c (Proc.devRef .tc (Pipeline.arrRef spec14 w)) = (dat14 (VE14 m ρ) c).arrAt w cfg14.N := by
  unfold W29; exact Pipeline.withArrays_arr spec14 launch14.win.arr_inj c _ _ w
theorem Wexit14_of_ne (c : Dev nD) (b : Ref sig .tc) (hb : ∀ w, Pipeline.arrRef spec14 w ≠ b) :
    W29 m ρ c (Proc.devRef .tc b) = W28 m ρ c (Proc.devRef .tc b) := by
  unfold W29; exact Pipeline.withArrays_of_ne spec14 c _ _ b hb

/-- After item 30, the host stretch `hostOps15`. -/
def W30 : Dev nD → Valuation τ sig (Elt F) := fun c => StableHlo.after hostOps15 (W29 m ρ c)
theorem W30_eq (c : Dev nD) : W30 m ρ c = StableHlo.after hostOps15 (W29 m ρ c) := rfl

/-- Region 15 is entered with these contents at the TensorCore's references. -/
abbrev VE15 : (c : Dev nD) → (b : Ref sig .tc) → Buf (Elt F) ((c : Thread nD τ).loc b) := fun c b => W30 m ρ c b
/-- After item 31, region 15: its arrays at what the pipeline's write-backs leave (an input as entered),
    every other buffer as entered. -/
def W31 (c : Dev nD) : Valuation τ sig (Elt F) :=
  Pipeline.withArrays spec15 c (W30 m ρ c) fun w => (dat15 (VE15 m ρ) c).arrAt w cfg15.N
theorem Wexit15_arr (c : Dev nD) (w : Fin cfg15.W) :
    W31 m ρ c (Proc.devRef .tc (Pipeline.arrRef spec15 w)) = (dat15 (VE15 m ρ) c).arrAt w cfg15.N := by
  unfold W31; exact Pipeline.withArrays_arr spec15 launch15.win.arr_inj c _ _ w
theorem Wexit15_of_ne (c : Dev nD) (b : Ref sig .tc) (hb : ∀ w, Pipeline.arrRef spec15 w ≠ b) :
    W31 m ρ c (Proc.devRef .tc b) = W30 m ρ c (Proc.devRef .tc b) := by
  unfold W31; exact Pipeline.withArrays_of_ne spec15 c _ _ b hb

/-- After item 32, the host stretch `hostOps16`. -/
def W32 : Dev nD → Valuation τ sig (Elt F) := fun c => StableHlo.after hostOps16 (W31 m ρ c)
theorem W32_eq (c : Dev nD) : W32 m ρ c = StableHlo.after hostOps16 (W31 m ρ c) := rfl

/-- Region 16 is entered with these contents at the TensorCore's references. -/
abbrev VE16 : (c : Dev nD) → (b : Ref sig .tc) → Buf (Elt F) ((c : Thread nD τ).loc b) := fun c b => W32 m ρ c b
/-- After item 33, region 16: its arrays at what the pipeline's write-backs leave (an input as entered),
    every other buffer as entered. -/
def W33 (c : Dev nD) : Valuation τ sig (Elt F) :=
  Pipeline.withArrays spec16 c (W32 m ρ c) fun w => (dat16 (VE16 m ρ) c).arrAt w cfg16.N
theorem Wexit16_arr (c : Dev nD) (w : Fin cfg16.W) :
    W33 m ρ c (Proc.devRef .tc (Pipeline.arrRef spec16 w)) = (dat16 (VE16 m ρ) c).arrAt w cfg16.N := by
  unfold W33; exact Pipeline.withArrays_arr spec16 launch16.win.arr_inj c _ _ w
theorem Wexit16_of_ne (c : Dev nD) (b : Ref sig .tc) (hb : ∀ w, Pipeline.arrRef spec16 w ≠ b) :
    W33 m ρ c (Proc.devRef .tc b) = W32 m ρ c (Proc.devRef .tc b) := by
  unfold W33; exact Pipeline.withArrays_of_ne spec16 c _ _ b hb

/-- After item 34, the host stretch `hostOps17`. -/
def W34 : Dev nD → Valuation τ sig (Elt F) := fun c => StableHlo.after hostOps17 (W33 m ρ c)
theorem W34_eq (c : Dev nD) : W34 m ρ c = StableHlo.after hostOps17 (W33 m ρ c) := rfl

/-- Region 17 is entered with these contents at the TensorCore's references. -/
abbrev VE17 : (c : Dev nD) → (b : Ref sig .tc) → Buf (Elt F) ((c : Thread nD τ).loc b) := fun c b => W34 m ρ c b
/-- After item 35, region 17: its arrays at what the pipeline's write-backs leave (an input as entered),
    every other buffer as entered. -/
def W35 (c : Dev nD) : Valuation τ sig (Elt F) :=
  Pipeline.withArrays spec17 c (W34 m ρ c) fun w => (dat17 (VE17 m ρ) c).arrAt w cfg17.N
theorem Wexit17_arr (c : Dev nD) (w : Fin cfg17.W) :
    W35 m ρ c (Proc.devRef .tc (Pipeline.arrRef spec17 w)) = (dat17 (VE17 m ρ) c).arrAt w cfg17.N := by
  unfold W35; exact Pipeline.withArrays_arr spec17 launch17.win.arr_inj c _ _ w
theorem Wexit17_of_ne (c : Dev nD) (b : Ref sig .tc) (hb : ∀ w, Pipeline.arrRef spec17 w ≠ b) :
    W35 m ρ c (Proc.devRef .tc b) = W34 m ρ c (Proc.devRef .tc b) := by
  unfold W35; exact Pipeline.withArrays_of_ne spec17 c _ _ b hb

/-- After item 36, the host stretch `hostOps18`. -/
def W36 : Dev nD → Valuation τ sig (Elt F) := fun c => StableHlo.after hostOps18 (W35 m ρ c)
theorem W36_eq (c : Dev nD) : W36 m ρ c = StableHlo.after hostOps18 (W35 m ρ c) := rfl

/-- Region 18 is entered with these contents at the TensorCore's references. -/
abbrev VE18 : (c : Dev nD) → (b : Ref sig .tc) → Buf (Elt F) ((c : Thread nD τ).loc b) := fun c b => W36 m ρ c b
/-- After item 37, region 18: its arrays at what the pipeline's write-backs leave (an input as entered),
    every other buffer as entered. -/
def W37 (c : Dev nD) : Valuation τ sig (Elt F) :=
  Pipeline.withArrays spec18 c (W36 m ρ c) fun w => (dat18 (VE18 m ρ) c).arrAt w cfg18.N
theorem Wexit18_arr (c : Dev nD) (w : Fin cfg18.W) :
    W37 m ρ c (Proc.devRef .tc (Pipeline.arrRef spec18 w)) = (dat18 (VE18 m ρ) c).arrAt w cfg18.N := by
  unfold W37; exact Pipeline.withArrays_arr spec18 launch18.win.arr_inj c _ _ w
theorem Wexit18_of_ne (c : Dev nD) (b : Ref sig .tc) (hb : ∀ w, Pipeline.arrRef spec18 w ≠ b) :
    W37 m ρ c (Proc.devRef .tc b) = W36 m ρ c (Proc.devRef .tc b) := by
  unfold W37; exact Pipeline.withArrays_of_ne spec18 c _ _ b hb

/-- After item 38, the host stretch `hostOps19`. -/
def W38 : Dev nD → Valuation τ sig (Elt F) := fun c => StableHlo.after hostOps19 (W37 m ρ c)
theorem W38_eq (c : Dev nD) : W38 m ρ c = StableHlo.after hostOps19 (W37 m ρ c) := rfl

/-- Region 19 is entered with these contents at the TensorCore's references. -/
abbrev VE19 : (c : Dev nD) → (b : Ref sig .tc) → Buf (Elt F) ((c : Thread nD τ).loc b) := fun c b => W38 m ρ c b
/-- After item 39, region 19: its arrays at what the pipeline's write-backs leave (an input as entered),
    every other buffer as entered. -/
def W39 (c : Dev nD) : Valuation τ sig (Elt F) :=
  Pipeline.withArrays spec19 c (W38 m ρ c) fun w => (dat19 (VE19 m ρ) c).arrAt w cfg19.N
theorem Wexit19_arr (c : Dev nD) (w : Fin cfg19.W) :
    W39 m ρ c (Proc.devRef .tc (Pipeline.arrRef spec19 w)) = (dat19 (VE19 m ρ) c).arrAt w cfg19.N := by
  unfold W39; exact Pipeline.withArrays_arr spec19 launch19.win.arr_inj c _ _ w
theorem Wexit19_of_ne (c : Dev nD) (b : Ref sig .tc) (hb : ∀ w, Pipeline.arrRef spec19 w ≠ b) :
    W39 m ρ c (Proc.devRef .tc b) = W38 m ρ c (Proc.devRef .tc b) := by
  unfold W39; exact Pipeline.withArrays_of_ne spec19 c _ _ b hb

/-- After item 40, the host stretch `hostOps20`. -/
def W40 : Dev nD → Valuation τ sig (Elt F) := fun c => StableHlo.after hostOps20 (W39 m ρ c)
theorem W40_eq (c : Dev nD) : W40 m ρ c = StableHlo.after hostOps20 (W39 m ρ c) := rfl

end Cert.KernelIdeal.Hand

end
-- ==== Proof.KI.HostWrites.lean ====
/- What the host stretches of @main write and allocate. Each operation writes exactly its result buffer, so a
   stretch writes only the references in the list of its operations' results (in order, repetitions kept);
   the proof walks the list once, one step per operation. No operation allocates a buffer. -/
import proofs.«424088_j28020366639260_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The empty stretch writes nothing. -/
theorem writes_nil : ([] : List (HloOp τ sig (Elt F))).Forall fun op =>
    op.writes ⊆ (([] : List (Ref sig .tc)).map (Proc.devRef (τ := τ) .tc)).toFinset := trivial

/-- An operation writing exactly `y`, before a stretch writing within `W`, writes within `y :: W`. -/
theorem writes_cons {op : HloOp τ sig (Elt F)} {ops : List (HloOp τ sig (Elt F))} {y : Ref sig .tc} {W : List (Ref sig .tc)}
    (h1 : op.writes = {Proc.devRef (τ := τ) .tc y})
    (h2 : ops.Forall fun op => op.writes ⊆ (W.map (Proc.devRef (τ := τ) .tc)).toFinset) :
    (op :: ops).Forall fun op => op.writes ⊆ ((y :: W).map (Proc.devRef (τ := τ) .tc)).toFinset := by
  rw [List.forall_iff_forall_mem] at h2 ⊢
  intro o ho
  rcases List.mem_cons.mp ho with rfl | ho
  · rw [h1, Finset.singleton_subset_iff, List.mem_toFinset]
    exact List.mem_map_of_mem List.mem_cons_self
  · intro b hb
    have hmem := h2 o ho hb
    rw [List.mem_toFinset] at hmem ⊢
    rw [List.map_cons]
    exact List.mem_cons_of_mem _ hmem

/-- The empty stretch allocates nothing. -/
theorem fresh_nil : ([] : List (HloOp τ sig (Elt F))).Forall fun op => op.fresh = ∅ := trivial

/-- One more operation that allocates nothing. -/
theorem fresh_cons {op : HloOp τ sig (Elt F)} {ops : List (HloOp τ sig (Elt F))}
    (h1 : op.fresh = ∅) (h2 : ops.Forall fun op => op.fresh = ∅) : (op :: ops).Forall fun op => op.fresh = ∅ := by
  rw [List.forall_iff_forall_mem] at h2 ⊢
  intro o ho
  rcases List.mem_cons.mp ho with rfl | ho
  · exact h1
  · exact h2 o ho

/-- The results of `hostOps0`'s 2 operations, in order. -/
abbrev hostOps0_W : List (Ref sig .tc) :=
  [main_v0, main_v1]
theorem hostOps0_writes : (hostOps0 : List (HloOp τ sig (Elt F))).Forall fun op =>
    op.writes ⊆ (hostOps0_W.map (Proc.devRef (τ := τ) .tc)).toFinset := by
  repeat (first | exact writes_nil | refine writes_cons rfl ?_)
theorem hostOps0_fresh : (hostOps0 : List (HloOp τ sig (Elt F))).Forall fun op => op.fresh = ∅ := by
  repeat (first | exact fresh_nil | refine fresh_cons rfl ?_)

/-- The results of `hostOps1`'s 27 operations, in order. -/
abbrev hostOps1_W : List (Ref sig .tc) :=
  [main_cst, main_v3, main_cst_0, main_v4, main_v5, main_v6, main_v7, main_v8, main_cst_1, main_v9, main_v10, main_cst_2, main_v11, main_v12, main_v13, main_v14, main_cst_3, main_v15, main_v16, main_v17, main_v18, main_v19, main_v20, main_v21, main_v22, main_v23, main_v24]
theorem hostOps1_writes : (hostOps1 : List (HloOp τ sig (Elt F))).Forall fun op =>
    op.writes ⊆ (hostOps1_W.map (Proc.devRef (τ := τ) .tc)).toFinset := by
  repeat (first | exact writes_nil | refine writes_cons rfl ?_)
theorem hostOps1_fresh : (hostOps1 : List (HloOp τ sig (Elt F))).Forall fun op => op.fresh = ∅ := by
  repeat (first | exact fresh_nil | refine fresh_cons rfl ?_)

/-- The results of `hostOps2`'s 27 operations, in order. -/
abbrev hostOps2_W : List (Ref sig .tc) :=
  [main_cst_4, main_v26, main_cst_5, main_v27, main_v28, main_v29, main_v30, main_v31, main_cst_6, main_v32, main_v33, main_cst_7, main_v34, main_v35, main_v36, main_v37, main_cst_8, main_v38, main_v39, main_v40, main_v41, main_v42, main_v43, main_v44, main_v45, main_v46, main_v47]
theorem hostOps2_writes : (hostOps2 : List (HloOp τ sig (Elt F))).Forall fun op =>
    op.writes ⊆ (hostOps2_W.map (Proc.devRef (τ := τ) .tc)).toFinset := by
  repeat (first | exact writes_nil | refine writes_cons rfl ?_)
theorem hostOps2_fresh : (hostOps2 : List (HloOp τ sig (Elt F))).Forall fun op => op.fresh = ∅ := by
  repeat (first | exact fresh_nil | refine fresh_cons rfl ?_)

/-- The results of `hostOps4`'s 195 operations, in order. -/
abbrev hostOps4_W : List (Ref sig .tc) :=
  [main_cst_9, main_v50, main_cst_10, main_v51, main_v52, main_v53, main_cst_11, main_v54, main_v55, main_cst_12, main_v56, main_v57, main_cst_13, main_v58, main_cst_14, main_v59, main_v60, main_v61, main_cst_15, main_v62, main_v63, main_cst_16, main_v64, main_v65, main_cst_17, main_v66, main_cst_18, main_v67, main_v68, main_v69, main_cst_19, main_v70, main_v71, main_cst_20, main_v72, main_v73, main_cst_21, main_v74, main_cst_22, main_v75, main_v76, main_v77, main_cst_23, main_v78, main_v79, main_cst_24, main_v80, main_v81, main_cst_25, main_v82, main_cst_26, main_v83, main_v84, main_v85, main_cst_27, main_v86, main_v87, main_cst_28, main_v88, main_v89, main_cst_29, main_v90, main_cst_30, main_v91, main_v92, main_v93, main_cst_31, main_v94, main_v95, main_cst_32, main_v96, main_v97, main_c, main_v98, main_v99, main_c_33, main_v100, main_v101, main_v102, main_v103, main_v104, main_cst_34, main_v105, main_v106, main_v107, main_v108, main_v109, main_v110, main_c_35, main_v111, main_v112, main_c_36, main_v113, main_v114, main_v115, main_v116, main_v117, main_cst_37, main_v118, main_v119, main_v120, main_v121, main_v122, main_v123, main_c_38, main_v124, main_v125, main_c_39, main_v126, main_v127, main_v128, main_v129, main_v130, main_cst_40, main_v131, main_v132, main_v133, main_v134, main_v135, main_v136, main_c_41, main_v137, main_v138, main_c_42, main_v139, main_v140, main_v141, main_v142, main_v143, main_cst_43, main_v144, main_v145, main_v146, main_v147, main_v148, main_v149, main_c_44, main_v150, main_v151, main_c_45, main_v152, main_v153, main_v154, main_v155, main_v156, main_cst_46, main_v157, main_v158, main_v159, main_v160, main_v161, main_v162, main_c_47, main_v163, main_v164, main_c_48, main_v165, main_v166, main_v167, main_v168, main_v169, main_cst_49, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202]
set_option maxHeartbeats 4000000 in
theorem hostOps4_writes : (hostOps4 : List (HloOp τ sig (Elt F))).Forall fun op =>
    op.writes ⊆ (hostOps4_W.map (Proc.devRef (τ := τ) .tc)).toFinset := by
  repeat (first | exact writes_nil | refine writes_cons rfl ?_)
set_option maxHeartbeats 4000000 in
theorem hostOps4_fresh : (hostOps4 : List (HloOp τ sig (Elt F))).Forall fun op => op.fresh = ∅ := by
  repeat (first | exact fresh_nil | refine fresh_cons rfl ?_)

/-- The results of `hostOps5`'s 25 operations, in order. -/
abbrev hostOps5_W : List (Ref sig .tc) :=
  [main_cst_50, main_v204, main_cst_51, main_v205, main_v206, main_v207, main_v208, main_v209, main_cst_52, main_v210, main_v211, main_cst_53, main_v212, main_v213, main_v214, main_v215, main_cst_54, main_v216, main_v217, main_v218, main_v219, main_v220, main_v221, main_v222, main_v223]
theorem hostOps5_writes : (hostOps5 : List (HloOp τ sig (Elt F))).Forall fun op =>
    op.writes ⊆ (hostOps5_W.map (Proc.devRef (τ := τ) .tc)).toFinset := by
  repeat (first | exact writes_nil | refine writes_cons rfl ?_)
theorem hostOps5_fresh : (hostOps5 : List (HloOp τ sig (Elt F))).Forall fun op => op.fresh = ∅ := by
  repeat (first | exact fresh_nil | refine fresh_cons rfl ?_)

/-- The results of `hostOps6`'s 9 operations, in order. -/
abbrev hostOps6_W : List (Ref sig .tc) :=
  [main_v225, main_v226, main_v227, main_v228, main_v229, main_v230, main_v231, main_v232, main_v233]
theorem hostOps6_writes : (hostOps6 : List (HloOp τ sig (Elt F))).Forall fun op =>
    op.writes ⊆ (hostOps6_W.map (Proc.devRef (τ := τ) .tc)).toFinset := by
  repeat (first | exact writes_nil | refine writes_cons rfl ?_)
theorem hostOps6_fresh : (hostOps6 : List (HloOp τ sig (Elt F))).Forall fun op => op.fresh = ∅ := by
  repeat (first | exact fresh_nil | refine fresh_cons rfl ?_)

/-- The results of `hostOps7`'s 23 operations, in order. -/
abbrev hostOps7_W : List (Ref sig .tc) :=
  [main_v235, main_v236, main_v237, main_v238, main_v239, main_v240, main_cst_55, main_v241, main_v242, main_cst_56, main_v243, main_v244, main_v245, main_v246, main_cst_57, main_v247, main_v248, main_v249, main_v250, main_v251, main_v252, main_v253, main_v254]
theorem hostOps7_writes : (hostOps7 : List (HloOp τ sig (Elt F))).Forall fun op =>
    op.writes ⊆ (hostOps7_W.map (Proc.devRef (τ := τ) .tc)).toFinset := by
  repeat (first | exact writes_nil | refine writes_cons rfl ?_)
theorem hostOps7_fresh : (hostOps7 : List (HloOp τ sig (Elt F))).Forall fun op => op.fresh = ∅ := by
  repeat (first | exact fresh_nil | refine fresh_cons rfl ?_)

/-- The results of `hostOps8`'s 9 operations, in order. -/
abbrev hostOps8_W : List (Ref sig .tc) :=
  [main_v256, main_v257, main_v258, main_v259, main_v260, main_v261, main_v262, main_v263, main_v264]
theorem hostOps8_writes : (hostOps8 : List (HloOp τ sig (Elt F))).Forall fun op =>
    op.writes ⊆ (hostOps8_W.map (Proc.devRef (τ := τ) .tc)).toFinset := by
  repeat (first | exact writes_nil | refine writes_cons rfl ?_)
theorem hostOps8_fresh : (hostOps8 : List (HloOp τ sig (Elt F))).Forall fun op => op.fresh = ∅ := by
  repeat (first | exact fresh_nil | refine fresh_cons rfl ?_)

/-- The results of `hostOps9`'s 23 operations, in order. -/
abbrev hostOps9_W : List (Ref sig .tc) :=
  [main_v266, main_v267, main_v268, main_v269, main_v270, main_v271, main_cst_58, main_v272, main_v273, main_cst_59, main_v274, main_v275, main_v276, main_v277, main_cst_60, main_v278, main_v279, main_v280, main_v281, main_v282, main_v283, main_v284, main_v285]
theorem hostOps9_writes : (hostOps9 : List (HloOp τ sig (Elt F))).Forall fun op =>
    op.writes ⊆ (hostOps9_W.map (Proc.devRef (τ := τ) .tc)).toFinset := by
  repeat (first | exact writes_nil | refine writes_cons rfl ?_)
theorem hostOps9_fresh : (hostOps9 : List (HloOp τ sig (Elt F))).Forall fun op => op.fresh = ∅ := by
  repeat (first | exact fresh_nil | refine fresh_cons rfl ?_)

/-- The results of `hostOps10`'s 9 operations, in order. -/
abbrev hostOps10_W : List (Ref sig .tc) :=
  [main_v287, main_v288, main_v289, main_v290, main_v291, main_v292, main_v293, main_v294, main_v295]
theorem hostOps10_writes : (hostOps10 : List (HloOp τ sig (Elt F))).Forall fun op =>
    op.writes ⊆ (hostOps10_W.map (Proc.devRef (τ := τ) .tc)).toFinset := by
  repeat (first | exact writes_nil | refine writes_cons rfl ?_)
theorem hostOps10_fresh : (hostOps10 : List (HloOp τ sig (Elt F))).Forall fun op => op.fresh = ∅ := by
  repeat (first | exact fresh_nil | refine fresh_cons rfl ?_)

/-- The results of `hostOps11`'s 23 operations, in order. -/
abbrev hostOps11_W : List (Ref sig .tc) :=
  [main_v297, main_v298, main_v299, main_v300, main_v301, main_v302, main_cst_61, main_v303, main_v304, main_cst_62, main_v305, main_v306, main_v307, main_v308, main_cst_63, main_v309, main_v310, main_v311, main_v312, main_v313, main_v314, main_v315, main_v316]
theorem hostOps11_writes : (hostOps11 : List (HloOp τ sig (Elt F))).Forall fun op =>
    op.writes ⊆ (hostOps11_W.map (Proc.devRef (τ := τ) .tc)).toFinset := by
  repeat (first | exact writes_nil | refine writes_cons rfl ?_)
theorem hostOps11_fresh : (hostOps11 : List (HloOp τ sig (Elt F))).Forall fun op => op.fresh = ∅ := by
  repeat (first | exact fresh_nil | refine fresh_cons rfl ?_)

/-- The results of `hostOps12`'s 123 operations, in order. -/
abbrev hostOps12_W : List (Ref sig .tc) :=
  [main_c_64, main_v318, main_v319, main_c_65, main_v320, main_v321, main_v322, main_v323, main_v324, main_cst_66, main_v325, main_v326, main_v327, main_v328, main_v329, main_v330, main_c_67, main_v331, main_v332, main_c_68, main_v333, main_v334, main_v335, main_v336, main_v337, main_cst_69, main_v338, main_v339, main_v340, main_v341, main_v342, main_v343, main_c_70, main_v344, main_v345, main_c_71, main_v346, main_v347, main_v348, main_v349, main_v350, main_cst_72, main_v351, main_v352, main_v353, main_v354, main_v355, main_v356, main_c_73, main_v357, main_v358, main_c_74, main_v359, main_v360, main_v361, main_v362, main_v363, main_cst_75, main_v364, main_v365, main_v366, main_v367, main_v368, main_v369, main_c_76, main_v370, main_v371, main_c_77, main_v372, main_v373, main_v374, main_v375, main_v376, main_cst_78, main_v377, main_v378, main_v379, main_v380, main_v381, main_v382, main_c_79, main_v383, main_v384, main_c_80, main_v385, main_v386, main_v387, main_v388, main_v389, main_cst_81, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422]
set_option maxHeartbeats 4000000 in
theorem hostOps12_writes : (hostOps12 : List (HloOp τ sig (Elt F))).Forall fun op =>
    op.writes ⊆ (hostOps12_W.map (Proc.devRef (τ := τ) .tc)).toFinset := by
  repeat (first | exact writes_nil | refine writes_cons rfl ?_)
set_option maxHeartbeats 4000000 in
theorem hostOps12_fresh : (hostOps12 : List (HloOp τ sig (Elt F))).Forall fun op => op.fresh = ∅ := by
  repeat (first | exact fresh_nil | refine fresh_cons rfl ?_)

/-- The results of `hostOps13`'s 25 operations, in order. -/
abbrev hostOps13_W : List (Ref sig .tc) :=
  [main_cst_82, main_v424, main_cst_83, main_v425, main_v426, main_v427, main_v428, main_v429, main_cst_84, main_v430, main_v431, main_cst_85, main_v432, main_v433, main_v434, main_v435, main_cst_86, main_v436, main_v437, main_v438, main_v439, main_v440, main_v441, main_v442, main_v443]
theorem hostOps13_writes : (hostOps13 : List (HloOp τ sig (Elt F))).Forall fun op =>
    op.writes ⊆ (hostOps13_W.map (Proc.devRef (τ := τ) .tc)).toFinset := by
  repeat (first | exact writes_nil | refine writes_cons rfl ?_)
theorem hostOps13_fresh : (hostOps13 : List (HloOp τ sig (Elt F))).Forall fun op => op.fresh = ∅ := by
  repeat (first | exact fresh_nil | refine fresh_cons rfl ?_)

/-- The results of `hostOps14`'s 9 operations, in order. -/
abbrev hostOps14_W : List (Ref sig .tc) :=
  [main_v445, main_v446, main_v447, main_v448, main_v449, main_v450, main_v451, main_v452, main_v453]
theorem hostOps14_writes : (hostOps14 : List (HloOp τ sig (Elt F))).Forall fun op =>
    op.writes ⊆ (hostOps14_W.map (Proc.devRef (τ := τ) .tc)).toFinset := by
  repeat (first | exact writes_nil | refine writes_cons rfl ?_)
theorem hostOps14_fresh : (hostOps14 : List (HloOp τ sig (Elt F))).Forall fun op => op.fresh = ∅ := by
  repeat (first | exact fresh_nil | refine fresh_cons rfl ?_)

/-- The results of `hostOps15`'s 23 operations, in order. -/
abbrev hostOps15_W : List (Ref sig .tc) :=
  [main_v455, main_v456, main_v457, main_v458, main_v459, main_v460, main_cst_87, main_v461, main_v462, main_cst_88, main_v463, main_v464, main_v465, main_v466, main_cst_89, main_v467, main_v468, main_v469, main_v470, main_v471, main_v472, main_v473, main_v474]
theorem hostOps15_writes : (hostOps15 : List (HloOp τ sig (Elt F))).Forall fun op =>
    op.writes ⊆ (hostOps15_W.map (Proc.devRef (τ := τ) .tc)).toFinset := by
  repeat (first | exact writes_nil | refine writes_cons rfl ?_)
theorem hostOps15_fresh : (hostOps15 : List (HloOp τ sig (Elt F))).Forall fun op => op.fresh = ∅ := by
  repeat (first | exact fresh_nil | refine fresh_cons rfl ?_)

/-- The results of `hostOps16`'s 9 operations, in order. -/
abbrev hostOps16_W : List (Ref sig .tc) :=
  [main_v476, main_v477, main_v478, main_v479, main_v480, main_v481, main_v482, main_v483, main_v484]
theorem hostOps16_writes : (hostOps16 : List (HloOp τ sig (Elt F))).Forall fun op =>
    op.writes ⊆ (hostOps16_W.map (Proc.devRef (τ := τ) .tc)).toFinset := by
  repeat (first | exact writes_nil | refine writes_cons rfl ?_)
theorem hostOps16_fresh : (hostOps16 : List (HloOp τ sig (Elt F))).Forall fun op => op.fresh = ∅ := by
  repeat (first | exact fresh_nil | refine fresh_cons rfl ?_)

/-- The results of `hostOps17`'s 23 operations, in order. -/
abbrev hostOps17_W : List (Ref sig .tc) :=
  [main_v486, main_v487, main_v488, main_v489, main_v490, main_v491, main_cst_90, main_v492, main_v493, main_cst_91, main_v494, main_v495, main_v496, main_v497, main_cst_92, main_v498, main_v499, main_v500, main_v501, main_v502, main_v503, main_v504, main_v505]
theorem hostOps17_writes : (hostOps17 : List (HloOp τ sig (Elt F))).Forall fun op =>
    op.writes ⊆ (hostOps17_W.map (Proc.devRef (τ := τ) .tc)).toFinset := by
  repeat (first | exact writes_nil | refine writes_cons rfl ?_)
theorem hostOps17_fresh : (hostOps17 : List (HloOp τ sig (Elt F))).Forall fun op => op.fresh = ∅ := by
  repeat (first | exact fresh_nil | refine fresh_cons rfl ?_)

/-- The results of `hostOps18`'s 9 operations, in order. -/
abbrev hostOps18_W : List (Ref sig .tc) :=
  [main_v507, main_v508, main_v509, main_v510, main_v511, main_v512, main_v513, main_v514, main_v515]
theorem hostOps18_writes : (hostOps18 : List (HloOp τ sig (Elt F))).Forall fun op =>
    op.writes ⊆ (hostOps18_W.map (Proc.devRef (τ := τ) .tc)).toFinset := by
  repeat (first | exact writes_nil | refine writes_cons rfl ?_)
theorem hostOps18_fresh : (hostOps18 : List (HloOp τ sig (Elt F))).Forall fun op => op.fresh = ∅ := by
  repeat (first | exact fresh_nil | refine fresh_cons rfl ?_)

/-- The results of `hostOps19`'s 23 operations, in order. -/
abbrev hostOps19_W : List (Ref sig .tc) :=
  [main_v517, main_v518, main_v519, main_v520, main_v521, main_v522, main_cst_93, main_v523, main_v524, main_cst_94, main_v525, main_v526, main_v527, main_v528, main_cst_95, main_v529, main_v530, main_v531, main_v532, main_v533, main_v534, main_v535, main_v536]
theorem hostOps19_writes : (hostOps19 : List (HloOp τ sig (Elt F))).Forall fun op =>
    op.writes ⊆ (hostOps19_W.map (Proc.devRef (τ := τ) .tc)).toFinset := by
  repeat (first | exact writes_nil | refine writes_cons rfl ?_)
theorem hostOps19_fresh : (hostOps19 : List (HloOp τ sig (Elt F))).Forall fun op => op.fresh = ∅ := by
  repeat (first | exact fresh_nil | refine fresh_cons rfl ?_)

/-- The results of `hostOps20`'s 1 operation, in order. -/
abbrev hostOps20_W : List (Ref sig .tc) :=
  [main_v538]
theorem hostOps20_writes : (hostOps20 : List (HloOp τ sig (Elt F))).Forall fun op =>
    op.writes ⊆ (hostOps20_W.map (Proc.devRef (τ := τ) .tc)).toFinset := by
  repeat (first | exact writes_nil | refine writes_cons rfl ?_)
theorem hostOps20_fresh : (hostOps20 : List (HloOp τ sig (Elt F))).Forall fun op => op.fresh = ∅ := by
  repeat (first | exact fresh_nil | refine fresh_cons rfl ?_)

end Cert.KernelIdeal.Hand

end
-- ==== Proof.KI.Args.lean ====
/- Every argument array reaches the return as launched. One fact per item of @main: a host stretch leaves a
   reference outside the list of its results as it was; a region leaves a reference as it was unless that
   reference is the array of one of its OUTPUT windows (an input window's array is never written back, and a
   reference that is no window's array bypasses the region). A reference that passes all 40 tests holds at the
   return what the launch memory held, and each of the 23 arguments passes them, each test by evaluation. -/
import proofs.«424088_j28020366639260_2_alg».proof.Proof.KI.Fold
import proofs.«424088_j28020366639260_2_alg».proof.Proof.KI.HostWrites

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Item 1 (`hostOps0`) leaves a reference that is none of its results as it was. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- Item 2 (region 0) leaves a reference as it was unless it is an output window's array. -/
theorem Wexit0_keep (c : Dev nD) (r : Ref sig .tc)
    (h : ∀ w : Fin cfg0.W, Pipeline.arrRef spec0 w = r → (cfg0.win w).isOut = false) :
    W2 m ρ c (Proc.devRef .tc r) = W1 m ρ c (Proc.devRef .tc r) := by
  by_cases hw : ∃ w, Pipeline.arrRef spec0 w = r
  · obtain ⟨w, rfl⟩ := hw
    exact (Wexit0_arr m ρ c w).trans (((dat0 (VE0 m ρ) c).arrAt_in w (h w rfl) _).trans (A_eq0 (VE0 m ρ) c w))
  · exact Wexit0_of_ne m ρ c r fun w e => hw ⟨w, e⟩

/-- Item 3 (`hostOps1`) leaves a reference that is none of its results as it was. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- Item 4 (region 1) leaves a reference as it was unless it is an output window's array. -/
theorem Wexit1_keep (c : Dev nD) (r : Ref sig .tc)
    (h : ∀ w : Fin cfg1.W, Pipeline.arrRef spec1 w = r → (cfg1.win w).isOut = false) :
    W4 m ρ c (Proc.devRef .tc r) = W3 m ρ c (Proc.devRef .tc r) := by
  by_cases hw : ∃ w, Pipeline.arrRef spec1 w = r
  · obtain ⟨w, rfl⟩ := hw
    exact (Wexit1_arr m ρ c w).trans (((dat1 (VE1 m ρ) c).arrAt_in w (h w rfl) _).trans (A_eq1 (VE1 m ρ) c w))
  · exact Wexit1_of_ne m ρ c r fun w e => hw ⟨w, e⟩

/-- Item 5 (`hostOps2`) leaves a reference that is none of its results as it was. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- Item 6 (region 2) leaves a reference as it was unless it is an output window's array. -/
theorem Wexit2_keep (c : Dev nD) (r : Ref sig .tc)
    (h : ∀ w : Fin cfg2.W, Pipeline.arrRef spec2 w = r → (cfg2.win w).isOut = false) :
    W6 m ρ c (Proc.devRef .tc r) = W5 m ρ c (Proc.devRef .tc r) := by
  by_cases hw : ∃ w, Pipeline.arrRef spec2 w = r
  · obtain ⟨w, rfl⟩ := hw
    exact (Wexit2_arr m ρ c w).trans (((dat2 (VE2 m ρ) c).arrAt_in w (h w rfl) _).trans (A_eq2 (VE2 m ρ) c w))
  · exact Wexit2_of_ne m ρ c r fun w e => hw ⟨w, e⟩

/-- Item 7 (region 3) leaves a reference as it was unless it is an output window's array. -/
theorem Wexit3_keep (c : Dev nD) (r : Ref sig .tc)
    (h : ∀ w : Fin cfg3.W, Pipeline.arrRef spec3 w = r → (cfg3.win w).isOut = false) :
    W7 m ρ c (Proc.devRef .tc r) = W6 m ρ c (Proc.devRef .tc r) := by
  by_cases hw : ∃ w, Pipeline.arrRef spec3 w = r
  · obtain ⟨w, rfl⟩ := hw
    exact (Wexit3_arr m ρ c w).trans (((dat3 (VE3 m ρ) c).arrAt_in w (h w rfl) _).trans (A_eq3 (VE3 m ρ) c w))
  · exact Wexit3_of_ne m ρ c r fun w e => hw ⟨w, e⟩

/-- Item 8 (`hostOps4`) leaves a reference that is none of its results as it was. -/
theorem W8_of (c : Dev nD) (r : Ref sig .tc) (h : r ∉ hostOps4_W) :
    W8 m ρ c (Proc.devRef .tc r) = W7 m ρ c (Proc.devRef .tc r) :=
  StableHlo.after_of_writes_sub hostOps4 _ hostOps4_writes h

/-- Item 9 (region 4) leaves a reference as it was unless it is an output window's array. -/
theorem Wexit4_keep (c : Dev nD) (r : Ref sig .tc)
    (h : ∀ w : Fin cfg4.W, Pipeline.arrRef spec4 w = r → (cfg4.win w).isOut = false) :
    W9 m ρ c (Proc.devRef .tc r) = W8 m ρ c (Proc.devRef .tc r) := by
  by_cases hw : ∃ w, Pipeline.arrRef spec4 w = r
  · obtain ⟨w, rfl⟩ := hw
    exact (Wexit4_arr m ρ c w).trans (((dat4 (VE4 m ρ) c).arrAt_in w (h w rfl) _).trans (A_eq4 (VE4 m ρ) c w))
  · exact Wexit4_of_ne m ρ c r fun w e => hw ⟨w, e⟩

/-- Item 10 (`hostOps5`) leaves a reference that is none of its results as it was. -/
theorem W10_of (c : Dev nD) (r : Ref sig .tc) (h : r ∉ hostOps5_W) :
    W10 m ρ c (Proc.devRef .tc r) = W9 m ρ c (Proc.devRef .tc r) :=
  StableHlo.after_of_writes_sub hostOps5 _ hostOps5_writes h

/-- Item 11 (region 5) leaves a reference as it was unless it is an output window's array. -/
theorem Wexit5_keep (c : Dev nD) (r : Ref sig .tc)
    (h : ∀ w : Fin cfg5.W, Pipeline.arrRef spec5 w = r → (cfg5.win w).isOut = false) :
    W11 m ρ c (Proc.devRef .tc r) = W10 m ρ c (Proc.devRef .tc r) := by
  by_cases hw : ∃ w, Pipeline.arrRef spec5 w = r
  · obtain ⟨w, rfl⟩ := hw
    exact (Wexit5_arr m ρ c w).trans (((dat5 (VE5 m ρ) c).arrAt_in w (h w rfl) _).trans (A_eq5 (VE5 m ρ) c w))
  · exact Wexit5_of_ne m ρ c r fun w e => hw ⟨w, e⟩

/-- Item 12 (`hostOps6`) leaves a reference that is none of its results as it was. -/
theorem W12_of (c : Dev nD) (r : Ref sig .tc) (h : r ∉ hostOps6_W) :
    W12 m ρ c (Proc.devRef .tc r) = W11 m ρ c (Proc.devRef .tc r) :=
  StableHlo.after_of_writes_sub hostOps6 _ hostOps6_writes h

/-- Item 13 (region 6) leaves a reference as it was unless it is an output window's array. -/
theorem Wexit6_keep (c : Dev nD) (r : Ref sig .tc)
    (h : ∀ w : Fin cfg6.W, Pipeline.arrRef spec6 w = r → (cfg6.win w).isOut = false) :
    W13 m ρ c (Proc.devRef .tc r) = W12 m ρ c (Proc.devRef .tc r) := by
  by_cases hw : ∃ w, Pipeline.arrRef spec6 w = r
  · obtain ⟨w, rfl⟩ := hw
    exact (Wexit6_arr m ρ c w).trans (((dat6 (VE6 m ρ) c).arrAt_in w (h w rfl) _).trans (A_eq6 (VE6 m ρ) c w))
  · exact Wexit6_of_ne m ρ c r fun w e => hw ⟨w, e⟩

/-- Item 14 (`hostOps7`) leaves a reference that is none of its results as it was. -/
theorem W14_of (c : Dev nD) (r : Ref sig .tc) (h : r ∉ hostOps7_W) :
    W14 m ρ c (Proc.devRef .tc r) = W13 m ρ c (Proc.devRef .tc r) :=
  StableHlo.after_of_writes_sub hostOps7 _ hostOps7_writes h

/-- Item 15 (region 7) leaves a reference as it was unless it is an output window's array. -/
theorem Wexit7_keep (c : Dev nD) (r : Ref sig .tc)
    (h : ∀ w : Fin cfg7.W, Pipeline.arrRef spec7 w = r → (cfg7.win w).isOut = false) :
    W15 m ρ c (Proc.devRef .tc r) = W14 m ρ c (Proc.devRef .tc r) := by
  by_cases hw : ∃ w, Pipeline.arrRef spec7 w = r
  · obtain ⟨w, rfl⟩ := hw
    exact (Wexit7_arr m ρ c w).trans (((dat7 (VE7 m ρ) c).arrAt_in w (h w rfl) _).trans (A_eq7 (VE7 m ρ) c w))
  · exact Wexit7_of_ne m ρ c r fun w e => hw ⟨w, e⟩

/-- Item 16 (`hostOps8`) leaves a reference that is none of its results as it was. -/
theorem W16_of (c : Dev nD) (r : Ref sig .tc) (h : r ∉ hostOps8_W) :
    W16 m ρ c (Proc.devRef .tc r) = W15 m ρ c (Proc.devRef .tc r) :=
  StableHlo.after_of_writes_sub hostOps8 _ hostOps8_writes h

/-- Item 17 (region 8) leaves a reference as it was unless it is an output window's array. -/
theorem Wexit8_keep (c : Dev nD) (r : Ref sig .tc)
    (h : ∀ w : Fin cfg8.W, Pipeline.arrRef spec8 w = r → (cfg8.win w).isOut = false) :
    W17 m ρ c (Proc.devRef .tc r) = W16 m ρ c (Proc.devRef .tc r) := by
  by_cases hw : ∃ w, Pipeline.arrRef spec8 w = r
  · obtain ⟨w, rfl⟩ := hw
    exact (Wexit8_arr m ρ c w).trans (((dat8 (VE8 m ρ) c).arrAt_in w (h w rfl) _).trans (A_eq8 (VE8 m ρ) c w))
  · exact Wexit8_of_ne m ρ c r fun w e => hw ⟨w, e⟩

/-- Item 18 (`hostOps9`) leaves a reference that is none of its results as it was. -/
theorem W18_of (c : Dev nD) (r : Ref sig .tc) (h : r ∉ hostOps9_W) :
    W18 m ρ c (Proc.devRef .tc r) = W17 m ρ c (Proc.devRef .tc r) :=
  StableHlo.after_of_writes_sub hostOps9 _ hostOps9_writes h

/-- Item 19 (region 9) leaves a reference as it was unless it is an output window's array. -/
theorem Wexit9_keep (c : Dev nD) (r : Ref sig .tc)
    (h : ∀ w : Fin cfg9.W, Pipeline.arrRef spec9 w = r → (cfg9.win w).isOut = false) :
    W19 m ρ c (Proc.devRef .tc r) = W18 m ρ c (Proc.devRef .tc r) := by
  by_cases hw : ∃ w, Pipeline.arrRef spec9 w = r
  · obtain ⟨w, rfl⟩ := hw
    exact (Wexit9_arr m ρ c w).trans (((dat9 (VE9 m ρ) c).arrAt_in w (h w rfl) _).trans (A_eq9 (VE9 m ρ) c w))
  · exact Wexit9_of_ne m ρ c r fun w e => hw ⟨w, e⟩

/-- Item 20 (`hostOps10`) leaves a reference that is none of its results as it was. -/
theorem W20_of (c : Dev nD) (r : Ref sig .tc) (h : r ∉ hostOps10_W) :
    W20 m ρ c (Proc.devRef .tc r) = W19 m ρ c (Proc.devRef .tc r) :=
  StableHlo.after_of_writes_sub hostOps10 _ hostOps10_writes h

/-- Item 21 (region 10) leaves a reference as it was unless it is an output window's array. -/
theorem Wexit10_keep (c : Dev nD) (r : Ref sig .tc)
    (h : ∀ w : Fin cfg10.W, Pipeline.arrRef spec10 w = r → (cfg10.win w).isOut = false) :
    W21 m ρ c (Proc.devRef .tc r) = W20 m ρ c (Proc.devRef .tc r) := by
  by_cases hw : ∃ w, Pipeline.arrRef spec10 w = r
  · obtain ⟨w, rfl⟩ := hw
    exact (Wexit10_arr m ρ c w).trans (((dat10 (VE10 m ρ) c).arrAt_in w (h w rfl) _).trans (A_eq10 (VE10 m ρ) c w))
  · exact Wexit10_of_ne m ρ c r fun w e => hw ⟨w, e⟩

/-- Item 22 (`hostOps11`) leaves a reference that is none of its results as it was. -/
theorem W22_of (c : Dev nD) (r : Ref sig .tc) (h : r ∉ hostOps11_W) :
    W22 m ρ c (Proc.devRef .tc r) = W21 m ρ c (Proc.devRef .tc r) :=
  StableHlo.after_of_writes_sub hostOps11 _ hostOps11_writes h

/-- Item 23 (region 11) leaves a reference as it was unless it is an output window's array. -/
theorem Wexit11_keep (c : Dev nD) (r : Ref sig .tc)
    (h : ∀ w : Fin cfg11.W, Pipeline.arrRef spec11 w = r → (cfg11.win w).isOut = false) :
    W23 m ρ c (Proc.devRef .tc r) = W22 m ρ c (Proc.devRef .tc r) := by
  by_cases hw : ∃ w, Pipeline.arrRef spec11 w = r
  · obtain ⟨w, rfl⟩ := hw
    exact (Wexit11_arr m ρ c w).trans (((dat11 (VE11 m ρ) c).arrAt_in w (h w rfl) _).trans (A_eq11 (VE11 m ρ) c w))
  · exact Wexit11_of_ne m ρ c r fun w e => hw ⟨w, e⟩

/-- Item 24 (`hostOps12`) leaves a reference that is none of its results as it was. -/
theorem W24_of (c : Dev nD) (r : Ref sig .tc) (h : r ∉ hostOps12_W) :
    W24 m ρ c (Proc.devRef .tc r) = W23 m ρ c (Proc.devRef .tc r) :=
  StableHlo.after_of_writes_sub hostOps12 _ hostOps12_writes h

/-- Item 25 (region 12) leaves a reference as it was unless it is an output window's array. -/
theorem Wexit12_keep (c : Dev nD) (r : Ref sig .tc)
    (h : ∀ w : Fin cfg12.W, Pipeline.arrRef spec12 w = r → (cfg12.win w).isOut = false) :
    W25 m ρ c (Proc.devRef .tc r) = W24 m ρ c (Proc.devRef .tc r) := by
  by_cases hw : ∃ w, Pipeline.arrRef spec12 w = r
  · obtain ⟨w, rfl⟩ := hw
    exact (Wexit12_arr m ρ c w).trans (((dat12 (VE12 m ρ) c).arrAt_in w (h w rfl) _).trans (A_eq12 (VE12 m ρ) c w))
  · exact Wexit12_of_ne m ρ c r fun w e => hw ⟨w, e⟩

/-- Item 26 (`hostOps13`) leaves a reference that is none of its results as it was. -/
theorem W26_of (c : Dev nD) (r : Ref sig .tc) (h : r ∉ hostOps13_W) :
    W26 m ρ c (Proc.devRef .tc r) = W25 m ρ c (Proc.devRef .tc r) :=
  StableHlo.after_of_writes_sub hostOps13 _ hostOps13_writes h

/-- Item 27 (region 13) leaves a reference as it was unless it is an output window's array. -/
theorem Wexit13_keep (c : Dev nD) (r : Ref sig .tc)
    (h : ∀ w : Fin cfg13.W, Pipeline.arrRef spec13 w = r → (cfg13.win w).isOut = false) :
    W27 m ρ c (Proc.devRef .tc r) = W26 m ρ c (Proc.devRef .tc r) := by
  by_cases hw : ∃ w, Pipeline.arrRef spec13 w = r
  · obtain ⟨w, rfl⟩ := hw
    exact (Wexit13_arr m ρ c w).trans (((dat13 (VE13 m ρ) c).arrAt_in w (h w rfl) _).trans (A_eq13 (VE13 m ρ) c w))
  · exact Wexit13_of_ne m ρ c r fun w e => hw ⟨w, e⟩

/-- Item 28 (`hostOps14`) leaves a reference that is none of its results as it was. -/
theorem W28_of (c : Dev nD) (r : Ref sig .tc) (h : r ∉ hostOps14_W) :
    W28 m ρ c (Proc.devRef .tc r) = W27 m ρ c (Proc.devRef .tc r) :=
  StableHlo.after_of_writes_sub hostOps14 _ hostOps14_writes h

/-- Item 29 (region 14) leaves a reference as it was unless it is an output window's array. -/
theorem Wexit14_keep (c : Dev nD) (r : Ref sig .tc)
    (h : ∀ w : Fin cfg14.W, Pipeline.arrRef spec14 w = r → (cfg14.win w).isOut = false) :
    W29 m ρ c (Proc.devRef .tc r) = W28 m ρ c (Proc.devRef .tc r) := by
  by_cases hw : ∃ w, Pipeline.arrRef spec14 w = r
  · obtain ⟨w, rfl⟩ := hw
    exact (Wexit14_arr m ρ c w).trans (((dat14 (VE14 m ρ) c).arrAt_in w (h w rfl) _).trans (A_eq14 (VE14 m ρ) c w))
  · exact Wexit14_of_ne m ρ c r fun w e => hw ⟨w, e⟩

/-- Item 30 (`hostOps15`) leaves a reference that is none of its results as it was. -/
theorem W30_of (c : Dev nD) (r : Ref sig .tc) (h : r ∉ hostOps15_W) :
    W30 m ρ c (Proc.devRef .tc r) = W29 m ρ c (Proc.devRef .tc r) :=
  StableHlo.after_of_writes_sub hostOps15 _ hostOps15_writes h

/-- Item 31 (region 15) leaves a reference as it was unless it is an output window's array. -/
theorem Wexit15_keep (c : Dev nD) (r : Ref sig .tc)
    (h : ∀ w : Fin cfg15.W, Pipeline.arrRef spec15 w = r → (cfg15.win w).isOut = false) :
    W31 m ρ c (Proc.devRef .tc r) = W30 m ρ c (Proc.devRef .tc r) := by
  by_cases hw : ∃ w, Pipeline.arrRef spec15 w = r
  · obtain ⟨w, rfl⟩ := hw
    exact (Wexit15_arr m ρ c w).trans (((dat15 (VE15 m ρ) c).arrAt_in w (h w rfl) _).trans (A_eq15 (VE15 m ρ) c w))
  · exact Wexit15_of_ne m ρ c r fun w e => hw ⟨w, e⟩

/-- Item 32 (`hostOps16`) leaves a reference that is none of its results as it was. -/
theorem W32_of (c : Dev nD) (r : Ref sig .tc) (h : r ∉ hostOps16_W) :
    W32 m ρ c (Proc.devRef .tc r) = W31 m ρ c (Proc.devRef .tc r) :=
  StableHlo.after_of_writes_sub hostOps16 _ hostOps16_writes h

/-- Item 33 (region 16) leaves a reference as it was unless it is an output window's array. -/
theorem Wexit16_keep (c : Dev nD) (r : Ref sig .tc)
    (h : ∀ w : Fin cfg16.W, Pipeline.arrRef spec16 w = r → (cfg16.win w).isOut = false) :
    W33 m ρ c (Proc.devRef .tc r) = W32 m ρ c (Proc.devRef .tc r) := by
  by_cases hw : ∃ w, Pipeline.arrRef spec16 w = r
  · obtain ⟨w, rfl⟩ := hw
    exact (Wexit16_arr m ρ c w).trans (((dat16 (VE16 m ρ) c).arrAt_in w (h w rfl) _).trans (A_eq16 (VE16 m ρ) c w))
  · exact Wexit16_of_ne m ρ c r fun w e => hw ⟨w, e⟩

/-- Item 34 (`hostOps17`) leaves a reference that is none of its results as it was. -/
theorem W34_of (c : Dev nD) (r : Ref sig .tc) (h : r ∉ hostOps17_W) :
    W34 m ρ c (Proc.devRef .tc r) = W33 m ρ c (Proc.devRef .tc r) :=
  StableHlo.after_of_writes_sub hostOps17 _ hostOps17_writes h

/-- Item 35 (region 17) leaves a reference as it was unless it is an output window's array. -/
theorem Wexit17_keep (c : Dev nD) (r : Ref sig .tc)
    (h : ∀ w : Fin cfg17.W, Pipeline.arrRef spec17 w = r → (cfg17.win w).isOut = false) :
    W35 m ρ c (Proc.devRef .tc r) = W34 m ρ c (Proc.devRef .tc r) := by
  by_cases hw : ∃ w, Pipeline.arrRef spec17 w = r
  · obtain ⟨w, rfl⟩ := hw
    exact (Wexit17_arr m ρ c w).trans (((dat17 (VE17 m ρ) c).arrAt_in w (h w rfl) _).trans (A_eq17 (VE17 m ρ) c w))
  · exact Wexit17_of_ne m ρ c r fun w e => hw ⟨w, e⟩

/-- Item 36 (`hostOps18`) leaves a reference that is none of its results as it was. -/
theorem W36_of (c : Dev nD) (r : Ref sig .tc) (h : r ∉ hostOps18_W) :
    W36 m ρ c (Proc.devRef .tc r) = W35 m ρ c (Proc.devRef .tc r) :=
  StableHlo.after_of_writes_sub hostOps18 _ hostOps18_writes h

/-- Item 37 (region 18) leaves a reference as it was unless it is an output window's array. -/
theorem Wexit18_keep (c : Dev nD) (r : Ref sig .tc)
    (h : ∀ w : Fin cfg18.W, Pipeline.arrRef spec18 w = r → (cfg18.win w).isOut = false) :
    W37 m ρ c (Proc.devRef .tc r) = W36 m ρ c (Proc.devRef .tc r) := by
  by_cases hw : ∃ w, Pipeline.arrRef spec18 w = r
  · obtain ⟨w, rfl⟩ := hw
    exact (Wexit18_arr m ρ c w).trans (((dat18 (VE18 m ρ) c).arrAt_in w (h w rfl) _).trans (A_eq18 (VE18 m ρ) c w))
  · exact Wexit18_of_ne m ρ c r fun w e => hw ⟨w, e⟩

/-- Item 38 (`hostOps19`) leaves a reference that is none of its results as it was. -/
theorem W38_of (c : Dev nD) (r : Ref sig .tc) (h : r ∉ hostOps19_W) :
    W38 m ρ c (Proc.devRef .tc r) = W37 m ρ c (Proc.devRef .tc r) :=
  StableHlo.after_of_writes_sub hostOps19 _ hostOps19_writes h

/-- Item 39 (region 19) leaves a reference as it was unless it is an output window's array. -/
theorem Wexit19_keep (c : Dev nD) (r : Ref sig .tc)
    (h : ∀ w : Fin cfg19.W, Pipeline.arrRef spec19 w = r → (cfg19.win w).isOut = false) :
    W39 m ρ c (Proc.devRef .tc r) = W38 m ρ c (Proc.devRef .tc r) := by
  by_cases hw : ∃ w, Pipeline.arrRef spec19 w = r
  · obtain ⟨w, rfl⟩ := hw
    exact (Wexit19_arr m ρ c w).trans (((dat19 (VE19 m ρ) c).arrAt_in w (h w rfl) _).trans (A_eq19 (VE19 m ρ) c w))
  · exact Wexit19_of_ne m ρ c r fun w e => hw ⟨w, e⟩

/-- Item 40 (`hostOps20`) leaves a reference that is none of its results as it was. -/
theorem W40_of (c : Dev nD) (r : Ref sig .tc) (h : r ∉ hostOps20_W) :
    W40 m ρ c (Proc.devRef .tc r) = W39 m ρ c (Proc.devRef .tc r) :=
  StableHlo.after_of_writes_sub hostOps20 _ hostOps20_writes h

/-- No item of @main writes `r`: the 40 tests, in the items' order. -/
abbrev Untouched (r : Ref sig .tc) : Prop :=
  r ∉ hostOps0_W
  ∧ (∀ w : Fin cfg0.W, Pipeline.arrRef spec0 w = r → (cfg0.win w).isOut = false)
  ∧ r ∉ hostOps1_W
  ∧ (∀ w : Fin cfg1.W, Pipeline.arrRef spec1 w = r → (cfg1.win w).isOut = false)
  ∧ r ∉ hostOps2_W
  ∧ (∀ w : Fin cfg2.W, Pipeline.arrRef spec2 w = r → (cfg2.win w).isOut = false)
  ∧ (∀ w : Fin cfg3.W, Pipeline.arrRef spec3 w = r → (cfg3.win w).isOut = false)
  ∧ r ∉ hostOps4_W
  ∧ (∀ w : Fin cfg4.W, Pipeline.arrRef spec4 w = r → (cfg4.win w).isOut = false)
  ∧ r ∉ hostOps5_W
  ∧ (∀ w : Fin cfg5.W, Pipeline.arrRef spec5 w = r → (cfg5.win w).isOut = false)
  ∧ r ∉ hostOps6_W
  ∧ (∀ w : Fin cfg6.W, Pipeline.arrRef spec6 w = r → (cfg6.win w).isOut = false)
  ∧ r ∉ hostOps7_W
  ∧ (∀ w : Fin cfg7.W, Pipeline.arrRef spec7 w = r → (cfg7.win w).isOut = false)
  ∧ r ∉ hostOps8_W
  ∧ (∀ w : Fin cfg8.W, Pipeline.arrRef spec8 w = r → (cfg8.win w).isOut = false)
  ∧ r ∉ hostOps9_W
  ∧ (∀ w : Fin cfg9.W, Pipeline.arrRef spec9 w = r → (cfg9.win w).isOut = false)
  ∧ r ∉ hostOps10_W
  ∧ (∀ w : Fin cfg10.W, Pipeline.arrRef spec10 w = r → (cfg10.win w).isOut = false)
  ∧ r ∉ hostOps11_W
  ∧ (∀ w : Fin cfg11.W, Pipeline.arrRef spec11 w = r → (cfg11.win w).isOut = false)
  ∧ r ∉ hostOps12_W
  ∧ (∀ w : Fin cfg12.W, Pipeline.arrRef spec12 w = r → (cfg12.win w).isOut = false)
  ∧ r ∉ hostOps13_W
  ∧ (∀ w : Fin cfg13.W, Pipeline.arrRef spec13 w = r → (cfg13.win w).isOut = false)
  ∧ r ∉ hostOps14_W
  ∧ (∀ w : Fin cfg14.W, Pipeline.arrRef spec14 w = r → (cfg14.win w).isOut = false)
  ∧ r ∉ hostOps15_W
  ∧ (∀ w : Fin cfg15.W, Pipeline.arrRef spec15 w = r → (cfg15.win w).isOut = false)
  ∧ r ∉ hostOps16_W
  ∧ (∀ w : Fin cfg16.W, Pipeline.arrRef spec16 w = r → (cfg16.win w).isOut = false)
  ∧ r ∉ hostOps17_W
  ∧ (∀ w : Fin cfg17.W, Pipeline.arrRef spec17 w = r → (cfg17.win w).isOut = false)
  ∧ r ∉ hostOps18_W
  ∧ (∀ w : Fin cfg18.W, Pipeline.arrRef spec18 w = r → (cfg18.win w).isOut = false)
  ∧ r ∉ hostOps19_W
  ∧ (∀ w : Fin cfg19.W, Pipeline.arrRef spec19 w = r → (cfg19.win w).isOut = false)
  ∧ r ∉ hostOps20_W

/-- A reference no item writes holds at the return what the launch memory held. -/
theorem W40_of_untouched (c : Dev nD) (r : Ref sig .tc) (h : Untouched r) :
    W40 m ρ c (Proc.devRef .tc r) = m ((c : Thread nD τ).loc r) := by
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40⟩ := h
  exact (W40_of m ρ c r h40).trans <|
    (Wexit19_keep m ρ c r h39).trans <|
    (W38_of m ρ c r h38).trans <|
    (Wexit18_keep m ρ c r h37).trans <|
    (W36_of m ρ c r h36).trans <|
    (Wexit17_keep m ρ c r h35).trans <|
    (W34_of m ρ c r h34).trans <|
    (Wexit16_keep m ρ c r h33).trans <|
    (W32_of m ρ c r h32).trans <|
    (Wexit15_keep m ρ c r h31).trans <|
    (W30_of m ρ c r h30).trans <|
    (Wexit14_keep m ρ c r h29).trans <|
    (W28_of m ρ c r h28).trans <|
    (Wexit13_keep m ρ c r h27).trans <|
    (W26_of m ρ c r h26).trans <|
    (Wexit12_keep m ρ c r h25).trans <|
    (W24_of m ρ c r h24).trans <|
    (Wexit11_keep m ρ c r h23).trans <|
    (W22_of m ρ c r h22).trans <|
    (Wexit10_keep m ρ c r h21).trans <|
    (W20_of m ρ c r h20).trans <|
    (Wexit9_keep m ρ c r h19).trans <|
    (W18_of m ρ c r h18).trans <|
    (Wexit8_keep m ρ c r h17).trans <|
    (W16_of m ρ c r h16).trans <|
    (Wexit7_keep m ρ c r h15).trans <|
    (W14_of m ρ c r h14).trans <|
    (Wexit6_keep m ρ c r h13).trans <|
    (W12_of m ρ c r h12).trans <|
    (Wexit5_keep m ρ c r h11).trans <|
    (W10_of m ρ c r h10).trans <|
    (Wexit4_keep m ρ c r h9).trans <|
    (W8_of m ρ c r h8).trans <|
    (Wexit3_keep m ρ c r h7).trans <|
    (Wexit2_keep m ρ c r h6).trans <|
    (W5_of m ρ c r h5).trans <|
    (Wexit1_keep m ρ c r h4).trans <|
    (W3_of m ρ c r h3).trans <|
    (Wexit0_keep m ρ c r h2).trans <|
    (W1_of m ρ c r h1).trans <| rfl

theorem untouched_main_arg0 : Untouched main_arg0 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg0 (c : Dev nD) : W40 m ρ c (Proc.devRef .tc main_arg0) = m ((c : Thread nD τ).loc main_arg0) :=
  W40_of_untouched m ρ c main_arg0 untouched_main_arg0

theorem untouched_main_arg1 : Untouched main_arg1 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg1 (c : Dev nD) : W40 m ρ c (Proc.devRef .tc main_arg1) = m ((c : Thread nD τ).loc main_arg1) :=
  W40_of_untouched m ρ c main_arg1 untouched_main_arg1

theorem untouched_main_arg2 : Untouched main_arg2 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg2 (c : Dev nD) : W40 m ρ c (Proc.devRef .tc main_arg2) = m ((c : Thread nD τ).loc main_arg2) :=
  W40_of_untouched m ρ c main_arg2 untouched_main_arg2

theorem untouched_main_arg3 : Untouched main_arg3 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg3 (c : Dev nD) : W40 m ρ c (Proc.devRef .tc main_arg3) = m ((c : Thread nD τ).loc main_arg3) :=
  W40_of_untouched m ρ c main_arg3 untouched_main_arg3

theorem untouched_main_arg4 : Untouched main_arg4 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg4 (c : Dev nD) : W40 m ρ c (Proc.devRef .tc main_arg4) = m ((c : Thread nD τ).loc main_arg4) :=
  W40_of_untouched m ρ c main_arg4 untouched_main_arg4

theorem untouched_main_arg5 : Untouched main_arg5 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg5 (c : Dev nD) : W40 m ρ c (Proc.devRef .tc main_arg5) = m ((c : Thread nD τ).loc main_arg5) :=
  W40_of_untouched m ρ c main_arg5 untouched_main_arg5

theorem untouched_main_arg6 : Untouched main_arg6 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg6 (c : Dev nD) : W40 m ρ c (Proc.devRef .tc main_arg6) = m ((c : Thread nD τ).loc main_arg6) :=
  W40_of_untouched m ρ c main_arg6 untouched_main_arg6

theorem untouched_main_arg7 : Untouched main_arg7 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg7 (c : Dev nD) : W40 m ρ c (Proc.devRef .tc main_arg7) = m ((c : Thread nD τ).loc main_arg7) :=
  W40_of_untouched m ρ c main_arg7 untouched_main_arg7

theorem untouched_main_arg8 : Untouched main_arg8 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg8 (c : Dev nD) : W40 m ρ c (Proc.devRef .tc main_arg8) = m ((c : Thread nD τ).loc main_arg8) :=
  W40_of_untouched m ρ c main_arg8 untouched_main_arg8

theorem untouched_main_arg9 : Untouched main_arg9 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg9 (c : Dev nD) : W40 m ρ c (Proc.devRef .tc main_arg9) = m ((c : Thread nD τ).loc main_arg9) :=
  W40_of_untouched m ρ c main_arg9 untouched_main_arg9

theorem untouched_main_arg10 : Untouched main_arg10 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg10 (c : Dev nD) : W40 m ρ c (Proc.devRef .tc main_arg10) = m ((c : Thread nD τ).loc main_arg10) :=
  W40_of_untouched m ρ c main_arg10 untouched_main_arg10

theorem untouched_main_arg11 : Untouched main_arg11 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg11 (c : Dev nD) : W40 m ρ c (Proc.devRef .tc main_arg11) = m ((c : Thread nD τ).loc main_arg11) :=
  W40_of_untouched m ρ c main_arg11 untouched_main_arg11

theorem untouched_main_arg12 : Untouched main_arg12 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg12 (c : Dev nD) : W40 m ρ c (Proc.devRef .tc main_arg12) = m ((c : Thread nD τ).loc main_arg12) :=
  W40_of_untouched m ρ c main_arg12 untouched_main_arg12

theorem untouched_main_arg13 : Untouched main_arg13 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg13 (c : Dev nD) : W40 m ρ c (Proc.devRef .tc main_arg13) = m ((c : Thread nD τ).loc main_arg13) :=
  W40_of_untouched m ρ c main_arg13 untouched_main_arg13

theorem untouched_main_arg14 : Untouched main_arg14 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg14 (c : Dev nD) : W40 m ρ c (Proc.devRef .tc main_arg14) = m ((c : Thread nD τ).loc main_arg14) :=
  W40_of_untouched m ρ c main_arg14 untouched_main_arg14

theorem untouched_main_arg15 : Untouched main_arg15 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg15 (c : Dev nD) : W40 m ρ c (Proc.devRef .tc main_arg15) = m ((c : Thread nD τ).loc main_arg15) :=
  W40_of_untouched m ρ c main_arg15 untouched_main_arg15

theorem untouched_main_arg16 : Untouched main_arg16 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg16 (c : Dev nD) : W40 m ρ c (Proc.devRef .tc main_arg16) = m ((c : Thread nD τ).loc main_arg16) :=
  W40_of_untouched m ρ c main_arg16 untouched_main_arg16

theorem untouched_main_arg17 : Untouched main_arg17 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg17 (c : Dev nD) : W40 m ρ c (Proc.devRef .tc main_arg17) = m ((c : Thread nD τ).loc main_arg17) :=
  W40_of_untouched m ρ c main_arg17 untouched_main_arg17

theorem untouched_main_arg18 : Untouched main_arg18 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg18 (c : Dev nD) : W40 m ρ c (Proc.devRef .tc main_arg18) = m ((c : Thread nD τ).loc main_arg18) :=
  W40_of_untouched m ρ c main_arg18 untouched_main_arg18

theorem untouched_main_arg19 : Untouched main_arg19 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg19 (c : Dev nD) : W40 m ρ c (Proc.devRef .tc main_arg19) = m ((c : Thread nD τ).loc main_arg19) :=
  W40_of_untouched m ρ c main_arg19 untouched_main_arg19

theorem untouched_main_arg20 : Untouched main_arg20 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg20 (c : Dev nD) : W40 m ρ c (Proc.devRef .tc main_arg20) = m ((c : Thread nD τ).loc main_arg20) :=
  W40_of_untouched m ρ c main_arg20 untouched_main_arg20

theorem untouched_main_arg21 : Untouched main_arg21 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg21 (c : Dev nD) : W40 m ρ c (Proc.devRef .tc main_arg21) = m ((c : Thread nD τ).loc main_arg21) :=
  W40_of_untouched m ρ c main_arg21 untouched_main_arg21

theorem untouched_main_arg22 : Untouched main_arg22 :=
  ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem Wlast_main_arg22 (c : Dev nD) : W40 m ρ c (Proc.devRef .tc main_arg22) = m ((c : Thread nD τ).loc main_arg22) :=
  W40_of_untouched m ρ c main_arg22 untouched_main_arg22

end Cert.KernelIdeal.Hand

end
-- ==== Proof.KI.Pdats.lean ====
/- The proof data of all 20 pipelines, each at the contents its region is entered with, and the pieces of the
   thread state every segment of @main carries: every unscoped buffer held at the boundary's contents, the
   generator register at some state, nothing owed. -/
import proofs.«424088_j28020366639260_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table: the admissible contents are the trivial ones. -/
abbrev adm : (p : Fin 20) → (pcfgs (F := F) p).Adm := fun p => (cfgs p).toPCfg_adm

/-- Pipeline `p`'s proof data on core `c`, at region `p`'s entry contents. A literal match, so that the pinned
    configuration at a numeral reduces to the printed one. -/
def pdats : (p : Fin 20) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
  | ⟨8, _⟩ => fun c => dat8 (VE8 m ρ) c
  | ⟨9, _⟩ => fun c => dat9 (VE9 m ρ) c
  | ⟨10, _⟩ => fun c => dat10 (VE10 m ρ) c
  | ⟨11, _⟩ => fun c => dat11 (VE11 m ρ) c
  | ⟨12, _⟩ => fun c => dat12 (VE12 m ρ) c
  | ⟨13, _⟩ => fun c => dat13 (VE13 m ρ) c
  | ⟨14, _⟩ => fun c => dat14 (VE14 m ρ) c
  | ⟨15, _⟩ => fun c => dat15 (VE15 m ρ) c
  | ⟨16, _⟩ => fun c => dat16 (VE16 m ρ) c
  | ⟨17, _⟩ => fun c => dat17 (VE17 m ρ) c
  | ⟨18, _⟩ => fun c => dat18 (VE18 m ρ) c
  | ⟨19, _⟩ => fun c => dat19 (VE19 m ρ) c
  | ⟨_ + 20, h⟩ => absurd h (Nat.not_lt.2 (Nat.le_add_left _ _))

abbrev 𝒱₀ : Variants := Variants.none
/-- No core owes another anything, so no level is assigned. -/
abbrev L : GSem nD τ sig → Finset Unit := fun _ => ∅
abbrev lv : GSem nD τ sig → Unit → ℕ := fun _ _ => 0

/-- Beside the buffers: the core's generator register at some state, and the core owing nothing. -/
abbrev R (c : Dev nD) : sProp 𝕄 :=
  iprop((∃ r, prngReg c r) ∗ ∃ W, owes (c : Thread nD τ) (0 : CellTallies nD τ sig Unit) W)

/-- The thread state at a boundary whose contents are `W`. -/
abbrev St (W : Dev nD → Valuation τ sig (Elt F)) (c : Dev nD) : sProp 𝕄 :=
  iprop(StableHlo.held (c : Thread nD τ) (Pipeline.ucRefs τ sig) (W c) ∗ R c)

/-- A host stretch as a segment over the unscoped references, from the contents `W`; it leaves them at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the `owes`: every unscoped buffer at the return's contents, the generator
    register at some state. -/
abbrev Tₙ (c : Dev nD) : sProp 𝕄 :=
  iprop(StableHlo.held (c : Thread nD τ) (Pipeline.ucRefs τ sig) (W40 m ρ c) ∗ ∃ r, prngReg c r)

end Cert.KernelIdeal.Hand

end
-- ==== Proof.KI.Reg0.lean ====
/- Region 0 of @main as a segment of the run. It is entered holding every unscoped buffer at the contents `W1`
   and left holding them at `W2`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 0 leaves, read at the TensorCore's references. -/
abbrev VX0 : (c : Dev nD) → (b : Ref sig .tc) → Buf (Elt F) ((c : Thread nD τ).loc b) := fun c b => W2 m ρ c b

/-- Each array of region 0 ends at the fold of its write-backs. -/
theorem exit_arr0 (c : Dev nD) (w : Fin cfg0.W) :
    (dat0 (VE0 m ρ) c).arrAt w cfg0.N = VX0 m ρ c (Pipeline.arrRef spec0 w) :=
  (Wexit0_arr m ρ c w).symm

/-- A reference that is no window's array ends as region 0 found it. -/
theorem exit_rest0 (c : Dev nD) (b : Ref sig .tc) (hb : b ∉ Finset.univ.image (Pipeline.arrRef spec0)) :
    VX0 m ρ c b = VE0 m ρ c b :=
  Wexit0_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    -- the unscoped buffers split into the windows' arrays and the rest; no table; the register to `X`
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 0 c).Φ 0 = Pipeline.ΦA spec0 c from rfl]
    unfold Pipeline.ΦA
    iintro ⟨Hprng, -, Hscoped⟩
    isplitl [Hscoped]; · iexact Hscoped
    iexact Hprng
  hout c := by
    rw [Pipeline.ownSems0_none, show (pdats m ρ 0 c).Φ (Fin.last _) = Pipeline.ΦA spec0 c from rfl]
    unfold Pipeline.ΦA
    iintro ⟨Hscoped, Hprng⟩
    isplitl [Hprng]; · iexact Hprng
    isplitr; · iempintro
    iexact Hscoped
  hexit c := by
    -- the arrays at their last contents and the rest make the unscoped buffers at `W2`
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (exit_arr0 m ρ c) (exit_rest0 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg1.lean ====
/- Region 1 of @main as a segment of the run. It is entered holding every unscoped buffer at the contents `W3`
   and left holding them at `W4`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 1 leaves, read at the TensorCore's references. -/
abbrev VX1 : (c : Dev nD) → (b : Ref sig .tc) → Buf (Elt F) ((c : Thread nD τ).loc b) := fun c b => W4 m ρ c b

/-- Each array of region 1 ends at the fold of its write-backs. -/
theorem exit_arr1 (c : Dev nD) (w : Fin cfg1.W) :
    (dat1 (VE1 m ρ) c).arrAt w cfg1.N = VX1 m ρ c (Pipeline.arrRef spec1 w) :=
  (Wexit1_arr m ρ c w).symm

/-- A reference that is no window's array ends as region 1 found it. -/
theorem exit_rest1 (c : Dev nD) (b : Ref sig .tc) (hb : b ∉ Finset.univ.image (Pipeline.arrRef spec1)) :
    VX1 m ρ c b = VE1 m ρ c b :=
  Wexit1_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    -- the unscoped buffers split into the windows' arrays and the rest; no table; the register to `X`
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 1 c).Φ 0 = Pipeline.ΦA spec1 c from rfl]
    unfold Pipeline.ΦA
    iintro ⟨Hprng, -, Hscoped⟩
    isplitl [Hscoped]; · iexact Hscoped
    iexact Hprng
  hout c := by
    rw [Pipeline.ownSems0_none, show (pdats m ρ 1 c).Φ (Fin.last _) = Pipeline.ΦA spec1 c from rfl]
    unfold Pipeline.ΦA
    iintro ⟨Hscoped, Hprng⟩
    isplitl [Hprng]; · iexact Hprng
    isplitr; · iempintro
    iexact Hscoped
  hexit c := by
    -- the arrays at their last contents and the rest make the unscoped buffers at `W4`
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (exit_arr1 m ρ c) (exit_rest1 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg2.lean ====
/- Region 2 of @main as a segment of the run. It is entered holding every unscoped buffer at the contents `W5`
   and left holding them at `W6`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 2 leaves, read at the TensorCore's references. -/
abbrev VX2 : (c : Dev nD) → (b : Ref sig .tc) → Buf (Elt F) ((c : Thread nD τ).loc b) := fun c b => W6 m ρ c b

/-- Each array of region 2 ends at the fold of its write-backs. -/
theorem exit_arr2 (c : Dev nD) (w : Fin cfg2.W) :
    (dat2 (VE2 m ρ) c).arrAt w cfg2.N = VX2 m ρ c (Pipeline.arrRef spec2 w) :=
  (Wexit2_arr m ρ c w).symm

/-- A reference that is no window's array ends as region 2 found it. -/
theorem exit_rest2 (c : Dev nD) (b : Ref sig .tc) (hb : b ∉ Finset.univ.image (Pipeline.arrRef spec2)) :
    VX2 m ρ c b = VE2 m ρ c b :=
  Wexit2_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 2 over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    -- the unscoped buffers split into the windows' arrays and the rest; no table; the register to `X`
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 2 c).Φ 0 = Pipeline.ΦA spec2 c from rfl]
    unfold Pipeline.ΦA
    iintro ⟨Hprng, -, Hscoped⟩
    isplitl [Hscoped]; · iexact Hscoped
    iexact Hprng
  hout c := by
    rw [Pipeline.ownSems0_none, show (pdats m ρ 2 c).Φ (Fin.last _) = Pipeline.ΦA spec2 c from rfl]
    unfold Pipeline.ΦA
    iintro ⟨Hscoped, Hprng⟩
    isplitl [Hprng]; · iexact Hprng
    isplitr; · iempintro
    iexact Hscoped
  hexit c := by
    -- the arrays at their last contents and the rest make the unscoped buffers at `W6`
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VE2 m ρ c) (VX2 m ρ c) ((pdats m ρ 2 c).arrAt · cfg2.N) (exit_arr2 m ρ c) (exit_rest2 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg3.lean ====
/- Region 3 of @main as a segment of the run. It is entered holding every unscoped buffer at the contents `W6`
   and left holding them at `W7`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 3 leaves, read at the TensorCore's references. -/
abbrev VX3 : (c : Dev nD) → (b : Ref sig .tc) → Buf (Elt F) ((c : Thread nD τ).loc b) := fun c b => W7 m ρ c b

/-- Each array of region 3 ends at the fold of its write-backs. -/
theorem exit_arr3 (c : Dev nD) (w : Fin cfg3.W) :
    (dat3 (VE3 m ρ) c).arrAt w cfg3.N = VX3 m ρ c (Pipeline.arrRef spec3 w) :=
  (Wexit3_arr m ρ c w).symm

/-- A reference that is no window's array ends as region 3 found it. -/
theorem exit_rest3 (c : Dev nD) (b : Ref sig .tc) (hb : b ∉ Finset.univ.image (Pipeline.arrRef spec3)) :
    VX3 m ρ c b = VE3 m ρ c b :=
  Wexit3_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 3 over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    -- the unscoped buffers split into the windows' arrays and the rest; no table; the register to `X`
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 3 c).Φ 0 = Pipeline.ΦA spec3 c from rfl]
    unfold Pipeline.ΦA
    iintro ⟨Hprng, -, Hscoped⟩
    isplitl [Hscoped]; · iexact Hscoped
    iexact Hprng
  hout c := by
    rw [Pipeline.ownSems0_none, show (pdats m ρ 3 c).Φ (Fin.last _) = Pipeline.ΦA spec3 c from rfl]
    unfold Pipeline.ΦA
    iintro ⟨Hscoped, Hprng⟩
    isplitl [Hprng]; · iexact Hprng
    isplitr; · iempintro
    iexact Hscoped
  hexit c := by
    -- the arrays at their last contents and the rest make the unscoped buffers at `W7`
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VE3 m ρ c) (VX3 m ρ c) ((pdats m ρ 3 c).arrAt · cfg3.N) (exit_arr3 m ρ c) (exit_rest3 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg4.lean ====
/- Region 4 of @main as a segment of the run. It is entered holding every unscoped buffer at the contents `W8`
   and left holding them at `W9`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 4 leaves, read at the TensorCore's references. -/
abbrev VX4 : (c : Dev nD) → (b : Ref sig .tc) → Buf (Elt F) ((c : Thread nD τ).loc b) := fun c b => W9 m ρ c b

/-- Each array of region 4 ends at the fold of its write-backs. -/
theorem exit_arr4 (c : Dev nD) (w : Fin cfg4.W) :
    (dat4 (VE4 m ρ) c).arrAt w cfg4.N = VX4 m ρ c (Pipeline.arrRef spec4 w) :=
  (Wexit4_arr m ρ c w).symm

/-- A reference that is no window's array ends as region 4 found it. -/
theorem exit_rest4 (c : Dev nD) (b : Ref sig .tc) (hb : b ∉ Finset.univ.image (Pipeline.arrRef spec4)) :
    VX4 m ρ c b = VE4 m ρ c b :=
  Wexit4_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 4 over the thread state. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (VE4 m ρ c)
  hentry c := by
    -- the unscoped buffers split into the windows' arrays and the rest; no table; the register to `X`
    rw [Pipeline.ownSems0_none]
    have hsplit := Pipeline.arrays_of_unscopedBufs (p := 4) (pcfgs (F := F)) adm (pdats m ρ) launch4.win launch4.arr_whole c
      ((pdats m ρ 4 c).share_full fun _ => rfl) (VE4 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 4 c).Φ 0 = Pipeline.ΦA spec4 c from rfl]
    unfold Pipeline.ΦA
    iintro ⟨Hprng, -, Hscoped⟩
    isplitl [Hscoped]; · iexact Hscoped
    iexact Hprng
  hout c := by
    rw [Pipeline.ownSems0_none, show (pdats m ρ 4 c).Φ (Fin.last _) = Pipeline.ΦA spec4 c from rfl]
    unfold Pipeline.ΦA
    iintro ⟨Hscoped, Hprng⟩
    isplitl [Hprng]; · iexact Hprng
    isplitr; · iempintro
    iexact Hscoped
  hexit c := by
    -- the arrays at their last contents and the rest make the unscoped buffers at `W9`
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (VE4 m ρ c) (VX4 m ρ c) ((pdats m ρ 4 c).arrAt · cfg4.N) (exit_arr4 m ρ c) (exit_rest4 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg5.lean ====
/- Region 5 of @main as a segment of the run. It is entered holding every unscoped buffer at the contents `W10`
   and left holding them at `W11`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 5 leaves, read at the TensorCore's references. -/
abbrev VX5 : (c : Dev nD) → (b : Ref sig .tc) → Buf (Elt F) ((c : Thread nD τ).loc b) := fun c b => W11 m ρ c b

/-- Each array of region 5 ends at the fold of its write-backs. -/
theorem exit_arr5 (c : Dev nD) (w : Fin cfg5.W) :
    (dat5 (VE5 m ρ) c).arrAt w cfg5.N = VX5 m ρ c (Pipeline.arrRef spec5 w) :=
  (Wexit5_arr m ρ c w).symm

/-- A reference that is no window's array ends as region 5 found it. -/
theorem exit_rest5 (c : Dev nD) (b : Ref sig .tc) (hb : b ∉ Finset.univ.image (Pipeline.arrRef spec5)) :
    VX5 m ρ c b = VE5 m ρ c b :=
  Wexit5_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 5 over the thread state. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (VE5 m ρ c)
  hentry c := by
    -- the unscoped buffers split into the windows' arrays and the rest; no table; the register to `X`
    rw [Pipeline.ownSems0_none]
    have hsplit := Pipeline.arrays_of_unscopedBufs (p := 5) (pcfgs (F := F)) adm (pdats m ρ) launch5.win launch5.arr_whole c
      ((pdats m ρ 5 c).share_full fun _ => rfl) (VE5 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 5 c).Φ 0 = Pipeline.ΦA spec5 c from rfl]
    unfold Pipeline.ΦA
    iintro ⟨Hprng, -, Hscoped⟩
    isplitl [Hscoped]; · iexact Hscoped
    iexact Hprng
  hout c := by
    rw [Pipeline.ownSems0_none, show (pdats m ρ 5 c).Φ (Fin.last _) = Pipeline.ΦA spec5 c from rfl]
    unfold Pipeline.ΦA
    iintro ⟨Hscoped, Hprng⟩
    isplitl [Hprng]; · iexact Hprng
    isplitr; · iempintro
    iexact Hscoped
  hexit c := by
    -- the arrays at their last contents and the rest make the unscoped buffers at `W11`
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (VE5 m ρ c) (VX5 m ρ c) ((pdats m ρ 5 c).arrAt · cfg5.N) (exit_arr5 m ρ c) (exit_rest5 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg6.lean ====
/- Region 6 of @main as a segment of the run. It is entered holding every unscoped buffer at the contents `W12`
   and left holding them at `W13`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 6 leaves, read at the TensorCore's references. -/
abbrev VX6 : (c : Dev nD) → (b : Ref sig .tc) → Buf (Elt F) ((c : Thread nD τ).loc b) := fun c b => W13 m ρ c b

/-- Each array of region 6 ends at the fold of its write-backs. -/
theorem exit_arr6 (c : Dev nD) (w : Fin cfg6.W) :
    (dat6 (VE6 m ρ) c).arrAt w cfg6.N = VX6 m ρ c (Pipeline.arrRef spec6 w) :=
  (Wexit6_arr m ρ c w).symm

/-- A reference that is no window's array ends as region 6 found it. -/
theorem exit_rest6 (c : Dev nD) (b : Ref sig .tc) (hb : b ∉ Finset.univ.image (Pipeline.arrRef spec6)) :
    VX6 m ρ c b = VE6 m ρ c b :=
  Wexit6_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 6 over the thread state. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (VE6 m ρ c)
  hentry c := by
    -- the unscoped buffers split into the windows' arrays and the rest; no table; the register to `X`
    rw [Pipeline.ownSems0_none]
    have hsplit := Pipeline.arrays_of_unscopedBufs (p := 6) (pcfgs (F := F)) adm (pdats m ρ) launch6.win launch6.arr_whole c
      ((pdats m ρ 6 c).share_full fun _ => rfl) (VE6 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 6 c).Φ 0 = Pipeline.ΦA spec6 c from rfl]
    unfold Pipeline.ΦA
    iintro ⟨Hprng, -, Hscoped⟩
    isplitl [Hscoped]; · iexact Hscoped
    iexact Hprng
  hout c := by
    rw [Pipeline.ownSems0_none, show (pdats m ρ 6 c).Φ (Fin.last _) = Pipeline.ΦA spec6 c from rfl]
    unfold Pipeline.ΦA
    iintro ⟨Hscoped, Hprng⟩
    isplitl [Hprng]; · iexact Hprng
    isplitr; · iempintro
    iexact Hscoped
  hexit c := by
    -- the arrays at their last contents and the rest make the unscoped buffers at `W13`
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (VE6 m ρ c) (VX6 m ρ c) ((pdats m ρ 6 c).arrAt · cfg6.N) (exit_arr6 m ρ c) (exit_rest6 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg7.lean ====
/- Region 7 of @main as a segment of the run. It is entered holding every unscoped buffer at the contents `W14`
   and left holding them at `W15`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 7 leaves, read at the TensorCore's references. -/
abbrev VX7 : (c : Dev nD) → (b : Ref sig .tc) → Buf (Elt F) ((c : Thread nD τ).loc b) := fun c b => W15 m ρ c b

/-- Each array of region 7 ends at the fold of its write-backs. -/
theorem exit_arr7 (c : Dev nD) (w : Fin cfg7.W) :
    (dat7 (VE7 m ρ) c).arrAt w cfg7.N = VX7 m ρ c (Pipeline.arrRef spec7 w) :=
  (Wexit7_arr m ρ c w).symm

/-- A reference that is no window's array ends as region 7 found it. -/
theorem exit_rest7 (c : Dev nD) (b : Ref sig .tc) (hb : b ∉ Finset.univ.image (Pipeline.arrRef spec7)) :
    VX7 m ρ c b = VE7 m ρ c b :=
  Wexit7_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 7 over the thread state. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (VE7 m ρ c)
  hentry c := by
    -- the unscoped buffers split into the windows' arrays and the rest; no table; the register to `X`
    rw [Pipeline.ownSems0_none]
    have hsplit := Pipeline.arrays_of_unscopedBufs (p := 7) (pcfgs (F := F)) adm (pdats m ρ) launch7.win launch7.arr_whole c
      ((pdats m ρ 7 c).share_full fun _ => rfl) (VE7 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 7 c).Φ 0 = Pipeline.ΦA spec7 c from rfl]
    unfold Pipeline.ΦA
    iintro ⟨Hprng, -, Hscoped⟩
    isplitl [Hscoped]; · iexact Hscoped
    iexact Hprng
  hout c := by
    rw [Pipeline.ownSems0_none, show (pdats m ρ 7 c).Φ (Fin.last _) = Pipeline.ΦA spec7 c from rfl]
    unfold Pipeline.ΦA
    iintro ⟨Hscoped, Hprng⟩
    isplitl [Hprng]; · iexact Hprng
    isplitr; · iempintro
    iexact Hscoped
  hexit c := by
    -- the arrays at their last contents and the rest make the unscoped buffers at `W15`
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (VE7 m ρ c) (VX7 m ρ c) ((pdats m ρ 7 c).arrAt · cfg7.N) (exit_arr7 m ρ c) (exit_rest7 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg8.lean ====
/- Region 8 of @main as a segment of the run. It is entered holding every unscoped buffer at the contents `W16`
   and left holding them at `W17`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 8 leaves, read at the TensorCore's references. -/
abbrev VX8 : (c : Dev nD) → (b : Ref sig .tc) → Buf (Elt F) ((c : Thread nD τ).loc b) := fun c b => W17 m ρ c b

/-- Each array of region 8 ends at the fold of its write-backs. -/
theorem exit_arr8 (c : Dev nD) (w : Fin cfg8.W) :
    (dat8 (VE8 m ρ) c).arrAt w cfg8.N = VX8 m ρ c (Pipeline.arrRef spec8 w) :=
  (Wexit8_arr m ρ c w).symm

/-- A reference that is no window's array ends as region 8 found it. -/
theorem exit_rest8 (c : Dev nD) (b : Ref sig .tc) (hb : b ∉ Finset.univ.image (Pipeline.arrRef spec8)) :
    VX8 m ρ c b = VE8 m ρ c b :=
  Wexit8_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 8 over the thread state. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VE8 m ρ) c).loose
  hwaits := Pipeline.hwaits_of_owed_zero _ _ _ _ L lv 8 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec8 c (VE8 m ρ c)
  hentry c := by
    -- the unscoped buffers split into the windows' arrays and the rest; no table; the register to `X`
    rw [Pipeline.ownSems0_none]
    have hsplit := Pipeline.arrays_of_unscopedBufs (p := 8) (pcfgs (F := F)) adm (pdats m ρ) launch8.win launch8.arr_whole c
      ((pdats m ρ 8 c).share_full fun _ => rfl) (VE8 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 8 c).Φ 0 = Pipeline.ΦA spec8 c from rfl]
    unfold Pipeline.ΦA
    iintro ⟨Hprng, -, Hscoped⟩
    isplitl [Hscoped]; · iexact Hscoped
    iexact Hprng
  hout c := by
    rw [Pipeline.ownSems0_none, show (pdats m ρ 8 c).Φ (Fin.last _) = Pipeline.ΦA spec8 c from rfl]
    unfold Pipeline.ΦA
    iintro ⟨Hscoped, Hprng⟩
    isplitl [Hprng]; · iexact Hprng
    isplitr; · iempintro
    iexact Hscoped
  hexit c := by
    -- the arrays at their last contents and the rest make the unscoped buffers at `W17`
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (VE8 m ρ c) (VX8 m ρ c) ((pdats m ρ 8 c).arrAt · cfg8.N) (exit_arr8 m ρ c) (exit_rest8 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg9.lean ====
/- Region 9 of @main as a segment of the run. It is entered holding every unscoped buffer at the contents `W18`
   and left holding them at `W19`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 9 leaves, read at the TensorCore's references. -/
abbrev VX9 : (c : Dev nD) → (b : Ref sig .tc) → Buf (Elt F) ((c : Thread nD τ).loc b) := fun c b => W19 m ρ c b

/-- Each array of region 9 ends at the fold of its write-backs. -/
theorem exit_arr9 (c : Dev nD) (w : Fin cfg9.W) :
    (dat9 (VE9 m ρ) c).arrAt w cfg9.N = VX9 m ρ c (Pipeline.arrRef spec9 w) :=
  (Wexit9_arr m ρ c w).symm

/-- A reference that is no window's array ends as region 9 found it. -/
theorem exit_rest9 (c : Dev nD) (b : Ref sig .tc) (hb : b ∉ Finset.univ.image (Pipeline.arrRef spec9)) :
    VX9 m ρ c b = VE9 m ρ c b :=
  Wexit9_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 9 over the thread state. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (VE9 m ρ) c).loose
  hwaits := Pipeline.hwaits_of_owed_zero _ _ _ _ L lv 9 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec9 c (VE9 m ρ c)
  hentry c := by
    -- the unscoped buffers split into the windows' arrays and the rest; no table; the register to `X`
    rw [Pipeline.ownSems0_none]
    have hsplit := Pipeline.arrays_of_unscopedBufs (p := 9) (pcfgs (F := F)) adm (pdats m ρ) launch9.win launch9.arr_whole c
      ((pdats m ρ 9 c).share_full fun _ => rfl) (VE9 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 9 c).Φ 0 = Pipeline.ΦA spec9 c from rfl]
    unfold Pipeline.ΦA
    iintro ⟨Hprng, -, Hscoped⟩
    isplitl [Hscoped]; · iexact Hscoped
    iexact Hprng
  hout c := by
    rw [Pipeline.ownSems0_none, show (pdats m ρ 9 c).Φ (Fin.last _) = Pipeline.ΦA spec9 c from rfl]
    unfold Pipeline.ΦA
    iintro ⟨Hscoped, Hprng⟩
    isplitl [Hprng]; · iexact Hprng
    isplitr; · iempintro
    iexact Hscoped
  hexit c := by
    -- the arrays at their last contents and the rest make the unscoped buffers at `W19`
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (VE9 m ρ c) (VX9 m ρ c) ((pdats m ρ 9 c).arrAt · cfg9.N) (exit_arr9 m ρ c) (exit_rest9 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg10.lean ====
/- Region 10 of @main as a segment of the run. It is entered holding every unscoped buffer at the contents `W20`
   and left holding them at `W21`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 10 leaves, read at the TensorCore's references. -/
abbrev VX10 : (c : Dev nD) → (b : Ref sig .tc) → Buf (Elt F) ((c : Thread nD τ).loc b) := fun c b => W21 m ρ c b

/-- Each array of region 10 ends at the fold of its write-backs. -/
theorem exit_arr10 (c : Dev nD) (w : Fin cfg10.W) :
    (dat10 (VE10 m ρ) c).arrAt w cfg10.N = VX10 m ρ c (Pipeline.arrRef spec10 w) :=
  (Wexit10_arr m ρ c w).symm

/-- A reference that is no window's array ends as region 10 found it. -/
theorem exit_rest10 (c : Dev nD) (b : Ref sig .tc) (hb : b ∉ Finset.univ.image (Pipeline.arrRef spec10)) :
    VX10 m ρ c b = VE10 m ρ c b :=
  Wexit10_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 10 over the thread state. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (VE10 m ρ) c).loose
  hwaits := Pipeline.hwaits_of_owed_zero _ _ _ _ L lv 10 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec10 c (VE10 m ρ c)
  hentry c := by
    -- the unscoped buffers split into the windows' arrays and the rest; no table; the register to `X`
    rw [Pipeline.ownSems0_none]
    have hsplit := Pipeline.arrays_of_unscopedBufs (p := 10) (pcfgs (F := F)) adm (pdats m ρ) launch10.win launch10.arr_whole c
      ((pdats m ρ 10 c).share_full fun _ => rfl) (VE10 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 10 c).Φ 0 = Pipeline.ΦA spec10 c from rfl]
    unfold Pipeline.ΦA
    iintro ⟨Hprng, -, Hscoped⟩
    isplitl [Hscoped]; · iexact Hscoped
    iexact Hprng
  hout c := by
    rw [Pipeline.ownSems0_none, show (pdats m ρ 10 c).Φ (Fin.last _) = Pipeline.ΦA spec10 c from rfl]
    unfold Pipeline.ΦA
    iintro ⟨Hscoped, Hprng⟩
    isplitl [Hprng]; · iexact Hprng
    isplitr; · iempintro
    iexact Hscoped
  hexit c := by
    -- the arrays at their last contents and the rest make the unscoped buffers at `W21`
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (VE10 m ρ c) (VX10 m ρ c) ((pdats m ρ 10 c).arrAt · cfg10.N) (exit_arr10 m ρ c) (exit_rest10 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg11.lean ====
/- Region 11 of @main as a segment of the run. It is entered holding every unscoped buffer at the contents `W22`
   and left holding them at `W23`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 11 leaves, read at the TensorCore's references. -/
abbrev VX11 : (c : Dev nD) → (b : Ref sig .tc) → Buf (Elt F) ((c : Thread nD τ).loc b) := fun c b => W23 m ρ c b

/-- Each array of region 11 ends at the fold of its write-backs. -/
theorem exit_arr11 (c : Dev nD) (w : Fin cfg11.W) :
    (dat11 (VE11 m ρ) c).arrAt w cfg11.N = VX11 m ρ c (Pipeline.arrRef spec11 w) :=
  (Wexit11_arr m ρ c w).symm

/-- A reference that is no window's array ends as region 11 found it. -/
theorem exit_rest11 (c : Dev nD) (b : Ref sig .tc) (hb : b ∉ Finset.univ.image (Pipeline.arrRef spec11)) :
    VX11 m ρ c b = VE11 m ρ c b :=
  Wexit11_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 11 over the thread state. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (VE11 m ρ) c).loose
  hwaits := Pipeline.hwaits_of_owed_zero _ _ _ _ L lv 11 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec11 c (VE11 m ρ c)
  hentry c := by
    -- the unscoped buffers split into the windows' arrays and the rest; no table; the register to `X`
    rw [Pipeline.ownSems0_none]
    have hsplit := Pipeline.arrays_of_unscopedBufs (p := 11) (pcfgs (F := F)) adm (pdats m ρ) launch11.win launch11.arr_whole c
      ((pdats m ρ 11 c).share_full fun _ => rfl) (VE11 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 11 c).Φ 0 = Pipeline.ΦA spec11 c from rfl]
    unfold Pipeline.ΦA
    iintro ⟨Hprng, -, Hscoped⟩
    isplitl [Hscoped]; · iexact Hscoped
    iexact Hprng
  hout c := by
    rw [Pipeline.ownSems0_none, show (pdats m ρ 11 c).Φ (Fin.last _) = Pipeline.ΦA spec11 c from rfl]
    unfold Pipeline.ΦA
    iintro ⟨Hscoped, Hprng⟩
    isplitl [Hprng]; · iexact Hprng
    isplitr; · iempintro
    iexact Hscoped
  hexit c := by
    -- the arrays at their last contents and the rest make the unscoped buffers at `W23`
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (VE11 m ρ c) (VX11 m ρ c) ((pdats m ρ 11 c).arrAt · cfg11.N) (exit_arr11 m ρ c) (exit_rest11 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg12.lean ====
/- Region 12 of @main as a segment of the run. It is entered holding every unscoped buffer at the contents `W24`
   and left holding them at `W25`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 12 leaves, read at the TensorCore's references. -/
abbrev VX12 : (c : Dev nD) → (b : Ref sig .tc) → Buf (Elt F) ((c : Thread nD τ).loc b) := fun c b => W25 m ρ c b

/-- Each array of region 12 ends at the fold of its write-backs. -/
theorem exit_arr12 (c : Dev nD) (w : Fin cfg12.W) :
    (dat12 (VE12 m ρ) c).arrAt w cfg12.N = VX12 m ρ c (Pipeline.arrRef spec12 w) :=
  (Wexit12_arr m ρ c w).symm

/-- A reference that is no window's array ends as region 12 found it. -/
theorem exit_rest12 (c : Dev nD) (b : Ref sig .tc) (hb : b ∉ Finset.univ.image (Pipeline.arrRef spec12)) :
    VX12 m ρ c b = VE12 m ρ c b :=
  Wexit12_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 12 over the thread state. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (VE12 m ρ) c).loose
  hwaits := Pipeline.hwaits_of_owed_zero _ _ _ _ L lv 12 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec12 c (VE12 m ρ c)
  hentry c := by
    -- the unscoped buffers split into the windows' arrays and the rest; no table; the register to `X`
    rw [Pipeline.ownSems0_none]
    have hsplit := Pipeline.arrays_of_unscopedBufs (p := 12) (pcfgs (F := F)) adm (pdats m ρ) launch12.win launch12.arr_whole c
      ((pdats m ρ 12 c).share_full fun _ => rfl) (VE12 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 12 c).Φ 0 = Pipeline.ΦA spec12 c from rfl]
    unfold Pipeline.ΦA
    iintro ⟨Hprng, -, Hscoped⟩
    isplitl [Hscoped]; · iexact Hscoped
    iexact Hprng
  hout c := by
    rw [Pipeline.ownSems0_none, show (pdats m ρ 12 c).Φ (Fin.last _) = Pipeline.ΦA spec12 c from rfl]
    unfold Pipeline.ΦA
    iintro ⟨Hscoped, Hprng⟩
    isplitl [Hprng]; · iexact Hprng
    isplitr; · iempintro
    iexact Hscoped
  hexit c := by
    -- the arrays at their last contents and the rest make the unscoped buffers at `W25`
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (VE12 m ρ c) (VX12 m ρ c) ((pdats m ρ 12 c).arrAt · cfg12.N) (exit_arr12 m ρ c) (exit_rest12 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg13.lean ====
/- Region 13 of @main as a segment of the run. It is entered holding every unscoped buffer at the contents `W26`
   and left holding them at `W27`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 13 leaves, read at the TensorCore's references. -/
abbrev VX13 : (c : Dev nD) → (b : Ref sig .tc) → Buf (Elt F) ((c : Thread nD τ).loc b) := fun c b => W27 m ρ c b

/-- Each array of region 13 ends at the fold of its write-backs. -/
theorem exit_arr13 (c : Dev nD) (w : Fin cfg13.W) :
    (dat13 (VE13 m ρ) c).arrAt w cfg13.N = VX13 m ρ c (Pipeline.arrRef spec13 w) :=
  (Wexit13_arr m ρ c w).symm

/-- A reference that is no window's array ends as region 13 found it. -/
theorem exit_rest13 (c : Dev nD) (b : Ref sig .tc) (hb : b ∉ Finset.univ.image (Pipeline.arrRef spec13)) :
    VX13 m ρ c b = VE13 m ρ c b :=
  Wexit13_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 13 over the thread state. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (VE13 m ρ) c).loose
  hwaits := Pipeline.hwaits_of_owed_zero _ _ _ _ L lv 13 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec13 c (VE13 m ρ c)
  hentry c := by
    -- the unscoped buffers split into the windows' arrays and the rest; no table; the register to `X`
    rw [Pipeline.ownSems0_none]
    have hsplit := Pipeline.arrays_of_unscopedBufs (p := 13) (pcfgs (F := F)) adm (pdats m ρ) launch13.win launch13.arr_whole c
      ((pdats m ρ 13 c).share_full fun _ => rfl) (VE13 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 13 c).Φ 0 = Pipeline.ΦA spec13 c from rfl]
    unfold Pipeline.ΦA
    iintro ⟨Hprng, -, Hscoped⟩
    isplitl [Hscoped]; · iexact Hscoped
    iexact Hprng
  hout c := by
    rw [Pipeline.ownSems0_none, show (pdats m ρ 13 c).Φ (Fin.last _) = Pipeline.ΦA spec13 c from rfl]
    unfold Pipeline.ΦA
    iintro ⟨Hscoped, Hprng⟩
    isplitl [Hprng]; · iexact Hprng
    isplitr; · iempintro
    iexact Hscoped
  hexit c := by
    -- the arrays at their last contents and the rest make the unscoped buffers at `W27`
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (VE13 m ρ c) (VX13 m ρ c) ((pdats m ρ 13 c).arrAt · cfg13.N) (exit_arr13 m ρ c) (exit_rest13 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg14.lean ====
/- Region 14 of @main as a segment of the run. It is entered holding every unscoped buffer at the contents `W28`
   and left holding them at `W29`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 14 leaves, read at the TensorCore's references. -/
abbrev VX14 : (c : Dev nD) → (b : Ref sig .tc) → Buf (Elt F) ((c : Thread nD τ).loc b) := fun c b => W29 m ρ c b

/-- Each array of region 14 ends at the fold of its write-backs. -/
theorem exit_arr14 (c : Dev nD) (w : Fin cfg14.W) :
    (dat14 (VE14 m ρ) c).arrAt w cfg14.N = VX14 m ρ c (Pipeline.arrRef spec14 w) :=
  (Wexit14_arr m ρ c w).symm

/-- A reference that is no window's array ends as region 14 found it. -/
theorem exit_rest14 (c : Dev nD) (b : Ref sig .tc) (hb : b ∉ Finset.univ.image (Pipeline.arrRef spec14)) :
    VX14 m ρ c b = VE14 m ρ c b :=
  Wexit14_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 14 over the thread state. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (VE14 m ρ) c).loose
  hwaits := Pipeline.hwaits_of_owed_zero _ _ _ _ L lv 14 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec14 c (VE14 m ρ c)
  hentry c := by
    -- the unscoped buffers split into the windows' arrays and the rest; no table; the register to `X`
    rw [Pipeline.ownSems0_none]
    have hsplit := Pipeline.arrays_of_unscopedBufs (p := 14) (pcfgs (F := F)) adm (pdats m ρ) launch14.win launch14.arr_whole c
      ((pdats m ρ 14 c).share_full fun _ => rfl) (VE14 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 14 c).Φ 0 = Pipeline.ΦA spec14 c from rfl]
    unfold Pipeline.ΦA
    iintro ⟨Hprng, -, Hscoped⟩
    isplitl [Hscoped]; · iexact Hscoped
    iexact Hprng
  hout c := by
    rw [Pipeline.ownSems0_none, show (pdats m ρ 14 c).Φ (Fin.last _) = Pipeline.ΦA spec14 c from rfl]
    unfold Pipeline.ΦA
    iintro ⟨Hscoped, Hprng⟩
    isplitl [Hprng]; · iexact Hprng
    isplitr; · iempintro
    iexact Hscoped
  hexit c := by
    -- the arrays at their last contents and the rest make the unscoped buffers at `W29`
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (VE14 m ρ c) (VX14 m ρ c) ((pdats m ρ 14 c).arrAt · cfg14.N) (exit_arr14 m ρ c) (exit_rest14 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg15.lean ====
/- Region 15 of @main as a segment of the run. It is entered holding every unscoped buffer at the contents `W30`
   and left holding them at `W31`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 15 leaves, read at the TensorCore's references. -/
abbrev VX15 : (c : Dev nD) → (b : Ref sig .tc) → Buf (Elt F) ((c : Thread nD τ).loc b) := fun c b => W31 m ρ c b

/-- Each array of region 15 ends at the fold of its write-backs. -/
theorem exit_arr15 (c : Dev nD) (w : Fin cfg15.W) :
    (dat15 (VE15 m ρ) c).arrAt w cfg15.N = VX15 m ρ c (Pipeline.arrRef spec15 w) :=
  (Wexit15_arr m ρ c w).symm

/-- A reference that is no window's array ends as region 15 found it. -/
theorem exit_rest15 (c : Dev nD) (b : Ref sig .tc) (hb : b ∉ Finset.univ.image (Pipeline.arrRef spec15)) :
    VX15 m ρ c b = VE15 m ρ c b :=
  Wexit15_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 15 over the thread state. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (VE15 m ρ) c).loose
  hwaits := Pipeline.hwaits_of_owed_zero _ _ _ _ L lv 15 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec15 c (VE15 m ρ c)
  hentry c := by
    -- the unscoped buffers split into the windows' arrays and the rest; no table; the register to `X`
    rw [Pipeline.ownSems0_none]
    have hsplit := Pipeline.arrays_of_unscopedBufs (p := 15) (pcfgs (F := F)) adm (pdats m ρ) launch15.win launch15.arr_whole c
      ((pdats m ρ 15 c).share_full fun _ => rfl) (VE15 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 15 c).Φ 0 = Pipeline.ΦA spec15 c from rfl]
    unfold Pipeline.ΦA
    iintro ⟨Hprng, -, Hscoped⟩
    isplitl [Hscoped]; · iexact Hscoped
    iexact Hprng
  hout c := by
    rw [Pipeline.ownSems0_none, show (pdats m ρ 15 c).Φ (Fin.last _) = Pipeline.ΦA spec15 c from rfl]
    unfold Pipeline.ΦA
    iintro ⟨Hscoped, Hprng⟩
    isplitl [Hprng]; · iexact Hprng
    isplitr; · iempintro
    iexact Hscoped
  hexit c := by
    -- the arrays at their last contents and the rest make the unscoped buffers at `W31`
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (VE15 m ρ c) (VX15 m ρ c) ((pdats m ρ 15 c).arrAt · cfg15.N) (exit_arr15 m ρ c) (exit_rest15 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg16.lean ====
/- Region 16 of @main as a segment of the run. It is entered holding every unscoped buffer at the contents `W32`
   and left holding them at `W33`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 16 leaves, read at the TensorCore's references. -/
abbrev VX16 : (c : Dev nD) → (b : Ref sig .tc) → Buf (Elt F) ((c : Thread nD τ).loc b) := fun c b => W33 m ρ c b

/-- Each array of region 16 ends at the fold of its write-backs. -/
theorem exit_arr16 (c : Dev nD) (w : Fin cfg16.W) :
    (dat16 (VE16 m ρ) c).arrAt w cfg16.N = VX16 m ρ c (Pipeline.arrRef spec16 w) :=
  (Wexit16_arr m ρ c w).symm

/-- A reference that is no window's array ends as region 16 found it. -/
theorem exit_rest16 (c : Dev nD) (b : Ref sig .tc) (hb : b ∉ Finset.univ.image (Pipeline.arrRef spec16)) :
    VX16 m ρ c b = VE16 m ρ c b :=
  Wexit16_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 16 over the thread state. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (VE16 m ρ) c).loose
  hwaits := Pipeline.hwaits_of_owed_zero _ _ _ _ L lv 16 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec16 c (VE16 m ρ c)
  hentry c := by
    -- the unscoped buffers split into the windows' arrays and the rest; no table; the register to `X`
    rw [Pipeline.ownSems0_none]
    have hsplit := Pipeline.arrays_of_unscopedBufs (p := 16) (pcfgs (F := F)) adm (pdats m ρ) launch16.win launch16.arr_whole c
      ((pdats m ρ 16 c).share_full fun _ => rfl) (VE16 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 16 c).Φ 0 = Pipeline.ΦA spec16 c from rfl]
    unfold Pipeline.ΦA
    iintro ⟨Hprng, -, Hscoped⟩
    isplitl [Hscoped]; · iexact Hscoped
    iexact Hprng
  hout c := by
    rw [Pipeline.ownSems0_none, show (pdats m ρ 16 c).Φ (Fin.last _) = Pipeline.ΦA spec16 c from rfl]
    unfold Pipeline.ΦA
    iintro ⟨Hscoped, Hprng⟩
    isplitl [Hprng]; · iexact Hprng
    isplitr; · iempintro
    iexact Hscoped
  hexit c := by
    -- the arrays at their last contents and the rest make the unscoped buffers at `W33`
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (VE16 m ρ c) (VX16 m ρ c) ((pdats m ρ 16 c).arrAt · cfg16.N) (exit_arr16 m ρ c) (exit_rest16 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg17.lean ====
/- Region 17 of @main as a segment of the run. It is entered holding every unscoped buffer at the contents `W34`
   and left holding them at `W35`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 17 leaves, read at the TensorCore's references. -/
abbrev VX17 : (c : Dev nD) → (b : Ref sig .tc) → Buf (Elt F) ((c : Thread nD τ).loc b) := fun c b => W35 m ρ c b

/-- Each array of region 17 ends at the fold of its write-backs. -/
theorem exit_arr17 (c : Dev nD) (w : Fin cfg17.W) :
    (dat17 (VE17 m ρ) c).arrAt w cfg17.N = VX17 m ρ c (Pipeline.arrRef spec17 w) :=
  (Wexit17_arr m ρ c w).symm

/-- A reference that is no window's array ends as region 17 found it. -/
theorem exit_rest17 (c : Dev nD) (b : Ref sig .tc) (hb : b ∉ Finset.univ.image (Pipeline.arrRef spec17)) :
    VX17 m ρ c b = VE17 m ρ c b :=
  Wexit17_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 17 over the thread state. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (VE17 m ρ) c).loose
  hwaits := Pipeline.hwaits_of_owed_zero _ _ _ _ L lv 17 fun _ _ => rfl
  pre c := iprop(StableHlo.held (c : Thread nD τ) (Pipeline.ucRefs τ sig) (W34 m ρ c) ∗ R c)
  post c := iprop(StableHlo.held (c : Thread nD τ) (Pipeline.ucRefs τ sig) (W35 m ρ c) ∗ R c)
  X c := iprop(∃ r, prngReg c r)
  Y c := iprop(∃ r, prngReg c r)
  Z c := Pipeline.unscopedRest (Ix := Unit) (Name := ℕ) (U := UR sig nD τ) (Lvl := ℕ) spec17 c (VE17 m ρ c)
  hentry c := by
    -- the unscoped buffers split into the windows' arrays and the rest; no table; the register to `X`
    rw [Pipeline.ownSems0_none]
    have hsplit := Pipeline.arrays_of_unscopedBufs (p := 17) (pcfgs (F := F)) adm (pdats m ρ) launch17.win launch17.arr_whole c
      ((pdats m ρ 17 c).share_full fun _ => rfl) (VE17 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 17 c).Φ 0 = Pipeline.ΦA spec17 c from rfl]
    unfold Pipeline.ΦA
    iintro ⟨Hprng, -, Hscoped⟩
    isplitl [Hscoped]; · iexact Hscoped
    iexact Hprng
  hout c := by
    rw [Pipeline.ownSems0_none, show (pdats m ρ 17 c).Φ (Fin.last _) = Pipeline.ΦA spec17 c from rfl]
    unfold Pipeline.ΦA
    iintro ⟨Hscoped, Hprng⟩
    isplitl [Hprng]; · iexact Hprng
    isplitr; · iempintro
    iexact Hscoped
  hexit c := by
    -- the arrays at their last contents and the rest make the unscoped buffers at `W35`
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (VE17 m ρ c) (VX17 m ρ c) ((pdats m ρ 17 c).arrAt · cfg17.N) (exit_arr17 m ρ c) (exit_rest17 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg18.lean ====
/- Region 18 of @main as a segment of the run. It is entered holding every unscoped buffer at the contents `W36`
   and left holding them at `W37`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 18 leaves, read at the TensorCore's references. -/
abbrev VX18 : (c : Dev nD) → (b : Ref sig .tc) → Buf (Elt F) ((c : Thread nD τ).loc b) := fun c b => W37 m ρ c b

/-- Each array of region 18 ends at the fold of its write-backs. -/
theorem exit_arr18 (c : Dev nD) (w : Fin cfg18.W) :
    (dat18 (VE18 m ρ) c).arrAt w cfg18.N = VX18 m ρ c (Pipeline.arrRef spec18 w) :=
  (Wexit18_arr m ρ c w).symm

/-- A reference that is no window's array ends as region 18 found it. -/
theorem exit_rest18 (c : Dev nD) (b : Ref sig .tc) (hb : b ∉ Finset.univ.image (Pipeline.arrRef spec18)) :
    VX18 m ρ c b = VE18 m ρ c b :=
  Wexit18_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 18 over the thread state. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (VE18 m ρ) c).loose
  hwaits := Pipeline.hwaits_of_owed_zero _ _ _ _ L lv 18 fun _ _ => rfl
  pre c := iprop(StableHlo.held (c : Thread nD τ) (Pipeline.ucRefs τ sig) (W36 m ρ c) ∗ R c)
  post c := iprop(StableHlo.held (c : Thread nD τ) (Pipeline.ucRefs τ sig) (W37 m ρ c) ∗ R c)
  X c := iprop(∃ r, prngReg c r)
  Y c := iprop(∃ r, prngReg c r)
  Z c := Pipeline.unscopedRest (Ix := Unit) (Name := ℕ) (U := UR sig nD τ) (Lvl := ℕ) spec18 c (VE18 m ρ c)
  hentry c := by
    -- the unscoped buffers split into the windows' arrays and the rest; no table; the register to `X`
    rw [Pipeline.ownSems0_none]
    have hsplit := Pipeline.arrays_of_unscopedBufs (p := 18) (pcfgs (F := F)) adm (pdats m ρ) launch18.win launch18.arr_whole c
      ((pdats m ρ 18 c).share_full fun _ => rfl) (VE18 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 18 c).Φ 0 = Pipeline.ΦA spec18 c from rfl]
    unfold Pipeline.ΦA
    iintro ⟨Hprng, -, Hscoped⟩
    isplitl [Hscoped]; · iexact Hscoped
    iexact Hprng
  hout c := by
    rw [Pipeline.ownSems0_none, show (pdats m ρ 18 c).Φ (Fin.last _) = Pipeline.ΦA spec18 c from rfl]
    unfold Pipeline.ΦA
    iintro ⟨Hscoped, Hprng⟩
    isplitl [Hprng]; · iexact Hprng
    isplitr; · iempintro
    iexact Hscoped
  hexit c := by
    -- the arrays at their last contents and the rest make the unscoped buffers at `W37`
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (VE18 m ρ c) (VX18 m ρ c) ((pdats m ρ 18 c).arrAt · cfg18.N) (exit_arr18 m ρ c) (exit_rest18 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Reg19.lean ====
/- Region 19 of @main as a segment of the run. It is entered holding every unscoped buffer at the contents `W38`
   and left holding them at `W39`: its windows' arrays are taken out of the unscoped buffers on the way in and put
   back, at what the pipeline's write-backs leave, on the way out; the generator register passes through the
   pipeline's invariant; the core owes nothing; the kernel has no semaphore of its own. -/
import proofs.«424088_j28020366639260_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What region 19 leaves, read at the TensorCore's references. -/
abbrev VX19 : (c : Dev nD) → (b : Ref sig .tc) → Buf (Elt F) ((c : Thread nD τ).loc b) := fun c b => W39 m ρ c b

/-- Each array of region 19 ends at the fold of its write-backs. -/
theorem exit_arr19 (c : Dev nD) (w : Fin cfg19.W) :
    (dat19 (VE19 m ρ) c).arrAt w cfg19.N = VX19 m ρ c (Pipeline.arrRef spec19 w) :=
  (Wexit19_arr m ρ c w).symm

/-- A reference that is no window's array ends as region 19 found it. -/
theorem exit_rest19 (c : Dev nD) (b : Ref sig .tc) (hb : b ∉ Finset.univ.image (Pipeline.arrRef spec19)) :
    VX19 m ρ c b = VE19 m ρ c b :=
  Wexit19_of_ne m ρ c b fun w e => hb (Finset.mem_image.mpr ⟨w, Finset.mem_univ _, e⟩)

-- the library's lemmas are stated over the pinned configuration `pin pcs a p`; matching them against the printed one
-- needs definitions unfolded inside the types of metavariables
set_option backward.isDefEq.respectTransparency.types false in
/-- Region 19 over the thread state. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (VE19 m ρ) c).loose
  hwaits := Pipeline.hwaits_of_owed_zero _ _ _ _ L lv 19 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X c := iprop(∃ r, prngReg c r)
  Y c := iprop(∃ r, prngReg c r)
  Z c := Pipeline.unscopedRest (Ix := Unit) (Name := ℕ) (U := UR sig nD τ) (Lvl := ℕ) spec19 c (VE19 m ρ c)
  hentry c := by
    -- the unscoped buffers split into the windows' arrays and the rest; no table; the register to `X`
    rw [Pipeline.ownSems0_none]
    have hsplit := Pipeline.arrays_of_unscopedBufs (p := 19) (pcfgs (F := F)) adm (pdats m ρ) launch19.win launch19.arr_whole c
      ((pdats m ρ 19 c).share_full fun _ => rfl) (VE19 m ρ c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%T, Howes⟩
      iexists T
      isplitr; · ipureintro; exact fun _ _ => Or.inl trivial
      iexact Howes
    isplitl [Hprng]; · iexact Hprng
    iexact Hrest
  hin c := by
    rw [show (pdats m ρ 19 c).Φ 0 = Pipeline.ΦA spec19 c from rfl]
    unfold Pipeline.ΦA
    iintro ⟨Hprng, -, Hscoped⟩
    isplitl [Hscoped]; · iexact Hscoped
    iexact Hprng
  hout c := by
    rw [Pipeline.ownSems0_none, show (pdats m ρ 19 c).Φ (Fin.last _) = Pipeline.ΦA spec19 c from rfl]
    unfold Pipeline.ΦA
    iintro ⟨Hscoped, Hprng⟩
    isplitl [Hprng]; · iexact Hprng
    isplitr; · iempintro
    iexact Hscoped
  hexit c := by
    -- the arrays at their last contents and the rest make the unscoped buffers at `W39`
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (VE19 m ρ c) (VX19 m ρ c) ((pdats m ρ 19 c).arrAt · cfg19.N) (exit_arr19 m ρ c) (exit_rest19 m ρ c)
    rw [Pipeline.unscopedBufs_held] at hjoin
    iintro ⟨Harr, Howes, Hprng, Hrest⟩
    imodintro
    isplitl [Harr Hrest]
    · iapply hjoin
      isplitl [Harr] <;> iassumption
    isplitl [Hprng]; · iexact Hprng
    unfold Pipeline.Dat.owesAt Pipeline.owesWithin
    icases Howes with ⟨%T, -, Howes⟩
    iexists T
    iexact Howes

end Cert.KernelIdeal.Hand

end
-- ==== Proof.KI.Run.lean ====
/- The run of @main. Its 40 items as segments over the thread state (a host segment per stretch, from the
   contents its boundary holds; a region record per pallas_call), @main as the segments' run, and the launch:
   every execution terminates without fault, and at the return every unscoped buffer of every core holds the
   last boundary's contents `W40`. With the arguments' passage through the fold, the frame claim follows. -/
import proofs.«424088_j28020366639260_2_alg».proof.Proof.KI.Args
import proofs.«424088_j28020366639260_2_alg».proof.Proof.KI.Reg0
import proofs.«424088_j28020366639260_2_alg».proof.Proof.KI.Reg1
import proofs.«424088_j28020366639260_2_alg».proof.Proof.KI.Reg2
import proofs.«424088_j28020366639260_2_alg».proof.Proof.KI.Reg3
import proofs.«424088_j28020366639260_2_alg».proof.Proof.KI.Reg4
import proofs.«424088_j28020366639260_2_alg».proof.Proof.KI.Reg5
import proofs.«424088_j28020366639260_2_alg».proof.Proof.KI.Reg6
import proofs.«424088_j28020366639260_2_alg».proof.Proof.KI.Reg7
import proofs.«424088_j28020366639260_2_alg».proof.Proof.KI.Reg8
import proofs.«424088_j28020366639260_2_alg».proof.Proof.KI.Reg9
import proofs.«424088_j28020366639260_2_alg».proof.Proof.KI.Reg10
import proofs.«424088_j28020366639260_2_alg».proof.Proof.KI.Reg11
import proofs.«424088_j28020366639260_2_alg».proof.Proof.KI.Reg12
import proofs.«424088_j28020366639260_2_alg».proof.Proof.KI.Reg13
import proofs.«424088_j28020366639260_2_alg».proof.Proof.KI.Reg14
import proofs.«424088_j28020366639260_2_alg».proof.Proof.KI.Reg15
import proofs.«424088_j28020366639260_2_alg».proof.Proof.KI.Reg16
import proofs.«424088_j28020366639260_2_alg».proof.Proof.KI.Reg17
import proofs.«424088_j28020366639260_2_alg».proof.Proof.KI.Reg18
import proofs.«424088_j28020366639260_2_alg».proof.Proof.KI.Reg19

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 40 segments, in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .host (hseg hostOps9 hostOps9_sub hostOps9_fresh (W17 m ρ)),
    .region (reg9 m ρ),
    .host (hseg hostOps10 hostOps10_sub hostOps10_fresh (W19 m ρ)),
    .region (reg10 m ρ),
    .host (hseg hostOps11 hostOps11_sub hostOps11_fresh (W21 m ρ)),
    .region (reg11 m ρ),
    .host (hseg hostOps12 hostOps12_sub hostOps12_fresh (W23 m ρ)),
    .region (reg12 m ρ),
    .host (hseg hostOps13 hostOps13_sub hostOps13_fresh (W25 m ρ)),
    .region (reg13 m ρ),
    .host (hseg hostOps14 hostOps14_sub hostOps14_fresh (W27 m ρ)),
    .region (reg14 m ρ),
    .host (hseg hostOps15 hostOps15_sub hostOps15_fresh (W29 m ρ)),
    .region (reg15 m ρ),
    .host (hseg hostOps16 hostOps16_sub hostOps16_fresh (W31 m ρ)),
    .region (reg16 m ρ),
    .host (hseg hostOps17 hostOps17_sub hostOps17_fresh (W33 m ρ)),
    .region (reg17 m ρ),
    .host (hseg hostOps18 hostOps18_sub hostOps18_fresh (W35 m ρ)),
    .region (reg18 m ρ),
    .host (hseg hostOps19 hostOps19_sub hostOps19_fresh (W37 m ρ)),
    .region (reg19 m ρ),
    .host (hseg hostOps20 hostOps20_sub hostOps20_fresh (W39 m ρ)) ]

/-- @main is the segments' run: the chain of @main's items against the segments' own fragments. -/
theorem main_run (c : Dev nD) : main (F := F) c = Pipeline.Seg.run (segs m ρ) := (main_chain c).trans (by chain_rfl)

/-- The pipelines of the regions, in order, are the 20 indices without repetition. -/
theorem pipes_nodup : (Pipeline.Seg.pipes (segs m ρ)).Nodup := by
  simp only [segs, Pipeline.Seg.pipes_host, Pipeline.Seg.pipes_region, Pipeline.Seg.pipes_nil]
  decide +kernel

/-- The last host segment's thread state regrouped: the buffers and the register on one side, the `owes` on the other. -/
theorem last_regroup (c : Dev nD) :
    (iprop(StableHlo.held (c : Thread nD τ) (Pipeline.ucRefs τ sig) (StableHlo.after hostOps20 (W39 m ρ c)) ∗ R c) : sProp 𝕄)
      ⊢ iprop(Tₙ m ρ c ∗ ∃ W, owes (c : Thread nD τ) (0 : CellTallies nD τ sig Unit) W) := by
  iintro ⟨Hbufs, Hprng, Howes⟩
  isplitr [Howes]
  · isplitl [Hbufs]; · iexact Hbufs
    iexact Hprng
  · iexact Howes

-- the launch theorem's implicit arguments come from unifying its conclusion with the statement, which needs
-- definitions unfolded inside the types of metavariables
set_option backward.isDefEq.respectTransparency.types false in
/-- THE RUN: from any memory with zero counters every weakly fair execution of @main on the TensorCores terminates,
    nothing faulting, and the final memory holds `W40` at every unscoped buffer of every core. -/
theorem run : θ_run defs (onTc (τ := τ) (main (F := F))) ⟨m, fun _ => 0, ρ⟩
    (fun r => ∀ c : Dev nD, ∀ b ∈ Pipeline.ucRefs τ sig, r.2.mem (((c : Thread nD τ)).1, b) = W40 m ρ c b) :=
  Pipeline.θ_run_regions_kit (pcfgs (F := F)) adm (pdats m ρ) () cellOf_inj emb₁ defs₀ 𝒱₀ L lv m ρ main (segs m ρ)
    (fun c Q => by rw [main_run m ρ c])
    (pipes_nodup m ρ)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_regroup m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W40 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W40 m ρ c) s')
      isplitl [Hbufs] <;> iassumption)
    (hQ := fun s h => h)

/-- THE FRAME: the run, with every argument array read back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨ (h c _ (mem_uc main_arg0 (by decide))).trans (Wlast_main_arg0 m ρ c),
      (h c _ (mem_uc main_arg1 (by decide))).trans (Wlast_main_arg1 m ρ c),
      (h c _ (mem_uc main_arg2 (by decide))).trans (Wlast_main_arg2 m ρ c),
      (h c _ (mem_uc main_arg3 (by decide))).trans (Wlast_main_arg3 m ρ c),
      (h c _ (mem_uc main_arg4 (by decide))).trans (Wlast_main_arg4 m ρ c),
      (h c _ (mem_uc main_arg5 (by decide))).trans (Wlast_main_arg5 m ρ c),
      (h c _ (mem_uc main_arg6 (by decide))).trans (Wlast_main_arg6 m ρ c),
      (h c _ (mem_uc main_arg7 (by decide))).trans (Wlast_main_arg7 m ρ c),
      (h c _ (mem_uc main_arg8 (by decide))).trans (Wlast_main_arg8 m ρ c),
      (h c _ (mem_uc main_arg9 (by decide))).trans (Wlast_main_arg9 m ρ c),
      (h c _ (mem_uc main_arg10 (by decide))).trans (Wlast_main_arg10 m ρ c),
      (h c _ (mem_uc main_arg11 (by decide))).trans (Wlast_main_arg11 m ρ c),
      (h c _ (mem_uc main_arg12 (by decide))).trans (Wlast_main_arg12 m ρ c),
      (h c _ (mem_uc main_arg13 (by decide))).trans (Wlast_main_arg13 m ρ c),
      (h c _ (mem_uc main_arg14 (by decide))).trans (Wlast_main_arg14 m ρ c),
      (h c _ (mem_uc main_arg15 (by decide))).trans (Wlast_main_arg15 m ρ c),
      (h c _ (mem_uc main_arg16 (by decide))).trans (Wlast_main_arg16 m ρ c),
      (h c _ (mem_uc main_arg17 (by decide))).trans (Wlast_main_arg17 m ρ c),
      (h c _ (mem_uc main_arg18 (by decide))).trans (Wlast_main_arg18 m ρ c),
      (h c _ (mem_uc main_arg19 (by decide))).trans (Wlast_main_arg19 m ρ c),
      (h c _ (mem_uc main_arg20 (by decide))).trans (Wlast_main_arg20 m ρ c),
      (h c _ (mem_uc main_arg21 (by decide))).trans (Wlast_main_arg21 m ρ c),
      (h c _ (mem_uc main_arg22 (by decide))).trans (Wlast_main_arg22 m ρ c) ⟩) (run m ρ)

end Cert.KernelIdeal.Hand

end
-- ==== Proof.Ref.Ops.lean ====
/- The reference program's @main as a list of host operations: one list per printed window of @main, in
   order; a call of an outlined function is its body's operations over the call's record of buffers,
   the arguments at the types the function declares. A table: it states nothing. -/
import proofs.«424088_j28020366639260_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 104 of 1008: window 0 of @main. -/
abbrev ops0 : List (HloOp τ sig (Elt F)) :=
  [ unary main_arg4 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    unary main_arg10 main_v5 ((extractStridedSlice S1x128 ![0, 0] · slices_S2x128_S1x128_0_0) : (⟨S2x128, .f32⟩ : BufTy).Contents (Elt F) → (⟨S1x128, .f32⟩ : BufTy).Contents (Elt F)),
    reshape main_v5 main_v6 rfl shapeCasts_S1x128_S128,
    unary main_arg11 main_v7 ((extractStridedSlice S1x128 ![0, 0] · slices_S2x128_S1x128_0_0) : (⟨S2x128, .f32⟩ : BufTy).Contents (Elt F) → (⟨S1x128, .f32⟩ : BufTy).Contents (Elt F)),
    reshape main_v7 main_v8 rfl shapeCasts_S1x128_S128,
    nullary main_cst (constant S_ .f32 0x00000000#32),
    binary main_v4 main_cst main_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_0 (constant S_ .f32 0x47C35000#32),
    unary main_cst_0 main_v10 (broadcastInDim S128 ![] bcast_S_S128 : (⟨S_, .f32⟩ : BufTy).Contents (Elt F) → (⟨S128, .f32⟩ : BufTy).Contents (Elt F)),
    binary main_v9 main_v10 main_v11 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v4 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v4 : TRef sig ⟨S100000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v11 main_v13 (broadcastInDim S1x128 ![1] bcast_S128_S1x128_1 : (⟨S128, .f32⟩ : BufTy).Contents (Elt F) → (⟨S1x128, .f32⟩ : BufTy).Contents (Elt F)),
    unary main_v13 main_v14 (broadcastInDim S100000x128 ![0, 1] bcast_S1x128_S100000x128_0_1 : (⟨S1x128, .f32⟩ : BufTy).Contents (Elt F) → (⟨S100000x128, .f32⟩ : BufTy).Contents (Elt F)),
    binary main_v4 main_v14 main_v15 (subf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3727C5AC#32),
    unary main_cst_1 main_v16 (broadcastInDim S128 ![] bcast_S_S128 : (⟨S_, .f32⟩ : BufTy).Contents (Elt F) → (⟨S128, .f32⟩ : BufTy).Contents (Elt F)),
    binary main_v12 main_v16 main_v17 (addf : (⟨S128, .f32⟩ : BufTy).Contents (Elt F) → (⟨S128, .f32⟩ : BufTy).Contents (Elt F) → (⟨S128, .f32⟩ : BufTy).Contents (Elt F)),
    unary main_v17 main_v18 (Host.rsqrt : (⟨S128, .f32⟩ : BufTy).Contents (Elt F) → (⟨S128, .f32⟩ : BufTy).Contents (Elt F)),
    unary main_v18 main_v19 (broadcastInDim S1x128 ![1] bcast_S128_S1x128_1 : (⟨S128, .f32⟩ : BufTy).Contents (Elt F) → (⟨S1x128, .f32⟩ : BufTy).Contents (Elt F)),
    unary main_v19 main_v20 (broadcastInDim S100000x128 ![0, 1] bcast_S1x128_S100000x128_0_1 : (⟨S1x128, .f32⟩ : BufTy).Contents (Elt F) → (⟨S100000x128, .f32⟩ : BufTy).Contents (Elt F)),
    binary main_v15 main_v20 main_v21 (mulf : (⟨S100000x128, .f32⟩ : BufTy).Contents (Elt F) → (⟨S100000x128, .f32⟩ : BufTy).Contents (Elt F) → (⟨S100000x128, .f32⟩ : BufTy).Contents (Elt F)),
    unary main_v6 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v21 main_v23 main_v24 (mulf : (⟨S100000x128, .f32⟩ : BufTy).Contents (Elt F) → (⟨S100000x128, .f32⟩ : BufTy).Contents (Elt F) → (⟨S100000x128, .f32⟩ : BufTy).Contents (Elt F)),
    unary main_v8 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v27 : TRef sig ⟨S100000x128, .f32⟩) main_call1.v0 main_call1.v1 maximumf,
    unary main_arg6 main_v29 ((transpose S128x128 [1, 0] · transposes_S128x128_S128x128_1_0) : (⟨S128x128, .f32⟩ : BufTy).Contents (Elt F) → (⟨S128x128, .f32⟩ : BufTy).Contents (Elt F)),
    binary main_v28 main_v29 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)),
    unary main_arg10 main_v34 ((extractStridedSlice S1x128 ![1, 0] · slices_S2x128_S1x128_1_0) : (⟨S2x128, .f32⟩ : BufTy).Contents (Elt F) → (⟨S1x128, .f32⟩ : BufTy).Contents (Elt F)),
    reshape main_v34 main_v35 rfl shapeCasts_S1x128_S128,
    unary main_arg11 main_v36 ((extractStridedSlice S1x128 ![1, 0] · slices_S2x128_S1x128_1_0) : (⟨S2x128, .f32⟩ : BufTy).Contents (Elt F) → (⟨S1x128, .f32⟩ : BufTy).Contents (Elt F)),
    reshape main_v36 main_v37 rfl shapeCasts_S1x128_S128,
    nullary main_cst_2 (constant S_ .f32 0x00000000#32),
    binary main_v33 main_cst_2 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call2.cst (constant S_ .f32 0x00000000#32),
    TRef.binary (.of main_v33 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v33 : TRef sig ⟨S100000x128, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v40 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v33 main_v43 main_v44 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v45 (broadcastInDim S128 ![] bcast_S_S128 : (⟨S_, .f32⟩ : BufTy).Contents (Elt F) → (⟨S128, .f32⟩ : BufTy).Contents (Elt F)),
    binary main_v41 main_v45 main_v46 (addf : (⟨S128, .f32⟩ : BufTy).Contents (Elt F) → (⟨S128, .f32⟩ : BufTy).Contents (Elt F) → (⟨S128, .f32⟩ : BufTy).Contents (Elt F)),
    unary main_v46 main_v47 (Host.rsqrt : (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v44 main_v49 main_v50 (mulf : (⟨S100000x128, .f32⟩ : BufTy).Contents (Elt F) → (⟨S100000x128, .f32⟩ : BufTy).Contents (Elt F) → (⟨S100000x128, .f32⟩ : BufTy).Contents (Elt F)),
    unary main_v35 main_v51 (broadcastInDim S1x128 ![1] bcast_S128_S1x128_1 : (⟨S128, .f32⟩ : BufTy).Contents (Elt F) → (⟨S1x128, .f32⟩ : BufTy).Contents (Elt F)) ]

/-- Operations 105 … 170 of 1008: window 1 of @main. -/
abbrev ops1 : List (HloOp τ sig (Elt F)) :=
  [ unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (mulf : (⟨S100000x128, .f32⟩ : BufTy).Contents (Elt F) → (⟨S100000x128, .f32⟩ : BufTy).Contents (Elt F) → (⟨S100000x128, .f32⟩ : BufTy).Contents (Elt F)),
    unary main_v37 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v56 : TRef sig ⟨S100000x128, .f32⟩) main_call3.v0 main_call3.v1 maximumf,
    unary main_arg8 main_v58 ((transpose S128x128 [1, 0] · transposes_S128x128_S128x128_1_0) : (⟨S128x128, .f32⟩ : BufTy).Contents (Elt F) → (⟨S128x128, .f32⟩ : BufTy).Contents (Elt F)),
    binary main_v57 main_v58 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    TRef.binary (.of main_v62 : TRef sig ⟨S100000x128, .f32⟩) (.of main_v62 : TRef sig ⟨S100000x128, .f32⟩) main_call4.v0 mulf,
    TRef.nullary main_call4.cst (constant S_ .f32 0x00000000#32),
    TRef.binary main_call4.v0 main_call4.cst main_call4.v1 (fun x v => Host.reduceAdd x v reducesTo_S100000x128_S100000_d1 h_S_),
    TRef.unary main_call4.v1 main_call4.v2 (broadcastInDim S100000x1 ![0] bcast_S100000_S100000x1_0),
    TRef.unary main_call4.v2 main_call4.v3 Host.sqrt,
    nullary main_cst_6 (constant S_ .f32 0x2B8CBCCC#32),
    unary main_cst_6 main_v64 (broadcastInDim S100000x1 ![] bcast_S_S100000x1 : (⟨S_, .f32⟩ : BufTy).Contents (Elt F) → (⟨S100000x1, .f32⟩ : BufTy).Contents (Elt F)),
    binary main_v63 main_v64 main_v65 (maximumf : (⟨S100000x1, .f32⟩ : BufTy).Contents (Elt F) → (⟨S100000x1, .f32⟩ : BufTy).Contents (Elt F) → (⟨S100000x1, .f32⟩ : BufTy).Contents (Elt F)),
    unary main_v65 main_v66 (broadcastInDim S100000x128 ![0, 1] bcast_S100000x1_S100000x128_0_1 : (⟨S100000x1, .f32⟩ : BufTy).Contents (Elt F) → (⟨S100000x128, .f32⟩ : BufTy).Contents (Elt F)),
    binary main_v62 main_v66 main_v67 (Host.divf : (⟨S100000x128, .f32⟩ : BufTy).Contents (Elt F) → (⟨S100000x128, .f32⟩ : BufTy).Contents (Elt F) → (⟨S100000x128, .f32⟩ : BufTy).Contents (Elt F)),
    unary main_arg12 main_v68 ((extractStridedSlice S1x1x128x128 ![0, 1, 0, 0] · slices_S2x6x128x128_S1x1x128x128_0_1_0_0) : (⟨S2x6x128x128, .f32⟩ : BufTy).Contents (Elt F) → (⟨S1x1x128x128, .f32⟩ : BufTy).Contents (Elt F)),
    reshape main_v68 main_v69 rfl shapeCasts_S1x1x128x128_S128x128,
    unary main_arg13 main_v70 ((extractStridedSlice S1x1x128 ![0, 1, 0] · slices_S2x6x128_S1x1x128_0_1_0) : (⟨S2x6x128, .f32⟩ : BufTy).Contents (Elt F) → (⟨S1x1x128, .f32⟩ : BufTy).Contents (Elt F)),
    reshape main_v70 main_v71 rfl shapeCasts_S1x1x128_S128,
    unary main_arg14 main_v72 ((extractStridedSlice S1x1x128x128 ![0, 1, 0, 0] · slices_S2x6x128x128_S1x1x128x128_0_1_0_0) : (⟨S2x6x128x128, .f32⟩ : BufTy).Contents (Elt F) → (⟨S1x1x128x128, .f32⟩ : BufTy).Contents (Elt F)),
    reshape main_v72 main_v73 rfl shapeCasts_S1x1x128x128_S128x128,
    nullary main_c_7 (constantI S_ 32 0#32),
    unary main_c_7 main_v74 (broadcastInDim S800000 ![] bcast_S_S800000 : (⟨S_, .i32⟩ : BufTy).Contents (Elt F) → (⟨S800000, .i32⟩ : BufTy).Contents (Elt F)),
    binary main_arg18 main_v74 main_v75 (cmpi .slt : (⟨S800000, .i32⟩ : BufTy).Contents (Elt F) → (⟨S800000, .i32⟩ : BufTy).Contents (Elt F) → (⟨S800000, .i1⟩ : BufTy).Contents (Elt F)),
    nullary main_c_8 (constantI S_ 32 2000#32),
    unary main_c_8 main_v76 (broadcastInDim S800000 ![] bcast_S_S800000 : (⟨S_, .i32⟩ : BufTy).Contents (Elt F) → (⟨S800000, .i32⟩ : BufTy).Contents (Elt F)),
    binary main_arg18 main_v76 main_v77 (addi : (⟨S800000, .i32⟩ : BufTy).Contents (Elt F) → (⟨S800000, .i32⟩ : BufTy).Contents (Elt F) → (⟨S800000, .i32⟩ : BufTy).Contents (Elt F)),
    ternary main_v75 main_v77 main_arg18 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v78 main_v79 (broadcastInDim S800000x1 ![0] bcast_S800000_S800000x1_0 : (⟨S800000, .i32⟩ : BufTy).Contents (Elt F) → (⟨S800000x1, .i32⟩ : BufTy).Contents (Elt F)),
    binary main_arg1 main_v79 main_v80 ((fun x i => Host.gather gather_S2000x128_S800000x1_S800000x128_1_0_n_n_0_1_1128 x i) : (⟨S2000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v81 (broadcastInDim S100000x128 ![] bcast_S_S100000x128 : (⟨S_, .f32⟩ : BufTy).Contents (Elt F) → (⟨S100000x128, .f32⟩ : BufTy).Contents (Elt F)),
    unary main_arg17 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_10 (constant S_ .f32 0x3F800000#32),
    unary main_cst_10 main_v84 (broadcastInDim S800000 ![] bcast_S_S800000 : (⟨S_, .f32⟩ : BufTy).Contents (Elt F) → (⟨S800000, .f32⟩ : BufTy).Contents (Elt F)),
    nullary main_cst_11 (constant S_ .f32 0x00000000#32),
    unary main_cst_11 main_v85 (broadcastInDim S100000 ![] bcast_S_S100000 : (⟨S_, .f32⟩ : BufTy).Contents (Elt F) → (⟨S100000, .f32⟩ : BufTy).Contents (Elt F)),
    unary main_arg17 main_v86 (broadcastInDim S800000x1 ![0] bcast_S800000_S800000x1_0 : (⟨S800000, .i32⟩ : BufTy).Contents (Elt F) → (⟨S800000x1, .i32⟩ : BufTy).Contents (Elt F)),
    ternary main_v85 main_v86 main_v84 main_v87 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_12 (constant S_ .f32 0x3F800000#32),
    unary main_cst_12 main_v88 (broadcastInDim S100000 ![] bcast_S_S100000 : (⟨S_, .f32⟩ : BufTy).Contents (Elt F) → (⟨S100000, .f32⟩ : BufTy).Contents (Elt F)),
    binary main_v87 main_v88 main_v89 (maximumf : (⟨S100000, .f32⟩ : BufTy).Contents (Elt F) → (⟨S100000, .f32⟩ : BufTy).Contents (Elt F) → (⟨S100000, .f32⟩ : BufTy).Contents (Elt F)),
    unary main_v89 main_v90 (broadcastInDim S100000x1 ![0] bcast_S100000_S100000x1_0 : (⟨S100000, .f32⟩ : BufTy).Contents (Elt F) → (⟨S100000x1, .f32⟩ : BufTy).Contents (Elt F)),
    unary main_v90 main_v91 (broadcastInDim S100000x128 ![0, 1] bcast_S100000x1_S100000x128_0_1 : (⟨S100000x1, .f32⟩ : BufTy).Contents (Elt F) → (⟨S100000x128, .f32⟩ : BufTy).Contents (Elt F)),
    binary main_v83 main_v91 main_v92 (Host.divf : (⟨S100000x128, .f32⟩ : BufTy).Contents (Elt F) → (⟨S100000x128, .f32⟩ : BufTy).Contents (Elt F) → (⟨S100000x128, .f32⟩ : BufTy).Contents (Elt F)),
    unary main_v69 main_v93 ((transpose S128x128 [1, 0] · transposes_S128x128_S128x128_1_0) : (⟨S128x128, .f32⟩ : BufTy).Contents (Elt F) → (⟨S128x128, .f32⟩ : BufTy).Contents (Elt F)),
    binary main_v92 main_v93 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v71 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v94 main_v96 main_v97 (addf : (⟨S100000x128, .f32⟩ : BufTy).Contents (Elt F) → (⟨S100000x128, .f32⟩ : BufTy).Contents (Elt F) → (⟨S100000x128, .f32⟩ : BufTy).Contents (Elt F)),
    unary main_v73 main_v98 ((transpose S128x128 [1, 0] · transposes_S128x128_S128x128_1_0) : (⟨S128x128, .f32⟩ : BufTy).Contents (Elt F) → (⟨S128x128, .f32⟩ : BufTy).Contents (Elt F)),
    binary main_v67 main_v98 main_v99 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v97 main_v99 main_v100 (addf : (⟨S100000x128, .f32⟩ : BufTy).Contents (Elt F) → (⟨S100000x128, .f32⟩ : BufTy).Contents (Elt F) → (⟨S100000x128, .f32⟩ : BufTy).Contents (Elt F)),
    unary main_arg12 main_v101 ((extractStridedSlice S1x1x128x128 ![0, 3, 0, 0] · slices_S2x6x128x128_S1x1x128x128_0_3_0_0) : (⟨S2x6x128x128, .f32⟩ : BufTy).Contents (Elt F) → (⟨S1x1x128x128, .f32⟩ : BufTy).Contents (Elt F)),
    reshape main_v101 main_v102 rfl shapeCasts_S1x1x128x128_S128x128,
    unary main_arg13 main_v103 ((extractStridedSlice S1x1x128 ![0, 3, 0] · slices_S2x6x128_S1x1x128_0_3_0) : (⟨S2x6x128, .f32⟩ : BufTy).Contents (Elt F) → (⟨S1x1x128, .f32⟩ : BufTy).Contents (Elt F)),
    reshape main_v103 main_v104 rfl shapeCasts_S1x1x128_S128 ]

/-- Operations 171 … 230 of 1008: window 2 of @main. -/
abbrev ops2 : List (HloOp τ sig (Elt F)) :=
  [ unary main_arg14 main_v105 ((extractStridedSlice S1x1x128x128 ![0, 3, 0, 0] · slices_S2x6x128x128_S1x1x128x128_0_3_0_0) : (⟨S2x6x128x128, .f32⟩ : BufTy).Contents (Elt F) → (⟨S1x1x128x128, .f32⟩ : BufTy).Contents (Elt F)),
    reshape main_v105 main_v106 rfl shapeCasts_S1x1x128x128_S128x128,
    nullary main_c_13 (constantI S_ 32 0#32),
    unary main_c_13 main_v107 (broadcastInDim S400000 ![] bcast_S_S400000 : (⟨S_, .i32⟩ : BufTy).Contents (Elt F) → (⟨S400000, .i32⟩ : BufTy).Contents (Elt F)),
    binary main_arg20 main_v107 main_v108 (cmpi .slt : (⟨S400000, .i32⟩ : BufTy).Contents (Elt F) → (⟨S400000, .i32⟩ : BufTy).Contents (Elt F) → (⟨S400000, .i1⟩ : BufTy).Contents (Elt F)),
    nullary main_c_14 (constantI S_ 32 5000#32),
    unary main_c_14 main_v109 (broadcastInDim S400000 ![] bcast_S_S400000 : (⟨S_, .i32⟩ : BufTy).Contents (Elt F) → (⟨S400000, .i32⟩ : BufTy).Contents (Elt F)),
    binary main_arg20 main_v109 main_v110 (addi : (⟨S400000, .i32⟩ : BufTy).Contents (Elt F) → (⟨S400000, .i32⟩ : BufTy).Contents (Elt F) → (⟨S400000, .i32⟩ : BufTy).Contents (Elt F)),
    ternary main_v108 main_v110 main_arg20 main_v111 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v111 main_v112 (broadcastInDim S400000x1 ![0] bcast_S400000_S400000x1_0 : (⟨S400000, .i32⟩ : BufTy).Contents (Elt F) → (⟨S400000x1, .i32⟩ : BufTy).Contents (Elt F)),
    binary main_arg2 main_v112 main_v113 ((fun x i => Host.gather gather_S5000x128_S400000x1_S400000x128_1_0_n_n_0_1_1128 x i) : (⟨S5000x128, .f32⟩ : BufTy).Contents (Elt F) → (⟨S400000x1, .i32⟩ : BufTy).Contents (Elt F) → (⟨S400000x128, .f32⟩ : BufTy).Contents (Elt F)),
    nullary main_cst_15 (constant S_ .f32 0x00000000#32),
    unary main_cst_15 main_v114 (broadcastInDim S100000x128 ![] bcast_S_S100000x128 : (⟨S_, .f32⟩ : BufTy).Contents (Elt F) → (⟨S100000x128, .f32⟩ : BufTy).Contents (Elt F)),
    unary main_arg19 main_v115 (broadcastInDim S400000x1 ![0] bcast_S400000_S400000x1_0 : (⟨S400000, .i32⟩ : BufTy).Contents (Elt F) → (⟨S400000x1, .i32⟩ : BufTy).Contents (Elt F)),
    ternary main_v114 main_v115 main_v113 main_v116 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_16 (constant S_ .f32 0x3F800000#32),
    unary main_cst_16 main_v117 (broadcastInDim S400000 ![] bcast_S_S400000 : (⟨S_, .f32⟩ : BufTy).Contents (Elt F) → (⟨S400000, .f32⟩ : BufTy).Contents (Elt F)),
    nullary main_cst_17 (constant S_ .f32 0x00000000#32),
    unary main_cst_17 main_v118 (broadcastInDim S100000 ![] bcast_S_S100000 : (⟨S_, .f32⟩ : BufTy).Contents (Elt F) → (⟨S100000, .f32⟩ : BufTy).Contents (Elt F)),
    unary main_arg19 main_v119 (broadcastInDim S400000x1 ![0] bcast_S400000_S400000x1_0 : (⟨S400000, .i32⟩ : BufTy).Contents (Elt F) → (⟨S400000x1, .i32⟩ : BufTy).Contents (Elt F)),
    ternary main_v118 main_v119 main_v117 main_v120 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_18 (constant S_ .f32 0x3F800000#32),
    unary main_cst_18 main_v121 (broadcastInDim S100000 ![] bcast_S_S100000 : (⟨S_, .f32⟩ : BufTy).Contents (Elt F) → (⟨S100000, .f32⟩ : BufTy).Contents (Elt F)),
    binary main_v120 main_v121 main_v122 (maximumf : (⟨S100000, .f32⟩ : BufTy).Contents (Elt F) → (⟨S100000, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    unary main_v123 main_v124 (broadcastInDim S100000x128 ![0, 1] bcast_S100000x1_S100000x128_0_1 : (⟨S100000x1, .f32⟩ : BufTy).Contents (Elt F) → (⟨S100000x128, .f32⟩ : BufTy).Contents (Elt F)),
    binary main_v116 main_v124 main_v125 (Host.divf : (⟨S100000x128, .f32⟩ : BufTy).Contents (Elt F) → (⟨S100000x128, .f32⟩ : BufTy).Contents (Elt F) → (⟨S100000x128, .f32⟩ : BufTy).Contents (Elt F)),
    unary main_v102 main_v126 ((transpose S128x128 [1, 0] · transposes_S128x128_S128x128_1_0) : (⟨S128x128, .f32⟩ : BufTy).Contents (Elt F) → (⟨S128x128, .f32⟩ : BufTy).Contents (Elt F)),
    binary main_v125 main_v126 main_v127 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v104 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v127 main_v129 main_v130 (addf : (⟨S100000x128, .f32⟩ : BufTy).Contents (Elt F) → (⟨S100000x128, .f32⟩ : BufTy).Contents (Elt F) → (⟨S100000x128, .f32⟩ : BufTy).Contents (Elt F)),
    unary main_v106 main_v131 ((transpose S128x128 [1, 0] · transposes_S128x128_S128x128_1_0) : (⟨S128x128, .f32⟩ : BufTy).Contents (Elt F) → (⟨S128x128, .f32⟩ : BufTy).Contents (Elt F)),
    binary main_v67 main_v131 main_v132 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v130 main_v132 main_v133 (addf : (⟨S100000x128, .f32⟩ : BufTy).Contents (Elt F) → (⟨S100000x128, .f32⟩ : BufTy).Contents (Elt F) → (⟨S100000x128, .f32⟩ : BufTy).Contents (Elt F)),
    binary main_v100 main_v133 main_v134 (addf : (⟨S100000x128, .f32⟩ : BufTy).Contents (Elt F) → (⟨S100000x128, .f32⟩ : BufTy).Contents (Elt F) → (⟨S100000x128, .f32⟩ : BufTy).Contents (Elt F)),
    unary main_arg12 main_v135 ((extractStridedSlice S1x1x128x128 ![0, 5, 0, 0] · slices_S2x6x128x128_S1x1x128x128_0_5_0_0) : (⟨S2x6x128x128, .f32⟩ : BufTy).Contents (Elt F) → (⟨S1x1x128x128, .f32⟩ : BufTy).Contents (Elt F)),
    reshape main_v135 main_v136 rfl shapeCasts_S1x1x128x128_S128x128,
    unary main_arg13 main_v137 ((extractStridedSlice S1x1x128 ![0, 5, 0] · slices_S2x6x128_S1x1x128_0_5_0) : (⟨S2x6x128, .f32⟩ : BufTy).Contents (Elt F) → (⟨S1x1x128, .f32⟩ : BufTy).Contents (Elt F)),
    reshape main_v137 main_v138 rfl shapeCasts_S1x1x128_S128,
    unary main_arg14 main_v139 ((extractStridedSlice S1x1x128x128 ![0, 5, 0, 0] · slices_S2x6x128x128_S1x1x128x128_0_5_0_0) : (⟨S2x6x128x128, .f32⟩ : BufTy).Contents (Elt F) → (⟨S1x1x128x128, .f32⟩ : BufTy).Contents (Elt F)),
    reshape main_v139 main_v140 rfl shapeCasts_S1x1x128x128_S128x128,
    nullary main_c_19 (constantI S_ 32 0#32),
    unary main_c_19 main_v141 (broadcastInDim S400000 ![] bcast_S_S400000 : (⟨S_, .i32⟩ : BufTy).Contents (Elt F) → (⟨S400000, .i32⟩ : BufTy).Contents (Elt F)),
    binary main_arg22 main_v141 main_v142 (cmpi .slt : (⟨S400000, .i32⟩ : BufTy).Contents (Elt F) → (⟨S400000, .i32⟩ : BufTy).Contents (Elt F) → (⟨S400000, .i1⟩ : BufTy).Contents (Elt F)),
    nullary main_c_20 (constantI S_ 32 3000#32),
    unary main_c_20 main_v143 (broadcastInDim S400000 ![] bcast_S_S400000 : (⟨S_, .i32⟩ : BufTy).Contents (Elt F) → (⟨S400000, .i32⟩ : BufTy).Contents (Elt F)),
    binary main_arg22 main_v143 main_v144 (addi : (⟨S400000, .i32⟩ : BufTy).Contents (Elt F) → (⟨S400000, .i32⟩ : BufTy).Contents (Elt F) → (⟨S400000, .i32⟩ : BufTy).Contents (Elt F)),
    ternary main_v142 main_v144 main_arg22 main_v145 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v145 main_v146 (broadcastInDim S400000x1 ![0] bcast_S400000_S400000x1_0 : (⟨S400000, .i32⟩ : BufTy).Contents (Elt F) → (⟨S400000x1, .i32⟩ : BufTy).Contents (Elt F)),
    binary main_arg3 main_v146 main_v147 ((fun x i => Host.gather gather_S3000x128_S400000x1_S400000x128_1_0_n_n_0_1_1128 x i) : (⟨S3000x128, .f32⟩ : BufTy).Contents (Elt F) → (⟨S400000x1, .i32⟩ : BufTy).Contents (Elt F) → (⟨S400000x128, .f32⟩ : BufTy).Contents (Elt F)),
    nullary main_cst_21 (constant S_ .f32 0x00000000#32),
    unary main_cst_21 main_v148 (broadcastInDim S100000x128 ![] bcast_S_S100000x128 : (⟨S_, .f32⟩ : BufTy).Contents (Elt F) → (⟨S100000x128, .f32⟩ : BufTy).Contents (Elt F)),
    unary main_arg21 main_v149 (broadcastInDim S400000x1 ![0] bcast_S400000_S400000x1_0 : (⟨S400000, .i32⟩ : BufTy).Contents (Elt F) → (⟨S400000x1, .i32⟩ : BufTy).Contents (Elt F)),
    ternary main_v148 main_v149 main_v147 main_v150 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_22 (constant S_ .f32 0x3F800000#32),
    unary main_cst_22 main_v151 (broadcastInDim S400000 ![] bcast_S_S400000 : (⟨S_, .f32⟩ : BufTy).Contents (Elt F) → (⟨S400000, .f32⟩ : BufTy).Contents (Elt F)),
    nullary main_cst_23 (constant S_ .f32 0x00000000#32),
    unary main_cst_23 main_v152 (broadcastInDim S100000 ![] bcast_S_S100000 : (⟨S_, .f32⟩ : BufTy).Contents (Elt F) → (⟨S100000, .f32⟩ : BufTy).Contents (Elt F)),
    unary main_arg21 main_v153 (broadcastInDim S400000x1 ![0] bcast_S400000_S400000x1_0 : (⟨S400000, .i32⟩ : BufTy).Contents (Elt F) → (⟨S400000x1, .i32⟩ : BufTy).Contents (Elt F)) ]

/-- Operations 231 … 290 of 1008: window 3 of @main. -/
abbrev ops3 : List (HloOp τ sig (Elt F)) :=
  [ ternary main_v152 main_v153 main_v151 main_v154 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_24 (constant S_ .f32 0x3F800000#32),
    unary main_cst_24 main_v155 (broadcastInDim S100000 ![] bcast_S_S100000 : (⟨S_, .f32⟩ : BufTy).Contents (Elt F) → (⟨S100000, .f32⟩ : BufTy).Contents (Elt F)),
    binary main_v154 main_v155 main_v156 (maximumf : (⟨S100000, .f32⟩ : BufTy).Contents (Elt F) → (⟨S100000, .f32⟩ : BufTy).Contents (Elt F) → (⟨S100000, .f32⟩ : BufTy).Contents (Elt F)),
    unary main_v156 main_v157 (broadcastInDim S100000x1 ![0] bcast_S100000_S100000x1_0 : (⟨S100000, .f32⟩ : BufTy).Contents (Elt F) → (⟨S100000x1, .f32⟩ : BufTy).Contents (Elt F)),
    unary main_v157 main_v158 (broadcastInDim S100000x128 ![0, 1] bcast_S100000x1_S100000x128_0_1 : (⟨S100000x1, .f32⟩ : BufTy).Contents (Elt F) → (⟨S100000x128, .f32⟩ : BufTy).Contents (Elt F)),
    binary main_v150 main_v158 main_v159 (Host.divf : (⟨S100000x128, .f32⟩ : BufTy).Contents (Elt F) → (⟨S100000x128, .f32⟩ : BufTy).Contents (Elt F) → (⟨S100000x128, .f32⟩ : BufTy).Contents (Elt F)),
    unary main_v136 main_v160 ((transpose S128x128 [1, 0] · transposes_S128x128_S128x128_1_0) : (⟨S128x128, .f32⟩ : BufTy).Contents (Elt F) → (⟨S128x128, .f32⟩ : BufTy).Contents (Elt F)),
    binary main_v159 main_v160 main_v161 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v138 main_v162 (broadcastInDim S1x128 ![1] bcast_S128_S1x128_1 : (⟨S128, .f32⟩ : BufTy).Contents (Elt F) → (⟨S1x128, .f32⟩ : BufTy).Contents (Elt F)),
    unary main_v162 main_v163 (broadcastInDim S100000x128 ![0, 1] bcast_S1x128_S100000x128_0_1 : (⟨S1x128, .f32⟩ : BufTy).Contents (Elt F) → (⟨S100000x128, .f32⟩ : BufTy).Contents (Elt F)),
    binary main_v161 main_v163 main_v164 (addf : (⟨S100000x128, .f32⟩ : BufTy).Contents (Elt F) → (⟨S100000x128, .f32⟩ : BufTy).Contents (Elt F) → (⟨S100000x128, .f32⟩ : BufTy).Contents (Elt F)),
    unary main_v140 main_v165 ((transpose S128x128 [1, 0] · transposes_S128x128_S128x128_1_0) : (⟨S128x128, .f32⟩ : BufTy).Contents (Elt F) → (⟨S128x128, .f32⟩ : BufTy).Contents (Elt F)),
    binary main_v67 main_v165 main_v166 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v164 main_v166 main_v167 (addf : (⟨S100000x128, .f32⟩ : BufTy).Contents (Elt F) → (⟨S100000x128, .f32⟩ : BufTy).Contents (Elt F) → (⟨S100000x128, .f32⟩ : BufTy).Contents (Elt F)),
    binary main_v134 main_v167 main_v168 (addf : (⟨S100000x128, .f32⟩ : BufTy).Contents (Elt F) → (⟨S100000x128, .f32⟩ : BufTy).Contents (Elt F) → (⟨S100000x128, .f32⟩ : BufTy).Contents (Elt F)),
    unary main_arg12 main_v169 ((extractStridedSlice S1x1x128x128 ![0, 0, 0, 0] · slices_S2x6x128x128_S1x1x128x128_0_0_0_0) : (⟨S2x6x128x128, .f32⟩ : BufTy).Contents (Elt F) → (⟨S1x1x128x128, .f32⟩ : BufTy).Contents (Elt F)),
    reshape main_v169 main_v170 rfl shapeCasts_S1x1x128x128_S128x128,
    unary main_arg13 main_v171 ((extractStridedSlice S1x1x128 ![0, 0, 0] · slices_S2x6x128_S1x1x128_0_0_0) : (⟨S2x6x128, .f32⟩ : BufTy).Contents (Elt F) → (⟨S1x1x128, .f32⟩ : BufTy).Contents (Elt F)),
    reshape main_v171 main_v172 rfl shapeCasts_S1x1x128_S128,
    unary main_arg14 main_v173 ((extractStridedSlice S1x1x128x128 ![0, 0, 0, 0] · slices_S2x6x128x128_S1x1x128x128_0_0_0_0) : (⟨S2x6x128x128, .f32⟩ : BufTy).Contents (Elt F) → (⟨S1x1x128x128, .f32⟩ : BufTy).Contents (Elt F)),
    reshape main_v173 main_v174 rfl shapeCasts_S1x1x128x128_S128x128,
    nullary main_c_25 (constantI S_ 32 0#32),
    unary main_c_25 main_v175 (broadcastInDim S800000 ![] bcast_S_S800000 : (⟨S_, .i32⟩ : BufTy).Contents (Elt F) → (⟨S800000, .i32⟩ : BufTy).Contents (Elt F)),
    binary main_arg17 main_v175 main_v176 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v177 (broadcastInDim S800000 ![] bcast_S_S800000 : (⟨S_, .i32⟩ : BufTy).Contents (Elt F) → (⟨S800000, .i32⟩ : BufTy).Contents (Elt F)),
    binary main_arg17 main_v177 main_v178 (addi : (⟨S800000, .i32⟩ : BufTy).Contents (Elt F) → (⟨S800000, .i32⟩ : BufTy).Contents (Elt F) → (⟨S800000, .i32⟩ : BufTy).Contents (Elt F)),
    ternary main_v176 main_v178 main_arg17 main_v179 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v179 main_v180 (broadcastInDim S800000x1 ![0] bcast_S800000_S800000x1_0 : (⟨S800000, .i32⟩ : BufTy).Contents (Elt F) → (⟨S800000x1, .i32⟩ : BufTy).Contents (Elt F)),
    binary main_v67 main_v180 main_v181 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_27 (constant S_ .f32 0x00000000#32),
    unary main_cst_27 main_v182 (broadcastInDim S2000x128 ![] bcast_S_S2000x128 : (⟨S_, .f32⟩ : BufTy).Contents (Elt F) → (⟨S2000x128, .f32⟩ : BufTy).Contents (Elt F)),
    unary main_arg18 main_v183 (broadcastInDim S800000x1 ![0] bcast_S800000_S800000x1_0 : (⟨S800000, .i32⟩ : BufTy).Contents (Elt F) → (⟨S800000x1, .i32⟩ : BufTy).Contents (Elt F)),
    ternary main_v182 main_v183 main_v181 main_v184 ((fun x i u => Host.scatterAdd scatter_S2000x128_S800000x1_S800000x128_1_0_0_1 x i u) : (⟨S2000x128, .f32⟩ : BufTy).Contents (Elt F) → (⟨S800000x1, .i32⟩ : BufTy).Contents (Elt F) → (⟨S800000x128, .f32⟩ : BufTy).Contents (Elt F) → (⟨S2000x128, .f32⟩ : BufTy).Contents (Elt F)),
    nullary main_cst_28 (constant S_ .f32 0x3F800000#32),
    unary main_cst_28 main_v185 (broadcastInDim S800000 ![] bcast_S_S800000 : (⟨S_, .f32⟩ : BufTy).Contents (Elt F) → (⟨S800000, .f32⟩ : BufTy).Contents (Elt F)),
    nullary main_cst_29 (constant S_ .f32 0x00000000#32),
    unary main_cst_29 main_v186 (broadcastInDim S2000 ![] bcast_S_S2000 : (⟨S_, .f32⟩ : BufTy).Contents (Elt F) → (⟨S2000, .f32⟩ : BufTy).Contents (Elt F)),
    unary main_arg18 main_v187 (broadcastInDim S800000x1 ![0] bcast_S800000_S800000x1_0 : (⟨S800000, .i32⟩ : BufTy).Contents (Elt F) → (⟨S800000x1, .i32⟩ : BufTy).Contents (Elt F)),
    ternary main_v186 main_v187 main_v185 main_v188 ((fun x i u => Host.scatterAdd scatter_S2000_S800000x1_S800000_n_0_0_1 x i u) : (⟨S2000, .f32⟩ : BufTy).Contents (Elt F) → (⟨S800000x1, .i32⟩ : BufTy).Contents (Elt F) → (⟨S800000, .f32⟩ : BufTy).Contents (Elt F) → (⟨S2000, .f32⟩ : BufTy).Contents (Elt F)),
    nullary main_cst_30 (constant S_ .f32 0x3F800000#32),
    unary main_cst_30 main_v189 (broadcastInDim S2000 ![] bcast_S_S2000 : (⟨S_, .f32⟩ : BufTy).Contents (Elt F) → (⟨S2000, .f32⟩ : BufTy).Contents (Elt F)),
    binary main_v188 main_v189 main_v190 (maximumf : (⟨S2000, .f32⟩ : BufTy).Contents (Elt F) → (⟨S2000, .f32⟩ : BufTy).Contents (Elt F) → (⟨S2000, .f32⟩ : BufTy).Contents (Elt F)),
    unary main_v190 main_v191 (broadcastInDim S2000x1 ![0] bcast_S2000_S2000x1_0 : (⟨S2000, .f32⟩ : BufTy).Contents (Elt F) → (⟨S2000x1, .f32⟩ : BufTy).Contents (Elt F)),
    unary main_v191 main_v192 (broadcastInDim S2000x128 ![0, 1] bcast_S2000x1_S2000x128_0_1 : (⟨S2000x1, .f32⟩ : BufTy).Contents (Elt F) → (⟨S2000x128, .f32⟩ : BufTy).Contents (Elt F)),
    binary main_v184 main_v192 main_v193 (Host.divf : (⟨S2000x128, .f32⟩ : BufTy).Contents (Elt F) → (⟨S2000x128, .f32⟩ : BufTy).Contents (Elt F) → (⟨S2000x128, .f32⟩ : BufTy).Contents (Elt F)),
    unary main_v170 main_v194 ((transpose S128x128 [1, 0] · transposes_S128x128_S128x128_1_0) : (⟨S128x128, .f32⟩ : BufTy).Contents (Elt F) → (⟨S128x128, .f32⟩ : BufTy).Contents (Elt F)),
    binary main_v193 main_v194 main_v195 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    unary main_v172 main_v196 (broadcastInDim S1x128 ![1] bcast_S128_S1x128_1 : (⟨S128, .f32⟩ : BufTy).Contents (Elt F) → (⟨S1x128, .f32⟩ : BufTy).Contents (Elt F)),
    unary main_v196 main_v197 (broadcastInDim S2000x128 ![0, 1] bcast_S1x128_S2000x128_0_1 : (⟨S1x128, .f32⟩ : BufTy).Contents (Elt F) → (⟨S2000x128, .f32⟩ : BufTy).Contents (Elt F)),
    binary main_v195 main_v197 main_v198 (addf : (⟨S2000x128, .f32⟩ : BufTy).Contents (Elt F) → (⟨S2000x128, .f32⟩ : BufTy).Contents (Elt F) → (⟨S2000x128, .f32⟩ : BufTy).Contents (Elt F)),
    unary main_v174 main_v199 ((transpose S128x128 [1, 0] · transposes_S128x128_S128x128_1_0) : (⟨S128x128, .f32⟩ : BufTy).Contents (Elt F) → (⟨S128x128, .f32⟩ : BufTy).Contents (Elt F)),
    binary main_arg1 main_v199 main_v200 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    binary main_v198 main_v200 main_v201 (addf : (⟨S2000x128, .f32⟩ : BufTy).Contents (Elt F) → (⟨S2000x128, .f32⟩ : BufTy).Contents (Elt F) → (⟨S2000x128, .f32⟩ : BufTy).Contents (Elt F)),
    unary main_arg12 main_v202 ((extractStridedSlice S1x1x128x128 ![0, 2, 0, 0] · slices_S2x6x128x128_S1x1x128x128_0_2_0_0) : (⟨S2x6x128x128, .f32⟩ : BufTy).Contents (Elt F) → (⟨S1x1x128x128, .f32⟩ : BufTy).Contents (Elt F)),
    reshape main_v202 main_v203 rfl shapeCasts_S1x1x128x128_S128x128,
    unary main_arg13 main_v204 ((extractStridedSlice S1x1x128 ![0, 2, 0] · slices_S2x6x128_S1x1x128_0_2_0) : (⟨S2x6x128, .f32⟩ : BufTy).Contents (Elt F) → (⟨S1x1x128, .f32⟩ : BufTy).Contents (Elt F)),
    reshape main_v204 main_v205 rfl shapeCasts_S1x1x128_S128,
    unary main_arg14 main_v206 ((extractStridedSlice S1x1x128x128 ![0, 2, 0, 0] · slices_S2x6x128x128_S1x1x128x128_0_2_0_0) : (⟨S2x6x128x128, .f32⟩ : BufTy).Contents (Elt F) → (⟨S1x1x128x128, .f32⟩ : BufTy).Contents (Elt F)) ]

/-- Operations 291 … 350 of 1008: window 4 of @main. -/
abbrev ops4 : List (HloOp τ sig (Elt F)) :=
  [ reshape main_v206 main_v207 rfl shapeCasts_S1x1x128x128_S128x128,
    nullary main_c_31 (constantI S_ 32 0#32),
    unary main_c_31 main_v208 (broadcastInDim S400000 ![] bcast_S_S400000 : (⟨S_, .i32⟩ : BufTy).Contents (Elt F) → (⟨S400000, .i32⟩ : BufTy).Contents (Elt F)),
    binary main_arg19 main_v208 main_v209 (cmpi .slt : (⟨S400000, .i32⟩ : BufTy).Contents (Elt F) → (⟨S400000, .i32⟩ : BufTy).Contents (Elt F) → (⟨S400000, .i1⟩ : BufTy).Contents (Elt F)),
    nullary main_c_32 (constantI S_ 32 100000#32),
    unary main_c_32 main_v210 (broadcastInDim S400000 ![] bcast_S_S400000 : (⟨S_, .i32⟩ : BufTy).Contents (Elt F) → (⟨S400000, .i32⟩ : BufTy).Contents (Elt F)),
    binary main_arg19 main_v210 main_v211 (addi : (⟨S400000, .i32⟩ : BufTy).Contents (Elt F) → (⟨S400000, .i32⟩ : BufTy).Contents (Elt F) → (⟨S400000, .i32⟩ : BufTy).Contents (Elt F)),
    ternary main_v209 main_v211 main_arg19 main_v212 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v212 main_v213 (broadcastInDim S400000x1 ![0] bcast_S400000_S400000x1_0 : (⟨S400000, .i32⟩ : BufTy).Contents (Elt F) → (⟨S400000x1, .i32⟩ : BufTy).Contents (Elt F)),
    binary main_v67 main_v213 main_v214 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    nullary main_cst_33 (constant S_ .f32 0x00000000#32),
    unary main_cst_33 main_v215 (broadcastInDim S5000x128 ![] bcast_S_S5000x128 : (⟨S_, .f32⟩ : BufTy).Contents (Elt F) → (⟨S5000x128, .f32⟩ : BufTy).Contents (Elt F)),
    unary main_arg20 main_v216 (broadcastInDim S400000x1 ![0] bcast_S400000_S400000x1_0 : (⟨S400000, .i32⟩ : BufTy).Contents (Elt F) → (⟨S400000x1, .i32⟩ : BufTy).Contents (Elt F)),
    ternary main_v215 main_v216 main_v214 main_v217 ((fun x i u => Host.scatterAdd scatter_S5000x128_S400000x1_S400000x128_1_0_0_1 x i u) : (⟨S5000x128, .f32⟩ : BufTy).Contents (Elt F) → (⟨S400000x1, .i32⟩ : BufTy).Contents (Elt F) → (⟨S400000x128, .f32⟩ : BufTy).Contents (Elt F) → (⟨S5000x128, .f32⟩ : BufTy).Contents (Elt F)),
    nullary main_cst_34 (constant S_ .f32 0x3F800000#32),
    unary main_cst_34 main_v218 (broadcastInDim S400000 ![] bcast_S_S400000 : (⟨S_, .f32⟩ : BufTy).Contents (Elt F) → (⟨S400000, .f32⟩ : BufTy).Contents (Elt F)),
    nullary main_cst_35 (constant S_ .f32 0x00000000#32),
    unary main_cst_35 main_v219 (broadcastInDim S5000 ![] bcast_S_S5000 : (⟨S_, .f32⟩ : BufTy).Contents (Elt F) → (⟨S5000, .f32⟩ : BufTy).Contents (Elt F)),
    unary main_arg20 main_v220 (broadcastInDim S400000x1 ![0] bcast_S400000_S400000x1_0 : (⟨S400000, .i32⟩ : BufTy).Contents (Elt F) → (⟨S400000x1, .i32⟩ : BufTy).Contents (Elt F)),
    ternary main_v219 main_v220 main_v218 main_v221 ((fun x i u => Host.scatterAdd scatter_S5000_S400000x1_S400000_n_0_0_1 x i u) : (⟨S5000, .f32⟩ : BufTy).Contents (Elt F) → (⟨S400000x1, .i32⟩ : BufTy).Contents (Elt F) → (⟨S400000, .f32⟩ : BufTy).Contents (Elt F) → (⟨S5000, .f32⟩ : BufTy).Contents (Elt F)),
    nullary main_cst_36 (constant S_ .f32 0x3F800000#32),
    unary main_cst_36 main_v222 (broadcastInDim S5000 ![] bcast_S_S5000 : (⟨S_, .f32⟩ : BufTy).Contents (Elt F) → (⟨S5000, .f32⟩ : BufTy).Contents (Elt F)),
    binary main_v221 main_v222 main_v223 (maximumf : (⟨S5000, .f32⟩ : BufTy).Contents (Elt F) → (⟨S5000, .f32⟩ : BufTy).Contents (Elt F) → (⟨S5000, .f32⟩ : BufTy).Contents (Elt F)),
    unary main_v223 main_v224 (broadcastInDim S5000x1 ![0] bcast_S5000_S5000x1_0 : (⟨S5000, .f32⟩ : BufTy).Contents (Elt F) → (⟨S5000x1, .f32⟩ : BufTy).Contents (Elt F)),
    unary main_v224 main_v225 (broadcastInDim S5000x128 ![0, 1] bcast_S5000x1_S5000x128_0_1 : (⟨S5000x1, .f32⟩ : BufTy).Contents (Elt F) → (⟨S5000x128, .f32⟩ : BufTy).Contents (Elt F)),
    binary main_v217 main_v225 main_v226 (Host.divf : (⟨S5000x128, .f32⟩ : BufTy).Contents (Elt F) → (⟨S5000x128, .f32⟩ : BufTy).Contents (Elt F) → (⟨S5000x128, .f32⟩ : BufTy).Contents (Elt F)),
    unary main_v203 main_v227 ((transpose S128x128 [1, 0] · transposes_S128x128_S128x128_1_0) : (⟨S128x128, .f32⟩ : BufTy).Contents (Elt F) → (⟨S128x128, .f32⟩ : BufTy).Contents (Elt F)),
    binary main_v226 main_v227 main_v228 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v205 main_v229 (broadcastInDim S1x128 ![1] bcast_S128_S1x128_1 : (⟨S128, .f32⟩ : BufTy).Contents (Elt F) → (⟨S1x128, .f32⟩ : BufTy).Contents (Elt F)),
    unary main_v229 main_v230 (broadcastInDim S5000x128 ![0, 1] bcast_S1x128_S5000x128_0_1 : (⟨S1x128, .f32⟩ : BufTy).Contents (Elt F) → (⟨S5000x128, .f32⟩ : BufTy).Contents (Elt F)),
    binary main_v228 main_v230 main_v231 (addf : (⟨S5000x128, .f32⟩ : BufTy).Contents (Elt F) → (⟨S5000x128, .f32⟩ : BufTy).Contents (Elt F) → (⟨S5000x128, .f32⟩ : BufTy).Contents (Elt F)),
    unary main_v207 main_v232 ((transpose S128x128 [1, 0] · transposes_S128x128_S128x128_1_0) : (⟨S128x128, .f32⟩ : BufTy).Contents (Elt F) → (⟨S128x128, .f32⟩ : BufTy).Contents (Elt F)),
    binary main_arg2 main_v232 main_v233 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v231 main_v233 main_v234 (addf : (⟨S5000x128, .f32⟩ : BufTy).Contents (Elt F) → (⟨S5000x128, .f32⟩ : BufTy).Contents (Elt F) → (⟨S5000x128, .f32⟩ : BufTy).Contents (Elt F)),
    unary main_arg12 main_v235 ((extractStridedSlice S1x1x128x128 ![0, 4, 0, 0] · slices_S2x6x128x128_S1x1x128x128_0_4_0_0) : (⟨S2x6x128x128, .f32⟩ : BufTy).Contents (Elt F) → (⟨S1x1x128x128, .f32⟩ : BufTy).Contents (Elt F)),
    reshape main_v235 main_v236 rfl shapeCasts_S1x1x128x128_S128x128,
    unary main_arg13 main_v237 ((extractStridedSlice S1x1x128 ![0, 4, 0] · slices_S2x6x128_S1x1x128_0_4_0) : (⟨S2x6x128, .f32⟩ : BufTy).Contents (Elt F) → (⟨S1x1x128, .f32⟩ : BufTy).Contents (Elt F)),
    reshape main_v237 main_v238 rfl shapeCasts_S1x1x128_S128,
    unary main_arg14 main_v239 ((extractStridedSlice S1x1x128x128 ![0, 4, 0, 0] · slices_S2x6x128x128_S1x1x128x128_0_4_0_0) : (⟨S2x6x128x128, .f32⟩ : BufTy).Contents (Elt F) → (⟨S1x1x128x128, .f32⟩ : BufTy).Contents (Elt F)),
    reshape main_v239 main_v240 rfl shapeCasts_S1x1x128x128_S128x128,
    nullary main_c_37 (constantI S_ 32 0#32),
    unary main_c_37 main_v241 (broadcastInDim S400000 ![] bcast_S_S400000 : (⟨S_, .i32⟩ : BufTy).Contents (Elt F) → (⟨S400000, .i32⟩ : BufTy).Contents (Elt F)),
    binary main_arg21 main_v241 main_v242 (cmpi .slt : (⟨S400000, .i32⟩ : BufTy).Contents (Elt F) → (⟨S400000, .i32⟩ : BufTy).Contents (Elt F) → (⟨S400000, .i1⟩ : BufTy).Contents (Elt F)),
    nullary main_c_38 (constantI S_ 32 100000#32),
    unary main_c_38 main_v243 (broadcastInDim S400000 ![] bcast_S_S400000 : (⟨S_, .i32⟩ : BufTy).Contents (Elt F) → (⟨S400000, .i32⟩ : BufTy).Contents (Elt F)),
    binary main_arg21 main_v243 main_v244 (addi : (⟨S400000, .i32⟩ : BufTy).Contents (Elt F) → (⟨S400000, .i32⟩ : BufTy).Contents (Elt F) → (⟨S400000, .i32⟩ : BufTy).Contents (Elt F)),
    ternary main_v242 main_v244 main_arg21 main_v245 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v245 main_v246 (broadcastInDim S400000x1 ![0] bcast_S400000_S400000x1_0 : (⟨S400000, .i32⟩ : BufTy).Contents (Elt F) → (⟨S400000x1, .i32⟩ : BufTy).Contents (Elt F)),
    binary main_v67 main_v246 main_v247 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    nullary main_cst_39 (constant S_ .f32 0x00000000#32),
    unary main_cst_39 main_v248 (broadcastInDim S3000x128 ![] bcast_S_S3000x128 : (⟨S_, .f32⟩ : BufTy).Contents (Elt F) → (⟨S3000x128, .f32⟩ : BufTy).Contents (Elt F)),
    unary main_arg22 main_v249 (broadcastInDim S400000x1 ![0] bcast_S400000_S400000x1_0 : (⟨S400000, .i32⟩ : BufTy).Contents (Elt F) → (⟨S400000x1, .i32⟩ : BufTy).Contents (Elt F)),
    ternary main_v248 main_v249 main_v247 main_v250 ((fun x i u => Host.scatterAdd scatter_S3000x128_S400000x1_S400000x128_1_0_0_1 x i u) : (⟨S3000x128, .f32⟩ : BufTy).Contents (Elt F) → (⟨S400000x1, .i32⟩ : BufTy).Contents (Elt F) → (⟨S400000x128, .f32⟩ : BufTy).Contents (Elt F) → (⟨S3000x128, .f32⟩ : BufTy).Contents (Elt F)),
    nullary main_cst_40 (constant S_ .f32 0x3F800000#32),
    unary main_cst_40 main_v251 (broadcastInDim S400000 ![] bcast_S_S400000 : (⟨S_, .f32⟩ : BufTy).Contents (Elt F) → (⟨S400000, .f32⟩ : BufTy).Contents (Elt F)),
    nullary main_cst_41 (constant S_ .f32 0x00000000#32),
    unary main_cst_41 main_v252 (broadcastInDim S3000 ![] bcast_S_S3000 : (⟨S_, .f32⟩ : BufTy).Contents (Elt F) → (⟨S3000, .f32⟩ : BufTy).Contents (Elt F)),
    unary main_arg22 main_v253 (broadcastInDim S400000x1 ![0] bcast_S400000_S400000x1_0 : (⟨S400000, .i32⟩ : BufTy).Contents (Elt F) → (⟨S400000x1, .i32⟩ : BufTy).Contents (Elt F)),
    ternary main_v252 main_v253 main_v251 main_v254 ((fun x i u => Host.scatterAdd scatter_S3000_S400000x1_S400000_n_0_0_1 x i u) : (⟨S3000, .f32⟩ : BufTy).Contents (Elt F) → (⟨S400000x1, .i32⟩ : BufTy).Contents (Elt F) → (⟨S400000, .f32⟩ : BufTy).Contents (Elt F) → (⟨S3000, .f32⟩ : BufTy).Contents (Elt F)),
    nullary main_cst_42 (constant S_ .f32 0x3F800000#32) ]

/-- Operations 351 … 454 of 1008: window 5 of @main. -/
abbrev ops5 : List (HloOp τ sig (Elt F)) :=
  [ unary main_cst_42 main_v255 (broadcastInDim S3000 ![] bcast_S_S3000 : (⟨S_, .f32⟩ : BufTy).Contents (Elt F) → (⟨S3000, .f32⟩ : BufTy).Contents (Elt F)),
    binary main_v254 main_v255 main_v256 (maximumf : (⟨S3000, .f32⟩ : BufTy).Contents (Elt F) → (⟨S3000, .f32⟩ : BufTy).Contents (Elt F) → (⟨S3000, .f32⟩ : BufTy).Contents (Elt F)),
    unary main_v256 main_v257 (broadcastInDim S3000x1 ![0] bcast_S3000_S3000x1_0 : (⟨S3000, .f32⟩ : BufTy).Contents (Elt F) → (⟨S3000x1, .f32⟩ : BufTy).Contents (Elt F)),
    unary main_v257 main_v258 (broadcastInDim S3000x128 ![0, 1] bcast_S3000x1_S3000x128_0_1 : (⟨S3000x1, .f32⟩ : BufTy).Contents (Elt F) → (⟨S3000x128, .f32⟩ : BufTy).Contents (Elt F)),
    binary main_v250 main_v258 main_v259 (Host.divf : (⟨S3000x128, .f32⟩ : BufTy).Contents (Elt F) → (⟨S3000x128, .f32⟩ : BufTy).Contents (Elt F) → (⟨S3000x128, .f32⟩ : BufTy).Contents (Elt F)),
    unary main_v236 main_v260 ((transpose S128x128 [1, 0] · transposes_S128x128_S128x128_1_0) : (⟨S128x128, .f32⟩ : BufTy).Contents (Elt F) → (⟨S128x128, .f32⟩ : BufTy).Contents (Elt F)),
    binary main_v259 main_v260 main_v261 ((fun l r => Host.dotGeneral dot_S3000x128_S128x128_S3000x128_1_0_0_1_n_n none l r) : (⟨S3000x128, .f32⟩ : BufTy).Contents (Elt F) → (⟨S128x128, .f32⟩ : BufTy).Contents (Elt F) → (⟨S3000x128, .f32⟩ : BufTy).Contents (Elt F)),
    unary main_v238 main_v262 (broadcastInDim S1x128 ![1] bcast_S128_S1x128_1 : (⟨S128, .f32⟩ : BufTy).Contents (Elt F) → (⟨S1x128, .f32⟩ : BufTy).Contents (Elt F)),
    unary main_v262 main_v263 (broadcastInDim S3000x128 ![0, 1] bcast_S1x128_S3000x128_0_1 : (⟨S1x128, .f32⟩ : BufTy).Contents (Elt F) → (⟨S3000x128, .f32⟩ : BufTy).Contents (Elt F)),
    binary main_v261 main_v263 main_v264 (addf : (⟨S3000x128, .f32⟩ : BufTy).Contents (Elt F) → (⟨S3000x128, .f32⟩ : BufTy).Contents (Elt F) → (⟨S3000x128, .f32⟩ : BufTy).Contents (Elt F)),
    unary main_v240 main_v265 ((transpose S128x128 [1, 0] · transposes_S128x128_S128x128_1_0) : (⟨S128x128, .f32⟩ : BufTy).Contents (Elt F) → (⟨S128x128, .f32⟩ : BufTy).Contents (Elt F)),
    binary main_arg3 main_v265 main_v266 ((fun l r => Host.dotGeneral dot_S3000x128_S128x128_S3000x128_1_0_0_1_n_n none l r) : (⟨S3000x128, .f32⟩ : BufTy).Contents (Elt F) → (⟨S128x128, .f32⟩ : BufTy).Contents (Elt F) → (⟨S3000x128, .f32⟩ : BufTy).Contents (Elt F)),
    binary main_v264 main_v266 main_v267 (addf : (⟨S3000x128, .f32⟩ : BufTy).Contents (Elt F) → (⟨S3000x128, .f32⟩ : BufTy).Contents (Elt F) → (⟨S3000x128, .f32⟩ : BufTy).Contents (Elt F)),
    unary main_arg15 main_v268 ((extractStridedSlice S1x1x128 ![0, 0, 0] · slices_S2x4x128_S1x1x128_0_0_0) : (⟨S2x4x128, .f32⟩ : BufTy).Contents (Elt F) → (⟨S1x1x128, .f32⟩ : BufTy).Contents (Elt F)),
    reshape main_v268 main_v269 rfl shapeCasts_S1x1x128_S128,
    unary main_arg16 main_v270 ((extractStridedSlice S1x1x128 ![0, 0, 0] · slices_S2x4x128_S1x1x128_0_0_0) : (⟨S2x4x128, .f32⟩ : BufTy).Contents (Elt F) → (⟨S1x1x128, .f32⟩ : BufTy).Contents (Elt F)),
    reshape main_v270 main_v271 rfl shapeCasts_S1x1x128_S128,
    nullary main_cst_43 (constant S_ .f32 0x00000000#32),
    binary main_v168 main_cst_43 main_v272 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_44 (constant S_ .f32 0x47C35000#32),
    unary main_cst_44 main_v273 (broadcastInDim S128 ![] bcast_S_S128 : (⟨S_, .f32⟩ : BufTy).Contents (Elt F) → (⟨S128, .f32⟩ : BufTy).Contents (Elt F)),
    binary main_v272 main_v273 main_v274 (Host.divf : (⟨S128, .f32⟩ : BufTy).Contents (Elt F) → (⟨S128, .f32⟩ : BufTy).Contents (Elt F) → (⟨S128, .f32⟩ : BufTy).Contents (Elt F)),
    nullary main_c_45 (constantI S_ 32 0#32),
    TRef.nullary main_call5.cst (constant S_ .f32 0x00000000#32),
    TRef.binary (.of main_v168 : TRef sig ⟨S100000x128, .f32⟩) main_call5.cst main_call5.v0 (fun x v => Host.reduceAdd x v reducesTo_S100000x128_S128_d0 h_S_),
    TRef.unary main_call5.v0 main_call5.v1 (broadcastInDim S1x128 ![1] bcast_S128_S1x128_1),
    TRef.nullary main_call5.cst_0 (constant S_ .f32 0x47C35000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S100000x128 ![0, 1] bcast_S1x128_S100000x128_0_1),
    TRef.binary (.of main_v168 : TRef sig ⟨S100000x128, .f32⟩) main_call5.v4 main_call5.v5 subf,
    TRef.binary main_call5.v5 main_call5.v5 main_call5.v6 mulf,
    TRef.unary (.of main_c_45 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v274 main_v276 (broadcastInDim S1x128 ![1] bcast_S128_S1x128_1 : (⟨S128, .f32⟩ : BufTy).Contents (Elt F) → (⟨S1x128, .f32⟩ : BufTy).Contents (Elt F)),
    unary main_v276 main_v277 (broadcastInDim S100000x128 ![0, 1] bcast_S1x128_S100000x128_0_1 : (⟨S1x128, .f32⟩ : BufTy).Contents (Elt F) → (⟨S100000x128, .f32⟩ : BufTy).Contents (Elt F)),
    binary main_v168 main_v277 main_v278 (subf : (⟨S100000x128, .f32⟩ : BufTy).Contents (Elt F) → (⟨S100000x128, .f32⟩ : BufTy).Contents (Elt F) → (⟨S100000x128, .f32⟩ : BufTy).Contents (Elt F)),
    nullary main_cst_46 (constant S_ .f32 0x3727C5AC#32),
    unary main_cst_46 main_v279 (broadcastInDim S128 ![] bcast_S_S128 : (⟨S_, .f32⟩ : BufTy).Contents (Elt F) → (⟨S128, .f32⟩ : BufTy).Contents (Elt F)),
    binary main_v275 main_v279 main_v280 (addf : (⟨S128, .f32⟩ : BufTy).Contents (Elt F) → (⟨S128, .f32⟩ : BufTy).Contents (Elt F) → (⟨S128, .f32⟩ : BufTy).Contents (Elt F)),
    unary main_v280 main_v281 (Host.rsqrt : (⟨S128, .f32⟩ : BufTy).Contents (Elt F) → (⟨S128, .f32⟩ : BufTy).Contents (Elt F)),
    unary main_v281 main_v282 (broadcastInDim S1x128 ![1] bcast_S128_S1x128_1 : (⟨S128, .f32⟩ : BufTy).Contents (Elt F) → (⟨S1x128, .f32⟩ : BufTy).Contents (Elt F)),
    unary main_v282 main_v283 (broadcastInDim S100000x128 ![0, 1] bcast_S1x128_S100000x128_0_1 : (⟨S1x128, .f32⟩ : BufTy).Contents (Elt F) → (⟨S100000x128, .f32⟩ : BufTy).Contents (Elt F)),
    binary main_v278 main_v283 main_v284 (mulf : (⟨S100000x128, .f32⟩ : BufTy).Contents (Elt F) → (⟨S100000x128, .f32⟩ : BufTy).Contents (Elt F) → (⟨S100000x128, .f32⟩ : BufTy).Contents (Elt F)),
    unary main_v269 main_v285 (broadcastInDim S1x128 ![1] bcast_S128_S1x128_1 : (⟨S128, .f32⟩ : BufTy).Contents (Elt F) → (⟨S1x128, .f32⟩ : BufTy).Contents (Elt F)),
    unary main_v285 main_v286 (broadcastInDim S100000x128 ![0, 1] bcast_S1x128_S100000x128_0_1 : (⟨S1x128, .f32⟩ : BufTy).Contents (Elt F) → (⟨S100000x128, .f32⟩ : BufTy).Contents (Elt F)),
    binary main_v284 main_v286 main_v287 (mulf : (⟨S100000x128, .f32⟩ : BufTy).Contents (Elt F) → (⟨S100000x128, .f32⟩ : BufTy).Contents (Elt F) → (⟨S100000x128, .f32⟩ : BufTy).Contents (Elt F)),
    unary main_v271 main_v288 (broadcastInDim S1x128 ![1] bcast_S128_S1x128_1 : (⟨S128, .f32⟩ : BufTy).Contents (Elt F) → (⟨S1x128, .f32⟩ : BufTy).Contents (Elt F)),
    unary main_v288 main_v289 (broadcastInDim S100000x128 ![0, 1] bcast_S1x128_S100000x128_0_1 : (⟨S1x128, .f32⟩ : BufTy).Contents (Elt F) → (⟨S100000x128, .f32⟩ : BufTy).Contents (Elt F)),
    binary main_v287 main_v289 main_v290 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v290 : TRef sig ⟨S100000x128, .f32⟩) main_call6.v0 main_call6.v1 maximumf,
    unary main_arg15 main_v292 ((extractStridedSlice S1x1x128 ![0, 1, 0] · slices_S2x4x128_S1x1x128_0_1_0) : (⟨S2x4x128, .f32⟩ : BufTy).Contents (Elt F) → (⟨S1x1x128, .f32⟩ : BufTy).Contents (Elt F)),
    reshape main_v292 main_v293 rfl shapeCasts_S1x1x128_S128,
    unary main_arg16 main_v294 ((extractStridedSlice S1x1x128 ![0, 1, 0] · slices_S2x4x128_S1x1x128_0_1_0) : (⟨S2x4x128, .f32⟩ : BufTy).Contents (Elt F) → (⟨S1x1x128, .f32⟩ : BufTy).Contents (Elt F)),
    reshape main_v294 main_v295 rfl shapeCasts_S1x1x128_S128,
    nullary main_cst_47 (constant S_ .f32 0x00000000#32),
    binary main_v201 main_cst_47 main_v296 ((fun x v => Host.reduceAdd x v reducesTo_S2000x128_S128_d0 h_S_) : (⟨S2000x128, .f32⟩ : BufTy).Contents (Elt F) → (⟨S_, .f32⟩ : BufTy).Contents (Elt F) → (⟨S128, .f32⟩ : BufTy).Contents (Elt F)),
    nullary main_cst_48 (constant S_ .f32 0x44FA0000#32),
    unary main_cst_48 main_v297 (broadcastInDim S128 ![] bcast_S_S128 : (⟨S_, .f32⟩ : BufTy).Contents (Elt F) → (⟨S128, .f32⟩ : BufTy).Contents (Elt F)),
    binary main_v296 main_v297 main_v298 (Host.divf : (⟨S128, .f32⟩ : BufTy).Contents (Elt F) → (⟨S128, .f32⟩ : BufTy).Contents (Elt F) → (⟨S128, .f32⟩ : BufTy).Contents (Elt F)),
    nullary main_c_49 (constantI S_ 32 0#32),
    TRef.nullary main_call7.cst (constant S_ .f32 0x00000000#32),
    TRef.binary (.of main_v201 : TRef sig ⟨S2000x128, .f32⟩) main_call7.cst main_call7.v0 (fun x v => Host.reduceAdd x v reducesTo_S2000x128_S128_d0 h_S_),
    TRef.unary main_call7.v0 main_call7.v1 (broadcastInDim S1x128 ![1] bcast_S128_S1x128_1),
    TRef.nullary main_call7.cst_0 (constant S_ .f32 0x44FA0000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S2000x128 ![0, 1] bcast_S1x128_S2000x128_0_1),
    TRef.binary (.of main_v201 : TRef sig ⟨S2000x128, .f32⟩) main_call7.v4 main_call7.v5 subf,
    TRef.binary main_call7.v5 main_call7.v5 main_call7.v6 mulf,
    TRef.unary (.of main_c_49 : TRef sig ⟨S_, .i32⟩) main_call7.v7 (sitofp .f32),
    TRef.nullary main_call7.cst_1 (constant S_ .f32 0x44FA0000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S2000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_v298 main_v300 (broadcastInDim S1x128 ![1] bcast_S128_S1x128_1 : (⟨S128, .f32⟩ : BufTy).Contents (Elt F) → (⟨S1x128, .f32⟩ : BufTy).Contents (Elt F)),
    unary main_v300 main_v301 (broadcastInDim S2000x128 ![0, 1] bcast_S1x128_S2000x128_0_1 : (⟨S1x128, .f32⟩ : BufTy).Contents (Elt F) → (⟨S2000x128, .f32⟩ : BufTy).Contents (Elt F)),
    binary main_v201 main_v301 main_v302 (subf : (⟨S2000x128, .f32⟩ : BufTy).Contents (Elt F) → (⟨S2000x128, .f32⟩ : BufTy).Contents (Elt F) → (⟨S2000x128, .f32⟩ : BufTy).Contents (Elt F)),
    nullary main_cst_50 (constant S_ .f32 0x3727C5AC#32),
    unary main_cst_50 main_v303 (broadcastInDim S128 ![] bcast_S_S128 : (⟨S_, .f32⟩ : BufTy).Contents (Elt F) → (⟨S128, .f32⟩ : BufTy).Contents (Elt F)),
    binary main_v299 main_v303 main_v304 (addf : (⟨S128, .f32⟩ : BufTy).Contents (Elt F) → (⟨S128, .f32⟩ : BufTy).Contents (Elt F) → (⟨S128, .f32⟩ : BufTy).Contents (Elt F)),
    unary main_v304 main_v305 (Host.rsqrt : (⟨S128, .f32⟩ : BufTy).Contents (Elt F) → (⟨S128, .f32⟩ : BufTy).Contents (Elt F)),
    unary main_v305 main_v306 (broadcastInDim S1x128 ![1] bcast_S128_S1x128_1 : (⟨S128, .f32⟩ : BufTy).Contents (Elt F) → (⟨S1x128, .f32⟩ : BufTy).Contents (Elt F)) ]

/-- Operations 455 … 560 of 1008: window 6 of @main. -/
abbrev ops6 : List (HloOp τ sig (Elt F)) :=
  [ unary main_v306 main_v307 (broadcastInDim S2000x128 ![0, 1] bcast_S1x128_S2000x128_0_1 : (⟨S1x128, .f32⟩ : BufTy).Contents (Elt F) → (⟨S2000x128, .f32⟩ : BufTy).Contents (Elt F)),
    binary main_v302 main_v307 main_v308 (mulf : (⟨S2000x128, .f32⟩ : BufTy).Contents (Elt F) → (⟨S2000x128, .f32⟩ : BufTy).Contents (Elt F) → (⟨S2000x128, .f32⟩ : BufTy).Contents (Elt F)),
    unary main_v293 main_v309 (broadcastInDim S1x128 ![1] bcast_S128_S1x128_1 : (⟨S128, .f32⟩ : BufTy).Contents (Elt F) → (⟨S1x128, .f32⟩ : BufTy).Contents (Elt F)),
    unary main_v309 main_v310 (broadcastInDim S2000x128 ![0, 1] bcast_S1x128_S2000x128_0_1 : (⟨S1x128, .f32⟩ : BufTy).Contents (Elt F) → (⟨S2000x128, .f32⟩ : BufTy).Contents (Elt F)),
    binary main_v308 main_v310 main_v311 (mulf : (⟨S2000x128, .f32⟩ : BufTy).Contents (Elt F) → (⟨S2000x128, .f32⟩ : BufTy).Contents (Elt F) → (⟨S2000x128, .f32⟩ : BufTy).Contents (Elt F)),
    unary main_v295 main_v312 (broadcastInDim S1x128 ![1] bcast_S128_S1x128_1 : (⟨S128, .f32⟩ : BufTy).Contents (Elt F) → (⟨S1x128, .f32⟩ : BufTy).Contents (Elt F)),
    unary main_v312 main_v313 (broadcastInDim S2000x128 ![0, 1] bcast_S1x128_S2000x128_0_1 : (⟨S1x128, .f32⟩ : BufTy).Contents (Elt F) → (⟨S2000x128, .f32⟩ : BufTy).Contents (Elt F)),
    binary main_v311 main_v313 main_v314 (addf : (⟨S2000x128, .f32⟩ : BufTy).Contents (Elt F) → (⟨S2000x128, .f32⟩ : BufTy).Contents (Elt F) → (⟨S2000x128, .f32⟩ : BufTy).Contents (Elt F)),
    TRef.nullary main_call8.cst (constant S_ .f32 0x00000000#32),
    TRef.unary main_call8.cst main_call8.v0 (broadcastInDim S2000x128 ![] bcast_S_S2000x128),
    TRef.binary (.of main_v314 : TRef sig ⟨S2000x128, .f32⟩) main_call8.v0 main_call8.v1 maximumf,
    unary main_arg15 main_v316 ((extractStridedSlice S1x1x128 ![0, 2, 0] · slices_S2x4x128_S1x1x128_0_2_0) : (⟨S2x4x128, .f32⟩ : BufTy).Contents (Elt F) → (⟨S1x1x128, .f32⟩ : BufTy).Contents (Elt F)),
    reshape main_v316 main_v317 rfl shapeCasts_S1x1x128_S128,
    unary main_arg16 main_v318 ((extractStridedSlice S1x1x128 ![0, 2, 0] · slices_S2x4x128_S1x1x128_0_2_0) : (⟨S2x4x128, .f32⟩ : BufTy).Contents (Elt F) → (⟨S1x1x128, .f32⟩ : BufTy).Contents (Elt F)),
    reshape main_v318 main_v319 rfl shapeCasts_S1x1x128_S128,
    nullary main_cst_51 (constant S_ .f32 0x00000000#32),
    binary main_v234 main_cst_51 main_v320 ((fun x v => Host.reduceAdd x v reducesTo_S5000x128_S128_d0 h_S_) : (⟨S5000x128, .f32⟩ : BufTy).Contents (Elt F) → (⟨S_, .f32⟩ : BufTy).Contents (Elt F) → (⟨S128, .f32⟩ : BufTy).Contents (Elt F)),
    nullary main_cst_52 (constant S_ .f32 0x459C4000#32),
    unary main_cst_52 main_v321 (broadcastInDim S128 ![] bcast_S_S128 : (⟨S_, .f32⟩ : BufTy).Contents (Elt F) → (⟨S128, .f32⟩ : BufTy).Contents (Elt F)),
    binary main_v320 main_v321 main_v322 (Host.divf : (⟨S128, .f32⟩ : BufTy).Contents (Elt F) → (⟨S128, .f32⟩ : BufTy).Contents (Elt F) → (⟨S128, .f32⟩ : BufTy).Contents (Elt F)),
    nullary main_c_53 (constantI S_ 32 0#32),
    TRef.nullary main_call9.cst (constant S_ .f32 0x00000000#32),
    TRef.binary (.of main_v234 : TRef sig ⟨S5000x128, .f32⟩) main_call9.cst main_call9.v0 (fun x v => Host.reduceAdd x v reducesTo_S5000x128_S128_d0 h_S_),
    TRef.unary main_call9.v0 main_call9.v1 (broadcastInDim S1x128 ![1] bcast_S128_S1x128_1),
    TRef.nullary main_call9.cst_0 (constant S_ .f32 0x459C4000#32),
    TRef.unary main_call9.cst_0 main_call9.v2 (broadcastInDim S1x128 ![] bcast_S_S1x128),
    TRef.binary main_call9.v1 main_call9.v2 main_call9.v3 Host.divf,
    TRef.unary main_call9.v3 main_call9.v4 (broadcastInDim S5000x128 ![0, 1] bcast_S1x128_S5000x128_0_1),
    TRef.binary (.of main_v234 : TRef sig ⟨S5000x128, .f32⟩) main_call9.v4 main_call9.v5 subf,
    TRef.binary main_call9.v5 main_call9.v5 main_call9.v6 mulf,
    TRef.unary (.of main_c_53 : TRef sig ⟨S_, .i32⟩) main_call9.v7 (sitofp .f32),
    TRef.nullary main_call9.cst_1 (constant S_ .f32 0x459C4000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S5000x128_S128_d0 h_S_),
    TRef.unary main_call9.v8 main_call9.v10 (broadcastInDim S128 ![] bcast_S_S128),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S128 ![] bcast_S_S128),
    TRef.ternary main_call9.v12 main_call9.v11 main_call9.call0.v1 main_call9.call0.v2 (fun p a b => select (broadcastInDim S128 ![] bcast_S_S128 p) a b),
    unary main_v322 main_v324 (broadcastInDim S1x128 ![1] bcast_S128_S1x128_1 : (⟨S128, .f32⟩ : BufTy).Contents (Elt F) → (⟨S1x128, .f32⟩ : BufTy).Contents (Elt F)),
    unary main_v324 main_v325 (broadcastInDim S5000x128 ![0, 1] bcast_S1x128_S5000x128_0_1 : (⟨S1x128, .f32⟩ : BufTy).Contents (Elt F) → (⟨S5000x128, .f32⟩ : BufTy).Contents (Elt F)),
    binary main_v234 main_v325 main_v326 (subf : (⟨S5000x128, .f32⟩ : BufTy).Contents (Elt F) → (⟨S5000x128, .f32⟩ : BufTy).Contents (Elt F) → (⟨S5000x128, .f32⟩ : BufTy).Contents (Elt F)),
    nullary main_cst_54 (constant S_ .f32 0x3727C5AC#32),
    unary main_cst_54 main_v327 (broadcastInDim S128 ![] bcast_S_S128 : (⟨S_, .f32⟩ : BufTy).Contents (Elt F) → (⟨S128, .f32⟩ : BufTy).Contents (Elt F)),
    binary main_v323 main_v327 main_v328 (addf : (⟨S128, .f32⟩ : BufTy).Contents (Elt F) → (⟨S128, .f32⟩ : BufTy).Contents (Elt F) → (⟨S128, .f32⟩ : BufTy).Contents (Elt F)),
    unary main_v328 main_v329 (Host.rsqrt : (⟨S128, .f32⟩ : BufTy).Contents (Elt F) → (⟨S128, .f32⟩ : BufTy).Contents (Elt F)),
    unary main_v329 main_v330 (broadcastInDim S1x128 ![1] bcast_S128_S1x128_1 : (⟨S128, .f32⟩ : BufTy).Contents (Elt F) → (⟨S1x128, .f32⟩ : BufTy).Contents (Elt F)),
    unary main_v330 main_v331 (broadcastInDim S5000x128 ![0, 1] bcast_S1x128_S5000x128_0_1 : (⟨S1x128, .f32⟩ : BufTy).Contents (Elt F) → (⟨S5000x128, .f32⟩ : BufTy).Contents (Elt F)),
    binary main_v326 main_v331 main_v332 (mulf : (⟨S5000x128, .f32⟩ : BufTy).Contents (Elt F) → (⟨S5000x128, .f32⟩ : BufTy).Contents (Elt F) → (⟨S5000x128, .f32⟩ : BufTy).Contents (Elt F)),
    unary main_v317 main_v333 (broadcastInDim S1x128 ![1] bcast_S128_S1x128_1 : (⟨S128, .f32⟩ : BufTy).Contents (Elt F) → (⟨S1x128, .f32⟩ : BufTy).Contents (Elt F)),
    unary main_v333 main_v334 (broadcastInDim S5000x128 ![0, 1] bcast_S1x128_S5000x128_0_1 : (⟨S1x128, .f32⟩ : BufTy).Contents (Elt F) → (⟨S5000x128, .f32⟩ : BufTy).Contents (Elt F)),
    binary main_v332 main_v334 main_v335 (mulf : (⟨S5000x128, .f32⟩ : BufTy).Contents (Elt F) → (⟨S5000x128, .f32⟩ : BufTy).Contents (Elt F) → (⟨S5000x128, .f32⟩ : BufTy).Contents (Elt F)),
    unary main_v319 main_v336 (broadcastInDim S1x128 ![1] bcast_S128_S1x128_1 : (⟨S128, .f32⟩ : BufTy).Contents (Elt F) → (⟨S1x128, .f32⟩ : BufTy).Contents (Elt F)),
    unary main_v336 main_v337 (broadcastInDim S5000x128 ![0, 1] bcast_S1x128_S5000x128_0_1 : (⟨S1x128, .f32⟩ : BufTy).Contents (Elt F) → (⟨S5000x128, .f32⟩ : BufTy).Contents (Elt F)),
    binary main_v335 main_v337 main_v338 (addf : (⟨S5000x128, .f32⟩ : BufTy).Contents (Elt F) → (⟨S5000x128, .f32⟩ : BufTy).Contents (Elt F) → (⟨S5000x128, .f32⟩ : BufTy).Contents (Elt F)),
    TRef.nullary main_call10.cst (constant S_ .f32 0x00000000#32),
    TRef.unary main_call10.cst main_call10.v0 (broadcastInDim S5000x128 ![] bcast_S_S5000x128),
    TRef.binary (.of main_v338 : TRef sig ⟨S5000x128, .f32⟩) main_call10.v0 main_call10.v1 maximumf,
    unary main_arg15 main_v340 ((extractStridedSlice S1x1x128 ![0, 3, 0] · slices_S2x4x128_S1x1x128_0_3_0) : (⟨S2x4x128, .f32⟩ : BufTy).Contents (Elt F) → (⟨S1x1x128, .f32⟩ : BufTy).Contents (Elt F)),
    reshape main_v340 main_v341 rfl shapeCasts_S1x1x128_S128,
    unary main_arg16 main_v342 ((extractStridedSlice S1x1x128 ![0, 3, 0] · slices_S2x4x128_S1x1x128_0_3_0) : (⟨S2x4x128, .f32⟩ : BufTy).Contents (Elt F) → (⟨S1x1x128, .f32⟩ : BufTy).Contents (Elt F)),
    reshape main_v342 main_v343 rfl shapeCasts_S1x1x128_S128,
    nullary main_cst_55 (constant S_ .f32 0x00000000#32),
    binary main_v267 main_cst_55 main_v344 ((fun x v => Host.reduceAdd x v reducesTo_S3000x128_S128_d0 h_S_) : (⟨S3000x128, .f32⟩ : BufTy).Contents (Elt F) → (⟨S_, .f32⟩ : BufTy).Contents (Elt F) → (⟨S128, .f32⟩ : BufTy).Contents (Elt F)),
    nullary main_cst_56 (constant S_ .f32 0x453B8000#32),
    unary main_cst_56 main_v345 (broadcastInDim S128 ![] bcast_S_S128 : (⟨S_, .f32⟩ : BufTy).Contents (Elt F) → (⟨S128, .f32⟩ : BufTy).Contents (Elt F)),
    binary main_v344 main_v345 main_v346 (Host.divf : (⟨S128, .f32⟩ : BufTy).Contents (Elt F) → (⟨S128, .f32⟩ : BufTy).Contents (Elt F) → (⟨S128, .f32⟩ : BufTy).Contents (Elt F)),
    nullary main_c_57 (constantI S_ 32 0#32),
    TRef.nullary main_call11.cst (constant S_ .f32 0x00000000#32),
    TRef.binary (.of main_v267 : TRef sig ⟨S3000x128, .f32⟩) main_call11.cst main_call11.v0 (fun x v => Host.reduceAdd x v reducesTo_S3000x128_S128_d0 h_S_),
    TRef.unary main_call11.v0 main_call11.v1 (broadcastInDim S1x128 ![1] bcast_S128_S1x128_1),
    TRef.nullary main_call11.cst_0 (constant S_ .f32 0x453B8000#32),
    TRef.unary main_call11.cst_0 main_call11.v2 (broadcastInDim S1x128 ![] bcast_S_S1x128),
    TRef.binary main_call11.v1 main_call11.v2 main_call11.v3 Host.divf,
    TRef.unary main_call11.v3 main_call11.v4 (broadcastInDim S3000x128 ![0, 1] bcast_S1x128_S3000x128_0_1),
    TRef.binary (.of main_v267 : TRef sig ⟨S3000x128, .f32⟩) main_call11.v4 main_call11.v5 subf,
    TRef.binary main_call11.v5 main_call11.v5 main_call11.v6 mulf,
    TRef.unary (.of main_c_57 : TRef sig ⟨S_, .i32⟩) main_call11.v7 (sitofp .f32),
    TRef.nullary main_call11.cst_1 (constant S_ .f32 0x453B8000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S3000x128_S128_d0 h_S_),
    TRef.unary main_call11.v8 main_call11.v10 (broadcastInDim S128 ![] bcast_S_S128),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S128 ![] bcast_S_S128),
    TRef.ternary main_call11.v12 main_call11.v11 main_call11.call0.v1 main_call11.call0.v2 (fun p a b => select (broadcastInDim S128 ![] bcast_S_S128 p) a b),
    unary main_v346 main_v348 (broadcastInDim S1x128 ![1] bcast_S128_S1x128_1 : (⟨S128, .f32⟩ : BufTy).Contents (Elt F) → (⟨S1x128, .f32⟩ : BufTy).Contents (Elt F)),
    unary main_v348 main_v349 (broadcastInDim S3000x128 ![0, 1] bcast_S1x128_S3000x128_0_1 : (⟨S1x128, .f32⟩ : BufTy).Contents (Elt F) → (⟨S3000x128, .f32⟩ : BufTy).Contents (Elt F)),
    binary main_v267 main_v349 main_v350 (subf : (⟨S3000x128, .f32⟩ : BufTy).Contents (Elt F) → (⟨S3000x128, .f32⟩ : BufTy).Contents (Elt F) → (⟨S3000x128, .f32⟩ : BufTy).Contents (Elt F)),
    nullary main_cst_58 (constant S_ .f32 0x3727C5AC#32),
    unary main_cst_58 main_v351 (broadcastInDim S128 ![] bcast_S_S128 : (⟨S_, .f32⟩ : BufTy).Contents (Elt F) → (⟨S128, .f32⟩ : BufTy).Contents (Elt F)),
    binary main_v347 main_v351 main_v352 (addf : (⟨S128, .f32⟩ : BufTy).Contents (Elt F) → (⟨S128, .f32⟩ : BufTy).Contents (Elt F) → (⟨S128, .f32⟩ : BufTy).Contents (Elt F)),
    unary main_v352 main_v353 (Host.rsqrt : (⟨S128, .f32⟩ : BufTy).Contents (Elt F) → (⟨S128, .f32⟩ : BufTy).Contents (Elt F)),
    unary main_v353 main_v354 (broadcastInDim S1x128 ![1] bcast_S128_S1x128_1 : (⟨S128, .f32⟩ : BufTy).Contents (Elt F) → (⟨S1x128, .f32⟩ : BufTy).Contents (Elt F)),
    unary main_v354 main_v355 (broadcastInDim S3000x128 ![0, 1] bcast_S1x128_S3000x128_0_1 : (⟨S1x128, .f32⟩ : BufTy).Contents (Elt F) → (⟨S3000x128, .f32⟩ : BufTy).Contents (Elt F)),
    binary main_v350 main_v355 main_v356 (mulf : (⟨S3000x128, .f32⟩ : BufTy).Contents (Elt F) → (⟨S3000x128, .f32⟩ : BufTy).Contents (Elt F) → (⟨S3000x128, .f32⟩ : BufTy).Contents (Elt F)),
    unary main_v341 main_v357 (broadcastInDim S1x128 ![1] bcast_S128_S1x128_1 : (⟨S128, .f32⟩ : BufTy).Contents (Elt F) → (⟨S1x128, .f32⟩ : BufTy).Contents (Elt F)),
    unary main_v357 main_v358 (broadcastInDim S3000x128 ![0, 1] bcast_S1x128_S3000x128_0_1 : (⟨S1x128, .f32⟩ : BufTy).Contents (Elt F) → (⟨S3000x128, .f32⟩ : BufTy).Contents (Elt F)) ]

/-- Operations 561 … 622 of 1008: window 7 of @main. -/
abbrev ops7 : List (HloOp τ sig (Elt F)) :=
  [ binary main_v356 main_v358 main_v359 (mulf : (⟨S3000x128, .f32⟩ : BufTy).Contents (Elt F) → (⟨S3000x128, .f32⟩ : BufTy).Contents (Elt F) → (⟨S3000x128, .f32⟩ : BufTy).Contents (Elt F)),
    unary main_v343 main_v360 (broadcastInDim S1x128 ![1] bcast_S128_S1x128_1 : (⟨S128, .f32⟩ : BufTy).Contents (Elt F) → (⟨S1x128, .f32⟩ : BufTy).Contents (Elt F)),
    unary main_v360 main_v361 (broadcastInDim S3000x128 ![0, 1] bcast_S1x128_S3000x128_0_1 : (⟨S1x128, .f32⟩ : BufTy).Contents (Elt F) → (⟨S3000x128, .f32⟩ : BufTy).Contents (Elt F)),
    binary main_v359 main_v361 main_v362 (addf : (⟨S3000x128, .f32⟩ : BufTy).Contents (Elt F) → (⟨S3000x128, .f32⟩ : BufTy).Contents (Elt F) → (⟨S3000x128, .f32⟩ : BufTy).Contents (Elt F)),
    TRef.nullary main_call12.cst (constant S_ .f32 0x00000000#32),
    TRef.unary main_call12.cst main_call12.v0 (broadcastInDim S3000x128 ![] bcast_S_S3000x128),
    TRef.binary (.of main_v362 : TRef sig ⟨S3000x128, .f32⟩) main_call12.v0 main_call12.v1 maximumf,
    unary main_arg12 main_v364 ((extractStridedSlice S1x1x128x128 ![1, 1, 0, 0] · slices_S2x6x128x128_S1x1x128x128_1_1_0_0) : (⟨S2x6x128x128, .f32⟩ : BufTy).Contents (Elt F) → (⟨S1x1x128x128, .f32⟩ : BufTy).Contents (Elt F)),
    reshape main_v364 main_v365 rfl shapeCasts_S1x1x128x128_S128x128,
    unary main_arg13 main_v366 ((extractStridedSlice S1x1x128 ![1, 1, 0] · slices_S2x6x128_S1x1x128_1_1_0) : (⟨S2x6x128, .f32⟩ : BufTy).Contents (Elt F) → (⟨S1x1x128, .f32⟩ : BufTy).Contents (Elt F)),
    reshape main_v366 main_v367 rfl shapeCasts_S1x1x128_S128,
    unary main_arg14 main_v368 ((extractStridedSlice S1x1x128x128 ![1, 1, 0, 0] · slices_S2x6x128x128_S1x1x128x128_1_1_0_0) : (⟨S2x6x128x128, .f32⟩ : BufTy).Contents (Elt F) → (⟨S1x1x128x128, .f32⟩ : BufTy).Contents (Elt F)),
    reshape main_v368 main_v369 rfl shapeCasts_S1x1x128x128_S128x128,
    nullary main_c_59 (constantI S_ 32 0#32),
    unary main_c_59 main_v370 (broadcastInDim S800000 ![] bcast_S_S800000 : (⟨S_, .i32⟩ : BufTy).Contents (Elt F) → (⟨S800000, .i32⟩ : BufTy).Contents (Elt F)),
    binary main_arg18 main_v370 main_v371 (cmpi .slt : (⟨S800000, .i32⟩ : BufTy).Contents (Elt F) → (⟨S800000, .i32⟩ : BufTy).Contents (Elt F) → (⟨S800000, .i1⟩ : BufTy).Contents (Elt F)),
    nullary main_c_60 (constantI S_ 32 2000#32),
    unary main_c_60 main_v372 (broadcastInDim S800000 ![] bcast_S_S800000 : (⟨S_, .i32⟩ : BufTy).Contents (Elt F) → (⟨S800000, .i32⟩ : BufTy).Contents (Elt F)),
    binary main_arg18 main_v372 main_v373 (addi : (⟨S800000, .i32⟩ : BufTy).Contents (Elt F) → (⟨S800000, .i32⟩ : BufTy).Contents (Elt F) → (⟨S800000, .i32⟩ : BufTy).Contents (Elt F)),
    ternary main_v371 main_v373 main_arg18 main_v374 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v374 main_v375 (broadcastInDim S800000x1 ![0] bcast_S800000_S800000x1_0 : (⟨S800000, .i32⟩ : BufTy).Contents (Elt F) → (⟨S800000x1, .i32⟩ : BufTy).Contents (Elt F)),
    binary main_v315 main_v375 main_v376 ((fun x i => Host.gather gather_S2000x128_S800000x1_S800000x128_1_0_n_n_0_1_1128 x i) : (⟨S2000x128, .f32⟩ : BufTy).Contents (Elt F) → (⟨S800000x1, .i32⟩ : BufTy).Contents (Elt F) → (⟨S800000x128, .f32⟩ : BufTy).Contents (Elt F)),
    nullary main_cst_61 (constant S_ .f32 0x00000000#32),
    unary main_cst_61 main_v377 (broadcastInDim S100000x128 ![] bcast_S_S100000x128 : (⟨S_, .f32⟩ : BufTy).Contents (Elt F) → (⟨S100000x128, .f32⟩ : BufTy).Contents (Elt F)),
    unary main_arg17 main_v378 (broadcastInDim S800000x1 ![0] bcast_S800000_S800000x1_0 : (⟨S800000, .i32⟩ : BufTy).Contents (Elt F) → (⟨S800000x1, .i32⟩ : BufTy).Contents (Elt F)),
    ternary main_v377 main_v378 main_v376 main_v379 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_62 (constant S_ .f32 0x3F800000#32),
    unary main_cst_62 main_v380 (broadcastInDim S800000 ![] bcast_S_S800000 : (⟨S_, .f32⟩ : BufTy).Contents (Elt F) → (⟨S800000, .f32⟩ : BufTy).Contents (Elt F)),
    nullary main_cst_63 (constant S_ .f32 0x00000000#32),
    unary main_cst_63 main_v381 (broadcastInDim S100000 ![] bcast_S_S100000 : (⟨S_, .f32⟩ : BufTy).Contents (Elt F) → (⟨S100000, .f32⟩ : BufTy).Contents (Elt F)),
    unary main_arg17 main_v382 (broadcastInDim S800000x1 ![0] bcast_S800000_S800000x1_0 : (⟨S800000, .i32⟩ : BufTy).Contents (Elt F) → (⟨S800000x1, .i32⟩ : BufTy).Contents (Elt F)),
    ternary main_v381 main_v382 main_v380 main_v383 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_64 (constant S_ .f32 0x3F800000#32),
    unary main_cst_64 main_v384 (broadcastInDim S100000 ![] bcast_S_S100000 : (⟨S_, .f32⟩ : BufTy).Contents (Elt F) → (⟨S100000, .f32⟩ : BufTy).Contents (Elt F)),
    binary main_v383 main_v384 main_v385 (maximumf : (⟨S100000, .f32⟩ : BufTy).Contents (Elt F) → (⟨S100000, .f32⟩ : BufTy).Contents (Elt F) → (⟨S100000, .f32⟩ : BufTy).Contents (Elt F)),
    unary main_v385 main_v386 (broadcastInDim S100000x1 ![0] bcast_S100000_S100000x1_0 : (⟨S100000, .f32⟩ : BufTy).Contents (Elt F) → (⟨S100000x1, .f32⟩ : BufTy).Contents (Elt F)),
    unary main_v386 main_v387 (broadcastInDim S100000x128 ![0, 1] bcast_S100000x1_S100000x128_0_1 : (⟨S100000x1, .f32⟩ : BufTy).Contents (Elt F) → (⟨S100000x128, .f32⟩ : BufTy).Contents (Elt F)),
    binary main_v379 main_v387 main_v388 (Host.divf : (⟨S100000x128, .f32⟩ : BufTy).Contents (Elt F) → (⟨S100000x128, .f32⟩ : BufTy).Contents (Elt F) → (⟨S100000x128, .f32⟩ : BufTy).Contents (Elt F)),
    unary main_v365 main_v389 ((transpose S128x128 [1, 0] · transposes_S128x128_S128x128_1_0) : (⟨S128x128, .f32⟩ : BufTy).Contents (Elt F) → (⟨S128x128, .f32⟩ : BufTy).Contents (Elt F)),
    binary main_v388 main_v389 main_v390 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v367 main_v391 (broadcastInDim S1x128 ![1] bcast_S128_S1x128_1 : (⟨S128, .f32⟩ : BufTy).Contents (Elt F) → (⟨S1x128, .f32⟩ : BufTy).Contents (Elt F)),
    unary main_v391 main_v392 (broadcastInDim S100000x128 ![0, 1] bcast_S1x128_S100000x128_0_1 : (⟨S1x128, .f32⟩ : BufTy).Contents (Elt F) → (⟨S100000x128, .f32⟩ : BufTy).Contents (Elt F)),
    binary main_v390 main_v392 main_v393 (addf : (⟨S100000x128, .f32⟩ : BufTy).Contents (Elt F) → (⟨S100000x128, .f32⟩ : BufTy).Contents (Elt F) → (⟨S100000x128, .f32⟩ : BufTy).Contents (Elt F)),
    unary main_v369 main_v394 ((transpose S128x128 [1, 0] · transposes_S128x128_S128x128_1_0) : (⟨S128x128, .f32⟩ : BufTy).Contents (Elt F) → (⟨S128x128, .f32⟩ : BufTy).Contents (Elt F)),
    binary main_v291 main_v394 main_v395 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v393 main_v395 main_v396 (addf : (⟨S100000x128, .f32⟩ : BufTy).Contents (Elt F) → (⟨S100000x128, .f32⟩ : BufTy).Contents (Elt F) → (⟨S100000x128, .f32⟩ : BufTy).Contents (Elt F)),
    unary main_arg12 main_v397 ((extractStridedSlice S1x1x128x128 ![1, 3, 0, 0] · slices_S2x6x128x128_S1x1x128x128_1_3_0_0) : (⟨S2x6x128x128, .f32⟩ : BufTy).Contents (Elt F) → (⟨S1x1x128x128, .f32⟩ : BufTy).Contents (Elt F)),
    reshape main_v397 main_v398 rfl shapeCasts_S1x1x128x128_S128x128,
    unary main_arg13 main_v399 ((extractStridedSlice S1x1x128 ![1, 3, 0] · slices_S2x6x128_S1x1x128_1_3_0) : (⟨S2x6x128, .f32⟩ : BufTy).Contents (Elt F) → (⟨S1x1x128, .f32⟩ : BufTy).Contents (Elt F)),
    reshape main_v399 main_v400 rfl shapeCasts_S1x1x128_S128,
    unary main_arg14 main_v401 ((extractStridedSlice S1x1x128x128 ![1, 3, 0, 0] · slices_S2x6x128x128_S1x1x128x128_1_3_0_0) : (⟨S2x6x128x128, .f32⟩ : BufTy).Contents (Elt F) → (⟨S1x1x128x128, .f32⟩ : BufTy).Contents (Elt F)),
    reshape main_v401 main_v402 rfl shapeCasts_S1x1x128x128_S128x128,
    nullary main_c_65 (constantI S_ 32 0#32),
    unary main_c_65 main_v403 (broadcastInDim S400000 ![] bcast_S_S400000 : (⟨S_, .i32⟩ : BufTy).Contents (Elt F) → (⟨S400000, .i32⟩ : BufTy).Contents (Elt F)),
    binary main_arg20 main_v403 main_v404 (cmpi .slt : (⟨S400000, .i32⟩ : BufTy).Contents (Elt F) → (⟨S400000, .i32⟩ : BufTy).Contents (Elt F) → (⟨S400000, .i1⟩ : BufTy).Contents (Elt F)),
    nullary main_c_66 (constantI S_ 32 5000#32),
    unary main_c_66 main_v405 (broadcastInDim S400000 ![] bcast_S_S400000 : (⟨S_, .i32⟩ : BufTy).Contents (Elt F) → (⟨S400000, .i32⟩ : BufTy).Contents (Elt F)),
    binary main_arg20 main_v405 main_v406 (addi : (⟨S400000, .i32⟩ : BufTy).Contents (Elt F) → (⟨S400000, .i32⟩ : BufTy).Contents (Elt F) → (⟨S400000, .i32⟩ : BufTy).Contents (Elt F)),
    ternary main_v404 main_v406 main_arg20 main_v407 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v407 main_v408 (broadcastInDim S400000x1 ![0] bcast_S400000_S400000x1_0 : (⟨S400000, .i32⟩ : BufTy).Contents (Elt F) → (⟨S400000x1, .i32⟩ : BufTy).Contents (Elt F)),
    binary main_v339 main_v408 main_v409 ((fun x i => Host.gather gather_S5000x128_S400000x1_S400000x128_1_0_n_n_0_1_1128 x i) : (⟨S5000x128, .f32⟩ : BufTy).Contents (Elt F) → (⟨S400000x1, .i32⟩ : BufTy).Contents (Elt F) → (⟨S400000x128, .f32⟩ : BufTy).Contents (Elt F)),
    nullary main_cst_67 (constant S_ .f32 0x00000000#32) ]

/-- Operations 623 … 682 of 1008: window 8 of @main. -/
abbrev ops8 : List (HloOp τ sig (Elt F)) :=
  [ unary main_cst_67 main_v410 (broadcastInDim S100000x128 ![] bcast_S_S100000x128 : (⟨S_, .f32⟩ : BufTy).Contents (Elt F) → (⟨S100000x128, .f32⟩ : BufTy).Contents (Elt F)),
    unary main_arg19 main_v411 (broadcastInDim S400000x1 ![0] bcast_S400000_S400000x1_0 : (⟨S400000, .i32⟩ : BufTy).Contents (Elt F) → (⟨S400000x1, .i32⟩ : BufTy).Contents (Elt F)),
    ternary main_v410 main_v411 main_v409 main_v412 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_68 (constant S_ .f32 0x3F800000#32),
    unary main_cst_68 main_v413 (broadcastInDim S400000 ![] bcast_S_S400000 : (⟨S_, .f32⟩ : BufTy).Contents (Elt F) → (⟨S400000, .f32⟩ : BufTy).Contents (Elt F)),
    nullary main_cst_69 (constant S_ .f32 0x00000000#32),
    unary main_cst_69 main_v414 (broadcastInDim S100000 ![] bcast_S_S100000 : (⟨S_, .f32⟩ : BufTy).Contents (Elt F) → (⟨S100000, .f32⟩ : BufTy).Contents (Elt F)),
    unary main_arg19 main_v415 (broadcastInDim S400000x1 ![0] bcast_S400000_S400000x1_0 : (⟨S400000, .i32⟩ : BufTy).Contents (Elt F) → (⟨S400000x1, .i32⟩ : BufTy).Contents (Elt F)),
    ternary main_v414 main_v415 main_v413 main_v416 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_70 (constant S_ .f32 0x3F800000#32),
    unary main_cst_70 main_v417 (broadcastInDim S100000 ![] bcast_S_S100000 : (⟨S_, .f32⟩ : BufTy).Contents (Elt F) → (⟨S100000, .f32⟩ : BufTy).Contents (Elt F)),
    binary main_v416 main_v417 main_v418 (maximumf : (⟨S100000, .f32⟩ : BufTy).Contents (Elt F) → (⟨S100000, .f32⟩ : BufTy).Contents (Elt F) → (⟨S100000, .f32⟩ : BufTy).Contents (Elt F)),
    unary main_v418 main_v419 (broadcastInDim S100000x1 ![0] bcast_S100000_S100000x1_0 : (⟨S100000, .f32⟩ : BufTy).Contents (Elt F) → (⟨S100000x1, .f32⟩ : BufTy).Contents (Elt F)),
    unary main_v419 main_v420 (broadcastInDim S100000x128 ![0, 1] bcast_S100000x1_S100000x128_0_1 : (⟨S100000x1, .f32⟩ : BufTy).Contents (Elt F) → (⟨S100000x128, .f32⟩ : BufTy).Contents (Elt F)),
    binary main_v412 main_v420 main_v421 (Host.divf : (⟨S100000x128, .f32⟩ : BufTy).Contents (Elt F) → (⟨S100000x128, .f32⟩ : BufTy).Contents (Elt F) → (⟨S100000x128, .f32⟩ : BufTy).Contents (Elt F)),
    unary main_v398 main_v422 ((transpose S128x128 [1, 0] · transposes_S128x128_S128x128_1_0) : (⟨S128x128, .f32⟩ : BufTy).Contents (Elt F) → (⟨S128x128, .f32⟩ : BufTy).Contents (Elt F)),
    binary main_v421 main_v422 main_v423 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v400 main_v424 (broadcastInDim S1x128 ![1] bcast_S128_S1x128_1 : (⟨S128, .f32⟩ : BufTy).Contents (Elt F) → (⟨S1x128, .f32⟩ : BufTy).Contents (Elt F)),
    unary main_v424 main_v425 (broadcastInDim S100000x128 ![0, 1] bcast_S1x128_S100000x128_0_1 : (⟨S1x128, .f32⟩ : BufTy).Contents (Elt F) → (⟨S100000x128, .f32⟩ : BufTy).Contents (Elt F)),
    binary main_v423 main_v425 main_v426 (addf : (⟨S100000x128, .f32⟩ : BufTy).Contents (Elt F) → (⟨S100000x128, .f32⟩ : BufTy).Contents (Elt F) → (⟨S100000x128, .f32⟩ : BufTy).Contents (Elt F)),
    unary main_v402 main_v427 ((transpose S128x128 [1, 0] · transposes_S128x128_S128x128_1_0) : (⟨S128x128, .f32⟩ : BufTy).Contents (Elt F) → (⟨S128x128, .f32⟩ : BufTy).Contents (Elt F)),
    binary main_v291 main_v427 main_v428 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v426 main_v428 main_v429 (addf : (⟨S100000x128, .f32⟩ : BufTy).Contents (Elt F) → (⟨S100000x128, .f32⟩ : BufTy).Contents (Elt F) → (⟨S100000x128, .f32⟩ : BufTy).Contents (Elt F)),
    binary main_v396 main_v429 main_v430 (addf : (⟨S100000x128, .f32⟩ : BufTy).Contents (Elt F) → (⟨S100000x128, .f32⟩ : BufTy).Contents (Elt F) → (⟨S100000x128, .f32⟩ : BufTy).Contents (Elt F)),
    unary main_arg12 main_v431 ((extractStridedSlice S1x1x128x128 ![1, 5, 0, 0] · slices_S2x6x128x128_S1x1x128x128_1_5_0_0) : (⟨S2x6x128x128, .f32⟩ : BufTy).Contents (Elt F) → (⟨S1x1x128x128, .f32⟩ : BufTy).Contents (Elt F)),
    reshape main_v431 main_v432 rfl shapeCasts_S1x1x128x128_S128x128,
    unary main_arg13 main_v433 ((extractStridedSlice S1x1x128 ![1, 5, 0] · slices_S2x6x128_S1x1x128_1_5_0) : (⟨S2x6x128, .f32⟩ : BufTy).Contents (Elt F) → (⟨S1x1x128, .f32⟩ : BufTy).Contents (Elt F)),
    reshape main_v433 main_v434 rfl shapeCasts_S1x1x128_S128,
    unary main_arg14 main_v435 ((extractStridedSlice S1x1x128x128 ![1, 5, 0, 0] · slices_S2x6x128x128_S1x1x128x128_1_5_0_0) : (⟨S2x6x128x128, .f32⟩ : BufTy).Contents (Elt F) → (⟨S1x1x128x128, .f32⟩ : BufTy).Contents (Elt F)),
    reshape main_v435 main_v436 rfl shapeCasts_S1x1x128x128_S128x128,
    nullary main_c_71 (constantI S_ 32 0#32),
    unary main_c_71 main_v437 (broadcastInDim S400000 ![] bcast_S_S400000 : (⟨S_, .i32⟩ : BufTy).Contents (Elt F) → (⟨S400000, .i32⟩ : BufTy).Contents (Elt F)),
    binary main_arg22 main_v437 main_v438 (cmpi .slt : (⟨S400000, .i32⟩ : BufTy).Contents (Elt F) → (⟨S400000, .i32⟩ : BufTy).Contents (Elt F) → (⟨S400000, .i1⟩ : BufTy).Contents (Elt F)),
    nullary main_c_72 (constantI S_ 32 3000#32),
    unary main_c_72 main_v439 (broadcastInDim S400000 ![] bcast_S_S400000 : (⟨S_, .i32⟩ : BufTy).Contents (Elt F) → (⟨S400000, .i32⟩ : BufTy).Contents (Elt F)),
    binary main_arg22 main_v439 main_v440 (addi : (⟨S400000, .i32⟩ : BufTy).Contents (Elt F) → (⟨S400000, .i32⟩ : BufTy).Contents (Elt F) → (⟨S400000, .i32⟩ : BufTy).Contents (Elt F)),
    ternary main_v438 main_v440 main_arg22 main_v441 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v441 main_v442 (broadcastInDim S400000x1 ![0] bcast_S400000_S400000x1_0 : (⟨S400000, .i32⟩ : BufTy).Contents (Elt F) → (⟨S400000x1, .i32⟩ : BufTy).Contents (Elt F)),
    binary main_v363 main_v442 main_v443 ((fun x i => Host.gather gather_S3000x128_S400000x1_S400000x128_1_0_n_n_0_1_1128 x i) : (⟨S3000x128, .f32⟩ : BufTy).Contents (Elt F) → (⟨S400000x1, .i32⟩ : BufTy).Contents (Elt F) → (⟨S400000x128, .f32⟩ : BufTy).Contents (Elt F)),
    nullary main_cst_73 (constant S_ .f32 0x00000000#32),
    unary main_cst_73 main_v444 (broadcastInDim S100000x128 ![] bcast_S_S100000x128 : (⟨S_, .f32⟩ : BufTy).Contents (Elt F) → (⟨S100000x128, .f32⟩ : BufTy).Contents (Elt F)),
    unary main_arg21 main_v445 (broadcastInDim S400000x1 ![0] bcast_S400000_S400000x1_0 : (⟨S400000, .i32⟩ : BufTy).Contents (Elt F) → (⟨S400000x1, .i32⟩ : BufTy).Contents (Elt F)),
    ternary main_v444 main_v445 main_v443 main_v446 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_74 (constant S_ .f32 0x3F800000#32),
    unary main_cst_74 main_v447 (broadcastInDim S400000 ![] bcast_S_S400000 : (⟨S_, .f32⟩ : BufTy).Contents (Elt F) → (⟨S400000, .f32⟩ : BufTy).Contents (Elt F)),
    nullary main_cst_75 (constant S_ .f32 0x00000000#32),
    unary main_cst_75 main_v448 (broadcastInDim S100000 ![] bcast_S_S100000 : (⟨S_, .f32⟩ : BufTy).Contents (Elt F) → (⟨S100000, .f32⟩ : BufTy).Contents (Elt F)),
    unary main_arg21 main_v449 (broadcastInDim S400000x1 ![0] bcast_S400000_S400000x1_0 : (⟨S400000, .i32⟩ : BufTy).Contents (Elt F) → (⟨S400000x1, .i32⟩ : BufTy).Contents (Elt F)),
    ternary main_v448 main_v449 main_v447 main_v450 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_76 (constant S_ .f32 0x3F800000#32),
    unary main_cst_76 main_v451 (broadcastInDim S100000 ![] bcast_S_S100000 : (⟨S_, .f32⟩ : BufTy).Contents (Elt F) → (⟨S100000, .f32⟩ : BufTy).Contents (Elt F)),
    binary main_v450 main_v451 main_v452 (maximumf : (⟨S100000, .f32⟩ : BufTy).Contents (Elt F) → (⟨S100000, .f32⟩ : BufTy).Contents (Elt F) → (⟨S100000, .f32⟩ : BufTy).Contents (Elt F)),
    unary main_v452 main_v453 (broadcastInDim S100000x1 ![0] bcast_S100000_S100000x1_0 : (⟨S100000, .f32⟩ : BufTy).Contents (Elt F) → (⟨S100000x1, .f32⟩ : BufTy).Contents (Elt F)),
    unary main_v453 main_v454 (broadcastInDim S100000x128 ![0, 1] bcast_S100000x1_S100000x128_0_1 : (⟨S100000x1, .f32⟩ : BufTy).Contents (Elt F) → (⟨S100000x128, .f32⟩ : BufTy).Contents (Elt F)),
    binary main_v446 main_v454 main_v455 (Host.divf : (⟨S100000x128, .f32⟩ : BufTy).Contents (Elt F) → (⟨S100000x128, .f32⟩ : BufTy).Contents (Elt F) → (⟨S100000x128, .f32⟩ : BufTy).Contents (Elt F)),
    unary main_v432 main_v456 ((transpose S128x128 [1, 0] · transposes_S128x128_S128x128_1_0) : (⟨S128x128, .f32⟩ : BufTy).Contents (Elt F) → (⟨S128x128, .f32⟩ : BufTy).Contents (Elt F)),
    binary main_v455 main_v456 main_v457 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v434 main_v458 (broadcastInDim S1x128 ![1] bcast_S128_S1x128_1 : (⟨S128, .f32⟩ : BufTy).Contents (Elt F) → (⟨S1x128, .f32⟩ : BufTy).Contents (Elt F)),
    unary main_v458 main_v459 (broadcastInDim S100000x128 ![0, 1] bcast_S1x128_S100000x128_0_1 : (⟨S1x128, .f32⟩ : BufTy).Contents (Elt F) → (⟨S100000x128, .f32⟩ : BufTy).Contents (Elt F)),
    binary main_v457 main_v459 main_v460 (addf : (⟨S100000x128, .f32⟩ : BufTy).Contents (Elt F) → (⟨S100000x128, .f32⟩ : BufTy).Contents (Elt F) → (⟨S100000x128, .f32⟩ : BufTy).Contents (Elt F)) ]

/-- Operations 683 … 742 of 1008: window 9 of @main. -/
abbrev ops9 : List (HloOp τ sig (Elt F)) :=
  [ unary main_v436 main_v461 ((transpose S128x128 [1, 0] · transposes_S128x128_S128x128_1_0) : (⟨S128x128, .f32⟩ : BufTy).Contents (Elt F) → (⟨S128x128, .f32⟩ : BufTy).Contents (Elt F)),
    binary main_v291 main_v461 main_v462 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v460 main_v462 main_v463 (addf : (⟨S100000x128, .f32⟩ : BufTy).Contents (Elt F) → (⟨S100000x128, .f32⟩ : BufTy).Contents (Elt F) → (⟨S100000x128, .f32⟩ : BufTy).Contents (Elt F)),
    binary main_v430 main_v463 main_v464 (addf : (⟨S100000x128, .f32⟩ : BufTy).Contents (Elt F) → (⟨S100000x128, .f32⟩ : BufTy).Contents (Elt F) → (⟨S100000x128, .f32⟩ : BufTy).Contents (Elt F)),
    unary main_arg12 main_v465 ((extractStridedSlice S1x1x128x128 ![1, 0, 0, 0] · slices_S2x6x128x128_S1x1x128x128_1_0_0_0) : (⟨S2x6x128x128, .f32⟩ : BufTy).Contents (Elt F) → (⟨S1x1x128x128, .f32⟩ : BufTy).Contents (Elt F)),
    reshape main_v465 main_v466 rfl shapeCasts_S1x1x128x128_S128x128,
    unary main_arg13 main_v467 ((extractStridedSlice S1x1x128 ![1, 0, 0] · slices_S2x6x128_S1x1x128_1_0_0) : (⟨S2x6x128, .f32⟩ : BufTy).Contents (Elt F) → (⟨S1x1x128, .f32⟩ : BufTy).Contents (Elt F)),
    reshape main_v467 main_v468 rfl shapeCasts_S1x1x128_S128,
    unary main_arg14 main_v469 ((extractStridedSlice S1x1x128x128 ![1, 0, 0, 0] · slices_S2x6x128x128_S1x1x128x128_1_0_0_0) : (⟨S2x6x128x128, .f32⟩ : BufTy).Contents (Elt F) → (⟨S1x1x128x128, .f32⟩ : BufTy).Contents (Elt F)),
    reshape main_v469 main_v470 rfl shapeCasts_S1x1x128x128_S128x128,
    nullary main_c_77 (constantI S_ 32 0#32),
    unary main_c_77 main_v471 (broadcastInDim S800000 ![] bcast_S_S800000 : (⟨S_, .i32⟩ : BufTy).Contents (Elt F) → (⟨S800000, .i32⟩ : BufTy).Contents (Elt F)),
    binary main_arg17 main_v471 main_v472 (cmpi .slt : (⟨S800000, .i32⟩ : BufTy).Contents (Elt F) → (⟨S800000, .i32⟩ : BufTy).Contents (Elt F) → (⟨S800000, .i1⟩ : BufTy).Contents (Elt F)),
    nullary main_c_78 (constantI S_ 32 100000#32),
    unary main_c_78 main_v473 (broadcastInDim S800000 ![] bcast_S_S800000 : (⟨S_, .i32⟩ : BufTy).Contents (Elt F) → (⟨S800000, .i32⟩ : BufTy).Contents (Elt F)),
    binary main_arg17 main_v473 main_v474 (addi : (⟨S800000, .i32⟩ : BufTy).Contents (Elt F) → (⟨S800000, .i32⟩ : BufTy).Contents (Elt F) → (⟨S800000, .i32⟩ : BufTy).Contents (Elt F)),
    ternary main_v472 main_v474 main_arg17 main_v475 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v475 main_v476 (broadcastInDim S800000x1 ![0] bcast_S800000_S800000x1_0 : (⟨S800000, .i32⟩ : BufTy).Contents (Elt F) → (⟨S800000x1, .i32⟩ : BufTy).Contents (Elt F)),
    binary main_v291 main_v476 main_v477 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_79 (constant S_ .f32 0x00000000#32),
    unary main_cst_79 main_v478 (broadcastInDim S2000x128 ![] bcast_S_S2000x128 : (⟨S_, .f32⟩ : BufTy).Contents (Elt F) → (⟨S2000x128, .f32⟩ : BufTy).Contents (Elt F)),
    unary main_arg18 main_v479 (broadcastInDim S800000x1 ![0] bcast_S800000_S800000x1_0 : (⟨S800000, .i32⟩ : BufTy).Contents (Elt F) → (⟨S800000x1, .i32⟩ : BufTy).Contents (Elt F)),
    ternary main_v478 main_v479 main_v477 main_v480 ((fun x i u => Host.scatterAdd scatter_S2000x128_S800000x1_S800000x128_1_0_0_1 x i u) : (⟨S2000x128, .f32⟩ : BufTy).Contents (Elt F) → (⟨S800000x1, .i32⟩ : BufTy).Contents (Elt F) → (⟨S800000x128, .f32⟩ : BufTy).Contents (Elt F) → (⟨S2000x128, .f32⟩ : BufTy).Contents (Elt F)),
    nullary main_cst_80 (constant S_ .f32 0x3F800000#32),
    unary main_cst_80 main_v481 (broadcastInDim S800000 ![] bcast_S_S800000 : (⟨S_, .f32⟩ : BufTy).Contents (Elt F) → (⟨S800000, .f32⟩ : BufTy).Contents (Elt F)),
    nullary main_cst_81 (constant S_ .f32 0x00000000#32),
    unary main_cst_81 main_v482 (broadcastInDim S2000 ![] bcast_S_S2000 : (⟨S_, .f32⟩ : BufTy).Contents (Elt F) → (⟨S2000, .f32⟩ : BufTy).Contents (Elt F)),
    unary main_arg18 main_v483 (broadcastInDim S800000x1 ![0] bcast_S800000_S800000x1_0 : (⟨S800000, .i32⟩ : BufTy).Contents (Elt F) → (⟨S800000x1, .i32⟩ : BufTy).Contents (Elt F)),
    ternary main_v482 main_v483 main_v481 main_v484 ((fun x i u => Host.scatterAdd scatter_S2000_S800000x1_S800000_n_0_0_1 x i u) : (⟨S2000, .f32⟩ : BufTy).Contents (Elt F) → (⟨S800000x1, .i32⟩ : BufTy).Contents (Elt F) → (⟨S800000, .f32⟩ : BufTy).Contents (Elt F) → (⟨S2000, .f32⟩ : BufTy).Contents (Elt F)),
    nullary main_cst_82 (constant S_ .f32 0x3F800000#32),
    unary main_cst_82 main_v485 (broadcastInDim S2000 ![] bcast_S_S2000 : (⟨S_, .f32⟩ : BufTy).Contents (Elt F) → (⟨S2000, .f32⟩ : BufTy).Contents (Elt F)),
    binary main_v484 main_v485 main_v486 (maximumf : (⟨S2000, .f32⟩ : BufTy).Contents (Elt F) → (⟨S2000, .f32⟩ : BufTy).Contents (Elt F) → (⟨S2000, .f32⟩ : BufTy).Contents (Elt F)),
    unary main_v486 main_v487 (broadcastInDim S2000x1 ![0] bcast_S2000_S2000x1_0 : (⟨S2000, .f32⟩ : BufTy).Contents (Elt F) → (⟨S2000x1, .f32⟩ : BufTy).Contents (Elt F)),
    unary main_v487 main_v488 (broadcastInDim S2000x128 ![0, 1] bcast_S2000x1_S2000x128_0_1 : (⟨S2000x1, .f32⟩ : BufTy).Contents (Elt F) → (⟨S2000x128, .f32⟩ : BufTy).Contents (Elt F)),
    binary main_v480 main_v488 main_v489 (Host.divf : (⟨S2000x128, .f32⟩ : BufTy).Contents (Elt F) → (⟨S2000x128, .f32⟩ : BufTy).Contents (Elt F) → (⟨S2000x128, .f32⟩ : BufTy).Contents (Elt F)),
    unary main_v466 main_v490 ((transpose S128x128 [1, 0] · transposes_S128x128_S128x128_1_0) : (⟨S128x128, .f32⟩ : BufTy).Contents (Elt F) → (⟨S128x128, .f32⟩ : BufTy).Contents (Elt F)),
    binary main_v489 main_v490 main_v491 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    unary main_v468 main_v492 (broadcastInDim S1x128 ![1] bcast_S128_S1x128_1 : (⟨S128, .f32⟩ : BufTy).Contents (Elt F) → (⟨S1x128, .f32⟩ : BufTy).Contents (Elt F)),
    unary main_v492 main_v493 (broadcastInDim S2000x128 ![0, 1] bcast_S1x128_S2000x128_0_1 : (⟨S1x128, .f32⟩ : BufTy).Contents (Elt F) → (⟨S2000x128, .f32⟩ : BufTy).Contents (Elt F)),
    binary main_v491 main_v493 main_v494 (addf : (⟨S2000x128, .f32⟩ : BufTy).Contents (Elt F) → (⟨S2000x128, .f32⟩ : BufTy).Contents (Elt F) → (⟨S2000x128, .f32⟩ : BufTy).Contents (Elt F)),
    unary main_v470 main_v495 ((transpose S128x128 [1, 0] · transposes_S128x128_S128x128_1_0) : (⟨S128x128, .f32⟩ : BufTy).Contents (Elt F) → (⟨S128x128, .f32⟩ : BufTy).Contents (Elt F)),
    binary main_v315 main_v495 main_v496 ((fun l r => Host.dotGeneral dot_S2000x128_S128x128_S2000x128_1_0_0_1_n_n none l r) : (⟨S2000x128, .f32⟩ : BufTy).Contents (Elt F) → (⟨S128x128, .f32⟩ : BufTy).Contents (Elt F) → (⟨S2000x128, .f32⟩ : BufTy).Contents (Elt F)),
    binary main_v494 main_v496 main_v497 (addf : (⟨S2000x128, .f32⟩ : BufTy).Contents (Elt F) → (⟨S2000x128, .f32⟩ : BufTy).Contents (Elt F) → (⟨S2000x128, .f32⟩ : BufTy).Contents (Elt F)),
    unary main_arg12 main_v498 ((extractStridedSlice S1x1x128x128 ![1, 2, 0, 0] · slices_S2x6x128x128_S1x1x128x128_1_2_0_0) : (⟨S2x6x128x128, .f32⟩ : BufTy).Contents (Elt F) → (⟨S1x1x128x128, .f32⟩ : BufTy).Contents (Elt F)),
    reshape main_v498 main_v499 rfl shapeCasts_S1x1x128x128_S128x128,
    unary main_arg13 main_v500 ((extractStridedSlice S1x1x128 ![1, 2, 0] · slices_S2x6x128_S1x1x128_1_2_0) : (⟨S2x6x128, .f32⟩ : BufTy).Contents (Elt F) → (⟨S1x1x128, .f32⟩ : BufTy).Contents (Elt F)),
    reshape main_v500 main_v501 rfl shapeCasts_S1x1x128_S128,
    unary main_arg14 main_v502 ((extractStridedSlice S1x1x128x128 ![1, 2, 0, 0] · slices_S2x6x128x128_S1x1x128x128_1_2_0_0) : (⟨S2x6x128x128, .f32⟩ : BufTy).Contents (Elt F) → (⟨S1x1x128x128, .f32⟩ : BufTy).Contents (Elt F)),
    reshape main_v502 main_v503 rfl shapeCasts_S1x1x128x128_S128x128,
    nullary main_c_83 (constantI S_ 32 0#32),
    unary main_c_83 main_v504 (broadcastInDim S400000 ![] bcast_S_S400000 : (⟨S_, .i32⟩ : BufTy).Contents (Elt F) → (⟨S400000, .i32⟩ : BufTy).Contents (Elt F)),
    binary main_arg19 main_v504 main_v505 (cmpi .slt : (⟨S400000, .i32⟩ : BufTy).Contents (Elt F) → (⟨S400000, .i32⟩ : BufTy).Contents (Elt F) → (⟨S400000, .i1⟩ : BufTy).Contents (Elt F)),
    nullary main_c_84 (constantI S_ 32 100000#32),
    unary main_c_84 main_v506 (broadcastInDim S400000 ![] bcast_S_S400000 : (⟨S_, .i32⟩ : BufTy).Contents (Elt F) → (⟨S400000, .i32⟩ : BufTy).Contents (Elt F)),
    binary main_arg19 main_v506 main_v507 (addi : (⟨S400000, .i32⟩ : BufTy).Contents (Elt F) → (⟨S400000, .i32⟩ : BufTy).Contents (Elt F) → (⟨S400000, .i32⟩ : BufTy).Contents (Elt F)),
    ternary main_v505 main_v507 main_arg19 main_v508 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v508 main_v509 (broadcastInDim S400000x1 ![0] bcast_S400000_S400000x1_0 : (⟨S400000, .i32⟩ : BufTy).Contents (Elt F) → (⟨S400000x1, .i32⟩ : BufTy).Contents (Elt F)),
    binary main_v291 main_v509 main_v510 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    nullary main_cst_85 (constant S_ .f32 0x00000000#32),
    unary main_cst_85 main_v511 (broadcastInDim S5000x128 ![] bcast_S_S5000x128 : (⟨S_, .f32⟩ : BufTy).Contents (Elt F) → (⟨S5000x128, .f32⟩ : BufTy).Contents (Elt F)) ]

/-- Operations 743 … 802 of 1008: window 10 of @main. -/
abbrev ops10 : List (HloOp τ sig (Elt F)) :=
  [ unary main_arg20 main_v512 (broadcastInDim S400000x1 ![0] bcast_S400000_S400000x1_0 : (⟨S400000, .i32⟩ : BufTy).Contents (Elt F) → (⟨S400000x1, .i32⟩ : BufTy).Contents (Elt F)),
    ternary main_v511 main_v512 main_v510 main_v513 ((fun x i u => Host.scatterAdd scatter_S5000x128_S400000x1_S400000x128_1_0_0_1 x i u) : (⟨S5000x128, .f32⟩ : BufTy).Contents (Elt F) → (⟨S400000x1, .i32⟩ : BufTy).Contents (Elt F) → (⟨S400000x128, .f32⟩ : BufTy).Contents (Elt F) → (⟨S5000x128, .f32⟩ : BufTy).Contents (Elt F)),
    nullary main_cst_86 (constant S_ .f32 0x3F800000#32),
    unary main_cst_86 main_v514 (broadcastInDim S400000 ![] bcast_S_S400000 : (⟨S_, .f32⟩ : BufTy).Contents (Elt F) → (⟨S400000, .f32⟩ : BufTy).Contents (Elt F)),
    nullary main_cst_87 (constant S_ .f32 0x00000000#32),
    unary main_cst_87 main_v515 (broadcastInDim S5000 ![] bcast_S_S5000 : (⟨S_, .f32⟩ : BufTy).Contents (Elt F) → (⟨S5000, .f32⟩ : BufTy).Contents (Elt F)),
    unary main_arg20 main_v516 (broadcastInDim S400000x1 ![0] bcast_S400000_S400000x1_0 : (⟨S400000, .i32⟩ : BufTy).Contents (Elt F) → (⟨S400000x1, .i32⟩ : BufTy).Contents (Elt F)),
    ternary main_v515 main_v516 main_v514 main_v517 ((fun x i u => Host.scatterAdd scatter_S5000_S400000x1_S400000_n_0_0_1 x i u) : (⟨S5000, .f32⟩ : BufTy).Contents (Elt F) → (⟨S400000x1, .i32⟩ : BufTy).Contents (Elt F) → (⟨S400000, .f32⟩ : BufTy).Contents (Elt F) → (⟨S5000, .f32⟩ : BufTy).Contents (Elt F)),
    nullary main_cst_88 (constant S_ .f32 0x3F800000#32),
    unary main_cst_88 main_v518 (broadcastInDim S5000 ![] bcast_S_S5000 : (⟨S_, .f32⟩ : BufTy).Contents (Elt F) → (⟨S5000, .f32⟩ : BufTy).Contents (Elt F)),
    binary main_v517 main_v518 main_v519 (maximumf : (⟨S5000, .f32⟩ : BufTy).Contents (Elt F) → (⟨S5000, .f32⟩ : BufTy).Contents (Elt F) → (⟨S5000, .f32⟩ : BufTy).Contents (Elt F)),
    unary main_v519 main_v520 (broadcastInDim S5000x1 ![0] bcast_S5000_S5000x1_0 : (⟨S5000, .f32⟩ : BufTy).Contents (Elt F) → (⟨S5000x1, .f32⟩ : BufTy).Contents (Elt F)),
    unary main_v520 main_v521 (broadcastInDim S5000x128 ![0, 1] bcast_S5000x1_S5000x128_0_1 : (⟨S5000x1, .f32⟩ : BufTy).Contents (Elt F) → (⟨S5000x128, .f32⟩ : BufTy).Contents (Elt F)),
    binary main_v513 main_v521 main_v522 (Host.divf : (⟨S5000x128, .f32⟩ : BufTy).Contents (Elt F) → (⟨S5000x128, .f32⟩ : BufTy).Contents (Elt F) → (⟨S5000x128, .f32⟩ : BufTy).Contents (Elt F)),
    unary main_v499 main_v523 ((transpose S128x128 [1, 0] · transposes_S128x128_S128x128_1_0) : (⟨S128x128, .f32⟩ : BufTy).Contents (Elt F) → (⟨S128x128, .f32⟩ : BufTy).Contents (Elt F)),
    binary main_v522 main_v523 main_v524 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v501 main_v525 (broadcastInDim S1x128 ![1] bcast_S128_S1x128_1 : (⟨S128, .f32⟩ : BufTy).Contents (Elt F) → (⟨S1x128, .f32⟩ : BufTy).Contents (Elt F)),
    unary main_v525 main_v526 (broadcastInDim S5000x128 ![0, 1] bcast_S1x128_S5000x128_0_1 : (⟨S1x128, .f32⟩ : BufTy).Contents (Elt F) → (⟨S5000x128, .f32⟩ : BufTy).Contents (Elt F)),
    binary main_v524 main_v526 main_v527 (addf : (⟨S5000x128, .f32⟩ : BufTy).Contents (Elt F) → (⟨S5000x128, .f32⟩ : BufTy).Contents (Elt F) → (⟨S5000x128, .f32⟩ : BufTy).Contents (Elt F)),
    unary main_v503 main_v528 ((transpose S128x128 [1, 0] · transposes_S128x128_S128x128_1_0) : (⟨S128x128, .f32⟩ : BufTy).Contents (Elt F) → (⟨S128x128, .f32⟩ : BufTy).Contents (Elt F)),
    binary main_v339 main_v528 main_v529 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v527 main_v529 main_v530 (addf : (⟨S5000x128, .f32⟩ : BufTy).Contents (Elt F) → (⟨S5000x128, .f32⟩ : BufTy).Contents (Elt F) → (⟨S5000x128, .f32⟩ : BufTy).Contents (Elt F)),
    unary main_arg12 main_v531 ((extractStridedSlice S1x1x128x128 ![1, 4, 0, 0] · slices_S2x6x128x128_S1x1x128x128_1_4_0_0) : (⟨S2x6x128x128, .f32⟩ : BufTy).Contents (Elt F) → (⟨S1x1x128x128, .f32⟩ : BufTy).Contents (Elt F)),
    reshape main_v531 main_v532 rfl shapeCasts_S1x1x128x128_S128x128,
    unary main_arg13 main_v533 ((extractStridedSlice S1x1x128 ![1, 4, 0] · slices_S2x6x128_S1x1x128_1_4_0) : (⟨S2x6x128, .f32⟩ : BufTy).Contents (Elt F) → (⟨S1x1x128, .f32⟩ : BufTy).Contents (Elt F)),
    reshape main_v533 main_v534 rfl shapeCasts_S1x1x128_S128,
    unary main_arg14 main_v535 ((extractStridedSlice S1x1x128x128 ![1, 4, 0, 0] · slices_S2x6x128x128_S1x1x128x128_1_4_0_0) : (⟨S2x6x128x128, .f32⟩ : BufTy).Contents (Elt F) → (⟨S1x1x128x128, .f32⟩ : BufTy).Contents (Elt F)),
    reshape main_v535 main_v536 rfl shapeCasts_S1x1x128x128_S128x128,
    nullary main_c_89 (constantI S_ 32 0#32),
    unary main_c_89 main_v537 (broadcastInDim S400000 ![] bcast_S_S400000 : (⟨S_, .i32⟩ : BufTy).Contents (Elt F) → (⟨S400000, .i32⟩ : BufTy).Contents (Elt F)),
    binary main_arg21 main_v537 main_v538 (cmpi .slt : (⟨S400000, .i32⟩ : BufTy).Contents (Elt F) → (⟨S400000, .i32⟩ : BufTy).Contents (Elt F) → (⟨S400000, .i1⟩ : BufTy).Contents (Elt F)),
    nullary main_c_90 (constantI S_ 32 100000#32),
    unary main_c_90 main_v539 (broadcastInDim S400000 ![] bcast_S_S400000 : (⟨S_, .i32⟩ : BufTy).Contents (Elt F) → (⟨S400000, .i32⟩ : BufTy).Contents (Elt F)),
    binary main_arg21 main_v539 main_v540 (addi : (⟨S400000, .i32⟩ : BufTy).Contents (Elt F) → (⟨S400000, .i32⟩ : BufTy).Contents (Elt F) → (⟨S400000, .i32⟩ : BufTy).Contents (Elt F)),
    ternary main_v538 main_v540 main_arg21 main_v541 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v541 main_v542 (broadcastInDim S400000x1 ![0] bcast_S400000_S400000x1_0 : (⟨S400000, .i32⟩ : BufTy).Contents (Elt F) → (⟨S400000x1, .i32⟩ : BufTy).Contents (Elt F)),
    binary main_v291 main_v542 main_v543 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    nullary main_cst_91 (constant S_ .f32 0x00000000#32),
    unary main_cst_91 main_v544 (broadcastInDim S3000x128 ![] bcast_S_S3000x128 : (⟨S_, .f32⟩ : BufTy).Contents (Elt F) → (⟨S3000x128, .f32⟩ : BufTy).Contents (Elt F)),
    unary main_arg22 main_v545 (broadcastInDim S400000x1 ![0] bcast_S400000_S400000x1_0 : (⟨S400000, .i32⟩ : BufTy).Contents (Elt F) → (⟨S400000x1, .i32⟩ : BufTy).Contents (Elt F)),
    ternary main_v544 main_v545 main_v543 main_v546 ((fun x i u => Host.scatterAdd scatter_S3000x128_S400000x1_S400000x128_1_0_0_1 x i u) : (⟨S3000x128, .f32⟩ : BufTy).Contents (Elt F) → (⟨S400000x1, .i32⟩ : BufTy).Contents (Elt F) → (⟨S400000x128, .f32⟩ : BufTy).Contents (Elt F) → (⟨S3000x128, .f32⟩ : BufTy).Contents (Elt F)),
    nullary main_cst_92 (constant S_ .f32 0x3F800000#32),
    unary main_cst_92 main_v547 (broadcastInDim S400000 ![] bcast_S_S400000 : (⟨S_, .f32⟩ : BufTy).Contents (Elt F) → (⟨S400000, .f32⟩ : BufTy).Contents (Elt F)),
    nullary main_cst_93 (constant S_ .f32 0x00000000#32),
    unary main_cst_93 main_v548 (broadcastInDim S3000 ![] bcast_S_S3000 : (⟨S_, .f32⟩ : BufTy).Contents (Elt F) → (⟨S3000, .f32⟩ : BufTy).Contents (Elt F)),
    unary main_arg22 main_v549 (broadcastInDim S400000x1 ![0] bcast_S400000_S400000x1_0 : (⟨S400000, .i32⟩ : BufTy).Contents (Elt F) → (⟨S400000x1, .i32⟩ : BufTy).Contents (Elt F)),
    ternary main_v548 main_v549 main_v547 main_v550 ((fun x i u => Host.scatterAdd scatter_S3000_S400000x1_S400000_n_0_0_1 x i u) : (⟨S3000, .f32⟩ : BufTy).Contents (Elt F) → (⟨S400000x1, .i32⟩ : BufTy).Contents (Elt F) → (⟨S400000, .f32⟩ : BufTy).Contents (Elt F) → (⟨S3000, .f32⟩ : BufTy).Contents (Elt F)),
    nullary main_cst_94 (constant S_ .f32 0x3F800000#32),
    unary main_cst_94 main_v551 (broadcastInDim S3000 ![] bcast_S_S3000 : (⟨S_, .f32⟩ : BufTy).Contents (Elt F) → (⟨S3000, .f32⟩ : BufTy).Contents (Elt F)),
    binary main_v550 main_v551 main_v552 (maximumf : (⟨S3000, .f32⟩ : BufTy).Contents (Elt F) → (⟨S3000, .f32⟩ : BufTy).Contents (Elt F) → (⟨S3000, .f32⟩ : BufTy).Contents (Elt F)),
    unary main_v552 main_v553 (broadcastInDim S3000x1 ![0] bcast_S3000_S3000x1_0 : (⟨S3000, .f32⟩ : BufTy).Contents (Elt F) → (⟨S3000x1, .f32⟩ : BufTy).Contents (Elt F)),
    unary main_v553 main_v554 (broadcastInDim S3000x128 ![0, 1] bcast_S3000x1_S3000x128_0_1 : (⟨S3000x1, .f32⟩ : BufTy).Contents (Elt F) → (⟨S3000x128, .f32⟩ : BufTy).Contents (Elt F)),
    binary main_v546 main_v554 main_v555 (Host.divf : (⟨S3000x128, .f32⟩ : BufTy).Contents (Elt F) → (⟨S3000x128, .f32⟩ : BufTy).Contents (Elt F) → (⟨S3000x128, .f32⟩ : BufTy).Contents (Elt F)),
    unary main_v532 main_v556 ((transpose S128x128 [1, 0] · transposes_S128x128_S128x128_1_0) : (⟨S128x128, .f32⟩ : BufTy).Contents (Elt F) → (⟨S128x128, .f32⟩ : BufTy).Contents (Elt F)),
    binary main_v555 main_v556 main_v557 ((fun l r => Host.dotGeneral dot_S3000x128_S128x128_S3000x128_1_0_0_1_n_n none l r) : (⟨S3000x128, .f32⟩ : BufTy).Contents (Elt F) → (⟨S128x128, .f32⟩ : BufTy).Contents (Elt F) → (⟨S3000x128, .f32⟩ : BufTy).Contents (Elt F)),
    unary main_v534 main_v558 (broadcastInDim S1x128 ![1] bcast_S128_S1x128_1 : (⟨S128, .f32⟩ : BufTy).Contents (Elt F) → (⟨S1x128, .f32⟩ : BufTy).Contents (Elt F)),
    unary main_v558 main_v559 (broadcastInDim S3000x128 ![0, 1] bcast_S1x128_S3000x128_0_1 : (⟨S1x128, .f32⟩ : BufTy).Contents (Elt F) → (⟨S3000x128, .f32⟩ : BufTy).Contents (Elt F)),
    binary main_v557 main_v559 main_v560 (addf : (⟨S3000x128, .f32⟩ : BufTy).Contents (Elt F) → (⟨S3000x128, .f32⟩ : BufTy).Contents (Elt F) → (⟨S3000x128, .f32⟩ : BufTy).Contents (Elt F)),
    unary main_v536 main_v561 ((transpose S128x128 [1, 0] · transposes_S128x128_S128x128_1_0) : (⟨S128x128, .f32⟩ : BufTy).Contents (Elt F) → (⟨S128x128, .f32⟩ : BufTy).Contents (Elt F)),
    binary main_v363 main_v561 main_v562 ((fun l r => Host.dotGeneral dot_S3000x128_S128x128_S3000x128_1_0_0_1_n_n none l r) : (⟨S3000x128, .f32⟩ : BufTy).Contents (Elt F) → (⟨S128x128, .f32⟩ : BufTy).Contents (Elt F) → (⟨S3000x128, .f32⟩ : BufTy).Contents (Elt F)) ]

/-- Operations 803 … 908 of 1008: window 11 of @main. -/
abbrev ops11 : List (HloOp τ sig (Elt F)) :=
  [ binary main_v560 main_v562 main_v563 (addf : (⟨S3000x128, .f32⟩ : BufTy).Contents (Elt F) → (⟨S3000x128, .f32⟩ : BufTy).Contents (Elt F) → (⟨S3000x128, .f32⟩ : BufTy).Contents (Elt F)),
    unary main_arg15 main_v564 ((extractStridedSlice S1x1x128 ![1, 0, 0] · slices_S2x4x128_S1x1x128_1_0_0) : (⟨S2x4x128, .f32⟩ : BufTy).Contents (Elt F) → (⟨S1x1x128, .f32⟩ : BufTy).Contents (Elt F)),
    reshape main_v564 main_v565 rfl shapeCasts_S1x1x128_S128,
    unary main_arg16 main_v566 ((extractStridedSlice S1x1x128 ![1, 0, 0] · slices_S2x4x128_S1x1x128_1_0_0) : (⟨S2x4x128, .f32⟩ : BufTy).Contents (Elt F) → (⟨S1x1x128, .f32⟩ : BufTy).Contents (Elt F)),
    reshape main_v566 main_v567 rfl shapeCasts_S1x1x128_S128,
    nullary main_cst_95 (constant S_ .f32 0x00000000#32),
    binary main_v464 main_cst_95 main_v568 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_96 (constant S_ .f32 0x47C35000#32),
    unary main_cst_96 main_v569 (broadcastInDim S128 ![] bcast_S_S128 : (⟨S_, .f32⟩ : BufTy).Contents (Elt F) → (⟨S128, .f32⟩ : BufTy).Contents (Elt F)),
    binary main_v568 main_v569 main_v570 (Host.divf : (⟨S128, .f32⟩ : BufTy).Contents (Elt F) → (⟨S128, .f32⟩ : BufTy).Contents (Elt F) → (⟨S128, .f32⟩ : BufTy).Contents (Elt F)),
    nullary main_c_97 (constantI S_ 32 0#32),
    TRef.nullary main_call13.cst (constant S_ .f32 0x00000000#32),
    TRef.binary (.of main_v464 : TRef sig ⟨S100000x128, .f32⟩) main_call13.cst main_call13.v0 (fun x v => Host.reduceAdd x v reducesTo_S100000x128_S128_d0 h_S_),
    TRef.unary main_call13.v0 main_call13.v1 (broadcastInDim S1x128 ![1] bcast_S128_S1x128_1),
    TRef.nullary main_call13.cst_0 (constant S_ .f32 0x47C35000#32),
    TRef.unary main_call13.cst_0 main_call13.v2 (broadcastInDim S1x128 ![] bcast_S_S1x128),
    TRef.binary main_call13.v1 main_call13.v2 main_call13.v3 Host.divf,
    TRef.unary main_call13.v3 main_call13.v4 (broadcastInDim S100000x128 ![0, 1] bcast_S1x128_S100000x128_0_1),
    TRef.binary (.of main_v464 : TRef sig ⟨S100000x128, .f32⟩) main_call13.v4 main_call13.v5 subf,
    TRef.binary main_call13.v5 main_call13.v5 main_call13.v6 mulf,
    TRef.unary (.of main_c_97 : TRef sig ⟨S_, .i32⟩) main_call13.v7 (sitofp .f32),
    TRef.nullary main_call13.cst_1 (constant S_ .f32 0x47C35000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S100000x128_S128_d0 h_S_),
    TRef.unary main_call13.v8 main_call13.v10 (broadcastInDim S128 ![] bcast_S_S128),
    TRef.binary main_call13.v9 main_call13.v10 main_call13.v11 Host.divf,
    TRef.nullary main_call13.cst_3 (constant S_ .f32 0x00000000#32),
    TRef.binary main_call13.v8 main_call13.cst_3 main_call13.v12 (cmpf .ogt),
    TRef.nullary main_call13.cst_4 (constant S_ .f32 0x7FC00000#32),
    TRef.unary main_call13.cst_4 main_call13.call0.v0 id,
    TRef.unary main_call13.call0.v0 main_call13.call0.v1 (broadcastInDim S128 ![] bcast_S_S128),
    TRef.ternary main_call13.v12 main_call13.v11 main_call13.call0.v1 main_call13.call0.v2 (fun p a b => select (broadcastInDim S128 ![] bcast_S_S128 p) a b),
    unary main_v570 main_v572 (broadcastInDim S1x128 ![1] bcast_S128_S1x128_1 : (⟨S128, .f32⟩ : BufTy).Contents (Elt F) → (⟨S1x128, .f32⟩ : BufTy).Contents (Elt F)),
    unary main_v572 main_v573 (broadcastInDim S100000x128 ![0, 1] bcast_S1x128_S100000x128_0_1 : (⟨S1x128, .f32⟩ : BufTy).Contents (Elt F) → (⟨S100000x128, .f32⟩ : BufTy).Contents (Elt F)),
    binary main_v464 main_v573 main_v574 (subf : (⟨S100000x128, .f32⟩ : BufTy).Contents (Elt F) → (⟨S100000x128, .f32⟩ : BufTy).Contents (Elt F) → (⟨S100000x128, .f32⟩ : BufTy).Contents (Elt F)),
    nullary main_cst_98 (constant S_ .f32 0x3727C5AC#32),
    unary main_cst_98 main_v575 (broadcastInDim S128 ![] bcast_S_S128 : (⟨S_, .f32⟩ : BufTy).Contents (Elt F) → (⟨S128, .f32⟩ : BufTy).Contents (Elt F)),
    binary main_v571 main_v575 main_v576 (addf : (⟨S128, .f32⟩ : BufTy).Contents (Elt F) → (⟨S128, .f32⟩ : BufTy).Contents (Elt F) → (⟨S128, .f32⟩ : BufTy).Contents (Elt F)),
    unary main_v576 main_v577 (Host.rsqrt : (⟨S128, .f32⟩ : BufTy).Contents (Elt F) → (⟨S128, .f32⟩ : BufTy).Contents (Elt F)),
    unary main_v577 main_v578 (broadcastInDim S1x128 ![1] bcast_S128_S1x128_1 : (⟨S128, .f32⟩ : BufTy).Contents (Elt F) → (⟨S1x128, .f32⟩ : BufTy).Contents (Elt F)),
    unary main_v578 main_v579 (broadcastInDim S100000x128 ![0, 1] bcast_S1x128_S100000x128_0_1 : (⟨S1x128, .f32⟩ : BufTy).Contents (Elt F) → (⟨S100000x128, .f32⟩ : BufTy).Contents (Elt F)),
    binary main_v574 main_v579 main_v580 (mulf : (⟨S100000x128, .f32⟩ : BufTy).Contents (Elt F) → (⟨S100000x128, .f32⟩ : BufTy).Contents (Elt F) → (⟨S100000x128, .f32⟩ : BufTy).Contents (Elt F)),
    unary main_v565 main_v581 (broadcastInDim S1x128 ![1] bcast_S128_S1x128_1 : (⟨S128, .f32⟩ : BufTy).Contents (Elt F) → (⟨S1x128, .f32⟩ : BufTy).Contents (Elt F)),
    unary main_v581 main_v582 (broadcastInDim S100000x128 ![0, 1] bcast_S1x128_S100000x128_0_1 : (⟨S1x128, .f32⟩ : BufTy).Contents (Elt F) → (⟨S100000x128, .f32⟩ : BufTy).Contents (Elt F)),
    binary main_v580 main_v582 main_v583 (mulf : (⟨S100000x128, .f32⟩ : BufTy).Contents (Elt F) → (⟨S100000x128, .f32⟩ : BufTy).Contents (Elt F) → (⟨S100000x128, .f32⟩ : BufTy).Contents (Elt F)),
    unary main_v567 main_v584 (broadcastInDim S1x128 ![1] bcast_S128_S1x128_1 : (⟨S128, .f32⟩ : BufTy).Contents (Elt F) → (⟨S1x128, .f32⟩ : BufTy).Contents (Elt F)),
    unary main_v584 main_v585 (broadcastInDim S100000x128 ![0, 1] bcast_S1x128_S100000x128_0_1 : (⟨S1x128, .f32⟩ : BufTy).Contents (Elt F) → (⟨S100000x128, .f32⟩ : BufTy).Contents (Elt F)),
    binary main_v583 main_v585 main_v586 (addf : (⟨S100000x128, .f32⟩ : BufTy).Contents (Elt F) → (⟨S100000x128, .f32⟩ : BufTy).Contents (Elt F) → (⟨S100000x128, .f32⟩ : BufTy).Contents (Elt F)),
    TRef.nullary main_call14.cst (constant S_ .f32 0x00000000#32),
    TRef.unary main_call14.cst main_call14.v0 (broadcastInDim S100000x128 ![] bcast_S_S100000x128),
    TRef.binary (.of main_v586 : TRef sig ⟨S100000x128, .f32⟩) main_call14.v0 main_call14.v1 maximumf,
    unary main_arg15 main_v588 ((extractStridedSlice S1x1x128 ![1, 1, 0] · slices_S2x4x128_S1x1x128_1_1_0) : (⟨S2x4x128, .f32⟩ : BufTy).Contents (Elt F) → (⟨S1x1x128, .f32⟩ : BufTy).Contents (Elt F)),
    reshape main_v588 main_v589 rfl shapeCasts_S1x1x128_S128,
    unary main_arg16 main_v590 ((extractStridedSlice S1x1x128 ![1, 1, 0] · slices_S2x4x128_S1x1x128_1_1_0) : (⟨S2x4x128, .f32⟩ : BufTy).Contents (Elt F) → (⟨S1x1x128, .f32⟩ : BufTy).Contents (Elt F)),
    reshape main_v590 main_v591 rfl shapeCasts_S1x1x128_S128,
    nullary main_cst_99 (constant S_ .f32 0x00000000#32),
    binary main_v497 main_cst_99 main_v592 ((fun x v => Host.reduceAdd x v reducesTo_S2000x128_S128_d0 h_S_) : (⟨S2000x128, .f32⟩ : BufTy).Contents (Elt F) → (⟨S_, .f32⟩ : BufTy).Contents (Elt F) → (⟨S128, .f32⟩ : BufTy).Contents (Elt F)),
    nullary main_cst_100 (constant S_ .f32 0x44FA0000#32),
    unary main_cst_100 main_v593 (broadcastInDim S128 ![] bcast_S_S128 : (⟨S_, .f32⟩ : BufTy).Contents (Elt F) → (⟨S128, .f32⟩ : BufTy).Contents (Elt F)),
    binary main_v592 main_v593 main_v594 (Host.divf : (⟨S128, .f32⟩ : BufTy).Contents (Elt F) → (⟨S128, .f32⟩ : BufTy).Contents (Elt F) → (⟨S128, .f32⟩ : BufTy).Contents (Elt F)),
    nullary main_c_101 (constantI S_ 32 0#32),
    TRef.nullary main_call15.cst (constant S_ .f32 0x00000000#32),
    TRef.binary (.of main_v497 : TRef sig ⟨S2000x128, .f32⟩) main_call15.cst main_call15.v0 (fun x v => Host.reduceAdd x v reducesTo_S2000x128_S128_d0 h_S_),
    TRef.unary main_call15.v0 main_call15.v1 (broadcastInDim S1x128 ![1] bcast_S128_S1x128_1),
    TRef.nullary main_call15.cst_0 (constant S_ .f32 0x44FA0000#32),
    TRef.unary main_call15.cst_0 main_call15.v2 (broadcastInDim S1x128 ![] bcast_S_S1x128),
    TRef.binary main_call15.v1 main_call15.v2 main_call15.v3 Host.divf,
    TRef.unary main_call15.v3 main_call15.v4 (broadcastInDim S2000x128 ![0, 1] bcast_S1x128_S2000x128_0_1),
    TRef.binary (.of main_v497 : TRef sig ⟨S2000x128, .f32⟩) main_call15.v4 main_call15.v5 subf,
    TRef.binary main_call15.v5 main_call15.v5 main_call15.v6 mulf,
    TRef.unary (.of main_c_101 : TRef sig ⟨S_, .i32⟩) main_call15.v7 (sitofp .f32),
    TRef.nullary main_call15.cst_1 (constant S_ .f32 0x44FA0000#32),
    TRef.binary main_call15.cst_1 main_call15.v7 main_call15.v8 subf,
    TRef.nullary main_call15.cst_2 (constant S_ .f32 0x00000000#32),
    TRef.binary main_call15.v6 main_call15.cst_2 main_call15.v9 (fun x v => Host.reduceAdd x v reducesTo_S2000x128_S128_d0 h_S_),
    TRef.unary main_call15.v8 main_call15.v10 (broadcastInDim S128 ![] bcast_S_S128),
    TRef.binary main_call15.v9 main_call15.v10 main_call15.v11 Host.divf,
    TRef.nullary main_call15.cst_3 (constant S_ .f32 0x00000000#32),
    TRef.binary main_call15.v8 main_call15.cst_3 main_call15.v12 (cmpf .ogt),
    TRef.nullary main_call15.cst_4 (constant S_ .f32 0x7FC00000#32),
    TRef.unary main_call15.cst_4 main_call15.call0.v0 id,
    TRef.unary main_call15.call0.v0 main_call15.call0.v1 (broadcastInDim S128 ![] bcast_S_S128),
    TRef.ternary main_call15.v12 main_call15.v11 main_call15.call0.v1 main_call15.call0.v2 (fun p a b => select (broadcastInDim S128 ![] bcast_S_S128 p) a b),
    unary main_v594 main_v596 (broadcastInDim S1x128 ![1] bcast_S128_S1x128_1 : (⟨S128, .f32⟩ : BufTy).Contents (Elt F) → (⟨S1x128, .f32⟩ : BufTy).Contents (Elt F)),
    unary main_v596 main_v597 (broadcastInDim S2000x128 ![0, 1] bcast_S1x128_S2000x128_0_1 : (⟨S1x128, .f32⟩ : BufTy).Contents (Elt F) → (⟨S2000x128, .f32⟩ : BufTy).Contents (Elt F)),
    binary main_v497 main_v597 main_v598 (subf : (⟨S2000x128, .f32⟩ : BufTy).Contents (Elt F) → (⟨S2000x128, .f32⟩ : BufTy).Contents (Elt F) → (⟨S2000x128, .f32⟩ : BufTy).Contents (Elt F)),
    nullary main_cst_102 (constant S_ .f32 0x3727C5AC#32),
    unary main_cst_102 main_v599 (broadcastInDim S128 ![] bcast_S_S128 : (⟨S_, .f32⟩ : BufTy).Contents (Elt F) → (⟨S128, .f32⟩ : BufTy).Contents (Elt F)),
    binary main_v595 main_v599 main_v600 (addf : (⟨S128, .f32⟩ : BufTy).Contents (Elt F) → (⟨S128, .f32⟩ : BufTy).Contents (Elt F) → (⟨S128, .f32⟩ : BufTy).Contents (Elt F)),
    unary main_v600 main_v601 (Host.rsqrt : (⟨S128, .f32⟩ : BufTy).Contents (Elt F) → (⟨S128, .f32⟩ : BufTy).Contents (Elt F)),
    unary main_v601 main_v602 (broadcastInDim S1x128 ![1] bcast_S128_S1x128_1 : (⟨S128, .f32⟩ : BufTy).Contents (Elt F) → (⟨S1x128, .f32⟩ : BufTy).Contents (Elt F)),
    unary main_v602 main_v603 (broadcastInDim S2000x128 ![0, 1] bcast_S1x128_S2000x128_0_1 : (⟨S1x128, .f32⟩ : BufTy).Contents (Elt F) → (⟨S2000x128, .f32⟩ : BufTy).Contents (Elt F)),
    binary main_v598 main_v603 main_v604 (mulf : (⟨S2000x128, .f32⟩ : BufTy).Contents (Elt F) → (⟨S2000x128, .f32⟩ : BufTy).Contents (Elt F) → (⟨S2000x128, .f32⟩ : BufTy).Contents (Elt F)),
    unary main_v589 main_v605 (broadcastInDim S1x128 ![1] bcast_S128_S1x128_1 : (⟨S128, .f32⟩ : BufTy).Contents (Elt F) → (⟨S1x128, .f32⟩ : BufTy).Contents (Elt F)),
    unary main_v605 main_v606 (broadcastInDim S2000x128 ![0, 1] bcast_S1x128_S2000x128_0_1 : (⟨S1x128, .f32⟩ : BufTy).Contents (Elt F) → (⟨S2000x128, .f32⟩ : BufTy).Contents (Elt F)),
    binary main_v604 main_v606 main_v607 (mulf : (⟨S2000x128, .f32⟩ : BufTy).Contents (Elt F) → (⟨S2000x128, .f32⟩ : BufTy).Contents (Elt F) → (⟨S2000x128, .f32⟩ : BufTy).Contents (Elt F)),
    unary main_v591 main_v608 (broadcastInDim S1x128 ![1] bcast_S128_S1x128_1 : (⟨S128, .f32⟩ : BufTy).Contents (Elt F) → (⟨S1x128, .f32⟩ : BufTy).Contents (Elt F)),
    unary main_v608 main_v609 (broadcastInDim S2000x128 ![0, 1] bcast_S1x128_S2000x128_0_1 : (⟨S1x128, .f32⟩ : BufTy).Contents (Elt F) → (⟨S2000x128, .f32⟩ : BufTy).Contents (Elt F)),
    binary main_v607 main_v609 main_v610 (addf : (⟨S2000x128, .f32⟩ : BufTy).Contents (Elt F) → (⟨S2000x128, .f32⟩ : BufTy).Contents (Elt F) → (⟨S2000x128, .f32⟩ : BufTy).Contents (Elt F)),
    TRef.nullary main_call16.cst (constant S_ .f32 0x00000000#32),
    TRef.unary main_call16.cst main_call16.v0 (broadcastInDim S2000x128 ![] bcast_S_S2000x128),
    TRef.binary (.of main_v610 : TRef sig ⟨S2000x128, .f32⟩) main_call16.v0 main_call16.v1 maximumf,
    unary main_arg15 main_v612 ((extractStridedSlice S1x1x128 ![1, 2, 0] · slices_S2x4x128_S1x1x128_1_2_0) : (⟨S2x4x128, .f32⟩ : BufTy).Contents (Elt F) → (⟨S1x1x128, .f32⟩ : BufTy).Contents (Elt F)),
    reshape main_v612 main_v613 rfl shapeCasts_S1x1x128_S128,
    unary main_arg16 main_v614 ((extractStridedSlice S1x1x128 ![1, 2, 0] · slices_S2x4x128_S1x1x128_1_2_0) : (⟨S2x4x128, .f32⟩ : BufTy).Contents (Elt F) → (⟨S1x1x128, .f32⟩ : BufTy).Contents (Elt F)) ]

/-- Operations 909 … 1008 of 1008: window 12 of @main. -/
abbrev ops12 : List (HloOp τ sig (Elt F)) :=
  [ reshape main_v614 main_v615 rfl shapeCasts_S1x1x128_S128,
    nullary main_cst_103 (constant S_ .f32 0x00000000#32),
    binary main_v530 main_cst_103 main_v616 ((fun x v => Host.reduceAdd x v reducesTo_S5000x128_S128_d0 h_S_) : (⟨S5000x128, .f32⟩ : BufTy).Contents (Elt F) → (⟨S_, .f32⟩ : BufTy).Contents (Elt F) → (⟨S128, .f32⟩ : BufTy).Contents (Elt F)),
    nullary main_cst_104 (constant S_ .f32 0x459C4000#32),
    unary main_cst_104 main_v617 (broadcastInDim S128 ![] bcast_S_S128 : (⟨S_, .f32⟩ : BufTy).Contents (Elt F) → (⟨S128, .f32⟩ : BufTy).Contents (Elt F)),
    binary main_v616 main_v617 main_v618 (Host.divf : (⟨S128, .f32⟩ : BufTy).Contents (Elt F) → (⟨S128, .f32⟩ : BufTy).Contents (Elt F) → (⟨S128, .f32⟩ : BufTy).Contents (Elt F)),
    nullary main_c_105 (constantI S_ 32 0#32),
    TRef.nullary main_call17.cst (constant S_ .f32 0x00000000#32),
    TRef.binary (.of main_v530 : TRef sig ⟨S5000x128, .f32⟩) main_call17.cst main_call17.v0 (fun x v => Host.reduceAdd x v reducesTo_S5000x128_S128_d0 h_S_),
    TRef.unary main_call17.v0 main_call17.v1 (broadcastInDim S1x128 ![1] bcast_S128_S1x128_1),
    TRef.nullary main_call17.cst_0 (constant S_ .f32 0x459C4000#32),
    TRef.unary main_call17.cst_0 main_call17.v2 (broadcastInDim S1x128 ![] bcast_S_S1x128),
    TRef.binary main_call17.v1 main_call17.v2 main_call17.v3 Host.divf,
    TRef.unary main_call17.v3 main_call17.v4 (broadcastInDim S5000x128 ![0, 1] bcast_S1x128_S5000x128_0_1),
    TRef.binary (.of main_v530 : TRef sig ⟨S5000x128, .f32⟩) main_call17.v4 main_call17.v5 subf,
    TRef.binary main_call17.v5 main_call17.v5 main_call17.v6 mulf,
    TRef.unary (.of main_c_105 : TRef sig ⟨S_, .i32⟩) main_call17.v7 (sitofp .f32),
    TRef.nullary main_call17.cst_1 (constant S_ .f32 0x459C4000#32),
    TRef.binary main_call17.cst_1 main_call17.v7 main_call17.v8 subf,
    TRef.nullary main_call17.cst_2 (constant S_ .f32 0x00000000#32),
    TRef.binary main_call17.v6 main_call17.cst_2 main_call17.v9 (fun x v => Host.reduceAdd x v reducesTo_S5000x128_S128_d0 h_S_),
    TRef.unary main_call17.v8 main_call17.v10 (broadcastInDim S128 ![] bcast_S_S128),
    TRef.binary main_call17.v9 main_call17.v10 main_call17.v11 Host.divf,
    TRef.nullary main_call17.cst_3 (constant S_ .f32 0x00000000#32),
    TRef.binary main_call17.v8 main_call17.cst_3 main_call17.v12 (cmpf .ogt),
    TRef.nullary main_call17.cst_4 (constant S_ .f32 0x7FC00000#32),
    TRef.unary main_call17.cst_4 main_call17.call0.v0 id,
    TRef.unary main_call17.call0.v0 main_call17.call0.v1 (broadcastInDim S128 ![] bcast_S_S128),
    TRef.ternary main_call17.v12 main_call17.v11 main_call17.call0.v1 main_call17.call0.v2 (fun p a b => select (broadcastInDim S128 ![] bcast_S_S128 p) a b),
    unary main_v618 main_v620 (broadcastInDim S1x128 ![1] bcast_S128_S1x128_1 : (⟨S128, .f32⟩ : BufTy).Contents (Elt F) → (⟨S1x128, .f32⟩ : BufTy).Contents (Elt F)),
    unary main_v620 main_v621 (broadcastInDim S5000x128 ![0, 1] bcast_S1x128_S5000x128_0_1 : (⟨S1x128, .f32⟩ : BufTy).Contents (Elt F) → (⟨S5000x128, .f32⟩ : BufTy).Contents (Elt F)),
    binary main_v530 main_v621 main_v622 (subf : (⟨S5000x128, .f32⟩ : BufTy).Contents (Elt F) → (⟨S5000x128, .f32⟩ : BufTy).Contents (Elt F) → (⟨S5000x128, .f32⟩ : BufTy).Contents (Elt F)),
    nullary main_cst_106 (constant S_ .f32 0x3727C5AC#32),
    unary main_cst_106 main_v623 (broadcastInDim S128 ![] bcast_S_S128 : (⟨S_, .f32⟩ : BufTy).Contents (Elt F) → (⟨S128, .f32⟩ : BufTy).Contents (Elt F)),
    binary main_v619 main_v623 main_v624 (addf : (⟨S128, .f32⟩ : BufTy).Contents (Elt F) → (⟨S128, .f32⟩ : BufTy).Contents (Elt F) → (⟨S128, .f32⟩ : BufTy).Contents (Elt F)),
    unary main_v624 main_v625 (Host.rsqrt : (⟨S128, .f32⟩ : BufTy).Contents (Elt F) → (⟨S128, .f32⟩ : BufTy).Contents (Elt F)),
    unary main_v625 main_v626 (broadcastInDim S1x128 ![1] bcast_S128_S1x128_1 : (⟨S128, .f32⟩ : BufTy).Contents (Elt F) → (⟨S1x128, .f32⟩ : BufTy).Contents (Elt F)),
    unary main_v626 main_v627 (broadcastInDim S5000x128 ![0, 1] bcast_S1x128_S5000x128_0_1 : (⟨S1x128, .f32⟩ : BufTy).Contents (Elt F) → (⟨S5000x128, .f32⟩ : BufTy).Contents (Elt F)),
    binary main_v622 main_v627 main_v628 (mulf : (⟨S5000x128, .f32⟩ : BufTy).Contents (Elt F) → (⟨S5000x128, .f32⟩ : BufTy).Contents (Elt F) → (⟨S5000x128, .f32⟩ : BufTy).Contents (Elt F)),
    unary main_v613 main_v629 (broadcastInDim S1x128 ![1] bcast_S128_S1x128_1 : (⟨S128, .f32⟩ : BufTy).Contents (Elt F) → (⟨S1x128, .f32⟩ : BufTy).Contents (Elt F)),
    unary main_v629 main_v630 (broadcastInDim S5000x128 ![0, 1] bcast_S1x128_S5000x128_0_1 : (⟨S1x128, .f32⟩ : BufTy).Contents (Elt F) → (⟨S5000x128, .f32⟩ : BufTy).Contents (Elt F)),
    binary main_v628 main_v630 main_v631 (mulf : (⟨S5000x128, .f32⟩ : BufTy).Contents (Elt F) → (⟨S5000x128, .f32⟩ : BufTy).Contents (Elt F) → (⟨S5000x128, .f32⟩ : BufTy).Contents (Elt F)),
    unary main_v615 main_v632 (broadcastInDim S1x128 ![1] bcast_S128_S1x128_1 : (⟨S128, .f32⟩ : BufTy).Contents (Elt F) → (⟨S1x128, .f32⟩ : BufTy).Contents (Elt F)),
    unary main_v632 main_v633 (broadcastInDim S5000x128 ![0, 1] bcast_S1x128_S5000x128_0_1 : (⟨S1x128, .f32⟩ : BufTy).Contents (Elt F) → (⟨S5000x128, .f32⟩ : BufTy).Contents (Elt F)),
    binary main_v631 main_v633 main_v634 (addf : (⟨S5000x128, .f32⟩ : BufTy).Contents (Elt F) → (⟨S5000x128, .f32⟩ : BufTy).Contents (Elt F) → (⟨S5000x128, .f32⟩ : BufTy).Contents (Elt F)),
    TRef.nullary main_call18.cst (constant S_ .f32 0x00000000#32),
    TRef.unary main_call18.cst main_call18.v0 (broadcastInDim S5000x128 ![] bcast_S_S5000x128),
    TRef.binary (.of main_v634 : TRef sig ⟨S5000x128, .f32⟩) main_call18.v0 main_call18.v1 maximumf,
    unary main_arg15 main_v636 ((extractStridedSlice S1x1x128 ![1, 3, 0] · slices_S2x4x128_S1x1x128_1_3_0) : (⟨S2x4x128, .f32⟩ : BufTy).Contents (Elt F) → (⟨S1x1x128, .f32⟩ : BufTy).Contents (Elt F)),
    reshape main_v636 main_v637 rfl shapeCasts_S1x1x128_S128,
    unary main_arg16 main_v638 ((extractStridedSlice S1x1x128 ![1, 3, 0] · slices_S2x4x128_S1x1x128_1_3_0) : (⟨S2x4x128, .f32⟩ : BufTy).Contents (Elt F) → (⟨S1x1x128, .f32⟩ : BufTy).Contents (Elt F)),
    reshape main_v638 main_v639 rfl shapeCasts_S1x1x128_S128,
    nullary main_cst_107 (constant S_ .f32 0x00000000#32),
    binary main_v563 main_cst_107 main_v640 ((fun x v => Host.reduceAdd x v reducesTo_S3000x128_S128_d0 h_S_) : (⟨S3000x128, .f32⟩ : BufTy).Contents (Elt F) → (⟨S_, .f32⟩ : BufTy).Contents (Elt F) → (⟨S128, .f32⟩ : BufTy).Contents (Elt F)),
    nullary main_cst_108 (constant S_ .f32 0x453B8000#32),
    unary main_cst_108 main_v641 (broadcastInDim S128 ![] bcast_S_S128 : (⟨S_, .f32⟩ : BufTy).Contents (Elt F) → (⟨S128, .f32⟩ : BufTy).Contents (Elt F)),
    binary main_v640 main_v641 main_v642 (Host.divf : (⟨S128, .f32⟩ : BufTy).Contents (Elt F) → (⟨S128, .f32⟩ : BufTy).Contents (Elt F) → (⟨S128, .f32⟩ : BufTy).Contents (Elt F)),
    nullary main_c_109 (constantI S_ 32 0#32),
    TRef.nullary main_call19.cst (constant S_ .f32 0x00000000#32),
    TRef.binary (.of main_v563 : TRef sig ⟨S3000x128, .f32⟩) main_call19.cst main_call19.v0 (fun x v => Host.reduceAdd x v reducesTo_S3000x128_S128_d0 h_S_),
    TRef.unary main_call19.v0 main_call19.v1 (broadcastInDim S1x128 ![1] bcast_S128_S1x128_1),
    TRef.nullary main_call19.cst_0 (constant S_ .f32 0x453B8000#32),
    TRef.unary main_call19.cst_0 main_call19.v2 (broadcastInDim S1x128 ![] bcast_S_S1x128),
    TRef.binary main_call19.v1 main_call19.v2 main_call19.v3 Host.divf,
    TRef.unary main_call19.v3 main_call19.v4 (broadcastInDim S3000x128 ![0, 1] bcast_S1x128_S3000x128_0_1),
    TRef.binary (.of main_v563 : TRef sig ⟨S3000x128, .f32⟩) main_call19.v4 main_call19.v5 subf,
    TRef.binary main_call19.v5 main_call19.v5 main_call19.v6 mulf,
    TRef.unary (.of main_c_109 : TRef sig ⟨S_, .i32⟩) main_call19.v7 (sitofp .f32),
    TRef.nullary main_call19.cst_1 (constant S_ .f32 0x453B8000#32),
    TRef.binary main_call19.cst_1 main_call19.v7 main_call19.v8 subf,
    TRef.nullary main_call19.cst_2 (constant S_ .f32 0x00000000#32),
    TRef.binary main_call19.v6 main_call19.cst_2 main_call19.v9 (fun x v => Host.reduceAdd x v reducesTo_S3000x128_S128_d0 h_S_),
    TRef.unary main_call19.v8 main_call19.v10 (broadcastInDim S128 ![] bcast_S_S128),
    TRef.binary main_call19.v9 main_call19.v10 main_call19.v11 Host.divf,
    TRef.nullary main_call19.cst_3 (constant S_ .f32 0x00000000#32),
    TRef.binary main_call19.v8 main_call19.cst_3 main_call19.v12 (cmpf .ogt),
    TRef.nullary main_call19.cst_4 (constant S_ .f32 0x7FC00000#32),
    TRef.unary main_call19.cst_4 main_call19.call0.v0 id,
    TRef.unary main_call19.call0.v0 main_call19.call0.v1 (broadcastInDim S128 ![] bcast_S_S128),
    TRef.ternary main_call19.v12 main_call19.v11 main_call19.call0.v1 main_call19.call0.v2 (fun p a b => select (broadcastInDim S128 ![] bcast_S_S128 p) a b),
    unary main_v642 main_v644 (broadcastInDim S1x128 ![1] bcast_S128_S1x128_1 : (⟨S128, .f32⟩ : BufTy).Contents (Elt F) → (⟨S1x128, .f32⟩ : BufTy).Contents (Elt F)),
    unary main_v644 main_v645 (broadcastInDim S3000x128 ![0, 1] bcast_S1x128_S3000x128_0_1 : (⟨S1x128, .f32⟩ : BufTy).Contents (Elt F) → (⟨S3000x128, .f32⟩ : BufTy).Contents (Elt F)),
    binary main_v563 main_v645 main_v646 (subf : (⟨S3000x128, .f32⟩ : BufTy).Contents (Elt F) → (⟨S3000x128, .f32⟩ : BufTy).Contents (Elt F) → (⟨S3000x128, .f32⟩ : BufTy).Contents (Elt F)),
    nullary main_cst_110 (constant S_ .f32 0x3727C5AC#32),
    unary main_cst_110 main_v647 (broadcastInDim S128 ![] bcast_S_S128 : (⟨S_, .f32⟩ : BufTy).Contents (Elt F) → (⟨S128, .f32⟩ : BufTy).Contents (Elt F)),
    binary main_v643 main_v647 main_v648 (addf : (⟨S128, .f32⟩ : BufTy).Contents (Elt F) → (⟨S128, .f32⟩ : BufTy).Contents (Elt F) → (⟨S128, .f32⟩ : BufTy).Contents (Elt F)),
    unary main_v648 main_v649 (Host.rsqrt : (⟨S128, .f32⟩ : BufTy).Contents (Elt F) → (⟨S128, .f32⟩ : BufTy).Contents (Elt F)),
    unary main_v649 main_v650 (broadcastInDim S1x128 ![1] bcast_S128_S1x128_1 : (⟨S128, .f32⟩ : BufTy).Contents (Elt F) → (⟨S1x128, .f32⟩ : BufTy).Contents (Elt F)),
    unary main_v650 main_v651 (broadcastInDim S3000x128 ![0, 1] bcast_S1x128_S3000x128_0_1 : (⟨S1x128, .f32⟩ : BufTy).Contents (Elt F) → (⟨S3000x128, .f32⟩ : BufTy).Contents (Elt F)),
    binary main_v646 main_v651 main_v652 (mulf : (⟨S3000x128, .f32⟩ : BufTy).Contents (Elt F) → (⟨S3000x128, .f32⟩ : BufTy).Contents (Elt F) → (⟨S3000x128, .f32⟩ : BufTy).Contents (Elt F)),
    unary main_v637 main_v653 (broadcastInDim S1x128 ![1] bcast_S128_S1x128_1 : (⟨S128, .f32⟩ : BufTy).Contents (Elt F) → (⟨S1x128, .f32⟩ : BufTy).Contents (Elt F)),
    unary main_v653 main_v654 (broadcastInDim S3000x128 ![0, 1] bcast_S1x128_S3000x128_0_1 : (⟨S1x128, .f32⟩ : BufTy).Contents (Elt F) → (⟨S3000x128, .f32⟩ : BufTy).Contents (Elt F)),
    binary main_v652 main_v654 main_v655 (mulf : (⟨S3000x128, .f32⟩ : BufTy).Contents (Elt F) → (⟨S3000x128, .f32⟩ : BufTy).Contents (Elt F) → (⟨S3000x128, .f32⟩ : BufTy).Contents (Elt F)),
    unary main_v639 main_v656 (broadcastInDim S1x128 ![1] bcast_S128_S1x128_1 : (⟨S128, .f32⟩ : BufTy).Contents (Elt F) → (⟨S1x128, .f32⟩ : BufTy).Contents (Elt F)),
    unary main_v656 main_v657 (broadcastInDim S3000x128 ![0, 1] bcast_S1x128_S3000x128_0_1 : (⟨S1x128, .f32⟩ : BufTy).Contents (Elt F) → (⟨S3000x128, .f32⟩ : BufTy).Contents (Elt F)),
    binary main_v655 main_v657 main_v658 (addf : (⟨S3000x128, .f32⟩ : BufTy).Contents (Elt F) → (⟨S3000x128, .f32⟩ : BufTy).Contents (Elt F) → (⟨S3000x128, .f32⟩ : BufTy).Contents (Elt F)),
    TRef.nullary main_call20.cst (constant S_ .f32 0x00000000#32),
    TRef.unary main_call20.cst main_call20.v0 (broadcastInDim S3000x128 ![] bcast_S_S3000x128),
    TRef.binary (.of main_v658 : TRef sig ⟨S3000x128, .f32⟩) main_call20.v0 main_call20.v1 maximumf,
    nary ![main_v587, main_v611, main_v635, main_v659] main_v660 (fun u => concatenate S110000x128 0 [⟨S100000x128, u 0⟩, ⟨S2000x128, u 1⟩, ⟨S5000x128, u 2⟩, ⟨S3000x128, u 3⟩] concatenates_S100000x128_S2000x128_S5000x128_S3000x128_S110000x128_d0) ]

/-- @main's 1008 operations, in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12))))))))))))

end Cert.ReferenceIdeal.Hand

end
-- ==== Proof.Ref.Ssa.lean ====
/- A line of host operations that assigns each buffer once, in index order: operation k writes exactly the buffers of
   index n + k and its results depend only on buffers of lower index. For such a line the final contents satisfy
   every operation's own equation: each written buffer holds the operation's result OF THE FINAL CONTENTS. This is
   what lets a stage of the program be read as a pure function of the buffers it reads, whatever runs before and
   after it. -/
import Idealize.ShloMosaic.Lib.StableHlo.Run
import Idealize.ShloMosaic.Lib.Pipeline.Frame

namespace Cert.ReferenceIdeal.Hand

open Idealize.ShloMosaic Idealize.ShloMosaic.StableHlo

variable {τ : Topo} {sig : RefSig} {Val : EltTy → Type}

/-- A property of every operation of two lists holds of every operation of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- Operation k of the line writes exactly buffers of index `n + k`. -/
def Ranked : ℕ → List (HloOp τ sig Val) → Prop
  | _, [] => True
  | n, op :: ops => (∀ b ∈ op.writes, b.idx.val = n) ∧ Ranked (n + 1) ops

theorem Ranked.nil {n : ℕ} : Ranked n ([] : List (HloOp τ sig Val)) := trivial

theorem Ranked.cons {n : ℕ} {op : HloOp τ sig Val} {ops : List (HloOp τ sig Val)}
    (h₁ : ∀ b ∈ op.writes, b.idx.val = n) (h₂ : Ranked (n + 1) ops) : Ranked n (op :: ops) := ⟨h₁, h₂⟩

theorem Ranked.append : ∀ {n : ℕ} {l₁ l₂ : List (HloOp τ sig Val)},
    Ranked n l₁ → Ranked (n + l₁.length) l₂ → Ranked n (l₁ ++ l₂)
  | _, [], _, _, h₂ => by simpa using h₂
  | n, op :: l₁, l₂, h₁, h₂ => by
    refine ⟨h₁.1, Ranked.append h₁.2 ?_⟩
    have e : n + 1 + l₁.length = n + (op :: l₁).length := by simp only [List.length_cons]; omega
    rw [e]; exact h₂

/-- A buffer of index below the line's first keeps its contents. -/
theorem after_of_lt : ∀ {n : ℕ} {ops : List (HloOp τ sig Val)}, Ranked n ops →
    ∀ (V : Valuation τ sig Val) {b : DevRef τ sig}, b.idx.val < n → after ops V b = V b
  | _, [], _, _, _, _ => rfl
  | n, op :: ops, h, V, b, hb => by
    rw [after_cons, after_of_lt h.2 _ (Nat.lt_succ_of_lt hb),
      op.result_of_not_mem V fun hw => absurd (h.1 b hw) (Nat.ne_of_lt hb)]

/-- The operation's results depend only on buffers of lower index than those it writes. -/
def Dep (op : HloOp τ sig Val) : Prop :=
  ∀ F G : Valuation τ sig Val, ∀ y ∈ op.writes,
    (∀ b : DevRef τ sig, b.idx.val < y.idx.val → F b = G b) → op.result F y = op.result G y

/-- In a line that assigns once in order, each of whose operations reads lower buffers only, the final contents
    satisfy each operation's equation. -/
theorem after_fix : ∀ {n : ℕ} {ops : List (HloOp τ sig Val)}, Ranked n ops → ops.Forall Dep →
    ∀ (V : Valuation τ sig Val), ∀ op ∈ ops, ∀ y ∈ op.writes, after ops V y = op.result (after ops V) y
  | _, [], _, _, _, _, hop, _, _ => nomatch hop
  | n, op' :: ops, hR, hD, V, op, hop, y, hy => by
    have hD' := (List.forall_cons _ _ _).mp hD
    rcases List.mem_cons.mp hop with rfl | hop
    · have hyn : y.idx.val = n := hR.1 y hy
      rw [after_cons, after_of_lt hR.2 _ (by omega)]
      refine (hD'.1 _ _ y hy fun b hb => ?_).symm
      rw [after_of_lt hR.2 _ (by omega),
        op.result_of_not_mem V fun hw => absurd (hR.1 b hw) (by omega)]
    · rw [after_cons]; exact after_fix hR.2 hD'.2 _ op hop y hy

/-- A list of operations all of which are operations of the line. -/
theorem mem_of_sub_get? {ops w : List (HloOp τ sig Val)} (hw : ∀ op ∈ w, op ∈ ops) {i : ℕ} {op : HloOp τ sig Val}
    (h : w[i]? = some op) : op ∈ ops := hw op (List.mem_of_getElem? h)

/-- An operation that writes the one buffer `y` writes buffers of `y`'s index only. -/
theorem ranked_of_writes {op : HloOp τ sig Val} {y : Ref sig .tc} {n : ℕ} (h : op.writes = {Proc.devRef .tc y})
    (hn : y.idx.val = n) : ∀ d ∈ op.writes, d.idx.val = n := fun d hd => by
  rw [h, Finset.mem_singleton] at hd; rw [hd]; exact hn

/-! ### The builders -/

section Builders

variable (x a b c y : Ref sig .tc)

theorem rank_devRef (r : Ref sig .tc) : (Proc.devRef (τ := τ) .tc r).idx.val = r.idx.val := rfl

theorem nullary_ranked (v : y.ty.Contents Val) (hy) :
    ∀ d ∈ (nullary (τ := τ) y v hy).writes, d.idx.val = y.idx.val := fun d hd => by
  rw [nullary_writes, Finset.mem_singleton] at hd; rw [hd]
theorem unary_ranked (f : x.ty.Contents Val → y.ty.Contents Val) (hx hy) :
    ∀ d ∈ (unary (τ := τ) x y f hx hy).writes, d.idx.val = y.idx.val := fun d hd => by
  rw [unary_writes, Finset.mem_singleton] at hd; rw [hd]
theorem binary_ranked (f : a.ty.Contents Val → b.ty.Contents Val → y.ty.Contents Val) (ha hb hy) :
    ∀ d ∈ (binary (τ := τ) a b y f ha hb hy).writes, d.idx.val = y.idx.val := fun d hd => by
  rw [binary_writes, Finset.mem_singleton] at hd; rw [hd]
theorem ternary_ranked (f : c.ty.Contents Val → a.ty.Contents Val → b.ty.Contents Val → y.ty.Contents Val) (hc ha hb hy) :
    ∀ d ∈ (ternary (τ := τ) c a b y f hc ha hb hy).writes, d.idx.val = y.idx.val := fun d hd => by
  rw [ternary_writes, Finset.mem_singleton] at hd; rw [hd]
theorem reshape_ranked (he hn hx hy) :
    ∀ d ∈ (reshape (τ := τ) (Val := Val) x y he hn hx hy).writes, d.idx.val = y.idx.val := fun d hd => by
  rw [reshape_writes, Finset.mem_singleton] at hd; rw [hd]
theorem nary_ranked {n : ℕ} (xs : Fin n → Ref sig .tc) (f : ((k : Fin n) → (xs k).ty.Contents Val) → y.ty.Contents Val) (hxs hy) :
    ∀ d ∈ (nary (τ := τ) xs y f hxs hy).writes, d.idx.val = y.idx.val := fun d hd => by
  rw [nary_writes, Finset.mem_singleton] at hd; rw [hd]

theorem nullary_dep (v : y.ty.Contents Val) (hy) : Dep (nullary (τ := τ) y v hy) := fun F G d hd _ => by
  rw [nullary_writes, Finset.mem_singleton] at hd; subst hd
  rw [nullary_result, nullary_result]
theorem unary_dep (f : x.ty.Contents Val → y.ty.Contents Val) (hx hy) (h : x.idx.val < y.idx.val) :
    Dep (unary (τ := τ) x y f hx hy) := fun F G d hd hFG => by
  rw [unary_writes, Finset.mem_singleton] at hd; subst hd
  rw [unary_result, unary_result, hFG (Proc.devRef .tc x) h]
theorem binary_dep (f : a.ty.Contents Val → b.ty.Contents Val → y.ty.Contents Val) (ha hb hy)
    (h₁ : a.idx.val < y.idx.val) (h₂ : b.idx.val < y.idx.val) :
    Dep (binary (τ := τ) a b y f ha hb hy) := fun F G d hd hFG => by
  rw [binary_writes, Finset.mem_singleton] at hd; subst hd
  rw [binary_result, binary_result, hFG (Proc.devRef .tc a) h₁, hFG (Proc.devRef .tc b) h₂]
theorem ternary_dep (f : c.ty.Contents Val → a.ty.Contents Val → b.ty.Contents Val → y.ty.Contents Val) (hc ha hb hy)
    (h₀ : c.idx.val < y.idx.val) (h₁ : a.idx.val < y.idx.val) (h₂ : b.idx.val < y.idx.val) :
    Dep (ternary (τ := τ) c a b y f hc ha hb hy) := fun F G d hd hFG => by
  rw [ternary_writes, Finset.mem_singleton] at hd; subst hd
  rw [ternary_result, ternary_result, hFG (Proc.devRef .tc c) h₀, hFG (Proc.devRef .tc a) h₁, hFG (Proc.devRef .tc b) h₂]
theorem reshape_dep (he hn hx hy) (h : x.idx.val < y.idx.val) :
    Dep (reshape (τ := τ) (Val := Val) x y he hn hx hy) := fun F G d hd hFG => by
  rw [reshape_writes, Finset.mem_singleton] at hd; subst hd
  rw [reshape_result, reshape_result, hFG (Proc.devRef .tc x) h]
theorem nary_dep {n : ℕ} (xs : Fin n → Ref sig .tc) (f : ((k : Fin n) → (xs k).ty.Contents Val) → y.ty.Contents Val) (hxs hy)
    (h : ∀ k, (xs k).idx.val < y.idx.val) :
    Dep (nary (τ := τ) xs y f hxs hy) := fun F G d hd hFG => by
  rw [nary_writes, Finset.mem_singleton] at hd; subst hd
  rw [nary_result, nary_result]
  exact congrArg f (funext fun k => hFG (Proc.devRef .tc (xs k)) (h k))

end Builders

end Cert.ReferenceIdeal.Hand
-- ==== Proof.Ref.Tac.lean ====
/- The four walks over a literal list of host operations used by the reference's run: every builder touches
   TensorCore references only, leaves no buffer undetermined, writes the one buffer of its position's index, and reads
   lower buffers only. Each walk splits the list's conjunction at its head and closes the head by the builder's lemma. -/
import proofs.«424088_j28020366639260_2_alg».proof.Proof.Ref.Ssa

namespace Cert.ReferenceIdeal.Hand

open Idealize.ShloMosaic Idealize.ShloMosaic.StableHlo

/-- Over a literal list: split the conjunction, and each builder touches TensorCore references only. -/
macro "bufs_sub_each" : tactic =>
  `(tactic| repeat' (first
      | refine (List.forall_cons _ _ _).mpr (And.intro ?_ ?_)
      | exact unary_bufs_sub ..
      | exact binary_bufs_sub ..
      | exact nullary_bufs_sub ..
      | exact reshape_bufs_sub ..
      | exact ternary_bufs_sub ..
      | exact nary_bufs_sub ..
      | exact trivial))

/-- Over a literal list: split the conjunction, and no builder here leaves a buffer undetermined. -/
macro "fresh_each" : tactic =>
  `(tactic| repeat' (first | refine (List.forall_cons _ _ _).mpr (And.intro ?_ ?_) | exact trivial | rfl))

/-- Over a literal list: each operation writes the one buffer whose index is its position. -/
macro "ranked_each" : tactic =>
  `(tactic| repeat' (first
      | refine Ranked.cons (ranked_of_writes rfl rfl) ?_
      | exact Ranked.nil))

/-- Over a literal list: each builder's operands have lower index than its result. -/
macro "dep_each" : tactic =>
  `(tactic| repeat' (first
      | refine (List.forall_cons _ _ _).mpr (And.intro ?_ ?_)
      | exact unary_dep _ _ _ _ _ (by decide)
      | exact binary_dep _ _ _ _ _ _ _ (by decide) (by decide)
      | exact nullary_dep _ _ _
      | exact reshape_dep _ _ _ _ _ _ (by decide)
      | exact ternary_dep _ _ _ _ _ _ _ _ _ (by decide) (by decide) (by decide)
      | exact nary_dep _ _ _ _ _ (by decide)
      | exact trivial))

end Cert.ReferenceIdeal.Hand
-- ==== Proof.Ref.RunA.lean ====
/- Window 0 of the reference's @main: it is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops0 := by
  simp only [main_part0, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops0_sub : (ops0 : List (HloOp τ sig (Elt F))).Forall fun op => op.bufs ⊆ tcRefs τ sig := by bufs_sub_each
set_option maxRecDepth 8192 in
set_option maxHeartbeats 4000000 in
theorem ops0_fresh : (ops0 : List (HloOp τ sig (Elt F))).Forall fun op => op.fresh = ∅ := by fresh_each

end Cert.ReferenceIdeal.Hand

end
-- ==== Proof.Ref.RunB.lean ====
/- Windows 1 and 2 of the reference's @main: each is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part1_eq (c : Dev nD) : main_part1 (F := F) c = seq ops1 := by
  simp only [main_part1, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops1_sub : (ops1 : List (HloOp τ sig (Elt F))).Forall fun op => op.bufs ⊆ tcRefs τ sig := by bufs_sub_each
set_option maxRecDepth 8192 in
set_option maxHeartbeats 4000000 in
theorem ops1_fresh : (ops1 : List (HloOp τ sig (Elt F))).Forall fun op => op.fresh = ∅ := by fresh_each

set_option maxRecDepth 8192 in
set_option maxHeartbeats 4000000 in
theorem main_part2_eq (c : Dev nD) : main_part2 (F := F) c = seq ops2 := by
  simp only [main_part2, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops2_sub : (ops2 : List (HloOp τ sig (Elt F))).Forall fun op => op.bufs ⊆ tcRefs τ sig := by bufs_sub_each
set_option maxRecDepth 8192 in
set_option maxHeartbeats 4000000 in
theorem ops2_fresh : (ops2 : List (HloOp τ sig (Elt F))).Forall fun op => op.fresh = ∅ := by fresh_each

end Cert.ReferenceIdeal.Hand

end
-- ==== Proof.Ref.RunC.lean ====
/- Windows 3 and 4 of the reference's @main: each is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part3_eq (c : Dev nD) : main_part3 (F := F) c = seq ops3 := by
  simp only [main_part3, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops3_sub : (ops3 : List (HloOp τ sig (Elt F))).Forall fun op => op.bufs ⊆ tcRefs τ sig := by bufs_sub_each
set_option maxRecDepth 8192 in
set_option maxHeartbeats 4000000 in
theorem ops3_fresh : (ops3 : List (HloOp τ sig (Elt F))).Forall fun op => op.fresh = ∅ := by fresh_each

set_option maxRecDepth 8192 in
set_option maxHeartbeats 4000000 in
theorem main_part4_eq (c : Dev nD) : main_part4 (F := F) c = seq ops4 := by
  simp only [main_part4, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops4_sub : (ops4 : List (HloOp τ sig (Elt F))).Forall fun op => op.bufs ⊆ tcRefs τ sig := by bufs_sub_each
set_option maxRecDepth 8192 in
set_option maxHeartbeats 4000000 in
theorem ops4_fresh : (ops4 : List (HloOp τ sig (Elt F))).Forall fun op => op.fresh = ∅ := by fresh_each

end Cert.ReferenceIdeal.Hand

end
-- ==== Proof.Ref.RunD.lean ====
/- Window 5 of the reference's @main: it is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part5_eq (c : Dev nD) : main_part5 (F := F) c = seq ops5 := by
  simp only [main_part5, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops5_sub : (ops5 : List (HloOp τ sig (Elt F))).Forall fun op => op.bufs ⊆ tcRefs τ sig := by bufs_sub_each
set_option maxRecDepth 8192 in
set_option maxHeartbeats 4000000 in
theorem ops5_fresh : (ops5 : List (HloOp τ sig (Elt F))).Forall fun op => op.fresh = ∅ := by fresh_each

end Cert.ReferenceIdeal.Hand

end
-- ==== Proof.Ref.RunE.lean ====
/- Window 6 of the reference's @main: it is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part6_eq (c : Dev nD) : main_part6 (F := F) c = seq ops6 := by
  simp only [main_part6, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops6_sub : (ops6 : List (HloOp τ sig (Elt F))).Forall fun op => op.bufs ⊆ tcRefs τ sig := by bufs_sub_each
set_option maxRecDepth 8192 in
set_option maxHeartbeats 4000000 in
theorem ops6_fresh : (ops6 : List (HloOp τ sig (Elt F))).Forall fun op => op.fresh = ∅ := by fresh_each

end Cert.ReferenceIdeal.Hand

end
-- ==== Proof.Ref.RunF.lean ====
/- Windows 7 and 8 of the reference's @main: each is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part7_eq (c : Dev nD) : main_part7 (F := F) c = seq ops7 := by
  simp only [main_part7, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops7_sub : (ops7 : List (HloOp τ sig (Elt F))).Forall fun op => op.bufs ⊆ tcRefs τ sig := by bufs_sub_each
set_option maxRecDepth 8192 in
set_option maxHeartbeats 4000000 in
theorem ops7_fresh : (ops7 : List (HloOp τ sig (Elt F))).Forall fun op => op.fresh = ∅ := by fresh_each

set_option maxRecDepth 8192 in
set_option maxHeartbeats 4000000 in
theorem main_part8_eq (c : Dev nD) : main_part8 (F := F) c = seq ops8 := by
  simp only [main_part8, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops8_sub : (ops8 : List (HloOp τ sig (Elt F))).Forall fun op => op.bufs ⊆ tcRefs τ sig := by bufs_sub_each
set_option maxRecDepth 8192 in
set_option maxHeartbeats 4000000 in
theorem ops8_fresh : (ops8 : List (HloOp τ sig (Elt F))).Forall fun op => op.fresh = ∅ := by fresh_each

end Cert.ReferenceIdeal.Hand

end
-- ==== Proof.Ref.RunG.lean ====
/- Windows 9 and 10 of the reference's @main: each is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part9_eq (c : Dev nD) : main_part9 (F := F) c = seq ops9 := by
  simp only [main_part9, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops9_sub : (ops9 : List (HloOp τ sig (Elt F))).Forall fun op => op.bufs ⊆ tcRefs τ sig := by bufs_sub_each
set_option maxRecDepth 8192 in
set_option maxHeartbeats 4000000 in
theorem ops9_fresh : (ops9 : List (HloOp τ sig (Elt F))).Forall fun op => op.fresh = ∅ := by fresh_each

set_option maxRecDepth 8192 in
set_option maxHeartbeats 4000000 in
theorem main_part10_eq (c : Dev nD) : main_part10 (F := F) c = seq ops10 := by
  simp only [main_part10, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops10_sub : (ops10 : List (HloOp τ sig (Elt F))).Forall fun op => op.bufs ⊆ tcRefs τ sig := by bufs_sub_each
set_option maxRecDepth 8192 in
set_option maxHeartbeats 4000000 in
theorem ops10_fresh : (ops10 : List (HloOp τ sig (Elt F))).Forall fun op => op.fresh = ∅ := by fresh_each

end Cert.ReferenceIdeal.Hand

end
-- ==== Proof.Ref.RunH.lean ====
/- Window 11 of the reference's @main: it is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part11_eq (c : Dev nD) : main_part11 (F := F) c = seq ops11 := by
  simp only [main_part11, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops11_sub : (ops11 : List (HloOp τ sig (Elt F))).Forall fun op => op.bufs ⊆ tcRefs τ sig := by bufs_sub_each
set_option maxRecDepth 8192 in
set_option maxHeartbeats 4000000 in
theorem ops11_fresh : (ops11 : List (HloOp τ sig (Elt F))).Forall fun op => op.fresh = ∅ := by fresh_each

end Cert.ReferenceIdeal.Hand

end
-- ==== Proof.Ref.RunI.lean ====
/- Window 12 of the reference's @main: it is its list of host operations run in order (a call of an outlined function
   is that function's chain over the call's record; unfolding and re-associating leaves the list's chain), and each
   operation of the list touches TensorCore references only and determines what it writes. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part12_eq (c : Dev nD) : main_part12 (F := F) c = seq ops12 := by
  simp only [main_part12, fn_var.body, fn_var_0.body, fn_var_2.body, fn_var_4.body, fn_where.body, fn_relu.body, fn_relu_1.body, fn_relu_3.body, fn_relu_5.body, fn_norm.body, seq, bind_assoc, pure_bind]
  all_goals rfl

set_option maxRecDepth 8192 in
set_option maxHeartbeats 4000000 in
theorem ops12_sub : (ops12 : List (HloOp τ sig (Elt F))).Forall fun op => op.bufs ⊆ tcRefs τ sig := by bufs_sub_each
set_option maxRecDepth 8192 in
set_option maxHeartbeats 4000000 in
theorem ops12_fresh : (ops12 : List (HloOp τ sig (Elt F))).Forall fun op => op.fresh = ∅ := by fresh_each

end Cert.ReferenceIdeal.Hand

end
-- ==== Proof.Ref.Run.lean ====
/- The reference program's run: @main is its list of host operations run in order, window by window; every
   operation touches TensorCore buffers only and determines what it writes; hence every weakly fair execution
   ends with each buffer at the fold of the operations over the launch contents, and the arguments, which no
   operation writes, end as launched. -/
import proofs.«424088_j28020366639260_2_alg».proof.Proof.Ref.RunA
import proofs.«424088_j28020366639260_2_alg».proof.Proof.Ref.RunB
import proofs.«424088_j28020366639260_2_alg».proof.Proof.Ref.RunC
import proofs.«424088_j28020366639260_2_alg».proof.Proof.Ref.RunD
import proofs.«424088_j28020366639260_2_alg».proof.Proof.Ref.RunE
import proofs.«424088_j28020366639260_2_alg».proof.Proof.Ref.RunF
import proofs.«424088_j28020366639260_2_alg».proof.Proof.Ref.RunG
import proofs.«424088_j28020366639260_2_alg».proof.Proof.Ref.RunH
import proofs.«424088_j28020366639260_2_alg».proof.Proof.Ref.RunI

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is its list, run in order

Each window of @main is its own list run in order (Ref/RunA … RunI); @main runs the windows in order. -/

/-- @main runs its windows in order, and a concatenation runs as its parts in order. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c]
  all_goals rfl

theorem scopedRefs_eq : (Finset.univ.filter fun b : Ref sig .tc => b.isScoped) = ∅ := by decide
theorem scopedSems_eq : (Finset.univ.filter fun sm : SemLoc sig => sm.isScoped .tc) = ∅ := by decide

/-! ## What the operations touch

Window by window in Ref/RunA … RunI; a property of every operation of each window holds of every operation of the line. -/

theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub (forall_append ops7_sub (forall_append ops8_sub (forall_append ops9_sub (forall_append ops10_sub (forall_append ops11_sub (ops12_sub))))))))))))

theorem ops_fresh : (ops : List (HloOp τ sig (Elt F))).Forall fun op => op.fresh = ∅ :=
  forall_append ops0_fresh (forall_append ops1_fresh (forall_append ops2_fresh (forall_append ops3_fresh (forall_append ops4_fresh (forall_append ops5_fresh (forall_append ops6_fresh (forall_append ops7_fresh (forall_append ops8_fresh (forall_append ops9_fresh (forall_append ops10_fresh (forall_append ops11_fresh (ops12_fresh))))))))))))

/-! ## The run -/

/-- From any memory with zero counters, for any float values: every weakly fair execution of @main terminates, and
    every final state has each TensorCore buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Hand

end
-- ==== Proof.Ref.FixA.lean ====
/- Windows 0, 1, 2, 3 of the reference's line: operation k of the whole line writes buffer 23 + k of the HBM table (the 23
   arguments come first), and every operand of an operation was made earlier; both read off the literal lists. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem ranked_ops0 : Ranked 23 (ops0 : List (HloOp τ sig (Elt F))) := by ranked_each
set_option maxRecDepth 8192 in
set_option maxHeartbeats 4000000 in
theorem dep_ops0 : (ops0 : List (HloOp τ sig (Elt F))).Forall Dep := by dep_each

set_option maxRecDepth 8192 in
set_option maxHeartbeats 4000000 in
theorem ranked_ops1 : Ranked 127 (ops1 : List (HloOp τ sig (Elt F))) := by ranked_each
set_option maxRecDepth 8192 in
set_option maxHeartbeats 4000000 in
theorem dep_ops1 : (ops1 : List (HloOp τ sig (Elt F))).Forall Dep := by dep_each

set_option maxRecDepth 8192 in
set_option maxHeartbeats 4000000 in
theorem ranked_ops2 : Ranked 193 (ops2 : List (HloOp τ sig (Elt F))) := by ranked_each
set_option maxRecDepth 8192 in
set_option maxHeartbeats 4000000 in
theorem dep_ops2 : (ops2 : List (HloOp τ sig (Elt F))).Forall Dep := by dep_each

set_option maxRecDepth 8192 in
set_option maxHeartbeats 4000000 in
theorem ranked_ops3 : Ranked 253 (ops3 : List (HloOp τ sig (Elt F))) := by ranked_each
set_option maxRecDepth 8192 in
set_option maxHeartbeats 4000000 in
theorem dep_ops3 : (ops3 : List (HloOp τ sig (Elt F))).Forall Dep := by dep_each

end Cert.ReferenceIdeal.Hand

end
-- ==== Proof.Ref.FixB.lean ====
/- Windows 4, 5, 6, 7 of the reference's line: operation k of the whole line writes buffer 23 + k of the HBM table (the 23
   arguments come first), and every operand of an operation was made earlier; both read off the literal lists. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem ranked_ops4 : Ranked 313 (ops4 : List (HloOp τ sig (Elt F))) := by ranked_each
set_option maxRecDepth 8192 in
set_option maxHeartbeats 4000000 in
theorem dep_ops4 : (ops4 : List (HloOp τ sig (Elt F))).Forall Dep := by dep_each

set_option maxRecDepth 8192 in
set_option maxHeartbeats 4000000 in
theorem ranked_ops5 : Ranked 373 (ops5 : List (HloOp τ sig (Elt F))) := by ranked_each
set_option maxRecDepth 8192 in
set_option maxHeartbeats 4000000 in
theorem dep_ops5 : (ops5 : List (HloOp τ sig (Elt F))).Forall Dep := by dep_each

set_option maxRecDepth 8192 in
set_option maxHeartbeats 4000000 in
theorem ranked_ops6 : Ranked 477 (ops6 : List (HloOp τ sig (Elt F))) := by ranked_each
set_option maxRecDepth 8192 in
set_option maxHeartbeats 4000000 in
theorem dep_ops6 : (ops6 : List (HloOp τ sig (Elt F))).Forall Dep := by dep_each

set_option maxRecDepth 8192 in
set_option maxHeartbeats 4000000 in
theorem ranked_ops7 : Ranked 583 (ops7 : List (HloOp τ sig (Elt F))) := by ranked_each
set_option maxRecDepth 8192 in
set_option maxHeartbeats 4000000 in
theorem dep_ops7 : (ops7 : List (HloOp τ sig (Elt F))).Forall Dep := by dep_each

end Cert.ReferenceIdeal.Hand

end
-- ==== Proof.Ref.FixC.lean ====
/- Windows 8, 9, 10, 11, 12 of the reference's line: operation k of the whole line writes buffer 23 + k of the HBM table (the 23
   arguments come first), and every operand of an operation was made earlier; both read off the literal lists. -/
import proofs.«424088_j28020366639260_2_alg».proof.Proof.Ref.Ops
import proofs.«424088_j28020366639260_2_alg».proof.Proof.Ref.Tac

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem ranked_ops8 : Ranked 645 (ops8 : List (HloOp τ sig (Elt F))) := by ranked_each
set_option maxRecDepth 8192 in
set_option maxHeartbeats 4000000 in
theorem dep_ops8 : (ops8 : List (HloOp τ sig (Elt F))).Forall Dep := by dep_each

set_option maxRecDepth 8192 in
set_option maxHeartbeats 4000000 in
theorem ranked_ops9 : Ranked 705 (ops9 : List (HloOp τ sig (Elt F))) := by ranked_each
set_option maxRecDepth 8192 in
set_option maxHeartbeats 4000000 in
theorem dep_ops9 : (ops9 : List (HloOp τ sig (Elt F))).Forall Dep := by dep_each

set_option maxRecDepth 8192 in
set_option maxHeartbeats 4000000 in
theorem ranked_ops10 : Ranked 765 (ops10 : List (HloOp τ sig (Elt F))) := by ranked_each
set_option maxRecDepth 8192 in
set_option maxHeartbeats 4000000 in
theorem dep_ops10 : (ops10 : List (HloOp τ sig (Elt F))).Forall Dep := by dep_each

set_option maxRecDepth 8192 in
set_option maxHeartbeats 4000000 in
theorem ranked_ops11 : Ranked 825 (ops11 : List (HloOp τ sig (Elt F))) := by ranked_each
set_option maxRecDepth 8192 in
set_option maxHeartbeats 4000000 in
theorem dep_ops11 : (ops11 : List (HloOp τ sig (Elt F))).Forall Dep := by dep_each

set_option maxRecDepth 8192 in
set_option maxHeartbeats 4000000 in
theorem ranked_ops12 : Ranked 931 (ops12 : List (HloOp τ sig (Elt F))) := by ranked_each
set_option maxRecDepth 8192 in
set_option maxHeartbeats 4000000 in
theorem dep_ops12 : (ops12 : List (HloOp τ sig (Elt F))).Forall Dep := by dep_each

end Cert.ReferenceIdeal.Hand

end
-- ==== Proof.Ref.Fix.lean ====
/- The reference's list of operations read in single-assignment style: operation k writes buffer 23 + k and reads
   lower buffers only, so the final contents of every result buffer are its operation's function of the final
   contents of its operands (Ref/Ssa.lean's fixed-point theorem at this list). -/
import proofs.«424088_j28020366639260_2_alg».proof.Proof.Ref.FixA
import proofs.«424088_j28020366639260_2_alg».proof.Proof.Ref.FixB
import proofs.«424088_j28020366639260_2_alg».proof.Proof.Ref.FixC

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The reference's line assigns once, in order, and each operation reads lower buffers only

Buffer 23 + k of the HBM table is the result of operation k (the 23 arguments come first), and every operand of an
operation was made earlier: both are read off the literal lists, window by window (Ref/FixA … FixC), and joined here. -/

theorem ranked_ops : Ranked 23 (ops : List (HloOp τ sig (Elt F))) :=
  (ranked_ops0).append ((ranked_ops1).append ((ranked_ops2).append ((ranked_ops3).append ((ranked_ops4).append ((ranked_ops5).append ((ranked_ops6).append ((ranked_ops7).append ((ranked_ops8).append ((ranked_ops9).append ((ranked_ops10).append ((ranked_ops11).append (ranked_ops12))))))))))))

theorem dep_ops : (ops : List (HloOp τ sig (Elt F))).Forall Dep :=
  forall_append dep_ops0 (forall_append dep_ops1 (forall_append dep_ops2 (forall_append dep_ops3 (forall_append dep_ops4 (forall_append dep_ops5 (forall_append dep_ops6 (forall_append dep_ops7 (forall_append dep_ops8 (forall_append dep_ops9 (forall_append dep_ops10 (forall_append dep_ops11 (dep_ops12))))))))))))

/-! ## Reading the final contents

The final contents of a result buffer are its operation's function of the FINAL contents of its operands; an
argument ends as it began. Three forms per builder: `mem_*` from membership in the line; `at_*` from the position `k`
in the whole line (operation number `k` writes buffer `23 + k`); `in_*` from the position in a window of the line
(the cheaper lookup). -/

/-- An argument (one of the first 23 buffers) is written by no operation. -/
theorem after_ops_arg (b : Ref sig .tc) (h : b.idx.val < 23) (V : Valuation τ sig (Elt F)) :
    after ops V (Proc.devRef .tc b) = V (Proc.devRef .tc b) :=
  after_of_lt ranked_ops V h

theorem mem_ops0 : ∀ op ∈ (ops0 : List (HloOp τ sig (Elt F))), op ∈ (ops : List (HloOp τ sig (Elt F))) :=
  fun _ h => List.mem_append_left _ h
theorem mem_ops1 : ∀ op ∈ (ops1 : List (HloOp τ sig (Elt F))), op ∈ (ops : List (HloOp τ sig (Elt F))) :=
  fun _ h => List.mem_append_right _ (List.mem_append_left _ h)
theorem mem_ops2 : ∀ op ∈ (ops2 : List (HloOp τ sig (Elt F))), op ∈ (ops : List (HloOp τ sig (Elt F))) :=
  fun _ h => List.mem_append_right _ (List.mem_append_right _ (List.mem_append_left _ h))
theorem mem_ops3 : ∀ op ∈ (ops3 : List (HloOp τ sig (Elt F))), op ∈ (ops : List (HloOp τ sig (Elt F))) :=
  fun _ h => List.mem_append_right _ (List.mem_append_right _ (List.mem_append_right _ (List.mem_append_left _ h)))
theorem mem_ops4 : ∀ op ∈ (ops4 : List (HloOp τ sig (Elt F))), op ∈ (ops : List (HloOp τ sig (Elt F))) :=
  fun _ h => List.mem_append_right _ (List.mem_append_right _ (List.mem_append_right _ (List.mem_append_right _ (List.mem_append_left _ h))))
theorem mem_ops5 : ∀ op ∈ (ops5 : List (HloOp τ sig (Elt F))), op ∈ (ops : List (HloOp τ sig (Elt F))) :=
  fun _ h => List.mem_append_right _ (List.mem_append_right _ (List.mem_append_right _ (List.mem_append_right _ (List.mem_append_right _ (List.mem_append_left _ h)))))
theorem mem_ops6 : ∀ op ∈ (ops6 : List (HloOp τ sig (Elt F))), op ∈ (ops : List (HloOp τ sig (Elt F))) :=
  fun _ h => List.mem_append_right _ (List.mem_append_right _ (List.mem_append_right _ (List.mem_append_right _ (List.mem_append_right _ (List.mem_append_right _ (List.mem_append_left _ h))))))
theorem mem_ops7 : ∀ op ∈ (ops7 : List (HloOp τ sig (Elt F))), op ∈ (ops : List (HloOp τ sig (Elt F))) :=
  fun _ h => List.mem_append_right _ (List.mem_append_right _ (List.mem_append_right _ (List.mem_append_right _ (List.mem_append_right _ (List.mem_append_right _ (List.mem_append_right _ (List.mem_append_left _ h)))))))
theorem mem_ops8 : ∀ op ∈ (ops8 : List (HloOp τ sig (Elt F))), op ∈ (ops : List (HloOp τ sig (Elt F))) :=
  fun _ h => List.mem_append_right _ (List.mem_append_right _ (List.mem_append_right _ (List.mem_append_right _ (List.mem_append_right _ (List.mem_append_right _ (List.mem_append_right _ (List.mem_append_right _ (List.mem_append_left _ h))))))))
theorem mem_ops9 : ∀ op ∈ (ops9 : List (HloOp τ sig (Elt F))), op ∈ (ops : List (HloOp τ sig (Elt F))) :=
  fun _ h => List.mem_append_right _ (List.mem_append_right _ (List.mem_append_right _ (List.mem_append_right _ (List.mem_append_right _ (List.mem_append_right _ (List.mem_append_right _ (List.mem_append_right _ (List.mem_append_right _ (List.mem_append_left _ h)))))))))
theorem mem_ops10 : ∀ op ∈ (ops10 : List (HloOp τ sig (Elt F))), op ∈ (ops : List (HloOp τ sig (Elt F))) :=
  fun _ h => List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))
theorem mem_ops11 : ∀ op ∈ (ops11 : List (HloOp τ sig (Elt F))), op ∈ (ops : List (HloOp τ sig (Elt F))) :=
  fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))
theorem mem_ops12 : ∀ op ∈ (ops12 : List (HloOp τ sig (Elt F))), op ∈ (ops : List (HloOp τ sig (Elt F))) :=
  fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h))))))))))))

theorem mem_nullary {y : Ref sig .tc} {v : y.ty.Contents (Elt F)} {hy}
    (h : nullary y v hy ∈ (ops : List (HloOp τ sig (Elt F)))) (V : Valuation τ sig (Elt F)) :
    after ops V (Proc.devRef .tc y) = v :=
  (after_fix ranked_ops dep_ops V _ h (Proc.devRef .tc y)
    (by rw [nullary_writes]; exact Finset.mem_singleton_self _)).trans (nullary_result ..)
theorem at_nullary (k : ℕ) {y : Ref sig .tc} {v : y.ty.Contents (Elt F)} {hy}
    (h : (ops : List (HloOp τ sig (Elt F)))[k]? = some (nullary y v hy)) (V : Valuation τ sig (Elt F)) :
    after ops V (Proc.devRef .tc y) = v :=
  mem_nullary (List.mem_of_getElem? h) V
theorem in_nullary {w : List (HloOp τ sig (Elt F))} (hw : ∀ op ∈ w, op ∈ (ops : List (HloOp τ sig (Elt F)))) (i : ℕ) {y : Ref sig .tc} {v : y.ty.Contents (Elt F)} {hy}
    (h : w[i]? = some (nullary y v hy)) (V : Valuation τ sig (Elt F)) :
    after ops V (Proc.devRef .tc y) = v :=
  mem_nullary (mem_of_sub_get? hw h) V

theorem mem_unary {x y : Ref sig .tc} {f : x.ty.Contents (Elt F) → y.ty.Contents (Elt F)} {hx hy}
    (h : unary x y f hx hy ∈ (ops : List (HloOp τ sig (Elt F)))) (V : Valuation τ sig (Elt F)) :
    after ops V (Proc.devRef .tc y) = f (after ops V (Proc.devRef .tc x)) :=
  (after_fix ranked_ops dep_ops V _ h (Proc.devRef .tc y)
    (by rw [unary_writes]; exact Finset.mem_singleton_self _)).trans (unary_result ..)
theorem at_unary (k : ℕ) {x y : Ref sig .tc} {f : x.ty.Contents (Elt F) → y.ty.Contents (Elt F)} {hx hy}
    (h : (ops : List (HloOp τ sig (Elt F)))[k]? = some (unary x y f hx hy)) (V : Valuation τ sig (Elt F)) :
    after ops V (Proc.devRef .tc y) = f (after ops V (Proc.devRef .tc x)) :=
  mem_unary (List.mem_of_getElem? h) V
theorem in_unary {w : List (HloOp τ sig (Elt F))} (hw : ∀ op ∈ w, op ∈ (ops : List (HloOp τ sig (Elt F)))) (i : ℕ) {x y : Ref sig .tc} {f : x.ty.Contents (Elt F) → y.ty.Contents (Elt F)} {hx hy}
    (h : w[i]? = some (unary x y f hx hy)) (V : Valuation τ sig (Elt F)) :
    after ops V (Proc.devRef .tc y) = f (after ops V (Proc.devRef .tc x)) :=
  mem_unary (mem_of_sub_get? hw h) V

theorem mem_binary {a b y : Ref sig .tc} {f : a.ty.Contents (Elt F) → b.ty.Contents (Elt F) → y.ty.Contents (Elt F)} {ha hb hy}
    (h : binary a b y f ha hb hy ∈ (ops : List (HloOp τ sig (Elt F)))) (V : Valuation τ sig (Elt F)) :
    after ops V (Proc.devRef .tc y) = f (after ops V (Proc.devRef .tc a)) (after ops V (Proc.devRef .tc b)) :=
  (after_fix ranked_ops dep_ops V _ h (Proc.devRef .tc y)
    (by rw [binary_writes]; exact Finset.mem_singleton_self _)).trans (binary_result ..)
theorem at_binary (k : ℕ) {a b y : Ref sig .tc} {f : a.ty.Contents (Elt F) → b.ty.Contents (Elt F) → y.ty.Contents (Elt F)} {ha hb hy}
    (h : (ops : List (HloOp τ sig (Elt F)))[k]? = some (binary a b y f ha hb hy)) (V : Valuation τ sig (Elt F)) :
    after ops V (Proc.devRef .tc y) = f (after ops V (Proc.devRef .tc a)) (after ops V (Proc.devRef .tc b)) :=
  mem_binary (List.mem_of_getElem? h) V
theorem in_binary {w : List (HloOp τ sig (Elt F))} (hw : ∀ op ∈ w, op ∈ (ops : List (HloOp τ sig (Elt F)))) (i : ℕ) {a b y : Ref sig .tc} {f : a.ty.Contents (Elt F) → b.ty.Contents (Elt F) → y.ty.Contents (Elt F)} {ha hb hy}
    (h : w[i]? = some (binary a b y f ha hb hy)) (V : Valuation τ sig (Elt F)) :
    after ops V (Proc.devRef .tc y) = f (after ops V (Proc.devRef .tc a)) (after ops V (Proc.devRef .tc b)) :=
  mem_binary (mem_of_sub_get? hw h) V

theorem mem_ternary {c a b y : Ref sig .tc} {f : c.ty.Contents (Elt F) → a.ty.Contents (Elt F) → b.ty.Contents (Elt F) → y.ty.Contents (Elt F)} {hc ha hb hy}
    (h : ternary c a b y f hc ha hb hy ∈ (ops : List (HloOp τ sig (Elt F)))) (V : Valuation τ sig (Elt F)) :
    after ops V (Proc.devRef .tc y) = f (after ops V (Proc.devRef .tc c)) (after ops V (Proc.devRef .tc a)) (after ops V (Proc.devRef .tc b)) :=
  (after_fix ranked_ops dep_ops V _ h (Proc.devRef .tc y)
    (by rw [ternary_writes]; exact Finset.mem_singleton_self _)).trans (ternary_result ..)
theorem at_ternary (k : ℕ) {c a b y : Ref sig .tc} {f : c.ty.Contents (Elt F) → a.ty.Contents (Elt F) → b.ty.Contents (Elt F) → y.ty.Contents (Elt F)} {hc ha hb hy}
    (h : (ops : List (HloOp τ sig (Elt F)))[k]? = some (ternary c a b y f hc ha hb hy)) (V : Valuation τ sig (Elt F)) :
    after ops V (Proc.devRef .tc y) = f (after ops V (Proc.devRef .tc c)) (after ops V (Proc.devRef .tc a)) (after ops V (Proc.devRef .tc b)) :=
  mem_ternary (List.mem_of_getElem? h) V
theorem in_ternary {w : List (HloOp τ sig (Elt F))} (hw : ∀ op ∈ w, op ∈ (ops : List (HloOp τ sig (Elt F)))) (i : ℕ) {c a b y : Ref sig .tc} {f : c.ty.Contents (Elt F) → a.ty.Contents (Elt F) → b.ty.Contents (Elt F) → y.ty.Contents (Elt F)} {hc ha hb hy}
    (h : w[i]? = some (ternary c a b y f hc ha hb hy)) (V : Valuation τ sig (Elt F)) :
    after ops V (Proc.devRef .tc y) = f (after ops V (Proc.devRef .tc c)) (after ops V (Proc.devRef .tc a)) (after ops V (Proc.devRef .tc b)) :=
  mem_ternary (mem_of_sub_get? hw h) V

theorem mem_reshape {x y : Ref sig .tc} {he hn hx hy}
    (h : reshape x y he hn hx hy ∈ (ops : List (HloOp τ sig (Elt F)))) (V : Valuation τ sig (Elt F)) :
    after ops V (Proc.devRef .tc y) = fun i => he ▸ shapeCast y.ty.shape (after ops V (Proc.devRef .tc x)) hn i :=
  (after_fix ranked_ops dep_ops V _ h (Proc.devRef .tc y)
    (by rw [reshape_writes]; exact Finset.mem_singleton_self _)).trans (reshape_result ..)
theorem at_reshape (k : ℕ) {x y : Ref sig .tc} {he hn hx hy}
    (h : (ops : List (HloOp τ sig (Elt F)))[k]? = some (reshape x y he hn hx hy)) (V : Valuation τ sig (Elt F)) :
    after ops V (Proc.devRef .tc y) = fun i => he ▸ shapeCast y.ty.shape (after ops V (Proc.devRef .tc x)) hn i :=
  mem_reshape (List.mem_of_getElem? h) V
theorem in_reshape {w : List (HloOp τ sig (Elt F))} (hw : ∀ op ∈ w, op ∈ (ops : List (HloOp τ sig (Elt F)))) (i : ℕ) {x y : Ref sig .tc} {he hn hx hy}
    (h : w[i]? = some (reshape x y he hn hx hy)) (V : Valuation τ sig (Elt F)) :
    after ops V (Proc.devRef .tc y) = fun i => he ▸ shapeCast y.ty.shape (after ops V (Proc.devRef .tc x)) hn i :=
  mem_reshape (mem_of_sub_get? hw h) V

theorem mem_nary {n : ℕ} {xs : Fin n → Ref sig .tc} {y : Ref sig .tc} {f : ((j : Fin n) → (xs j).ty.Contents (Elt F)) → y.ty.Contents (Elt F)} {hxs hy}
    (h : nary xs y f hxs hy ∈ (ops : List (HloOp τ sig (Elt F)))) (V : Valuation τ sig (Elt F)) :
    after ops V (Proc.devRef .tc y) = f (fun j => after ops V (Proc.devRef .tc (xs j))) :=
  (after_fix ranked_ops dep_ops V _ h (Proc.devRef .tc y)
    (by rw [nary_writes]; exact Finset.mem_singleton_self _)).trans (nary_result ..)
theorem at_nary (k : ℕ) {n : ℕ} {xs : Fin n → Ref sig .tc} {y : Ref sig .tc} {f : ((j : Fin n) → (xs j).ty.Contents (Elt F)) → y.ty.Contents (Elt F)} {hxs hy}
    (h : (ops : List (HloOp τ sig (Elt F)))[k]? = some (nary xs y f hxs hy)) (V : Valuation τ sig (Elt F)) :
    after ops V (Proc.devRef .tc y) = f (fun j => after ops V (Proc.devRef .tc (xs j))) :=
  mem_nary (List.mem_of_getElem? h) V
theorem in_nary {w : List (HloOp τ sig (Elt F))} (hw : ∀ op ∈ w, op ∈ (ops : List (HloOp τ sig (Elt F)))) (i : ℕ) {n : ℕ} {xs : Fin n → Ref sig .tc} {y : Ref sig .tc} {f : ((j : Fin n) → (xs j).ty.Contents (Elt F)) → y.ty.Contents (Elt F)} {hxs hy}
    (h : w[i]? = some (nary xs y f hxs hy)) (V : Valuation τ sig (Elt F)) :
    after ops V (Proc.devRef .tc y) = f (fun j => after ops V (Proc.devRef .tc (xs j))) :=
  mem_nary (mem_of_sub_get? hw h) V

/-- The reading lemmas at work: the first linear layer's bias add, by its position in the line and in window 0. -/
example (V : Valuation τ sig (Elt F)) :
    after ops V (Proc.devRef .tc main_v4) = addf (after ops V (Proc.devRef .tc main_v1)) (after ops V (Proc.devRef .tc main_v3)) :=
  at_binary 4 rfl V
example (V : Valuation τ sig (Elt F)) :
    after ops V (Proc.devRef .tc main_v4) = addf (after ops V (Proc.devRef .tc main_v1)) (after ops V (Proc.devRef .tc main_v3)) :=
  in_binary mem_ops0 4 rfl V

end Cert.ReferenceIdeal.Hand

end
-- ==== Proof.Ref.Frame.lean ====
/- The reference program's frame: it runs, and each of its 23 arguments ends as launched, because the line's
   operations write result buffers only (buffers 23 and up). -/
import proofs.«424088_j28020366639260_2_alg».proof.Proof.Ref.Run
import proofs.«424088_j28020366639260_2_alg».proof.Proof.Ref.Fix

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An argument's final contents are its launch contents. -/
theorem arg_kept (m : (ℓ : Loc nD τ sig) → Buf (Elt F) ℓ) (c : Dev nD) (b : Ref sig .tc) (h : b.idx.val < 23) :
    after ops (launchContents m c) (Proc.devRef .tc b) = m ((c.tc : Thread nD τ).loc b) :=
  after_ops_arg b h (launchContents m c)

/-- Every weakly fair execution of @main terminates, and the argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono
    (fun _ h c => ⟨(h c main_arg0).trans (arg_kept m c main_arg0 (by decide)),
      (h c main_arg1).trans (arg_kept m c main_arg1 (by decide)),
      (h c main_arg2).trans (arg_kept m c main_arg2 (by decide)),
      (h c main_arg3).trans (arg_kept m c main_arg3 (by decide)),
      (h c main_arg4).trans (arg_kept m c main_arg4 (by decide)),
      (h c main_arg5).trans (arg_kept m c main_arg5 (by decide)),
      (h c main_arg6).trans (arg_kept m c main_arg6 (by decide)),
      (h c main_arg7).trans (arg_kept m c main_arg7 (by decide)),
      (h c main_arg8).trans (arg_kept m c main_arg8 (by decide)),
      (h c main_arg9).trans (arg_kept m c main_arg9 (by decide)),
      (h c main_arg10).trans (arg_kept m c main_arg10 (by decide)),
      (h c main_arg11).trans (arg_kept m c main_arg11 (by decide)),
      (h c main_arg12).trans (arg_kept m c main_arg12 (by decide)),
      (h c main_arg13).trans (arg_kept m c main_arg13 (by decide)),
      (h c main_arg14).trans (arg_kept m c main_arg14 (by decide)),
      (h c main_arg15).trans (arg_kept m c main_arg15 (by decide)),
      (h c main_arg16).trans (arg_kept m c main_arg16 (by decide)),
      (h c main_arg17).trans (arg_kept m c main_arg17 (by decide)),
      (h c main_arg18).trans (arg_kept m c main_arg18 (by decide)),
      (h c main_arg19).trans (arg_kept m c main_arg19 (by decide)),
      (h c main_arg20).trans (arg_kept m c main_arg20 (by decide)),
      (h c main_arg21).trans (arg_kept m c main_arg21 (by decide)),
      (h c main_arg22).trans (arg_kept m c main_arg22 (by decide))⟩)
    (run_after m ρ)

end Cert.ReferenceIdeal.Hand

end
-- ==== Proof.Val.AlgebraicGen.lean ====
import proofs.«424088_j28020366639260_2_alg».proof.Defs
import proofs.«424088_j28020366639260_2_alg».proof.Proof.Gen.KernelIdeal
import proofs.«424088_j28020366639260_2_alg».proof.Proof.Gen.ReferenceIdeal
import proofs.«424088_j28020366639260_2_alg».proof.Proof.Gen.Pre_finite_inputs
import Idealize.ShloMosaic.Lib.Pipeline.Frame
import Idealize.ShloMosaic.Lib.StableHlo.Run

/-!
  The shape of the algebraic claim: two runs, each ending with every buffer at known contents, whose
  contents agree at the result buffer and keep the arguments, give the claim's two posts with one
  common result.
-/

noncomputable section

namespace Cert.Val

open Idealize.ShloMosaic Idealize.SL.Sem

/-- An unscoped TensorCore reference is among the launch's unscoped buffers. -/
theorem mem_uc {τ : Topo} {sig : RefSig} (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The two posts of the algebraic claim for one pair of launches, from: the kernel program's run ending
    with contents `WW`, the reference's run ending with contents `AA`, both keeping the arguments, and
    the two result buffers equal. -/
theorem algebraic_posts
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (WW : Dev Cert.KernelIdeal.nD → Valuation Cert.KernelIdeal.τ Cert.KernelIdeal.sig (Elt Ideal))
    (AA : Dev Cert.ReferenceIdeal.nD → Valuation Cert.ReferenceIdeal.τ Cert.ReferenceIdeal.sig (Elt Ideal))
    (hK : θ_run (Cert.KernelIdeal.defs (F := Ideal)) (onTc (τ := Cert.KernelIdeal.τ) (Cert.KernelIdeal.main (F := Ideal)))
      ⟨m, fun _ => 0, g⟩ (fun r => ∀ c : Dev Cert.KernelIdeal.nD, ∀ b ∈ Pipeline.ucRefs Cert.KernelIdeal.τ Cert.KernelIdeal.sig,
        r.2.mem ((c.tc : Thread Cert.KernelIdeal.nD Cert.KernelIdeal.τ).1, b) = WW c b))
    (hKargs : ∀ c : Dev Cert.KernelIdeal.nD,
      WW c (Proc.devRef .tc Cert.KernelIdeal.main_arg0) = m ((c.tc : Thread Cert.KernelIdeal.nD Cert.KernelIdeal.τ).loc Cert.KernelIdeal.main_arg0)
      ∧ WW c (Proc.devRef .tc Cert.KernelIdeal.main_arg1) = m ((c.tc : Thread Cert.KernelIdeal.nD Cert.KernelIdeal.τ).loc Cert.KernelIdeal.main_arg1)
      ∧ WW c (Proc.devRef .tc Cert.KernelIdeal.main_arg2) = m ((c.tc : Thread Cert.KernelIdeal.nD Cert.KernelIdeal.τ).loc Cert.KernelIdeal.main_arg2)
      ∧ WW c (Proc.devRef .tc Cert.KernelIdeal.main_arg3) = m ((c.tc : Thread Cert.KernelIdeal.nD Cert.KernelIdeal.τ).loc Cert.KernelIdeal.main_arg3)
      ∧ WW c (Proc.devRef .tc Cert.KernelIdeal.main_arg4) = m ((c.tc : Thread Cert.KernelIdeal.nD Cert.KernelIdeal.τ).loc Cert.KernelIdeal.main_arg4)
      ∧ WW c (Proc.devRef .tc Cert.KernelIdeal.main_arg5) = m ((c.tc : Thread Cert.KernelIdeal.nD Cert.KernelIdeal.τ).loc Cert.KernelIdeal.main_arg5)
      ∧ WW c (Proc.devRef .tc Cert.KernelIdeal.main_arg6) = m ((c.tc : Thread Cert.KernelIdeal.nD Cert.KernelIdeal.τ).loc Cert.KernelIdeal.main_arg6)
      ∧ WW c (Proc.devRef .tc Cert.KernelIdeal.main_arg7) = m ((c.tc : Thread Cert.KernelIdeal.nD Cert.KernelIdeal.τ).loc Cert.KernelIdeal.main_arg7)
      ∧ WW c (Proc.devRef .tc Cert.KernelIdeal.main_arg8) = m ((c.tc : Thread Cert.KernelIdeal.nD Cert.KernelIdeal.τ).loc Cert.KernelIdeal.main_arg8)
      ∧ WW c (Proc.devRef .tc Cert.KernelIdeal.main_arg9) = m ((c.tc : Thread Cert.KernelIdeal.nD Cert.KernelIdeal.τ).loc Cert.KernelIdeal.main_arg9)
      ∧ WW c (Proc.devRef .tc Cert.KernelIdeal.main_arg10) = m ((c.tc : Thread Cert.KernelIdeal.nD Cert.KernelIdeal.τ).loc Cert.KernelIdeal.main_arg10)
      ∧ WW c (Proc.devRef .tc Cert.KernelIdeal.main_arg11) = m ((c.tc : Thread Cert.KernelIdeal.nD Cert.KernelIdeal.τ).loc Cert.KernelIdeal.main_arg11)
      ∧ WW c (Proc.devRef .tc Cert.KernelIdeal.main_arg12) = m ((c.tc : Thread Cert.KernelIdeal.nD Cert.KernelIdeal.τ).loc Cert.KernelIdeal.main_arg12)
      ∧ WW c (Proc.devRef .tc Cert.KernelIdeal.main_arg13) = m ((c.tc : Thread Cert.KernelIdeal.nD Cert.KernelIdeal.τ).loc Cert.KernelIdeal.main_arg13)
      ∧ WW c (Proc.devRef .tc Cert.KernelIdeal.main_arg14) = m ((c.tc : Thread Cert.KernelIdeal.nD Cert.KernelIdeal.τ).loc Cert.KernelIdeal.main_arg14)
      ∧ WW c (Proc.devRef .tc Cert.KernelIdeal.main_arg15) = m ((c.tc : Thread Cert.KernelIdeal.nD Cert.KernelIdeal.τ).loc Cert.KernelIdeal.main_arg15)
      ∧ WW c (Proc.devRef .tc Cert.KernelIdeal.main_arg16) = m ((c.tc : Thread Cert.KernelIdeal.nD Cert.KernelIdeal.τ).loc Cert.KernelIdeal.main_arg16)
      ∧ WW c (Proc.devRef .tc Cert.KernelIdeal.main_arg17) = m ((c.tc : Thread Cert.KernelIdeal.nD Cert.KernelIdeal.τ).loc Cert.KernelIdeal.main_arg17)
      ∧ WW c (Proc.devRef .tc Cert.KernelIdeal.main_arg18) = m ((c.tc : Thread Cert.KernelIdeal.nD Cert.KernelIdeal.τ).loc Cert.KernelIdeal.main_arg18)
      ∧ WW c (Proc.devRef .tc Cert.KernelIdeal.main_arg19) = m ((c.tc : Thread Cert.KernelIdeal.nD Cert.KernelIdeal.τ).loc Cert.KernelIdeal.main_arg19)
      ∧ WW c (Proc.devRef .tc Cert.KernelIdeal.main_arg20) = m ((c.tc : Thread Cert.KernelIdeal.nD Cert.KernelIdeal.τ).loc Cert.KernelIdeal.main_arg20)
      ∧ WW c (Proc.devRef .tc Cert.KernelIdeal.main_arg21) = m ((c.tc : Thread Cert.KernelIdeal.nD Cert.KernelIdeal.τ).loc Cert.KernelIdeal.main_arg21)
      ∧ WW c (Proc.devRef .tc Cert.KernelIdeal.main_arg22) = m ((c.tc : Thread Cert.KernelIdeal.nD Cert.KernelIdeal.τ).loc Cert.KernelIdeal.main_arg22))
    (hR : θ_run (Cert.ReferenceIdeal.defs (F := Ideal)) (onTc (τ := Cert.ReferenceIdeal.τ) (Cert.ReferenceIdeal.main (F := Ideal)))
      ⟨m', fun _ => 0, g'⟩ (fun r => ∀ (c : Dev Cert.ReferenceIdeal.nD) (b : Ref Cert.ReferenceIdeal.sig .tc),
        r.2.mem ((c.tc : Thread Cert.ReferenceIdeal.nD Cert.ReferenceIdeal.τ).loc b) = AA c (Proc.devRef .tc b)))
    (hRargs : ∀ c : Dev Cert.ReferenceIdeal.nD,
      AA c (Proc.devRef .tc Cert.ReferenceIdeal.main_arg0) = m' ((c.tc : Thread Cert.ReferenceIdeal.nD Cert.ReferenceIdeal.τ).loc Cert.ReferenceIdeal.main_arg0)
      ∧ AA c (Proc.devRef .tc Cert.ReferenceIdeal.main_arg1) = m' ((c.tc : Thread Cert.ReferenceIdeal.nD Cert.ReferenceIdeal.τ).loc Cert.ReferenceIdeal.main_arg1)
      ∧ AA c (Proc.devRef .tc Cert.ReferenceIdeal.main_arg2) = m' ((c.tc : Thread Cert.ReferenceIdeal.nD Cert.ReferenceIdeal.τ).loc Cert.ReferenceIdeal.main_arg2)
      ∧ AA c (Proc.devRef .tc Cert.ReferenceIdeal.main_arg3) = m' ((c.tc : Thread Cert.ReferenceIdeal.nD Cert.ReferenceIdeal.τ).loc Cert.ReferenceIdeal.main_arg3)
      ∧ AA c (Proc.devRef .tc Cert.ReferenceIdeal.main_arg4) = m' ((c.tc : Thread Cert.ReferenceIdeal.nD Cert.ReferenceIdeal.τ).loc Cert.ReferenceIdeal.main_arg4)
      ∧ AA c (Proc.devRef .tc Cert.ReferenceIdeal.main_arg5) = m' ((c.tc : Thread Cert.ReferenceIdeal.nD Cert.ReferenceIdeal.τ).loc Cert.ReferenceIdeal.main_arg5)
      ∧ AA c (Proc.devRef .tc Cert.ReferenceIdeal.main_arg6) = m' ((c.tc : Thread Cert.ReferenceIdeal.nD Cert.ReferenceIdeal.τ).loc Cert.ReferenceIdeal.main_arg6)
      ∧ AA c (Proc.devRef .tc Cert.ReferenceIdeal.main_arg7) = m' ((c.tc : Thread Cert.ReferenceIdeal.nD Cert.ReferenceIdeal.τ).loc Cert.ReferenceIdeal.main_arg7)
      ∧ AA c (Proc.devRef .tc Cert.ReferenceIdeal.main_arg8) = m' ((c.tc : Thread Cert.ReferenceIdeal.nD Cert.ReferenceIdeal.τ).loc Cert.ReferenceIdeal.main_arg8)
      ∧ AA c (Proc.devRef .tc Cert.ReferenceIdeal.main_arg9) = m' ((c.tc : Thread Cert.ReferenceIdeal.nD Cert.ReferenceIdeal.τ).loc Cert.ReferenceIdeal.main_arg9)
      ∧ AA c (Proc.devRef .tc Cert.ReferenceIdeal.main_arg10) = m' ((c.tc : Thread Cert.ReferenceIdeal.nD Cert.ReferenceIdeal.τ).loc Cert.ReferenceIdeal.main_arg10)
      ∧ AA c (Proc.devRef .tc Cert.ReferenceIdeal.main_arg11) = m' ((c.tc : Thread Cert.ReferenceIdeal.nD Cert.ReferenceIdeal.τ).loc Cert.ReferenceIdeal.main_arg11)
      ∧ AA c (Proc.devRef .tc Cert.ReferenceIdeal.main_arg12) = m' ((c.tc : Thread Cert.ReferenceIdeal.nD Cert.ReferenceIdeal.τ).loc Cert.ReferenceIdeal.main_arg12)
      ∧ AA c (Proc.devRef .tc Cert.ReferenceIdeal.main_arg13) = m' ((c.tc : Thread Cert.ReferenceIdeal.nD Cert.ReferenceIdeal.τ).loc Cert.ReferenceIdeal.main_arg13)
      ∧ AA c (Proc.devRef .tc Cert.ReferenceIdeal.main_arg14) = m' ((c.tc : Thread Cert.ReferenceIdeal.nD Cert.ReferenceIdeal.τ).loc Cert.ReferenceIdeal.main_arg14)
      ∧ AA c (Proc.devRef .tc Cert.ReferenceIdeal.main_arg15) = m' ((c.tc : Thread Cert.ReferenceIdeal.nD Cert.ReferenceIdeal.τ).loc Cert.ReferenceIdeal.main_arg15)
      ∧ AA c (Proc.devRef .tc Cert.ReferenceIdeal.main_arg16) = m' ((c.tc : Thread Cert.ReferenceIdeal.nD Cert.ReferenceIdeal.τ).loc Cert.ReferenceIdeal.main_arg16)
      ∧ AA c (Proc.devRef .tc Cert.ReferenceIdeal.main_arg17) = m' ((c.tc : Thread Cert.ReferenceIdeal.nD Cert.ReferenceIdeal.τ).loc Cert.ReferenceIdeal.main_arg17)
      ∧ AA c (Proc.devRef .tc Cert.ReferenceIdeal.main_arg18) = m' ((c.tc : Thread Cert.ReferenceIdeal.nD Cert.ReferenceIdeal.τ).loc Cert.ReferenceIdeal.main_arg18)
      ∧ AA c (Proc.devRef .tc Cert.ReferenceIdeal.main_arg19) = m' ((c.tc : Thread Cert.ReferenceIdeal.nD Cert.ReferenceIdeal.τ).loc Cert.ReferenceIdeal.main_arg19)
      ∧ AA c (Proc.devRef .tc Cert.ReferenceIdeal.main_arg20) = m' ((c.tc : Thread Cert.ReferenceIdeal.nD Cert.ReferenceIdeal.τ).loc Cert.ReferenceIdeal.main_arg20)
      ∧ AA c (Proc.devRef .tc Cert.ReferenceIdeal.main_arg21) = m' ((c.tc : Thread Cert.ReferenceIdeal.nD Cert.ReferenceIdeal.τ).loc Cert.ReferenceIdeal.main_arg21)
      ∧ AA c (Proc.devRef .tc Cert.ReferenceIdeal.main_arg22) = m' ((c.tc : Thread Cert.ReferenceIdeal.nD Cert.ReferenceIdeal.τ).loc Cert.ReferenceIdeal.main_arg22))
    (hval : ∀ c : Dev Cert.KernelIdeal.nD,
      WW c (Proc.devRef .tc Cert.KernelIdeal.main_v538) = AA c (Proc.devRef .tc Cert.ReferenceIdeal.main_v660)) :
    ∃ (v0 : (c : Dev Cert.KernelIdeal.nD) → Buf (Elt Ideal) ((c.tc : Thread Cert.KernelIdeal.nD Cert.KernelIdeal.τ).loc Cert.KernelIdeal.main_v538)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v538) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v660) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)) := by
  refine ⟨fun c => WW c (Proc.devRef .tc Cert.KernelIdeal.main_v538), ?_, ?_⟩
  · refine (θ_run _ _ _).mono (fun r h c => ?_) hK
    exact ⟨h c _ (mem_uc Cert.KernelIdeal.main_v538 (by decide)),
      (h c _ (mem_uc Cert.KernelIdeal.main_arg0 (by decide))).trans (hKargs c).1,
      (h c _ (mem_uc Cert.KernelIdeal.main_arg1 (by decide))).trans (hKargs c).2.1,
      (h c _ (mem_uc Cert.KernelIdeal.main_arg2 (by decide))).trans (hKargs c).2.2.1,
      (h c _ (mem_uc Cert.KernelIdeal.main_arg3 (by decide))).trans (hKargs c).2.2.2.1,
      (h c _ (mem_uc Cert.KernelIdeal.main_arg4 (by decide))).trans (hKargs c).2.2.2.2.1,
      (h c _ (mem_uc Cert.KernelIdeal.main_arg5 (by decide))).trans (hKargs c).2.2.2.2.2.1,
      (h c _ (mem_uc Cert.KernelIdeal.main_arg6 (by decide))).trans (hKargs c).2.2.2.2.2.2.1,
      (h c _ (mem_uc Cert.KernelIdeal.main_arg7 (by decide))).trans (hKargs c).2.2.2.2.2.2.2.1,
      (h c _ (mem_uc Cert.KernelIdeal.main_arg8 (by decide))).trans (hKargs c).2.2.2.2.2.2.2.2.1,
      (h c _ (mem_uc Cert.KernelIdeal.main_arg9 (by decide))).trans (hKargs c).2.2.2.2.2.2.2.2.2.1,
      (h c _ (mem_uc Cert.KernelIdeal.main_arg10 (by decide))).trans (hKargs c).2.2.2.2.2.2.2.2.2.2.1,
      (h c _ (mem_uc Cert.KernelIdeal.main_arg11 (by decide))).trans (hKargs c).2.2.2.2.2.2.2.2.2.2.2.1,
      (h c _ (mem_uc Cert.KernelIdeal.main_arg12 (by decide))).trans (hKargs c).2.2.2.2.2.2.2.2.2.2.2.2.1,
      (h c _ (mem_uc Cert.KernelIdeal.main_arg13 (by decide))).trans (hKargs c).2.2.2.2.2.2.2.2.2.2.2.2.2.1,
      (h c _ (mem_uc Cert.KernelIdeal.main_arg14 (by decide))).trans (hKargs c).2.2.2.2.2.2.2.2.2.2.2.2.2.2.1,
      (h c _ (mem_uc Cert.KernelIdeal.main_arg15 (by decide))).trans (hKargs c).2.2.2.2.2.2.2.2.2.2.2.2.2.2.2.1,
      (h c _ (mem_uc Cert.KernelIdeal.main_arg16 (by decide))).trans (hKargs c).2.2.2.2.2.2.2.2.2.2.2.2.2.2.2.2.1,
      (h c _ (mem_uc Cert.KernelIdeal.main_arg17 (by decide))).trans (hKargs c).2.2.2.2.2.2.2.2.2.2.2.2.2.2.2.2.2.1,
      (h c _ (mem_uc Cert.KernelIdeal.main_arg18 (by decide))).trans (hKargs c).2.2.2.2.2.2.2.2.2.2.2.2.2.2.2.2.2.2.1,
      (h c _ (mem_uc Cert.KernelIdeal.main_arg19 (by decide))).trans (hKargs c).2.2.2.2.2.2.2.2.2.2.2.2.2.2.2.2.2.2.2.1,
      (h c _ (mem_uc Cert.KernelIdeal.main_arg20 (by decide))).trans (hKargs c).2.2.2.2.2.2.2.2.2.2.2.2.2.2.2.2.2.2.2.2.1,
      (h c _ (mem_uc Cert.KernelIdeal.main_arg21 (by decide))).trans (hKargs c).2.2.2.2.2.2.2.2.2.2.2.2.2.2.2.2.2.2.2.2.2.1,
      (h c _ (mem_uc Cert.KernelIdeal.main_arg22 (by decide))).trans (hKargs c).2.2.2.2.2.2.2.2.2.2.2.2.2.2.2.2.2.2.2.2.2.2⟩
  · refine (θ_run _ _ _).mono (fun r h c => ?_) hR
    exact ⟨(h c Cert.ReferenceIdeal.main_v660).trans (hval c).symm,
      (h c Cert.ReferenceIdeal.main_arg0).trans (hRargs c).1,
      (h c Cert.ReferenceIdeal.main_arg1).trans (hRargs c).2.1,
      (h c Cert.ReferenceIdeal.main_arg2).trans (hRargs c).2.2.1,
      (h c Cert.ReferenceIdeal.main_arg3).trans (hRargs c).2.2.2.1,
      (h c Cert.ReferenceIdeal.main_arg4).trans (hRargs c).2.2.2.2.1,
      (h c Cert.ReferenceIdeal.main_arg5).trans (hRargs c).2.2.2.2.2.1,
      (h c Cert.ReferenceIdeal.main_arg6).trans (hRargs c).2.2.2.2.2.2.1,
      (h c Cert.ReferenceIdeal.main_arg7).trans (hRargs c).2.2.2.2.2.2.2.1,
      (h c Cert.ReferenceIdeal.main_arg8).trans (hRargs c).2.2.2.2.2.2.2.2.1,
      (h c Cert.ReferenceIdeal.main_arg9).trans (hRargs c).2.2.2.2.2.2.2.2.2.1,
      (h c Cert.ReferenceIdeal.main_arg10).trans (hRargs c).2.2.2.2.2.2.2.2.2.2.1,
      (h c Cert.ReferenceIdeal.main_arg11).trans (hRargs c).2.2.2.2.2.2.2.2.2.2.2.1,
      (h c Cert.ReferenceIdeal.main_arg12).trans (hRargs c).2.2.2.2.2.2.2.2.2.2.2.2.1,
      (h c Cert.ReferenceIdeal.main_arg13).trans (hRargs c).2.2.2.2.2.2.2.2.2.2.2.2.2.1,
      (h c Cert.ReferenceIdeal.main_arg14).trans (hRargs c).2.2.2.2.2.2.2.2.2.2.2.2.2.2.1,
      (h c Cert.ReferenceIdeal.main_arg15).trans (hRargs c).2.2.2.2.2.2.2.2.2.2.2.2.2.2.2.1,
      (h c Cert.ReferenceIdeal.main_arg16).trans (hRargs c).2.2.2.2.2.2.2.2.2.2.2.2.2.2.2.2.1,
      (h c Cert.ReferenceIdeal.main_arg17).trans (hRargs c).2.2.2.2.2.2.2.2.2.2.2.2.2.2.2.2.2.1,
      (h c Cert.ReferenceIdeal.main_arg18).trans (hRargs c).2.2.2.2.2.2.2.2.2.2.2.2.2.2.2.2.2.2.1,
      (h c Cert.ReferenceIdeal.main_arg19).trans (hRargs c).2.2.2.2.2.2.2.2.2.2.2.2.2.2.2.2.2.2.2.1,
      (h c Cert.ReferenceIdeal.main_arg20).trans (hRargs c).2.2.2.2.2.2.2.2.2.2.2.2.2.2.2.2.2.2.2.2.1,
      (h c Cert.ReferenceIdeal.main_arg21).trans (hRargs c).2.2.2.2.2.2.2.2.2.2.2.2.2.2.2.2.2.2.2.2.2.1,
      (h c Cert.ReferenceIdeal.main_arg22).trans (hRargs c).2.2.2.2.2.2.2.2.2.2.2.2.2.2.2.2.2.2.2.2.2.2⟩

end Cert.Val

end
-- ==== Proof.Val.Keep.lean ====
/- The fold of buffer contents through @main, indexed by the number of items run: a buffer no item in a stretch
   writes holds at the stretch's end what it held at its start. -/
import proofs.«424088_j28020366639260_2_alg».proof.Proof.KI.Args
import Mathlib.Tactic.IntervalCases

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffer contents after the first `j` items of @main. -/
def Wn : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | 22 => W22 m ρ
  | 23 => W23 m ρ
  | 24 => W24 m ρ
  | 25 => W25 m ρ
  | 26 => W26 m ρ
  | 27 => W27 m ρ
  | 28 => W28 m ρ
  | 29 => W29 m ρ
  | 30 => W30 m ρ
  | 31 => W31 m ρ
  | 32 => W32 m ρ
  | 33 => W33 m ρ
  | 34 => W34 m ρ
  | 35 => W35 m ρ
  | 36 => W36 m ρ
  | 37 => W37 m ρ
  | 38 => W38 m ρ
  | 39 => W39 m ρ
  | _ => W40 m ρ

/-- Item `j` of @main does not write `r`, as a truth value: a host stretch none of whose results is `r`, a region none of
    whose output windows' arrays is `r`. -/
def keepsB (r : Ref sig .tc) : ℕ → Bool
  | 1 => decide (r ∉ hostOps0_W)
  | 2 => decide (∀ w : Fin cfg0.W, Pipeline.arrRef spec0 w = r → (cfg0.win w).isOut = false)
  | 3 => decide (r ∉ hostOps1_W)
  | 4 => decide (∀ w : Fin cfg1.W, Pipeline.arrRef spec1 w = r → (cfg1.win w).isOut = false)
  | 5 => decide (r ∉ hostOps2_W)
  | 6 => decide (∀ w : Fin cfg2.W, Pipeline.arrRef spec2 w = r → (cfg2.win w).isOut = false)
  | 7 => decide (∀ w : Fin cfg3.W, Pipeline.arrRef spec3 w = r → (cfg3.win w).isOut = false)
  | 8 => decide (r ∉ hostOps4_W)
  | 9 => decide (∀ w : Fin cfg4.W, Pipeline.arrRef spec4 w = r → (cfg4.win w).isOut = false)
  | 10 => decide (r ∉ hostOps5_W)
  | 11 => decide (∀ w : Fin cfg5.W, Pipeline.arrRef spec5 w = r → (cfg5.win w).isOut = false)
  | 12 => decide (r ∉ hostOps6_W)
  | 13 => decide (∀ w : Fin cfg6.W, Pipeline.arrRef spec6 w = r → (cfg6.win w).isOut = false)
  | 14 => decide (r ∉ hostOps7_W)
  | 15 => decide (∀ w : Fin cfg7.W, Pipeline.arrRef spec7 w = r → (cfg7.win w).isOut = false)
  | 16 => decide (r ∉ hostOps8_W)
  | 17 => decide (∀ w : Fin cfg8.W, Pipeline.arrRef spec8 w = r → (cfg8.win w).isOut = false)
  | 18 => decide (r ∉ hostOps9_W)
  | 19 => decide (∀ w : Fin cfg9.W, Pipeline.arrRef spec9 w = r → (cfg9.win w).isOut = false)
  | 20 => decide (r ∉ hostOps10_W)
  | 21 => decide (∀ w : Fin cfg10.W, Pipeline.arrRef spec10 w = r → (cfg10.win w).isOut = false)
  | 22 => decide (r ∉ hostOps11_W)
  | 23 => decide (∀ w : Fin cfg11.W, Pipeline.arrRef spec11 w = r → (cfg11.win w).isOut = false)
  | 24 => decide (r ∉ hostOps12_W)
  | 25 => decide (∀ w : Fin cfg12.W, Pipeline.arrRef spec12 w = r → (cfg12.win w).isOut = false)
  | 26 => decide (r ∉ hostOps13_W)
  | 27 => decide (∀ w : Fin cfg13.W, Pipeline.arrRef spec13 w = r → (cfg13.win w).isOut = false)
  | 28 => decide (r ∉ hostOps14_W)
  | 29 => decide (∀ w : Fin cfg14.W, Pipeline.arrRef spec14 w = r → (cfg14.win w).isOut = false)
  | 30 => decide (r ∉ hostOps15_W)
  | 31 => decide (∀ w : Fin cfg15.W, Pipeline.arrRef spec15 w = r → (cfg15.win w).isOut = false)
  | 32 => decide (r ∉ hostOps16_W)
  | 33 => decide (∀ w : Fin cfg16.W, Pipeline.arrRef spec16 w = r → (cfg16.win w).isOut = false)
  | 34 => decide (r ∉ hostOps17_W)
  | 35 => decide (∀ w : Fin cfg17.W, Pipeline.arrRef spec17 w = r → (cfg17.win w).isOut = false)
  | 36 => decide (r ∉ hostOps18_W)
  | 37 => decide (∀ w : Fin cfg18.W, Pipeline.arrRef spec18 w = r → (cfg18.win w).isOut = false)
  | 38 => decide (r ∉ hostOps19_W)
  | 39 => decide (∀ w : Fin cfg19.W, Pipeline.arrRef spec19 w = r → (cfg19.win w).isOut = false)
  | 40 => decide (r ∉ hostOps20_W)
  | _ => true

/-- Item `j` of @main does not write `r`. -/
def Keeps (r : Ref sig .tc) (j : ℕ) : Prop := keepsB r j = true

instance instDecidableKeeps (r : Ref sig .tc) (j : ℕ) : Decidable (Keeps r j) :=
  inferInstanceAs (Decidable (keepsB r j = true))

/-! One item at a time, at its number. -/

theorem step1 (c : Dev nD) (r : Ref sig .tc) (h : Keeps r 1) :
    Wn m ρ 1 c (Proc.devRef .tc r) = Wn m ρ 0 c (Proc.devRef .tc r) :=
  W1_of m ρ c r (of_decide_eq_true h)
theorem step2 (c : Dev nD) (r : Ref sig .tc) (h : Keeps r 2) :
    Wn m ρ 2 c (Proc.devRef .tc r) = Wn m ρ 1 c (Proc.devRef .tc r) :=
  Wexit0_keep m ρ c r (of_decide_eq_true h)
theorem step3 (c : Dev nD) (r : Ref sig .tc) (h : Keeps r 3) :
    Wn m ρ 3 c (Proc.devRef .tc r) = Wn m ρ 2 c (Proc.devRef .tc r) :=
  W3_of m ρ c r (of_decide_eq_true h)
theorem step4 (c : Dev nD) (r : Ref sig .tc) (h : Keeps r 4) :
    Wn m ρ 4 c (Proc.devRef .tc r) = Wn m ρ 3 c (Proc.devRef .tc r) :=
  Wexit1_keep m ρ c r (of_decide_eq_true h)
theorem step5 (c : Dev nD) (r : Ref sig .tc) (h : Keeps r 5) :
    Wn m ρ 5 c (Proc.devRef .tc r) = Wn m ρ 4 c (Proc.devRef .tc r) :=
  W5_of m ρ c r (of_decide_eq_true h)
theorem step6 (c : Dev nD) (r : Ref sig .tc) (h : Keeps r 6) :
    Wn m ρ 6 c (Proc.devRef .tc r) = Wn m ρ 5 c (Proc.devRef .tc r) :=
  Wexit2_keep m ρ c r (of_decide_eq_true h)
theorem step7 (c : Dev nD) (r : Ref sig .tc) (h : Keeps r 7) :
    Wn m ρ 7 c (Proc.devRef .tc r) = Wn m ρ 6 c (Proc.devRef .tc r) :=
  Wexit3_keep m ρ c r (of_decide_eq_true h)
theorem step8 (c : Dev nD) (r : Ref sig .tc) (h : Keeps r 8) :
    Wn m ρ 8 c (Proc.devRef .tc r) = Wn m ρ 7 c (Proc.devRef .tc r) :=
  W8_of m ρ c r (of_decide_eq_true h)
theorem step9 (c : Dev nD) (r : Ref sig .tc) (h : Keeps r 9) :
    Wn m ρ 9 c (Proc.devRef .tc r) = Wn m ρ 8 c (Proc.devRef .tc r) :=
  Wexit4_keep m ρ c r (of_decide_eq_true h)
theorem step10 (c : Dev nD) (r : Ref sig .tc) (h : Keeps r 10) :
    Wn m ρ 10 c (Proc.devRef .tc r) = Wn m ρ 9 c (Proc.devRef .tc r) :=
  W10_of m ρ c r (of_decide_eq_true h)
theorem step11 (c : Dev nD) (r : Ref sig .tc) (h : Keeps r 11) :
    Wn m ρ 11 c (Proc.devRef .tc r) = Wn m ρ 10 c (Proc.devRef .tc r) :=
  Wexit5_keep m ρ c r (of_decide_eq_true h)
theorem step12 (c : Dev nD) (r : Ref sig .tc) (h : Keeps r 12) :
    Wn m ρ 12 c (Proc.devRef .tc r) = Wn m ρ 11 c (Proc.devRef .tc r) :=
  W12_of m ρ c r (of_decide_eq_true h)
theorem step13 (c : Dev nD) (r : Ref sig .tc) (h : Keeps r 13) :
    Wn m ρ 13 c (Proc.devRef .tc r) = Wn m ρ 12 c (Proc.devRef .tc r) :=
  Wexit6_keep m ρ c r (of_decide_eq_true h)
theorem step14 (c : Dev nD) (r : Ref sig .tc) (h : Keeps r 14) :
    Wn m ρ 14 c (Proc.devRef .tc r) = Wn m ρ 13 c (Proc.devRef .tc r) :=
  W14_of m ρ c r (of_decide_eq_true h)
theorem step15 (c : Dev nD) (r : Ref sig .tc) (h : Keeps r 15) :
    Wn m ρ 15 c (Proc.devRef .tc r) = Wn m ρ 14 c (Proc.devRef .tc r) :=
  Wexit7_keep m ρ c r (of_decide_eq_true h)
theorem step16 (c : Dev nD) (r : Ref sig .tc) (h : Keeps r 16) :
    Wn m ρ 16 c (Proc.devRef .tc r) = Wn m ρ 15 c (Proc.devRef .tc r) :=
  W16_of m ρ c r (of_decide_eq_true h)
theorem step17 (c : Dev nD) (r : Ref sig .tc) (h : Keeps r 17) :
    Wn m ρ 17 c (Proc.devRef .tc r) = Wn m ρ 16 c (Proc.devRef .tc r) :=
  Wexit8_keep m ρ c r (of_decide_eq_true h)
theorem step18 (c : Dev nD) (r : Ref sig .tc) (h : Keeps r 18) :
    Wn m ρ 18 c (Proc.devRef .tc r) = Wn m ρ 17 c (Proc.devRef .tc r) :=
  W18_of m ρ c r (of_decide_eq_true h)
theorem step19 (c : Dev nD) (r : Ref sig .tc) (h : Keeps r 19) :
    Wn m ρ 19 c (Proc.devRef .tc r) = Wn m ρ 18 c (Proc.devRef .tc r) :=
  Wexit9_keep m ρ c r (of_decide_eq_true h)
theorem step20 (c : Dev nD) (r : Ref sig .tc) (h : Keeps r 20) :
    Wn m ρ 20 c (Proc.devRef .tc r) = Wn m ρ 19 c (Proc.devRef .tc r) :=
  W20_of m ρ c r (of_decide_eq_true h)
theorem step21 (c : Dev nD) (r : Ref sig .tc) (h : Keeps r 21) :
    Wn m ρ 21 c (Proc.devRef .tc r) = Wn m ρ 20 c (Proc.devRef .tc r) :=
  Wexit10_keep m ρ c r (of_decide_eq_true h)
theorem step22 (c : Dev nD) (r : Ref sig .tc) (h : Keeps r 22) :
    Wn m ρ 22 c (Proc.devRef .tc r) = Wn m ρ 21 c (Proc.devRef .tc r) :=
  W22_of m ρ c r (of_decide_eq_true h)
theorem step23 (c : Dev nD) (r : Ref sig .tc) (h : Keeps r 23) :
    Wn m ρ 23 c (Proc.devRef .tc r) = Wn m ρ 22 c (Proc.devRef .tc r) :=
  Wexit11_keep m ρ c r (of_decide_eq_true h)
theorem step24 (c : Dev nD) (r : Ref sig .tc) (h : Keeps r 24) :
    Wn m ρ 24 c (Proc.devRef .tc r) = Wn m ρ 23 c (Proc.devRef .tc r) :=
  W24_of m ρ c r (of_decide_eq_true h)
theorem step25 (c : Dev nD) (r : Ref sig .tc) (h : Keeps r 25) :
    Wn m ρ 25 c (Proc.devRef .tc r) = Wn m ρ 24 c (Proc.devRef .tc r) :=
  Wexit12_keep m ρ c r (of_decide_eq_true h)
theorem step26 (c : Dev nD) (r : Ref sig .tc) (h : Keeps r 26) :
    Wn m ρ 26 c (Proc.devRef .tc r) = Wn m ρ 25 c (Proc.devRef .tc r) :=
  W26_of m ρ c r (of_decide_eq_true h)
theorem step27 (c : Dev nD) (r : Ref sig .tc) (h : Keeps r 27) :
    Wn m ρ 27 c (Proc.devRef .tc r) = Wn m ρ 26 c (Proc.devRef .tc r) :=
  Wexit13_keep m ρ c r (of_decide_eq_true h)
theorem step28 (c : Dev nD) (r : Ref sig .tc) (h : Keeps r 28) :
    Wn m ρ 28 c (Proc.devRef .tc r) = Wn m ρ 27 c (Proc.devRef .tc r) :=
  W28_of m ρ c r (of_decide_eq_true h)
theorem step29 (c : Dev nD) (r : Ref sig .tc) (h : Keeps r 29) :
    Wn m ρ 29 c (Proc.devRef .tc r) = Wn m ρ 28 c (Proc.devRef .tc r) :=
  Wexit14_keep m ρ c r (of_decide_eq_true h)
theorem step30 (c : Dev nD) (r : Ref sig .tc) (h : Keeps r 30) :
    Wn m ρ 30 c (Proc.devRef .tc r) = Wn m ρ 29 c (Proc.devRef .tc r) :=
  W30_of m ρ c r (of_decide_eq_true h)
theorem step31 (c : Dev nD) (r : Ref sig .tc) (h : Keeps r 31) :
    Wn m ρ 31 c (Proc.devRef .tc r) = Wn m ρ 30 c (Proc.devRef .tc r) :=
  Wexit15_keep m ρ c r (of_decide_eq_true h)
theorem step32 (c : Dev nD) (r : Ref sig .tc) (h : Keeps r 32) :
    Wn m ρ 32 c (Proc.devRef .tc r) = Wn m ρ 31 c (Proc.devRef .tc r) :=
  W32_of m ρ c r (of_decide_eq_true h)
theorem step33 (c : Dev nD) (r : Ref sig .tc) (h : Keeps r 33) :
    Wn m ρ 33 c (Proc.devRef .tc r) = Wn m ρ 32 c (Proc.devRef .tc r) :=
  Wexit16_keep m ρ c r (of_decide_eq_true h)
theorem step34 (c : Dev nD) (r : Ref sig .tc) (h : Keeps r 34) :
    Wn m ρ 34 c (Proc.devRef .tc r) = Wn m ρ 33 c (Proc.devRef .tc r) :=
  W34_of m ρ c r (of_decide_eq_true h)
theorem step35 (c : Dev nD) (r : Ref sig .tc) (h : Keeps r 35) :
    Wn m ρ 35 c (Proc.devRef .tc r) = Wn m ρ 34 c (Proc.devRef .tc r) :=
  Wexit17_keep m ρ c r (of_decide_eq_true h)
theorem step36 (c : Dev nD) (r : Ref sig .tc) (h : Keeps r 36) :
    Wn m ρ 36 c (Proc.devRef .tc r) = Wn m ρ 35 c (Proc.devRef .tc r) :=
  W36_of m ρ c r (of_decide_eq_true h)
theorem step37 (c : Dev nD) (r : Ref sig .tc) (h : Keeps r 37) :
    Wn m ρ 37 c (Proc.devRef .tc r) = Wn m ρ 36 c (Proc.devRef .tc r) :=
  Wexit18_keep m ρ c r (of_decide_eq_true h)
theorem step38 (c : Dev nD) (r : Ref sig .tc) (h : Keeps r 38) :
    Wn m ρ 38 c (Proc.devRef .tc r) = Wn m ρ 37 c (Proc.devRef .tc r) :=
  W38_of m ρ c r (of_decide_eq_true h)
theorem step39 (c : Dev nD) (r : Ref sig .tc) (h : Keeps r 39) :
    Wn m ρ 39 c (Proc.devRef .tc r) = Wn m ρ 38 c (Proc.devRef .tc r) :=
  Wexit19_keep m ρ c r (of_decide_eq_true h)
theorem step40 (c : Dev nD) (r : Ref sig .tc) (h : Keeps r 40) :
    Wn m ρ 40 c (Proc.devRef .tc r) = Wn m ρ 39 c (Proc.devRef .tc r) :=
  W40_of m ρ c r (of_decide_eq_true h)

/-- One item, at any number. -/
theorem Wn_step (c : Dev nD) (r : Ref sig .tc) (j : ℕ) (hj : j < 40) (h : Keeps r (j + 1)) :
    Wn m ρ (j + 1) c (Proc.devRef .tc r) = Wn m ρ j c (Proc.devRef .tc r) := by
  interval_cases j
  · exact step1 m ρ c r h
  · exact step2 m ρ c r h
  · exact step3 m ρ c r h
  · exact step4 m ρ c r h
  · exact step5 m ρ c r h
  · exact step6 m ρ c r h
  · exact step7 m ρ c r h
  · exact step8 m ρ c r h
  · exact step9 m ρ c r h
  · exact step10 m ρ c r h
  · exact step11 m ρ c r h
  · exact step12 m ρ c r h
  · exact step13 m ρ c r h
  · exact step14 m ρ c r h
  · exact step15 m ρ c r h
  · exact step16 m ρ c r h
  · exact step17 m ρ c r h
  · exact step18 m ρ c r h
  · exact step19 m ρ c r h
  · exact step20 m ρ c r h
  · exact step21 m ρ c r h
  · exact step22 m ρ c r h
  · exact step23 m ρ c r h
  · exact step24 m ρ c r h
  · exact step25 m ρ c r h
  · exact step26 m ρ c r h
  · exact step27 m ρ c r h
  · exact step28 m ρ c r h
  · exact step29 m ρ c r h
  · exact step30 m ρ c r h
  · exact step31 m ρ c r h
  · exact step32 m ρ c r h
  · exact step33 m ρ c r h
  · exact step34 m ρ c r h
  · exact step35 m ρ c r h
  · exact step36 m ρ c r h
  · exact step37 m ρ c r h
  · exact step38 m ρ c r h
  · exact step39 m ρ c r h
  · exact step40 m ρ c r h

/-- A stretch of items: `k` items after the first `a`, none writing `r`. -/
theorem Wn_keep (c : Dev nD) (r : Ref sig .tc) (a : ℕ) : ∀ k, a + k ≤ 40 → (∀ i, i < k → Keeps r (a + i + 1)) →
    Wn m ρ (a + k) c (Proc.devRef .tc r) = Wn m ρ a c (Proc.devRef .tc r)
  | 0, _, _ => rfl
  | k + 1, hk, h => (Wn_step m ρ c r (a + k) (by omega) (h k (Nat.lt_succ_self k))).trans
      (Wn_keep c r a k (by omega) fun i hi => h i (Nat.lt_succ_of_lt hi))

/-- From the launch: a buffer none of the first `k` items writes holds the launch memory's contents. -/
theorem Wn_launch (c : Dev nD) (r : Ref sig .tc) (k : ℕ) (hk : k ≤ 40) (h : ∀ i, i < k → Keeps r (0 + i + 1)) :
    Wn m ρ k c (Proc.devRef .tc r) = m ((c : Thread nD τ).loc r) := by
  have e := Wn_keep m ρ c r 0 k (by omega) h
  rw [Nat.zero_add] at e
  exact e.trans rfl

end Cert.KernelIdeal.Hand

end
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.LibRealArr.lean ====
/-
  Arrays of extended reals every entry of which is a REAL number, and the closure of that property under the array
  operations of the two programs at the ideal reading: entrywise arithmetic, quotients by entrywise nonzero
  divisors, square roots of entrywise signed arguments, constants, re-indexings (every entry of the result is an
  entry of an operand), and the finite sums (reductions, matrix products, accumulating scatters). With the sign
  facts carried alongside (entrywise positive, nonnegative, nonzero), a whole computation on real inputs stays
  real, and its values can be moved into ℝ entry by entry.
-/
import Idealize.ShloMosaic.PureOps.Ideal
import Idealize.ShloMosaic.PureOps.Ideal.Laws
import Idealize.ShloMosaic.Lib.ValueIdx
import proofs.«424088_j28020366639260_2_alg».proof.Proof.LibERealArith

noncomputable section

namespace Cert.Val

open Idealize.ShloMosaic
open Cert.Lib.ERealArith
open scoped BigOperators

/-! ### Real scalars -/

/-- An extended real that is (the coercion of) a real number. -/
def IsReal (x : EReal) : Prop := ∃ r : ℝ, x = (r : EReal)

/-- An array of extended reals every entry of which is a real number. -/
def IsRealArr {S : Shape} (x : S.Idx → EReal) : Prop := ∀ i, ∃ r : ℝ, x i = (r : EReal)

/-- A coercion is real. -/
theorem isReal_coe (r : ℝ) : IsReal (r : EReal) := ⟨r, rfl⟩

/-- Zero is real. -/
theorem isReal_zero : IsReal 0 := ⟨0, zero_eq_coe⟩

/-- One is real. -/
theorem isReal_one : IsReal 1 := ⟨1, one_eq_coe⟩

/-- A real extended real is the coercion of its real part. -/
theorem IsReal.coe_toReal {x : EReal} (hx : IsReal x) : x = ((x.toReal : ℝ) : EReal) := by
  obtain ⟨r, rfl⟩ := hx
  rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, add_coe a b⟩

/-- The difference of two reals is real. -/
theorem IsReal.sub {x y : EReal} (hx : IsReal x) (hy : IsReal y) : IsReal (x - y) := by
  obtain ⟨a, rfl⟩ := hx; obtain ⟨b, rfl⟩ := hy; exact ⟨a - b, sub_coe a b⟩

/-- The product of two reals is real. -/
theorem IsReal.mul {x y : EReal} (hx : IsReal x) (hy : IsReal y) : IsReal (x * y) := by
  obtain ⟨a, rfl⟩ := hx; obtain ⟨b, rfl⟩ := hy; exact ⟨a * b, mul_coe a b⟩

/-- The negative of a real is real. -/
theorem IsReal.neg {x : EReal} (hx : IsReal x) : IsReal (-x) := by
  obtain ⟨a, rfl⟩ := hx; exact ⟨-a, neg_coe a⟩

/-- The maximum of two reals is real. -/
theorem IsReal.max {x y : EReal} (hx : IsReal x) (hy : IsReal y) : IsReal (max x y) := by
  obtain ⟨a, rfl⟩ := hx; obtain ⟨b, rfl⟩ := hy; exact ⟨Max.max a b, max_coe a b⟩

/-- A finite sum of reals is real. -/
theorem IsReal.sum {ι : Type*} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {x y : EReal} (hx : IsReal x) (hy : ∃ r : ℝ, y = (r : EReal) ∧ r ≠ 0) : IsReal (Ideal.div x y) := by
  obtain ⟨a, rfl⟩ := hx; obtain ⟨b, rfl, hb⟩ := hy; exact ⟨a / b, div_coe hb a⟩

/-- The reciprocal square root of a positive real is a positive real. -/
theorem rsqrt_pos_real {x : EReal} (hx : ∃ r : ℝ, x = (r : EReal) ∧ 0 < r) :
    ∃ r : ℝ, Ideal.rsqrt x = (r : EReal) ∧ 0 < r := by
  obtain ⟨a, rfl, ha⟩ := hx
  exact ⟨(Real.sqrt a)⁻¹, rsqrt_coe ha, inv_pos.mpr (sqrt_pos' ha)⟩

/-- The square root of a nonnegative real is a nonnegative real. -/
theorem sqrt_nonneg_real {x : EReal} (hx : ∃ r : ℝ, x = (r : EReal) ∧ 0 ≤ r) :
    ∃ r : ℝ, Ideal.sqrt x = (r : EReal) ∧ 0 ≤ r := by
  obtain ⟨a, rfl, ha⟩ := hx
  exact ⟨Real.sqrt a, sqrt_coe ha, Real.sqrt_nonneg a⟩

/-- A positive real is a nonzero real. -/
theorem ne_zero_of_pos_real {x : EReal} (hx : ∃ r : ℝ, x = (r : EReal) ∧ 0 < r) : ∃ r : ℝ, x = (r : EReal) ∧ r ≠ 0 := by
  obtain ⟨a, h, ha⟩ := hx; exact ⟨a, h, ha.ne'⟩

/-- A positive real is a nonnegative real. -/
theorem nonneg_of_pos_real {x : EReal} (hx : ∃ r : ℝ, x = (r : EReal) ∧ 0 < r) : ∃ r : ℝ, x = (r : EReal) ∧ 0 ≤ r := by
  obtain ⟨a, h, ha⟩ := hx; exact ⟨a, h, ha.le⟩

/-- A real with a sign condition is real. -/
theorem isReal_of_pos_real {x : EReal} (hx : ∃ r : ℝ, x = (r : EReal) ∧ 0 < r) : IsReal x := by
  obtain ⟨a, h, _⟩ := hx; exact ⟨a, h⟩

/-- A nonnegative real is real. -/
theorem isReal_of_nonneg_real {x : EReal} (hx : ∃ r : ℝ, x = (r : EReal) ∧ 0 ≤ r) : IsReal x := by
  obtain ⟨a, h, _⟩ := hx; exact ⟨a, h⟩

/-- A nonzero real is real. -/
theorem isReal_of_ne_zero_real {x : EReal} (hx : ∃ r : ℝ, x = (r : EReal) ∧ r ≠ 0) : IsReal x := by
  obtain ⟨a, h, _⟩ := hx; exact ⟨a, h⟩

/-- The maximum of a real and a positive real is a positive real. -/
theorem max_pos_real_right {x c : EReal} (hx : IsReal x) (hc : ∃ r : ℝ, c = (r : EReal) ∧ 0 < r) :
    ∃ r : ℝ, max x c = (r : EReal) ∧ 0 < r := by
  obtain ⟨a, rfl⟩ := hx; obtain ⟨e, rfl, he⟩ := hc
  exact ⟨Max.max a e, max_coe a e, lt_of_lt_of_le he (le_max_right a e)⟩

/-- The maximum of a real and zero is a nonnegative real. -/
theorem max_zero_nonneg_real {x : EReal} (hx : IsReal x) : ∃ r : ℝ, max x 0 = (r : EReal) ∧ 0 ≤ r := by
  obtain ⟨a, rfl⟩ := hx
  exact ⟨Max.max a 0, by rw [zero_eq_coe, max_coe], le_max_right a 0⟩

/-- The sum of a nonnegative real and a positive real is a positive real. -/
theorem add_pos_real {x e : EReal} (hx : ∃ r : ℝ, x = (r : EReal) ∧ 0 ≤ r) (he : ∃ r : ℝ, e = (r : EReal) ∧ 0 < r) :
    ∃ r : ℝ, x + e = (r : EReal) ∧ 0 < r := by
  obtain ⟨a, rfl, ha⟩ := hx; obtain ⟨b, rfl, hb⟩ := he
  exact ⟨a + b, add_coe a b, add_pos_of_nonneg_of_pos ha hb⟩

/-- The product of a real with itself is a nonnegative real. -/
theorem mul_self_nonneg_real {x : EReal} (hx : IsReal x) : ∃ r : ℝ, x * x = (r : EReal) ∧ 0 ≤ r := by
  obtain ⟨a, rfl⟩ := hx; exact ⟨a * a, mul_coe a a, mul_self_nonneg a⟩

/-- A finite sum of nonnegative reals is a nonnegative real. -/
theorem sum_nonneg_real {ι : Type*} (s : Finset ι) (g : ι → EReal) (h : ∀ i ∈ s, ∃ r : ℝ, g i = (r : EReal) ∧ 0 ≤ r) :
    ∃ r : ℝ, (∑ i ∈ s, g i) = (r : EReal) ∧ 0 ≤ r := by
  classical
  induction s using Finset.induction_on with
  | empty => exact ⟨0, by simp, le_refl 0⟩
  | insert a s ha ih =>
    rw [Finset.sum_insert ha]
    obtain ⟨p, hp, hp0⟩ := h a (Finset.mem_insert_self a s)
    obtain ⟨q, hq, hq0⟩ := ih fun i hi => h i (Finset.mem_insert_of_mem hi)
    exact ⟨p + q, by rw [hp, hq, add_coe], add_nonneg hp0 hq0⟩

/-! ### The literals -/

/-- The literal 0.0 is real. -/
theorem isReal_ofBits_zero : IsReal (Ideal.ofBits .f32 0x00000000#32) := ⟨0, ofBits_zero⟩
/-- The literal 1.0 is a positive real. -/
theorem ofBits_one_pos : ∃ r : ℝ, Ideal.ofBits .f32 0x3F800000#32 = (r : EReal) ∧ 0 < r := ⟨1, ofBits_one, one_pos⟩
/-- The literal 100000.0 is a positive real. -/
theorem ofBits_100000_pos : ∃ r : ℝ, Ideal.ofBits .f32 0x47C35000#32 = (r : EReal) ∧ 0 < r :=
  ⟨100000, ofBits_100000, by norm_num⟩
/-- The literal 2000.0 is a positive real. -/
theorem ofBits_2000_pos : ∃ r : ℝ, Ideal.ofBits .f32 0x44FA0000#32 = (r : EReal) ∧ 0 < r := ⟨2000, ofBits_2000, by norm_num⟩
/-- The literal 5000.0 is a positive real. -/
theorem ofBits_5000_pos : ∃ r : ℝ, Ideal.ofBits .f32 0x459C4000#32 = (r : EReal) ∧ 0 < r := ⟨5000, ofBits_5000, by norm_num⟩
/-- The literal 3000.0 is a positive real. -/
theorem ofBits_3000_pos : ∃ r : ℝ, Ideal.ofBits .f32 0x453B8000#32 = (r : EReal) ∧ 0 < r := ⟨3000, ofBits_3000, by norm_num⟩
/-- The literal 1e-5 is a positive real. -/
theorem ofBits_eps5_pos : ∃ r : ℝ, Ideal.ofBits .f32 0x3727C5AC#32 = (r : EReal) ∧ 0 < r := ⟨eps5, ofBits_eps5, eps5_pos⟩
/-- The literal 1e-12 is a positive real. -/
theorem ofBits_eps12_pos : ∃ r : ℝ, Ideal.ofBits .f32 0x2B8CBCCC#32 = (r : EReal) ∧ 0 < r := ⟨eps12, ofBits_eps12, eps12_pos⟩

/-! ### Arrays: entrywise facts -/

section Arrays
variable {s t : Shape} {φ : FTy}

/-- A real array is entrywise the coercion of its real parts. -/
theorem IsRealArr.coe_toReal {x : s.Idx → EReal} (hx : IsRealArr x) (i : s.Idx) : x i = (((x i).toReal : ℝ) : EReal) :=
  IsReal.coe_toReal (hx i)

/-- The array of coercions of a real array is real. -/
theorem isRealArr_coe (f : s.Idx → ℝ) : IsRealArr (fun i => ((f i : ℝ) : EReal)) := fun i => ⟨f i, rfl⟩

/-- An array equal entrywise to coercions is real. -/
theorem isRealArr_of_eq {x : s.Idx → EReal} (f : s.Idx → ℝ) (h : ∀ i, x i = ((f i : ℝ) : EReal)) : IsRealArr x :=
  fun i => ⟨f i, h i⟩

/-- Entrywise positive reals are real. -/
theorem isRealArr_of_pos {x : s.Idx → EReal} (h : ∀ i, ∃ r : ℝ, x i = (r : EReal) ∧ 0 < r) : IsRealArr x :=
  fun i => isReal_of_pos_real (h i)

/-- Entrywise nonnegative reals are real. -/
theorem isRealArr_of_nonneg {x : s.Idx → EReal} (h : ∀ i, ∃ r : ℝ, x i = (r : EReal) ∧ 0 ≤ r) : IsRealArr x :=
  fun i => isReal_of_nonneg_real (h i)

/-- Entrywise positive reals are entrywise nonzero reals. -/
theorem ne_zero_of_pos_arr {x : s.Idx → EReal} (h : ∀ i, ∃ r : ℝ, x i = (r : EReal) ∧ 0 < r) :
    ∀ i, ∃ r : ℝ, x i = (r : EReal) ∧ r ≠ 0 := fun i => ne_zero_of_pos_real (h i)

/-! ### Entrywise arithmetic -/

/-- `addf` of real arrays is real. -/
theorem isRealArr_addf {x y : FVec Ideal s φ} (hx : IsRealArr x) (hy : IsRealArr y) : IsRealArr (addf x y) :=
  fun i => IsReal.add (hx i) (hy i)

/-- `subf` of real arrays is real. -/
theorem isRealArr_subf {x y : FVec Ideal s φ} (hx : IsRealArr x) (hy : IsRealArr y) : IsRealArr (subf x y) :=
  fun i => IsReal.sub (hx i) (hy i)

/-- `mulf` of real arrays is real. -/
theorem isRealArr_mulf {x y : FVec Ideal s φ} (hx : IsRealArr x) (hy : IsRealArr y) : IsRealArr (mulf x y) :=
  fun i => IsReal.mul (hx i) (hy i)

/-- `mulf` of a real array with itself (a square) is entrywise a nonnegative real. -/
theorem mulf_self_nonneg {x : FVec Ideal s φ} (hx : IsRealArr x) : ∀ i, ∃ r : ℝ, mulf x x i = (r : EReal) ∧ 0 ≤ r :=
  fun i => mul_self_nonneg_real (hx i)

/-- `maximumf` of real arrays is real. -/
theorem isRealArr_maximumf {x y : FVec Ideal s φ} (hx : IsRealArr x) (hy : IsRealArr y) : IsRealArr (maximumf x y) :=
  fun i => IsReal.max (hx i) (hy i)

/-- `maximumf` of a real array against an entrywise positive real array is entrywise a positive real. -/
theorem maximumf_pos_right {x c : FVec Ideal s φ} (hx : IsRealArr x) (hc : ∀ i, ∃ r : ℝ, c i = (r : EReal) ∧ 0 < r) :
    ∀ i, ∃ r : ℝ, maximumf x c i = (r : EReal) ∧ 0 < r := fun i => max_pos_real_right (hx i) (hc i)

/-- The kernel's `divf` of a real array by an entrywise nonzero real array is real. -/
theorem isRealArr_divf {x y : FVec Ideal s φ} (hx : IsRealArr x) (hy : ∀ i, ∃ r : ℝ, y i = (r : EReal) ∧ r ≠ 0) :
    IsRealArr (divf x y) := fun i => IsReal.div (hx i) (hy i)

/-- The host's quotient of a real array by an entrywise nonzero real array is real. -/
theorem isRealArr_hostDivf {x y : FVec Ideal s φ} (hx : IsRealArr x) (hy : ∀ i, ∃ r : ℝ, y i = (r : EReal) ∧ r ≠ 0) :
    IsRealArr (Host.divf x y) := fun i => IsReal.div (hx i) (hy i)

/-- The kernel's `divf` by the maximum of a real array with an entrywise positive real array is real. -/
theorem isRealArr_divf_max {x y c : FVec Ideal s φ} (hx : IsRealArr x) (hy : IsRealArr y)
    (hc : ∀ i, ∃ r : ℝ, c i = (r : EReal) ∧ 0 < r) : IsRealArr (divf x (maximumf y c)) :=
  isRealArr_divf hx (ne_zero_of_pos_arr (maximumf_pos_right hy hc))

/-- The host's quotient by the maximum of a real array with an entrywise positive real array is real. -/
theorem isRealArr_hostDivf_max {x y c : FVec Ideal s φ} (hx : IsRealArr x) (hy : IsRealArr y)
    (hc : ∀ i, ∃ r : ℝ, c i = (r : EReal) ∧ 0 < r) : IsRealArr (Host.divf x (maximumf y c)) :=
  isRealArr_hostDivf hx (ne_zero_of_pos_arr (maximumf_pos_right hy hc))

/-- The kernel's reciprocal square root of an entrywise positive real array is entrywise a positive real. -/
theorem rsqrt_pos_arr {x : FVec Ideal s φ} (hx : ∀ i, ∃ r : ℝ, x i = (r : EReal) ∧ 0 < r) :
    ∀ i, ∃ r : ℝ, rsqrt x i = (r : EReal) ∧ 0 < r := fun i => rsqrt_pos_real (hx i)

/-- The kernel's reciprocal square root of an entrywise positive real array is real. -/
theorem isRealArr_rsqrt {x : FVec Ideal s φ} (hx : ∀ i, ∃ r : ℝ, x i = (r : EReal) ∧ 0 < r) : IsRealArr (rsqrt x) :=
  isRealArr_of_pos (rsqrt_pos_arr hx)

/-- The host's reciprocal square root of an entrywise positive real array is entrywise a positive real. -/
theorem hostRsqrt_pos_arr {x : FVec Ideal s φ} (hx : ∀ i, ∃ r : ℝ, x i = (r : EReal) ∧ 0 < r) :
    ∀ i, ∃ r : ℝ, Host.rsqrt x i = (r : EReal) ∧ 0 < r := fun i => rsqrt_pos_real (hx i)

/-- The host's reciprocal square root of an entrywise positive real array is real. -/
theorem isRealArr_hostRsqrt {x : FVec Ideal s φ} (hx : ∀ i, ∃ r : ℝ, x i = (r : EReal) ∧ 0 < r) : IsRealArr (Host.rsqrt x) :=
  isRealArr_of_pos (hostRsqrt_pos_arr hx)

/-- The kernel's square root of an entrywise nonnegative real array is entrywise a nonnegative real. -/
theorem sqrt_nonneg_arr {x : FVec Ideal s φ} (hx : ∀ i, ∃ r : ℝ, x i = (r : EReal) ∧ 0 ≤ r) :
    ∀ i, ∃ r : ℝ, sqrt x i = (r : EReal) ∧ 0 ≤ r := fun i => sqrt_nonneg_real (hx i)

/-- The kernel's square root of an entrywise nonnegative real array is real. -/
theorem isRealArr_sqrt {x : FVec Ideal s φ} (hx : ∀ i, ∃ r : ℝ, x i = (r : EReal) ∧ 0 ≤ r) : IsRealArr (sqrt x) :=
  isRealArr_of_nonneg (sqrt_nonneg_arr hx)

/-- The host's square root of an entrywise nonnegative real array is entrywise a nonnegative real. -/
theorem hostSqrt_nonneg_arr {x : FVec Ideal s φ} (hx : ∀ i, ∃ r : ℝ, x i = (r : EReal) ∧ 0 ≤ r) :
    ∀ i, ∃ r : ℝ, Host.sqrt x i = (r : EReal) ∧ 0 ≤ r := fun i => sqrt_nonneg_real (hx i)

/-- The host's square root of an entrywise nonnegative real array is real. -/
theorem isRealArr_hostSqrt {x : FVec Ideal s φ} (hx : ∀ i, ∃ r : ℝ, x i = (r : EReal) ∧ 0 ≤ r) : IsRealArr (Host.sqrt x) :=
  isRealArr_of_nonneg (hostSqrt_nonneg_arr hx)

/-- A change of format is the identity: `truncf` of a real array is real. -/
theorem isRealArr_truncf {ψ : FTy} {a : FVec Ideal s φ} (h : ψ.bits < φ.bits) (ha : IsRealArr a) :
    IsRealArr (truncf ψ a h : FVec Ideal s ψ) := fun i => ha i

/-- A change of format is the identity: `extf` of a real array is real. -/
theorem isRealArr_extf {ψ : FTy} {a : FVec Ideal s φ} (h : φ.bits < ψ.bits) (ha : IsRealArr a) :
    IsRealArr (extf ψ a h : FVec Ideal s ψ) := fun i => ha i

/-- A signed integer array read as floats is real. -/
theorem isRealArr_sitofp {w : Nat} (x : IVec s w) : IsRealArr (sitofp (F := Ideal) φ x) :=
  fun i => ⟨((x i).toInt : ℝ), rfl⟩

/-- Where every condition bit is set, `select` is its first branch. -/
theorem select_of_one {α : Type} {c : IVec s 1} (a b : s.Idx → α) (hc : ∀ i, c i = 1#1) : select c a b = a := by
  funext i
  show Scalar.select (c i) (a i) (b i) = a i
  rw [hc i]; exact if_pos rfl

/-- `select` between two real arrays is real. -/
theorem isRealArr_select {c : IVec s 1} {a b : s.Idx → EReal} (ha : IsRealArr a) (hb : IsRealArr b) :
    IsRealArr (select c a b) := by
  intro i
  show ∃ r : ℝ, Scalar.select (c i) (a i) (b i) = (r : EReal)
  unfold Scalar.select
  split
  · exact ha i
  · exact hb i

/-- "Greater than" between entries that are reals in that order sets the bit. -/
theorem cmpf_ogt_one {a b : FVec Ideal s φ} {ra rb : ℝ} (i : s.Idx) (ha : a i = (ra : EReal)) (hb : b i = (rb : EReal))
    (h : rb < ra) : cmpf .ogt a b i = 1#1 := by
  show Ideal.cmp .ogt (a i) (b i) = 1#1
  rw [ha, hb]; exact cmp_ogt_coe_of_lt h

/-! ### Constants and broadcasts -/

/-- A broadcast scalar that is real is a real array. -/
theorem isRealArr_broadcast {x : EReal} (hx : IsReal x) : IsRealArr (broadcast t x) := fun _ => hx

/-- A broadcast positive real is entrywise a positive real. -/
theorem broadcast_pos {x : EReal} (hx : ∃ r : ℝ, x = (r : EReal) ∧ 0 < r) :
    ∀ i, ∃ r : ℝ, broadcast t x i = (r : EReal) ∧ 0 < r := fun _ => hx

/-- The constant array of 0.0 is real. -/
theorem isRealArr_constant_zero : IsRealArr (constant (F := Ideal) s .f32 0x00000000#32) := fun _ => isReal_ofBits_zero

/-- The constant array of 0.0 is entrywise the real zero. -/
theorem constant_zero_apply (i : s.Idx) : constant (F := Ideal) s .f32 0x00000000#32 i = ((0 : ℝ) : EReal) := ofBits_zero

/-- The constant array of 1.0 is entrywise a positive real. -/
theorem constant_one_pos : ∀ i, ∃ r : ℝ, constant (F := Ideal) s .f32 0x3F800000#32 i = (r : EReal) ∧ 0 < r :=
  fun _ => ofBits_one_pos

/-- The constant array of 100000.0 is entrywise a positive real. -/
theorem constant_100000_pos : ∀ i, ∃ r : ℝ, constant (F := Ideal) s .f32 0x47C35000#32 i = (r : EReal) ∧ 0 < r :=
  fun _ => ofBits_100000_pos

/-- The constant array of 2000.0 is entrywise a positive real. -/
theorem constant_2000_pos : ∀ i, ∃ r : ℝ, constant (F := Ideal) s .f32 0x44FA0000#32 i = (r : EReal) ∧ 0 < r :=
  fun _ => ofBits_2000_pos

/-- The constant array of 5000.0 is entrywise a positive real. -/
theorem constant_5000_pos : ∀ i, ∃ r : ℝ, constant (F := Ideal) s .f32 0x459C4000#32 i = (r : EReal) ∧ 0 < r :=
  fun _ => ofBits_5000_pos

/-- The constant array of 3000.0 is entrywise a positive real. -/
theorem constant_3000_pos : ∀ i, ∃ r : ℝ, constant (F := Ideal) s .f32 0x453B8000#32 i = (r : EReal) ∧ 0 < r :=
  fun _ => ofBits_3000_pos

/-- The constant array of 1e-5 is entrywise a positive real. -/
theorem constant_eps5_pos : ∀ i, ∃ r : ℝ, constant (F := Ideal) s .f32 0x3727C5AC#32 i = (r : EReal) ∧ 0 < r :=
  fun _ => ofBits_eps5_pos

/-- The constant array of 1e-12 is entrywise a positive real. -/
theorem constant_eps12_pos : ∀ i, ∃ r : ℝ, constant (F := Ideal) s .f32 0x2B8CBCCC#32 i = (r : EReal) ∧ 0 < r :=
  fun _ => ofBits_eps12_pos

/-- A constant array of a positive real literal is real. -/
theorem isRealArr_constant_of_pos {b : BitVec (FTy.f32).bits} (h : ∃ r : ℝ, Ideal.ofBits .f32 b = (r : EReal) ∧ 0 < r) :
    IsRealArr (constant (F := Ideal) s .f32 b) := fun _ => isReal_of_pos_real h

/-! ### Re-indexings: every entry of the result is an entry of an operand -/

/-- Reading a real array through any map of indices gives a real array. -/
theorem isRealArr_comp {x : s.Idx → EReal} (hx : IsRealArr x) (f : t.Idx → s.Idx) : IsRealArr (fun j => x (f j)) :=
  fun j => hx (f j)

/-- `broadcastInDim` of a real array is real. -/
theorem isRealArr_broadcastInDim {x : s.Idx → EReal} (dims : Fin s.rank → Fin t.rank) (h : s.BroadcastsInDim t dims)
    (hx : IsRealArr x) : IsRealArr (broadcastInDim t dims h x) := fun _ => hx _

/-- `broadcastInDim` of an entrywise positive real array is entrywise a positive real. -/
theorem broadcastInDim_pos {x : s.Idx → EReal} (dims : Fin s.rank → Fin t.rank) (h : s.BroadcastsInDim t dims)
    (hx : ∀ i, ∃ r : ℝ, x i = (r : EReal) ∧ 0 < r) : ∀ j, ∃ r : ℝ, broadcastInDim t dims h x j = (r : EReal) ∧ 0 < r :=
  fun _ => hx _

/-- `broadcastInDim` of an entrywise nonzero real array is entrywise a nonzero real. -/
theorem broadcastInDim_ne_zero {x : s.Idx → EReal} (dims : Fin s.rank → Fin t.rank) (h : s.BroadcastsInDim t dims)
    (hx : ∀ i, ∃ r : ℝ, x i = (r : EReal) ∧ r ≠ 0) : ∀ j, ∃ r : ℝ, broadcastInDim t dims h x j = (r : EReal) ∧ r ≠ 0 :=
  fun _ => hx _

/-- `broadcastTo` of a real array is real. -/
theorem isRealArr_broadcastTo {x : s.Idx → EReal} (h : s.Broadcasts t) (hx : IsRealArr x) : IsRealArr (broadcastTo t x h) :=
  fun _ => hx _

/-- `shapeCast` of a real array is real. -/
theorem isRealArr_shapeCast {x : s.Idx → EReal} (h : s.ShapeCasts t) (hx : IsRealArr x) : IsRealArr (shapeCast t x h) :=
  fun _ => hx _

/-- `extractStridedSlice` of a real array is real. -/
theorem isRealArr_extractStridedSlice {x : s.Idx → EReal} (off : Fin s.rank → Nat) (h : s.Slices off t) (hx : IsRealArr x) :
    IsRealArr (extractStridedSlice t off x h) := fun _ => hx _

/-- `transpose` of a real array is real. -/
theorem isRealArr_transpose {x : s.Idx → EReal} (perm : List (Fin s.rank)) (h : s.Transposes perm t) (hx : IsRealArr x) :
    IsRealArr (transpose t perm x h) := fun _ => hx _

/-- A gather from a real array is real: each result entry is an operand entry. -/
theorem isRealArr_gather {si : Shape} {w : Nat} (d : GatherDims s si t) {x : s.Idx → EReal} (idx : IVec si w) (hx : IsRealArr x) :
    IsRealArr (Host.gather d x idx) := fun _ => hx _

/-- A concatenation of real arrays is real. -/
theorem isRealArr_concatenate (a : Fin t.rank) (xs : List ((s : Shape) × (s.Idx → EReal)))
    (hc : Shape.Concatenates (xs.map (·.1)) t a) (h : ∀ p ∈ xs, IsRealArr p.2) : IsRealArr (concatenate t a xs hc) := by
  intro j
  unfold concatenate
  exact h _ (List.getElem_mem _) _

/-! ### Sums -/

/-- The host's sum of a real array from a real initial value is real. -/
theorem isRealArr_hostReduceAdd {axes : List (Fin s.rank)} {u : Shape} {x : FVec Ideal s φ} {init : u.Idx → Ideal φ}
    (h : s.ReducesTo axes t) (hu : 0 < u.numel) (hx : IsRealArr x) (hi : IsRealArr init) :
    IsRealArr (Host.reduceAdd x init h hu) := by
  intro j
  show IsReal (Ideal.hostReduceAdd h x (init (Shape.Idx.first hu)) j)
  unfold Ideal.hostReduceAdd
  exact IsReal.add (hi _) (IsReal.sum _ _ fun i _ => hx i)

/-- The host's sum of an entrywise nonnegative real array from a nonnegative real initial value is entrywise a nonnegative
    real. -/
theorem hostReduceAdd_nonneg {axes : List (Fin s.rank)} {u : Shape} {x : FVec Ideal s φ} {init : u.Idx → Ideal φ}
    (h : s.ReducesTo axes t) (hu : 0 < u.numel) (hx : ∀ i, ∃ r : ℝ, x i = (r : EReal) ∧ 0 ≤ r)
    (hi : ∀ i, ∃ r : ℝ, init i = (r : EReal) ∧ 0 ≤ r) :
    ∀ j, ∃ r : ℝ, Host.reduceAdd x init h hu j = (r : EReal) ∧ 0 ≤ r := by
  intro j
  show ∃ r : ℝ, Ideal.hostReduceAdd h x (init (Shape.Idx.first hu)) j = (r : EReal) ∧ 0 ≤ r
  unfold Ideal.hostReduceAdd
  obtain ⟨p, hp, hp0⟩ := hi (Shape.Idx.first hu)
  obtain ⟨q, hq, hq0⟩ := sum_nonneg_real (Finset.univ.filter (fun i => h.drop i = j)) x fun i _ => hx i
  exact ⟨p + q, by rw [hp, hq, add_coe], add_nonneg hp0 hq0⟩

/-- The kernel's sum (`vector.multi_reduction <add>`) of a real array is real. -/
theorem isRealArr_multiReduction_add {axes : List (Fin s.rank)} {src : FVec Ideal s φ} (acc : BitVec φ.bits)
    (h : s.Reduces axes t) (hφ : FKind.Formats φ) (hacc : acc = FKind.add.neutral φ hφ) (hx : IsRealArr src) :
    IsRealArr (multiReduction .add axes t src acc h hφ hacc) := by
  intro j
  show IsReal (Ideal.reduceAdd h src j)
  unfold Ideal.reduceAdd
  exact IsReal.sum _ _ fun i _ => hx i

/-- The kernel's matrix product of real operands onto a real accumulator is real. -/
theorem isRealArr_matmul {sl sr so : Shape} {φ₁ φ₂ : FTy} (d : DotDims sl sr so) (prec : Option ContractPrecision)
    {lhs : FVec Ideal sl φ₁} {rhs : FVec Ideal sr φ₂} {acc : FVec Ideal so .f32}
    (hl : IsRealArr lhs) (hr : IsRealArr rhs) (ha : IsRealArr acc) : IsRealArr (matmul d prec lhs rhs acc) := by
  intro j
  show IsReal (Ideal.matmul d lhs rhs acc j)
  unfold Ideal.matmul
  exact IsReal.add (ha j) (IsReal.sum _ _ fun k _ => IsReal.mul (hl _) (hr _))

/-- The host's matrix product of real operands is real. -/
theorem isRealArr_dotGeneral {sl sr so : Shape} {φ₁ φ₂ : FTy} (d : DotDims sl sr so) (prec : Option ContractPrecision)
    {lhs : FVec Ideal sl φ₁} {rhs : FVec Ideal sr φ₂} (hl : IsRealArr lhs) (hr : IsRealArr rhs) :
    IsRealArr (Host.dotGeneral d prec lhs rhs) := by
  intro j
  show IsReal (Ideal.matmul d lhs rhs (fun _ => 0) j)
  unfold Ideal.matmul
  exact IsReal.add isReal_zero (IsReal.sum _ _ fun k _ => IsReal.mul (hl _) (hr _))

/-- The host's accumulating scatter of real updates into a real operand is real. -/
theorem isRealArr_scatterAdd {si u : Shape} {w : Nat} (d : ScatterDims s si u) {x : FVec Ideal s φ} (idx : IVec si w)
    {upd : FVec Ideal u φ} (hx : IsRealArr x) (hu : IsRealArr upd) : IsRealArr (Host.scatterAdd d x idx upd) := by
  intro i
  show IsReal (Ideal.hostScatterAdd d x idx upd i)
  unfold Ideal.hostScatterAdd
  exact IsReal.add (hx i) (IsReal.sum _ _ fun j _ => hu j)

/-- The host's accumulating scatter of entrywise nonnegative real updates into an entrywise nonnegative real operand is
    entrywise a nonnegative real (a count of ones, for one). -/
theorem scatterAdd_nonneg {si u : Shape} {w : Nat} (d : ScatterDims s si u) {x : FVec Ideal s φ} (idx : IVec si w)
    {upd : FVec Ideal u φ} (hx : ∀ i, ∃ r : ℝ, x i = (r : EReal) ∧ 0 ≤ r) (hu : ∀ i, ∃ r : ℝ, upd i = (r : EReal) ∧ 0 ≤ r) :
    ∀ i, ∃ r : ℝ, Host.scatterAdd d x idx upd i = (r : EReal) ∧ 0 ≤ r := by
  intro i
  show ∃ r : ℝ, Ideal.hostScatterAdd d x idx upd i = (r : EReal) ∧ 0 ≤ r
  unfold Ideal.hostScatterAdd
  obtain ⟨p, hp, hp0⟩ := hx i
  obtain ⟨q, hq, hq0⟩ := sum_nonneg_real (Finset.univ.filter (fun j => d.resultIdx? j idx = some i)) upd fun j _ => hu j
  exact ⟨p + q, by rw [hp, hq, add_coe], add_nonneg hp0 hq0⟩

end Arrays

end Cert.Val

end
-- ==== Proof.Val.Pre.lean ====
import proofs.«424088_j28020366639260_2_alg».proof.Defs
import proofs.«424088_j28020366639260_2_alg».proof.Proof.Gen.Pre_finite_inputs
import Idealize.ShloMosaic.Lib.ReduceAll
import Idealize.ShloMosaic.Lib.ValueIdx
import proofs.«424088_j28020366639260_2_alg».proof.Proof.LibRealArr

/-!
  The precondition gives real arguments: every entry of each floating-point argument array is the
  coercion of a real number, because its absolute value lies strictly below the positive infinity.
-/

noncomputable section

namespace Cert.Val

open Idealize.ShloMosaic Idealize.SL.Sem

/-- An extended real whose absolute value is strictly below the f32 pattern of +∞ is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  induction x using EReal.rec with
  | bot => simp [FloatOps.cmpf, FloatOps.hostAbsf, FloatOps.ofBits, Ideal.cmp, Ideal.ofBits, Ideal.ieee] at h
  | top => simp [FloatOps.cmpf, FloatOps.hostAbsf, FloatOps.ofBits, Ideal.cmp, Ideal.ofBits, Ideal.ieee] at h
  | coe r => exact ⟨r, rfl⟩

instance : Subsingleton Cert.Pre_finite_inputs.S_.Idx := ⟨fun a b => funext fun d => d.elim0⟩

/-- One conjunct of the predicate, an "all entries have |x| < +∞" over the whole array, read back:
    the array is real. -/
theorem isReal_of_all {S : Shape} {axes : List (Fin S.rank)} (x : FVec Ideal S .f32)
    (bc : Cert.Pre_finite_inputs.S_.BroadcastsInDim S (![] : Fin 0 → Fin S.rank))
    (hr : S.ReducesTo axes Cert.Pre_finite_inputs.S_) (h0 : 0 < Cert.Pre_finite_inputs.S_.numel)
    (init : IVec Cert.Pre_finite_inputs.S_ 1) (j : Cert.Pre_finite_inputs.S_.Idx)
    (e : Host.reduce IntOp.andi
        (cmpf .olt (Host.absf x) (broadcastInDim S ![] bc (constant Cert.Pre_finite_inputs.S_ .f32 0x7F800000#32)))
        init hr h0 j = 1#1) : IsRealArr x := by
  intro i
  have hi := Host.reduce_andi_all _ init hr h0 j e i
  exact real_of_abs_lt_inf (x i) hi

variable (m : (ℓ : Loc Cert.KernelIdeal.nD Cert.KernelIdeal.τ Cert.KernelIdeal.sig) → Buf (Elt Ideal) ℓ)

/-- Under the precondition all seventeen floating-point argument arrays are real. -/
theorem real_args (h : Cert.Pre_KernelIdeal m) (c : Dev Cert.KernelIdeal.nD) :
    IsRealArr (S := Cert.Pre_finite_inputs.S100000x128) (m ((c.tc : Thread Cert.KernelIdeal.nD Cert.KernelIdeal.τ).loc Cert.KernelIdeal.main_arg0))
    ∧ IsRealArr (S := Cert.Pre_finite_inputs.S2000x128) (m ((c.tc : Thread Cert.KernelIdeal.nD Cert.KernelIdeal.τ).loc Cert.KernelIdeal.main_arg1))
    ∧ IsRealArr (S := Cert.Pre_finite_inputs.S5000x128) (m ((c.tc : Thread Cert.KernelIdeal.nD Cert.KernelIdeal.τ).loc Cert.KernelIdeal.main_arg2))
    ∧ IsRealArr (S := Cert.Pre_finite_inputs.S3000x128) (m ((c.tc : Thread Cert.KernelIdeal.nD Cert.KernelIdeal.τ).loc Cert.KernelIdeal.main_arg3))
    ∧ IsRealArr (S := Cert.Pre_finite_inputs.S128x128) (m ((c.tc : Thread Cert.KernelIdeal.nD Cert.KernelIdeal.τ).loc Cert.KernelIdeal.main_arg4))
    ∧ IsRealArr (S := Cert.Pre_finite_inputs.S128) (m ((c.tc : Thread Cert.KernelIdeal.nD Cert.KernelIdeal.τ).loc Cert.KernelIdeal.main_arg5))
    ∧ IsRealArr (S := Cert.Pre_finite_inputs.S128x128) (m ((c.tc : Thread Cert.KernelIdeal.nD Cert.KernelIdeal.τ).loc Cert.KernelIdeal.main_arg6))
    ∧ IsRealArr (S := Cert.Pre_finite_inputs.S128) (m ((c.tc : Thread Cert.KernelIdeal.nD Cert.KernelIdeal.τ).loc Cert.KernelIdeal.main_arg7))
    ∧ IsRealArr (S := Cert.Pre_finite_inputs.S128x128) (m ((c.tc : Thread Cert.KernelIdeal.nD Cert.KernelIdeal.τ).loc Cert.KernelIdeal.main_arg8))
    ∧ IsRealArr (S := Cert.Pre_finite_inputs.S128) (m ((c.tc : Thread Cert.KernelIdeal.nD Cert.KernelIdeal.τ).loc Cert.KernelIdeal.main_arg9))
    ∧ IsRealArr (S := Cert.Pre_finite_inputs.S2x128) (m ((c.tc : Thread Cert.KernelIdeal.nD Cert.KernelIdeal.τ).loc Cert.KernelIdeal.main_arg10))
    ∧ IsRealArr (S := Cert.Pre_finite_inputs.S2x128) (m ((c.tc : Thread Cert.KernelIdeal.nD Cert.KernelIdeal.τ).loc Cert.KernelIdeal.main_arg11))
    ∧ IsRealArr (S := Cert.Pre_finite_inputs.S2x6x128x128) (m ((c.tc : Thread Cert.KernelIdeal.nD Cert.KernelIdeal.τ).loc Cert.KernelIdeal.main_arg12))
    ∧ IsRealArr (S := Cert.Pre_finite_inputs.S2x6x128) (m ((c.tc : Thread Cert.KernelIdeal.nD Cert.KernelIdeal.τ).loc Cert.KernelIdeal.main_arg13))
    ∧ IsRealArr (S := Cert.Pre_finite_inputs.S2x6x128x128) (m ((c.tc : Thread Cert.KernelIdeal.nD Cert.KernelIdeal.τ).loc Cert.KernelIdeal.main_arg14))
    ∧ IsRealArr (S := Cert.Pre_finite_inputs.S2x4x128) (m ((c.tc : Thread Cert.KernelIdeal.nD Cert.KernelIdeal.τ).loc Cert.KernelIdeal.main_arg15))
    ∧ IsRealArr (S := Cert.Pre_finite_inputs.S2x4x128) (m ((c.tc : Thread Cert.KernelIdeal.nD Cert.KernelIdeal.τ).loc Cert.KernelIdeal.main_arg16)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ _ _ _ e0,
    isReal_of_all _ _ _ _ _ _ e1,
    isReal_of_all _ _ _ _ _ _ e2,
    isReal_of_all _ _ _ _ _ _ e3,
    isReal_of_all _ _ _ _ _ _ e4,
    isReal_of_all _ _ _ _ _ _ e5,
    isReal_of_all _ _ _ _ _ _ e6,
    isReal_of_all _ _ _ _ _ _ e7,
    isReal_of_all _ _ _ _ _ _ e8,
    isReal_of_all _ _ _ _ _ _ e9,
    isReal_of_all _ _ _ _ _ _ e10,
    isReal_of_all _ _ _ _ _ _ e11,
    isReal_of_all _ _ _ _ _ _ e12,
    isReal_of_all _ _ _ _ _ _ e13,
    isReal_of_all _ _ _ _ _ _ e14,
    isReal_of_all _ _ _ _ _ _ e15,
    isReal_of_all _ _ _ _ _ _ e16⟩

theorem real_arg0 (h : Cert.Pre_KernelIdeal m) (c : Dev Cert.KernelIdeal.nD) :
    IsRealArr (S := Cert.Pre_finite_inputs.S100000x128) (m ((c.tc : Thread Cert.KernelIdeal.nD Cert.KernelIdeal.τ).loc Cert.KernelIdeal.main_arg0)) :=
  (real_args m h c).1

theorem real_arg1 (h : Cert.Pre_KernelIdeal m) (c : Dev Cert.KernelIdeal.nD) :
    IsRealArr (S := Cert.Pre_finite_inputs.S2000x128) (m ((c.tc : Thread Cert.KernelIdeal.nD Cert.KernelIdeal.τ).loc Cert.KernelIdeal.main_arg1)) :=
  (real_args m h c).2.1

theorem real_arg2 (h : Cert.Pre_KernelIdeal m) (c : Dev Cert.KernelIdeal.nD) :
    IsRealArr (S := Cert.Pre_finite_inputs.S5000x128) (m ((c.tc : Thread Cert.KernelIdeal.nD Cert.KernelIdeal.τ).loc Cert.KernelIdeal.main_arg2)) :=
  (real_args m h c).2.2.1

theorem real_arg3 (h : Cert.Pre_KernelIdeal m) (c : Dev Cert.KernelIdeal.nD) :
    IsRealArr (S := Cert.Pre_finite_inputs.S3000x128) (m ((c.tc : Thread Cert.KernelIdeal.nD Cert.KernelIdeal.τ).loc Cert.KernelIdeal.main_arg3)) :=
  (real_args m h c).2.2.2.1

theorem real_arg4 (h : Cert.Pre_KernelIdeal m) (c : Dev Cert.KernelIdeal.nD) :
    IsRealArr (S := Cert.Pre_finite_inputs.S128x128) (m ((c.tc : Thread Cert.KernelIdeal.nD Cert.KernelIdeal.τ).loc Cert.KernelIdeal.main_arg4)) :=
  (real_args m h c).2.2.2.2.1

theorem real_arg5 (h : Cert.Pre_KernelIdeal m) (c : Dev Cert.KernelIdeal.nD) :
    IsRealArr (S := Cert.Pre_finite_inputs.S128) (m ((c.tc : Thread Cert.KernelIdeal.nD Cert.KernelIdeal.τ).loc Cert.KernelIdeal.main_arg5)) :=
  (real_args m h c).2.2.2.2.2.1

theorem real_arg6 (h : Cert.Pre_KernelIdeal m) (c : Dev Cert.KernelIdeal.nD) :
    IsRealArr (S := Cert.Pre_finite_inputs.S128x128) (m ((c.tc : Thread Cert.KernelIdeal.nD Cert.KernelIdeal.τ).loc Cert.KernelIdeal.main_arg6)) :=
  (real_args m h c).2.2.2.2.2.2.1

theorem real_arg7 (h : Cert.Pre_KernelIdeal m) (c : Dev Cert.KernelIdeal.nD) :
    IsRealArr (S := Cert.Pre_finite_inputs.S128) (m ((c.tc : Thread Cert.KernelIdeal.nD Cert.KernelIdeal.τ).loc Cert.KernelIdeal.main_arg7)) :=
  (real_args m h c).2.2.2.2.2.2.2.1

theorem real_arg8 (h : Cert.Pre_KernelIdeal m) (c : Dev Cert.KernelIdeal.nD) :
    IsRealArr (S := Cert.Pre_finite_inputs.S128x128) (m ((c.tc : Thread Cert.KernelIdeal.nD Cert.KernelIdeal.τ).loc Cert.KernelIdeal.main_arg8)) :=
  (real_args m h c).2.2.2.2.2.2.2.2.1

theorem real_arg9 (h : Cert.Pre_KernelIdeal m) (c : Dev Cert.KernelIdeal.nD) :
    IsRealArr (S := Cert.Pre_finite_inputs.S128) (m ((c.tc : Thread Cert.KernelIdeal.nD Cert.KernelIdeal.τ).loc Cert.KernelIdeal.main_arg9)) :=
  (real_args m h c).2.2.2.2.2.2.2.2.2.1

theorem real_arg10 (h : Cert.Pre_KernelIdeal m) (c : Dev Cert.KernelIdeal.nD) :
    IsRealArr (S := Cert.Pre_finite_inputs.S2x128) (m ((c.tc : Thread Cert.KernelIdeal.nD Cert.KernelIdeal.τ).loc Cert.KernelIdeal.main_arg10)) :=
  (real_args m h c).2.2.2.2.2.2.2.2.2.2.1

theorem real_arg11 (h : Cert.Pre_KernelIdeal m) (c : Dev Cert.KernelIdeal.nD) :
    IsRealArr (S := Cert.Pre_finite_inputs.S2x128) (m ((c.tc : Thread Cert.KernelIdeal.nD Cert.KernelIdeal.τ).loc Cert.KernelIdeal.main_arg11)) :=
  (real_args m h c).2.2.2.2.2.2.2.2.2.2.2.1

theorem real_arg12 (h : Cert.Pre_KernelIdeal m) (c : Dev Cert.KernelIdeal.nD) :
    IsRealArr (S := Cert.Pre_finite_inputs.S2x6x128x128) (m ((c.tc : Thread Cert.KernelIdeal.nD Cert.KernelIdeal.τ).loc Cert.KernelIdeal.main_arg12)) :=
  (real_args m h c).2.2.2.2.2.2.2.2.2.2.2.2.1

theorem real_arg13 (h : Cert.Pre_KernelIdeal m) (c : Dev Cert.KernelIdeal.nD) :
    IsRealArr (S := Cert.Pre_finite_inputs.S2x6x128) (m ((c.tc : Thread Cert.KernelIdeal.nD Cert.KernelIdeal.τ).loc Cert.KernelIdeal.main_arg13)) :=
  (real_args m h c).2.2.2.2.2.2.2.2.2.2.2.2.2.1

theorem real_arg14 (h : Cert.Pre_KernelIdeal m) (c : Dev Cert.KernelIdeal.nD) :
    IsRealArr (S := Cert.Pre_finite_inputs.S2x6x128x128) (m ((c.tc : Thread Cert.KernelIdeal.nD Cert.KernelIdeal.τ).loc Cert.KernelIdeal.main_arg14)) :=
  (real_args m h c).2.2.2.2.2.2.2.2.2.2.2.2.2.2.1

theorem real_arg15 (h : Cert.Pre_KernelIdeal m) (c : Dev Cert.KernelIdeal.nD) :
    IsRealArr (S := Cert.Pre_finite_inputs.S2x4x128) (m ((c.tc : Thread Cert.KernelIdeal.nD Cert.KernelIdeal.τ).loc Cert.KernelIdeal.main_arg15)) :=
  (real_args m h c).2.2.2.2.2.2.2.2.2.2.2.2.2.2.2.1

theorem real_arg16 (h : Cert.Pre_KernelIdeal m) (c : Dev Cert.KernelIdeal.nD) :
    IsRealArr (S := Cert.Pre_finite_inputs.S2x4x128) (m ((c.tc : Thread Cert.KernelIdeal.nD Cert.KernelIdeal.τ).loc Cert.KernelIdeal.main_arg16)) :=
  (real_args m h c).2.2.2.2.2.2.2.2.2.2.2.2.2.2.2.2

end Cert.Val

end
-- ==== Proof.Val.ChainArgsBase.lean ====
/- The two launch memories' agreement on the 23 argument arrays, by name; and: a buffer that passes the 40 tests of
   KI/Args.lean is kept by every item of @main. -/
import proofs.«424088_j28020366639260_2_alg».proof.Defs
import proofs.«424088_j28020366639260_2_alg».proof.Proof.Val.Keep
import proofs.«424088_j28020366639260_2_alg».proof.Proof.Ref.Fix
import proofs.«424088_j28020366639260_2_alg».proof.Proof.Val.Pre

noncomputable section

namespace Cert.Val

open Idealize.ShloMosaic Idealize.SL.Sem Idealize.ShloMosaic.StableHlo

/-- A buffer that passes the 40 tests of `Cert.KernelIdeal.Hand.Untouched` is kept by every item. -/
theorem keeps_of_untouched (r : Ref Cert.KernelIdeal.sig .tc) (h : Cert.KernelIdeal.Hand.Untouched r) :
    ∀ i, i < 40 → Cert.KernelIdeal.Hand.Keeps r (0 + i + 1) := by
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40⟩ := h
  intro i hi
  interval_cases i
  · exact decide_eq_true h1
  · exact decide_eq_true h2
  · exact decide_eq_true h3
  · exact decide_eq_true h4
  · exact decide_eq_true h5
  · exact decide_eq_true h6
  · exact decide_eq_true h7
  · exact decide_eq_true h8
  · exact decide_eq_true h9
  · exact decide_eq_true h10
  · exact decide_eq_true h11
  · exact decide_eq_true h12
  · exact decide_eq_true h13
  · exact decide_eq_true h14
  · exact decide_eq_true h15
  · exact decide_eq_true h16
  · exact decide_eq_true h17
  · exact decide_eq_true h18
  · exact decide_eq_true h19
  · exact decide_eq_true h20
  · exact decide_eq_true h21
  · exact decide_eq_true h22
  · exact decide_eq_true h23
  · exact decide_eq_true h24
  · exact decide_eq_true h25
  · exact decide_eq_true h26
  · exact decide_eq_true h27
  · exact decide_eq_true h28
  · exact decide_eq_true h29
  · exact decide_eq_true h30
  · exact decide_eq_true h31
  · exact decide_eq_true h32
  · exact decide_eq_true h33
  · exact decide_eq_true h34
  · exact decide_eq_true h35
  · exact decide_eq_true h36
  · exact decide_eq_true h37
  · exact decide_eq_true h38
  · exact decide_eq_true h39
  · exact decide_eq_true h40

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

/-- The two launch memories agree on the 23 argument arrays, device by device (the claim's hypothesis, by name). -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

end Cert.Val

end
-- ==== Proof.Val.ChainArg0.lean ====
/- Argument array 0 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg0_keeps : ∀ i, i < 40 → Cert.KernelIdeal.Hand.Keeps Cert.KernelIdeal.main_arg0 (0 + i + 1) :=
  keeps_of_untouched _ Cert.KernelIdeal.Hand.untouched_main_arg0

theorem arg0_K (j : ℕ) (hj : j ≤ 40) :
    Cert.KernelIdeal.Hand.Wn m g j c (Proc.devRef .tc Cert.KernelIdeal.main_arg0) = m ((c.tc : Thread Cert.KernelIdeal.nD Cert.KernelIdeal.τ).loc Cert.KernelIdeal.main_arg0) :=
  Cert.KernelIdeal.Hand.Wn_launch m g c Cert.KernelIdeal.main_arg0 j hj fun i hi => arg0_keeps i (by omega)

theorem arg0_V (h : Agree m m') : launchContents m' c (Proc.devRef .tc Cert.ReferenceIdeal.main_arg0) = m ((c.tc : Thread Cert.KernelIdeal.nD Cert.KernelIdeal.τ).loc Cert.KernelIdeal.main_arg0) :=
  (h c).1

theorem arg0_R (h : Agree m m') :
    after (Cert.ReferenceIdeal.Hand.ops (F := Ideal)) (launchContents m' c) (Proc.devRef .tc Cert.ReferenceIdeal.main_arg0) = m ((c.tc : Thread Cert.KernelIdeal.nD Cert.KernelIdeal.τ).loc Cert.KernelIdeal.main_arg0) :=
  (Cert.ReferenceIdeal.Hand.after_ops_arg Cert.ReferenceIdeal.main_arg0 (by decide) (launchContents m' c)).trans ((h c).1)

/-- At any point of @main the kernel program holds of argument 0 what the reference holds of it at the end, -/
theorem arg0_link (h : Agree m m') (j : ℕ) (hj : j ≤ 40) :
    Cert.KernelIdeal.Hand.Wn m g j c (Proc.devRef .tc Cert.KernelIdeal.main_arg0)
      = after (Cert.ReferenceIdeal.Hand.ops (F := Ideal)) (launchContents m' c) (Proc.devRef .tc Cert.ReferenceIdeal.main_arg0) :=
  (arg0_K g c j hj).trans (arg0_R c h).symm

/-- and what the reference is launched with. -/
theorem arg0_linkV (h : Agree m m') (j : ℕ) (hj : j ≤ 40) :
    Cert.KernelIdeal.Hand.Wn m g j c (Proc.devRef .tc Cert.KernelIdeal.main_arg0) = launchContents m' c (Proc.devRef .tc Cert.ReferenceIdeal.main_arg0) :=
  (arg0_K g c j hj).trans (arg0_V c h).symm

theorem arg0_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg0) i = (r : EReal) := by
  rw [arg0_R c h]; exact real_arg0 m hpre c

theorem arg0_realV [hPre_finite_inputs : Cert.Pre_finite_inputs.Facts] (hpre : Cert.Pre_KernelIdeal m) (h : Agree m m') :
    ∀ i, ∃ r : ℝ, launchContents m' c (Proc.devRef .tc Cert.ReferenceIdeal.main_arg0) i = (r : EReal) := by
  rw [arg0_V c h]; exact real_arg0 m hpre c

end Cert.Val

end
-- ==== Proof.Val.ChainArg1.lean ====
/- Argument array 1 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg1_keeps : ∀ i, i < 40 → Cert.KernelIdeal.Hand.Keeps Cert.KernelIdeal.main_arg1 (0 + i + 1) :=
  keeps_of_untouched _ Cert.KernelIdeal.Hand.untouched_main_arg1

theorem arg1_K (j : ℕ) (hj : j ≤ 40) :
    Cert.KernelIdeal.Hand.Wn m g j c (Proc.devRef .tc Cert.KernelIdeal.main_arg1) = m ((c.tc : Thread Cert.KernelIdeal.nD Cert.KernelIdeal.τ).loc Cert.KernelIdeal.main_arg1) :=
  Cert.KernelIdeal.Hand.Wn_launch m g c Cert.KernelIdeal.main_arg1 j hj fun i hi => arg1_keeps i (by omega)

theorem arg1_V (h : Agree m m') : launchContents m' c (Proc.devRef .tc Cert.ReferenceIdeal.main_arg1) = m ((c.tc : Thread Cert.KernelIdeal.nD Cert.KernelIdeal.τ).loc Cert.KernelIdeal.main_arg1) :=
  (h c).2.1

theorem arg1_R (h : Agree m m') :
    after (Cert.ReferenceIdeal.Hand.ops (F := Ideal)) (launchContents m' c) (Proc.devRef .tc Cert.ReferenceIdeal.main_arg1) = m ((c.tc : Thread Cert.KernelIdeal.nD Cert.KernelIdeal.τ).loc Cert.KernelIdeal.main_arg1) :=
  (Cert.ReferenceIdeal.Hand.after_ops_arg Cert.ReferenceIdeal.main_arg1 (by decide) (launchContents m' c)).trans ((h c).2.1)

/-- At any point of @main the kernel program holds of argument 1 what the reference holds of it at the end, -/
theorem arg1_link (h : Agree m m') (j : ℕ) (hj : j ≤ 40) :
    Cert.KernelIdeal.Hand.Wn m g j c (Proc.devRef .tc Cert.KernelIdeal.main_arg1)
      = after (Cert.ReferenceIdeal.Hand.ops (F := Ideal)) (launchContents m' c) (Proc.devRef .tc Cert.ReferenceIdeal.main_arg1) :=
  (arg1_K g c j hj).trans (arg1_R c h).symm

/-- and what the reference is launched with. -/
theorem arg1_linkV (h : Agree m m') (j : ℕ) (hj : j ≤ 40) :
    Cert.KernelIdeal.Hand.Wn m g j c (Proc.devRef .tc Cert.KernelIdeal.main_arg1) = launchContents m' c (Proc.devRef .tc Cert.ReferenceIdeal.main_arg1) :=
  (arg1_K g c j hj).trans (arg1_V c h).symm

theorem arg1_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg1) i = (r : EReal) := by
  rw [arg1_R c h]; exact real_arg1 m hpre c

theorem arg1_realV [hPre_finite_inputs : Cert.Pre_finite_inputs.Facts] (hpre : Cert.Pre_KernelIdeal m) (h : Agree m m') :
    ∀ i, ∃ r : ℝ, launchContents m' c (Proc.devRef .tc Cert.ReferenceIdeal.main_arg1) i = (r : EReal) := by
  rw [arg1_V c h]; exact real_arg1 m hpre c

end Cert.Val

end
-- ==== Proof.Val.ChainArg2.lean ====
/- Argument array 2 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg2_keeps : ∀ i, i < 40 → Cert.KernelIdeal.Hand.Keeps Cert.KernelIdeal.main_arg2 (0 + i + 1) :=
  keeps_of_untouched _ Cert.KernelIdeal.Hand.untouched_main_arg2

theorem arg2_K (j : ℕ) (hj : j ≤ 40) :
    Cert.KernelIdeal.Hand.Wn m g j c (Proc.devRef .tc Cert.KernelIdeal.main_arg2) = m ((c.tc : Thread Cert.KernelIdeal.nD Cert.KernelIdeal.τ).loc Cert.KernelIdeal.main_arg2) :=
  Cert.KernelIdeal.Hand.Wn_launch m g c Cert.KernelIdeal.main_arg2 j hj fun i hi => arg2_keeps i (by omega)

theorem arg2_V (h : Agree m m') : launchContents m' c (Proc.devRef .tc Cert.ReferenceIdeal.main_arg2) = m ((c.tc : Thread Cert.KernelIdeal.nD Cert.KernelIdeal.τ).loc Cert.KernelIdeal.main_arg2) :=
  (h c).2.2.1

theorem arg2_R (h : Agree m m') :
    after (Cert.ReferenceIdeal.Hand.ops (F := Ideal)) (launchContents m' c) (Proc.devRef .tc Cert.ReferenceIdeal.main_arg2) = m ((c.tc : Thread Cert.KernelIdeal.nD Cert.KernelIdeal.τ).loc Cert.KernelIdeal.main_arg2) :=
  (Cert.ReferenceIdeal.Hand.after_ops_arg Cert.ReferenceIdeal.main_arg2 (by decide) (launchContents m' c)).trans ((h c).2.2.1)

/-- At any point of @main the kernel program holds of argument 2 what the reference holds of it at the end, -/
theorem arg2_link (h : Agree m m') (j : ℕ) (hj : j ≤ 40) :
    Cert.KernelIdeal.Hand.Wn m g j c (Proc.devRef .tc Cert.KernelIdeal.main_arg2)
      = after (Cert.ReferenceIdeal.Hand.ops (F := Ideal)) (launchContents m' c) (Proc.devRef .tc Cert.ReferenceIdeal.main_arg2) :=
  (arg2_K g c j hj).trans (arg2_R c h).symm

/-- and what the reference is launched with. -/
theorem arg2_linkV (h : Agree m m') (j : ℕ) (hj : j ≤ 40) :
    Cert.KernelIdeal.Hand.Wn m g j c (Proc.devRef .tc Cert.KernelIdeal.main_arg2) = launchContents m' c (Proc.devRef .tc Cert.ReferenceIdeal.main_arg2) :=
  (arg2_K g c j hj).trans (arg2_V c h).symm

theorem arg2_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg2) i = (r : EReal) := by
  rw [arg2_R c h]; exact real_arg2 m hpre c

theorem arg2_realV [hPre_finite_inputs : Cert.Pre_finite_inputs.Facts] (hpre : Cert.Pre_KernelIdeal m) (h : Agree m m') :
    ∀ i, ∃ r : ℝ, launchContents m' c (Proc.devRef .tc Cert.ReferenceIdeal.main_arg2) i = (r : EReal) := by
  rw [arg2_V c h]; exact real_arg2 m hpre c

end Cert.Val

end
-- ==== Proof.Val.ChainArg3.lean ====
/- Argument array 3 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg3_keeps : ∀ i, i < 40 → Cert.KernelIdeal.Hand.Keeps Cert.KernelIdeal.main_arg3 (0 + i + 1) :=
  keeps_of_untouched _ Cert.KernelIdeal.Hand.untouched_main_arg3

theorem arg3_K (j : ℕ) (hj : j ≤ 40) :
    Cert.KernelIdeal.Hand.Wn m g j c (Proc.devRef .tc Cert.KernelIdeal.main_arg3) = m ((c.tc : Thread Cert.KernelIdeal.nD Cert.KernelIdeal.τ).loc Cert.KernelIdeal.main_arg3) :=
  Cert.KernelIdeal.Hand.Wn_launch m g c Cert.KernelIdeal.main_arg3 j hj fun i hi => arg3_keeps i (by omega)

theorem arg3_V (h : Agree m m') : launchContents m' c (Proc.devRef .tc Cert.ReferenceIdeal.main_arg3) = m ((c.tc : Thread Cert.KernelIdeal.nD Cert.KernelIdeal.τ).loc Cert.KernelIdeal.main_arg3) :=
  (h c).2.2.2.1

theorem arg3_R (h : Agree m m') :
    after (Cert.ReferenceIdeal.Hand.ops (F := Ideal)) (launchContents m' c) (Proc.devRef .tc Cert.ReferenceIdeal.main_arg3) = m ((c.tc : Thread Cert.KernelIdeal.nD Cert.KernelIdeal.τ).loc Cert.KernelIdeal.main_arg3) :=
  (Cert.ReferenceIdeal.Hand.after_ops_arg Cert.ReferenceIdeal.main_arg3 (by decide) (launchContents m' c)).trans ((h c).2.2.2.1)

/-- At any point of @main the kernel program holds of argument 3 what the reference holds of it at the end, -/
theorem arg3_link (h : Agree m m') (j : ℕ) (hj : j ≤ 40) :
    Cert.KernelIdeal.Hand.Wn m g j c (Proc.devRef .tc Cert.KernelIdeal.main_arg3)
      = after (Cert.ReferenceIdeal.Hand.ops (F := Ideal)) (launchContents m' c) (Proc.devRef .tc Cert.ReferenceIdeal.main_arg3) :=
  (arg3_K g c j hj).trans (arg3_R c h).symm

/-- and what the reference is launched with. -/
theorem arg3_linkV (h : Agree m m') (j : ℕ) (hj : j ≤ 40) :
    Cert.KernelIdeal.Hand.Wn m g j c (Proc.devRef .tc Cert.KernelIdeal.main_arg3) = launchContents m' c (Proc.devRef .tc Cert.ReferenceIdeal.main_arg3) :=
  (arg3_K g c j hj).trans (arg3_V c h).symm

theorem arg3_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg3) i = (r : EReal) := by
  rw [arg3_R c h]; exact real_arg3 m hpre c

theorem arg3_realV [hPre_finite_inputs : Cert.Pre_finite_inputs.Facts] (hpre : Cert.Pre_KernelIdeal m) (h : Agree m m') :
    ∀ i, ∃ r : ℝ, launchContents m' c (Proc.devRef .tc Cert.ReferenceIdeal.main_arg3) i = (r : EReal) := by
  rw [arg3_V c h]; exact real_arg3 m hpre c

end Cert.Val

end
-- ==== Proof.Val.ChainArg4.lean ====
/- Argument array 4 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg4_keeps : ∀ i, i < 40 → Cert.KernelIdeal.Hand.Keeps Cert.KernelIdeal.main_arg4 (0 + i + 1) :=
  keeps_of_untouched _ Cert.KernelIdeal.Hand.untouched_main_arg4

theorem arg4_K (j : ℕ) (hj : j ≤ 40) :
    Cert.KernelIdeal.Hand.Wn m g j c (Proc.devRef .tc Cert.KernelIdeal.main_arg4) = m ((c.tc : Thread Cert.KernelIdeal.nD Cert.KernelIdeal.τ).loc Cert.KernelIdeal.main_arg4) :=
  Cert.KernelIdeal.Hand.Wn_launch m g c Cert.KernelIdeal.main_arg4 j hj fun i hi => arg4_keeps i (by omega)

theorem arg4_V (h : Agree m m') : launchContents m' c (Proc.devRef .tc Cert.ReferenceIdeal.main_arg4) = m ((c.tc : Thread Cert.KernelIdeal.nD Cert.KernelIdeal.τ).loc Cert.KernelIdeal.main_arg4) :=
  (h c).2.2.2.2.1

theorem arg4_R (h : Agree m m') :
    after (Cert.ReferenceIdeal.Hand.ops (F := Ideal)) (launchContents m' c) (Proc.devRef .tc Cert.ReferenceIdeal.main_arg4) = m ((c.tc : Thread Cert.KernelIdeal.nD Cert.KernelIdeal.τ).loc Cert.KernelIdeal.main_arg4) :=
  (Cert.ReferenceIdeal.Hand.after_ops_arg Cert.ReferenceIdeal.main_arg4 (by decide) (launchContents m' c)).trans ((h c).2.2.2.2.1)

/-- At any point of @main the kernel program holds of argument 4 what the reference holds of it at the end, -/
theorem arg4_link (h : Agree m m') (j : ℕ) (hj : j ≤ 40) :
    Cert.KernelIdeal.Hand.Wn m g j c (Proc.devRef .tc Cert.KernelIdeal.main_arg4)
      = after (Cert.ReferenceIdeal.Hand.ops (F := Ideal)) (launchContents m' c) (Proc.devRef .tc Cert.ReferenceIdeal.main_arg4) :=
  (arg4_K g c j hj).trans (arg4_R c h).symm

/-- and what the reference is launched with. -/
theorem arg4_linkV (h : Agree m m') (j : ℕ) (hj : j ≤ 40) :
    Cert.KernelIdeal.Hand.Wn m g j c (Proc.devRef .tc Cert.KernelIdeal.main_arg4) = launchContents m' c (Proc.devRef .tc Cert.ReferenceIdeal.main_arg4) :=
  (arg4_K g c j hj).trans (arg4_V c h).symm

theorem arg4_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg4) i = (r : EReal) := by
  rw [arg4_R c h]; exact real_arg4 m hpre c

theorem arg4_realV [hPre_finite_inputs : Cert.Pre_finite_inputs.Facts] (hpre : Cert.Pre_KernelIdeal m) (h : Agree m m') :
    ∀ i, ∃ r : ℝ, launchContents m' c (Proc.devRef .tc Cert.ReferenceIdeal.main_arg4) i = (r : EReal) := by
  rw [arg4_V c h]; exact real_arg4 m hpre c

end Cert.Val

end
-- ==== Proof.Val.ChainArg5.lean ====
/- Argument array 5 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg5_keeps : ∀ i, i < 40 → Cert.KernelIdeal.Hand.Keeps Cert.KernelIdeal.main_arg5 (0 + i + 1) :=
  keeps_of_untouched _ Cert.KernelIdeal.Hand.untouched_main_arg5

theorem arg5_K (j : ℕ) (hj : j ≤ 40) :
    Cert.KernelIdeal.Hand.Wn m g j c (Proc.devRef .tc Cert.KernelIdeal.main_arg5) = m ((c.tc : Thread Cert.KernelIdeal.nD Cert.KernelIdeal.τ).loc Cert.KernelIdeal.main_arg5) :=
  Cert.KernelIdeal.Hand.Wn_launch m g c Cert.KernelIdeal.main_arg5 j hj fun i hi => arg5_keeps i (by omega)

theorem arg5_V (h : Agree m m') : launchContents m' c (Proc.devRef .tc Cert.ReferenceIdeal.main_arg5) = m ((c.tc : Thread Cert.KernelIdeal.nD Cert.KernelIdeal.τ).loc Cert.KernelIdeal.main_arg5) :=
  (h c).2.2.2.2.2.1

theorem arg5_R (h : Agree m m') :
    after (Cert.ReferenceIdeal.Hand.ops (F := Ideal)) (launchContents m' c) (Proc.devRef .tc Cert.ReferenceIdeal.main_arg5) = m ((c.tc : Thread Cert.KernelIdeal.nD Cert.KernelIdeal.τ).loc Cert.KernelIdeal.main_arg5) :=
  (Cert.ReferenceIdeal.Hand.after_ops_arg Cert.ReferenceIdeal.main_arg5 (by decide) (launchContents m' c)).trans ((h c).2.2.2.2.2.1)

/-- At any point of @main the kernel program holds of argument 5 what the reference holds of it at the end, -/
theorem arg5_link (h : Agree m m') (j : ℕ) (hj : j ≤ 40) :
    Cert.KernelIdeal.Hand.Wn m g j c (Proc.devRef .tc Cert.KernelIdeal.main_arg5)
      = after (Cert.ReferenceIdeal.Hand.ops (F := Ideal)) (launchContents m' c) (Proc.devRef .tc Cert.ReferenceIdeal.main_arg5) :=
  (arg5_K g c j hj).trans (arg5_R c h).symm

/-- and what the reference is launched with. -/
theorem arg5_linkV (h : Agree m m') (j : ℕ) (hj : j ≤ 40) :
    Cert.KernelIdeal.Hand.Wn m g j c (Proc.devRef .tc Cert.KernelIdeal.main_arg5) = launchContents m' c (Proc.devRef .tc Cert.ReferenceIdeal.main_arg5) :=
  (arg5_K g c j hj).trans (arg5_V c h).symm

theorem arg5_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg5) i = (r : EReal) := by
  rw [arg5_R c h]; exact real_arg5 m hpre c

theorem arg5_realV [hPre_finite_inputs : Cert.Pre_finite_inputs.Facts] (hpre : Cert.Pre_KernelIdeal m) (h : Agree m m') :
    ∀ i, ∃ r : ℝ, launchContents m' c (Proc.devRef .tc Cert.ReferenceIdeal.main_arg5) i = (r : EReal) := by
  rw [arg5_V c h]; exact real_arg5 m hpre c

end Cert.Val

end
-- ==== Proof.Val.ChainArg6.lean ====
/- Argument array 6 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg6_keeps : ∀ i, i < 40 → Cert.KernelIdeal.Hand.Keeps Cert.KernelIdeal.main_arg6 (0 + i + 1) :=
  keeps_of_untouched _ Cert.KernelIdeal.Hand.untouched_main_arg6

theorem arg6_K (j : ℕ) (hj : j ≤ 40) :
    Cert.KernelIdeal.Hand.Wn m g j c (Proc.devRef .tc Cert.KernelIdeal.main_arg6) = m ((c.tc : Thread Cert.KernelIdeal.nD Cert.KernelIdeal.τ).loc Cert.KernelIdeal.main_arg6) :=
  Cert.KernelIdeal.Hand.Wn_launch m g c Cert.KernelIdeal.main_arg6 j hj fun i hi => arg6_keeps i (by omega)

theorem arg6_V (h : Agree m m') : launchContents m' c (Proc.devRef .tc Cert.ReferenceIdeal.main_arg6) = m ((c.tc : Thread Cert.KernelIdeal.nD Cert.KernelIdeal.τ).loc Cert.KernelIdeal.main_arg6) :=
  (h c).2.2.2.2.2.2.1

theorem arg6_R (h : Agree m m') :
    after (Cert.ReferenceIdeal.Hand.ops (F := Ideal)) (launchContents m' c) (Proc.devRef .tc Cert.ReferenceIdeal.main_arg6) = m ((c.tc : Thread Cert.KernelIdeal.nD Cert.KernelIdeal.τ).loc Cert.KernelIdeal.main_arg6) :=
  (Cert.ReferenceIdeal.Hand.after_ops_arg Cert.ReferenceIdeal.main_arg6 (by decide) (launchContents m' c)).trans ((h c).2.2.2.2.2.2.1)

/-- At any point of @main the kernel program holds of argument 6 what the reference holds of it at the end, -/
theorem arg6_link (h : Agree m m') (j : ℕ) (hj : j ≤ 40) :
    Cert.KernelIdeal.Hand.Wn m g j c (Proc.devRef .tc Cert.KernelIdeal.main_arg6)
      = after (Cert.ReferenceIdeal.Hand.ops (F := Ideal)) (launchContents m' c) (Proc.devRef .tc Cert.ReferenceIdeal.main_arg6) :=
  (arg6_K g c j hj).trans (arg6_R c h).symm

/-- and what the reference is launched with. -/
theorem arg6_linkV (h : Agree m m') (j : ℕ) (hj : j ≤ 40) :
    Cert.KernelIdeal.Hand.Wn m g j c (Proc.devRef .tc Cert.KernelIdeal.main_arg6) = launchContents m' c (Proc.devRef .tc Cert.ReferenceIdeal.main_arg6) :=
  (arg6_K g c j hj).trans (arg6_V c h).symm

theorem arg6_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg6) i = (r : EReal) := by
  rw [arg6_R c h]; exact real_arg6 m hpre c

theorem arg6_realV [hPre_finite_inputs : Cert.Pre_finite_inputs.Facts] (hpre : Cert.Pre_KernelIdeal m) (h : Agree m m') :
    ∀ i, ∃ r : ℝ, launchContents m' c (Proc.devRef .tc Cert.ReferenceIdeal.main_arg6) i = (r : EReal) := by
  rw [arg6_V c h]; exact real_arg6 m hpre c

end Cert.Val

end
-- ==== Proof.Val.ChainArg7.lean ====
/- Argument array 7 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg7_keeps : ∀ i, i < 40 → Cert.KernelIdeal.Hand.Keeps Cert.KernelIdeal.main_arg7 (0 + i + 1) :=
  keeps_of_untouched _ Cert.KernelIdeal.Hand.untouched_main_arg7

theorem arg7_K (j : ℕ) (hj : j ≤ 40) :
    Cert.KernelIdeal.Hand.Wn m g j c (Proc.devRef .tc Cert.KernelIdeal.main_arg7) = m ((c.tc : Thread Cert.KernelIdeal.nD Cert.KernelIdeal.τ).loc Cert.KernelIdeal.main_arg7) :=
  Cert.KernelIdeal.Hand.Wn_launch m g c Cert.KernelIdeal.main_arg7 j hj fun i hi => arg7_keeps i (by omega)

theorem arg7_V (h : Agree m m') : launchContents m' c (Proc.devRef .tc Cert.ReferenceIdeal.main_arg7) = m ((c.tc : Thread Cert.KernelIdeal.nD Cert.KernelIdeal.τ).loc Cert.KernelIdeal.main_arg7) :=
  (h c).2.2.2.2.2.2.2.1

theorem arg7_R (h : Agree m m') :
    after (Cert.ReferenceIdeal.Hand.ops (F := Ideal)) (launchContents m' c) (Proc.devRef .tc Cert.ReferenceIdeal.main_arg7) = m ((c.tc : Thread Cert.KernelIdeal.nD Cert.KernelIdeal.τ).loc Cert.KernelIdeal.main_arg7) :=
  (Cert.ReferenceIdeal.Hand.after_ops_arg Cert.ReferenceIdeal.main_arg7 (by decide) (launchContents m' c)).trans ((h c).2.2.2.2.2.2.2.1)

/-- At any point of @main the kernel program holds of argument 7 what the reference holds of it at the end, -/
theorem arg7_link (h : Agree m m') (j : ℕ) (hj : j ≤ 40) :
    Cert.KernelIdeal.Hand.Wn m g j c (Proc.devRef .tc Cert.KernelIdeal.main_arg7)
      = after (Cert.ReferenceIdeal.Hand.ops (F := Ideal)) (launchContents m' c) (Proc.devRef .tc Cert.ReferenceIdeal.main_arg7) :=
  (arg7_K g c j hj).trans (arg7_R c h).symm

/-- and what the reference is launched with. -/
theorem arg7_linkV (h : Agree m m') (j : ℕ) (hj : j ≤ 40) :
    Cert.KernelIdeal.Hand.Wn m g j c (Proc.devRef .tc Cert.KernelIdeal.main_arg7) = launchContents m' c (Proc.devRef .tc Cert.ReferenceIdeal.main_arg7) :=
  (arg7_K g c j hj).trans (arg7_V c h).symm

theorem arg7_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg7) i = (r : EReal) := by
  rw [arg7_R c h]; exact real_arg7 m hpre c

theorem arg7_realV [hPre_finite_inputs : Cert.Pre_finite_inputs.Facts] (hpre : Cert.Pre_KernelIdeal m) (h : Agree m m') :
    ∀ i, ∃ r : ℝ, launchContents m' c (Proc.devRef .tc Cert.ReferenceIdeal.main_arg7) i = (r : EReal) := by
  rw [arg7_V c h]; exact real_arg7 m hpre c

end Cert.Val

end
-- ==== Proof.Val.ChainArg8.lean ====
/- Argument array 8 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg8_keeps : ∀ i, i < 40 → Cert.KernelIdeal.Hand.Keeps Cert.KernelIdeal.main_arg8 (0 + i + 1) :=
  keeps_of_untouched _ Cert.KernelIdeal.Hand.untouched_main_arg8

theorem arg8_K (j : ℕ) (hj : j ≤ 40) :
    Cert.KernelIdeal.Hand.Wn m g j c (Proc.devRef .tc Cert.KernelIdeal.main_arg8) = m ((c.tc : Thread Cert.KernelIdeal.nD Cert.KernelIdeal.τ).loc Cert.KernelIdeal.main_arg8) :=
  Cert.KernelIdeal.Hand.Wn_launch m g c Cert.KernelIdeal.main_arg8 j hj fun i hi => arg8_keeps i (by omega)

theorem arg8_V (h : Agree m m') : launchContents m' c (Proc.devRef .tc Cert.ReferenceIdeal.main_arg8) = m ((c.tc : Thread Cert.KernelIdeal.nD Cert.KernelIdeal.τ).loc Cert.KernelIdeal.main_arg8) :=
  (h c).2.2.2.2.2.2.2.2.1

theorem arg8_R (h : Agree m m') :
    after (Cert.ReferenceIdeal.Hand.ops (F := Ideal)) (launchContents m' c) (Proc.devRef .tc Cert.ReferenceIdeal.main_arg8) = m ((c.tc : Thread Cert.KernelIdeal.nD Cert.KernelIdeal.τ).loc Cert.KernelIdeal.main_arg8) :=
  (Cert.ReferenceIdeal.Hand.after_ops_arg Cert.ReferenceIdeal.main_arg8 (by decide) (launchContents m' c)).trans ((h c).2.2.2.2.2.2.2.2.1)

/-- At any point of @main the kernel program holds of argument 8 what the reference holds of it at the end, -/
theorem arg8_link (h : Agree m m') (j : ℕ) (hj : j ≤ 40) :
    Cert.KernelIdeal.Hand.Wn m g j c (Proc.devRef .tc Cert.KernelIdeal.main_arg8)
      = after (Cert.ReferenceIdeal.Hand.ops (F := Ideal)) (launchContents m' c) (Proc.devRef .tc Cert.ReferenceIdeal.main_arg8) :=
  (arg8_K g c j hj).trans (arg8_R c h).symm

/-- and what the reference is launched with. -/
theorem arg8_linkV (h : Agree m m') (j : ℕ) (hj : j ≤ 40) :
    Cert.KernelIdeal.Hand.Wn m g j c (Proc.devRef .tc Cert.KernelIdeal.main_arg8) = launchContents m' c (Proc.devRef .tc Cert.ReferenceIdeal.main_arg8) :=
  (arg8_K g c j hj).trans (arg8_V c h).symm

theorem arg8_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg8) i = (r : EReal) := by
  rw [arg8_R c h]; exact real_arg8 m hpre c

theorem arg8_realV [hPre_finite_inputs : Cert.Pre_finite_inputs.Facts] (hpre : Cert.Pre_KernelIdeal m) (h : Agree m m') :
    ∀ i, ∃ r : ℝ, launchContents m' c (Proc.devRef .tc Cert.ReferenceIdeal.main_arg8) i = (r : EReal) := by
  rw [arg8_V c h]; exact real_arg8 m hpre c

end Cert.Val

end
-- ==== Proof.Val.ChainArg9.lean ====
/- Argument array 9 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg9_keeps : ∀ i, i < 40 → Cert.KernelIdeal.Hand.Keeps Cert.KernelIdeal.main_arg9 (0 + i + 1) :=
  keeps_of_untouched _ Cert.KernelIdeal.Hand.untouched_main_arg9

theorem arg9_K (j : ℕ) (hj : j ≤ 40) :
    Cert.KernelIdeal.Hand.Wn m g j c (Proc.devRef .tc Cert.KernelIdeal.main_arg9) = m ((c.tc : Thread Cert.KernelIdeal.nD Cert.KernelIdeal.τ).loc Cert.KernelIdeal.main_arg9) :=
  Cert.KernelIdeal.Hand.Wn_launch m g c Cert.KernelIdeal.main_arg9 j hj fun i hi => arg9_keeps i (by omega)

theorem arg9_V (h : Agree m m') : launchContents m' c (Proc.devRef .tc Cert.ReferenceIdeal.main_arg9) = m ((c.tc : Thread Cert.KernelIdeal.nD Cert.KernelIdeal.τ).loc Cert.KernelIdeal.main_arg9) :=
  (h c).2.2.2.2.2.2.2.2.2.1

theorem arg9_R (h : Agree m m') :
    after (Cert.ReferenceIdeal.Hand.ops (F := Ideal)) (launchContents m' c) (Proc.devRef .tc Cert.ReferenceIdeal.main_arg9) = m ((c.tc : Thread Cert.KernelIdeal.nD Cert.KernelIdeal.τ).loc Cert.KernelIdeal.main_arg9) :=
  (Cert.ReferenceIdeal.Hand.after_ops_arg Cert.ReferenceIdeal.main_arg9 (by decide) (launchContents m' c)).trans ((h c).2.2.2.2.2.2.2.2.2.1)

/-- At any point of @main the kernel program holds of argument 9 what the reference holds of it at the end, -/
theorem arg9_link (h : Agree m m') (j : ℕ) (hj : j ≤ 40) :
    Cert.KernelIdeal.Hand.Wn m g j c (Proc.devRef .tc Cert.KernelIdeal.main_arg9)
      = after (Cert.ReferenceIdeal.Hand.ops (F := Ideal)) (launchContents m' c) (Proc.devRef .tc Cert.ReferenceIdeal.main_arg9) :=
  (arg9_K g c j hj).trans (arg9_R c h).symm

/-- and what the reference is launched with. -/
theorem arg9_linkV (h : Agree m m') (j : ℕ) (hj : j ≤ 40) :
    Cert.KernelIdeal.Hand.Wn m g j c (Proc.devRef .tc Cert.KernelIdeal.main_arg9) = launchContents m' c (Proc.devRef .tc Cert.ReferenceIdeal.main_arg9) :=
  (arg9_K g c j hj).trans (arg9_V c h).symm

theorem arg9_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg9) i = (r : EReal) := by
  rw [arg9_R c h]; exact real_arg9 m hpre c

theorem arg9_realV [hPre_finite_inputs : Cert.Pre_finite_inputs.Facts] (hpre : Cert.Pre_KernelIdeal m) (h : Agree m m') :
    ∀ i, ∃ r : ℝ, launchContents m' c (Proc.devRef .tc Cert.ReferenceIdeal.main_arg9) i = (r : EReal) := by
  rw [arg9_V c h]; exact real_arg9 m hpre c

end Cert.Val

end
-- ==== Proof.Val.ChainArg10.lean ====
/- Argument array 10 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg10_keeps : ∀ i, i < 40 → Cert.KernelIdeal.Hand.Keeps Cert.KernelIdeal.main_arg10 (0 + i + 1) :=
  keeps_of_untouched _ Cert.KernelIdeal.Hand.untouched_main_arg10

theorem arg10_K (j : ℕ) (hj : j ≤ 40) :
    Cert.KernelIdeal.Hand.Wn m g j c (Proc.devRef .tc Cert.KernelIdeal.main_arg10) = m ((c.tc : Thread Cert.KernelIdeal.nD Cert.KernelIdeal.τ).loc Cert.KernelIdeal.main_arg10) :=
  Cert.KernelIdeal.Hand.Wn_launch m g c Cert.KernelIdeal.main_arg10 j hj fun i hi => arg10_keeps i (by omega)

theorem arg10_V (h : Agree m m') : launchContents m' c (Proc.devRef .tc Cert.ReferenceIdeal.main_arg10) = m ((c.tc : Thread Cert.KernelIdeal.nD Cert.KernelIdeal.τ).loc Cert.KernelIdeal.main_arg10) :=
  (h c).2.2.2.2.2.2.2.2.2.2.1

theorem arg10_R (h : Agree m m') :
    after (Cert.ReferenceIdeal.Hand.ops (F := Ideal)) (launchContents m' c) (Proc.devRef .tc Cert.ReferenceIdeal.main_arg10) = m ((c.tc : Thread Cert.KernelIdeal.nD Cert.KernelIdeal.τ).loc Cert.KernelIdeal.main_arg10) :=
  (Cert.ReferenceIdeal.Hand.after_ops_arg Cert.ReferenceIdeal.main_arg10 (by decide) (launchContents m' c)).trans ((h c).2.2.2.2.2.2.2.2.2.2.1)

/-- At any point of @main the kernel program holds of argument 10 what the reference holds of it at the end, -/
theorem arg10_link (h : Agree m m') (j : ℕ) (hj : j ≤ 40) :
    Cert.KernelIdeal.Hand.Wn m g j c (Proc.devRef .tc Cert.KernelIdeal.main_arg10)
      = after (Cert.ReferenceIdeal.Hand.ops (F := Ideal)) (launchContents m' c) (Proc.devRef .tc Cert.ReferenceIdeal.main_arg10) :=
  (arg10_K g c j hj).trans (arg10_R c h).symm

/-- and what the reference is launched with. -/
theorem arg10_linkV (h : Agree m m') (j : ℕ) (hj : j ≤ 40) :
    Cert.KernelIdeal.Hand.Wn m g j c (Proc.devRef .tc Cert.KernelIdeal.main_arg10) = launchContents m' c (Proc.devRef .tc Cert.ReferenceIdeal.main_arg10) :=
  (arg10_K g c j hj).trans (arg10_V c h).symm

theorem arg10_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg10) i = (r : EReal) := by
  rw [arg10_R c h]; exact real_arg10 m hpre c

theorem arg10_realV [hPre_finite_inputs : Cert.Pre_finite_inputs.Facts] (hpre : Cert.Pre_KernelIdeal m) (h : Agree m m') :
    ∀ i, ∃ r : ℝ, launchContents m' c (Proc.devRef .tc Cert.ReferenceIdeal.main_arg10) i = (r : EReal) := by
  rw [arg10_V c h]; exact real_arg10 m hpre c

end Cert.Val

end
-- ==== Proof.Val.ChainArg11.lean ====
/- Argument array 11 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg11_keeps : ∀ i, i < 40 → Cert.KernelIdeal.Hand.Keeps Cert.KernelIdeal.main_arg11 (0 + i + 1) :=
  keeps_of_untouched _ Cert.KernelIdeal.Hand.untouched_main_arg11

theorem arg11_K (j : ℕ) (hj : j ≤ 40) :
    Cert.KernelIdeal.Hand.Wn m g j c (Proc.devRef .tc Cert.KernelIdeal.main_arg11) = m ((c.tc : Thread Cert.KernelIdeal.nD Cert.KernelIdeal.τ).loc Cert.KernelIdeal.main_arg11) :=
  Cert.KernelIdeal.Hand.Wn_launch m g c Cert.KernelIdeal.main_arg11 j hj fun i hi => arg11_keeps i (by omega)

theorem arg11_V (h : Agree m m') : launchContents m' c (Proc.devRef .tc Cert.ReferenceIdeal.main_arg11) = m ((c.tc : Thread Cert.KernelIdeal.nD Cert.KernelIdeal.τ).loc Cert.KernelIdeal.main_arg11) :=
  (h c).2.2.2.2.2.2.2.2.2.2.2.1

theorem arg11_R (h : Agree m m') :
    after (Cert.ReferenceIdeal.Hand.ops (F := Ideal)) (launchContents m' c) (Proc.devRef .tc Cert.ReferenceIdeal.main_arg11) = m ((c.tc : Thread Cert.KernelIdeal.nD Cert.KernelIdeal.τ).loc Cert.KernelIdeal.main_arg11) :=
  (Cert.ReferenceIdeal.Hand.after_ops_arg Cert.ReferenceIdeal.main_arg11 (by decide) (launchContents m' c)).trans ((h c).2.2.2.2.2.2.2.2.2.2.2.1)

/-- At any point of @main the kernel program holds of argument 11 what the reference holds of it at the end, -/
theorem arg11_link (h : Agree m m') (j : ℕ) (hj : j ≤ 40) :
    Cert.KernelIdeal.Hand.Wn m g j c (Proc.devRef .tc Cert.KernelIdeal.main_arg11)
      = after (Cert.ReferenceIdeal.Hand.ops (F := Ideal)) (launchContents m' c) (Proc.devRef .tc Cert.ReferenceIdeal.main_arg11) :=
  (arg11_K g c j hj).trans (arg11_R c h).symm

/-- and what the reference is launched with. -/
theorem arg11_linkV (h : Agree m m') (j : ℕ) (hj : j ≤ 40) :
    Cert.KernelIdeal.Hand.Wn m g j c (Proc.devRef .tc Cert.KernelIdeal.main_arg11) = launchContents m' c (Proc.devRef .tc Cert.ReferenceIdeal.main_arg11) :=
  (arg11_K g c j hj).trans (arg11_V c h).symm

theorem arg11_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg11) i = (r : EReal) := by
  rw [arg11_R c h]; exact real_arg11 m hpre c

theorem arg11_realV [hPre_finite_inputs : Cert.Pre_finite_inputs.Facts] (hpre : Cert.Pre_KernelIdeal m) (h : Agree m m') :
    ∀ i, ∃ r : ℝ, launchContents m' c (Proc.devRef .tc Cert.ReferenceIdeal.main_arg11) i = (r : EReal) := by
  rw [arg11_V c h]; exact real_arg11 m hpre c

end Cert.Val

end
-- ==== Proof.Val.ChainArg12.lean ====
/- Argument array 12 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg12_keeps : ∀ i, i < 40 → Cert.KernelIdeal.Hand.Keeps Cert.KernelIdeal.main_arg12 (0 + i + 1) :=
  keeps_of_untouched _ Cert.KernelIdeal.Hand.untouched_main_arg12

theorem arg12_K (j : ℕ) (hj : j ≤ 40) :
    Cert.KernelIdeal.Hand.Wn m g j c (Proc.devRef .tc Cert.KernelIdeal.main_arg12) = m ((c.tc : Thread Cert.KernelIdeal.nD Cert.KernelIdeal.τ).loc Cert.KernelIdeal.main_arg12) :=
  Cert.KernelIdeal.Hand.Wn_launch m g c Cert.KernelIdeal.main_arg12 j hj fun i hi => arg12_keeps i (by omega)

theorem arg12_V (h : Agree m m') : launchContents m' c (Proc.devRef .tc Cert.ReferenceIdeal.main_arg12) = m ((c.tc : Thread Cert.KernelIdeal.nD Cert.KernelIdeal.τ).loc Cert.KernelIdeal.main_arg12) :=
  (h c).2.2.2.2.2.2.2.2.2.2.2.2.1

theorem arg12_R (h : Agree m m') :
    after (Cert.ReferenceIdeal.Hand.ops (F := Ideal)) (launchContents m' c) (Proc.devRef .tc Cert.ReferenceIdeal.main_arg12) = m ((c.tc : Thread Cert.KernelIdeal.nD Cert.KernelIdeal.τ).loc Cert.KernelIdeal.main_arg12) :=
  (Cert.ReferenceIdeal.Hand.after_ops_arg Cert.ReferenceIdeal.main_arg12 (by decide) (launchContents m' c)).trans ((h c).2.2.2.2.2.2.2.2.2.2.2.2.1)

/-- At any point of @main the kernel program holds of argument 12 what the reference holds of it at the end, -/
theorem arg12_link (h : Agree m m') (j : ℕ) (hj : j ≤ 40) :
    Cert.KernelIdeal.Hand.Wn m g j c (Proc.devRef .tc Cert.KernelIdeal.main_arg12)
      = after (Cert.ReferenceIdeal.Hand.ops (F := Ideal)) (launchContents m' c) (Proc.devRef .tc Cert.ReferenceIdeal.main_arg12) :=
  (arg12_K g c j hj).trans (arg12_R c h).symm

/-- and what the reference is launched with. -/
theorem arg12_linkV (h : Agree m m') (j : ℕ) (hj : j ≤ 40) :
    Cert.KernelIdeal.Hand.Wn m g j c (Proc.devRef .tc Cert.KernelIdeal.main_arg12) = launchContents m' c (Proc.devRef .tc Cert.ReferenceIdeal.main_arg12) :=
  (arg12_K g c j hj).trans (arg12_V c h).symm

theorem arg12_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg12) i = (r : EReal) := by
  rw [arg12_R c h]; exact real_arg12 m hpre c

theorem arg12_realV [hPre_finite_inputs : Cert.Pre_finite_inputs.Facts] (hpre : Cert.Pre_KernelIdeal m) (h : Agree m m') :
    ∀ i, ∃ r : ℝ, launchContents m' c (Proc.devRef .tc Cert.ReferenceIdeal.main_arg12) i = (r : EReal) := by
  rw [arg12_V c h]; exact real_arg12 m hpre c

end Cert.Val

end
-- ==== Proof.Val.ChainArg13.lean ====
/- Argument array 13 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg13_keeps : ∀ i, i < 40 → Cert.KernelIdeal.Hand.Keeps Cert.KernelIdeal.main_arg13 (0 + i + 1) :=
  keeps_of_untouched _ Cert.KernelIdeal.Hand.untouched_main_arg13

theorem arg13_K (j : ℕ) (hj : j ≤ 40) :
    Cert.KernelIdeal.Hand.Wn m g j c (Proc.devRef .tc Cert.KernelIdeal.main_arg13) = m ((c.tc : Thread Cert.KernelIdeal.nD Cert.KernelIdeal.τ).loc Cert.KernelIdeal.main_arg13) :=
  Cert.KernelIdeal.Hand.Wn_launch m g c Cert.KernelIdeal.main_arg13 j hj fun i hi => arg13_keeps i (by omega)

theorem arg13_V (h : Agree m m') : launchContents m' c (Proc.devRef .tc Cert.ReferenceIdeal.main_arg13) = m ((c.tc : Thread Cert.KernelIdeal.nD Cert.KernelIdeal.τ).loc Cert.KernelIdeal.main_arg13) :=
  (h c).2.2.2.2.2.2.2.2.2.2.2.2.2.1

theorem arg13_R (h : Agree m m') :
    after (Cert.ReferenceIdeal.Hand.ops (F := Ideal)) (launchContents m' c) (Proc.devRef .tc Cert.ReferenceIdeal.main_arg13) = m ((c.tc : Thread Cert.KernelIdeal.nD Cert.KernelIdeal.τ).loc Cert.KernelIdeal.main_arg13) :=
  (Cert.ReferenceIdeal.Hand.after_ops_arg Cert.ReferenceIdeal.main_arg13 (by decide) (launchContents m' c)).trans ((h c).2.2.2.2.2.2.2.2.2.2.2.2.2.1)

/-- At any point of @main the kernel program holds of argument 13 what the reference holds of it at the end, -/
theorem arg13_link (h : Agree m m') (j : ℕ) (hj : j ≤ 40) :
    Cert.KernelIdeal.Hand.Wn m g j c (Proc.devRef .tc Cert.KernelIdeal.main_arg13)
      = after (Cert.ReferenceIdeal.Hand.ops (F := Ideal)) (launchContents m' c) (Proc.devRef .tc Cert.ReferenceIdeal.main_arg13) :=
  (arg13_K g c j hj).trans (arg13_R c h).symm

/-- and what the reference is launched with. -/
theorem arg13_linkV (h : Agree m m') (j : ℕ) (hj : j ≤ 40) :
    Cert.KernelIdeal.Hand.Wn m g j c (Proc.devRef .tc Cert.KernelIdeal.main_arg13) = launchContents m' c (Proc.devRef .tc Cert.ReferenceIdeal.main_arg13) :=
  (arg13_K g c j hj).trans (arg13_V c h).symm

theorem arg13_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg13) i = (r : EReal) := by
  rw [arg13_R c h]; exact real_arg13 m hpre c

theorem arg13_realV [hPre_finite_inputs : Cert.Pre_finite_inputs.Facts] (hpre : Cert.Pre_KernelIdeal m) (h : Agree m m') :
    ∀ i, ∃ r : ℝ, launchContents m' c (Proc.devRef .tc Cert.ReferenceIdeal.main_arg13) i = (r : EReal) := by
  rw [arg13_V c h]; exact real_arg13 m hpre c

end Cert.Val

end
-- ==== Proof.Val.ChainArg14.lean ====
/- Argument array 14 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg14_keeps : ∀ i, i < 40 → Cert.KernelIdeal.Hand.Keeps Cert.KernelIdeal.main_arg14 (0 + i + 1) :=
  keeps_of_untouched _ Cert.KernelIdeal.Hand.untouched_main_arg14

theorem arg14_K (j : ℕ) (hj : j ≤ 40) :
    Cert.KernelIdeal.Hand.Wn m g j c (Proc.devRef .tc Cert.KernelIdeal.main_arg14) = m ((c.tc : Thread Cert.KernelIdeal.nD Cert.KernelIdeal.τ).loc Cert.KernelIdeal.main_arg14) :=
  Cert.KernelIdeal.Hand.Wn_launch m g c Cert.KernelIdeal.main_arg14 j hj fun i hi => arg14_keeps i (by omega)

theorem arg14_V (h : Agree m m') : launchContents m' c (Proc.devRef .tc Cert.ReferenceIdeal.main_arg14) = m ((c.tc : Thread Cert.KernelIdeal.nD Cert.KernelIdeal.τ).loc Cert.KernelIdeal.main_arg14) :=
  (h c).2.2.2.2.2.2.2.2.2.2.2.2.2.2.1

theorem arg14_R (h : Agree m m') :
    after (Cert.ReferenceIdeal.Hand.ops (F := Ideal)) (launchContents m' c) (Proc.devRef .tc Cert.ReferenceIdeal.main_arg14) = m ((c.tc : Thread Cert.KernelIdeal.nD Cert.KernelIdeal.τ).loc Cert.KernelIdeal.main_arg14) :=
  (Cert.ReferenceIdeal.Hand.after_ops_arg Cert.ReferenceIdeal.main_arg14 (by decide) (launchContents m' c)).trans ((h c).2.2.2.2.2.2.2.2.2.2.2.2.2.2.1)

/-- At any point of @main the kernel program holds of argument 14 what the reference holds of it at the end, -/
theorem arg14_link (h : Agree m m') (j : ℕ) (hj : j ≤ 40) :
    Cert.KernelIdeal.Hand.Wn m g j c (Proc.devRef .tc Cert.KernelIdeal.main_arg14)
      = after (Cert.ReferenceIdeal.Hand.ops (F := Ideal)) (launchContents m' c) (Proc.devRef .tc Cert.ReferenceIdeal.main_arg14) :=
  (arg14_K g c j hj).trans (arg14_R c h).symm

/-- and what the reference is launched with. -/
theorem arg14_linkV (h : Agree m m') (j : ℕ) (hj : j ≤ 40) :
    Cert.KernelIdeal.Hand.Wn m g j c (Proc.devRef .tc Cert.KernelIdeal.main_arg14) = launchContents m' c (Proc.devRef .tc Cert.ReferenceIdeal.main_arg14) :=
  (arg14_K g c j hj).trans (arg14_V c h).symm

theorem arg14_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg14) i = (r : EReal) := by
  rw [arg14_R c h]; exact real_arg14 m hpre c

theorem arg14_realV [hPre_finite_inputs : Cert.Pre_finite_inputs.Facts] (hpre : Cert.Pre_KernelIdeal m) (h : Agree m m') :
    ∀ i, ∃ r : ℝ, launchContents m' c (Proc.devRef .tc Cert.ReferenceIdeal.main_arg14) i = (r : EReal) := by
  rw [arg14_V c h]; exact real_arg14 m hpre c

end Cert.Val

end
-- ==== Proof.Val.ChainArg15.lean ====
/- Argument array 15 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg15_keeps : ∀ i, i < 40 → Cert.KernelIdeal.Hand.Keeps Cert.KernelIdeal.main_arg15 (0 + i + 1) :=
  keeps_of_untouched _ Cert.KernelIdeal.Hand.untouched_main_arg15

theorem arg15_K (j : ℕ) (hj : j ≤ 40) :
    Cert.KernelIdeal.Hand.Wn m g j c (Proc.devRef .tc Cert.KernelIdeal.main_arg15) = m ((c.tc : Thread Cert.KernelIdeal.nD Cert.KernelIdeal.τ).loc Cert.KernelIdeal.main_arg15) :=
  Cert.KernelIdeal.Hand.Wn_launch m g c Cert.KernelIdeal.main_arg15 j hj fun i hi => arg15_keeps i (by omega)

theorem arg15_V (h : Agree m m') : launchContents m' c (Proc.devRef .tc Cert.ReferenceIdeal.main_arg15) = m ((c.tc : Thread Cert.KernelIdeal.nD Cert.KernelIdeal.τ).loc Cert.KernelIdeal.main_arg15) :=
  (h c).2.2.2.2.2.2.2.2.2.2.2.2.2.2.2.1

theorem arg15_R (h : Agree m m') :
    after (Cert.ReferenceIdeal.Hand.ops (F := Ideal)) (launchContents m' c) (Proc.devRef .tc Cert.ReferenceIdeal.main_arg15) = m ((c.tc : Thread Cert.KernelIdeal.nD Cert.KernelIdeal.τ).loc Cert.KernelIdeal.main_arg15) :=
  (Cert.ReferenceIdeal.Hand.after_ops_arg Cert.ReferenceIdeal.main_arg15 (by decide) (launchContents m' c)).trans ((h c).2.2.2.2.2.2.2.2.2.2.2.2.2.2.2.1)

/-- At any point of @main the kernel program holds of argument 15 what the reference holds of it at the end, -/
theorem arg15_link (h : Agree m m') (j : ℕ) (hj : j ≤ 40) :
    Cert.KernelIdeal.Hand.Wn m g j c (Proc.devRef .tc Cert.KernelIdeal.main_arg15)
      = after (Cert.ReferenceIdeal.Hand.ops (F := Ideal)) (launchContents m' c) (Proc.devRef .tc Cert.ReferenceIdeal.main_arg15) :=
  (arg15_K g c j hj).trans (arg15_R c h).symm

/-- and what the reference is launched with. -/
theorem arg15_linkV (h : Agree m m') (j : ℕ) (hj : j ≤ 40) :
    Cert.KernelIdeal.Hand.Wn m g j c (Proc.devRef .tc Cert.KernelIdeal.main_arg15) = launchContents m' c (Proc.devRef .tc Cert.ReferenceIdeal.main_arg15) :=
  (arg15_K g c j hj).trans (arg15_V c h).symm

theorem arg15_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg15) i = (r : EReal) := by
  rw [arg15_R c h]; exact real_arg15 m hpre c

theorem arg15_realV [hPre_finite_inputs : Cert.Pre_finite_inputs.Facts] (hpre : Cert.Pre_KernelIdeal m) (h : Agree m m') :
    ∀ i, ∃ r : ℝ, launchContents m' c (Proc.devRef .tc Cert.ReferenceIdeal.main_arg15) i = (r : EReal) := by
  rw [arg15_V c h]; exact real_arg15 m hpre c

end Cert.Val

end
-- ==== Proof.Val.ChainArg16.lean ====
/- Argument array 16 on the two sides: what the kernel program's fold holds of it at any point of @main, what the
   reference holds of it after all of its operations, that these agree under the claim's hypothesis and are real. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg16_keeps : ∀ i, i < 40 → Cert.KernelIdeal.Hand.Keeps Cert.KernelIdeal.main_arg16 (0 + i + 1) :=
  keeps_of_untouched _ Cert.KernelIdeal.Hand.untouched_main_arg16

theorem arg16_K (j : ℕ) (hj : j ≤ 40) :
    Cert.KernelIdeal.Hand.Wn m g j c (Proc.devRef .tc Cert.KernelIdeal.main_arg16) = m ((c.tc : Thread Cert.KernelIdeal.nD Cert.KernelIdeal.τ).loc Cert.KernelIdeal.main_arg16) :=
  Cert.KernelIdeal.Hand.Wn_launch m g c Cert.KernelIdeal.main_arg16 j hj fun i hi => arg16_keeps i (by omega)

theorem arg16_V (h : Agree m m') : launchContents m' c (Proc.devRef .tc Cert.ReferenceIdeal.main_arg16) = m ((c.tc : Thread Cert.KernelIdeal.nD Cert.KernelIdeal.τ).loc Cert.KernelIdeal.main_arg16) :=
  (h c).2.2.2.2.2.2.2.2.2.2.2.2.2.2.2.2.1

theorem arg16_R (h : Agree m m') :
    after (Cert.ReferenceIdeal.Hand.ops (F := Ideal)) (launchContents m' c) (Proc.devRef .tc Cert.ReferenceIdeal.main_arg16) = m ((c.tc : Thread Cert.KernelIdeal.nD Cert.KernelIdeal.τ).loc Cert.KernelIdeal.main_arg16) :=
  (Cert.ReferenceIdeal.Hand.after_ops_arg Cert.ReferenceIdeal.main_arg16 (by decide) (launchContents m' c)).trans ((h c).2.2.2.2.2.2.2.2.2.2.2.2.2.2.2.2.1)

/-- At any point of @main the kernel program holds of argument 16 what the reference holds of it at the end, -/
theorem arg16_link (h : Agree m m') (j : ℕ) (hj : j ≤ 40) :
    Cert.KernelIdeal.Hand.Wn m g j c (Proc.devRef .tc Cert.KernelIdeal.main_arg16)
      = after (Cert.ReferenceIdeal.Hand.ops (F := Ideal)) (launchContents m' c) (Proc.devRef .tc Cert.ReferenceIdeal.main_arg16) :=
  (arg16_K g c j hj).trans (arg16_R c h).symm

/-- and what the reference is launched with. -/
theorem arg16_linkV (h : Agree m m') (j : ℕ) (hj : j ≤ 40) :
    Cert.KernelIdeal.Hand.Wn m g j c (Proc.devRef .tc Cert.KernelIdeal.main_arg16) = launchContents m' c (Proc.devRef .tc Cert.ReferenceIdeal.main_arg16) :=
  (arg16_K g c j hj).trans (arg16_V c h).symm

theorem arg16_real [hPre_finite_inputs : Cert.Pre_finite_inputs.Facts] (hpre : Cert.Pre_KernelIdeal m) (h : Agree m m') :
    ∀ i, ∃ r : ℝ, after (Cert.ReferenceIdeal.Hand.ops (F := Ideal)) (launchContents m' c) (Proc.devRef .tc Cert.ReferenceIdeal.main_arg16) i = (r : EReal) := by
  rw [arg16_R c h]; exact real_arg16 m hpre c

theorem arg16_realV [hPre_finite_inputs : Cert.Pre_finite_inputs.Facts] (hpre : Cert.Pre_KernelIdeal m) (h : Agree m m') :
    ∀ i, ∃ r : ℝ, launchContents m' c (Proc.devRef .tc Cert.ReferenceIdeal.main_arg16) i = (r : EReal) := by
  rw [arg16_V c h]; exact real_arg16 m hpre c

end Cert.Val

end
-- ==== Proof.Val.ChainArg17.lean ====
/- Argument array 17 on the two sides: what the kernel program's fold holds of it at any point of @main, what the
   reference holds of it after all of its operations, that these agree under the claim's hypothesis. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg17_keeps : ∀ i, i < 40 → Cert.KernelIdeal.Hand.Keeps Cert.KernelIdeal.main_arg17 (0 + i + 1) :=
  keeps_of_untouched _ Cert.KernelIdeal.Hand.untouched_main_arg17

theorem arg17_K (j : ℕ) (hj : j ≤ 40) :
    Cert.KernelIdeal.Hand.Wn m g j c (Proc.devRef .tc Cert.KernelIdeal.main_arg17) = m ((c.tc : Thread Cert.KernelIdeal.nD Cert.KernelIdeal.τ).loc Cert.KernelIdeal.main_arg17) :=
  Cert.KernelIdeal.Hand.Wn_launch m g c Cert.KernelIdeal.main_arg17 j hj fun i hi => arg17_keeps i (by omega)

theorem arg17_V (h : Agree m m') : launchContents m' c (Proc.devRef .tc Cert.ReferenceIdeal.main_arg17) = m ((c.tc : Thread Cert.KernelIdeal.nD Cert.KernelIdeal.τ).loc Cert.KernelIdeal.main_arg17) :=
  (h c).2.2.2.2.2.2.2.2.2.2.2.2.2.2.2.2.2.1

theorem arg17_R (h : Agree m m') :
    after (Cert.ReferenceIdeal.Hand.ops (F := Ideal)) (launchContents m' c) (Proc.devRef .tc Cert.ReferenceIdeal.main_arg17) = m ((c.tc : Thread Cert.KernelIdeal.nD Cert.KernelIdeal.τ).loc Cert.KernelIdeal.main_arg17) :=
  (Cert.ReferenceIdeal.Hand.after_ops_arg Cert.ReferenceIdeal.main_arg17 (by decide) (launchContents m' c)).trans ((h c).2.2.2.2.2.2.2.2.2.2.2.2.2.2.2.2.2.1)

/-- At any point of @main the kernel program holds of argument 17 what the reference holds of it at the end, -/
theorem arg17_link (h : Agree m m') (j : ℕ) (hj : j ≤ 40) :
    Cert.KernelIdeal.Hand.Wn m g j c (Proc.devRef .tc Cert.KernelIdeal.main_arg17)
      = after (Cert.ReferenceIdeal.Hand.ops (F := Ideal)) (launchContents m' c) (Proc.devRef .tc Cert.ReferenceIdeal.main_arg17) :=
  (arg17_K g c j hj).trans (arg17_R c h).symm

/-- and what the reference is launched with. -/
theorem arg17_linkV (h : Agree m m') (j : ℕ) (hj : j ≤ 40) :
    Cert.KernelIdeal.Hand.Wn m g j c (Proc.devRef .tc Cert.KernelIdeal.main_arg17) = launchContents m' c (Proc.devRef .tc Cert.ReferenceIdeal.main_arg17) :=
  (arg17_K g c j hj).trans (arg17_V c h).symm

end Cert.Val

end
-- ==== Proof.Val.ChainArg18.lean ====
/- Argument array 18 on the two sides: what the kernel program's fold holds of it at any point of @main, what the
   reference holds of it after all of its operations, that these agree under the claim's hypothesis. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg18_keeps : ∀ i, i < 40 → Cert.KernelIdeal.Hand.Keeps Cert.KernelIdeal.main_arg18 (0 + i + 1) :=
  keeps_of_untouched _ Cert.KernelIdeal.Hand.untouched_main_arg18

theorem arg18_K (j : ℕ) (hj : j ≤ 40) :
    Cert.KernelIdeal.Hand.Wn m g j c (Proc.devRef .tc Cert.KernelIdeal.main_arg18) = m ((c.tc : Thread Cert.KernelIdeal.nD Cert.KernelIdeal.τ).loc Cert.KernelIdeal.main_arg18) :=
  Cert.KernelIdeal.Hand.Wn_launch m g c Cert.KernelIdeal.main_arg18 j hj fun i hi => arg18_keeps i (by omega)

theorem arg18_V (h : Agree m m') : launchContents m' c (Proc.devRef .tc Cert.ReferenceIdeal.main_arg18) = m ((c.tc : Thread Cert.KernelIdeal.nD Cert.KernelIdeal.τ).loc Cert.KernelIdeal.main_arg18) :=
  (h c).2.2.2.2.2.2.2.2.2.2.2.2.2.2.2.2.2.2.1

theorem arg18_R (h : Agree m m') :
    after (Cert.ReferenceIdeal.Hand.ops (F := Ideal)) (launchContents m' c) (Proc.devRef .tc Cert.ReferenceIdeal.main_arg18) = m ((c.tc : Thread Cert.KernelIdeal.nD Cert.KernelIdeal.τ).loc Cert.KernelIdeal.main_arg18) :=
  (Cert.ReferenceIdeal.Hand.after_ops_arg Cert.ReferenceIdeal.main_arg18 (by decide) (launchContents m' c)).trans ((h c).2.2.2.2.2.2.2.2.2.2.2.2.2.2.2.2.2.2.1)

/-- At any point of @main the kernel program holds of argument 18 what the reference holds of it at the end, -/
theorem arg18_link (h : Agree m m') (j : ℕ) (hj : j ≤ 40) :
    Cert.KernelIdeal.Hand.Wn m g j c (Proc.devRef .tc Cert.KernelIdeal.main_arg18)
      = after (Cert.ReferenceIdeal.Hand.ops (F := Ideal)) (launchContents m' c) (Proc.devRef .tc Cert.ReferenceIdeal.main_arg18) :=
  (arg18_K g c j hj).trans (arg18_R c h).symm

/-- and what the reference is launched with. -/
theorem arg18_linkV (h : Agree m m') (j : ℕ) (hj : j ≤ 40) :
    Cert.KernelIdeal.Hand.Wn m g j c (Proc.devRef .tc Cert.KernelIdeal.main_arg18) = launchContents m' c (Proc.devRef .tc Cert.ReferenceIdeal.main_arg18) :=
  (arg18_K g c j hj).trans (arg18_V c h).symm

end Cert.Val

end
-- ==== Proof.Val.ChainArg19.lean ====
/- Argument array 19 on the two sides: what the kernel program's fold holds of it at any point of @main, what the
   reference holds of it after all of its operations, that these agree under the claim's hypothesis. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg19_keeps : ∀ i, i < 40 → Cert.KernelIdeal.Hand.Keeps Cert.KernelIdeal.main_arg19 (0 + i + 1) :=
  keeps_of_untouched _ Cert.KernelIdeal.Hand.untouched_main_arg19

theorem arg19_K (j : ℕ) (hj : j ≤ 40) :
    Cert.KernelIdeal.Hand.Wn m g j c (Proc.devRef .tc Cert.KernelIdeal.main_arg19) = m ((c.tc : Thread Cert.KernelIdeal.nD Cert.KernelIdeal.τ).loc Cert.KernelIdeal.main_arg19) :=
  Cert.KernelIdeal.Hand.Wn_launch m g c Cert.KernelIdeal.main_arg19 j hj fun i hi => arg19_keeps i (by omega)

theorem arg19_V (h : Agree m m') : launchContents m' c (Proc.devRef .tc Cert.ReferenceIdeal.main_arg19) = m ((c.tc : Thread Cert.KernelIdeal.nD Cert.KernelIdeal.τ).loc Cert.KernelIdeal.main_arg19) :=
  (h c).2.2.2.2.2.2.2.2.2.2.2.2.2.2.2.2.2.2.2.1

theorem arg19_R (h : Agree m m') :
    after (Cert.ReferenceIdeal.Hand.ops (F := Ideal)) (launchContents m' c) (Proc.devRef .tc Cert.ReferenceIdeal.main_arg19) = m ((c.tc : Thread Cert.KernelIdeal.nD Cert.KernelIdeal.τ).loc Cert.KernelIdeal.main_arg19) :=
  (Cert.ReferenceIdeal.Hand.after_ops_arg Cert.ReferenceIdeal.main_arg19 (by decide) (launchContents m' c)).trans ((h c).2.2.2.2.2.2.2.2.2.2.2.2.2.2.2.2.2.2.2.1)

/-- At any point of @main the kernel program holds of argument 19 what the reference holds of it at the end, -/
theorem arg19_link (h : Agree m m') (j : ℕ) (hj : j ≤ 40) :
    Cert.KernelIdeal.Hand.Wn m g j c (Proc.devRef .tc Cert.KernelIdeal.main_arg19)
      = after (Cert.ReferenceIdeal.Hand.ops (F := Ideal)) (launchContents m' c) (Proc.devRef .tc Cert.ReferenceIdeal.main_arg19) :=
  (arg19_K g c j hj).trans (arg19_R c h).symm

/-- and what the reference is launched with. -/
theorem arg19_linkV (h : Agree m m') (j : ℕ) (hj : j ≤ 40) :
    Cert.KernelIdeal.Hand.Wn m g j c (Proc.devRef .tc Cert.KernelIdeal.main_arg19) = launchContents m' c (Proc.devRef .tc Cert.ReferenceIdeal.main_arg19) :=
  (arg19_K g c j hj).trans (arg19_V c h).symm

end Cert.Val

end
-- ==== Proof.Val.ChainArg20.lean ====
/- Argument array 20 on the two sides: what the kernel program's fold holds of it at any point of @main, what the
   reference holds of it after all of its operations, that these agree under the claim's hypothesis. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg20_keeps : ∀ i, i < 40 → Cert.KernelIdeal.Hand.Keeps Cert.KernelIdeal.main_arg20 (0 + i + 1) :=
  keeps_of_untouched _ Cert.KernelIdeal.Hand.untouched_main_arg20

theorem arg20_K (j : ℕ) (hj : j ≤ 40) :
    Cert.KernelIdeal.Hand.Wn m g j c (Proc.devRef .tc Cert.KernelIdeal.main_arg20) = m ((c.tc : Thread Cert.KernelIdeal.nD Cert.KernelIdeal.τ).loc Cert.KernelIdeal.main_arg20) :=
  Cert.KernelIdeal.Hand.Wn_launch m g c Cert.KernelIdeal.main_arg20 j hj fun i hi => arg20_keeps i (by omega)

theorem arg20_V (h : Agree m m') : launchContents m' c (Proc.devRef .tc Cert.ReferenceIdeal.main_arg20) = m ((c.tc : Thread Cert.KernelIdeal.nD Cert.KernelIdeal.τ).loc Cert.KernelIdeal.main_arg20) :=
  (h c).2.2.2.2.2.2.2.2.2.2.2.2.2.2.2.2.2.2.2.2.1

theorem arg20_R (h : Agree m m') :
    after (Cert.ReferenceIdeal.Hand.ops (F := Ideal)) (launchContents m' c) (Proc.devRef .tc Cert.ReferenceIdeal.main_arg20) = m ((c.tc : Thread Cert.KernelIdeal.nD Cert.KernelIdeal.τ).loc Cert.KernelIdeal.main_arg20) :=
  (Cert.ReferenceIdeal.Hand.after_ops_arg Cert.ReferenceIdeal.main_arg20 (by decide) (launchContents m' c)).trans ((h c).2.2.2.2.2.2.2.2.2.2.2.2.2.2.2.2.2.2.2.2.1)

/-- At any point of @main the kernel program holds of argument 20 what the reference holds of it at the end, -/
theorem arg20_link (h : Agree m m') (j : ℕ) (hj : j ≤ 40) :
    Cert.KernelIdeal.Hand.Wn m g j c (Proc.devRef .tc Cert.KernelIdeal.main_arg20)
      = after (Cert.ReferenceIdeal.Hand.ops (F := Ideal)) (launchContents m' c) (Proc.devRef .tc Cert.ReferenceIdeal.main_arg20) :=
  (arg20_K g c j hj).trans (arg20_R c h).symm

/-- and what the reference is launched with. -/
theorem arg20_linkV (h : Agree m m') (j : ℕ) (hj : j ≤ 40) :
    Cert.KernelIdeal.Hand.Wn m g j c (Proc.devRef .tc Cert.KernelIdeal.main_arg20) = launchContents m' c (Proc.devRef .tc Cert.ReferenceIdeal.main_arg20) :=
  (arg20_K g c j hj).trans (arg20_V c h).symm

end Cert.Val

end
-- ==== Proof.Val.ChainArg21.lean ====
/- Argument array 21 on the two sides: what the kernel program's fold holds of it at any point of @main, what the
   reference holds of it after all of its operations, that these agree under the claim's hypothesis. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg21_keeps : ∀ i, i < 40 → Cert.KernelIdeal.Hand.Keeps Cert.KernelIdeal.main_arg21 (0 + i + 1) :=
  keeps_of_untouched _ Cert.KernelIdeal.Hand.untouched_main_arg21

theorem arg21_K (j : ℕ) (hj : j ≤ 40) :
    Cert.KernelIdeal.Hand.Wn m g j c (Proc.devRef .tc Cert.KernelIdeal.main_arg21) = m ((c.tc : Thread Cert.KernelIdeal.nD Cert.KernelIdeal.τ).loc Cert.KernelIdeal.main_arg21) :=
  Cert.KernelIdeal.Hand.Wn_launch m g c Cert.KernelIdeal.main_arg21 j hj fun i hi => arg21_keeps i (by omega)

theorem arg21_V (h : Agree m m') : launchContents m' c (Proc.devRef .tc Cert.ReferenceIdeal.main_arg21) = m ((c.tc : Thread Cert.KernelIdeal.nD Cert.KernelIdeal.τ).loc Cert.KernelIdeal.main_arg21) :=
  (h c).2.2.2.2.2.2.2.2.2.2.2.2.2.2.2.2.2.2.2.2.2.1

theorem arg21_R (h : Agree m m') :
    after (Cert.ReferenceIdeal.Hand.ops (F := Ideal)) (launchContents m' c) (Proc.devRef .tc Cert.ReferenceIdeal.main_arg21) = m ((c.tc : Thread Cert.KernelIdeal.nD Cert.KernelIdeal.τ).loc Cert.KernelIdeal.main_arg21) :=
  (Cert.ReferenceIdeal.Hand.after_ops_arg Cert.ReferenceIdeal.main_arg21 (by decide) (launchContents m' c)).trans ((h c).2.2.2.2.2.2.2.2.2.2.2.2.2.2.2.2.2.2.2.2.2.1)

/-- At any point of @main the kernel program holds of argument 21 what the reference holds of it at the end, -/
theorem arg21_link (h : Agree m m') (j : ℕ) (hj : j ≤ 40) :
    Cert.KernelIdeal.Hand.Wn m g j c (Proc.devRef .tc Cert.KernelIdeal.main_arg21)
      = after (Cert.ReferenceIdeal.Hand.ops (F := Ideal)) (launchContents m' c) (Proc.devRef .tc Cert.ReferenceIdeal.main_arg21) :=
  (arg21_K g c j hj).trans (arg21_R c h).symm

/-- and what the reference is launched with. -/
theorem arg21_linkV (h : Agree m m') (j : ℕ) (hj : j ≤ 40) :
    Cert.KernelIdeal.Hand.Wn m g j c (Proc.devRef .tc Cert.KernelIdeal.main_arg21) = launchContents m' c (Proc.devRef .tc Cert.ReferenceIdeal.main_arg21) :=
  (arg21_K g c j hj).trans (arg21_V c h).symm

end Cert.Val

end
-- ==== Proof.Val.ChainArg22.lean ====
/- Argument array 22 on the two sides: what the kernel program's fold holds of it at any point of @main, what the
   reference holds of it after all of its operations, that these agree under the claim's hypothesis. -/
import proofs.«424088_j28020366639260_2_alg».proof.Proof.Val.ChainArgsBase

noncomputable section

namespace Cert.Val

open Idealize.ShloMosaic Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

variable {m m'} (c : Dev Cert.KernelIdeal.nD)

theorem arg22_keeps : ∀ i, i < 40 → Cert.KernelIdeal.Hand.Keeps Cert.KernelIdeal.main_arg22 (0 + i + 1) :=
  keeps_of_untouched _ Cert.KernelIdeal.Hand.untouched_main_arg22

theorem arg22_K (j : ℕ) (hj : j ≤ 40) :
    Cert.KernelIdeal.Hand.Wn m g j c (Proc.devRef .tc Cert.KernelIdeal.main_arg22) = m ((c.tc : Thread Cert.KernelIdeal.nD Cert.KernelIdeal.τ).loc Cert.KernelIdeal.main_arg22) :=
  Cert.KernelIdeal.Hand.Wn_launch m g c Cert.KernelIdeal.main_arg22 j hj fun i hi => arg22_keeps i (by omega)

theorem arg22_V (h : Agree m m') : launchContents m' c (Proc.devRef .tc Cert.ReferenceIdeal.main_arg22) = m ((c.tc : Thread Cert.KernelIdeal.nD Cert.KernelIdeal.τ).loc Cert.KernelIdeal.main_arg22) :=
  (h c).2.2.2.2.2.2.2.2.2.2.2.2.2.2.2.2.2.2.2.2.2.2

theorem arg22_R (h : Agree m m') :
    after (Cert.ReferenceIdeal.Hand.ops (F := Ideal)) (launchContents m' c) (Proc.devRef .tc Cert.ReferenceIdeal.main_arg22) = m ((c.tc : Thread Cert.KernelIdeal.nD Cert.KernelIdeal.τ).loc Cert.KernelIdeal.main_arg22) :=
  (Cert.ReferenceIdeal.Hand.after_ops_arg Cert.ReferenceIdeal.main_arg22 (by decide) (launchContents m' c)).trans ((h c).2.2.2.2.2.2.2.2.2.2.2.2.2.2.2.2.2.2.2.2.2.2)

/-- At any point of @main the kernel program holds of argument 22 what the reference holds of it at the end, -/
theorem arg22_link (h : Agree m m') (j : ℕ) (hj : j ≤ 40) :
    Cert.KernelIdeal.Hand.Wn m g j c (Proc.devRef .tc Cert.KernelIdeal.main_arg22)
      = after (Cert.ReferenceIdeal.Hand.ops (F := Ideal)) (launchContents m' c) (Proc.devRef .tc Cert.ReferenceIdeal.main_arg22) :=
  (arg22_K g c j hj).trans (arg22_R c h).symm

/-- and what the reference is launched with. -/
theorem arg22_linkV (h : Agree m m') (j : ℕ) (hj : j ≤ 40) :
    Cert.KernelIdeal.Hand.Wn m g j c (Proc.devRef .tc Cert.KernelIdeal.main_arg22) = launchContents m' c (Proc.devRef .tc Cert.ReferenceIdeal.main_arg22) :=
  (arg22_K g c j hj).trans (arg22_V c h).symm

end Cert.Val

end
-- ==== Proof.Val.ChainArgs.lean ====
/- The 23 argument arrays on the two sides: one module each. -/
import proofs.«424088_j28020366639260_2_alg».proof.Proof.Val.ChainArg0
import proofs.«424088_j28020366639260_2_alg».proof.Proof.Val.ChainArg1
import proofs.«424088_j28020366639260_2_alg».proof.Proof.Val.ChainArg2
import proofs.«424088_j28020366639260_2_alg».proof.Proof.Val.ChainArg3
import proofs.«424088_j28020366639260_2_alg».proof.Proof.Val.ChainArg4
import proofs.«424088_j28020366639260_2_alg».proof.Proof.Val.ChainArg5
import proofs.«424088_j28020366639260_2_alg».proof.Proof.Val.ChainArg6
import proofs.«424088_j28020366639260_2_alg».proof.Proof.Val.ChainArg7
import proofs.«424088_j28020366639260_2_alg».proof.Proof.Val.ChainArg8
import proofs.«424088_j28020366639260_2_alg».proof.Proof.Val.ChainArg9
import proofs.«424088_j28020366639260_2_alg».proof.Proof.Val.ChainArg10
import proofs.«424088_j28020366639260_2_alg».proof.Proof.Val.ChainArg11
import proofs.«424088_j28020366639260_2_alg».proof.Proof.Val.ChainArg12
import proofs.«424088_j28020366639260_2_alg».proof.Proof.Val.ChainArg13
import proofs.«424088_j28020366639260_2_alg».proof.Proof.Val.ChainArg14
import proofs.«424088_j28020366639260_2_alg».proof.Proof.Val.ChainArg15
import proofs.«424088_j28020366639260_2_alg».proof.Proof.Val.ChainArg16
import proofs.«424088_j28020366639260_2_alg».proof.Proof.Val.ChainArg17
import proofs.«424088_j28020366639260_2_alg».proof.Proof.Val.ChainArg18
import proofs.«424088_j28020366639260_2_alg».proof.Proof.Val.ChainArg19
import proofs.«424088_j28020366639260_2_alg».proof.Proof.Val.ChainArg20
import proofs.«424088_j28020366639260_2_alg».proof.Proof.Val.ChainArg21
import proofs.«424088_j28020366639260_2_alg».proof.Proof.Val.ChainArg22
-- ==== Proof.KI.V0.lean ====
/- Region 0 of the kernel program, the values: what each of its three result arrays holds after the region, as one
   function of the arrays the region is entered with. -/
import proofs.«424088_j28020366639260_2_alg».proof.Proof.KI.R0
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

section AnyF

variable {F : FTy → Type} [FloatOps F]
variable (V : (c : Dev nD) → (b : Ref sig .tc) → Buf (Elt F) ((c : Thread nD τ).loc b))

/-! ## The windows' block indices in closed form -/

theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = 0 ∧ win0_1.index t 1 = 0 :=
  (by decide +kernel : ∀ t : Fin grid0.N, win0_1.index t 0 = 0 ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = t.val ∧ win0_3.index t 1 = 0 :=
  (by decide +kernel : ∀ t : Fin grid0.N, win0_3.index t 0 = t.val ∧ win0_3.index t 1 = 0)
theorem index0_4 : ∀ t : Fin cfg0.N, win0_4.index t 0 = t.val / 25 ∧ win0_4.index t 1 = 0 ∧ win0_4.index t 2 = 0 :=
  (by decide +kernel : ∀ t : Fin grid0.N, win0_4.index t 0 = t.val / 25 ∧ win0_4.index t 1 = 0 ∧ win0_4.index t 2 = 0)
theorem index0_5 : ∀ t : Fin cfg0.N, win0_5.index t 0 = t.val / 25 ∧ win0_5.index t 1 = 0 ∧ win0_5.index t 2 = 0 :=
  (by decide +kernel : ∀ t : Fin grid0.N, win0_5.index t 0 = t.val / 25 ∧ win0_5.index t 1 = 0 ∧ win0_5.index t 2 = 0)

/-! ## The input blocks as elements of the entry arrays -/

/-- Point `t`'s block of x is rows 2000·t … 2000·t + 1999 of the array. -/
theorem iblk0_0_apply (c : Dev nD) (t : Fin cfg0.N) (y : S2000x128.Idx) (k : S100000x128.Idx)
    (hk0 : (k 0).val = 2000 * t.val + (y 0).val) (hk1 : (k 1).val = (y 1).val) :
    (iblk0 V c 0 t : Vec F S2000x128 .f32) y = (V c (Pipeline.arrRef spec0 0) : S100000x128.Idx → Elt F .f32) k := by
  have hi := index0_0 t
  unfold iblk0
  rw [View.read_apply]
  show (V c (Pipeline.arrRef spec0 0) : S100000x128.Idx → Elt F .f32) _ = _
  congr 1
  funext a
  apply Fin.ext
  match a with
  | ⟨0, _⟩ => show win0_0.index t 0 * 2000 + 1 * (y 0).val = (k 0).val; rw [hi.1, hk0]; omega
  | ⟨1, _⟩ => show win0_0.index t 1 * 128 + 1 * (y 1).val = (k 1).val; rw [hi.2, hk1]; omega

/-- The block of w is the array. -/
theorem iblk0_1_apply (c : Dev nD) (t : Fin cfg0.N) (y : S128x128.Idx) :
    (iblk0 V c 1 t : Vec F S128x128 .f32) y = (V c (Pipeline.arrRef spec0 1) : S128x128.Idx → Elt F .f32) y := by
  have hi := index0_1 t
  unfold iblk0
  rw [View.read_apply]
  show (V c (Pipeline.arrRef spec0 1) : S128x128.Idx → Elt F .f32) _ = _
  congr 1
  funext a
  apply Fin.ext
  match a with
  | ⟨0, _⟩ => show win0_1.index t 0 * 128 + 1 * (y 0).val = (y 0).val; rw [hi.1]; omega
  | ⟨1, _⟩ => show win0_1.index t 1 * 128 + 1 * (y 1).val = (y 1).val; rw [hi.2]; omega

/-- The block of b is the array. -/
theorem iblk0_2_apply (c : Dev nD) (t : Fin cfg0.N) (y : S1x128.Idx) :
    (iblk0 V c 2 t : Vec F S1x128 .f32) y = (V c (Pipeline.arrRef spec0 2) : S1x128.Idx → Elt F .f32) y := by
  have hi := index0_2 t
  unfold iblk0
  rw [View.read_apply]
  show (V c (Pipeline.arrRef spec0 2) : S1x128.Idx → Elt F .f32) _ = _
  congr 1
  funext a
  apply Fin.ext
  match a with
  | ⟨0, _⟩ => show win0_2.index t 0 * 1 + 1 * (y 0).val = (y 0).val; rw [hi.1]; omega
  | ⟨1, _⟩ => show win0_2.index t 1 * 128 + 1 * (y 1).val = (y 1).val; rw [hi.2]; omega

/-! ## The row-block result y -/

/-- The point that holds row `r` of the 100000. -/
def blkOf0 (r : Fin 100000) : Fin cfg0.N :=
  ⟨r.val / 2000, by have := r.isLt; rw [show cfg0.N = 50 from N_0]; omega⟩

/-- What point `t` leaves in the y window: b + x·w of its blocks. -/
def yblk0 (c : Dev nD) (t : Fin cfg0.N) : Vec F S2000x128 .f32 :=
  k0_pay3 (iblk0 V c 2 t) (iblk0 V c 0 t) (iblk0 V c 1 t)

/-- The y array after the region, index by index: row `r` is row `r % 2000` of what point `r / 2000` leaves. -/
def G0_3 (c : Dev nD) : S100000x128.Idx → Elt F .f32 := fun i =>
  yblk0 V c (blkOf0 (i 0)) (ix2 ⟨(i 0).val % 2000, Nat.mod_lt _ (by decide)⟩ (i 1))

theorem flushed0_3 (c : Dev nD) (t : Fin cfg0.N) (hf : (cfg0.win 3).flush t = true) :
    (dat0 V c).flushed 3 t = ((cfg0.win 3).blk t).view.read (Elt F) (G0_3 V c) := by
  have hi := index0_3 t
  show (cfg0.win 3).cut (grid0.coords t) ((dat0 V c).after 3 t) = _
  rw [after0_3]
  funext y
  rw [View.read_apply]
  show yblk0 V c t y = G0_3 V c (((cfg0.win 3).blk t).view.emb y)
  have hy0 : (y 0).val < 2000 := (y 0).isLt
  have hN : t.val < 50 := lt_of_lt_of_eq t.isLt (show cfg0.N = 50 from N_0)
  have h0 : ((((cfg0.win 3).blk t).view.emb y : S100000x128.Idx) 0).val = t.val * 2000 + (y 0).val := by
    show win0_3.index t 0 * 2000 + 1 * (y 0).val = _; rw [hi.1]; omega
  have h1 : ((((cfg0.win 3).blk t).view.emb y : S100000x128.Idx) 1).val = (y 1).val := by
    show win0_3.index t 1 * 128 + 1 * (y 1).val = _; rw [hi.2]; omega
  generalize (((cfg0.win 3).blk t).view.emb y : S100000x128.Idx) = i at h0 h1
  unfold G0_3
  have e1 : blkOf0 (i 0) = t := Fin.ext (by show (i 0).val / 2000 = t.val; rw [h0]; omega)
  have e2 : (ix2 ⟨(i 0).val % 2000, Nat.mod_lt _ (by decide)⟩ (i 1) : S2000x128.Idx) = y :=
    funext fun a => Fin.ext (match a with
      | ⟨0, _⟩ => by show (i 0).val % 2000 = (y 0).val; rw [h0]; omega
      | ⟨1, _⟩ => h1)
  rw [e1, e2]

/-- THE y ARRAY after the region. -/
theorem arrAt0_3 (c : Dev nD) : (dat0 V c).arrAt 3 cfg0.N = G0_3 V c :=
  (dat0 V c).arrAt_eq_of_cover 3 (G0_3 V c) (flushed0_3 V c) fun i =>
    ⟨blkOf0 (i 0), flush0_3 _, by
      have hi := index0_3 (blkOf0 (i 0))
      have h0 : (i 0 : Nat) < 100000 := (i 0).isLt
      have h1 : (i 1 : Nat) < 128 := (i 1).isLt
      show i ∈ ((View.whole main_v2_0).slice (win0_3.rect (blkOf0 (i 0)))).set
      rw [View.set_slice_whole, Rect.mem_set_unit]
      intro a
      match a with
      | ⟨0, _⟩ =>
        show win0_3.index (blkOf0 (i 0)) 0 * 2000 ≤ (i 0 : Nat) ∧ (i 0 : Nat) < win0_3.index (blkOf0 (i 0)) 0 * 2000 + 2000
        rw [hi.1]; show (i 0 : Nat) / 2000 * 2000 ≤ (i 0 : Nat) ∧ (i 0 : Nat) < (i 0 : Nat) / 2000 * 2000 + 2000
        omega
      | ⟨1, _⟩ =>
        show win0_3.index (blkOf0 (i 0)) 1 * 128 ≤ (i 1 : Nat) ∧ (i 1 : Nat) < win0_3.index (blkOf0 (i 0)) 1 * 128 + 128
        rw [hi.2]; omega⟩

end AnyF

section AnyF2

variable {F : FTy → Type} [FloatOps F]
variable (V : (c : Dev nD) → (b : Ref sig .tc) → Buf (Elt F) ((c : Thread nD τ).loc b))

/-! ## The two per-core sums -/

/-- The last of core `cr`'s 25 points: the one that writes the core's sums back. -/
def lastOf0 (cr : Fin 2) : Fin cfg0.N :=
  ⟨25 * cr.val + 24, by have := cr.isLt; rw [show cfg0.N = 50 from N_0]; omega⟩

theorem sumAt0_congr (c : Dev nD) {n n' : ℕ} (e : n = n') (h : n < cfg0.N) (h' : n' < cfg0.N) :
    sumAt0 V c n h = sumAt0 V c n' h' := by subst e; rfl

/-- The array after the region, index by index: core `i 0`'s entry is what its last point (25·core + 24) leaves. -/
def G0_4 (c : Dev nD) : S2x1x128.Idx → Elt F .f32 := fun i =>
  sumAt0 V c (lastOf0 (i 0)).val (lastOf0 (i 0)).isLt (ix3 (0 : Fin 1) (0 : Fin 1) (i 2))

theorem flushed0_4 (c : Dev nD) (t : Fin cfg0.N) (hf : (cfg0.win 4).flush t = true) :
    (dat0 V c).flushed 4 t = ((cfg0.win 4).blk t).view.read (Elt F) (G0_4 V c) := by
  have hi := index0_4 t
  have h24 : t.val % 25 = 24 := (flush0_4 t).mp hf
  have hN : t.val < 50 := lt_of_lt_of_eq t.isLt (show cfg0.N = 50 from N_0)
  show (cfg0.win 4).cut (grid0.coords t) ((dat0 V c).after 4 t) = _
  rw [after0_4]
  funext y
  rw [View.read_apply]
  show sumAt0 V c t.val t.isLt y = G0_4 V c (((cfg0.win 4).blk t).view.emb y)
  have hy0 : (y 0).val < 1 := (y 0).isLt
  have hy1 : (y 1).val < 1 := (y 1).isLt
  have h0 : ((((cfg0.win 4).blk t).view.emb y : S2x1x128.Idx) 0).val = t.val / 25 := by
    show win0_4.index t 0 * 1 + 1 * (y 0).val = _; rw [hi.1]; omega
  have h2 : ((((cfg0.win 4).blk t).view.emb y : S2x1x128.Idx) 2).val = (y 2).val := by
    show win0_4.index t 2 * 128 + 1 * (y 2).val = _; rw [hi.2.2]; omega
  generalize (((cfg0.win 4).blk t).view.emb y : S2x1x128.Idx) = i at h0 h2
  unfold G0_4
  have e2 : (ix3 (0 : Fin 1) (0 : Fin 1) (i 2) : S1x1x128.Idx) = y :=
    funext fun a => Fin.ext (match a with
      | ⟨0, _⟩ => by show 0 = (y 0).val; omega
      | ⟨1, _⟩ => by show 0 = (y 1).val; omega
      | ⟨2, _⟩ => h2)
  rw [e2]
  exact congrFun (sumAt0_congr V c (by show t.val = 25 * (i 0).val + 24; rw [h0]; omega) _ _) y

theorem arrAt0_4 (c : Dev nD) : (dat0 V c).arrAt 4 cfg0.N = G0_4 V c :=
  (dat0 V c).arrAt_eq_of_cover 4 (G0_4 V c) (flushed0_4 V c) fun i =>
    ⟨lastOf0 (i 0), (flush0_4 _).mpr (by show (25 * (i 0 : Nat) + 24) % 25 = 24; omega), by
      have hi := index0_4 (lastOf0 (i 0))
      have h0 : (i 0 : Nat) < 2 := (i 0).isLt
      have h1 : (i 1 : Nat) < 1 := (i 1).isLt
      have h2 : (i 2 : Nat) < 128 := (i 2).isLt
      show i ∈ ((View.whole main_v2_1).slice (win0_4.rect (lastOf0 (i 0)))).set
      rw [View.set_slice_whole, Rect.mem_set_unit]
      intro a
      match a with
      | ⟨0, _⟩ =>
        show win0_4.index (lastOf0 (i 0)) 0 * 1 ≤ (i 0 : Nat) ∧ (i 0 : Nat) < win0_4.index (lastOf0 (i 0)) 0 * 1 + 1
        rw [hi.1]; show (25 * (i 0 : Nat) + 24) / 25 * 1 ≤ (i 0 : Nat) ∧ (i 0 : Nat) < (25 * (i 0 : Nat) + 24) / 25 * 1 + 1
        omega
      | ⟨1, _⟩ =>
        show win0_4.index (lastOf0 (i 0)) 1 * 1 ≤ (i 1 : Nat) ∧ (i 1 : Nat) < win0_4.index (lastOf0 (i 0)) 1 * 1 + 1
        rw [hi.2.1]; omega
      | ⟨2, _⟩ =>
        show win0_4.index (lastOf0 (i 0)) 2 * 128 ≤ (i 2 : Nat) ∧ (i 2 : Nat) < win0_4.index (lastOf0 (i 0)) 2 * 128 + 128
        rw [hi.2.2]; omega⟩

theorem sqAt0_congr (c : Dev nD) {n n' : ℕ} (e : n = n') (h : n < cfg0.N) (h' : n' < cfg0.N) :
    sqAt0 V c n h = sqAt0 V c n' h' := by subst e; rfl

/-- The array after the region, index by index: core `i 0`'s entry is what its last point (25·core + 24) leaves. -/
def G0_5 (c : Dev nD) : S2x1x128.Idx → Elt F .f32 := fun i =>
  sqAt0 V c (lastOf0 (i 0)).val (lastOf0 (i 0)).isLt (ix3 (0 : Fin 1) (0 : Fin 1) (i 2))

theorem flushed0_5 (c : Dev nD) (t : Fin cfg0.N) (hf : (cfg0.win 5).flush t = true) :
    (dat0 V c).flushed 5 t = ((cfg0.win 5).blk t).view.read (Elt F) (G0_5 V c) := by
  have hi := index0_5 t
  have h24 : t.val % 25 = 24 := (flush0_5 t).mp hf
  have hN : t.val < 50 := lt_of_lt_of_eq t.isLt (show cfg0.N = 50 from N_0)
  show (cfg0.win 5).cut (grid0.coords t) ((dat0 V c).after 5 t) = _
  rw [after0_5]
  funext y
  rw [View.read_apply]
  show sqAt0 V c t.val t.isLt y = G0_5 V c (((cfg0.win 5).blk t).view.emb y)
  have hy0 : (y 0).val < 1 := (y 0).isLt
  have hy1 : (y 1).val < 1 := (y 1).isLt
  have h0 : ((((cfg0.win 5).blk t).view.emb y : S2x1x128.Idx) 0).val = t.val / 25 := by
    show win0_5.index t 0 * 1 + 1 * (y 0).val = _; rw [hi.1]; omega
  have h2 : ((((cfg0.win 5).blk t).view.emb y : S2x1x128.Idx) 2).val = (y 2).val := by
    show win0_5.index t 2 * 128 + 1 * (y 2).val = _; rw [hi.2.2]; omega
  generalize (((cfg0.win 5).blk t).view.emb y : S2x1x128.Idx) = i at h0 h2
  unfold G0_5
  have e2 : (ix3 (0 : Fin 1) (0 : Fin 1) (i 2) : S1x1x128.Idx) = y :=
    funext fun a => Fin.ext (match a with
      | ⟨0, _⟩ => by show 0 = (y 0).val; omega
      | ⟨1, _⟩ => by show 0 = (y 1).val; omega
      | ⟨2, _⟩ => h2)
  rw [e2]
  exact congrFun (sqAt0_congr V c (by show t.val = 25 * (i 0).val + 24; rw [h0]; omega) _ _) y

theorem arrAt0_5 (c : Dev nD) : (dat0 V c).arrAt 5 cfg0.N = G0_5 V c :=
  (dat0 V c).arrAt_eq_of_cover 5 (G0_5 V c) (flushed0_5 V c) fun i =>
    ⟨lastOf0 (i 0), (flush0_5 _).mpr (by show (25 * (i 0 : Nat) + 24) % 25 = 24; omega), by
      have hi := index0_5 (lastOf0 (i 0))
      have h0 : (i 0 : Nat) < 2 := (i 0).isLt
      have h1 : (i 1 : Nat) < 1 := (i 1).isLt
      have h2 : (i 2 : Nat) < 128 := (i 2).isLt
      show i ∈ ((View.whole main_v2_2).slice (win0_5.rect (lastOf0 (i 0)))).set
      rw [View.set_slice_whole, Rect.mem_set_unit]
      intro a
      match a with
      | ⟨0, _⟩ =>
        show win0_5.index (lastOf0 (i 0)) 0 * 1 ≤ (i 0 : Nat) ∧ (i 0 : Nat) < win0_5.index (lastOf0 (i 0)) 0 * 1 + 1
        rw [hi.1]; show (25 * (i 0 : Nat) + 24) / 25 * 1 ≤ (i 0 : Nat) ∧ (i 0 : Nat) < (25 * (i 0 : Nat) + 24) / 25 * 1 + 1
        omega
      | ⟨1, _⟩ =>
        show win0_5.index (lastOf0 (i 0)) 1 * 1 ≤ (i 1 : Nat) ∧ (i 1 : Nat) < win0_5.index (lastOf0 (i 0)) 1 * 1 + 1
        rw [hi.2.1]; omega
      | ⟨2, _⟩ =>
        show win0_5.index (lastOf0 (i 0)) 2 * 128 ≤ (i 2 : Nat) ∧ (i 2 : Nat) < win0_5.index (lastOf0 (i 0)) 2 * 128 + 128
        rw [hi.2.2]; omega⟩

end AnyF2

/-! ## The body's three stored values at the extended reals -/

section Payloads

/-- b + x·w at an element: the bias entry of the column plus the sum over k of x(r,k)·w(k,j). -/
theorem k0_pay3_ideal (b : Vec Ideal S1x128 .f32) (x : Vec Ideal S2000x128 .f32) (w : Vec Ideal S128x128 .f32) (y : S2000x128.Idx) :
    (k0_pay3 b x w : Vec Ideal S2000x128 .f32) y
      = b (ix2 (0 : Fin 1) (y 1)) + ∑ k : Fin 128, x (ix2 (y 0) k) * w (ix2 k (y 1)) := by
  simp only [k0_pay3, shapeCast_self]
  rw [addf_apply]
  congr 1
  · refine broadcastTo_apply _ _ _ _ fun a => ?_
    match a with
    | ⟨0, _⟩ => rfl
    | ⟨1, _⟩ => rfl
  · refine (Ideal.matmul_constant_zero_apply _ none _ _ y).trans ?_
    refine ((contrEquiv1 dot_S2000x128_S128x128_S2000x128_1_0_0_1_n_n 128 rfl rfl).symm.sum_comp _).symm.trans ?_
    refine Finset.sum_congr rfl fun k _ => ?_
    show x _ * w _ = x _ * w _
    congr 2
    · exact Shape.idx_ext₂ rfl (contrEquiv1_symm_val dot_S2000x128_S128x128_S2000x128_1_0_0_1_n_n 128 rfl rfl k)
    · exact Shape.idx_ext₂ (contrEquiv1_symm_val dot_S2000x128_S128x128_S2000x128_1_0_0_1_n_n 128 rfl rfl k) rfl

/-- The running column sum of y: what was there plus this block's column sum. -/
theorem k0_pay4_ideal (b : Vec Ideal S1x128 .f32) (x : Vec Ideal S2000x128 .f32) (w : Vec Ideal S128x128 .f32)
    (acc : Vec Ideal S1x1x128 .f32) (i : S1x1x128.Idx) :
    (k0_pay4 b x w acc : Vec Ideal S1x1x128 .f32) i
      = acc i + ∑ r : Fin 2000, (k0_pay3 b x w : Vec Ideal S2000x128 .f32) (ix2 r (i 2)) := by
  simp only [k0_pay4, shapeCast_self]
  rw [addf_apply]
  congr 1
  refine (shapeCast_apply _ _ i (ix2 (0 : Fin 1) (i 2)) (by
      have h0 : (i 0).val < 1 := (i 0).isLt
      have h1 : (i 1).val < 1 := (i 1).isLt
      rw [Shape.rowMajor_val_two, Shape.rowMajor_val_three]
      show (0 : ℕ) * 128 + (i 2).val = ((i 0).val * 1 + (i 1).val) * 128 + (i 2).val
      omega)).trans ?_
  refine (shapeCast_apply _ _ (ix2 (0 : Fin 1) (i 2)) (ix1 (i 2)) (by
      rw [Shape.rowMajor_val_one, Shape.rowMajor_val_two]
      show (i 2).val = (0 : ℕ) * 128 + (i 2).val
      omega)).trans ?_
  refine (Ideal.multiReduction_add_single _ _ _ _ _ _).trans ?_
  refine Finset.sum_congr rfl fun r _ => ?_
  exact congrArg _ (Shape.idx_ext₂ rfl rfl)

/-- The running column sum of y·y likewise. -/
theorem k0_pay5_ideal (b : Vec Ideal S1x128 .f32) (x : Vec Ideal S2000x128 .f32) (w : Vec Ideal S128x128 .f32)
    (acc : Vec Ideal S1x1x128 .f32) (i : S1x1x128.Idx) :
    (k0_pay5 b x w acc : Vec Ideal S1x1x128 .f32) i
      = acc i + ∑ r : Fin 2000, (k0_pay3 b x w : Vec Ideal S2000x128 .f32) (ix2 r (i 2)) * (k0_pay3 b x w : Vec Ideal S2000x128 .f32) (ix2 r (i 2)) := by
  simp only [k0_pay5, shapeCast_self]
  rw [addf_apply]
  congr 1
  refine (shapeCast_apply _ _ i (ix2 (0 : Fin 1) (i 2)) (by
      have h0 : (i 0).val < 1 := (i 0).isLt
      have h1 : (i 1).val < 1 := (i 1).isLt
      rw [Shape.rowMajor_val_two, Shape.rowMajor_val_three]
      show (0 : ℕ) * 128 + (i 2).val = ((i 0).val * 1 + (i 1).val) * 128 + (i 2).val
      omega)).trans ?_
  refine (shapeCast_apply _ _ (ix2 (0 : Fin 1) (i 2)) (ix1 (i 2)) (by
      rw [Shape.rowMajor_val_one, Shape.rowMajor_val_two]
      show (i 2).val = (0 : ℕ) * 128 + (i 2).val
      omega)).trans ?_
  refine (Ideal.multiReduction_add_single _ _ _ _ _ _).trans ?_
  refine Finset.sum_congr rfl fun r _ => ?_
  rw [mulf_apply]
  exact congrArg (fun z => (k0_pay3 b x w : Vec Ideal S2000x128 .f32) z * (k0_pay3 b x w : Vec Ideal S2000x128 .f32) z) (Shape.idx_ext₂ rfl rfl)

/-- The zero the sums start from. -/
theorem k0_pay1_ideal (i : S1x1x128.Idx) : k0_pay1 (F := Ideal) i = 0 := Ideal.ofBits_zero_f32
theorem k0_pay2_ideal (i : S1x1x128.Idx) : k0_pay2 (F := Ideal) i = 0 := Ideal.ofBits_zero_f32

end Payloads

/-! ## The result arrays at the extended reals -/

section AtIdeal

variable (V : (c : Dev nD) → (b : Ref sig .tc) → Buf (Elt Ideal) ((c : Thread nD τ).loc b))

/-- The three arrays the region reads, as it finds them: x (100000×128), w (128×128), b (1×128). -/
abbrev xArr0 (c : Dev nD) : S100000x128.Idx → Elt Ideal .f32 := V c (Pipeline.arrRef spec0 0)
abbrev wArr0 (c : Dev nD) : S128x128.Idx → Elt Ideal .f32 := V c (Pipeline.arrRef spec0 1)
abbrev bArr0 (c : Dev nD) : S1x128.Idx → Elt Ideal .f32 := V c (Pipeline.arrRef spec0 2)

/-- Row 2000·(25·core + block) + r of the 100000. -/
def rowOf0 (cr : Fin 2) (p : Fin 25) (r : Fin 2000) : Fin 100000 :=
  ⟨(cr.val * 25 + p.val) * 2000 + r.val, by have := cr.isLt; have := p.isLt; have := r.isLt; omega⟩

/-- y = b + x·w over the whole arrays: entry (r, j) is b(0, j) + ∑ₖ x(r, k)·w(k, j). -/
def y0 (c : Dev nD) : S100000x128.Idx → Elt Ideal .f32 := fun i =>
  bArr0 V c (ix2 (0 : Fin 1) (i 1)) + ∑ k : Fin 128, xArr0 V c (ix2 (i 0) k) * wArr0 V c (ix2 k (i 1))

/-- What point `t` leaves in the y window is rows 2000·t … of y. -/
theorem yblk0_ideal (c : Dev nD) (t : Fin cfg0.N) (y : S2000x128.Idx) (k : Fin 100000) (hk : k.val = 2000 * t.val + (y 0).val) :
    yblk0 V c t y = y0 V c (ix2 k (y 1)) := by
  unfold yblk0
  rw [k0_pay3_ideal, iblk0_2_apply]
  show _ = bArr0 V c (ix2 (0 : Fin 1) (y 1)) + ∑ j : Fin 128, xArr0 V c (ix2 k j) * wArr0 V c (ix2 j (y 1))
  congr 1
  refine Finset.sum_congr rfl fun j _ => ?_
  rw [iblk0_0_apply V c t (ix2 (y 0) j) (ix2 k j) hk rfl, iblk0_1_apply]

/-- THE y ARRAY after the region at the extended reals. -/
theorem arrAt0_3_ideal (c : Dev nD) : (dat0 V c).arrAt 3 cfg0.N = y0 V c := by
  rw [arrAt0_3]
  funext i
  have h0 : (i 0 : ℕ) < 100000 := (i 0).isLt
  unfold G0_3
  rw [yblk0_ideal V c (blkOf0 (i 0)) _ (i 0)
    (by show (i 0 : ℕ) = 2000 * ((i 0 : ℕ) / 2000) + (i 0 : ℕ) % 2000; omega)]
  exact congrArg (y0 V c) (eq_ix2 i).symm

/-- Point `n`'s addend to the sum of y: the column sum over its block's 2000 rows (zero past the grid). -/
def colSum0 (c : Dev nD) (n : ℕ) : S1x1x128.Idx → Elt Ideal .f32 := fun i =>
  if h : n < cfg0.N then ∑ r : Fin 2000, yblk0 V c ⟨n, h⟩ (ix2 r (i 2)) else 0

/-- What core `cr`'s last point leaves: the sum of its 25 points' addends (the fold over the run of points
    25·cr … 25·cr + 24, from zero). -/
theorem sumAt0_last (c : Dev nD) (cr : Fin 2) (i : S1x1x128.Idx) :
    sumAt0 V c (lastOf0 cr).val (lastOf0 cr).isLt i = ∑ s ∈ Finset.range 25, colSum0 V c (25 * cr.val + s) i := by
  have hN : cfg0.N = 50 := N_0
  have hcr := cr.isLt
  have hfold := Pipeline.eq_accAt (N := cfg0.N) (sumAt0 V c) 25
    (fun n h => k0_pay4 (iblk0 V c 2 ⟨n, h⟩) (iblk0 V c 0 ⟨n, h⟩) (iblk0 V c 1 ⟨n, h⟩) (k0_pay1 (F := Ideal)))
    (fun n h acc => k0_pay4 (iblk0 V c 2 ⟨n, h⟩) (iblk0 V c 0 ⟨n, h⟩) (iblk0 V c 1 ⟨n, h⟩) acc)
    (by intro n h hm; exact sumAt0_A V c ⟨n, h⟩ hm)
    (by intro n h hm; exact sumAt0_B V c ⟨n + 1, h⟩ hm)
    cr.val 24 (by omega) (by omega)
  show sumAt0 V c (25 * cr.val + 24) _ i = _
  rw [hfold]
  rw [Pipeline.accAt_add_apply _ _ (fun _ => (0 : Elt Ideal .f32)) (colSum0 V c) (25 * cr.val) 24
    (by intro h i; rw [k0_pay4_ideal, k0_pay1_ideal]; unfold colSum0 yblk0; rw [dif_pos h])
    (by intro n h acc i _ _; rw [k0_pay4_ideal]; unfold colSum0 yblk0; rw [dif_pos h])
    24 le_rfl _ i]
  exact zero_add _

/-- Per core, the sum over its 25 row blocks and each block's 2000 rows of y. -/
def s0 (c : Dev nD) : S2x1x128.Idx → Elt Ideal .f32 := fun i =>
  ∑ p : Fin 25, ∑ r : Fin 2000, y0 V c (ix2 (rowOf0 (i 0) p r) (i 2))

/-- THE SUM OF Y ARRAY after the region at the extended reals. -/
theorem arrAt0_4_ideal (c : Dev nD) : (dat0 V c).arrAt 4 cfg0.N = s0 V c := by
  rw [arrAt0_4]
  funext i
  have hN : cfg0.N = 50 := N_0
  have h0 : (i 0 : ℕ) < 2 := (i 0).isLt
  unfold G0_4 s0
  rw [sumAt0_last V c (i 0), Finset.sum_range]
  refine Finset.sum_congr rfl fun p _ => ?_
  have hp : 25 * (i 0 : ℕ) + p.val < cfg0.N := by have := p.isLt; omega
  unfold colSum0
  rw [dif_pos hp]
  refine Finset.sum_congr rfl fun r _ => ?_
  have hy := yblk0_ideal V c ⟨25 * (i 0 : ℕ) + p.val, hp⟩ (ix2 r (i 2)) (rowOf0 (i 0) p r)
    (by show ((i 0 : ℕ) * 25 + p.val) * 2000 + r.val = 2000 * (25 * (i 0 : ℕ) + p.val) + r.val; omega)
  exact hy

/-- Point `n`'s addend to the sum of squares: the column sum over its block's 2000 rows (zero past the grid). -/
def colSq0 (c : Dev nD) (n : ℕ) : S1x1x128.Idx → Elt Ideal .f32 := fun i =>
  if h : n < cfg0.N then ∑ r : Fin 2000, yblk0 V c ⟨n, h⟩ (ix2 r (i 2)) * yblk0 V c ⟨n, h⟩ (ix2 r (i 2)) else 0

/-- What core `cr`'s last point leaves: the sum of its 25 points' addends (the fold over the run of points
    25·cr … 25·cr + 24, from zero). -/
theorem sqAt0_last (c : Dev nD) (cr : Fin 2) (i : S1x1x128.Idx) :
    sqAt0 V c (lastOf0 cr).val (lastOf0 cr).isLt i = ∑ s ∈ Finset.range 25, colSq0 V c (25 * cr.val + s) i := by
  have hN : cfg0.N = 50 := N_0
  have hcr := cr.isLt
  have hfold := Pipeline.eq_accAt (N := cfg0.N) (sqAt0 V c) 25
    (fun n h => k0_pay5 (iblk0 V c 2 ⟨n, h⟩) (iblk0 V c 0 ⟨n, h⟩) (iblk0 V c 1 ⟨n, h⟩) (k0_pay2 (F := Ideal)))
    (fun n h acc => k0_pay5 (iblk0 V c 2 ⟨n, h⟩) (iblk0 V c 0 ⟨n, h⟩) (iblk0 V c 1 ⟨n, h⟩) acc)
    (by intro n h hm; exact sqAt0_A V c ⟨n, h⟩ hm)
    (by intro n h hm; exact sqAt0_B V c ⟨n + 1, h⟩ hm)
    cr.val 24 (by omega) (by omega)
  show sqAt0 V c (25 * cr.val + 24) _ i = _
  rw [hfold]
  rw [Pipeline.accAt_add_apply _ _ (fun _ => (0 : Elt Ideal .f32)) (colSq0 V c) (25 * cr.val) 24
    (by intro h i; rw [k0_pay5_ideal, k0_pay2_ideal]; unfold colSq0 yblk0; rw [dif_pos h])
    (by intro n h acc i _ _; rw [k0_pay5_ideal]; unfold colSq0 yblk0; rw [dif_pos h])
    24 le_rfl _ i]
  exact zero_add _

/-- Per core, the sum over its 25 row blocks and each block's 2000 rows of y·y. -/
def q0 (c : Dev nD) : S2x1x128.Idx → Elt Ideal .f32 := fun i =>
  ∑ p : Fin 25, ∑ r : Fin 2000, y0 V c (ix2 (rowOf0 (i 0) p r) (i 2)) * y0 V c (ix2 (rowOf0 (i 0) p r) (i 2))

/-- THE SUM OF SQUARES ARRAY after the region at the extended reals. -/
theorem arrAt0_5_ideal (c : Dev nD) : (dat0 V c).arrAt 5 cfg0.N = q0 V c := by
  rw [arrAt0_5]
  funext i
  have hN : cfg0.N = 50 := N_0
  have h0 : (i 0 : ℕ) < 2 := (i 0).isLt
  unfold G0_5 q0
  rw [sqAt0_last V c (i 0), Finset.sum_range]
  refine Finset.sum_congr rfl fun p _ => ?_
  have hp : 25 * (i 0 : ℕ) + p.val < cfg0.N := by have := p.isLt; omega
  unfold colSq0
  rw [dif_pos hp]
  refine Finset.sum_congr rfl fun r _ => ?_
  have hy := yblk0_ideal V c ⟨25 * (i 0 : ℕ) + p.val, hp⟩ (ix2 r (i 2)) (rowOf0 (i 0) p r)
    (by show ((i 0 : ℕ) * 25 + p.val) * 2000 + r.val = 2000 * (25 * (i 0 : ℕ) + p.val) + r.val; omega)
  rw [hy]

end AtIdeal

end Cert.KernelIdeal.Hand

end
-- ==== Proof.BridgeAlgebra.lean ====
/-
  The identities over ℝ that join the two programs: the batch-normalisation variance computed from the sums of
  the entries and of their squares against the centred variance, the scale-and-shift form against the
  normalised form, a sum over all rows against the per-core, per-block partial sums that a running accumulation
  builds, the product with a sum of weight matrices against the sum of the products, and the mean taken by a
  reciprocal against the mean taken by a quotient. Every statement is over abstract finite index types and
  real-valued families; the program-side form is on the LEFT.
-/
import Mathlib.Algebra.BigOperators.Group.Finset.Basic
import Mathlib.Algebra.BigOperators.Fin
import Mathlib.Algebra.BigOperators.Ring.Finset
import Mathlib.Algebra.Order.BigOperators.Group.Finset
import Mathlib.Algebra.Order.Field.Basic
import Mathlib.Data.Real.Basic
import Mathlib.Logic.Equiv.Fin.Basic
import Mathlib.Tactic.Ring
import Mathlib.Tactic.FieldSimp
import Mathlib.Tactic.Linarith
import Mathlib.Tactic.Positivity

namespace Cert.Bridge

open scoped BigOperators

/-! ### 1. Batch normalisation -/

section BatchNorm
variable {ι : Type*} [Fintype ι]

/-- The sum of the squared deviations from `m = s / n`, where `s` is the sum of the entries and `n` their
    number, is the sum of the squares less `n · m²`. -/
theorem sum_sq_dev (y : ι → ℝ) (n : ℝ) (hn : n = (Fintype.card ι : ℝ)) (hn0 : n ≠ 0) :
    (∑ i, (y i - (∑ i, y i) / n) * (y i - (∑ i, y i) / n))
      = (∑ i, y i * y i) - n * ((∑ i, y i) / n * ((∑ i, y i) / n)) := by
  have hexp : ∀ i, (y i - (∑ i, y i) / n) * (y i - (∑ i, y i) / n)
      = y i * y i - 2 * ((∑ i, y i) / n) * y i + (∑ i, y i) / n * ((∑ i, y i) / n) := fun i => by ring
  simp only [hexp, Finset.sum_add_distrib, Finset.sum_sub_distrib, ← Finset.mul_sum, Finset.sum_const,
    Finset.card_univ, nsmul_eq_mul, ← hn]
  field_simp
  ring

/-- The variance from the sums (mean of the squares less the square of the mean) is the centred variance (the mean
    of the squared deviations from the mean). One column. -/
theorem var_of_sums_col (y : ι → ℝ) (n : ℝ) (hn : n = (Fintype.card ι : ℝ)) (hn0 : n ≠ 0) :
    (∑ i, y i * y i) / n - (∑ i, y i) / n * ((∑ i, y i) / n)
      = (∑ i, (y i - (∑ i, y i) / n) * (y i - (∑ i, y i) / n)) / n := by
  rw [sum_sq_dev y n hn hn0]
  field_simp

/-- The same for a matrix of rows `ι` and columns `κ`, at column `j`. -/
theorem var_of_sums {κ : Type*} (y : ι → κ → ℝ) (n : ℝ) (hn : n = (Fintype.card ι : ℝ)) (hn0 : n ≠ 0) (j : κ) :
    (∑ i, y i j * y i j) / n - (∑ i, y i j) / n * ((∑ i, y i j) / n)
      = (∑ i, (y i j - (∑ i, y i j) / n) * (y i j - (∑ i, y i j) / n)) / n :=
  var_of_sums_col (fun i => y i j) n hn hn0

/-- The centred variance is nonnegative. -/
theorem centred_var_nonneg (y : ι → ℝ) (m n : ℝ) (hn : 0 ≤ n) :
    0 ≤ (∑ i, (y i - m) * (y i - m)) / n :=
  div_nonneg (Finset.sum_nonneg fun i _ => mul_self_nonneg _) hn

/-- Hence the variance from the sums is nonnegative. -/
theorem var_of_sums_nonneg (y : ι → ℝ) (n : ℝ) (hn : n = (Fintype.card ι : ℝ)) (hn0 : n ≠ 0) :
    0 ≤ (∑ i, y i * y i) / n - (∑ i, y i) / n * ((∑ i, y i) / n) := by
  rw [var_of_sums_col y n hn hn0]
  exact centred_var_nonneg y _ n (by rw [hn]; exact Nat.cast_nonneg _)

/-- The variance plus a positive constant is positive: the argument of the reciprocal square root. -/
theorem var_of_sums_add_pos (y : ι → ℝ) (n e : ℝ) (hn : n = (Fintype.card ι : ℝ)) (hn0 : n ≠ 0) (he : 0 < e) :
    0 < (∑ i, y i * y i) / n - (∑ i, y i) / n * ((∑ i, y i) / n) + e :=
  add_pos_of_nonneg_of_pos (var_of_sums_nonneg y n hn hn0) he

/-- `var_of_sums` with the rows numbered by `Fin N`. -/
theorem var_of_sums_fin {N : ℕ} {κ : Type*} (y : Fin N → κ → ℝ) (n : ℝ) (hn : n = (N : ℝ)) (hn0 : n ≠ 0) (j : κ) :
    (∑ i, y i j * y i j) / n - (∑ i, y i j) / n * ((∑ i, y i j) / n)
      = (∑ i, (y i j - (∑ i, y i j) / n) * (y i j - (∑ i, y i j) / n)) / n :=
  var_of_sums y n (by rw [Fintype.card_fin]; exact hn) hn0 j

/-- `var_of_sums_nonneg` with the rows numbered by `Fin N`. -/
theorem var_of_sums_nonneg_fin {N : ℕ} (y : Fin N → ℝ) (n : ℝ) (hn : n = (N : ℝ)) (hn0 : n ≠ 0) :
    0 ≤ (∑ i, y i * y i) / n - (∑ i, y i) / n * ((∑ i, y i) / n) :=
  var_of_sums_nonneg y n (by rw [Fintype.card_fin]; exact hn) hn0

/-- `var_of_sums_add_pos` with the rows numbered by `Fin N`. -/
theorem var_of_sums_add_pos_fin {N : ℕ} (y : Fin N → ℝ) (n e : ℝ) (hn : n = (N : ℝ)) (hn0 : n ≠ 0) (he : 0 < e) :
    0 < (∑ i, y i * y i) / n - (∑ i, y i) / n * ((∑ i, y i) / n) + e :=
  var_of_sums_add_pos y n e (by rw [Fintype.card_fin]; exact hn) hn0 he

/-- The centred variance plus a positive constant is positive. -/
theorem centred_var_add_pos (y : ι → ℝ) (m n e : ℝ) (hn : 0 ≤ n) (he : 0 < e) :
    0 < (∑ i, (y i - m) * (y i - m)) / n + e :=
  add_pos_of_nonneg_of_pos (centred_var_nonneg y m n hn) he

/-- The scale-and-shift form of the normalisation (`scale = g · r`, `shift = b - mean · scale`) is the normalised
    form `(y - mean) · r · g + b`. -/
theorem scale_shift (y mean r g b : ℝ) : y * (g * r) + (b - mean * (g * r)) = (y - mean) * r * g + b := by ring

end BatchNorm

/-! ### 2. A sum over all rows, split by core and block -/

section Split

/-- The row `(c · T + t) · R + r` of block `t` of core `c`. -/
def rowOf {C T R : ℕ} (c : Fin C) (t : Fin T) (r : Fin R) : Fin (C * T * R) :=
  ⟨(c.val * T + t.val) * R + r.val, by
    have h1 : c.val * T + t.val < C * T := by
      calc c.val * T + t.val < c.val * T + T := Nat.add_lt_add_left t.isLt _
        _ = (c.val + 1) * T := by ring
        _ ≤ C * T := Nat.mul_le_mul_right _ c.isLt
    calc (c.val * T + t.val) * R + r.val < (c.val * T + t.val) * R + R := Nat.add_lt_add_left r.isLt _
      _ = (c.val * T + t.val + 1) * R := by ring
      _ ≤ C * T * R := Nat.mul_le_mul_right _ h1⟩

/-- The number of that row. -/
@[simp] theorem rowOf_val {C T R : ℕ} (c : Fin C) (t : Fin T) (r : Fin R) :
    (rowOf c t r).val = (c.val * T + t.val) * R + r.val := rfl

/-- Core, block and row-in-block number the rows one to one. -/
def rowEquiv (C T R : ℕ) : Fin C × Fin T × Fin R ≃ Fin (C * T * R) :=
  ((Equiv.prodAssoc (Fin C) (Fin T) (Fin R)).symm.trans
    ((finProdFinEquiv (m := C) (n := T)).prodCongr (Equiv.refl (Fin R)))).trans
    (finProdFinEquiv (m := C * T) (n := R))

/-- The numbering sends core, block and row-in-block to `rowOf`. -/
theorem rowEquiv_apply {C T R : ℕ} (c : Fin C) (t : Fin T) (r : Fin R) :
    rowEquiv C T R (c, t, r) = rowOf c t r := by
  apply Fin.ext
  simp [rowEquiv, rowOf, finProdFinEquiv]
  ring

/-- The sum over all rows is the sum over the cores of the sums over the blocks of the sums within a block. -/
theorem sum_split {M : Type*} [AddCommMonoid M] (C T R : ℕ) (f : Fin (C * T * R) → M) :
    (∑ c : Fin C, ∑ t : Fin T, ∑ r : Fin R, f (rowOf c t r)) = ∑ i : Fin (C * T * R), f i := by
  rw [← (rowEquiv C T R).sum_comp f, Fintype.sum_prod_type]
  refine Finset.sum_congr rfl fun c _ => ?_
  rw [Fintype.sum_prod_type]
  refine Finset.sum_congr rfl fun t _ => Finset.sum_congr rfl fun r _ => ?_
  rw [rowEquiv_apply]

/-- The two cores, twenty-five blocks of two thousand rows each, of a hundred thousand rows. -/
theorem sum_split_100000 {M : Type*} [AddCommMonoid M] (f : Fin 100000 → M) :
    (∑ c : Fin 2, ∑ t : Fin 25, ∑ r : Fin 2000, f (rowOf c t r)) = ∑ i : Fin 100000, f i :=
  sum_split 2 25 2000 f

/-- The two cores' partial results, added. -/
theorem add_two_cores {M : Type*} [AddCommMonoid M] (p : Fin 2 → M) : p 0 + p 1 = ∑ c : Fin 2, p c :=
  (Fin.sum_univ_two p).symm

/-- A running accumulation from zero, one block at a time, ends at the sum of the blocks. -/
theorem acc_eq_sum {M : Type*} [AddCommMonoid M] (T : ℕ) (acc block : ℕ → M) (h0 : acc 0 = 0)
    (hs : ∀ t, t < T → acc (t + 1) = acc t + block t) :
    acc T = ∑ t ∈ Finset.range T, block t := by
  induction T with
  | zero => simpa using h0
  | succ k ih =>
    rw [hs k (Nat.lt_succ_self k), Finset.sum_range_succ, ih fun t ht => hs t (Nat.lt_succ_of_lt ht)]

/-- The same with the blocks numbered by `Fin T`. -/
theorem acc_eq_sum_fin {M : Type*} [AddCommMonoid M] (T : ℕ) (acc : ℕ → M) (block : Fin T → M) (h0 : acc 0 = 0)
    (hs : ∀ t : Fin T, acc (t.val + 1) = acc t.val + block t) :
    acc T = ∑ t : Fin T, block t := by
  rw [acc_eq_sum T acc (fun t => if h : t < T then block ⟨t, h⟩ else 0) h0 (fun t ht => by rw [dif_pos ht]; exact hs ⟨t, ht⟩),
    ← Fin.sum_univ_eq_sum_range (fun t => if h : t < T then block ⟨t, h⟩ else 0) T]
  exact Finset.sum_congr rfl fun t _ => by simp

end Split

/-! ### 3. A product with a sum of weights; the biases collected -/

section MatSum
variable {κ : Type*} [Fintype κ]

/-- A row's product with the sum of three weight columns is the sum of its three products. -/
theorem dot_add3 (x A B C : κ → ℝ) :
    (∑ k, x k * (A k + B k + C k)) = (∑ k, x k * A k) + (∑ k, x k * B k) + (∑ k, x k * C k) := by
  simp only [mul_add, Finset.sum_add_distrib]

/-- The same with the weights indexed by row `k` and column `j`, the operand by row `i` and column `k`. -/
theorem matmul_add3 {ι κ' : Type*} (x : ι → κ → ℝ) (A B C : κ → κ' → ℝ) (i : ι) (j : κ') :
    (∑ k, x i k * (A k j + B k j + C k j)) = (∑ k, x i k * A k j) + (∑ k, x i k * B k j) + (∑ k, x i k * C k j) :=
  dot_add3 (x i) (fun k => A k j) (fun k => B k j) (fun k => C k j)

/-- Three products, three biases and a residual that is itself a sum of three terms regroup term by term. -/
theorem regroup3 (b1 b3 b5 m1 m2 m3 xr xa xb xc : ℝ) (h : xr = xa + xb + xc) :
    ((b1 + b3 + b5) + m1 + m2 + m3 + xr) = (m1 + b1 + xa) + (m2 + b3 + xb) + (m3 + b5 + xc) := by
  rw [h]; ring

end MatSum

/-! ### 4. The mean by a reciprocal -/

/-- Multiplying by the reciprocal of a nonzero count is dividing by it. -/
theorem mul_recip (s c : ℝ) : s * (1 / c) = s / c := mul_one_div s c

/-- The count clamped below by one is at least one. -/
theorem one_le_max_one (cnt : ℝ) : 1 ≤ max cnt 1 := le_max_right _ _
/-- The clamped count is positive. -/
theorem max_one_pos (cnt : ℝ) : 0 < max cnt 1 := lt_of_lt_of_le one_pos (le_max_right _ _)
/-- The clamped count is nonzero. -/
theorem max_one_ne_zero (cnt : ℝ) : max cnt 1 ≠ 0 := (max_one_pos cnt).ne'

/-! ### 5. Side conditions of the Euclidean normalisation -/

/-- A sum of squares is nonnegative: the argument of the square root. -/
theorem sum_mul_self_nonneg {κ : Type*} [Fintype κ] (y : κ → ℝ) : 0 ≤ ∑ k, y k * y k :=
  Finset.sum_nonneg fun k _ => mul_self_nonneg (y k)

/-- A maximum against a positive constant is positive: the divisor. -/
theorem max_pos_of_right {a e : ℝ} (he : 0 < e) : 0 < max a e := lt_of_lt_of_le he (le_max_right _ _)
/-- A maximum against a positive constant is nonzero. -/
theorem max_ne_zero_of_right {a e : ℝ} (he : 0 < e) : max a e ≠ 0 := (max_pos_of_right he).ne'

end Cert.Bridge
-- ==== Proof.Val.EncSpec.lean ====
/-
  The patient encoder's layers as index-by-index functions of extended-real arrays.

  A linear layer is the bias plus the row's product with the weight matrix's rows. Between two linear layers the
  two programs normalise each column over the hundred thousand rows and clamp at zero. One program takes the
  column's sum and sum of squares, forms mean = s / n and variance = q / n − mean², and applies
  y · scale + shift with scale = g · rsqrt(variance + ε) and shift = β − mean · scale. The other takes the mean,
  the mean of the squared deviations from it, and applies (y − mean) · rsqrt(variance + ε) · g + β. On real
  arrays the two agree: the variance from the sums is the centred variance, it is nonnegative so that the
  reciprocal square root is taken of a positive real, and the scale-and-shift form is a regrouping of the
  normalised form. On arrays with infinite entries they need not agree, hence the realness hypotheses.
-/
import Idealize.ShloMosaic.PureOps.Ideal
import Idealize.ShloMosaic.PureOps.Ideal.Laws
import Idealize.ShloMosaic.Lib.ValueIdx
import proofs.«424088_j28020366639260_2_alg».proof.Proof.LibERealArith
import proofs.«424088_j28020366639260_2_alg».proof.Proof.BridgeAlgebra

noncomputable section

namespace Cert.Val

open Idealize.ShloMosaic Idealize.ShloMosaic.ValueIdx Cert.Lib.ERealArith
open scoped BigOperators

/-- Rows by features. -/
abbrev SM : Shape := ⟨2, ![100000, 128]⟩
/-- A weight matrix. -/
abbrev SW : Shape := ⟨2, ![128, 128]⟩
/-- A bias. -/
abbrev SV : Shape := ⟨1, ![128]⟩
/-- The two layers' gains, or offsets. -/
abbrev SG : Shape := ⟨2, ![2, 128]⟩

/-! ### The layers, entry by entry (row r, column j) -/

/-- The linear layer: entry (r, j) is b j + ∑ₖ x (r, k) · W (j, k). -/
def linE (x : SM.Idx → EReal) (W : SW.Idx → EReal) (b : SV.Idx → EReal) (r : Fin 100000) (j : Fin 128) : EReal :=
  b (ix1 j) + ∑ k : Fin 128, x (ix2 r k) * W (ix2 j k)

/-- The linear layer as an array. -/
def lin (x : SM.Idx → EReal) (W : SW.Idx → EReal) (b : SV.Idx → EReal) : SM.Idx → EReal :=
  fun i => linE x W b (i 0) (i 1)

/-- A column's sum over all rows. -/
def colSum (y : SM.Idx → EReal) (j : Fin 128) : EReal := ∑ r : Fin 100000, y (ix2 r j)

/-- A column's sum of squares over all rows. -/
def colSumSq (y : SM.Idx → EReal) (j : Fin 128) : EReal := ∑ r : Fin 100000, y (ix2 r j) * y (ix2 r j)

/-- The number of rows, as the programs spell it. -/
def nRows : EReal := Ideal.ofBits .f32 0x47C35000#32

/-- The variance's offset, as the programs spell it. -/
def epsBN : EReal := Ideal.ofBits .f32 0x3727C5AC#32

/-- The scale from a column's sum s, sum of squares q and gain g. -/
def scaleOf (s q g : EReal) : EReal :=
  g * Ideal.rsqrt (Ideal.div q nRows - Ideal.div s nRows * Ideal.div s nRows + epsBN)

/-- The shift from the sums, the gain and the offset β. -/
def shiftOf (s q g β : EReal) : EReal := β - Ideal.div s nRows * scaleOf s q g

/-- Column j's scale at layer ℓ. -/
def scaleCol (y : SM.Idx → EReal) (g : SG.Idx → EReal) (ℓ : Fin 2) (j : Fin 128) : EReal :=
  scaleOf (colSum y j) (colSumSq y j) (g (ix2 ℓ j))

/-- Column j's shift at layer ℓ. -/
def shiftCol (y : SM.Idx → EReal) (g β : SG.Idx → EReal) (ℓ : Fin 2) (j : Fin 128) : EReal :=
  shiftOf (colSum y j) (colSumSq y j) (g (ix2 ℓ j)) (β (ix2 ℓ j))

/-- Normalise-and-clamp from the sums: max (y · scale + shift) 0. -/
def bnKE (y : SM.Idx → EReal) (g β : SG.Idx → EReal) (ℓ : Fin 2) (r : Fin 100000) (j : Fin 128) : EReal :=
  max (y (ix2 r j) * scaleCol y g ℓ j + shiftCol y g β ℓ j) 0

def bnK (y : SM.Idx → EReal) (g β : SG.Idx → EReal) (ℓ : Fin 2) : SM.Idx → EReal := fun i => bnKE y g β ℓ (i 0) (i 1)

/-- A column's mean. -/
def meanCol (y : SM.Idx → EReal) (j : Fin 128) : EReal := Ideal.div (colSum y j) nRows

/-- A column's centred variance. -/
def varCol (y : SM.Idx → EReal) (j : Fin 128) : EReal :=
  Ideal.div (∑ r : Fin 100000, (y (ix2 r j) - meanCol y j) * (y (ix2 r j) - meanCol y j)) nRows

/-- Normalise-and-clamp from the centred moments: max ((y − mean) · rsqrt(var + ε) · g + β) 0. -/
def bnRE (y : SM.Idx → EReal) (g β : SG.Idx → EReal) (ℓ : Fin 2) (r : Fin 100000) (j : Fin 128) : EReal :=
  max ((y (ix2 r j) - meanCol y j) * Ideal.rsqrt (varCol y j + epsBN) * g (ix2 ℓ j) + β (ix2 ℓ j)) 0

def bnR (y : SM.Idx → EReal) (g β : SG.Idx → EReal) (ℓ : Fin 2) : SM.Idx → EReal := fun i => bnRE y g β ℓ (i 0) (i 1)

theorem lin_ix2 (x : SM.Idx → EReal) (W : SW.Idx → EReal) (b : SV.Idx → EReal) (r : Fin 100000) (j : Fin 128) :
    lin x W b (ix2 r j) = linE x W b r j := rfl
theorem bnK_ix2 (y : SM.Idx → EReal) (g β : SG.Idx → EReal) (ℓ : Fin 2) (r : Fin 100000) (j : Fin 128) :
    bnK y g β ℓ (ix2 r j) = bnKE y g β ℓ r j := rfl
theorem bnR_ix2 (y : SM.Idx → EReal) (g β : SG.Idx → EReal) (ℓ : Fin 2) (r : Fin 100000) (j : Fin 128) :
    bnR y g β ℓ (ix2 r j) = bnRE y g β ℓ r j := rfl

/-! ### The same over ℝ -/

/-- Column sums of a real array. -/
def rS (y : SM.Idx → ℝ) (j : Fin 128) : ℝ := ∑ r : Fin 100000, y (ix2 r j)
/-- Column sums of squares of a real array. -/
def rQ (y : SM.Idx → ℝ) (j : Fin 128) : ℝ := ∑ r : Fin 100000, y (ix2 r j) * y (ix2 r j)
/-- Column sums of squared deviations of a real array. -/
def rD (y : SM.Idx → ℝ) (j : Fin 128) : ℝ :=
  ∑ r : Fin 100000, (y (ix2 r j) - rS y j / 100000) * (y (ix2 r j) - rS y j / 100000)

def rScale (y : SM.Idx → ℝ) (g : SG.Idx → ℝ) (ℓ : Fin 2) (j : Fin 128) : ℝ :=
  g (ix2 ℓ j) * (Real.sqrt (rQ y j / 100000 - rS y j / 100000 * (rS y j / 100000) + eps5))⁻¹

def rShift (y : SM.Idx → ℝ) (g β : SG.Idx → ℝ) (ℓ : Fin 2) (j : Fin 128) : ℝ :=
  β (ix2 ℓ j) - rS y j / 100000 * rScale y g ℓ j

def bnKr (y : SM.Idx → ℝ) (g β : SG.Idx → ℝ) (ℓ : Fin 2) (r : Fin 100000) (j : Fin 128) : ℝ :=
  max (y (ix2 r j) * rScale y g ℓ j + rShift y g β ℓ j) 0

def bnRr (y : SM.Idx → ℝ) (g β : SG.Idx → ℝ) (ℓ : Fin 2) (r : Fin 100000) (j : Fin 128) : ℝ :=
  max ((y (ix2 r j) - rS y j / 100000) * (Real.sqrt (rD y j / 100000 + eps5))⁻¹ * g (ix2 ℓ j) + β (ix2 ℓ j)) 0

def linr (x : SM.Idx → ℝ) (W : SW.Idx → ℝ) (b : SV.Idx → ℝ) (r : Fin 100000) (j : Fin 128) : ℝ :=
  b (ix1 j) + ∑ k : Fin 128, x (ix2 r k) * W (ix2 j k)

theorem h100k : (100000 : ℝ) ≠ 0 := by norm_num
theorem hcard : (100000 : ℝ) = ((Fintype.card (Fin 100000) : ℕ) : ℝ) := by simp

/-- The variance from the sums, offset by ε, is positive. -/
theorem rvar_pos (y : SM.Idx → ℝ) (j : Fin 128) :
    0 < rQ y j / 100000 - rS y j / 100000 * (rS y j / 100000) + eps5 :=
  Cert.Bridge.var_of_sums_add_pos (fun r : Fin 100000 => y (ix2 r j)) 100000 eps5 hcard h100k eps5_pos

/-- The variance from the sums is the centred variance. -/
theorem rvar_eq (y : SM.Idx → ℝ) (j : Fin 128) :
    rQ y j / 100000 - rS y j / 100000 * (rS y j / 100000) = rD y j / 100000 :=
  Cert.Bridge.var_of_sums_col (fun r : Fin 100000 => y (ix2 r j)) 100000 hcard h100k

/-- The centred variance, offset by ε, is positive. -/
theorem rdev_pos (y : SM.Idx → ℝ) (j : Fin 128) : 0 < rD y j / 100000 + eps5 := by
  rw [← rvar_eq]; exact rvar_pos y j

/-- Over ℝ the two forms agree. -/
theorem bnKr_eq_bnRr (y : SM.Idx → ℝ) (g β : SG.Idx → ℝ) (ℓ : Fin 2) (r : Fin 100000) (j : Fin 128) :
    bnKr y g β ℓ r j = bnRr y g β ℓ r j := by
  unfold bnKr bnRr rShift rScale
  rw [rvar_eq, Cert.Bridge.scale_shift]

/-! ### The extended-real forms on real arrays -/

theorem linE_coe (x : SM.Idx → ℝ) (W : SW.Idx → ℝ) (b : SV.Idx → ℝ) (r : Fin 100000) (j : Fin 128) :
    linE (fun i => (x i : EReal)) (fun i => (W i : EReal)) (fun i => (b i : EReal)) r j = ((linr x W b r j : ℝ) : EReal) := by
  unfold linE linr
  simp only [mul_coe, univ_sum_coe, add_coe]

theorem colSum_coe (y : SM.Idx → ℝ) (j : Fin 128) : colSum (fun i => (y i : EReal)) j = ((rS y j : ℝ) : EReal) := by
  unfold colSum rS
  simp only [univ_sum_coe]

theorem colSumSq_coe (y : SM.Idx → ℝ) (j : Fin 128) : colSumSq (fun i => (y i : EReal)) j = ((rQ y j : ℝ) : EReal) := by
  unfold colSumSq rQ
  simp only [mul_coe, univ_sum_coe]

theorem nRows_coe : nRows = ((100000 : ℝ) : EReal) := ofBits_100000
theorem epsBN_coe : epsBN = ((eps5 : ℝ) : EReal) := ofBits_eps5

theorem scaleCol_coe (y : SM.Idx → ℝ) (g : SG.Idx → ℝ) (ℓ : Fin 2) (j : Fin 128) :
    scaleCol (fun i => (y i : EReal)) (fun i => (g i : EReal)) ℓ j = ((rScale y g ℓ j : ℝ) : EReal) := by
  unfold scaleCol scaleOf rScale
  rw [colSum_coe, colSumSq_coe, nRows_coe, epsBN_coe]
  simp only [div_coe h100k, mul_coe, sub_coe, add_coe]
  rw [rsqrt_coe (rvar_pos y j), mul_coe]

theorem shiftCol_coe (y : SM.Idx → ℝ) (g β : SG.Idx → ℝ) (ℓ : Fin 2) (j : Fin 128) :
    shiftCol (fun i => (y i : EReal)) (fun i => (g i : EReal)) (fun i => (β i : EReal)) ℓ j = ((rShift y g β ℓ j : ℝ) : EReal) := by
  have h := scaleCol_coe y g ℓ j
  unfold scaleCol at h
  unfold shiftCol shiftOf rShift
  rw [h, colSum_coe, nRows_coe]
  simp only [div_coe h100k, mul_coe, sub_coe]

theorem bnKE_coe (y : SM.Idx → ℝ) (g β : SG.Idx → ℝ) (ℓ : Fin 2) (r : Fin 100000) (j : Fin 128) :
    bnKE (fun i => (y i : EReal)) (fun i => (g i : EReal)) (fun i => (β i : EReal)) ℓ r j = ((bnKr y g β ℓ r j : ℝ) : EReal) := by
  unfold bnKE bnKr
  rw [scaleCol_coe, shiftCol_coe, zero_eq_coe]
  simp only [mul_coe, add_coe, max_coe]

theorem meanCol_coe (y : SM.Idx → ℝ) (j : Fin 128) : meanCol (fun i => (y i : EReal)) j = ((rS y j / 100000 : ℝ) : EReal) := by
  unfold meanCol
  rw [colSum_coe, nRows_coe, div_coe h100k]

theorem varCol_coe (y : SM.Idx → ℝ) (j : Fin 128) : varCol (fun i => (y i : EReal)) j = ((rD y j / 100000 : ℝ) : EReal) := by
  unfold varCol rD
  rw [meanCol_coe, nRows_coe]
  simp only [sub_coe, mul_coe, univ_sum_coe, div_coe h100k]

theorem bnRE_coe (y : SM.Idx → ℝ) (g β : SG.Idx → ℝ) (ℓ : Fin 2) (r : Fin 100000) (j : Fin 128) :
    bnRE (fun i => (y i : EReal)) (fun i => (g i : EReal)) (fun i => (β i : EReal)) ℓ r j = ((bnRr y g β ℓ r j : ℝ) : EReal) := by
  unfold bnRE bnRr
  rw [meanCol_coe, varCol_coe, epsBN_coe, add_coe, rsqrt_coe (rdev_pos y j), zero_eq_coe]
  simp only [sub_coe, mul_coe, add_coe, max_coe]

/-! ### The statements the phases compose -/

/-- A linear layer of real arrays is a real array. -/
theorem real_lin {x : SM.Idx → EReal} {W : SW.Idx → EReal} {b : SV.Idx → EReal}
    (hx : ∀ i, ∃ r : ℝ, x i = (r : EReal)) (hW : ∀ i, ∃ r : ℝ, W i = (r : EReal)) (hb : ∀ i, ∃ r : ℝ, b i = (r : EReal)) :
    ∀ i, ∃ r : ℝ, lin x W b i = (r : EReal) := by
  choose xr hxr using hx
  choose Wr hWr using hW
  choose br hbr using hb
  obtain rfl : x = fun i => (xr i : EReal) := funext hxr
  obtain rfl : W = fun i => (Wr i : EReal) := funext hWr
  obtain rfl : b = fun i => (br i : EReal) := funext hbr
  exact fun i => ⟨_, linE_coe xr Wr br (i 0) (i 1)⟩

/-- On real arrays the normalisation from the sums is the normalisation from the centred moments. -/
theorem bnK_eq_bnR {y : SM.Idx → EReal} {g β : SG.Idx → EReal} (ℓ : Fin 2)
    (hy : ∀ i, ∃ r : ℝ, y i = (r : EReal)) (hg : ∀ i, ∃ r : ℝ, g i = (r : EReal)) (hβ : ∀ i, ∃ r : ℝ, β i = (r : EReal)) :
    bnK y g β ℓ = bnR y g β ℓ := by
  choose yr hyr using hy
  choose gr hgr using hg
  choose βr hβr using hβ
  obtain rfl : y = fun i => (yr i : EReal) := funext hyr
  obtain rfl : g = fun i => (gr i : EReal) := funext hgr
  obtain rfl : β = fun i => (βr i : EReal) := funext hβr
  funext i
  exact (bnKE_coe yr gr βr ℓ (i 0) (i 1)).trans
    ((congrArg (fun z : ℝ => (z : EReal)) (bnKr_eq_bnRr yr gr βr ℓ (i 0) (i 1))).trans (bnRE_coe yr gr βr ℓ (i 0) (i 1)).symm)

/-- and it is a real array. -/
theorem real_bnR {y : SM.Idx → EReal} {g β : SG.Idx → EReal} (ℓ : Fin 2)
    (hy : ∀ i, ∃ r : ℝ, y i = (r : EReal)) (hg : ∀ i, ∃ r : ℝ, g i = (r : EReal)) (hβ : ∀ i, ∃ r : ℝ, β i = (r : EReal)) :
    ∀ i, ∃ r : ℝ, bnR y g β ℓ i = (r : EReal) := by
  choose yr hyr using hy
  choose gr hgr using hg
  choose βr hβr using hβ
  obtain rfl : y = fun i => (yr i : EReal) := funext hyr
  obtain rfl : g = fun i => (gr i : EReal) := funext hgr
  obtain rfl : β = fun i => (βr i : EReal) := funext hβr
  exact fun i => ⟨_, bnRE_coe yr gr βr ℓ (i 0) (i 1)⟩

/-- A sum over all rows is the two cores' sums, each over its twenty-five blocks of two thousand rows. -/
theorem colSum_of_cores (Y : SM.Idx → EReal) (j : Fin 128) :
    (∑ c : Fin 2, ∑ p : Fin 25, ∑ r : Fin 2000, Y (ix2 (Cert.Bridge.rowOf c p r) j)) = colSum Y j :=
  Cert.Bridge.sum_split_100000 (fun r => Y (ix2 r j))

/-- The same for the squares. -/
theorem colSumSq_of_cores (Y : SM.Idx → EReal) (j : Fin 128) :
    (∑ c : Fin 2, ∑ p : Fin 25, ∑ r : Fin 2000, Y (ix2 (Cert.Bridge.rowOf c p r) j) * Y (ix2 (Cert.Bridge.rowOf c p r) j))
      = colSumSq Y j :=
  Cert.Bridge.sum_split_100000 (fun r => Y (ix2 r j) * Y (ix2 r j))

end Cert.Val

end
-- ==== Proof.Val.BnRead.lean ====
/-
  The scale and the shift of a column normalisation, as the host computes them from the two cores' partial sums.

  Each of the two cores leaves, per column k, the sum s (c, 0, k) of its rows and the sum q (c, 0, k) of their
  squares. The host adds the two cores' parts (a reduction over the first two axes, started from zero), divides by
  the number of rows n to get the mean M k and the mean square, forms the variance as mean square minus M k · M k,
  adds ε, takes the reciprocal square root, and multiplies by the gain: scale k. The shift is the offset minus
  M k · scale k. Read at a column these are the textbook expressions in the two totals.
-/
import Idealize.ShloMosaic.Lib.IdealHost
import Idealize.ShloMosaic.Lib.Pipeline.Value
import Idealize.ShloMosaic.Lib.ValueIdx
import proofs.«424088_j28020366639260_2_alg».proof.Proof.LibERealArith
import proofs.«424088_j28020366639260_2_alg».proof.Proof.Val.EncSpec

set_option maxRecDepth 16384

noncomputable section

namespace Cert.Val

open Idealize.ShloMosaic Idealize.ShloMosaic.ValueIdx Cert.Lib.ERealArith
open scoped BigOperators

/-- The host's reciprocal square root at an index. -/
theorem hostRsqrt_apply {s : Shape} {φ : FTy} (a : FVec Ideal s φ) (i : s.Idx) : Host.rsqrt a i = Ideal.rsqrt (a i) := rfl

/-! ## The two cores' parts added -/

/-- The host's reduction over the core axis and the unit axis, started from zero: column k's total is
    0 + ∑ over the two cores of the core's part. -/
theorem hostSumCores_apply (x : (⟨3, ![2, 1, 128]⟩ : Shape).Idx → EReal)
    (hred : (⟨3, ![2, 1, 128]⟩ : Shape).ReducesTo [0, 1] ⟨1, ![128]⟩) (hS : 0 < (⟨0, ![]⟩ : Shape).numel) (k : Fin 128) :
    Host.reduceAdd (F := Ideal) (φ := .f32) x (constant (F := Ideal) ⟨0, ![]⟩ .f32 0x00000000#32) hred hS (ix1 k)
      = 0 + ∑ c : Fin 2, x (ix3 c (0 : Fin 1) k) := by
  rw [hostReduceAdd_apply]
  unfold Ideal.hostReduceAdd
  have h0 : (constant (F := Ideal) ⟨0, ![]⟩ .f32 0x00000000#32) (Shape.Idx.first hS) = (0 : EReal) := by
    show Ideal.ofBits .f32 0x00000000#32 = 0
    rw [ofBits_zero]; rfl
  rw [h0]
  refine congrArg (fun z => (0 : EReal) + z) ?_
  have hset : (Finset.univ.filter fun i : (⟨3, ![2, 1, 128]⟩ : Shape).Idx => hred.drop i = ix1 k)
      = Finset.univ.image (fun c : Fin 2 => (ix3 c (0 : Fin 1) k : (⟨3, ![2, 1, 128]⟩ : Shape).Idx)) := by
    ext i
    simp only [Finset.mem_filter, Finset.mem_univ, true_and, Finset.mem_image]
    constructor
    · intro hi
      refine ⟨i 0, ?_⟩
      have h2 : (i 2).val = k.val := by
        have := hred.drop_apply_val_of_eq i (0 : Fin 1) (2 : Fin 3)
        rw [hi] at this
        exact this.symm
      have h1 : i 1 = (0 : Fin 1) := Fin.ext (Nat.lt_one_iff.mp (i 1).isLt)
      have h2' : i 2 = k := Fin.ext h2
      refine Eq.trans ?_ (eq_ix3 i).symm
      rw [h1, h2']
      rfl
    · rintro ⟨c, rfl⟩
      funext b
      match b with
      | ⟨0, _⟩ => exact Fin.ext (hred.drop_apply_val_of_eq _ (0 : Fin 1) (2 : Fin 3))
  rw [hset, Finset.sum_image]
  intro c _ c' _ hcc
  have := congrFun hcc (0 : Fin 3)
  exact this

/-! ## The host's chain -/

/-- A total over the number of rows, column by column. -/
def hostMeanVec (s : (⟨3, ![2, 1, 128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![]) : (⟨1, ![128]⟩ : Shape).Idx → EReal :=
  Host.divf (F := Ideal) (φ := .f32)
    (Host.reduceAdd (F := Ideal) (φ := .f32) s (constant (F := Ideal) ⟨0, ![]⟩ .f32 0x00000000#32) hred hS)
    (broadcastInDim ⟨1, ![128]⟩ ![] hb (constant (F := Ideal) ⟨0, ![]⟩ .f32 0x47C35000#32))

theorem hostMeanVec_apply (s : (⟨3, ![2, 1, 128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![]) (k : Fin 128) :
    hostMeanVec s hred hS hb (ix1 k)
      = Ideal.div (0 + ∑ c : Fin 2, s (ix3 c (0 : Fin 1) k)) (Ideal.ofBits .f32 0x47C35000#32) := by
  unfold hostMeanVec
  rw [hostDivf_apply, hostSumCores_apply, broadcastInDim_scalar_apply]
  rfl

/-- The scale vector: gain · rsqrt (mean square − mean · mean + ε). -/
def kerScaleVec (s q : (⟨3, ![2, 1, 128]⟩ : Shape).Idx → EReal) (g : (⟨1, ![128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![]) : (⟨1, ![128]⟩ : Shape).Idx → EReal :=
  mulf (F := Ideal) (φ := .f32) g
    (Host.rsqrt (F := Ideal) (φ := .f32)
      (addf (F := Ideal) (φ := .f32)
        (subf (F := Ideal) (φ := .f32) (hostMeanVec q hred hS hb)
          (mulf (F := Ideal) (φ := .f32) (hostMeanVec s hred hS hb) (hostMeanVec s hred hS hb)))
        (broadcastInDim ⟨1, ![128]⟩ ![] hb (constant (F := Ideal) ⟨0, ![]⟩ .f32 0x3727C5AC#32))))

/-- The shift vector: offset − mean · scale. -/
def kerShiftVec (s q : (⟨3, ![2, 1, 128]⟩ : Shape).Idx → EReal) (g β : (⟨1, ![128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![]) : (⟨1, ![128]⟩ : Shape).Idx → EReal :=
  subf (F := Ideal) (φ := .f32) β
    (mulf (F := Ideal) (φ := .f32) (hostMeanVec s hred hS hb) (kerScaleVec s q g hred hS hb))

/-- The scale at column k, in the two totals S = 0 + ∑ s, Q = 0 + ∑ q:
    g k · rsqrt (Q / n − S / n · (S / n) + ε). -/
theorem kerScaleVec_apply (s q : (⟨3, ![2, 1, 128]⟩ : Shape).Idx → EReal) (g : (⟨1, ![128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![]) (k : Fin 128) :
    kerScaleVec s q g hred hS hb (ix1 k)
      = g (ix1 k) * Ideal.rsqrt
          (Ideal.div (0 + ∑ c : Fin 2, q (ix3 c (0 : Fin 1) k)) (Ideal.ofBits .f32 0x47C35000#32)
            - Ideal.div (0 + ∑ c : Fin 2, s (ix3 c (0 : Fin 1) k)) (Ideal.ofBits .f32 0x47C35000#32)
              * Ideal.div (0 + ∑ c : Fin 2, s (ix3 c (0 : Fin 1) k)) (Ideal.ofBits .f32 0x47C35000#32)
            + Ideal.ofBits .f32 0x3727C5AC#32) := by
  unfold kerScaleVec
  rw [mulf_apply, hostRsqrt_apply, addf_apply, subf_apply, mulf_apply, hostMeanVec_apply, hostMeanVec_apply,
    broadcastInDim_scalar_apply]
  rfl

/-- The shift at column k: β k − S / n · scale k. -/
theorem kerShiftVec_apply (s q : (⟨3, ![2, 1, 128]⟩ : Shape).Idx → EReal) (g β : (⟨1, ![128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![]) (k : Fin 128) :
    kerShiftVec s q g β hred hS hb (ix1 k)
      = β (ix1 k) - Ideal.div (0 + ∑ c : Fin 2, s (ix3 c (0 : Fin 1) k)) (Ideal.ofBits .f32 0x47C35000#32)
          * kerScaleVec s q g hred hS hb (ix1 k) := by
  unfold kerShiftVec
  rw [subf_apply, mulf_apply, hostMeanVec_apply]

/-! ## A vector as a one-row matrix, and a transposed square matrix -/

/-- A vector cast to a one-row matrix: entry (0, k) is entry k. -/
theorem vecRow_apply {α : Type} {n : Nat} (v : (⟨1, ![n]⟩ : Shape).Idx → α) (h : (⟨1, ![n]⟩ : Shape).ShapeCasts ⟨2, ![1, n]⟩)
    (z : Fin 1) (k : Fin n) : shapeCast ⟨2, ![1, n]⟩ v h (ix2 z k) = v (ix1 k) := by
  refine shapeCast_apply v h (ix2 z k) (ix1 k) ?_
  rw [Shape.rowMajor_val_one, Shape.rowMajor_val_two]
  have : z.val = 0 := by have := z.isLt; omega
  show k.val = z.val * n + k.val
  rw [this]; omega

/-- Row ℓ of a two-row matrix, sliced out and cast to a vector: entry k is entry (ℓ, k). -/
theorem sliceRow_apply {α : Type} (G : (⟨2, ![2, 128]⟩ : Shape).Idx → α) (ℓ : Fin 2)
    (hs : (⟨2, ![2, 128]⟩ : Shape).Slices ![ℓ.val, 0] ⟨2, ![1, 128]⟩) (hc : (⟨2, ![1, 128]⟩ : Shape).ShapeCasts ⟨1, ![128]⟩)
    (k : Fin 128) :
    shapeCast ⟨1, ![128]⟩ (extractStridedSlice ⟨2, ![1, 128]⟩ ![ℓ.val, 0] G hs) hc (ix1 k) = G (ix2 ℓ k) := by
  refine (shapeCast_apply _ hc (ix1 k) (ix2 (0 : Fin 1) k) (by
    rw [Shape.rowMajor_val_two, Shape.rowMajor_val_one]
    show 0 * 128 + k.val = k.val
    omega)).trans ?_
  refine extractStridedSlice_apply ![ℓ.val, 0] G hs (ix2 (0 : Fin 1) k) (ix2 ℓ k) fun a => ?_
  match a with
  | ⟨0, _⟩ => show ℓ.val = ℓ.val + 0; omega
  | ⟨1, _⟩ => show k.val = 0 + k.val; omega

/-- A transposed square matrix: entry (k, j) is entry (j, k). -/
theorem transposeSq_apply {α : Type} (W : (⟨2, ![128, 128]⟩ : Shape).Idx → α)
    (h : (⟨2, ![128, 128]⟩ : Shape).Transposes [1, 0] ⟨2, ![128, 128]⟩) (k j : Fin 128) :
    transpose ⟨2, ![128, 128]⟩ [1, 0] W h (ix2 k j) = W (ix2 j k) := by
  refine transpose_apply [1, 0] W h (ix2 k j) (ix2 j k) fun b => ?_
  match b with
  | ⟨0, _⟩ => rfl
  | ⟨1, _⟩ => rfl

/-! ## The host's chain is the column's scale and shift; the accumulated product is the linear layer -/

/-- The scale vector at column k is the column's scale, when the cores' parts are the per-core sums of the rows and
    of their squares and the gain vector is row ℓ of the gains. -/
theorem kerScaleVec_eq_scaleCol (Y : SM.Idx → EReal) (G : SG.Idx → EReal) (ℓ : Fin 2)
    (s q : (⟨3, ![2, 1, 128]⟩ : Shape).Idx → EReal) (g6 : (⟨1, ![128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![])
    (hs : ∀ (c : Fin 2) (k : Fin 128), s (ix3 c (0 : Fin 1) k) = ∑ p : Fin 25, ∑ r : Fin 2000, Y (ix2 (Cert.Bridge.rowOf c p r) k))
    (hq : ∀ (c : Fin 2) (k : Fin 128), q (ix3 c (0 : Fin 1) k)
      = ∑ p : Fin 25, ∑ r : Fin 2000, Y (ix2 (Cert.Bridge.rowOf c p r) k) * Y (ix2 (Cert.Bridge.rowOf c p r) k))
    (hg : ∀ k : Fin 128, g6 (ix1 k) = G (ix2 ℓ k)) (k : Fin 128) :
    kerScaleVec s q g6 hred hS hb (ix1 k) = scaleCol Y G ℓ k := by
  rw [kerScaleVec_apply, hg]
  simp only [hs, hq]
  rw [colSum_of_cores, colSumSq_of_cores, zero_add, zero_add]
  rfl

/-- The shift vector at column k is the column's shift, under the same hypotheses and with the offset vector row ℓ
    of the offsets. -/
theorem kerShiftVec_eq_shiftCol (Y : SM.Idx → EReal) (G B : SG.Idx → EReal) (ℓ : Fin 2)
    (s q : (⟨3, ![2, 1, 128]⟩ : Shape).Idx → EReal) (g6 β8 : (⟨1, ![128]⟩ : Shape).Idx → EReal)
    (hred : (⟨3, ![2, 1, 128]⟩ : Shape).ReducesTo [0, 1] ⟨1, ![128]⟩) (hS : 0 < (⟨0, ![]⟩ : Shape).numel)
    (hb : (⟨0, ![]⟩ : Shape).BroadcastsInDim ⟨1, ![128]⟩ ![])
    (hs : ∀ (c : Fin 2) (k : Fin 128), s (ix3 c (0 : Fin 1) k) = ∑ p : Fin 25, ∑ r : Fin 2000, Y (ix2 (Cert.Bridge.rowOf c p r) k))
    (hq : ∀ (c : Fin 2) (k : Fin 128), q (ix3 c (0 : Fin 1) k)
      = ∑ p : Fin 25, ∑ r : Fin 2000, Y (ix2 (Cert.Bridge.rowOf c p r) k) * Y (ix2 (Cert.Bridge.rowOf c p r) k))
    (hg : ∀ k : Fin 128, g6 (ix1 k) = G (ix2 ℓ k)) (hβ : ∀ k : Fin 128, β8 (ix1 k) = B (ix2 ℓ k)) (k : Fin 128) :
    kerShiftVec s q g6 β8 hred hS hb (ix1 k) = shiftCol Y G B ℓ k := by
  rw [kerShiftVec_apply, kerScaleVec_eq_scaleCol Y G ℓ s q g6 hred hS hb hs hq hg, hβ]
  simp only [hs]
  rw [colSum_of_cores, zero_add]
  rfl

/-- The bias row plus the products of the normalised, clamped rows with the transposed weight is the linear layer of
    the normalised, clamped array: the pieces read where the accumulation reads them. -/
theorem lin_bnK_of_pieces (Y : SM.Idx → EReal) (A8 : SW.Idx → EReal) (A9 : SV.Idx → EReal) (G B : SG.Idx → EReal) (ℓ : Fin 2)
    (sc sh b : (⟨2, ![1, 128]⟩ : Shape).Idx → EReal) (w : SW.Idx → EReal)
    (hsc : ∀ k : Fin 128, sc (ix2 (0 : Fin 1) k) = scaleCol Y G ℓ k)
    (hsh : ∀ k : Fin 128, sh (ix2 (0 : Fin 1) k) = shiftCol Y G B ℓ k)
    (hw : ∀ k j : Fin 128, w (ix2 k j) = A8 (ix2 j k))
    (hbias : ∀ j : Fin 128, b (ix2 (0 : Fin 1) j) = A9 (ix1 j)) :
    (fun i : SM.Idx => b (ix2 (n0 := 1) (n1 := 128) 0 (i 1))
        + ∑ k : Fin 128, max (Y (ix2 (n0 := 100000) (n1 := 128) (i 0) k) * sc (ix2 (n0 := 1) (n1 := 128) 0 k)
            + sh (ix2 (n0 := 1) (n1 := 128) 0 k)) 0 * w (ix2 (n0 := 128) (n1 := 128) k (i 1)))
      = lin (bnK Y G B ℓ) A8 A9 := by
  funext i
  obtain ⟨r, j, rfl⟩ : ∃ (r : Fin 100000) (j : Fin 128), i = ix2 r j := ⟨i 0, i 1, eq_ix2 i⟩
  rw [lin_ix2]
  unfold linE
  show b (ix2 (0 : Fin 1) j) + ∑ k : Fin 128, max (Y (ix2 r k) * sc (ix2 (0 : Fin 1) k) + sh (ix2 (0 : Fin 1) k)) 0 * w (ix2 k j) = _
  rw [hbias]
  refine congrArg (fun z => A9 (ix1 j) + z) ?_
  refine Finset.sum_congr rfl fun k _ => ?_
  rw [hsc, hsh, hw, bnK_ix2]
  rfl

end Cert.Val

end
-- ==== Proof.Val.EncKHost.lean ====
/-
  The kernel program's host stretches before its first two regions, read at the buffers those regions take:
  the transposed weights, the biases as one-row matrices, and the scale and shift of the first normalisation as
  the host computes them from the two cores' sums of the first layer's output and of its squares.
-/
import proofs.«424088_j28020366639260_2_alg».proof.Proof.KI.Fold
import proofs.«424088_j28020366639260_2_alg».proof.Proof.Val.BnRead
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ### Before region 0 -/

theorem kW1_v0 : (W1 m ρ c (Proc.devRef .tc main_v0) : FVec Ideal S128x128 .f32)
    = transpose S128x128 [1, 0] (W0 m ρ c (Proc.devRef .tc main_arg4) : FVec Ideal S128x128 .f32) transposes_S128x128_S128x128_1_0 := by
  show StableHlo.after hostOps0 (W0 m ρ c) (Proc.devRef .tc main_v0) = _
  after_results_simp
  first | done | rfl

theorem kW1_v1 : (W1 m ρ c (Proc.devRef .tc main_v1) : FVec Ideal S1x128 .f32)
    = shapeCast S1x128 (W0 m ρ c (Proc.devRef .tc main_arg5) : FVec Ideal S128 .f32) shapeCasts_S128_S1x128 := by
  show StableHlo.after hostOps0 (W0 m ρ c) (Proc.devRef .tc main_v1) = _
  after_results_simp
  first | done | rfl

theorem kW1_arg0 : W1 m ρ c (Proc.devRef .tc main_arg0) = W0 m ρ c (Proc.devRef .tc main_arg0) := by
  show StableHlo.after hostOps0 (W0 m ρ c) (Proc.devRef .tc main_arg0) = _
  after_results_simp

/-! ### Before region 1 -/

/-- Row 0 of the gains, as the host slices it. -/
abbrev kG6 : FVec Ideal S128 .f32 :=
  shapeCast S128 (extractStridedSlice S1x128 ![0, 0] (W2 m ρ c (Proc.devRef .tc main_arg10) : FVec Ideal S2x128 .f32) slices_S2x128_S1x128_0_0) shapeCasts_S1x128_S128
/-- Row 0 of the offsets. -/
abbrev kBeta8 : FVec Ideal S128 .f32 :=
  shapeCast S128 (extractStridedSlice S1x128 ![0, 0] (W2 m ρ c (Proc.devRef .tc main_arg11) : FVec Ideal S2x128 .f32) slices_S2x128_S1x128_0_0) shapeCasts_S1x128_S128

set_option maxHeartbeats 1000000 in
theorem kW3_v22 : (W3 m ρ c (Proc.devRef .tc main_v22) : FVec Ideal S1x128 .f32)
    = shapeCast S1x128 (kerScaleVec (W2 m ρ c (Proc.devRef .tc main_v2_1)) (W2 m ρ c (Proc.devRef .tc main_v2_2)) (kG6 m ρ c)
        reducesTo_S2x1x128_S128_d0_1 h_S_ bcast_S_S128) shapeCasts_S128_S1x128 := by
  show StableHlo.after hostOps1 (W2 m ρ c) (Proc.devRef .tc main_v22) = _
  after_results_simp
  first | done | rfl

set_option maxHeartbeats 1000000 in
theorem kW3_v23 : (W3 m ρ c (Proc.devRef .tc main_v23) : FVec Ideal S1x128 .f32)
    = shapeCast S1x128 (kerShiftVec (W2 m ρ c (Proc.devRef .tc main_v2_1)) (W2 m ρ c (Proc.devRef .tc main_v2_2)) (kG6 m ρ c) (kBeta8 m ρ c)
        reducesTo_S2x1x128_S128_d0_1 h_S_ bcast_S_S128) shapeCasts_S128_S1x128 := by
  show StableHlo.after hostOps1 (W2 m ρ c) (Proc.devRef .tc main_v23) = _
  after_results_simp
  first | done | rfl

theorem kW3_v21 : (W3 m ρ c (Proc.devRef .tc main_v21) : FVec Ideal S128x128 .f32)
    = transpose S128x128 [1, 0] (W2 m ρ c (Proc.devRef .tc main_arg6) : FVec Ideal S128x128 .f32) transposes_S128x128_S128x128_1_0 := by
  show StableHlo.after hostOps1 (W2 m ρ c) (Proc.devRef .tc main_v21) = _
  after_results_simp
  first | done | rfl

theorem kW3_v24 : (W3 m ρ c (Proc.devRef .tc main_v24) : FVec Ideal S1x128 .f32)
    = shapeCast S1x128 (W2 m ρ c (Proc.devRef .tc main_arg7) : FVec Ideal S128 .f32) shapeCasts_S128_S1x128 := by
  show StableHlo.after hostOps1 (W2 m ρ c) (Proc.devRef .tc main_v24) = _
  after_results_simp
  first | done | rfl

theorem kW3_v2_0 : W3 m ρ c (Proc.devRef .tc main_v2_0) = W2 m ρ c (Proc.devRef .tc main_v2_0) := by
  show StableHlo.after hostOps1 (W2 m ρ c) (Proc.devRef .tc main_v2_0) = _
  after_results_simp

end Cert.Val

end
-- ==== Proof.Val.EncK1.lean ====
/-
  The kernel program's first layer, read at the launch arguments: after region 0 the first result array is the
  linear layer of the first argument under the first weights and bias, and the two per-core arrays are each core's
  column sums of that layer's entries and of their squares, over its twenty-five blocks of two thousand rows.
-/
import proofs.«424088_j28020366639260_2_alg».proof.Proof.KI.V0
import proofs.«424088_j28020366639260_2_alg».proof.Proof.KI.Fold
import proofs.«424088_j28020366639260_2_alg».proof.Proof.Val.EncSpec
import proofs.«424088_j28020366639260_2_alg».proof.Proof.Val.EncKHost
import Idealize.ShloMosaic.Lib.Pipeline.Value
import Idealize.ShloMosaic.Lib.ValueLayout

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The launch arguments the first layer reads: x, the weights, the bias. -/
abbrev kA0 : SM.Idx → EReal := W0 m ρ c (Proc.devRef .tc main_arg0)
abbrev kA4 : SW.Idx → EReal := W0 m ρ c (Proc.devRef .tc main_arg4)
abbrev kA5 : SV.Idx → EReal := W0 m ρ c (Proc.devRef .tc main_arg5)
/-- Region 0's three result arrays at its exit. -/
abbrev kY1 : SM.Idx → EReal := W2 m ρ c (Proc.devRef .tc main_v2_0)
abbrev kS1 : (⟨3, ![2, 1, 128]⟩ : Shape).Idx → EReal := W2 m ρ c (Proc.devRef .tc main_v2_1)
abbrev kQ1 : (⟨3, ![2, 1, 128]⟩ : Shape).Idx → EReal := W2 m ρ c (Proc.devRef .tc main_v2_2)

/-- The arrays region 0 is entered with, from the launch arguments: the weights transposed, the bias as a one-row
    matrix, x as it was. -/
theorem xArr0_eq : xArr0 (VE0 m ρ) c = kA0 m ρ c := kW1_arg0 m ρ c
theorem wArr0_eq : wArr0 (VE0 m ρ) c = transpose S128x128 [1, 0] (kA4 m ρ c) transposes_S128x128_S128x128_1_0 := kW1_v0 m ρ c
theorem bArr0_eq : bArr0 (VE0 m ρ) c = shapeCast S1x128 (kA5 m ρ c) shapeCasts_S128_S1x128 := kW1_v1 m ρ c

/-- After region 0 the first result array is y = b + x·w of the arrays the region is entered with. -/
theorem kY1_eq : kY1 m ρ c = y0 (VE0 m ρ) c :=
  (Wexit0_arr m ρ c 3).trans (arrAt0_3_ideal (VE0 m ρ) c)
theorem kS1_eq : kS1 m ρ c = s0 (VE0 m ρ) c :=
  (Wexit0_arr m ρ c 4).trans (arrAt0_4_ideal (VE0 m ρ) c)
theorem kQ1_eq : kQ1 m ρ c = q0 (VE0 m ρ) c :=
  (Wexit0_arr m ρ c 5).trans (arrAt0_5_ideal (VE0 m ρ) c)

/-- y of the entry arrays is the linear layer of the launch arguments. -/
theorem y0_eq_lin : y0 (VE0 m ρ) c = lin (kA0 m ρ c) (kA4 m ρ c) (kA5 m ρ c) := by
  funext i
  unfold y0 lin linE
  rw [bArr0_eq, wArr0_eq, xArr0_eq]
  congr 1
  · exact shapeCast_a_1a_apply _ _ (0 : Fin 1) (i 1)
  · refine Finset.sum_congr rfl fun k _ => ?_
    congr 1
    exact transpose_apply _ _ _ (ix2 k (i 1)) (ix2 (i 1) k) (fun b => match b with | ⟨0, _⟩ => rfl | ⟨1, _⟩ => rfl)

/-- THE FIRST LAYER's output. -/
theorem K_y1 : kY1 m ρ c = lin (kA0 m ρ c) (kA4 m ρ c) (kA5 m ρ c) :=
  (kY1_eq m ρ c).trans (y0_eq_lin m ρ c)

/-- The row of block p of core q, in the two spellings. -/
theorem rowOf0_eq (q : Fin 2) (p : Fin 25) (r : Fin 2000) :
    (rowOf0 q p r : Fin 100000) = Cert.Bridge.rowOf (C := 2) (T := 25) (R := 2000) q p r := Fin.ext rfl

/-- Core q's sum of the first layer's column k. -/
theorem K_s1 (q : Fin 2) (k : Fin 128) :
    kS1 m ρ c (ix3 q (0 : Fin 1) k)
      = ∑ p : Fin 25, ∑ r : Fin 2000, kY1 m ρ c (ix2 (Cert.Bridge.rowOf (C := 2) (T := 25) (R := 2000) q p r) k) := by
  rw [kS1_eq, kY1_eq]
  unfold s0
  refine Finset.sum_congr rfl fun p _ => Finset.sum_congr rfl fun r _ => ?_
  show y0 (VE0 m ρ) c (ix2 (rowOf0 q p r) k) = _
  rw [rowOf0_eq]

/-- Core q's sum of the squares of the first layer's column k. -/
theorem K_q1 (q : Fin 2) (k : Fin 128) :
    kQ1 m ρ c (ix3 q (0 : Fin 1) k)
      = ∑ p : Fin 25, ∑ r : Fin 2000,
          kY1 m ρ c (ix2 (Cert.Bridge.rowOf (C := 2) (T := 25) (R := 2000) q p r) k)
            * kY1 m ρ c (ix2 (Cert.Bridge.rowOf (C := 2) (T := 25) (R := 2000) q p r) k) := by
  rw [kQ1_eq, kY1_eq]
  unfold q0
  refine Finset.sum_congr rfl fun p _ => Finset.sum_congr rfl fun r _ => ?_
  show y0 (VE0 m ρ) c (ix2 (rowOf0 q p r) k) * y0 (VE0 m ρ) c (ix2 (rowOf0 q p r) k) = _
  rw [rowOf0_eq]

end Cert.Val

end
-- ==== Proof.KI.V1.lean ====
/- Region 1 of the kernel program, the values: the three arrays after the region as whole-array functions of
   the arrays the region is entered with — the layer's rows `b + relu(x·scale + shift)·w`, and per core the
   column sums and column sums of squares of its 50000 rows — first over any float family, then at the extended
   reals with every operation the exact one. -/
import proofs.«424088_j28020366639260_2_alg».proof.Proof.KI.R1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)
open scoped BigOperators

variable {F : FTy → Type} [FloatOps F]

variable (V : (c : Dev nD) → (b : Ref sig .tc) → Buf (Elt F) ((c : Thread nD τ).loc b))

/-! ## The arrays the region is entered with, at their literal types -/

abbrev xArr1 (c : Dev nD) : S100000x128.Idx → Elt F .f32 := V c (Pipeline.arrRef spec1 0)
abbrev scaleArr1 (c : Dev nD) : S1x128.Idx → Elt F .f32 := V c (Pipeline.arrRef spec1 1)
abbrev shiftArr1 (c : Dev nD) : S1x128.Idx → Elt F .f32 := V c (Pipeline.arrRef spec1 2)
abbrev wArr1 (c : Dev nD) : S128x128.Idx → Elt F .f32 := V c (Pipeline.arrRef spec1 3)
abbrev bArr1 (c : Dev nD) : S1x128.Idx → Elt F .f32 := V c (Pipeline.arrRef spec1 4)

/-! ## Row blocks of a 100000 × 128 array -/

private theorem offs2 : (![0, 0] : Fin 2 → Nat) = fun _ => 0 := funext fun a => by fin_cases a <;> rfl

/-- Rows `2000 q … 2000 q + 1999` of a 100000 × 128 array, as a 2000 × 128 block. -/
def rowBlock1 (Y : S100000x128.Idx → Elt F .f32) (q : Fin 50) : Vec F S2000x128 .f32 :=
  fun x => Y (ix2 ⟨2000 * q.val + (x 0).val, by have := idx2_lt0 x; have := q.isLt; omega⟩ (x 1))

/-- The layer's rows as one array: at row `r`, the matmul payload of the block of 2000 rows holding `r`, read at
    `r`'s place in the block. -/
def encRows1 (B : Vec F S1x128 .f32) (X : S100000x128.Idx → Elt F .f32) (SC SH : Vec F S1x128 .f32)
    (W : Vec F S128x128 .f32) : S100000x128.Idx → Elt F .f32 := fun i =>
  k1_pay4 B (rowBlock1 X ⟨(i 0).val / 2000, by have := idx2_lt0 i; omega⟩) SC SH W
    (ix2 ⟨(i 0).val % 2000, Nat.mod_lt _ (by decide)⟩ (i 1))

/-- At row `2000 q + j₀`, column `j₁`, the layer's rows are the payload of row block `q` at `(j₀, j₁)`. -/
theorem encRows1_apply_of_block (B : Vec F S1x128 .f32) (X : S100000x128.Idx → Elt F .f32) (SC SH : Vec F S1x128 .f32)
    (W : Vec F S128x128 .f32) (b0 : Vec F S1x128 .f32) (x0 : Vec F S2000x128 .f32) (sc0 sh0 : Vec F S1x128 .f32)
    (w0 : Vec F S128x128 .f32) (q : Fin 50) (hb : b0 = B) (hx : x0 = rowBlock1 X q) (hsc : sc0 = SC) (hsh : sh0 = SH)
    (hw : w0 = W) (j : S2000x128.Idx) (i : S100000x128.Idx)
    (h0 : (i 0).val = 2000 * q.val + (j 0).val) (h1 : (i 1).val = (j 1).val) :
    encRows1 B X SC SH W i = k1_pay4 b0 x0 sc0 sh0 w0 j := by
  have hj0 : (j 0).val < 2000 := idx2_lt0 j
  have eq : (⟨(i 0).val / 2000, by have := idx2_lt0 i; omega⟩ : Fin 50) = q := Fin.ext (by show (i 0).val / 2000 = q.val; omega)
  have ej : (ix2 ⟨(i 0).val % 2000, Nat.mod_lt _ (by decide)⟩ (i 1) : S2000x128.Idx) = j := by
    funext a
    match a with
    | ⟨0, _⟩ => exact Fin.ext (by show (i 0).val % 2000 = (j 0).val; omega)
    | ⟨1, _⟩ => exact Fin.ext h1
  unfold encRows1
  rw [eq, ej, hb, hx, hsc, hsh, hw]

/-! ## The printed index maps -/

/-- At point `t`: the row-block windows are at block `t`; the four small inputs at block 0; the two sum windows
    at the block of core `t / 25`. -/
theorem blockIndex1 : ∀ t : Fin cfg1.N,
    (win1_0.index t (0 : Fin 2) = t.val ∧ win1_0.index t (1 : Fin 2) = 0)
    ∧ (win1_5.index t (0 : Fin 2) = t.val ∧ win1_5.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_6.index t (0 : Fin 3) = t.val / 25 ∧ win1_6.index t (1 : Fin 3) = 0 ∧ win1_6.index t (2 : Fin 3) = 0)
    ∧ (win1_7.index t (0 : Fin 3) = t.val / 25 ∧ win1_7.index t (1 : Fin 3) = 0 ∧ win1_7.index t (2 : Fin 3) = 0) :=
  (by decide +kernel : ∀ t : Fin grid1.N, _)

theorem N1_eq : cfg1.N = 50 := N_1

/-- A grid point is below 50. -/
theorem pt1_lt (t : Fin cfg1.N) : t.val < 50 := Nat.lt_of_lt_of_le t.isLt (Nat.le_of_eq N1_eq)

/-- The block of `x` at point `t` is row block `t` of the array the region is entered with. -/
theorem iblk1_0_eq_rowBlock (c : Dev nD) (t : Fin cfg1.N) :
    (iblk1 V c 0 t : Vec F S2000x128 .f32) = rowBlock1 (xArr1 V c) ⟨t.val, pt1_lt t⟩ := by
  obtain ⟨e0, e1⟩ := (blockIndex1 t).1
  funext x
  unfold iblk1 rowBlock1
  rw [View.read_apply]
  show (V c (Pipeline.arrRef spec1 0) : S100000x128.Idx → Elt F .f32) _ = (V c (Pipeline.arrRef spec1 0) : S100000x128.Idx → Elt F .f32) _
  congr 1
  funext a
  apply Fin.ext
  match a with
  | ⟨0, _⟩ => show win1_0.index t (0 : Fin 2) * 2000 + 1 * (x 0).val = 2000 * t.val + (x 0).val; rw [e0]; omega
  | ⟨1, _⟩ => show win1_0.index t (1 : Fin 2) * 128 + 1 * (x 1).val = (x 1).val; rw [e1]; omega

/-- Window 1's block is its whole array at every point. -/
theorem iblk1_1_eq_arr (c : Dev nD) (t : Fin cfg1.N) :
    (iblk1 V c 1 t : Vec F S1x128 .f32) = (V c (Pipeline.arrRef spec1 1) : S1x128.Idx → Elt F .f32) := by
  obtain ⟨e0, e1⟩ := (blockIndex1 t).2.2.1
  funext x
  unfold iblk1
  rw [View.read_apply]
  show (V c (Pipeline.arrRef spec1 1) : S1x128.Idx → Elt F .f32) _ = (V c (Pipeline.arrRef spec1 1) : S1x128.Idx → Elt F .f32) _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- Window 2's block is its whole array at every point. -/
theorem iblk1_2_eq_arr (c : Dev nD) (t : Fin cfg1.N) :
    (iblk1 V c 2 t : Vec F S1x128 .f32) = (V c (Pipeline.arrRef spec1 2) : S1x128.Idx → Elt F .f32) := by
  obtain ⟨e0, e1⟩ := (blockIndex1 t).2.2.2.1
  funext x
  unfold iblk1
  rw [View.read_apply]
  show (V c (Pipeline.arrRef spec1 2) : S1x128.Idx → Elt F .f32) _ = (V c (Pipeline.arrRef spec1 2) : S1x128.Idx → Elt F .f32) _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- Window 3's block is its whole array at every point. -/
theorem iblk1_3_eq_arr (c : Dev nD) (t : Fin cfg1.N) :
    (iblk1 V c 3 t : Vec F S128x128 .f32) = (V c (Pipeline.arrRef spec1 3) : S128x128.Idx → Elt F .f32) := by
  obtain ⟨e0, e1⟩ := (blockIndex1 t).2.2.2.2.1
  funext x
  unfold iblk1
  rw [View.read_apply]
  show (V c (Pipeline.arrRef spec1 3) : S128x128.Idx → Elt F .f32) _ = (V c (Pipeline.arrRef spec1 3) : S128x128.Idx → Elt F .f32) _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- Window 4's block is its whole array at every point. -/
theorem iblk1_4_eq_arr (c : Dev nD) (t : Fin cfg1.N) :
    (iblk1 V c 4 t : Vec F S1x128 .f32) = (V c (Pipeline.arrRef spec1 4) : S1x128.Idx → Elt F .f32) := by
  obtain ⟨e0, e1⟩ := (blockIndex1 t).2.2.2.2.2.1
  funext x
  unfold iblk1
  rw [View.read_apply]
  show (V c (Pipeline.arrRef spec1 4) : S1x128.Idx → Elt F .f32) _ = (V c (Pipeline.arrRef spec1 4) : S1x128.Idx → Elt F .f32) _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-! ## The rows: what each point writes back, and the cover -/

/-- The layer's rows over the arrays the region is entered with. -/
abbrev yArr1 (c : Dev nD) : S100000x128.Idx → Elt F .f32 :=
  encRows1 (bArr1 V c) (xArr1 V c) (scaleArr1 V c) (shiftArr1 V c) (wArr1 V c)

/-- The row block the body leaves at point `t`, entry by entry, is the layer's rows at the block's place. -/
theorem out1_5_apply (c : Dev nD) (t : Fin cfg1.N) (j : S2000x128.Idx) (i : S100000x128.Idx)
    (h0 : (i 0).val = 2000 * t.val + (j 0).val) (h1 : (i 1).val = (j 1).val) :
    out1_5 V c t j = yArr1 V c i :=
  (encRows1_apply_of_block _ _ _ _ _ _ _ _ _ _ ⟨t.val, pt1_lt t⟩ (iblk1_4_eq_arr V c t) (iblk1_0_eq_rowBlock V c t)
    (iblk1_1_eq_arr V c t) (iblk1_2_eq_arr V c t) (iblk1_3_eq_arr V c t) j i h0 h1).symm

/-- Point `t` writes back block `t` of the layer's rows. -/
theorem flushed1_5_eq (c : Dev nD) (t : Fin cfg1.N) :
    (dat1 V c).flushed 5 t = ((cfg1.win 5).blk t).view.read (Elt F) (yArr1 V c) := by
  show (cfg1.win 5).cut (grid1.coords t) ((dat1 V c).after 5 t) = _
  rw [after1_5]
  obtain ⟨e0, e1⟩ := (blockIndex1 t).2.1
  funext j
  show out1_5 V c t j = yArr1 V c (((cfg1.win 5).blk t).view.emb j)
  refine out1_5_apply V c t j _ ?_ ?_
  · show win1_5.index t (0 : Fin 2) * 2000 + 1 * (j 0).val = 2000 * t.val + (j 0).val; rw [e0]; omega
  · show win1_5.index t (1 : Fin 2) * 128 + 1 * (j 1).val = (j 1).val; rw [e1]; omega

/-- An index of the rows' array is in point `t`'s block iff each coordinate is in the block's range. -/
theorem mem_blk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v25_0).slice (win1_5.rect t)).set ↔ _
  rw [View.set_slice_whole, Rect.mem_set_unit]
  exact Iff.rfl

/-- Row `r` is written back by point `r / 2000`. -/
theorem covered1_5 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  let t : Fin cfg1.N := ⟨(i 0).val / 2000, by rw [N1_eq]; omega⟩
  obtain ⟨e0, e1⟩ := (blockIndex1 t).2.1
  have ht : t.val = (i 0).val / 2000 := rfl
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 128 ≤ (i 1).val ∧ (i 1).val < win1_5.index t (1 : Fin 2) * 128 + 128; rw [e1]; omega

/-- After the region the rows' array holds the layer's rows of the arrays it was entered with. -/
theorem arrAt1_5 (c : Dev nD) : (dat1 V c).arrAt 5 cfg1.N = fun i => yArr1 V c i :=
  (dat1 V c).arrAt_eq_of_cover 5 (yArr1 V c) (fun t _ => flushed1_5_eq V c t) covered1_5

/-! ## The column sums: what a core's last point writes back, and the cover -/

/-- The same point under two names has the same running column sums. -/
theorem sums1_6_eq_of (c : Dev nD) {n n' : ℕ} (h : n < cfg1.N) (h' : n' < cfg1.N) (e : n = n')
    {j j' : S1x1x128.Idx} (ej : j = j') : sums1_6 V c n h j = sums1_6 V c n' h' j' := by
  subst e ej; rfl

/-- The column sums per core as one array: at core `q`, the running column sums after the last point `25 q + 24` of
    the core's run. -/
def colSums1 (c : Dev nD) : S2x1x128.Idx → Elt F .f32 := fun i =>
  sums1_6 V c (25 * (i 0).val + 24) (by have h : (i 0).val < 2 := (i 0).isLt; rw [N1_eq]; omega)
    (ix3 (n0 := 1) (n1 := 1) (n2 := 128) 0 0 (i 2))

/-- A write-back point of the column sums writes back its core's block of that array. -/
theorem flushed1_6_eq (c : Dev nD) (t : Fin cfg1.N) (hf : (cfg1.win 6).flush t = true) :
    (dat1 V c).flushed 6 t = ((cfg1.win 6).blk t).view.read (Elt F) (colSums1 V c) := by
  have h24 : t.val % 25 = 24 := (flush1_6 t).mp hf
  show (cfg1.win 6).cut (grid1.coords t) ((dat1 V c).after 6 t) = _
  rw [after1_6]
  obtain ⟨e0, e1, e2⟩ := (blockIndex1 t).2.2.2.2.2.2.1
  funext j
  have hj0 : (j 0).val < 1 := (j 0).isLt
  have hj1 : (j 1).val < 1 := (j 1).isLt
  show sums1_6 V c t.val t.isLt j = colSums1 V c (((cfg1.win 6).blk t).view.emb j)
  unfold colSums1
  refine sums1_6_eq_of V c _ _ ?_ ?_
  · show t.val = 25 * (win1_6.index t (0 : Fin 3) * 1 + 1 * (j 0).val) + 24
    rw [e0]; omega
  · funext a
    apply Fin.ext
    match a with
    | ⟨0, _⟩ => show (j 0).val = 0; omega
    | ⟨1, _⟩ => show (j 1).val = 0; omega
    | ⟨2, _⟩ => show (j 2).val = win1_6.index t (2 : Fin 3) * 128 + 1 * (j 2).val; rw [e2]; omega

/-- An index of the column sums' array is in point `t`'s block iff each coordinate is in the block's range. -/
theorem mem_blk1_6 (t : Fin cfg1.N) (i : S2x1x128.Idx) :
    i ∈ ((cfg1.win 6).blk t).view.set ↔ ∀ a : Fin 3, win1_6.index t a * S1x1x128.size a ≤ (i a).val ∧ (i a).val < win1_6.index t a * S1x1x128.size a + S1x1x128.size a := by
  show i ∈ ((View.whole main_v25_1).slice (win1_6.rect t)).set ↔ _
  rw [View.set_slice_whole, Rect.mem_set_unit]
  exact Iff.rfl

/-- Core `q`'s block is written back by point `25 q + 24`. -/
theorem covered1_6 (i : S2x1x128.Idx) :
    ∃ t : Fin cfg1.N, (cfg1.win 6).flush t = true ∧ i ∈ ((cfg1.win 6).blk t).view.set := by
  have hi0 : (i 0).val < 2 := (i 0).isLt
  have hi1 : (i 1).val < 1 := (i 1).isLt
  have hi2 : (i 2).val < 128 := (i 2).isLt
  let t : Fin cfg1.N := ⟨25 * (i 0).val + 24, by rw [N1_eq]; omega⟩
  obtain ⟨e0, e1, e2⟩ := (blockIndex1 t).2.2.2.2.2.2.1
  have ht : t.val = 25 * (i 0).val + 24 := rfl
  refine ⟨t, (flush1_6 t).mpr (by rw [ht]; omega), ?_⟩
  rw [mem_blk1_6]
  intro a
  match a with
  | ⟨0, _⟩ => show win1_6.index t (0 : Fin 3) * 1 ≤ (i 0).val ∧ (i 0).val < win1_6.index t (0 : Fin 3) * 1 + 1; rw [e0, ht]; omega
  | ⟨1, _⟩ => show win1_6.index t (1 : Fin 3) * 1 ≤ (i 1).val ∧ (i 1).val < win1_6.index t (1 : Fin 3) * 1 + 1; rw [e1]; omega
  | ⟨2, _⟩ => show win1_6.index t (2 : Fin 3) * 128 ≤ (i 2).val ∧ (i 2).val < win1_6.index t (2 : Fin 3) * 128 + 128; rw [e2]; omega

/-- After the region the column sums' array holds, per core, the running column sums after the core's last point. -/
theorem arrAt1_6 (c : Dev nD) : (dat1 V c).arrAt 6 cfg1.N = fun i => colSums1 V c i :=
  (dat1 V c).arrAt_eq_of_cover 6 (colSums1 V c) (flushed1_6_eq V c) covered1_6

/-! ## The sums of squares: what a core's last point writes back, and the cover -/

/-- The same point under two names has the same running sums of squares. -/
theorem sums1_7_eq_of (c : Dev nD) {n n' : ℕ} (h : n < cfg1.N) (h' : n' < cfg1.N) (e : n = n')
    {j j' : S1x1x128.Idx} (ej : j = j') : sums1_7 V c n h j = sums1_7 V c n' h' j' := by
  subst e ej; rfl

/-- The sums of squares per core as one array: at core `q`, the running sums of squares after the last point `25 q + 24` of
    the core's run. -/
def sqSums1 (c : Dev nD) : S2x1x128.Idx → Elt F .f32 := fun i =>
  sums1_7 V c (25 * (i 0).val + 24) (by have h : (i 0).val < 2 := (i 0).isLt; rw [N1_eq]; omega)
    (ix3 (n0 := 1) (n1 := 1) (n2 := 128) 0 0 (i 2))

/-- A write-back point of the sums of squares writes back its core's block of that array. -/
theorem flushed1_7_eq (c : Dev nD) (t : Fin cfg1.N) (hf : (cfg1.win 7).flush t = true) :
    (dat1 V c).flushed 7 t = ((cfg1.win 7).blk t).view.read (Elt F) (sqSums1 V c) := by
  have h24 : t.val % 25 = 24 := (flush1_7 t).mp hf
  show (cfg1.win 7).cut (grid1.coords t) ((dat1 V c).after 7 t) = _
  rw [after1_7]
  obtain ⟨e0, e1, e2⟩ := (blockIndex1 t).2.2.2.2.2.2.2
  funext j
  have hj0 : (j 0).val < 1 := (j 0).isLt
  have hj1 : (j 1).val < 1 := (j 1).isLt
  show sums1_7 V c t.val t.isLt j = sqSums1 V c (((cfg1.win 7).blk t).view.emb j)
  unfold sqSums1
  refine sums1_7_eq_of V c _ _ ?_ ?_
  · show t.val = 25 * (win1_7.index t (0 : Fin 3) * 1 + 1 * (j 0).val) + 24
    rw [e0]; omega
  · funext a
    apply Fin.ext
    match a with
    | ⟨0, _⟩ => show (j 0).val = 0; omega
    | ⟨1, _⟩ => show (j 1).val = 0; omega
    | ⟨2, _⟩ => show (j 2).val = win1_7.index t (2 : Fin 3) * 128 + 1 * (j 2).val; rw [e2]; omega

/-- An index of the sums of squares' array is in point `t`'s block iff each coordinate is in the block's range. -/
theorem mem_blk1_7 (t : Fin cfg1.N) (i : S2x1x128.Idx) :
    i ∈ ((cfg1.win 7).blk t).view.set ↔ ∀ a : Fin 3, win1_7.index t a * S1x1x128.size a ≤ (i a).val ∧ (i a).val < win1_7.index t a * S1x1x128.size a + S1x1x128.size a := by
  show i ∈ ((View.whole main_v25_2).slice (win1_7.rect t)).set ↔ _
  rw [View.set_slice_whole, Rect.mem_set_unit]
  exact Iff.rfl

/-- Core `q`'s block is written back by point `25 q + 24`. -/
theorem covered1_7 (i : S2x1x128.Idx) :
    ∃ t : Fin cfg1.N, (cfg1.win 7).flush t = true ∧ i ∈ ((cfg1.win 7).blk t).view.set := by
  have hi0 : (i 0).val < 2 := (i 0).isLt
  have hi1 : (i 1).val < 1 := (i 1).isLt
  have hi2 : (i 2).val < 128 := (i 2).isLt
  let t : Fin cfg1.N := ⟨25 * (i 0).val + 24, by rw [N1_eq]; omega⟩
  obtain ⟨e0, e1, e2⟩ := (blockIndex1 t).2.2.2.2.2.2.2
  have ht : t.val = 25 * (i 0).val + 24 := rfl
  refine ⟨t, (flush1_7 t).mpr (by rw [ht]; omega), ?_⟩
  rw [mem_blk1_7]
  intro a
  match a with
  | ⟨0, _⟩ => show win1_7.index t (0 : Fin 3) * 1 ≤ (i 0).val ∧ (i 0).val < win1_7.index t (0 : Fin 3) * 1 + 1; rw [e0, ht]; omega
  | ⟨1, _⟩ => show win1_7.index t (1 : Fin 3) * 1 ≤ (i 1).val ∧ (i 1).val < win1_7.index t (1 : Fin 3) * 1 + 1; rw [e1]; omega
  | ⟨2, _⟩ => show win1_7.index t (2 : Fin 3) * 128 ≤ (i 2).val ∧ (i 2).val < win1_7.index t (2 : Fin 3) * 128 + 128; rw [e2]; omega

/-- After the region the sums of squares' array holds, per core, the running sums of squares after the core's last point. -/
theorem arrAt1_7 (c : Dev nD) : (dat1 V c).arrAt 7 cfg1.N = fun i => sqSums1 V c i :=
  (dat1 V c).arrAt_eq_of_cover 7 (sqSums1 V c) (flushed1_7_eq V c) covered1_7

/-! ## At the extended reals: the matmul read at an index -/

/-- The left operand's index for output `j` and contraction `k`: row `j₀`, -/
theorem encLhs1_0 (j : S2000x128.Idx) (k : dot_S2000x128_S128x128_S2000x128_1_0_0_1_n_n.contr.Idx) :
    ((dot_S2000x128_S128x128_S2000x128_1_0_0_1_n_n.lhsIdx j k) 0).val = (j 0).val := by
  simp [DotDims.lhsIdx, dot_S2000x128_S128x128_S2000x128_1_0_0_1_n_n]; rfl
/-- column `k`. -/
theorem encLhs1_1 (j : S2000x128.Idx) (k : dot_S2000x128_S128x128_S2000x128_1_0_0_1_n_n.contr.Idx) :
    ((dot_S2000x128_S128x128_S2000x128_1_0_0_1_n_n.lhsIdx j k) 1).val = (k ⟨0, Nat.one_pos⟩).val :=
  DotDims.lhsIdx_val_of_single (d := dot_S2000x128_S128x128_S2000x128_1_0_0_1_n_n) (cl := 1) rfl j k
/-- The right operand's: row `k`, -/
theorem encRhs1_0 (j : S2000x128.Idx) (k : dot_S2000x128_S128x128_S2000x128_1_0_0_1_n_n.contr.Idx) :
    ((dot_S2000x128_S128x128_S2000x128_1_0_0_1_n_n.rhsIdx j k) 0).val = (k ⟨0, Nat.one_pos⟩).val :=
  DotDims.rhsIdx_val_of_single (d := dot_S2000x128_S128x128_S2000x128_1_0_0_1_n_n) (cr := 0) rfl j k
/-- column `j₁`. -/
theorem encRhs1_1 (j : S2000x128.Idx) (k : dot_S2000x128_S128x128_S2000x128_1_0_0_1_n_n.contr.Idx) :
    ((dot_S2000x128_S128x128_S2000x128_1_0_0_1_n_n.rhsIdx j k) 1).val = (j 1).val := by
  simp [DotDims.rhsIdx, dot_S2000x128_S128x128_S2000x128_1_0_0_1_n_n]; rfl

/-- The 2000 × 128 by 128 × 128 product into a zero accumulator, at the extended reals, is the finite sum over the
    128 contracted coordinates of the products of the entries. -/
theorem encMatmul1_apply (A : FVec Ideal S2000x128 .bf16) (Bm : FVec Ideal S128x128 .bf16) (r : Fin 2000) (l : Fin 128) :
    matmul (F := Ideal) dot_S2000x128_S128x128_S2000x128_1_0_0_1_n_n none A Bm (constant S2000x128 .f32 0x00000000#32) (ix2 r l)
      = ∑ k : Fin 128, A (ix2 r k) * Bm (ix2 k l) := by
  show FloatOps.matmul dot_S2000x128_S128x128_S2000x128_1_0_0_1_n_n none A Bm _ (ix2 r l) = _
  rw [Ideal.matmul_constant_zero_apply, ← Equiv.sum_comp (contrEquiv1 dot_S2000x128_S128x128_S2000x128_1_0_0_1_n_n 128 rfl rfl).symm]
  refine Finset.sum_congr rfl fun k _ => ?_
  have c2 := contrEquiv1_symm_val dot_S2000x128_S128x128_S2000x128_1_0_0_1_n_n 128 rfl rfl k
  have l2 : dot_S2000x128_S128x128_S2000x128_1_0_0_1_n_n.lhsIdx (ix2 r l) ((contrEquiv1 dot_S2000x128_S128x128_S2000x128_1_0_0_1_n_n 128 rfl rfl).symm k) = ix2 r k := by
    funext ax; apply Fin.ext
    match ax with
    | ⟨0, _⟩ => exact encLhs1_0 _ _
    | ⟨1, _⟩ => exact (encLhs1_1 _ _).trans c2
  have r2 : dot_S2000x128_S128x128_S2000x128_1_0_0_1_n_n.rhsIdx (ix2 r l) ((contrEquiv1 dot_S2000x128_S128x128_S2000x128_1_0_0_1_n_n 128 rfl rfl).symm k) = ix2 k l := by
    funext ax; apply Fin.ext
    match ax with
    | ⟨0, _⟩ => exact (encRhs1_0 _ _).trans c2
    | ⟨1, _⟩ => exact encRhs1_1 _ _
  rw [l2, r2]

/-- The layer's row entry at the extended reals: `b(0, l) + ∑ₖ max (x(r, k)·scale(0, k) + shift(0, k)) 0 · w(k, l)`,
    for arrays of any number of rows `n`. -/
def encAt1 {n : ℕ} (B : (⟨2, ![1, 128]⟩ : Shape).Idx → EReal) (X : (⟨2, ![n, 128]⟩ : Shape).Idx → EReal)
    (SC SH : (⟨2, ![1, 128]⟩ : Shape).Idx → EReal) (W : (⟨2, ![128, 128]⟩ : Shape).Idx → EReal) (r : Fin n) (l : Fin 128) : EReal :=
  B (ix2 (0 : Fin 1) l)
    + ∑ k : Fin 128, max (X (ix2 r k) * SC (ix2 (0 : Fin 1) k) + SH (ix2 (0 : Fin 1) k)) 0 * W (ix2 k l)

/-- At the extended reals the matmul payload at `(r, l)` is that entry of the block. -/
theorem k1_pay4_ideal_apply (v3 : Vec Ideal S1x128 .f32) (v5 : Vec Ideal S2000x128 .f32) (v7 v11 : Vec Ideal S1x128 .f32)
    (v18 : Vec Ideal S128x128 .f32) (r : Fin 2000) (l : Fin 128) :
    k1_pay4 (F := Ideal) v3 v5 v7 v11 v18 (ix2 r l) = encAt1 v3 v5 v7 v11 v18 r l := by
  unfold k1_pay4 encAt1
  simp only [shapeCast_self]
  rw [addf_apply]
  refine congrArg₂ (· + ·) ?_ ?_
  · exact broadcastTo_apply _ _ (ix2 r l) (ix2 (0 : Fin 1) l) (fun a => by
      match a with
      | ⟨0, _⟩ => rfl
      | ⟨1, _⟩ => rfl)
  · refine (encMatmul1_apply _ _ r l).trans ?_
    refine Finset.sum_congr rfl fun k _ => ?_
    rw [truncf_apply, truncf_apply, maximumf_apply, addf_apply, mulf_apply, broadcast_apply]
    rw [broadcastTo_apply v7 _ (ix2 r k) (ix2 (0 : Fin 1) k) (fun a => by
      match a with
      | ⟨0, _⟩ => rfl
      | ⟨1, _⟩ => rfl),
      broadcastTo_apply v11 _ (ix2 r k) (ix2 (0 : Fin 1) k) (fun a => by
      match a with
      | ⟨0, _⟩ => rfl
      | ⟨1, _⟩ => rfl)]
    show max _ (Ideal.ofBits .f32 0x00000000#32) * _ = _
    rw [Ideal.ofBits_zero_f32]

/-! ## At the extended reals: the rows' array -/

/-- A row block read at an index is the array at the row shifted by the block's first row. -/
theorem rowBlock1_apply (Y : S100000x128.Idx → Elt F .f32) (q : Fin 50) (x : S2000x128.Idx) (k : S100000x128.Idx)
    (h0 : (k 0).val = 2000 * q.val + (x 0).val) (h1 : (k 1).val = (x 1).val) : rowBlock1 Y q x = Y k := by
  unfold rowBlock1
  congr 1
  funext a
  match a with
  | ⟨0, _⟩ => exact Fin.ext h0.symm
  | ⟨1, _⟩ => exact Fin.ext h1.symm

/-- The layer's rows at the extended reals, entry by entry. -/
theorem encRows1_ideal_apply (B : Vec Ideal S1x128 .f32) (X : S100000x128.Idx → Elt Ideal .f32) (SC SH : Vec Ideal S1x128 .f32)
    (W : Vec Ideal S128x128 .f32) (r : Fin 100000) (l : Fin 128) :
    encRows1 (F := Ideal) B X SC SH W (ix2 r l) = encAt1 B X SC SH W r l := by
  have hr : r.val < 100000 := r.isLt
  unfold encRows1
  show k1_pay4 (F := Ideal) B (rowBlock1 X ⟨r.val / 2000, by omega⟩) SC SH W (ix2 (⟨r.val % 2000, Nat.mod_lt _ (by decide)⟩ : Fin 2000) l) = _
  rw [k1_pay4_ideal_apply]
  unfold encAt1
  refine congrArg (fun z => B (ix2 (0 : Fin 1) l) + z) ?_
  refine Finset.sum_congr rfl fun k _ => ?_
  rw [rowBlock1_apply X _ _ (ix2 r k) (by show r.val = 2000 * (r.val / 2000) + r.val % 2000; omega) rfl]

variable (VI : (c : Dev nD) → (b : Ref sig .tc) → Buf (Elt Ideal) ((c : Thread nD τ).loc b))

/-- The layer's row entry over the arrays the region is entered with. -/
abbrev yAt1 (c : Dev nD) (r : Fin 100000) (l : Fin 128) : EReal :=
  encAt1 (bArr1 VI c) (xArr1 VI c) (scaleArr1 VI c) (shiftArr1 VI c) (wArr1 VI c) r l

theorem yArr1_ideal_apply (c : Dev nD) (r : Fin 100000) (l : Fin 128) : yArr1 (F := Ideal) VI c (ix2 r l) = yAt1 VI c r l :=
  encRows1_ideal_apply _ _ _ _ _ r l

/-- After the region, at the extended reals, the rows' array holds at `(r, l)`
    `b(0, l) + ∑ₖ max (x(r, k)·scale(0, k) + shift(0, k)) 0 · w(k, l)`. -/
theorem arrAt1_5_ideal (c : Dev nD) :
    (dat1 (F := Ideal) VI c).arrAt 5 cfg1.N = fun i => yAt1 VI c ⟨(i 0).val, idx2_lt0 i⟩ ⟨(i 1).val, idx2_lt1 i⟩ := by
  rw [arrAt1_5]
  funext i
  obtain ⟨r, l, rfl⟩ : ∃ (r : Fin 100000) (l : Fin 128), i = ix2 r l := ⟨i 0, i 1, eq_ix2 i⟩
  exact yArr1_ideal_apply VI c r l

/-! ## At the extended reals: the two accumulators -/

/-- The row of the 100000 that is row `r` of block `p` of core `q`. -/
def rowOf1 (q : Fin 2) (p : Fin 25) (r : Fin 2000) : Fin 100000 :=
  ⟨(q.val * 25 + p.val) * 2000 + r.val, by have := q.isLt; have := p.isLt; have := r.isLt; omega⟩

@[simp] theorem rowOf1_val (q : Fin 2) (p : Fin 25) (r : Fin 2000) : (rowOf1 q p r).val = (q.val * 25 + p.val) * 2000 + r.val := rfl

/-- The zero row the restart stores reads zero. -/
theorem k1_pay2_ideal_apply (j : S1x1x128.Idx) : k1_pay2 (F := Ideal) j = 0 := by
  unfold k1_pay2
  show Ideal.ofBits .f32 0x00000000#32 = 0
  exact Ideal.ofBits_zero_f32
theorem k1_pay3_ideal_apply (j : S1x1x128.Idx) : k1_pay3 (F := Ideal) j = 0 := by
  unfold k1_pay3
  show Ideal.ofBits .f32 0x00000000#32 = 0
  exact Ideal.ofBits_zero_f32

/-- The column sums of a 2000 × 128 block, recast to a 1 × 1 × 128 row, at column `l`: the finite sum over the rows. -/
theorem colSumRow1_ideal_apply (Y : FVec Ideal S2000x128 .f32) (hφ : FKind.Formats .f32)
    (hacc : (0x00000000#32 : BitVec 32) = FKind.add.neutral .f32 hφ) (h1 : S128.ShapeCasts S1x128) (h2 : S1x128.ShapeCasts S1x1x128) (l : Fin 128) :
    shapeCast S1x1x128 (shapeCast S1x128 (multiReduction (F := Ideal) .add [0] S128 Y 0x00000000#32 reduces_S2000x128_S128 hφ hacc) h1) h2
        (ix3 (0 : Fin 1) (0 : Fin 1) l)
      = ∑ r : Fin 2000, Y (ix2 r l) := by
  refine (shapeCast_apply _ _ (ix3 (0 : Fin 1) (0 : Fin 1) l) (ix2 (0 : Fin 1) l) (by
    rw [Shape.rowMajor_val_two, Shape.rowMajor_val_three]; simp)).trans ?_
  refine (shapeCast_apply _ _ (ix2 (0 : Fin 1) l) (ix1 l) (by
    rw [Shape.rowMajor_val_one, Shape.rowMajor_val_two]; simp)).trans ?_
  rw [Ideal.multiReduction_add_single]
  refine Finset.sum_congr rfl fun r _ => ?_
  have e : reduces_S2000x128_S128.lift (ix1 l) r = ix2 r l := by
    funext a
    match a with
    | ⟨0, _⟩ => rfl
    | ⟨1, _⟩ => rfl
  rw [e]
  rfl

/-- One step of the column sums at the extended reals: the block's column sums added to what came before. -/
theorem acc1_6_ideal_apply (c : Dev nD) (t : Fin cfg1.N) (prev : Vec Ideal S1x1x128 .f32) (l : Fin 128) :
    acc1_6 (F := Ideal) VI c t prev (ix3 (0 : Fin 1) (0 : Fin 1) l)
      = prev (ix3 (0 : Fin 1) (0 : Fin 1) l) + ∑ r : Fin 2000, out1_5 (F := Ideal) VI c t (ix2 r l) := by
  unfold acc1_6 k1_pay6 out1_5
  simp only [shapeCast_self]
  rw [addf_apply]
  refine congrArg (fun z => prev (ix3 (0 : Fin 1) (0 : Fin 1) l) + z) ?_
  exact colSumRow1_ideal_apply _ _ _ _ _ l

/-- One step of the sums of squares at the extended reals. -/
theorem acc1_7_ideal_apply (c : Dev nD) (t : Fin cfg1.N) (prev : Vec Ideal S1x1x128 .f32) (l : Fin 128) :
    acc1_7 (F := Ideal) VI c t prev (ix3 (0 : Fin 1) (0 : Fin 1) l)
      = prev (ix3 (0 : Fin 1) (0 : Fin 1) l)
        + ∑ r : Fin 2000, out1_5 (F := Ideal) VI c t (ix2 r l) * out1_5 (F := Ideal) VI c t (ix2 r l) := by
  unfold acc1_7 k1_pay1 k1_pay5 out1_5
  simp only [shapeCast_self]
  rw [addf_apply]
  refine congrArg (fun z => prev (ix3 (0 : Fin 1) (0 : Fin 1) l) + z) ?_
  refine (colSumRow1_ideal_apply _ _ _ _ _ l).trans ?_
  rfl

/-- Point `n`'s addend to the column sums, at column `l` (zero past the grid). -/
def blkColSum1 (c : Dev nD) (n : ℕ) (l : Fin 128) : EReal :=
  if h : n < cfg1.N then ∑ r : Fin 2000, out1_5 (F := Ideal) VI c ⟨n, h⟩ (ix2 r l) else 0

/-- Within a core's run of 25 points the running column sums after the run's point `s` are the sum of the addends of
    points `0 … s` of the run: by induction on `s`. -/
theorem sums1_6_ideal_run (c : Dev nD) (q : ℕ) (l : Fin 128) : ∀ (s : ℕ) (hs : s < 25) (h : 25 * q + s < cfg1.N),
    sums1_6 (F := Ideal) VI c (25 * q + s) h (ix3 (0 : Fin 1) (0 : Fin 1) l)
      = ∑ p ∈ Finset.range (s + 1), blkColSum1 VI c (25 * q + p) l
  | 0, _, h =>
    (congrFun (sums1_6_A (F := Ideal) VI c ⟨25 * q + 0, h⟩ (by show (25 * q + 0) % 25 = 0; omega)) _).trans (by
      rw [acc1_6_ideal_apply, k1_pay2_ideal_apply, zero_add]
      show _ = ∑ p ∈ Finset.range 1, blkColSum1 VI c (25 * q + p) l
      rw [Finset.sum_range_one]
      unfold blkColSum1; rw [dif_pos h])
  | s + 1, hs, h =>
    (congrFun (sums1_6_B (F := Ideal) VI c ⟨25 * q + (s + 1), h⟩ (by show ¬(25 * q + (s + 1)) % 25 = 0; omega)) _).trans (by
      rw [acc1_6_ideal_apply]
      rw [sums1_6_eq_of (F := Ideal) VI c _ (Nat.lt_of_succ_lt h : 25 * q + s < cfg1.N)
        (show (⟨25 * q + (s + 1), h⟩ : Fin cfg1.N).val - 1 = 25 * q + s by show 25 * q + (s + 1) - 1 = 25 * q + s; omega) rfl]
      rw [sums1_6_ideal_run c q l s (by omega) _, Finset.sum_range_succ _ (s + 1)]
      refine congrArg (fun z => (∑ p ∈ Finset.range (s + 1), blkColSum1 VI c (25 * q + p) l) + z) ?_
      unfold blkColSum1; rw [dif_pos h])

/-- A core's column sums at the extended reals: the sum, over the core's 25 blocks and each block's 2000 rows, of
    the layer's row entries. -/
theorem colSums1_ideal_apply (c : Dev nD) (q : Fin 2) (l : Fin 128) :
    colSums1 (F := Ideal) VI c (ix3 q (0 : Fin 1) l)
      = ∑ p : Fin 25, ∑ r : Fin 2000, yAt1 VI c (rowOf1 q p r) l := by
  have hq : q.val < 2 := q.isLt
  unfold colSums1
  show sums1_6 (F := Ideal) VI c (25 * q.val + 24) _ (ix3 (0 : Fin 1) (0 : Fin 1) l) = _
  refine (sums1_6_ideal_run VI c q.val l 24 (by omega) _).trans ?_
  show ∑ p ∈ Finset.range 25, blkColSum1 VI c (25 * q.val + p) l = _
  rw [Finset.sum_range]
  refine Finset.sum_congr rfl fun p _ => ?_
  have hp : 25 * q.val + p.val < cfg1.N := by rw [N1_eq]; have := p.isLt; omega
  unfold blkColSum1; rw [dif_pos hp]
  refine Finset.sum_congr rfl fun r _ => ?_
  have e : out1_5 (F := Ideal) VI c ⟨25 * q.val + p.val, hp⟩ (ix2 r l) = yAt1 VI c (rowOf1 q p r) l :=
    (out1_5_apply (F := Ideal) VI c ⟨25 * q.val + p.val, hp⟩ (ix2 r l) (ix2 (rowOf1 q p r) l)
      (by show (q.val * 25 + p.val) * 2000 + r.val = 2000 * (25 * q.val + p.val) + r.val; omega) rfl).trans
      (yArr1_ideal_apply VI c _ l)
  rw [e]

/-- After the region, at the extended reals, the column sums' array holds, at core `q` and column `l`, that sum. -/
theorem arrAt1_6_ideal (c : Dev nD) :
    (dat1 (F := Ideal) VI c).arrAt 6 cfg1.N = fun i =>
      ∑ p : Fin 25, ∑ r : Fin 2000, yAt1 VI c (rowOf1 ⟨(i 0).val, (i 0).isLt⟩ p r) ⟨(i 2).val, (i 2).isLt⟩ := by
  rw [arrAt1_6]
  funext i
  obtain ⟨q, z, l, rfl⟩ : ∃ (q : Fin 2) (z : Fin 1) (l : Fin 128), i = ix3 q z l := ⟨i 0, i 1, i 2, eq_ix3 i⟩
  obtain rfl : z = 0 := Fin.ext (by have := z.isLt; omega)
  exact colSums1_ideal_apply VI c q l

/-- Point `n`'s addend to the sums of squares, at column `l` (zero past the grid). -/
def blkSqSum1 (c : Dev nD) (n : ℕ) (l : Fin 128) : EReal :=
  if h : n < cfg1.N then ∑ r : Fin 2000, out1_5 (F := Ideal) VI c ⟨n, h⟩ (ix2 r l) * out1_5 (F := Ideal) VI c ⟨n, h⟩ (ix2 r l) else 0

/-- Within a core's run of 25 points the running sums of squares after the run's point `s` are the sum of the addends of
    points `0 … s` of the run: by induction on `s`. -/
theorem sums1_7_ideal_run (c : Dev nD) (q : ℕ) (l : Fin 128) : ∀ (s : ℕ) (hs : s < 25) (h : 25 * q + s < cfg1.N),
    sums1_7 (F := Ideal) VI c (25 * q + s) h (ix3 (0 : Fin 1) (0 : Fin 1) l)
      = ∑ p ∈ Finset.range (s + 1), blkSqSum1 VI c (25 * q + p) l
  | 0, _, h =>
    (congrFun (sums1_7_A (F := Ideal) VI c ⟨25 * q + 0, h⟩ (by show (25 * q + 0) % 25 = 0; omega)) _).trans (by
      rw [acc1_7_ideal_apply, k1_pay3_ideal_apply, zero_add]
      show _ = ∑ p ∈ Finset.range 1, blkSqSum1 VI c (25 * q + p) l
      rw [Finset.sum_range_one]
      unfold blkSqSum1; rw [dif_pos h])
  | s + 1, hs, h =>
    (congrFun (sums1_7_B (F := Ideal) VI c ⟨25 * q + (s + 1), h⟩ (by show ¬(25 * q + (s + 1)) % 25 = 0; omega)) _).trans (by
      rw [acc1_7_ideal_apply]
      rw [sums1_7_eq_of (F := Ideal) VI c _ (Nat.lt_of_succ_lt h : 25 * q + s < cfg1.N)
        (show (⟨25 * q + (s + 1), h⟩ : Fin cfg1.N).val - 1 = 25 * q + s by show 25 * q + (s + 1) - 1 = 25 * q + s; omega) rfl]
      rw [sums1_7_ideal_run c q l s (by omega) _, Finset.sum_range_succ _ (s + 1)]
      refine congrArg (fun z => (∑ p ∈ Finset.range (s + 1), blkSqSum1 VI c (25 * q + p) l) + z) ?_
      unfold blkSqSum1; rw [dif_pos h])

/-- A core's sums of squares at the extended reals: the sum, over the core's 25 blocks and each block's 2000 rows, of
    the squares of the layer's row entries. -/
theorem sqSums1_ideal_apply (c : Dev nD) (q : Fin 2) (l : Fin 128) :
    sqSums1 (F := Ideal) VI c (ix3 q (0 : Fin 1) l)
      = ∑ p : Fin 25, ∑ r : Fin 2000, yAt1 VI c (rowOf1 q p r) l * yAt1 VI c (rowOf1 q p r) l := by
  have hq : q.val < 2 := q.isLt
  unfold sqSums1
  show sums1_7 (F := Ideal) VI c (25 * q.val + 24) _ (ix3 (0 : Fin 1) (0 : Fin 1) l) = _
  refine (sums1_7_ideal_run VI c q.val l 24 (by omega) _).trans ?_
  show ∑ p ∈ Finset.range 25, blkSqSum1 VI c (25 * q.val + p) l = _
  rw [Finset.sum_range]
  refine Finset.sum_congr rfl fun p _ => ?_
  have hp : 25 * q.val + p.val < cfg1.N := by rw [N1_eq]; have := p.isLt; omega
  unfold blkSqSum1; rw [dif_pos hp]
  refine Finset.sum_congr rfl fun r _ => ?_
  have e : out1_5 (F := Ideal) VI c ⟨25 * q.val + p.val, hp⟩ (ix2 r l) = yAt1 VI c (rowOf1 q p r) l :=
    (out1_5_apply (F := Ideal) VI c ⟨25 * q.val + p.val, hp⟩ (ix2 r l) (ix2 (rowOf1 q p r) l)
      (by show (q.val * 25 + p.val) * 2000 + r.val = 2000 * (25 * q.val + p.val) + r.val; omega) rfl).trans
      (yArr1_ideal_apply VI c _ l)
  rw [e]

/-- After the region, at the extended reals, the sums of squares' array holds, at core `q` and column `l`, that sum. -/
theorem arrAt1_7_ideal (c : Dev nD) :
    (dat1 (F := Ideal) VI c).arrAt 7 cfg1.N = fun i =>
      ∑ p : Fin 25, ∑ r : Fin 2000, yAt1 VI c (rowOf1 ⟨(i 0).val, (i 0).isLt⟩ p r) ⟨(i 2).val, (i 2).isLt⟩ * yAt1 VI c (rowOf1 ⟨(i 0).val, (i 0).isLt⟩ p r) ⟨(i 2).val, (i 2).isLt⟩ := by
  rw [arrAt1_7]
  funext i
  obtain ⟨q, z, l, rfl⟩ : ∃ (q : Fin 2) (z : Fin 1) (l : Fin 128), i = ix3 q z l := ⟨i 0, i 1, i 2, eq_ix3 i⟩
  obtain rfl : z = 0 := Fin.ext (by have := z.isLt; omega)
  exact sqSums1_ideal_apply VI c q l

end Cert.KernelIdeal.Hand

end
-- ==== Proof.Val.EncK2.lean ====
/-
  The kernel program's second encoder layer, read at the buffers after its second region: the rows are the linear
  layer of the first layer's rows normalised from the column sums and clamped at zero, and the two cores' parts of
  the new rows' column sums and sums of squares are the sums over each core's twenty-five blocks of two thousand
  rows. The region's value theorems give the rows from the scale, shift, transposed weight and bias the region is
  entered with; the host stretch before the region makes those from the two cores' sums of the first layer, the
  gains and offsets, and the layer's weight and bias.
-/
import proofs.«424088_j28020366639260_2_alg».proof.Proof.KI.Fold
import proofs.«424088_j28020366639260_2_alg».proof.Proof.KI.Args
import proofs.«424088_j28020366639260_2_alg».proof.Proof.KI.V1
import proofs.«424088_j28020366639260_2_alg».proof.Proof.Val.BnRead
import proofs.«424088_j28020366639260_2_alg».proof.Proof.Val.EncKHost

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (ρ : Dev nD → PrngReg) (c : Dev nD)

/-! ### The buffers of the phase, at their literal types -/

/-- The first layer's rows, and the two cores' parts of their column sums and sums of squares, after the first region. -/
abbrev e2Y1 : SM.Idx → EReal := W2 m ρ c (Proc.devRef .tc main_v2_0)
abbrev e2S1 : (⟨3, ![2, 1, 128]⟩ : Shape).Idx → EReal := W2 m ρ c (Proc.devRef .tc main_v2_1)
abbrev e2Q1 : (⟨3, ![2, 1, 128]⟩ : Shape).Idx → EReal := W2 m ρ c (Proc.devRef .tc main_v2_2)
/-- The second layer's rows and the two cores' parts of their sums, after the second region. -/
abbrev e2Y2 : SM.Idx → EReal := W4 m ρ c (Proc.devRef .tc main_v25_0)
abbrev e2S2 : (⟨3, ![2, 1, 128]⟩ : Shape).Idx → EReal := W4 m ρ c (Proc.devRef .tc main_v25_1)
abbrev e2Q2 : (⟨3, ![2, 1, 128]⟩ : Shape).Idx → EReal := W4 m ρ c (Proc.devRef .tc main_v25_2)
/-- The second layer's weight and bias, the gains and the offsets, as launched. -/
abbrev e2A6 : SW.Idx → EReal := W0 m ρ c (Proc.devRef .tc main_arg6)
abbrev e2A7 : SV.Idx → EReal := W0 m ρ c (Proc.devRef .tc main_arg7)
abbrev e2A10 : SG.Idx → EReal := W0 m ρ c (Proc.devRef .tc main_arg10)
abbrev e2A11 : SG.Idx → EReal := W0 m ρ c (Proc.devRef .tc main_arg11)
/-- What the second region is entered with: scale, shift, bias as one-row matrices, the transposed weight, the rows. -/
abbrev e2Sc : (⟨2, ![1, 128]⟩ : Shape).Idx → EReal := W3 m ρ c (Proc.devRef .tc main_v22)
abbrev e2Sh : (⟨2, ![1, 128]⟩ : Shape).Idx → EReal := W3 m ρ c (Proc.devRef .tc main_v23)
abbrev e2B : (⟨2, ![1, 128]⟩ : Shape).Idx → EReal := W3 m ρ c (Proc.devRef .tc main_v24)
abbrev e2Wt : SW.Idx → EReal := W3 m ρ c (Proc.devRef .tc main_v21)
abbrev e2X : SM.Idx → EReal := W3 m ρ c (Proc.devRef .tc main_v2_0)

/-! ### Arguments as the second region's host stretch finds them -/

/-- An argument the first host stretch and the first region do not write is, after them, as launched. -/
theorem kW2_arg6 : W2 m ρ c (Proc.devRef .tc main_arg6) = W0 m ρ c (Proc.devRef .tc main_arg6) :=
  (Wexit0_keep m ρ c main_arg6 (by decide)).trans (W1_of m ρ c main_arg6 (by decide))
theorem kW2_arg7 : W2 m ρ c (Proc.devRef .tc main_arg7) = W0 m ρ c (Proc.devRef .tc main_arg7) :=
  (Wexit0_keep m ρ c main_arg7 (by decide)).trans (W1_of m ρ c main_arg7 (by decide))
theorem kW2_arg10 : W2 m ρ c (Proc.devRef .tc main_arg10) = W0 m ρ c (Proc.devRef .tc main_arg10) :=
  (Wexit0_keep m ρ c main_arg10 (by decide)).trans (W1_of m ρ c main_arg10 (by decide))
theorem kW2_arg11 : W2 m ρ c (Proc.devRef .tc main_arg11) = W0 m ρ c (Proc.devRef .tc main_arg11) :=
  (Wexit0_keep m ρ c main_arg11 (by decide)).trans (W1_of m ρ c main_arg11 (by decide))

/-- Row 0 of the gains the host slices is row 0 of the gains as launched; -/
theorem kG6_apply (k : Fin 128) : kG6 m ρ c (ix1 k) = e2A10 m ρ c (ix2 (0 : Fin 2) k) :=
  (sliceRow_apply (W2 m ρ c (Proc.devRef .tc main_arg10) : SG.Idx → EReal) (0 : Fin 2) slices_S2x128_S1x128_0_0 shapeCasts_S1x128_S128 k).trans
    (congrFun (kW2_arg10 m ρ c) (ix2 (0 : Fin 2) k))
/-- and of the offsets. -/
theorem kBeta8_apply (k : Fin 128) : kBeta8 m ρ c (ix1 k) = e2A11 m ρ c (ix2 (0 : Fin 2) k) :=
  (sliceRow_apply (W2 m ρ c (Proc.devRef .tc main_arg11) : SG.Idx → EReal) (0 : Fin 2) slices_S2x128_S1x128_0_0 shapeCasts_S1x128_S128 k).trans
    (congrFun (kW2_arg11 m ρ c) (ix2 (0 : Fin 2) k))

/-! ### What the second region is entered with, entry by entry -/

/-- The bias row at column j is the bias as launched at j. -/
theorem e2B_apply (j : Fin 128) : e2B m ρ c (ix2 (0 : Fin 1) j) = e2A7 m ρ c (ix1 j) := by
  show (W3 m ρ c (Proc.devRef .tc main_v24) : FVec Ideal S1x128 .f32) (ix2 (0 : Fin 1) j) = _
  rw [kW3_v24]
  refine (vecRow_apply (W2 m ρ c (Proc.devRef .tc main_arg7) : SV.Idx → EReal) shapeCasts_S128_S1x128 (0 : Fin 1) j).trans ?_
  exact congrFun (kW2_arg7 m ρ c) (ix1 j)

/-- The transposed weight at (k, j) is the weight as launched at (j, k). -/
theorem e2Wt_apply (k j : Fin 128) : e2Wt m ρ c (ix2 k j) = e2A6 m ρ c (ix2 j k) := by
  show (W3 m ρ c (Proc.devRef .tc main_v21) : FVec Ideal S128x128 .f32) (ix2 k j) = _
  rw [kW3_v21]
  refine (transposeSq_apply (W2 m ρ c (Proc.devRef .tc main_arg6) : SW.Idx → EReal) transposes_S128x128_S128x128_1_0 k j).trans ?_
  exact congrFun (kW2_arg6 m ρ c) (ix2 j k)

/-- The rows the second region is entered with are the first layer's rows. -/
theorem e2X_eq : e2X m ρ c = e2Y1 m ρ c := kW3_v2_0 m ρ c

section Sums

variable (hs : ∀ (q : Fin 2) (k : Fin 128), e2S1 m ρ c (ix3 q (0 : Fin 1) k)
      = ∑ p : Fin 25, ∑ r : Fin 2000, e2Y1 m ρ c (ix2 (Cert.Bridge.rowOf (C := 2) (T := 25) (R := 2000) q p r) k))
  (hq : ∀ (q : Fin 2) (k : Fin 128), e2Q1 m ρ c (ix3 q (0 : Fin 1) k)
      = ∑ p : Fin 25, ∑ r : Fin 2000, e2Y1 m ρ c (ix2 (Cert.Bridge.rowOf (C := 2) (T := 25) (R := 2000) q p r) k) * e2Y1 m ρ c (ix2 (Cert.Bridge.rowOf (C := 2) (T := 25) (R := 2000) q p r) k))

include hs hq

set_option maxHeartbeats 1000000 in
/-- The scale row at column k is the column's scale of the first layer's rows. -/
theorem e2Sc_apply (k : Fin 128) : e2Sc m ρ c (ix2 (0 : Fin 1) k) = scaleCol (e2Y1 m ρ c) (e2A10 m ρ c) 0 k := by
  show (W3 m ρ c (Proc.devRef .tc main_v22) : FVec Ideal S1x128 .f32) (ix2 (0 : Fin 1) k) = _
  rw [kW3_v22]
  refine (vecRow_apply (kerScaleVec (e2S1 m ρ c) (e2Q1 m ρ c) (kG6 m ρ c) reducesTo_S2x1x128_S128_d0_1 h_S_ bcast_S_S128)
    shapeCasts_S128_S1x128 (0 : Fin 1) k).trans ?_
  exact kerScaleVec_eq_scaleCol (e2Y1 m ρ c) (e2A10 m ρ c) 0 (e2S1 m ρ c) (e2Q1 m ρ c) (kG6 m ρ c)
    reducesTo_S2x1x128_S128_d0_1 h_S_ bcast_S_S128 hs hq (kG6_apply m ρ c) k

set_option maxHeartbeats 1000000 in
/-- The shift row at column k is the column's shift. -/
theorem e2Sh_apply (k : Fin 128) : e2Sh m ρ c (ix2 (0 : Fin 1) k) = shiftCol (e2Y1 m ρ c) (e2A10 m ρ c) (e2A11 m ρ c) 0 k := by
  show (W3 m ρ c (Proc.devRef .tc main_v23) : FVec Ideal S1x128 .f32) (ix2 (0 : Fin 1) k) = _
  rw [kW3_v23]
  refine (vecRow_apply (kerShiftVec (e2S1 m ρ c) (e2Q1 m ρ c) (kG6 m ρ c) (kBeta8 m ρ c) reducesTo_S2x1x128_S128_d0_1 h_S_ bcast_S_S128)
    shapeCasts_S128_S1x128 (0 : Fin 1) k).trans ?_
  exact kerShiftVec_eq_shiftCol (e2Y1 m ρ c) (e2A10 m ρ c) (e2A11 m ρ c) 0 (e2S1 m ρ c) (e2Q1 m ρ c) (kG6 m ρ c) (kBeta8 m ρ c)
    reducesTo_S2x1x128_S128_d0_1 h_S_ bcast_S_S128 hs hq (kG6_apply m ρ c) (kBeta8_apply m ρ c) k

end Sums

/-! ### The rows after the second region -/

/-- The second region leaves in its rows' array the entries its value theorem states, over what it is entered with. -/
theorem kY2_eq_entries : e2Y2 m ρ c
    = fun i => encAt1 (e2B m ρ c) (e2X m ρ c) (e2Sc m ρ c) (e2Sh m ρ c) (e2Wt m ρ c) ⟨(i 0).val, idx2_lt0 i⟩ ⟨(i 1).val, idx2_lt1 i⟩ :=
  (Wexit1_arr m ρ c 5).trans (arrAt1_5_ideal (VE1 m ρ) c)

set_option maxHeartbeats 1000000 in
/-- Given the two cores' parts of the first layer's column sums and sums of squares, the rows after the second
    region are the linear layer of the first layer's rows normalised from the sums and clamped. -/
theorem K_y2_of
    (hs : ∀ (q : Fin 2) (k : Fin 128), e2S1 m ρ c (ix3 q (0 : Fin 1) k)
      = ∑ p : Fin 25, ∑ r : Fin 2000, e2Y1 m ρ c (ix2 (Cert.Bridge.rowOf (C := 2) (T := 25) (R := 2000) q p r) k))
    (hq : ∀ (q : Fin 2) (k : Fin 128), e2Q1 m ρ c (ix3 q (0 : Fin 1) k)
      = ∑ p : Fin 25, ∑ r : Fin 2000, e2Y1 m ρ c (ix2 (Cert.Bridge.rowOf (C := 2) (T := 25) (R := 2000) q p r) k) * e2Y1 m ρ c (ix2 (Cert.Bridge.rowOf (C := 2) (T := 25) (R := 2000) q p r) k)) :
    e2Y2 m ρ c = lin (bnK (e2Y1 m ρ c) (e2A10 m ρ c) (e2A11 m ρ c) 0) (e2A6 m ρ c) (e2A7 m ρ c) := by
  rw [kY2_eq_entries, e2X_eq]
  refine Eq.trans ?_ (lin_bnK_of_pieces (e2Y1 m ρ c) (e2A6 m ρ c) (e2A7 m ρ c) (e2A10 m ρ c) (e2A11 m ρ c) 0
    (e2Sc m ρ c) (e2Sh m ρ c) (e2B m ρ c) (e2Wt m ρ c)
    (e2Sc_apply m ρ c hs hq) (e2Sh_apply m ρ c hs hq) (e2Wt_apply m ρ c) (e2B_apply m ρ c))
  funext i
  obtain ⟨r, j, rfl⟩ : ∃ (r : Fin 100000) (j : Fin 128), i = ix2 r j := ⟨i 0, i 1, eq_ix2 i⟩
  rfl

/-! ### The two cores' parts of the new rows' sums -/

/-- An entry of the new rows, as the second region's value theorem states it. -/
theorem e2Y2_apply (r : Fin 100000) (k : Fin 128) :
    e2Y2 m ρ c (ix2 r k) = encAt1 (e2B m ρ c) (e2X m ρ c) (e2Sc m ρ c) (e2Sh m ρ c) (e2Wt m ρ c) r k :=
  congrFun (kY2_eq_entries m ρ c) (ix2 r k)

/-- Core q's part of the new rows' column sums: the sum over its twenty-five blocks of two thousand rows. -/
theorem K_s2 (q : Fin 2) (k : Fin 128) :
    e2S2 m ρ c (ix3 q (0 : Fin 1) k)
      = ∑ p : Fin 25, ∑ r : Fin 2000, e2Y2 m ρ c (ix2 (Cert.Bridge.rowOf (C := 2) (T := 25) (R := 2000) q p r) k) := by
  have e6 : e2S2 m ρ c = (dat1 (F := Ideal) (VE1 m ρ) c).arrAt 6 cfg1.N := Wexit1_arr m ρ c 6
  rw [e6, arrAt1_6_ideal (VE1 m ρ) c]
  refine Finset.sum_congr rfl fun p _ => Finset.sum_congr rfl fun r _ => ?_
  exact (e2Y2_apply m ρ c (Cert.Bridge.rowOf (C := 2) (T := 25) (R := 2000) q p r) k).symm

/-- Core q's part of the new rows' column sums of squares. -/
theorem K_q2 (q : Fin 2) (k : Fin 128) :
    e2Q2 m ρ c (ix3 q (0 : Fin 1) k)
      = ∑ p : Fin 25, ∑ r : Fin 2000, e2Y2 m ρ c (ix2 (Cert.Bridge.rowOf (C := 2) (T := 25) (R := 2000) q p r) k) * e2Y2 m ρ c (ix2 (Cert.Bridge.rowOf (C := 2) (T := 25) (R := 2000) q p r) k) := by
  have e7 : e2Q2 m ρ c = (dat1 (F := Ideal) (VE1 m ρ) c).arrAt 7 cfg1.N := Wexit1_arr m ρ c 7
  rw [e7, arrAt1_7_ideal (VE1 m ρ) c]
  refine Finset.sum_congr rfl fun p _ => Finset.sum_congr rfl fun r _ => ?_
  have e := (e2Y2_apply m ρ c (Cert.Bridge.rowOf (C := 2) (T := 25) (R := 2000) q p r) k).symm
  exact congrArg₂ (· * ·) e e

end Cert.Val

end
-- ==== Proof.Val.EncRd.lean ====
/-
  Operations 0 to 60 of the reference's line, each read at the end of the whole line: the final contents of an
  operation's result buffer are its function of the final contents of its operand buffers. One statement per
  operation, at the extended reals, with every buffer at its literal array type. Operations 0 to 126 are the
  patient encoder: the three linear layers, the two normalisations with their variance, and the row
  normalisation.
-/
import proofs.«424088_j28020366639260_2_alg».proof.Proof.Ref.Fix
import Idealize.ShloMosaic.PureOps.Ideal

set_option maxRecDepth 16384
set_option Elab.async false

noncomputable section

namespace Cert.Val.Rd

open Cert.ReferenceIdeal Cert.ReferenceIdeal.Gen Cert.ReferenceIdeal.Hand
open Idealize.ShloMosaic Idealize.ShloMosaic.TcCoe Idealize.SL.Sem Idealize.ShloMosaic.StableHlo

variable (V : Valuation τ sig (Elt Ideal))

theorem rd_main_v0 : (after (ops (F := Ideal)) V (Proc.devRef .tc main_v0) : FVec Ideal S128x128 .f32) = transpose S128x128 [1, 0] (after (ops (F := Ideal)) V (Proc.devRef .tc main_arg4) : FVec Ideal S128x128 .f32) transposes_S128x128_S128x128_1_0 := by
  have h := in_unary mem_ops0 0 rfl V
  exact h

theorem rd_main_v1 : (after (ops (F := Ideal)) V (Proc.devRef .tc main_v1) : FVec Ideal S100000x128 .f32) = Host.dotGeneral (F := Ideal) (φ₁ := .f32) (φ₂ := .f32) dot_S100000x128_S128x128_S100000x128_1_0_0_1_n_n none (after (ops (F := Ideal)) V (Proc.devRef .tc main_arg0) : FVec Ideal S100000x128 .f32) (after (ops (F := Ideal)) V (Proc.devRef .tc main_v0) : FVec Ideal S128x128 .f32) := by
  have h := in_binary mem_ops0 1 rfl V
  exact h

theorem rd_main_v2 : (after (ops (F := Ideal)) V (Proc.devRef .tc main_v2) : FVec Ideal S1x128 .f32) = broadcastInDim S1x128 ![1] bcast_S128_S1x128_1 (after (ops (F := Ideal)) V (Proc.devRef .tc main_arg5) : FVec Ideal S128 .f32) := by
  have h := in_unary mem_ops0 2 rfl V
  exact h

theorem rd_main_v3 : (after (ops (F := Ideal)) V (Proc.devRef .tc main_v3) : FVec Ideal S100000x128 .f32) = broadcastInDim S100000x128 ![0, 1] bcast_S1x128_S100000x128_0_1 (after (ops (F := Ideal)) V (Proc.devRef .tc main_v2) : FVec Ideal S1x128 .f32) := by
  have h := in_unary mem_ops0 3 rfl V
  exact h

theorem rd_main_v4 : (after (ops (F := Ideal)) V (Proc.devRef .tc main_v4) : FVec Ideal S100000x128 .f32) = addf (F := Ideal) (s := S100000x128) (φ := .f32) (after (ops (F := Ideal)) V (Proc.devRef .tc main_v1) : FVec Ideal S100000x128 .f32) (after (ops (F := Ideal)) V (Proc.devRef .tc main_v3) : FVec Ideal S100000x128 .f32) := by
  have h := in_binary mem_ops0 4 rfl V
  exact h

theorem rd_main_v5 : (after (ops (F := Ideal)) V (Proc.devRef .tc main_v5) : FVec Ideal S1x128 .f32) = extractStridedSlice S1x128 ![0, 0] (after (ops (F := Ideal)) V (Proc.devRef .tc main_arg10) : FVec Ideal S2x128 .f32) slices_S2x128_S1x128_0_0 := by
  have h := in_unary mem_ops0 5 rfl V
  exact h

theorem rd_main_v6 : (after (ops (F := Ideal)) V (Proc.devRef .tc main_v6) : FVec Ideal S128 .f32) = shapeCast S128 (after (ops (F := Ideal)) V (Proc.devRef .tc main_v5) : FVec Ideal S1x128 .f32) shapeCasts_S1x128_S128 := by
  have h := in_reshape mem_ops0 6 rfl V
  exact h

theorem rd_main_v7 : (after (ops (F := Ideal)) V (Proc.devRef .tc main_v7) : FVec Ideal S1x128 .f32) = extractStridedSlice S1x128 ![0, 0] (after (ops (F := Ideal)) V (Proc.devRef .tc main_arg11) : FVec Ideal S2x128 .f32) slices_S2x128_S1x128_0_0 := by
  have h := in_unary mem_ops0 7 rfl V
  exact h

theorem rd_main_v8 : (after (ops (F := Ideal)) V (Proc.devRef .tc main_v8) : FVec Ideal S128 .f32) = shapeCast S128 (after (ops (F := Ideal)) V (Proc.devRef .tc main_v7) : FVec Ideal S1x128 .f32) shapeCasts_S1x128_S128 := by
  have h := in_reshape mem_ops0 8 rfl V
  exact h

theorem rd_main_cst : (after (ops (F := Ideal)) V (Proc.devRef .tc main_cst) : FVec Ideal S_ .f32) = (constant (F := Ideal) S_ .f32 0x00000000#32) := by
  have h := in_nullary mem_ops0 9 rfl V
  exact h

theorem rd_main_v9 : (after (ops (F := Ideal)) V (Proc.devRef .tc main_v9) : FVec Ideal S128 .f32) = Host.reduceAdd (F := Ideal) (s := S100000x128) (φ := .f32) (u := S_) (after (ops (F := Ideal)) V (Proc.devRef .tc main_v4) : FVec Ideal S100000x128 .f32) (after (ops (F := Ideal)) V (Proc.devRef .tc main_cst) : FVec Ideal S_ .f32) reducesTo_S100000x128_S128_d0 h_S_ := by
  have h := in_binary mem_ops0 10 rfl V
  exact h

theorem rd_main_cst_0 : (after (ops (F := Ideal)) V (Proc.devRef .tc main_cst_0) : FVec Ideal S_ .f32) = (constant (F := Ideal) S_ .f32 0x47C35000#32) := by
  have h := in_nullary mem_ops0 11 rfl V
  exact h

theorem rd_main_v10 : (after (ops (F := Ideal)) V (Proc.devRef .tc main_v10) : FVec Ideal S128 .f32) = broadcastInDim S128 ![] bcast_S_S128 (after (ops (F := Ideal)) V (Proc.devRef .tc main_cst_0) : FVec Ideal S_ .f32) := by
  have h := in_unary mem_ops0 12 rfl V
  exact h

theorem rd_main_v11 : (after (ops (F := Ideal)) V (Proc.devRef .tc main_v11) : FVec Ideal S128 .f32) = Host.divf (F := Ideal) (s := S128) (φ := .f32) (after (ops (F := Ideal)) V (Proc.devRef .tc main_v9) : FVec Ideal S128 .f32) (after (ops (F := Ideal)) V (Proc.devRef .tc main_v10) : FVec Ideal S128 .f32) := by
  have h := in_binary mem_ops0 13 rfl V
  exact h

theorem rd_main_c : (after (ops (F := Ideal)) V (Proc.devRef .tc main_c) : IVec S_ 32) = (constantI S_ 32 0#32) := by
  have h := in_nullary mem_ops0 14 rfl V
  exact h

theorem rd_main_call0_cst : (after (ops (F := Ideal)) V (Proc.devRef .tc main_call0_cst) : FVec Ideal S_ .f32) = (constant (F := Ideal) S_ .f32 0x00000000#32) := by
  have h := in_nullary mem_ops0 15 rfl V
  exact h

theorem rd_main_call0_v0 : (after (ops (F := Ideal)) V (Proc.devRef .tc main_call0_v0) : FVec Ideal S128 .f32) = Host.reduceAdd (F := Ideal) (s := S100000x128) (φ := .f32) (u := S_) (after (ops (F := Ideal)) V (Proc.devRef .tc main_v4) : FVec Ideal S100000x128 .f32) (after (ops (F := Ideal)) V (Proc.devRef .tc main_call0_cst) : FVec Ideal S_ .f32) reducesTo_S100000x128_S128_d0 h_S_ := by
  have h := in_binary mem_ops0 16 rfl V
  exact h

theorem rd_main_call0_v1 : (after (ops (F := Ideal)) V (Proc.devRef .tc main_call0_v1) : FVec Ideal S1x128 .f32) = broadcastInDim S1x128 ![1] bcast_S128_S1x128_1 (after (ops (F := Ideal)) V (Proc.devRef .tc main_call0_v0) : FVec Ideal S128 .f32) := by
  have h := in_unary mem_ops0 17 rfl V
  exact h

theorem rd_main_call0_cst_0 : (after (ops (F := Ideal)) V (Proc.devRef .tc main_call0_cst_0) : FVec Ideal S_ .f32) = (constant (F := Ideal) S_ .f32 0x47C35000#32) := by
  have h := in_nullary mem_ops0 18 rfl V
  exact h

theorem rd_main_call0_v2 : (after (ops (F := Ideal)) V (Proc.devRef .tc main_call0_v2) : FVec Ideal S1x128 .f32) = broadcastInDim S1x128 ![] bcast_S_S1x128 (after (ops (F := Ideal)) V (Proc.devRef .tc main_call0_cst_0) : FVec Ideal S_ .f32) := by
  have h := in_unary mem_ops0 19 rfl V
  exact h

theorem rd_main_call0_v3 : (after (ops (F := Ideal)) V (Proc.devRef .tc main_call0_v3) : FVec Ideal S1x128 .f32) = Host.divf (F := Ideal) (s := S1x128) (φ := .f32) (after (ops (F := Ideal)) V (Proc.devRef .tc main_call0_v1) : FVec Ideal S1x128 .f32) (after (ops (F := Ideal)) V (Proc.devRef .tc main_call0_v2) : FVec Ideal S1x128 .f32) := by
  have h := in_binary mem_ops0 20 rfl V
  exact h

theorem rd_main_call0_v4 : (after (ops (F := Ideal)) V (Proc.devRef .tc main_call0_v4) : FVec Ideal S100000x128 .f32) = broadcastInDim S100000x128 ![0, 1] bcast_S1x128_S100000x128_0_1 (after (ops (F := Ideal)) V (Proc.devRef .tc main_call0_v3) : FVec Ideal S1x128 .f32) := by
  have h := in_unary mem_ops0 21 rfl V
  exact h

theorem rd_main_call0_v5 : (after (ops (F := Ideal)) V (Proc.devRef .tc main_call0_v5) : FVec Ideal S100000x128 .f32) = subf (F := Ideal) (s := S100000x128) (φ := .f32) (after (ops (F := Ideal)) V (Proc.devRef .tc main_v4) : FVec Ideal S100000x128 .f32) (after (ops (F := Ideal)) V (Proc.devRef .tc main_call0_v4) : FVec Ideal S100000x128 .f32) := by
  have h := in_binary mem_ops0 22 rfl V
  exact h

theorem rd_main_call0_v6 : (after (ops (F := Ideal)) V (Proc.devRef .tc main_call0_v6) : FVec Ideal S100000x128 .f32) = mulf (F := Ideal) (s := S100000x128) (φ := .f32) (after (ops (F := Ideal)) V (Proc.devRef .tc main_call0_v5) : FVec Ideal S100000x128 .f32) (after (ops (F := Ideal)) V (Proc.devRef .tc main_call0_v5) : FVec Ideal S100000x128 .f32) := by
  have h := in_binary mem_ops0 23 rfl V
  exact h

theorem rd_main_call0_v7 : (after (ops (F := Ideal)) V (Proc.devRef .tc main_call0_v7) : FVec Ideal S_ .f32) = sitofp (F := Ideal) (s := S_) (w := 32) .f32 (after (ops (F := Ideal)) V (Proc.devRef .tc main_c) : IVec S_ 32) := by
  have h := in_unary mem_ops0 24 rfl V
  exact h

theorem rd_main_call0_cst_1 : (after (ops (F := Ideal)) V (Proc.devRef .tc main_call0_cst_1) : FVec Ideal S_ .f32) = (constant (F := Ideal) S_ .f32 0x47C35000#32) := by
  have h := in_nullary mem_ops0 25 rfl V
  exact h

theorem rd_main_call0_v8 : (after (ops (F := Ideal)) V (Proc.devRef .tc main_call0_v8) : FVec Ideal S_ .f32) = subf (F := Ideal) (s := S_) (φ := .f32) (after (ops (F := Ideal)) V (Proc.devRef .tc main_call0_cst_1) : FVec Ideal S_ .f32) (after (ops (F := Ideal)) V (Proc.devRef .tc main_call0_v7) : FVec Ideal S_ .f32) := by
  have h := in_binary mem_ops0 26 rfl V
  exact h

theorem rd_main_call0_cst_2 : (after (ops (F := Ideal)) V (Proc.devRef .tc main_call0_cst_2) : FVec Ideal S_ .f32) = (constant (F := Ideal) S_ .f32 0x00000000#32) := by
  have h := in_nullary mem_ops0 27 rfl V
  exact h

theorem rd_main_call0_v9 : (after (ops (F := Ideal)) V (Proc.devRef .tc main_call0_v9) : FVec Ideal S128 .f32) = Host.reduceAdd (F := Ideal) (s := S100000x128) (φ := .f32) (u := S_) (after (ops (F := Ideal)) V (Proc.devRef .tc main_call0_v6) : FVec Ideal S100000x128 .f32) (after (ops (F := Ideal)) V (Proc.devRef .tc main_call0_cst_2) : FVec Ideal S_ .f32) reducesTo_S100000x128_S128_d0 h_S_ := by
  have h := in_binary mem_ops0 28 rfl V
  exact h

theorem rd_main_call0_v10 : (after (ops (F := Ideal)) V (Proc.devRef .tc main_call0_v10) : FVec Ideal S128 .f32) = broadcastInDim S128 ![] bcast_S_S128 (after (ops (F := Ideal)) V (Proc.devRef .tc main_call0_v8) : FVec Ideal S_ .f32) := by
  have h := in_unary mem_ops0 29 rfl V
  exact h

theorem rd_main_call0_v11 : (after (ops (F := Ideal)) V (Proc.devRef .tc main_call0_v11) : FVec Ideal S128 .f32) = Host.divf (F := Ideal) (s := S128) (φ := .f32) (after (ops (F := Ideal)) V (Proc.devRef .tc main_call0_v9) : FVec Ideal S128 .f32) (after (ops (F := Ideal)) V (Proc.devRef .tc main_call0_v10) : FVec Ideal S128 .f32) := by
  have h := in_binary mem_ops0 30 rfl V
  exact h

theorem rd_main_call0_cst_3 : (after (ops (F := Ideal)) V (Proc.devRef .tc main_call0_cst_3) : FVec Ideal S_ .f32) = (constant (F := Ideal) S_ .f32 0x00000000#32) := by
  have h := in_nullary mem_ops0 31 rfl V
  exact h

theorem rd_main_call0_v12 : (after (ops (F := Ideal)) V (Proc.devRef .tc main_call0_v12) : IVec S_ 1) = cmpf (F := Ideal) (s := S_) (φ := .f32) .ogt (after (ops (F := Ideal)) V (Proc.devRef .tc main_call0_v8) : FVec Ideal S_ .f32) (after (ops (F := Ideal)) V (Proc.devRef .tc main_call0_cst_3) : FVec Ideal S_ .f32) := by
  have h := in_binary mem_ops0 32 rfl V
  exact h

theorem rd_main_call0_cst_4 : (after (ops (F := Ideal)) V (Proc.devRef .tc main_call0_cst_4) : FVec Ideal S_ .f32) = (constant (F := Ideal) S_ .f32 0x7FC00000#32) := by
  have h := in_nullary mem_ops0 33 rfl V
  exact h

theorem rd_main_call0_call0_v0 : (after (ops (F := Ideal)) V (Proc.devRef .tc main_call0_call0_v0) : FVec Ideal S_ .f32) = id (after (ops (F := Ideal)) V (Proc.devRef .tc main_call0_cst_4) : FVec Ideal S_ .f32) := by
  have h := in_unary mem_ops0 34 rfl V
  exact h

theorem rd_main_call0_call0_v1 : (after (ops (F := Ideal)) V (Proc.devRef .tc main_call0_call0_v1) : FVec Ideal S128 .f32) = broadcastInDim S128 ![] bcast_S_S128 (after (ops (F := Ideal)) V (Proc.devRef .tc main_call0_call0_v0) : FVec Ideal S_ .f32) := by
  have h := in_unary mem_ops0 35 rfl V
  exact h

set_option maxHeartbeats 2000000 in
theorem rd_main_v12 : (after (ops (F := Ideal)) V (Proc.devRef .tc main_v12) : FVec Ideal S128 .f32) = select (broadcastInDim S128 ![] bcast_S_S128 (after (ops (F := Ideal)) V (Proc.devRef .tc main_call0_v12) : IVec S_ 1)) (after (ops (F := Ideal)) V (Proc.devRef .tc main_call0_v11) : FVec Ideal S128 .f32) (after (ops (F := Ideal)) V (Proc.devRef .tc main_call0_call0_v1) : FVec Ideal S128 .f32) := by
  have h := in_ternary mem_ops0 36 rfl V
  exact h

theorem rd_main_v13 : (after (ops (F := Ideal)) V (Proc.devRef .tc main_v13) : FVec Ideal S1x128 .f32) = broadcastInDim S1x128 ![1] bcast_S128_S1x128_1 (after (ops (F := Ideal)) V (Proc.devRef .tc main_v11) : FVec Ideal S128 .f32) := by
  have h := in_unary mem_ops0 37 rfl V
  exact h

theorem rd_main_v14 : (after (ops (F := Ideal)) V (Proc.devRef .tc main_v14) : FVec Ideal S100000x128 .f32) = broadcastInDim S100000x128 ![0, 1] bcast_S1x128_S100000x128_0_1 (after (ops (F := Ideal)) V (Proc.devRef .tc main_v13) : FVec Ideal S1x128 .f32) := by
  have h := in_unary mem_ops0 38 rfl V
  exact h

theorem rd_main_v15 : (after (ops (F := Ideal)) V (Proc.devRef .tc main_v15) : FVec Ideal S100000x128 .f32) = subf (F := Ideal) (s := S100000x128) (φ := .f32) (after (ops (F := Ideal)) V (Proc.devRef .tc main_v4) : FVec Ideal S100000x128 .f32) (after (ops (F := Ideal)) V (Proc.devRef .tc main_v14) : FVec Ideal S100000x128 .f32) := by
  have h := in_binary mem_ops0 39 rfl V
  exact h

theorem rd_main_cst_1 : (after (ops (F := Ideal)) V (Proc.devRef .tc main_cst_1) : FVec Ideal S_ .f32) = (constant (F := Ideal) S_ .f32 0x3727C5AC#32) := by
  have h := in_nullary mem_ops0 40 rfl V
  exact h

theorem rd_main_v16 : (after (ops (F := Ideal)) V (Proc.devRef .tc main_v16) : FVec Ideal S128 .f32) = broadcastInDim S128 ![] bcast_S_S128 (after (ops (F := Ideal)) V (Proc.devRef .tc main_cst_1) : FVec Ideal S_ .f32) := by
  have h := in_unary mem_ops0 41 rfl V
  exact h

theorem rd_main_v17 : (after (ops (F := Ideal)) V (Proc.devRef .tc main_v17) : FVec Ideal S128 .f32) = addf (F := Ideal) (s := S128) (φ := .f32) (after (ops (F := Ideal)) V (Proc.devRef .tc main_v12) : FVec Ideal S128 .f32) (after (ops (F := Ideal)) V (Proc.devRef .tc main_v16) : FVec Ideal S128 .f32) := by
  have h := in_binary mem_ops0 42 rfl V
  exact h

theorem rd_main_v18 : (after (ops (F := Ideal)) V (Proc.devRef .tc main_v18) : FVec Ideal S128 .f32) = Host.rsqrt (F := Ideal) (s := S128) (φ := .f32) (after (ops (F := Ideal)) V (Proc.devRef .tc main_v17) : FVec Ideal S128 .f32) := by
  have h := in_unary mem_ops0 43 rfl V
  exact h

theorem rd_main_v19 : (after (ops (F := Ideal)) V (Proc.devRef .tc main_v19) : FVec Ideal S1x128 .f32) = broadcastInDim S1x128 ![1] bcast_S128_S1x128_1 (after (ops (F := Ideal)) V (Proc.devRef .tc main_v18) : FVec Ideal S128 .f32) := by
  have h := in_unary mem_ops0 44 rfl V
  exact h

theorem rd_main_v20 : (after (ops (F := Ideal)) V (Proc.devRef .tc main_v20) : FVec Ideal S100000x128 .f32) = broadcastInDim S100000x128 ![0, 1] bcast_S1x128_S100000x128_0_1 (after (ops (F := Ideal)) V (Proc.devRef .tc main_v19) : FVec Ideal S1x128 .f32) := by
  have h := in_unary mem_ops0 45 rfl V
  exact h

theorem rd_main_v21 : (after (ops (F := Ideal)) V (Proc.devRef .tc main_v21) : FVec Ideal S100000x128 .f32) = mulf (F := Ideal) (s := S100000x128) (φ := .f32) (after (ops (F := Ideal)) V (Proc.devRef .tc main_v15) : FVec Ideal S100000x128 .f32) (after (ops (F := Ideal)) V (Proc.devRef .tc main_v20) : FVec Ideal S100000x128 .f32) := by
  have h := in_binary mem_ops0 46 rfl V
  exact h

theorem rd_main_v22 : (after (ops (F := Ideal)) V (Proc.devRef .tc main_v22) : FVec Ideal S1x128 .f32) = broadcastInDim S1x128 ![1] bcast_S128_S1x128_1 (after (ops (F := Ideal)) V (Proc.devRef .tc main_v6) : FVec Ideal S128 .f32) := by
  have h := in_unary mem_ops0 47 rfl V
  exact h

theorem rd_main_v23 : (after (ops (F := Ideal)) V (Proc.devRef .tc main_v23) : FVec Ideal S100000x128 .f32) = broadcastInDim S100000x128 ![0, 1] bcast_S1x128_S100000x128_0_1 (after (ops (F := Ideal)) V (Proc.devRef .tc main_v22) : FVec Ideal S1x128 .f32) := by
  have h := in_unary mem_ops0 48 rfl V
  exact h

theorem rd_main_v24 : (after (ops (F := Ideal)) V (Proc.devRef .tc main_v24) : FVec Ideal S100000x128 .f32) = mulf (F := Ideal) (s := S100000x128) (φ := .f32) (after (ops (F := Ideal)) V (Proc.devRef .tc main_v21) : FVec Ideal S100000x128 .f32) (after (ops (F := Ideal)) V (Proc.devRef .tc main_v23) : FVec Ideal S100000x128 .f32) := by
  have h := in_binary mem_ops0 49 rfl V
  exact h

theorem rd_main_v25 : (after (ops (F := Ideal)) V (Proc.devRef .tc main_v25) : FVec Ideal S1x128 .f32) = broadcastInDim S1x128 ![1] bcast_S128_S1x128_1 (after (ops (F := Ideal)) V (Proc.devRef .tc main_v8) : FVec Ideal S128 .f32) := by
  have h := in_unary mem_ops0 50 rfl V
  exact h

theorem rd_main_v26 : (after (ops (F := Ideal)) V (Proc.devRef .tc main_v26) : FVec Ideal S100000x128 .f32) = broadcastInDim S100000x128 ![0, 1] bcast_S1x128_S100000x128_0_1 (after (ops (F := Ideal)) V (Proc.devRef .tc main_v25) : FVec Ideal S1x128 .f32) := by
  have h := in_unary mem_ops0 51 rfl V
  exact h

theorem rd_main_v27 : (after (ops (F := Ideal)) V (Proc.devRef .tc main_v27) : FVec Ideal S100000x128 .f32) = addf (F := Ideal) (s := S100000x128) (φ := .f32) (after (ops (F := Ideal)) V (Proc.devRef .tc main_v24) : FVec Ideal S100000x128 .f32) (after (ops (F := Ideal)) V (Proc.devRef .tc main_v26) : FVec Ideal S100000x128 .f32) := by
  have h := in_binary mem_ops0 52 rfl V
  exact h

theorem rd_main_call1_cst : (after (ops (F := Ideal)) V (Proc.devRef .tc main_call1_cst) : FVec Ideal S_ .f32) = (constant (F := Ideal) S_ .f32 0x00000000#32) := by
  have h := in_nullary mem_ops0 53 rfl V
  exact h

theorem rd_main_call1_v0 : (after (ops (F := Ideal)) V (Proc.devRef .tc main_call1_v0) : FVec Ideal S100000x128 .f32) = broadcastInDim S100000x128 ![] bcast_S_S100000x128 (after (ops (F := Ideal)) V (Proc.devRef .tc main_call1_cst) : FVec Ideal S_ .f32) := by
  have h := in_unary mem_ops0 54 rfl V
  exact h

theorem rd_main_v28 : (after (ops (F := Ideal)) V (Proc.devRef .tc main_v28) : FVec Ideal S100000x128 .f32) = maximumf (F := Ideal) (s := S100000x128) (φ := .f32) (after (ops (F := Ideal)) V (Proc.devRef .tc main_v27) : FVec Ideal S100000x128 .f32) (after (ops (F := Ideal)) V (Proc.devRef .tc main_call1_v0) : FVec Ideal S100000x128 .f32) := by
  have h := in_binary mem_ops0 55 rfl V
  exact h

theorem rd_main_v29 : (after (ops (F := Ideal)) V (Proc.devRef .tc main_v29) : FVec Ideal S128x128 .f32) = transpose S128x128 [1, 0] (after (ops (F := Ideal)) V (Proc.devRef .tc main_arg6) : FVec Ideal S128x128 .f32) transposes_S128x128_S128x128_1_0 := by
  have h := in_unary mem_ops0 56 rfl V
  exact h

theorem rd_main_v30 : (after (ops (F := Ideal)) V (Proc.devRef .tc main_v30) : FVec Ideal S100000x128 .f32) = Host.dotGeneral (F := Ideal) (φ₁ := .f32) (φ₂ := .f32) dot_S100000x128_S128x128_S100000x128_1_0_0_1_n_n none (after (ops (F := Ideal)) V (Proc.devRef .tc main_v28) : FVec Ideal S100000x128 .f32) (after (ops (F := Ideal)) V (Proc.devRef .tc main_v29) : FVec Ideal S128x128 .f32) := by
  have h := in_binary mem_ops0 57 rfl V
  exact h

theorem rd_main_v31 : (after (ops (F := Ideal)) V (Proc.devRef .tc main_v31) : FVec Ideal S1x128 .f32) = broadcastInDim S1x128 ![1] bcast_S128_S1x128_1 (after (ops (F := Ideal)) V (Proc.devRef .tc main_arg7) : FVec Ideal S128 .f32) := by
  have h := in_unary mem_ops0 58 rfl V
  exact h

theorem rd_main_v32 : (after (ops (F := Ideal)) V (Proc.devRef .tc main_v32) : FVec Ideal S100000x128 .f32) = broadcastInDim S100000x128 ![0, 1] bcast_S1x128_S100000x128_0_1 (after (ops (F := Ideal)) V (Proc.devRef .tc main_v31) : FVec Ideal S1x128 .f32) := by
  have h := in_unary mem_ops0 59 rfl V
  exact h

theorem rd_main_v33 : (after (ops (F := Ideal)) V (Proc.devRef .tc main_v33) : FVec Ideal S100000x128 .f32) = addf (F := Ideal) (s := S100000x128) (φ := .f32) (after (ops (F := Ideal)) V (Proc.devRef .tc main_v30) : FVec Ideal S100000x128 .f32) (after (ops (F := Ideal)) V (Proc.devRef .tc main_v32) : FVec Ideal S100000x128 .f32) := by
  have h := in_binary mem_ops0 60 rfl V
  exact h

end Cert.Val.Rd

end
-- ==== Proof.Val.EncRLib.lean ====
/-
  The reference's spelling of the patient encoder's layers, as composites of the array operations it applies,
  and each composite read entry by entry: the linear layer is the bias plus the row's product with the weight
  rows; the normalisation takes the column mean, the mean of the squared deviations (behind a selection whose
  condition, a hundred thousand above zero, holds), and applies (y − mean) · rsqrt(var + ε) · g + β clamped at
  zero.
-/
import proofs.«424088_j28020366639260_2_alg».proof.Proof.Gen.ReferenceIdeal
import proofs.«424088_j28020366639260_2_alg».proof.Proof.Val.EncSpec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.Val.RefRead

open Cert.ReferenceIdeal Cert.ReferenceIdeal.Gen Idealize.ShloMosaic Idealize.ShloMosaic.ValueIdx Cert.Lib.ERealArith Cert.Val
open scoped BigOperators

/-! ### The layout and reduction operations at an entry -/

/-- A vector laid out as the one row of a 1 × 128 array. -/
theorem vec_to_row {α : Type} (v : S128.Idx → α) (j : Fin 128) :
    broadcastInDim S1x128 ![1] bcast_S128_S1x128_1 v (ix2 (0 : Fin 1) j) = v (ix1 j) :=
  broadcastInDim_apply _ _ _ (ix2 (0 : Fin 1) j) (ix1 j) (fun a => by
    match a with
    | ⟨0, _⟩ => rfl)

/-- The one row repeated down the hundred thousand rows. -/
theorem row_to_rows {α : Type} (w : S1x128.Idx → α) (r : Fin 100000) (j : Fin 128) :
    broadcastInDim S100000x128 ![0, 1] bcast_S1x128_S100000x128_0_1 w (ix2 r j) = w (ix2 (0 : Fin 1) j) :=
  broadcastInDim_apply _ _ _ (ix2 r j) (ix2 (0 : Fin 1) j) (fun a => by
    match a with
    | ⟨0, _⟩ => rfl
    | ⟨1, _⟩ => rfl)

/-- A vector laid along the columns and repeated down the rows. -/
def bcastRows {α : Type} (v : S128.Idx → α) : S100000x128.Idx → α :=
  broadcastInDim S100000x128 ![0, 1] bcast_S1x128_S100000x128_0_1 (broadcastInDim S1x128 ![1] bcast_S128_S1x128_1 v)

theorem bcastRows_apply {α : Type} (v : S128.Idx → α) (r : Fin 100000) (j : Fin 128) : bcastRows v (ix2 r j) = v (ix1 j) :=
  (row_to_rows _ r j).trans (vec_to_row v j)

/-- The transposed weight matrix. -/
theorem transpose_w {α : Type} (W : S128x128.Idx → α) (k j : Fin 128) :
    transpose S128x128 [1, 0] W transposes_S128x128_S128x128_1_0 (ix2 k j) = W (ix2 j k) :=
  transpose_apply _ _ _ (ix2 k j) (ix2 j k) (fun b => by
    match b with
    | ⟨0, _⟩ => rfl
    | ⟨1, _⟩ => rfl)

/-- A column's sum over the rows, from the initial value. -/
theorem col_reduce (y : FVec Ideal S100000x128 .f32) (init : S_.Idx → Ideal .f32) (j : Fin 128) :
    Host.reduceAdd y init reducesTo_S100000x128_S128_d0 h_S_ (ix1 j) = init ix0 + ∑ r : Fin 100000, y (ix2 r j) := by
  rw [hostReduceAdd_apply, Ideal.hostReduceAdd_single reducesTo_S100000x128_S128_d0 (by decide : S100000x128.Reduces [0] S128)]
  have e1 : init (Shape.Idx.first h_S_) = init ix0 := congrArg init (funext fun a => a.elim0)
  rw [e1]
  refine congrArg (fun z => init ix0 + z) ?_
  exact Finset.sum_congr rfl fun r _ => congrArg y (funext fun a => by
    match a with
    | ⟨0, _⟩ => rfl
    | ⟨1, _⟩ => rfl)

/-- The matrix product at an entry. -/
theorem dot_read (x : FVec Ideal S100000x128 .f32) (w : FVec Ideal S128x128 .f32) (r : Fin 100000) (j : Fin 128) :
    Host.dotGeneral dot_S100000x128_S128x128_S100000x128_1_0_0_1_n_n none x w (ix2 r j) = ∑ k : Fin 128, x (ix2 r k) * w (ix2 k j) := by
  show FloatOps.dotGeneral _ none _ x w (ix2 r j) = _
  rw [Ideal.dotGeneral_apply, ← Equiv.sum_comp (contrEquiv1 dot_S100000x128_S128x128_S100000x128_1_0_0_1_n_n 128 rfl rfl).symm]
  refine Finset.sum_congr rfl fun c _ => ?_
  have c2 := contrEquiv1_symm_val dot_S100000x128_S128x128_S100000x128_1_0_0_1_n_n 128 rfl rfl c
  have l2 : dot_S100000x128_S128x128_S100000x128_1_0_0_1_n_n.lhsIdx (ix2 r j) ((contrEquiv1 _ 128 rfl rfl).symm c) = ix2 r c := by
    funext ax; apply Fin.ext
    match ax with
    | ⟨0, _⟩ => simp [DotDims.lhsIdx, dot_S100000x128_S128x128_S100000x128_1_0_0_1_n_n]; rfl
    | ⟨1, _⟩ => simp [DotDims.lhsIdx, dot_S100000x128_S128x128_S100000x128_1_0_0_1_n_n]; exact c2
  have r2 : dot_S100000x128_S128x128_S100000x128_1_0_0_1_n_n.rhsIdx (ix2 r j) ((contrEquiv1 _ 128 rfl rfl).symm c) = ix2 c j := by
    funext ax; apply Fin.ext
    match ax with
    | ⟨0, _⟩ => simp [DotDims.rhsIdx, dot_S100000x128_S128x128_S100000x128_1_0_0_1_n_n]; exact c2
    | ⟨1, _⟩ => simp [DotDims.rhsIdx, dot_S100000x128_S128x128_S100000x128_1_0_0_1_n_n]; rfl
  rw [l2, r2]

/-- Row 0 of the two-row table, as a vector. -/
theorem slice_row0 {α : Type} (G : S2x128.Idx → α) (j : Fin 128) :
    shapeCast S128 (extractStridedSlice S1x128 ![0, 0] G slices_S2x128_S1x128_0_0) shapeCasts_S1x128_S128 (ix1 j) = G (ix2 (0 : Fin 2) j) := by
  refine (shapeCast_apply _ _ (ix1 j) (ix2 (0 : Fin 1) j) (by
    rw [Shape.rowMajor_val_one, Shape.rowMajor_val_two]; simp)).trans ?_
  exact extractStridedSlice_apply _ _ _ (ix2 (0 : Fin 1) j) (ix2 (0 : Fin 2) j) (fun a => by
    match a with
    | ⟨0, _⟩ => rfl
    | ⟨1, _⟩ => simp)

/-- Row 1 of the two-row table, as a vector. -/
theorem slice_row1 {α : Type} (G : S2x128.Idx → α) (j : Fin 128) :
    shapeCast S128 (extractStridedSlice S1x128 ![1, 0] G slices_S2x128_S1x128_1_0) shapeCasts_S1x128_S128 (ix1 j) = G (ix2 (1 : Fin 2) j) := by
  refine (shapeCast_apply _ _ (ix1 j) (ix2 (0 : Fin 1) j) (by
    rw [Shape.rowMajor_val_one, Shape.rowMajor_val_two]; simp)).trans ?_
  exact extractStridedSlice_apply _ _ _ (ix2 (0 : Fin 1) j) (ix2 (1 : Fin 2) j) (fun a => by
    match a with
    | ⟨0, _⟩ => rfl
    | ⟨1, _⟩ => simp)

/-! ### The linear layer as the reference spells it -/

/-- The product with the transposed weights, plus the bias repeated down the rows. -/
def refLin (x : FVec Ideal S100000x128 .f32) (W : FVec Ideal S128x128 .f32) (b : FVec Ideal S128 .f32) : FVec Ideal S100000x128 .f32 :=
  addf (Host.dotGeneral dot_S100000x128_S128x128_S100000x128_1_0_0_1_n_n none x (transpose S128x128 [1, 0] W transposes_S128x128_S128x128_1_0))
    (bcastRows b)

theorem refLin_eq (x : FVec Ideal S100000x128 .f32) (W : FVec Ideal S128x128 .f32) (b : FVec Ideal S128 .f32) :
    refLin x W b = lin x W b := by
  funext i
  obtain ⟨r, j, rfl⟩ : ∃ (r : Fin 100000) (j : Fin 128), i = ix2 r j := ⟨i 0, i 1, eq_ix2 i⟩
  rw [lin_ix2]
  unfold refLin linE
  rw [addf_apply, bcastRows_apply, dot_read]
  refine Eq.trans (add_comm (G := EReal) _ _) ?_
  refine congrArg (fun z : EReal => b (ix1 j) + z) ?_
  exact Finset.sum_congr rfl fun k _ => by rw [transpose_w]

/-! ### The normalisation as the reference spells it -/

/-- The literal zero as a rank-0 array. -/
abbrev zero0 : FVec Ideal S_ .f32 := constant (F := Ideal) S_ .f32 0x00000000#32
/-- The literal 100000 as a rank-0 array. -/
abbrev n0 : FVec Ideal S_ .f32 := constant (F := Ideal) S_ .f32 0x47C35000#32

/-- The column sums. -/
def rSum (y : FVec Ideal S100000x128 .f32) : FVec Ideal S128 .f32 :=
  Host.reduceAdd y zero0 reducesTo_S100000x128_S128_d0 h_S_

/-- The column means. -/
def rMeanV (y : FVec Ideal S100000x128 .f32) : FVec Ideal S128 .f32 :=
  Host.divf (rSum y) (broadcastInDim S128 ![] bcast_S_S128 n0)

/-- The number of rows less the zero degrees of freedom, as a rank-0 array. -/
def rNd : FVec Ideal S_ .f32 := subf n0 (sitofp (F := Ideal) .f32 (constantI S_ 32 0#32))

/-- The column variances: the mean of the squared deviations, selected against a junk value by a comparison
    that holds. -/
def rVarV (y : FVec Ideal S100000x128 .f32) : FVec Ideal S128 .f32 :=
  select (broadcastInDim S128 ![] bcast_S_S128 (cmpf (F := Ideal) .ogt rNd zero0))
    (Host.divf
      (Host.reduceAdd
        (mulf
          (subf y (broadcastInDim S100000x128 ![0, 1] bcast_S1x128_S100000x128_0_1
            (Host.divf (broadcastInDim S1x128 ![1] bcast_S128_S1x128_1 (rSum y)) (broadcastInDim S1x128 ![] bcast_S_S1x128 n0))))
          (subf y (broadcastInDim S100000x128 ![0, 1] bcast_S1x128_S100000x128_0_1
            (Host.divf (broadcastInDim S1x128 ![1] bcast_S128_S1x128_1 (rSum y)) (broadcastInDim S1x128 ![] bcast_S_S1x128 n0)))))
        zero0 reducesTo_S100000x128_S128_d0 h_S_)
      (broadcastInDim S128 ![] bcast_S_S128 rNd))
    (broadcastInDim S128 ![] bcast_S_S128 (id (constant (F := Ideal) S_ .f32 0x7FC00000#32)))

/-- The normalised, scaled, shifted and clamped array. -/
def refBN (y : FVec Ideal S100000x128 .f32) (g6 β8 : FVec Ideal S128 .f32) : FVec Ideal S100000x128 .f32 :=
  maximumf
    (addf
      (mulf
        (mulf (subf y (bcastRows (rMeanV y)))
          (bcastRows (Host.rsqrt (addf (rVarV y) (broadcastInDim S128 ![] bcast_S_S128 (constant (F := Ideal) S_ .f32 0x3727C5AC#32))))))
        (bcastRows g6))
      (bcastRows β8))
    (broadcastInDim S100000x128 ![] bcast_S_S100000x128 zero0)

theorem zero0_apply : zero0 ix0 = (0 : EReal) := Ideal.ofBits_zero_f32
theorem n0_apply : n0 ix0 = nRows := rfl

theorem rSum_apply (y : FVec Ideal S100000x128 .f32) (j : Fin 128) : rSum y (ix1 j) = colSum y j := by
  unfold rSum
  rw [col_reduce, zero0_apply, zero_add]
  rfl

theorem rMeanV_apply (y : FVec Ideal S100000x128 .f32) (j : Fin 128) : rMeanV y (ix1 j) = meanCol y j := by
  unfold rMeanV meanCol
  rw [hostDivf_apply, rSum_apply, broadcastInDim_scalar_apply, n0_apply]

/-- The divisor of the variance is the number of rows. -/
theorem rNd_apply : rNd ix0 = nRows := by
  unfold rNd
  rw [subf_apply, n0_apply, sitofp_apply]
  show nRows - FloatOps.sitofp (F := Ideal) .f32 (0#32 : BitVec 32) = nRows
  rw [nRows_coe, sitofp_coe, sub_coe]
  simp

/-- The comparison holds: a hundred thousand is above zero. -/
theorem rCmp_apply : cmpf (F := Ideal) .ogt rNd zero0 ix0 = 1#1 := by
  rw [cmpf_apply, rNd_apply, zero0_apply, nRows_coe, zero_eq_coe]
  exact cmpf_ogt_coe_of_lt (by norm_num)

theorem rVarV_apply (y : FVec Ideal S100000x128 .f32) (j : Fin 128) : rVarV y (ix1 j) = varCol y j := by
  unfold rVarV varCol
  rw [select_apply, broadcastInDim_scalar_apply, rCmp_apply, select_one, hostDivf_apply, col_reduce, zero0_apply, zero_add,
    broadcastInDim_scalar_apply, rNd_apply]
  refine congrArg (fun z => Ideal.div z nRows) ?_
  refine Finset.sum_congr rfl fun r _ => ?_
  rw [mulf_apply, subf_apply, row_to_rows, hostDivf_apply, vec_to_row, rSum_apply, broadcastInDim_scalar_apply, n0_apply]
  rfl

theorem refBN_apply (y : FVec Ideal S100000x128 .f32) (g6 β8 : FVec Ideal S128 .f32) (r : Fin 100000) (j : Fin 128) :
    refBN y g6 β8 (ix2 r j)
      = max ((y (ix2 r j) - meanCol y j) * Ideal.rsqrt (varCol y j + epsBN) * g6 (ix1 j) + β8 (ix1 j)) 0 := by
  unfold refBN
  rw [maximumf_apply, addf_apply, mulf_apply, mulf_apply, subf_apply, bcastRows_apply, bcastRows_apply, bcastRows_apply,
    bcastRows_apply, rMeanV_apply, broadcastInDim_scalar_apply, zero0_apply]
  show max ((y (ix2 r j) - meanCol y j) * Ideal.rsqrt (rVarV y (ix1 j) + epsBN) * g6 (ix1 j) + β8 (ix1 j)) 0 = _
  rw [rVarV_apply]

/-- The reference's normalisation is the normalisation from the centred moments, at layer ℓ when the gain and
    offset vectors are row ℓ of the two tables. -/
theorem refBN_eq (y : FVec Ideal S100000x128 .f32) (g6 β8 : FVec Ideal S128 .f32) (G B : SG.Idx → EReal) (ℓ : Fin 2)
    (hg : ∀ j : Fin 128, g6 (ix1 j) = G (ix2 ℓ j)) (hβ : ∀ j : Fin 128, β8 (ix1 j) = B (ix2 ℓ j)) :
    refBN y g6 β8 = bnR y G B ℓ := by
  funext i
  obtain ⟨r, j, rfl⟩ : ∃ (r : Fin 100000) (j : Fin 128), i = ix2 r j := ⟨i 0, i 1, eq_ix2 i⟩
  rw [bnR_ix2, refBN_apply, hg, hβ]
  rfl

end Cert.Val.RefRead

end
-- ==== Proof.Val.EncR.lean ====
/-
  The reference's side of the patient encoder's first two layers: the contents of its buffers at the end of the
  run, as the layers' entry-by-entry functions of the argument arrays. The first linear layer's output is
  b₁ + x · W₁ᵀ; the second's is b₂ + h · W₂ᵀ where h is the first output normalised column by column from its
  centred moments, scaled, shifted and clamped at zero.
-/
import proofs.«424088_j28020366639260_2_alg».proof.Proof.Val.EncRd
import proofs.«424088_j28020366639260_2_alg».proof.Proof.Val.EncRLib

set_option maxRecDepth 16384

noncomputable section

namespace Cert.Val

open Cert.ReferenceIdeal Cert.ReferenceIdeal.Gen Cert.ReferenceIdeal.Hand Cert.Val.Rd Cert.Val.RefRead
open Idealize.ShloMosaic Idealize.ShloMosaic.TcCoe Idealize.SL.Sem Idealize.ShloMosaic.StableHlo Idealize.ShloMosaic.ValueIdx

variable (V : Valuation τ sig (Elt Ideal))

/-- The reference's argument arrays the encoder reads, at their literal types. -/
abbrev rA0 : FVec Ideal S100000x128 .f32 := V (Proc.devRef .tc main_arg0)
abbrev rA4 : FVec Ideal S128x128 .f32 := V (Proc.devRef .tc main_arg4)
abbrev rA5 : FVec Ideal S128 .f32 := V (Proc.devRef .tc main_arg5)
abbrev rA6 : FVec Ideal S128x128 .f32 := V (Proc.devRef .tc main_arg6)
abbrev rA7 : FVec Ideal S128 .f32 := V (Proc.devRef .tc main_arg7)
abbrev rA10 : FVec Ideal S2x128 .f32 := V (Proc.devRef .tc main_arg10)
abbrev rA11 : FVec Ideal S2x128 .f32 := V (Proc.devRef .tc main_arg11)

/-- The first linear layer's output. -/
theorem R_y1 : (after (ops (F := Ideal)) V (Proc.devRef .tc main_v4) : FVec Ideal S100000x128 .f32)
    = lin (rA0 V) (rA4 V) (rA5 V) := by
  rw [rd_main_v4 V, rd_main_v1 V, rd_main_v0 V, rd_main_v3 V, rd_main_v2 V, after_ops_arg main_arg0 (by decide) V,
    after_ops_arg main_arg4 (by decide) V, after_ops_arg main_arg5 (by decide) V]
  exact refLin_eq _ _ _

/-- Row 0 of the gains and of the offsets, as the reference slices them. -/
theorem R_g0 (j : Fin 128) : (after (ops (F := Ideal)) V (Proc.devRef .tc main_v6) : FVec Ideal S128 .f32) (ix1 j) = rA10 V (ix2 (0 : Fin 2) j) := by
  rw [rd_main_v6 V, rd_main_v5 V, after_ops_arg main_arg10 (by decide) V]
  exact slice_row0 _ j

theorem R_b0 (j : Fin 128) : (after (ops (F := Ideal)) V (Proc.devRef .tc main_v8) : FVec Ideal S128 .f32) (ix1 j) = rA11 V (ix2 (0 : Fin 2) j) := by
  rw [rd_main_v8 V, rd_main_v7 V, after_ops_arg main_arg11 (by decide) V]
  exact slice_row0 _ j

/-- The first normalisation, as the composite of the reference's operations. -/
theorem R_h1_ops : (after (ops (F := Ideal)) V (Proc.devRef .tc main_v28) : FVec Ideal S100000x128 .f32)
    = refBN (after (ops (F := Ideal)) V (Proc.devRef .tc main_v4)) (after (ops (F := Ideal)) V (Proc.devRef .tc main_v6))
        (after (ops (F := Ideal)) V (Proc.devRef .tc main_v8)) := by
  rw [rd_main_v28 V, rd_main_call1_v0 V, rd_main_call1_cst V, rd_main_v27 V, rd_main_v26 V, rd_main_v25 V, rd_main_v24 V,
    rd_main_v23 V, rd_main_v22 V, rd_main_v21 V, rd_main_v20 V, rd_main_v19 V, rd_main_v18 V, rd_main_v17 V, rd_main_v16 V,
    rd_main_cst_1 V, rd_main_v12 V, rd_main_call0_call0_v1 V, rd_main_call0_call0_v0 V, rd_main_call0_cst_4 V,
    rd_main_call0_v12 V, rd_main_call0_cst_3 V, rd_main_call0_v11 V, rd_main_call0_v10 V, rd_main_call0_v9 V,
    rd_main_call0_cst_2 V, rd_main_call0_v8 V, rd_main_call0_cst_1 V, rd_main_call0_v7 V, rd_main_c V, rd_main_call0_v6 V,
    rd_main_call0_v5 V, rd_main_call0_v4 V, rd_main_call0_v3 V, rd_main_call0_v2 V, rd_main_call0_cst_0 V, rd_main_call0_v1 V,
    rd_main_call0_v0 V, rd_main_call0_cst V, rd_main_v15 V, rd_main_v14 V, rd_main_v13 V, rd_main_v11 V, rd_main_v10 V,
    rd_main_cst_0 V, rd_main_v9 V, rd_main_cst V]
  rfl

/-- The first normalisation: from the centred moments of the first layer's output, at layer 0's gains and offsets. -/
theorem R_h1 : (after (ops (F := Ideal)) V (Proc.devRef .tc main_v28) : FVec Ideal S100000x128 .f32)
    = bnR (lin (rA0 V) (rA4 V) (rA5 V)) (rA10 V) (rA11 V) 0 := by
  rw [R_h1_ops V, refBN_eq _ _ _ (rA10 V) (rA11 V) 0 (R_g0 V) (R_b0 V), R_y1 V]

/-- The second linear layer's output. -/
theorem R_y2 : (after (ops (F := Ideal)) V (Proc.devRef .tc main_v33) : FVec Ideal S100000x128 .f32)
    = lin (bnR (lin (rA0 V) (rA4 V) (rA5 V)) (rA10 V) (rA11 V) 0) (rA6 V) (rA7 V) := by
  rw [rd_main_v33 V, rd_main_v30 V, rd_main_v29 V, rd_main_v32 V, rd_main_v31 V, after_ops_arg main_arg6 (by decide) V,
    after_ops_arg main_arg7 (by decide) V, R_h1 V]
  exact refLin_eq _ _ _

end Cert.Val

end
-- ==== Proof.Val.Enc12.lean ====
/-
  The patient encoder's second linear layer on the two sides. The kernel program's output array after its
  second region, and the reference's buffer at the end of its run, are the same entry-by-entry function of the
  argument arrays, up to the form of the normalisation between the layers: from the column sums and sums of
  squares on one side, from the centred moments on the other. On real arguments the first layer's output is
  real, the two normalisations agree on it, and the second layer's output is real again.
-/
import proofs.«424088_j28020366639260_2_alg».proof.Proof.Val.EncK1
import proofs.«424088_j28020366639260_2_alg».proof.Proof.Val.EncK2
import proofs.«424088_j28020366639260_2_alg».proof.Proof.Val.EncR

set_option maxRecDepth 16384

noncomputable section

namespace Cert.Val

open Idealize.ShloMosaic Idealize.ShloMosaic.TcCoe Idealize.SL.Sem Idealize.ShloMosaic.ValueIdx

/-- The kernel program's second layer output, from the argument arrays as launched. -/
theorem K_y2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Hand.W4 m ρ c (Proc.devRef .tc Cert.KernelIdeal.main_v25_0) : SM.Idx → EReal)
      = lin (bnK (lin (Cert.KernelIdeal.Hand.W0 m ρ c (Proc.devRef .tc Cert.KernelIdeal.main_arg0) : SM.Idx → EReal)
                    (Cert.KernelIdeal.Hand.W0 m ρ c (Proc.devRef .tc Cert.KernelIdeal.main_arg4) : SW.Idx → EReal)
                    (Cert.KernelIdeal.Hand.W0 m ρ c (Proc.devRef .tc Cert.KernelIdeal.main_arg5) : SV.Idx → EReal))
               (Cert.KernelIdeal.Hand.W0 m ρ c (Proc.devRef .tc Cert.KernelIdeal.main_arg10) : SG.Idx → EReal)
               (Cert.KernelIdeal.Hand.W0 m ρ c (Proc.devRef .tc Cert.KernelIdeal.main_arg11) : SG.Idx → EReal) 0)
          (Cert.KernelIdeal.Hand.W0 m ρ c (Proc.devRef .tc Cert.KernelIdeal.main_arg6) : SW.Idx → EReal)
          (Cert.KernelIdeal.Hand.W0 m ρ c (Proc.devRef .tc Cert.KernelIdeal.main_arg7) : SV.Idx → EReal) :=
  (K_y2_of m ρ c (K_s1 m ρ c) (K_q1 m ρ c)).trans
    (congrArg (fun y : SM.Idx → EReal =>
        lin (bnK y (Cert.KernelIdeal.Hand.W0 m ρ c (Proc.devRef .tc Cert.KernelIdeal.main_arg10) : SG.Idx → EReal)
              (Cert.KernelIdeal.Hand.W0 m ρ c (Proc.devRef .tc Cert.KernelIdeal.main_arg11) : SG.Idx → EReal) 0)
          (Cert.KernelIdeal.Hand.W0 m ρ c (Proc.devRef .tc Cert.KernelIdeal.main_arg6) : SW.Idx → EReal)
          (Cert.KernelIdeal.Hand.W0 m ρ c (Proc.devRef .tc Cert.KernelIdeal.main_arg7) : SV.Idx → EReal))
      (K_y1 m ρ c))

/-- The two sides' second layer outputs are equal and real when the arguments are. -/
theorem link_main_v25_0 (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    (V : Valuation Cert.ReferenceIdeal.τ Cert.ReferenceIdeal.sig (Elt Ideal))
    (e0 : (Cert.KernelIdeal.Hand.W0 m g c (Proc.devRef .tc Cert.KernelIdeal.main_arg0) : SM.Idx → EReal) = V (Proc.devRef .tc Cert.ReferenceIdeal.main_arg0))
    (r0 : ∀ i, ∃ r : ℝ, (V (Proc.devRef .tc Cert.ReferenceIdeal.main_arg0) : SM.Idx → EReal) i = (r : EReal))
    (e4 : (Cert.KernelIdeal.Hand.W0 m g c (Proc.devRef .tc Cert.KernelIdeal.main_arg4) : SW.Idx → EReal) = V (Proc.devRef .tc Cert.ReferenceIdeal.main_arg4))
    (r4 : ∀ i, ∃ r : ℝ, (V (Proc.devRef .tc Cert.ReferenceIdeal.main_arg4) : SW.Idx → EReal) i = (r : EReal))
    (e5 : (Cert.KernelIdeal.Hand.W0 m g c (Proc.devRef .tc Cert.KernelIdeal.main_arg5) : SV.Idx → EReal) = V (Proc.devRef .tc Cert.ReferenceIdeal.main_arg5))
    (r5 : ∀ i, ∃ r : ℝ, (V (Proc.devRef .tc Cert.ReferenceIdeal.main_arg5) : SV.Idx → EReal) i = (r : EReal))
    (e6 : (Cert.KernelIdeal.Hand.W0 m g c (Proc.devRef .tc Cert.KernelIdeal.main_arg6) : SW.Idx → EReal) = V (Proc.devRef .tc Cert.ReferenceIdeal.main_arg6))
    (r6 : ∀ i, ∃ r : ℝ, (V (Proc.devRef .tc Cert.ReferenceIdeal.main_arg6) : SW.Idx → EReal) i = (r : EReal))
    (e7 : (Cert.KernelIdeal.Hand.W0 m g c (Proc.devRef .tc Cert.KernelIdeal.main_arg7) : SV.Idx → EReal) = V (Proc.devRef .tc Cert.ReferenceIdeal.main_arg7))
    (r7 : ∀ i, ∃ r : ℝ, (V (Proc.devRef .tc Cert.ReferenceIdeal.main_arg7) : SV.Idx → EReal) i = (r : EReal))
    (e10 : (Cert.KernelIdeal.Hand.W0 m g c (Proc.devRef .tc Cert.KernelIdeal.main_arg10) : SG.Idx → EReal) = V (Proc.devRef .tc Cert.ReferenceIdeal.main_arg10))
    (r10 : ∀ i, ∃ r : ℝ, (V (Proc.devRef .tc Cert.ReferenceIdeal.main_arg10) : SG.Idx → EReal) i = (r : EReal))
    (e11 : (Cert.KernelIdeal.Hand.W0 m g c (Proc.devRef .tc Cert.KernelIdeal.main_arg11) : SG.Idx → EReal) = V (Proc.devRef .tc Cert.ReferenceIdeal.main_arg11))
    (r11 : ∀ i, ∃ r : ℝ, (V (Proc.devRef .tc Cert.ReferenceIdeal.main_arg11) : SG.Idx → EReal) i = (r : EReal)) :
    (Cert.KernelIdeal.Hand.W4 m g c (Proc.devRef .tc Cert.KernelIdeal.main_v25_0) : SM.Idx → EReal)
        = StableHlo.after Cert.ReferenceIdeal.Hand.ops V (Proc.devRef .tc Cert.ReferenceIdeal.main_v33)
      ∧ ∀ i, ∃ r : ℝ, (StableHlo.after Cert.ReferenceIdeal.Hand.ops V (Proc.devRef .tc Cert.ReferenceIdeal.main_v33) : SM.Idx → EReal) i = (r : EReal) := by
  have hy1 := real_lin r0 r4 r5
  have hR := R_y2 V
  refine ⟨?_, ?_⟩
  · rw [K_y2 m g c, e0, e4, e5, e6, e7, e10, e11, bnK_eq_bnR 0 hy1 r10 r11]
    exact hR.symm
  · rw [hR]
    exact real_lin (real_bnR 0 hy1 r10 r11) r6 r7

end Cert.Val

end
-- ==== Proof.KI.V2.lean ====
/- Region 2 of the kernel program, the values: the output array after the region as one function, index by
   index, of the arrays the region is entered with. -/
import proofs.«424088_j28020366639260_2_alg».proof.Proof.KI.R2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

/-! ## At any float values: the output is, row block by row block, the payload of the row block -/

section Generic

variable {F : FTy → Type} [FloatOps F]

theorem hz2 : (![0, 0] : Fin 2 → Nat) = fun _ => 0 := funext fun a => by fin_cases a <;> rfl

/-- Rows `2000 q … 2000 q + 1999` of a 100000 × 128 array. -/
def rowBlk2 (x : S100000x128.Idx → Elt F .f32) (q : Fin 50) : Vec F S2000x128 .f32 :=
  fun y => x (ix2 (n0 := 100000) (n1 := 128) ⟨q.val * 2000 + (y 0).val, by have := idx2_lt0 y; have := q.isLt; omega⟩ (y 1))

/-- What the output array ends holding: at row `r`, column `j`, the payload of the row block `r / 2000` (with the
    scale, shift, weights and bias whole) read at row `r % 2000`, column `j`. -/
def G2_5 (x : S100000x128.Idx → Elt F .f32) (sc sh : S1x128.Idx → Elt F .f32) (w : S128x128.Idx → Elt F .f32)
    (b : S1x128.Idx → Elt F .f32) : S100000x128.Idx → Elt F .f32 := fun i =>
  k2_pay1 b (rowBlk2 x ⟨(i 0).val / 2000, by have := idx2_lt0 i; omega⟩) sc sh w
    (ix2 (n0 := 2000) (n1 := 128) ⟨(i 0).val % 2000, Nat.mod_lt _ (by decide)⟩ (i 1))

/-- At an index of row block `q`: the payload of that block at the index inside it. -/
theorem G2_5_at (x : S100000x128.Idx → Elt F .f32) (sc sh : S1x128.Idx → Elt F .f32) (w : S128x128.Idx → Elt F .f32)
    (b : S1x128.Idx → Elt F .f32) (q : Fin 50) (j : S2000x128.Idx) (i : S100000x128.Idx)
    (h0 : (i 0).val = q.val * 2000 + (j 0).val) (h1 : (i 1).val = (j 1).val) :
    G2_5 x sc sh w b i = k2_pay1 b (rowBlk2 x q) sc sh w j := by
  have hj0 := idx2_lt0 j
  have hq : (⟨(i 0).val / 2000, by have := idx2_lt0 i; omega⟩ : Fin 50) = q := Fin.ext (by show (i 0).val / 2000 = q.val; omega)
  have hj : ix2 (n0 := 2000) (n1 := 128) ⟨(i 0).val % 2000, Nat.mod_lt _ (by decide)⟩ (i 1) = j := by
    funext a; apply Fin.ext
    match a with
    | ⟨0, _⟩ => show (i 0).val % 2000 = (j 0).val; omega
    | ⟨1, _⟩ => exact h1
  unfold G2_5
  rw [hq, hj]

/-- The printed index maps, decided over the grid: the row windows sit at the point's own row block, the four
    whole-array windows at block zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt F) ((c : Thread nD τ).loc b))

/-- The point's number as a row-block number. -/
abbrev blkNo2 (t : Fin cfg2.N) : Fin 50 := ⟨t.val, lt_of_lt_of_eq t.isLt N_2⟩

/-- Window 0's block at point `t` is row block `t` of its array. -/
theorem iblk2_0_eq (c : Dev nD) (t : Fin cfg2.N) : iblk2 V c 0 t = rowBlk2 (V c main_v25_0) (blkNo2 t) := by
  obtain ⟨e00, e01, -⟩ := idx_facts2 t
  funext y
  show V c main_v25_0 (((cfg2.win 0).blk t).view.emb y) = V c main_v25_0 _
  refine congrArg _ (funext fun a => Fin.ext ?_)
  match a with
  | ⟨0, _⟩ => show win2_0.index t (0 : Fin 2) * 2000 + 1 * (y 0).val = t.val * 2000 + (y 0).val; omega
  | ⟨1, _⟩ => show win2_0.index t (1 : Fin 2) * 128 + 1 * (y 1).val = (y 1).val; omega

/-- Windows 1 to 4 hold their whole arrays at every point. -/
theorem iblk2_1_eq (c : Dev nD) (t : Fin cfg2.N) : iblk2 V c 1 t = V c main_v45 := by
  obtain ⟨-, -, e0, e1, -⟩ := idx_facts2 t
  funext y
  show V c main_v45 (((cfg2.win 1).blk t).view.emb y) = V c main_v45 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

theorem iblk2_2_eq (c : Dev nD) (t : Fin cfg2.N) : iblk2 V c 2 t = V c main_v46 := by
  obtain ⟨-, -, -, -, e0, e1, -⟩ := idx_facts2 t
  funext y
  show V c main_v46 (((cfg2.win 2).blk t).view.emb y) = V c main_v46 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem iblk2_3_eq (c : Dev nD) (t : Fin cfg2.N) : iblk2 V c 3 t = V c main_v44 := by
  obtain ⟨-, -, -, -, -, -, e0, e1, -⟩ := idx_facts2 t
  funext y
  show V c main_v44 (((cfg2.win 3).blk t).view.emb y) = V c main_v44 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem iblk2_4_eq (c : Dev nD) (t : Fin cfg2.N) : iblk2 V c 4 t = V c main_v47 := by
  obtain ⟨-, -, -, -, -, -, -, -, e0, e1, -⟩ := idx_facts2 t
  funext y
  show V c main_v47 (((cfg2.win 4).blk t).view.emb y) = V c main_v47 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point `t` writes back is block `t` of `G2_5` of the arrays as the region finds them. -/
theorem flushed2_5_eq (c : Dev nD) (t : Fin cfg2.N) :
    (dat2 V c).flushed 5 t = ((cfg2.win 5).blk t).view.read (Elt F)
      (G2_5 (V c main_v25_0) (V c main_v45) (V c main_v46) (V c main_v44) (V c main_v47)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S1x128) hz2, View.ld_unit_zero (S := S128x128) hz2]
  rw [iblk2_0_eq, iblk2_1_eq, iblk2_2_eq, iblk2_3_eq, iblk2_4_eq]
  obtain ⟨-, -, -, -, -, -, -, -, -, -, e0, e1⟩ := idx_facts2 t
  funext j
  refine (G2_5_at _ _ _ _ _ (blkNo2 t) j (((cfg2.win 5).blk t).view.emb j) ?_ ?_).symm
  · show win2_5.index t (0 : Fin 2) * 2000 + 1 * (j 0).val = t.val * 2000 + (j 0).val; omega
  · show win2_5.index t (1 : Fin 2) * 128 + 1 * (j 1).val = (j 1).val; omega

/-- An index of the array is in point `t`'s block iff each coordinate is in the block's range on its axis. -/
theorem mem_blk2_5 (t : Fin cfg2.N) (i : S100000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v48).slice (win2_5.rect t)).set ↔ _
  rw [View.set_slice_whole, Rect.mem_set_unit]
  exact Iff.rfl

/-- Every row is in the block of the point numbered by its row block: the fifty blocks cover the array. -/
theorem covered2_5 (i : S100000x128.Idx) :
    ∃ t : Fin cfg2.N, (cfg2.win 5).flush t = true ∧ i ∈ ((cfg2.win 5).blk t).view.set := by
  have hi0 := idx2_lt0 i
  have hi1 := idx2_lt1 i
  have hN : cfg2.N = 50 := N_2
  refine ⟨⟨(i 0).val / 2000, by rw [hN]; omega⟩, flush2_5 _, ?_⟩
  rw [mem_blk2_5]
  obtain ⟨-, -, -, -, -, -, -, -, -, -, e0, e1⟩ := idx_facts2 ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

/-- THE OUTPUT ARRAY after the region, at any float values. -/
theorem arrAt2_5 (c : Dev nD) :
    (dat2 V c).arrAt 5 cfg2.N = G2_5 (V c main_v25_0) (V c main_v45) (V c main_v46) (V c main_v44) (V c main_v47) :=
  (dat2 V c).arrAt_eq_of_cover 5 _ (fun t _ => flushed2_5_eq V c t) covered2_5

end Generic

/-! ## At the exact values -/

/-- The block product's dimension numbers: rows by columns, one contracted axis of 128. -/
abbrev D2 : DotDims S2000x128 S128x128 S2000x128 := dot_S2000x128_S128x128_S2000x128_1_0_0_1_n_n

/-- Its contraction index is its one coordinate. -/
abbrev κ2 : D2.contr.Idx ≃ Fin 128 := contrEquiv1 D2 128 rfl rfl

/-- The left operand is read at the output's row and the contraction's coordinate, -/
theorem lhsIdx2 (j : S2000x128.Idx) (k : Fin 128) : D2.lhsIdx j (κ2.symm k) = ix2 (n0 := 2000) (n1 := 128) (j 0) k := by
  funext a; apply Fin.ext
  match a with
  | ⟨0, _⟩ => simp [DotDims.lhsIdx, D2, dot_S2000x128_S128x128_S2000x128_1_0_0_1_n_n]; rfl
  | ⟨1, _⟩ =>
    rw [show (⟨1, by decide⟩ : Fin S2000x128.rank) = (1 : Fin 2) from rfl, D2.lhsIdx_val_of_single (cl := 1) rfl]
    exact contrEquiv1_symm_val D2 128 rfl rfl k

/-- the right one at the contraction's coordinate and the output's column. -/
theorem rhsIdx2 (j : S2000x128.Idx) (k : Fin 128) : D2.rhsIdx j (κ2.symm k) = ix2 (n0 := 128) (n1 := 128) k (j 1) := by
  funext a; apply Fin.ext
  match a with
  | ⟨0, _⟩ =>
    rw [show (⟨0, by decide⟩ : Fin S128x128.rank) = (0 : Fin 2) from rfl, D2.rhsIdx_val_of_single (cr := 0) rfl]
    exact contrEquiv1_symm_val D2 128 rfl rfl k
  | ⟨1, _⟩ => simp [DotDims.rhsIdx, D2, dot_S2000x128_S128x128_S2000x128_1_0_0_1_n_n]; rfl

/-- A one-row vector broadcast down 2000 rows reads its row at the column. -/
theorem bcast_row2 {α : Type} (v : S1x128.Idx → α) (j : S2000x128.Idx) :
    broadcastTo S2000x128 v broadcasts_S1x128_S2000x128 j = v (ix2 (n0 := 1) (n1 := 128) 0 (j 1)) :=
  broadcastTo_apply v _ j _ (fun a => by match a with | ⟨0, _⟩ => rfl | ⟨1, _⟩ => rfl)

/-- The payload at the exact values, read at an index: the bias at the column plus the sum over the 128 columns of the
    row's rectified affine image times the weights. -/
theorem k2_pay1_ideal (v0 : Vec Ideal S1x128 .f32) (v2 : Vec Ideal S2000x128 .f32) (v4 v8 : Vec Ideal S1x128 .f32)
    (v15 : Vec Ideal S128x128 .f32) (j : S2000x128.Idx) :
    k2_pay1 v0 v2 v4 v8 v15 j
      = (v0 (ix2 (n0 := 1) (n1 := 128) 0 (j 1)) : EReal) + ∑ k : Fin 128, max (v2 (ix2 (n0 := 2000) (n1 := 128) (j 0) k)
          * v4 (ix2 (n0 := 1) (n1 := 128) 0 k) + v8 (ix2 (n0 := 1) (n1 := 128) 0 k)) 0 * v15 (ix2 (n0 := 128) (n1 := 128) k (j 1)) := by
  unfold k2_pay1
  simp only [shapeCast_self]
  rw [addf_apply]
  simp only [matmul]
  rw [Ideal.matmul_constant_zero_apply, ← Equiv.sum_comp κ2.symm]
  congr 1
  · exact bcast_row2 v0 j
  · refine Finset.sum_congr rfl fun k _ => ?_
    rw [lhsIdx2, rhsIdx2, truncf_apply, truncf_apply, maximumf_apply, addf_apply, mulf_apply, bcast_row2, bcast_row2,
      broadcast_apply]
    show max _ (Ideal.ofBits .f32 0x00000000#32) * _ = _
    rw [Ideal.ofBits_zero_f32]

/-- The output in plain form over the extended reals: `y[r, j] = b[0, j] + Σ_k max (x[r, k] · scale[0, k] + shift[0, k]) 0 · w[k, j]`. -/
def Y2_5 (x : S100000x128.Idx → EReal) (sc sh : S1x128.Idx → EReal) (w : S128x128.Idx → EReal) (b : S1x128.Idx → EReal) :
    S100000x128.Idx → EReal := fun i =>
  b (ix2 (n0 := 1) (n1 := 128) 0 (i 1))
    + ∑ k : Fin 128, max (x (ix2 (n0 := 100000) (n1 := 128) (i 0) k) * sc (ix2 (n0 := 1) (n1 := 128) 0 k)
        + sh (ix2 (n0 := 1) (n1 := 128) 0 k)) 0 * w (ix2 (n0 := 128) (n1 := 128) k (i 1))

/-- At the exact values the row-block form is the plain form. -/
theorem G2_5_ideal (x : S100000x128.Idx → EReal) (sc sh : S1x128.Idx → EReal) (w : S128x128.Idx → EReal) (b : S1x128.Idx → EReal) :
    G2_5 (F := Ideal) x sc sh w b = Y2_5 x sc sh w b := by
  funext i
  unfold G2_5 Y2_5
  rw [k2_pay1_ideal]
  have hx : ∀ k : Fin 128, rowBlk2 (F := Ideal) x ⟨(i 0).val / 2000, by have := idx2_lt0 i; omega⟩
      (ix2 (n0 := 2000) (n1 := 128) ⟨(i 0).val % 2000, Nat.mod_lt _ (by decide)⟩ k)
        = x (ix2 (n0 := 100000) (n1 := 128) (i 0) k) := fun k => by
    unfold rowBlk2
    refine congrArg _ (funext fun a => Fin.ext ?_)
    match a with
    | ⟨0, _⟩ => show (i 0).val / 2000 * 2000 + (i 0).val % 2000 = (i 0).val; omega
    | ⟨1, _⟩ => rfl
  simp only [hx]

/-- THE OUTPUT ARRAY after the region at the exact values. -/
theorem arrAt2_5_ideal (V : (c : Dev nD) → (b : Ref sig .tc) → Buf (Elt Ideal) ((c : Thread nD τ).loc b)) (c : Dev nD) :
    (dat2 V c).arrAt 5 cfg2.N = Y2_5 (V c main_v25_0) (V c main_v45) (V c main_v46) (V c main_v44) (V c main_v47) :=
  (arrAt2_5 V c).trans (G2_5_ideal _ _ _ _ _)

end Cert.KernelIdeal.Hand

end
-- ==== Proof.KI.V3.lean ====
/- Region 3 of the kernel program, the values: the array of normalised rows after the region, as one function
   of the array of rows the region is entered with. -/
import proofs.«424088_j28020366639260_2_alg».proof.Proof.KI.R3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)
open scoped BigOperators

variable {F : FTy → Type} [FloatOps F]

variable (V : (c : Dev nD) → (b : Ref sig .tc) → Buf (Elt F) ((c : Thread nD τ).loc b))

/-! ## Row blocks of a 100000 × 128 array -/

theorem offs_zero3 : (![0, 0] : Fin 2 → Nat) = fun _ => 0 := funext fun a => by fin_cases a <;> rfl

/-- Rows `2000 q … 2000 q + 1999` of a 100000 × 128 array, as a 2000 × 128 block. -/
def rowBlock3 (Y : S100000x128.Idx → Elt F .f32) (q : Fin 50) : Vec F S2000x128 .f32 :=
  fun x => Y (ix2 ⟨2000 * q.val + (x 0).val, by have := idx2_lt0 x; have := q.isLt; omega⟩ (x 1))

/-- The array of normalised rows: row `r` of `Y` divided by the larger of its Euclidean norm and the literal
    1e-12, the norm taken within the block of 2000 rows that holds `r`. -/
def l2rows3 (Y : S100000x128.Idx → Elt F .f32) : S100000x128.Idx → Elt F .f32 := fun i =>
  k3_pay1 (rowBlock3 Y ⟨(i 0).val / 2000, by have := idx2_lt0 i; omega⟩)
    (ix2 ⟨(i 0).val % 2000, Nat.mod_lt _ (by decide)⟩ (i 1))

/-- At row `2000 q + j₀`, column `j₁`, the array of normalised rows is the payload of row block `q` at `(j₀, j₁)`. -/
theorem l2rows3_apply_of_block (Y : S100000x128.Idx → Elt F .f32) (x0 : Vec F S2000x128 .f32) (q : Fin 50)
    (hx : x0 = rowBlock3 Y q) (j : S2000x128.Idx) (i : S100000x128.Idx)
    (h0 : (i 0).val = 2000 * q.val + (j 0).val) (h1 : (i 1).val = (j 1).val) :
    l2rows3 Y i = k3_pay1 x0 j := by
  have hj0 : (j 0).val < 2000 := idx2_lt0 j
  have eq : (⟨(i 0).val / 2000, by have := idx2_lt0 i; omega⟩ : Fin 50) = q := Fin.ext (by show (i 0).val / 2000 = q.val; omega)
  have ej : (ix2 ⟨(i 0).val % 2000, Nat.mod_lt _ (by decide)⟩ (i 1) : S2000x128.Idx) = j := by
    funext a
    match a with
    | ⟨0, _⟩ => exact Fin.ext (by show (i 0).val % 2000 = (j 0).val; omega)
    | ⟨1, _⟩ => exact Fin.ext h1
  unfold l2rows3
  rw [eq, ej, hx]

/-! ## The printed index maps -/

/-- At point `t` both windows are at row block `t`, column block 0. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

theorem N3_eq : cfg3.N = 50 := N_3

/-- A grid point is below 50. -/
theorem pt3_lt (t : Fin cfg3.N) : t.val < 50 := Nat.lt_of_lt_of_le t.isLt (Nat.le_of_eq N3_eq)

/-- The block of `y` at point `t` is row block `t` of the array the region is entered with. -/
theorem iblk3_0_eq_rowBlock (c : Dev nD) (t : Fin cfg3.N) :
    (iblk3 V c 0 t : Vec F S2000x128 .f32)
      = rowBlock3 (V c (Pipeline.arrRef spec3 0) : S100000x128.Idx → Elt F .f32) ⟨t.val, pt3_lt t⟩ := by
  obtain ⟨e0, e1, -, -⟩ := blockIndex3 t
  funext x
  unfold iblk3 rowBlock3
  rw [View.read_apply]
  show (V c (Pipeline.arrRef spec3 0) : S100000x128.Idx → Elt F .f32) _ = (V c (Pipeline.arrRef spec3 0) : S100000x128.Idx → Elt F .f32) _
  congr 1
  funext a
  apply Fin.ext
  match a with
  | ⟨0, _⟩ => show win3_0.index t (0 : Fin 2) * 2000 + 1 * (x 0).val = 2000 * t.val + (x 0).val; rw [e0]; omega
  | ⟨1, _⟩ => show win3_0.index t (1 : Fin 2) * 128 + 1 * (x 1).val = (x 1).val; rw [e1]; omega

/-! ## What each point writes back, and the cover -/

/-- Point `t` writes back block `t` of the array of normalised rows. -/
theorem flushed3_1_eq (c : Dev nD) (t : Fin cfg3.N) :
    (dat3 V c).flushed 1 t = ((cfg3.win 1).blk t).view.read (Elt F) (l2rows3 (V c (Pipeline.arrRef spec3 0))) := by
  show (cfg3.win 1).cut (grid3.coords t) ((dat3 V c).after 1 t) = _
  rw [after3_1]
  unfold out3_1
  rw [View.canon_unit_zero offs_zero3]
  simp only [View.ld_unit_zero (S := S2000x128) offs_zero3]
  obtain ⟨-, -, e2, e3⟩ := blockIndex3 t
  funext j
  show k3_pay1 (iblk3 V c 0 t) j = l2rows3 (V c (Pipeline.arrRef spec3 0)) (((cfg3.win 1).blk t).view.emb j)
  refine (l2rows3_apply_of_block _ _ ⟨t.val, pt3_lt t⟩ (iblk3_0_eq_rowBlock V c t) j _ ?_ ?_).symm
  · show win3_1.index t (0 : Fin 2) * 2000 + 1 * (j 0).val = 2000 * t.val + (j 0).val; rw [e2]; omega
  · show win3_1.index t (1 : Fin 2) * 128 + 1 * (j 1).val = (j 1).val; rw [e3]; omega

/-- An index of the array is in point `t`'s block iff each coordinate is in the block's range on its axis. -/
theorem mem_blk3_1 (t : Fin cfg3.N) (i : S100000x128.Idx) :
    i ∈ ((cfg3.win 1).blk t).view.set ↔ ∀ a : Fin 2, win3_1.index t a * S2000x128.size a ≤ (i a).val ∧ (i a).val < win3_1.index t a * S2000x128.size a + S2000x128.size a := by
  show i ∈ ((View.whole main_v49).slice (win3_1.rect t)).set ↔ _
  rw [View.set_slice_whole, Rect.mem_set_unit]
  exact Iff.rfl

/-- Row `r` is written back by point `r / 2000`. -/
theorem covered3_1 (i : S100000x128.Idx) :
    ∃ t : Fin cfg3.N, (cfg3.win 1).flush t = true ∧ i ∈ ((cfg3.win 1).blk t).view.set := by
  have hi0 : (i 0).val < 100000 := idx2_lt0 i
  have hi1 : (i 1).val < 128 := idx2_lt1 i
  let t : Fin cfg3.N := ⟨(i 0).val / 2000, by rw [N3_eq]; omega⟩
  obtain ⟨-, -, e2, e3⟩ := blockIndex3 t
  have ht : t.val = (i 0).val / 2000 := rfl
  refine ⟨t, flush3_1 t, ?_⟩
  rw [mem_blk3_1]
  intro a
  match a with
  | ⟨0, _⟩ => show win3_1.index t (0 : Fin 2) * 2000 ≤ (i 0).val ∧ (i 0).val < win3_1.index t (0 : Fin 2) * 2000 + 2000; rw [e2, ht]; omega
  | ⟨1, _⟩ => show win3_1.index t (1 : Fin 2) * 128 ≤ (i 1).val ∧ (i 1).val < win3_1.index t (1 : Fin 2) * 128 + 128; rw [e3]; omega

/-! ## The array after the region -/

/-- After the region the output array holds the normalised rows of the array `y` it was entered with. -/
theorem arrAt3_1 (c : Dev nD) :
    (dat3 V c).arrAt 1 cfg3.N = fun i => l2rows3 (V c (Pipeline.arrRef spec3 0)) i :=
  (dat3 V c).arrAt_eq_of_cover 1 (l2rows3 (V c (Pipeline.arrRef spec3 0))) (fun t _ => flushed3_1_eq V c t) covered3_1

/-! ## At the extended reals: every operation the exact one -/

/-- A row block read at an index is the array at the row shifted by the block's first row. -/
theorem rowBlock3_apply (Y : S100000x128.Idx → Elt F .f32) (q : Fin 50) (x : S2000x128.Idx) (k : S100000x128.Idx)
    (h0 : (k 0).val = 2000 * q.val + (x 0).val) (h1 : (k 1).val = (x 1).val) : rowBlock3 Y q x = Y k := by
  unfold rowBlock3
  congr 1
  funext a
  match a with
  | ⟨0, _⟩ => exact Fin.ext h0.symm
  | ⟨1, _⟩ => exact Fin.ext h1.symm

/-- The sum of squares along a row of the block, at the extended reals: the lane reduction as a finite sum. -/
theorem rowSumSq3_ideal (x0 : Vec Ideal S2000x128 .f32) (r : Fin 2000)
    (hφ : FKind.Formats .f32) (hacc : (0x00000000#32 : BitVec 32) = FKind.add.neutral .f32 hφ) :
    multiReduction (F := Ideal) .add [1] S2000 (mulf x0 x0) 0x00000000#32 reduces_S2000x128_S2000 hφ hacc (ix1 r)
      = ∑ k : Fin 128, x0 (ix2 r k) * x0 (ix2 r k) := by
  rw [Ideal.multiReduction_add_single]
  refine Finset.sum_congr rfl fun k _ => ?_
  rw [mulf_apply]
  have e : reduces_S2000x128_S2000.lift (ix1 r) k = ix2 r k := by
    funext a
    match a with
    | ⟨0, _⟩ => rfl
    | ⟨1, _⟩ => rfl
  rw [e]
  rfl

/-- At the extended reals the payload divides each entry of the block by the larger of its row's Euclidean
    norm and the literal. -/
theorem k3_pay1_ideal_apply (x0 : Vec Ideal S2000x128 .f32) (j : S2000x128.Idx) :
    k3_pay1 (F := Ideal) x0 j
      = Ideal.div (x0 j) (max (Ideal.sqrt (∑ k : Fin 128, x0 (ix2 (j 0) k) * x0 (ix2 (j 0) k))) (Ideal.ofBits .f32 0x2B8CBCCC#32)) := by
  unfold k3_pay1
  dsimp only
  rw [shapeCast_self]
  rw [divf_apply]
  refine congrArg (Ideal.div (x0 j)) ?_
  refine (broadcastTo_apply _ _ j (ix2 (j 0) (0 : Fin 1)) (fun a => by
    match a with
    | ⟨0, _⟩ => rfl
    | ⟨1, _⟩ => rfl)).trans ?_
  show max (Ideal.sqrt _) (Ideal.ofBits .f32 0x2B8CBCCC#32) = _
  refine congrArg (fun z => max (Ideal.sqrt z) (Ideal.ofBits .f32 0x2B8CBCCC#32)) ?_
  refine (shapeCast_apply _ _ (ix2 (j 0) (0 : Fin 1)) (ix1 (j 0)) (by
    rw [Shape.rowMajor_val_one, Shape.rowMajor_val_two]; simp)).trans ?_
  exact rowSumSq3_ideal x0 (j 0) _ _

/-- The array of normalised rows at the extended reals, index by index: `Y i / max (√(∑ₖ Y (r, k)²)) 1e-12`
    at `i = (r, l)`, the literal kept as its bit pattern. -/
theorem l2rows3_ideal_apply (Y : S100000x128.Idx → Elt Ideal .f32) (i : S100000x128.Idx) :
    l2rows3 (F := Ideal) Y i
      = Ideal.div (Y i) (max (Ideal.sqrt (∑ k : Fin 128, Y (ix2 (i 0) k) * Y (ix2 (i 0) k))) (Ideal.ofBits .f32 0x2B8CBCCC#32)) := by
  have hi0 : (i 0).val < 100000 := idx2_lt0 i
  unfold l2rows3
  rw [k3_pay1_ideal_apply]
  rw [rowBlock3_apply Y _ _ i (by show (i 0).val = 2000 * ((i 0).val / 2000) + (i 0).val % 2000; omega) rfl]
  refine congrArg (fun z => Ideal.div (Y i) (max (Ideal.sqrt z) (Ideal.ofBits .f32 0x2B8CBCCC#32))) ?_
  refine Finset.sum_congr rfl fun k _ => ?_
  rw [rowBlock3_apply Y _ _ (ix2 (i 0) k) (by show (i 0).val = 2000 * ((i 0).val / 2000) + (i 0).val % 2000; omega) rfl]

/-- The array `y` as the region finds it, at its literal type. -/
abbrev yArr3 (c : Dev nD) : S100000x128.Idx → Elt F .f32 := V c (Pipeline.arrRef spec3 0)

/-- After the region, at the extended reals, the output array is the array `y` with every row divided by the
    larger of its Euclidean norm and the literal 1e-12. -/
theorem arrAt3_1_ideal (VI : (c : Dev nD) → (b : Ref sig .tc) → Buf (Elt Ideal) ((c : Thread nD τ).loc b)) (c : Dev nD) :
    (dat3 (F := Ideal) VI c).arrAt 1 cfg3.N = fun i =>
      Ideal.div (yArr3 VI c i)
        (max (Ideal.sqrt (∑ k : Fin 128, yArr3 VI c (ix2 (i 0) k) * yArr3 VI c (ix2 (i 0) k)))
          (Ideal.ofBits .f32 0x2B8CBCCC#32)) := by
  rw [arrAt3_1]
  funext i
  exact l2rows3_ideal_apply (yArr3 VI c) i

end Cert.KernelIdeal.Hand

end
-- ==== Proof.Val.L2Spec.lean ====
/-
  The rows of an array divided by their Euclidean norms, in the two spellings the programs use.

  Row r of y has norm √(∑ₖ y (r, k)²); each entry of the row is divided by the larger of that norm and the
  small positive constant the programs write as 1e-12. One program sums the squares as they are, the other
  adds them to a zero it starts from; the two are the same extended real. On a real array the quotient is real:
  the sum of squares is a nonnegative real, so its root is a real, the larger of it and the positive constant is
  a nonzero real, and a real divided by a nonzero real is real.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«424088_j28020366639260_2_alg».proof.Proof.LibERealArith

set_option maxRecDepth 16384

noncomputable section

namespace Cert.Val

open Idealize.ShloMosaic Idealize.ShloMosaic.ValueIdx Cert.Lib.ERealArith
open scoped BigOperators

/-- The constant the norm is clamped below by, as the programs spell it. -/
def epsL2 : EReal := Ideal.ofBits .f32 0x2B8CBCCC#32

/-- The normalised rows: entry (r, l) is y (r, l) / max (√(∑ₖ y (r, k)²)) ε. -/
def l2n (y : (⟨2, ![100000, 128]⟩ : Shape).Idx → EReal) : (⟨2, ![100000, 128]⟩ : Shape).Idx → EReal := fun i =>
  Ideal.div (y i) (max (Ideal.sqrt (∑ k : Fin 128, y (ix2 (i 0) k) * y (ix2 (i 0) k))) epsL2)

/-- The same with the sum of squares added to a zero. -/
def l2nZ (y : (⟨2, ![100000, 128]⟩ : Shape).Idx → EReal) : (⟨2, ![100000, 128]⟩ : Shape).Idx → EReal := fun i =>
  Ideal.div (y i) (max (Ideal.sqrt (0 + ∑ k : Fin 128, y (ix2 (i 0) k) * y (ix2 (i 0) k))) epsL2)

theorem l2nZ_eq (y : (⟨2, ![100000, 128]⟩ : Shape).Idx → EReal) : l2nZ y = l2n y := by
  funext i
  unfold l2nZ l2n
  rw [zero_add]

theorem epsL2_coe : epsL2 = ((eps12 : ℝ) : EReal) := ofBits_eps12

/-- The normalised rows over ℝ. -/
def l2nr (y : (⟨2, ![100000, 128]⟩ : Shape).Idx → ℝ) (i : (⟨2, ![100000, 128]⟩ : Shape).Idx) : ℝ :=
  y i / max (Real.sqrt (∑ k : Fin 128, y (ix2 (i 0) k) * y (ix2 (i 0) k))) eps12

theorem l2n_coe (y : (⟨2, ![100000, 128]⟩ : Shape).Idx → ℝ) (i : (⟨2, ![100000, 128]⟩ : Shape).Idx) :
    l2n (fun i => (y i : EReal)) i = ((l2nr y i : ℝ) : EReal) := by
  unfold l2n l2nr
  simp only [mul_coe, univ_sum_coe]
  rw [sqrt_coe (Finset.sum_nonneg fun k _ => mul_self_nonneg _), epsL2_coe, max_coe,
    div_coe (ne_of_gt (lt_of_lt_of_le eps12_pos (le_max_right _ _)))]

/-- The normalised rows of a real array are a real array. -/
theorem real_l2n {y : (⟨2, ![100000, 128]⟩ : Shape).Idx → EReal} (hy : ∀ i, ∃ r : ℝ, y i = (r : EReal)) :
    ∀ i, ∃ r : ℝ, l2n y i = (r : EReal) := by
  choose yr hyr using hy
  obtain rfl : y = fun i => (yr i : EReal) := funext hyr
  exact fun i => ⟨_, l2n_coe yr i⟩

/-- Equal real arrays have equal, real, normalised rows. -/
theorem eq_xp {y y' : (⟨2, ![100000, 128]⟩ : Shape).Idx → EReal} (h : y = y') (hy : ∀ i, ∃ r : ℝ, y i = (r : EReal)) :
    l2n y = l2n y' ∧ ∀ i, ∃ r : ℝ, l2n y i = (r : EReal) :=
  ⟨congrArg l2n h, real_l2n hy⟩

/-! ## The host's spelling, read index by index

The array divided by the broadcast, along the rows, of the larger of the root of each row's sum of squares (a
reduction started from zero, made a one-column matrix) and the constant broadcast to that column. -/

/-! ## Two broadcasts read at an index, at any extents -/

/-- A vector made a one-column matrix: entry (e, 0) is entry e. -/
theorem bcCol_apply {α : Type} {n : Nat} (h : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] h x (ix2 e z) = x (ix1 e) := by
  refine broadcastInDim_apply ![0] h x (ix2 e z) (ix1 e) fun a => ?_
  match a with
  | ⟨0, _⟩ =>
    show e.val = if n = 1 then 0 else e.val
    by_cases h1 : n = 1
    · rw [if_pos h1]; have := e.isLt; omega
    · rw [if_neg h1]

/-- A one-column matrix broadcast along its rows: entry (c, j) is entry (c, 0). -/
theorem bcRows_apply {α : Type} {n d : Nat} (h : (⟨2, ![n, 1]⟩ : Shape).BroadcastsInDim ⟨2, ![n, d]⟩ ![0, 1])
    (x : (⟨2, ![n, 1]⟩ : Shape).Idx → α) (c : Fin n) (j : Fin d) :
    broadcastInDim ⟨2, ![n, d]⟩ ![0, 1] h x (ix2 c j) = x (ix2 c (0 : Fin 1)) := by
  refine broadcastInDim_apply ![0, 1] h x (ix2 c j) (ix2 c (0 : Fin 1)) fun a => ?_
  match a with
  | ⟨0, _⟩ =>
    show c.val = if n = 1 then 0 else c.val
    by_cases h1 : n = 1
    · rw [if_pos h1]; have := c.isLt; omega
    · rw [if_neg h1]
  | ⟨1, _⟩ => exact (if_pos rfl).symm

/-- The host's square root at an index. -/
theorem hostSqrt_apply {s : Shape} {φ : FTy} (a : FVec Ideal s φ) (i : s.Idx) : Host.sqrt a i = Ideal.sqrt (a i) := rfl

/-- A row's sum of squares by the host's reduction from zero: entry r is 0 + ∑ₖ x (r, k)². -/
theorem hostRowSumSq_apply (x : (⟨2, ![100000, 128]⟩ : Shape).Idx → EReal)
    (hred : (⟨2, ![100000, 128]⟩ : Shape).ReducesTo [1] ⟨1, ![100000]⟩) (hS : 0 < (⟨0, ![]⟩ : Shape).numel) (r : Fin 100000) :
    Host.reduceAdd (F := Ideal) (φ := .f32) (mulf (F := Ideal) (φ := .f32) x x) (constant (F := Ideal) ⟨0, ![]⟩ .f32 0x00000000#32) hred hS (ix1 r)
      = 0 + ∑ k : Fin 128, x (ix2 r k) * x (ix2 r k) := by
  have hR : (⟨2, ![100000, 128]⟩ : Shape).Reduces [1] ⟨1, ![100000]⟩ := by decide
  rw [hostReduceAdd_apply, Ideal.hostReduceAdd_single hred hR]
  have h0 : (constant (F := Ideal) ⟨0, ![]⟩ .f32 0x00000000#32) (Shape.Idx.first hS) = (0 : EReal) := by
    show Ideal.ofBits .f32 0x00000000#32 = 0
    rw [ofBits_zero]; rfl
  rw [h0]
  refine congrArg (fun z => (0 : EReal) + z) ?_
  refine Finset.sum_congr rfl fun k _ => ?_
  rw [mulf_apply]
  have e : hR.lift (ix1 r) k = ix2 r k := by
    funext a
    match a with
    | ⟨0, _⟩ => rfl
    | ⟨1, _⟩ => rfl
  rw [e]
  rfl

/-- The host's row normalisation is the normalised rows. -/
theorem hostL2_eq (x : (⟨2, ![100000, 128]⟩ : Shape).Idx → EReal)
    (hred : (⟨2, ![100000, 128]⟩ : Shape).ReducesTo [1] ⟨1, ![100000]⟩) (hS : 0 < (⟨0, ![]⟩ : Shape).numel)
    (hb0 : (⟨1, ![100000]⟩ : Shape).BroadcastsInDim ⟨2, ![100000, 1]⟩ ![0])
    (hbe : (⟨0, ![]⟩ : Shape).BroadcastsInDim ⟨2, ![100000, 1]⟩ ![])
    (hb1 : (⟨2, ![100000, 1]⟩ : Shape).BroadcastsInDim ⟨2, ![100000, 128]⟩ ![0, 1]) :
    Host.divf (F := Ideal) (φ := .f32) x
        (broadcastInDim ⟨2, ![100000, 128]⟩ ![0, 1] hb1
          (maximumf (F := Ideal) (φ := .f32)
            (Host.sqrt (F := Ideal) (φ := .f32) (broadcastInDim ⟨2, ![100000, 1]⟩ ![0] hb0
              (Host.reduceAdd (F := Ideal) (φ := .f32) (mulf (F := Ideal) (φ := .f32) x x) (constant (F := Ideal) ⟨0, ![]⟩ .f32 0x00000000#32) hred hS)))
            (broadcastInDim ⟨2, ![100000, 1]⟩ ![] hbe (constant (F := Ideal) ⟨0, ![]⟩ .f32 0x2B8CBCCC#32))))
      = l2n x := by
  rw [← l2nZ_eq]
  funext i
  rw [hostDivf_apply]
  unfold l2nZ
  refine congrArg (Ideal.div (x i)) ?_
  refine ((congrArg _ (eq_ix2 i)).trans (bcRows_apply hb1 _ (i 0) (i 1))).trans ?_
  rw [maximumf_apply]
  have hB : broadcastInDim ⟨2, ![100000, 1]⟩ ![] hbe (constant (F := Ideal) ⟨0, ![]⟩ .f32 0x2B8CBCCC#32) (ix2 (i 0) (0 : Fin 1)) = epsL2 := by
    rw [broadcastInDim_scalar_apply]; rfl
  rw [hB]
  refine congrArg (fun z => max z epsL2) ?_
  refine (hostSqrt_apply _ _).trans ?_
  refine congrArg Ideal.sqrt ?_
  refine (bcCol_apply hb0 _ (i 0) (0 : Fin 1)).trans ?_
  exact hostRowSumSq_apply x hred hS (i 0)

end Cert.Val

end
-- ==== Proof.Val.Enc34K.lean ====
/-
  The kernel program's side of the patient encoder's last two steps: what its buffers hold after the third
  matrix-product region and after the row-normalising region, as functions of what they hold when the host stretch
  before the third region begins. The host stretch adds the two cores' column sums and sums of squares, forms the
  column scales and shifts at the second row of the gains and offsets, transposes the third weight and lays the bias
  out as a row; the region accumulates, row block by row block, the bias plus the products of the scaled, shifted,
  clamped rows with the transposed weight. The last region divides every row by the larger of its Euclidean norm and
  a small positive constant.
-/
import proofs.«424088_j28020366639260_2_alg».proof.Proof.KI.Fold
import proofs.«424088_j28020366639260_2_alg».proof.Proof.KI.Args
import proofs.«424088_j28020366639260_2_alg».proof.Proof.KI.V2
import proofs.«424088_j28020366639260_2_alg».proof.Proof.KI.V3
import proofs.«424088_j28020366639260_2_alg».proof.Proof.Val.BnRead
import proofs.«424088_j28020366639260_2_alg».proof.Proof.Val.L2Spec
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (ρ : Dev nD → PrngReg) (c : Dev nD)

/-- What the host stretch before the third region starts from, at the literal types: the second layer's output, the
    two cores' column sums and sums of squares, the third weight and bias, the gains and the offsets. -/
abbrev kY2 : FVec Ideal S100000x128 .f32 := W4 m ρ c (Proc.devRef .tc main_v25_0)
abbrev kS2 : FVec Ideal S2x1x128 .f32 := W4 m ρ c (Proc.devRef .tc main_v25_1)
abbrev kQ2 : FVec Ideal S2x1x128 .f32 := W4 m ρ c (Proc.devRef .tc main_v25_2)
abbrev kB8 : FVec Ideal S128x128 .f32 := W4 m ρ c (Proc.devRef .tc main_arg8)
abbrev kB9 : FVec Ideal S128 .f32 := W4 m ρ c (Proc.devRef .tc main_arg9)
abbrev kB10 : FVec Ideal S2x128 .f32 := W4 m ρ c (Proc.devRef .tc main_arg10)
abbrev kB11 : FVec Ideal S2x128 .f32 := W4 m ρ c (Proc.devRef .tc main_arg11)

/-- Row 1 of the gains, and of the offsets, as the host slices them out. -/
abbrev kG1 : FVec Ideal S128 .f32 :=
  shapeCast S128 (extractStridedSlice S1x128 ![1, 0] (kB10 m ρ c) slices_S2x128_S1x128_1_0) shapeCasts_S1x128_S128
abbrev kBe1 : FVec Ideal S128 .f32 :=
  shapeCast S128 (extractStridedSlice S1x128 ![1, 0] (kB11 m ρ c) slices_S2x128_S1x128_1_0) shapeCasts_S1x128_S128

/-! ## What the host stretch leaves -/

set_option maxHeartbeats 1000000 in
/-- The scale row. -/
theorem K_sc : (W5 m ρ c (Proc.devRef .tc main_v45) : FVec Ideal S1x128 .f32)
    = shapeCast S1x128 (kerScaleVec (kS2 m ρ c) (kQ2 m ρ c) (kG1 m ρ c) reducesTo_S2x1x128_S128_d0_1 h_S_ bcast_S_S128)
        shapeCasts_S128_S1x128 := by
  show StableHlo.after hostOps2 (W4 m ρ c) (Proc.devRef .tc main_v45) = _
  after_results_simp
  first | done | rfl

set_option maxHeartbeats 1000000 in
/-- The shift row. -/
theorem K_sh : (W5 m ρ c (Proc.devRef .tc main_v46) : FVec Ideal S1x128 .f32)
    = shapeCast S1x128 (kerShiftVec (kS2 m ρ c) (kQ2 m ρ c) (kG1 m ρ c) (kBe1 m ρ c) reducesTo_S2x1x128_S128_d0_1 h_S_ bcast_S_S128)
        shapeCasts_S128_S1x128 := by
  show StableHlo.after hostOps2 (W4 m ρ c) (Proc.devRef .tc main_v46) = _
  after_results_simp
  first | done | rfl

set_option maxHeartbeats 1000000 in
/-- The transposed weight. -/
theorem K_w : (W5 m ρ c (Proc.devRef .tc main_v44) : FVec Ideal S128x128 .f32)
    = transpose S128x128 [1, 0] (kB8 m ρ c) transposes_S128x128_S128x128_1_0 := by
  show StableHlo.after hostOps2 (W4 m ρ c) (Proc.devRef .tc main_v44) = _
  after_results_simp
  first | done | rfl

set_option maxHeartbeats 1000000 in
/-- The bias row. -/
theorem K_bias : (W5 m ρ c (Proc.devRef .tc main_v47) : FVec Ideal S1x128 .f32)
    = shapeCast S1x128 (kB9 m ρ c) shapeCasts_S128_S1x128 := by
  show StableHlo.after hostOps2 (W4 m ρ c) (Proc.devRef .tc main_v47) = _
  after_results_simp
  first | done | rfl

/-- The second layer's output passes the host stretch untouched. -/
theorem K_y2_kept : (W5 m ρ c (Proc.devRef .tc main_v25_0) : FVec Ideal S100000x128 .f32) = kY2 m ρ c :=
  W5_of m ρ c main_v25_0 (by decide)

/-! ## The third layer's output -/

/-- After the third region its output array is the third linear layer of the second layer's output normalised
    from the column sums and clamped, provided the two cores' parts ARE the per-core sums of that output's rows and
    of their squares. -/
theorem K_y3
    (hs : ∀ (q : Fin 2) (k : Fin 128), kS2 m ρ c (ix3 q (0 : Fin 1) k)
      = ∑ p : Fin 25, ∑ r : Fin 2000, kY2 m ρ c (ix2 (Cert.Bridge.rowOf (C := 2) (T := 25) (R := 2000) q p r) k))
    (hq : ∀ (q : Fin 2) (k : Fin 128), kQ2 m ρ c (ix3 q (0 : Fin 1) k)
      = ∑ p : Fin 25, ∑ r : Fin 2000, kY2 m ρ c (ix2 (Cert.Bridge.rowOf (C := 2) (T := 25) (R := 2000) q p r) k)
          * kY2 m ρ c (ix2 (Cert.Bridge.rowOf (C := 2) (T := 25) (R := 2000) q p r) k)) :
    (W6 m ρ c (Proc.devRef .tc main_v48) : FVec Ideal S100000x128 .f32)
      = lin (bnK (kY2 m ρ c) (kB10 m ρ c) (kB11 m ρ c) 1) (kB8 m ρ c) (kB9 m ρ c) := by
  have hg : ∀ k : Fin 128, kG1 m ρ c (ix1 k) = kB10 m ρ c (ix2 (1 : Fin 2) k) :=
    fun k => sliceRow_apply (kB10 m ρ c) 1 slices_S2x128_S1x128_1_0 shapeCasts_S1x128_S128 k
  have hβ : ∀ k : Fin 128, kBe1 m ρ c (ix1 k) = kB11 m ρ c (ix2 (1 : Fin 2) k) :=
    fun k => sliceRow_apply (kB11 m ρ c) 1 slices_S2x128_S1x128_1_0 shapeCasts_S1x128_S128 k
  have hsc : ∀ k : Fin 128, (W5 m ρ c (Proc.devRef .tc main_v45) : FVec Ideal S1x128 .f32) (ix2 (0 : Fin 1) k)
      = scaleCol (kY2 m ρ c) (kB10 m ρ c) 1 k := fun k =>
    (congrFun (K_sc m ρ c) (ix2 (0 : Fin 1) k)).trans ((vecRow_apply _ _ (0 : Fin 1) k).trans
      (kerScaleVec_eq_scaleCol (kY2 m ρ c) (kB10 m ρ c) 1 _ _ _ _ _ _ hs hq hg k))
  have hsh : ∀ k : Fin 128, (W5 m ρ c (Proc.devRef .tc main_v46) : FVec Ideal S1x128 .f32) (ix2 (0 : Fin 1) k)
      = shiftCol (kY2 m ρ c) (kB10 m ρ c) (kB11 m ρ c) 1 k := fun k =>
    (congrFun (K_sh m ρ c) (ix2 (0 : Fin 1) k)).trans ((vecRow_apply _ _ (0 : Fin 1) k).trans
      (kerShiftVec_eq_shiftCol (kY2 m ρ c) (kB10 m ρ c) (kB11 m ρ c) 1 _ _ _ _ _ _ _ hs hq hg hβ k))
  have hw : ∀ k j : Fin 128, (W5 m ρ c (Proc.devRef .tc main_v44) : FVec Ideal S128x128 .f32) (ix2 k j)
      = kB8 m ρ c (ix2 j k) := fun k j =>
    (congrFun (K_w m ρ c) (ix2 k j)).trans (transposeSq_apply _ _ k j)
  have hbias : ∀ j : Fin 128, (W5 m ρ c (Proc.devRef .tc main_v47) : FVec Ideal S1x128 .f32) (ix2 (0 : Fin 1) j)
      = kB9 m ρ c (ix1 j) := fun j =>
    (congrFun (K_bias m ρ c) (ix2 (0 : Fin 1) j)).trans (vecRow_apply _ _ (0 : Fin 1) j)
  have h48 : (W6 m ρ c (Proc.devRef .tc main_v48) : FVec Ideal S100000x128 .f32)
      = Y2_5 (W5 m ρ c (Proc.devRef .tc main_v25_0)) (W5 m ρ c (Proc.devRef .tc main_v45)) (W5 m ρ c (Proc.devRef .tc main_v46))
          (W5 m ρ c (Proc.devRef .tc main_v44)) (W5 m ρ c (Proc.devRef .tc main_v47)) :=
    (Wexit2_arr m ρ c 5).trans (arrAt2_5_ideal (VE2 m ρ) c)
  have hkeep : Y2_5 (W5 m ρ c (Proc.devRef .tc main_v25_0)) (W5 m ρ c (Proc.devRef .tc main_v45)) (W5 m ρ c (Proc.devRef .tc main_v46))
        (W5 m ρ c (Proc.devRef .tc main_v44)) (W5 m ρ c (Proc.devRef .tc main_v47))
      = Y2_5 (kY2 m ρ c) (W5 m ρ c (Proc.devRef .tc main_v45)) (W5 m ρ c (Proc.devRef .tc main_v46))
        (W5 m ρ c (Proc.devRef .tc main_v44)) (W5 m ρ c (Proc.devRef .tc main_v47)) :=
    congrArg (fun y => Y2_5 y (W5 m ρ c (Proc.devRef .tc main_v45)) (W5 m ρ c (Proc.devRef .tc main_v46))
      (W5 m ρ c (Proc.devRef .tc main_v44)) (W5 m ρ c (Proc.devRef .tc main_v47))) (K_y2_kept m ρ c)
  exact (h48.trans hkeep).trans
    (lin_bnK_of_pieces (kY2 m ρ c) (kB8 m ρ c) (kB9 m ρ c) (kB10 m ρ c) (kB11 m ρ c) 1 _ _ _ _ hsc hsh hw hbias)

/-! ## The encoder's result -/

/-- After the last region its output array is the third layer's output with its rows normalised. -/
theorem K_xp : (W7 m ρ c (Proc.devRef .tc main_v49) : FVec Ideal S100000x128 .f32)
    = l2n (W6 m ρ c (Proc.devRef .tc main_v48)) :=
  (Wexit3_arr m ρ c 1).trans (arrAt3_1_ideal (VE3 m ρ) c)

end Cert.Val

end
-- ==== Proof.Val.EncRd2.lean ====
/-
  Operations 61 to 126 of the reference's line, each read at the end of the whole line: the final contents of an
  operation's result buffer are its function of the final contents of its operand buffers. One statement per
  operation, at the extended reals, with every buffer at its literal array type. Operations 0 to 126 are the
  patient encoder: the three linear layers, the two normalisations with their variance, and the row
  normalisation.
-/
import proofs.«424088_j28020366639260_2_alg».proof.Proof.Ref.Fix
import Idealize.ShloMosaic.PureOps.Ideal

set_option maxRecDepth 16384
set_option Elab.async false

noncomputable section

namespace Cert.Val.Rd

open Cert.ReferenceIdeal Cert.ReferenceIdeal.Gen Cert.ReferenceIdeal.Hand
open Idealize.ShloMosaic Idealize.ShloMosaic.TcCoe Idealize.SL.Sem Idealize.ShloMosaic.StableHlo

variable (V : Valuation τ sig (Elt Ideal))

theorem rd_main_v34 : (after (ops (F := Ideal)) V (Proc.devRef .tc main_v34) : FVec Ideal S1x128 .f32) = extractStridedSlice S1x128 ![1, 0] (after (ops (F := Ideal)) V (Proc.devRef .tc main_arg10) : FVec Ideal S2x128 .f32) slices_S2x128_S1x128_1_0 := by
  have h := in_unary mem_ops0 61 rfl V
  exact h

theorem rd_main_v35 : (after (ops (F := Ideal)) V (Proc.devRef .tc main_v35) : FVec Ideal S128 .f32) = shapeCast S128 (after (ops (F := Ideal)) V (Proc.devRef .tc main_v34) : FVec Ideal S1x128 .f32) shapeCasts_S1x128_S128 := by
  have h := in_reshape mem_ops0 62 rfl V
  exact h

theorem rd_main_v36 : (after (ops (F := Ideal)) V (Proc.devRef .tc main_v36) : FVec Ideal S1x128 .f32) = extractStridedSlice S1x128 ![1, 0] (after (ops (F := Ideal)) V (Proc.devRef .tc main_arg11) : FVec Ideal S2x128 .f32) slices_S2x128_S1x128_1_0 := by
  have h := in_unary mem_ops0 63 rfl V
  exact h

theorem rd_main_v37 : (after (ops (F := Ideal)) V (Proc.devRef .tc main_v37) : FVec Ideal S128 .f32) = shapeCast S128 (after (ops (F := Ideal)) V (Proc.devRef .tc main_v36) : FVec Ideal S1x128 .f32) shapeCasts_S1x128_S128 := by
  have h := in_reshape mem_ops0 64 rfl V
  exact h

theorem rd_main_cst_2 : (after (ops (F := Ideal)) V (Proc.devRef .tc main_cst_2) : FVec Ideal S_ .f32) = (constant (F := Ideal) S_ .f32 0x00000000#32) := by
  have h := in_nullary mem_ops0 65 rfl V
  exact h

theorem rd_main_v38 : (after (ops (F := Ideal)) V (Proc.devRef .tc main_v38) : FVec Ideal S128 .f32) = Host.reduceAdd (F := Ideal) (s := S100000x128) (φ := .f32) (u := S_) (after (ops (F := Ideal)) V (Proc.devRef .tc main_v33) : FVec Ideal S100000x128 .f32) (after (ops (F := Ideal)) V (Proc.devRef .tc main_cst_2) : FVec Ideal S_ .f32) reducesTo_S100000x128_S128_d0 h_S_ := by
  have h := in_binary mem_ops0 66 rfl V
  exact h

theorem rd_main_cst_3 : (after (ops (F := Ideal)) V (Proc.devRef .tc main_cst_3) : FVec Ideal S_ .f32) = (constant (F := Ideal) S_ .f32 0x47C35000#32) := by
  have h := in_nullary mem_ops0 67 rfl V
  exact h

theorem rd_main_v39 : (after (ops (F := Ideal)) V (Proc.devRef .tc main_v39) : FVec Ideal S128 .f32) = broadcastInDim S128 ![] bcast_S_S128 (after (ops (F := Ideal)) V (Proc.devRef .tc main_cst_3) : FVec Ideal S_ .f32) := by
  have h := in_unary mem_ops0 68 rfl V
  exact h

theorem rd_main_v40 : (after (ops (F := Ideal)) V (Proc.devRef .tc main_v40) : FVec Ideal S128 .f32) = Host.divf (F := Ideal) (s := S128) (φ := .f32) (after (ops (F := Ideal)) V (Proc.devRef .tc main_v38) : FVec Ideal S128 .f32) (after (ops (F := Ideal)) V (Proc.devRef .tc main_v39) : FVec Ideal S128 .f32) := by
  have h := in_binary mem_ops0 69 rfl V
  exact h

theorem rd_main_c_4 : (after (ops (F := Ideal)) V (Proc.devRef .tc main_c_4) : IVec S_ 32) = (constantI S_ 32 0#32) := by
  have h := in_nullary mem_ops0 70 rfl V
  exact h

theorem rd_main_call2_cst : (after (ops (F := Ideal)) V (Proc.devRef .tc main_call2_cst) : FVec Ideal S_ .f32) = (constant (F := Ideal) S_ .f32 0x00000000#32) := by
  have h := in_nullary mem_ops0 71 rfl V
  exact h

theorem rd_main_call2_v0 : (after (ops (F := Ideal)) V (Proc.devRef .tc main_call2_v0) : FVec Ideal S128 .f32) = Host.reduceAdd (F := Ideal) (s := S100000x128) (φ := .f32) (u := S_) (after (ops (F := Ideal)) V (Proc.devRef .tc main_v33) : FVec Ideal S100000x128 .f32) (after (ops (F := Ideal)) V (Proc.devRef .tc main_call2_cst) : FVec Ideal S_ .f32) reducesTo_S100000x128_S128_d0 h_S_ := by
  have h := in_binary mem_ops0 72 rfl V
  exact h

theorem rd_main_call2_v1 : (after (ops (F := Ideal)) V (Proc.devRef .tc main_call2_v1) : FVec Ideal S1x128 .f32) = broadcastInDim S1x128 ![1] bcast_S128_S1x128_1 (after (ops (F := Ideal)) V (Proc.devRef .tc main_call2_v0) : FVec Ideal S128 .f32) := by
  have h := in_unary mem_ops0 73 rfl V
  exact h

theorem rd_main_call2_cst_0 : (after (ops (F := Ideal)) V (Proc.devRef .tc main_call2_cst_0) : FVec Ideal S_ .f32) = (constant (F := Ideal) S_ .f32 0x47C35000#32) := by
  have h := in_nullary mem_ops0 74 rfl V
  exact h

theorem rd_main_call2_v2 : (after (ops (F := Ideal)) V (Proc.devRef .tc main_call2_v2) : FVec Ideal S1x128 .f32) = broadcastInDim S1x128 ![] bcast_S_S1x128 (after (ops (F := Ideal)) V (Proc.devRef .tc main_call2_cst_0) : FVec Ideal S_ .f32) := by
  have h := in_unary mem_ops0 75 rfl V
  exact h

theorem rd_main_call2_v3 : (after (ops (F := Ideal)) V (Proc.devRef .tc main_call2_v3) : FVec Ideal S1x128 .f32) = Host.divf (F := Ideal) (s := S1x128) (φ := .f32) (after (ops (F := Ideal)) V (Proc.devRef .tc main_call2_v1) : FVec Ideal S1x128 .f32) (after (ops (F := Ideal)) V (Proc.devRef .tc main_call2_v2) : FVec Ideal S1x128 .f32) := by
  have h := in_binary mem_ops0 76 rfl V
  exact h

theorem rd_main_call2_v4 : (after (ops (F := Ideal)) V (Proc.devRef .tc main_call2_v4) : FVec Ideal S100000x128 .f32) = broadcastInDim S100000x128 ![0, 1] bcast_S1x128_S100000x128_0_1 (after (ops (F := Ideal)) V (Proc.devRef .tc main_call2_v3) : FVec Ideal S1x128 .f32) := by
  have h := in_unary mem_ops0 77 rfl V
  exact h

theorem rd_main_call2_v5 : (after (ops (F := Ideal)) V (Proc.devRef .tc main_call2_v5) : FVec Ideal S100000x128 .f32) = subf (F := Ideal) (s := S100000x128) (φ := .f32) (after (ops (F := Ideal)) V (Proc.devRef .tc main_v33) : FVec Ideal S100000x128 .f32) (after (ops (F := Ideal)) V (Proc.devRef .tc main_call2_v4) : FVec Ideal S100000x128 .f32) := by
  have h := in_binary mem_ops0 78 rfl V
  exact h

theorem rd_main_call2_v6 : (after (ops (F := Ideal)) V (Proc.devRef .tc main_call2_v6) : FVec Ideal S100000x128 .f32) = mulf (F := Ideal) (s := S100000x128) (φ := .f32) (after (ops (F := Ideal)) V (Proc.devRef .tc main_call2_v5) : FVec Ideal S100000x128 .f32) (after (ops (F := Ideal)) V (Proc.devRef .tc main_call2_v5) : FVec Ideal S100000x128 .f32) := by
  have h := in_binary mem_ops0 79 rfl V
  exact h

theorem rd_main_call2_v7 : (after (ops (F := Ideal)) V (Proc.devRef .tc main_call2_v7) : FVec Ideal S_ .f32) = sitofp (F := Ideal) (s := S_) (w := 32) .f32 (after (ops (F := Ideal)) V (Proc.devRef .tc main_c_4) : IVec S_ 32) := by
  have h := in_unary mem_ops0 80 rfl V
  exact h

theorem rd_main_call2_cst_1 : (after (ops (F := Ideal)) V (Proc.devRef .tc main_call2_cst_1) : FVec Ideal S_ .f32) = (constant (F := Ideal) S_ .f32 0x47C35000#32) := by
  have h := in_nullary mem_ops0 81 rfl V
  exact h

theorem rd_main_call2_v8 : (after (ops (F := Ideal)) V (Proc.devRef .tc main_call2_v8) : FVec Ideal S_ .f32) = subf (F := Ideal) (s := S_) (φ := .f32) (after (ops (F := Ideal)) V (Proc.devRef .tc main_call2_cst_1) : FVec Ideal S_ .f32) (after (ops (F := Ideal)) V (Proc.devRef .tc main_call2_v7) : FVec Ideal S_ .f32) := by
  have h := in_binary mem_ops0 82 rfl V
  exact h

theorem rd_main_call2_cst_2 : (after (ops (F := Ideal)) V (Proc.devRef .tc main_call2_cst_2) : FVec Ideal S_ .f32) = (constant (F := Ideal) S_ .f32 0x00000000#32) := by
  have h := in_nullary mem_ops0 83 rfl V
  exact h

theorem rd_main_call2_v9 : (after (ops (F := Ideal)) V (Proc.devRef .tc main_call2_v9) : FVec Ideal S128 .f32) = Host.reduceAdd (F := Ideal) (s := S100000x128) (φ := .f32) (u := S_) (after (ops (F := Ideal)) V (Proc.devRef .tc main_call2_v6) : FVec Ideal S100000x128 .f32) (after (ops (F := Ideal)) V (Proc.devRef .tc main_call2_cst_2) : FVec Ideal S_ .f32) reducesTo_S100000x128_S128_d0 h_S_ := by
  have h := in_binary mem_ops0 84 rfl V
  exact h

theorem rd_main_call2_v10 : (after (ops (F := Ideal)) V (Proc.devRef .tc main_call2_v10) : FVec Ideal S128 .f32) = broadcastInDim S128 ![] bcast_S_S128 (after (ops (F := Ideal)) V (Proc.devRef .tc main_call2_v8) : FVec Ideal S_ .f32) := by
  have h := in_unary mem_ops0 85 rfl V
  exact h

theorem rd_main_call2_v11 : (after (ops (F := Ideal)) V (Proc.devRef .tc main_call2_v11) : FVec Ideal S128 .f32) = Host.divf (F := Ideal) (s := S128) (φ := .f32) (after (ops (F := Ideal)) V (Proc.devRef .tc main_call2_v9) : FVec Ideal S128 .f32) (after (ops (F := Ideal)) V (Proc.devRef .tc main_call2_v10) : FVec Ideal S128 .f32) := by
  have h := in_binary mem_ops0 86 rfl V
  exact h

theorem rd_main_call2_cst_3 : (after (ops (F := Ideal)) V (Proc.devRef .tc main_call2_cst_3) : FVec Ideal S_ .f32) = (constant (F := Ideal) S_ .f32 0x00000000#32) := by
  have h := in_nullary mem_ops0 87 rfl V
  exact h

theorem rd_main_call2_v12 : (after (ops (F := Ideal)) V (Proc.devRef .tc main_call2_v12) : IVec S_ 1) = cmpf (F := Ideal) (s := S_) (φ := .f32) .ogt (after (ops (F := Ideal)) V (Proc.devRef .tc main_call2_v8) : FVec Ideal S_ .f32) (after (ops (F := Ideal)) V (Proc.devRef .tc main_call2_cst_3) : FVec Ideal S_ .f32) := by
  have h := in_binary mem_ops0 88 rfl V
  exact h

theorem rd_main_call2_cst_4 : (after (ops (F := Ideal)) V (Proc.devRef .tc main_call2_cst_4) : FVec Ideal S_ .f32) = (constant (F := Ideal) S_ .f32 0x7FC00000#32) := by
  have h := in_nullary mem_ops0 89 rfl V
  exact h

theorem rd_main_call2_call0_v0 : (after (ops (F := Ideal)) V (Proc.devRef .tc main_call2_call0_v0) : FVec Ideal S_ .f32) = id (after (ops (F := Ideal)) V (Proc.devRef .tc main_call2_cst_4) : FVec Ideal S_ .f32) := by
  have h := in_unary mem_ops0 90 rfl V
  exact h

theorem rd_main_call2_call0_v1 : (after (ops (F := Ideal)) V (Proc.devRef .tc main_call2_call0_v1) : FVec Ideal S128 .f32) = broadcastInDim S128 ![] bcast_S_S128 (after (ops (F := Ideal)) V (Proc.devRef .tc main_call2_call0_v0) : FVec Ideal S_ .f32) := by
  have h := in_unary mem_ops0 91 rfl V
  exact h

set_option maxHeartbeats 2000000 in
theorem rd_main_v41 : (after (ops (F := Ideal)) V (Proc.devRef .tc main_v41) : FVec Ideal S128 .f32) = select (broadcastInDim S128 ![] bcast_S_S128 (after (ops (F := Ideal)) V (Proc.devRef .tc main_call2_v12) : IVec S_ 1)) (after (ops (F := Ideal)) V (Proc.devRef .tc main_call2_v11) : FVec Ideal S128 .f32) (after (ops (F := Ideal)) V (Proc.devRef .tc main_call2_call0_v1) : FVec Ideal S128 .f32) := by
  have h := in_ternary mem_ops0 92 rfl V
  exact h

theorem rd_main_v42 : (after (ops (F := Ideal)) V (Proc.devRef .tc main_v42) : FVec Ideal S1x128 .f32) = broadcastInDim S1x128 ![1] bcast_S128_S1x128_1 (after (ops (F := Ideal)) V (Proc.devRef .tc main_v40) : FVec Ideal S128 .f32) := by
  have h := in_unary mem_ops0 93 rfl V
  exact h

theorem rd_main_v43 : (after (ops (F := Ideal)) V (Proc.devRef .tc main_v43) : FVec Ideal S100000x128 .f32) = broadcastInDim S100000x128 ![0, 1] bcast_S1x128_S100000x128_0_1 (after (ops (F := Ideal)) V (Proc.devRef .tc main_v42) : FVec Ideal S1x128 .f32) := by
  have h := in_unary mem_ops0 94 rfl V
  exact h

theorem rd_main_v44 : (after (ops (F := Ideal)) V (Proc.devRef .tc main_v44) : FVec Ideal S100000x128 .f32) = subf (F := Ideal) (s := S100000x128) (φ := .f32) (after (ops (F := Ideal)) V (Proc.devRef .tc main_v33) : FVec Ideal S100000x128 .f32) (after (ops (F := Ideal)) V (Proc.devRef .tc main_v43) : FVec Ideal S100000x128 .f32) := by
  have h := in_binary mem_ops0 95 rfl V
  exact h

theorem rd_main_cst_5 : (after (ops (F := Ideal)) V (Proc.devRef .tc main_cst_5) : FVec Ideal S_ .f32) = (constant (F := Ideal) S_ .f32 0x3727C5AC#32) := by
  have h := in_nullary mem_ops0 96 rfl V
  exact h

theorem rd_main_v45 : (after (ops (F := Ideal)) V (Proc.devRef .tc main_v45) : FVec Ideal S128 .f32) = broadcastInDim S128 ![] bcast_S_S128 (after (ops (F := Ideal)) V (Proc.devRef .tc main_cst_5) : FVec Ideal S_ .f32) := by
  have h := in_unary mem_ops0 97 rfl V
  exact h

theorem rd_main_v46 : (after (ops (F := Ideal)) V (Proc.devRef .tc main_v46) : FVec Ideal S128 .f32) = addf (F := Ideal) (s := S128) (φ := .f32) (after (ops (F := Ideal)) V (Proc.devRef .tc main_v41) : FVec Ideal S128 .f32) (after (ops (F := Ideal)) V (Proc.devRef .tc main_v45) : FVec Ideal S128 .f32) := by
  have h := in_binary mem_ops0 98 rfl V
  exact h

theorem rd_main_v47 : (after (ops (F := Ideal)) V (Proc.devRef .tc main_v47) : FVec Ideal S128 .f32) = Host.rsqrt (F := Ideal) (s := S128) (φ := .f32) (after (ops (F := Ideal)) V (Proc.devRef .tc main_v46) : FVec Ideal S128 .f32) := by
  have h := in_unary mem_ops0 99 rfl V
  exact h

theorem rd_main_v48 : (after (ops (F := Ideal)) V (Proc.devRef .tc main_v48) : FVec Ideal S1x128 .f32) = broadcastInDim S1x128 ![1] bcast_S128_S1x128_1 (after (ops (F := Ideal)) V (Proc.devRef .tc main_v47) : FVec Ideal S128 .f32) := by
  have h := in_unary mem_ops0 100 rfl V
  exact h

theorem rd_main_v49 : (after (ops (F := Ideal)) V (Proc.devRef .tc main_v49) : FVec Ideal S100000x128 .f32) = broadcastInDim S100000x128 ![0, 1] bcast_S1x128_S100000x128_0_1 (after (ops (F := Ideal)) V (Proc.devRef .tc main_v48) : FVec Ideal S1x128 .f32) := by
  have h := in_unary mem_ops0 101 rfl V
  exact h

theorem rd_main_v50 : (after (ops (F := Ideal)) V (Proc.devRef .tc main_v50) : FVec Ideal S100000x128 .f32) = mulf (F := Ideal) (s := S100000x128) (φ := .f32) (after (ops (F := Ideal)) V (Proc.devRef .tc main_v44) : FVec Ideal S100000x128 .f32) (after (ops (F := Ideal)) V (Proc.devRef .tc main_v49) : FVec Ideal S100000x128 .f32) := by
  have h := in_binary mem_ops0 102 rfl V
  exact h

theorem rd_main_v51 : (after (ops (F := Ideal)) V (Proc.devRef .tc main_v51) : FVec Ideal S1x128 .f32) = broadcastInDim S1x128 ![1] bcast_S128_S1x128_1 (after (ops (F := Ideal)) V (Proc.devRef .tc main_v35) : FVec Ideal S128 .f32) := by
  have h := in_unary mem_ops0 103 rfl V
  exact h

theorem rd_main_v52 : (after (ops (F := Ideal)) V (Proc.devRef .tc main_v52) : FVec Ideal S100000x128 .f32) = broadcastInDim S100000x128 ![0, 1] bcast_S1x128_S100000x128_0_1 (after (ops (F := Ideal)) V (Proc.devRef .tc main_v51) : FVec Ideal S1x128 .f32) := by
  have h := in_unary mem_ops1 0 rfl V
  exact h

theorem rd_main_v53 : (after (ops (F := Ideal)) V (Proc.devRef .tc main_v53) : FVec Ideal S100000x128 .f32) = mulf (F := Ideal) (s := S100000x128) (φ := .f32) (after (ops (F := Ideal)) V (Proc.devRef .tc main_v50) : FVec Ideal S100000x128 .f32) (after (ops (F := Ideal)) V (Proc.devRef .tc main_v52) : FVec Ideal S100000x128 .f32) := by
  have h := in_binary mem_ops1 1 rfl V
  exact h

theorem rd_main_v54 : (after (ops (F := Ideal)) V (Proc.devRef .tc main_v54) : FVec Ideal S1x128 .f32) = broadcastInDim S1x128 ![1] bcast_S128_S1x128_1 (after (ops (F := Ideal)) V (Proc.devRef .tc main_v37) : FVec Ideal S128 .f32) := by
  have h := in_unary mem_ops1 2 rfl V
  exact h

theorem rd_main_v55 : (after (ops (F := Ideal)) V (Proc.devRef .tc main_v55) : FVec Ideal S100000x128 .f32) = broadcastInDim S100000x128 ![0, 1] bcast_S1x128_S100000x128_0_1 (after (ops (F := Ideal)) V (Proc.devRef .tc main_v54) : FVec Ideal S1x128 .f32) := by
  have h := in_unary mem_ops1 3 rfl V
  exact h

theorem rd_main_v56 : (after (ops (F := Ideal)) V (Proc.devRef .tc main_v56) : FVec Ideal S100000x128 .f32) = addf (F := Ideal) (s := S100000x128) (φ := .f32) (after (ops (F := Ideal)) V (Proc.devRef .tc main_v53) : FVec Ideal S100000x128 .f32) (after (ops (F := Ideal)) V (Proc.devRef .tc main_v55) : FVec Ideal S100000x128 .f32) := by
  have h := in_binary mem_ops1 4 rfl V
  exact h

theorem rd_main_call3_cst : (after (ops (F := Ideal)) V (Proc.devRef .tc main_call3_cst) : FVec Ideal S_ .f32) = (constant (F := Ideal) S_ .f32 0x00000000#32) := by
  have h := in_nullary mem_ops1 5 rfl V
  exact h

theorem rd_main_call3_v0 : (after (ops (F := Ideal)) V (Proc.devRef .tc main_call3_v0) : FVec Ideal S100000x128 .f32) = broadcastInDim S100000x128 ![] bcast_S_S100000x128 (after (ops (F := Ideal)) V (Proc.devRef .tc main_call3_cst) : FVec Ideal S_ .f32) := by
  have h := in_unary mem_ops1 6 rfl V
  exact h

theorem rd_main_v57 : (after (ops (F := Ideal)) V (Proc.devRef .tc main_v57) : FVec Ideal S100000x128 .f32) = maximumf (F := Ideal) (s := S100000x128) (φ := .f32) (after (ops (F := Ideal)) V (Proc.devRef .tc main_v56) : FVec Ideal S100000x128 .f32) (after (ops (F := Ideal)) V (Proc.devRef .tc main_call3_v0) : FVec Ideal S100000x128 .f32) := by
  have h := in_binary mem_ops1 7 rfl V
  exact h

theorem rd_main_v58 : (after (ops (F := Ideal)) V (Proc.devRef .tc main_v58) : FVec Ideal S128x128 .f32) = transpose S128x128 [1, 0] (after (ops (F := Ideal)) V (Proc.devRef .tc main_arg8) : FVec Ideal S128x128 .f32) transposes_S128x128_S128x128_1_0 := by
  have h := in_unary mem_ops1 8 rfl V
  exact h

theorem rd_main_v59 : (after (ops (F := Ideal)) V (Proc.devRef .tc main_v59) : FVec Ideal S100000x128 .f32) = Host.dotGeneral (F := Ideal) (φ₁ := .f32) (φ₂ := .f32) dot_S100000x128_S128x128_S100000x128_1_0_0_1_n_n none (after (ops (F := Ideal)) V (Proc.devRef .tc main_v57) : FVec Ideal S100000x128 .f32) (after (ops (F := Ideal)) V (Proc.devRef .tc main_v58) : FVec Ideal S128x128 .f32) := by
  have h := in_binary mem_ops1 9 rfl V
  exact h

theorem rd_main_v60 : (after (ops (F := Ideal)) V (Proc.devRef .tc main_v60) : FVec Ideal S1x128 .f32) = broadcastInDim S1x128 ![1] bcast_S128_S1x128_1 (after (ops (F := Ideal)) V (Proc.devRef .tc main_arg9) : FVec Ideal S128 .f32) := by
  have h := in_unary mem_ops1 10 rfl V
  exact h

theorem rd_main_v61 : (after (ops (F := Ideal)) V (Proc.devRef .tc main_v61) : FVec Ideal S100000x128 .f32) = broadcastInDim S100000x128 ![0, 1] bcast_S1x128_S100000x128_0_1 (after (ops (F := Ideal)) V (Proc.devRef .tc main_v60) : FVec Ideal S1x128 .f32) := by
  have h := in_unary mem_ops1 11 rfl V
  exact h

theorem rd_main_v62 : (after (ops (F := Ideal)) V (Proc.devRef .tc main_v62) : FVec Ideal S100000x128 .f32) = addf (F := Ideal) (s := S100000x128) (φ := .f32) (after (ops (F := Ideal)) V (Proc.devRef .tc main_v59) : FVec Ideal S100000x128 .f32) (after (ops (F := Ideal)) V (Proc.devRef .tc main_v61) : FVec Ideal S100000x128 .f32) := by
  have h := in_binary mem_ops1 12 rfl V
  exact h

theorem rd_main_call4_v0 : (after (ops (F := Ideal)) V (Proc.devRef .tc main_call4_v0) : FVec Ideal S100000x128 .f32) = mulf (F := Ideal) (s := S100000x128) (φ := .f32) (after (ops (F := Ideal)) V (Proc.devRef .tc main_v62) : FVec Ideal S100000x128 .f32) (after (ops (F := Ideal)) V (Proc.devRef .tc main_v62) : FVec Ideal S100000x128 .f32) := by
  have h := in_binary mem_ops1 13 rfl V
  exact h

theorem rd_main_call4_cst : (after (ops (F := Ideal)) V (Proc.devRef .tc main_call4_cst) : FVec Ideal S_ .f32) = (constant (F := Ideal) S_ .f32 0x00000000#32) := by
  have h := in_nullary mem_ops1 14 rfl V
  exact h

theorem rd_main_call4_v1 : (after (ops (F := Ideal)) V (Proc.devRef .tc main_call4_v1) : FVec Ideal S100000 .f32) = Host.reduceAdd (F := Ideal) (s := S100000x128) (φ := .f32) (u := S_) (after (ops (F := Ideal)) V (Proc.devRef .tc main_call4_v0) : FVec Ideal S100000x128 .f32) (after (ops (F := Ideal)) V (Proc.devRef .tc main_call4_cst) : FVec Ideal S_ .f32) reducesTo_S100000x128_S100000_d1 h_S_ := by
  have h := in_binary mem_ops1 15 rfl V
  exact h

theorem rd_main_call4_v2 : (after (ops (F := Ideal)) V (Proc.devRef .tc main_call4_v2) : FVec Ideal S100000x1 .f32) = broadcastInDim S100000x1 ![0] bcast_S100000_S100000x1_0 (after (ops (F := Ideal)) V (Proc.devRef .tc main_call4_v1) : FVec Ideal S100000 .f32) := by
  have h := in_unary mem_ops1 16 rfl V
  exact h

theorem rd_main_v63 : (after (ops (F := Ideal)) V (Proc.devRef .tc main_v63) : FVec Ideal S100000x1 .f32) = Host.sqrt (F := Ideal) (s := S100000x1) (φ := .f32) (after (ops (F := Ideal)) V (Proc.devRef .tc main_call4_v2) : FVec Ideal S100000x1 .f32) := by
  have h := in_unary mem_ops1 17 rfl V
  exact h

theorem rd_main_cst_6 : (after (ops (F := Ideal)) V (Proc.devRef .tc main_cst_6) : FVec Ideal S_ .f32) = (constant (F := Ideal) S_ .f32 0x2B8CBCCC#32) := by
  have h := in_nullary mem_ops1 18 rfl V
  exact h

theorem rd_main_v64 : (after (ops (F := Ideal)) V (Proc.devRef .tc main_v64) : FVec Ideal S100000x1 .f32) = broadcastInDim S100000x1 ![] bcast_S_S100000x1 (after (ops (F := Ideal)) V (Proc.devRef .tc main_cst_6) : FVec Ideal S_ .f32) := by
  have h := in_unary mem_ops1 19 rfl V
  exact h

theorem rd_main_v65 : (after (ops (F := Ideal)) V (Proc.devRef .tc main_v65) : FVec Ideal S100000x1 .f32) = maximumf (F := Ideal) (s := S100000x1) (φ := .f32) (after (ops (F := Ideal)) V (Proc.devRef .tc main_v63) : FVec Ideal S100000x1 .f32) (after (ops (F := Ideal)) V (Proc.devRef .tc main_v64) : FVec Ideal S100000x1 .f32) := by
  have h := in_binary mem_ops1 20 rfl V
  exact h

theorem rd_main_v66 : (after (ops (F := Ideal)) V (Proc.devRef .tc main_v66) : FVec Ideal S100000x128 .f32) = broadcastInDim S100000x128 ![0, 1] bcast_S100000x1_S100000x128_0_1 (after (ops (F := Ideal)) V (Proc.devRef .tc main_v65) : FVec Ideal S100000x1 .f32) := by
  have h := in_unary mem_ops1 21 rfl V
  exact h

theorem rd_main_v67 : (after (ops (F := Ideal)) V (Proc.devRef .tc main_v67) : FVec Ideal S100000x128 .f32) = Host.divf (F := Ideal) (s := S100000x128) (φ := .f32) (after (ops (F := Ideal)) V (Proc.devRef .tc main_v62) : FVec Ideal S100000x128 .f32) (after (ops (F := Ideal)) V (Proc.devRef .tc main_v66) : FVec Ideal S100000x128 .f32) := by
  have h := in_binary mem_ops1 22 rfl V
  exact h

end Cert.Val.Rd

end
-- ==== Proof.Val.Enc34R.lean ====
/-
  The reference's side of the patient encoder's last two steps: the contents of its buffers at the end of the run.
  The third linear layer's output is b₃ + h · W₃ᵀ, where h is the second layer's output normalised column by column
  from its centred moments at the second row of the gains and offsets, and clamped at zero. The encoder's result is
  that output with every row divided by the larger of its Euclidean norm and a small positive constant.
-/
import proofs.«424088_j28020366639260_2_alg».proof.Proof.Val.EncRd2
import proofs.«424088_j28020366639260_2_alg».proof.Proof.Val.EncRLib
import proofs.«424088_j28020366639260_2_alg».proof.Proof.Val.L2Spec

set_option maxRecDepth 16384

noncomputable section

namespace Cert.Val

open Cert.ReferenceIdeal Cert.ReferenceIdeal.Gen Cert.ReferenceIdeal.Hand Cert.Val.Rd Cert.Val.RefRead
open Idealize.ShloMosaic Idealize.ShloMosaic.TcCoe Idealize.SL.Sem Idealize.ShloMosaic.StableHlo Idealize.ShloMosaic.ValueIdx

variable (V : Valuation τ sig (Elt Ideal))

/-- The reference's argument arrays the last two steps read, at their literal types. -/
abbrev rB8 : FVec Ideal S128x128 .f32 := V (Proc.devRef .tc main_arg8)
abbrev rB9 : FVec Ideal S128 .f32 := V (Proc.devRef .tc main_arg9)
abbrev rB10 : FVec Ideal S2x128 .f32 := V (Proc.devRef .tc main_arg10)
abbrev rB11 : FVec Ideal S2x128 .f32 := V (Proc.devRef .tc main_arg11)

/-- The second linear layer's output, as it stands at the end of the run. -/
abbrev rY2 : FVec Ideal S100000x128 .f32 := after (ops (F := Ideal)) V (Proc.devRef .tc main_v33)

/-- Row 1 of the gains and of the offsets, as the reference slices them. -/
theorem R_g1 (j : Fin 128) : (after (ops (F := Ideal)) V (Proc.devRef .tc main_v35) : FVec Ideal S128 .f32) (ix1 j) = rB10 V (ix2 (1 : Fin 2) j) := by
  rw [rd_main_v35 V, rd_main_v34 V, after_ops_arg main_arg10 (by decide) V]
  exact slice_row1 _ j

theorem R_b1 (j : Fin 128) : (after (ops (F := Ideal)) V (Proc.devRef .tc main_v37) : FVec Ideal S128 .f32) (ix1 j) = rB11 V (ix2 (1 : Fin 2) j) := by
  rw [rd_main_v37 V, rd_main_v36 V, after_ops_arg main_arg11 (by decide) V]
  exact slice_row1 _ j

/-- The second normalisation, as the composite of the reference's operations. -/
theorem R_h2_ops : (after (ops (F := Ideal)) V (Proc.devRef .tc main_v57) : FVec Ideal S100000x128 .f32)
    = refBN (rY2 V) (after (ops (F := Ideal)) V (Proc.devRef .tc main_v35))
        (after (ops (F := Ideal)) V (Proc.devRef .tc main_v37)) := by
  rw [rd_main_v57 V, rd_main_call3_v0 V, rd_main_call3_cst V, rd_main_v56 V, rd_main_v55 V, rd_main_v54 V, rd_main_v53 V,
    rd_main_v52 V, rd_main_v51 V, rd_main_v50 V, rd_main_v49 V, rd_main_v48 V, rd_main_v47 V, rd_main_v46 V, rd_main_v45 V,
    rd_main_cst_5 V, rd_main_v41 V, rd_main_call2_call0_v1 V, rd_main_call2_call0_v0 V, rd_main_call2_cst_4 V,
    rd_main_call2_v12 V, rd_main_call2_cst_3 V, rd_main_call2_v11 V, rd_main_call2_v10 V, rd_main_call2_v9 V,
    rd_main_call2_cst_2 V, rd_main_call2_v8 V, rd_main_call2_cst_1 V, rd_main_call2_v7 V, rd_main_c_4 V, rd_main_call2_v6 V,
    rd_main_call2_v5 V, rd_main_call2_v4 V, rd_main_call2_v3 V, rd_main_call2_v2 V, rd_main_call2_cst_0 V, rd_main_call2_v1 V,
    rd_main_call2_v0 V, rd_main_call2_cst V, rd_main_v44 V, rd_main_v43 V, rd_main_v42 V, rd_main_v40 V, rd_main_v39 V,
    rd_main_cst_3 V, rd_main_v38 V, rd_main_cst_2 V]
  rfl

/-- The second normalisation: from the centred moments of the second layer's output, at layer 1's gains and offsets. -/
theorem R_h2 : (after (ops (F := Ideal)) V (Proc.devRef .tc main_v57) : FVec Ideal S100000x128 .f32)
    = bnR (rY2 V) (rB10 V) (rB11 V) 1 := by
  rw [R_h2_ops V, refBN_eq _ _ _ (rB10 V) (rB11 V) 1 (R_g1 V) (R_b1 V)]

/-- The third linear layer's output. -/
theorem R_y3 : (after (ops (F := Ideal)) V (Proc.devRef .tc main_v62) : FVec Ideal S100000x128 .f32)
    = lin (bnR (rY2 V) (rB10 V) (rB11 V) 1) (rB8 V) (rB9 V) := by
  rw [rd_main_v62 V, rd_main_v59 V, rd_main_v58 V, rd_main_v61 V, rd_main_v60 V, after_ops_arg main_arg8 (by decide) V,
    after_ops_arg main_arg9 (by decide) V, R_h2 V]
  exact refLin_eq _ _ _

/-- The encoder's result: the rows of the third layer's output, normalised. -/
theorem R_xp : (after (ops (F := Ideal)) V (Proc.devRef .tc main_v67) : FVec Ideal S100000x128 .f32)
    = l2n (after (ops (F := Ideal)) V (Proc.devRef .tc main_v62)) := by
  rw [rd_main_v67 V, rd_main_v66 V, rd_main_v65 V, rd_main_v64 V, rd_main_cst_6 V, rd_main_v63 V, rd_main_call4_v2 V,
    rd_main_call4_v1 V, rd_main_call4_cst V, rd_main_call4_v0 V]
  exact hostL2_eq _ _ _ _ _ _

end Cert.Val

end
-- ==== Proof.Val.Enc34.lean ====
/-
  The patient encoder's last two steps, the two programs side by side. Given that the second layer's output is the
  same real array in both programs and that the third weight and bias, the gains and the offsets are the same real
  arrays, the third layer's outputs are the same real array: one program normalises from the column sums and the
  other from the centred moments, and on real arrays these agree. Given that, the encoder's results, the rows of
  that output divided by the larger of their norm and a small positive constant, are the same real array.
-/
import proofs.«424088_j28020366639260_2_alg».proof.Proof.Val.Enc34K
import proofs.«424088_j28020366639260_2_alg».proof.Proof.Val.Enc34R

set_option maxRecDepth 16384

noncomputable section

namespace Cert.Val

open Idealize.ShloMosaic Idealize.ShloMosaic.TcCoe Idealize.SL.Sem Idealize.ShloMosaic.StableHlo Idealize.ShloMosaic.ValueIdx

/-- The third layer of equal real inputs: normalising from the sums and normalising from the centred moments give
    the same real array. -/
theorem eq_y3 {Y Y' : SM.Idx → EReal} {A8 A8' : SW.Idx → EReal} {A9 A9' : SV.Idx → EReal} {G G' B B' : SG.Idx → EReal}
    (hY : Y = Y') (h8 : A8 = A8') (h9 : A9 = A9') (hG : G = G') (hB : B = B')
    (rY : ∀ i, ∃ r : ℝ, Y' i = (r : EReal)) (r8 : ∀ i, ∃ r : ℝ, A8' i = (r : EReal)) (r9 : ∀ i, ∃ r : ℝ, A9' i = (r : EReal))
    (rG : ∀ i, ∃ r : ℝ, G' i = (r : EReal)) (rB : ∀ i, ∃ r : ℝ, B' i = (r : EReal)) :
    lin (bnK Y G B 1) A8 A9 = lin (bnR Y' G' B' 1) A8' A9'
      ∧ ∀ i, ∃ r : ℝ, lin (bnR Y' G' B' 1) A8' A9' i = (r : EReal) := by
  subst hY h8 h9 hG hB
  rw [bnK_eq_bnR 1 rY rG rB]
  exact ⟨rfl, real_lin (real_bnR 1 rY rG rB) r8 r9⟩

/-- The third layer's output buffers agree and are real, when the second layer's output buffers and the four
    argument arrays do and the two cores' parts are the per-core sums. -/
theorem link_main_v48
    (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_y2 : kY2 m g c = rY2 V) (r_y2 : ∀ i, ∃ r : ℝ, rY2 V i = (r : EReal))
    (e_a8 : kB8 m g c = rB8 V) (r_a8 : ∀ i, ∃ r : ℝ, rB8 V i = (r : EReal))
    (e_a9 : kB9 m g c = rB9 V) (r_a9 : ∀ i, ∃ r : ℝ, rB9 V i = (r : EReal))
    (e_a10 : kB10 m g c = rB10 V) (r_a10 : ∀ i, ∃ r : ℝ, rB10 V i = (r : EReal))
    (e_a11 : kB11 m g c = rB11 V) (r_a11 : ∀ i, ∃ r : ℝ, rB11 V i = (r : EReal))
    (hs : ∀ (q : Fin 2) (k : Fin 128), kS2 m g c (ix3 q (0 : Fin 1) k)
      = ∑ p : Fin 25, ∑ r : Fin 2000, kY2 m g c (ix2 (Cert.Bridge.rowOf (C := 2) (T := 25) (R := 2000) q p r) k))
    (hq : ∀ (q : Fin 2) (k : Fin 128), kQ2 m g c (ix3 q (0 : Fin 1) k)
      = ∑ p : Fin 25, ∑ r : Fin 2000, kY2 m g c (ix2 (Cert.Bridge.rowOf (C := 2) (T := 25) (R := 2000) q p r) k)
          * kY2 m g c (ix2 (Cert.Bridge.rowOf (C := 2) (T := 25) (R := 2000) q p r) k)) :
    (Cert.KernelIdeal.Hand.W6 m g c (Proc.devRef .tc Cert.KernelIdeal.main_v48) : SM.Idx → EReal)
        = after (Cert.ReferenceIdeal.Hand.ops (F := Ideal)) V (Proc.devRef .tc Cert.ReferenceIdeal.main_v62)
      ∧ ∀ i, ∃ r : ℝ, (after (Cert.ReferenceIdeal.Hand.ops (F := Ideal)) V (Proc.devRef .tc Cert.ReferenceIdeal.main_v62) : SM.Idx → EReal) i = (r : EReal) := by
  have hK := K_y3 m g c hs hq
  have hR := R_y3 V
  have hE := eq_y3 e_y2 e_a8 e_a9 e_a10 e_a11 r_y2 r_a8 r_a9 r_a10 r_a11
  refine ⟨hK.trans (hE.1.trans hR.symm), fun i => ?_⟩
  obtain ⟨r, hr⟩ := hE.2 i
  exact ⟨r, (congrFun hR i).trans hr⟩

/-- The encoder's result buffers agree and are real, when the third layer's output buffers do. -/
theorem link_main_v49
    (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_v48 : (Cert.KernelIdeal.Hand.W6 m g c (Proc.devRef .tc Cert.KernelIdeal.main_v48) : SM.Idx → EReal)
      = after (Cert.ReferenceIdeal.Hand.ops (F := Ideal)) V (Proc.devRef .tc Cert.ReferenceIdeal.main_v62))
    (r_v48 : ∀ i, ∃ r : ℝ, (after (Cert.ReferenceIdeal.Hand.ops (F := Ideal)) V (Proc.devRef .tc Cert.ReferenceIdeal.main_v62) : SM.Idx → EReal) i = (r : EReal)) :
    (Cert.KernelIdeal.Hand.W7 m g c (Proc.devRef .tc Cert.KernelIdeal.main_v49) : SM.Idx → EReal)
        = after (Cert.ReferenceIdeal.Hand.ops (F := Ideal)) V (Proc.devRef .tc Cert.ReferenceIdeal.main_v67)
      ∧ ∀ i, ∃ r : ℝ, (after (Cert.ReferenceIdeal.Hand.ops (F := Ideal)) V (Proc.devRef .tc Cert.ReferenceIdeal.main_v67) : SM.Idx → EReal) i = (r : EReal) := by
  have hK := K_xp m g c
  have hR := R_xp V
  refine ⟨hK.trans ((congrArg l2n e_v48).trans hR.symm), fun i => ?_⟩
  obtain ⟨r, hr⟩ := real_l2n r_v48 i
  exact ⟨r, (congrFun hR i).trans hr⟩

end Cert.Val

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.Val.AggLemmas.lean ====
/-
  The mean over the incoming edges of each target row, read at one entry, in the two spellings the programs use.

  An edge e carries a source position g e and a target position t e. The sum of a target row c gathers, over the
  edges whose target position is c, the source row the edge names (a negative position counted from the end, then
  clamped into the array, as the gather does); the count of c is the number of those edges. One program multiplies
  the sum by the reciprocal of the count clamped below by one, the other divides the sum by that clamped count.
  On real entries the two agree, since s * (1 / k) = s / k for a real k ≥ 1, and the answer is real.
-/
import Idealize.ShloMosaic.PureOps.Ideal
import Idealize.ShloMosaic.Lib.ValueIdx
import proofs.«424088_j28020366639260_2_alg».proof.Proof.LibGatherScatter
import proofs.«424088_j28020366639260_2_alg».proof.Proof.LibERealArith

noncomputable section

namespace Cert.Val

open Idealize.ShloMosaic Idealize.ShloMosaic.ValueIdx
open Cert.LibGatherScatter Cert.Lib.ERealArith
open scoped BigOperators

/-! ## Broadcasts read at an index -/

/-- A vector broadcast to a one-column matrix: entry (e, 0) is entry e. -/
private theorem bcast_col_apply {α : Type} {n : Nat} (h : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] h x (ix2 e z) = x (ix1 e) := by
  unfold broadcastInDim
  congr 1
  funext a
  match a with
  | ⟨0, _⟩ =>
    apply Fin.ext
    split
    · rename_i h1
      have hn : n = 1 := h1
      have := e.isLt
      show 0 = e.val
      omega
    · rfl

/-- A one-column matrix broadcast along its rows: entry (c, j) is entry (c, 0). -/
private theorem bcast_rows_apply {α : Type} {n d : Nat} (h : (⟨2, ![n, 1]⟩ : Shape).BroadcastsInDim ⟨2, ![n, d]⟩ ![0, 1])
    (x : (⟨2, ![n, 1]⟩ : Shape).Idx → α) (c : Fin n) (j : Fin d) :
    broadcastInDim ⟨2, ![n, d]⟩ ![0, 1] h x (ix2 c j) = x (ix2 c (0 : Fin 1)) := by
  unfold broadcastInDim
  congr 1
  funext a
  match a with
  | ⟨0, _⟩ =>
    apply Fin.ext
    split
    · rename_i h1
      have hn : n = 1 := h1
      have := c.isLt
      show 0 = c.val
      omega
    · rfl
  | ⟨1, _⟩ =>
    apply Fin.ext
    split
    · rfl
    · rename_i h1
      exact absurd rfl h1

/-- A vector spread over the rows of a matrix through a one-column matrix: entry (c, j) is entry c. -/
private theorem bcast_vec_rows_apply {α : Type} {n d : Nat} (h1 : (⟨1, ![n]⟩ : Shape).BroadcastsInDim ⟨2, ![n, 1]⟩ ![0])
    (h2 : (⟨2, ![n, 1]⟩ : Shape).BroadcastsInDim ⟨2, ![n, d]⟩ ![0, 1])
    (x : (⟨1, ![n]⟩ : Shape).Idx → α) (c : Fin n) (j : Fin d) :
    broadcastInDim ⟨2, ![n, d]⟩ ![0, 1] h2 (broadcastInDim ⟨2, ![n, 1]⟩ ![0] h1 x) (ix2 c j) = x (ix1 c) := by
  rw [bcast_rows_apply, bcast_col_apply]

/-- A float literal spread over an array: every entry is the literal. -/
private theorem bcast_lit_apply {t : Shape} {φ : FTy} (h : (⟨0, ![]⟩ : Shape).BroadcastsInDim t ![]) (b : BitVec φ.bits) (i : t.Idx) :
    broadcastInDim t ![] h (constant (F := Ideal) ⟨0, ![]⟩ φ b) i = Ideal.ofBits φ b := rfl

/-- The host's quotient of two arrays, at an entry. -/
private theorem hostDivf_apply {s : Shape} {φ : FTy} (a b : FVec Ideal s φ) (i : s.Idx) :
    Host.divf a b i = Ideal.div (a i) (b i) := rfl

/-! ## The sum and the count of a target row -/

variable {N M E D : Nat}

/-- The source position an edge hands the gather: a negative position has the number of rows added. -/
def wrapPos (nb : BitVec 32) (g : BitVec 32) : BitVec 32 :=
  Scalar.select (IntOp.cmpi .slt g 0#32) (IntOp.addi g nb) g

/-- The source row edge e reads: its position, read signed and clamped into the array. -/
def srcRow (hN : 0 < N) (nb : BitVec 32) (gi : IVec ⟨1, ![E]⟩ 32) (e : Fin E) : Fin N :=
  ⟨min (wrapPos nb (gi (ix1 e))).toInt.toNat (N - 1), by omega⟩

/-- The edges whose target position, read signed, is row c. -/
def edgesOf (si : IVec ⟨1, ![E]⟩ 32) (c : Fin M) : Finset (Fin E) :=
  Finset.univ.filter fun e : Fin E => (si (ix1 e)).toInt = (c.val : ℤ)

/-- The sum over a target row's edges of the source entries in column j. -/
def segSum (hN : 0 < N) (nb : BitVec 32) (x : FVec Ideal ⟨2, ![N, D]⟩ .f32) (gi si : IVec ⟨1, ![E]⟩ 32)
    (c : Fin M) (j : Fin D) : EReal :=
  ∑ e ∈ edgesOf si c, x (ix2 (srcRow hN nb gi e) j)

/-- The number of a target row's edges, as an extended real. -/
def segCnt (si : IVec ⟨1, ![E]⟩ 32) (c : Fin M) : EReal := (((edgesOf si c).card : ℝ) : EReal)

/-- The mean by the reciprocal of the clamped count, at entry (c, j). -/
def aggKAt (hN : 0 < N) (nb : BitVec 32) (x : FVec Ideal ⟨2, ![N, D]⟩ .f32) (gi si : IVec ⟨1, ![E]⟩ 32)
    (c : Fin M) (j : Fin D) : EReal :=
  segSum hN nb x gi si c j * Ideal.div 1 (max (segCnt si c) 1)

/-- The mean by the quotient with the clamped count, at entry (c, j). -/
def aggRAt (hN : 0 < N) (nb : BitVec 32) (x : FVec Ideal ⟨2, ![N, D]⟩ .f32) (gi si : IVec ⟨1, ![E]⟩ 32)
    (c : Fin M) (j : Fin D) : EReal :=
  Ideal.div (segSum hN nb x gi si c j) (max (segCnt si c) 1)

/-- The mean by the reciprocal of the clamped count, as an array. -/
def aggK (hN : 0 < N) (nb : BitVec 32) (x : FVec Ideal ⟨2, ![N, D]⟩ .f32) (gi si : IVec ⟨1, ![E]⟩ 32) :
    FVec Ideal ⟨2, ![M, D]⟩ .f32 :=
  fun i => aggKAt hN nb x gi si (i 0) (i 1)

/-- The mean by the quotient with the clamped count, as an array. -/
def aggR (hN : 0 < N) (nb : BitVec 32) (x : FVec Ideal ⟨2, ![N, D]⟩ .f32) (gi si : IVec ⟨1, ![E]⟩ 32) :
    FVec Ideal ⟨2, ![M, D]⟩ .f32 :=
  fun i => aggRAt hN nb x gi si (i 0) (i 1)

/-! ## The operations' terms read at an entry -/

section Terms

variable (dg : GatherDims ⟨2, ![N, D]⟩ ⟨2, ![E, 1]⟩ ⟨2, ![E, D]⟩)
  (hoff : dg.offsetDims = [1]) (hcoll : dg.collapsedSliceDims = [0]) (hob : dg.operandBatchingDims = [])
  (hsim : dg.startIndexMap = [0]) (hgiv : dg.indexVectorDim = 1) (hss : dg.sliceSizes = ![1, D])
  (ds : ScatterDims ⟨2, ![M, D]⟩ ⟨2, ![E, 1]⟩ ⟨2, ![E, D]⟩)
  (huw : ds.updateWindowDims = [1]) (hins : ds.insertedWindowDims = [0]) (hsd : ds.scatterDimsToOperandDims = [0])
  (hivd : ds.indexVectorDim = 1)
  (dc : ScatterDims ⟨1, ![M]⟩ ⟨2, ![E, 1]⟩ ⟨1, ![E]⟩)
  (cuw : dc.updateWindowDims = []) (cins : dc.insertedWindowDims = [0]) (csd : dc.scatterDimsToOperandDims = [0])
  (civd : dc.indexVectorDim = 1)

include hoff hcoll hob hsim hgiv hss huw hins hsd hivd in
/-- Gather the rows the edges name, accumulate them into zeros at the edges' targets: entry (c, j) is the row sum. -/
theorem sumTerm_apply (hN : 0 < N) (nb : BitVec 32)
    {hz : (⟨0, ![]⟩ : Shape).BroadcastsInDim ⟨2, ![M, D]⟩ ![]}
    {hzi : (⟨0, ![]⟩ : Shape).BroadcastsInDim ⟨1, ![E]⟩ ![]}
    {hbE : (⟨1, ![E]⟩ : Shape).BroadcastsInDim ⟨2, ![E, 1]⟩ ![0]}
    (x : FVec Ideal ⟨2, ![N, D]⟩ .f32) (gi si : IVec ⟨1, ![E]⟩ 32) (c : Fin M) (j : Fin D) :
    Host.scatterAdd ds (broadcastInDim ⟨2, ![M, D]⟩ ![] hz (constant (F := Ideal) ⟨0, ![]⟩ .f32 0x00000000#32))
        (broadcastInDim ⟨2, ![E, 1]⟩ ![0] hbE si)
        (Host.gather dg x (broadcastInDim ⟨2, ![E, 1]⟩ ![0] hbE
          (select (cmpi .slt gi (broadcastInDim ⟨1, ![E]⟩ ![] hzi (constantI ⟨0, ![]⟩ 32 0#32)))
            (addi gi (broadcastInDim ⟨1, ![E]⟩ ![] hzi (constantI ⟨0, ![]⟩ 32 nb))) gi))) (ix2 c j)
      = segSum hN nb x gi si c j := by
  rw [scatterAdd_rows ds huw hins hsd hivd]
  have h0 : broadcastInDim ⟨2, ![M, D]⟩ ![] hz (constant (F := Ideal) ⟨0, ![]⟩ .f32 0x00000000#32) (ix2 c j) = 0 :=
    Ideal.ofBits_zero_f32
  rw [h0, zero_add]
  unfold segSum edgesOf
  refine Finset.sum_congr ?_ ?_
  · ext e
    simp only [Finset.mem_filter, Finset.mem_univ, true_and]
    rw [bcast_col_apply]
  · intro e _
    rw [gather_rows dg hoff hcoll hob hsim hgiv hss _ _ e j hN]
    congr 2
    apply Fin.ext
    show min _ (N - 1) = min _ (N - 1)
    rw [bcast_col_apply]
    rfl

include cuw cins csd civd in
/-- Accumulate ones into zeros at the edges' targets: entry c is the number of the row's edges. -/
theorem cntTerm_apply
    {hzM : (⟨0, ![]⟩ : Shape).BroadcastsInDim ⟨1, ![M]⟩ ![]}
    {hzE : (⟨0, ![]⟩ : Shape).BroadcastsInDim ⟨1, ![E]⟩ ![]}
    {hbE : (⟨1, ![E]⟩ : Shape).BroadcastsInDim ⟨2, ![E, 1]⟩ ![0]}
    (si : IVec ⟨1, ![E]⟩ 32) (c : Fin M) :
    Host.scatterAdd dc (broadcastInDim ⟨1, ![M]⟩ ![] hzM (constant (F := Ideal) ⟨0, ![]⟩ .f32 0x00000000#32))
        (broadcastInDim ⟨2, ![E, 1]⟩ ![0] hbE si)
        (broadcastInDim ⟨1, ![E]⟩ ![] hzE (constant (F := Ideal) ⟨0, ![]⟩ .f32 0x3F800000#32)) (ix1 c)
      = segCnt si c := by
  rw [scatterAdd_vec dc cuw cins csd civd]
  have h0 : broadcastInDim ⟨1, ![M]⟩ ![] hzM (constant (F := Ideal) ⟨0, ![]⟩ .f32 0x00000000#32) (ix1 c) = 0 :=
    Ideal.ofBits_zero_f32
  rw [h0, zero_add]
  have h1 : ∀ e : Fin E, broadcastInDim ⟨1, ![E]⟩ ![] hzE (constant (F := Ideal) ⟨0, ![]⟩ .f32 0x3F800000#32) (ix1 e)
      = ((1 : ℝ) : EReal) := fun e => ofBits_one
  unfold segCnt edgesOf
  rw [Finset.sum_congr (s₂ := Finset.univ.filter fun e : Fin E => (si (ix1 e)).toInt = (c.val : ℤ))
    (g := fun _ => ((1 : ℝ) : EReal)) ?_ (fun e _ => h1 e)]
  · rw [sum_coe, Finset.sum_const, nsmul_eq_mul, mul_one]
  · ext e
    simp only [Finset.mem_filter, Finset.mem_univ, true_and]
    rw [bcast_col_apply]

end Terms

/-! ## The two spellings of the mean, as the operations' terms -/

section Means

variable (dg : GatherDims ⟨2, ![N, D]⟩ ⟨2, ![E, 1]⟩ ⟨2, ![E, D]⟩)
  (hoff : dg.offsetDims = [1]) (hcoll : dg.collapsedSliceDims = [0]) (hob : dg.operandBatchingDims = [])
  (hsim : dg.startIndexMap = [0]) (hgiv : dg.indexVectorDim = 1) (hss : dg.sliceSizes = ![1, D])
  (ds : ScatterDims ⟨2, ![M, D]⟩ ⟨2, ![E, 1]⟩ ⟨2, ![E, D]⟩)
  (huw : ds.updateWindowDims = [1]) (hins : ds.insertedWindowDims = [0]) (hsd : ds.scatterDimsToOperandDims = [0])
  (hivd : ds.indexVectorDim = 1)
  (dc : ScatterDims ⟨1, ![M]⟩ ⟨2, ![E, 1]⟩ ⟨1, ![E]⟩)
  (cuw : dc.updateWindowDims = []) (cins : dc.insertedWindowDims = [0]) (csd : dc.scatterDimsToOperandDims = [0])
  (civd : dc.indexVectorDim = 1)

/-- The literal one, as an extended real. -/
private theorem ofBits_one' : Ideal.ofBits .f32 0x3F800000#32 = (1 : EReal) := by rw [ofBits_one, EReal.coe_one]

include hoff hcoll hob hsim hgiv hss huw hins hsd hivd cuw cins csd civd in
/-- The row sums times the reciprocal clamped counts spread over the rows: the mean by the reciprocal. -/
theorem aggK_term (hN : 0 < N) (nb : BitVec 32)
    {hz : (⟨0, ![]⟩ : Shape).BroadcastsInDim ⟨2, ![M, D]⟩ ![]}
    {hzi : (⟨0, ![]⟩ : Shape).BroadcastsInDim ⟨1, ![E]⟩ ![]}
    {hbE : (⟨1, ![E]⟩ : Shape).BroadcastsInDim ⟨2, ![E, 1]⟩ ![0]}
    {hzM : (⟨0, ![]⟩ : Shape).BroadcastsInDim ⟨1, ![M]⟩ ![]}
    {hbM : (⟨1, ![M]⟩ : Shape).BroadcastsInDim ⟨2, ![M, 1]⟩ ![0]}
    {hbMD : (⟨2, ![M, 1]⟩ : Shape).BroadcastsInDim ⟨2, ![M, D]⟩ ![0, 1]}
    (x : FVec Ideal ⟨2, ![N, D]⟩ .f32) (gi si : IVec ⟨1, ![E]⟩ 32) :
    mulf
      (Host.scatterAdd ds (broadcastInDim ⟨2, ![M, D]⟩ ![] hz (constant (F := Ideal) ⟨0, ![]⟩ .f32 0x00000000#32))
        (broadcastInDim ⟨2, ![E, 1]⟩ ![0] hbE si)
        (Host.gather dg x (broadcastInDim ⟨2, ![E, 1]⟩ ![0] hbE
          (select (cmpi .slt gi (broadcastInDim ⟨1, ![E]⟩ ![] hzi (constantI ⟨0, ![]⟩ 32 0#32)))
            (addi gi (broadcastInDim ⟨1, ![E]⟩ ![] hzi (constantI ⟨0, ![]⟩ 32 nb))) gi))))
      (broadcastInDim ⟨2, ![M, D]⟩ ![0, 1] hbMD (broadcastInDim ⟨2, ![M, 1]⟩ ![0] hbM
        (Host.divf (broadcastInDim ⟨1, ![M]⟩ ![] hzM (constant (F := Ideal) ⟨0, ![]⟩ .f32 0x3F800000#32))
          (maximumf
            (Host.scatterAdd dc (broadcastInDim ⟨1, ![M]⟩ ![] hzM (constant (F := Ideal) ⟨0, ![]⟩ .f32 0x00000000#32))
              (broadcastInDim ⟨2, ![E, 1]⟩ ![0] hbE si)
              (broadcastInDim ⟨1, ![E]⟩ ![] hzi (constant (F := Ideal) ⟨0, ![]⟩ .f32 0x3F800000#32)))
            (broadcastInDim ⟨1, ![M]⟩ ![] hzM (constant (F := Ideal) ⟨0, ![]⟩ .f32 0x3F800000#32))))))
      = aggK hN nb x gi si := by
  funext i
  refine (congrArg _ (eq_ix2 i)).trans ?_
  have key : ∀ (c : Fin M) (j : Fin D), mulf
      (Host.scatterAdd ds (broadcastInDim ⟨2, ![M, D]⟩ ![] hz (constant (F := Ideal) ⟨0, ![]⟩ .f32 0x00000000#32))
        (broadcastInDim ⟨2, ![E, 1]⟩ ![0] hbE si)
        (Host.gather dg x (broadcastInDim ⟨2, ![E, 1]⟩ ![0] hbE
          (select (cmpi .slt gi (broadcastInDim ⟨1, ![E]⟩ ![] hzi (constantI ⟨0, ![]⟩ 32 0#32)))
            (addi gi (broadcastInDim ⟨1, ![E]⟩ ![] hzi (constantI ⟨0, ![]⟩ 32 nb))) gi))))
      (broadcastInDim ⟨2, ![M, D]⟩ ![0, 1] hbMD (broadcastInDim ⟨2, ![M, 1]⟩ ![0] hbM
        (Host.divf (broadcastInDim ⟨1, ![M]⟩ ![] hzM (constant (F := Ideal) ⟨0, ![]⟩ .f32 0x3F800000#32))
          (maximumf
            (Host.scatterAdd dc (broadcastInDim ⟨1, ![M]⟩ ![] hzM (constant (F := Ideal) ⟨0, ![]⟩ .f32 0x00000000#32))
              (broadcastInDim ⟨2, ![E, 1]⟩ ![0] hbE si)
              (broadcastInDim ⟨1, ![E]⟩ ![] hzi (constant (F := Ideal) ⟨0, ![]⟩ .f32 0x3F800000#32)))
            (broadcastInDim ⟨1, ![M]⟩ ![] hzM (constant (F := Ideal) ⟨0, ![]⟩ .f32 0x3F800000#32)))))) (ix2 c j)
      = aggKAt hN nb x gi si c j := by
    intro c j
    rw [mulf_apply, sumTerm_apply dg hoff hcoll hob hsim hgiv hss ds huw hins hsd hivd hN nb,
      bcast_vec_rows_apply, hostDivf_apply, maximumf_apply, bcast_lit_apply, cntTerm_apply dc cuw cins csd civd,
      ofBits_one']
    rfl
  exact key (i 0) (i 1)

include hoff hcoll hob hsim hgiv hss huw hins hsd hivd cuw cins csd civd in
/-- The row sums over the clamped counts spread over the rows: the mean by the quotient. -/
theorem aggR_term (hN : 0 < N) (nb : BitVec 32)
    {hz : (⟨0, ![]⟩ : Shape).BroadcastsInDim ⟨2, ![M, D]⟩ ![]}
    {hzi : (⟨0, ![]⟩ : Shape).BroadcastsInDim ⟨1, ![E]⟩ ![]}
    {hbE : (⟨1, ![E]⟩ : Shape).BroadcastsInDim ⟨2, ![E, 1]⟩ ![0]}
    {hzM : (⟨0, ![]⟩ : Shape).BroadcastsInDim ⟨1, ![M]⟩ ![]}
    {hbM : (⟨1, ![M]⟩ : Shape).BroadcastsInDim ⟨2, ![M, 1]⟩ ![0]}
    {hbMD : (⟨2, ![M, 1]⟩ : Shape).BroadcastsInDim ⟨2, ![M, D]⟩ ![0, 1]}
    (x : FVec Ideal ⟨2, ![N, D]⟩ .f32) (gi si : IVec ⟨1, ![E]⟩ 32) :
    Host.divf
      (Host.scatterAdd ds (broadcastInDim ⟨2, ![M, D]⟩ ![] hz (constant (F := Ideal) ⟨0, ![]⟩ .f32 0x00000000#32))
        (broadcastInDim ⟨2, ![E, 1]⟩ ![0] hbE si)
        (Host.gather dg x (broadcastInDim ⟨2, ![E, 1]⟩ ![0] hbE
          (select (cmpi .slt gi (broadcastInDim ⟨1, ![E]⟩ ![] hzi (constantI ⟨0, ![]⟩ 32 0#32)))
            (addi gi (broadcastInDim ⟨1, ![E]⟩ ![] hzi (constantI ⟨0, ![]⟩ 32 nb))) gi))))
      (broadcastInDim ⟨2, ![M, D]⟩ ![0, 1] hbMD (broadcastInDim ⟨2, ![M, 1]⟩ ![0] hbM
        (maximumf
          (Host.scatterAdd dc (broadcastInDim ⟨1, ![M]⟩ ![] hzM (constant (F := Ideal) ⟨0, ![]⟩ .f32 0x00000000#32))
            (broadcastInDim ⟨2, ![E, 1]⟩ ![0] hbE si)
            (broadcastInDim ⟨1, ![E]⟩ ![] hzi (constant (F := Ideal) ⟨0, ![]⟩ .f32 0x3F800000#32)))
          (broadcastInDim ⟨1, ![M]⟩ ![] hzM (constant (F := Ideal) ⟨0, ![]⟩ .f32 0x3F800000#32)))))
      = aggR hN nb x gi si := by
  funext i
  refine (congrArg _ (eq_ix2 i)).trans ?_
  have key : ∀ (c : Fin M) (j : Fin D), Host.divf
      (Host.scatterAdd ds (broadcastInDim ⟨2, ![M, D]⟩ ![] hz (constant (F := Ideal) ⟨0, ![]⟩ .f32 0x00000000#32))
        (broadcastInDim ⟨2, ![E, 1]⟩ ![0] hbE si)
        (Host.gather dg x (broadcastInDim ⟨2, ![E, 1]⟩ ![0] hbE
          (select (cmpi .slt gi (broadcastInDim ⟨1, ![E]⟩ ![] hzi (constantI ⟨0, ![]⟩ 32 0#32)))
            (addi gi (broadcastInDim ⟨1, ![E]⟩ ![] hzi (constantI ⟨0, ![]⟩ 32 nb))) gi))))
      (broadcastInDim ⟨2, ![M, D]⟩ ![0, 1] hbMD (broadcastInDim ⟨2, ![M, 1]⟩ ![0] hbM
        (maximumf
          (Host.scatterAdd dc (broadcastInDim ⟨1, ![M]⟩ ![] hzM (constant (F := Ideal) ⟨0, ![]⟩ .f32 0x00000000#32))
            (broadcastInDim ⟨2, ![E, 1]⟩ ![0] hbE si)
            (broadcastInDim ⟨1, ![E]⟩ ![] hzi (constant (F := Ideal) ⟨0, ![]⟩ .f32 0x3F800000#32)))
          (broadcastInDim ⟨1, ![M]⟩ ![] hzM (constant (F := Ideal) ⟨0, ![]⟩ .f32 0x3F800000#32))))) (ix2 c j)
      = aggRAt hN nb x gi si c j := by
    intro c j
    rw [hostDivf_apply, sumTerm_apply dg hoff hcoll hob hsim hgiv hss ds huw hins hsd hivd hN nb,
      bcast_vec_rows_apply, maximumf_apply, bcast_lit_apply, cntTerm_apply dc cuw cins csd civd, ofBits_one']
    rfl
  exact key (i 0) (i 1)

end Means

/-! ## The reciprocal counts on their own, and the mean against a given weight per row

The second layer reuses the reciprocal counts the first layer made. -/

/-- The reciprocal of the clamped count of each target row. -/
def invCnt (si : IVec ⟨1, ![E]⟩ 32) : FVec Ideal ⟨1, ![M]⟩ .f32 :=
  fun i => Ideal.div 1 (max (segCnt si (i 0)) 1)

/-- The row sums, each row scaled by a given weight. -/
def aggKw (hN : 0 < N) (nb : BitVec 32) (x : FVec Ideal ⟨2, ![N, D]⟩ .f32) (gi si : IVec ⟨1, ![E]⟩ 32)
    (r : FVec Ideal ⟨1, ![M]⟩ .f32) : FVec Ideal ⟨2, ![M, D]⟩ .f32 :=
  fun i => segSum hN nb x gi si (i 0) (i 1) * r (ix1 (i 0))

/-- Scaling the row sums by the reciprocal clamped counts is the mean by the reciprocal. -/
theorem aggKw_invCnt (hN : 0 < N) (nb : BitVec 32) (x : FVec Ideal ⟨2, ![N, D]⟩ .f32) (gi si : IVec ⟨1, ![E]⟩ 32) :
    (aggKw hN nb x gi si (invCnt si) : FVec Ideal ⟨2, ![M, D]⟩ .f32) = aggK hN nb x gi si := rfl

section Weights

variable (dg : GatherDims ⟨2, ![N, D]⟩ ⟨2, ![E, 1]⟩ ⟨2, ![E, D]⟩)
  (hoff : dg.offsetDims = [1]) (hcoll : dg.collapsedSliceDims = [0]) (hob : dg.operandBatchingDims = [])
  (hsim : dg.startIndexMap = [0]) (hgiv : dg.indexVectorDim = 1) (hss : dg.sliceSizes = ![1, D])
  (ds : ScatterDims ⟨2, ![M, D]⟩ ⟨2, ![E, 1]⟩ ⟨2, ![E, D]⟩)
  (huw : ds.updateWindowDims = [1]) (hins : ds.insertedWindowDims = [0]) (hsd : ds.scatterDimsToOperandDims = [0])
  (hivd : ds.indexVectorDim = 1)
  (dc : ScatterDims ⟨1, ![M]⟩ ⟨2, ![E, 1]⟩ ⟨1, ![E]⟩)
  (cuw : dc.updateWindowDims = []) (cins : dc.insertedWindowDims = [0]) (csd : dc.scatterDimsToOperandDims = [0])
  (civd : dc.indexVectorDim = 1)

include cuw cins csd civd in
/-- One over the count clamped below by one, as the operations spell it. -/
theorem invCnt_term
    {hzM : (⟨0, ![]⟩ : Shape).BroadcastsInDim ⟨1, ![M]⟩ ![]}
    {hzE : (⟨0, ![]⟩ : Shape).BroadcastsInDim ⟨1, ![E]⟩ ![]}
    {hbE : (⟨1, ![E]⟩ : Shape).BroadcastsInDim ⟨2, ![E, 1]⟩ ![0]}
    (si : IVec ⟨1, ![E]⟩ 32) :
    Host.divf (broadcastInDim ⟨1, ![M]⟩ ![] hzM (constant (F := Ideal) ⟨0, ![]⟩ .f32 0x3F800000#32))
      (maximumf
        (Host.scatterAdd dc (broadcastInDim ⟨1, ![M]⟩ ![] hzM (constant (F := Ideal) ⟨0, ![]⟩ .f32 0x00000000#32))
          (broadcastInDim ⟨2, ![E, 1]⟩ ![0] hbE si)
          (broadcastInDim ⟨1, ![E]⟩ ![] hzE (constant (F := Ideal) ⟨0, ![]⟩ .f32 0x3F800000#32)))
        (broadcastInDim ⟨1, ![M]⟩ ![] hzM (constant (F := Ideal) ⟨0, ![]⟩ .f32 0x3F800000#32)))
      = invCnt si := by
  funext i
  refine (congrArg _ (eq_ix1 i)).trans ?_
  have key : ∀ c : Fin M,
      Host.divf (broadcastInDim ⟨1, ![M]⟩ ![] hzM (constant (F := Ideal) ⟨0, ![]⟩ .f32 0x3F800000#32))
        (maximumf
          (Host.scatterAdd dc (broadcastInDim ⟨1, ![M]⟩ ![] hzM (constant (F := Ideal) ⟨0, ![]⟩ .f32 0x00000000#32))
            (broadcastInDim ⟨2, ![E, 1]⟩ ![0] hbE si)
            (broadcastInDim ⟨1, ![E]⟩ ![] hzE (constant (F := Ideal) ⟨0, ![]⟩ .f32 0x3F800000#32)))
          (broadcastInDim ⟨1, ![M]⟩ ![] hzM (constant (F := Ideal) ⟨0, ![]⟩ .f32 0x3F800000#32))) (ix1 c)
        = Ideal.div 1 (max (segCnt si c) 1) := by
    intro c
    rw [hostDivf_apply, maximumf_apply, bcast_lit_apply, cntTerm_apply dc cuw cins csd civd, ofBits_one']
  exact key (i 0)

include hoff hcoll hob hsim hgiv hss huw hins hsd hivd in
/-- The row sums times a vector of weights spread over the rows. -/
theorem aggKw_term (hN : 0 < N) (nb : BitVec 32)
    {hz : (⟨0, ![]⟩ : Shape).BroadcastsInDim ⟨2, ![M, D]⟩ ![]}
    {hzi : (⟨0, ![]⟩ : Shape).BroadcastsInDim ⟨1, ![E]⟩ ![]}
    {hbE : (⟨1, ![E]⟩ : Shape).BroadcastsInDim ⟨2, ![E, 1]⟩ ![0]}
    {hbM : (⟨1, ![M]⟩ : Shape).BroadcastsInDim ⟨2, ![M, 1]⟩ ![0]}
    {hbMD : (⟨2, ![M, 1]⟩ : Shape).BroadcastsInDim ⟨2, ![M, D]⟩ ![0, 1]}
    (x : FVec Ideal ⟨2, ![N, D]⟩ .f32) (gi si : IVec ⟨1, ![E]⟩ 32) (r : FVec Ideal ⟨1, ![M]⟩ .f32) :
    mulf
      (Host.scatterAdd ds (broadcastInDim ⟨2, ![M, D]⟩ ![] hz (constant (F := Ideal) ⟨0, ![]⟩ .f32 0x00000000#32))
        (broadcastInDim ⟨2, ![E, 1]⟩ ![0] hbE si)
        (Host.gather dg x (broadcastInDim ⟨2, ![E, 1]⟩ ![0] hbE
          (select (cmpi .slt gi (broadcastInDim ⟨1, ![E]⟩ ![] hzi (constantI ⟨0, ![]⟩ 32 0#32)))
            (addi gi (broadcastInDim ⟨1, ![E]⟩ ![] hzi (constantI ⟨0, ![]⟩ 32 nb))) gi))))
      (broadcastInDim ⟨2, ![M, D]⟩ ![0, 1] hbMD (broadcastInDim ⟨2, ![M, 1]⟩ ![0] hbM r))
      = aggKw hN nb x gi si r := by
  funext i
  refine (congrArg _ (eq_ix2 i)).trans ?_
  have key : ∀ (c : Fin M) (j : Fin D), mulf
      (Host.scatterAdd ds (broadcastInDim ⟨2, ![M, D]⟩ ![] hz (constant (F := Ideal) ⟨0, ![]⟩ .f32 0x00000000#32))
        (broadcastInDim ⟨2, ![E, 1]⟩ ![0] hbE si)
        (Host.gather dg x (broadcastInDim ⟨2, ![E, 1]⟩ ![0] hbE
          (select (cmpi .slt gi (broadcastInDim ⟨1, ![E]⟩ ![] hzi (constantI ⟨0, ![]⟩ 32 0#32)))
            (addi gi (broadcastInDim ⟨1, ![E]⟩ ![] hzi (constantI ⟨0, ![]⟩ 32 nb))) gi))))
      (broadcastInDim ⟨2, ![M, D]⟩ ![0, 1] hbMD (broadcastInDim ⟨2, ![M, 1]⟩ ![0] hbM r)) (ix2 c j)
      = segSum hN nb x gi si c j * r (ix1 c) := by
    intro c j
    rw [mulf_apply, sumTerm_apply dg hoff hcoll hob hsim hgiv hss ds huw hins hsd hivd hN nb,
      bcast_vec_rows_apply]
  exact key (i 0) (i 1)

end Weights

/-! ## On real entries the two means agree -/

/-- The clamped count is the coercion of a real number that is at least one. -/
theorem max_segCnt (si : IVec ⟨1, ![E]⟩ 32) (c : Fin M) :
    max (segCnt si c) 1 = ((max ((edgesOf si c).card : ℝ) 1 : ℝ) : EReal) := by
  unfold segCnt
  rw [one_eq_coe, max_coe]

/-- A row sum of real entries is the coercion of the real row sum. -/
theorem segSum_real (hN : 0 < N) (nb : BitVec 32) (x : FVec Ideal ⟨2, ![N, D]⟩ .f32) (gi si : IVec ⟨1, ![E]⟩ 32)
    (hx : ∀ i, ∃ r : ℝ, x i = (r : EReal)) (c : Fin M) (j : Fin D) :
    segSum hN nb x gi si c j
      = ((∑ e ∈ edgesOf si c, Classical.choose (hx (ix2 (srcRow hN nb gi e) j)) : ℝ) : EReal) := by
  unfold segSum
  exact sum_eq_coe _ _ _ fun e _ => Classical.choose_spec (hx (ix2 (srcRow hN nb gi e) j))

/-- On real entries, the mean by the reciprocal of the clamped count is the mean by the quotient. -/
theorem aggAt_eq (hN : 0 < N) (nb : BitVec 32) (x : FVec Ideal ⟨2, ![N, D]⟩ .f32) (gi si : IVec ⟨1, ![E]⟩ 32)
    (hx : ∀ i, ∃ r : ℝ, x i = (r : EReal)) (c : Fin M) (j : Fin D) :
    aggKAt hN nb x gi si c j = aggRAt hN nb x gi si c j := by
  unfold aggKAt aggRAt
  have hb : max (((edgesOf si c).card : ℝ)) 1 ≠ 0 := (lt_of_lt_of_le one_pos (le_max_right _ _)).ne'
  rw [max_segCnt, segSum_real hN nb x gi si hx, one_eq_coe, div_coe hb, div_coe hb, mul_coe, mul_one_div]

/-- On real entries, the two means agree as arrays. -/
theorem agg_eq (hN : 0 < N) (nb : BitVec 32) (x : FVec Ideal ⟨2, ![N, D]⟩ .f32) (gi si : IVec ⟨1, ![E]⟩ 32)
    (hx : ∀ i, ∃ r : ℝ, x i = (r : EReal)) :
    (aggK hN nb x gi si : FVec Ideal ⟨2, ![M, D]⟩ .f32) = aggR hN nb x gi si :=
  funext fun i => aggAt_eq hN nb x gi si hx (i 0) (i 1)

/-- On real entries the mean is real. -/
theorem aggR_real (hN : 0 < N) (nb : BitVec 32) (x : FVec Ideal ⟨2, ![N, D]⟩ .f32) (gi si : IVec ⟨1, ![E]⟩ 32)
    (hx : ∀ i, ∃ r : ℝ, x i = (r : EReal)) :
    ∀ i, ∃ r : ℝ, (aggR hN nb x gi si : FVec Ideal ⟨2, ![M, D]⟩ .f32) i = (r : EReal) := by
  have key : ∀ (c : Fin M) (j : Fin D), ∃ r : ℝ, aggRAt hN nb x gi si c j = (r : EReal) := by
    intro c j
    unfold aggRAt
    have hb : max (((edgesOf si c).card : ℝ)) 1 ≠ 0 := (lt_of_lt_of_le one_pos (le_max_right _ _)).ne'
    rw [max_segCnt, segSum_real hN nb x gi si hx, div_coe hb]
    exact ⟨_, rfl⟩
  exact fun i => key (i 0) (i 1)

end Cert.Val

end
-- ==== Proof.Val.AggK.lean ====
/-
  The kernel program's first-layer neighbour means and its six reciprocal neighbour counts, read off the host
  operations before the first layer's products: each mean is the mean by the reciprocal clamped count of its source
  rows, each reciprocal count the reciprocal of the clamped number of a row's edges.
-/
import proofs.«424088_j28020366639260_2_alg».proof.Proof.Gen.KernelIdeal.Launch
import Idealize.ShloMosaic.Lib.StableHlo.Run
import proofs.«424088_j28020366639260_2_alg».proof.Proof.Val.AggLemmas

set_option maxRecDepth 16384
set_option maxHeartbeats 4000000

noncomputable section

namespace Cert.Val

open Cert.KernelIdeal Cert.KernelIdeal.Gen
open Idealize.ShloMosaic Idealize.ShloMosaic.TcCoe Idealize.ShloMosaic.StableHlo Idealize.SL.Sem

/-- The reciprocal counts for lab rows into patients. -/
theorem K_inv_l2p (V : Valuation τ sig (Elt Ideal)) :
    (StableHlo.after hostOps4 V (Proc.devRef .tc main_v57) : S100000.Idx → EReal)
      = invCnt (M := 100000) (V (Proc.devRef .tc main_arg17)) := by
  after_results_simp
  exact invCnt_term scatter_S100000_S800000x1_S800000_n_0_0_1 rfl rfl rfl rfl _

/-- Layer 1, lab rows into patients. -/
theorem K_agg1_l2p (V : Valuation τ sig (Elt Ideal)) :
    (StableHlo.after hostOps4 V (Proc.devRef .tc main_v110) : S100000x128.Idx → EReal)
      = aggK (N := 2000) (by decide) 2000#32 (V (Proc.devRef .tc main_arg1)) (V (Proc.devRef .tc main_arg18))
          (V (Proc.devRef .tc main_arg17)) := by
  after_results_simp
  exact aggK_term gather_S2000x128_S800000x1_S800000x128_1_0_n_n_0_1_1128 rfl rfl rfl rfl rfl rfl
    scatter_S100000x128_S800000x1_S800000x128_1_0_0_1 rfl rfl rfl rfl
    scatter_S100000_S800000x1_S800000_n_0_0_1 rfl rfl rfl rfl (by decide) 2000#32 _ _ _

/-- The reciprocal counts for diagnosis rows into patients. -/
theorem K_inv_d2p (V : Valuation τ sig (Elt Ideal)) :
    (StableHlo.after hostOps4 V (Proc.devRef .tc main_v65) : S100000.Idx → EReal)
      = invCnt (M := 100000) (V (Proc.devRef .tc main_arg19)) := by
  after_results_simp
  exact invCnt_term scatter_S100000_S400000x1_S400000_n_0_0_1 rfl rfl rfl rfl _

/-- Layer 1, diagnosis rows into patients. -/
theorem K_agg1_d2p (V : Valuation τ sig (Elt Ideal)) :
    (StableHlo.after hostOps4 V (Proc.devRef .tc main_v123) : S100000x128.Idx → EReal)
      = aggK (N := 5000) (by decide) 5000#32 (V (Proc.devRef .tc main_arg2)) (V (Proc.devRef .tc main_arg20))
          (V (Proc.devRef .tc main_arg19)) := by
  after_results_simp
  exact aggK_term gather_S5000x128_S400000x1_S400000x128_1_0_n_n_0_1_1128 rfl rfl rfl rfl rfl rfl
    scatter_S100000x128_S400000x1_S400000x128_1_0_0_1 rfl rfl rfl rfl
    scatter_S100000_S400000x1_S400000_n_0_0_1 rfl rfl rfl rfl (by decide) 5000#32 _ _ _

/-- The reciprocal counts for medication rows into patients. -/
theorem K_inv_m2p (V : Valuation τ sig (Elt Ideal)) :
    (StableHlo.after hostOps4 V (Proc.devRef .tc main_v73) : S100000.Idx → EReal)
      = invCnt (M := 100000) (V (Proc.devRef .tc main_arg21)) := by
  after_results_simp
  exact invCnt_term scatter_S100000_S400000x1_S400000_n_0_0_1 rfl rfl rfl rfl _

/-- Layer 1, medication rows into patients. -/
theorem K_agg1_m2p (V : Valuation τ sig (Elt Ideal)) :
    (StableHlo.after hostOps4 V (Proc.devRef .tc main_v136) : S100000x128.Idx → EReal)
      = aggK (N := 3000) (by decide) 3000#32 (V (Proc.devRef .tc main_arg3)) (V (Proc.devRef .tc main_arg22))
          (V (Proc.devRef .tc main_arg21)) := by
  after_results_simp
  exact aggK_term gather_S3000x128_S400000x1_S400000x128_1_0_n_n_0_1_1128 rfl rfl rfl rfl rfl rfl
    scatter_S100000x128_S400000x1_S400000x128_1_0_0_1 rfl rfl rfl rfl
    scatter_S100000_S400000x1_S400000_n_0_0_1 rfl rfl rfl rfl (by decide) 3000#32 _ _ _

/-- The reciprocal counts for patient rows into labs. -/
theorem K_inv_p2l (V : Valuation τ sig (Elt Ideal)) :
    (StableHlo.after hostOps4 V (Proc.devRef .tc main_v81) : S2000.Idx → EReal)
      = invCnt (M := 2000) (V (Proc.devRef .tc main_arg18)) := by
  after_results_simp
  exact invCnt_term scatter_S2000_S800000x1_S800000_n_0_0_1 rfl rfl rfl rfl _

/-- Layer 1, patient rows into labs. -/
theorem K_agg1_p2l (V : Valuation τ sig (Elt Ideal)) :
    (StableHlo.after hostOps4 V (Proc.devRef .tc main_v149) : S2000x128.Idx → EReal)
      = aggK (N := 100000) (by decide) 100000#32 (V (Proc.devRef .tc main_v49)) (V (Proc.devRef .tc main_arg17))
          (V (Proc.devRef .tc main_arg18)) := by
  after_results_simp
  exact aggK_term gather_S100000x128_S800000x1_S800000x128_1_0_n_n_0_1_1128 rfl rfl rfl rfl rfl rfl
    scatter_S2000x128_S800000x1_S800000x128_1_0_0_1 rfl rfl rfl rfl
    scatter_S2000_S800000x1_S800000_n_0_0_1 rfl rfl rfl rfl (by decide) 100000#32 _ _ _

/-- The reciprocal counts for patient rows into diagnoses. -/
theorem K_inv_p2d (V : Valuation τ sig (Elt Ideal)) :
    (StableHlo.after hostOps4 V (Proc.devRef .tc main_v89) : S5000.Idx → EReal)
      = invCnt (M := 5000) (V (Proc.devRef .tc main_arg20)) := by
  after_results_simp
  exact invCnt_term scatter_S5000_S400000x1_S400000_n_0_0_1 rfl rfl rfl rfl _

/-- Layer 1, patient rows into diagnoses. -/
theorem K_agg1_p2d (V : Valuation τ sig (Elt Ideal)) :
    (StableHlo.after hostOps4 V (Proc.devRef .tc main_v162) : S5000x128.Idx → EReal)
      = aggK (N := 100000) (by decide) 100000#32 (V (Proc.devRef .tc main_v49)) (V (Proc.devRef .tc main_arg19))
          (V (Proc.devRef .tc main_arg20)) := by
  after_results_simp
  exact aggK_term gather_S100000x128_S400000x1_S400000x128_1_0_n_n_0_1_1128 rfl rfl rfl rfl rfl rfl
    scatter_S5000x128_S400000x1_S400000x128_1_0_0_1 rfl rfl rfl rfl
    scatter_S5000_S400000x1_S400000_n_0_0_1 rfl rfl rfl rfl (by decide) 100000#32 _ _ _

/-- The reciprocal counts for patient rows into medications. -/
theorem K_inv_p2m (V : Valuation τ sig (Elt Ideal)) :
    (StableHlo.after hostOps4 V (Proc.devRef .tc main_v97) : S3000.Idx → EReal)
      = invCnt (M := 3000) (V (Proc.devRef .tc main_arg22)) := by
  after_results_simp
  exact invCnt_term scatter_S3000_S400000x1_S400000_n_0_0_1 rfl rfl rfl rfl _

/-- Layer 1, patient rows into medications. -/
theorem K_agg1_p2m (V : Valuation τ sig (Elt Ideal)) :
    (StableHlo.after hostOps4 V (Proc.devRef .tc main_v175) : S3000x128.Idx → EReal)
      = aggK (N := 100000) (by decide) 100000#32 (V (Proc.devRef .tc main_v49)) (V (Proc.devRef .tc main_arg21))
          (V (Proc.devRef .tc main_arg22)) := by
  after_results_simp
  exact aggK_term gather_S100000x128_S400000x1_S400000x128_1_0_n_n_0_1_1128 rfl rfl rfl rfl rfl rfl
    scatter_S3000x128_S400000x1_S400000x128_1_0_0_1 rfl rfl rfl rfl
    scatter_S3000_S400000x1_S400000_n_0_0_1 rfl rfl rfl rfl (by decide) 100000#32 _ _ _

end Cert.Val

end
-- ==== Proof.Val.AggK2.lean ====
/-
  The kernel program's second-layer neighbour means, read off the host operations before the second layer's
  products: the row sums of the new source rows, each row scaled by the reciprocal count the first layer made.
-/
import proofs.«424088_j28020366639260_2_alg».proof.Proof.Gen.KernelIdeal.Launch
import Idealize.ShloMosaic.Lib.StableHlo.Run
import proofs.«424088_j28020366639260_2_alg».proof.Proof.Val.AggLemmas

set_option maxRecDepth 16384
set_option maxHeartbeats 4000000

noncomputable section

namespace Cert.Val

open Cert.KernelIdeal Cert.KernelIdeal.Gen
open Idealize.ShloMosaic Idealize.ShloMosaic.TcCoe Idealize.ShloMosaic.StableHlo Idealize.SL.Sem

/-- Layer 2, lab rows into patients. -/
theorem K_agg2_l2p (V : Valuation τ sig (Elt Ideal)) :
    (StableHlo.after hostOps12 V (Proc.devRef .tc main_v330) : S100000x128.Idx → EReal)
      = aggKw (N := 2000) (by decide) 2000#32 (V (Proc.devRef .tc main_v255)) (V (Proc.devRef .tc main_arg18))
          (V (Proc.devRef .tc main_arg17)) (V (Proc.devRef .tc main_v57)) := by
  after_results_simp
  exact aggKw_term gather_S2000x128_S800000x1_S800000x128_1_0_n_n_0_1_1128 rfl rfl rfl rfl rfl rfl
    scatter_S100000x128_S800000x1_S800000x128_1_0_0_1 rfl rfl rfl rfl (by decide) 2000#32 _ _ _ _

/-- Layer 2, diagnosis rows into patients. -/
theorem K_agg2_d2p (V : Valuation τ sig (Elt Ideal)) :
    (StableHlo.after hostOps12 V (Proc.devRef .tc main_v343) : S100000x128.Idx → EReal)
      = aggKw (N := 5000) (by decide) 5000#32 (V (Proc.devRef .tc main_v286)) (V (Proc.devRef .tc main_arg20))
          (V (Proc.devRef .tc main_arg19)) (V (Proc.devRef .tc main_v65)) := by
  after_results_simp
  exact aggKw_term gather_S5000x128_S400000x1_S400000x128_1_0_n_n_0_1_1128 rfl rfl rfl rfl rfl rfl
    scatter_S100000x128_S400000x1_S400000x128_1_0_0_1 rfl rfl rfl rfl (by decide) 5000#32 _ _ _ _

/-- Layer 2, medication rows into patients. -/
theorem K_agg2_m2p (V : Valuation τ sig (Elt Ideal)) :
    (StableHlo.after hostOps12 V (Proc.devRef .tc main_v356) : S100000x128.Idx → EReal)
      = aggKw (N := 3000) (by decide) 3000#32 (V (Proc.devRef .tc main_v317)) (V (Proc.devRef .tc main_arg22))
          (V (Proc.devRef .tc main_arg21)) (V (Proc.devRef .tc main_v73)) := by
  after_results_simp
  exact aggKw_term gather_S3000x128_S400000x1_S400000x128_1_0_n_n_0_1_1128 rfl rfl rfl rfl rfl rfl
    scatter_S100000x128_S400000x1_S400000x128_1_0_0_1 rfl rfl rfl rfl (by decide) 3000#32 _ _ _ _

/-- Layer 2, patient rows into labs. -/
theorem K_agg2_p2l (V : Valuation τ sig (Elt Ideal)) :
    (StableHlo.after hostOps12 V (Proc.devRef .tc main_v369) : S2000x128.Idx → EReal)
      = aggKw (N := 100000) (by decide) 100000#32 (V (Proc.devRef .tc main_v224)) (V (Proc.devRef .tc main_arg17))
          (V (Proc.devRef .tc main_arg18)) (V (Proc.devRef .tc main_v81)) := by
  after_results_simp
  exact aggKw_term gather_S100000x128_S800000x1_S800000x128_1_0_n_n_0_1_1128 rfl rfl rfl rfl rfl rfl
    scatter_S2000x128_S800000x1_S800000x128_1_0_0_1 rfl rfl rfl rfl (by decide) 100000#32 _ _ _ _

/-- Layer 2, patient rows into diagnoses. -/
theorem K_agg2_p2d (V : Valuation τ sig (Elt Ideal)) :
    (StableHlo.after hostOps12 V (Proc.devRef .tc main_v382) : S5000x128.Idx → EReal)
      = aggKw (N := 100000) (by decide) 100000#32 (V (Proc.devRef .tc main_v224)) (V (Proc.devRef .tc main_arg19))
          (V (Proc.devRef .tc main_arg20)) (V (Proc.devRef .tc main_v89)) := by
  after_results_simp
  exact aggKw_term gather_S100000x128_S400000x1_S400000x128_1_0_n_n_0_1_1128 rfl rfl rfl rfl rfl rfl
    scatter_S5000x128_S400000x1_S400000x128_1_0_0_1 rfl rfl rfl rfl (by decide) 100000#32 _ _ _ _

/-- Layer 2, patient rows into medications. -/
theorem K_agg2_p2m (V : Valuation τ sig (Elt Ideal)) :
    (StableHlo.after hostOps12 V (Proc.devRef .tc main_v395) : S3000x128.Idx → EReal)
      = aggKw (N := 100000) (by decide) 100000#32 (V (Proc.devRef .tc main_v224)) (V (Proc.devRef .tc main_arg21))
          (V (Proc.devRef .tc main_arg22)) (V (Proc.devRef .tc main_v97)) := by
  after_results_simp
  exact aggKw_term gather_S100000x128_S400000x1_S400000x128_1_0_n_n_0_1_1128 rfl rfl rfl rfl rfl rfl
    scatter_S3000x128_S400000x1_S400000x128_1_0_0_1 rfl rfl rfl rfl (by decide) 100000#32 _ _ _ _

end Cert.Val

end
-- ==== Proof.Val.AggR.lean ====
/-
  The reference's first-layer neighbour means, read off the final contents of its run: each is the mean by the
  quotient with the clamped count of its source rows (the source rows at their final contents).
-/
import proofs.«424088_j28020366639260_2_alg».proof.Proof.Ref.Fix
import proofs.«424088_j28020366639260_2_alg».proof.Proof.Val.AggLemmas

set_option maxRecDepth 16384
set_option maxHeartbeats 4000000

noncomputable section

namespace Cert.Val

open Cert.ReferenceIdeal Cert.ReferenceIdeal.Gen Cert.ReferenceIdeal.Hand
open Idealize.ShloMosaic Idealize.ShloMosaic.TcCoe Idealize.ShloMosaic.StableHlo Idealize.SL.Sem

/-- Layer 1, lab rows into patients. -/
theorem R_agg1_l2p (V : Valuation τ sig (Elt Ideal)) :
    (StableHlo.after ops V (Proc.devRef .tc main_v92) : S100000x128.Idx → EReal)
      = aggR (N := 2000) (by decide) 2000#32 (V (Proc.devRef .tc main_arg1)) (V (Proc.devRef .tc main_arg18))
          (V (Proc.devRef .tc main_arg17)) := by
  rw [in_binary mem_ops1 53 rfl V, in_ternary mem_ops1 41 rfl V, in_unary mem_ops1 39 rfl V,
    in_nullary mem_ops1 38 rfl V, in_unary mem_ops1 40 rfl V, in_binary mem_ops1 37 rfl V,
    in_unary mem_ops1 36 rfl V, in_ternary mem_ops1 35 rfl V, in_binary mem_ops1 31 rfl V,
    in_unary mem_ops1 30 rfl V, in_nullary mem_ops1 29 rfl V, in_binary mem_ops1 34 rfl V,
    in_unary mem_ops1 33 rfl V, in_nullary mem_ops1 32 rfl V, in_unary mem_ops1 52 rfl V,
    in_unary mem_ops1 51 rfl V, in_binary mem_ops1 50 rfl V, in_ternary mem_ops1 47 rfl V,
    in_unary mem_ops1 45 rfl V, in_nullary mem_ops1 44 rfl V, in_unary mem_ops1 46 rfl V,
    in_unary mem_ops1 43 rfl V, in_nullary mem_ops1 42 rfl V, in_unary mem_ops1 49 rfl V,
    in_nullary mem_ops1 48 rfl V, after_ops_arg main_arg17 (by decide) V, after_ops_arg main_arg1 (by decide) V,
    after_ops_arg main_arg18 (by decide) V]
  · exact aggR_term gather_S2000x128_S800000x1_S800000x128_1_0_n_n_0_1_1128 rfl rfl rfl rfl rfl rfl
        scatter_S100000x128_S800000x1_S800000x128_1_0_0_1 rfl rfl rfl rfl
        scatter_S100000_S800000x1_S800000_n_0_0_1 rfl rfl rfl rfl (by decide) 2000#32 _ _ _
  all_goals decide

/-- Layer 1, diagnosis rows into patients. -/
theorem R_agg1_d2p (V : Valuation τ sig (Elt Ideal)) :
    (StableHlo.after ops V (Proc.devRef .tc main_v125) : S100000x128.Idx → EReal)
      = aggR (N := 5000) (by decide) 5000#32 (V (Proc.devRef .tc main_arg2)) (V (Proc.devRef .tc main_arg20))
          (V (Proc.devRef .tc main_arg19)) := by
  rw [in_binary mem_ops2 26 rfl V, in_ternary mem_ops2 14 rfl V, in_unary mem_ops2 12 rfl V,
    in_nullary mem_ops2 11 rfl V, in_unary mem_ops2 13 rfl V, in_binary mem_ops2 10 rfl V,
    in_unary mem_ops2 9 rfl V, in_ternary mem_ops2 8 rfl V, in_binary mem_ops2 4 rfl V,
    in_unary mem_ops2 3 rfl V, in_nullary mem_ops2 2 rfl V, in_binary mem_ops2 7 rfl V,
    in_unary mem_ops2 6 rfl V, in_nullary mem_ops2 5 rfl V, in_unary mem_ops2 25 rfl V,
    in_unary mem_ops2 24 rfl V, in_binary mem_ops2 23 rfl V, in_ternary mem_ops2 20 rfl V,
    in_unary mem_ops2 18 rfl V, in_nullary mem_ops2 17 rfl V, in_unary mem_ops2 19 rfl V,
    in_unary mem_ops2 16 rfl V, in_nullary mem_ops2 15 rfl V, in_unary mem_ops2 22 rfl V,
    in_nullary mem_ops2 21 rfl V, after_ops_arg main_arg19 (by decide) V, after_ops_arg main_arg2 (by decide) V,
    after_ops_arg main_arg20 (by decide) V]
  · exact aggR_term gather_S5000x128_S400000x1_S400000x128_1_0_n_n_0_1_1128 rfl rfl rfl rfl rfl rfl
        scatter_S100000x128_S400000x1_S400000x128_1_0_0_1 rfl rfl rfl rfl
        scatter_S100000_S400000x1_S400000_n_0_0_1 rfl rfl rfl rfl (by decide) 5000#32 _ _ _
  all_goals decide

/-- Layer 1, medication rows into patients. -/
theorem R_agg1_m2p (V : Valuation τ sig (Elt Ideal)) :
    (StableHlo.after ops V (Proc.devRef .tc main_v159) : S100000x128.Idx → EReal)
      = aggR (N := 3000) (by decide) 3000#32 (V (Proc.devRef .tc main_arg3)) (V (Proc.devRef .tc main_arg22))
          (V (Proc.devRef .tc main_arg21)) := by
  rw [in_binary mem_ops3 6 rfl V, in_ternary mem_ops2 54 rfl V, in_unary mem_ops2 52 rfl V,
    in_nullary mem_ops2 51 rfl V, in_unary mem_ops2 53 rfl V, in_binary mem_ops2 50 rfl V,
    in_unary mem_ops2 49 rfl V, in_ternary mem_ops2 48 rfl V, in_binary mem_ops2 44 rfl V,
    in_unary mem_ops2 43 rfl V, in_nullary mem_ops2 42 rfl V, in_binary mem_ops2 47 rfl V,
    in_unary mem_ops2 46 rfl V, in_nullary mem_ops2 45 rfl V, in_unary mem_ops3 5 rfl V,
    in_unary mem_ops3 4 rfl V, in_binary mem_ops3 3 rfl V, in_ternary mem_ops3 0 rfl V,
    in_unary mem_ops2 58 rfl V, in_nullary mem_ops2 57 rfl V, in_unary mem_ops2 59 rfl V,
    in_unary mem_ops2 56 rfl V, in_nullary mem_ops2 55 rfl V, in_unary mem_ops3 2 rfl V,
    in_nullary mem_ops3 1 rfl V, after_ops_arg main_arg21 (by decide) V, after_ops_arg main_arg3 (by decide) V,
    after_ops_arg main_arg22 (by decide) V]
  · exact aggR_term gather_S3000x128_S400000x1_S400000x128_1_0_n_n_0_1_1128 rfl rfl rfl rfl rfl rfl
        scatter_S100000x128_S400000x1_S400000x128_1_0_0_1 rfl rfl rfl rfl
        scatter_S100000_S400000x1_S400000_n_0_0_1 rfl rfl rfl rfl (by decide) 3000#32 _ _ _
  all_goals decide

/-- Layer 1, patient rows into labs. -/
theorem R_agg1_p2l (V : Valuation τ sig (Elt Ideal)) :
    (StableHlo.after ops V (Proc.devRef .tc main_v193) : S2000x128.Idx → EReal)
      = aggR (N := 100000) (by decide) 100000#32 (StableHlo.after ops V (Proc.devRef .tc main_v67)) (V (Proc.devRef .tc main_arg17))
          (V (Proc.devRef .tc main_arg18)) := by
  rw [in_binary mem_ops3 46 rfl V, in_ternary mem_ops3 34 rfl V, in_unary mem_ops3 32 rfl V,
    in_nullary mem_ops3 31 rfl V, in_unary mem_ops3 33 rfl V, in_binary mem_ops3 30 rfl V,
    in_unary mem_ops3 29 rfl V, in_ternary mem_ops3 28 rfl V, in_binary mem_ops3 24 rfl V,
    in_unary mem_ops3 23 rfl V, in_nullary mem_ops3 22 rfl V, in_binary mem_ops3 27 rfl V,
    in_unary mem_ops3 26 rfl V, in_nullary mem_ops3 25 rfl V, in_unary mem_ops3 45 rfl V,
    in_unary mem_ops3 44 rfl V, in_binary mem_ops3 43 rfl V, in_ternary mem_ops3 40 rfl V,
    in_unary mem_ops3 38 rfl V, in_nullary mem_ops3 37 rfl V, in_unary mem_ops3 39 rfl V,
    in_unary mem_ops3 36 rfl V, in_nullary mem_ops3 35 rfl V, in_unary mem_ops3 42 rfl V,
    in_nullary mem_ops3 41 rfl V, after_ops_arg main_arg18 (by decide) V, after_ops_arg main_arg17 (by decide) V]
  · exact aggR_term gather_S100000x128_S800000x1_S800000x128_1_0_n_n_0_1_1128 rfl rfl rfl rfl rfl rfl
        scatter_S2000x128_S800000x1_S800000x128_1_0_0_1 rfl rfl rfl rfl
        scatter_S2000_S800000x1_S800000_n_0_0_1 rfl rfl rfl rfl (by decide) 100000#32 _ _ _
  all_goals decide

/-- Layer 1, patient rows into diagnoses. -/
theorem R_agg1_p2d (V : Valuation τ sig (Elt Ideal)) :
    (StableHlo.after ops V (Proc.devRef .tc main_v226) : S5000x128.Idx → EReal)
      = aggR (N := 100000) (by decide) 100000#32 (StableHlo.after ops V (Proc.devRef .tc main_v67)) (V (Proc.devRef .tc main_arg19))
          (V (Proc.devRef .tc main_arg20)) := by
  rw [in_binary mem_ops4 25 rfl V, in_ternary mem_ops4 13 rfl V, in_unary mem_ops4 11 rfl V,
    in_nullary mem_ops4 10 rfl V, in_unary mem_ops4 12 rfl V, in_binary mem_ops4 9 rfl V,
    in_unary mem_ops4 8 rfl V, in_ternary mem_ops4 7 rfl V, in_binary mem_ops4 3 rfl V,
    in_unary mem_ops4 2 rfl V, in_nullary mem_ops4 1 rfl V, in_binary mem_ops4 6 rfl V,
    in_unary mem_ops4 5 rfl V, in_nullary mem_ops4 4 rfl V, in_unary mem_ops4 24 rfl V,
    in_unary mem_ops4 23 rfl V, in_binary mem_ops4 22 rfl V, in_ternary mem_ops4 19 rfl V,
    in_unary mem_ops4 17 rfl V, in_nullary mem_ops4 16 rfl V, in_unary mem_ops4 18 rfl V,
    in_unary mem_ops4 15 rfl V, in_nullary mem_ops4 14 rfl V, in_unary mem_ops4 21 rfl V,
    in_nullary mem_ops4 20 rfl V, after_ops_arg main_arg20 (by decide) V, after_ops_arg main_arg19 (by decide) V]
  · exact aggR_term gather_S100000x128_S400000x1_S400000x128_1_0_n_n_0_1_1128 rfl rfl rfl rfl rfl rfl
        scatter_S5000x128_S400000x1_S400000x128_1_0_0_1 rfl rfl rfl rfl
        scatter_S5000_S400000x1_S400000_n_0_0_1 rfl rfl rfl rfl (by decide) 100000#32 _ _ _
  all_goals decide

/-- Layer 1, patient rows into medications. -/
theorem R_agg1_p2m (V : Valuation τ sig (Elt Ideal)) :
    (StableHlo.after ops V (Proc.devRef .tc main_v259) : S3000x128.Idx → EReal)
      = aggR (N := 100000) (by decide) 100000#32 (StableHlo.after ops V (Proc.devRef .tc main_v67)) (V (Proc.devRef .tc main_arg21))
          (V (Proc.devRef .tc main_arg22)) := by
  rw [in_binary mem_ops5 4 rfl V, in_ternary mem_ops4 52 rfl V, in_unary mem_ops4 50 rfl V,
    in_nullary mem_ops4 49 rfl V, in_unary mem_ops4 51 rfl V, in_binary mem_ops4 48 rfl V,
    in_unary mem_ops4 47 rfl V, in_ternary mem_ops4 46 rfl V, in_binary mem_ops4 42 rfl V,
    in_unary mem_ops4 41 rfl V, in_nullary mem_ops4 40 rfl V, in_binary mem_ops4 45 rfl V,
    in_unary mem_ops4 44 rfl V, in_nullary mem_ops4 43 rfl V, in_unary mem_ops5 3 rfl V,
    in_unary mem_ops5 2 rfl V, in_binary mem_ops5 1 rfl V, in_ternary mem_ops4 58 rfl V,
    in_unary mem_ops4 56 rfl V, in_nullary mem_ops4 55 rfl V, in_unary mem_ops4 57 rfl V,
    in_unary mem_ops4 54 rfl V, in_nullary mem_ops4 53 rfl V, in_unary mem_ops5 0 rfl V,
    in_nullary mem_ops4 59 rfl V, after_ops_arg main_arg22 (by decide) V, after_ops_arg main_arg21 (by decide) V]
  · exact aggR_term gather_S100000x128_S400000x1_S400000x128_1_0_n_n_0_1_1128 rfl rfl rfl rfl rfl rfl
        scatter_S3000x128_S400000x1_S400000x128_1_0_0_1 rfl rfl rfl rfl
        scatter_S3000_S400000x1_S400000_n_0_0_1 rfl rfl rfl rfl (by decide) 100000#32 _ _ _
  all_goals decide

end Cert.Val

end
-- ==== Proof.Val.AggR2.lean ====
/-
  The reference's second-layer neighbour means, read off the final contents of its run: each is the mean by the
  quotient with the clamped count of its source rows (the source rows at their final contents).
-/
import proofs.«424088_j28020366639260_2_alg».proof.Proof.Ref.Fix
import proofs.«424088_j28020366639260_2_alg».proof.Proof.Val.AggLemmas

set_option maxRecDepth 16384
set_option maxHeartbeats 4000000

noncomputable section

namespace Cert.Val

open Cert.ReferenceIdeal Cert.ReferenceIdeal.Gen Cert.ReferenceIdeal.Hand
open Idealize.ShloMosaic Idealize.ShloMosaic.TcCoe Idealize.ShloMosaic.StableHlo Idealize.SL.Sem

/-- Layer 2, lab rows into patients. -/
theorem R_agg2_l2p (V : Valuation τ sig (Elt Ideal)) :
    (StableHlo.after ops V (Proc.devRef .tc main_v388) : S100000x128.Idx → EReal)
      = aggR (N := 2000) (by decide) 2000#32 (StableHlo.after ops V (Proc.devRef .tc main_v315)) (V (Proc.devRef .tc main_arg18))
          (V (Proc.devRef .tc main_arg17)) := by
  rw [in_binary mem_ops7 37 rfl V, in_ternary mem_ops7 25 rfl V, in_unary mem_ops7 23 rfl V,
    in_nullary mem_ops7 22 rfl V, in_unary mem_ops7 24 rfl V, in_binary mem_ops7 21 rfl V,
    in_unary mem_ops7 20 rfl V, in_ternary mem_ops7 19 rfl V, in_binary mem_ops7 15 rfl V,
    in_unary mem_ops7 14 rfl V, in_nullary mem_ops7 13 rfl V, in_binary mem_ops7 18 rfl V,
    in_unary mem_ops7 17 rfl V, in_nullary mem_ops7 16 rfl V, in_unary mem_ops7 36 rfl V,
    in_unary mem_ops7 35 rfl V, in_binary mem_ops7 34 rfl V, in_ternary mem_ops7 31 rfl V,
    in_unary mem_ops7 29 rfl V, in_nullary mem_ops7 28 rfl V, in_unary mem_ops7 30 rfl V,
    in_unary mem_ops7 27 rfl V, in_nullary mem_ops7 26 rfl V, in_unary mem_ops7 33 rfl V,
    in_nullary mem_ops7 32 rfl V, after_ops_arg main_arg17 (by decide) V, after_ops_arg main_arg18 (by decide) V]
  · exact aggR_term gather_S2000x128_S800000x1_S800000x128_1_0_n_n_0_1_1128 rfl rfl rfl rfl rfl rfl
        scatter_S100000x128_S800000x1_S800000x128_1_0_0_1 rfl rfl rfl rfl
        scatter_S100000_S800000x1_S800000_n_0_0_1 rfl rfl rfl rfl (by decide) 2000#32 _ _ _
  all_goals decide

/-- Layer 2, diagnosis rows into patients. -/
theorem R_agg2_d2p (V : Valuation τ sig (Elt Ideal)) :
    (StableHlo.after ops V (Proc.devRef .tc main_v421) : S100000x128.Idx → EReal)
      = aggR (N := 5000) (by decide) 5000#32 (StableHlo.after ops V (Proc.devRef .tc main_v339)) (V (Proc.devRef .tc main_arg20))
          (V (Proc.devRef .tc main_arg19)) := by
  rw [in_binary mem_ops8 14 rfl V, in_ternary mem_ops8 2 rfl V, in_unary mem_ops8 0 rfl V,
    in_nullary mem_ops7 61 rfl V, in_unary mem_ops8 1 rfl V, in_binary mem_ops7 60 rfl V,
    in_unary mem_ops7 59 rfl V, in_ternary mem_ops7 58 rfl V, in_binary mem_ops7 54 rfl V,
    in_unary mem_ops7 53 rfl V, in_nullary mem_ops7 52 rfl V, in_binary mem_ops7 57 rfl V,
    in_unary mem_ops7 56 rfl V, in_nullary mem_ops7 55 rfl V, in_unary mem_ops8 13 rfl V,
    in_unary mem_ops8 12 rfl V, in_binary mem_ops8 11 rfl V, in_ternary mem_ops8 8 rfl V,
    in_unary mem_ops8 6 rfl V, in_nullary mem_ops8 5 rfl V, in_unary mem_ops8 7 rfl V,
    in_unary mem_ops8 4 rfl V, in_nullary mem_ops8 3 rfl V, in_unary mem_ops8 10 rfl V,
    in_nullary mem_ops8 9 rfl V, after_ops_arg main_arg19 (by decide) V, after_ops_arg main_arg20 (by decide) V]
  · exact aggR_term gather_S5000x128_S400000x1_S400000x128_1_0_n_n_0_1_1128 rfl rfl rfl rfl rfl rfl
        scatter_S100000x128_S400000x1_S400000x128_1_0_0_1 rfl rfl rfl rfl
        scatter_S100000_S400000x1_S400000_n_0_0_1 rfl rfl rfl rfl (by decide) 5000#32 _ _ _
  all_goals decide

/-- Layer 2, medication rows into patients. -/
theorem R_agg2_m2p (V : Valuation τ sig (Elt Ideal)) :
    (StableHlo.after ops V (Proc.devRef .tc main_v455) : S100000x128.Idx → EReal)
      = aggR (N := 3000) (by decide) 3000#32 (StableHlo.after ops V (Proc.devRef .tc main_v363)) (V (Proc.devRef .tc main_arg22))
          (V (Proc.devRef .tc main_arg21)) := by
  rw [in_binary mem_ops8 54 rfl V, in_ternary mem_ops8 42 rfl V, in_unary mem_ops8 40 rfl V,
    in_nullary mem_ops8 39 rfl V, in_unary mem_ops8 41 rfl V, in_binary mem_ops8 38 rfl V,
    in_unary mem_ops8 37 rfl V, in_ternary mem_ops8 36 rfl V, in_binary mem_ops8 32 rfl V,
    in_unary mem_ops8 31 rfl V, in_nullary mem_ops8 30 rfl V, in_binary mem_ops8 35 rfl V,
    in_unary mem_ops8 34 rfl V, in_nullary mem_ops8 33 rfl V, in_unary mem_ops8 53 rfl V,
    in_unary mem_ops8 52 rfl V, in_binary mem_ops8 51 rfl V, in_ternary mem_ops8 48 rfl V,
    in_unary mem_ops8 46 rfl V, in_nullary mem_ops8 45 rfl V, in_unary mem_ops8 47 rfl V,
    in_unary mem_ops8 44 rfl V, in_nullary mem_ops8 43 rfl V, in_unary mem_ops8 50 rfl V,
    in_nullary mem_ops8 49 rfl V, after_ops_arg main_arg21 (by decide) V, after_ops_arg main_arg22 (by decide) V]
  · exact aggR_term gather_S3000x128_S400000x1_S400000x128_1_0_n_n_0_1_1128 rfl rfl rfl rfl rfl rfl
        scatter_S100000x128_S400000x1_S400000x128_1_0_0_1 rfl rfl rfl rfl
        scatter_S100000_S400000x1_S400000_n_0_0_1 rfl rfl rfl rfl (by decide) 3000#32 _ _ _
  all_goals decide

/-- Layer 2, patient rows into labs. -/
theorem R_agg2_p2l (V : Valuation τ sig (Elt Ideal)) :
    (StableHlo.after ops V (Proc.devRef .tc main_v489) : S2000x128.Idx → EReal)
      = aggR (N := 100000) (by decide) 100000#32 (StableHlo.after ops V (Proc.devRef .tc main_v291)) (V (Proc.devRef .tc main_arg17))
          (V (Proc.devRef .tc main_arg18)) := by
  rw [in_binary mem_ops9 34 rfl V, in_ternary mem_ops9 22 rfl V, in_unary mem_ops9 20 rfl V,
    in_nullary mem_ops9 19 rfl V, in_unary mem_ops9 21 rfl V, in_binary mem_ops9 18 rfl V,
    in_unary mem_ops9 17 rfl V, in_ternary mem_ops9 16 rfl V, in_binary mem_ops9 12 rfl V,
    in_unary mem_ops9 11 rfl V, in_nullary mem_ops9 10 rfl V, in_binary mem_ops9 15 rfl V,
    in_unary mem_ops9 14 rfl V, in_nullary mem_ops9 13 rfl V, in_unary mem_ops9 33 rfl V,
    in_unary mem_ops9 32 rfl V, in_binary mem_ops9 31 rfl V, in_ternary mem_ops9 28 rfl V,
    in_unary mem_ops9 26 rfl V, in_nullary mem_ops9 25 rfl V, in_unary mem_ops9 27 rfl V,
    in_unary mem_ops9 24 rfl V, in_nullary mem_ops9 23 rfl V, in_unary mem_ops9 30 rfl V,
    in_nullary mem_ops9 29 rfl V, after_ops_arg main_arg18 (by decide) V, after_ops_arg main_arg17 (by decide) V]
  · exact aggR_term gather_S100000x128_S800000x1_S800000x128_1_0_n_n_0_1_1128 rfl rfl rfl rfl rfl rfl
        scatter_S2000x128_S800000x1_S800000x128_1_0_0_1 rfl rfl rfl rfl
        scatter_S2000_S800000x1_S800000_n_0_0_1 rfl rfl rfl rfl (by decide) 100000#32 _ _ _
  all_goals decide

/-- Layer 2, patient rows into diagnoses. -/
theorem R_agg2_p2d (V : Valuation τ sig (Elt Ideal)) :
    (StableHlo.after ops V (Proc.devRef .tc main_v522) : S5000x128.Idx → EReal)
      = aggR (N := 100000) (by decide) 100000#32 (StableHlo.after ops V (Proc.devRef .tc main_v291)) (V (Proc.devRef .tc main_arg19))
          (V (Proc.devRef .tc main_arg20)) := by
  rw [in_binary mem_ops10 13 rfl V, in_ternary mem_ops10 1 rfl V, in_unary mem_ops9 59 rfl V,
    in_nullary mem_ops9 58 rfl V, in_unary mem_ops10 0 rfl V, in_binary mem_ops9 57 rfl V,
    in_unary mem_ops9 56 rfl V, in_ternary mem_ops9 55 rfl V, in_binary mem_ops9 51 rfl V,
    in_unary mem_ops9 50 rfl V, in_nullary mem_ops9 49 rfl V, in_binary mem_ops9 54 rfl V,
    in_unary mem_ops9 53 rfl V, in_nullary mem_ops9 52 rfl V, in_unary mem_ops10 12 rfl V,
    in_unary mem_ops10 11 rfl V, in_binary mem_ops10 10 rfl V, in_ternary mem_ops10 7 rfl V,
    in_unary mem_ops10 5 rfl V, in_nullary mem_ops10 4 rfl V, in_unary mem_ops10 6 rfl V,
    in_unary mem_ops10 3 rfl V, in_nullary mem_ops10 2 rfl V, in_unary mem_ops10 9 rfl V,
    in_nullary mem_ops10 8 rfl V, after_ops_arg main_arg20 (by decide) V, after_ops_arg main_arg19 (by decide) V]
  · exact aggR_term gather_S100000x128_S400000x1_S400000x128_1_0_n_n_0_1_1128 rfl rfl rfl rfl rfl rfl
        scatter_S5000x128_S400000x1_S400000x128_1_0_0_1 rfl rfl rfl rfl
        scatter_S5000_S400000x1_S400000_n_0_0_1 rfl rfl rfl rfl (by decide) 100000#32 _ _ _
  all_goals decide

/-- Layer 2, patient rows into medications. -/
theorem R_agg2_p2m (V : Valuation τ sig (Elt Ideal)) :
    (StableHlo.after ops V (Proc.devRef .tc main_v555) : S3000x128.Idx → EReal)
      = aggR (N := 100000) (by decide) 100000#32 (StableHlo.after ops V (Proc.devRef .tc main_v291)) (V (Proc.devRef .tc main_arg21))
          (V (Proc.devRef .tc main_arg22)) := by
  rw [in_binary mem_ops10 52 rfl V, in_ternary mem_ops10 40 rfl V, in_unary mem_ops10 38 rfl V,
    in_nullary mem_ops10 37 rfl V, in_unary mem_ops10 39 rfl V, in_binary mem_ops10 36 rfl V,
    in_unary mem_ops10 35 rfl V, in_ternary mem_ops10 34 rfl V, in_binary mem_ops10 30 rfl V,
    in_unary mem_ops10 29 rfl V, in_nullary mem_ops10 28 rfl V, in_binary mem_ops10 33 rfl V,
    in_unary mem_ops10 32 rfl V, in_nullary mem_ops10 31 rfl V, in_unary mem_ops10 51 rfl V,
    in_unary mem_ops10 50 rfl V, in_binary mem_ops10 49 rfl V, in_ternary mem_ops10 46 rfl V,
    in_unary mem_ops10 44 rfl V, in_nullary mem_ops10 43 rfl V, in_unary mem_ops10 45 rfl V,
    in_unary mem_ops10 42 rfl V, in_nullary mem_ops10 41 rfl V, in_unary mem_ops10 48 rfl V,
    in_nullary mem_ops10 47 rfl V, after_ops_arg main_arg22 (by decide) V, after_ops_arg main_arg21 (by decide) V]
  · exact aggR_term gather_S100000x128_S400000x1_S400000x128_1_0_n_n_0_1_1128 rfl rfl rfl rfl rfl rfl
        scatter_S3000x128_S400000x1_S400000x128_1_0_0_1 rfl rfl rfl rfl
        scatter_S3000_S400000x1_S400000_n_0_0_1 rfl rfl rfl rfl (by decide) 100000#32 _ _ _
  all_goals decide

end Cert.Val

end
-- ==== Proof.Val.AggLink.lean ====
/-
  The neighbour means of the two programs, buffer against buffer: when a mean's source rows and its two index
  arrays hold the same contents in the kernel program (at the boundary before the host operations that make the
  mean) and in the reference (at the end of its run), and the source rows are real, the two mean buffers hold the
  same contents and these are real. The kernel program's reciprocal counts are read once, after the first layer's
  host operations; the second layer takes them as they are found at its own boundary.
-/
import proofs.«424088_j28020366639260_2_alg».proof.Proof.KI.Fold
import proofs.«424088_j28020366639260_2_alg».proof.Proof.Val.AggK
import proofs.«424088_j28020366639260_2_alg».proof.Proof.Val.AggK2
import proofs.«424088_j28020366639260_2_alg».proof.Proof.Val.AggR
import proofs.«424088_j28020366639260_2_alg».proof.Proof.Val.AggR2

set_option maxRecDepth 16384

noncomputable section

namespace Cert.Val

open Idealize.ShloMosaic Idealize.ShloMosaic.TcCoe Idealize.ShloMosaic.StableHlo Idealize.SL.Sem

/-- The reciprocal counts for lab rows into patients, after the first layer's host operations. -/
theorem link_inv_main_v57 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_si : Cert.KernelIdeal.Hand.W7 m g c (Proc.devRef .tc Cert.KernelIdeal.main_arg17) = V (Proc.devRef .tc Cert.ReferenceIdeal.main_arg17)) :
    (Cert.KernelIdeal.Hand.W8 m g c (Proc.devRef .tc Cert.KernelIdeal.main_v57) : Cert.KernelIdeal.S100000.Idx → EReal) = invCnt (M := 100000) (V (Proc.devRef .tc Cert.ReferenceIdeal.main_arg17)) := by
  rw [Cert.KernelIdeal.Hand.W8_eq, K_inv_l2p, e_si]

/-- Layer 1, lab rows into patients. -/
theorem link_main_v110 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W7 m g c (Proc.devRef .tc Cert.KernelIdeal.main_arg1) : Cert.KernelIdeal.S2000x128.Idx → EReal) = V (Proc.devRef .tc Cert.ReferenceIdeal.main_arg1))
    (r_x : ∀ i, ∃ r : ℝ, (V (Proc.devRef .tc Cert.ReferenceIdeal.main_arg1) : Cert.ReferenceIdeal.S2000x128.Idx → EReal) i = (r : EReal))
    (e_gi : Cert.KernelIdeal.Hand.W7 m g c (Proc.devRef .tc Cert.KernelIdeal.main_arg18) = V (Proc.devRef .tc Cert.ReferenceIdeal.main_arg18))
    (e_si : Cert.KernelIdeal.Hand.W7 m g c (Proc.devRef .tc Cert.KernelIdeal.main_arg17) = V (Proc.devRef .tc Cert.ReferenceIdeal.main_arg17)) :
    (Cert.KernelIdeal.Hand.W8 m g c (Proc.devRef .tc Cert.KernelIdeal.main_v110) : Cert.KernelIdeal.S100000x128.Idx → EReal)
        = StableHlo.after Cert.ReferenceIdeal.Hand.ops V (Proc.devRef .tc Cert.ReferenceIdeal.main_v92)
      ∧ ∀ i, ∃ r : ℝ, (StableHlo.after Cert.ReferenceIdeal.Hand.ops V (Proc.devRef .tc Cert.ReferenceIdeal.main_v92) : Cert.ReferenceIdeal.S100000x128.Idx → EReal) i = (r : EReal) := by
  have h1 : (Cert.KernelIdeal.Hand.W8 m g c (Proc.devRef .tc Cert.KernelIdeal.main_v110) : Cert.KernelIdeal.S100000x128.Idx → EReal)
      = aggR (N := 2000) (by decide) 2000#32 (V (Proc.devRef .tc Cert.ReferenceIdeal.main_arg1)) (V (Proc.devRef .tc Cert.ReferenceIdeal.main_arg18)) (V (Proc.devRef .tc Cert.ReferenceIdeal.main_arg17)) := by
    rw [Cert.KernelIdeal.Hand.W8_eq, K_agg1_l2p, e_x, e_gi, e_si]
    exact agg_eq _ _ _ _ _ r_x
  refine ⟨h1.trans (R_agg1_l2p V).symm, ?_⟩
  rw [R_agg1_l2p V]
  exact aggR_real _ _ _ _ _ r_x

/-- Layer 2, lab rows into patients. -/
theorem link_main_v330 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W23 m g c (Proc.devRef .tc Cert.KernelIdeal.main_v255) : Cert.KernelIdeal.S2000x128.Idx → EReal) = StableHlo.after Cert.ReferenceIdeal.Hand.ops V (Proc.devRef .tc Cert.ReferenceIdeal.main_v315))
    (r_x : ∀ i, ∃ r : ℝ, (StableHlo.after Cert.ReferenceIdeal.Hand.ops V (Proc.devRef .tc Cert.ReferenceIdeal.main_v315) : Cert.ReferenceIdeal.S2000x128.Idx → EReal) i = (r : EReal))
    (e_gi : Cert.KernelIdeal.Hand.W23 m g c (Proc.devRef .tc Cert.KernelIdeal.main_arg18) = V (Proc.devRef .tc Cert.ReferenceIdeal.main_arg18))
    (e_si : Cert.KernelIdeal.Hand.W23 m g c (Proc.devRef .tc Cert.KernelIdeal.main_arg17) = V (Proc.devRef .tc Cert.ReferenceIdeal.main_arg17))
    (e_inv : (Cert.KernelIdeal.Hand.W23 m g c (Proc.devRef .tc Cert.KernelIdeal.main_v57) : Cert.KernelIdeal.S100000.Idx → EReal) = invCnt (M := 100000) (V (Proc.devRef .tc Cert.ReferenceIdeal.main_arg17))) :
    (Cert.KernelIdeal.Hand.W24 m g c (Proc.devRef .tc Cert.KernelIdeal.main_v330) : Cert.KernelIdeal.S100000x128.Idx → EReal)
        = StableHlo.after Cert.ReferenceIdeal.Hand.ops V (Proc.devRef .tc Cert.ReferenceIdeal.main_v388)
      ∧ ∀ i, ∃ r : ℝ, (StableHlo.after Cert.ReferenceIdeal.Hand.ops V (Proc.devRef .tc Cert.ReferenceIdeal.main_v388) : Cert.ReferenceIdeal.S100000x128.Idx → EReal) i = (r : EReal) := by
  have h1 : (Cert.KernelIdeal.Hand.W24 m g c (Proc.devRef .tc Cert.KernelIdeal.main_v330) : Cert.KernelIdeal.S100000x128.Idx → EReal)
      = aggR (N := 2000) (by decide) 2000#32 (StableHlo.after Cert.ReferenceIdeal.Hand.ops V (Proc.devRef .tc Cert.ReferenceIdeal.main_v315)) (V (Proc.devRef .tc Cert.ReferenceIdeal.main_arg18)) (V (Proc.devRef .tc Cert.ReferenceIdeal.main_arg17)) := by
    rw [Cert.KernelIdeal.Hand.W24_eq, K_agg2_l2p, e_x, e_gi, e_si, e_inv, aggKw_invCnt]
    exact agg_eq _ _ _ _ _ r_x
  refine ⟨h1.trans (R_agg2_l2p V).symm, ?_⟩
  rw [R_agg2_l2p V]
  exact aggR_real _ _ _ _ _ r_x

/-- The reciprocal counts for diagnosis rows into patients, after the first layer's host operations. -/
theorem link_inv_main_v65 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_si : Cert.KernelIdeal.Hand.W7 m g c (Proc.devRef .tc Cert.KernelIdeal.main_arg19) = V (Proc.devRef .tc Cert.ReferenceIdeal.main_arg19)) :
    (Cert.KernelIdeal.Hand.W8 m g c (Proc.devRef .tc Cert.KernelIdeal.main_v65) : Cert.KernelIdeal.S100000.Idx → EReal) = invCnt (M := 100000) (V (Proc.devRef .tc Cert.ReferenceIdeal.main_arg19)) := by
  rw [Cert.KernelIdeal.Hand.W8_eq, K_inv_d2p, e_si]

/-- Layer 1, diagnosis rows into patients. -/
theorem link_main_v123 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W7 m g c (Proc.devRef .tc Cert.KernelIdeal.main_arg2) : Cert.KernelIdeal.S5000x128.Idx → EReal) = V (Proc.devRef .tc Cert.ReferenceIdeal.main_arg2))
    (r_x : ∀ i, ∃ r : ℝ, (V (Proc.devRef .tc Cert.ReferenceIdeal.main_arg2) : Cert.ReferenceIdeal.S5000x128.Idx → EReal) i = (r : EReal))
    (e_gi : Cert.KernelIdeal.Hand.W7 m g c (Proc.devRef .tc Cert.KernelIdeal.main_arg20) = V (Proc.devRef .tc Cert.ReferenceIdeal.main_arg20))
    (e_si : Cert.KernelIdeal.Hand.W7 m g c (Proc.devRef .tc Cert.KernelIdeal.main_arg19) = V (Proc.devRef .tc Cert.ReferenceIdeal.main_arg19)) :
    (Cert.KernelIdeal.Hand.W8 m g c (Proc.devRef .tc Cert.KernelIdeal.main_v123) : Cert.KernelIdeal.S100000x128.Idx → EReal)
        = StableHlo.after Cert.ReferenceIdeal.Hand.ops V (Proc.devRef .tc Cert.ReferenceIdeal.main_v125)
      ∧ ∀ i, ∃ r : ℝ, (StableHlo.after Cert.ReferenceIdeal.Hand.ops V (Proc.devRef .tc Cert.ReferenceIdeal.main_v125) : Cert.ReferenceIdeal.S100000x128.Idx → EReal) i = (r : EReal) := by
  have h1 : (Cert.KernelIdeal.Hand.W8 m g c (Proc.devRef .tc Cert.KernelIdeal.main_v123) : Cert.KernelIdeal.S100000x128.Idx → EReal)
      = aggR (N := 5000) (by decide) 5000#32 (V (Proc.devRef .tc Cert.ReferenceIdeal.main_arg2)) (V (Proc.devRef .tc Cert.ReferenceIdeal.main_arg20)) (V (Proc.devRef .tc Cert.ReferenceIdeal.main_arg19)) := by
    rw [Cert.KernelIdeal.Hand.W8_eq, K_agg1_d2p, e_x, e_gi, e_si]
    exact agg_eq _ _ _ _ _ r_x
  refine ⟨h1.trans (R_agg1_d2p V).symm, ?_⟩
  rw [R_agg1_d2p V]
  exact aggR_real _ _ _ _ _ r_x

/-- Layer 2, diagnosis rows into patients. -/
theorem link_main_v343 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W23 m g c (Proc.devRef .tc Cert.KernelIdeal.main_v286) : Cert.KernelIdeal.S5000x128.Idx → EReal) = StableHlo.after Cert.ReferenceIdeal.Hand.ops V (Proc.devRef .tc Cert.ReferenceIdeal.main_v339))
    (r_x : ∀ i, ∃ r : ℝ, (StableHlo.after Cert.ReferenceIdeal.Hand.ops V (Proc.devRef .tc Cert.ReferenceIdeal.main_v339) : Cert.ReferenceIdeal.S5000x128.Idx → EReal) i = (r : EReal))
    (e_gi : Cert.KernelIdeal.Hand.W23 m g c (Proc.devRef .tc Cert.KernelIdeal.main_arg20) = V (Proc.devRef .tc Cert.ReferenceIdeal.main_arg20))
    (e_si : Cert.KernelIdeal.Hand.W23 m g c (Proc.devRef .tc Cert.KernelIdeal.main_arg19) = V (Proc.devRef .tc Cert.ReferenceIdeal.main_arg19))
    (e_inv : (Cert.KernelIdeal.Hand.W23 m g c (Proc.devRef .tc Cert.KernelIdeal.main_v65) : Cert.KernelIdeal.S100000.Idx → EReal) = invCnt (M := 100000) (V (Proc.devRef .tc Cert.ReferenceIdeal.main_arg19))) :
    (Cert.KernelIdeal.Hand.W24 m g c (Proc.devRef .tc Cert.KernelIdeal.main_v343) : Cert.KernelIdeal.S100000x128.Idx → EReal)
        = StableHlo.after Cert.ReferenceIdeal.Hand.ops V (Proc.devRef .tc Cert.ReferenceIdeal.main_v421)
      ∧ ∀ i, ∃ r : ℝ, (StableHlo.after Cert.ReferenceIdeal.Hand.ops V (Proc.devRef .tc Cert.ReferenceIdeal.main_v421) : Cert.ReferenceIdeal.S100000x128.Idx → EReal) i = (r : EReal) := by
  have h1 : (Cert.KernelIdeal.Hand.W24 m g c (Proc.devRef .tc Cert.KernelIdeal.main_v343) : Cert.KernelIdeal.S100000x128.Idx → EReal)
      = aggR (N := 5000) (by decide) 5000#32 (StableHlo.after Cert.ReferenceIdeal.Hand.ops V (Proc.devRef .tc Cert.ReferenceIdeal.main_v339)) (V (Proc.devRef .tc Cert.ReferenceIdeal.main_arg20)) (V (Proc.devRef .tc Cert.ReferenceIdeal.main_arg19)) := by
    rw [Cert.KernelIdeal.Hand.W24_eq, K_agg2_d2p, e_x, e_gi, e_si, e_inv, aggKw_invCnt]
    exact agg_eq _ _ _ _ _ r_x
  refine ⟨h1.trans (R_agg2_d2p V).symm, ?_⟩
  rw [R_agg2_d2p V]
  exact aggR_real _ _ _ _ _ r_x

/-- The reciprocal counts for medication rows into patients, after the first layer's host operations. -/
theorem link_inv_main_v73 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_si : Cert.KernelIdeal.Hand.W7 m g c (Proc.devRef .tc Cert.KernelIdeal.main_arg21) = V (Proc.devRef .tc Cert.ReferenceIdeal.main_arg21)) :
    (Cert.KernelIdeal.Hand.W8 m g c (Proc.devRef .tc Cert.KernelIdeal.main_v73) : Cert.KernelIdeal.S100000.Idx → EReal) = invCnt (M := 100000) (V (Proc.devRef .tc Cert.ReferenceIdeal.main_arg21)) := by
  rw [Cert.KernelIdeal.Hand.W8_eq, K_inv_m2p, e_si]

/-- Layer 1, medication rows into patients. -/
theorem link_main_v136 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W7 m g c (Proc.devRef .tc Cert.KernelIdeal.main_arg3) : Cert.KernelIdeal.S3000x128.Idx → EReal) = V (Proc.devRef .tc Cert.ReferenceIdeal.main_arg3))
    (r_x : ∀ i, ∃ r : ℝ, (V (Proc.devRef .tc Cert.ReferenceIdeal.main_arg3) : Cert.ReferenceIdeal.S3000x128.Idx → EReal) i = (r : EReal))
    (e_gi : Cert.KernelIdeal.Hand.W7 m g c (Proc.devRef .tc Cert.KernelIdeal.main_arg22) = V (Proc.devRef .tc Cert.ReferenceIdeal.main_arg22))
    (e_si : Cert.KernelIdeal.Hand.W7 m g c (Proc.devRef .tc Cert.KernelIdeal.main_arg21) = V (Proc.devRef .tc Cert.ReferenceIdeal.main_arg21)) :
    (Cert.KernelIdeal.Hand.W8 m g c (Proc.devRef .tc Cert.KernelIdeal.main_v136) : Cert.KernelIdeal.S100000x128.Idx → EReal)
        = StableHlo.after Cert.ReferenceIdeal.Hand.ops V (Proc.devRef .tc Cert.ReferenceIdeal.main_v159)
      ∧ ∀ i, ∃ r : ℝ, (StableHlo.after Cert.ReferenceIdeal.Hand.ops V (Proc.devRef .tc Cert.ReferenceIdeal.main_v159) : Cert.ReferenceIdeal.S100000x128.Idx → EReal) i = (r : EReal) := by
  have h1 : (Cert.KernelIdeal.Hand.W8 m g c (Proc.devRef .tc Cert.KernelIdeal.main_v136) : Cert.KernelIdeal.S100000x128.Idx → EReal)
      = aggR (N := 3000) (by decide) 3000#32 (V (Proc.devRef .tc Cert.ReferenceIdeal.main_arg3)) (V (Proc.devRef .tc Cert.ReferenceIdeal.main_arg22)) (V (Proc.devRef .tc Cert.ReferenceIdeal.main_arg21)) := by
    rw [Cert.KernelIdeal.Hand.W8_eq, K_agg1_m2p, e_x, e_gi, e_si]
    exact agg_eq _ _ _ _ _ r_x
  refine ⟨h1.trans (R_agg1_m2p V).symm, ?_⟩
  rw [R_agg1_m2p V]
  exact aggR_real _ _ _ _ _ r_x

/-- Layer 2, medication rows into patients. -/
theorem link_main_v356 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W23 m g c (Proc.devRef .tc Cert.KernelIdeal.main_v317) : Cert.KernelIdeal.S3000x128.Idx → EReal) = StableHlo.after Cert.ReferenceIdeal.Hand.ops V (Proc.devRef .tc Cert.ReferenceIdeal.main_v363))
    (r_x : ∀ i, ∃ r : ℝ, (StableHlo.after Cert.ReferenceIdeal.Hand.ops V (Proc.devRef .tc Cert.ReferenceIdeal.main_v363) : Cert.ReferenceIdeal.S3000x128.Idx → EReal) i = (r : EReal))
    (e_gi : Cert.KernelIdeal.Hand.W23 m g c (Proc.devRef .tc Cert.KernelIdeal.main_arg22) = V (Proc.devRef .tc Cert.ReferenceIdeal.main_arg22))
    (e_si : Cert.KernelIdeal.Hand.W23 m g c (Proc.devRef .tc Cert.KernelIdeal.main_arg21) = V (Proc.devRef .tc Cert.ReferenceIdeal.main_arg21))
    (e_inv : (Cert.KernelIdeal.Hand.W23 m g c (Proc.devRef .tc Cert.KernelIdeal.main_v73) : Cert.KernelIdeal.S100000.Idx → EReal) = invCnt (M := 100000) (V (Proc.devRef .tc Cert.ReferenceIdeal.main_arg21))) :
    (Cert.KernelIdeal.Hand.W24 m g c (Proc.devRef .tc Cert.KernelIdeal.main_v356) : Cert.KernelIdeal.S100000x128.Idx → EReal)
        = StableHlo.after Cert.ReferenceIdeal.Hand.ops V (Proc.devRef .tc Cert.ReferenceIdeal.main_v455)
      ∧ ∀ i, ∃ r : ℝ, (StableHlo.after Cert.ReferenceIdeal.Hand.ops V (Proc.devRef .tc Cert.ReferenceIdeal.main_v455) : Cert.ReferenceIdeal.S100000x128.Idx → EReal) i = (r : EReal) := by
  have h1 : (Cert.KernelIdeal.Hand.W24 m g c (Proc.devRef .tc Cert.KernelIdeal.main_v356) : Cert.KernelIdeal.S100000x128.Idx → EReal)
      = aggR (N := 3000) (by decide) 3000#32 (StableHlo.after Cert.ReferenceIdeal.Hand.ops V (Proc.devRef .tc Cert.ReferenceIdeal.main_v363)) (V (Proc.devRef .tc Cert.ReferenceIdeal.main_arg22)) (V (Proc.devRef .tc Cert.ReferenceIdeal.main_arg21)) := by
    rw [Cert.KernelIdeal.Hand.W24_eq, K_agg2_m2p, e_x, e_gi, e_si, e_inv, aggKw_invCnt]
    exact agg_eq _ _ _ _ _ r_x
  refine ⟨h1.trans (R_agg2_m2p V).symm, ?_⟩
  rw [R_agg2_m2p V]
  exact aggR_real _ _ _ _ _ r_x

/-- The reciprocal counts for patient rows into labs, after the first layer's host operations. -/
theorem link_inv_main_v81 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_si : Cert.KernelIdeal.Hand.W7 m g c (Proc.devRef .tc Cert.KernelIdeal.main_arg18) = V (Proc.devRef .tc Cert.ReferenceIdeal.main_arg18)) :
    (Cert.KernelIdeal.Hand.W8 m g c (Proc.devRef .tc Cert.KernelIdeal.main_v81) : Cert.KernelIdeal.S2000.Idx → EReal) = invCnt (M := 2000) (V (Proc.devRef .tc Cert.ReferenceIdeal.main_arg18)) := by
  rw [Cert.KernelIdeal.Hand.W8_eq, K_inv_p2l, e_si]

/-- Layer 1, patient rows into labs. -/
theorem link_main_v149 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W7 m g c (Proc.devRef .tc Cert.KernelIdeal.main_v49) : Cert.KernelIdeal.S100000x128.Idx → EReal) = StableHlo.after Cert.ReferenceIdeal.Hand.ops V (Proc.devRef .tc Cert.ReferenceIdeal.main_v67))
    (r_x : ∀ i, ∃ r : ℝ, (StableHlo.after Cert.ReferenceIdeal.Hand.ops V (Proc.devRef .tc Cert.ReferenceIdeal.main_v67) : Cert.ReferenceIdeal.S100000x128.Idx → EReal) i = (r : EReal))
    (e_gi : Cert.KernelIdeal.Hand.W7 m g c (Proc.devRef .tc Cert.KernelIdeal.main_arg17) = V (Proc.devRef .tc Cert.ReferenceIdeal.main_arg17))
    (e_si : Cert.KernelIdeal.Hand.W7 m g c (Proc.devRef .tc Cert.KernelIdeal.main_arg18) = V (Proc.devRef .tc Cert.ReferenceIdeal.main_arg18)) :
    (Cert.KernelIdeal.Hand.W8 m g c (Proc.devRef .tc Cert.KernelIdeal.main_v149) : Cert.KernelIdeal.S2000x128.Idx → EReal)
        = StableHlo.after Cert.ReferenceIdeal.Hand.ops V (Proc.devRef .tc Cert.ReferenceIdeal.main_v193)
      ∧ ∀ i, ∃ r : ℝ, (StableHlo.after Cert.ReferenceIdeal.Hand.ops V (Proc.devRef .tc Cert.ReferenceIdeal.main_v193) : Cert.ReferenceIdeal.S2000x128.Idx → EReal) i = (r : EReal) := by
  have h1 : (Cert.KernelIdeal.Hand.W8 m g c (Proc.devRef .tc Cert.KernelIdeal.main_v149) : Cert.KernelIdeal.S2000x128.Idx → EReal)
      = aggR (N := 100000) (by decide) 100000#32 (StableHlo.after Cert.ReferenceIdeal.Hand.ops V (Proc.devRef .tc Cert.ReferenceIdeal.main_v67)) (V (Proc.devRef .tc Cert.ReferenceIdeal.main_arg17)) (V (Proc.devRef .tc Cert.ReferenceIdeal.main_arg18)) := by
    rw [Cert.KernelIdeal.Hand.W8_eq, K_agg1_p2l, e_x, e_gi, e_si]
    exact agg_eq _ _ _ _ _ r_x
  refine ⟨h1.trans (R_agg1_p2l V).symm, ?_⟩
  rw [R_agg1_p2l V]
  exact aggR_real _ _ _ _ _ r_x

/-- Layer 2, patient rows into labs. -/
theorem link_main_v369 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W23 m g c (Proc.devRef .tc Cert.KernelIdeal.main_v224) : Cert.KernelIdeal.S100000x128.Idx → EReal) = StableHlo.after Cert.ReferenceIdeal.Hand.ops V (Proc.devRef .tc Cert.ReferenceIdeal.main_v291))
    (r_x : ∀ i, ∃ r : ℝ, (StableHlo.after Cert.ReferenceIdeal.Hand.ops V (Proc.devRef .tc Cert.ReferenceIdeal.main_v291) : Cert.ReferenceIdeal.S100000x128.Idx → EReal) i = (r : EReal))
    (e_gi : Cert.KernelIdeal.Hand.W23 m g c (Proc.devRef .tc Cert.KernelIdeal.main_arg17) = V (Proc.devRef .tc Cert.ReferenceIdeal.main_arg17))
    (e_si : Cert.KernelIdeal.Hand.W23 m g c (Proc.devRef .tc Cert.KernelIdeal.main_arg18) = V (Proc.devRef .tc Cert.ReferenceIdeal.main_arg18))
    (e_inv : (Cert.KernelIdeal.Hand.W23 m g c (Proc.devRef .tc Cert.KernelIdeal.main_v81) : Cert.KernelIdeal.S2000.Idx → EReal) = invCnt (M := 2000) (V (Proc.devRef .tc Cert.ReferenceIdeal.main_arg18))) :
    (Cert.KernelIdeal.Hand.W24 m g c (Proc.devRef .tc Cert.KernelIdeal.main_v369) : Cert.KernelIdeal.S2000x128.Idx → EReal)
        = StableHlo.after Cert.ReferenceIdeal.Hand.ops V (Proc.devRef .tc Cert.ReferenceIdeal.main_v489)
      ∧ ∀ i, ∃ r : ℝ, (StableHlo.after Cert.ReferenceIdeal.Hand.ops V (Proc.devRef .tc Cert.ReferenceIdeal.main_v489) : Cert.ReferenceIdeal.S2000x128.Idx → EReal) i = (r : EReal) := by
  have h1 : (Cert.KernelIdeal.Hand.W24 m g c (Proc.devRef .tc Cert.KernelIdeal.main_v369) : Cert.KernelIdeal.S2000x128.Idx → EReal)
      = aggR (N := 100000) (by decide) 100000#32 (StableHlo.after Cert.ReferenceIdeal.Hand.ops V (Proc.devRef .tc Cert.ReferenceIdeal.main_v291)) (V (Proc.devRef .tc Cert.ReferenceIdeal.main_arg17)) (V (Proc.devRef .tc Cert.ReferenceIdeal.main_arg18)) := by
    rw [Cert.KernelIdeal.Hand.W24_eq, K_agg2_p2l, e_x, e_gi, e_si, e_inv, aggKw_invCnt]
    exact agg_eq _ _ _ _ _ r_x
  refine ⟨h1.trans (R_agg2_p2l V).symm, ?_⟩
  rw [R_agg2_p2l V]
  exact aggR_real _ _ _ _ _ r_x

/-- The reciprocal counts for patient rows into diagnoses, after the first layer's host operations. -/
theorem link_inv_main_v89 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_si : Cert.KernelIdeal.Hand.W7 m g c (Proc.devRef .tc Cert.KernelIdeal.main_arg20) = V (Proc.devRef .tc Cert.ReferenceIdeal.main_arg20)) :
    (Cert.KernelIdeal.Hand.W8 m g c (Proc.devRef .tc Cert.KernelIdeal.main_v89) : Cert.KernelIdeal.S5000.Idx → EReal) = invCnt (M := 5000) (V (Proc.devRef .tc Cert.ReferenceIdeal.main_arg20)) := by
  rw [Cert.KernelIdeal.Hand.W8_eq, K_inv_p2d, e_si]

/-- Layer 1, patient rows into diagnoses. -/
theorem link_main_v162 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W7 m g c (Proc.devRef .tc Cert.KernelIdeal.main_v49) : Cert.KernelIdeal.S100000x128.Idx → EReal) = StableHlo.after Cert.ReferenceIdeal.Hand.ops V (Proc.devRef .tc Cert.ReferenceIdeal.main_v67))
    (r_x : ∀ i, ∃ r : ℝ, (StableHlo.after Cert.ReferenceIdeal.Hand.ops V (Proc.devRef .tc Cert.ReferenceIdeal.main_v67) : Cert.ReferenceIdeal.S100000x128.Idx → EReal) i = (r : EReal))
    (e_gi : Cert.KernelIdeal.Hand.W7 m g c (Proc.devRef .tc Cert.KernelIdeal.main_arg19) = V (Proc.devRef .tc Cert.ReferenceIdeal.main_arg19))
    (e_si : Cert.KernelIdeal.Hand.W7 m g c (Proc.devRef .tc Cert.KernelIdeal.main_arg20) = V (Proc.devRef .tc Cert.ReferenceIdeal.main_arg20)) :
    (Cert.KernelIdeal.Hand.W8 m g c (Proc.devRef .tc Cert.KernelIdeal.main_v162) : Cert.KernelIdeal.S5000x128.Idx → EReal)
        = StableHlo.after Cert.ReferenceIdeal.Hand.ops V (Proc.devRef .tc Cert.ReferenceIdeal.main_v226)
      ∧ ∀ i, ∃ r : ℝ, (StableHlo.after Cert.ReferenceIdeal.Hand.ops V (Proc.devRef .tc Cert.ReferenceIdeal.main_v226) : Cert.ReferenceIdeal.S5000x128.Idx → EReal) i = (r : EReal) := by
  have h1 : (Cert.KernelIdeal.Hand.W8 m g c (Proc.devRef .tc Cert.KernelIdeal.main_v162) : Cert.KernelIdeal.S5000x128.Idx → EReal)
      = aggR (N := 100000) (by decide) 100000#32 (StableHlo.after Cert.ReferenceIdeal.Hand.ops V (Proc.devRef .tc Cert.ReferenceIdeal.main_v67)) (V (Proc.devRef .tc Cert.ReferenceIdeal.main_arg19)) (V (Proc.devRef .tc Cert.ReferenceIdeal.main_arg20)) := by
    rw [Cert.KernelIdeal.Hand.W8_eq, K_agg1_p2d, e_x, e_gi, e_si]
    exact agg_eq _ _ _ _ _ r_x
  refine ⟨h1.trans (R_agg1_p2d V).symm, ?_⟩
  rw [R_agg1_p2d V]
  exact aggR_real _ _ _ _ _ r_x

/-- Layer 2, patient rows into diagnoses. -/
theorem link_main_v382 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W23 m g c (Proc.devRef .tc Cert.KernelIdeal.main_v224) : Cert.KernelIdeal.S100000x128.Idx → EReal) = StableHlo.after Cert.ReferenceIdeal.Hand.ops V (Proc.devRef .tc Cert.ReferenceIdeal.main_v291))
    (r_x : ∀ i, ∃ r : ℝ, (StableHlo.after Cert.ReferenceIdeal.Hand.ops V (Proc.devRef .tc Cert.ReferenceIdeal.main_v291) : Cert.ReferenceIdeal.S100000x128.Idx → EReal) i = (r : EReal))
    (e_gi : Cert.KernelIdeal.Hand.W23 m g c (Proc.devRef .tc Cert.KernelIdeal.main_arg19) = V (Proc.devRef .tc Cert.ReferenceIdeal.main_arg19))
    (e_si : Cert.KernelIdeal.Hand.W23 m g c (Proc.devRef .tc Cert.KernelIdeal.main_arg20) = V (Proc.devRef .tc Cert.ReferenceIdeal.main_arg20))
    (e_inv : (Cert.KernelIdeal.Hand.W23 m g c (Proc.devRef .tc Cert.KernelIdeal.main_v89) : Cert.KernelIdeal.S5000.Idx → EReal) = invCnt (M := 5000) (V (Proc.devRef .tc Cert.ReferenceIdeal.main_arg20))) :
    (Cert.KernelIdeal.Hand.W24 m g c (Proc.devRef .tc Cert.KernelIdeal.main_v382) : Cert.KernelIdeal.S5000x128.Idx → EReal)
        = StableHlo.after Cert.ReferenceIdeal.Hand.ops V (Proc.devRef .tc Cert.ReferenceIdeal.main_v522)
      ∧ ∀ i, ∃ r : ℝ, (StableHlo.after Cert.ReferenceIdeal.Hand.ops V (Proc.devRef .tc Cert.ReferenceIdeal.main_v522) : Cert.ReferenceIdeal.S5000x128.Idx → EReal) i = (r : EReal) := by
  have h1 : (Cert.KernelIdeal.Hand.W24 m g c (Proc.devRef .tc Cert.KernelIdeal.main_v382) : Cert.KernelIdeal.S5000x128.Idx → EReal)
      = aggR (N := 100000) (by decide) 100000#32 (StableHlo.after Cert.ReferenceIdeal.Hand.ops V (Proc.devRef .tc Cert.ReferenceIdeal.main_v291)) (V (Proc.devRef .tc Cert.ReferenceIdeal.main_arg19)) (V (Proc.devRef .tc Cert.ReferenceIdeal.main_arg20)) := by
    rw [Cert.KernelIdeal.Hand.W24_eq, K_agg2_p2d, e_x, e_gi, e_si, e_inv, aggKw_invCnt]
    exact agg_eq _ _ _ _ _ r_x
  refine ⟨h1.trans (R_agg2_p2d V).symm, ?_⟩
  rw [R_agg2_p2d V]
  exact aggR_real _ _ _ _ _ r_x

/-- The reciprocal counts for patient rows into medications, after the first layer's host operations. -/
theorem link_inv_main_v97 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_si : Cert.KernelIdeal.Hand.W7 m g c (Proc.devRef .tc Cert.KernelIdeal.main_arg22) = V (Proc.devRef .tc Cert.ReferenceIdeal.main_arg22)) :
    (Cert.KernelIdeal.Hand.W8 m g c (Proc.devRef .tc Cert.KernelIdeal.main_v97) : Cert.KernelIdeal.S3000.Idx → EReal) = invCnt (M := 3000) (V (Proc.devRef .tc Cert.ReferenceIdeal.main_arg22)) := by
  rw [Cert.KernelIdeal.Hand.W8_eq, K_inv_p2m, e_si]

/-- Layer 1, patient rows into medications. -/
theorem link_main_v175 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W7 m g c (Proc.devRef .tc Cert.KernelIdeal.main_v49) : Cert.KernelIdeal.S100000x128.Idx → EReal) = StableHlo.after Cert.ReferenceIdeal.Hand.ops V (Proc.devRef .tc Cert.ReferenceIdeal.main_v67))
    (r_x : ∀ i, ∃ r : ℝ, (StableHlo.after Cert.ReferenceIdeal.Hand.ops V (Proc.devRef .tc Cert.ReferenceIdeal.main_v67) : Cert.ReferenceIdeal.S100000x128.Idx → EReal) i = (r : EReal))
    (e_gi : Cert.KernelIdeal.Hand.W7 m g c (Proc.devRef .tc Cert.KernelIdeal.main_arg21) = V (Proc.devRef .tc Cert.ReferenceIdeal.main_arg21))
    (e_si : Cert.KernelIdeal.Hand.W7 m g c (Proc.devRef .tc Cert.KernelIdeal.main_arg22) = V (Proc.devRef .tc Cert.ReferenceIdeal.main_arg22)) :
    (Cert.KernelIdeal.Hand.W8 m g c (Proc.devRef .tc Cert.KernelIdeal.main_v175) : Cert.KernelIdeal.S3000x128.Idx → EReal)
        = StableHlo.after Cert.ReferenceIdeal.Hand.ops V (Proc.devRef .tc Cert.ReferenceIdeal.main_v259)
      ∧ ∀ i, ∃ r : ℝ, (StableHlo.after Cert.ReferenceIdeal.Hand.ops V (Proc.devRef .tc Cert.ReferenceIdeal.main_v259) : Cert.ReferenceIdeal.S3000x128.Idx → EReal) i = (r : EReal) := by
  have h1 : (Cert.KernelIdeal.Hand.W8 m g c (Proc.devRef .tc Cert.KernelIdeal.main_v175) : Cert.KernelIdeal.S3000x128.Idx → EReal)
      = aggR (N := 100000) (by decide) 100000#32 (StableHlo.after Cert.ReferenceIdeal.Hand.ops V (Proc.devRef .tc Cert.ReferenceIdeal.main_v67)) (V (Proc.devRef .tc Cert.ReferenceIdeal.main_arg21)) (V (Proc.devRef .tc Cert.ReferenceIdeal.main_arg22)) := by
    rw [Cert.KernelIdeal.Hand.W8_eq, K_agg1_p2m, e_x, e_gi, e_si]
    exact agg_eq _ _ _ _ _ r_x
  refine ⟨h1.trans (R_agg1_p2m V).symm, ?_⟩
  rw [R_agg1_p2m V]
  exact aggR_real _ _ _ _ _ r_x

/-- Layer 2, patient rows into medications. -/
theorem link_main_v395 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (e_x : (Cert.KernelIdeal.Hand.W23 m g c (Proc.devRef .tc Cert.KernelIdeal.main_v224) : Cert.KernelIdeal.S100000x128.Idx → EReal) = StableHlo.after Cert.ReferenceIdeal.Hand.ops V (Proc.devRef .tc Cert.ReferenceIdeal.main_v291))
    (r_x : ∀ i, ∃ r : ℝ, (StableHlo.after Cert.ReferenceIdeal.Hand.ops V (Proc.devRef .tc Cert.ReferenceIdeal.main_v291) : Cert.ReferenceIdeal.S100000x128.Idx → EReal) i = (r : EReal))
    (e_gi : Cert.KernelIdeal.Hand.W23 m g c (Proc.devRef .tc Cert.KernelIdeal.main_arg21) = V (Proc.devRef .tc Cert.ReferenceIdeal.main_arg21))
    (e_si : Cert.KernelIdeal.Hand.W23 m g c (Proc.devRef .tc Cert.KernelIdeal.main_arg22) = V (Proc.devRef .tc Cert.ReferenceIdeal.main_arg22))
    (e_inv : (Cert.KernelIdeal.Hand.W23 m g c (Proc.devRef .tc Cert.KernelIdeal.main_v97) : Cert.KernelIdeal.S3000.Idx → EReal) = invCnt (M := 3000) (V (Proc.devRef .tc Cert.ReferenceIdeal.main_arg22))) :
    (Cert.KernelIdeal.Hand.W24 m g c (Proc.devRef .tc Cert.KernelIdeal.main_v395) : Cert.KernelIdeal.S3000x128.Idx → EReal)
        = StableHlo.after Cert.ReferenceIdeal.Hand.ops V (Proc.devRef .tc Cert.ReferenceIdeal.main_v555)
      ∧ ∀ i, ∃ r : ℝ, (StableHlo.after Cert.ReferenceIdeal.Hand.ops V (Proc.devRef .tc Cert.ReferenceIdeal.main_v555) : Cert.ReferenceIdeal.S3000x128.Idx → EReal) i = (r : EReal) := by
  have h1 : (Cert.KernelIdeal.Hand.W24 m g c (Proc.devRef .tc Cert.KernelIdeal.main_v395) : Cert.KernelIdeal.S3000x128.Idx → EReal)
      = aggR (N := 100000) (by decide) 100000#32 (StableHlo.after Cert.ReferenceIdeal.Hand.ops V (Proc.devRef .tc Cert.ReferenceIdeal.main_v291)) (V (Proc.devRef .tc Cert.ReferenceIdeal.main_arg21)) (V (Proc.devRef .tc Cert.ReferenceIdeal.main_arg22)) := by
    rw [Cert.KernelIdeal.Hand.W24_eq, K_agg2_p2m, e_x, e_gi, e_si, e_inv, aggKw_invCnt]
    exact agg_eq _ _ _ _ _ r_x
  refine ⟨h1.trans (R_agg2_p2m V).symm, ?_⟩
  rw [R_agg2_p2m V]
  exact aggR_real _ _ _ _ _ r_x

end Cert.Val

end
-- ==== Proof.KI.V4.lean ====
/- Region 4 of the kernel program, read at the extended reals: what its three result arrays hold after the region
   as whole-array functions of the arrays it is entered with. `y = b + x0·w0 + x1·w1 + x2·w2 + x3·w3` row by row
   (each product a sum over the 128 inner positions), and for each sweep of the second grid axis the column sums of
   `y` and of `y·y` over that sweep's 25 blocks of 2000 rows. -/
import proofs.«424088_j28020366639260_2_alg».proof.Proof.KI.R4
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat)

/-! ## The block product at an index -/

/-- On the product's left operand the row is the result's row, -/
theorem dot4_lhs_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- its column the contraction position; -/
theorem dot4_lhs_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

/-- on the right operand the row is the contraction position, -/
theorem dot4_rhs_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

/-- its column the result's column. -/
theorem dot4_rhs_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block of 2000 rows times a 128×128 matrix, into a zero accumulator, at row `p` and column `q`: the sum over
    the 128 inner positions of the products. -/
theorem matmul4_apply {φ₁ φ₂ : FTy} (x : FVec Ideal S2000x128 φ₁) (w : FVec Ideal S128x128 φ₂) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  show FloatOps.matmul dot_S2000x128_S128x128_S2000x128_1_0_0_1_n_n none x w (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  congr 2
  · funext a
    apply Fin.ext
    match a with
    | ⟨0, _⟩ => exact dot4_lhs_0 _ _
    | ⟨1, _⟩ => exact (dot4_lhs_1 _ _).trans hk
  · funext a
    apply Fin.ext
    match a with
    | ⟨0, _⟩ => exact (dot4_rhs_0 _ _).trans hk
    | ⟨1, _⟩ => exact dot4_rhs_1 _ _

/-! ## The body's arithmetic at an index, over the extended reals -/

/-- The bias row laid under every row of the block. -/
theorem bias4_apply (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 (0 : Fin 1) q) (by
    intro a
    match a with
    | ⟨0, _⟩ => rfl
    | ⟨1, _⟩ => rfl)

/-- The block of `y` at row `p`, column `q`: the bias plus the four inner products, added in the body's order. -/
theorem pay1_4_apply (x0 x1 x2 x3 : Vec Ideal S2000x128 .f32) (w0 w1 w2 w3 : Vec Ideal S128x128 .f32) (b : Vec Ideal S1x128 .f32)
    (p : Fin 2000) (q : Fin 128) :
    k4_pay1 (k4_pay6 b x0 w0 x1 w1 x2 w2) (k4_pay7 x3) w3 (ix2 p q)
      = (((b (ix2 0 q) + ∑ k : Fin 128, x0 (ix2 p k) * w0 (ix2 k q)) + ∑ k : Fin 128, x1 (ix2 p k) * w1 (ix2 k q))
          + ∑ k : Fin 128, x2 (ix2 p k) * w2 (ix2 k q)) + ∑ k : Fin 128, x3 (ix2 p k) * w3 (ix2 k q) := by
  unfold k4_pay1 k4_pay6 k4_pay7
  simp only [shapeCast_self]
  exact congrArg₂ (· + ·) (congrArg₂ (· + ·) (congrArg₂ (· + ·) (congrArg₂ (· + ·) (bias4_apply b p q)
    (matmul4_apply _ _ p q)) (matmul4_apply _ _ p q)) (matmul4_apply _ _ p q)) (matmul4_apply _ _ p q)

/-- Column `q` with row `r` put back is (r, q). -/
theorem lift4 (q : Fin 128) (r : Fin (S2000x128.size 0)) :
    reduces_S2000x128_S128.lift (ix1 q) r = ix2 (⟨r.val, r.isLt⟩ : Fin 2000) q := by
  funext c; apply Fin.ext
  fin_cases c <;> rfl

/-- The column sums of a block, as the row of shape [1,1,128] the body adds to a running row. -/
theorem colred4_apply (y : FVec Ideal S2000x128 .f32) (hacc : (0x00000000#32 : BitVec 32) = 0x00000000#32) (q : Fin 128) :
    shapeCast S1x1x128 (shapeCast S1x128 (multiReduction .add [0] S128 y 0x00000000#32 reduces_S2000x128_S128 (.inl rfl) hacc)
        shapeCasts_S128_S1x128) shapeCasts_S1x128_S1x1x128 (ix3 0 0 q)
      = ∑ r : Fin 2000, y (ix2 r q) := by
  refine (shapeCast_apply _ shapeCasts_S1x128_S1x1x128 (ix3 0 0 q) (ix2 0 q)
    (by rw [Shape.rowMajor_val_two, Shape.rowMajor_val_three]; show 0 * 128 + q.val = (0 * 1 + 0) * 128 + q.val; omega)).trans ?_
  refine (shapeCast_apply _ shapeCasts_S128_S1x128 (ix2 0 q) (ix1 q)
    (by rw [Shape.rowMajor_val_one, Shape.rowMajor_val_two]; show q.val = 0 * 128 + q.val; omega)).trans ?_
  refine (Ideal.multiReduction_add_single y 0x00000000#32 reduces_S2000x128_S128 (.inl rfl) hacc (ix1 q)).trans ?_
  exact Finset.sum_congr rfl fun r _ => congrArg y (lift4 q r)

/-- The running row of column sums after a block: what it held plus the block's column sums. -/
theorem pay2_4_apply (x0 x1 x2 x3 : Vec Ideal S2000x128 .f32) (w0 w1 w2 w3 : Vec Ideal S128x128 .f32) (b : Vec Ideal S1x128 .f32)
    (acc : Vec Ideal S1x1x128 .f32) (q : Fin 128) :
    k4_pay2 (k4_pay6 b x0 w0 x1 w1 x2 w2) (k4_pay7 x3) w3 acc (ix3 0 0 q)
      = acc (ix3 0 0 q) + ∑ r : Fin 2000, k4_pay1 (k4_pay6 b x0 w0 x1 w1 x2 w2) (k4_pay7 x3) w3 (ix2 r q) := by
  unfold k4_pay2
  simp only [shapeCast_self]
  exact congrArg₂ (· + ·) rfl (colred4_apply _ rfl q)

/-- The running row of column sums of squares after a block. -/
theorem pay3_4_apply (x0 x1 x2 x3 : Vec Ideal S2000x128 .f32) (w0 w1 w2 w3 : Vec Ideal S128x128 .f32) (b : Vec Ideal S1x128 .f32)
    (acc : Vec Ideal S1x1x128 .f32) (q : Fin 128) :
    k4_pay3 (k4_pay6 b x0 w0 x1 w1 x2 w2) (k4_pay7 x3) w3 acc (ix3 0 0 q)
      = acc (ix3 0 0 q) + ∑ r : Fin 2000, k4_pay1 (k4_pay6 b x0 w0 x1 w1 x2 w2) (k4_pay7 x3) w3 (ix2 r q)
          * k4_pay1 (k4_pay6 b x0 w0 x1 w1 x2 w2) (k4_pay7 x3) w3 (ix2 r q) := by
  unfold k4_pay3
  simp only [shapeCast_self]
  exact congrArg₂ (· + ·) rfl (colred4_apply _ rfl q)

/-- The rows the running rows start from are zero. -/
theorem pay4_4_apply (j : S1x1x128.Idx) : (k4_pay4 (F := Ideal)) j = 0 := by
  unfold k4_pay4
  exact Ideal.ofBits_zero_f32

theorem pay5_4_apply (j : S1x1x128.Idx) : (k4_pay5 (F := Ideal)) j = 0 := by
  unfold k4_pay5
  exact Ideal.ofBits_zero_f32

variable (V : (c : Dev nD) → (b : Ref sig .tc) → Buf (Elt Ideal) ((c : Thread nD τ).loc b))

/-! ## The arrays the region reads, and `y` as one function of them -/

abbrev a4_0 (c : Dev nD) : S100000x128.Idx → EReal := V c (Pipeline.arrRef spec4 0)
abbrev a4_1 (c : Dev nD) : S100000x128.Idx → EReal := V c (Pipeline.arrRef spec4 1)
abbrev a4_2 (c : Dev nD) : S100000x128.Idx → EReal := V c (Pipeline.arrRef spec4 2)
abbrev a4_3 (c : Dev nD) : S100000x128.Idx → EReal := V c (Pipeline.arrRef spec4 3)
abbrev a4_4 (c : Dev nD) : S128x128.Idx → EReal := V c (Pipeline.arrRef spec4 4)
abbrev a4_5 (c : Dev nD) : S128x128.Idx → EReal := V c (Pipeline.arrRef spec4 5)
abbrev a4_6 (c : Dev nD) : S128x128.Idx → EReal := V c (Pipeline.arrRef spec4 6)
abbrev a4_7 (c : Dev nD) : S128x128.Idx → EReal := V c (Pipeline.arrRef spec4 7)
abbrev a4_8 (c : Dev nD) : S1x128.Idx → EReal := V c (Pipeline.arrRef spec4 8)

/-- `y` at row `r`, column `q`: the bias plus the four inner products over the 128 inner positions, in the
    body's order of addition. -/
def yat4 (c : Dev nD) (r : Fin 100000) (q : Fin 128) : EReal :=
  (((a4_8 V c (ix2 0 q) + ∑ k : Fin 128, a4_0 V c (ix2 r k) * a4_4 V c (ix2 k q))
      + ∑ k : Fin 128, a4_1 V c (ix2 r k) * a4_5 V c (ix2 k q))
    + ∑ k : Fin 128, a4_2 V c (ix2 r k) * a4_6 V c (ix2 k q))
  + ∑ k : Fin 128, a4_3 V c (ix2 r k) * a4_7 V c (ix2 k q)

/-- The whole array `y`. -/
def yval4 (c : Dev nD) : S100000x128.Idx → EReal := fun i => yat4 V c (i 0) (i 1)

/-- Row `r` of block `t` of sweep `s`, as a row of the whole array. -/
def row4 (s : Fin 2) (t : Fin 25) (r : Fin 2000) : Fin 100000 := ⟨2000 * (25 * s.val + t.val) + r.val, by omega⟩

/-- Row `p` of the block of grid point `t`, as a row of the whole array. -/
def rowAt4 (t : Fin cfg4.N) (p : Fin 2000) : Fin 100000 :=
  ⟨2000 * t.val + p.val, by have := lt_of_lt_of_eq t.isLt (show cfg4.N = 50 from N_4); omega⟩

/-! ## Where the windows' blocks lie -/

/-- The row-block windows (the four `x` and `y`) are at block `t` of the rows at point `t`; -/
theorem idx4_rows : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_9.index t (0 : Fin 2) = t.val ∧ win4_9.index t (1 : Fin 2) = 0 :=
  (by decide +kernel : ∀ t : Fin grid4.N, _)

/-- the weights' and the bias's windows are the whole arrays; -/
theorem idx4_whole : ∀ t : Fin cfg4.N, win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- the running rows' windows are at the sweep's row. -/
theorem idx4_acc : ∀ t : Fin cfg4.N, win4_10.index t (0 : Fin 3) = t.val / 25 ∧ win4_10.index t (1 : Fin 3) = 0 ∧ win4_10.index t (2 : Fin 3) = 0
    ∧ win4_11.index t (0 : Fin 3) = t.val / 25 ∧ win4_11.index t (1 : Fin 3) = 0 ∧ win4_11.index t (2 : Fin 3) = 0 :=
  (by decide +kernel : ∀ t : Fin grid4.N, _)

/-! ## The input blocks read off the arrays -/

theorem iblk4_0_apply (c : Dev nD) (t : Fin cfg4.N) (p : Fin 2000) (k : Fin 128) :
    (iblk4 V c 0 t : S2000x128.Idx → EReal) (ix2 p k) = a4_0 V c (ix2 (rowAt4 t p) k) := by
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * p.val = 2000 * t.val + p.val; rw [(idx4_rows t).1]; omega
  | ⟨1, _⟩ => show win4_0.index t (1 : Fin 2) * 128 + 1 * k.val = k.val; rw [(idx4_rows t).2.1]; omega

theorem iblk4_1_apply (c : Dev nD) (t : Fin cfg4.N) (p : Fin 2000) (k : Fin 128) :
    (iblk4 V c 1 t : S2000x128.Idx → EReal) (ix2 p k) = a4_1 V c (ix2 (rowAt4 t p) k) := by
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * p.val = 2000 * t.val + p.val; rw [(idx4_rows t).2.2.1]; omega
  | ⟨1, _⟩ => show win4_1.index t (1 : Fin 2) * 128 + 1 * k.val = k.val; rw [(idx4_rows t).2.2.2.1]; omega

theorem iblk4_2_apply (c : Dev nD) (t : Fin cfg4.N) (p : Fin 2000) (k : Fin 128) :
    (iblk4 V c 2 t : S2000x128.Idx → EReal) (ix2 p k) = a4_2 V c (ix2 (rowAt4 t p) k) := by
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 2000 + 1 * p.val = 2000 * t.val + p.val; rw [(idx4_rows t).2.2.2.2.1]; omega
  | ⟨1, _⟩ => show win4_2.index t (1 : Fin 2) * 128 + 1 * k.val = k.val; rw [(idx4_rows t).2.2.2.2.2.1]; omega

theorem iblk4_3_apply (c : Dev nD) (t : Fin cfg4.N) (p : Fin 2000) (k : Fin 128) :
    (iblk4 V c 3 t : S2000x128.Idx → EReal) (ix2 p k) = a4_3 V c (ix2 (rowAt4 t p) k) := by
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 2000 + 1 * p.val = 2000 * t.val + p.val; rw [(idx4_rows t).2.2.2.2.2.2.1]; omega
  | ⟨1, _⟩ => show win4_3.index t (1 : Fin 2) * 128 + 1 * k.val = k.val; rw [(idx4_rows t).2.2.2.2.2.2.2.1]; omega

theorem iblk4_4_apply (c : Dev nD) (t : Fin cfg4.N) (k : Fin 128) (q : Fin 128) :
    (iblk4 V c 4 t : S128x128.Idx → EReal) (ix2 k q) = a4_4 V c (ix2 k q) := by
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 128 + 1 * k.val = k.val; rw [(idx4_whole t).1]; omega
  | ⟨1, _⟩ => show win4_4.index t (1 : Fin 2) * 128 + 1 * q.val = q.val; rw [(idx4_whole t).2.1]; omega

theorem iblk4_5_apply (c : Dev nD) (t : Fin cfg4.N) (k : Fin 128) (q : Fin 128) :
    (iblk4 V c 5 t : S128x128.Idx → EReal) (ix2 k q) = a4_5 V c (ix2 k q) := by
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 128 + 1 * k.val = k.val; rw [(idx4_whole t).2.2.1]; omega
  | ⟨1, _⟩ => show win4_5.index t (1 : Fin 2) * 128 + 1 * q.val = q.val; rw [(idx4_whole t).2.2.2.1]; omega

theorem iblk4_6_apply (c : Dev nD) (t : Fin cfg4.N) (k : Fin 128) (q : Fin 128) :
    (iblk4 V c 6 t : S128x128.Idx → EReal) (ix2 k q) = a4_6 V c (ix2 k q) := by
  unfold iblk4
  rw [View.read_apply]
  show V c (Pipeline.arrRef spec4 6) _ = V c (Pipeline.arrRef spec4 6) _
  congr 1
  funext a
  apply Fin.ext
  match a with
  | ⟨0, _⟩ => show win4_6.index t (0 : Fin 2) * 128 + 1 * k.val = k.val; rw [(idx4_whole t).2.2.2.2.1]; omega
  | ⟨1, _⟩ => show win4_6.index t (1 : Fin 2) * 128 + 1 * q.val = q.val; rw [(idx4_whole t).2.2.2.2.2.1]; omega

theorem iblk4_7_apply (c : Dev nD) (t : Fin cfg4.N) (k : Fin 128) (q : Fin 128) :
    (iblk4 V c 7 t : S128x128.Idx → EReal) (ix2 k q) = a4_7 V c (ix2 k q) := by
  unfold iblk4
  rw [View.read_apply]
  show V c (Pipeline.arrRef spec4 7) _ = V c (Pipeline.arrRef spec4 7) _
  congr 1
  funext a
  apply Fin.ext
  match a with
  | ⟨0, _⟩ => show win4_7.index t (0 : Fin 2) * 128 + 1 * k.val = k.val; rw [(idx4_whole t).2.2.2.2.2.2.1]; omega
  | ⟨1, _⟩ => show win4_7.index t (1 : Fin 2) * 128 + 1 * q.val = q.val; rw [(idx4_whole t).2.2.2.2.2.2.2.1]; omega

theorem iblk4_8_apply (c : Dev nD) (t : Fin cfg4.N) (q : Fin 128) :
    (iblk4 V c 8 t : S1x128.Idx → EReal) (ix2 0 q) = a4_8 V c (ix2 0 q) := by
  unfold iblk4
  rw [View.read_apply]
  show V c (Pipeline.arrRef spec4 8) _ = V c (Pipeline.arrRef spec4 8) _
  congr 1
  funext a
  apply Fin.ext
  match a with
  | ⟨0, _⟩ => show win4_8.index t (0 : Fin 2) * 1 + 1 * 0 = 0; rw [(idx4_whole t).2.2.2.2.2.2.2.2.1]
  | ⟨1, _⟩ => show win4_8.index t (1 : Fin 2) * 128 + 1 * q.val = q.val; rw [(idx4_whole t).2.2.2.2.2.2.2.2.2]; omega

/-! ## The block of `y` at a point is its rows of the whole array -/

theorem yStep4_apply (c : Dev nD) (t : Fin cfg4.N) (p : Fin 2000) (q : Fin 128) :
    (yStep4 V c t : S2000x128.Idx → EReal) (ix2 p q) = yat4 V c (rowAt4 t p) q := by
  unfold yStep4 yrows4
  refine (pay1_4_apply (iblk4 V c 0 t) (iblk4 V c 1 t) (iblk4 V c 2 t) (iblk4 V c 3 t) (iblk4 V c 4 t) (iblk4 V c 5 t)
    (iblk4 V c 6 t) (iblk4 V c 7 t) (iblk4 V c 8 t) p q).trans ?_
  unfold yat4
  exact congrArg₂ (· + ·) (congrArg₂ (· + ·) (congrArg₂ (· + ·) (congrArg₂ (· + ·) (iblk4_8_apply V c t q)
    (Finset.sum_congr rfl fun k _ => congrArg₂ (· * ·) (iblk4_0_apply V c t p k) (iblk4_4_apply V c t k q)))
    (Finset.sum_congr rfl fun k _ => congrArg₂ (· * ·) (iblk4_1_apply V c t p k) (iblk4_5_apply V c t k q)))
    (Finset.sum_congr rfl fun k _ => congrArg₂ (· * ·) (iblk4_2_apply V c t p k) (iblk4_6_apply V c t k q)))
    (Finset.sum_congr rfl fun k _ => congrArg₂ (· * ·) (iblk4_3_apply V c t p k) (iblk4_7_apply V c t k q))

/-! ## The array `y` after the region -/

/-- What point `t` writes back of `y` is block `t` of the whole-array function. -/
theorem flushed4_9_eq (c : Dev nD) (t : Fin cfg4.N) :
    (dat4 V c).flushed 9 t = ((cfg4.win 9).blk t).view.read (Elt Ideal) (yval4 V c) := by
  show (cfg4.win 9).cut (grid4.coords t) ((dat4 V c).after 9 t) = _
  rw [after4_9]
  funext j
  obtain ⟨p, q, rfl⟩ : ∃ (p : Fin 2000) (q : Fin 128), j = ix2 p q := ⟨j 0, j 1, eq_ix2 j⟩
  show (yStep4 V c t : S2000x128.Idx → EReal) (ix2 p q) = yval4 V c (((cfg4.win 9).blk t).view.emb (ix2 p q))
  rw [yStep4_apply]
  unfold yval4
  congr 1
  · apply Fin.ext
    show 2000 * t.val + p.val = win4_9.index t (0 : Fin 2) * 2000 + 1 * p.val
    rw [(idx4_rows t).2.2.2.2.2.2.2.2.1]; omega
  · apply Fin.ext
    show q.val = win4_9.index t (1 : Fin 2) * 128 + 1 * q.val
    rw [(idx4_rows t).2.2.2.2.2.2.2.2.2]; omega

/-- An index of `y` is in point `t`'s block iff each coordinate is in the block's range on its axis. -/
theorem mem_blk4_9 (t : Fin cfg4.N) (i : S100000x128.Idx) :
    i ∈ ((cfg4.win 9).blk t).view.set ↔ ∀ a : Fin 2, win4_9.index t a * S2000x128.size a ≤ (i a).val ∧ (i a).val < win4_9.index t a * S2000x128.size a + S2000x128.size a := by
  show i ∈ ((View.whole (Pipeline.arrRef spec4 9)).slice (win4_9.rect t)).set ↔ _
  rw [View.set_slice_whole, Rect.mem_set_unit]
  exact Iff.rfl

/-- THE ARRAY `y` after the region: every row is in the block of the point with its number / 2000. -/
theorem arrAt4_9_ideal (c : Dev nD) : (dat4 V c).arrAt 9 cfg4.N = yval4 V c :=
  (dat4 V c).arrAt_eq_of_cover 9 (yval4 V c) (fun t _ => flushed4_9_eq V c t) fun i => by
    have hi0 : (i 0).val < 100000 := (i 0).isLt
    have hi1 : (i 1).val < 128 := (i 1).isLt
    refine ⟨⟨(i 0).val / 2000, by rw [show cfg4.N = 50 from N_4]; omega⟩, flush4_9 _, ?_⟩
    rw [mem_blk4_9]
    intro a
    have e0 := (idx4_rows ⟨(i 0).val / 2000, by rw [show cfg4.N = 50 from N_4]; omega⟩).2.2.2.2.2.2.2.2.1
    have e1 := (idx4_rows ⟨(i 0).val / 2000, by rw [show cfg4.N = 50 from N_4]; omega⟩).2.2.2.2.2.2.2.2.2
    match a with
    | ⟨0, _⟩ =>
      show win4_9.index _ (0 : Fin 2) * 2000 ≤ (i 0).val ∧ (i 0).val < win4_9.index _ (0 : Fin 2) * 2000 + 2000
      rw [e0]; dsimp only; omega
    | ⟨1, _⟩ =>
      show win4_9.index _ (1 : Fin 2) * 128 ≤ (i 1).val ∧ (i 1).val < win4_9.index _ (1 : Fin 2) * 128 + 128
      rw [e1]; omega

/-! ## The running rows -/

/-- The column sums of the block of \`y\` at point \`t\`. -/
def csT4 (c : Dev nD) (t : Fin cfg4.N) (q : Fin 128) : EReal := ∑ r : Fin 2000, yat4 V c (rowAt4 t r) q

/-- The same at a position, zero past the grid. -/
def cs4 (c : Dev nD) (n : ℕ) (q : Fin 128) : EReal := if h : n < cfg4.N then csT4 V c ⟨n, h⟩ q else 0

theorem cs4_of_lt (c : Dev nD) (q : Fin 128) (n : ℕ) (h : n < cfg4.N) : cs4 V c n q = csT4 V c ⟨n, h⟩ q := dif_pos h

/-- One step adds the block's column sums of \`y\` to what the running row held. -/
theorem sumStep4_apply (c : Dev nD) (t : Fin cfg4.N) (acc : S1x1x128.Idx → EReal) (q : Fin 128) :
    (sumStep4 V c t acc : S1x1x128.Idx → EReal) (ix3 0 0 q) = acc (ix3 0 0 q) + csT4 V c t q := by
  unfold sumStep4 colsum4
  refine (pay2_4_apply (iblk4 V c 0 t) (iblk4 V c 1 t) (iblk4 V c 2 t) (iblk4 V c 3 t) (iblk4 V c 4 t) (iblk4 V c 5 t) (iblk4 V c 6 t) (iblk4 V c 7 t) (iblk4 V c 8 t) acc q).trans ?_
  unfold csT4
  exact congrArg₂ (· + ·) rfl (Finset.sum_congr rfl fun r _ => yStep4_apply V c t r q)

/-- After the body at position `n` the running row holds the column sums of \`y\` of the sweep's blocks up to `n`. -/
theorem sumAt4_apply (c : Dev nD) (q : Fin 128) : ∀ (n : ℕ) (hn : n < cfg4.N),
    (sumAt4 V c n hn : S1x1x128.Idx → EReal) (ix3 0 0 q) = ∑ s ∈ Finset.range (n % 25 + 1), cs4 V c (25 * (n / 25) + s) q
  | 0, hn => by
    refine (congrFun (sumAt4_reset V c ⟨0, hn⟩ rfl) (ix3 0 0 q)).trans ?_
    refine (sumStep4_apply V c ⟨0, hn⟩ _ q).trans ?_
    rw [pay4_4_apply, zero_add]
    show csT4 V c ⟨0, hn⟩ q = ∑ s ∈ Finset.range 1, cs4 V c (25 * 0 + s) q
    rw [Finset.sum_range_one]
    exact (cs4_of_lt V c q 0 hn).symm
  | n + 1, hn => by
    have hN : n + 1 < 50 := lt_of_lt_of_eq hn (show cfg4.N = 50 from N_4)
    by_cases h0 : (n + 1) % 25 = 0
    · refine (congrFun (sumAt4_reset V c ⟨n + 1, hn⟩ h0) (ix3 0 0 q)).trans ?_
      refine (sumStep4_apply V c ⟨n + 1, hn⟩ _ q).trans ?_
      rw [pay4_4_apply, zero_add, h0, show 25 * ((n + 1) / 25) = n + 1 by omega]
      show _ = ∑ s ∈ Finset.range 1, cs4 V c (n + 1 + s) q
      rw [Finset.sum_range_one]
      exact (cs4_of_lt V c q (n + 1) hn).symm
    · refine (congrFun (sumAt4_acc V c ⟨n + 1, hn⟩ h0) (ix3 0 0 q)).trans ?_
      refine (sumStep4_apply V c ⟨n + 1, hn⟩ _ q).trans ?_
      refine (congrArg₂ (· + ·) (sumAt4_apply c q n (Nat.lt_of_succ_lt hn)) rfl).trans ?_
      rw [show (n + 1) % 25 + 1 = (n % 25 + 1) + 1 by omega, show (n + 1) / 25 = n / 25 by omega,
        Finset.sum_range_succ _ (n % 25 + 1), show 25 * (n / 25) + (n % 25 + 1) = n + 1 by omega]
      exact congrArg₂ (· + ·) rfl (cs4_of_lt V c q (n + 1) hn).symm

/-- Per sweep of the second grid axis, the column sums of \`y\` over the sweep's 25 blocks of 2000 rows. -/
def sumval4 (c : Dev nD) : S2x1x128.Idx → EReal := fun i =>
  ∑ t : Fin 25, ∑ r : Fin 2000, yval4 V c (ix2 (row4 (i 0) t r) (i 2))

/-- What the last point of a sweep writes back is that sweep's row of the whole-array function. -/
theorem flushed4_10_eq (c : Dev nD) (t : Fin cfg4.N) (hf : (cfg4.win 10).flush t = true) :
    (dat4 V c).flushed 10 t = ((cfg4.win 10).blk t).view.read (Elt Ideal) (sumval4 V c) := by
  have hN : t.val < 50 := lt_of_lt_of_eq t.isLt (show cfg4.N = 50 from N_4)
  have h24 : t.val % 25 = 24 := (flush4_10 t).mp hf
  show (cfg4.win 10).cut (grid4.coords t) ((dat4 V c).after 10 t) = _
  rw [after4_10]
  funext j
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show (sumAt4 V c t.val t.isLt : S1x1x128.Idx → EReal) (ix3 0 0 q) = sumval4 V c (((cfg4.win 10).blk t).view.emb (ix3 0 0 q))
  have e0 : ((((cfg4.win 10).blk t).view.emb (ix3 0 0 q)) 0).val = t.val / 25 := by
    show win4_10.index t (0 : Fin 3) * 1 + 1 * 0 = t.val / 25
    rw [(idx4_acc t).1]; omega
  have e2 : ((((cfg4.win 10).blk t).view.emb (ix3 0 0 q)) 2).val = q.val := by
    show win4_10.index t (2 : Fin 3) * 128 + 1 * q.val = q.val
    rw [(idx4_acc t).2.2.1]; omega
  rw [sumAt4_apply V c q t.val t.isLt, h24]
  unfold sumval4
  rw [Finset.sum_range]
  refine Finset.sum_congr rfl fun u _ => ?_
  have hu : 25 * (t.val / 25) + u.val < cfg4.N :=
    lt_of_lt_of_eq (by have := u.isLt; omega : 25 * (t.val / 25) + u.val < 50) (show cfg4.N = 50 from N_4).symm
  rw [cs4_of_lt V c q _ hu]
  unfold csT4 yval4
  refine Finset.sum_congr rfl fun r _ => ?_
  have hrow : rowAt4 ⟨25 * (t.val / 25) + u.val, hu⟩ r = row4 ((((cfg4.win 10).blk t).view.emb (ix3 0 0 q)) 0) u r := by
    apply Fin.ext
    show 2000 * (25 * (t.val / 25) + u.val) + r.val = 2000 * (25 * ((((cfg4.win 10).blk t).view.emb (ix3 0 0 q)) 0).val + u.val) + r.val
    rw [e0]
  have hcol : q = (((cfg4.win 10).blk t).view.emb (ix3 0 0 q)) 2 := Fin.ext e2.symm
  exact congrArg₂ (yat4 V c) hrow hcol

/-- An index of the running rows' array is in point `t`'s block iff each coordinate is in the block's range. -/
theorem mem_blk4_10 (t : Fin cfg4.N) (i : S2x1x128.Idx) :
    i ∈ ((cfg4.win 10).blk t).view.set ↔ ∀ a : Fin 3, win4_10.index t a * S1x1x128.size a ≤ (i a).val ∧ (i a).val < win4_10.index t a * S1x1x128.size a + S1x1x128.size a := by
  show i ∈ ((View.whole (Pipeline.arrRef spec4 10)).slice (win4_10.rect t)).set ↔ _
  rw [View.set_slice_whole, Rect.mem_set_unit]
  exact Iff.rfl

/-- THE ARRAY of column sums of \`y\` after the region: sweep `s`'s row is written by that sweep's last point. -/
theorem arrAt4_10_ideal (c : Dev nD) : (dat4 V c).arrAt 10 cfg4.N = sumval4 V c :=
  (dat4 V c).arrAt_eq_of_cover 10 (sumval4 V c) (flushed4_10_eq V c) fun i => by
    have hi0 : (i 0).val < 2 := (i 0).isLt
    have hi1 : (i 1).val < 1 := (i 1).isLt
    have hi2 : (i 2).val < 128 := (i 2).isLt
    have hlt : 25 * (i 0).val + 24 < cfg4.N :=
      lt_of_lt_of_eq (by omega : 25 * (i 0).val + 24 < 50) (show cfg4.N = 50 from N_4).symm
    refine ⟨⟨25 * (i 0).val + 24, hlt⟩, (flush4_10 _).mpr (by dsimp only; omega), ?_⟩
    rw [mem_blk4_10]
    intro a
    have f0 := (idx4_acc ⟨25 * (i 0).val + 24, hlt⟩).1
    have f1 := (idx4_acc ⟨25 * (i 0).val + 24, hlt⟩).2.1
    have f2 := (idx4_acc ⟨25 * (i 0).val + 24, hlt⟩).2.2.1
    match a with
    | ⟨0, _⟩ =>
      show win4_10.index _ (0 : Fin 3) * 1 ≤ (i 0).val ∧ (i 0).val < win4_10.index _ (0 : Fin 3) * 1 + 1
      rw [f0]; dsimp only; omega
    | ⟨1, _⟩ =>
      show win4_10.index _ (1 : Fin 3) * 1 ≤ (i 1).val ∧ (i 1).val < win4_10.index _ (1 : Fin 3) * 1 + 1
      rw [f1]; omega
    | ⟨2, _⟩ =>
      show win4_10.index _ (2 : Fin 3) * 128 ≤ (i 2).val ∧ (i 2).val < win4_10.index _ (2 : Fin 3) * 128 + 128
      rw [f2]; omega

/-- The column sums of the squares of the block of \`y\` at point \`t\`. -/
def cqT4 (c : Dev nD) (t : Fin cfg4.N) (q : Fin 128) : EReal := ∑ r : Fin 2000, yat4 V c (rowAt4 t r) q * yat4 V c (rowAt4 t r) q

/-- The same at a position, zero past the grid. -/
def cq4 (c : Dev nD) (n : ℕ) (q : Fin 128) : EReal := if h : n < cfg4.N then cqT4 V c ⟨n, h⟩ q else 0

theorem cq4_of_lt (c : Dev nD) (q : Fin 128) (n : ℕ) (h : n < cfg4.N) : cq4 V c n q = cqT4 V c ⟨n, h⟩ q := dif_pos h

/-- One step adds the block's column sums of \`y·y\` to what the running row held. -/
theorem sqStep4_apply (c : Dev nD) (t : Fin cfg4.N) (acc : S1x1x128.Idx → EReal) (q : Fin 128) :
    (sqStep4 V c t acc : S1x1x128.Idx → EReal) (ix3 0 0 q) = acc (ix3 0 0 q) + cqT4 V c t q := by
  unfold sqStep4 colsq4
  refine (pay3_4_apply (iblk4 V c 0 t) (iblk4 V c 1 t) (iblk4 V c 2 t) (iblk4 V c 3 t) (iblk4 V c 4 t) (iblk4 V c 5 t) (iblk4 V c 6 t) (iblk4 V c 7 t) (iblk4 V c 8 t) acc q).trans ?_
  unfold cqT4
  exact congrArg₂ (· + ·) rfl (Finset.sum_congr rfl fun r _ => congrArg₂ (· * ·) (yStep4_apply V c t r q) (yStep4_apply V c t r q))

/-- After the body at position `n` the running row holds the column sums of \`y·y\` of the sweep's blocks up to `n`. -/
theorem sqAt4_apply (c : Dev nD) (q : Fin 128) : ∀ (n : ℕ) (hn : n < cfg4.N),
    (sqAt4 V c n hn : S1x1x128.Idx → EReal) (ix3 0 0 q) = ∑ s ∈ Finset.range (n % 25 + 1), cq4 V c (25 * (n / 25) + s) q
  | 0, hn => by
    refine (congrFun (sqAt4_reset V c ⟨0, hn⟩ rfl) (ix3 0 0 q)).trans ?_
    refine (sqStep4_apply V c ⟨0, hn⟩ _ q).trans ?_
    rw [pay5_4_apply, zero_add]
    show cqT4 V c ⟨0, hn⟩ q = ∑ s ∈ Finset.range 1, cq4 V c (25 * 0 + s) q
    rw [Finset.sum_range_one]
    exact (cq4_of_lt V c q 0 hn).symm
  | n + 1, hn => by
    have hN : n + 1 < 50 := lt_of_lt_of_eq hn (show cfg4.N = 50 from N_4)
    by_cases h0 : (n + 1) % 25 = 0
    · refine (congrFun (sqAt4_reset V c ⟨n + 1, hn⟩ h0) (ix3 0 0 q)).trans ?_
      refine (sqStep4_apply V c ⟨n + 1, hn⟩ _ q).trans ?_
      rw [pay5_4_apply, zero_add, h0, show 25 * ((n + 1) / 25) = n + 1 by omega]
      show _ = ∑ s ∈ Finset.range 1, cq4 V c (n + 1 + s) q
      rw [Finset.sum_range_one]
      exact (cq4_of_lt V c q (n + 1) hn).symm
    · refine (congrFun (sqAt4_acc V c ⟨n + 1, hn⟩ h0) (ix3 0 0 q)).trans ?_
      refine (sqStep4_apply V c ⟨n + 1, hn⟩ _ q).trans ?_
      refine (congrArg₂ (· + ·) (sqAt4_apply c q n (Nat.lt_of_succ_lt hn)) rfl).trans ?_
      rw [show (n + 1) % 25 + 1 = (n % 25 + 1) + 1 by omega, show (n + 1) / 25 = n / 25 by omega,
        Finset.sum_range_succ _ (n % 25 + 1), show 25 * (n / 25) + (n % 25 + 1) = n + 1 by omega]
      exact congrArg₂ (· + ·) rfl (cq4_of_lt V c q (n + 1) hn).symm

/-- Per sweep, the column sums of \`y·y\` over the sweep's 25 blocks of 2000 rows. -/
def sqval4 (c : Dev nD) : S2x1x128.Idx → EReal := fun i =>
  ∑ t : Fin 25, ∑ r : Fin 2000, yval4 V c (ix2 (row4 (i 0) t r) (i 2)) * yval4 V c (ix2 (row4 (i 0) t r) (i 2))

/-- What the last point of a sweep writes back is that sweep's row of the whole-array function. -/
theorem flushed4_11_eq (c : Dev nD) (t : Fin cfg4.N) (hf : (cfg4.win 11).flush t = true) :
    (dat4 V c).flushed 11 t = ((cfg4.win 11).blk t).view.read (Elt Ideal) (sqval4 V c) := by
  have hN : t.val < 50 := lt_of_lt_of_eq t.isLt (show cfg4.N = 50 from N_4)
  have h24 : t.val % 25 = 24 := (flush4_11 t).mp hf
  show (cfg4.win 11).cut (grid4.coords t) ((dat4 V c).after 11 t) = _
  rw [after4_11]
  funext j
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show (sqAt4 V c t.val t.isLt : S1x1x128.Idx → EReal) (ix3 0 0 q) = sqval4 V c (((cfg4.win 11).blk t).view.emb (ix3 0 0 q))
  have e0 : ((((cfg4.win 11).blk t).view.emb (ix3 0 0 q)) 0).val = t.val / 25 := by
    show win4_11.index t (0 : Fin 3) * 1 + 1 * 0 = t.val / 25
    rw [(idx4_acc t).2.2.2.1]; omega
  have e2 : ((((cfg4.win 11).blk t).view.emb (ix3 0 0 q)) 2).val = q.val := by
    show win4_11.index t (2 : Fin 3) * 128 + 1 * q.val = q.val
    rw [(idx4_acc t).2.2.2.2.2]; omega
  rw [sqAt4_apply V c q t.val t.isLt, h24]
  unfold sqval4
  rw [Finset.sum_range]
  refine Finset.sum_congr rfl fun u _ => ?_
  have hu : 25 * (t.val / 25) + u.val < cfg4.N :=
    lt_of_lt_of_eq (by have := u.isLt; omega : 25 * (t.val / 25) + u.val < 50) (show cfg4.N = 50 from N_4).symm
  rw [cq4_of_lt V c q _ hu]
  unfold cqT4 yval4
  refine Finset.sum_congr rfl fun r _ => ?_
  have hrow : rowAt4 ⟨25 * (t.val / 25) + u.val, hu⟩ r = row4 ((((cfg4.win 11).blk t).view.emb (ix3 0 0 q)) 0) u r := by
    apply Fin.ext
    show 2000 * (25 * (t.val / 25) + u.val) + r.val = 2000 * (25 * ((((cfg4.win 11).blk t).view.emb (ix3 0 0 q)) 0).val + u.val) + r.val
    rw [e0]
  have hcol : q = (((cfg4.win 11).blk t).view.emb (ix3 0 0 q)) 2 := Fin.ext e2.symm
  exact congrArg₂ (· * ·) (congrArg₂ (yat4 V c) hrow hcol) (congrArg₂ (yat4 V c) hrow hcol)

/-- An index of the running rows' array is in point `t`'s block iff each coordinate is in the block's range. -/
theorem mem_blk4_11 (t : Fin cfg4.N) (i : S2x1x128.Idx) :
    i ∈ ((cfg4.win 11).blk t).view.set ↔ ∀ a : Fin 3, win4_11.index t a * S1x1x128.size a ≤ (i a).val ∧ (i a).val < win4_11.index t a * S1x1x128.size a + S1x1x128.size a := by
  show i ∈ ((View.whole (Pipeline.arrRef spec4 11)).slice (win4_11.rect t)).set ↔ _
  rw [View.set_slice_whole, Rect.mem_set_unit]
  exact Iff.rfl

/-- THE ARRAY of column sums of \`y·y\` after the region: sweep `s`'s row is written by that sweep's last point. -/
theorem arrAt4_11_ideal (c : Dev nD) : (dat4 V c).arrAt 11 cfg4.N = sqval4 V c :=
  (dat4 V c).arrAt_eq_of_cover 11 (sqval4 V c) (flushed4_11_eq V c) fun i => by
    have hi0 : (i 0).val < 2 := (i 0).isLt
    have hi1 : (i 1).val < 1 := (i 1).isLt
    have hi2 : (i 2).val < 128 := (i 2).isLt
    have hlt : 25 * (i 0).val + 24 < cfg4.N :=
      lt_of_lt_of_eq (by omega : 25 * (i 0).val + 24 < 50) (show cfg4.N = 50 from N_4).symm
    refine ⟨⟨25 * (i 0).val + 24, hlt⟩, (flush4_11 _).mpr (by dsimp only; omega), ?_⟩
    rw [mem_blk4_11]
    intro a
    have f0 := (idx4_acc ⟨25 * (i 0).val + 24, hlt⟩).2.2.2.1
    have f1 := (idx4_acc ⟨25 * (i 0).val + 24, hlt⟩).2.2.2.2.1
    have f2 := (idx4_acc ⟨25 * (i 0).val + 24, hlt⟩).2.2.2.2.2
    match a with
    | ⟨0, _⟩ =>
      show win4_11.index _ (0 : Fin 3) * 1 ≤ (i 0).val ∧ (i 0).val < win4_11.index _ (0 : Fin 3) * 1 + 1
      rw [f0]; dsimp only; omega
    | ⟨1, _⟩ =>
      show win4_11.index _ (1 : Fin 3) * 1 ≤ (i 1).val ∧ (i 1).val < win4_11.index _ (1 : Fin 3) * 1 + 1
      rw [f1]; omega
    | ⟨2, _⟩ =>
      show win4_11.index _ (2 : Fin 3) * 128 ≤ (i 2).val ∧ (i 2).val < win4_11.index _ (2 : Fin 3) * 128 + 128
      rw [f2]; omega

end Cert.KernelIdeal.Hand

end
-- ==== Proof.KI.V12.lean ====
/- Region 12 of the kernel program, read at the extended reals: what its three result arrays hold after the region
   as whole-array functions of the arrays it is entered with. `y = b + x0·w0 + x1·w1 + x2·w2 + x3·w3` row by row
   (each product a sum over the 128 inner positions), and for each sweep of the second grid axis the column sums of
   `y` and of `y·y` over that sweep's 25 blocks of 2000 rows. -/
import proofs.«424088_j28020366639260_2_alg».proof.Proof.KI.R12
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat)

/-! ## The block product at an index -/

/-- On the product's left operand the row is the result's row, -/
theorem dot12_lhs_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- its column the contraction position; -/
theorem dot12_lhs_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

/-- on the right operand the row is the contraction position, -/
theorem dot12_rhs_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

/-- its column the result's column. -/
theorem dot12_rhs_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block of 2000 rows times a 128×128 matrix, into a zero accumulator, at row `p` and column `q`: the sum over
    the 128 inner positions of the products. -/
theorem matmul12_apply {φ₁ φ₂ : FTy} (x : FVec Ideal S2000x128 φ₁) (w : FVec Ideal S128x128 φ₂) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  show FloatOps.matmul dot_S2000x128_S128x128_S2000x128_1_0_0_1_n_n none x w (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  congr 2
  · funext a
    apply Fin.ext
    match a with
    | ⟨0, _⟩ => exact dot12_lhs_0 _ _
    | ⟨1, _⟩ => exact (dot12_lhs_1 _ _).trans hk
  · funext a
    apply Fin.ext
    match a with
    | ⟨0, _⟩ => exact (dot12_rhs_0 _ _).trans hk
    | ⟨1, _⟩ => exact dot12_rhs_1 _ _

/-! ## The body's arithmetic at an index, over the extended reals -/

/-- The bias row laid under every row of the block. -/
theorem bias12_apply (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 (0 : Fin 1) q) (by
    intro a
    match a with
    | ⟨0, _⟩ => rfl
    | ⟨1, _⟩ => rfl)

/-- The block of `y` at row `p`, column `q`: the bias plus the four inner products, added in the body's order. -/
theorem pay1_12_apply (x0 x1 x2 x3 : Vec Ideal S2000x128 .f32) (w0 w1 w2 w3 : Vec Ideal S128x128 .f32) (b : Vec Ideal S1x128 .f32)
    (p : Fin 2000) (q : Fin 128) :
    k12_pay1 (k12_pay6 b x0 w0 x1 w1 x2 w2) (k12_pay7 x3) w3 (ix2 p q)
      = (((b (ix2 0 q) + ∑ k : Fin 128, x0 (ix2 p k) * w0 (ix2 k q)) + ∑ k : Fin 128, x1 (ix2 p k) * w1 (ix2 k q))
          + ∑ k : Fin 128, x2 (ix2 p k) * w2 (ix2 k q)) + ∑ k : Fin 128, x3 (ix2 p k) * w3 (ix2 k q) := by
  unfold k12_pay1 k12_pay6 k12_pay7
  simp only [shapeCast_self]
  exact congrArg₂ (· + ·) (congrArg₂ (· + ·) (congrArg₂ (· + ·) (congrArg₂ (· + ·) (bias12_apply b p q)
    (matmul12_apply _ _ p q)) (matmul12_apply _ _ p q)) (matmul12_apply _ _ p q)) (matmul12_apply _ _ p q)

/-- Column `q` with row `r` put back is (r, q). -/
theorem lift12 (q : Fin 128) (r : Fin (S2000x128.size 0)) :
    reduces_S2000x128_S128.lift (ix1 q) r = ix2 (⟨r.val, r.isLt⟩ : Fin 2000) q := by
  funext c; apply Fin.ext
  fin_cases c <;> rfl

/-- The column sums of a block, as the row of shape [1,1,128] the body adds to a running row. -/
theorem colred12_apply (y : FVec Ideal S2000x128 .f32) (hacc : (0x00000000#32 : BitVec 32) = 0x00000000#32) (q : Fin 128) :
    shapeCast S1x1x128 (shapeCast S1x128 (multiReduction .add [0] S128 y 0x00000000#32 reduces_S2000x128_S128 (.inl rfl) hacc)
        shapeCasts_S128_S1x128) shapeCasts_S1x128_S1x1x128 (ix3 0 0 q)
      = ∑ r : Fin 2000, y (ix2 r q) := by
  refine (shapeCast_apply _ shapeCasts_S1x128_S1x1x128 (ix3 0 0 q) (ix2 0 q)
    (by rw [Shape.rowMajor_val_two, Shape.rowMajor_val_three]; show 0 * 128 + q.val = (0 * 1 + 0) * 128 + q.val; omega)).trans ?_
  refine (shapeCast_apply _ shapeCasts_S128_S1x128 (ix2 0 q) (ix1 q)
    (by rw [Shape.rowMajor_val_one, Shape.rowMajor_val_two]; show q.val = 0 * 128 + q.val; omega)).trans ?_
  refine (Ideal.multiReduction_add_single y 0x00000000#32 reduces_S2000x128_S128 (.inl rfl) hacc (ix1 q)).trans ?_
  exact Finset.sum_congr rfl fun r _ => congrArg y (lift12 q r)

/-- The running row of column sums after a block: what it held plus the block's column sums. -/
theorem pay2_12_apply (x0 x1 x2 x3 : Vec Ideal S2000x128 .f32) (w0 w1 w2 w3 : Vec Ideal S128x128 .f32) (b : Vec Ideal S1x128 .f32)
    (acc : Vec Ideal S1x1x128 .f32) (q : Fin 128) :
    k12_pay2 (k12_pay6 b x0 w0 x1 w1 x2 w2) (k12_pay7 x3) w3 acc (ix3 0 0 q)
      = acc (ix3 0 0 q) + ∑ r : Fin 2000, k12_pay1 (k12_pay6 b x0 w0 x1 w1 x2 w2) (k12_pay7 x3) w3 (ix2 r q) := by
  unfold k12_pay2
  simp only [shapeCast_self]
  exact congrArg₂ (· + ·) rfl (colred12_apply _ rfl q)

/-- The running row of column sums of squares after a block. -/
theorem pay3_12_apply (x0 x1 x2 x3 : Vec Ideal S2000x128 .f32) (w0 w1 w2 w3 : Vec Ideal S128x128 .f32) (b : Vec Ideal S1x128 .f32)
    (acc : Vec Ideal S1x1x128 .f32) (q : Fin 128) :
    k12_pay3 (k12_pay6 b x0 w0 x1 w1 x2 w2) (k12_pay7 x3) w3 acc (ix3 0 0 q)
      = acc (ix3 0 0 q) + ∑ r : Fin 2000, k12_pay1 (k12_pay6 b x0 w0 x1 w1 x2 w2) (k12_pay7 x3) w3 (ix2 r q)
          * k12_pay1 (k12_pay6 b x0 w0 x1 w1 x2 w2) (k12_pay7 x3) w3 (ix2 r q) := by
  unfold k12_pay3
  simp only [shapeCast_self]
  exact congrArg₂ (· + ·) rfl (colred12_apply _ rfl q)

/-- The rows the running rows start from are zero. -/
theorem pay4_12_apply (j : S1x1x128.Idx) : (k12_pay4 (F := Ideal)) j = 0 := by
  unfold k12_pay4
  exact Ideal.ofBits_zero_f32

theorem pay5_12_apply (j : S1x1x128.Idx) : (k12_pay5 (F := Ideal)) j = 0 := by
  unfold k12_pay5
  exact Ideal.ofBits_zero_f32

variable (V : (c : Dev nD) → (b : Ref sig .tc) → Buf (Elt Ideal) ((c : Thread nD τ).loc b))

/-! ## The arrays the region reads, and `y` as one function of them -/

abbrev a12_0 (c : Dev nD) : S100000x128.Idx → EReal := V c (Pipeline.arrRef spec12 0)
abbrev a12_1 (c : Dev nD) : S100000x128.Idx → EReal := V c (Pipeline.arrRef spec12 1)
abbrev a12_2 (c : Dev nD) : S100000x128.Idx → EReal := V c (Pipeline.arrRef spec12 2)
abbrev a12_3 (c : Dev nD) : S100000x128.Idx → EReal := V c (Pipeline.arrRef spec12 3)
abbrev a12_4 (c : Dev nD) : S128x128.Idx → EReal := V c (Pipeline.arrRef spec12 4)
abbrev a12_5 (c : Dev nD) : S128x128.Idx → EReal := V c (Pipeline.arrRef spec12 5)
abbrev a12_6 (c : Dev nD) : S128x128.Idx → EReal := V c (Pipeline.arrRef spec12 6)
abbrev a12_7 (c : Dev nD) : S128x128.Idx → EReal := V c (Pipeline.arrRef spec12 7)
abbrev a12_8 (c : Dev nD) : S1x128.Idx → EReal := V c (Pipeline.arrRef spec12 8)

/-- `y` at row `r`, column `q`: the bias plus the four inner products over the 128 inner positions, in the
    body's order of addition. -/
def yat12 (c : Dev nD) (r : Fin 100000) (q : Fin 128) : EReal :=
  (((a12_8 V c (ix2 0 q) + ∑ k : Fin 128, a12_0 V c (ix2 r k) * a12_4 V c (ix2 k q))
      + ∑ k : Fin 128, a12_1 V c (ix2 r k) * a12_5 V c (ix2 k q))
    + ∑ k : Fin 128, a12_2 V c (ix2 r k) * a12_6 V c (ix2 k q))
  + ∑ k : Fin 128, a12_3 V c (ix2 r k) * a12_7 V c (ix2 k q)

/-- The whole array `y`. -/
def yval12 (c : Dev nD) : S100000x128.Idx → EReal := fun i => yat12 V c (i 0) (i 1)

/-- Row `r` of block `t` of sweep `s`, as a row of the whole array. -/
def row12 (s : Fin 2) (t : Fin 25) (r : Fin 2000) : Fin 100000 := ⟨2000 * (25 * s.val + t.val) + r.val, by omega⟩

/-- Row `p` of the block of grid point `t`, as a row of the whole array. -/
def rowAt12 (t : Fin cfg12.N) (p : Fin 2000) : Fin 100000 :=
  ⟨2000 * t.val + p.val, by have := lt_of_lt_of_eq t.isLt (show cfg12.N = 50 from N_12); omega⟩

/-! ## Where the windows' blocks lie -/

/-- The row-block windows (the four `x` and `y`) are at block `t` of the rows at point `t`; -/
theorem idx12_rows : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_9.index t (0 : Fin 2) = t.val ∧ win12_9.index t (1 : Fin 2) = 0 :=
  (by decide +kernel : ∀ t : Fin grid12.N, _)

/-- the weights' and the bias's windows are the whole arrays; -/
theorem idx12_whole : ∀ t : Fin cfg12.N, win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = 0 ∧ win12_7.index t (1 : Fin 2) = 0
    ∧ win12_8.index t (0 : Fin 2) = 0 ∧ win12_8.index t (1 : Fin 2) = 0 :=
  (by decide +kernel : ∀ t : Fin grid12.N, _)

/-- the running rows' windows are at the sweep's row. -/
theorem idx12_acc : ∀ t : Fin cfg12.N, win12_10.index t (0 : Fin 3) = t.val / 25 ∧ win12_10.index t (1 : Fin 3) = 0 ∧ win12_10.index t (2 : Fin 3) = 0
    ∧ win12_11.index t (0 : Fin 3) = t.val / 25 ∧ win12_11.index t (1 : Fin 3) = 0 ∧ win12_11.index t (2 : Fin 3) = 0 :=
  (by decide +kernel : ∀ t : Fin grid12.N, _)

/-! ## The input blocks read off the arrays -/

theorem iblk12_0_apply (c : Dev nD) (t : Fin cfg12.N) (p : Fin 2000) (k : Fin 128) :
    (iblk12 V c 0 t : S2000x128.Idx → EReal) (ix2 p k) = a12_0 V c (ix2 (rowAt12 t p) k) := by
  unfold iblk12
  rw [View.read_apply]
  show V c (Pipeline.arrRef spec12 0) _ = V c (Pipeline.arrRef spec12 0) _
  congr 1
  funext a
  apply Fin.ext
  match a with
  | ⟨0, _⟩ => show win12_0.index t (0 : Fin 2) * 2000 + 1 * p.val = 2000 * t.val + p.val; rw [(idx12_rows t).1]; omega
  | ⟨1, _⟩ => show win12_0.index t (1 : Fin 2) * 128 + 1 * k.val = k.val; rw [(idx12_rows t).2.1]; omega

theorem iblk12_1_apply (c : Dev nD) (t : Fin cfg12.N) (p : Fin 2000) (k : Fin 128) :
    (iblk12 V c 1 t : S2000x128.Idx → EReal) (ix2 p k) = a12_1 V c (ix2 (rowAt12 t p) k) := by
  unfold iblk12
  rw [View.read_apply]
  show V c (Pipeline.arrRef spec12 1) _ = V c (Pipeline.arrRef spec12 1) _
  congr 1
  funext a
  apply Fin.ext
  match a with
  | ⟨0, _⟩ => show win12_1.index t (0 : Fin 2) * 2000 + 1 * p.val = 2000 * t.val + p.val; rw [(idx12_rows t).2.2.1]; omega
  | ⟨1, _⟩ => show win12_1.index t (1 : Fin 2) * 128 + 1 * k.val = k.val; rw [(idx12_rows t).2.2.2.1]; omega

theorem iblk12_2_apply (c : Dev nD) (t : Fin cfg12.N) (p : Fin 2000) (k : Fin 128) :
    (iblk12 V c 2 t : S2000x128.Idx → EReal) (ix2 p k) = a12_2 V c (ix2 (rowAt12 t p) k) := by
  unfold iblk12
  rw [View.read_apply]
  show V c (Pipeline.arrRef spec12 2) _ = V c (Pipeline.arrRef spec12 2) _
  congr 1
  funext a
  apply Fin.ext
  match a with
  | ⟨0, _⟩ => show win12_2.index t (0 : Fin 2) * 2000 + 1 * p.val = 2000 * t.val + p.val; rw [(idx12_rows t).2.2.2.2.1]; omega
  | ⟨1, _⟩ => show win12_2.index t (1 : Fin 2) * 128 + 1 * k.val = k.val; rw [(idx12_rows t).2.2.2.2.2.1]; omega

theorem iblk12_3_apply (c : Dev nD) (t : Fin cfg12.N) (p : Fin 2000) (k : Fin 128) :
    (iblk12 V c 3 t : S2000x128.Idx → EReal) (ix2 p k) = a12_3 V c (ix2 (rowAt12 t p) k) := by
  unfold iblk12
  rw [View.read_apply]
  show V c (Pipeline.arrRef spec12 3) _ = V c (Pipeline.arrRef spec12 3) _
  congr 1
  funext a
  apply Fin.ext
  match a with
  | ⟨0, _⟩ => show win12_3.index t (0 : Fin 2) * 2000 + 1 * p.val = 2000 * t.val + p.val; rw [(idx12_rows t).2.2.2.2.2.2.1]; omega
  | ⟨1, _⟩ => show win12_3.index t (1 : Fin 2) * 128 + 1 * k.val = k.val; rw [(idx12_rows t).2.2.2.2.2.2.2.1]; omega

theorem iblk12_4_apply (c : Dev nD) (t : Fin cfg12.N) (k : Fin 128) (q : Fin 128) :
    (iblk12 V c 4 t : S128x128.Idx → EReal) (ix2 k q) = a12_4 V c (ix2 k q) := by
  unfold iblk12
  rw [View.read_apply]
  show V c (Pipeline.arrRef spec12 4) _ = V c (Pipeline.arrRef spec12 4) _
  congr 1
  funext a
  apply Fin.ext
  match a with
  | ⟨0, _⟩ => show win12_4.index t (0 : Fin 2) * 128 + 1 * k.val = k.val; rw [(idx12_whole t).1]; omega
  | ⟨1, _⟩ => show win12_4.index t (1 : Fin 2) * 128 + 1 * q.val = q.val; rw [(idx12_whole t).2.1]; omega

theorem iblk12_5_apply (c : Dev nD) (t : Fin cfg12.N) (k : Fin 128) (q : Fin 128) :
    (iblk12 V c 5 t : S128x128.Idx → EReal) (ix2 k q) = a12_5 V c (ix2 k q) := by
  unfold iblk12
  rw [View.read_apply]
  show V c (Pipeline.arrRef spec12 5) _ = V c (Pipeline.arrRef spec12 5) _
  congr 1
  funext a
  apply Fin.ext
  match a with
  | ⟨0, _⟩ => show win12_5.index t (0 : Fin 2) * 128 + 1 * k.val = k.val; rw [(idx12_whole t).2.2.1]; omega
  | ⟨1, _⟩ => show win12_5.index t (1 : Fin 2) * 128 + 1 * q.val = q.val; rw [(idx12_whole t).2.2.2.1]; omega

theorem iblk12_6_apply (c : Dev nD) (t : Fin cfg12.N) (k : Fin 128) (q : Fin 128) :
    (iblk12 V c 6 t : S128x128.Idx → EReal) (ix2 k q) = a12_6 V c (ix2 k q) := by
  unfold iblk12
  rw [View.read_apply]
  show V c (Pipeline.arrRef spec12 6) _ = V c (Pipeline.arrRef spec12 6) _
  congr 1
  funext a
  apply Fin.ext
  match a with
  | ⟨0, _⟩ => show win12_6.index t (0 : Fin 2) * 128 + 1 * k.val = k.val; rw [(idx12_whole t).2.2.2.2.1]; omega
  | ⟨1, _⟩ => show win12_6.index t (1 : Fin 2) * 128 + 1 * q.val = q.val; rw [(idx12_whole t).2.2.2.2.2.1]; omega

theorem iblk12_7_apply (c : Dev nD) (t : Fin cfg12.N) (k : Fin 128) (q : Fin 128) :
    (iblk12 V c 7 t : S128x128.Idx → EReal) (ix2 k q) = a12_7 V c (ix2 k q) := by
  unfold iblk12
  rw [View.read_apply]
  show V c (Pipeline.arrRef spec12 7) _ = V c (Pipeline.arrRef spec12 7) _
  congr 1
  funext a
  apply Fin.ext
  match a with
  | ⟨0, _⟩ => show win12_7.index t (0 : Fin 2) * 128 + 1 * k.val = k.val; rw [(idx12_whole t).2.2.2.2.2.2.1]; omega
  | ⟨1, _⟩ => show win12_7.index t (1 : Fin 2) * 128 + 1 * q.val = q.val; rw [(idx12_whole t).2.2.2.2.2.2.2.1]; omega

theorem iblk12_8_apply (c : Dev nD) (t : Fin cfg12.N) (q : Fin 128) :
    (iblk12 V c 8 t : S1x128.Idx → EReal) (ix2 0 q) = a12_8 V c (ix2 0 q) := by
  unfold iblk12
  rw [View.read_apply]
  show V c (Pipeline.arrRef spec12 8) _ = V c (Pipeline.arrRef spec12 8) _
  congr 1
  funext a
  apply Fin.ext
  match a with
  | ⟨0, _⟩ => show win12_8.index t (0 : Fin 2) * 1 + 1 * 0 = 0; rw [(idx12_whole t).2.2.2.2.2.2.2.2.1]
  | ⟨1, _⟩ => show win12_8.index t (1 : Fin 2) * 128 + 1 * q.val = q.val; rw [(idx12_whole t).2.2.2.2.2.2.2.2.2]; omega

/-! ## The block of `y` at a point is its rows of the whole array -/

theorem yStep12_apply (c : Dev nD) (t : Fin cfg12.N) (p : Fin 2000) (q : Fin 128) :
    (yStep12 V c t : S2000x128.Idx → EReal) (ix2 p q) = yat12 V c (rowAt12 t p) q := by
  unfold yStep12 yrows12
  refine (pay1_12_apply (iblk12 V c 0 t) (iblk12 V c 1 t) (iblk12 V c 2 t) (iblk12 V c 3 t) (iblk12 V c 4 t) (iblk12 V c 5 t)
    (iblk12 V c 6 t) (iblk12 V c 7 t) (iblk12 V c 8 t) p q).trans ?_
  unfold yat12
  exact congrArg₂ (· + ·) (congrArg₂ (· + ·) (congrArg₂ (· + ·) (congrArg₂ (· + ·) (iblk12_8_apply V c t q)
    (Finset.sum_congr rfl fun k _ => congrArg₂ (· * ·) (iblk12_0_apply V c t p k) (iblk12_4_apply V c t k q)))
    (Finset.sum_congr rfl fun k _ => congrArg₂ (· * ·) (iblk12_1_apply V c t p k) (iblk12_5_apply V c t k q)))
    (Finset.sum_congr rfl fun k _ => congrArg₂ (· * ·) (iblk12_2_apply V c t p k) (iblk12_6_apply V c t k q)))
    (Finset.sum_congr rfl fun k _ => congrArg₂ (· * ·) (iblk12_3_apply V c t p k) (iblk12_7_apply V c t k q))

/-! ## The array `y` after the region -/

/-- What point `t` writes back of `y` is block `t` of the whole-array function. -/
theorem flushed12_9_eq (c : Dev nD) (t : Fin cfg12.N) :
    (dat12 V c).flushed 9 t = ((cfg12.win 9).blk t).view.read (Elt Ideal) (yval12 V c) := by
  show (cfg12.win 9).cut (grid12.coords t) ((dat12 V c).after 9 t) = _
  rw [after12_9]
  funext j
  obtain ⟨p, q, rfl⟩ : ∃ (p : Fin 2000) (q : Fin 128), j = ix2 p q := ⟨j 0, j 1, eq_ix2 j⟩
  show (yStep12 V c t : S2000x128.Idx → EReal) (ix2 p q) = yval12 V c (((cfg12.win 9).blk t).view.emb (ix2 p q))
  rw [yStep12_apply]
  unfold yval12
  congr 1
  · apply Fin.ext
    show 2000 * t.val + p.val = win12_9.index t (0 : Fin 2) * 2000 + 1 * p.val
    rw [(idx12_rows t).2.2.2.2.2.2.2.2.1]; omega
  · apply Fin.ext
    show q.val = win12_9.index t (1 : Fin 2) * 128 + 1 * q.val
    rw [(idx12_rows t).2.2.2.2.2.2.2.2.2]; omega

/-- An index of `y` is in point `t`'s block iff each coordinate is in the block's range on its axis. -/
theorem mem_blk12_9 (t : Fin cfg12.N) (i : S100000x128.Idx) :
    i ∈ ((cfg12.win 9).blk t).view.set ↔ ∀ a : Fin 2, win12_9.index t a * S2000x128.size a ≤ (i a).val ∧ (i a).val < win12_9.index t a * S2000x128.size a + S2000x128.size a := by
  show i ∈ ((View.whole (Pipeline.arrRef spec12 9)).slice (win12_9.rect t)).set ↔ _
  rw [View.set_slice_whole, Rect.mem_set_unit]
  exact Iff.rfl

/-- THE ARRAY `y` after the region: every row is in the block of the point with its number / 2000. -/
theorem arrAt12_9_ideal (c : Dev nD) : (dat12 V c).arrAt 9 cfg12.N = yval12 V c :=
  (dat12 V c).arrAt_eq_of_cover 9 (yval12 V c) (fun t _ => flushed12_9_eq V c t) fun i => by
    have hi0 : (i 0).val < 100000 := (i 0).isLt
    have hi1 : (i 1).val < 128 := (i 1).isLt
    refine ⟨⟨(i 0).val / 2000, by rw [show cfg12.N = 50 from N_12]; omega⟩, flush12_9 _, ?_⟩
    rw [mem_blk12_9]
    intro a
    have e0 := (idx12_rows ⟨(i 0).val / 2000, by rw [show cfg12.N = 50 from N_12]; omega⟩).2.2.2.2.2.2.2.2.1
    have e1 := (idx12_rows ⟨(i 0).val / 2000, by rw [show cfg12.N = 50 from N_12]; omega⟩).2.2.2.2.2.2.2.2.2
    match a with
    | ⟨0, _⟩ =>
      show win12_9.index _ (0 : Fin 2) * 2000 ≤ (i 0).val ∧ (i 0).val < win12_9.index _ (0 : Fin 2) * 2000 + 2000
      rw [e0]; dsimp only; omega
    | ⟨1, _⟩ =>
      show win12_9.index _ (1 : Fin 2) * 128 ≤ (i 1).val ∧ (i 1).val < win12_9.index _ (1 : Fin 2) * 128 + 128
      rw [e1]; omega

/-! ## The running rows -/

/-- The column sums of the block of \`y\` at point \`t\`. -/
def csT12 (c : Dev nD) (t : Fin cfg12.N) (q : Fin 128) : EReal := ∑ r : Fin 2000, yat12 V c (rowAt12 t r) q

/-- The same at a position, zero past the grid. -/
def cs12 (c : Dev nD) (n : ℕ) (q : Fin 128) : EReal := if h : n < cfg12.N then csT12 V c ⟨n, h⟩ q else 0

theorem cs12_of_lt (c : Dev nD) (q : Fin 128) (n : ℕ) (h : n < cfg12.N) : cs12 V c n q = csT12 V c ⟨n, h⟩ q := dif_pos h

/-- One step adds the block's column sums of \`y\` to what the running row held. -/
theorem sumStep12_apply (c : Dev nD) (t : Fin cfg12.N) (acc : S1x1x128.Idx → EReal) (q : Fin 128) :
    (sumStep12 V c t acc : S1x1x128.Idx → EReal) (ix3 0 0 q) = acc (ix3 0 0 q) + csT12 V c t q := by
  unfold sumStep12 colsum12
  refine (pay2_12_apply (iblk12 V c 0 t) (iblk12 V c 1 t) (iblk12 V c 2 t) (iblk12 V c 3 t) (iblk12 V c 4 t) (iblk12 V c 5 t) (iblk12 V c 6 t) (iblk12 V c 7 t) (iblk12 V c 8 t) acc q).trans ?_
  unfold csT12
  exact congrArg₂ (· + ·) rfl (Finset.sum_congr rfl fun r _ => yStep12_apply V c t r q)

/-- After the body at position `n` the running row holds the column sums of \`y\` of the sweep's blocks up to `n`. -/
theorem sumAt12_apply (c : Dev nD) (q : Fin 128) : ∀ (n : ℕ) (hn : n < cfg12.N),
    (sumAt12 V c n hn : S1x1x128.Idx → EReal) (ix3 0 0 q) = ∑ s ∈ Finset.range (n % 25 + 1), cs12 V c (25 * (n / 25) + s) q
  | 0, hn => by
    refine (congrFun (sumAt12_reset V c ⟨0, hn⟩ rfl) (ix3 0 0 q)).trans ?_
    refine (sumStep12_apply V c ⟨0, hn⟩ _ q).trans ?_
    rw [pay4_12_apply, zero_add]
    show csT12 V c ⟨0, hn⟩ q = ∑ s ∈ Finset.range 1, cs12 V c (25 * 0 + s) q
    rw [Finset.sum_range_one]
    exact (cs12_of_lt V c q 0 hn).symm
  | n + 1, hn => by
    have hN : n + 1 < 50 := lt_of_lt_of_eq hn (show cfg12.N = 50 from N_12)
    by_cases h0 : (n + 1) % 25 = 0
    · refine (congrFun (sumAt12_reset V c ⟨n + 1, hn⟩ h0) (ix3 0 0 q)).trans ?_
      refine (sumStep12_apply V c ⟨n + 1, hn⟩ _ q).trans ?_
      rw [pay4_12_apply, zero_add, h0, show 25 * ((n + 1) / 25) = n + 1 by omega]
      show _ = ∑ s ∈ Finset.range 1, cs12 V c (n + 1 + s) q
      rw [Finset.sum_range_one]
      exact (cs12_of_lt V c q (n + 1) hn).symm
    · refine (congrFun (sumAt12_acc V c ⟨n + 1, hn⟩ h0) (ix3 0 0 q)).trans ?_
      refine (sumStep12_apply V c ⟨n + 1, hn⟩ _ q).trans ?_
      refine (congrArg₂ (· + ·) (sumAt12_apply c q n (Nat.lt_of_succ_lt hn)) rfl).trans ?_
      rw [show (n + 1) % 25 + 1 = (n % 25 + 1) + 1 by omega, show (n + 1) / 25 = n / 25 by omega,
        Finset.sum_range_succ _ (n % 25 + 1), show 25 * (n / 25) + (n % 25 + 1) = n + 1 by omega]
      exact congrArg₂ (· + ·) rfl (cs12_of_lt V c q (n + 1) hn).symm

/-- Per sweep of the second grid axis, the column sums of \`y\` over the sweep's 25 blocks of 2000 rows. -/
def sumval12 (c : Dev nD) : S2x1x128.Idx → EReal := fun i =>
  ∑ t : Fin 25, ∑ r : Fin 2000, yval12 V c (ix2 (row12 (i 0) t r) (i 2))

/-- What the last point of a sweep writes back is that sweep's row of the whole-array function. -/
theorem flushed12_10_eq (c : Dev nD) (t : Fin cfg12.N) (hf : (cfg12.win 10).flush t = true) :
    (dat12 V c).flushed 10 t = ((cfg12.win 10).blk t).view.read (Elt Ideal) (sumval12 V c) := by
  have hN : t.val < 50 := lt_of_lt_of_eq t.isLt (show cfg12.N = 50 from N_12)
  have h24 : t.val % 25 = 24 := (flush12_10 t).mp hf
  show (cfg12.win 10).cut (grid12.coords t) ((dat12 V c).after 10 t) = _
  rw [after12_10]
  funext j
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show (sumAt12 V c t.val t.isLt : S1x1x128.Idx → EReal) (ix3 0 0 q) = sumval12 V c (((cfg12.win 10).blk t).view.emb (ix3 0 0 q))
  have e0 : ((((cfg12.win 10).blk t).view.emb (ix3 0 0 q)) 0).val = t.val / 25 := by
    show win12_10.index t (0 : Fin 3) * 1 + 1 * 0 = t.val / 25
    rw [(idx12_acc t).1]; omega
  have e2 : ((((cfg12.win 10).blk t).view.emb (ix3 0 0 q)) 2).val = q.val := by
    show win12_10.index t (2 : Fin 3) * 128 + 1 * q.val = q.val
    rw [(idx12_acc t).2.2.1]; omega
  rw [sumAt12_apply V c q t.val t.isLt, h24]
  unfold sumval12
  rw [Finset.sum_range]
  refine Finset.sum_congr rfl fun u _ => ?_
  have hu : 25 * (t.val / 25) + u.val < cfg12.N :=
    lt_of_lt_of_eq (by have := u.isLt; omega : 25 * (t.val / 25) + u.val < 50) (show cfg12.N = 50 from N_12).symm
  rw [cs12_of_lt V c q _ hu]
  unfold csT12 yval12
  refine Finset.sum_congr rfl fun r _ => ?_
  have hrow : rowAt12 ⟨25 * (t.val / 25) + u.val, hu⟩ r = row12 ((((cfg12.win 10).blk t).view.emb (ix3 0 0 q)) 0) u r := by
    apply Fin.ext
    show 2000 * (25 * (t.val / 25) + u.val) + r.val = 2000 * (25 * ((((cfg12.win 10).blk t).view.emb (ix3 0 0 q)) 0).val + u.val) + r.val
    rw [e0]
  have hcol : q = (((cfg12.win 10).blk t).view.emb (ix3 0 0 q)) 2 := Fin.ext e2.symm
  exact congrArg₂ (yat12 V c) hrow hcol

/-- An index of the running rows' array is in point `t`'s block iff each coordinate is in the block's range. -/
theorem mem_blk12_10 (t : Fin cfg12.N) (i : S2x1x128.Idx) :
    i ∈ ((cfg12.win 10).blk t).view.set ↔ ∀ a : Fin 3, win12_10.index t a * S1x1x128.size a ≤ (i a).val ∧ (i a).val < win12_10.index t a * S1x1x128.size a + S1x1x128.size a := by
  show i ∈ ((View.whole (Pipeline.arrRef spec12 10)).slice (win12_10.rect t)).set ↔ _
  rw [View.set_slice_whole, Rect.mem_set_unit]
  exact Iff.rfl

/-- THE ARRAY of column sums of \`y\` after the region: sweep `s`'s row is written by that sweep's last point. -/
theorem arrAt12_10_ideal (c : Dev nD) : (dat12 V c).arrAt 10 cfg12.N = sumval12 V c :=
  (dat12 V c).arrAt_eq_of_cover 10 (sumval12 V c) (flushed12_10_eq V c) fun i => by
    have hi0 : (i 0).val < 2 := (i 0).isLt
    have hi1 : (i 1).val < 1 := (i 1).isLt
    have hi2 : (i 2).val < 128 := (i 2).isLt
    have hlt : 25 * (i 0).val + 24 < cfg12.N :=
      lt_of_lt_of_eq (by omega : 25 * (i 0).val + 24 < 50) (show cfg12.N = 50 from N_12).symm
    refine ⟨⟨25 * (i 0).val + 24, hlt⟩, (flush12_10 _).mpr (by dsimp only; omega), ?_⟩
    rw [mem_blk12_10]
    intro a
    have f0 := (idx12_acc ⟨25 * (i 0).val + 24, hlt⟩).1
    have f1 := (idx12_acc ⟨25 * (i 0).val + 24, hlt⟩).2.1
    have f2 := (idx12_acc ⟨25 * (i 0).val + 24, hlt⟩).2.2.1
    match a with
    | ⟨0, _⟩ =>
      show win12_10.index _ (0 : Fin 3) * 1 ≤ (i 0).val ∧ (i 0).val < win12_10.index _ (0 : Fin 3) * 1 + 1
      rw [f0]; dsimp only; omega
    | ⟨1, _⟩ =>
      show win12_10.index _ (1 : Fin 3) * 1 ≤ (i 1).val ∧ (i 1).val < win12_10.index _ (1 : Fin 3) * 1 + 1
      rw [f1]; omega
    | ⟨2, _⟩ =>
      show win12_10.index _ (2 : Fin 3) * 128 ≤ (i 2).val ∧ (i 2).val < win12_10.index _ (2 : Fin 3) * 128 + 128
      rw [f2]; omega

/-- The column sums of the squares of the block of \`y\` at point \`t\`. -/
def cqT12 (c : Dev nD) (t : Fin cfg12.N) (q : Fin 128) : EReal := ∑ r : Fin 2000, yat12 V c (rowAt12 t r) q * yat12 V c (rowAt12 t r) q

/-- The same at a position, zero past the grid. -/
def cq12 (c : Dev nD) (n : ℕ) (q : Fin 128) : EReal := if h : n < cfg12.N then cqT12 V c ⟨n, h⟩ q else 0

theorem cq12_of_lt (c : Dev nD) (q : Fin 128) (n : ℕ) (h : n < cfg12.N) : cq12 V c n q = cqT12 V c ⟨n, h⟩ q := dif_pos h

/-- One step adds the block's column sums of \`y·y\` to what the running row held. -/
theorem sqStep12_apply (c : Dev nD) (t : Fin cfg12.N) (acc : S1x1x128.Idx → EReal) (q : Fin 128) :
    (sqStep12 V c t acc : S1x1x128.Idx → EReal) (ix3 0 0 q) = acc (ix3 0 0 q) + cqT12 V c t q := by
  unfold sqStep12 colsq12
  refine (pay3_12_apply (iblk12 V c 0 t) (iblk12 V c 1 t) (iblk12 V c 2 t) (iblk12 V c 3 t) (iblk12 V c 4 t) (iblk12 V c 5 t) (iblk12 V c 6 t) (iblk12 V c 7 t) (iblk12 V c 8 t) acc q).trans ?_
  unfold cqT12
  exact congrArg₂ (· + ·) rfl (Finset.sum_congr rfl fun r _ => congrArg₂ (· * ·) (yStep12_apply V c t r q) (yStep12_apply V c t r q))

/-- After the body at position `n` the running row holds the column sums of \`y·y\` of the sweep's blocks up to `n`. -/
theorem sqAt12_apply (c : Dev nD) (q : Fin 128) : ∀ (n : ℕ) (hn : n < cfg12.N),
    (sqAt12 V c n hn : S1x1x128.Idx → EReal) (ix3 0 0 q) = ∑ s ∈ Finset.range (n % 25 + 1), cq12 V c (25 * (n / 25) + s) q
  | 0, hn => by
    refine (congrFun (sqAt12_reset V c ⟨0, hn⟩ rfl) (ix3 0 0 q)).trans ?_
    refine (sqStep12_apply V c ⟨0, hn⟩ _ q).trans ?_
    rw [pay5_12_apply, zero_add]
    show cqT12 V c ⟨0, hn⟩ q = ∑ s ∈ Finset.range 1, cq12 V c (25 * 0 + s) q
    rw [Finset.sum_range_one]
    exact (cq12_of_lt V c q 0 hn).symm
  | n + 1, hn => by
    have hN : n + 1 < 50 := lt_of_lt_of_eq hn (show cfg12.N = 50 from N_12)
    by_cases h0 : (n + 1) % 25 = 0
    · refine (congrFun (sqAt12_reset V c ⟨n + 1, hn⟩ h0) (ix3 0 0 q)).trans ?_
      refine (sqStep12_apply V c ⟨n + 1, hn⟩ _ q).trans ?_
      rw [pay5_12_apply, zero_add, h0, show 25 * ((n + 1) / 25) = n + 1 by omega]
      show _ = ∑ s ∈ Finset.range 1, cq12 V c (n + 1 + s) q
      rw [Finset.sum_range_one]
      exact (cq12_of_lt V c q (n + 1) hn).symm
    · refine (congrFun (sqAt12_acc V c ⟨n + 1, hn⟩ h0) (ix3 0 0 q)).trans ?_
      refine (sqStep12_apply V c ⟨n + 1, hn⟩ _ q).trans ?_
      refine (congrArg₂ (· + ·) (sqAt12_apply c q n (Nat.lt_of_succ_lt hn)) rfl).trans ?_
      rw [show (n + 1) % 25 + 1 = (n % 25 + 1) + 1 by omega, show (n + 1) / 25 = n / 25 by omega,
        Finset.sum_range_succ _ (n % 25 + 1), show 25 * (n / 25) + (n % 25 + 1) = n + 1 by omega]
      exact congrArg₂ (· + ·) rfl (cq12_of_lt V c q (n + 1) hn).symm

/-- Per sweep, the column sums of \`y·y\` over the sweep's 25 blocks of 2000 rows. -/
def sqval12 (c : Dev nD) : S2x1x128.Idx → EReal := fun i =>
  ∑ t : Fin 25, ∑ r : Fin 2000, yval12 V c (ix2 (row12 (i 0) t r) (i 2)) * yval12 V c (ix2 (row12 (i 0) t r) (i 2))

/-- What the last point of a sweep writes back is that sweep's row of the whole-array function. -/
theorem flushed12_11_eq (c : Dev nD) (t : Fin cfg12.N) (hf : (cfg12.win 11).flush t = true) :
    (dat12 V c).flushed 11 t = ((cfg12.win 11).blk t).view.read (Elt Ideal) (sqval12 V c) := by
  have hN : t.val < 50 := lt_of_lt_of_eq t.isLt (show cfg12.N = 50 from N_12)
  have h24 : t.val % 25 = 24 := (flush12_11 t).mp hf
  show (cfg12.win 11).cut (grid12.coords t) ((dat12 V c).after 11 t) = _
  rw [after12_11]
  funext j
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show (sqAt12 V c t.val t.isLt : S1x1x128.Idx → EReal) (ix3 0 0 q) = sqval12 V c (((cfg12.win 11).blk t).view.emb (ix3 0 0 q))
  have e0 : ((((cfg12.win 11).blk t).view.emb (ix3 0 0 q)) 0).val = t.val / 25 := by
    show win12_11.index t (0 : Fin 3) * 1 + 1 * 0 = t.val / 25
    rw [(idx12_acc t).2.2.2.1]; omega
  have e2 : ((((cfg12.win 11).blk t).view.emb (ix3 0 0 q)) 2).val = q.val := by
    show win12_11.index t (2 : Fin 3) * 128 + 1 * q.val = q.val
    rw [(idx12_acc t).2.2.2.2.2]; omega
  rw [sqAt12_apply V c q t.val t.isLt, h24]
  unfold sqval12
  rw [Finset.sum_range]
  refine Finset.sum_congr rfl fun u _ => ?_
  have hu : 25 * (t.val / 25) + u.val < cfg12.N :=
    lt_of_lt_of_eq (by have := u.isLt; omega : 25 * (t.val / 25) + u.val < 50) (show cfg12.N = 50 from N_12).symm
  rw [cq12_of_lt V c q _ hu]
  unfold cqT12 yval12
  refine Finset.sum_congr rfl fun r _ => ?_
  have hrow : rowAt12 ⟨25 * (t.val / 25) + u.val, hu⟩ r = row12 ((((cfg12.win 11).blk t).view.emb (ix3 0 0 q)) 0) u r := by
    apply Fin.ext
    show 2000 * (25 * (t.val / 25) + u.val) + r.val = 2000 * (25 * ((((cfg12.win 11).blk t).view.emb (ix3 0 0 q)) 0).val + u.val) + r.val
    rw [e0]
  have hcol : q = (((cfg12.win 11).blk t).view.emb (ix3 0 0 q)) 2 := Fin.ext e2.symm
  exact congrArg₂ (· * ·) (congrArg₂ (yat12 V c) hrow hcol) (congrArg₂ (yat12 V c) hrow hcol)

/-- An index of the running rows' array is in point `t`'s block iff each coordinate is in the block's range. -/
theorem mem_blk12_11 (t : Fin cfg12.N) (i : S2x1x128.Idx) :
    i ∈ ((cfg12.win 11).blk t).view.set ↔ ∀ a : Fin 3, win12_11.index t a * S1x1x128.size a ≤ (i a).val ∧ (i a).val < win12_11.index t a * S1x1x128.size a + S1x1x128.size a := by
  show i ∈ ((View.whole (Pipeline.arrRef spec12 11)).slice (win12_11.rect t)).set ↔ _
  rw [View.set_slice_whole, Rect.mem_set_unit]
  exact Iff.rfl

/-- THE ARRAY of column sums of \`y·y\` after the region: sweep `s`'s row is written by that sweep's last point. -/
theorem arrAt12_11_ideal (c : Dev nD) : (dat12 V c).arrAt 11 cfg12.N = sqval12 V c :=
  (dat12 V c).arrAt_eq_of_cover 11 (sqval12 V c) (flushed12_11_eq V c) fun i => by
    have hi0 : (i 0).val < 2 := (i 0).isLt
    have hi1 : (i 1).val < 1 := (i 1).isLt
    have hi2 : (i 2).val < 128 := (i 2).isLt
    have hlt : 25 * (i 0).val + 24 < cfg12.N :=
      lt_of_lt_of_eq (by omega : 25 * (i 0).val + 24 < 50) (show cfg12.N = 50 from N_12).symm
    refine ⟨⟨25 * (i 0).val + 24, hlt⟩, (flush12_11 _).mpr (by dsimp only; omega), ?_⟩
    rw [mem_blk12_11]
    intro a
    have f0 := (idx12_acc ⟨25 * (i 0).val + 24, hlt⟩).2.2.2.1
    have f1 := (idx12_acc ⟨25 * (i 0).val + 24, hlt⟩).2.2.2.2.1
    have f2 := (idx12_acc ⟨25 * (i 0).val + 24, hlt⟩).2.2.2.2.2
    match a with
    | ⟨0, _⟩ =>
      show win12_11.index _ (0 : Fin 3) * 1 ≤ (i 0).val ∧ (i 0).val < win12_11.index _ (0 : Fin 3) * 1 + 1
      rw [f0]; dsimp only; omega
    | ⟨1, _⟩ =>
      show win12_11.index _ (1 : Fin 3) * 1 ≤ (i 1).val ∧ (i 1).val < win12_11.index _ (1 : Fin 3) * 1 + 1
      rw [f1]; omega
    | ⟨2, _⟩ =>
      show win12_11.index _ (2 : Fin 3) * 128 ≤ (i 2).val ∧ (i 2).val < win12_11.index _ (2 : Fin 3) * 128 + 128
      rw [f2]; omega

end Cert.KernelIdeal.Hand

end
-- ==== Proof.Val.PatientKOps.lean ====
/- The host's preparation of a graph layer's weights for the patient branch, read buffer by buffer: the last 27
   operations of the host stretch before the layer's first patient region. -/
import proofs.«424088_j28020366639260_2_alg».proof.Proof.Gen.KernelIdeal.Launch
import Idealize.ShloMosaic.Lib.Pipeline.Frame

set_option maxRecDepth 16384

noncomputable section

namespace Cert.Val

open Cert.KernelIdeal Cert.KernelIdeal.Gen
open Idealize.ShloMosaic Idealize.ShloMosaic.TcCoe

variable {F : FTy → Type} [FloatOps F]

/-! ## The host stretch before region 4: its last 27 operations cut the layer's weights out of the stacked arrays -/

/-- The last 27 operations of the stretch: the three self-weights sliced out and added, the three biases sliced out and
    added, the three neighbour weights sliced out and transposed, the summed self-weight transposed, the summed bias
    as a one-row matrix. -/
abbrev tail4 : List (HloOp τ sig (Elt F)) :=
  ( StableHlo.unary main_arg14 main_v176 ((extractStridedSlice S1x1x128x128 ![0, 1, 0, 0] · slices_S2x6x128x128_S1x1x128x128_0_1_0_0) : (⟨S2x6x128x128, .f32⟩ : BufTy).Contents (Elt F) → (⟨S1x1x128x128, .f32⟩ : BufTy).Contents (Elt F))
  :: StableHlo.reshape main_v176 main_v177 rfl shapeCasts_S1x1x128x128_S128x128
  :: StableHlo.unary main_arg14 main_v178 ((extractStridedSlice S1x1x128x128 ![0, 3, 0, 0] · slices_S2x6x128x128_S1x1x128x128_0_3_0_0) : (⟨S2x6x128x128, .f32⟩ : BufTy).Contents (Elt F) → (⟨S1x1x128x128, .f32⟩ : BufTy).Contents (Elt F))
  :: StableHlo.reshape main_v178 main_v179 rfl shapeCasts_S1x1x128x128_S128x128
  :: StableHlo.binary main_v177 main_v179 main_v180 (addf : (⟨S128x128, .f32⟩ : BufTy).Contents (Elt F) → (⟨S128x128, .f32⟩ : BufTy).Contents (Elt F) → (⟨S128x128, .f32⟩ : BufTy).Contents (Elt F))
  :: StableHlo.unary main_arg14 main_v181 ((extractStridedSlice S1x1x128x128 ![0, 5, 0, 0] · slices_S2x6x128x128_S1x1x128x128_0_5_0_0) : (⟨S2x6x128x128, .f32⟩ : BufTy).Contents (Elt F) → (⟨S1x1x128x128, .f32⟩ : BufTy).Contents (Elt F))
  :: StableHlo.reshape main_v181 main_v182 rfl shapeCasts_S1x1x128x128_S128x128
  :: StableHlo.binary main_v180 main_v182 main_v183 (addf : (⟨S128x128, .f32⟩ : BufTy).Contents (Elt F) → (⟨S128x128, .f32⟩ : BufTy).Contents (Elt F) → (⟨S128x128, .f32⟩ : BufTy).Contents (Elt F))
  :: StableHlo.unary main_arg13 main_v184 ((extractStridedSlice S1x1x128 ![0, 1, 0] · slices_S2x6x128_S1x1x128_0_1_0) : (⟨S2x6x128, .f32⟩ : BufTy).Contents (Elt F) → (⟨S1x1x128, .f32⟩ : BufTy).Contents (Elt F))
  :: StableHlo.reshape main_v184 main_v185 rfl shapeCasts_S1x1x128_S128
  :: StableHlo.unary main_arg13 main_v186 ((extractStridedSlice S1x1x128 ![0, 3, 0] · slices_S2x6x128_S1x1x128_0_3_0) : (⟨S2x6x128, .f32⟩ : BufTy).Contents (Elt F) → (⟨S1x1x128, .f32⟩ : BufTy).Contents (Elt F))
  :: StableHlo.reshape main_v186 main_v187 rfl shapeCasts_S1x1x128_S128
  :: StableHlo.binary main_v185 main_v187 main_v188 (addf : (⟨S128, .f32⟩ : BufTy).Contents (Elt F) → (⟨S128, .f32⟩ : BufTy).Contents (Elt F) → (⟨S128, .f32⟩ : BufTy).Contents (Elt F))
  :: StableHlo.unary main_arg13 main_v189 ((extractStridedSlice S1x1x128 ![0, 5, 0] · slices_S2x6x128_S1x1x128_0_5_0) : (⟨S2x6x128, .f32⟩ : BufTy).Contents (Elt F) → (⟨S1x1x128, .f32⟩ : BufTy).Contents (Elt F))
  :: StableHlo.reshape main_v189 main_v190 rfl shapeCasts_S1x1x128_S128
  :: StableHlo.binary main_v188 main_v190 main_v191 (addf : (⟨S128, .f32⟩ : BufTy).Contents (Elt F) → (⟨S128, .f32⟩ : BufTy).Contents (Elt F) → (⟨S128, .f32⟩ : BufTy).Contents (Elt F))
  :: StableHlo.unary main_arg12 main_v192 ((extractStridedSlice S1x1x128x128 ![0, 1, 0, 0] · slices_S2x6x128x128_S1x1x128x128_0_1_0_0) : (⟨S2x6x128x128, .f32⟩ : BufTy).Contents (Elt F) → (⟨S1x1x128x128, .f32⟩ : BufTy).Contents (Elt F))
  :: StableHlo.reshape main_v192 main_v193 rfl shapeCasts_S1x1x128x128_S128x128
  :: StableHlo.unary main_v193 main_v194 ((transpose S128x128 [1, 0] · transposes_S128x128_S128x128_1_0) : (⟨S128x128, .f32⟩ : BufTy).Contents (Elt F) → (⟨S128x128, .f32⟩ : BufTy).Contents (Elt F))
  :: StableHlo.unary main_arg12 main_v195 ((extractStridedSlice S1x1x128x128 ![0, 3, 0, 0] · slices_S2x6x128x128_S1x1x128x128_0_3_0_0) : (⟨S2x6x128x128, .f32⟩ : BufTy).Contents (Elt F) → (⟨S1x1x128x128, .f32⟩ : BufTy).Contents (Elt F))
  :: StableHlo.reshape main_v195 main_v196 rfl shapeCasts_S1x1x128x128_S128x128
  :: StableHlo.unary main_v196 main_v197 ((transpose S128x128 [1, 0] · transposes_S128x128_S128x128_1_0) : (⟨S128x128, .f32⟩ : BufTy).Contents (Elt F) → (⟨S128x128, .f32⟩ : BufTy).Contents (Elt F))
  :: StableHlo.unary main_arg12 main_v198 ((extractStridedSlice S1x1x128x128 ![0, 5, 0, 0] · slices_S2x6x128x128_S1x1x128x128_0_5_0_0) : (⟨S2x6x128x128, .f32⟩ : BufTy).Contents (Elt F) → (⟨S1x1x128x128, .f32⟩ : BufTy).Contents (Elt F))
  :: StableHlo.reshape main_v198 main_v199 rfl shapeCasts_S1x1x128x128_S128x128
  :: StableHlo.unary main_v199 main_v200 ((transpose S128x128 [1, 0] · transposes_S128x128_S128x128_1_0) : (⟨S128x128, .f32⟩ : BufTy).Contents (Elt F) → (⟨S128x128, .f32⟩ : BufTy).Contents (Elt F))
  :: StableHlo.unary main_v183 main_v201 ((transpose S128x128 [1, 0] · transposes_S128x128_S128x128_1_0) : (⟨S128x128, .f32⟩ : BufTy).Contents (Elt F) → (⟨S128x128, .f32⟩ : BufTy).Contents (Elt F))
  :: StableHlo.reshape main_v191 main_v202 rfl shapeCasts_S128_S1x128
  :: [] )

/-- The stretch is its first 168 operations, then these. -/
theorem hostOps4_split : (hostOps4 : List (HloOp τ sig (Elt F))) = hostOps4.take 168 ++ tail4 :=
  (List.take_append_drop 168 hostOps4).symm

theorem after_hostOps4 (V : Valuation τ sig (Elt F)) :
    StableHlo.after hostOps4 V = StableHlo.after tail4 (StableHlo.after (hostOps4.take 168) V) :=
  (congrArg (fun l => StableHlo.after l V) hostOps4_split).trans (StableHlo.after_append _ _ V)

/-- The stacked arrays are not written by them. -/
theorem tail4_arg12 (V : Valuation τ sig (Elt F)) :
    StableHlo.after tail4 V (Proc.devRef .tc main_arg12) = V (Proc.devRef .tc main_arg12) := by
  after_results
theorem tail4_arg13 (V : Valuation τ sig (Elt F)) :
    StableHlo.after tail4 V (Proc.devRef .tc main_arg13) = V (Proc.devRef .tc main_arg13) := by
  after_results
theorem tail4_arg14 (V : Valuation τ sig (Elt F)) :
    StableHlo.after tail4 V (Proc.devRef .tc main_arg14) = V (Proc.devRef .tc main_arg14) := by
  after_results

/-- The neighbour weights: slice `(0, R)` of the stacked array as a matrix, transposed. -/
theorem tail4_w1 (V : Valuation τ sig (Elt F)) :
    StableHlo.after tail4 V (Proc.devRef .tc main_v194)
      = transpose S128x128 [1, 0] (shapeCast S128x128 (extractStridedSlice S1x1x128x128 ![0, 1, 0, 0]
          (V (Proc.devRef .tc main_arg12)) slices_S2x6x128x128_S1x1x128x128_0_1_0_0) shapeCasts_S1x1x128x128_S128x128)
          transposes_S128x128_S128x128_1_0 := by
  after_results; rfl
theorem tail4_w3 (V : Valuation τ sig (Elt F)) :
    StableHlo.after tail4 V (Proc.devRef .tc main_v197)
      = transpose S128x128 [1, 0] (shapeCast S128x128 (extractStridedSlice S1x1x128x128 ![0, 3, 0, 0]
          (V (Proc.devRef .tc main_arg12)) slices_S2x6x128x128_S1x1x128x128_0_3_0_0) shapeCasts_S1x1x128x128_S128x128)
          transposes_S128x128_S128x128_1_0 := by
  after_results; rfl
theorem tail4_w5 (V : Valuation τ sig (Elt F)) :
    StableHlo.after tail4 V (Proc.devRef .tc main_v200)
      = transpose S128x128 [1, 0] (shapeCast S128x128 (extractStridedSlice S1x1x128x128 ![0, 5, 0, 0]
          (V (Proc.devRef .tc main_arg12)) slices_S2x6x128x128_S1x1x128x128_0_5_0_0) shapeCasts_S1x1x128x128_S128x128)
          transposes_S128x128_S128x128_1_0 := by
  after_results; rfl

/-- The self-weight: the three slices added, left to right, then transposed. -/
theorem tail4_wr (V : Valuation τ sig (Elt F)) :
    StableHlo.after tail4 V (Proc.devRef .tc main_v201)
      = transpose S128x128 [1, 0]
          (addf (addf
            (shapeCast S128x128 (extractStridedSlice S1x1x128x128 ![0, 1, 0, 0] (V (Proc.devRef .tc main_arg14))
              slices_S2x6x128x128_S1x1x128x128_0_1_0_0) shapeCasts_S1x1x128x128_S128x128)
            (shapeCast S128x128 (extractStridedSlice S1x1x128x128 ![0, 3, 0, 0] (V (Proc.devRef .tc main_arg14))
              slices_S2x6x128x128_S1x1x128x128_0_3_0_0) shapeCasts_S1x1x128x128_S128x128))
            (shapeCast S128x128 (extractStridedSlice S1x1x128x128 ![0, 5, 0, 0] (V (Proc.devRef .tc main_arg14))
              slices_S2x6x128x128_S1x1x128x128_0_5_0_0) shapeCasts_S1x1x128x128_S128x128))
          transposes_S128x128_S128x128_1_0 := by
  after_results; rfl

/-- The bias: the three slices added, left to right, as a one-row matrix. -/
theorem tail4_b (V : Valuation τ sig (Elt F)) :
    StableHlo.after tail4 V (Proc.devRef .tc main_v202)
      = shapeCast S1x128
          (addf (addf
            (shapeCast S128 (extractStridedSlice S1x1x128 ![0, 1, 0] (V (Proc.devRef .tc main_arg13))
              slices_S2x6x128_S1x1x128_0_1_0) shapeCasts_S1x1x128_S128)
            (shapeCast S128 (extractStridedSlice S1x1x128 ![0, 3, 0] (V (Proc.devRef .tc main_arg13))
              slices_S2x6x128_S1x1x128_0_3_0) shapeCasts_S1x1x128_S128))
            (shapeCast S128 (extractStridedSlice S1x1x128 ![0, 5, 0] (V (Proc.devRef .tc main_arg13))
              slices_S2x6x128_S1x1x128_0_5_0) shapeCasts_S1x1x128_S128))
          shapeCasts_S128_S1x128 := by
  after_results; rfl

/-! ## The host stretch before region 12: its last 27 operations cut the layer's weights out of the stacked arrays -/

/-- The last 27 operations of the stretch: the three self-weights sliced out and added, the three biases sliced out and
    added, the three neighbour weights sliced out and transposed, the summed self-weight transposed, the summed bias
    as a one-row matrix. -/
abbrev tail12 : List (HloOp τ sig (Elt F)) :=
  ( StableHlo.unary main_arg14 main_v396 ((extractStridedSlice S1x1x128x128 ![1, 1, 0, 0] · slices_S2x6x128x128_S1x1x128x128_1_1_0_0) : (⟨S2x6x128x128, .f32⟩ : BufTy).Contents (Elt F) → (⟨S1x1x128x128, .f32⟩ : BufTy).Contents (Elt F))
  :: StableHlo.reshape main_v396 main_v397 rfl shapeCasts_S1x1x128x128_S128x128
  :: StableHlo.unary main_arg14 main_v398 ((extractStridedSlice S1x1x128x128 ![1, 3, 0, 0] · slices_S2x6x128x128_S1x1x128x128_1_3_0_0) : (⟨S2x6x128x128, .f32⟩ : BufTy).Contents (Elt F) → (⟨S1x1x128x128, .f32⟩ : BufTy).Contents (Elt F))
  :: StableHlo.reshape main_v398 main_v399 rfl shapeCasts_S1x1x128x128_S128x128
  :: StableHlo.binary main_v397 main_v399 main_v400 (addf : (⟨S128x128, .f32⟩ : BufTy).Contents (Elt F) → (⟨S128x128, .f32⟩ : BufTy).Contents (Elt F) → (⟨S128x128, .f32⟩ : BufTy).Contents (Elt F))
  :: StableHlo.unary main_arg14 main_v401 ((extractStridedSlice S1x1x128x128 ![1, 5, 0, 0] · slices_S2x6x128x128_S1x1x128x128_1_5_0_0) : (⟨S2x6x128x128, .f32⟩ : BufTy).Contents (Elt F) → (⟨S1x1x128x128, .f32⟩ : BufTy).Contents (Elt F))
  :: StableHlo.reshape main_v401 main_v402 rfl shapeCasts_S1x1x128x128_S128x128
  :: StableHlo.binary main_v400 main_v402 main_v403 (addf : (⟨S128x128, .f32⟩ : BufTy).Contents (Elt F) → (⟨S128x128, .f32⟩ : BufTy).Contents (Elt F) → (⟨S128x128, .f32⟩ : BufTy).Contents (Elt F))
  :: StableHlo.unary main_arg13 main_v404 ((extractStridedSlice S1x1x128 ![1, 1, 0] · slices_S2x6x128_S1x1x128_1_1_0) : (⟨S2x6x128, .f32⟩ : BufTy).Contents (Elt F) → (⟨S1x1x128, .f32⟩ : BufTy).Contents (Elt F))
  :: StableHlo.reshape main_v404 main_v405 rfl shapeCasts_S1x1x128_S128
  :: StableHlo.unary main_arg13 main_v406 ((extractStridedSlice S1x1x128 ![1, 3, 0] · slices_S2x6x128_S1x1x128_1_3_0) : (⟨S2x6x128, .f32⟩ : BufTy).Contents (Elt F) → (⟨S1x1x128, .f32⟩ : BufTy).Contents (Elt F))
  :: StableHlo.reshape main_v406 main_v407 rfl shapeCasts_S1x1x128_S128
  :: StableHlo.binary main_v405 main_v407 main_v408 (addf : (⟨S128, .f32⟩ : BufTy).Contents (Elt F) → (⟨S128, .f32⟩ : BufTy).Contents (Elt F) → (⟨S128, .f32⟩ : BufTy).Contents (Elt F))
  :: StableHlo.unary main_arg13 main_v409 ((extractStridedSlice S1x1x128 ![1, 5, 0] · slices_S2x6x128_S1x1x128_1_5_0) : (⟨S2x6x128, .f32⟩ : BufTy).Contents (Elt F) → (⟨S1x1x128, .f32⟩ : BufTy).Contents (Elt F))
  :: StableHlo.reshape main_v409 main_v410 rfl shapeCasts_S1x1x128_S128
  :: StableHlo.binary main_v408 main_v410 main_v411 (addf : (⟨S128, .f32⟩ : BufTy).Contents (Elt F) → (⟨S128, .f32⟩ : BufTy).Contents (Elt F) → (⟨S128, .f32⟩ : BufTy).Contents (Elt F))
  :: StableHlo.unary main_arg12 main_v412 ((extractStridedSlice S1x1x128x128 ![1, 1, 0, 0] · slices_S2x6x128x128_S1x1x128x128_1_1_0_0) : (⟨S2x6x128x128, .f32⟩ : BufTy).Contents (Elt F) → (⟨S1x1x128x128, .f32⟩ : BufTy).Contents (Elt F))
  :: StableHlo.reshape main_v412 main_v413 rfl shapeCasts_S1x1x128x128_S128x128
  :: StableHlo.unary main_v413 main_v414 ((transpose S128x128 [1, 0] · transposes_S128x128_S128x128_1_0) : (⟨S128x128, .f32⟩ : BufTy).Contents (Elt F) → (⟨S128x128, .f32⟩ : BufTy).Contents (Elt F))
  :: StableHlo.unary main_arg12 main_v415 ((extractStridedSlice S1x1x128x128 ![1, 3, 0, 0] · slices_S2x6x128x128_S1x1x128x128_1_3_0_0) : (⟨S2x6x128x128, .f32⟩ : BufTy).Contents (Elt F) → (⟨S1x1x128x128, .f32⟩ : BufTy).Contents (Elt F))
  :: StableHlo.reshape main_v415 main_v416 rfl shapeCasts_S1x1x128x128_S128x128
  :: StableHlo.unary main_v416 main_v417 ((transpose S128x128 [1, 0] · transposes_S128x128_S128x128_1_0) : (⟨S128x128, .f32⟩ : BufTy).Contents (Elt F) → (⟨S128x128, .f32⟩ : BufTy).Contents (Elt F))
  :: StableHlo.unary main_arg12 main_v418 ((extractStridedSlice S1x1x128x128 ![1, 5, 0, 0] · slices_S2x6x128x128_S1x1x128x128_1_5_0_0) : (⟨S2x6x128x128, .f32⟩ : BufTy).Contents (Elt F) → (⟨S1x1x128x128, .f32⟩ : BufTy).Contents (Elt F))
  :: StableHlo.reshape main_v418 main_v419 rfl shapeCasts_S1x1x128x128_S128x128
  :: StableHlo.unary main_v419 main_v420 ((transpose S128x128 [1, 0] · transposes_S128x128_S128x128_1_0) : (⟨S128x128, .f32⟩ : BufTy).Contents (Elt F) → (⟨S128x128, .f32⟩ : BufTy).Contents (Elt F))
  :: StableHlo.unary main_v403 main_v421 ((transpose S128x128 [1, 0] · transposes_S128x128_S128x128_1_0) : (⟨S128x128, .f32⟩ : BufTy).Contents (Elt F) → (⟨S128x128, .f32⟩ : BufTy).Contents (Elt F))
  :: StableHlo.reshape main_v411 main_v422 rfl shapeCasts_S128_S1x128
  :: [] )

/-- The stretch is its first 96 operations, then these. -/
theorem hostOps12_split : (hostOps12 : List (HloOp τ sig (Elt F))) = hostOps12.take 96 ++ tail12 :=
  (List.take_append_drop 96 hostOps12).symm

theorem after_hostOps12 (V : Valuation τ sig (Elt F)) :
    StableHlo.after hostOps12 V = StableHlo.after tail12 (StableHlo.after (hostOps12.take 96) V) :=
  (congrArg (fun l => StableHlo.after l V) hostOps12_split).trans (StableHlo.after_append _ _ V)

/-- The stacked arrays are not written by them. -/
theorem tail12_arg12 (V : Valuation τ sig (Elt F)) :
    StableHlo.after tail12 V (Proc.devRef .tc main_arg12) = V (Proc.devRef .tc main_arg12) := by
  after_results
theorem tail12_arg13 (V : Valuation τ sig (Elt F)) :
    StableHlo.after tail12 V (Proc.devRef .tc main_arg13) = V (Proc.devRef .tc main_arg13) := by
  after_results
theorem tail12_arg14 (V : Valuation τ sig (Elt F)) :
    StableHlo.after tail12 V (Proc.devRef .tc main_arg14) = V (Proc.devRef .tc main_arg14) := by
  after_results

/-- The neighbour weights: slice `(1, R)` of the stacked array as a matrix, transposed. -/
theorem tail12_w1 (V : Valuation τ sig (Elt F)) :
    StableHlo.after tail12 V (Proc.devRef .tc main_v414)
      = transpose S128x128 [1, 0] (shapeCast S128x128 (extractStridedSlice S1x1x128x128 ![1, 1, 0, 0]
          (V (Proc.devRef .tc main_arg12)) slices_S2x6x128x128_S1x1x128x128_1_1_0_0) shapeCasts_S1x1x128x128_S128x128)
          transposes_S128x128_S128x128_1_0 := by
  after_results; rfl
theorem tail12_w3 (V : Valuation τ sig (Elt F)) :
    StableHlo.after tail12 V (Proc.devRef .tc main_v417)
      = transpose S128x128 [1, 0] (shapeCast S128x128 (extractStridedSlice S1x1x128x128 ![1, 3, 0, 0]
          (V (Proc.devRef .tc main_arg12)) slices_S2x6x128x128_S1x1x128x128_1_3_0_0) shapeCasts_S1x1x128x128_S128x128)
          transposes_S128x128_S128x128_1_0 := by
  after_results; rfl
theorem tail12_w5 (V : Valuation τ sig (Elt F)) :
    StableHlo.after tail12 V (Proc.devRef .tc main_v420)
      = transpose S128x128 [1, 0] (shapeCast S128x128 (extractStridedSlice S1x1x128x128 ![1, 5, 0, 0]
          (V (Proc.devRef .tc main_arg12)) slices_S2x6x128x128_S1x1x128x128_1_5_0_0) shapeCasts_S1x1x128x128_S128x128)
          transposes_S128x128_S128x128_1_0 := by
  after_results; rfl

/-- The self-weight: the three slices added, left to right, then transposed. -/
theorem tail12_wr (V : Valuation τ sig (Elt F)) :
    StableHlo.after tail12 V (Proc.devRef .tc main_v421)
      = transpose S128x128 [1, 0]
          (addf (addf
            (shapeCast S128x128 (extractStridedSlice S1x1x128x128 ![1, 1, 0, 0] (V (Proc.devRef .tc main_arg14))
              slices_S2x6x128x128_S1x1x128x128_1_1_0_0) shapeCasts_S1x1x128x128_S128x128)
            (shapeCast S128x128 (extractStridedSlice S1x1x128x128 ![1, 3, 0, 0] (V (Proc.devRef .tc main_arg14))
              slices_S2x6x128x128_S1x1x128x128_1_3_0_0) shapeCasts_S1x1x128x128_S128x128))
            (shapeCast S128x128 (extractStridedSlice S1x1x128x128 ![1, 5, 0, 0] (V (Proc.devRef .tc main_arg14))
              slices_S2x6x128x128_S1x1x128x128_1_5_0_0) shapeCasts_S1x1x128x128_S128x128))
          transposes_S128x128_S128x128_1_0 := by
  after_results; rfl

/-- The bias: the three slices added, left to right, as a one-row matrix. -/
theorem tail12_b (V : Valuation τ sig (Elt F)) :
    StableHlo.after tail12 V (Proc.devRef .tc main_v422)
      = shapeCast S1x128
          (addf (addf
            (shapeCast S128 (extractStridedSlice S1x1x128 ![1, 1, 0] (V (Proc.devRef .tc main_arg13))
              slices_S2x6x128_S1x1x128_1_1_0) shapeCasts_S1x1x128_S128)
            (shapeCast S128 (extractStridedSlice S1x1x128 ![1, 3, 0] (V (Proc.devRef .tc main_arg13))
              slices_S2x6x128_S1x1x128_1_3_0) shapeCasts_S1x1x128_S128))
            (shapeCast S128 (extractStridedSlice S1x1x128 ![1, 5, 0] (V (Proc.devRef .tc main_arg13))
              slices_S2x6x128_S1x1x128_1_5_0) shapeCasts_S1x1x128_S128))
          shapeCasts_S128_S1x128 := by
  after_results; rfl

end Cert.Val

end
-- ==== Proof.Val.PatientMath.lean ====
/- The patient branch of a graph layer, as arithmetic on the extended reals.

   The kernel program forms each new patient row as ONE accumulation: the sum of the three relations' biases,
   then the three neighbour means times their weights, then the patient row times the SUM of the three
   self-weights; it normalises with a scale and a shift computed from the column sums of the rows and of
   their squares. The reference forms the three relations' outputs separately and adds them, and normalises
   by the centred variance. On real inputs the two agree, and the result is real. -/
import proofs.«424088_j28020366639260_2_alg».proof.Proof.LibERealArith
import proofs.«424088_j28020366639260_2_alg».proof.Proof.BridgeAlgebra
import Idealize.ShloMosaic.Lib.ValueIdx

noncomputable section

namespace Cert.Val

open Idealize.ShloMosaic Cert.Lib.ERealArith Cert.Bridge
open scoped BigOperators

/-- The float literals the two programs spell: zero, the number of rows, the variance's guard. -/
local notation "zlit" => Ideal.ofBits FTy.f32 0x00000000#32
local notation "nlit" => Ideal.ofBits FTy.f32 0x47C35000#32
local notation "elit" => Ideal.ofBits FTy.f32 0x3727C5AC#32

/-- Every entry of a one-index family is the coercion of a real number. -/
def Real1 {α : Type} (x : α → EReal) : Prop := ∀ a, ∃ r : ℝ, x a = (r : EReal)
/-- Every entry of a two-index family is the coercion of a real number. -/
def Real2 {α β : Type} (x : α → β → EReal) : Prop := ∀ a b, ∃ r : ℝ, x a b = (r : EReal)

/-! ## The rows before normalisation -/

section Rows
variable {N : ℕ}

/-- The kernel program's row: the bias, then four products added one after the other. -/
def kNewP (b : Fin 128 → EReal) (w1 w3 w5 wr : Fin 128 → Fin 128 → EReal)
    (ml md mm xp : Fin N → Fin 128 → EReal) (i : Fin N) (j : Fin 128) : EReal :=
  (((b j + ∑ k, ml i k * w1 k j) + ∑ k, md i k * w3 k j) + ∑ k, mm i k * w5 k j) + ∑ k, xp i k * wr k j

/-- One relation's output in the reference: the neighbour mean times its weight, plus the bias, plus the
    patient row times the self-weight. -/
def rSage (wl : Fin 128 → Fin 128 → EReal) (bl : Fin 128 → EReal) (wr : Fin 128 → Fin 128 → EReal)
    (mean xp : Fin N → Fin 128 → EReal) (i : Fin N) (j : Fin 128) : EReal :=
  ((∑ k, mean i k * wl k j) + bl j) + ∑ k, xp i k * wr k j

/-- The reference's row: the three relations' outputs added. -/
def rNewP (wl1 : Fin 128 → Fin 128 → EReal) (bl1 : Fin 128 → EReal) (wr1 : Fin 128 → Fin 128 → EReal)
    (wl3 : Fin 128 → Fin 128 → EReal) (bl3 : Fin 128 → EReal) (wr3 : Fin 128 → Fin 128 → EReal)
    (wl5 : Fin 128 → Fin 128 → EReal) (bl5 : Fin 128 → EReal) (wr5 : Fin 128 → Fin 128 → EReal)
    (ml md mm xp : Fin N → Fin 128 → EReal) (i : Fin N) (j : Fin 128) : EReal :=
  (rSage wl1 bl1 wr1 ml xp i j + rSage wl3 bl3 wr3 md xp i j) + rSage wl5 bl5 wr5 mm xp i j

/-- On real inputs the kernel program's row, with the biases and the self-weights summed beforehand, is the
    reference's row, and it is real: the product with the sum of the self-weights distributes, and the
    terms regroup. -/
theorem newP_eq
    (wl1 wl3 wl5 wr1 wr3 wr5 : Fin 128 → Fin 128 → EReal) (bl1 bl3 bl5 : Fin 128 → EReal)
    (ml md mm xp : Fin N → Fin 128 → EReal)
    (hwl1 : Real2 wl1) (hwl3 : Real2 wl3) (hwl5 : Real2 wl5) (hwr1 : Real2 wr1) (hwr3 : Real2 wr3) (hwr5 : Real2 wr5)
    (hbl1 : Real1 bl1) (hbl3 : Real1 bl3) (hbl5 : Real1 bl5)
    (hml : Real2 ml) (hmd : Real2 md) (hmm : Real2 mm) (hxp : Real2 xp) (i : Fin N) (j : Fin 128) :
    kNewP (fun j => (bl1 j + bl3 j) + bl5 j) wl1 wl3 wl5 (fun k j => (wr1 k j + wr3 k j) + wr5 k j) ml md mm xp i j
        = rNewP wl1 bl1 wr1 wl3 bl3 wr3 wl5 bl5 wr5 ml md mm xp i j
      ∧ ∃ r : ℝ, rNewP wl1 bl1 wr1 wl3 bl3 wr3 wl5 bl5 wr5 ml md mm xp i j = (r : EReal) := by
  choose wl1' e1 using hwl1
  choose wl3' e3 using hwl3
  choose wl5' e5 using hwl5
  choose wr1' f1 using hwr1
  choose wr3' f3 using hwr3
  choose wr5' f5 using hwr5
  choose bl1' g1 using hbl1
  choose bl3' g3 using hbl3
  choose bl5' g5 using hbl5
  choose ml' h1 using hml
  choose md' h3 using hmd
  choose mm' h5 using hmm
  choose xp' hx using hxp
  have hk : kNewP (fun j => (bl1 j + bl3 j) + bl5 j) wl1 wl3 wl5 (fun k j => (wr1 k j + wr3 k j) + wr5 k j) ml md mm xp i j
      = (((((((bl1' j + bl3' j) + bl5' j) + ∑ k, ml' i k * wl1' k j) + ∑ k, md' i k * wl3' k j) + ∑ k, mm' i k * wl5' k j)
          + ∑ k, xp' i k * ((wr1' k j + wr3' k j) + wr5' k j) : ℝ) : EReal) := by
    unfold kNewP
    simp only [e1, e3, e5, f1, f3, f5, g1, g3, g5, h1, h3, h5, hx, mul_coe, add_coe, univ_sum_coe]
  have hr : rNewP wl1 bl1 wr1 wl3 bl3 wr3 wl5 bl5 wr5 ml md mm xp i j
      = ((((((∑ k, ml' i k * wl1' k j) + bl1' j) + ∑ k, xp' i k * wr1' k j)
            + (((∑ k, md' i k * wl3' k j) + bl3' j) + ∑ k, xp' i k * wr3' k j))
          + (((∑ k, mm' i k * wl5' k j) + bl5' j) + ∑ k, xp' i k * wr5' k j) : ℝ) : EReal) := by
    unfold rNewP rSage
    simp only [e1, e3, e5, f1, f3, f5, g1, g3, g5, h1, h3, h5, hx, mul_coe, add_coe, univ_sum_coe]
  refine ⟨?_, _, hr⟩
  rw [hk, hr]
  refine congrArg _ ?_
  rw [matmul_add3 xp' wr1' wr3' wr5' i j]
  ring

end Rows

/-! ## The normalisation over the hundred thousand rows -/

section Norm

/-- The kernel program's scale: the gain times the reciprocal root of the variance from the sums. -/
def kScale (S Q g : Fin 128 → EReal) (j : Fin 128) : EReal :=
  g j * Ideal.rsqrt ((Ideal.div (Q j) nlit - Ideal.div (S j) nlit * Ideal.div (S j) nlit) + elit)

/-- The kernel program's shift: the offset less the mean times the scale. -/
def kShift (S Q g be : Fin 128 → EReal) (j : Fin 128) : EReal :=
  be j - Ideal.div (S j) nlit * kScale S Q g j

/-- The kernel program's output: the row scaled and shifted, clamped below at zero. -/
def kRelu {N : ℕ} (y : Fin N → Fin 128 → EReal) (sc sh : Fin 128 → EReal) (i : Fin N) (j : Fin 128) : EReal :=
  max (y i j * sc j + sh j) 0

/-- The reference's column mean. -/
def rMean {N : ℕ} (y : Fin N → Fin 128 → EReal) (j : Fin 128) : EReal :=
  Ideal.div (∑ i, y i j) nlit

/-- The reference's column variance: the mean squared deviation from the column mean. -/
def rVar {N : ℕ} (y : Fin N → Fin 128 → EReal) (j : Fin 128) : EReal :=
  Ideal.div (∑ i, (y i j - rMean y j) * (y i j - rMean y j)) nlit

/-- The reference's output: the centred row times the reciprocal root of the variance, times the gain, plus
    the offset, clamped below at zero. -/
def rOut {N : ℕ} (y : Fin N → Fin 128 → EReal) (g be : Fin 128 → EReal) (i : Fin N) (j : Fin 128) : EReal :=
  max ((y i j - rMean y j) * Ideal.rsqrt (rVar y j + elit) * g j + be j) 0

/-- On real rows whose column sums and sums of squares the kernel program holds, its scaled, shifted and
    clamped row is the reference's normalised and clamped row, and it is real. -/
theorem norm_eq (y : Fin 100000 → Fin 128 → EReal) (S Q g be : Fin 128 → EReal)
    (y' : Fin 100000 → Fin 128 → ℝ) (hy : ∀ i j, y i j = ((y' i j : ℝ) : EReal))
    (hS : ∀ j, S j = ((∑ i, y' i j : ℝ) : EReal)) (hQ : ∀ j, Q j = ((∑ i, y' i j * y' i j : ℝ) : EReal))
    (hg : Real1 g) (hbe : Real1 be) (i : Fin 100000) (j : Fin 128) :
    kRelu y (kScale S Q g) (kShift S Q g be) i j = rOut y g be i j
      ∧ ∃ r : ℝ, rOut y g be i j = (r : EReal) := by
  choose g' hg' using hg
  choose be' hbe' using hbe
  have hn : (100000 : ℝ) ≠ 0 := by norm_num
  have hcard : (100000 : ℝ) = ((100000 : ℕ) : ℝ) := by norm_num
  have hvk : 0 < (∑ i, y' i j * y' i j) / 100000 - (∑ i, y' i j) / 100000 * ((∑ i, y' i j) / 100000) + eps5 :=
    var_of_sums_add_pos_fin (fun i => y' i j) 100000 eps5 hcard hn eps5_pos
  have hvr : 0 < (∑ i, (y' i j - (∑ i, y' i j) / 100000) * (y' i j - (∑ i, y' i j) / 100000)) / 100000 + eps5 :=
    centred_var_add_pos (fun i => y' i j) _ 100000 eps5 (by norm_num) eps5_pos
  have hvar : (∑ i, y' i j * y' i j) / 100000 - (∑ i, y' i j) / 100000 * ((∑ i, y' i j) / 100000)
      = (∑ i, (y' i j - (∑ i, y' i j) / 100000) * (y' i j - (∑ i, y' i j) / 100000)) / 100000 :=
    var_of_sums_fin y' 100000 hcard hn j
  -- the kernel program's scale and shift, as reals
  have hsc : kScale S Q g j = ((g' j * (Real.sqrt ((∑ i, y' i j * y' i j) / 100000
      - (∑ i, y' i j) / 100000 * ((∑ i, y' i j) / 100000) + eps5))⁻¹ : ℝ) : EReal) := by
    unfold kScale
    rw [hS, hQ, hg', ofBits_100000, ofBits_eps5, div_coe hn, div_coe hn, mul_coe, sub_coe, add_coe, rsqrt_coe hvk, mul_coe]
  have hsh : kShift S Q g be j = ((be' j - (∑ i, y' i j) / 100000 * (g' j * (Real.sqrt ((∑ i, y' i j * y' i j) / 100000
      - (∑ i, y' i j) / 100000 * ((∑ i, y' i j) / 100000) + eps5))⁻¹) : ℝ) : EReal) := by
    unfold kShift
    rw [hsc, hS, hbe', ofBits_100000, div_coe hn, mul_coe, sub_coe]
  have hk : kRelu y (kScale S Q g) (kShift S Q g be) i j
      = ((max (y' i j * (g' j * (Real.sqrt ((∑ i, y' i j * y' i j) / 100000
            - (∑ i, y' i j) / 100000 * ((∑ i, y' i j) / 100000) + eps5))⁻¹)
          + (be' j - (∑ i, y' i j) / 100000 * (g' j * (Real.sqrt ((∑ i, y' i j * y' i j) / 100000
            - (∑ i, y' i j) / 100000 * ((∑ i, y' i j) / 100000) + eps5))⁻¹))) 0 : ℝ) : EReal) := by
    unfold kRelu
    rw [hsc, hsh, hy, zero_eq_coe, mul_coe, add_coe, max_coe]
  -- the reference's mean, variance and output, as reals
  have hmean : rMean y j = (((∑ i, y' i j) / 100000 : ℝ) : EReal) := by
    unfold rMean
    simp only [hy]
    rw [univ_sum_coe, ofBits_100000, div_coe hn]
  have hvarr : rVar y j = (((∑ i, (y' i j - (∑ i, y' i j) / 100000) * (y' i j - (∑ i, y' i j) / 100000)) / 100000 : ℝ) : EReal) := by
    unfold rVar
    rw [hmean]
    simp only [hy, sub_coe, mul_coe]
    rw [univ_sum_coe, ofBits_100000, div_coe hn]
  have hr : rOut y g be i j
      = ((max ((y' i j - (∑ i, y' i j) / 100000)
            * (Real.sqrt ((∑ i, (y' i j - (∑ i, y' i j) / 100000) * (y' i j - (∑ i, y' i j) / 100000)) / 100000 + eps5))⁻¹
            * g' j + be' j) 0 : ℝ) : EReal) := by
    unfold rOut
    rw [hvarr, hmean, hy, hg', hbe', ofBits_eps5, zero_eq_coe, add_coe, rsqrt_coe hvr, sub_coe, mul_coe, mul_coe, add_coe, max_coe]
  refine ⟨?_, _, hr⟩
  rw [hk, hr, hvar, scale_shift]

end Norm

/-! ## The same over arrays -/

section Arrays
open Idealize.ShloMosaic.ValueIdx

/-- A matrix read by row and column. -/
def cur2 {n0 n1 : ℕ} (X : (⟨2, ![n0, n1]⟩ : Shape).Idx → EReal) : Fin n0 → Fin n1 → EReal := fun i j => X (ix2 i j)

/-- Weight matrix `R` of layer `L`, transposed: entry `(k, j)` is the stacked array at `(L, R, j, k)`. -/
def wT (W : (⟨4, ![2, 6, 128, 128]⟩ : Shape).Idx → EReal) (L : Fin 2) (R : Fin 6) : Fin 128 → Fin 128 → EReal :=
  fun k j => W (ix4 L R j k)

/-- Bias `R` of layer `L`. -/
def bRow (B : (⟨3, ![2, 6, 128]⟩ : Shape).Idx → EReal) (L : Fin 2) (R : Fin 6) : Fin 128 → EReal := fun j => B (ix3 L R j)

/-- Gain or offset `R` of layer `L`. -/
def gRow (G : (⟨3, ![2, 4, 128]⟩ : Shape).Idx → EReal) (L : Fin 2) (R : Fin 4) : Fin 128 → EReal := fun j => G (ix3 L R j)

/-- Row `r` of block `t` of core `c`: the cores take the two halves of the rows, in blocks of two thousand. -/
def row (c : Fin 2) (t : Fin 25) (r : Fin 2000) : Fin 100000 :=
  ⟨2000 * (25 * c.val + t.val) + r.val, by have := c.isLt; have := t.isLt; have := r.isLt; omega⟩

/-- The kernel program's rows before normalisation, from the layer's stacked weights. -/
def kRows (L : Fin 2) (Wl : (⟨4, ![2, 6, 128, 128]⟩ : Shape).Idx → EReal) (Bl : (⟨3, ![2, 6, 128]⟩ : Shape).Idx → EReal)
    (Wr : (⟨4, ![2, 6, 128, 128]⟩ : Shape).Idx → EReal)
    (ml md mm xp : (⟨2, ![100000, 128]⟩ : Shape).Idx → EReal) : Fin 100000 → Fin 128 → EReal :=
  kNewP (fun j => (bRow Bl L 1 j + bRow Bl L 3 j) + bRow Bl L 5 j) (wT Wl L 1) (wT Wl L 3) (wT Wl L 5)
    (fun k j => (wT Wr L 1 k j + wT Wr L 3 k j) + wT Wr L 5 k j) (cur2 ml) (cur2 md) (cur2 mm) (cur2 xp)

/-- The kernel program's column sum: from zero, the two cores' sums over their blocks. -/
def kSum (Y : Fin 100000 → Fin 128 → EReal) (j : Fin 128) : EReal :=
  zlit + ∑ c : Fin 2, ∑ t : Fin 25, ∑ r : Fin 2000, Y (row c t r) j

/-- The kernel program's column sum of squares. -/
def kSumSq (Y : Fin 100000 → Fin 128 → EReal) (j : Fin 128) : EReal :=
  zlit + ∑ c : Fin 2, ∑ t : Fin 25, ∑ r : Fin 2000, Y (row c t r) j * Y (row c t r) j

/-- The kernel program's new patient rows of layer `L`. -/
def kPatient (L : Fin 2) (Wl : (⟨4, ![2, 6, 128, 128]⟩ : Shape).Idx → EReal) (Bl : (⟨3, ![2, 6, 128]⟩ : Shape).Idx → EReal)
    (Wr : (⟨4, ![2, 6, 128, 128]⟩ : Shape).Idx → EReal) (G Be : (⟨3, ![2, 4, 128]⟩ : Shape).Idx → EReal)
    (ml md mm xp : (⟨2, ![100000, 128]⟩ : Shape).Idx → EReal) : (⟨2, ![100000, 128]⟩ : Shape).Idx → EReal := fun i =>
  kRelu (kRows L Wl Bl Wr ml md mm xp)
    (kScale (kSum (kRows L Wl Bl Wr ml md mm xp)) (kSumSq (kRows L Wl Bl Wr ml md mm xp)) (gRow G L 0))
    (kShift (kSum (kRows L Wl Bl Wr ml md mm xp)) (kSumSq (kRows L Wl Bl Wr ml md mm xp)) (gRow G L 0) (gRow Be L 0))
    (i 0) (i 1)

/-- The reference's rows before normalisation. -/
def rRows (L : Fin 2) (Wl : (⟨4, ![2, 6, 128, 128]⟩ : Shape).Idx → EReal) (Bl : (⟨3, ![2, 6, 128]⟩ : Shape).Idx → EReal)
    (Wr : (⟨4, ![2, 6, 128, 128]⟩ : Shape).Idx → EReal)
    (ml md mm xp : (⟨2, ![100000, 128]⟩ : Shape).Idx → EReal) : Fin 100000 → Fin 128 → EReal :=
  rNewP (wT Wl L 1) (bRow Bl L 1) (wT Wr L 1) (wT Wl L 3) (bRow Bl L 3) (wT Wr L 3) (wT Wl L 5) (bRow Bl L 5) (wT Wr L 5)
    (cur2 ml) (cur2 md) (cur2 mm) (cur2 xp)

/-- The reference's new patient rows of layer `L`. -/
def rPatient (L : Fin 2) (Wl : (⟨4, ![2, 6, 128, 128]⟩ : Shape).Idx → EReal) (Bl : (⟨3, ![2, 6, 128]⟩ : Shape).Idx → EReal)
    (Wr : (⟨4, ![2, 6, 128, 128]⟩ : Shape).Idx → EReal) (G Be : (⟨3, ![2, 4, 128]⟩ : Shape).Idx → EReal)
    (ml md mm xp : (⟨2, ![100000, 128]⟩ : Shape).Idx → EReal) : (⟨2, ![100000, 128]⟩ : Shape).Idx → EReal := fun i =>
  rOut (rRows L Wl Bl Wr ml md mm xp) (gRow G L 0) (gRow Be L 0) (i 0) (i 1)

/-- The numbering of the rows by core, block and row within the block is the one whose sums split. -/
theorem row_eq (c : Fin 2) (t : Fin 25) (r : Fin 2000) : row c t r = rowOf c t r :=
  Fin.ext (by show 2000 * (25 * c.val + t.val) + r.val = (c.val * 25 + t.val) * 2000 + r.val; ring)

/-- The two cores' sums over their blocks are the sum over all rows. -/
theorem sum_rows (f : Fin 100000 → ℝ) : (∑ c : Fin 2, ∑ t : Fin 25, ∑ r : Fin 2000, f (row c t r)) = ∑ i, f i := by
  simp only [row_eq]
  exact sum_split_100000 f

/-- On real inputs the kernel program's new patient rows are the reference's, and they are real. -/
theorem eq_patient (L : Fin 2) (Wl : (⟨4, ![2, 6, 128, 128]⟩ : Shape).Idx → EReal) (Bl : (⟨3, ![2, 6, 128]⟩ : Shape).Idx → EReal)
    (Wr : (⟨4, ![2, 6, 128, 128]⟩ : Shape).Idx → EReal) (G Be : (⟨3, ![2, 4, 128]⟩ : Shape).Idx → EReal)
    (ml md mm xp : (⟨2, ![100000, 128]⟩ : Shape).Idx → EReal)
    (hWl : ∀ i, ∃ r : ℝ, Wl i = (r : EReal)) (hBl : ∀ i, ∃ r : ℝ, Bl i = (r : EReal)) (hWr : ∀ i, ∃ r : ℝ, Wr i = (r : EReal))
    (hG : ∀ i, ∃ r : ℝ, G i = (r : EReal)) (hBe : ∀ i, ∃ r : ℝ, Be i = (r : EReal))
    (hml : ∀ i, ∃ r : ℝ, ml i = (r : EReal)) (hmd : ∀ i, ∃ r : ℝ, md i = (r : EReal))
    (hmm : ∀ i, ∃ r : ℝ, mm i = (r : EReal)) (hxp : ∀ i, ∃ r : ℝ, xp i = (r : EReal)) :
    kPatient L Wl Bl Wr G Be ml md mm xp = rPatient L Wl Bl Wr G Be ml md mm xp
      ∧ ∀ i, ∃ r : ℝ, rPatient L Wl Bl Wr G Be ml md mm xp i = (r : EReal) := by
  have hrows : ∀ i j, kRows L Wl Bl Wr ml md mm xp i j = rRows L Wl Bl Wr ml md mm xp i j
      ∧ ∃ r : ℝ, rRows L Wl Bl Wr ml md mm xp i j = (r : EReal) := fun i j =>
    newP_eq (wT Wl L 1) (wT Wl L 3) (wT Wl L 5) (wT Wr L 1) (wT Wr L 3) (wT Wr L 5) (bRow Bl L 1) (bRow Bl L 3) (bRow Bl L 5)
      (cur2 ml) (cur2 md) (cur2 mm) (cur2 xp)
      (fun _ _ => hWl _) (fun _ _ => hWl _) (fun _ _ => hWl _) (fun _ _ => hWr _) (fun _ _ => hWr _) (fun _ _ => hWr _)
      (fun _ => hBl _) (fun _ => hBl _) (fun _ => hBl _)
      (fun _ _ => hml _) (fun _ _ => hmd _) (fun _ _ => hmm _) (fun _ _ => hxp _) i j
  have hk : kRows L Wl Bl Wr ml md mm xp = rRows L Wl Bl Wr ml md mm xp := funext fun i => funext fun j => (hrows i j).1
  choose y' hy' using fun i j => (hrows i j).2
  have hS : ∀ j, kSum (rRows L Wl Bl Wr ml md mm xp) j = ((∑ i, y' i j : ℝ) : EReal) := fun j => by
    unfold kSum
    simp only [hy', univ_sum_coe]
    rw [ofBits_zero, add_coe, zero_add]
    exact congrArg _ (sum_rows fun i => y' i j)
  have hQ : ∀ j, kSumSq (rRows L Wl Bl Wr ml md mm xp) j = ((∑ i, y' i j * y' i j : ℝ) : EReal) := fun j => by
    unfold kSumSq
    simp only [hy', mul_coe, univ_sum_coe]
    rw [ofBits_zero, add_coe, zero_add]
    exact congrArg _ (sum_rows fun i => y' i j * y' i j)
  have hall : ∀ i : (⟨2, ![100000, 128]⟩ : Shape).Idx, kPatient L Wl Bl Wr G Be ml md mm xp i = rPatient L Wl Bl Wr G Be ml md mm xp i
      ∧ ∃ r : ℝ, rPatient L Wl Bl Wr G Be ml md mm xp i = (r : EReal) := fun i => by
    unfold kPatient rPatient
    rw [hk]
    exact norm_eq (rRows L Wl Bl Wr ml md mm xp) _ _ (gRow G L 0) (gRow Be L 0) y' hy' hS hQ (fun _ => hG _) (fun _ => hBe _) (i 0) (i 1)
  exact ⟨funext fun i => (hall i).1, fun i => (hall i).2⟩

end Arrays

end Cert.Val

end
-- ==== Proof.Val.PatientKLib.lean ====
/- Reading the host's weight preparation and the regions' outputs of the patient branch of a graph layer, index by index:
   a slice of a stacked array as a matrix or a row, transposed or not; sums of three of them; and the chain from the
   parts two regions and two host stretches leave to the branch's arithmetic on the extended reals. -/
import Idealize.ShloMosaic.Lib.Pipeline.Value
import Idealize.ShloMosaic.Lib.ValueIdx
import Idealize.ShloMosaic.Lib.ValueLayout
import Idealize.ShloMosaic.Lib.IdealHost
import proofs.«424088_j28020366639260_2_alg».proof.Proof.Val.PatientMath
set_option maxRecDepth 16384

noncomputable section

namespace Cert.Val

open Idealize.ShloMosaic Idealize.ShloMosaic.ValueIdx
open scoped BigOperators

/-! ## Slices of the stacked arrays -/

section Slices
variable {α : Type}

/-- Matrix `(L, R)` of a stack of 2 × 6 matrices, cut out and cast to a matrix: entry `(j, k)` is the stack's entry
    `(L, R, j, k)`. -/
theorem wSlice_apply (W : (⟨4, ![2, 6, 128, 128]⟩ : Shape).Idx → α) (L : Fin 2) (R : Fin 6)
    (hs : (⟨4, ![2, 6, 128, 128]⟩ : Shape).Slices ![L.val, R.val, 0, 0] ⟨4, ![1, 1, 128, 128]⟩)
    (hc : (⟨4, ![1, 1, 128, 128]⟩ : Shape).ShapeCasts ⟨2, ![128, 128]⟩) (j k : Fin 128) :
    shapeCast ⟨2, ![128, 128]⟩ (extractStridedSlice ⟨4, ![1, 1, 128, 128]⟩ ![L.val, R.val, 0, 0] W hs) hc (ix2 j k)
      = W (ix4 L R j k) := by
  refine (shapeCast_apply _ hc (ix2 j k) (ix4 (0 : Fin 1) (0 : Fin 1) j k) (by
    rw [Shape.rowMajor_val_four, Shape.rowMajor_val_two]
    show ((0 * 1 + 0) * 128 + j.val) * 128 + k.val = j.val * 128 + k.val
    omega)).trans ?_
  refine extractStridedSlice_apply ![L.val, R.val, 0, 0] W hs (ix4 (0 : Fin 1) (0 : Fin 1) j k) (ix4 L R j k) fun a => ?_
  match a with
  | ⟨0, _⟩ => show L.val = L.val + 0; omega
  | ⟨1, _⟩ => show R.val = R.val + 0; omega
  | ⟨2, _⟩ => show j.val = 0 + j.val; omega
  | ⟨3, _⟩ => show k.val = 0 + k.val; omega

/-- The same matrix transposed: entry `(k, j)` is the stack's entry `(L, R, j, k)`. -/
theorem wSliceT_apply (W : (⟨4, ![2, 6, 128, 128]⟩ : Shape).Idx → α) (L : Fin 2) (R : Fin 6)
    (hs : (⟨4, ![2, 6, 128, 128]⟩ : Shape).Slices ![L.val, R.val, 0, 0] ⟨4, ![1, 1, 128, 128]⟩)
    (hc : (⟨4, ![1, 1, 128, 128]⟩ : Shape).ShapeCasts ⟨2, ![128, 128]⟩)
    (ht : (⟨2, ![128, 128]⟩ : Shape).Transposes [1, 0] ⟨2, ![128, 128]⟩) (k j : Fin 128) :
    transpose ⟨2, ![128, 128]⟩ [1, 0]
        (shapeCast ⟨2, ![128, 128]⟩ (extractStridedSlice ⟨4, ![1, 1, 128, 128]⟩ ![L.val, R.val, 0, 0] W hs) hc) ht (ix2 k j)
      = W (ix4 L R j k) :=
  (transpose_ix2_apply _ ht k j).trans (wSlice_apply W L R hs hc j k)

/-- Row `(L, R)` of a stack of 2 × n rows, cut out and cast to a vector: entry `j` is the stack's entry `(L, R, j)`. -/
theorem rSlice_apply {n : ℕ} (B : (⟨3, ![2, n, 128]⟩ : Shape).Idx → α) (L : Fin 2) (R : Fin n)
    (hs : (⟨3, ![2, n, 128]⟩ : Shape).Slices ![L.val, R.val, 0] ⟨3, ![1, 1, 128]⟩)
    (hc : (⟨3, ![1, 1, 128]⟩ : Shape).ShapeCasts ⟨1, ![128]⟩) (j : Fin 128) :
    shapeCast ⟨1, ![128]⟩ (extractStridedSlice ⟨3, ![1, 1, 128]⟩ ![L.val, R.val, 0] B hs) hc (ix1 j) = B (ix3 L R j) := by
  refine (shapeCast_apply _ hc (ix1 j) (ix3 (0 : Fin 1) (0 : Fin 1) j) (by
    rw [Shape.rowMajor_val_three, Shape.rowMajor_val_one]
    show (0 * 1 + 0) * 128 + j.val = j.val
    omega)).trans ?_
  refine extractStridedSlice_apply ![L.val, R.val, 0] B hs (ix3 (0 : Fin 1) (0 : Fin 1) j) (ix3 L R j) fun a => ?_
  match a with
  | ⟨0, _⟩ => show L.val = L.val + 0; omega
  | ⟨1, _⟩ => show R.val = R.val + 0; omega
  | ⟨2, _⟩ => show j.val = 0 + j.val; omega

end Slices

/-! ## Sums of three slices -/

section Sums

/-- The three self-weights `(L, 1)`, `(L, 3)`, `(L, 5)` added left to right, transposed. -/
theorem wSum3T_apply (W : (⟨4, ![2, 6, 128, 128]⟩ : Shape).Idx → EReal) (L : Fin 2)
    (hs1 : (⟨4, ![2, 6, 128, 128]⟩ : Shape).Slices ![L.val, (1 : Fin 6).val, 0, 0] ⟨4, ![1, 1, 128, 128]⟩)
    (hs3 : (⟨4, ![2, 6, 128, 128]⟩ : Shape).Slices ![L.val, (3 : Fin 6).val, 0, 0] ⟨4, ![1, 1, 128, 128]⟩)
    (hs5 : (⟨4, ![2, 6, 128, 128]⟩ : Shape).Slices ![L.val, (5 : Fin 6).val, 0, 0] ⟨4, ![1, 1, 128, 128]⟩)
    (hc : (⟨4, ![1, 1, 128, 128]⟩ : Shape).ShapeCasts ⟨2, ![128, 128]⟩)
    (ht : (⟨2, ![128, 128]⟩ : Shape).Transposes [1, 0] ⟨2, ![128, 128]⟩) (k j : Fin 128) :
    transpose ⟨2, ![128, 128]⟩ [1, 0]
        (addf (F := Ideal) (φ := .f32) (addf (F := Ideal) (φ := .f32)
          (shapeCast ⟨2, ![128, 128]⟩ (extractStridedSlice ⟨4, ![1, 1, 128, 128]⟩ ![L.val, (1 : Fin 6).val, 0, 0] W hs1) hc)
          (shapeCast ⟨2, ![128, 128]⟩ (extractStridedSlice ⟨4, ![1, 1, 128, 128]⟩ ![L.val, (3 : Fin 6).val, 0, 0] W hs3) hc))
          (shapeCast ⟨2, ![128, 128]⟩ (extractStridedSlice ⟨4, ![1, 1, 128, 128]⟩ ![L.val, (5 : Fin 6).val, 0, 0] W hs5) hc))
        ht (ix2 k j)
      = (W (ix4 L 1 j k) + W (ix4 L 3 j k)) + W (ix4 L 5 j k) := by
  rw [transpose_ix2_apply, addf_apply, addf_apply, wSlice_apply W L 1 hs1 hc, wSlice_apply W L 3 hs3 hc,
    wSlice_apply W L 5 hs5 hc]

/-- The three biases `(L, 1)`, `(L, 3)`, `(L, 5)` added left to right, as a one-row matrix. -/
theorem bSum3_apply (B : (⟨3, ![2, 6, 128]⟩ : Shape).Idx → EReal) (L : Fin 2)
    (hs1 : (⟨3, ![2, 6, 128]⟩ : Shape).Slices ![L.val, (1 : Fin 6).val, 0] ⟨3, ![1, 1, 128]⟩)
    (hs3 : (⟨3, ![2, 6, 128]⟩ : Shape).Slices ![L.val, (3 : Fin 6).val, 0] ⟨3, ![1, 1, 128]⟩)
    (hs5 : (⟨3, ![2, 6, 128]⟩ : Shape).Slices ![L.val, (5 : Fin 6).val, 0] ⟨3, ![1, 1, 128]⟩)
    (hc : (⟨3, ![1, 1, 128]⟩ : Shape).ShapeCasts ⟨1, ![128]⟩) (hr : (⟨1, ![128]⟩ : Shape).ShapeCasts ⟨2, ![1, 128]⟩)
    (z : Fin 1) (j : Fin 128) :
    shapeCast ⟨2, ![1, 128]⟩
        (addf (F := Ideal) (φ := .f32) (addf (F := Ideal) (φ := .f32)
          (shapeCast ⟨1, ![128]⟩ (extractStridedSlice ⟨3, ![1, 1, 128]⟩ ![L.val, (1 : Fin 6).val, 0] B hs1) hc)
          (shapeCast ⟨1, ![128]⟩ (extractStridedSlice ⟨3, ![1, 1, 128]⟩ ![L.val, (3 : Fin 6).val, 0] B hs3) hc))
          (shapeCast ⟨1, ![128]⟩ (extractStridedSlice ⟨3, ![1, 1, 128]⟩ ![L.val, (5 : Fin 6).val, 0] B hs5) hc))
        hr (ix2 z j)
      = (B (ix3 L 1 j) + B (ix3 L 3 j)) + B (ix3 L 5 j) := by
  rw [shapeCast_a_1a_apply, addf_apply, addf_apply, rSlice_apply B L 1 hs1 hc, rSlice_apply B L 3 hs3 hc, rSlice_apply B L 5 hs5 hc]

end Sums

/-! ## From the parts to the branch -/

/-- The patient branch of layer `L` from its parts. The weight windows hold the transposed slices and the sums of three
    (`h4 … h8`); the first region leaves the rows `Y` (`hY`) and, per core, their column sums and sums of squares
    (`hs`, `hq`); the host leaves the scale and shift rows (`hA`, `hB`); the second region leaves the rows scaled,
    shifted and clamped (`hout`). Then what it leaves is the branch's arithmetic over the stacked arrays. -/
theorem kPatient_of_parts (L : Fin 2)
    (Wl : (⟨4, ![2, 6, 128, 128]⟩ : Shape).Idx → EReal) (Bl : (⟨3, ![2, 6, 128]⟩ : Shape).Idx → EReal)
    (Wr : (⟨4, ![2, 6, 128, 128]⟩ : Shape).Idx → EReal) (G Be : (⟨3, ![2, 4, 128]⟩ : Shape).Idx → EReal)
    (ml md mm xp : (⟨2, ![100000, 128]⟩ : Shape).Idx → EReal)
    (a4 a5 a6 a7 : (⟨2, ![128, 128]⟩ : Shape).Idx → EReal) (a8 : (⟨2, ![1, 128]⟩ : Shape).Idx → EReal)
    (Y : (⟨2, ![100000, 128]⟩ : Shape).Idx → EReal) (s q : (⟨3, ![2, 1, 128]⟩ : Shape).Idx → EReal)
    (A B : (⟨2, ![1, 128]⟩ : Shape).Idx → EReal) (out : (⟨2, ![100000, 128]⟩ : Shape).Idx → EReal)
    (h4 : ∀ k j : Fin 128, a4 (ix2 k j) = Wl (ix4 L 1 j k))
    (h5 : ∀ k j : Fin 128, a5 (ix2 k j) = Wl (ix4 L 3 j k))
    (h6 : ∀ k j : Fin 128, a6 (ix2 k j) = Wl (ix4 L 5 j k))
    (h7 : ∀ k j : Fin 128, a7 (ix2 k j) = (Wr (ix4 L 1 j k) + Wr (ix4 L 3 j k)) + Wr (ix4 L 5 j k))
    (h8 : ∀ j : Fin 128, a8 (ix2 (0 : Fin 1) j) = (Bl (ix3 L 1 j) + Bl (ix3 L 3 j)) + Bl (ix3 L 5 j))
    (hY : ∀ (r : Fin 100000) (p : Fin 128), Y (ix2 r p)
      = (((a8 (ix2 (0 : Fin 1) p) + ∑ k : Fin 128, ml (ix2 r k) * a4 (ix2 k p))
          + ∑ k : Fin 128, md (ix2 r k) * a5 (ix2 k p))
        + ∑ k : Fin 128, mm (ix2 r k) * a6 (ix2 k p))
      + ∑ k : Fin 128, xp (ix2 r k) * a7 (ix2 k p))
    (hs : ∀ (c : Fin 2) (j : Fin 128), s (ix3 c (0 : Fin 1) j) = ∑ t : Fin 25, ∑ r : Fin 2000, Y (ix2 (row c t r) j))
    (hq : ∀ (c : Fin 2) (j : Fin 128), q (ix3 c (0 : Fin 1) j)
      = ∑ t : Fin 25, ∑ r : Fin 2000, Y (ix2 (row c t r) j) * Y (ix2 (row c t r) j))
    (hA : ∀ j : Fin 128, A (ix2 (0 : Fin 1) j) = G (ix3 L 0 j) * Ideal.rsqrt
          (Ideal.div (0 + ∑ c : Fin 2, q (ix3 c (0 : Fin 1) j)) (Ideal.ofBits .f32 0x47C35000#32)
            - Ideal.div (0 + ∑ c : Fin 2, s (ix3 c (0 : Fin 1) j)) (Ideal.ofBits .f32 0x47C35000#32)
              * Ideal.div (0 + ∑ c : Fin 2, s (ix3 c (0 : Fin 1) j)) (Ideal.ofBits .f32 0x47C35000#32)
            + Ideal.ofBits .f32 0x3727C5AC#32))
    (hB : ∀ j : Fin 128, B (ix2 (0 : Fin 1) j)
      = Be (ix3 L 0 j) - Ideal.div (0 + ∑ c : Fin 2, s (ix3 c (0 : Fin 1) j)) (Ideal.ofBits .f32 0x47C35000#32)
          * (G (ix3 L 0 j) * Ideal.rsqrt
              (Ideal.div (0 + ∑ c : Fin 2, q (ix3 c (0 : Fin 1) j)) (Ideal.ofBits .f32 0x47C35000#32)
                - Ideal.div (0 + ∑ c : Fin 2, s (ix3 c (0 : Fin 1) j)) (Ideal.ofBits .f32 0x47C35000#32)
                  * Ideal.div (0 + ∑ c : Fin 2, s (ix3 c (0 : Fin 1) j)) (Ideal.ofBits .f32 0x47C35000#32)
                + Ideal.ofBits .f32 0x3727C5AC#32)))
    (hout : ∀ i, out i = max (Y i * A (ix2 (0 : Fin 1) (i 1)) + B (ix2 (0 : Fin 1) (i 1))) 0) :
    out = kPatient L Wl Bl Wr G Be ml md mm xp := by
  have hYr : ∀ (r : Fin 100000) (p : Fin 128), Y (ix2 r p) = kRows L Wl Bl Wr ml md mm xp r p := fun r p => by
    rw [hY]
    unfold kRows kNewP wT bRow cur2
    simp only [h4, h5, h6, h7, h8]
  have hS : ∀ j : Fin 128, (0 : EReal) + ∑ c : Fin 2, s (ix3 c (0 : Fin 1) j) = kSum (kRows L Wl Bl Wr ml md mm xp) j :=
    fun j => by
      unfold kSum
      rw [Ideal.ofBits_zero_f32]
      simp only [hs, hYr]
  have hQ : ∀ j : Fin 128, (0 : EReal) + ∑ c : Fin 2, q (ix3 c (0 : Fin 1) j) = kSumSq (kRows L Wl Bl Wr ml md mm xp) j :=
    fun j => by
      unfold kSumSq
      rw [Ideal.ofBits_zero_f32]
      simp only [hq, hYr]
  have hAj : ∀ j : Fin 128, A (ix2 (0 : Fin 1) j)
      = kScale (kSum (kRows L Wl Bl Wr ml md mm xp)) (kSumSq (kRows L Wl Bl Wr ml md mm xp)) (gRow G L 0) j := fun j => by
    rw [hA, hS, hQ]; rfl
  have hBj : ∀ j : Fin 128, B (ix2 (0 : Fin 1) j)
      = kShift (kSum (kRows L Wl Bl Wr ml md mm xp)) (kSumSq (kRows L Wl Bl Wr ml md mm xp)) (gRow G L 0) (gRow Be L 0) j :=
    fun j => by
      rw [hB, hS, hQ]; rfl
  have key : ∀ (y : EReal) (j : Fin 128), max (y * A (ix2 (0 : Fin 1) j) + B (ix2 (0 : Fin 1) j)) 0
      = max (y * kScale (kSum (kRows L Wl Bl Wr ml md mm xp)) (kSumSq (kRows L Wl Bl Wr ml md mm xp)) (gRow G L 0) j
          + kShift (kSum (kRows L Wl Bl Wr ml md mm xp)) (kSumSq (kRows L Wl Bl Wr ml md mm xp)) (gRow G L 0) (gRow Be L 0) j) 0 :=
    fun y j => by rw [hAj, hBj]
  funext i
  have hYi : Y i = kRows L Wl Bl Wr ml md mm xp (i 0) (i 1) := by
    conv_lhs => rw [eq_ix2 i]
    exact hYr _ _
  rw [hout, hYi]
  exact key _ (i 1)

end Cert.Val

end
-- ==== Proof.KI.V5.lean ====
/- Region 5 of the kernel program, the values: the output array after the region as one function, index by index, of
   the three arrays the region is entered with — the rectified affine image  max (y·a + b, 0)  with the coefficient
   rows a, b broadcast along the rows. -/
import proofs.«424088_j28020366639260_2_alg».proof.Proof.KI.R5
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (V : (c : Dev nD) → (b : Ref sig .tc) → Buf (Elt F) ((c : Thread nD τ).loc b))

theorem hz5 : (![0, 0] : Fin 2 → Nat) = fun _ => 0 := funext fun a => by fin_cases a <;> rfl

/-! ## The payload, opened -/

/-- The coefficient rows' index under an index of the row block: row 0, the same column. -/
def row5 (j : S2000x128.Idx) : S1x128.Idx := fun a => match a with
  | ⟨0, _⟩ => ⟨0, Nat.one_pos⟩
  | ⟨1, _⟩ => j 1

/-- The coefficient rows' index under an index of the whole array: row 0, the same column. -/
def col5 (i : S100000x128.Idx) : S1x128.Idx := fun a => match a with
  | ⟨0, _⟩ => ⟨0, Nat.one_pos⟩
  | ⟨1, _⟩ => i 1

/-- The payload at an index of the row block: the block's element times the scale row's element of that column,
    plus the shift row's, then the larger of that and zero. -/
theorem pay5_apply (y : Vec F S2000x128 .f32) (a b : Vec F S1x128 .f32) (j : S2000x128.Idx) :
    k5_pay1 y a b j
      = FloatOps.maximumf (FloatOps.addf (FloatOps.mulf (y j) (a (row5 j))) (b (row5 j))) (Scalar.ofBits .f32 0x00000000#32) := by
  have hk : ∀ x : Fin S1x128.rank, (row5 j x).val
      = if S1x128.size x = 1 then 0 else (j ⟨x.val + (S2000x128.rank - S1x128.rank), by have := x.isLt; show _ < 2; omega⟩).val := by
    intro x
    match x with
    | ⟨0, _⟩ => rfl
    | ⟨1, _⟩ => rfl
  unfold k5_pay1
  simp only [shapeCast_self]
  show FloatOps.maximumf (FloatOps.addf (FloatOps.mulf (y j) (broadcastTo S2000x128 a broadcasts_S1x128_S2000x128 j))
    (broadcastTo S2000x128 b broadcasts_S1x128_S2000x128 j)) (Scalar.ofBits .f32 0x00000000#32) = _
  rw [broadcastTo_apply a _ j (row5 j) hk, broadcastTo_apply b _ j (row5 j) hk]

/-! ## The output array -/

/-- What the output array ends holding: at every index the rectified affine image of the input array's element
    under its column's coefficients. -/
def G5_3 (Y : S100000x128.Idx → Elt F .f32) (A B : S1x128.Idx → Elt F .f32) : S100000x128.Idx → Elt F .f32 :=
  fun i => FloatOps.maximumf (FloatOps.addf (FloatOps.mulf (Y i) (A (col5 i))) (B (col5 i))) (Scalar.ofBits .f32 0x00000000#32)

/-- The index maps over the grid, decided: the input row block moves with the output row block, whose block index is
    the grid point on the row axis and zero on the column axis; the coefficient rows stay at block zero. -/
theorem idx_facts5 : ∀ t : Fin cfg5.N, win5_0.index t (0 : Fin 2) = win5_3.index t (0 : Fin 2)
    ∧ win5_0.index t (1 : Fin 2) = win5_3.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What grid point `t` writes back is block `t` of `G5_3` of the entry arrays. -/
theorem flushed5_3_eq (c : Dev nD) (t : Fin cfg5.N) :
    (dat5 V c).flushed 3 t = ((cfg5.win 3).blk t).view.read (Elt F)
      (G5_3 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S2000x128) hz5, View.ld_unit_zero (S := S1x128) hz5]
  obtain ⟨e0, e1, e2, e3, e4, e5, e6, e7⟩ := idx_facts5 t
  funext j
  show k5_pay1 (iblk5 V c 0 t) (iblk5 V c 1 t) (iblk5 V c 2 t) j = _
  rw [pay5_apply]
  show FloatOps.maximumf (FloatOps.addf (FloatOps.mulf
        (V c (Pipeline.arrRef spec5 0) (((cfg5.win 0).blk t).view.emb j))
        (V c (Pipeline.arrRef spec5 1) (((cfg5.win 1).blk t).view.emb (row5 j))))
        (V c (Pipeline.arrRef spec5 2) (((cfg5.win 2).blk t).view.emb (row5 j)))) (Scalar.ofBits .f32 0x00000000#32)
    = FloatOps.maximumf (FloatOps.addf (FloatOps.mulf
        (V c (Pipeline.arrRef spec5 0) (((cfg5.win 3).blk t).view.emb j))
        (V c (Pipeline.arrRef spec5 1) (col5 (((cfg5.win 3).blk t).view.emb j))))
        (V c (Pipeline.arrRef spec5 2) (col5 (((cfg5.win 3).blk t).view.emb j)))) (Scalar.ofBits .f32 0x00000000#32)
  have h0 : ((cfg5.win 0).blk t).view.emb j = ((cfg5.win 3).blk t).view.emb j := by
    funext x; apply Fin.ext
    match x with
    | ⟨0, _⟩ => show win5_0.index t (0 : Fin 2) * 2000 + 1 * (j 0).val = win5_3.index t (0 : Fin 2) * 2000 + 1 * (j 0).val; omega
    | ⟨1, _⟩ => show win5_0.index t (1 : Fin 2) * 128 + 1 * (j 1).val = win5_3.index t (1 : Fin 2) * 128 + 1 * (j 1).val; omega
  have h1 : ((cfg5.win 1).blk t).view.emb (row5 j) = col5 (((cfg5.win 3).blk t).view.emb j) := by
    funext x; apply Fin.ext
    match x with
    | ⟨0, _⟩ => show win5_1.index t (0 : Fin 2) * 1 + 1 * 0 = 0; omega
    | ⟨1, _⟩ => show win5_1.index t (1 : Fin 2) * 128 + 1 * (j 1).val = win5_3.index t (1 : Fin 2) * 128 + 1 * (j 1).val; omega
  have h2 : ((cfg5.win 2).blk t).view.emb (row5 j) = col5 (((cfg5.win 3).blk t).view.emb j) := by
    funext x; apply Fin.ext
    match x with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega
  rw [h0, h1, h2]

/-- An index of the output array is in grid point `t`'s block iff each coordinate is in the block's range. -/
theorem mem_blk5_3 (t : Fin cfg5.N) (i : S100000x128.Idx) :
    i ∈ ((cfg5.win 3).blk t).view.set ↔ ∀ a : Fin 2, win5_3.index t a * S2000x128.size a ≤ (i a).val
      ∧ (i a).val < win5_3.index t a * S2000x128.size a + S2000x128.size a := by
  have hs : ((cfg5.win 3).blk t).view.set = (win5_3.rect t).set := View.set_slice_whole _ _
  rw [hs, Rect.mem_set_unit]
  exact Iff.rfl

/-- Every index of the output array is in the block of the grid point its row falls under. -/
theorem covered5_3 (i : S100000x128.Idx) :
    ∃ t : Fin cfg5.N, (cfg5.win 3).flush t = true ∧ i ∈ ((cfg5.win 3).blk t).view.set := by
  have hN : cfg5.N = 50 := N_5
  have hi0 : (i 0).val < 100000 := (i 0).isLt
  have hi1 : (i 1).val < 128 := (i 1).isLt
  refine ⟨⟨(i 0).val / 2000, by omega⟩, flush5_3 _, ?_⟩
  rw [mem_blk5_3]
  obtain ⟨-, -, -, -, -, -, e6, e7⟩ := idx_facts5 ⟨(i 0).val / 2000, by omega⟩
  intro a
  match a with
  | ⟨0, _⟩ =>
    show win5_3.index _ (0 : Fin 2) * 2000 ≤ (i 0).val ∧ (i 0).val < win5_3.index _ (0 : Fin 2) * 2000 + 2000
    rw [e6]; dsimp only; omega
  | ⟨1, _⟩ =>
    show win5_3.index _ (1 : Fin 2) * 128 ≤ (i 1).val ∧ (i 1).val < win5_3.index _ (1 : Fin 2) * 128 + 128
    rw [e7]; omega

/-- THE OUTPUT ARRAY after the region, for any float values: index by index, the larger of zero and the input
    array's element times its column's scale plus its column's shift. -/
theorem arrAt5_3 (c : Dev nD) : (dat5 V c).arrAt 3 cfg5.N
    = fun i => FloatOps.maximumf (FloatOps.addf (FloatOps.mulf (V c (Pipeline.arrRef spec5 0) i)
        (V c (Pipeline.arrRef spec5 1) (col5 i))) (V c (Pipeline.arrRef spec5 2) (col5 i))) (Scalar.ofBits .f32 0x00000000#32) :=
  (dat5 V c).arrAt_eq_of_cover 3
    (G5_3 (V c (Pipeline.arrRef spec5 0)) (V c (Pipeline.arrRef spec5 1)) (V c (Pipeline.arrRef spec5 2)))
    (fun t _ => flushed5_3_eq V c t) covered5_3

/-- The rectified affine image over the extended reals, index by index. -/
def reluAffine5 (Y : S100000x128.Idx → EReal) (A B : S1x128.Idx → EReal) : S100000x128.Idx → EReal :=
  fun i => max (Y i * A (col5 i) + B (col5 i)) 0

theorem reluAffine5_apply (Y : S100000x128.Idx → EReal) (A B : S1x128.Idx → EReal) (i : S100000x128.Idx) :
    reluAffine5 Y A B i = max (Y i * A (col5 i) + B (col5 i)) 0 := rfl

/-- The same over the extended reals: the operations are the exact ones, the constant is zero. -/
theorem arrAt5_3_ideal (V : (c : Dev nD) → (b : Ref sig .tc) → Buf (Elt Ideal) ((c : Thread nD τ).loc b)) (c : Dev nD) :
    (dat5 V c).arrAt 3 cfg5.N
      = reluAffine5 (V c (Pipeline.arrRef spec5 0)) (V c (Pipeline.arrRef spec5 1)) (V c (Pipeline.arrRef spec5 2)) := by
  rw [arrAt5_3]
  funext i
  show max (_ * _ + _) (Ideal.ofBits .f32 0x00000000#32) = max (_ * _ + _) 0
  rw [Ideal.ofBits_zero_f32]

/-- The input arrays are as the region found them. -/
theorem arrAt5_0 (c : Dev nD) : (dat5 V c).arrAt 0 cfg5.N = V c (Pipeline.arrRef spec5 0) :=
  ((dat5 V c).arrAt_in 0 rfl _).trans (A_eq5 V c 0)
theorem arrAt5_1 (c : Dev nD) : (dat5 V c).arrAt 1 cfg5.N = V c (Pipeline.arrRef spec5 1) :=
  ((dat5 V c).arrAt_in 1 rfl _).trans (A_eq5 V c 1)
theorem arrAt5_2 (c : Dev nD) : (dat5 V c).arrAt 2 cfg5.N = V c (Pipeline.arrRef spec5 2) :=
  ((dat5 V c).arrAt_in 2 rfl _).trans (A_eq5 V c 2)

end Cert.KernelIdeal.Hand

end
-- ==== Proof.Val.PatientK2.lean ====
/- The kernel program's side of the patient branch of the first graph layer, second half: from the rows before
   normalisation and the two cores' column sums of the rows and of their squares, the host stretch forms the column
   scale  g · rsqrt (Q / n − S / n · S / n + ε)  and shift  β − S / n · scale  (S, Q the two cores' parts added from
   zero; g, β the first rows of the layer's gains and offsets), and the next region leaves, index by index, the larger
   of zero and the row's entry times its column's scale plus its column's shift. -/
import proofs.«424088_j28020366639260_2_alg».proof.Proof.KI.Fold
import proofs.«424088_j28020366639260_2_alg».proof.Proof.KI.Args
import proofs.«424088_j28020366639260_2_alg».proof.Proof.KI.V5
import proofs.«424088_j28020366639260_2_alg».proof.Proof.Val.BnRead
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open scoped BigOperators

/-! ## Two readings used by both layers -/

/-- Row (ℓ, 0) of a stack of gains or offsets, sliced out and cast to a vector: entry k is entry (ℓ, 0, k). -/
theorem sliceGain_apply {α : Type} (G : S2x4x128.Idx → α) (ℓ : Fin 2)
    (hs : S2x4x128.Slices ![ℓ.val, 0, 0] S1x1x128) (hc : S1x1x128.ShapeCasts S128) (k : Fin 128) :
    shapeCast S128 (extractStridedSlice S1x1x128 ![ℓ.val, 0, 0] G hs) hc (ix1 k) = G (ix3 ℓ (0 : Fin 4) k) := by
  refine (shapeCast_apply _ hc (ix1 k) (ix3 (0 : Fin 1) (0 : Fin 1) k) (by
    rw [Shape.rowMajor_val_three, Shape.rowMajor_val_one]
    show (0 * 1 + 0) * 128 + k.val = k.val
    omega)).trans ?_
  refine extractStridedSlice_apply ![ℓ.val, 0, 0] G hs (ix3 (0 : Fin 1) (0 : Fin 1) k) (ix3 ℓ (0 : Fin 4) k) fun a => ?_
  match a with
  | ⟨0, _⟩ => show ℓ.val = ℓ.val + 0; omega
  | ⟨1, _⟩ => show 0 = 0 + 0; omega
  | ⟨2, _⟩ => show k.val = 0 + k.val; omega

/-- The coefficient rows' index under an index of the whole array is row 0 at the same column. -/
theorem col5_eq (i : S100000x128.Idx) : col5 i = ix2 (0 : Fin 1) (i 1) := by
  funext a
  match a with
  | ⟨0, _⟩ => rfl
  | ⟨1, _⟩ => rfl

variable (m : (ℓ : Loc nD τ sig) → Buf (Elt Ideal) ℓ) (ρ : Dev nD → PrngReg) (c : Dev nD)

/-! ## The first layer -/

/-- What this half starts from, at the literal types: the layer's gains and offsets, the rows before normalisation,
    the two cores' column sums and sums of squares; and what the host stretch leaves: the scale and shift rows. -/
abbrev pG1 : S2x4x128.Idx → EReal := W8 m ρ c (Proc.devRef .tc main_arg15)
abbrev pBe1 : S2x4x128.Idx → EReal := W8 m ρ c (Proc.devRef .tc main_arg16)
abbrev pY1 : S100000x128.Idx → EReal := W9 m ρ c (Proc.devRef .tc main_v203_0)
abbrev pS1 : S2x1x128.Idx → EReal := W9 m ρ c (Proc.devRef .tc main_v203_1)
abbrev pQ1 : S2x1x128.Idx → EReal := W9 m ρ c (Proc.devRef .tc main_v203_2)
abbrev pA1 : S1x128.Idx → EReal := W10 m ρ c (Proc.devRef .tc main_v222)
abbrev pB1 : S1x128.Idx → EReal := W10 m ρ c (Proc.devRef .tc main_v223)

/-- The gains and offsets as the host stretch reads them (after the region before it) are those before that region:
    the region does not write them. -/
theorem pG1_kept : (W9 m ρ c (Proc.devRef .tc main_arg15) : S2x4x128.Idx → EReal) = pG1 m ρ c :=
  Wexit4_keep m ρ c main_arg15 (by decide)
theorem pBe1_kept : (W9 m ρ c (Proc.devRef .tc main_arg16) : S2x4x128.Idx → EReal) = pBe1 m ρ c :=
  Wexit4_keep m ρ c main_arg16 (by decide)

/-- The first row of the gains, and of the offsets, as the host slices them out. -/
abbrev pg1 : S128.Idx → EReal :=
  shapeCast S128 (extractStridedSlice S1x1x128 ![0, 0, 0] (W9 m ρ c (Proc.devRef .tc main_arg15) : S2x4x128.Idx → EReal)
    slices_S2x4x128_S1x1x128_0_0_0) shapeCasts_S1x1x128_S128
abbrev pbe1 : S128.Idx → EReal :=
  shapeCast S128 (extractStridedSlice S1x1x128 ![0, 0, 0] (W9 m ρ c (Proc.devRef .tc main_arg16) : S2x4x128.Idx → EReal)
    slices_S2x4x128_S1x1x128_0_0_0) shapeCasts_S1x1x128_S128

set_option maxHeartbeats 1000000 in
/-- The scale row the host stretch leaves. -/
theorem K2_sc1 : pA1 m ρ c
    = shapeCast S1x128 (kerScaleVec (pS1 m ρ c) (pQ1 m ρ c) (pg1 m ρ c) reducesTo_S2x1x128_S128_d0_1 h_S_ bcast_S_S128)
        shapeCasts_S128_S1x128 := by
  show StableHlo.after hostOps5 (W9 m ρ c) (Proc.devRef .tc main_v222) = _
  after_results_simp
  first | done | rfl

set_option maxHeartbeats 1000000 in
/-- The shift row the host stretch leaves. -/
theorem K2_sh1 : pB1 m ρ c
    = shapeCast S1x128 (kerShiftVec (pS1 m ρ c) (pQ1 m ρ c) (pg1 m ρ c) (pbe1 m ρ c) reducesTo_S2x1x128_S128_d0_1 h_S_ bcast_S_S128)
        shapeCasts_S128_S1x128 := by
  show StableHlo.after hostOps5 (W9 m ρ c) (Proc.devRef .tc main_v223) = _
  after_results_simp
  first | done | rfl

/-- The sliced rows are the first rows of the gains and offsets. -/
theorem pg1_apply (j : Fin 128) : pg1 m ρ c (ix1 j) = pG1 m ρ c (ix3 (0 : Fin 2) (0 : Fin 4) j) :=
  (sliceGain_apply _ (0 : Fin 2) slices_S2x4x128_S1x1x128_0_0_0 shapeCasts_S1x1x128_S128 j).trans
    (congrFun (pG1_kept m ρ c) _)
theorem pbe1_apply (j : Fin 128) : pbe1 m ρ c (ix1 j) = pBe1 m ρ c (ix3 (0 : Fin 2) (0 : Fin 4) j) :=
  (sliceGain_apply _ (0 : Fin 2) slices_S2x4x128_S1x1x128_0_0_0 shapeCasts_S1x1x128_S128 j).trans
    (congrFun (pBe1_kept m ρ c) _)

/-- THE SCALE at column j. -/
theorem K2_scale1 (j : Fin 128) : pA1 m ρ c (ix2 (0 : Fin 1) j)
    = pG1 m ρ c (ix3 (0 : Fin 2) (0 : Fin 4) j) * Ideal.rsqrt
        (Ideal.div (0 + ∑ c' : Fin 2, pQ1 m ρ c (ix3 c' (0 : Fin 1) j)) (Ideal.ofBits .f32 0x47C35000#32)
          - Ideal.div (0 + ∑ c' : Fin 2, pS1 m ρ c (ix3 c' (0 : Fin 1) j)) (Ideal.ofBits .f32 0x47C35000#32)
            * Ideal.div (0 + ∑ c' : Fin 2, pS1 m ρ c (ix3 c' (0 : Fin 1) j)) (Ideal.ofBits .f32 0x47C35000#32)
          + Ideal.ofBits .f32 0x3727C5AC#32) :=
  (congrFun (K2_sc1 m ρ c) (ix2 (0 : Fin 1) j)).trans ((vecRow_apply _ _ (0 : Fin 1) j).trans
    ((kerScaleVec_apply _ _ _ _ _ _ j).trans (congrArg (· * _) (pg1_apply m ρ c j))))

/-- THE SHIFT at column j. -/
theorem K2_shift1 (j : Fin 128) : pB1 m ρ c (ix2 (0 : Fin 1) j)
    = pBe1 m ρ c (ix3 (0 : Fin 2) (0 : Fin 4) j)
      - Ideal.div (0 + ∑ c' : Fin 2, pS1 m ρ c (ix3 c' (0 : Fin 1) j)) (Ideal.ofBits .f32 0x47C35000#32)
        * (pG1 m ρ c (ix3 (0 : Fin 2) (0 : Fin 4) j) * Ideal.rsqrt
            (Ideal.div (0 + ∑ c' : Fin 2, pQ1 m ρ c (ix3 c' (0 : Fin 1) j)) (Ideal.ofBits .f32 0x47C35000#32)
              - Ideal.div (0 + ∑ c' : Fin 2, pS1 m ρ c (ix3 c' (0 : Fin 1) j)) (Ideal.ofBits .f32 0x47C35000#32)
                * Ideal.div (0 + ∑ c' : Fin 2, pS1 m ρ c (ix3 c' (0 : Fin 1) j)) (Ideal.ofBits .f32 0x47C35000#32)
              + Ideal.ofBits .f32 0x3727C5AC#32)) :=
  (congrFun (K2_sh1 m ρ c) (ix2 (0 : Fin 1) j)).trans ((vecRow_apply _ _ (0 : Fin 1) j).trans
    ((kerShiftVec_apply _ _ _ _ _ _ _ j).trans (congrArg₂ (· - ·) (pbe1_apply m ρ c j)
      (congrArg (_ * ·) ((kerScaleVec_apply _ _ _ _ _ _ j).trans (congrArg (· * _) (pg1_apply m ρ c j)))))))

/-- The rows pass the host stretch untouched. -/
theorem pY1_kept : (W10 m ρ c (Proc.devRef .tc main_v203_0) : S100000x128.Idx → EReal) = pY1 m ρ c :=
  W10_of m ρ c main_v203_0 (by decide)

/-- THE OUTPUT of the next region, index by index. -/
theorem K2_out1 (i : S100000x128.Idx) : (W11 m ρ c (Proc.devRef .tc main_v224) : S100000x128.Idx → EReal) i
    = max (pY1 m ρ c i * pA1 m ρ c (ix2 (0 : Fin 1) (i 1)) + pB1 m ρ c (ix2 (0 : Fin 1) (i 1))) 0 := by
  have h : (W11 m ρ c (Proc.devRef .tc main_v224) : S100000x128.Idx → EReal)
      = reluAffine5 (W10 m ρ c (Proc.devRef .tc main_v203_0)) (pA1 m ρ c) (pB1 m ρ c) :=
    (Wexit5_arr m ρ c 3).trans (arrAt5_3_ideal (VE5 m ρ) c)
  rw [h, reluAffine5_apply, col5_eq, pY1_kept]
  rfl

end Cert.Val

end
-- ==== Proof.KI.V13.lean ====
/- Region 13 of the kernel program, the values: the output array after the region as one function, index by index, of
   the three arrays the region is entered with — the rectified affine image  max (y·a + b, 0)  with the coefficient
   rows a, b broadcast along the rows. -/
import proofs.«424088_j28020366639260_2_alg».proof.Proof.KI.R13
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (V : (c : Dev nD) → (b : Ref sig .tc) → Buf (Elt F) ((c : Thread nD τ).loc b))

theorem hz13 : (![0, 0] : Fin 2 → Nat) = fun _ => 0 := funext fun a => by fin_cases a <;> rfl

/-! ## The payload, opened -/

/-- The coefficient rows' index under an index of the row block: row 0, the same column. -/
def row13 (j : S2000x128.Idx) : S1x128.Idx := fun a => match a with
  | ⟨0, _⟩ => ⟨0, Nat.one_pos⟩
  | ⟨1, _⟩ => j 1

/-- The coefficient rows' index under an index of the whole array: row 0, the same column. -/
def col13 (i : S100000x128.Idx) : S1x128.Idx := fun a => match a with
  | ⟨0, _⟩ => ⟨0, Nat.one_pos⟩
  | ⟨1, _⟩ => i 1

/-- The payload at an index of the row block: the block's element times the scale row's element of that column,
    plus the shift row's, then the larger of that and zero. -/
theorem pay13_apply (y : Vec F S2000x128 .f32) (a b : Vec F S1x128 .f32) (j : S2000x128.Idx) :
    k13_pay1 y a b j
      = FloatOps.maximumf (FloatOps.addf (FloatOps.mulf (y j) (a (row13 j))) (b (row13 j))) (Scalar.ofBits .f32 0x00000000#32) := by
  have hk : ∀ x : Fin S1x128.rank, (row13 j x).val
      = if S1x128.size x = 1 then 0 else (j ⟨x.val + (S2000x128.rank - S1x128.rank), by have := x.isLt; show _ < 2; omega⟩).val := by
    intro x
    match x with
    | ⟨0, _⟩ => rfl
    | ⟨1, _⟩ => rfl
  unfold k13_pay1
  simp only [shapeCast_self]
  show FloatOps.maximumf (FloatOps.addf (FloatOps.mulf (y j) (broadcastTo S2000x128 a broadcasts_S1x128_S2000x128 j))
    (broadcastTo S2000x128 b broadcasts_S1x128_S2000x128 j)) (Scalar.ofBits .f32 0x00000000#32) = _
  rw [broadcastTo_apply a _ j (row13 j) hk, broadcastTo_apply b _ j (row13 j) hk]

/-! ## The output array -/

/-- What the output array ends holding: at every index the rectified affine image of the input array's element
    under its column's coefficients. -/
def G13_3 (Y : S100000x128.Idx → Elt F .f32) (A B : S1x128.Idx → Elt F .f32) : S100000x128.Idx → Elt F .f32 :=
  fun i => FloatOps.maximumf (FloatOps.addf (FloatOps.mulf (Y i) (A (col13 i))) (B (col13 i))) (Scalar.ofBits .f32 0x00000000#32)

/-- The index maps over the grid, decided: the input row block moves with the output row block, whose block index is
    the grid point on the row axis and zero on the column axis; the coefficient rows stay at block zero. -/
theorem idx_facts13 : ∀ t : Fin cfg13.N, win13_0.index t (0 : Fin 2) = win13_3.index t (0 : Fin 2)
    ∧ win13_0.index t (1 : Fin 2) = win13_3.index t (1 : Fin 2)
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- What grid point `t` writes back is block `t` of `G13_3` of the entry arrays. -/
theorem flushed13_3_eq (c : Dev nD) (t : Fin cfg13.N) :
    (dat13 V c).flushed 3 t = ((cfg13.win 3).blk t).view.read (Elt F)
      (G13_3 (V c (Pipeline.arrRef spec13 0)) (V c (Pipeline.arrRef spec13 1)) (V c (Pipeline.arrRef spec13 2))) := by
  show (cfg13.win 3).cut (grid13.coords t) ((dat13 V c).after 3 t) = _
  rw [after13_3]
  unfold out13_3
  rw [View.canon_unit_zero hz13]
  simp only [View.ld_unit_zero (S := S2000x128) hz13, View.ld_unit_zero (S := S1x128) hz13]
  obtain ⟨e0, e1, e2, e3, e4, e13, e6, e7⟩ := idx_facts13 t
  funext j
  show k13_pay1 (iblk13 V c 0 t) (iblk13 V c 1 t) (iblk13 V c 2 t) j = _
  rw [pay13_apply]
  show FloatOps.maximumf (FloatOps.addf (FloatOps.mulf
        (V c (Pipeline.arrRef spec13 0) (((cfg13.win 0).blk t).view.emb j))
        (V c (Pipeline.arrRef spec13 1) (((cfg13.win 1).blk t).view.emb (row13 j))))
        (V c (Pipeline.arrRef spec13 2) (((cfg13.win 2).blk t).view.emb (row13 j)))) (Scalar.ofBits .f32 0x00000000#32)
    = FloatOps.maximumf (FloatOps.addf (FloatOps.mulf
        (V c (Pipeline.arrRef spec13 0) (((cfg13.win 3).blk t).view.emb j))
        (V c (Pipeline.arrRef spec13 1) (col13 (((cfg13.win 3).blk t).view.emb j))))
        (V c (Pipeline.arrRef spec13 2) (col13 (((cfg13.win 3).blk t).view.emb j)))) (Scalar.ofBits .f32 0x00000000#32)
  have h0 : ((cfg13.win 0).blk t).view.emb j = ((cfg13.win 3).blk t).view.emb j := by
    funext x; apply Fin.ext
    match x with
    | ⟨0, _⟩ => show win13_0.index t (0 : Fin 2) * 2000 + 1 * (j 0).val = win13_3.index t (0 : Fin 2) * 2000 + 1 * (j 0).val; omega
    | ⟨1, _⟩ => show win13_0.index t (1 : Fin 2) * 128 + 1 * (j 1).val = win13_3.index t (1 : Fin 2) * 128 + 1 * (j 1).val; omega
  have h1 : ((cfg13.win 1).blk t).view.emb (row13 j) = col13 (((cfg13.win 3).blk t).view.emb j) := by
    funext x; apply Fin.ext
    match x with
    | ⟨0, _⟩ => show win13_1.index t (0 : Fin 2) * 1 + 1 * 0 = 0; omega
    | ⟨1, _⟩ => show win13_1.index t (1 : Fin 2) * 128 + 1 * (j 1).val = win13_3.index t (1 : Fin 2) * 128 + 1 * (j 1).val; omega
  have h2 : ((cfg13.win 2).blk t).view.emb (row13 j) = col13 (((cfg13.win 3).blk t).view.emb j) := by
    funext x; apply Fin.ext
    match x with
    | ⟨0, _⟩ => show win13_2.index t (0 : Fin 2) * 1 + 1 * 0 = 0; omega
    | ⟨1, _⟩ => show win13_2.index t (1 : Fin 2) * 128 + 1 * (j 1).val = win13_3.index t (1 : Fin 2) * 128 + 1 * (j 1).val; omega
  rw [h0, h1, h2]

/-- An index of the output array is in grid point `t`'s block iff each coordinate is in the block's range. -/
theorem mem_blk13_3 (t : Fin cfg13.N) (i : S100000x128.Idx) :
    i ∈ ((cfg13.win 3).blk t).view.set ↔ ∀ a : Fin 2, win13_3.index t a * S2000x128.size a ≤ (i a).val
      ∧ (i a).val < win13_3.index t a * S2000x128.size a + S2000x128.size a := by
  have hs : ((cfg13.win 3).blk t).view.set = (win13_3.rect t).set := View.set_slice_whole _ _
  rw [hs, Rect.mem_set_unit]
  exact Iff.rfl

/-- Every index of the output array is in the block of the grid point its row falls under. -/
theorem covered13_3 (i : S100000x128.Idx) :
    ∃ t : Fin cfg13.N, (cfg13.win 3).flush t = true ∧ i ∈ ((cfg13.win 3).blk t).view.set := by
  have hN : cfg13.N = 50 := N_13
  have hi0 : (i 0).val < 100000 := (i 0).isLt
  have hi1 : (i 1).val < 128 := (i 1).isLt
  refine ⟨⟨(i 0).val / 2000, by omega⟩, flush13_3 _, ?_⟩
  rw [mem_blk13_3]
  obtain ⟨-, -, -, -, -, -, e6, e7⟩ := idx_facts13 ⟨(i 0).val / 2000, by omega⟩
  intro a
  match a with
  | ⟨0, _⟩ =>
    show win13_3.index _ (0 : Fin 2) * 2000 ≤ (i 0).val ∧ (i 0).val < win13_3.index _ (0 : Fin 2) * 2000 + 2000
    rw [e6]; dsimp only; omega
  | ⟨1, _⟩ =>
    show win13_3.index _ (1 : Fin 2) * 128 ≤ (i 1).val ∧ (i 1).val < win13_3.index _ (1 : Fin 2) * 128 + 128
    rw [e7]; omega

/-- THE OUTPUT ARRAY after the region, for any float values: index by index, the larger of zero and the input
    array's element times its column's scale plus its column's shift. -/
theorem arrAt13_3 (c : Dev nD) : (dat13 V c).arrAt 3 cfg13.N
    = fun i => FloatOps.maximumf (FloatOps.addf (FloatOps.mulf (V c (Pipeline.arrRef spec13 0) i)
        (V c (Pipeline.arrRef spec13 1) (col13 i))) (V c (Pipeline.arrRef spec13 2) (col13 i))) (Scalar.ofBits .f32 0x00000000#32) :=
  (dat13 V c).arrAt_eq_of_cover 3
    (G13_3 (V c (Pipeline.arrRef spec13 0)) (V c (Pipeline.arrRef spec13 1)) (V c (Pipeline.arrRef spec13 2)))
    (fun t _ => flushed13_3_eq V c t) covered13_3

/-- The rectified affine image over the extended reals, index by index. -/
def reluAffine13 (Y : S100000x128.Idx → EReal) (A B : S1x128.Idx → EReal) : S100000x128.Idx → EReal :=
  fun i => max (Y i * A (col13 i) + B (col13 i)) 0

theorem reluAffine13_apply (Y : S100000x128.Idx → EReal) (A B : S1x128.Idx → EReal) (i : S100000x128.Idx) :
    reluAffine13 Y A B i = max (Y i * A (col13 i) + B (col13 i)) 0 := rfl

/-- The same over the extended reals: the operations are the exact ones, the constant is zero. -/
theorem arrAt13_3_ideal (V : (c : Dev nD) → (b : Ref sig .tc) → Buf (Elt Ideal) ((c : Thread nD τ).loc b)) (c : Dev nD) :
    (dat13 V c).arrAt 3 cfg13.N
      = reluAffine13 (V c (Pipeline.arrRef spec13 0)) (V c (Pipeline.arrRef spec13 1)) (V c (Pipeline.arrRef spec13 2)) := by
  rw [arrAt13_3]
  funext i
  show max (_ * _ + _) (Ideal.ofBits .f32 0x00000000#32) = max (_ * _ + _) 0
  rw [Ideal.ofBits_zero_f32]

/-- The input arrays are as the region found them. -/
theorem arrAt13_0 (c : Dev nD) : (dat13 V c).arrAt 0 cfg13.N = V c (Pipeline.arrRef spec13 0) :=
  ((dat13 V c).arrAt_in 0 rfl _).trans (A_eq13 V c 0)
theorem arrAt13_1 (c : Dev nD) : (dat13 V c).arrAt 1 cfg13.N = V c (Pipeline.arrRef spec13 1) :=
  ((dat13 V c).arrAt_in 1 rfl _).trans (A_eq13 V c 1)
theorem arrAt13_2 (c : Dev nD) : (dat13 V c).arrAt 2 cfg13.N = V c (Pipeline.arrRef spec13 2) :=
  ((dat13 V c).arrAt_in 2 rfl _).trans (A_eq13 V c 2)

end Cert.KernelIdeal.Hand

end
-- ==== Proof.Val.PatientK2b.lean ====
/- The kernel program's side of the patient branch of the second graph layer, second half: from the rows before
   normalisation and the two cores' column sums of the rows and of their squares, the host stretch forms the column
   scale  g · rsqrt (Q / n − S / n · S / n + ε)  and shift  β − S / n · scale  (S, Q the two cores' parts added from
   zero; g, β the first rows of the layer's gains and offsets), and the next region leaves, index by index, the larger
   of zero and the row's entry times its column's scale plus its column's shift. -/
import proofs.«424088_j28020366639260_2_alg».proof.Proof.KI.Fold
import proofs.«424088_j28020366639260_2_alg».proof.Proof.KI.Args
import proofs.«424088_j28020366639260_2_alg».proof.Proof.KI.V13
import proofs.«424088_j28020366639260_2_alg».proof.Proof.Val.BnRead
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open scoped BigOperators

/-! ## Two readings used by both layers -/

/-- Row (ℓ, 0) of a stack of gains or offsets, sliced out and cast to a vector: entry k is entry (ℓ, 0, k). -/
theorem sliceGainB_apply {α : Type} (G : S2x4x128.Idx → α) (ℓ : Fin 2)
    (hs : S2x4x128.Slices ![ℓ.val, 0, 0] S1x1x128) (hc : S1x1x128.ShapeCasts S128) (k : Fin 128) :
    shapeCast S128 (extractStridedSlice S1x1x128 ![ℓ.val, 0, 0] G hs) hc (ix1 k) = G (ix3 ℓ (0 : Fin 4) k) := by
  refine (shapeCast_apply _ hc (ix1 k) (ix3 (0 : Fin 1) (0 : Fin 1) k) (by
    rw [Shape.rowMajor_val_three, Shape.rowMajor_val_one]
    show (0 * 1 + 0) * 128 + k.val = k.val
    omega)).trans ?_
  refine extractStridedSlice_apply ![ℓ.val, 0, 0] G hs (ix3 (0 : Fin 1) (0 : Fin 1) k) (ix3 ℓ (0 : Fin 4) k) fun a => ?_
  match a with
  | ⟨0, _⟩ => show ℓ.val = ℓ.val + 0; omega
  | ⟨1, _⟩ => show 0 = 0 + 0; omega
  | ⟨2, _⟩ => show k.val = 0 + k.val; omega

/-- The coefficient rows' index under an index of the whole array is row 0 at the same column. -/
theorem col13_eq (i : S100000x128.Idx) : col13 i = ix2 (0 : Fin 1) (i 1) := by
  funext a
  match a with
  | ⟨0, _⟩ => rfl
  | ⟨1, _⟩ => rfl

variable (m : (ℓ : Loc nD τ sig) → Buf (Elt Ideal) ℓ) (ρ : Dev nD → PrngReg) (c : Dev nD)

/-! ## The second layer -/

/-- What this half starts from, at the literal types: the layer's gains and offsets, the rows before normalisation,
    the two cores' column sums and sums of squares; and what the host stretch leaves: the scale and shift rows. -/
abbrev pG2 : S2x4x128.Idx → EReal := W24 m ρ c (Proc.devRef .tc main_arg15)
abbrev pBe2 : S2x4x128.Idx → EReal := W24 m ρ c (Proc.devRef .tc main_arg16)
abbrev pY2 : S100000x128.Idx → EReal := W25 m ρ c (Proc.devRef .tc main_v423_0)
abbrev pS2 : S2x1x128.Idx → EReal := W25 m ρ c (Proc.devRef .tc main_v423_1)
abbrev pQ2 : S2x1x128.Idx → EReal := W25 m ρ c (Proc.devRef .tc main_v423_2)
abbrev pA2 : S1x128.Idx → EReal := W26 m ρ c (Proc.devRef .tc main_v442)
abbrev pB2 : S1x128.Idx → EReal := W26 m ρ c (Proc.devRef .tc main_v443)

/-- The gains and offsets as the host stretch reads them (after the region before it) are those before that region:
    the region does not write them. -/
theorem pG2_kept : (W25 m ρ c (Proc.devRef .tc main_arg15) : S2x4x128.Idx → EReal) = pG2 m ρ c :=
  Wexit12_keep m ρ c main_arg15 (by decide)
theorem pBe2_kept : (W25 m ρ c (Proc.devRef .tc main_arg16) : S2x4x128.Idx → EReal) = pBe2 m ρ c :=
  Wexit12_keep m ρ c main_arg16 (by decide)

/-- The first row of the gains, and of the offsets, as the host slices them out. -/
abbrev pg2 : S128.Idx → EReal :=
  shapeCast S128 (extractStridedSlice S1x1x128 ![1, 0, 0] (W25 m ρ c (Proc.devRef .tc main_arg15) : S2x4x128.Idx → EReal)
    slices_S2x4x128_S1x1x128_1_0_0) shapeCasts_S1x1x128_S128
abbrev pbe2 : S128.Idx → EReal :=
  shapeCast S128 (extractStridedSlice S1x1x128 ![1, 0, 0] (W25 m ρ c (Proc.devRef .tc main_arg16) : S2x4x128.Idx → EReal)
    slices_S2x4x128_S1x1x128_1_0_0) shapeCasts_S1x1x128_S128

set_option maxHeartbeats 1000000 in
/-- The scale row the host stretch leaves. -/
theorem K2_sc2 : pA2 m ρ c
    = shapeCast S1x128 (kerScaleVec (pS2 m ρ c) (pQ2 m ρ c) (pg2 m ρ c) reducesTo_S2x1x128_S128_d0_1 h_S_ bcast_S_S128)
        shapeCasts_S128_S1x128 := by
  show StableHlo.after hostOps13 (W25 m ρ c) (Proc.devRef .tc main_v442) = _
  after_results_simp
  first | done | rfl

set_option maxHeartbeats 1000000 in
/-- The shift row the host stretch leaves. -/
theorem K2_sh2 : pB2 m ρ c
    = shapeCast S1x128 (kerShiftVec (pS2 m ρ c) (pQ2 m ρ c) (pg2 m ρ c) (pbe2 m ρ c) reducesTo_S2x1x128_S128_d0_1 h_S_ bcast_S_S128)
        shapeCasts_S128_S1x128 := by
  show StableHlo.after hostOps13 (W25 m ρ c) (Proc.devRef .tc main_v443) = _
  after_results_simp
  first | done | rfl

/-- The sliced rows are the first rows of the gains and offsets. -/
theorem pg2_apply (j : Fin 128) : pg2 m ρ c (ix1 j) = pG2 m ρ c (ix3 (1 : Fin 2) (0 : Fin 4) j) :=
  (sliceGainB_apply _ (1 : Fin 2) slices_S2x4x128_S1x1x128_1_0_0 shapeCasts_S1x1x128_S128 j).trans
    (congrFun (pG2_kept m ρ c) _)
theorem pbe2_apply (j : Fin 128) : pbe2 m ρ c (ix1 j) = pBe2 m ρ c (ix3 (1 : Fin 2) (0 : Fin 4) j) :=
  (sliceGainB_apply _ (1 : Fin 2) slices_S2x4x128_S1x1x128_1_0_0 shapeCasts_S1x1x128_S128 j).trans
    (congrFun (pBe2_kept m ρ c) _)

/-- THE SCALE at column j. -/
theorem K2_scale2 (j : Fin 128) : pA2 m ρ c (ix2 (0 : Fin 1) j)
    = pG2 m ρ c (ix3 (1 : Fin 2) (0 : Fin 4) j) * Ideal.rsqrt
        (Ideal.div (0 + ∑ c' : Fin 2, pQ2 m ρ c (ix3 c' (0 : Fin 1) j)) (Ideal.ofBits .f32 0x47C35000#32)
          - Ideal.div (0 + ∑ c' : Fin 2, pS2 m ρ c (ix3 c' (0 : Fin 1) j)) (Ideal.ofBits .f32 0x47C35000#32)
            * Ideal.div (0 + ∑ c' : Fin 2, pS2 m ρ c (ix3 c' (0 : Fin 1) j)) (Ideal.ofBits .f32 0x47C35000#32)
          + Ideal.ofBits .f32 0x3727C5AC#32) :=
  (congrFun (K2_sc2 m ρ c) (ix2 (0 : Fin 1) j)).trans ((vecRow_apply _ _ (0 : Fin 1) j).trans
    ((kerScaleVec_apply _ _ _ _ _ _ j).trans (congrArg (· * _) (pg2_apply m ρ c j))))

/-- THE SHIFT at column j. -/
theorem K2_shift2 (j : Fin 128) : pB2 m ρ c (ix2 (0 : Fin 1) j)
    = pBe2 m ρ c (ix3 (1 : Fin 2) (0 : Fin 4) j)
      - Ideal.div (0 + ∑ c' : Fin 2, pS2 m ρ c (ix3 c' (0 : Fin 1) j)) (Ideal.ofBits .f32 0x47C35000#32)
        * (pG2 m ρ c (ix3 (1 : Fin 2) (0 : Fin 4) j) * Ideal.rsqrt
            (Ideal.div (0 + ∑ c' : Fin 2, pQ2 m ρ c (ix3 c' (0 : Fin 1) j)) (Ideal.ofBits .f32 0x47C35000#32)
              - Ideal.div (0 + ∑ c' : Fin 2, pS2 m ρ c (ix3 c' (0 : Fin 1) j)) (Ideal.ofBits .f32 0x47C35000#32)
                * Ideal.div (0 + ∑ c' : Fin 2, pS2 m ρ c (ix3 c' (0 : Fin 1) j)) (Ideal.ofBits .f32 0x47C35000#32)
              + Ideal.ofBits .f32 0x3727C5AC#32)) :=
  (congrFun (K2_sh2 m ρ c) (ix2 (0 : Fin 1) j)).trans ((vecRow_apply _ _ (0 : Fin 1) j).trans
    ((kerShiftVec_apply _ _ _ _ _ _ _ j).trans (congrArg₂ (· - ·) (pbe2_apply m ρ c j)
      (congrArg (_ * ·) ((kerScaleVec_apply _ _ _ _ _ _ j).trans (congrArg (· * _) (pg2_apply m ρ c j)))))))

/-- The rows pass the host stretch untouched. -/
theorem pY2_kept : (W26 m ρ c (Proc.devRef .tc main_v423_0) : S100000x128.Idx → EReal) = pY2 m ρ c :=
  W26_of m ρ c main_v423_0 (by decide)

/-- THE OUTPUT of the next region, index by index. -/
theorem K2_out2 (i : S100000x128.Idx) : (W27 m ρ c (Proc.devRef .tc main_v444) : S100000x128.Idx → EReal) i
    = max (pY2 m ρ c i * pA2 m ρ c (ix2 (0 : Fin 1) (i 1)) + pB2 m ρ c (ix2 (0 : Fin 1) (i 1))) 0 := by
  have h : (W27 m ρ c (Proc.devRef .tc main_v444) : S100000x128.Idx → EReal)
      = reluAffine13 (W26 m ρ c (Proc.devRef .tc main_v423_0)) (pA2 m ρ c) (pB2 m ρ c) :=
    (Wexit13_arr m ρ c 3).trans (arrAt13_3_ideal (VE13 m ρ) c)
  rw [h, reluAffine13_apply, col13_eq, pY2_kept]
  rfl

end Cert.Val

end
-- ==== Proof.Val.PatientK.lean ====
/- The kernel program's side of the patient branch of a graph layer: what the layer's second patient region leaves is
   the branch's arithmetic on the extended reals, over the stacked weight arrays, the three neighbour means and the
   patient rows as the layer's first patient region is entered with them. -/
import proofs.«424088_j28020366639260_2_alg».proof.Proof.KI.Args
import proofs.«424088_j28020366639260_2_alg».proof.Proof.KI.V4
import proofs.«424088_j28020366639260_2_alg».proof.Proof.KI.V12
import proofs.«424088_j28020366639260_2_alg».proof.Proof.Val.PatientKOps
import proofs.«424088_j28020366639260_2_alg».proof.Proof.Val.PatientKLib
import proofs.«424088_j28020366639260_2_alg».proof.Proof.Val.PatientK2
import proofs.«424088_j28020366639260_2_alg».proof.Proof.Val.PatientK2b

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx
open scoped BigOperators

variable (m : (ℓ : Loc nD τ sig) → Buf (Elt Ideal) ℓ) (ρ : Dev nD → PrngReg)

/-! # Layer 1: regions 4 and 5 -/

/-! ## The weight windows of region 4 at its entry, over the stacked arrays at the same point -/

theorem W8_w1 (c : Dev nD) : W8 m ρ c (Proc.devRef .tc main_v194)
    = transpose S128x128 [1, 0] (shapeCast S128x128 (extractStridedSlice S1x1x128x128 ![0, 1, 0, 0]
        (W8 m ρ c (Proc.devRef .tc main_arg12)) slices_S2x6x128x128_S1x1x128x128_0_1_0_0) shapeCasts_S1x1x128x128_S128x128)
        transposes_S128x128_S128x128_1_0 := by
  rw [W8_eq, after_hostOps4, tail4_w1, tail4_arg12]
theorem W8_w3 (c : Dev nD) : W8 m ρ c (Proc.devRef .tc main_v197)
    = transpose S128x128 [1, 0] (shapeCast S128x128 (extractStridedSlice S1x1x128x128 ![0, 3, 0, 0]
        (W8 m ρ c (Proc.devRef .tc main_arg12)) slices_S2x6x128x128_S1x1x128x128_0_3_0_0) shapeCasts_S1x1x128x128_S128x128)
        transposes_S128x128_S128x128_1_0 := by
  rw [W8_eq, after_hostOps4, tail4_w3, tail4_arg12]
theorem W8_w5 (c : Dev nD) : W8 m ρ c (Proc.devRef .tc main_v200)
    = transpose S128x128 [1, 0] (shapeCast S128x128 (extractStridedSlice S1x1x128x128 ![0, 5, 0, 0]
        (W8 m ρ c (Proc.devRef .tc main_arg12)) slices_S2x6x128x128_S1x1x128x128_0_5_0_0) shapeCasts_S1x1x128x128_S128x128)
        transposes_S128x128_S128x128_1_0 := by
  rw [W8_eq, after_hostOps4, tail4_w5, tail4_arg12]
theorem W8_wr (c : Dev nD) : W8 m ρ c (Proc.devRef .tc main_v201)
    = transpose S128x128 [1, 0]
        (addf (F := Ideal) (φ := .f32) (addf (F := Ideal) (φ := .f32)
          (shapeCast S128x128 (extractStridedSlice S1x1x128x128 ![0, 1, 0, 0] (W8 m ρ c (Proc.devRef .tc main_arg14))
            slices_S2x6x128x128_S1x1x128x128_0_1_0_0) shapeCasts_S1x1x128x128_S128x128)
          (shapeCast S128x128 (extractStridedSlice S1x1x128x128 ![0, 3, 0, 0] (W8 m ρ c (Proc.devRef .tc main_arg14))
            slices_S2x6x128x128_S1x1x128x128_0_3_0_0) shapeCasts_S1x1x128x128_S128x128))
          (shapeCast S128x128 (extractStridedSlice S1x1x128x128 ![0, 5, 0, 0] (W8 m ρ c (Proc.devRef .tc main_arg14))
            slices_S2x6x128x128_S1x1x128x128_0_5_0_0) shapeCasts_S1x1x128x128_S128x128))
        transposes_S128x128_S128x128_1_0 := by
  rw [W8_eq, after_hostOps4, tail4_wr, tail4_arg14]
theorem W8_b (c : Dev nD) : W8 m ρ c (Proc.devRef .tc main_v202)
    = shapeCast S1x128
        (addf (F := Ideal) (φ := .f32) (addf (F := Ideal) (φ := .f32)
          (shapeCast S128 (extractStridedSlice S1x1x128 ![0, 1, 0] (W8 m ρ c (Proc.devRef .tc main_arg13))
            slices_S2x6x128_S1x1x128_0_1_0) shapeCasts_S1x1x128_S128)
          (shapeCast S128 (extractStridedSlice S1x1x128 ![0, 3, 0] (W8 m ρ c (Proc.devRef .tc main_arg13))
            slices_S2x6x128_S1x1x128_0_3_0) shapeCasts_S1x1x128_S128))
          (shapeCast S128 (extractStridedSlice S1x1x128 ![0, 5, 0] (W8 m ρ c (Proc.devRef .tc main_arg13))
            slices_S2x6x128_S1x1x128_0_5_0) shapeCasts_S1x1x128_S128))
        shapeCasts_S128_S1x128 := by
  rw [W8_eq, after_hostOps4, tail4_b, tail4_arg13]

/-! ## Region 4's three outputs at its exit, over its windows at its entry -/

theorem W9_y (c : Dev nD) : W9 m ρ c (Proc.devRef .tc main_v203_0) = yval4 (VE4 m ρ) c :=
  (Wexit4_arr m ρ c 9).trans (arrAt4_9_ideal (VE4 m ρ) c)
theorem W9_s (c : Dev nD) : W9 m ρ c (Proc.devRef .tc main_v203_1) = sumval4 (VE4 m ρ) c :=
  (Wexit4_arr m ρ c 10).trans (arrAt4_10_ideal (VE4 m ρ) c)
theorem W9_q (c : Dev nD) : W9 m ρ c (Proc.devRef .tc main_v203_2) = sqval4 (VE4 m ρ) c :=
  (Wexit4_arr m ρ c 11).trans (arrAt4_11_ideal (VE4 m ρ) c)

/-! ## The branch -/

/-- THE PATIENT BRANCH of layer 1: what region 5 leaves is the branch's arithmetic over the stacked arrays, the three
    neighbour means and the patient rows as region 4 is entered with them. -/
theorem K_patient1 (c : Dev nD) :
    W11 m ρ c (Proc.devRef .tc main_v224)
      = kPatient 0 (W8 m ρ c (Proc.devRef .tc main_arg12)) (W8 m ρ c (Proc.devRef .tc main_arg13))
          (W8 m ρ c (Proc.devRef .tc main_arg14)) (W8 m ρ c (Proc.devRef .tc main_arg15)) (W8 m ρ c (Proc.devRef .tc main_arg16))
          (W8 m ρ c (Proc.devRef .tc main_v110)) (W8 m ρ c (Proc.devRef .tc main_v123))
          (W8 m ρ c (Proc.devRef .tc main_v136)) (W8 m ρ c (Proc.devRef .tc main_v49)) := by
  refine kPatient_of_parts 0 _ _ _ _ _ _ _ _ _
    (W8 m ρ c (Proc.devRef .tc main_v194)) (W8 m ρ c (Proc.devRef .tc main_v197))
    (W8 m ρ c (Proc.devRef .tc main_v200)) (W8 m ρ c (Proc.devRef .tc main_v201))
    (W8 m ρ c (Proc.devRef .tc main_v202))
    (W9 m ρ c (Proc.devRef .tc main_v203_0)) (W9 m ρ c (Proc.devRef .tc main_v203_1))
    (W9 m ρ c (Proc.devRef .tc main_v203_2))
    (W10 m ρ c (Proc.devRef .tc main_v222)) (W10 m ρ c (Proc.devRef .tc main_v223)) _
    ?_ ?_ ?_ ?_ ?_ ?_ ?_ ?_ (K2_scale1 m ρ c) (K2_shift1 m ρ c) (K2_out1 m ρ c)
  · intro k j; rw [W8_w1]; exact wSliceT_apply _ 0 1 _ _ _ k j
  · intro k j; rw [W8_w3]; exact wSliceT_apply _ 0 3 _ _ _ k j
  · intro k j; rw [W8_w5]; exact wSliceT_apply _ 0 5 _ _ _ k j
  · intro k j; rw [W8_wr]; exact wSum3T_apply _ 0 _ _ _ _ _ k j
  · intro j; rw [W8_b]; exact bSum3_apply _ 0 _ _ _ _ _ 0 j
  · intro r p; rw [W9_y]; rfl
  · intro s j; rw [W9_s, W9_y]; rfl
  · intro s j; rw [W9_q, W9_y]; rfl

/-! # Layer 2: regions 12 and 13 -/

/-! ## The weight windows of region 12 at its entry, over the stacked arrays at the same point -/

theorem W24_w1 (c : Dev nD) : W24 m ρ c (Proc.devRef .tc main_v414)
    = transpose S128x128 [1, 0] (shapeCast S128x128 (extractStridedSlice S1x1x128x128 ![1, 1, 0, 0]
        (W24 m ρ c (Proc.devRef .tc main_arg12)) slices_S2x6x128x128_S1x1x128x128_1_1_0_0) shapeCasts_S1x1x128x128_S128x128)
        transposes_S128x128_S128x128_1_0 := by
  rw [W24_eq, after_hostOps12, tail12_w1, tail12_arg12]
theorem W24_w3 (c : Dev nD) : W24 m ρ c (Proc.devRef .tc main_v417)
    = transpose S128x128 [1, 0] (shapeCast S128x128 (extractStridedSlice S1x1x128x128 ![1, 3, 0, 0]
        (W24 m ρ c (Proc.devRef .tc main_arg12)) slices_S2x6x128x128_S1x1x128x128_1_3_0_0) shapeCasts_S1x1x128x128_S128x128)
        transposes_S128x128_S128x128_1_0 := by
  rw [W24_eq, after_hostOps12, tail12_w3, tail12_arg12]
theorem W24_w5 (c : Dev nD) : W24 m ρ c (Proc.devRef .tc main_v420)
    = transpose S128x128 [1, 0] (shapeCast S128x128 (extractStridedSlice S1x1x128x128 ![1, 5, 0, 0]
        (W24 m ρ c (Proc.devRef .tc main_arg12)) slices_S2x6x128x128_S1x1x128x128_1_5_0_0) shapeCasts_S1x1x128x128_S128x128)
        transposes_S128x128_S128x128_1_0 := by
  rw [W24_eq, after_hostOps12, tail12_w5, tail12_arg12]
theorem W24_wr (c : Dev nD) : W24 m ρ c (Proc.devRef .tc main_v421)
    = transpose S128x128 [1, 0]
        (addf (F := Ideal) (φ := .f32) (addf (F := Ideal) (φ := .f32)
          (shapeCast S128x128 (extractStridedSlice S1x1x128x128 ![1, 1, 0, 0] (W24 m ρ c (Proc.devRef .tc main_arg14))
            slices_S2x6x128x128_S1x1x128x128_1_1_0_0) shapeCasts_S1x1x128x128_S128x128)
          (shapeCast S128x128 (extractStridedSlice S1x1x128x128 ![1, 3, 0, 0] (W24 m ρ c (Proc.devRef .tc main_arg14))
            slices_S2x6x128x128_S1x1x128x128_1_3_0_0) shapeCasts_S1x1x128x128_S128x128))
          (shapeCast S128x128 (extractStridedSlice S1x1x128x128 ![1, 5, 0, 0] (W24 m ρ c (Proc.devRef .tc main_arg14))
            slices_S2x6x128x128_S1x1x128x128_1_5_0_0) shapeCasts_S1x1x128x128_S128x128))
        transposes_S128x128_S128x128_1_0 := by
  rw [W24_eq, after_hostOps12, tail12_wr, tail12_arg14]
theorem W24_b (c : Dev nD) : W24 m ρ c (Proc.devRef .tc main_v422)
    = shapeCast S1x128
        (addf (F := Ideal) (φ := .f32) (addf (F := Ideal) (φ := .f32)
          (shapeCast S128 (extractStridedSlice S1x1x128 ![1, 1, 0] (W24 m ρ c (Proc.devRef .tc main_arg13))
            slices_S2x6x128_S1x1x128_1_1_0) shapeCasts_S1x1x128_S128)
          (shapeCast S128 (extractStridedSlice S1x1x128 ![1, 3, 0] (W24 m ρ c (Proc.devRef .tc main_arg13))
            slices_S2x6x128_S1x1x128_1_3_0) shapeCasts_S1x1x128_S128))
          (shapeCast S128 (extractStridedSlice S1x1x128 ![1, 5, 0] (W24 m ρ c (Proc.devRef .tc main_arg13))
            slices_S2x6x128_S1x1x128_1_5_0) shapeCasts_S1x1x128_S128))
        shapeCasts_S128_S1x128 := by
  rw [W24_eq, after_hostOps12, tail12_b, tail12_arg13]

/-! ## Region 12's three outputs at its exit, over its windows at its entry -/

theorem W25_y (c : Dev nD) : W25 m ρ c (Proc.devRef .tc main_v423_0) = yval12 (VE12 m ρ) c :=
  (Wexit12_arr m ρ c 9).trans (arrAt12_9_ideal (VE12 m ρ) c)
theorem W25_s (c : Dev nD) : W25 m ρ c (Proc.devRef .tc main_v423_1) = sumval12 (VE12 m ρ) c :=
  (Wexit12_arr m ρ c 10).trans (arrAt12_10_ideal (VE12 m ρ) c)
theorem W25_q (c : Dev nD) : W25 m ρ c (Proc.devRef .tc main_v423_2) = sqval12 (VE12 m ρ) c :=
  (Wexit12_arr m ρ c 11).trans (arrAt12_11_ideal (VE12 m ρ) c)

/-! ## The branch -/

/-- THE PATIENT BRANCH of layer 2: what region 13 leaves is the branch's arithmetic over the stacked arrays, the three
    neighbour means and the patient rows as region 12 is entered with them. -/
theorem K_patient2 (c : Dev nD) :
    W27 m ρ c (Proc.devRef .tc main_v444)
      = kPatient 1 (W24 m ρ c (Proc.devRef .tc main_arg12)) (W24 m ρ c (Proc.devRef .tc main_arg13))
          (W24 m ρ c (Proc.devRef .tc main_arg14)) (W24 m ρ c (Proc.devRef .tc main_arg15)) (W24 m ρ c (Proc.devRef .tc main_arg16))
          (W24 m ρ c (Proc.devRef .tc main_v330)) (W24 m ρ c (Proc.devRef .tc main_v343))
          (W24 m ρ c (Proc.devRef .tc main_v356)) (W24 m ρ c (Proc.devRef .tc main_v224)) := by
  refine kPatient_of_parts 1 _ _ _ _ _ _ _ _ _
    (W24 m ρ c (Proc.devRef .tc main_v414)) (W24 m ρ c (Proc.devRef .tc main_v417))
    (W24 m ρ c (Proc.devRef .tc main_v420)) (W24 m ρ c (Proc.devRef .tc main_v421))
    (W24 m ρ c (Proc.devRef .tc main_v422))
    (W25 m ρ c (Proc.devRef .tc main_v423_0)) (W25 m ρ c (Proc.devRef .tc main_v423_1))
    (W25 m ρ c (Proc.devRef .tc main_v423_2))
    (W26 m ρ c (Proc.devRef .tc main_v442)) (W26 m ρ c (Proc.devRef .tc main_v443)) _
    ?_ ?_ ?_ ?_ ?_ ?_ ?_ ?_ (K2_scale2 m ρ c) (K2_shift2 m ρ c) (K2_out2 m ρ c)
  · intro k j; rw [W24_w1]; exact wSliceT_apply _ 1 1 _ _ _ k j
  · intro k j; rw [W24_w3]; exact wSliceT_apply _ 1 3 _ _ _ k j
  · intro k j; rw [W24_w5]; exact wSliceT_apply _ 1 5 _ _ _ k j
  · intro k j; rw [W24_wr]; exact wSum3T_apply _ 1 _ _ _ _ _ k j
  · intro j; rw [W24_b]; exact bSum3_apply _ 1 _ _ _ _ _ 0 j
  · intro r p; rw [W25_y]; rfl
  · intro s j; rw [W25_s, W25_y]; rfl
  · intro s j; rw [W25_q, W25_y]; rfl

end Cert.Val

end
-- ==== Proof.Val.PatientRTerm.lean ====
/- The reference's patient branch of a graph layer as a term over arrays: the weight, bias and gain slices, one
   relation's output, the three relations' outputs added, and the normalisation; and the term read entry by
   entry: it is the reference's arithmetic of the layer. -/
import proofs.«424088_j28020366639260_2_alg».proof.Proof.Val.EncRLib
import proofs.«424088_j28020366639260_2_alg».proof.Proof.Val.PatientMath
import Idealize.ShloMosaic.Lib.ValueLayout

set_option maxRecDepth 16384

noncomputable section

namespace Cert.Val

open Cert.ReferenceIdeal Cert.ReferenceIdeal.Gen Cert.Val.RefRead
open Idealize.ShloMosaic Idealize.ShloMosaic.TcCoe Idealize.ShloMosaic.ValueIdx Idealize.ShloMosaic.StableHlo
open scoped BigOperators

/-! ## The reference's terms -/

/-- One 128 × 128 matrix of a stack of weights. -/
def rW (off : Fin 4 → Nat) (h : S2x6x128x128.Slices off S1x1x128x128) (W : FVec Ideal S2x6x128x128 .f32) :
    FVec Ideal S128x128 .f32 :=
  shapeCast S128x128 (extractStridedSlice S1x1x128x128 off W h) shapeCasts_S1x1x128x128_S128x128

/-- One bias vector of a stack of biases. -/
def rB6 (off : Fin 3 → Nat) (h : S2x6x128.Slices off S1x1x128) (B : FVec Ideal S2x6x128 .f32) : FVec Ideal S128 .f32 :=
  shapeCast S128 (extractStridedSlice S1x1x128 off B h) shapeCasts_S1x1x128_S128

/-- One gain or offset vector of a stack. -/
def rG4 (off : Fin 3 → Nat) (h : S2x4x128.Slices off S1x1x128) (G : FVec Ideal S2x4x128 .f32) : FVec Ideal S128 .f32 :=
  shapeCast S128 (extractStridedSlice S1x1x128 off G h) shapeCasts_S1x1x128_S128

/-- One relation's output: the linear layer of the neighbour mean plus the product of the patient rows with the
    transposed self-weights. -/
def rSageT (wl : FVec Ideal S128x128 .f32) (b : FVec Ideal S128 .f32) (wr : FVec Ideal S128x128 .f32)
    (mean xp : FVec Ideal S100000x128 .f32) : FVec Ideal S100000x128 .f32 :=
  addf (refLin mean wl b)
    (Host.dotGeneral dot_S100000x128_S128x128_S100000x128_1_0_0_1_n_n none xp
      (transpose S128x128 [1, 0] wr transposes_S128x128_S128x128_1_0))

/-- The three relations' outputs added. -/
def rNewPT (w1 : FVec Ideal S128x128 .f32) (b1 : FVec Ideal S128 .f32) (r1 : FVec Ideal S128x128 .f32)
    (w3 : FVec Ideal S128x128 .f32) (b3 : FVec Ideal S128 .f32) (r3 : FVec Ideal S128x128 .f32)
    (w5 : FVec Ideal S128x128 .f32) (b5 : FVec Ideal S128 .f32) (r5 : FVec Ideal S128x128 .f32)
    (ml md mm xp : FVec Ideal S100000x128 .f32) : FVec Ideal S100000x128 .f32 :=
  addf (addf (rSageT w1 b1 r1 ml xp) (rSageT w3 b3 r3 md xp)) (rSageT w5 b5 r5 mm xp)

/-- The reference's new patient rows, from the stacked arguments and the slices' offsets. -/
def rPatientT (o1 o3 o5 : Fin 4 → Nat) (h1 : S2x6x128x128.Slices o1 S1x1x128x128) (h3 : S2x6x128x128.Slices o3 S1x1x128x128)
    (h5 : S2x6x128x128.Slices o5 S1x1x128x128) (p1 p3 p5 : Fin 3 → Nat) (q1 : S2x6x128.Slices p1 S1x1x128)
    (q3 : S2x6x128.Slices p3 S1x1x128) (q5 : S2x6x128.Slices p5 S1x1x128) (og : Fin 3 → Nat) (hg : S2x4x128.Slices og S1x1x128)
    (Wl : FVec Ideal S2x6x128x128 .f32) (Bl : FVec Ideal S2x6x128 .f32) (Wr : FVec Ideal S2x6x128x128 .f32)
    (G Be : FVec Ideal S2x4x128 .f32) (ml md mm xp : FVec Ideal S100000x128 .f32) : FVec Ideal S100000x128 .f32 :=
  refBN (rNewPT (rW o1 h1 Wl) (rB6 p1 q1 Bl) (rW o1 h1 Wr) (rW o3 h3 Wl) (rB6 p3 q3 Bl) (rW o3 h3 Wr)
      (rW o5 h5 Wl) (rB6 p5 q5 Bl) (rW o5 h5 Wr) ml md mm xp)
    (rG4 og hg G) (rG4 og hg Be)

/-! ## The terms at an entry -/

theorem rW_apply (L : Fin 2) (R : Fin 6) (off : Fin 4 → Nat) (h : S2x6x128x128.Slices off S1x1x128x128)
    (e0 : off 0 = L.val) (e1 : off 1 = R.val) (e2 : off 2 = 0) (e3 : off 3 = 0) (W : FVec Ideal S2x6x128x128 .f32)
    (a b : Fin 128) : rW off h W (ix2 a b) = W (ix4 L R a b) := by
  unfold rW
  refine (shapeCast_apply _ _ (ix2 a b) (ix4 (0 : Fin 1) (0 : Fin 1) a b) (by
    rw [Shape.rowMajor_val_four, Shape.rowMajor_val_two]
    show ((0 * 1 + 0) * 128 + a.val) * 128 + b.val = a.val * 128 + b.val
    omega)).trans ?_
  exact extractStridedSlice_apply off W h (ix4 (0 : Fin 1) (0 : Fin 1) a b) (ix4 L R a b) (fun ax => by
    match ax with
    | ⟨0, _⟩ => show L.val = off 0 + 0; omega
    | ⟨1, _⟩ => show R.val = off 1 + 0; omega
    | ⟨2, _⟩ => show a.val = off 2 + a.val; omega
    | ⟨3, _⟩ => show b.val = off 3 + b.val; omega)

theorem rB6_apply (L : Fin 2) (R : Fin 6) (off : Fin 3 → Nat) (h : S2x6x128.Slices off S1x1x128)
    (e0 : off 0 = L.val) (e1 : off 1 = R.val) (e2 : off 2 = 0) (B : FVec Ideal S2x6x128 .f32) (j : Fin 128) :
    rB6 off h B (ix1 j) = B (ix3 L R j) := by
  unfold rB6
  refine (shapeCast_apply _ _ (ix1 j) (ix3 (0 : Fin 1) (0 : Fin 1) j) (by
    rw [Shape.rowMajor_val_three, Shape.rowMajor_val_one]
    show (0 * 1 + 0) * 128 + j.val = j.val
    omega)).trans ?_
  exact extractStridedSlice_apply off B h (ix3 (0 : Fin 1) (0 : Fin 1) j) (ix3 L R j) (fun ax => by
    match ax with
    | ⟨0, _⟩ => show L.val = off 0 + 0; omega
    | ⟨1, _⟩ => show R.val = off 1 + 0; omega
    | ⟨2, _⟩ => show j.val = off 2 + j.val; omega)

theorem rG4_apply (L : Fin 2) (R : Fin 4) (off : Fin 3 → Nat) (h : S2x4x128.Slices off S1x1x128)
    (e0 : off 0 = L.val) (e1 : off 1 = R.val) (e2 : off 2 = 0) (G : FVec Ideal S2x4x128 .f32) (j : Fin 128) :
    rG4 off h G (ix1 j) = G (ix3 L R j) := by
  unfold rG4
  refine (shapeCast_apply _ _ (ix1 j) (ix3 (0 : Fin 1) (0 : Fin 1) j) (by
    rw [Shape.rowMajor_val_three, Shape.rowMajor_val_one]
    show (0 * 1 + 0) * 128 + j.val = j.val
    omega)).trans ?_
  exact extractStridedSlice_apply off G h (ix3 (0 : Fin 1) (0 : Fin 1) j) (ix3 L R j) (fun ax => by
    match ax with
    | ⟨0, _⟩ => show L.val = off 0 + 0; omega
    | ⟨1, _⟩ => show R.val = off 1 + 0; omega
    | ⟨2, _⟩ => show j.val = off 2 + j.val; omega)

theorem rSageT_apply (wl : FVec Ideal S128x128 .f32) (b : FVec Ideal S128 .f32) (wr : FVec Ideal S128x128 .f32)
    (mean xp : FVec Ideal S100000x128 .f32) (i : Fin 100000) (j : Fin 128) :
    rSageT wl b wr mean xp (ix2 i j)
      = ((∑ k : Fin 128, mean (ix2 i k) * wl (ix2 j k)) + b (ix1 j)) + ∑ k : Fin 128, xp (ix2 i k) * wr (ix2 j k) := by
  unfold rSageT refLin
  rw [addf_apply, addf_apply, dot_read, dot_read, bcastRows_apply]
  exact congrArg₂ (· + ·)
    (congrArg (· + b (ix1 j)) (Finset.sum_congr rfl fun k _ => by rw [transpose_w]))
    (Finset.sum_congr rfl fun k _ => by rw [transpose_w])

/-- One relation's term at an entry is one relation's arithmetic, once its weights and bias are read. -/
theorem rSageT_eq (wl : FVec Ideal S128x128 .f32) (b : FVec Ideal S128 .f32) (wr : FVec Ideal S128x128 .f32)
    (mean xp : FVec Ideal S100000x128 .f32) (WL : Fin 128 → Fin 128 → EReal) (BL : Fin 128 → EReal) (WR : Fin 128 → Fin 128 → EReal)
    (hwl : ∀ a c : Fin 128, wl (ix2 a c) = WL c a) (hb : ∀ j : Fin 128, b (ix1 j) = BL j)
    (hwr : ∀ a c : Fin 128, wr (ix2 a c) = WR c a) (i : Fin 100000) (j : Fin 128) :
    rSageT wl b wr mean xp (ix2 i j) = rSage WL BL WR (cur2 mean) (cur2 xp) i j := by
  rw [rSageT_apply, hb]
  unfold rSage cur2
  exact congrArg₂ (· + ·)
    (congrArg (· + BL j) (Finset.sum_congr rfl fun k _ => by rw [hwl]))
    (Finset.sum_congr rfl fun k _ => by rw [hwr])

/-- The reference's term is the reference's arithmetic on the stacked arguments of layer `L`. -/
theorem rPatientT_eq (L : Fin 2) (o1 o3 o5 : Fin 4 → Nat) (h1 : S2x6x128x128.Slices o1 S1x1x128x128)
    (h3 : S2x6x128x128.Slices o3 S1x1x128x128) (h5 : S2x6x128x128.Slices o5 S1x1x128x128) (p1 p3 p5 : Fin 3 → Nat)
    (q1 : S2x6x128.Slices p1 S1x1x128) (q3 : S2x6x128.Slices p3 S1x1x128) (q5 : S2x6x128.Slices p5 S1x1x128)
    (og : Fin 3 → Nat) (hg : S2x4x128.Slices og S1x1x128)
    (eo1 : o1 0 = L.val ∧ o1 1 = (1 : Fin 6).val ∧ o1 2 = 0 ∧ o1 3 = 0)
    (eo3 : o3 0 = L.val ∧ o3 1 = (3 : Fin 6).val ∧ o3 2 = 0 ∧ o3 3 = 0)
    (eo5 : o5 0 = L.val ∧ o5 1 = (5 : Fin 6).val ∧ o5 2 = 0 ∧ o5 3 = 0)
    (ep1 : p1 0 = L.val ∧ p1 1 = (1 : Fin 6).val ∧ p1 2 = 0) (ep3 : p3 0 = L.val ∧ p3 1 = (3 : Fin 6).val ∧ p3 2 = 0)
    (ep5 : p5 0 = L.val ∧ p5 1 = (5 : Fin 6).val ∧ p5 2 = 0) (eg : og 0 = L.val ∧ og 1 = (0 : Fin 4).val ∧ og 2 = 0)
    (Wl : FVec Ideal S2x6x128x128 .f32) (Bl : FVec Ideal S2x6x128 .f32) (Wr : FVec Ideal S2x6x128x128 .f32)
    (G Be : FVec Ideal S2x4x128 .f32) (ml md mm xp : FVec Ideal S100000x128 .f32) :
    rPatientT o1 o3 o5 h1 h3 h5 p1 p3 p5 q1 q3 q5 og hg Wl Bl Wr G Be ml md mm xp = rPatient L Wl Bl Wr G Be ml md mm xp := by
  have hrows : ∀ (i : Fin 100000) (j : Fin 128),
      rNewPT (rW o1 h1 Wl) (rB6 p1 q1 Bl) (rW o1 h1 Wr) (rW o3 h3 Wl) (rB6 p3 q3 Bl) (rW o3 h3 Wr)
        (rW o5 h5 Wl) (rB6 p5 q5 Bl) (rW o5 h5 Wr) ml md mm xp (ix2 i j) = rRows L Wl Bl Wr ml md mm xp i j := fun i j => by
    unfold rNewPT rRows rNewP
    rw [addf_apply, addf_apply,
      rSageT_eq (rW o1 h1 Wl) (rB6 p1 q1 Bl) (rW o1 h1 Wr) ml xp (wT Wl L 1) (bRow Bl L 1) (wT Wr L 1)
        (fun a c => rW_apply L 1 o1 h1 eo1.1 eo1.2.1 eo1.2.2.1 eo1.2.2.2 Wl a c) (fun j => rB6_apply L 1 p1 q1 ep1.1 ep1.2.1 ep1.2.2 Bl j)
        (fun a c => rW_apply L 1 o1 h1 eo1.1 eo1.2.1 eo1.2.2.1 eo1.2.2.2 Wr a c) i j,
      rSageT_eq (rW o3 h3 Wl) (rB6 p3 q3 Bl) (rW o3 h3 Wr) md xp (wT Wl L 3) (bRow Bl L 3) (wT Wr L 3)
        (fun a c => rW_apply L 3 o3 h3 eo3.1 eo3.2.1 eo3.2.2.1 eo3.2.2.2 Wl a c) (fun j => rB6_apply L 3 p3 q3 ep3.1 ep3.2.1 ep3.2.2 Bl j)
        (fun a c => rW_apply L 3 o3 h3 eo3.1 eo3.2.1 eo3.2.2.1 eo3.2.2.2 Wr a c) i j,
      rSageT_eq (rW o5 h5 Wl) (rB6 p5 q5 Bl) (rW o5 h5 Wr) mm xp (wT Wl L 5) (bRow Bl L 5) (wT Wr L 5)
        (fun a c => rW_apply L 5 o5 h5 eo5.1 eo5.2.1 eo5.2.2.1 eo5.2.2.2 Wl a c) (fun j => rB6_apply L 5 p5 q5 ep5.1 ep5.2.1 ep5.2.2 Bl j)
        (fun a c => rW_apply L 5 o5 h5 eo5.1 eo5.2.1 eo5.2.2.1 eo5.2.2.2 Wr a c) i j]
  funext i
  obtain ⟨r, j, rfl⟩ : ∃ (r : Fin 100000) (j : Fin 128), i = ix2 r j := ⟨i 0, i 1, eq_ix2 i⟩
  unfold rPatientT rPatient
  rw [refBN_apply]
  show rOut (cur2 (rNewPT (rW o1 h1 Wl) (rB6 p1 q1 Bl) (rW o1 h1 Wr) (rW o3 h3 Wl) (rB6 p3 q3 Bl) (rW o3 h3 Wr)
        (rW o5 h5 Wl) (rB6 p5 q5 Bl) (rW o5 h5 Wr) ml md mm xp)) (fun j => rG4 og hg G (ix1 j)) (fun j => rG4 og hg Be (ix1 j)) r j
      = rOut (rRows L Wl Bl Wr ml md mm xp) (gRow G L 0) (gRow Be L 0) r j
  have e1 : cur2 (rNewPT (rW o1 h1 Wl) (rB6 p1 q1 Bl) (rW o1 h1 Wr) (rW o3 h3 Wl) (rB6 p3 q3 Bl) (rW o3 h3 Wr)
        (rW o5 h5 Wl) (rB6 p5 q5 Bl) (rW o5 h5 Wr) ml md mm xp) = rRows L Wl Bl Wr ml md mm xp :=
    funext fun i => funext fun j => hrows i j
  have e2 : (fun j => rG4 og hg G (ix1 j)) = gRow G L 0 := funext fun j => rG4_apply L 0 og hg eg.1 eg.2.1 eg.2.2 G j
  have e3 : (fun j => rG4 og hg Be (ix1 j)) = gRow Be L 0 := funext fun j => rG4_apply L 0 og hg eg.1 eg.2.1 eg.2.2 Be j
  rw [e1, e2, e3]

end Cert.Val

end
-- ==== Proof.Val.PatientRTyped.lean ====
/- Reading the operations of the reference's outlined functions at the types their references carry: moving
   contents to a buffer's own type and back is the identity, so a typed operation's final result is its function
   of its operands' final contents with no transport left in the statement. -/
import proofs.«424088_j28020366639260_2_alg».proof.Proof.Ref.Fix
import Idealize.ShloMosaic.PureOps.Ideal

set_option maxRecDepth 16384

noncomputable section

namespace Cert.Val

open Cert.ReferenceIdeal Cert.ReferenceIdeal.Gen Cert.ReferenceIdeal.Hand
open Idealize.ShloMosaic Idealize.ShloMosaic.TcCoe Idealize.ShloMosaic.StableHlo

/-- Moving contents to a typed reference's buffer type and back is the identity. -/
theorem tref_ofBuf_toBuf {T : BufTy} (x : TRef sig T) (v : T.Contents (Elt Ideal)) : x.ofBuf (x.toBuf v) = v := by
  obtain ⟨r, h, h2, h3⟩ := x
  subst h
  rfl

/-- The final contents of a typed reference's buffer, at the type the reference carries. -/
def pRt (V : Valuation τ sig (Elt Ideal)) {T : BufTy} (x : TRef sig T) : T.Contents (Elt Ideal) :=
  x.ofBuf (after (ops (F := Ideal)) V (Proc.devRef .tc x.ref))

/-- A constant of an outlined function, read at its type. -/
theorem prt_nullary (V : Valuation τ sig (Elt Ideal)) {Ty : BufTy} {y : TRef sig Ty} {v : Ty.Contents (Elt Ideal)}
    (h : TRef.nullary (τ := τ) y v ∈ (ops : List (HloOp τ sig (Elt Ideal)))) : pRt V y = v := by
  unfold pRt
  rw [mem_nullary h V]
  exact tref_ofBuf_toBuf y v

/-- A one-operand operation of an outlined function, read at its types. -/
theorem prt_unary (V : Valuation τ sig (Elt Ideal)) {Tx Ty : BufTy} {x : TRef sig Tx} {y : TRef sig Ty}
    {f : Tx.Contents (Elt Ideal) → Ty.Contents (Elt Ideal)}
    (h : TRef.unary (τ := τ) x y f ∈ (ops : List (HloOp τ sig (Elt Ideal)))) : pRt V y = f (pRt V x) := by
  unfold pRt
  rw [mem_unary h V]
  exact tref_ofBuf_toBuf y _

/-- A two-operand operation of an outlined function, read at its types. -/
theorem prt_binary (V : Valuation τ sig (Elt Ideal)) {Ta Tb Ty : BufTy} {a : TRef sig Ta} {b : TRef sig Tb} {y : TRef sig Ty}
    {f : Ta.Contents (Elt Ideal) → Tb.Contents (Elt Ideal) → Ty.Contents (Elt Ideal)}
    (h : TRef.binary (τ := τ) a b y f ∈ (ops : List (HloOp τ sig (Elt Ideal)))) : pRt V y = f (pRt V a) (pRt V b) := by
  unfold pRt
  rw [mem_binary h V]
  exact tref_ofBuf_toBuf y _

/-- A three-operand operation of an outlined function, read at its types. -/
theorem prt_ternary (V : Valuation τ sig (Elt Ideal)) {Tc Ta Tb Ty : BufTy} {c : TRef sig Tc} {a : TRef sig Ta} {b : TRef sig Tb}
    {y : TRef sig Ty} {f : Tc.Contents (Elt Ideal) → Ta.Contents (Elt Ideal) → Tb.Contents (Elt Ideal) → Ty.Contents (Elt Ideal)}
    (h : TRef.ternary (τ := τ) c a b y f ∈ (ops : List (HloOp τ sig (Elt Ideal)))) : pRt V y = f (pRt V c) (pRt V a) (pRt V b) := by
  unfold pRt
  rw [mem_ternary h V]
  exact tref_ofBuf_toBuf y _

end Cert.Val

end
-- ==== Proof.Val.PatientR1.lean ====
/- The reference's new patient rows of the first graph layer, read out of its list of operations. Each buffer's final
   contents are its operation's function of its operands' final contents. The stretch is cut at the buffer of rows
   before normalisation, the gain and offset vectors, the column means, the column variances and the buffer before
   the clamp; each piece is a short chain of such reads, and the pieces put together are the layer's term over the
   weight arguments, the three neighbour means and the patient rows: entry by entry, the layer's arithmetic. -/
import proofs.«424088_j28020366639260_2_alg».proof.Proof.Ref.Fix
import proofs.«424088_j28020366639260_2_alg».proof.Proof.Val.PatientRTerm
import proofs.«424088_j28020366639260_2_alg».proof.Proof.Val.PatientRTyped

set_option maxRecDepth 16384

noncomputable section

namespace Cert.Val

open Cert.ReferenceIdeal Cert.ReferenceIdeal.Gen Cert.ReferenceIdeal.Hand Cert.Val.RefRead
open Idealize.ShloMosaic Idealize.ShloMosaic.TcCoe Idealize.ShloMosaic.ValueIdx Idealize.ShloMosaic.StableHlo
open scoped BigOperators

set_option maxHeartbeats 40000000 in
/-- Layer `L = 0`: the buffer of rows before normalisation is the three relations' outputs added, as a term over the final
    contents of the weight arguments, the three neighbour means and the patient rows. -/
theorem Rp_rows1 (V : Valuation τ sig (Elt Ideal)) :
    (after (ops (F := Ideal)) V (Proc.devRef .tc main_v168)) = rNewPT (rW ![0, 1, 0, 0] slices_S2x6x128x128_S1x1x128x128_0_1_0_0 (after (ops (F := Ideal)) V (Proc.devRef .tc main_arg12))) (rB6 ![0, 1, 0] slices_S2x6x128_S1x1x128_0_1_0 (after (ops (F := Ideal)) V (Proc.devRef .tc main_arg13))) (rW ![0, 1, 0, 0] slices_S2x6x128x128_S1x1x128x128_0_1_0_0 (after (ops (F := Ideal)) V (Proc.devRef .tc main_arg14)))
          (rW ![0, 3, 0, 0] slices_S2x6x128x128_S1x1x128x128_0_3_0_0 (after (ops (F := Ideal)) V (Proc.devRef .tc main_arg12))) (rB6 ![0, 3, 0] slices_S2x6x128_S1x1x128_0_3_0 (after (ops (F := Ideal)) V (Proc.devRef .tc main_arg13))) (rW ![0, 3, 0, 0] slices_S2x6x128x128_S1x1x128x128_0_3_0_0 (after (ops (F := Ideal)) V (Proc.devRef .tc main_arg14)))
          (rW ![0, 5, 0, 0] slices_S2x6x128x128_S1x1x128x128_0_5_0_0 (after (ops (F := Ideal)) V (Proc.devRef .tc main_arg12))) (rB6 ![0, 5, 0] slices_S2x6x128_S1x1x128_0_5_0 (after (ops (F := Ideal)) V (Proc.devRef .tc main_arg13))) (rW ![0, 5, 0, 0] slices_S2x6x128x128_S1x1x128x128_0_5_0_0 (after (ops (F := Ideal)) V (Proc.devRef .tc main_arg14)))
          (after (ops (F := Ideal)) V (Proc.devRef .tc main_v92)) (after (ops (F := Ideal)) V (Proc.devRef .tc main_v125)) (after (ops (F := Ideal)) V (Proc.devRef .tc main_v159)) (after (ops (F := Ideal)) V (Proc.devRef .tc main_v67)) := by
  refine ((in_binary (F := Ideal) mem_ops3 15 rfl V).trans ?_) -- main_v168
  rw [in_binary (F := Ideal) mem_ops3 14 rfl V] -- main_v167
  rw [in_binary (F := Ideal) mem_ops3 13 rfl V] -- main_v166
  rw [in_unary (F := Ideal) mem_ops3 12 rfl V] -- main_v165
  rw [in_binary (F := Ideal) mem_ops3 11 rfl V] -- main_v164
  rw [in_unary (F := Ideal) mem_ops3 10 rfl V] -- main_v163
  rw [in_unary (F := Ideal) mem_ops3 9 rfl V] -- main_v162
  rw [in_binary (F := Ideal) mem_ops3 8 rfl V] -- main_v161
  rw [in_unary (F := Ideal) mem_ops3 7 rfl V] -- main_v160
  rw [in_reshape (F := Ideal) mem_ops2 41 rfl V] -- main_v140
  rw [in_unary (F := Ideal) mem_ops2 40 rfl V] -- main_v139
  rw [in_reshape (F := Ideal) mem_ops2 39 rfl V] -- main_v138
  rw [in_unary (F := Ideal) mem_ops2 38 rfl V] -- main_v137
  rw [in_reshape (F := Ideal) mem_ops2 37 rfl V] -- main_v136
  rw [in_unary (F := Ideal) mem_ops2 36 rfl V] -- main_v135
  rw [in_binary (F := Ideal) mem_ops2 35 rfl V] -- main_v134
  rw [in_binary (F := Ideal) mem_ops2 34 rfl V] -- main_v133
  rw [in_binary (F := Ideal) mem_ops2 33 rfl V] -- main_v132
  rw [in_unary (F := Ideal) mem_ops2 32 rfl V] -- main_v131
  rw [in_binary (F := Ideal) mem_ops2 31 rfl V] -- main_v130
  rw [in_unary (F := Ideal) mem_ops2 30 rfl V] -- main_v129
  rw [in_unary (F := Ideal) mem_ops2 29 rfl V] -- main_v128
  rw [in_binary (F := Ideal) mem_ops2 28 rfl V] -- main_v127
  rw [in_unary (F := Ideal) mem_ops2 27 rfl V] -- main_v126
  rw [in_reshape (F := Ideal) mem_ops2 1 rfl V] -- main_v106
  rw [in_unary (F := Ideal) mem_ops2 0 rfl V] -- main_v105
  rw [in_reshape (F := Ideal) mem_ops1 65 rfl V] -- main_v104
  rw [in_unary (F := Ideal) mem_ops1 64 rfl V] -- main_v103
  rw [in_reshape (F := Ideal) mem_ops1 63 rfl V] -- main_v102
  rw [in_unary (F := Ideal) mem_ops1 62 rfl V] -- main_v101
  rw [in_binary (F := Ideal) mem_ops1 61 rfl V] -- main_v100
  rw [in_binary (F := Ideal) mem_ops1 60 rfl V] -- main_v99
  rw [in_unary (F := Ideal) mem_ops1 59 rfl V] -- main_v98
  rw [in_binary (F := Ideal) mem_ops1 58 rfl V] -- main_v97
  rw [in_unary (F := Ideal) mem_ops1 57 rfl V] -- main_v96
  rw [in_unary (F := Ideal) mem_ops1 56 rfl V] -- main_v95
  rw [in_binary (F := Ideal) mem_ops1 55 rfl V] -- main_v94
  rw [in_unary (F := Ideal) mem_ops1 54 rfl V] -- main_v93
  rw [in_reshape (F := Ideal) mem_ops1 28 rfl V] -- main_v73
  rw [in_unary (F := Ideal) mem_ops1 27 rfl V] -- main_v72
  rw [in_reshape (F := Ideal) mem_ops1 26 rfl V] -- main_v71
  rw [in_unary (F := Ideal) mem_ops1 25 rfl V] -- main_v70
  rw [in_reshape (F := Ideal) mem_ops1 24 rfl V] -- main_v69
  rw [in_unary (F := Ideal) mem_ops1 23 rfl V] -- main_v68
  rfl

set_option maxHeartbeats 40000000 in
/-- Layer `L = 0`: the gain vector is its row of the stacked gains. -/
theorem Rp_g1 (V : Valuation τ sig (Elt Ideal)) :
    (after (ops (F := Ideal)) V (Proc.devRef .tc main_v269)) = rG4 ![0, 0, 0] slices_S2x4x128_S1x1x128_0_0_0 (after (ops (F := Ideal)) V (Proc.devRef .tc main_arg15)) := by
  refine ((in_reshape (F := Ideal) mem_ops5 14 rfl V).trans ?_) -- main_v269
  rw [in_unary (F := Ideal) mem_ops5 13 rfl V] -- main_v268
  rfl

set_option maxHeartbeats 40000000 in
/-- Layer `L = 0`: the offset vector is its row of the stacked offsets. -/
theorem Rp_be1 (V : Valuation τ sig (Elt Ideal)) :
    (after (ops (F := Ideal)) V (Proc.devRef .tc main_v271)) = rG4 ![0, 0, 0] slices_S2x4x128_S1x1x128_0_0_0 (after (ops (F := Ideal)) V (Proc.devRef .tc main_arg16)) := by
  refine ((in_reshape (F := Ideal) mem_ops5 16 rfl V).trans ?_) -- main_v271
  rw [in_unary (F := Ideal) mem_ops5 15 rfl V] -- main_v270
  rfl

set_option maxHeartbeats 40000000 in
/-- Layer `L = 0`: the buffer of column means is the column means of the buffer of rows. -/
theorem Rp_mean1 (V : Valuation τ sig (Elt Ideal)) :
    (after (ops (F := Ideal)) V (Proc.devRef .tc main_v274)) = rMeanV (after (ops (F := Ideal)) V (Proc.devRef .tc main_v168)) := by
  refine ((in_binary (F := Ideal) mem_ops5 21 rfl V).trans ?_) -- main_v274
  rw [in_unary (F := Ideal) mem_ops5 20 rfl V] -- main_v273
  rw [in_nullary (F := Ideal) mem_ops5 19 rfl V] -- main_cst_44
  rw [in_binary (F := Ideal) mem_ops5 18 rfl V] -- main_v272
  rw [in_nullary (F := Ideal) mem_ops5 17 rfl V] -- main_cst_43
  rfl

set_option maxHeartbeats 40000000 in
/-- Layer `L = 0`: the column variances, read through the outlined variance function at the types its references carry. -/
theorem Rp_var1t (V : Valuation τ sig (Elt Ideal)) :
    pRt V main_call5.call0.v2 = rVarV (pRt V (TRef.of main_v168 : TRef sig ⟨S100000x128, .f32⟩)) := by
  rw [prt_ternary V (mem_of_sub_get? (mem_ops5 (F := Ideal)) (i := 44) rfl)] -- main_call5.call0.v2
  rw [prt_unary V (mem_of_sub_get? (mem_ops5 (F := Ideal)) (i := 43) rfl)] -- main_call5.call0.v1
  rw [prt_unary V (mem_of_sub_get? (mem_ops5 (F := Ideal)) (i := 42) rfl)] -- main_call5.call0.v0
  rw [prt_nullary V (mem_of_sub_get? (mem_ops5 (F := Ideal)) (i := 41) rfl)] -- main_call5.cst_4
  rw [prt_binary V (mem_of_sub_get? (mem_ops5 (F := Ideal)) (i := 40) rfl)] -- main_call5.v12
  rw [prt_nullary V (mem_of_sub_get? (mem_ops5 (F := Ideal)) (i := 39) rfl)] -- main_call5.cst_3
  rw [prt_binary V (mem_of_sub_get? (mem_ops5 (F := Ideal)) (i := 38) rfl)] -- main_call5.v11
  rw [prt_unary V (mem_of_sub_get? (mem_ops5 (F := Ideal)) (i := 37) rfl)] -- main_call5.v10
  rw [prt_binary V (mem_of_sub_get? (mem_ops5 (F := Ideal)) (i := 36) rfl)] -- main_call5.v9
  rw [prt_nullary V (mem_of_sub_get? (mem_ops5 (F := Ideal)) (i := 35) rfl)] -- main_call5.cst_2
  rw [prt_binary V (mem_of_sub_get? (mem_ops5 (F := Ideal)) (i := 34) rfl)] -- main_call5.v8
  rw [prt_nullary V (mem_of_sub_get? (mem_ops5 (F := Ideal)) (i := 33) rfl)] -- main_call5.cst_1
  rw [prt_unary V (mem_of_sub_get? (mem_ops5 (F := Ideal)) (i := 32) rfl)] -- main_call5.v7
  rw [prt_binary V (mem_of_sub_get? (mem_ops5 (F := Ideal)) (i := 31) rfl)] -- main_call5.v6
  rw [prt_binary V (mem_of_sub_get? (mem_ops5 (F := Ideal)) (i := 30) rfl)] -- main_call5.v5
  rw [prt_unary V (mem_of_sub_get? (mem_ops5 (F := Ideal)) (i := 29) rfl)] -- main_call5.v4
  rw [prt_binary V (mem_of_sub_get? (mem_ops5 (F := Ideal)) (i := 28) rfl)] -- main_call5.v3
  rw [prt_unary V (mem_of_sub_get? (mem_ops5 (F := Ideal)) (i := 27) rfl)] -- main_call5.v2
  rw [prt_nullary V (mem_of_sub_get? (mem_ops5 (F := Ideal)) (i := 26) rfl)] -- main_call5.cst_0
  rw [prt_unary V (mem_of_sub_get? (mem_ops5 (F := Ideal)) (i := 25) rfl)] -- main_call5.v1
  rw [prt_binary V (mem_of_sub_get? (mem_ops5 (F := Ideal)) (i := 24) rfl)] -- main_call5.v0
  rw [prt_nullary V (mem_of_sub_get? (mem_ops5 (F := Ideal)) (i := 23) rfl)] -- main_call5.cst
  simp only [pRt]
  rw [in_nullary (F := Ideal) mem_ops5 22 rfl V] -- main_c_45
  rfl

/-- Layer `L = 0`: the buffer of column variances is the column variances of the buffer of rows. -/
theorem Rp_var1 (V : Valuation τ sig (Elt Ideal)) :
    (after (ops (F := Ideal)) V (Proc.devRef .tc main_v275)) = rVarV (after (ops (F := Ideal)) V (Proc.devRef .tc main_v168)) :=
  Rp_var1t V

set_option maxHeartbeats 40000000 in
/-- Layer `L = 0`: the buffer before the clamp: the centred rows times the reciprocal root of the variance plus the guard, times the
    gain, plus the offset. -/
theorem Rp_aff1 (V : Valuation τ sig (Elt Ideal)) :
    (after (ops (F := Ideal)) V (Proc.devRef .tc main_v290)) = addf
        (mulf
          (mulf (subf (after (ops (F := Ideal)) V (Proc.devRef .tc main_v168)) (bcastRows (after (ops (F := Ideal)) V (Proc.devRef .tc main_v274))))
            (bcastRows (Host.rsqrt (addf (after (ops (F := Ideal)) V (Proc.devRef .tc main_v275)) (broadcastInDim S128 ![] bcast_S_S128 (constant (F := Ideal) S_ .f32 0x3727C5AC#32))))))
          (bcastRows (after (ops (F := Ideal)) V (Proc.devRef .tc main_v269))))
        (bcastRows (after (ops (F := Ideal)) V (Proc.devRef .tc main_v271))) := by
  refine ((in_binary (F := Ideal) mem_ops5 60 rfl V).trans ?_) -- main_v290
  rw [in_unary (F := Ideal) mem_ops5 59 rfl V] -- main_v289
  rw [in_unary (F := Ideal) mem_ops5 58 rfl V] -- main_v288
  rw [in_binary (F := Ideal) mem_ops5 57 rfl V] -- main_v287
  rw [in_unary (F := Ideal) mem_ops5 56 rfl V] -- main_v286
  rw [in_unary (F := Ideal) mem_ops5 55 rfl V] -- main_v285
  rw [in_binary (F := Ideal) mem_ops5 54 rfl V] -- main_v284
  rw [in_unary (F := Ideal) mem_ops5 53 rfl V] -- main_v283
  rw [in_unary (F := Ideal) mem_ops5 52 rfl V] -- main_v282
  rw [in_unary (F := Ideal) mem_ops5 51 rfl V] -- main_v281
  rw [in_binary (F := Ideal) mem_ops5 50 rfl V] -- main_v280
  rw [in_unary (F := Ideal) mem_ops5 49 rfl V] -- main_v279
  rw [in_nullary (F := Ideal) mem_ops5 48 rfl V] -- main_cst_46
  rw [in_binary (F := Ideal) mem_ops5 47 rfl V] -- main_v278
  rw [in_unary (F := Ideal) mem_ops5 46 rfl V] -- main_v277
  rw [in_unary (F := Ideal) mem_ops5 45 rfl V] -- main_v276
  rfl

set_option maxHeartbeats 40000000 in
/-- Layer `L = 0`: the clamp, read through the outlined function at the types its references carry. -/
theorem Rp_relu1t (V : Valuation τ sig (Elt Ideal)) :
    pRt V main_call6.v1
      = maximumf (pRt V (TRef.of main_v290 : TRef sig ⟨S100000x128, .f32⟩)) (broadcastInDim S100000x128 ![] bcast_S_S100000x128 zero0) := by
  rw [prt_binary V (mem_of_sub_get? (mem_ops5 (F := Ideal)) (i := 63) rfl)] -- main_call6.v1
  rw [prt_unary V (mem_of_sub_get? (mem_ops5 (F := Ideal)) (i := 62) rfl)] -- main_call6.v0
  rw [prt_nullary V (mem_of_sub_get? (mem_ops5 (F := Ideal)) (i := 61) rfl)] -- main_call6.cst

/-- Layer `L = 0`: the buffer of new patient rows is the buffer before the clamp, clamped below at zero. -/
theorem Rp_relu1 (V : Valuation τ sig (Elt Ideal)) :
    (after (ops (F := Ideal)) V (Proc.devRef .tc main_v291)) = maximumf (after (ops (F := Ideal)) V (Proc.devRef .tc main_v290)) (broadcastInDim S100000x128 ![] bcast_S_S100000x128 zero0) :=
  Rp_relu1t V

/-- Layer `L = 0`: the buffer of new patient rows is the normalisation of the buffer of rows before normalisation
    with the layer's gain and offset. -/
theorem Rp_bn1 (V : Valuation τ sig (Elt Ideal)) :
    (after (ops (F := Ideal)) V (Proc.devRef .tc main_v291) : S100000x128.Idx → EReal)
      = refBN (after (ops (F := Ideal)) V (Proc.devRef .tc main_v168)) (rG4 ![0, 0, 0] slices_S2x4x128_S1x1x128_0_0_0 (after (ops (F := Ideal)) V (Proc.devRef .tc main_arg15))) (rG4 ![0, 0, 0] slices_S2x4x128_S1x1x128_0_0_0 (after (ops (F := Ideal)) V (Proc.devRef .tc main_arg16))) := by
  refine (Rp_relu1 V).trans ?_
  rw [Rp_aff1 V, Rp_mean1 V, Rp_var1 V, Rp_g1 V, Rp_be1 V]
  rfl

/-- Layer `L = 0`: the buffer of new patient rows as one term over the final contents of the weight arguments, the
    three neighbour means and the patient rows. -/
theorem R_patient1T (V : Valuation τ sig (Elt Ideal)) :
    (after (ops (F := Ideal)) V (Proc.devRef .tc main_v291) : S100000x128.Idx → EReal)
      = rPatientT ![0, 1, 0, 0] ![0, 3, 0, 0] ![0, 5, 0, 0] slices_S2x6x128x128_S1x1x128x128_0_1_0_0 slices_S2x6x128x128_S1x1x128x128_0_3_0_0 slices_S2x6x128x128_S1x1x128x128_0_5_0_0 ![0, 1, 0] ![0, 3, 0] ![0, 5, 0] slices_S2x6x128_S1x1x128_0_1_0 slices_S2x6x128_S1x1x128_0_3_0 slices_S2x6x128_S1x1x128_0_5_0 ![0, 0, 0] slices_S2x4x128_S1x1x128_0_0_0
          (after (ops (F := Ideal)) V (Proc.devRef .tc main_arg12)) (after (ops (F := Ideal)) V (Proc.devRef .tc main_arg13)) (after (ops (F := Ideal)) V (Proc.devRef .tc main_arg14)) (after (ops (F := Ideal)) V (Proc.devRef .tc main_arg15)) (after (ops (F := Ideal)) V (Proc.devRef .tc main_arg16))
          (after (ops (F := Ideal)) V (Proc.devRef .tc main_v92)) (after (ops (F := Ideal)) V (Proc.devRef .tc main_v125)) (after (ops (F := Ideal)) V (Proc.devRef .tc main_v159)) (after (ops (F := Ideal)) V (Proc.devRef .tc main_v67)) := by
  refine (Rp_bn1 V).trans ?_
  rw [Rp_rows1 V]
  rfl

/-- Layer `L = 0`: the reference's new patient rows are the reference's arithmetic on the final contents of the weight
    arguments, the three neighbour means and the patient rows. -/
theorem R_patient1 (V : Valuation τ sig (Elt Ideal)) :
    (after (ops (F := Ideal)) V (Proc.devRef .tc main_v291) : S100000x128.Idx → EReal)
      = rPatient 0 (after (ops (F := Ideal)) V (Proc.devRef .tc main_arg12)) (after (ops (F := Ideal)) V (Proc.devRef .tc main_arg13)) (after (ops (F := Ideal)) V (Proc.devRef .tc main_arg14)) (after (ops (F := Ideal)) V (Proc.devRef .tc main_arg15)) (after (ops (F := Ideal)) V (Proc.devRef .tc main_arg16))
          (after (ops (F := Ideal)) V (Proc.devRef .tc main_v92)) (after (ops (F := Ideal)) V (Proc.devRef .tc main_v125)) (after (ops (F := Ideal)) V (Proc.devRef .tc main_v159)) (after (ops (F := Ideal)) V (Proc.devRef .tc main_v67)) :=
  (R_patient1T V).trans (rPatientT_eq 0 _ _ _ _ _ _ _ _ _ _ _ _ _ _ ⟨rfl, rfl, rfl, rfl⟩ ⟨rfl, rfl, rfl, rfl⟩ ⟨rfl, rfl, rfl, rfl⟩
    ⟨rfl, rfl, rfl⟩ ⟨rfl, rfl, rfl⟩ ⟨rfl, rfl, rfl⟩ ⟨rfl, rfl, rfl⟩ _ _ _ _ _ _ _ _ _)

end Cert.Val

end
-- ==== Proof.Val.PatientR2.lean ====
/- The reference's new patient rows of the second graph layer, read out of its list of operations. Each buffer's final
   contents are its operation's function of its operands' final contents. The stretch is cut at the buffer of rows
   before normalisation, the gain and offset vectors, the column means, the column variances and the buffer before
   the clamp; each piece is a short chain of such reads, and the pieces put together are the layer's term over the
   weight arguments, the three neighbour means and the patient rows: entry by entry, the layer's arithmetic. -/
import proofs.«424088_j28020366639260_2_alg».proof.Proof.Ref.Fix
import proofs.«424088_j28020366639260_2_alg».proof.Proof.Val.PatientRTerm
import proofs.«424088_j28020366639260_2_alg».proof.Proof.Val.PatientRTyped

set_option maxRecDepth 16384

noncomputable section

namespace Cert.Val

open Cert.ReferenceIdeal Cert.ReferenceIdeal.Gen Cert.ReferenceIdeal.Hand Cert.Val.RefRead
open Idealize.ShloMosaic Idealize.ShloMosaic.TcCoe Idealize.ShloMosaic.ValueIdx Idealize.ShloMosaic.StableHlo
open scoped BigOperators

set_option maxHeartbeats 40000000 in
/-- Layer `L = 1`: the buffer of rows before normalisation is the three relations' outputs added, as a term over the final
    contents of the weight arguments, the three neighbour means and the patient rows. -/
theorem Rp_rows2 (V : Valuation τ sig (Elt Ideal)) :
    (after (ops (F := Ideal)) V (Proc.devRef .tc main_v464)) = rNewPT (rW ![1, 1, 0, 0] slices_S2x6x128x128_S1x1x128x128_1_1_0_0 (after (ops (F := Ideal)) V (Proc.devRef .tc main_arg12))) (rB6 ![1, 1, 0] slices_S2x6x128_S1x1x128_1_1_0 (after (ops (F := Ideal)) V (Proc.devRef .tc main_arg13))) (rW ![1, 1, 0, 0] slices_S2x6x128x128_S1x1x128x128_1_1_0_0 (after (ops (F := Ideal)) V (Proc.devRef .tc main_arg14)))
          (rW ![1, 3, 0, 0] slices_S2x6x128x128_S1x1x128x128_1_3_0_0 (after (ops (F := Ideal)) V (Proc.devRef .tc main_arg12))) (rB6 ![1, 3, 0] slices_S2x6x128_S1x1x128_1_3_0 (after (ops (F := Ideal)) V (Proc.devRef .tc main_arg13))) (rW ![1, 3, 0, 0] slices_S2x6x128x128_S1x1x128x128_1_3_0_0 (after (ops (F := Ideal)) V (Proc.devRef .tc main_arg14)))
          (rW ![1, 5, 0, 0] slices_S2x6x128x128_S1x1x128x128_1_5_0_0 (after (ops (F := Ideal)) V (Proc.devRef .tc main_arg12))) (rB6 ![1, 5, 0] slices_S2x6x128_S1x1x128_1_5_0 (after (ops (F := Ideal)) V (Proc.devRef .tc main_arg13))) (rW ![1, 5, 0, 0] slices_S2x6x128x128_S1x1x128x128_1_5_0_0 (after (ops (F := Ideal)) V (Proc.devRef .tc main_arg14)))
          (after (ops (F := Ideal)) V (Proc.devRef .tc main_v388)) (after (ops (F := Ideal)) V (Proc.devRef .tc main_v421)) (after (ops (F := Ideal)) V (Proc.devRef .tc main_v455)) (after (ops (F := Ideal)) V (Proc.devRef .tc main_v291)) := by
  refine ((in_binary (F := Ideal) mem_ops9 3 rfl V).trans ?_) -- main_v464
  rw [in_binary (F := Ideal) mem_ops9 2 rfl V] -- main_v463
  rw [in_binary (F := Ideal) mem_ops9 1 rfl V] -- main_v462
  rw [in_unary (F := Ideal) mem_ops9 0 rfl V] -- main_v461
  rw [in_binary (F := Ideal) mem_ops8 59 rfl V] -- main_v460
  rw [in_unary (F := Ideal) mem_ops8 58 rfl V] -- main_v459
  rw [in_unary (F := Ideal) mem_ops8 57 rfl V] -- main_v458
  rw [in_binary (F := Ideal) mem_ops8 56 rfl V] -- main_v457
  rw [in_unary (F := Ideal) mem_ops8 55 rfl V] -- main_v456
  rw [in_reshape (F := Ideal) mem_ops8 29 rfl V] -- main_v436
  rw [in_unary (F := Ideal) mem_ops8 28 rfl V] -- main_v435
  rw [in_reshape (F := Ideal) mem_ops8 27 rfl V] -- main_v434
  rw [in_unary (F := Ideal) mem_ops8 26 rfl V] -- main_v433
  rw [in_reshape (F := Ideal) mem_ops8 25 rfl V] -- main_v432
  rw [in_unary (F := Ideal) mem_ops8 24 rfl V] -- main_v431
  rw [in_binary (F := Ideal) mem_ops8 23 rfl V] -- main_v430
  rw [in_binary (F := Ideal) mem_ops8 22 rfl V] -- main_v429
  rw [in_binary (F := Ideal) mem_ops8 21 rfl V] -- main_v428
  rw [in_unary (F := Ideal) mem_ops8 20 rfl V] -- main_v427
  rw [in_binary (F := Ideal) mem_ops8 19 rfl V] -- main_v426
  rw [in_unary (F := Ideal) mem_ops8 18 rfl V] -- main_v425
  rw [in_unary (F := Ideal) mem_ops8 17 rfl V] -- main_v424
  rw [in_binary (F := Ideal) mem_ops8 16 rfl V] -- main_v423
  rw [in_unary (F := Ideal) mem_ops8 15 rfl V] -- main_v422
  rw [in_reshape (F := Ideal) mem_ops7 51 rfl V] -- main_v402
  rw [in_unary (F := Ideal) mem_ops7 50 rfl V] -- main_v401
  rw [in_reshape (F := Ideal) mem_ops7 49 rfl V] -- main_v400
  rw [in_unary (F := Ideal) mem_ops7 48 rfl V] -- main_v399
  rw [in_reshape (F := Ideal) mem_ops7 47 rfl V] -- main_v398
  rw [in_unary (F := Ideal) mem_ops7 46 rfl V] -- main_v397
  rw [in_binary (F := Ideal) mem_ops7 45 rfl V] -- main_v396
  rw [in_binary (F := Ideal) mem_ops7 44 rfl V] -- main_v395
  rw [in_unary (F := Ideal) mem_ops7 43 rfl V] -- main_v394
  rw [in_binary (F := Ideal) mem_ops7 42 rfl V] -- main_v393
  rw [in_unary (F := Ideal) mem_ops7 41 rfl V] -- main_v392
  rw [in_unary (F := Ideal) mem_ops7 40 rfl V] -- main_v391
  rw [in_binary (F := Ideal) mem_ops7 39 rfl V] -- main_v390
  rw [in_unary (F := Ideal) mem_ops7 38 rfl V] -- main_v389
  rw [in_reshape (F := Ideal) mem_ops7 12 rfl V] -- main_v369
  rw [in_unary (F := Ideal) mem_ops7 11 rfl V] -- main_v368
  rw [in_reshape (F := Ideal) mem_ops7 10 rfl V] -- main_v367
  rw [in_unary (F := Ideal) mem_ops7 9 rfl V] -- main_v366
  rw [in_reshape (F := Ideal) mem_ops7 8 rfl V] -- main_v365
  rw [in_unary (F := Ideal) mem_ops7 7 rfl V] -- main_v364
  rfl

set_option maxHeartbeats 40000000 in
/-- Layer `L = 1`: the gain vector is its row of the stacked gains. -/
theorem Rp_g2 (V : Valuation τ sig (Elt Ideal)) :
    (after (ops (F := Ideal)) V (Proc.devRef .tc main_v565)) = rG4 ![1, 0, 0] slices_S2x4x128_S1x1x128_1_0_0 (after (ops (F := Ideal)) V (Proc.devRef .tc main_arg15)) := by
  refine ((in_reshape (F := Ideal) mem_ops11 2 rfl V).trans ?_) -- main_v565
  rw [in_unary (F := Ideal) mem_ops11 1 rfl V] -- main_v564
  rfl

set_option maxHeartbeats 40000000 in
/-- Layer `L = 1`: the offset vector is its row of the stacked offsets. -/
theorem Rp_be2 (V : Valuation τ sig (Elt Ideal)) :
    (after (ops (F := Ideal)) V (Proc.devRef .tc main_v567)) = rG4 ![1, 0, 0] slices_S2x4x128_S1x1x128_1_0_0 (after (ops (F := Ideal)) V (Proc.devRef .tc main_arg16)) := by
  refine ((in_reshape (F := Ideal) mem_ops11 4 rfl V).trans ?_) -- main_v567
  rw [in_unary (F := Ideal) mem_ops11 3 rfl V] -- main_v566
  rfl

set_option maxHeartbeats 40000000 in
/-- Layer `L = 1`: the buffer of column means is the column means of the buffer of rows. -/
theorem Rp_mean2 (V : Valuation τ sig (Elt Ideal)) :
    (after (ops (F := Ideal)) V (Proc.devRef .tc main_v570)) = rMeanV (after (ops (F := Ideal)) V (Proc.devRef .tc main_v464)) := by
  refine ((in_binary (F := Ideal) mem_ops11 9 rfl V).trans ?_) -- main_v570
  rw [in_unary (F := Ideal) mem_ops11 8 rfl V] -- main_v569
  rw [in_nullary (F := Ideal) mem_ops11 7 rfl V] -- main_cst_96
  rw [in_binary (F := Ideal) mem_ops11 6 rfl V] -- main_v568
  rw [in_nullary (F := Ideal) mem_ops11 5 rfl V] -- main_cst_95
  rfl

set_option maxHeartbeats 40000000 in
/-- Layer `L = 1`: the column variances, read through the outlined variance function at the types its references carry. -/
theorem Rp_var2t (V : Valuation τ sig (Elt Ideal)) :
    pRt V main_call13.call0.v2 = rVarV (pRt V (TRef.of main_v464 : TRef sig ⟨S100000x128, .f32⟩)) := by
  rw [prt_ternary V (mem_of_sub_get? (mem_ops11 (F := Ideal)) (i := 32) rfl)] -- main_call13.call0.v2
  rw [prt_unary V (mem_of_sub_get? (mem_ops11 (F := Ideal)) (i := 31) rfl)] -- main_call13.call0.v1
  rw [prt_unary V (mem_of_sub_get? (mem_ops11 (F := Ideal)) (i := 30) rfl)] -- main_call13.call0.v0
  rw [prt_nullary V (mem_of_sub_get? (mem_ops11 (F := Ideal)) (i := 29) rfl)] -- main_call13.cst_4
  rw [prt_binary V (mem_of_sub_get? (mem_ops11 (F := Ideal)) (i := 28) rfl)] -- main_call13.v12
  rw [prt_nullary V (mem_of_sub_get? (mem_ops11 (F := Ideal)) (i := 27) rfl)] -- main_call13.cst_3
  rw [prt_binary V (mem_of_sub_get? (mem_ops11 (F := Ideal)) (i := 26) rfl)] -- main_call13.v11
  rw [prt_unary V (mem_of_sub_get? (mem_ops11 (F := Ideal)) (i := 25) rfl)] -- main_call13.v10
  rw [prt_binary V (mem_of_sub_get? (mem_ops11 (F := Ideal)) (i := 24) rfl)] -- main_call13.v9
  rw [prt_nullary V (mem_of_sub_get? (mem_ops11 (F := Ideal)) (i := 23) rfl)] -- main_call13.cst_2
  rw [prt_binary V (mem_of_sub_get? (mem_ops11 (F := Ideal)) (i := 22) rfl)] -- main_call13.v8
  rw [prt_nullary V (mem_of_sub_get? (mem_ops11 (F := Ideal)) (i := 21) rfl)] -- main_call13.cst_1
  rw [prt_unary V (mem_of_sub_get? (mem_ops11 (F := Ideal)) (i := 20) rfl)] -- main_call13.v7
  rw [prt_binary V (mem_of_sub_get? (mem_ops11 (F := Ideal)) (i := 19) rfl)] -- main_call13.v6
  rw [prt_binary V (mem_of_sub_get? (mem_ops11 (F := Ideal)) (i := 18) rfl)] -- main_call13.v5
  rw [prt_unary V (mem_of_sub_get? (mem_ops11 (F := Ideal)) (i := 17) rfl)] -- main_call13.v4
  rw [prt_binary V (mem_of_sub_get? (mem_ops11 (F := Ideal)) (i := 16) rfl)] -- main_call13.v3
  rw [prt_unary V (mem_of_sub_get? (mem_ops11 (F := Ideal)) (i := 15) rfl)] -- main_call13.v2
  rw [prt_nullary V (mem_of_sub_get? (mem_ops11 (F := Ideal)) (i := 14) rfl)] -- main_call13.cst_0
  rw [prt_unary V (mem_of_sub_get? (mem_ops11 (F := Ideal)) (i := 13) rfl)] -- main_call13.v1
  rw [prt_binary V (mem_of_sub_get? (mem_ops11 (F := Ideal)) (i := 12) rfl)] -- main_call13.v0
  rw [prt_nullary V (mem_of_sub_get? (mem_ops11 (F := Ideal)) (i := 11) rfl)] -- main_call13.cst
  simp only [pRt]
  rw [in_nullary (F := Ideal) mem_ops11 10 rfl V] -- main_c_97
  rfl

/-- Layer `L = 1`: the buffer of column variances is the column variances of the buffer of rows. -/
theorem Rp_var2 (V : Valuation τ sig (Elt Ideal)) :
    (after (ops (F := Ideal)) V (Proc.devRef .tc main_v571)) = rVarV (after (ops (F := Ideal)) V (Proc.devRef .tc main_v464)) :=
  Rp_var2t V

set_option maxHeartbeats 40000000 in
/-- Layer `L = 1`: the buffer before the clamp: the centred rows times the reciprocal root of the variance plus the guard, times the
    gain, plus the offset. -/
theorem Rp_aff2 (V : Valuation τ sig (Elt Ideal)) :
    (after (ops (F := Ideal)) V (Proc.devRef .tc main_v586)) = addf
        (mulf
          (mulf (subf (after (ops (F := Ideal)) V (Proc.devRef .tc main_v464)) (bcastRows (after (ops (F := Ideal)) V (Proc.devRef .tc main_v570))))
            (bcastRows (Host.rsqrt (addf (after (ops (F := Ideal)) V (Proc.devRef .tc main_v571)) (broadcastInDim S128 ![] bcast_S_S128 (constant (F := Ideal) S_ .f32 0x3727C5AC#32))))))
          (bcastRows (after (ops (F := Ideal)) V (Proc.devRef .tc main_v565))))
        (bcastRows (after (ops (F := Ideal)) V (Proc.devRef .tc main_v567))) := by
  refine ((in_binary (F := Ideal) mem_ops11 48 rfl V).trans ?_) -- main_v586
  rw [in_unary (F := Ideal) mem_ops11 47 rfl V] -- main_v585
  rw [in_unary (F := Ideal) mem_ops11 46 rfl V] -- main_v584
  rw [in_binary (F := Ideal) mem_ops11 45 rfl V] -- main_v583
  rw [in_unary (F := Ideal) mem_ops11 44 rfl V] -- main_v582
  rw [in_unary (F := Ideal) mem_ops11 43 rfl V] -- main_v581
  rw [in_binary (F := Ideal) mem_ops11 42 rfl V] -- main_v580
  rw [in_unary (F := Ideal) mem_ops11 41 rfl V] -- main_v579
  rw [in_unary (F := Ideal) mem_ops11 40 rfl V] -- main_v578
  rw [in_unary (F := Ideal) mem_ops11 39 rfl V] -- main_v577
  rw [in_binary (F := Ideal) mem_ops11 38 rfl V] -- main_v576
  rw [in_unary (F := Ideal) mem_ops11 37 rfl V] -- main_v575
  rw [in_nullary (F := Ideal) mem_ops11 36 rfl V] -- main_cst_98
  rw [in_binary (F := Ideal) mem_ops11 35 rfl V] -- main_v574
  rw [in_unary (F := Ideal) mem_ops11 34 rfl V] -- main_v573
  rw [in_unary (F := Ideal) mem_ops11 33 rfl V] -- main_v572
  rfl

set_option maxHeartbeats 40000000 in
/-- Layer `L = 1`: the clamp, read through the outlined function at the types its references carry. -/
theorem Rp_relu2t (V : Valuation τ sig (Elt Ideal)) :
    pRt V main_call14.v1
      = maximumf (pRt V (TRef.of main_v586 : TRef sig ⟨S100000x128, .f32⟩)) (broadcastInDim S100000x128 ![] bcast_S_S100000x128 zero0) := by
  rw [prt_binary V (mem_of_sub_get? (mem_ops11 (F := Ideal)) (i := 51) rfl)] -- main_call14.v1
  rw [prt_unary V (mem_of_sub_get? (mem_ops11 (F := Ideal)) (i := 50) rfl)] -- main_call14.v0
  rw [prt_nullary V (mem_of_sub_get? (mem_ops11 (F := Ideal)) (i := 49) rfl)] -- main_call14.cst

/-- Layer `L = 1`: the buffer of new patient rows is the buffer before the clamp, clamped below at zero. -/
theorem Rp_relu2 (V : Valuation τ sig (Elt Ideal)) :
    (after (ops (F := Ideal)) V (Proc.devRef .tc main_v587)) = maximumf (after (ops (F := Ideal)) V (Proc.devRef .tc main_v586)) (broadcastInDim S100000x128 ![] bcast_S_S100000x128 zero0) :=
  Rp_relu2t V

/-- Layer `L = 1`: the buffer of new patient rows is the normalisation of the buffer of rows before normalisation
    with the layer's gain and offset. -/
theorem Rp_bn2 (V : Valuation τ sig (Elt Ideal)) :
    (after (ops (F := Ideal)) V (Proc.devRef .tc main_v587) : S100000x128.Idx → EReal)
      = refBN (after (ops (F := Ideal)) V (Proc.devRef .tc main_v464)) (rG4 ![1, 0, 0] slices_S2x4x128_S1x1x128_1_0_0 (after (ops (F := Ideal)) V (Proc.devRef .tc main_arg15))) (rG4 ![1, 0, 0] slices_S2x4x128_S1x1x128_1_0_0 (after (ops (F := Ideal)) V (Proc.devRef .tc main_arg16))) := by
  refine (Rp_relu2 V).trans ?_
  rw [Rp_aff2 V, Rp_mean2 V, Rp_var2 V, Rp_g2 V, Rp_be2 V]
  rfl

/-- Layer `L = 1`: the buffer of new patient rows as one term over the final contents of the weight arguments, the
    three neighbour means and the patient rows. -/
theorem R_patient2T (V : Valuation τ sig (Elt Ideal)) :
    (after (ops (F := Ideal)) V (Proc.devRef .tc main_v587) : S100000x128.Idx → EReal)
      = rPatientT ![1, 1, 0, 0] ![1, 3, 0, 0] ![1, 5, 0, 0] slices_S2x6x128x128_S1x1x128x128_1_1_0_0 slices_S2x6x128x128_S1x1x128x128_1_3_0_0 slices_S2x6x128x128_S1x1x128x128_1_5_0_0 ![1, 1, 0] ![1, 3, 0] ![1, 5, 0] slices_S2x6x128_S1x1x128_1_1_0 slices_S2x6x128_S1x1x128_1_3_0 slices_S2x6x128_S1x1x128_1_5_0 ![1, 0, 0] slices_S2x4x128_S1x1x128_1_0_0
          (after (ops (F := Ideal)) V (Proc.devRef .tc main_arg12)) (after (ops (F := Ideal)) V (Proc.devRef .tc main_arg13)) (after (ops (F := Ideal)) V (Proc.devRef .tc main_arg14)) (after (ops (F := Ideal)) V (Proc.devRef .tc main_arg15)) (after (ops (F := Ideal)) V (Proc.devRef .tc main_arg16))
          (after (ops (F := Ideal)) V (Proc.devRef .tc main_v388)) (after (ops (F := Ideal)) V (Proc.devRef .tc main_v421)) (after (ops (F := Ideal)) V (Proc.devRef .tc main_v455)) (after (ops (F := Ideal)) V (Proc.devRef .tc main_v291)) := by
  refine (Rp_bn2 V).trans ?_
  rw [Rp_rows2 V]
  rfl

/-- Layer `L = 1`: the reference's new patient rows are the reference's arithmetic on the final contents of the weight
    arguments, the three neighbour means and the patient rows. -/
theorem R_patient2 (V : Valuation τ sig (Elt Ideal)) :
    (after (ops (F := Ideal)) V (Proc.devRef .tc main_v587) : S100000x128.Idx → EReal)
      = rPatient 1 (after (ops (F := Ideal)) V (Proc.devRef .tc main_arg12)) (after (ops (F := Ideal)) V (Proc.devRef .tc main_arg13)) (after (ops (F := Ideal)) V (Proc.devRef .tc main_arg14)) (after (ops (F := Ideal)) V (Proc.devRef .tc main_arg15)) (after (ops (F := Ideal)) V (Proc.devRef .tc main_arg16))
          (after (ops (F := Ideal)) V (Proc.devRef .tc main_v388)) (after (ops (F := Ideal)) V (Proc.devRef .tc main_v421)) (after (ops (F := Ideal)) V (Proc.devRef .tc main_v455)) (after (ops (F := Ideal)) V (Proc.devRef .tc main_v291)) :=
  (R_patient2T V).trans (rPatientT_eq 1 _ _ _ _ _ _ _ _ _ _ _ _ _ _ ⟨rfl, rfl, rfl, rfl⟩ ⟨rfl, rfl, rfl, rfl⟩ ⟨rfl, rfl, rfl, rfl⟩
    ⟨rfl, rfl, rfl⟩ ⟨rfl, rfl, rfl⟩ ⟨rfl, rfl, rfl⟩ ⟨rfl, rfl, rfl⟩ _ _ _ _ _ _ _ _ _)

end Cert.Val

end
-- ==== Proof.Val.PatientLink.lean ====
/- The patient branch of a graph layer, buffer to buffer: from equal and real inputs at the branch's entry in the
   kernel program and after all of the reference's operations, equal and real new patient rows. Both layers. -/
import proofs.«424088_j28020366639260_2_alg».proof.Proof.Val.PatientK
import proofs.«424088_j28020366639260_2_alg».proof.Proof.Val.PatientR1
import proofs.«424088_j28020366639260_2_alg».proof.Proof.Val.PatientR2

noncomputable section

namespace Cert.Val

open Idealize.ShloMosaic Idealize.ShloMosaic.TcCoe Idealize.ShloMosaic.StableHlo

/-- Layer 0: if the layer's weight arguments, the three neighbour means and the patient rows the kernel program
    enters the branch with are the reference's, and those are real, then the new patient rows the kernel program
    leaves are the reference's, and they are real. -/
theorem link_main_v224
    (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_arg12 : (Cert.KernelIdeal.Hand.W8 m g c (Proc.devRef .tc Cert.KernelIdeal.main_arg12) : (⟨4, ![2, 6, 128, 128]⟩ : Shape).Idx → EReal) = (after (Cert.ReferenceIdeal.Hand.ops (F := Ideal)) V (Proc.devRef .tc Cert.ReferenceIdeal.main_arg12) : (⟨4, ![2, 6, 128, 128]⟩ : Shape).Idx → EReal))
    (r_arg12 : ∀ i, ∃ r : ℝ, (after (Cert.ReferenceIdeal.Hand.ops (F := Ideal)) V (Proc.devRef .tc Cert.ReferenceIdeal.main_arg12) : (⟨4, ![2, 6, 128, 128]⟩ : Shape).Idx → EReal) i = (r : EReal))
    (e_arg13 : (Cert.KernelIdeal.Hand.W8 m g c (Proc.devRef .tc Cert.KernelIdeal.main_arg13) : (⟨3, ![2, 6, 128]⟩ : Shape).Idx → EReal) = (after (Cert.ReferenceIdeal.Hand.ops (F := Ideal)) V (Proc.devRef .tc Cert.ReferenceIdeal.main_arg13) : (⟨3, ![2, 6, 128]⟩ : Shape).Idx → EReal))
    (r_arg13 : ∀ i, ∃ r : ℝ, (after (Cert.ReferenceIdeal.Hand.ops (F := Ideal)) V (Proc.devRef .tc Cert.ReferenceIdeal.main_arg13) : (⟨3, ![2, 6, 128]⟩ : Shape).Idx → EReal) i = (r : EReal))
    (e_arg14 : (Cert.KernelIdeal.Hand.W8 m g c (Proc.devRef .tc Cert.KernelIdeal.main_arg14) : (⟨4, ![2, 6, 128, 128]⟩ : Shape).Idx → EReal) = (after (Cert.ReferenceIdeal.Hand.ops (F := Ideal)) V (Proc.devRef .tc Cert.ReferenceIdeal.main_arg14) : (⟨4, ![2, 6, 128, 128]⟩ : Shape).Idx → EReal))
    (r_arg14 : ∀ i, ∃ r : ℝ, (after (Cert.ReferenceIdeal.Hand.ops (F := Ideal)) V (Proc.devRef .tc Cert.ReferenceIdeal.main_arg14) : (⟨4, ![2, 6, 128, 128]⟩ : Shape).Idx → EReal) i = (r : EReal))
    (e_arg15 : (Cert.KernelIdeal.Hand.W8 m g c (Proc.devRef .tc Cert.KernelIdeal.main_arg15) : (⟨3, ![2, 4, 128]⟩ : Shape).Idx → EReal) = (after (Cert.ReferenceIdeal.Hand.ops (F := Ideal)) V (Proc.devRef .tc Cert.ReferenceIdeal.main_arg15) : (⟨3, ![2, 4, 128]⟩ : Shape).Idx → EReal))
    (r_arg15 : ∀ i, ∃ r : ℝ, (after (Cert.ReferenceIdeal.Hand.ops (F := Ideal)) V (Proc.devRef .tc Cert.ReferenceIdeal.main_arg15) : (⟨3, ![2, 4, 128]⟩ : Shape).Idx → EReal) i = (r : EReal))
    (e_arg16 : (Cert.KernelIdeal.Hand.W8 m g c (Proc.devRef .tc Cert.KernelIdeal.main_arg16) : (⟨3, ![2, 4, 128]⟩ : Shape).Idx → EReal) = (after (Cert.ReferenceIdeal.Hand.ops (F := Ideal)) V (Proc.devRef .tc Cert.ReferenceIdeal.main_arg16) : (⟨3, ![2, 4, 128]⟩ : Shape).Idx → EReal))
    (r_arg16 : ∀ i, ∃ r : ℝ, (after (Cert.ReferenceIdeal.Hand.ops (F := Ideal)) V (Proc.devRef .tc Cert.ReferenceIdeal.main_arg16) : (⟨3, ![2, 4, 128]⟩ : Shape).Idx → EReal) i = (r : EReal))
    (e_ml : (Cert.KernelIdeal.Hand.W8 m g c (Proc.devRef .tc Cert.KernelIdeal.main_v110) : (⟨2, ![100000, 128]⟩ : Shape).Idx → EReal) = (after (Cert.ReferenceIdeal.Hand.ops (F := Ideal)) V (Proc.devRef .tc Cert.ReferenceIdeal.main_v92) : (⟨2, ![100000, 128]⟩ : Shape).Idx → EReal))
    (r_ml : ∀ i, ∃ r : ℝ, (after (Cert.ReferenceIdeal.Hand.ops (F := Ideal)) V (Proc.devRef .tc Cert.ReferenceIdeal.main_v92) : (⟨2, ![100000, 128]⟩ : Shape).Idx → EReal) i = (r : EReal))
    (e_md : (Cert.KernelIdeal.Hand.W8 m g c (Proc.devRef .tc Cert.KernelIdeal.main_v123) : (⟨2, ![100000, 128]⟩ : Shape).Idx → EReal) = (after (Cert.ReferenceIdeal.Hand.ops (F := Ideal)) V (Proc.devRef .tc Cert.ReferenceIdeal.main_v125) : (⟨2, ![100000, 128]⟩ : Shape).Idx → EReal))
    (r_md : ∀ i, ∃ r : ℝ, (after (Cert.ReferenceIdeal.Hand.ops (F := Ideal)) V (Proc.devRef .tc Cert.ReferenceIdeal.main_v125) : (⟨2, ![100000, 128]⟩ : Shape).Idx → EReal) i = (r : EReal))
    (e_mm : (Cert.KernelIdeal.Hand.W8 m g c (Proc.devRef .tc Cert.KernelIdeal.main_v136) : (⟨2, ![100000, 128]⟩ : Shape).Idx → EReal) = (after (Cert.ReferenceIdeal.Hand.ops (F := Ideal)) V (Proc.devRef .tc Cert.ReferenceIdeal.main_v159) : (⟨2, ![100000, 128]⟩ : Shape).Idx → EReal))
    (r_mm : ∀ i, ∃ r : ℝ, (after (Cert.ReferenceIdeal.Hand.ops (F := Ideal)) V (Proc.devRef .tc Cert.ReferenceIdeal.main_v159) : (⟨2, ![100000, 128]⟩ : Shape).Idx → EReal) i = (r : EReal))
    (e_xp : (Cert.KernelIdeal.Hand.W8 m g c (Proc.devRef .tc Cert.KernelIdeal.main_v49) : (⟨2, ![100000, 128]⟩ : Shape).Idx → EReal) = (after (Cert.ReferenceIdeal.Hand.ops (F := Ideal)) V (Proc.devRef .tc Cert.ReferenceIdeal.main_v67) : (⟨2, ![100000, 128]⟩ : Shape).Idx → EReal))
    (r_xp : ∀ i, ∃ r : ℝ, (after (Cert.ReferenceIdeal.Hand.ops (F := Ideal)) V (Proc.devRef .tc Cert.ReferenceIdeal.main_v67) : (⟨2, ![100000, 128]⟩ : Shape).Idx → EReal) i = (r : EReal)) :
    (Cert.KernelIdeal.Hand.W11 m g c (Proc.devRef .tc Cert.KernelIdeal.main_v224) : (⟨2, ![100000, 128]⟩ : Shape).Idx → EReal) = (after (Cert.ReferenceIdeal.Hand.ops (F := Ideal)) V (Proc.devRef .tc Cert.ReferenceIdeal.main_v291) : (⟨2, ![100000, 128]⟩ : Shape).Idx → EReal)
      ∧ ∀ i, ∃ r : ℝ, (after (Cert.ReferenceIdeal.Hand.ops (F := Ideal)) V (Proc.devRef .tc Cert.ReferenceIdeal.main_v291) : (⟨2, ![100000, 128]⟩ : Shape).Idx → EReal) i = (r : EReal) := by
  have hE := eq_patient 0 _ _ _ _ _ _ _ _ _ r_arg12 r_arg13 r_arg14 r_arg15 r_arg16 r_ml r_md r_mm r_xp
  have hR := R_patient1 V
  refine ⟨?_, fun i => ?_⟩
  · refine (K_patient1 m g c).trans ?_
    rw [e_arg12, e_arg13, e_arg14, e_arg15, e_arg16, e_ml, e_md, e_mm, e_xp]
    exact hE.1.trans hR.symm
  · rw [hR]
    exact hE.2 i

/-- Layer 1: if the layer's weight arguments, the three neighbour means and the patient rows the kernel program
    enters the branch with are the reference's, and those are real, then the new patient rows the kernel program
    leaves are the reference's, and they are real. -/
theorem link_main_v444
    (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_arg12 : (Cert.KernelIdeal.Hand.W24 m g c (Proc.devRef .tc Cert.KernelIdeal.main_arg12) : (⟨4, ![2, 6, 128, 128]⟩ : Shape).Idx → EReal) = (after (Cert.ReferenceIdeal.Hand.ops (F := Ideal)) V (Proc.devRef .tc Cert.ReferenceIdeal.main_arg12) : (⟨4, ![2, 6, 128, 128]⟩ : Shape).Idx → EReal))
    (r_arg12 : ∀ i, ∃ r : ℝ, (after (Cert.ReferenceIdeal.Hand.ops (F := Ideal)) V (Proc.devRef .tc Cert.ReferenceIdeal.main_arg12) : (⟨4, ![2, 6, 128, 128]⟩ : Shape).Idx → EReal) i = (r : EReal))
    (e_arg13 : (Cert.KernelIdeal.Hand.W24 m g c (Proc.devRef .tc Cert.KernelIdeal.main_arg13) : (⟨3, ![2, 6, 128]⟩ : Shape).Idx → EReal) = (after (Cert.ReferenceIdeal.Hand.ops (F := Ideal)) V (Proc.devRef .tc Cert.ReferenceIdeal.main_arg13) : (⟨3, ![2, 6, 128]⟩ : Shape).Idx → EReal))
    (r_arg13 : ∀ i, ∃ r : ℝ, (after (Cert.ReferenceIdeal.Hand.ops (F := Ideal)) V (Proc.devRef .tc Cert.ReferenceIdeal.main_arg13) : (⟨3, ![2, 6, 128]⟩ : Shape).Idx → EReal) i = (r : EReal))
    (e_arg14 : (Cert.KernelIdeal.Hand.W24 m g c (Proc.devRef .tc Cert.KernelIdeal.main_arg14) : (⟨4, ![2, 6, 128, 128]⟩ : Shape).Idx → EReal) = (after (Cert.ReferenceIdeal.Hand.ops (F := Ideal)) V (Proc.devRef .tc Cert.ReferenceIdeal.main_arg14) : (⟨4, ![2, 6, 128, 128]⟩ : Shape).Idx → EReal))
    (r_arg14 : ∀ i, ∃ r : ℝ, (after (Cert.ReferenceIdeal.Hand.ops (F := Ideal)) V (Proc.devRef .tc Cert.ReferenceIdeal.main_arg14) : (⟨4, ![2, 6, 128, 128]⟩ : Shape).Idx → EReal) i = (r : EReal))
    (e_arg15 : (Cert.KernelIdeal.Hand.W24 m g c (Proc.devRef .tc Cert.KernelIdeal.main_arg15) : (⟨3, ![2, 4, 128]⟩ : Shape).Idx → EReal) = (after (Cert.ReferenceIdeal.Hand.ops (F := Ideal)) V (Proc.devRef .tc Cert.ReferenceIdeal.main_arg15) : (⟨3, ![2, 4, 128]⟩ : Shape).Idx → EReal))
    (r_arg15 : ∀ i, ∃ r : ℝ, (after (Cert.ReferenceIdeal.Hand.ops (F := Ideal)) V (Proc.devRef .tc Cert.ReferenceIdeal.main_arg15) : (⟨3, ![2, 4, 128]⟩ : Shape).Idx → EReal) i = (r : EReal))
    (e_arg16 : (Cert.KernelIdeal.Hand.W24 m g c (Proc.devRef .tc Cert.KernelIdeal.main_arg16) : (⟨3, ![2, 4, 128]⟩ : Shape).Idx → EReal) = (after (Cert.ReferenceIdeal.Hand.ops (F := Ideal)) V (Proc.devRef .tc Cert.ReferenceIdeal.main_arg16) : (⟨3, ![2, 4, 128]⟩ : Shape).Idx → EReal))
    (r_arg16 : ∀ i, ∃ r : ℝ, (after (Cert.ReferenceIdeal.Hand.ops (F := Ideal)) V (Proc.devRef .tc Cert.ReferenceIdeal.main_arg16) : (⟨3, ![2, 4, 128]⟩ : Shape).Idx → EReal) i = (r : EReal))
    (e_ml : (Cert.KernelIdeal.Hand.W24 m g c (Proc.devRef .tc Cert.KernelIdeal.main_v330) : (⟨2, ![100000, 128]⟩ : Shape).Idx → EReal) = (after (Cert.ReferenceIdeal.Hand.ops (F := Ideal)) V (Proc.devRef .tc Cert.ReferenceIdeal.main_v388) : (⟨2, ![100000, 128]⟩ : Shape).Idx → EReal))
    (r_ml : ∀ i, ∃ r : ℝ, (after (Cert.ReferenceIdeal.Hand.ops (F := Ideal)) V (Proc.devRef .tc Cert.ReferenceIdeal.main_v388) : (⟨2, ![100000, 128]⟩ : Shape).Idx → EReal) i = (r : EReal))
    (e_md : (Cert.KernelIdeal.Hand.W24 m g c (Proc.devRef .tc Cert.KernelIdeal.main_v343) : (⟨2, ![100000, 128]⟩ : Shape).Idx → EReal) = (after (Cert.ReferenceIdeal.Hand.ops (F := Ideal)) V (Proc.devRef .tc Cert.ReferenceIdeal.main_v421) : (⟨2, ![100000, 128]⟩ : Shape).Idx → EReal))
    (r_md : ∀ i, ∃ r : ℝ, (after (Cert.ReferenceIdeal.Hand.ops (F := Ideal)) V (Proc.devRef .tc Cert.ReferenceIdeal.main_v421) : (⟨2, ![100000, 128]⟩ : Shape).Idx → EReal) i = (r : EReal))
    (e_mm : (Cert.KernelIdeal.Hand.W24 m g c (Proc.devRef .tc Cert.KernelIdeal.main_v356) : (⟨2, ![100000, 128]⟩ : Shape).Idx → EReal) = (after (Cert.ReferenceIdeal.Hand.ops (F := Ideal)) V (Proc.devRef .tc Cert.ReferenceIdeal.main_v455) : (⟨2, ![100000, 128]⟩ : Shape).Idx → EReal))
    (r_mm : ∀ i, ∃ r : ℝ, (after (Cert.ReferenceIdeal.Hand.ops (F := Ideal)) V (Proc.devRef .tc Cert.ReferenceIdeal.main_v455) : (⟨2, ![100000, 128]⟩ : Shape).Idx → EReal) i = (r : EReal))
    (e_xp : (Cert.KernelIdeal.Hand.W24 m g c (Proc.devRef .tc Cert.KernelIdeal.main_v224) : (⟨2, ![100000, 128]⟩ : Shape).Idx → EReal) = (after (Cert.ReferenceIdeal.Hand.ops (F := Ideal)) V (Proc.devRef .tc Cert.ReferenceIdeal.main_v291) : (⟨2, ![100000, 128]⟩ : Shape).Idx → EReal))
    (r_xp : ∀ i, ∃ r : ℝ, (after (Cert.ReferenceIdeal.Hand.ops (F := Ideal)) V (Proc.devRef .tc Cert.ReferenceIdeal.main_v291) : (⟨2, ![100000, 128]⟩ : Shape).Idx → EReal) i = (r : EReal)) :
    (Cert.KernelIdeal.Hand.W27 m g c (Proc.devRef .tc Cert.KernelIdeal.main_v444) : (⟨2, ![100000, 128]⟩ : Shape).Idx → EReal) = (after (Cert.ReferenceIdeal.Hand.ops (F := Ideal)) V (Proc.devRef .tc Cert.ReferenceIdeal.main_v587) : (⟨2, ![100000, 128]⟩ : Shape).Idx → EReal)
      ∧ ∀ i, ∃ r : ℝ, (after (Cert.ReferenceIdeal.Hand.ops (F := Ideal)) V (Proc.devRef .tc Cert.ReferenceIdeal.main_v587) : (⟨2, ![100000, 128]⟩ : Shape).Idx → EReal) i = (r : EReal) := by
  have hE := eq_patient 1 _ _ _ _ _ _ _ _ _ r_arg12 r_arg13 r_arg14 r_arg15 r_arg16 r_ml r_md r_mm r_xp
  have hR := R_patient2 V
  refine ⟨?_, fun i => ?_⟩
  · refine (K_patient2 m g c).trans ?_
    rw [e_arg12, e_arg13, e_arg14, e_arg15, e_arg16, e_ml, e_md, e_mm, e_xp]
    exact hE.1.trans hR.symm
  · rw [hR]
    exact hE.2 i

end Cert.Val

end
-- ==== Proof.KI.V6.lean ====
/- Region 6 of the kernel program: what its three output arrays hold after the region, each as ONE
   whole-array function of the arrays the region is entered with.

   The grid has one point and every window's one block is its whole array, so the array after the
   region is what the body left in the window's buffer: y = b + x0·w0 + x1·w1 (window 5), the column
   sums of y added onto a zero row (window 6), the column sums of y·y added onto a zero row (window 7),
   stated through the body's payloads applied to the whole entry arrays (any float semantics), and then,
   at the exact values, index by index over the extended reals: the products as sums over the 128
   contraction coordinates, the column sums as sums over the rows. -/
import proofs.«424088_j28020366639260_2_alg».proof.Proof.KI.R6
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The outputs' buffers after the body, as the payloads of the whole input blocks -/

theorem hz6 : (![0, 0] : Fin 2 → Nat) = fun _ => 0 := funext fun a => by fin_cases a <;> rfl

/-- Window 5's buffer: `y` of the blocks. -/
theorem out6_5_eq (x0 x1 : Vec F S2000x128 .f32) (x2 x3 : Vec F S128x128 .f32) (x4 : Vec F S1x128 .f32) :
    out6_5 x0 x1 x2 x3 x4 = k6_pay4 x4 x0 x2 x1 x3 := by
  unfold out6_5 y6
  rw [View.canon_unit_zero hz6]
  simp only [View.ld_unit_zero (S := S2000x128) hz6, View.ld_unit_zero (S := S128x128) hz6, View.ld_unit_zero (S := S1x128) hz6]

/-- Window 6's buffer: the column sums of `y` added onto the zero row. -/
theorem out6_6_eq (x0 x1 : Vec F S2000x128 .f32) (x2 x3 : Vec F S128x128 .f32) (x4 : Vec F S1x128 .f32) :
    out6_6 x0 x1 x2 x3 x4 = k6_pay6 x4 x0 x2 x1 x3 (k6_pay2 (F := F)) := by
  unfold out6_6
  rw [View.canon_cons_unit_zero hz6]
  simp only [View.ld_unit_zero (S := S2000x128) hz6, View.ld_unit_zero (S := S128x128) hz6, View.ld_unit_zero (S := S1x128) hz6]

/-- Window 7's buffer: the column sums of `y·y` added onto the zero row. -/
theorem out6_7_eq (x0 x1 : Vec F S2000x128 .f32) (x2 x3 : Vec F S128x128 .f32) (x4 : Vec F S1x128 .f32) :
    out6_7 x0 x1 x2 x3 x4 = k6_pay1 (k6_pay5 x4 x0 x2 x1 x3) (k6_pay3 (F := F)) := by
  unfold out6_7
  rw [View.canon_cons_unit_zero hz6]
  simp only [View.ld_unit_zero (S := S2000x128) hz6, View.ld_unit_zero (S := S128x128) hz6, View.ld_unit_zero (S := S1x128) hz6]

/-! ## Each window's one block is its whole array -/

/-- The region's array of window `w` as the region finds it. -/
abbrev A6 (c : Dev nD) (w : Fin cfg6.W) : Buf (Elt F) ((c : Thread nD τ).loc (Pipeline.arrRef spec6 w)) := V c (Pipeline.arrRef spec6 w)

theorem iblk6_0_eq (c : Dev nD) (t : Fin cfg6.N) : (iblk6 V c 0 t : Vec F S2000x128 .f32) = A6 V c 0 := by
  obtain rfl := fin_N6 t
  unfold iblk6
  have hz' : (fun a => win6_0.index t6_0 a * (Pipeline.arrRef spec6 0).ty.shape.size a) = fun _ => 0 :=
    funext fun a => by fin_cases a <;> decide
  exact Memref.read_access_unit_zero (Elt F) (Pipeline.arrRef spec6 0) hz' (fun a => by rw [congrFun hz' a]; simp) _
theorem iblk6_1_eq (c : Dev nD) (t : Fin cfg6.N) : (iblk6 V c 1 t : Vec F S2000x128 .f32) = A6 V c 1 := by
  obtain rfl := fin_N6 t
  unfold iblk6
  have hz' : (fun a => win6_1.index t6_0 a * (Pipeline.arrRef spec6 1).ty.shape.size a) = fun _ => 0 :=
    funext fun a => by fin_cases a <;> decide
  exact Memref.read_access_unit_zero (Elt F) (Pipeline.arrRef spec6 1) hz' (fun a => by rw [congrFun hz' a]; simp) _
theorem iblk6_2_eq (c : Dev nD) (t : Fin cfg6.N) : (iblk6 V c 2 t : Vec F S128x128 .f32) = A6 V c 2 := by
  obtain rfl := fin_N6 t
  unfold iblk6
  have hz' : (fun a => win6_2.index t6_0 a * (Pipeline.arrRef spec6 2).ty.shape.size a) = fun _ => 0 :=
    funext fun a => by fin_cases a <;> decide
  exact Memref.read_access_unit_zero (Elt F) (Pipeline.arrRef spec6 2) hz' (fun a => by rw [congrFun hz' a]; simp) _
theorem iblk6_3_eq (c : Dev nD) (t : Fin cfg6.N) : (iblk6 V c 3 t : Vec F S128x128 .f32) = A6 V c 3 := by
  obtain rfl := fin_N6 t
  unfold iblk6
  have hz' : (fun a => win6_3.index t6_0 a * (Pipeline.arrRef spec6 3).ty.shape.size a) = fun _ => 0 :=
    funext fun a => by fin_cases a <;> decide
  exact Memref.read_access_unit_zero (Elt F) (Pipeline.arrRef spec6 3) hz' (fun a => by rw [congrFun hz' a]; simp) _
theorem iblk6_4_eq (c : Dev nD) (t : Fin cfg6.N) : (iblk6 V c 4 t : Vec F S1x128 .f32) = A6 V c 4 := by
  obtain rfl := fin_N6 t
  unfold iblk6
  have hz' : (fun a => win6_4.index t6_0 a * (Pipeline.arrRef spec6 4).ty.shape.size a) = fun _ => 0 :=
    funext fun a => by fin_cases a <;> decide
  exact Memref.read_access_unit_zero (Elt F) (Pipeline.arrRef spec6 4) hz' (fun a => by rw [congrFun hz' a]; simp) _

/-! ## The arrays after the region -/

/-- What the region leaves in window 5's array: `y` of the entry arrays. -/
abbrev G6_5 (c : Dev nD) : Buf (Elt F) ((c : Thread nD τ).loc (Pipeline.arrRef spec6 5)) :=
  k6_pay4 (A6 V c 4) (A6 V c 0) (A6 V c 2) (A6 V c 1) (A6 V c 3)
/-- in window 6's: the column sums of `y` added onto the zero row; -/
abbrev G6_6 (c : Dev nD) : Buf (Elt F) ((c : Thread nD τ).loc (Pipeline.arrRef spec6 6)) :=
  k6_pay6 (A6 V c 4) (A6 V c 0) (A6 V c 2) (A6 V c 1) (A6 V c 3) (k6_pay2 (F := F))
/-- in window 7's: the column sums of `y·y` added onto the zero row. -/
abbrev G6_7 (c : Dev nD) : Buf (Elt F) ((c : Thread nD τ).loc (Pipeline.arrRef spec6 7)) :=
  k6_pay1 (k6_pay5 (A6 V c 4) (A6 V c 0) (A6 V c 2) (A6 V c 1) (A6 V c 3)) (k6_pay3 (F := F))

/-- The one write-back of window 5 writes it: the block at zero offsets is the array. -/
theorem flushed6_5 (c : Dev nD) (t : Fin cfg6.N) :
    (dat6 V c).flushed 5 t = ((cfg6.win 5).blk t).view.read (Elt F) (G6_5 V c) := by
  obtain rfl := fin_N6 t
  show (cfg6.win 5).cut (grid6.coords t6_0) ((dat6 V c).after 5 t6_0) = _
  rw [after6_5, out6_5_eq, iblk6_0_eq, iblk6_1_eq, iblk6_2_eq, iblk6_3_eq, iblk6_4_eq]
  have hz' : (fun a => win6_5.index t6_0 a * (Pipeline.arrRef spec6 5).ty.shape.size a) = fun _ => 0 :=
    funext fun a => by fin_cases a <;> decide
  exact (Memref.read_access_unit_zero (Elt F) (Pipeline.arrRef spec6 5) hz' (fun a => by rw [congrFun hz' a]; simp) (G6_5 V c)).symm

/-- Its one block covers the array. -/
theorem covers6_5 (c : Dev nD) (i : ((cfg6.win 5).arr.view.loc (c.tc : Thread nD τ)).2.ty.Idx) :
    ∃ t : Fin cfg6.N, (cfg6.win 5).flush t = true ∧ i ∈ ((cfg6.win 5).blk t).view.set := by
  refine ⟨t6_0, flush6_5 t6_0, ?_⟩
  show i ∈ ((View.whole (Pipeline.arrRef spec6 5)).slice (win6_5.rect t6_0)).set
  rw [View.set_slice_whole, Rect.mem_set_unit]
  intro a
  have h0 : win6_5.index t6_0 a * win6_5.size a = 0 := by fin_cases a <;> decide
  have h1 : win6_5.xsize (grid6.coords t6_0) a = (Pipeline.arrRef spec6 5).ty.shape.size a := by fin_cases a <;> decide
  show win6_5.index t6_0 a * win6_5.size a ≤ (i a : Nat) ∧ (i a : Nat) < win6_5.index t6_0 a * win6_5.size a + win6_5.xsize (grid6.coords t6_0) a
  rw [h0, h1]
  exact ⟨Nat.zero_le _, by simpa using (i a).isLt⟩

/-- THE VALUE of window 5's array after the region. -/
theorem arrAt6_5 (c : Dev nD) : (dat6 V c).arrAt 5 cfg6.N = G6_5 V c :=
  (dat6 V c).arrAt_eq_of_cover 5 (G6_5 V c) (fun t _ => flushed6_5 V c t) (covers6_5 c)

/-- The one write-back of window 6 writes it: the block at zero offsets is the array. -/
theorem flushed6_6 (c : Dev nD) (t : Fin cfg6.N) :
    (dat6 V c).flushed 6 t = ((cfg6.win 6).blk t).view.read (Elt F) (G6_6 V c) := by
  obtain rfl := fin_N6 t
  show (cfg6.win 6).cut (grid6.coords t6_0) ((dat6 V c).after 6 t6_0) = _
  rw [after6_6, out6_6_eq, iblk6_0_eq, iblk6_1_eq, iblk6_2_eq, iblk6_3_eq, iblk6_4_eq]
  have hz' : (fun a => win6_6.index t6_0 a * (Pipeline.arrRef spec6 6).ty.shape.size a) = fun _ => 0 :=
    funext fun a => by fin_cases a <;> decide
  exact (Memref.read_access_unit_zero (Elt F) (Pipeline.arrRef spec6 6) hz' (fun a => by rw [congrFun hz' a]; simp) (G6_6 V c)).symm

/-- Its one block covers the array. -/
theorem covers6_6 (c : Dev nD) (i : ((cfg6.win 6).arr.view.loc (c.tc : Thread nD τ)).2.ty.Idx) :
    ∃ t : Fin cfg6.N, (cfg6.win 6).flush t = true ∧ i ∈ ((cfg6.win 6).blk t).view.set := by
  refine ⟨t6_0, flush6_6 t6_0, ?_⟩
  show i ∈ ((View.whole (Pipeline.arrRef spec6 6)).slice (win6_6.rect t6_0)).set
  rw [View.set_slice_whole, Rect.mem_set_unit]
  intro a
  have h0 : win6_6.index t6_0 a * win6_6.size a = 0 := by fin_cases a <;> decide
  have h1 : win6_6.xsize (grid6.coords t6_0) a = (Pipeline.arrRef spec6 6).ty.shape.size a := by fin_cases a <;> decide
  show win6_6.index t6_0 a * win6_6.size a ≤ (i a : Nat) ∧ (i a : Nat) < win6_6.index t6_0 a * win6_6.size a + win6_6.xsize (grid6.coords t6_0) a
  rw [h0, h1]
  exact ⟨Nat.zero_le _, by simpa using (i a).isLt⟩

/-- THE VALUE of window 6's array after the region. -/
theorem arrAt6_6 (c : Dev nD) : (dat6 V c).arrAt 6 cfg6.N = G6_6 V c :=
  (dat6 V c).arrAt_eq_of_cover 6 (G6_6 V c) (fun t _ => flushed6_6 V c t) (covers6_6 c)

/-- The one write-back of window 7 writes it: the block at zero offsets is the array. -/
theorem flushed6_7 (c : Dev nD) (t : Fin cfg6.N) :
    (dat6 V c).flushed 7 t = ((cfg6.win 7).blk t).view.read (Elt F) (G6_7 V c) := by
  obtain rfl := fin_N6 t
  show (cfg6.win 7).cut (grid6.coords t6_0) ((dat6 V c).after 7 t6_0) = _
  rw [after6_7, out6_7_eq, iblk6_0_eq, iblk6_1_eq, iblk6_2_eq, iblk6_3_eq, iblk6_4_eq]
  have hz' : (fun a => win6_7.index t6_0 a * (Pipeline.arrRef spec6 7).ty.shape.size a) = fun _ => 0 :=
    funext fun a => by fin_cases a <;> decide
  exact (Memref.read_access_unit_zero (Elt F) (Pipeline.arrRef spec6 7) hz' (fun a => by rw [congrFun hz' a]; simp) (G6_7 V c)).symm

/-- Its one block covers the array. -/
theorem covers6_7 (c : Dev nD) (i : ((cfg6.win 7).arr.view.loc (c.tc : Thread nD τ)).2.ty.Idx) :
    ∃ t : Fin cfg6.N, (cfg6.win 7).flush t = true ∧ i ∈ ((cfg6.win 7).blk t).view.set := by
  refine ⟨t6_0, flush6_7 t6_0, ?_⟩
  show i ∈ ((View.whole (Pipeline.arrRef spec6 7)).slice (win6_7.rect t6_0)).set
  rw [View.set_slice_whole, Rect.mem_set_unit]
  intro a
  have h0 : win6_7.index t6_0 a * win6_7.size a = 0 := by fin_cases a <;> decide
  have h1 : win6_7.xsize (grid6.coords t6_0) a = (Pipeline.arrRef spec6 7).ty.shape.size a := by fin_cases a <;> decide
  show win6_7.index t6_0 a * win6_7.size a ≤ (i a : Nat) ∧ (i a : Nat) < win6_7.index t6_0 a * win6_7.size a + win6_7.xsize (grid6.coords t6_0) a
  rw [h0, h1]
  exact ⟨Nat.zero_le _, by simpa using (i a).isLt⟩

/-- THE VALUE of window 7's array after the region. -/
theorem arrAt6_7 (c : Dev nD) : (dat6 V c).arrAt 7 cfg6.N = G6_7 V c :=
  (dat6 V c).arrAt_eq_of_cover 7 (G6_7 V c) (fun t _ => flushed6_7 V c t) (covers6_7 c)

/-! ## At the exact values (F := Ideal): the payloads index by index, over the extended reals -/

section Exact
open Idealize.ShloMosaic.ValueIdx

/-- The dimension numbers of the body's two products: rows × (128 × 128). -/
abbrev dot6 : DotDims S2000x128 S128x128 S2000x128 := dot_S2000x128_S128x128_S2000x128_1_0_0_1_n_n

/-- `y` at an index: the bias at the column, plus the two products' sums over the contraction index. -/
theorem k6_pay4_exact (b : Vec Ideal S1x128 .f32) (x0 : Vec Ideal S2000x128 .f32) (w0 : Vec Ideal S128x128 .f32)
    (x1 : Vec Ideal S2000x128 .f32) (w1 : Vec Ideal S128x128 .f32) (j : S2000x128.Idx) :
    k6_pay4 (F := Ideal) b x0 w0 x1 w1 j
      = (broadcastTo S2000x128 b broadcasts_S1x128_S2000x128 j + ∑ q : dot6.contr.Idx, x0 (dot6.lhsIdx j q) * w0 (dot6.rhsIdx j q))
        + ∑ q : dot6.contr.Idx, x1 (dot6.lhsIdx j q) * w1 (dot6.rhsIdx j q) := by
  unfold k6_pay4
  simp only [shapeCast_self, matmul]
  rw [addf_apply, addf_apply, Ideal.matmul_constant_zero_apply, Ideal.matmul_constant_zero_apply]
  simp only [truncf_apply]

/-- The zero rows the body stores first. -/
theorem k6_pay2_exact (j : S1x128.Idx) : k6_pay2 (F := Ideal) j = 0 := by
  unfold k6_pay2; exact Ideal.ofBits_zero_f32
theorem k6_pay3_exact (j : S1x128.Idx) : k6_pay3 (F := Ideal) j = 0 := by
  unfold k6_pay3; exact Ideal.ofBits_zero_f32

/-- The column sums of `y` added onto the row read back. -/
theorem k6_pay6_exact (b : Vec Ideal S1x128 .f32) (x0 : Vec Ideal S2000x128 .f32) (w0 : Vec Ideal S128x128 .f32)
    (x1 : Vec Ideal S2000x128 .f32) (w1 : Vec Ideal S128x128 .f32) (z : Vec Ideal S1x128 .f32) (j : S1x128.Idx) :
    k6_pay6 (F := Ideal) b x0 w0 x1 w1 z j
      = z j + ∑ r : Fin (S2000x128.size 0), k6_pay4 (F := Ideal) b x0 w0 x1 w1 (reduces_S2000x128_S128.lift (fun a => j a.succ) r) := by
  unfold k6_pay6
  simp only [shapeCast_self]
  rw [addf_apply, shapeCast_addUnit_apply (n := 1) ![128]]
  exact congrArg (z j + ·) (Ideal.multiReduction_add_single _ _ reduces_S2000x128_S128 _ _ _)

/-- The column sums of `y·y`. -/
theorem k6_pay5_exact (b : Vec Ideal S1x128 .f32) (x0 : Vec Ideal S2000x128 .f32) (w0 : Vec Ideal S128x128 .f32)
    (x1 : Vec Ideal S2000x128 .f32) (w1 : Vec Ideal S128x128 .f32) (j : S1x128.Idx) :
    k6_pay5 (F := Ideal) b x0 w0 x1 w1 j
      = ∑ r : Fin (S2000x128.size 0), k6_pay4 (F := Ideal) b x0 w0 x1 w1 (reduces_S2000x128_S128.lift (fun a => j a.succ) r)
          * k6_pay4 (F := Ideal) b x0 w0 x1 w1 (reduces_S2000x128_S128.lift (fun a => j a.succ) r) := by
  unfold k6_pay5
  rw [shapeCast_addUnit_apply (n := 1) ![128]]
  exact Ideal.multiReduction_add_single _ _ reduces_S2000x128_S128 _ _ _

/-- They are added onto the row read back. -/
theorem k6_pay1_exact (s : Vec Ideal S1x128 .f32) (z : Vec Ideal S1x128 .f32) (j : S1x128.Idx) :
    k6_pay1 (F := Ideal) s z j = z j + s j := by
  unfold k6_pay1
  simp only [shapeCast_self]
  rw [addf_apply]

/-! ### The indices, by coordinates -/

/-- The row index a column sum runs over, put back beside the column. -/
theorem lift6_eq (j : S1x128.Idx) (r : Fin (S2000x128.size 0)) :
    reduces_S2000x128_S128.lift (fun a => j a.succ) r = ix2 r (j 1) := by
  funext a
  match a with
  | ⟨0, _⟩ => rfl
  | ⟨1, _⟩ => rfl

/-- The bias row's index under the broadcast. -/
theorem brow6_eq (b : Vec Ideal S1x128 .f32) (j : S2000x128.Idx) :
    broadcastTo S2000x128 b broadcasts_S1x128_S2000x128 j = b (ix2 0 (j 1)) := by
  refine broadcastTo_apply b _ j (ix2 0 (j 1)) fun a => ?_
  match a with
  | ⟨0, _⟩ => rfl
  | ⟨1, _⟩ => rfl

/-- The products' contraction index is its one coordinate. -/
abbrev ce6 : dot6.contr.Idx ≃ Fin 128 := contrEquiv1 dot6 128 rfl rfl

/-- The left operand is read at (row, contraction coordinate), -/
theorem dot6_lhs (j : S2000x128.Idx) (k : Fin 128) : dot6.lhsIdx j (ce6.symm k) = ix2 (j 0) k := by
  funext a
  match a with
  | ⟨0, _⟩ => rfl
  | ⟨1, _⟩ => rfl

/-- the right operand at (contraction coordinate, column). -/
theorem dot6_rhs (j : S2000x128.Idx) (k : Fin 128) : dot6.rhsIdx j (ce6.symm k) = ix2 k (j 1) := by
  funext a
  match a with
  | ⟨0, _⟩ => rfl
  | ⟨1, _⟩ => rfl

/-- A product's sum over the contraction index is the sum over its coordinate. -/
theorem dot6_sum (x : Vec Ideal S2000x128 .f32) (w : Vec Ideal S128x128 .f32) (j : S2000x128.Idx) :
    ∑ q : dot6.contr.Idx, x (dot6.lhsIdx j q) * w (dot6.rhsIdx j q) = ∑ k : Fin 128, x (ix2 (j 0) k) * w (ix2 k (j 1)) := by
  rw [← Equiv.sum_comp ce6.symm]
  exact Finset.sum_congr rfl fun k _ => by rw [dot6_lhs, dot6_rhs]; rfl

/-- `y` at (row, column): the bias at the column plus the two products' sums over the 128 contraction coordinates. -/
theorem y6_exact (b : Vec Ideal S1x128 .f32) (x0 : Vec Ideal S2000x128 .f32) (w0 : Vec Ideal S128x128 .f32)
    (x1 : Vec Ideal S2000x128 .f32) (w1 : Vec Ideal S128x128 .f32) (j : S2000x128.Idx) :
    k6_pay4 (F := Ideal) b x0 w0 x1 w1 j
      = (b (ix2 0 (j 1)) + ∑ k : Fin 128, x0 (ix2 (j 0) k) * w0 (ix2 k (j 1)))
        + ∑ k : Fin 128, x1 (ix2 (j 0) k) * w1 (ix2 k (j 1)) := by
  rw [k6_pay4_exact, brow6_eq, dot6_sum, dot6_sum]

/-- The column sums of `y` on the zero row, at a column: zero plus the sum over the rows. -/
theorem sum6_exact (b : Vec Ideal S1x128 .f32) (x0 : Vec Ideal S2000x128 .f32) (w0 : Vec Ideal S128x128 .f32)
    (x1 : Vec Ideal S2000x128 .f32) (w1 : Vec Ideal S128x128 .f32) (j : S1x128.Idx) :
    k6_pay6 (F := Ideal) b x0 w0 x1 w1 (k6_pay2 (F := Ideal)) j
      = 0 + ∑ r : Fin 2000, k6_pay4 (F := Ideal) b x0 w0 x1 w1 (ix2 r (j 1)) := by
  rw [k6_pay6_exact, k6_pay2_exact]
  exact congrArg (0 + ·) (Finset.sum_congr rfl fun r _ => by rw [lift6_eq]; rfl)

/-- The column sums of `y·y` on the zero row, at a column. -/
theorem sumsq6_exact (b : Vec Ideal S1x128 .f32) (x0 : Vec Ideal S2000x128 .f32) (w0 : Vec Ideal S128x128 .f32)
    (x1 : Vec Ideal S2000x128 .f32) (w1 : Vec Ideal S128x128 .f32) (j : S1x128.Idx) :
    k6_pay1 (F := Ideal) (k6_pay5 (F := Ideal) b x0 w0 x1 w1) (k6_pay3 (F := Ideal)) j
      = 0 + ∑ r : Fin 2000, k6_pay4 (F := Ideal) b x0 w0 x1 w1 (ix2 r (j 1)) * k6_pay4 (F := Ideal) b x0 w0 x1 w1 (ix2 r (j 1)) := by
  rw [k6_pay1_exact, k6_pay3_exact, k6_pay5_exact]
  exact congrArg (0 + ·) (Finset.sum_congr rfl fun r _ => by rw [lift6_eq]; rfl)

/-! ### The region's three arrays at the exact values, index by index -/

variable (VI : (c : Dev nD) → (b : Ref sig .tc) → Buf (Elt Ideal) ((c : Thread nD τ).loc b))

/-- The arrays the region is entered with, at the shapes the body sees: the two data arrays, their weights, the bias row; -/
abbrev in6_0 (c : Dev nD) : Vec Ideal S2000x128 .f32 := A6 VI c 0
abbrev in6_1 (c : Dev nD) : Vec Ideal S2000x128 .f32 := A6 VI c 1
abbrev in6_2 (c : Dev nD) : Vec Ideal S128x128 .f32 := A6 VI c 2
abbrev in6_3 (c : Dev nD) : Vec Ideal S128x128 .f32 := A6 VI c 3
abbrev in6_4 (c : Dev nD) : Vec Ideal S1x128 .f32 := A6 VI c 4
/-- and what the region leaves in window 5's array. -/
abbrev Y6 (c : Dev nD) : Vec Ideal S2000x128 .f32 := G6_5 VI c

/-- Window 5's array after the region, at (row, column): `b + x0·w0 + x1·w1` there. -/
theorem Y6_exact (c : Dev nD) (j : S2000x128.Idx) :
    Y6 VI c j = (in6_4 VI c (ix2 0 (j 1)) + ∑ k : Fin 128, in6_0 VI c (ix2 (j 0) k) * in6_2 VI c (ix2 k (j 1)))
        + ∑ k : Fin 128, in6_1 VI c (ix2 (j 0) k) * in6_3 VI c (ix2 k (j 1)) :=
  y6_exact _ _ _ _ _ j

theorem arrAt6_5_exact (c : Dev nD) : (dat6 VI c).arrAt 5 cfg6.N = Y6 VI c := arrAt6_5 VI c

/-- Window 6's array after the region, at a column: zero plus the sum of window 5's column over the rows. -/
theorem arrAt6_6_exact (c : Dev nD) (j : S1x128.Idx) :
    (show Vec Ideal S1x128 .f32 from (dat6 VI c).arrAt 6 cfg6.N) j = 0 + ∑ r : Fin 2000, Y6 VI c (ix2 r (j 1)) :=
  (congrFun (arrAt6_6 VI c) j).trans (sum6_exact _ _ _ _ _ j)

/-- Window 7's array after the region, at a column: zero plus the sum of the squares of window 5's column over the rows. -/
theorem arrAt6_7_exact (c : Dev nD) (j : S1x128.Idx) :
    (show Vec Ideal S1x128 .f32 from (dat6 VI c).arrAt 7 cfg6.N) j = 0 + ∑ r : Fin 2000, Y6 VI c (ix2 r (j 1)) * Y6 VI c (ix2 r (j 1)) :=
  (congrFun (arrAt6_7 VI c) j).trans (sumsq6_exact _ _ _ _ _ j)

end Exact

end Cert.KernelIdeal.Hand

end
-- ==== Proof.KI.V7.lean ====
/- Region 7 of the kernel program: the result array after the region, index by index, from the arrays the region
   is entered with. -/
import proofs.«424088_j28020366639260_2_alg».proof.Proof.KI.R7
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Values7

variable {F : FTy → Type} [FloatOps F]

variable (V : (c : Dev nD) → (b : Ref sig .tc) → Buf (Elt F) ((c : Thread nD τ).loc b))

/-- The offsets every access of the body is made at. -/
theorem off7_zero : (![0, 0] : Fin 2 → Nat) = fun _ => 0 := funext fun a => by fin_cases a <;> rfl

/-- The entry of a one-row operand that the result at index `j` reads: row 0, the lane of `j`. -/
def lane7 (j : S2000x128.Idx) : S1x128.Idx := fun a => match a with
  | ⟨0, _⟩ => ⟨0, Nat.zero_lt_one⟩
  | ⟨1, _⟩ => ⟨(j 1).val, (j 1).isLt⟩

theorem lane7_row (j : S2000x128.Idx) : (lane7 j 0).val = 0 := rfl
theorem lane7_col (j : S2000x128.Idx) : (lane7 j 1).val = (j 1).val := rfl

/-- The map the region computes, on whole arrays: at every index `max (y · scale + shift) 0`, the scale and the shift read
    at the index's lane. -/
def relu7 (y : Vec F S2000x128 .f32) (sc sf : Vec F S1x128 .f32) : Vec F S2000x128 .f32 := fun j =>
  FloatOps.maximumf (FloatOps.addf (FloatOps.mulf (y j : F .f32) (sc (lane7 j))) (sf (lane7 j))) (Scalar.ofBits .f32 0x00000000#32)

/-- A one-row operand broadcast over the rows, at an index, is the operand at the index's lane. -/
theorem bcast7_apply (x : Vec F S1x128 .f32) (j : S2000x128.Idx) :
    broadcastTo S2000x128 (x : FVec F S1x128 .f32) broadcasts_S1x128_S2000x128 j = x (lane7 j) :=
  broadcastTo_apply _ _ j (lane7 j) fun a => by fin_cases a <;> rfl

/-- The store's payload is that map of the three loaded values: the casts to the same shape are the identity, the
    broadcasts read the lane, the arithmetic is pointwise. -/
theorem pay7_eq (y : Vec F S2000x128 .f32) (sc sf : Vec F S1x128 .f32) : k7_pay1 y sc sf = relu7 y sc sf := by
  funext j
  unfold k7_pay1 relu7
  simp only [shapeCast_self]
  show FloatOps.maximumf (FloatOps.addf (FloatOps.mulf _ (broadcastTo S2000x128 (sc : FVec F S1x128 .f32) broadcasts_S1x128_S2000x128 j))
    (broadcastTo S2000x128 (sf : FVec F S1x128 .f32) broadcasts_S1x128_S2000x128 j)) _ = _
  rw [bcast7_apply, bcast7_apply]
  rfl

/-- So what the body leaves in the result's buffer is the map of the three operand buffers: each load reads its whole buffer, the
    one store writes the whole buffer. -/
theorem out7_3_eq (y : Vec F S2000x128 .f32) (sc sf : Vec F S1x128 .f32) : out7_3 y sc sf = relu7 y sc sf := by
  unfold out7_3
  rw [View.canon_unit_zero off7_zero, View.ld_unit_zero (S := S2000x128) off7_zero, View.ld_unit_zero (S := S1x128) off7_zero,
    View.ld_unit_zero (S := S1x128) off7_zero]
  exact pay7_eq y sc sf

/-! ## The region-entry arrays, at their shapes -/

/-- The operand `y` as the region finds it. -/
abbrev inY7 (c : Dev nD) : Vec F S2000x128 .f32 := V c (Pipeline.arrRef spec7 0)
/-- The scale row as the region finds it. -/
abbrev inSc7 (c : Dev nD) : Vec F S1x128 .f32 := V c (Pipeline.arrRef spec7 1)
/-- The shift row as the region finds it. -/
abbrev inSf7 (c : Dev nD) : Vec F S1x128 .f32 := V c (Pipeline.arrRef spec7 2)

/-- The result array the region leaves, as one function of the region-entry arrays. -/
abbrev res7 (c : Dev nD) : Vec F S2000x128 .f32 := relu7 (inY7 V c) (inSc7 V c) (inSf7 V c)

/-! ## Each window's one block is its whole array -/

theorem iblk7_0_eq (c : Dev nD) (t : Fin cfg7.N) : iblk7 V c 0 t = inY7 V c := by
  obtain rfl := fin_N7 t
  have hz : (fun a => win7_0.index t7_0 a * (Pipeline.arrRef spec7 0).ty.shape.size a) = fun _ => 0 :=
    funext fun a => by fin_cases a <;> decide +kernel
  exact Memref.read_access_unit_zero (Elt F) (Pipeline.arrRef spec7 0) hz (fun a => by rw [congrFun hz a]; simp) _

theorem iblk7_1_eq (c : Dev nD) (t : Fin cfg7.N) : iblk7 V c 1 t = inSc7 V c := by
  obtain rfl := fin_N7 t
  have hz : (fun a => win7_1.index t7_0 a * (Pipeline.arrRef spec7 1).ty.shape.size a) = fun _ => 0 :=
    funext fun a => by fin_cases a <;> decide +kernel
  exact Memref.read_access_unit_zero (Elt F) (Pipeline.arrRef spec7 1) hz (fun a => by rw [congrFun hz a]; simp) _

theorem iblk7_2_eq (c : Dev nD) (t : Fin cfg7.N) : iblk7 V c 2 t = inSf7 V c := by
  obtain rfl := fin_N7 t
  have hz : (fun a => win7_2.index t7_0 a * (Pipeline.arrRef spec7 2).ty.shape.size a) = fun _ => 0 :=
    funext fun a => by fin_cases a <;> decide +kernel
  exact Memref.read_access_unit_zero (Elt F) (Pipeline.arrRef spec7 2) hz (fun a => by rw [congrFun hz a]; simp) _

/-! ## The result array after the region -/

/-- The result window's block sits at the array's origin. -/
theorem org7_3 : (fun a => win7_3.index t7_0 a * (Pipeline.arrRef spec7 3).ty.shape.size a) = fun _ => 0 :=
  funext fun a => by fin_cases a <;> decide +kernel

/-- What the one write-back moves is the map of the region-entry arrays, read through the result's block. -/
theorem flushed7_3 (c : Dev nD) (t : Fin cfg7.N) (hf : (cfg7.win 3).flush t = true) :
    (dat7 V c).flushed 3 t = ((cfg7.win 3).blk t).view.read (Elt F) (res7 V c) := by
  obtain rfl := fin_N7 t
  show (cfg7.win 3).cut (grid7.coords t7_0) ((dat7 V c).after 3 t7_0) = _
  rw [after7_3, out7_3_eq, iblk7_0_eq, iblk7_1_eq, iblk7_2_eq]
  exact (Memref.read_access_unit_zero (Elt F) (Pipeline.arrRef spec7 3) org7_3 (fun a => by rw [congrFun org7_3 a]; simp) (res7 V c)).symm

/-- THE VALUE: after the region the result array holds, at every index, `max (y · scale + shift) 0` of the region-entry
    arrays. The one block of the result window is the whole array, so its write-back covers every index. -/
theorem arrAt7_3 (c : Dev nD) : (dat7 V c).arrAt 3 cfg7.N = fun i =>
    FloatOps.maximumf (FloatOps.addf (FloatOps.mulf (inY7 V c i : F .f32) (inSc7 V c (lane7 i))) (inSf7 V c (lane7 i)))
      (Scalar.ofBits .f32 0x00000000#32) :=
  (dat7 V c).arrAt_eq_of_cover 3 (res7 V c) (flushed7_3 V c) fun i =>
    ⟨t7_0, flush7_3 t7_0, by
      show i ∈ ((View.whole (Pipeline.arrRef spec7 3)).slice (win7_3.rect t7_0)).set
      rw [View.set_slice_whole]
      exact View.mem_set_unit_zero org7_3 _ i⟩

/-- The same, the map kept as the body's own store over the region-entry arrays. -/
theorem arrAt7_3_out (c : Dev nD) : (dat7 V c).arrAt 3 cfg7.N = out7_3 (inY7 V c) (inSc7 V c) (inSf7 V c) :=
  (arrAt7_3 V c).trans (out7_3_eq _ _ _).symm

end Values7

/-! ## The same at the extended reals -/

section Ideal7

variable (V : (c : Dev nD) → (b : Ref sig .tc) → Buf (Elt Ideal) ((c : Thread nD τ).loc b))

/-- At the exact arithmetic of the extended reals the result is `max (y * scale + shift) 0`, index by index. -/
theorem arrAt7_3_ideal (c : Dev nD) (i : S2000x128.Idx) :
    ((dat7 (F := Ideal) V c).arrAt 3 cfg7.N : Vec Ideal S2000x128 .f32) i
      = max ((inY7 V c i : EReal) * (inSc7 V c (lane7 i) : EReal) + (inSf7 V c (lane7 i) : EReal)) 0 := by
  rw [arrAt7_3]
  show max (_ * _ + _) (Ideal.ofBits .f32 0x00000000#32) = _
  rw [Ideal.ofBits_zero_f32]

end Ideal7

end Cert.KernelIdeal.Hand

end
-- ==== Proof.Val.LabCore.lean ====
/-
  The dense part of one graph-layer branch (lab, diagnosis or medication rows), as pure functions of arrays of
  extended reals, generic in the number of rows: the affine map  y = b + A·Wlᵀ + B·Wrᵀ  read at an index, the
  batch normalisation followed by the rectifier computed from the column sums of y and of y·y (scale and shift
  form), and the same computed from the column mean and the centred variance (normalised form). On real inputs
  the two forms agree and give real arrays: the variance from the sums is the centred variance, and the
  scale-and-shift form is the normalised form.
-/
import proofs.«424088_j28020366639260_2_alg».proof.Proof.LibERealArith
import proofs.«424088_j28020366639260_2_alg».proof.Proof.BridgeAlgebra
import Idealize.ShloMosaic.Lib.ValueIdx

noncomputable section

namespace Cert.Val.Lab

open Idealize.ShloMosaic Idealize.ShloMosaic.ValueIdx Cert.Lib.ERealArith
open scoped BigOperators

/-- The shape of a matrix of a rows and b columns. -/
abbrev Sh2 (a b : ℕ) : Shape := ⟨2, ![a, b]⟩

variable {n : ℕ}

/-! ## By coordinates -/

/-- Scale-and-shift form at row p, column q; the statistics from the column sums of y and of y·y, each added onto a zero. -/
def bnKC (N e : EReal) (y : Fin n → Fin 128 → EReal) (g β : Fin 128 → EReal) (p : Fin n) (q : Fin 128) : EReal :=
  max (y p q * (g q * Ideal.rsqrt
        ((Ideal.div ((0 : EReal) + ∑ i : Fin n, y i q * y i q) N
          - Ideal.div ((0 : EReal) + ∑ i : Fin n, y i q) N * Ideal.div ((0 : EReal) + ∑ i : Fin n, y i q) N) + e))
      + (β q - Ideal.div ((0 : EReal) + ∑ i : Fin n, y i q) N * (g q * Ideal.rsqrt
        ((Ideal.div ((0 : EReal) + ∑ i : Fin n, y i q * y i q) N
          - Ideal.div ((0 : EReal) + ∑ i : Fin n, y i q) N * Ideal.div ((0 : EReal) + ∑ i : Fin n, y i q) N) + e)))) 0

/-- Normalised form at row p, column q; the column mean (0 + Σ y)/N and the centred variance. -/
def bnRC (N e : EReal) (y : Fin n → Fin 128 → EReal) (g β : Fin 128 → EReal) (p : Fin n) (q : Fin 128) : EReal :=
  max ((y p q - Ideal.div ((0 : EReal) + ∑ i : Fin n, y i q) N)
      * Ideal.rsqrt (Ideal.div ((0 : EReal) + ∑ i : Fin n,
          (y i q - Ideal.div ((0 : EReal) + ∑ i' : Fin n, y i' q) N)
            * (y i q - Ideal.div ((0 : EReal) + ∑ i' : Fin n, y i' q) N)) N + e)
      * g q + β q) 0

/-- A sum of coercions onto a zero. -/
theorem zero_add_sum_coe {ι : Type*} [Fintype ι] (f : ι → ℝ) :
    (0 : EReal) + ∑ i, ((f i : ℝ) : EReal) = ((∑ i, f i : ℝ) : EReal) := by
  rw [zero_add, univ_sum_coe]

/-- On a real matrix, with real scale and shift parameters, a positive row count N = n and a positive e, the
    scale-and-shift form is the normalised form, and the result is real. -/
theorem bnC_eq (hn : 0 < n) (e : ℝ) (he : 0 < e) (y : Fin n → Fin 128 → EReal) (g β : Fin 128 → EReal)
    (hy : ∀ p q, ∃ x : ℝ, y p q = (x : EReal)) (hg : ∀ q, ∃ x : ℝ, g q = (x : EReal)) (hβ : ∀ q, ∃ x : ℝ, β q = (x : EReal)) :
    bnKC (((n : ℝ) : EReal)) ((e : ℝ) : EReal) y g β = bnRC (((n : ℝ) : EReal)) ((e : ℝ) : EReal) y g β
      ∧ ∀ p q, ∃ x : ℝ, bnKC (((n : ℝ) : EReal)) ((e : ℝ) : EReal) y g β p q = (x : EReal) := by
  choose yr hyr using hy
  choose gr hgr using hg
  choose br hbr using hβ
  have hn0 : (n : ℝ) ≠ 0 := Nat.cast_ne_zero.mpr hn.ne'
  have hnn : (0 : ℝ) ≤ (n : ℝ) := Nat.cast_nonneg n
  have hK : ∀ p q, bnKC (((n : ℝ) : EReal)) ((e : ℝ) : EReal) y g β p q
      = ((max (yr p q * (gr q * (Real.sqrt (((∑ i : Fin n, yr i q * yr i q) / n
            - (∑ i : Fin n, yr i q) / n * ((∑ i : Fin n, yr i q) / n)) + e))⁻¹)
          + (br q - (∑ i : Fin n, yr i q) / n * (gr q * (Real.sqrt (((∑ i : Fin n, yr i q * yr i q) / n
            - (∑ i : Fin n, yr i q) / n * ((∑ i : Fin n, yr i q) / n)) + e))⁻¹))) 0 : ℝ) : EReal) := by
    intro p q
    have hpos := Cert.Bridge.var_of_sums_add_pos_fin (fun i : Fin n => yr i q) (n : ℝ) e rfl hn0 he
    unfold bnKC
    simp only [hyr, hgr, hbr, mul_coe, zero_add_sum_coe, div_coe hn0, sub_coe, add_coe]
    rw [rsqrt_coe hpos]
    simp only [mul_coe, sub_coe, add_coe]
    rw [zero_eq_coe, max_coe]
  have hR : ∀ p q, bnRC (((n : ℝ) : EReal)) ((e : ℝ) : EReal) y g β p q
      = ((max ((yr p q - (∑ i : Fin n, yr i q) / n)
          * (Real.sqrt ((∑ i : Fin n, (yr i q - (∑ i' : Fin n, yr i' q) / n)
              * (yr i q - (∑ i' : Fin n, yr i' q) / n)) / n + e))⁻¹
          * gr q + br q) 0 : ℝ) : EReal) := by
    intro p q
    have hpos := Cert.Bridge.centred_var_add_pos (fun i : Fin n => yr i q)
      ((∑ i' : Fin n, yr i' q) / n) (n : ℝ) e hnn he
    unfold bnRC
    simp only [hyr, hgr, hbr, mul_coe, zero_add_sum_coe, div_coe hn0, sub_coe, add_coe]
    rw [rsqrt_coe hpos]
    simp only [mul_coe, sub_coe, add_coe]
    rw [zero_eq_coe, max_coe]
  refine ⟨funext fun p => funext fun q => ?_, fun p q => ⟨_, hK p q⟩⟩
  rw [hK p q, hR p q]
  congr 2
  rw [Cert.Bridge.var_of_sums_fin (fun (i : Fin n) (_ : Unit) => yr i q) (n : ℝ) rfl hn0 ()]
  exact Cert.Bridge.scale_shift _ _ _ _ _

/-- The affine map of relation r of layer L at row p, column q:
    (bl[L,r,q] + Σ_k A[p,k]·Wl[L,r,q,k]) + Σ_k B[p,k]·Wr[L,r,q,k]. -/
def affC (L : Fin 2) (r : Fin 6) (A B : Fin n → Fin 128 → EReal)
    (Wl Wr : (⟨4, ![2, 6, 128, 128]⟩ : Shape).Idx → EReal) (bl : (⟨3, ![2, 6, 128]⟩ : Shape).Idx → EReal)
    (p : Fin n) (q : Fin 128) : EReal :=
  (bl (ix3 L r q) + ∑ k : Fin 128, A p k * Wl (ix4 L r q k)) + ∑ k : Fin 128, B p k * Wr (ix4 L r q k)

/-- The affine map of real arrays is real. -/
theorem affC_real (L : Fin 2) (r : Fin 6) (A B : Fin n → Fin 128 → EReal)
    (Wl Wr : (⟨4, ![2, 6, 128, 128]⟩ : Shape).Idx → EReal) (bl : (⟨3, ![2, 6, 128]⟩ : Shape).Idx → EReal)
    (hA : ∀ p k, ∃ x : ℝ, A p k = (x : EReal)) (hB : ∀ p k, ∃ x : ℝ, B p k = (x : EReal))
    (hWl : ∀ i, ∃ x : ℝ, Wl i = (x : EReal)) (hWr : ∀ i, ∃ x : ℝ, Wr i = (x : EReal))
    (hbl : ∀ i, ∃ x : ℝ, bl i = (x : EReal)) :
    ∀ p q, ∃ x : ℝ, affC L r A B Wl Wr bl p q = (x : EReal) := by
  choose a ha using hA
  choose b hb using hB
  choose wl hwl using hWl
  choose wr hwr using hWr
  choose c hc using hbl
  intro p q
  refine ⟨(c (ix3 L r q) + ∑ k : Fin 128, a p k * wl (ix4 L r q k)) + ∑ k : Fin 128, b p k * wr (ix4 L r q k), ?_⟩
  unfold affC
  simp only [ha, hb, hwl, hwr, hc, mul_coe, univ_sum_coe, add_coe]

/-! ## As arrays -/

/-- A matrix array by coordinates. -/
abbrev coords (y : (Sh2 n 128).Idx → EReal) : Fin n → Fin 128 → EReal := fun p q => y (ix2 p q)

/-- The affine map as an array. -/
def aff (L : Fin 2) (r : Fin 6) (A B : (Sh2 n 128).Idx → EReal)
    (Wl Wr : (⟨4, ![2, 6, 128, 128]⟩ : Shape).Idx → EReal) (bl : (⟨3, ![2, 6, 128]⟩ : Shape).Idx → EReal) :
    (Sh2 n 128).Idx → EReal :=
  fun j => affC L r (coords A) (coords B) Wl Wr bl (j 0) (j 1)

/-- Scale-and-shift form as an array; the parameters are row t of layer L of the two parameter arrays. -/
def bnK (N e : EReal) (L : Fin 2) (t : Fin 4) (y : (Sh2 n 128).Idx → EReal)
    (g β : (⟨3, ![2, 4, 128]⟩ : Shape).Idx → EReal) : (Sh2 n 128).Idx → EReal :=
  fun j => bnKC N e (coords y) (fun q => g (ix3 L t q)) (fun q => β (ix3 L t q)) (j 0) (j 1)

/-- Normalised form as an array. -/
def bnR (N e : EReal) (L : Fin 2) (t : Fin 4) (y : (Sh2 n 128).Idx → EReal)
    (g β : (⟨3, ![2, 4, 128]⟩ : Shape).Idx → EReal) : (Sh2 n 128).Idx → EReal :=
  fun j => bnRC N e (coords y) (fun q => g (ix3 L t q)) (fun q => β (ix3 L t q)) (j 0) (j 1)

/-- One branch of one layer, the whole dense part: on real inputs the scale-and-shift form over the affine map is the
    normalised form over it, and the result is real. -/
theorem branch_eq (hn : 0 < n) (e : ℝ) (he : 0 < e) (L : Fin 2) (r : Fin 6) (t : Fin 4)
    (A B : (Sh2 n 128).Idx → EReal)
    (Wl Wr : (⟨4, ![2, 6, 128, 128]⟩ : Shape).Idx → EReal) (bl : (⟨3, ![2, 6, 128]⟩ : Shape).Idx → EReal)
    (g β : (⟨3, ![2, 4, 128]⟩ : Shape).Idx → EReal)
    (hA : ∀ i, ∃ x : ℝ, A i = (x : EReal)) (hB : ∀ i, ∃ x : ℝ, B i = (x : EReal))
    (hWl : ∀ i, ∃ x : ℝ, Wl i = (x : EReal)) (hWr : ∀ i, ∃ x : ℝ, Wr i = (x : EReal))
    (hbl : ∀ i, ∃ x : ℝ, bl i = (x : EReal))
    (hg : ∀ i, ∃ x : ℝ, g i = (x : EReal)) (hβ : ∀ i, ∃ x : ℝ, β i = (x : EReal)) :
    bnK (((n : ℝ) : EReal)) ((e : ℝ) : EReal) L t (aff L r A B Wl Wr bl) g β
        = bnR (((n : ℝ) : EReal)) ((e : ℝ) : EReal) L t (aff L r A B Wl Wr bl) g β
      ∧ ∀ i, ∃ x : ℝ, bnK (((n : ℝ) : EReal)) ((e : ℝ) : EReal) L t (aff L r A B Wl Wr bl) g β i = (x : EReal) := by
  have hy : ∀ p q, ∃ x : ℝ, coords (aff L r A B Wl Wr bl) p q = (x : EReal) := fun p q =>
    affC_real L r (coords A) (coords B) Wl Wr bl (fun p k => hA _) (fun p k => hB _) hWl hWr hbl p q
  have h := bnC_eq hn e he (coords (aff L r A B Wl Wr bl)) (fun q => g (ix3 L t q)) (fun q => β (ix3 L t q))
    hy (fun q => hg _) (fun q => hβ _)
  refine ⟨funext fun j => ?_, fun j => ?_⟩
  · exact congrFun (congrFun h.1 (j 0)) (j 1)
  · exact h.2 (j 0) (j 1)

end Cert.Val.Lab

end
-- ==== Proof.Val.LabTerms.lean ====
/-
  The reference's operations over one branch, as terms of the library's array operations, read at an index:
  generic in the number of rows, the shape facts taken as hypotheses so that the same statements serve every
  size and both programs.
-/
import proofs.«424088_j28020366639260_2_alg».proof.Proof.Val.LabCore
import Idealize.ShloMosaic.Lib.Pipeline.Value
import Idealize.ShloMosaic.Lib.IdealHost
import Idealize.ShloMosaic.Lib.ValueLayout
import Idealize.ShloMosaic.PureOps.Ideal.Laws

noncomputable section

namespace Cert.Val.Lab

open Idealize.ShloMosaic Idealize.ShloMosaic.ValueIdx Cert.Lib.ERealArith
open scoped BigOperators

variable {n : ℕ}

abbrev T0 : Shape := ⟨0, ![]⟩
abbrev T128 : Shape := ⟨1, ![128]⟩
abbrev T1x128 : Shape := ⟨2, ![1, 128]⟩

/-! ## Broadcasts and reductions at an index -/

/-- A vector broadcast to one row reads its entry at the column. -/
theorem bcast_vec_row_apply {α : Type} (h : T128.BroadcastsInDim T1x128 ![1]) (x : T128.Idx → α) (j : T1x128.Idx) :
    broadcastInDim T1x128 ![1] h x j = x (ix1 (j 1)) :=
  broadcastInDim_apply _ h x j _ (fun a => by
    match a with
    | ⟨0, _⟩ => rfl)

/-- One row broadcast down the rows reads the row's entry at the column. -/
theorem bcast_row_rows_apply {α : Type} (h : T1x128.BroadcastsInDim (Sh2 n 128) ![0, 1]) (x : T1x128.Idx → α) (j : (Sh2 n 128).Idx) :
    broadcastInDim (Sh2 n 128) ![0, 1] h x j = x (ix2 (0 : Fin 1) (j 1)) :=
  broadcastInDim_apply _ h x j _ (fun a => by
    match a with
    | ⟨0, _⟩ => rfl
    | ⟨1, _⟩ => rfl)

/-- The index the row sum at column j visits at row k. -/
theorem lift_rows (h : (Sh2 n 128).Reduces [0] T128) (j : T128.Idx) (k : Fin n) :
    h.lift j k = ix2 k (j 0) := by
  funext a
  match a with
  | ⟨0, _⟩ => exact Fin.ext rfl
  | ⟨1, _⟩ => exact Fin.ext rfl

/-- The host's sum down the rows, onto an initial scalar. -/
theorem hostRowSum_apply (h' : (Sh2 n 128).ReducesTo [0] T128) (h : (Sh2 n 128).Reduces [0] T128) (hu : 0 < T0.numel)
    (x : FVec Ideal (Sh2 n 128) .f32) (init : FVec Ideal T0 .f32) (j : T128.Idx) :
    Host.reduceAdd x init h' hu j = init (Shape.Idx.first hu) + ∑ k : Fin n, x (ix2 k (j 0)) := by
  rw [hostReduceAdd_apply, Ideal.hostReduceAdd_single h' h]
  congr 1
  exact Finset.sum_congr rfl fun k _ => congrArg x (lift_rows h j k)

/-- A plain product of a matrix by a square matrix at an index, the contraction numbered by the column of the left factor. -/
theorem plain_dot_apply (l : (Sh2 n 128).Idx → EReal) (r : (Sh2 128 128).Idx → EReal) (j : (Sh2 n 128).Idx) :
    (∑ k : (DotDims.plain n 128 128).contr.Idx, l ((DotDims.plain n 128 128).lhsIdx j k) * r ((DotDims.plain n 128 128).rhsIdx j k))
      = ∑ k : Fin 128, l (ix2 (j 0) k) * r (ix2 k (j 1)) := by
  rw [← Equiv.sum_comp (contrEquiv1 (DotDims.plain n 128 128) 128 rfl rfl).symm]
  refine Finset.sum_congr rfl fun k _ => ?_
  have hk := contrEquiv1_symm_val (DotDims.plain n 128 128) 128 rfl rfl k
  congr 2
  · funext a
    match a with
    | ⟨0, _⟩ => exact Fin.ext rfl
    | ⟨1, _⟩ => exact Fin.ext hk
  · funext a
    match a with
    | ⟨0, _⟩ => exact Fin.ext hk
    | ⟨1, _⟩ => exact Fin.ext rfl

/-- The same at coordinates. -/
theorem bcast_row_rows_apply' {α : Type} (h : T1x128.BroadcastsInDim (Sh2 n 128) ![0, 1]) (x : T1x128.Idx → α) (p : Fin n) (q : Fin 128) :
    broadcastInDim (Sh2 n 128) ![0, 1] h x (ix2 p q) = x (ix2 (0 : Fin 1) q) :=
  bcast_row_rows_apply h x (ix2 p q)

theorem bcast_vec_row_apply' {α : Type} (h : T128.BroadcastsInDim T1x128 ![1]) (x : T128.Idx → α) (u : Fin 1) (q : Fin 128) :
    broadcastInDim T1x128 ![1] h x (ix2 u q) = x (ix1 q) :=
  bcast_vec_row_apply h x (ix2 u q)

theorem plain_dot_apply' (l : (Sh2 n 128).Idx → EReal) (r : (Sh2 128 128).Idx → EReal) (p : Fin n) (q : Fin 128) :
    (∑ k : (DotDims.plain n 128 128).contr.Idx,
        l ((DotDims.plain n 128 128).lhsIdx (ix2 p q) k) * r ((DotDims.plain n 128 128).rhsIdx (ix2 p q) k))
      = ∑ k : Fin 128, l (ix2 p k) * r (ix2 k q) :=
  plain_dot_apply l r (ix2 p q)

/-! ## The reference's normalisation and rectifier over an array -/

section RefBN

variable (hred' : (Sh2 n 128).ReducesTo [0] T128) (hred : (Sh2 n 128).Reduces [0] T128) (hu : 0 < T0.numel)
  (hb0 : T0.BroadcastsInDim T128 ![]) (hb01 : T0.BroadcastsInDim T1x128 ![])
  (hb1 : T128.BroadcastsInDim T1x128 ![1]) (hb2 : T1x128.BroadcastsInDim (Sh2 n 128) ![0, 1])
  (hbz : T0.BroadcastsInDim (Sh2 n 128) ![])

/-- The count the variance divides by: the row count less a correction read from an integer zero. -/
def refDen (Nb : BitVec 32) : FVec Ideal T0 .f32 :=
  subf (constant (F := Ideal) T0 .f32 Nb) (sitofp .f32 (constantI T0 32 0#32))

/-- The reference's variance of the columns of y: the mean of the squared deviations from the column mean, guarded
    by the test that the count is positive. -/
def refVar (Nb : BitVec 32) (y : FVec Ideal (Sh2 n 128) .f32) : FVec Ideal T128 .f32 :=
  select (broadcastInDim T128 ![] hb0 (cmpf .ogt (refDen Nb) (constant (F := Ideal) T0 .f32 0x00000000#32)))
    (Host.divf
      (Host.reduceAdd
        (mulf
          (subf y (broadcastInDim (Sh2 n 128) ![0, 1] hb2 (Host.divf
            (broadcastInDim T1x128 ![1] hb1 (Host.reduceAdd y (constant (F := Ideal) T0 .f32 0x00000000#32) hred' hu))
            (broadcastInDim T1x128 ![] hb01 (constant (F := Ideal) T0 .f32 Nb)))))
          (subf y (broadcastInDim (Sh2 n 128) ![0, 1] hb2 (Host.divf
            (broadcastInDim T1x128 ![1] hb1 (Host.reduceAdd y (constant (F := Ideal) T0 .f32 0x00000000#32) hred' hu))
            (broadcastInDim T1x128 ![] hb01 (constant (F := Ideal) T0 .f32 Nb))))))
        (constant (F := Ideal) T0 .f32 0x00000000#32) hred' hu)
      (broadcastInDim T128 ![] hb0 (refDen Nb)))
    (broadcastInDim T128 ![] hb0 (id (constant (F := Ideal) T0 .f32 0x7FC00000#32)))

/-- The reference's normalisation and rectifier of y with parameter vectors g, β. -/
def refBN (Nb : BitVec 32) (y : FVec Ideal (Sh2 n 128) .f32) (g β : FVec Ideal T128 .f32) : FVec Ideal (Sh2 n 128) .f32 :=
  maximumf
    (addf
      (mulf
        (mulf
          (subf y (broadcastInDim (Sh2 n 128) ![0, 1] hb2 (broadcastInDim T1x128 ![1] hb1
            (Host.divf (Host.reduceAdd y (constant (F := Ideal) T0 .f32 0x00000000#32) hred' hu)
              (broadcastInDim T128 ![] hb0 (constant (F := Ideal) T0 .f32 Nb))))))
          (broadcastInDim (Sh2 n 128) ![0, 1] hb2 (broadcastInDim T1x128 ![1] hb1
            (Host.rsqrt (addf (refVar hred' hu hb0 hb01 hb1 hb2 Nb y)
              (broadcastInDim T128 ![] hb0 (constant (F := Ideal) T0 .f32 0x3727C5AC#32)))))))
        (broadcastInDim (Sh2 n 128) ![0, 1] hb2 (broadcastInDim T1x128 ![1] hb1 g)))
      (broadcastInDim (Sh2 n 128) ![0, 1] hb2 (broadcastInDim T1x128 ![1] hb1 β)))
    (broadcastInDim (Sh2 n 128) ![] hbz (constant (F := Ideal) T0 .f32 0x00000000#32))

variable {hred' hu hb0 hb01 hb1 hb2 hbz}

/-- The count at its one index: the row count itself. -/
theorem refDen_apply (Nb : BitVec 32) (hN : Ideal.ofBits .f32 Nb = (((n : ℝ)) : EReal)) (i : T0.Idx) :
    refDen Nb i = (((n : ℝ)) : EReal) := by
  show (Ideal.ofBits .f32 Nb : EReal) - FloatOps.sitofp (F := Ideal) .f32 (0#32) = _
  rw [hN, sitofp_coe, sub_coe]
  simp

include hred in
/-- The column sum of y onto the zero literal. -/
theorem colSum_apply (y : FVec Ideal (Sh2 n 128) .f32) (q : T128.Idx) :
    Host.reduceAdd y (constant (F := Ideal) T0 .f32 0x00000000#32) hred' hu q = (0 : EReal) + ∑ k : Fin n, y (ix2 k (q 0)) := by
  rw [hostRowSum_apply hred' hred hu]
  congr 1
  exact Ideal.ofBits_zero_f32

/-- The host's reciprocal square root at an index. -/
theorem hostRsqrt_apply {s : Shape} (x : FVec Ideal s .f32) (i : s.Idx) : Host.rsqrt x i = Ideal.rsqrt (x i) := rfl

include hred in
/-- The variance at a column. -/
theorem refVar_apply (hn : 0 < n) (Nb : BitVec 32) (hN : Ideal.ofBits .f32 Nb = (((n : ℝ)) : EReal))
    (y : FVec Ideal (Sh2 n 128) .f32) (q : T128.Idx) :
    refVar hred' hu hb0 hb01 hb1 hb2 Nb y q
      = Ideal.div ((0 : EReal) + ∑ k : Fin n,
          (y (ix2 k (q 0)) - Ideal.div ((0 : EReal) + ∑ k' : Fin n, y (ix2 k' (q 0))) (((n : ℝ)) : EReal))
            * (y (ix2 k (q 0)) - Ideal.div ((0 : EReal) + ∑ k' : Fin n, y (ix2 k' (q 0))) (((n : ℝ)) : EReal)))
          (((n : ℝ)) : EReal) := by
  have hpos : (0 : ℝ) < (n : ℝ) := Nat.cast_pos.mpr hn
  unfold refVar
  rw [select_apply, broadcastInDim_scalar_apply, cmpf_apply, refDen_apply Nb hN, constant_apply, ofBits_zero,
    cmpf_ogt_coe_of_lt hpos, select_one]
  rw [hostDivf_apply, broadcastInDim_scalar_apply, refDen_apply Nb hN, colSum_apply (hred := hred)]
  congr 2
  refine Finset.sum_congr rfl fun k _ => ?_
  rw [mulf_apply, subf_apply, bcast_row_rows_apply, hostDivf_apply, bcast_vec_row_apply, broadcastInDim_scalar_apply,
    colSum_apply (hred := hred), constant_apply, hN]
  rfl

include hred in
/-- The reference's normalisation and rectifier at row p, column q: the normalised form. -/
theorem refBN_apply (hn : 0 < n) (Nb : BitVec 32) (hN : Ideal.ofBits .f32 Nb = (((n : ℝ)) : EReal))
    (y : FVec Ideal (Sh2 n 128) .f32) (g β : FVec Ideal T128 .f32) (p : Fin n) (q : Fin 128) :
    refBN hred' hu hb0 hb01 hb1 hb2 hbz Nb y g β (ix2 p q)
      = bnRC (((n : ℝ)) : EReal) ((eps5 : ℝ) : EReal) (coords y) (fun q => g (ix1 q)) (fun q => β (ix1 q)) p q := by
  unfold refBN
  rw [maximumf_apply, addf_apply, mulf_apply, mulf_apply, subf_apply]
  repeat rw [bcast_row_rows_apply]
  repeat rw [bcast_vec_row_apply]
  rw [hostDivf_apply, hostRsqrt_apply, addf_apply, colSum_apply (hred := hred), refVar_apply (hred := hred) hn Nb hN]
  repeat rw [broadcastInDim_scalar_apply]
  repeat rw [constant_apply]
  rw [Ideal.ofBits_zero_f32, hN, ofBits_eps5]
  rfl

end RefBN

/-! ## Parameter slices, transposes, and the reference's affine map -/

/-- A square matrix transposed, at (a, b): the operand at (b, a). -/
theorem transpose_sq_apply {α : Type} (h : (Sh2 128 128).Transposes [1, 0] (Sh2 128 128)) (x : (Sh2 128 128).Idx → α) (a b : Fin 128) :
    transpose (Sh2 128 128) [1, 0] x h (ix2 a b) = x (ix2 b a) :=
  transpose_apply [1, 0] x h _ _ (fun c => by
    match c with
    | ⟨0, _⟩ => rfl
    | ⟨1, _⟩ => rfl)

/-- Matrix (L, r) of a [2, 6, 128, 128] array, cut out and viewed as a matrix, at (a, b). -/
theorem mat_slice_apply {α : Type} (oL oR : ℕ) (hL : oL < 2) (hR : oR < 6)
    (hs : (⟨4, ![2, 6, 128, 128]⟩ : Shape).Slices ![oL, oR, 0, 0] ⟨4, ![1, 1, 128, 128]⟩)
    (hc : (⟨4, ![1, 1, 128, 128]⟩ : Shape).ShapeCasts (Sh2 128 128))
    (x : (⟨4, ![2, 6, 128, 128]⟩ : Shape).Idx → α) (a b : Fin 128) :
    shapeCast (Sh2 128 128) (extractStridedSlice ⟨4, ![1, 1, 128, 128]⟩ ![oL, oR, 0, 0] x hs) hc (ix2 a b)
      = x (ix4 (⟨oL, hL⟩ : Fin 2) (⟨oR, hR⟩ : Fin 6) a b) := by
  rw [shapeCast_apply _ hc (ix2 a b) (ix4 (0 : Fin 1) (0 : Fin 1) a b) (by
    rw [Shape.rowMajor_val_four, Shape.rowMajor_val_two]
    show ((0 * 1 + 0) * 128 + a.val) * 128 + b.val = a.val * 128 + b.val
    omega)]
  exact extractStridedSlice_apply _ x hs _ _ (fun c => by
    match c with
    | ⟨0, _⟩ => exact (Nat.add_zero oL).symm
    | ⟨1, _⟩ => exact (Nat.add_zero oR).symm
    | ⟨2, _⟩ => exact (Nat.zero_add a.val).symm
    | ⟨3, _⟩ => exact (Nat.zero_add b.val).symm)

/-- Row (L, t) of a [2, M, 128] array, cut out and viewed as a vector, at q. -/
theorem vec_slice_apply {α : Type} {M : ℕ} (oL oT : ℕ) (hL : oL < 2) (hT : oT < M)
    (hs : (⟨3, ![2, M, 128]⟩ : Shape).Slices ![oL, oT, 0] ⟨3, ![1, 1, 128]⟩)
    (hc : (⟨3, ![1, 1, 128]⟩ : Shape).ShapeCasts T128)
    (x : (⟨3, ![2, M, 128]⟩ : Shape).Idx → α) (q : Fin 128) :
    shapeCast T128 (extractStridedSlice ⟨3, ![1, 1, 128]⟩ ![oL, oT, 0] x hs) hc (ix1 q)
      = x (ix3 (⟨oL, hL⟩ : Fin 2) (⟨oT, hT⟩ : Fin M) q) := by
  rw [shapeCast_apply _ hc (ix1 q) (ix3 (0 : Fin 1) (0 : Fin 1) q) (by
    rw [Shape.rowMajor_val_three, Shape.rowMajor_val_one]
    show (0 * 1 + 0) * 128 + q.val = q.val
    omega)]
  exact extractStridedSlice_apply _ x hs _ _ (fun c => by
    match c with
    | ⟨0, _⟩ => exact (Nat.add_zero oL).symm
    | ⟨1, _⟩ => exact (Nat.add_zero oT).symm
    | ⟨2, _⟩ => exact (Nat.zero_add q.val).symm)

section RefAff

variable (d : DotDims (Sh2 n 128) (Sh2 128 128) (Sh2 n 128)) (htr : (Sh2 128 128).Transposes [1, 0] (Sh2 128 128))
  (hb1 : T128.BroadcastsInDim T1x128 ![1]) (hb2 : T1x128.BroadcastsInDim (Sh2 n 128) ![0, 1])

/-- The reference's affine map: the product with the transposed left weights, plus the bias row, plus the product with
    the transposed right weights. -/
def refAff (A B : FVec Ideal (Sh2 n 128) .f32) (wl wr : FVec Ideal (Sh2 128 128) .f32) (b : FVec Ideal T128 .f32) :
    FVec Ideal (Sh2 n 128) .f32 :=
  addf
    (addf (Host.dotGeneral d none A (transpose (Sh2 128 128) [1, 0] wl htr))
      (broadcastInDim (Sh2 n 128) ![0, 1] hb2 (broadcastInDim T1x128 ![1] hb1 b)))
    (Host.dotGeneral d none B (transpose (Sh2 128 128) [1, 0] wr htr))

variable {d htr hb1 hb2}

/-- At row p, column q. -/
theorem refAff_apply (hd : d = DotDims.plain n 128 128) (A B : FVec Ideal (Sh2 n 128) .f32) (wl wr : FVec Ideal (Sh2 128 128) .f32)
    (b : FVec Ideal T128 .f32) (p : Fin n) (q : Fin 128) :
    refAff d htr hb1 hb2 A B wl wr b (ix2 p q)
      = (b (ix1 q) + ∑ k : Fin 128, A (ix2 p k) * wl (ix2 q k)) + ∑ k : Fin 128, B (ix2 p k) * wr (ix2 q k) := by
  subst hd
  unfold refAff
  rw [addf_apply, addf_apply]
  simp only [Host.dotGeneral]
  rw [Ideal.dotGeneral_apply, Ideal.dotGeneral_apply, plain_dot_apply', plain_dot_apply', bcast_row_rows_apply', bcast_vec_row_apply']
  rw [Finset.sum_congr rfl (fun k _ => by rw [transpose_sq_apply] : ∀ k ∈ (Finset.univ : Finset (Fin 128)),
      A (ix2 p k) * transpose (Sh2 128 128) [1, 0] wl htr (ix2 k q) = A (ix2 p k) * wl (ix2 q k)),
    Finset.sum_congr rfl (fun k _ => by rw [transpose_sq_apply] : ∀ k ∈ (Finset.univ : Finset (Fin 128)),
      B (ix2 p k) * transpose (Sh2 128 128) [1, 0] wr htr (ix2 k q) = B (ix2 p k) * wr (ix2 q k))]
  rw [add_comm (∑ k : Fin 128, A (ix2 p k) * wl (ix2 q k))]

end RefAff

/-! ## The kernel program's scale and shift from the column sums, and its rectified affine image -/

section KernelBN

variable (hc : T1x128.ShapeCasts T128) (hc' : T128.ShapeCasts T1x128) (hb0 : T0.BroadcastsInDim T128 ![])

/-- The scale row: g · rsqrt(Σy²/N − (Σy/N)² + ε), the two sums given as one-row arrays. -/
def kScale (Nb : BitVec 32) (s sq : FVec Ideal T1x128 .f32) (g : FVec Ideal T128 .f32) : FVec Ideal T128 .f32 :=
  mulf g (Host.rsqrt (addf
    (subf (Host.divf (shapeCast T128 sq hc) (broadcastInDim T128 ![] hb0 (constant (F := Ideal) T0 .f32 Nb)))
      (mulf (Host.divf (shapeCast T128 s hc) (broadcastInDim T128 ![] hb0 (constant (F := Ideal) T0 .f32 Nb)))
        (Host.divf (shapeCast T128 s hc) (broadcastInDim T128 ![] hb0 (constant (F := Ideal) T0 .f32 Nb)))))
    (broadcastInDim T128 ![] hb0 (constant (F := Ideal) T0 .f32 0x3727C5AC#32))))

/-- The shift row: β − (Σy/N) · scale. -/
def kShift (Nb : BitVec 32) (s sq : FVec Ideal T1x128 .f32) (g β : FVec Ideal T128 .f32) : FVec Ideal T128 .f32 :=
  subf β (mulf (Host.divf (shapeCast T128 s hc) (broadcastInDim T128 ![] hb0 (constant (F := Ideal) T0 .f32 Nb)))
    (kScale hc hb0 Nb s sq g))

variable {hc hc' hb0}

theorem kScale_apply (Nb : BitVec 32) (N : EReal) (hN : Ideal.ofBits .f32 Nb = N) (s sq : FVec Ideal T1x128 .f32)
    (g : FVec Ideal T128 .f32) (q : Fin 128) :
    kScale hc hb0 Nb s sq g (ix1 q)
      = g (ix1 q) * Ideal.rsqrt ((Ideal.div (sq (ix2 (0 : Fin 1) q)) N
          - Ideal.div (s (ix2 (0 : Fin 1) q)) N * Ideal.div (s (ix2 (0 : Fin 1) q)) N) + ((eps5 : ℝ) : EReal)) := by
  unfold kScale
  rw [mulf_apply, hostRsqrt_apply, addf_apply, subf_apply, hostDivf_apply, mulf_apply, hostDivf_apply]
  repeat rw [shapeCast_1a_a_apply]
  repeat rw [broadcastInDim_scalar_apply]
  repeat rw [constant_apply]
  rw [hN, ofBits_eps5]

theorem kShift_apply (Nb : BitVec 32) (N : EReal) (hN : Ideal.ofBits .f32 Nb = N) (s sq : FVec Ideal T1x128 .f32)
    (g β : FVec Ideal T128 .f32) (q : Fin 128) :
    kShift hc hb0 Nb s sq g β (ix1 q)
      = β (ix1 q) - Ideal.div (s (ix2 (0 : Fin 1) q)) N * (g (ix1 q) * Ideal.rsqrt ((Ideal.div (sq (ix2 (0 : Fin 1) q)) N
          - Ideal.div (s (ix2 (0 : Fin 1) q)) N * Ideal.div (s (ix2 (0 : Fin 1) q)) N) + ((eps5 : ℝ) : EReal))) := by
  unfold kShift
  rw [subf_apply, mulf_apply, hostDivf_apply, kScale_apply Nb N hN, shapeCast_1a_a_apply, broadcastInDim_scalar_apply,
    constant_apply, hN]

/-- The rectified affine image of y under the scale and shift rows stored as one-row arrays, at row p, column q:
    the scale-and-shift form. -/
theorem kBN_apply (Nb : BitVec 32) (N : EReal) (hN : Ideal.ofBits .f32 Nb = N)
    (y : (Sh2 n 128).Idx → EReal) (s sq : FVec Ideal T1x128 .f32)
    (hs : ∀ q : Fin 128, s (ix2 (0 : Fin 1) q) = (0 : EReal) + ∑ i : Fin n, y (ix2 i q))
    (hsq : ∀ q : Fin 128, sq (ix2 (0 : Fin 1) q) = (0 : EReal) + ∑ i : Fin n, y (ix2 i q) * y (ix2 i q))
    (g β : FVec Ideal T128 .f32) (p : Fin n) (q : Fin 128) :
    max (y (ix2 p q) * shapeCast T1x128 (kScale hc hb0 Nb s sq g) hc' (ix2 (0 : Fin 1) q)
        + shapeCast T1x128 (kShift hc hb0 Nb s sq g β) hc' (ix2 (0 : Fin 1) q)) 0
      = bnKC N ((eps5 : ℝ) : EReal) (coords y) (fun q => g (ix1 q)) (fun q => β (ix1 q)) p q := by
  rw [shapeCast_a_1a_apply, shapeCast_a_1a_apply, kShift_apply Nb N hN, kScale_apply Nb N hN, hs, hsq]
  rfl

end KernelBN

/-! ## The kernel program's affine map and column sums, as terms of its vector operations -/

section KernelAff

variable (d : DotDims (Sh2 n 128) (Sh2 128 128) (Sh2 n 128))
  (hcb : T1x128.ShapeCasts T1x128) (hcx : (Sh2 n 128).ShapeCasts (Sh2 n 128)) (hcw : (Sh2 128 128).ShapeCasts (Sh2 128 128))
  (hlt : FTy.bf16.bits < FTy.f32.bits) (hbt : T1x128.Broadcasts (Sh2 n 128))
  (hred : (Sh2 n 128).Reduces [0] T128) (hφ : FKind.Formats FTy.f32) (hacc : (0x00000000#32 : BitVec FTy.f32.bits) = FKind.add.neutral FTy.f32 hφ)
  (hc' : T128.ShapeCasts T1x128)

/-- The bias row broadcast down the rows, plus the first product, plus the second; each factor narrowed first, each
    product onto a zero accumulator. -/
def kAff (b : FVec Ideal T1x128 .f32) (x0 : FVec Ideal (Sh2 n 128) .f32) (w0 : FVec Ideal (Sh2 128 128) .f32)
    (x1 : FVec Ideal (Sh2 n 128) .f32) (w1 : FVec Ideal (Sh2 128 128) .f32) : FVec Ideal (Sh2 n 128) .f32 :=
  addf
    (addf (broadcastTo (Sh2 n 128) (shapeCast T1x128 b hcb) hbt)
      (matmul d none (truncf .bf16 (shapeCast (Sh2 n 128) x0 hcx) hlt) (truncf .bf16 (shapeCast (Sh2 128 128) w0 hcw) hlt)
        (constant (F := Ideal) (Sh2 n 128) .f32 0x00000000#32)))
    (matmul d none (truncf .bf16 x1 hlt) (truncf .bf16 (shapeCast (Sh2 128 128) w1 hcw) hlt)
      (constant (F := Ideal) (Sh2 n 128) .f32 0x00000000#32))

/-- The column sums of y as one row, added onto the row z. -/
def kColSum (z : FVec Ideal T1x128 .f32) (y : FVec Ideal (Sh2 n 128) .f32) : FVec Ideal T1x128 .f32 :=
  addf (shapeCast T1x128 z hcb) (shapeCast T1x128 (multiReduction .add [0] T128 y 0x00000000#32 hred hφ hacc) hc')

variable {d hcb hcx hcw hlt hbt hred hφ hacc hc'}

theorem kAff_apply (hd : d = DotDims.plain n 128 128) (b : FVec Ideal T1x128 .f32) (x0 : FVec Ideal (Sh2 n 128) .f32)
    (w0 : FVec Ideal (Sh2 128 128) .f32) (x1 : FVec Ideal (Sh2 n 128) .f32) (w1 : FVec Ideal (Sh2 128 128) .f32)
    (p : Fin n) (q : Fin 128) :
    kAff d hcb hcx hcw hlt hbt b x0 w0 x1 w1 (ix2 p q)
      = (b (ix2 (0 : Fin 1) q) + ∑ k : Fin 128, x0 (ix2 p k) * w0 (ix2 k q)) + ∑ k : Fin 128, x1 (ix2 p k) * w1 (ix2 k q) := by
  subst hd
  unfold kAff
  rw [addf_apply, addf_apply]
  simp only [matmul]
  rw [Ideal.matmul_constant_zero_apply, Ideal.matmul_constant_zero_apply, plain_dot_apply', plain_dot_apply',
    broadcastTo_1b_ab_apply]
  rw [shapeCast_self, shapeCast_self, shapeCast_self, shapeCast_self]
  rfl

theorem kColSum_apply (z : FVec Ideal T1x128 .f32) (y : FVec Ideal (Sh2 n 128) .f32) (q : Fin 128) :
    kColSum hcb hred hφ hacc hc' z y (ix2 (0 : Fin 1) q) = z (ix2 (0 : Fin 1) q) + ∑ i : Fin n, y (ix2 i q) := by
  unfold kColSum
  rw [addf_apply, shapeCast_self, shapeCast_a_1a_apply, Ideal.multiReduction_add_single]
  congr 1
  exact Finset.sum_congr rfl fun k _ => congrArg y (lift_rows hred (ix1 q) k)

end KernelAff

end Cert.Val.Lab

end
-- ==== Proof.Val.LabK1.lean ====
/-
  The lab rows of the first graph layer in the kernel program, from the contents before the branch's weight slices
  to the contents after its rectified normalisation. The host cuts relation 0's two weight matrices out of the
  weight arrays and transposes them, and cuts out its bias row; the first region forms y = bias + mean·Wlᵀ + x·Wrᵀ
  together with the column sums of y and of y·y; the host turns the sums into the scale and the shift rows of the
  normalisation; the second region applies them and rectifies. Read at a row and a column this is the
  scale-and-shift form of the normalisation over the affine map.
-/
import proofs.«424088_j28020366639260_2_alg».proof.Proof.KI.Args
import proofs.«424088_j28020366639260_2_alg».proof.Proof.KI.V6
import proofs.«424088_j28020366639260_2_alg».proof.Proof.KI.V7
import proofs.«424088_j28020366639260_2_alg».proof.Proof.Val.LabTerms
import Idealize.ShloMosaic.Lib.StableHlo.Run

set_option maxRecDepth 16384
set_option maxHeartbeats 4000000

noncomputable section

namespace Cert.Val.Lab

open Cert.KernelIdeal Cert.KernelIdeal.Gen Cert.KernelIdeal.Hand
open Idealize.ShloMosaic Idealize.ShloMosaic.TcCoe Idealize.ShloMosaic.StableHlo Idealize.ShloMosaic.ValueIdx Idealize.SL.Sem
open Cert.Lib.ERealArith
open scoped BigOperators

/-! ## The weight stretch, at any contents -/

/-- The left weights as the region reads them: entry (k, q) is entry (q, k) of matrix (0, 0) of the weight array. -/
theorem lab1_wl (V : Valuation τ sig (Elt Ideal)) (k q : Fin 128) :
    (StableHlo.after hostOps6 V (Proc.devRef .tc main_v227) : (Sh2 128 128).Idx → EReal) (ix2 k q)
      = (V (Proc.devRef .tc main_arg12) : (⟨4, ![2, 6, 128, 128]⟩ : Shape).Idx → EReal) (ix4 (0 : Fin 2) (0 : Fin 6) q k) := by
  have e : (StableHlo.after hostOps6 V (Proc.devRef .tc main_v227) : (Sh2 128 128).Idx → EReal)
      = transpose (Sh2 128 128) [1, 0]
          (shapeCast (Sh2 128 128) (extractStridedSlice ⟨4, ![1, 1, 128, 128]⟩ ![0, 0, 0, 0]
            (V (Proc.devRef .tc main_arg12)) slices_S2x6x128x128_S1x1x128x128_0_0_0_0) shapeCasts_S1x1x128x128_S128x128)
          transposes_S128x128_S128x128_1_0 := by
    after_results_simp
    rfl
  rw [e, transpose_sq_apply, mat_slice_apply 0 0 (by decide) (by decide)]
  rfl

/-- The right weights likewise. -/
theorem lab1_wr (V : Valuation τ sig (Elt Ideal)) (k q : Fin 128) :
    (StableHlo.after hostOps6 V (Proc.devRef .tc main_v230) : (Sh2 128 128).Idx → EReal) (ix2 k q)
      = (V (Proc.devRef .tc main_arg14) : (⟨4, ![2, 6, 128, 128]⟩ : Shape).Idx → EReal) (ix4 (0 : Fin 2) (0 : Fin 6) q k) := by
  have e : (StableHlo.after hostOps6 V (Proc.devRef .tc main_v230) : (Sh2 128 128).Idx → EReal)
      = transpose (Sh2 128 128) [1, 0]
          (shapeCast (Sh2 128 128) (extractStridedSlice ⟨4, ![1, 1, 128, 128]⟩ ![0, 0, 0, 0]
            (V (Proc.devRef .tc main_arg14)) slices_S2x6x128x128_S1x1x128x128_0_0_0_0) shapeCasts_S1x1x128x128_S128x128)
          transposes_S128x128_S128x128_1_0 := by
    after_results_simp
    rfl
  rw [e, transpose_sq_apply, mat_slice_apply 0 0 (by decide) (by decide)]
  rfl

/-- The bias row: entry q is entry (0, 0, q) of the bias array. -/
theorem lab1_b (V : Valuation τ sig (Elt Ideal)) (q : Fin 128) :
    (StableHlo.after hostOps6 V (Proc.devRef .tc main_v233) : T1x128.Idx → EReal) (ix2 (0 : Fin 1) q)
      = (V (Proc.devRef .tc main_arg13) : (⟨3, ![2, 6, 128]⟩ : Shape).Idx → EReal) (ix3 (0 : Fin 2) (0 : Fin 6) q) := by
  have e : (StableHlo.after hostOps6 V (Proc.devRef .tc main_v233) : T1x128.Idx → EReal)
      = shapeCast T1x128 (shapeCast T128 (extractStridedSlice ⟨3, ![1, 1, 128]⟩ ![0, 0, 0]
            (V (Proc.devRef .tc main_arg13)) slices_S2x6x128_S1x1x128_0_0_0) shapeCasts_S1x1x128_S128) shapeCasts_S128_S1x128 := by
    after_results_simp
    rfl
  rw [e, shapeCast_a_1a_apply, vec_slice_apply 0 0 (by decide) (by decide)]
  rfl

/-! ## The normalisation stretch, at any contents -/

/-- The gain row of the lab normalisation of layer 0, cut out of the gain array. -/
abbrev lab1_g (V : Valuation τ sig (Elt Ideal)) : FVec Ideal T128 .f32 :=
  shapeCast T128 (extractStridedSlice ⟨3, ![1, 1, 128]⟩ ![0, 1, 0] (V (Proc.devRef .tc main_arg15))
    slices_S2x4x128_S1x1x128_0_1_0) shapeCasts_S1x1x128_S128
/-- The offset row likewise. -/
abbrev lab1_β (V : Valuation τ sig (Elt Ideal)) : FVec Ideal T128 .f32 :=
  shapeCast T128 (extractStridedSlice ⟨3, ![1, 1, 128]⟩ ![0, 1, 0] (V (Proc.devRef .tc main_arg16))
    slices_S2x4x128_S1x1x128_0_1_0) shapeCasts_S1x1x128_S128

/-- The scale row the host leaves for the second region. -/
theorem lab1_scale (V : Valuation τ sig (Elt Ideal)) :
    (StableHlo.after hostOps7 V (Proc.devRef .tc main_v253) : T1x128.Idx → EReal)
      = shapeCast T1x128 (kScale shapeCasts_S1x128_S128 bcast_S_S128 0x44FA0000#32
          (V (Proc.devRef .tc main_v234_1)) (V (Proc.devRef .tc main_v234_2)) (lab1_g V)) shapeCasts_S128_S1x128 := by
  after_results_simp
  rfl

/-- The shift row. -/
theorem lab1_shift (V : Valuation τ sig (Elt Ideal)) :
    (StableHlo.after hostOps7 V (Proc.devRef .tc main_v254) : T1x128.Idx → EReal)
      = shapeCast T1x128 (kShift shapeCasts_S1x128_S128 bcast_S_S128 0x44FA0000#32
          (V (Proc.devRef .tc main_v234_1)) (V (Proc.devRef .tc main_v234_2)) (lab1_g V) (lab1_β V)) shapeCasts_S128_S1x128 := by
  after_results_simp
  rfl

/-! ## The branch -/

/-- A column's lane in the one-row arrays. -/
theorem lab1_lane (p : Fin 2000) (q : Fin 128) : lane7 (ix2 p q) = ix2 (0 : Fin 1) q := by
  funext a
  match a with
  | ⟨0, _⟩ => rfl
  | ⟨1, _⟩ => rfl

/-- The row count as the host's literal. -/
theorem lab1_N : Ideal.ofBits .f32 0x44FA0000#32 = ((((2000 : ℕ) : ℝ)) : EReal) := by
  rw [ofBits_2000]; norm_num

variable (m : (ℓ : Loc nD τ sig) → Buf (Elt Ideal) ℓ) (ρ : Dev nD → PrngReg)

/-- What the first region leaves: the matrix y, the row of its column sums, the row of the column sums of y·y. -/
abbrev lab1_Y (c : Dev nD) : (Sh2 2000 128).Idx → EReal := W13 m ρ c (Proc.devRef .tc main_v234_0)
abbrev lab1_S (c : Dev nD) : T1x128.Idx → EReal := W13 m ρ c (Proc.devRef .tc main_v234_1)
abbrev lab1_Q (c : Dev nD) : T1x128.Idx → EReal := W13 m ρ c (Proc.devRef .tc main_v234_2)

/-- What the first region leaves in its first output array: the affine map of the entry arrays, at (p, q). -/
theorem lab1_y (c : Dev nD) (p : Fin 2000) (q : Fin 128) :
    lab1_Y m ρ c (ix2 p q)
      = affC (0 : Fin 2) (0 : Fin 6) (coords (W11 m ρ c (Proc.devRef .tc main_v149))) (coords (W11 m ρ c (Proc.devRef .tc main_arg1)))
          (W11 m ρ c (Proc.devRef .tc main_arg12)) (W11 m ρ c (Proc.devRef .tc main_arg14)) (W11 m ρ c (Proc.devRef .tc main_arg13)) p q := by
  have hY : lab1_Y m ρ c = Y6 (VE6 m ρ) c :=
    (Wexit6_arr m ρ c 5).trans (arrAt6_5_exact (VE6 m ρ) c)
  rw [hY, Y6_exact]
  unfold affC
  have hb : in6_4 (VE6 m ρ) c (ix2 0 q) = (W11 m ρ c (Proc.devRef .tc main_arg13) : (⟨3, ![2, 6, 128]⟩ : Shape).Idx → EReal) (ix3 (0 : Fin 2) (0 : Fin 6) q) :=
    (congrFun (congrFun (W12_eq m ρ c) (Proc.devRef .tc main_v233)) (ix2 0 q)).trans (lab1_b (W11 m ρ c) q)
  have hwl : ∀ k : Fin 128, in6_2 (VE6 m ρ) c (ix2 k q) = (W11 m ρ c (Proc.devRef .tc main_arg12) : (⟨4, ![2, 6, 128, 128]⟩ : Shape).Idx → EReal) (ix4 (0 : Fin 2) (0 : Fin 6) q k) :=
    fun k => (congrFun (congrFun (W12_eq m ρ c) (Proc.devRef .tc main_v227)) (ix2 k q)).trans (lab1_wl (W11 m ρ c) k q)
  have hwr : ∀ k : Fin 128, in6_3 (VE6 m ρ) c (ix2 k q) = (W11 m ρ c (Proc.devRef .tc main_arg14) : (⟨4, ![2, 6, 128, 128]⟩ : Shape).Idx → EReal) (ix4 (0 : Fin 2) (0 : Fin 6) q k) :=
    fun k => (congrFun (congrFun (W12_eq m ρ c) (Proc.devRef .tc main_v230)) (ix2 k q)).trans (lab1_wr (W11 m ρ c) k q)
  have hA : (in6_0 (VE6 m ρ) c : (Sh2 2000 128).Idx → EReal) = W11 m ρ c (Proc.devRef .tc main_v149) :=
    W12_of m ρ c main_v149 (by decide)
  have hB : (in6_1 (VE6 m ρ) c : (Sh2 2000 128).Idx → EReal) = W11 m ρ c (Proc.devRef .tc main_arg1) :=
    W12_of m ρ c main_arg1 (by decide)
  rw [hb, hA, hB]
  simp only [hwl, hwr]

/-- THE LAB BRANCH OF LAYER 0 in the kernel program. -/
theorem K_lab1 (c : Dev nD) :
    (W15 m ρ c (Proc.devRef .tc main_v255) : (Sh2 2000 128).Idx → EReal)
      = bnK (((2000 : ℕ) : ℝ) : EReal) ((eps5 : ℝ) : EReal) (0 : Fin 2) (1 : Fin 4)
          (aff (0 : Fin 2) (0 : Fin 6) (W11 m ρ c (Proc.devRef .tc main_v149)) (W11 m ρ c (Proc.devRef .tc main_arg1))
            (W11 m ρ c (Proc.devRef .tc main_arg12) : FVec Ideal S2x6x128x128 .f32) (W11 m ρ c (Proc.devRef .tc main_arg14) : FVec Ideal S2x6x128x128 .f32) (W11 m ρ c (Proc.devRef .tc main_arg13) : FVec Ideal S2x6x128 .f32))
          (W11 m ρ c (Proc.devRef .tc main_arg15) : FVec Ideal S2x4x128 .f32) (W11 m ρ c (Proc.devRef .tc main_arg16) : FVec Ideal S2x4x128 .f32) := by
  funext j
  obtain ⟨p, q, rfl⟩ : ∃ (p : Fin 2000) (q : Fin 128), j = ix2 p q := ⟨j 0, j 1, eq_ix2 j⟩
  -- the first region's three arrays, as the normalisation stretch and the second region find them
  have hY : lab1_Y m ρ c = Y6 (VE6 m ρ) c :=
    (Wexit6_arr m ρ c 5).trans (arrAt6_5_exact (VE6 m ρ) c)
  have hs : ∀ q' : Fin 128, lab1_S m ρ c (ix2 (0 : Fin 1) q')
      = (0 : EReal) + ∑ i : Fin 2000, lab1_Y m ρ c (ix2 i q') := fun q' => by
    rw [hY]
    exact (congrFun (Wexit6_arr m ρ c 6) (ix2 0 q')).trans (arrAt6_6_exact (VE6 m ρ) c (ix2 0 q'))
  have hsq : ∀ q' : Fin 128, lab1_Q m ρ c (ix2 (0 : Fin 1) q')
      = (0 : EReal) + ∑ i : Fin 2000, lab1_Y m ρ c (ix2 i q')
          * lab1_Y m ρ c (ix2 i q') := fun q' => by
    rw [hY]
    exact (congrFun (Wexit6_arr m ρ c 7) (ix2 0 q')).trans (arrAt6_7_exact (VE6 m ρ) c (ix2 0 q'))
  -- the second region's output at (p, q)
  have h7 := (congrFun (Wexit7_arr m ρ c 3) (ix2 p q)).trans (arrAt7_3_ideal (VE7 m ρ) c (ix2 p q))
  have hy7 : (inY7 (VE7 m ρ) c : (Sh2 2000 128).Idx → EReal) = lab1_Y m ρ c :=
    W14_of m ρ c main_v234_0 (by decide)
  have hsc : (inSc7 (VE7 m ρ) c : T1x128.Idx → EReal) = _ :=
    (congrFun (W14_eq m ρ c) (Proc.devRef .tc main_v253)).trans (lab1_scale (W13 m ρ c))
  have hsf : (inSf7 (VE7 m ρ) c : T1x128.Idx → EReal) = _ :=
    (congrFun (W14_eq m ρ c) (Proc.devRef .tc main_v254)).trans (lab1_shift (W13 m ρ c))
  rw [lab1_lane, hy7, hsc, hsf] at h7
  refine h7.trans ?_
  rw [kBN_apply 0x44FA0000#32 _ lab1_N _ _ _ hs hsq]
  -- the two sides are the same scale-and-shift form: the same matrix, the same gain and offset rows
  show bnKC _ _ _ _ _ p q = bnKC _ _ _ _ _ p q
  have hyc : coords (lab1_Y m ρ c)
      = coords (aff (0 : Fin 2) (0 : Fin 6) (W11 m ρ c (Proc.devRef .tc main_v149)) (W11 m ρ c (Proc.devRef .tc main_arg1))
          (W11 m ρ c (Proc.devRef .tc main_arg12)) (W11 m ρ c (Proc.devRef .tc main_arg14)) (W11 m ρ c (Proc.devRef .tc main_arg13))) :=
    funext fun p' => funext fun q' => lab1_y m ρ c p' q'
  have h15 : (W13 m ρ c (Proc.devRef .tc main_arg15) : (⟨3, ![2, 4, 128]⟩ : Shape).Idx → EReal) = W11 m ρ c (Proc.devRef .tc main_arg15) :=
    (Wexit6_keep m ρ c main_arg15 (by decide)).trans (W12_of m ρ c main_arg15 (by decide))
  have h16 : (W13 m ρ c (Proc.devRef .tc main_arg16) : (⟨3, ![2, 4, 128]⟩ : Shape).Idx → EReal) = W11 m ρ c (Proc.devRef .tc main_arg16) :=
    (Wexit6_keep m ρ c main_arg16 (by decide)).trans (W12_of m ρ c main_arg16 (by decide))
  have hg : (fun q' : Fin 128 => lab1_g (W13 m ρ c) (ix1 q'))
      = fun q' => (W11 m ρ c (Proc.devRef .tc main_arg15) : (⟨3, ![2, 4, 128]⟩ : Shape).Idx → EReal) (ix3 (0 : Fin 2) (1 : Fin 4) q') :=
    funext fun q' => by rw [← h15]; exact vec_slice_apply 0 1 (by decide) (by decide) _ _ _ q'
  have hβ : (fun q' : Fin 128 => lab1_β (W13 m ρ c) (ix1 q'))
      = fun q' => (W11 m ρ c (Proc.devRef .tc main_arg16) : (⟨3, ![2, 4, 128]⟩ : Shape).Idx → EReal) (ix3 (0 : Fin 2) (1 : Fin 4) q') :=
    funext fun q' => by rw [← h16]; exact vec_slice_apply 0 1 (by decide) (by decide) _ _ _ q'
  rw [hyc, hg, hβ]

end Cert.Val.Lab

end
-- ==== Proof.KI.V8.lean ====
/- Region 8 of the kernel program: what its three output arrays hold after the region, each as ONE
   whole-array function of the arrays the region is entered with.

   The grid has one point and every window's one block is its whole array, so the array after the
   region is what the body left in the window's buffer: y = b + x0·w0 + x1·w1 (window 5), the column
   sums of y added onto a zero row (window 6), the column sums of y·y added onto a zero row (window 7),
   stated through the body's payloads applied to the whole entry arrays (any float semantics), and then,
   at the exact values, index by index over the extended reals: the products as sums over the 128
   contraction coordinates, the column sums as sums over the rows. -/
import proofs.«424088_j28020366639260_2_alg».proof.Proof.KI.R8
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The outputs' buffers after the body, as the payloads of the whole input blocks -/

theorem hz8 : (![0, 0] : Fin 2 → Nat) = fun _ => 0 := funext fun a => by fin_cases a <;> rfl

/-- Window 5's buffer: `y` of the blocks. -/
theorem out8_5_eq (x0 x1 : Vec F S5000x128 .f32) (x2 x3 : Vec F S128x128 .f32) (x4 : Vec F S1x128 .f32) :
    out8_5 x0 x1 x2 x3 x4 = k8_pay4 x4 x0 x2 x1 x3 := by
  unfold out8_5 y8
  rw [View.canon_unit_zero hz8]
  simp only [View.ld_unit_zero (S := S5000x128) hz8, View.ld_unit_zero (S := S128x128) hz8, View.ld_unit_zero (S := S1x128) hz8]

/-- Window 6's buffer: the column sums of `y` added onto the zero row. -/
theorem out8_6_eq (x0 x1 : Vec F S5000x128 .f32) (x2 x3 : Vec F S128x128 .f32) (x4 : Vec F S1x128 .f32) :
    out8_6 x0 x1 x2 x3 x4 = k8_pay6 x4 x0 x2 x1 x3 (k8_pay2 (F := F)) := by
  unfold out8_6
  rw [View.canon_cons_unit_zero hz8]
  simp only [View.ld_unit_zero (S := S5000x128) hz8, View.ld_unit_zero (S := S128x128) hz8, View.ld_unit_zero (S := S1x128) hz8]

/-- Window 7's buffer: the column sums of `y·y` added onto the zero row. -/
theorem out8_7_eq (x0 x1 : Vec F S5000x128 .f32) (x2 x3 : Vec F S128x128 .f32) (x4 : Vec F S1x128 .f32) :
    out8_7 x0 x1 x2 x3 x4 = k8_pay1 (k8_pay5 x4 x0 x2 x1 x3) (k8_pay3 (F := F)) := by
  unfold out8_7
  rw [View.canon_cons_unit_zero hz8]
  simp only [View.ld_unit_zero (S := S5000x128) hz8, View.ld_unit_zero (S := S128x128) hz8, View.ld_unit_zero (S := S1x128) hz8]

/-! ## Each window's one block is its whole array -/

/-- The region's array of window `w` as the region finds it. -/
abbrev A8 (c : Dev nD) (w : Fin cfg8.W) : Buf (Elt F) ((c : Thread nD τ).loc (Pipeline.arrRef spec8 w)) := V c (Pipeline.arrRef spec8 w)

theorem iblk8_0_eq (c : Dev nD) (t : Fin cfg8.N) : (iblk8 V c 0 t : Vec F S5000x128 .f32) = A8 V c 0 := by
  obtain rfl := fin_N8 t
  unfold iblk8
  have hz' : (fun a => win8_0.index t8_0 a * (Pipeline.arrRef spec8 0).ty.shape.size a) = fun _ => 0 :=
    funext fun a => by fin_cases a <;> decide
  exact Memref.read_access_unit_zero (Elt F) (Pipeline.arrRef spec8 0) hz' (fun a => by rw [congrFun hz' a]; simp) _
theorem iblk8_1_eq (c : Dev nD) (t : Fin cfg8.N) : (iblk8 V c 1 t : Vec F S5000x128 .f32) = A8 V c 1 := by
  obtain rfl := fin_N8 t
  unfold iblk8
  have hz' : (fun a => win8_1.index t8_0 a * (Pipeline.arrRef spec8 1).ty.shape.size a) = fun _ => 0 :=
    funext fun a => by fin_cases a <;> decide
  exact Memref.read_access_unit_zero (Elt F) (Pipeline.arrRef spec8 1) hz' (fun a => by rw [congrFun hz' a]; simp) _
theorem iblk8_2_eq (c : Dev nD) (t : Fin cfg8.N) : (iblk8 V c 2 t : Vec F S128x128 .f32) = A8 V c 2 := by
  obtain rfl := fin_N8 t
  unfold iblk8
  have hz' : (fun a => win8_2.index t8_0 a * (Pipeline.arrRef spec8 2).ty.shape.size a) = fun _ => 0 :=
    funext fun a => by fin_cases a <;> decide
  exact Memref.read_access_unit_zero (Elt F) (Pipeline.arrRef spec8 2) hz' (fun a => by rw [congrFun hz' a]; simp) _
theorem iblk8_3_eq (c : Dev nD) (t : Fin cfg8.N) : (iblk8 V c 3 t : Vec F S128x128 .f32) = A8 V c 3 := by
  obtain rfl := fin_N8 t
  unfold iblk8
  have hz' : (fun a => win8_3.index t8_0 a * (Pipeline.arrRef spec8 3).ty.shape.size a) = fun _ => 0 :=
    funext fun a => by fin_cases a <;> decide
  exact Memref.read_access_unit_zero (Elt F) (Pipeline.arrRef spec8 3) hz' (fun a => by rw [congrFun hz' a]; simp) _
theorem iblk8_4_eq (c : Dev nD) (t : Fin cfg8.N) : (iblk8 V c 4 t : Vec F S1x128 .f32) = A8 V c 4 := by
  obtain rfl := fin_N8 t
  unfold iblk8
  have hz' : (fun a => win8_4.index t8_0 a * (Pipeline.arrRef spec8 4).ty.shape.size a) = fun _ => 0 :=
    funext fun a => by fin_cases a <;> decide
  exact Memref.read_access_unit_zero (Elt F) (Pipeline.arrRef spec8 4) hz' (fun a => by rw [congrFun hz' a]; simp) _

/-! ## The arrays after the region -/

/-- What the region leaves in window 5's array: `y` of the entry arrays. -/
abbrev G8_5 (c : Dev nD) : Buf (Elt F) ((c : Thread nD τ).loc (Pipeline.arrRef spec8 5)) :=
  k8_pay4 (A8 V c 4) (A8 V c 0) (A8 V c 2) (A8 V c 1) (A8 V c 3)
/-- in window 6's: the column sums of `y` added onto the zero row; -/
abbrev G8_6 (c : Dev nD) : Buf (Elt F) ((c : Thread nD τ).loc (Pipeline.arrRef spec8 6)) :=
  k8_pay6 (A8 V c 4) (A8 V c 0) (A8 V c 2) (A8 V c 1) (A8 V c 3) (k8_pay2 (F := F))
/-- in window 7's: the column sums of `y·y` added onto the zero row. -/
abbrev G8_7 (c : Dev nD) : Buf (Elt F) ((c : Thread nD τ).loc (Pipeline.arrRef spec8 7)) :=
  k8_pay1 (k8_pay5 (A8 V c 4) (A8 V c 0) (A8 V c 2) (A8 V c 1) (A8 V c 3)) (k8_pay3 (F := F))

/-- The one write-back of window 5 writes it: the block at zero offsets is the array. -/
theorem flushed8_5 (c : Dev nD) (t : Fin cfg8.N) :
    (dat8 V c).flushed 5 t = ((cfg8.win 5).blk t).view.read (Elt F) (G8_5 V c) := by
  obtain rfl := fin_N8 t
  show (cfg8.win 5).cut (grid8.coords t8_0) ((dat8 V c).after 5 t8_0) = _
  rw [after8_5, out8_5_eq, iblk8_0_eq, iblk8_1_eq, iblk8_2_eq, iblk8_3_eq, iblk8_4_eq]
  have hz' : (fun a => win8_5.index t8_0 a * (Pipeline.arrRef spec8 5).ty.shape.size a) = fun _ => 0 :=
    funext fun a => by fin_cases a <;> decide
  exact (Memref.read_access_unit_zero (Elt F) (Pipeline.arrRef spec8 5) hz' (fun a => by rw [congrFun hz' a]; simp) (G8_5 V c)).symm

/-- Its one block covers the array. -/
theorem covers8_5 (c : Dev nD) (i : ((cfg8.win 5).arr.view.loc (c.tc : Thread nD τ)).2.ty.Idx) :
    ∃ t : Fin cfg8.N, (cfg8.win 5).flush t = true ∧ i ∈ ((cfg8.win 5).blk t).view.set := by
  refine ⟨t8_0, flush8_5 t8_0, ?_⟩
  show i ∈ ((View.whole (Pipeline.arrRef spec8 5)).slice (win8_5.rect t8_0)).set
  rw [View.set_slice_whole, Rect.mem_set_unit]
  intro a
  have h0 : win8_5.index t8_0 a * win8_5.size a = 0 := by fin_cases a <;> decide
  have h1 : win8_5.xsize (grid8.coords t8_0) a = (Pipeline.arrRef spec8 5).ty.shape.size a := by fin_cases a <;> decide
  show win8_5.index t8_0 a * win8_5.size a ≤ (i a : Nat) ∧ (i a : Nat) < win8_5.index t8_0 a * win8_5.size a + win8_5.xsize (grid8.coords t8_0) a
  rw [h0, h1]
  exact ⟨Nat.zero_le _, by simpa using (i a).isLt⟩

/-- THE VALUE of window 5's array after the region. -/
theorem arrAt8_5 (c : Dev nD) : (dat8 V c).arrAt 5 cfg8.N = G8_5 V c :=
  (dat8 V c).arrAt_eq_of_cover 5 (G8_5 V c) (fun t _ => flushed8_5 V c t) (covers8_5 c)

/-- The one write-back of window 6 writes it: the block at zero offsets is the array. -/
theorem flushed8_6 (c : Dev nD) (t : Fin cfg8.N) :
    (dat8 V c).flushed 6 t = ((cfg8.win 6).blk t).view.read (Elt F) (G8_6 V c) := by
  obtain rfl := fin_N8 t
  show (cfg8.win 6).cut (grid8.coords t8_0) ((dat8 V c).after 6 t8_0) = _
  rw [after8_6, out8_6_eq, iblk8_0_eq, iblk8_1_eq, iblk8_2_eq, iblk8_3_eq, iblk8_4_eq]
  have hz' : (fun a => win8_6.index t8_0 a * (Pipeline.arrRef spec8 6).ty.shape.size a) = fun _ => 0 :=
    funext fun a => by fin_cases a <;> decide
  exact (Memref.read_access_unit_zero (Elt F) (Pipeline.arrRef spec8 6) hz' (fun a => by rw [congrFun hz' a]; simp) (G8_6 V c)).symm

/-- Its one block covers the array. -/
theorem covers8_6 (c : Dev nD) (i : ((cfg8.win 6).arr.view.loc (c.tc : Thread nD τ)).2.ty.Idx) :
    ∃ t : Fin cfg8.N, (cfg8.win 6).flush t = true ∧ i ∈ ((cfg8.win 6).blk t).view.set := by
  refine ⟨t8_0, flush8_6 t8_0, ?_⟩
  show i ∈ ((View.whole (Pipeline.arrRef spec8 6)).slice (win8_6.rect t8_0)).set
  rw [View.set_slice_whole, Rect.mem_set_unit]
  intro a
  have h0 : win8_6.index t8_0 a * win8_6.size a = 0 := by fin_cases a <;> decide
  have h1 : win8_6.xsize (grid8.coords t8_0) a = (Pipeline.arrRef spec8 6).ty.shape.size a := by fin_cases a <;> decide
  show win8_6.index t8_0 a * win8_6.size a ≤ (i a : Nat) ∧ (i a : Nat) < win8_6.index t8_0 a * win8_6.size a + win8_6.xsize (grid8.coords t8_0) a
  rw [h0, h1]
  exact ⟨Nat.zero_le _, by simpa using (i a).isLt⟩

/-- THE VALUE of window 6's array after the region. -/
theorem arrAt8_6 (c : Dev nD) : (dat8 V c).arrAt 6 cfg8.N = G8_6 V c :=
  (dat8 V c).arrAt_eq_of_cover 6 (G8_6 V c) (fun t _ => flushed8_6 V c t) (covers8_6 c)

/-- The one write-back of window 7 writes it: the block at zero offsets is the array. -/
theorem flushed8_7 (c : Dev nD) (t : Fin cfg8.N) :
    (dat8 V c).flushed 7 t = ((cfg8.win 7).blk t).view.read (Elt F) (G8_7 V c) := by
  obtain rfl := fin_N8 t
  show (cfg8.win 7).cut (grid8.coords t8_0) ((dat8 V c).after 7 t8_0) = _
  rw [after8_7, out8_7_eq, iblk8_0_eq, iblk8_1_eq, iblk8_2_eq, iblk8_3_eq, iblk8_4_eq]
  have hz' : (fun a => win8_7.index t8_0 a * (Pipeline.arrRef spec8 7).ty.shape.size a) = fun _ => 0 :=
    funext fun a => by fin_cases a <;> decide
  exact (Memref.read_access_unit_zero (Elt F) (Pipeline.arrRef spec8 7) hz' (fun a => by rw [congrFun hz' a]; simp) (G8_7 V c)).symm

/-- Its one block covers the array. -/
theorem covers8_7 (c : Dev nD) (i : ((cfg8.win 7).arr.view.loc (c.tc : Thread nD τ)).2.ty.Idx) :
    ∃ t : Fin cfg8.N, (cfg8.win 7).flush t = true ∧ i ∈ ((cfg8.win 7).blk t).view.set := by
  refine ⟨t8_0, flush8_7 t8_0, ?_⟩
  show i ∈ ((View.whole (Pipeline.arrRef spec8 7)).slice (win8_7.rect t8_0)).set
  rw [View.set_slice_whole, Rect.mem_set_unit]
  intro a
  have h0 : win8_7.index t8_0 a * win8_7.size a = 0 := by fin_cases a <;> decide
  have h1 : win8_7.xsize (grid8.coords t8_0) a = (Pipeline.arrRef spec8 7).ty.shape.size a := by fin_cases a <;> decide
  show win8_7.index t8_0 a * win8_7.size a ≤ (i a : Nat) ∧ (i a : Nat) < win8_7.index t8_0 a * win8_7.size a + win8_7.xsize (grid8.coords t8_0) a
  rw [h0, h1]
  exact ⟨Nat.zero_le _, by simpa using (i a).isLt⟩

/-- THE VALUE of window 7's array after the region. -/
theorem arrAt8_7 (c : Dev nD) : (dat8 V c).arrAt 7 cfg8.N = G8_7 V c :=
  (dat8 V c).arrAt_eq_of_cover 7 (G8_7 V c) (fun t _ => flushed8_7 V c t) (covers8_7 c)

/-! ## At the exact values (F := Ideal): the payloads index by index, over the extended reals -/

section Exact
open Idealize.ShloMosaic.ValueIdx

/-- The dimension numbers of the body's two products: rows × (128 × 128). -/
abbrev dot8 : DotDims S5000x128 S128x128 S5000x128 := dot_S5000x128_S128x128_S5000x128_1_0_0_1_n_n

/-- `y` at an index: the bias at the column, plus the two products' sums over the contraction index. -/
theorem k8_pay4_exact (b : Vec Ideal S1x128 .f32) (x0 : Vec Ideal S5000x128 .f32) (w0 : Vec Ideal S128x128 .f32)
    (x1 : Vec Ideal S5000x128 .f32) (w1 : Vec Ideal S128x128 .f32) (j : S5000x128.Idx) :
    k8_pay4 (F := Ideal) b x0 w0 x1 w1 j
      = (broadcastTo S5000x128 b broadcasts_S1x128_S5000x128 j + ∑ q : dot8.contr.Idx, x0 (dot8.lhsIdx j q) * w0 (dot8.rhsIdx j q))
        + ∑ q : dot8.contr.Idx, x1 (dot8.lhsIdx j q) * w1 (dot8.rhsIdx j q) := by
  unfold k8_pay4
  simp only [shapeCast_self, matmul]
  rw [addf_apply, addf_apply, Ideal.matmul_constant_zero_apply, Ideal.matmul_constant_zero_apply]
  simp only [truncf_apply]

/-- The zero rows the body stores first. -/
theorem k8_pay2_exact (j : S1x128.Idx) : k8_pay2 (F := Ideal) j = 0 := by
  unfold k8_pay2; exact Ideal.ofBits_zero_f32
theorem k8_pay3_exact (j : S1x128.Idx) : k8_pay3 (F := Ideal) j = 0 := by
  unfold k8_pay3; exact Ideal.ofBits_zero_f32

/-- The column sums of `y` added onto the row read back. -/
theorem k8_pay6_exact (b : Vec Ideal S1x128 .f32) (x0 : Vec Ideal S5000x128 .f32) (w0 : Vec Ideal S128x128 .f32)
    (x1 : Vec Ideal S5000x128 .f32) (w1 : Vec Ideal S128x128 .f32) (z : Vec Ideal S1x128 .f32) (j : S1x128.Idx) :
    k8_pay6 (F := Ideal) b x0 w0 x1 w1 z j
      = z j + ∑ r : Fin (S5000x128.size 0), k8_pay4 (F := Ideal) b x0 w0 x1 w1 (reduces_S5000x128_S128.lift (fun a => j a.succ) r) := by
  unfold k8_pay6
  simp only [shapeCast_self]
  rw [addf_apply, shapeCast_addUnit_apply (n := 1) ![128]]
  exact congrArg (z j + ·) (Ideal.multiReduction_add_single _ _ reduces_S5000x128_S128 _ _ _)

/-- The column sums of `y·y`. -/
theorem k8_pay5_exact (b : Vec Ideal S1x128 .f32) (x0 : Vec Ideal S5000x128 .f32) (w0 : Vec Ideal S128x128 .f32)
    (x1 : Vec Ideal S5000x128 .f32) (w1 : Vec Ideal S128x128 .f32) (j : S1x128.Idx) :
    k8_pay5 (F := Ideal) b x0 w0 x1 w1 j
      = ∑ r : Fin (S5000x128.size 0), k8_pay4 (F := Ideal) b x0 w0 x1 w1 (reduces_S5000x128_S128.lift (fun a => j a.succ) r)
          * k8_pay4 (F := Ideal) b x0 w0 x1 w1 (reduces_S5000x128_S128.lift (fun a => j a.succ) r) := by
  unfold k8_pay5
  rw [shapeCast_addUnit_apply (n := 1) ![128]]
  exact Ideal.multiReduction_add_single _ _ reduces_S5000x128_S128 _ _ _

/-- They are added onto the row read back. -/
theorem k8_pay1_exact (s : Vec Ideal S1x128 .f32) (z : Vec Ideal S1x128 .f32) (j : S1x128.Idx) :
    k8_pay1 (F := Ideal) s z j = z j + s j := by
  unfold k8_pay1
  simp only [shapeCast_self]
  rw [addf_apply]

/-! ### The indices, by coordinates -/

/-- The row index a column sum runs over, put back beside the column. -/
theorem lift8_eq (j : S1x128.Idx) (r : Fin (S5000x128.size 0)) :
    reduces_S5000x128_S128.lift (fun a => j a.succ) r = ix2 r (j 1) := by
  funext a
  match a with
  | ⟨0, _⟩ => rfl
  | ⟨1, _⟩ => rfl

/-- The bias row's index under the broadcast. -/
theorem brow8_eq (b : Vec Ideal S1x128 .f32) (j : S5000x128.Idx) :
    broadcastTo S5000x128 b broadcasts_S1x128_S5000x128 j = b (ix2 0 (j 1)) := by
  refine broadcastTo_apply b _ j (ix2 0 (j 1)) fun a => ?_
  match a with
  | ⟨0, _⟩ => rfl
  | ⟨1, _⟩ => rfl

/-- The products' contraction index is its one coordinate. -/
abbrev ce8 : dot8.contr.Idx ≃ Fin 128 := contrEquiv1 dot8 128 rfl rfl

/-- The left operand is read at (row, contraction coordinate), -/
theorem dot8_lhs (j : S5000x128.Idx) (k : Fin 128) : dot8.lhsIdx j (ce8.symm k) = ix2 (j 0) k := by
  funext a
  match a with
  | ⟨0, _⟩ => rfl
  | ⟨1, _⟩ => rfl

/-- the right operand at (contraction coordinate, column). -/
theorem dot8_rhs (j : S5000x128.Idx) (k : Fin 128) : dot8.rhsIdx j (ce8.symm k) = ix2 k (j 1) := by
  funext a
  match a with
  | ⟨0, _⟩ => rfl
  | ⟨1, _⟩ => rfl

/-- A product's sum over the contraction index is the sum over its coordinate. -/
theorem dot8_sum (x : Vec Ideal S5000x128 .f32) (w : Vec Ideal S128x128 .f32) (j : S5000x128.Idx) :
    ∑ q : dot8.contr.Idx, x (dot8.lhsIdx j q) * w (dot8.rhsIdx j q) = ∑ k : Fin 128, x (ix2 (j 0) k) * w (ix2 k (j 1)) := by
  rw [← Equiv.sum_comp ce8.symm]
  exact Finset.sum_congr rfl fun k _ => by rw [dot8_lhs, dot8_rhs]; rfl

/-- `y` at (row, column): the bias at the column plus the two products' sums over the 128 contraction coordinates. -/
theorem y8_exact (b : Vec Ideal S1x128 .f32) (x0 : Vec Ideal S5000x128 .f32) (w0 : Vec Ideal S128x128 .f32)
    (x1 : Vec Ideal S5000x128 .f32) (w1 : Vec Ideal S128x128 .f32) (j : S5000x128.Idx) :
    k8_pay4 (F := Ideal) b x0 w0 x1 w1 j
      = (b (ix2 0 (j 1)) + ∑ k : Fin 128, x0 (ix2 (j 0) k) * w0 (ix2 k (j 1)))
        + ∑ k : Fin 128, x1 (ix2 (j 0) k) * w1 (ix2 k (j 1)) := by
  rw [k8_pay4_exact, brow8_eq, dot8_sum, dot8_sum]

/-- The column sums of `y` on the zero row, at a column: zero plus the sum over the rows. -/
theorem sum8_exact (b : Vec Ideal S1x128 .f32) (x0 : Vec Ideal S5000x128 .f32) (w0 : Vec Ideal S128x128 .f32)
    (x1 : Vec Ideal S5000x128 .f32) (w1 : Vec Ideal S128x128 .f32) (j : S1x128.Idx) :
    k8_pay6 (F := Ideal) b x0 w0 x1 w1 (k8_pay2 (F := Ideal)) j
      = 0 + ∑ r : Fin 5000, k8_pay4 (F := Ideal) b x0 w0 x1 w1 (ix2 r (j 1)) := by
  rw [k8_pay6_exact, k8_pay2_exact]
  exact congrArg (0 + ·) (Finset.sum_congr rfl fun r _ => by rw [lift8_eq]; rfl)

/-- The column sums of `y·y` on the zero row, at a column. -/
theorem sumsq8_exact (b : Vec Ideal S1x128 .f32) (x0 : Vec Ideal S5000x128 .f32) (w0 : Vec Ideal S128x128 .f32)
    (x1 : Vec Ideal S5000x128 .f32) (w1 : Vec Ideal S128x128 .f32) (j : S1x128.Idx) :
    k8_pay1 (F := Ideal) (k8_pay5 (F := Ideal) b x0 w0 x1 w1) (k8_pay3 (F := Ideal)) j
      = 0 + ∑ r : Fin 5000, k8_pay4 (F := Ideal) b x0 w0 x1 w1 (ix2 r (j 1)) * k8_pay4 (F := Ideal) b x0 w0 x1 w1 (ix2 r (j 1)) := by
  rw [k8_pay1_exact, k8_pay3_exact, k8_pay5_exact]
  exact congrArg (0 + ·) (Finset.sum_congr rfl fun r _ => by rw [lift8_eq]; rfl)

/-! ### The region's three arrays at the exact values, index by index -/

variable (VI : (c : Dev nD) → (b : Ref sig .tc) → Buf (Elt Ideal) ((c : Thread nD τ).loc b))

/-- The arrays the region is entered with, at the shapes the body sees: the two data arrays, their weights, the bias row; -/
abbrev in8_0 (c : Dev nD) : Vec Ideal S5000x128 .f32 := A8 VI c 0
abbrev in8_1 (c : Dev nD) : Vec Ideal S5000x128 .f32 := A8 VI c 1
abbrev in8_2 (c : Dev nD) : Vec Ideal S128x128 .f32 := A8 VI c 2
abbrev in8_3 (c : Dev nD) : Vec Ideal S128x128 .f32 := A8 VI c 3
abbrev in8_4 (c : Dev nD) : Vec Ideal S1x128 .f32 := A8 VI c 4
/-- and what the region leaves in window 5's array. -/
abbrev Y8 (c : Dev nD) : Vec Ideal S5000x128 .f32 := G8_5 VI c

/-- Window 5's array after the region, at (row, column): `b + x0·w0 + x1·w1` there. -/
theorem Y8_exact (c : Dev nD) (j : S5000x128.Idx) :
    Y8 VI c j = (in8_4 VI c (ix2 0 (j 1)) + ∑ k : Fin 128, in8_0 VI c (ix2 (j 0) k) * in8_2 VI c (ix2 k (j 1)))
        + ∑ k : Fin 128, in8_1 VI c (ix2 (j 0) k) * in8_3 VI c (ix2 k (j 1)) :=
  y8_exact _ _ _ _ _ j

theorem arrAt8_5_exact (c : Dev nD) : (dat8 VI c).arrAt 5 cfg8.N = Y8 VI c := arrAt8_5 VI c

/-- Window 6's array after the region, at a column: zero plus the sum of window 5's column over the rows. -/
theorem arrAt8_6_exact (c : Dev nD) (j : S1x128.Idx) :
    (show Vec Ideal S1x128 .f32 from (dat8 VI c).arrAt 6 cfg8.N) j = 0 + ∑ r : Fin 5000, Y8 VI c (ix2 r (j 1)) :=
  (congrFun (arrAt8_6 VI c) j).trans (sum8_exact _ _ _ _ _ j)

/-- Window 7's array after the region, at a column: zero plus the sum of the squares of window 5's column over the rows. -/
theorem arrAt8_7_exact (c : Dev nD) (j : S1x128.Idx) :
    (show Vec Ideal S1x128 .f32 from (dat8 VI c).arrAt 7 cfg8.N) j = 0 + ∑ r : Fin 5000, Y8 VI c (ix2 r (j 1)) * Y8 VI c (ix2 r (j 1)) :=
  (congrFun (arrAt8_7 VI c) j).trans (sumsq8_exact _ _ _ _ _ j)

end Exact

end Cert.KernelIdeal.Hand

end
-- ==== Proof.KI.V9.lean ====
/- Region 9 of the kernel program: the result array after the region, index by index, from the arrays the region
   is entered with. -/
import proofs.«424088_j28020366639260_2_alg».proof.Proof.KI.R9
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Values9

variable {F : FTy → Type} [FloatOps F]

variable (V : (c : Dev nD) → (b : Ref sig .tc) → Buf (Elt F) ((c : Thread nD τ).loc b))

/-- The offsets every access of the body is made at. -/
theorem off9_zero : (![0, 0] : Fin 2 → Nat) = fun _ => 0 := funext fun a => by fin_cases a <;> rfl

/-- The entry of a one-row operand that the result at index `j` reads: row 0, the lane of `j`. -/
def lane9 (j : S5000x128.Idx) : S1x128.Idx := fun a => match a with
  | ⟨0, _⟩ => ⟨0, Nat.zero_lt_one⟩
  | ⟨1, _⟩ => ⟨(j 1).val, (j 1).isLt⟩

theorem lane9_row (j : S5000x128.Idx) : (lane9 j 0).val = 0 := rfl
theorem lane9_col (j : S5000x128.Idx) : (lane9 j 1).val = (j 1).val := rfl

/-- The map the region computes, on whole arrays: at every index `max (y · scale + shift) 0`, the scale and the shift read
    at the index's lane. -/
def relu9 (y : Vec F S5000x128 .f32) (sc sf : Vec F S1x128 .f32) : Vec F S5000x128 .f32 := fun j =>
  FloatOps.maximumf (FloatOps.addf (FloatOps.mulf (y j : F .f32) (sc (lane9 j))) (sf (lane9 j))) (Scalar.ofBits .f32 0x00000000#32)

/-- A one-row operand broadcast over the rows, at an index, is the operand at the index's lane. -/
theorem bcast9_apply (x : Vec F S1x128 .f32) (j : S5000x128.Idx) :
    broadcastTo S5000x128 (x : FVec F S1x128 .f32) broadcasts_S1x128_S5000x128 j = x (lane9 j) :=
  broadcastTo_apply _ _ j (lane9 j) fun a => by fin_cases a <;> rfl

/-- The store's payload is that map of the three loaded values: the casts to the same shape are the identity, the
    broadcasts read the lane, the arithmetic is pointwise. -/
theorem pay9_eq (y : Vec F S5000x128 .f32) (sc sf : Vec F S1x128 .f32) : k9_pay1 y sc sf = relu9 y sc sf := by
  funext j
  unfold k9_pay1 relu9
  simp only [shapeCast_self]
  show FloatOps.maximumf (FloatOps.addf (FloatOps.mulf _ (broadcastTo S5000x128 (sc : FVec F S1x128 .f32) broadcasts_S1x128_S5000x128 j))
    (broadcastTo S5000x128 (sf : FVec F S1x128 .f32) broadcasts_S1x128_S5000x128 j)) _ = _
  rw [bcast9_apply, bcast9_apply]
  rfl

/-- So what the body leaves in the result's buffer is the map of the three operand buffers: each load reads its whole buffer, the
    one store writes the whole buffer. -/
theorem out9_3_eq (y : Vec F S5000x128 .f32) (sc sf : Vec F S1x128 .f32) : out9_3 y sc sf = relu9 y sc sf := by
  unfold out9_3
  rw [View.canon_unit_zero off9_zero, View.ld_unit_zero (S := S5000x128) off9_zero, View.ld_unit_zero (S := S1x128) off9_zero,
    View.ld_unit_zero (S := S1x128) off9_zero]
  exact pay9_eq y sc sf

/-! ## The region-entry arrays, at their shapes -/

/-- The operand `y` as the region finds it. -/
abbrev inY9 (c : Dev nD) : Vec F S5000x128 .f32 := V c (Pipeline.arrRef spec9 0)
/-- The scale row as the region finds it. -/
abbrev inSc9 (c : Dev nD) : Vec F S1x128 .f32 := V c (Pipeline.arrRef spec9 1)
/-- The shift row as the region finds it. -/
abbrev inSf9 (c : Dev nD) : Vec F S1x128 .f32 := V c (Pipeline.arrRef spec9 2)

/-- The result array the region leaves, as one function of the region-entry arrays. -/
abbrev res9 (c : Dev nD) : Vec F S5000x128 .f32 := relu9 (inY9 V c) (inSc9 V c) (inSf9 V c)

/-! ## Each window's one block is its whole array -/

theorem iblk9_0_eq (c : Dev nD) (t : Fin cfg9.N) : iblk9 V c 0 t = inY9 V c := by
  obtain rfl := fin_N9 t
  have hz : (fun a => win9_0.index t9_0 a * (Pipeline.arrRef spec9 0).ty.shape.size a) = fun _ => 0 :=
    funext fun a => by fin_cases a <;> decide +kernel
  exact Memref.read_access_unit_zero (Elt F) (Pipeline.arrRef spec9 0) hz (fun a => by rw [congrFun hz a]; simp) _

theorem iblk9_1_eq (c : Dev nD) (t : Fin cfg9.N) : iblk9 V c 1 t = inSc9 V c := by
  obtain rfl := fin_N9 t
  have hz : (fun a => win9_1.index t9_0 a * (Pipeline.arrRef spec9 1).ty.shape.size a) = fun _ => 0 :=
    funext fun a => by fin_cases a <;> decide +kernel
  exact Memref.read_access_unit_zero (Elt F) (Pipeline.arrRef spec9 1) hz (fun a => by rw [congrFun hz a]; simp) _

theorem iblk9_2_eq (c : Dev nD) (t : Fin cfg9.N) : iblk9 V c 2 t = inSf9 V c := by
  obtain rfl := fin_N9 t
  have hz : (fun a => win9_2.index t9_0 a * (Pipeline.arrRef spec9 2).ty.shape.size a) = fun _ => 0 :=
    funext fun a => by fin_cases a <;> decide +kernel
  exact Memref.read_access_unit_zero (Elt F) (Pipeline.arrRef spec9 2) hz (fun a => by rw [congrFun hz a]; simp) _

/-! ## The result array after the region -/

/-- The result window's block sits at the array's origin. -/
theorem org9_3 : (fun a => win9_3.index t9_0 a * (Pipeline.arrRef spec9 3).ty.shape.size a) = fun _ => 0 :=
  funext fun a => by fin_cases a <;> decide +kernel

/-- What the one write-back moves is the map of the region-entry arrays, read through the result's block. -/
theorem flushed9_3 (c : Dev nD) (t : Fin cfg9.N) (hf : (cfg9.win 3).flush t = true) :
    (dat9 V c).flushed 3 t = ((cfg9.win 3).blk t).view.read (Elt F) (res9 V c) := by
  obtain rfl := fin_N9 t
  show (cfg9.win 3).cut (grid9.coords t9_0) ((dat9 V c).after 3 t9_0) = _
  rw [after9_3, out9_3_eq, iblk9_0_eq, iblk9_1_eq, iblk9_2_eq]
  exact (Memref.read_access_unit_zero (Elt F) (Pipeline.arrRef spec9 3) org9_3 (fun a => by rw [congrFun org9_3 a]; simp) (res9 V c)).symm

/-- THE VALUE: after the region the result array holds, at every index, `max (y · scale + shift) 0` of the region-entry
    arrays. The one block of the result window is the whole array, so its write-back covers every index. -/
theorem arrAt9_3 (c : Dev nD) : (dat9 V c).arrAt 3 cfg9.N = fun i =>
    FloatOps.maximumf (FloatOps.addf (FloatOps.mulf (inY9 V c i : F .f32) (inSc9 V c (lane9 i))) (inSf9 V c (lane9 i)))
      (Scalar.ofBits .f32 0x00000000#32) :=
  (dat9 V c).arrAt_eq_of_cover 3 (res9 V c) (flushed9_3 V c) fun i =>
    ⟨t9_0, flush9_3 t9_0, by
      show i ∈ ((View.whole (Pipeline.arrRef spec9 3)).slice (win9_3.rect t9_0)).set
      rw [View.set_slice_whole]
      exact View.mem_set_unit_zero org9_3 _ i⟩

/-- The same, the map kept as the body's own store over the region-entry arrays. -/
theorem arrAt9_3_out (c : Dev nD) : (dat9 V c).arrAt 3 cfg9.N = out9_3 (inY9 V c) (inSc9 V c) (inSf9 V c) :=
  (arrAt9_3 V c).trans (out9_3_eq _ _ _).symm

end Values9

/-! ## The same at the extended reals -/

section Ideal9

variable (V : (c : Dev nD) → (b : Ref sig .tc) → Buf (Elt Ideal) ((c : Thread nD τ).loc b))

/-- At the exact arithmetic of the extended reals the result is `max (y * scale + shift) 0`, index by index. -/
theorem arrAt9_3_ideal (c : Dev nD) (i : S5000x128.Idx) :
    ((dat9 (F := Ideal) V c).arrAt 3 cfg9.N : Vec Ideal S5000x128 .f32) i
      = max ((inY9 V c i : EReal) * (inSc9 V c (lane9 i) : EReal) + (inSf9 V c (lane9 i) : EReal)) 0 := by
  rw [arrAt9_3]
  show max (_ * _ + _) (Ideal.ofBits .f32 0x00000000#32) = _
  rw [Ideal.ofBits_zero_f32]

end Ideal9

end Cert.KernelIdeal.Hand

end
-- ==== Proof.Val.LabK2.lean ====
/-
  The diagnosis rows of the first graph layer in the kernel program, from the contents before the branch's weight slices
  to the contents after its rectified normalisation. The host cuts relation 2's two weight matrices out of the
  weight arrays and transposes them, and cuts out its bias row; the first region forms y = bias + mean·Wlᵀ + x·Wrᵀ
  together with the column sums of y and of y·y; the host turns the sums into the scale and the shift rows of the
  normalisation; the second region applies them and rectifies. Read at a row and a column this is the
  scale-and-shift form of the normalisation over the affine map.
-/
import proofs.«424088_j28020366639260_2_alg».proof.Proof.KI.Args
import proofs.«424088_j28020366639260_2_alg».proof.Proof.KI.V8
import proofs.«424088_j28020366639260_2_alg».proof.Proof.KI.V9
import proofs.«424088_j28020366639260_2_alg».proof.Proof.Val.LabTerms
import Idealize.ShloMosaic.Lib.StableHlo.Run

set_option maxRecDepth 16384
set_option maxHeartbeats 4000000

noncomputable section

namespace Cert.Val.Lab

open Cert.KernelIdeal Cert.KernelIdeal.Gen Cert.KernelIdeal.Hand
open Idealize.ShloMosaic Idealize.ShloMosaic.TcCoe Idealize.ShloMosaic.StableHlo Idealize.ShloMosaic.ValueIdx Idealize.SL.Sem
open Cert.Lib.ERealArith
open scoped BigOperators

/-! ## The weight stretch, at any contents -/

/-- The left weights as the region reads them: entry (k, q) is entry (q, k) of matrix (0, 2) of the weight array. -/
theorem diag1_wl (V : Valuation τ sig (Elt Ideal)) (k q : Fin 128) :
    (StableHlo.after hostOps8 V (Proc.devRef .tc main_v258) : (Sh2 128 128).Idx → EReal) (ix2 k q)
      = (V (Proc.devRef .tc main_arg12) : (⟨4, ![2, 6, 128, 128]⟩ : Shape).Idx → EReal) (ix4 (0 : Fin 2) (2 : Fin 6) q k) := by
  have e : (StableHlo.after hostOps8 V (Proc.devRef .tc main_v258) : (Sh2 128 128).Idx → EReal)
      = transpose (Sh2 128 128) [1, 0]
          (shapeCast (Sh2 128 128) (extractStridedSlice ⟨4, ![1, 1, 128, 128]⟩ ![0, 2, 0, 0]
            (V (Proc.devRef .tc main_arg12)) slices_S2x6x128x128_S1x1x128x128_0_2_0_0) shapeCasts_S1x1x128x128_S128x128)
          transposes_S128x128_S128x128_1_0 := by
    after_results_simp
    rfl
  rw [e, transpose_sq_apply, mat_slice_apply 0 2 (by decide) (by decide)]
  rfl

/-- The right weights likewise. -/
theorem diag1_wr (V : Valuation τ sig (Elt Ideal)) (k q : Fin 128) :
    (StableHlo.after hostOps8 V (Proc.devRef .tc main_v261) : (Sh2 128 128).Idx → EReal) (ix2 k q)
      = (V (Proc.devRef .tc main_arg14) : (⟨4, ![2, 6, 128, 128]⟩ : Shape).Idx → EReal) (ix4 (0 : Fin 2) (2 : Fin 6) q k) := by
  have e : (StableHlo.after hostOps8 V (Proc.devRef .tc main_v261) : (Sh2 128 128).Idx → EReal)
      = transpose (Sh2 128 128) [1, 0]
          (shapeCast (Sh2 128 128) (extractStridedSlice ⟨4, ![1, 1, 128, 128]⟩ ![0, 2, 0, 0]
            (V (Proc.devRef .tc main_arg14)) slices_S2x6x128x128_S1x1x128x128_0_2_0_0) shapeCasts_S1x1x128x128_S128x128)
          transposes_S128x128_S128x128_1_0 := by
    after_results_simp
    rfl
  rw [e, transpose_sq_apply, mat_slice_apply 0 2 (by decide) (by decide)]
  rfl

/-- The bias row: entry q is entry (0, 2, q) of the bias array. -/
theorem diag1_b (V : Valuation τ sig (Elt Ideal)) (q : Fin 128) :
    (StableHlo.after hostOps8 V (Proc.devRef .tc main_v264) : T1x128.Idx → EReal) (ix2 (0 : Fin 1) q)
      = (V (Proc.devRef .tc main_arg13) : (⟨3, ![2, 6, 128]⟩ : Shape).Idx → EReal) (ix3 (0 : Fin 2) (2 : Fin 6) q) := by
  have e : (StableHlo.after hostOps8 V (Proc.devRef .tc main_v264) : T1x128.Idx → EReal)
      = shapeCast T1x128 (shapeCast T128 (extractStridedSlice ⟨3, ![1, 1, 128]⟩ ![0, 2, 0]
            (V (Proc.devRef .tc main_arg13)) slices_S2x6x128_S1x1x128_0_2_0) shapeCasts_S1x1x128_S128) shapeCasts_S128_S1x128 := by
    after_results_simp
    rfl
  rw [e, shapeCast_a_1a_apply, vec_slice_apply 0 2 (by decide) (by decide)]
  rfl

/-! ## The normalisation stretch, at any contents -/

/-- The gain row of the diagnosis normalisation of layer 0, cut out of the gain array. -/
abbrev diag1_g (V : Valuation τ sig (Elt Ideal)) : FVec Ideal T128 .f32 :=
  shapeCast T128 (extractStridedSlice ⟨3, ![1, 1, 128]⟩ ![0, 2, 0] (V (Proc.devRef .tc main_arg15))
    slices_S2x4x128_S1x1x128_0_2_0) shapeCasts_S1x1x128_S128
/-- The offset row likewise. -/
abbrev diag1_β (V : Valuation τ sig (Elt Ideal)) : FVec Ideal T128 .f32 :=
  shapeCast T128 (extractStridedSlice ⟨3, ![1, 1, 128]⟩ ![0, 2, 0] (V (Proc.devRef .tc main_arg16))
    slices_S2x4x128_S1x1x128_0_2_0) shapeCasts_S1x1x128_S128

/-- The scale row the host leaves for the second region. -/
theorem diag1_scale (V : Valuation τ sig (Elt Ideal)) :
    (StableHlo.after hostOps9 V (Proc.devRef .tc main_v284) : T1x128.Idx → EReal)
      = shapeCast T1x128 (kScale shapeCasts_S1x128_S128 bcast_S_S128 0x459C4000#32
          (V (Proc.devRef .tc main_v265_1)) (V (Proc.devRef .tc main_v265_2)) (diag1_g V)) shapeCasts_S128_S1x128 := by
  after_results_simp
  rfl

/-- The shift row. -/
theorem diag1_shift (V : Valuation τ sig (Elt Ideal)) :
    (StableHlo.after hostOps9 V (Proc.devRef .tc main_v285) : T1x128.Idx → EReal)
      = shapeCast T1x128 (kShift shapeCasts_S1x128_S128 bcast_S_S128 0x459C4000#32
          (V (Proc.devRef .tc main_v265_1)) (V (Proc.devRef .tc main_v265_2)) (diag1_g V) (diag1_β V)) shapeCasts_S128_S1x128 := by
  after_results_simp
  rfl

/-! ## The branch -/

/-- A column's lane in the one-row arrays. -/
theorem diag1_lane (p : Fin 5000) (q : Fin 128) : lane9 (ix2 p q) = ix2 (0 : Fin 1) q := by
  funext a
  match a with
  | ⟨0, _⟩ => rfl
  | ⟨1, _⟩ => rfl

/-- The row count as the host's literal. -/
theorem diag1_N : Ideal.ofBits .f32 0x459C4000#32 = ((((5000 : ℕ) : ℝ)) : EReal) := by
  rw [ofBits_5000]; norm_num

variable (m : (ℓ : Loc nD τ sig) → Buf (Elt Ideal) ℓ) (ρ : Dev nD → PrngReg)

/-- What the first region leaves: the matrix y, the row of its column sums, the row of the column sums of y·y. -/
abbrev diag1_Y (c : Dev nD) : (Sh2 5000 128).Idx → EReal := W17 m ρ c (Proc.devRef .tc main_v265_0)
abbrev diag1_S (c : Dev nD) : T1x128.Idx → EReal := W17 m ρ c (Proc.devRef .tc main_v265_1)
abbrev diag1_Q (c : Dev nD) : T1x128.Idx → EReal := W17 m ρ c (Proc.devRef .tc main_v265_2)

/-- What the first region leaves in its first output array: the affine map of the entry arrays, at (p, q). -/
theorem diag1_y (c : Dev nD) (p : Fin 5000) (q : Fin 128) :
    diag1_Y m ρ c (ix2 p q)
      = affC (0 : Fin 2) (2 : Fin 6) (coords (W15 m ρ c (Proc.devRef .tc main_v162))) (coords (W15 m ρ c (Proc.devRef .tc main_arg2)))
          (W15 m ρ c (Proc.devRef .tc main_arg12)) (W15 m ρ c (Proc.devRef .tc main_arg14)) (W15 m ρ c (Proc.devRef .tc main_arg13)) p q := by
  have hY : diag1_Y m ρ c = Y8 (VE8 m ρ) c :=
    (Wexit8_arr m ρ c 5).trans (arrAt8_5_exact (VE8 m ρ) c)
  rw [hY, Y8_exact]
  unfold affC
  have hb : in8_4 (VE8 m ρ) c (ix2 0 q) = (W15 m ρ c (Proc.devRef .tc main_arg13) : (⟨3, ![2, 6, 128]⟩ : Shape).Idx → EReal) (ix3 (0 : Fin 2) (2 : Fin 6) q) :=
    (congrFun (congrFun (W16_eq m ρ c) (Proc.devRef .tc main_v264)) (ix2 0 q)).trans (diag1_b (W15 m ρ c) q)
  have hwl : ∀ k : Fin 128, in8_2 (VE8 m ρ) c (ix2 k q) = (W15 m ρ c (Proc.devRef .tc main_arg12) : (⟨4, ![2, 6, 128, 128]⟩ : Shape).Idx → EReal) (ix4 (0 : Fin 2) (2 : Fin 6) q k) :=
    fun k => (congrFun (congrFun (W16_eq m ρ c) (Proc.devRef .tc main_v258)) (ix2 k q)).trans (diag1_wl (W15 m ρ c) k q)
  have hwr : ∀ k : Fin 128, in8_3 (VE8 m ρ) c (ix2 k q) = (W15 m ρ c (Proc.devRef .tc main_arg14) : (⟨4, ![2, 6, 128, 128]⟩ : Shape).Idx → EReal) (ix4 (0 : Fin 2) (2 : Fin 6) q k) :=
    fun k => (congrFun (congrFun (W16_eq m ρ c) (Proc.devRef .tc main_v261)) (ix2 k q)).trans (diag1_wr (W15 m ρ c) k q)
  have hA : (in8_0 (VE8 m ρ) c : (Sh2 5000 128).Idx → EReal) = W15 m ρ c (Proc.devRef .tc main_v162) :=
    W16_of m ρ c main_v162 (by decide)
  have hB : (in8_1 (VE8 m ρ) c : (Sh2 5000 128).Idx → EReal) = W15 m ρ c (Proc.devRef .tc main_arg2) :=
    W16_of m ρ c main_arg2 (by decide)
  rw [hb, hA, hB]
  simp only [hwl, hwr]

/-- THE DIAGNOSIS BRANCH OF LAYER 0 in the kernel program. -/
theorem K_diag1 (c : Dev nD) :
    (W19 m ρ c (Proc.devRef .tc main_v286) : (Sh2 5000 128).Idx → EReal)
      = bnK (((5000 : ℕ) : ℝ) : EReal) ((eps5 : ℝ) : EReal) (0 : Fin 2) (2 : Fin 4)
          (aff (0 : Fin 2) (2 : Fin 6) (W15 m ρ c (Proc.devRef .tc main_v162)) (W15 m ρ c (Proc.devRef .tc main_arg2))
            (W15 m ρ c (Proc.devRef .tc main_arg12) : FVec Ideal S2x6x128x128 .f32) (W15 m ρ c (Proc.devRef .tc main_arg14) : FVec Ideal S2x6x128x128 .f32) (W15 m ρ c (Proc.devRef .tc main_arg13) : FVec Ideal S2x6x128 .f32))
          (W15 m ρ c (Proc.devRef .tc main_arg15) : FVec Ideal S2x4x128 .f32) (W15 m ρ c (Proc.devRef .tc main_arg16) : FVec Ideal S2x4x128 .f32) := by
  funext j
  obtain ⟨p, q, rfl⟩ : ∃ (p : Fin 5000) (q : Fin 128), j = ix2 p q := ⟨j 0, j 1, eq_ix2 j⟩
  -- the first region's three arrays, as the normalisation stretch and the second region find them
  have hY : diag1_Y m ρ c = Y8 (VE8 m ρ) c :=
    (Wexit8_arr m ρ c 5).trans (arrAt8_5_exact (VE8 m ρ) c)
  have hs : ∀ q' : Fin 128, diag1_S m ρ c (ix2 (0 : Fin 1) q')
      = (0 : EReal) + ∑ i : Fin 5000, diag1_Y m ρ c (ix2 i q') := fun q' => by
    rw [hY]
    exact (congrFun (Wexit8_arr m ρ c 6) (ix2 0 q')).trans (arrAt8_6_exact (VE8 m ρ) c (ix2 0 q'))
  have hsq : ∀ q' : Fin 128, diag1_Q m ρ c (ix2 (0 : Fin 1) q')
      = (0 : EReal) + ∑ i : Fin 5000, diag1_Y m ρ c (ix2 i q')
          * diag1_Y m ρ c (ix2 i q') := fun q' => by
    rw [hY]
    exact (congrFun (Wexit8_arr m ρ c 7) (ix2 0 q')).trans (arrAt8_7_exact (VE8 m ρ) c (ix2 0 q'))
  -- the second region's output at (p, q)
  have h7 := (congrFun (Wexit9_arr m ρ c 3) (ix2 p q)).trans (arrAt9_3_ideal (VE9 m ρ) c (ix2 p q))
  have hy7 : (inY9 (VE9 m ρ) c : (Sh2 5000 128).Idx → EReal) = diag1_Y m ρ c :=
    W18_of m ρ c main_v265_0 (by decide)
  have hsc : (inSc9 (VE9 m ρ) c : T1x128.Idx → EReal) = _ :=
    (congrFun (W18_eq m ρ c) (Proc.devRef .tc main_v284)).trans (diag1_scale (W17 m ρ c))
  have hsf : (inSf9 (VE9 m ρ) c : T1x128.Idx → EReal) = _ :=
    (congrFun (W18_eq m ρ c) (Proc.devRef .tc main_v285)).trans (diag1_shift (W17 m ρ c))
  rw [diag1_lane, hy7, hsc, hsf] at h7
  refine h7.trans ?_
  rw [kBN_apply 0x459C4000#32 _ diag1_N _ _ _ hs hsq]
  -- the two sides are the same scale-and-shift form: the same matrix, the same gain and offset rows
  show bnKC _ _ _ _ _ p q = bnKC _ _ _ _ _ p q
  have hyc : coords (diag1_Y m ρ c)
      = coords (aff (0 : Fin 2) (2 : Fin 6) (W15 m ρ c (Proc.devRef .tc main_v162)) (W15 m ρ c (Proc.devRef .tc main_arg2))
          (W15 m ρ c (Proc.devRef .tc main_arg12)) (W15 m ρ c (Proc.devRef .tc main_arg14)) (W15 m ρ c (Proc.devRef .tc main_arg13))) :=
    funext fun p' => funext fun q' => diag1_y m ρ c p' q'
  have h15 : (W17 m ρ c (Proc.devRef .tc main_arg15) : (⟨3, ![2, 4, 128]⟩ : Shape).Idx → EReal) = W15 m ρ c (Proc.devRef .tc main_arg15) :=
    (Wexit8_keep m ρ c main_arg15 (by decide)).trans (W16_of m ρ c main_arg15 (by decide))
  have h16 : (W17 m ρ c (Proc.devRef .tc main_arg16) : (⟨3, ![2, 4, 128]⟩ : Shape).Idx → EReal) = W15 m ρ c (Proc.devRef .tc main_arg16) :=
    (Wexit8_keep m ρ c main_arg16 (by decide)).trans (W16_of m ρ c main_arg16 (by decide))
  have hg : (fun q' : Fin 128 => diag1_g (W17 m ρ c) (ix1 q'))
      = fun q' => (W15 m ρ c (Proc.devRef .tc main_arg15) : (⟨3, ![2, 4, 128]⟩ : Shape).Idx → EReal) (ix3 (0 : Fin 2) (2 : Fin 4) q') :=
    funext fun q' => by rw [← h15]; exact vec_slice_apply 0 2 (by decide) (by decide) _ _ _ q'
  have hβ : (fun q' : Fin 128 => diag1_β (W17 m ρ c) (ix1 q'))
      = fun q' => (W15 m ρ c (Proc.devRef .tc main_arg16) : (⟨3, ![2, 4, 128]⟩ : Shape).Idx → EReal) (ix3 (0 : Fin 2) (2 : Fin 4) q') :=
    funext fun q' => by rw [← h16]; exact vec_slice_apply 0 2 (by decide) (by decide) _ _ _ q'
  rw [hyc, hg, hβ]

end Cert.Val.Lab

end
-- ==== Proof.KI.V10.lean ====
/- Region 10 of the kernel program: what its three output arrays hold after the region, each as ONE
   whole-array function of the arrays the region is entered with.

   The grid has one point and every window's one block is its whole array, so the array after the
   region is what the body left in the window's buffer: y = b + x0·w0 + x1·w1 (window 5), the column
   sums of y added onto a zero row (window 6), the column sums of y·y added onto a zero row (window 7),
   stated through the body's payloads applied to the whole entry arrays (any float semantics), and then,
   at the exact values, index by index over the extended reals: the products as sums over the 128
   contraction coordinates, the column sums as sums over the rows. -/
import proofs.«424088_j28020366639260_2_alg».proof.Proof.KI.R10
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The outputs' buffers after the body, as the payloads of the whole input blocks -/

theorem hz10 : (![0, 0] : Fin 2 → Nat) = fun _ => 0 := funext fun a => by fin_cases a <;> rfl

/-- Window 5's buffer: `y` of the blocks. -/
theorem out10_5_eq (x0 x1 : Vec F S3000x128 .f32) (x2 x3 : Vec F S128x128 .f32) (x4 : Vec F S1x128 .f32) :
    out10_5 x0 x1 x2 x3 x4 = k10_pay4 x4 x0 x2 x1 x3 := by
  unfold out10_5 y10
  rw [View.canon_unit_zero hz10]
  simp only [View.ld_unit_zero (S := S3000x128) hz10, View.ld_unit_zero (S := S128x128) hz10, View.ld_unit_zero (S := S1x128) hz10]

/-- Window 6's buffer: the column sums of `y` added onto the zero row. -/
theorem out10_6_eq (x0 x1 : Vec F S3000x128 .f32) (x2 x3 : Vec F S128x128 .f32) (x4 : Vec F S1x128 .f32) :
    out10_6 x0 x1 x2 x3 x4 = k10_pay6 x4 x0 x2 x1 x3 (k10_pay2 (F := F)) := by
  unfold out10_6
  rw [View.canon_cons_unit_zero hz10]
  simp only [View.ld_unit_zero (S := S3000x128) hz10, View.ld_unit_zero (S := S128x128) hz10, View.ld_unit_zero (S := S1x128) hz10]

/-- Window 7's buffer: the column sums of `y·y` added onto the zero row. -/
theorem out10_7_eq (x0 x1 : Vec F S3000x128 .f32) (x2 x3 : Vec F S128x128 .f32) (x4 : Vec F S1x128 .f32) :
    out10_7 x0 x1 x2 x3 x4 = k10_pay1 (k10_pay5 x4 x0 x2 x1 x3) (k10_pay3 (F := F)) := by
  unfold out10_7
  rw [View.canon_cons_unit_zero hz10]
  simp only [View.ld_unit_zero (S := S3000x128) hz10, View.ld_unit_zero (S := S128x128) hz10, View.ld_unit_zero (S := S1x128) hz10]

/-! ## Each window's one block is its whole array -/

/-- The region's array of window `w` as the region finds it. -/
abbrev A10 (c : Dev nD) (w : Fin cfg10.W) : Buf (Elt F) ((c : Thread nD τ).loc (Pipeline.arrRef spec10 w)) := V c (Pipeline.arrRef spec10 w)

theorem iblk10_0_eq (c : Dev nD) (t : Fin cfg10.N) : (iblk10 V c 0 t : Vec F S3000x128 .f32) = A10 V c 0 := by
  obtain rfl := fin_N10 t
  unfold iblk10
  have hz' : (fun a => win10_0.index t10_0 a * (Pipeline.arrRef spec10 0).ty.shape.size a) = fun _ => 0 :=
    funext fun a => by fin_cases a <;> decide
  exact Memref.read_access_unit_zero (Elt F) (Pipeline.arrRef spec10 0) hz' (fun a => by rw [congrFun hz' a]; simp) _
theorem iblk10_1_eq (c : Dev nD) (t : Fin cfg10.N) : (iblk10 V c 1 t : Vec F S3000x128 .f32) = A10 V c 1 := by
  obtain rfl := fin_N10 t
  unfold iblk10
  have hz' : (fun a => win10_1.index t10_0 a * (Pipeline.arrRef spec10 1).ty.shape.size a) = fun _ => 0 :=
    funext fun a => by fin_cases a <;> decide
  exact Memref.read_access_unit_zero (Elt F) (Pipeline.arrRef spec10 1) hz' (fun a => by rw [congrFun hz' a]; simp) _
theorem iblk10_2_eq (c : Dev nD) (t : Fin cfg10.N) : (iblk10 V c 2 t : Vec F S128x128 .f32) = A10 V c 2 := by
  obtain rfl := fin_N10 t
  unfold iblk10
  have hz' : (fun a => win10_2.index t10_0 a * (Pipeline.arrRef spec10 2).ty.shape.size a) = fun _ => 0 :=
    funext fun a => by fin_cases a <;> decide
  exact Memref.read_access_unit_zero (Elt F) (Pipeline.arrRef spec10 2) hz' (fun a => by rw [congrFun hz' a]; simp) _
theorem iblk10_3_eq (c : Dev nD) (t : Fin cfg10.N) : (iblk10 V c 3 t : Vec F S128x128 .f32) = A10 V c 3 := by
  obtain rfl := fin_N10 t
  unfold iblk10
  have hz' : (fun a => win10_3.index t10_0 a * (Pipeline.arrRef spec10 3).ty.shape.size a) = fun _ => 0 :=
    funext fun a => by fin_cases a <;> decide
  exact Memref.read_access_unit_zero (Elt F) (Pipeline.arrRef spec10 3) hz' (fun a => by rw [congrFun hz' a]; simp) _
theorem iblk10_4_eq (c : Dev nD) (t : Fin cfg10.N) : (iblk10 V c 4 t : Vec F S1x128 .f32) = A10 V c 4 := by
  obtain rfl := fin_N10 t
  unfold iblk10
  have hz' : (fun a => win10_4.index t10_0 a * (Pipeline.arrRef spec10 4).ty.shape.size a) = fun _ => 0 :=
    funext fun a => by fin_cases a <;> decide
  exact Memref.read_access_unit_zero (Elt F) (Pipeline.arrRef spec10 4) hz' (fun a => by rw [congrFun hz' a]; simp) _

/-! ## The arrays after the region -/

/-- What the region leaves in window 5's array: `y` of the entry arrays. -/
abbrev G10_5 (c : Dev nD) : Buf (Elt F) ((c : Thread nD τ).loc (Pipeline.arrRef spec10 5)) :=
  k10_pay4 (A10 V c 4) (A10 V c 0) (A10 V c 2) (A10 V c 1) (A10 V c 3)
/-- in window 6's: the column sums of `y` added onto the zero row; -/
abbrev G10_6 (c : Dev nD) : Buf (Elt F) ((c : Thread nD τ).loc (Pipeline.arrRef spec10 6)) :=
  k10_pay6 (A10 V c 4) (A10 V c 0) (A10 V c 2) (A10 V c 1) (A10 V c 3) (k10_pay2 (F := F))
/-- in window 7's: the column sums of `y·y` added onto the zero row. -/
abbrev G10_7 (c : Dev nD) : Buf (Elt F) ((c : Thread nD τ).loc (Pipeline.arrRef spec10 7)) :=
  k10_pay1 (k10_pay5 (A10 V c 4) (A10 V c 0) (A10 V c 2) (A10 V c 1) (A10 V c 3)) (k10_pay3 (F := F))

/-- The one write-back of window 5 writes it: the block at zero offsets is the array. -/
theorem flushed10_5 (c : Dev nD) (t : Fin cfg10.N) :
    (dat10 V c).flushed 5 t = ((cfg10.win 5).blk t).view.read (Elt F) (G10_5 V c) := by
  obtain rfl := fin_N10 t
  show (cfg10.win 5).cut (grid10.coords t10_0) ((dat10 V c).after 5 t10_0) = _
  rw [after10_5, out10_5_eq, iblk10_0_eq, iblk10_1_eq, iblk10_2_eq, iblk10_3_eq, iblk10_4_eq]
  have hz' : (fun a => win10_5.index t10_0 a * (Pipeline.arrRef spec10 5).ty.shape.size a) = fun _ => 0 :=
    funext fun a => by fin_cases a <;> decide
  exact (Memref.read_access_unit_zero (Elt F) (Pipeline.arrRef spec10 5) hz' (fun a => by rw [congrFun hz' a]; simp) (G10_5 V c)).symm

/-- Its one block covers the array. -/
theorem covers10_5 (c : Dev nD) (i : ((cfg10.win 5).arr.view.loc (c.tc : Thread nD τ)).2.ty.Idx) :
    ∃ t : Fin cfg10.N, (cfg10.win 5).flush t = true ∧ i ∈ ((cfg10.win 5).blk t).view.set := by
  refine ⟨t10_0, flush10_5 t10_0, ?_⟩
  show i ∈ ((View.whole (Pipeline.arrRef spec10 5)).slice (win10_5.rect t10_0)).set
  rw [View.set_slice_whole, Rect.mem_set_unit]
  intro a
  have h0 : win10_5.index t10_0 a * win10_5.size a = 0 := by fin_cases a <;> decide
  have h1 : win10_5.xsize (grid10.coords t10_0) a = (Pipeline.arrRef spec10 5).ty.shape.size a := by fin_cases a <;> decide
  show win10_5.index t10_0 a * win10_5.size a ≤ (i a : Nat) ∧ (i a : Nat) < win10_5.index t10_0 a * win10_5.size a + win10_5.xsize (grid10.coords t10_0) a
  rw [h0, h1]
  exact ⟨Nat.zero_le _, by simpa using (i a).isLt⟩

/-- THE VALUE of window 5's array after the region. -/
theorem arrAt10_5 (c : Dev nD) : (dat10 V c).arrAt 5 cfg10.N = G10_5 V c :=
  (dat10 V c).arrAt_eq_of_cover 5 (G10_5 V c) (fun t _ => flushed10_5 V c t) (covers10_5 c)

/-- The one write-back of window 6 writes it: the block at zero offsets is the array. -/
theorem flushed10_6 (c : Dev nD) (t : Fin cfg10.N) :
    (dat10 V c).flushed 6 t = ((cfg10.win 6).blk t).view.read (Elt F) (G10_6 V c) := by
  obtain rfl := fin_N10 t
  show (cfg10.win 6).cut (grid10.coords t10_0) ((dat10 V c).after 6 t10_0) = _
  rw [after10_6, out10_6_eq, iblk10_0_eq, iblk10_1_eq, iblk10_2_eq, iblk10_3_eq, iblk10_4_eq]
  have hz' : (fun a => win10_6.index t10_0 a * (Pipeline.arrRef spec10 6).ty.shape.size a) = fun _ => 0 :=
    funext fun a => by fin_cases a <;> decide
  exact (Memref.read_access_unit_zero (Elt F) (Pipeline.arrRef spec10 6) hz' (fun a => by rw [congrFun hz' a]; simp) (G10_6 V c)).symm

/-- Its one block covers the array. -/
theorem covers10_6 (c : Dev nD) (i : ((cfg10.win 6).arr.view.loc (c.tc : Thread nD τ)).2.ty.Idx) :
    ∃ t : Fin cfg10.N, (cfg10.win 6).flush t = true ∧ i ∈ ((cfg10.win 6).blk t).view.set := by
  refine ⟨t10_0, flush10_6 t10_0, ?_⟩
  show i ∈ ((View.whole (Pipeline.arrRef spec10 6)).slice (win10_6.rect t10_0)).set
  rw [View.set_slice_whole, Rect.mem_set_unit]
  intro a
  have h0 : win10_6.index t10_0 a * win10_6.size a = 0 := by fin_cases a <;> decide
  have h1 : win10_6.xsize (grid10.coords t10_0) a = (Pipeline.arrRef spec10 6).ty.shape.size a := by fin_cases a <;> decide
  show win10_6.index t10_0 a * win10_6.size a ≤ (i a : Nat) ∧ (i a : Nat) < win10_6.index t10_0 a * win10_6.size a + win10_6.xsize (grid10.coords t10_0) a
  rw [h0, h1]
  exact ⟨Nat.zero_le _, by simpa using (i a).isLt⟩

/-- THE VALUE of window 6's array after the region. -/
theorem arrAt10_6 (c : Dev nD) : (dat10 V c).arrAt 6 cfg10.N = G10_6 V c :=
  (dat10 V c).arrAt_eq_of_cover 6 (G10_6 V c) (fun t _ => flushed10_6 V c t) (covers10_6 c)

/-- The one write-back of window 7 writes it: the block at zero offsets is the array. -/
theorem flushed10_7 (c : Dev nD) (t : Fin cfg10.N) :
    (dat10 V c).flushed 7 t = ((cfg10.win 7).blk t).view.read (Elt F) (G10_7 V c) := by
  obtain rfl := fin_N10 t
  show (cfg10.win 7).cut (grid10.coords t10_0) ((dat10 V c).after 7 t10_0) = _
  rw [after10_7, out10_7_eq, iblk10_0_eq, iblk10_1_eq, iblk10_2_eq, iblk10_3_eq, iblk10_4_eq]
  have hz' : (fun a => win10_7.index t10_0 a * (Pipeline.arrRef spec10 7).ty.shape.size a) = fun _ => 0 :=
    funext fun a => by fin_cases a <;> decide
  exact (Memref.read_access_unit_zero (Elt F) (Pipeline.arrRef spec10 7) hz' (fun a => by rw [congrFun hz' a]; simp) (G10_7 V c)).symm

/-- Its one block covers the array. -/
theorem covers10_7 (c : Dev nD) (i : ((cfg10.win 7).arr.view.loc (c.tc : Thread nD τ)).2.ty.Idx) :
    ∃ t : Fin cfg10.N, (cfg10.win 7).flush t = true ∧ i ∈ ((cfg10.win 7).blk t).view.set := by
  refine ⟨t10_0, flush10_7 t10_0, ?_⟩
  show i ∈ ((View.whole (Pipeline.arrRef spec10 7)).slice (win10_7.rect t10_0)).set
  rw [View.set_slice_whole, Rect.mem_set_unit]
  intro a
  have h0 : win10_7.index t10_0 a * win10_7.size a = 0 := by fin_cases a <;> decide
  have h1 : win10_7.xsize (grid10.coords t10_0) a = (Pipeline.arrRef spec10 7).ty.shape.size a := by fin_cases a <;> decide
  show win10_7.index t10_0 a * win10_7.size a ≤ (i a : Nat) ∧ (i a : Nat) < win10_7.index t10_0 a * win10_7.size a + win10_7.xsize (grid10.coords t10_0) a
  rw [h0, h1]
  exact ⟨Nat.zero_le _, by simpa using (i a).isLt⟩

/-- THE VALUE of window 7's array after the region. -/
theorem arrAt10_7 (c : Dev nD) : (dat10 V c).arrAt 7 cfg10.N = G10_7 V c :=
  (dat10 V c).arrAt_eq_of_cover 7 (G10_7 V c) (fun t _ => flushed10_7 V c t) (covers10_7 c)

/-! ## At the exact values (F := Ideal): the payloads index by index, over the extended reals -/

section Exact
open Idealize.ShloMosaic.ValueIdx

/-- The dimension numbers of the body's two products: rows × (128 × 128). -/
abbrev dot10 : DotDims S3000x128 S128x128 S3000x128 := dot_S3000x128_S128x128_S3000x128_1_0_0_1_n_n

/-- `y` at an index: the bias at the column, plus the two products' sums over the contraction index. -/
theorem k10_pay4_exact (b : Vec Ideal S1x128 .f32) (x0 : Vec Ideal S3000x128 .f32) (w0 : Vec Ideal S128x128 .f32)
    (x1 : Vec Ideal S3000x128 .f32) (w1 : Vec Ideal S128x128 .f32) (j : S3000x128.Idx) :
    k10_pay4 (F := Ideal) b x0 w0 x1 w1 j
      = (broadcastTo S3000x128 b broadcasts_S1x128_S3000x128 j + ∑ q : dot10.contr.Idx, x0 (dot10.lhsIdx j q) * w0 (dot10.rhsIdx j q))
        + ∑ q : dot10.contr.Idx, x1 (dot10.lhsIdx j q) * w1 (dot10.rhsIdx j q) := by
  unfold k10_pay4
  simp only [shapeCast_self, matmul]
  rw [addf_apply, addf_apply, Ideal.matmul_constant_zero_apply, Ideal.matmul_constant_zero_apply]
  simp only [truncf_apply]

/-- The zero rows the body stores first. -/
theorem k10_pay2_exact (j : S1x128.Idx) : k10_pay2 (F := Ideal) j = 0 := by
  unfold k10_pay2; exact Ideal.ofBits_zero_f32
theorem k10_pay3_exact (j : S1x128.Idx) : k10_pay3 (F := Ideal) j = 0 := by
  unfold k10_pay3; exact Ideal.ofBits_zero_f32

/-- The column sums of `y` added onto the row read back. -/
theorem k10_pay6_exact (b : Vec Ideal S1x128 .f32) (x0 : Vec Ideal S3000x128 .f32) (w0 : Vec Ideal S128x128 .f32)
    (x1 : Vec Ideal S3000x128 .f32) (w1 : Vec Ideal S128x128 .f32) (z : Vec Ideal S1x128 .f32) (j : S1x128.Idx) :
    k10_pay6 (F := Ideal) b x0 w0 x1 w1 z j
      = z j + ∑ r : Fin (S3000x128.size 0), k10_pay4 (F := Ideal) b x0 w0 x1 w1 (reduces_S3000x128_S128.lift (fun a => j a.succ) r) := by
  unfold k10_pay6
  simp only [shapeCast_self]
  rw [addf_apply, shapeCast_addUnit_apply (n := 1) ![128]]
  exact congrArg (z j + ·) (Ideal.multiReduction_add_single _ _ reduces_S3000x128_S128 _ _ _)

/-- The column sums of `y·y`. -/
theorem k10_pay5_exact (b : Vec Ideal S1x128 .f32) (x0 : Vec Ideal S3000x128 .f32) (w0 : Vec Ideal S128x128 .f32)
    (x1 : Vec Ideal S3000x128 .f32) (w1 : Vec Ideal S128x128 .f32) (j : S1x128.Idx) :
    k10_pay5 (F := Ideal) b x0 w0 x1 w1 j
      = ∑ r : Fin (S3000x128.size 0), k10_pay4 (F := Ideal) b x0 w0 x1 w1 (reduces_S3000x128_S128.lift (fun a => j a.succ) r)
          * k10_pay4 (F := Ideal) b x0 w0 x1 w1 (reduces_S3000x128_S128.lift (fun a => j a.succ) r) := by
  unfold k10_pay5
  rw [shapeCast_addUnit_apply (n := 1) ![128]]
  exact Ideal.multiReduction_add_single _ _ reduces_S3000x128_S128 _ _ _

/-- They are added onto the row read back. -/
theorem k10_pay1_exact (s : Vec Ideal S1x128 .f32) (z : Vec Ideal S1x128 .f32) (j : S1x128.Idx) :
    k10_pay1 (F := Ideal) s z j = z j + s j := by
  unfold k10_pay1
  simp only [shapeCast_self]
  rw [addf_apply]

/-! ### The indices, by coordinates -/

/-- The row index a column sum runs over, put back beside the column. -/
theorem lift10_eq (j : S1x128.Idx) (r : Fin (S3000x128.size 0)) :
    reduces_S3000x128_S128.lift (fun a => j a.succ) r = ix2 r (j 1) := by
  funext a
  match a with
  | ⟨0, _⟩ => rfl
  | ⟨1, _⟩ => rfl

/-- The bias row's index under the broadcast. -/
theorem brow10_eq (b : Vec Ideal S1x128 .f32) (j : S3000x128.Idx) :
    broadcastTo S3000x128 b broadcasts_S1x128_S3000x128 j = b (ix2 0 (j 1)) := by
  refine broadcastTo_apply b _ j (ix2 0 (j 1)) fun a => ?_
  match a with
  | ⟨0, _⟩ => rfl
  | ⟨1, _⟩ => rfl

/-- The products' contraction index is its one coordinate. -/
abbrev ce10 : dot10.contr.Idx ≃ Fin 128 := contrEquiv1 dot10 128 rfl rfl

/-- The left operand is read at (row, contraction coordinate), -/
theorem dot10_lhs (j : S3000x128.Idx) (k : Fin 128) : dot10.lhsIdx j (ce10.symm k) = ix2 (j 0) k := by
  funext a
  match a with
  | ⟨0, _⟩ => rfl
  | ⟨1, _⟩ => rfl

/-- the right operand at (contraction coordinate, column). -/
theorem dot10_rhs (j : S3000x128.Idx) (k : Fin 128) : dot10.rhsIdx j (ce10.symm k) = ix2 k (j 1) := by
  funext a
  match a with
  | ⟨0, _⟩ => rfl
  | ⟨1, _⟩ => rfl

/-- A product's sum over the contraction index is the sum over its coordinate. -/
theorem dot10_sum (x : Vec Ideal S3000x128 .f32) (w : Vec Ideal S128x128 .f32) (j : S3000x128.Idx) :
    ∑ q : dot10.contr.Idx, x (dot10.lhsIdx j q) * w (dot10.rhsIdx j q) = ∑ k : Fin 128, x (ix2 (j 0) k) * w (ix2 k (j 1)) := by
  rw [← Equiv.sum_comp ce10.symm]
  exact Finset.sum_congr rfl fun k _ => by rw [dot10_lhs, dot10_rhs]; rfl

/-- `y` at (row, column): the bias at the column plus the two products' sums over the 128 contraction coordinates. -/
theorem y10_exact (b : Vec Ideal S1x128 .f32) (x0 : Vec Ideal S3000x128 .f32) (w0 : Vec Ideal S128x128 .f32)
    (x1 : Vec Ideal S3000x128 .f32) (w1 : Vec Ideal S128x128 .f32) (j : S3000x128.Idx) :
    k10_pay4 (F := Ideal) b x0 w0 x1 w1 j
      = (b (ix2 0 (j 1)) + ∑ k : Fin 128, x0 (ix2 (j 0) k) * w0 (ix2 k (j 1)))
        + ∑ k : Fin 128, x1 (ix2 (j 0) k) * w1 (ix2 k (j 1)) := by
  rw [k10_pay4_exact, brow10_eq, dot10_sum, dot10_sum]

/-- The column sums of `y` on the zero row, at a column: zero plus the sum over the rows. -/
theorem sum10_exact (b : Vec Ideal S1x128 .f32) (x0 : Vec Ideal S3000x128 .f32) (w0 : Vec Ideal S128x128 .f32)
    (x1 : Vec Ideal S3000x128 .f32) (w1 : Vec Ideal S128x128 .f32) (j : S1x128.Idx) :
    k10_pay6 (F := Ideal) b x0 w0 x1 w1 (k10_pay2 (F := Ideal)) j
      = 0 + ∑ r : Fin 3000, k10_pay4 (F := Ideal) b x0 w0 x1 w1 (ix2 r (j 1)) := by
  rw [k10_pay6_exact, k10_pay2_exact]
  exact congrArg (0 + ·) (Finset.sum_congr rfl fun r _ => by rw [lift10_eq]; rfl)

/-- The column sums of `y·y` on the zero row, at a column. -/
theorem sumsq10_exact (b : Vec Ideal S1x128 .f32) (x0 : Vec Ideal S3000x128 .f32) (w0 : Vec Ideal S128x128 .f32)
    (x1 : Vec Ideal S3000x128 .f32) (w1 : Vec Ideal S128x128 .f32) (j : S1x128.Idx) :
    k10_pay1 (F := Ideal) (k10_pay5 (F := Ideal) b x0 w0 x1 w1) (k10_pay3 (F := Ideal)) j
      = 0 + ∑ r : Fin 3000, k10_pay4 (F := Ideal) b x0 w0 x1 w1 (ix2 r (j 1)) * k10_pay4 (F := Ideal) b x0 w0 x1 w1 (ix2 r (j 1)) := by
  rw [k10_pay1_exact, k10_pay3_exact, k10_pay5_exact]
  exact congrArg (0 + ·) (Finset.sum_congr rfl fun r _ => by rw [lift10_eq]; rfl)

/-! ### The region's three arrays at the exact values, index by index -/

variable (VI : (c : Dev nD) → (b : Ref sig .tc) → Buf (Elt Ideal) ((c : Thread nD τ).loc b))

/-- The arrays the region is entered with, at the shapes the body sees: the two data arrays, their weights, the bias row; -/
abbrev in10_0 (c : Dev nD) : Vec Ideal S3000x128 .f32 := A10 VI c 0
abbrev in10_1 (c : Dev nD) : Vec Ideal S3000x128 .f32 := A10 VI c 1
abbrev in10_2 (c : Dev nD) : Vec Ideal S128x128 .f32 := A10 VI c 2
abbrev in10_3 (c : Dev nD) : Vec Ideal S128x128 .f32 := A10 VI c 3
abbrev in10_4 (c : Dev nD) : Vec Ideal S1x128 .f32 := A10 VI c 4
/-- and what the region leaves in window 5's array. -/
abbrev Y10 (c : Dev nD) : Vec Ideal S3000x128 .f32 := G10_5 VI c

/-- Window 5's array after the region, at (row, column): `b + x0·w0 + x1·w1` there. -/
theorem Y10_exact (c : Dev nD) (j : S3000x128.Idx) :
    Y10 VI c j = (in10_4 VI c (ix2 0 (j 1)) + ∑ k : Fin 128, in10_0 VI c (ix2 (j 0) k) * in10_2 VI c (ix2 k (j 1)))
        + ∑ k : Fin 128, in10_1 VI c (ix2 (j 0) k) * in10_3 VI c (ix2 k (j 1)) :=
  y10_exact _ _ _ _ _ j

theorem arrAt10_5_exact (c : Dev nD) : (dat10 VI c).arrAt 5 cfg10.N = Y10 VI c := arrAt10_5 VI c

/-- Window 6's array after the region, at a column: zero plus the sum of window 5's column over the rows. -/
theorem arrAt10_6_exact (c : Dev nD) (j : S1x128.Idx) :
    (show Vec Ideal S1x128 .f32 from (dat10 VI c).arrAt 6 cfg10.N) j = 0 + ∑ r : Fin 3000, Y10 VI c (ix2 r (j 1)) :=
  (congrFun (arrAt10_6 VI c) j).trans (sum10_exact _ _ _ _ _ j)

/-- Window 7's array after the region, at a column: zero plus the sum of the squares of window 5's column over the rows. -/
theorem arrAt10_7_exact (c : Dev nD) (j : S1x128.Idx) :
    (show Vec Ideal S1x128 .f32 from (dat10 VI c).arrAt 7 cfg10.N) j = 0 + ∑ r : Fin 3000, Y10 VI c (ix2 r (j 1)) * Y10 VI c (ix2 r (j 1)) :=
  (congrFun (arrAt10_7 VI c) j).trans (sumsq10_exact _ _ _ _ _ j)

end Exact

end Cert.KernelIdeal.Hand

end
-- ==== Proof.KI.V11.lean ====
/- Region 11 of the kernel program: the result array after the region, index by index, from the arrays the region
   is entered with. -/
import proofs.«424088_j28020366639260_2_alg».proof.Proof.KI.R11
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Values11

variable {F : FTy → Type} [FloatOps F]

variable (V : (c : Dev nD) → (b : Ref sig .tc) → Buf (Elt F) ((c : Thread nD τ).loc b))

/-- The offsets every access of the body is made at. -/
theorem off11_zero : (![0, 0] : Fin 2 → Nat) = fun _ => 0 := funext fun a => by fin_cases a <;> rfl

/-- The entry of a one-row operand that the result at index `j` reads: row 0, the lane of `j`. -/
def lane11 (j : S3000x128.Idx) : S1x128.Idx := fun a => match a with
  | ⟨0, _⟩ => ⟨0, Nat.zero_lt_one⟩
  | ⟨1, _⟩ => ⟨(j 1).val, (j 1).isLt⟩

theorem lane11_row (j : S3000x128.Idx) : (lane11 j 0).val = 0 := rfl
theorem lane11_col (j : S3000x128.Idx) : (lane11 j 1).val = (j 1).val := rfl

/-- The map the region computes, on whole arrays: at every index `max (y · scale + shift) 0`, the scale and the shift read
    at the index's lane. -/
def relu11 (y : Vec F S3000x128 .f32) (sc sf : Vec F S1x128 .f32) : Vec F S3000x128 .f32 := fun j =>
  FloatOps.maximumf (FloatOps.addf (FloatOps.mulf (y j : F .f32) (sc (lane11 j))) (sf (lane11 j))) (Scalar.ofBits .f32 0x00000000#32)

/-- A one-row operand broadcast over the rows, at an index, is the operand at the index's lane. -/
theorem bcast11_apply (x : Vec F S1x128 .f32) (j : S3000x128.Idx) :
    broadcastTo S3000x128 (x : FVec F S1x128 .f32) broadcasts_S1x128_S3000x128 j = x (lane11 j) :=
  broadcastTo_apply _ _ j (lane11 j) fun a => by fin_cases a <;> rfl

/-- The store's payload is that map of the three loaded values: the casts to the same shape are the identity, the
    broadcasts read the lane, the arithmetic is pointwise. -/
theorem pay11_eq (y : Vec F S3000x128 .f32) (sc sf : Vec F S1x128 .f32) : k11_pay1 y sc sf = relu11 y sc sf := by
  funext j
  unfold k11_pay1 relu11
  simp only [shapeCast_self]
  show FloatOps.maximumf (FloatOps.addf (FloatOps.mulf _ (broadcastTo S3000x128 (sc : FVec F S1x128 .f32) broadcasts_S1x128_S3000x128 j))
    (broadcastTo S3000x128 (sf : FVec F S1x128 .f32) broadcasts_S1x128_S3000x128 j)) _ = _
  rw [bcast11_apply, bcast11_apply]
  rfl

/-- So what the body leaves in the result's buffer is the map of the three operand buffers: each load reads its whole buffer, the
    one store writes the whole buffer. -/
theorem out11_3_eq (y : Vec F S3000x128 .f32) (sc sf : Vec F S1x128 .f32) : out11_3 y sc sf = relu11 y sc sf := by
  unfold out11_3
  rw [View.canon_unit_zero off11_zero, View.ld_unit_zero (S := S3000x128) off11_zero, View.ld_unit_zero (S := S1x128) off11_zero,
    View.ld_unit_zero (S := S1x128) off11_zero]
  exact pay11_eq y sc sf

/-! ## The region-entry arrays, at their shapes -/

/-- The operand `y` as the region finds it. -/
abbrev inY11 (c : Dev nD) : Vec F S3000x128 .f32 := V c (Pipeline.arrRef spec11 0)
/-- The scale row as the region finds it. -/
abbrev inSc11 (c : Dev nD) : Vec F S1x128 .f32 := V c (Pipeline.arrRef spec11 1)
/-- The shift row as the region finds it. -/
abbrev inSf11 (c : Dev nD) : Vec F S1x128 .f32 := V c (Pipeline.arrRef spec11 2)

/-- The result array the region leaves, as one function of the region-entry arrays. -/
abbrev res11 (c : Dev nD) : Vec F S3000x128 .f32 := relu11 (inY11 V c) (inSc11 V c) (inSf11 V c)

/-! ## Each window's one block is its whole array -/

theorem iblk11_0_eq (c : Dev nD) (t : Fin cfg11.N) : iblk11 V c 0 t = inY11 V c := by
  obtain rfl := fin_N11 t
  have hz : (fun a => win11_0.index t11_0 a * (Pipeline.arrRef spec11 0).ty.shape.size a) = fun _ => 0 :=
    funext fun a => by fin_cases a <;> decide +kernel
  exact Memref.read_access_unit_zero (Elt F) (Pipeline.arrRef spec11 0) hz (fun a => by rw [congrFun hz a]; simp) _

theorem iblk11_1_eq (c : Dev nD) (t : Fin cfg11.N) : iblk11 V c 1 t = inSc11 V c := by
  obtain rfl := fin_N11 t
  have hz : (fun a => win11_1.index t11_0 a * (Pipeline.arrRef spec11 1).ty.shape.size a) = fun _ => 0 :=
    funext fun a => by fin_cases a <;> decide +kernel
  exact Memref.read_access_unit_zero (Elt F) (Pipeline.arrRef spec11 1) hz (fun a => by rw [congrFun hz a]; simp) _

theorem iblk11_2_eq (c : Dev nD) (t : Fin cfg11.N) : iblk11 V c 2 t = inSf11 V c := by
  obtain rfl := fin_N11 t
  have hz : (fun a => win11_2.index t11_0 a * (Pipeline.arrRef spec11 2).ty.shape.size a) = fun _ => 0 :=
    funext fun a => by fin_cases a <;> decide +kernel
  exact Memref.read_access_unit_zero (Elt F) (Pipeline.arrRef spec11 2) hz (fun a => by rw [congrFun hz a]; simp) _

/-! ## The result array after the region -/

/-- The result window's block sits at the array's origin. -/
theorem org11_3 : (fun a => win11_3.index t11_0 a * (Pipeline.arrRef spec11 3).ty.shape.size a) = fun _ => 0 :=
  funext fun a => by fin_cases a <;> decide +kernel

/-- What the one write-back moves is the map of the region-entry arrays, read through the result's block. -/
theorem flushed11_3 (c : Dev nD) (t : Fin cfg11.N) (hf : (cfg11.win 3).flush t = true) :
    (dat11 V c).flushed 3 t = ((cfg11.win 3).blk t).view.read (Elt F) (res11 V c) := by
  obtain rfl := fin_N11 t
  show (cfg11.win 3).cut (grid11.coords t11_0) ((dat11 V c).after 3 t11_0) = _
  rw [after11_3, out11_3_eq, iblk11_0_eq, iblk11_1_eq, iblk11_2_eq]
  exact (Memref.read_access_unit_zero (Elt F) (Pipeline.arrRef spec11 3) org11_3 (fun a => by rw [congrFun org11_3 a]; simp) (res11 V c)).symm

/-- THE VALUE: after the region the result array holds, at every index, `max (y · scale + shift) 0` of the region-entry
    arrays. The one block of the result window is the whole array, so its write-back covers every index. -/
theorem arrAt11_3 (c : Dev nD) : (dat11 V c).arrAt 3 cfg11.N = fun i =>
    FloatOps.maximumf (FloatOps.addf (FloatOps.mulf (inY11 V c i : F .f32) (inSc11 V c (lane11 i))) (inSf11 V c (lane11 i)))
      (Scalar.ofBits .f32 0x00000000#32) :=
  (dat11 V c).arrAt_eq_of_cover 3 (res11 V c) (flushed11_3 V c) fun i =>
    ⟨t11_0, flush11_3 t11_0, by
      show i ∈ ((View.whole (Pipeline.arrRef spec11 3)).slice (win11_3.rect t11_0)).set
      rw [View.set_slice_whole]
      exact View.mem_set_unit_zero org11_3 _ i⟩

/-- The same, the map kept as the body's own store over the region-entry arrays. -/
theorem arrAt11_3_out (c : Dev nD) : (dat11 V c).arrAt 3 cfg11.N = out11_3 (inY11 V c) (inSc11 V c) (inSf11 V c) :=
  (arrAt11_3 V c).trans (out11_3_eq _ _ _).symm

end Values11

/-! ## The same at the extended reals -/

section Ideal11

variable (V : (c : Dev nD) → (b : Ref sig .tc) → Buf (Elt Ideal) ((c : Thread nD τ).loc b))

/-- At the exact arithmetic of the extended reals the result is `max (y * scale + shift) 0`, index by index. -/
theorem arrAt11_3_ideal (c : Dev nD) (i : S3000x128.Idx) :
    ((dat11 (F := Ideal) V c).arrAt 3 cfg11.N : Vec Ideal S3000x128 .f32) i
      = max ((inY11 V c i : EReal) * (inSc11 V c (lane11 i) : EReal) + (inSf11 V c (lane11 i) : EReal)) 0 := by
  rw [arrAt11_3]
  show max (_ * _ + _) (Ideal.ofBits .f32 0x00000000#32) = _
  rw [Ideal.ofBits_zero_f32]

end Ideal11

end Cert.KernelIdeal.Hand

end
-- ==== Proof.Val.LabK3.lean ====
/-
  The medication rows of the first graph layer in the kernel program, from the contents before the branch's weight slices
  to the contents after its rectified normalisation. The host cuts relation 4's two weight matrices out of the
  weight arrays and transposes them, and cuts out its bias row; the first region forms y = bias + mean·Wlᵀ + x·Wrᵀ
  together with the column sums of y and of y·y; the host turns the sums into the scale and the shift rows of the
  normalisation; the second region applies them and rectifies. Read at a row and a column this is the
  scale-and-shift form of the normalisation over the affine map.
-/
import proofs.«424088_j28020366639260_2_alg».proof.Proof.KI.Args
import proofs.«424088_j28020366639260_2_alg».proof.Proof.KI.V10
import proofs.«424088_j28020366639260_2_alg».proof.Proof.KI.V11
import proofs.«424088_j28020366639260_2_alg».proof.Proof.Val.LabTerms
import Idealize.ShloMosaic.Lib.StableHlo.Run

set_option maxRecDepth 16384
set_option maxHeartbeats 4000000

noncomputable section

namespace Cert.Val.Lab

open Cert.KernelIdeal Cert.KernelIdeal.Gen Cert.KernelIdeal.Hand
open Idealize.ShloMosaic Idealize.ShloMosaic.TcCoe Idealize.ShloMosaic.StableHlo Idealize.ShloMosaic.ValueIdx Idealize.SL.Sem
open Cert.Lib.ERealArith
open scoped BigOperators

/-! ## The weight stretch, at any contents -/

/-- The left weights as the region reads them: entry (k, q) is entry (q, k) of matrix (0, 4) of the weight array. -/
theorem med1_wl (V : Valuation τ sig (Elt Ideal)) (k q : Fin 128) :
    (StableHlo.after hostOps10 V (Proc.devRef .tc main_v289) : (Sh2 128 128).Idx → EReal) (ix2 k q)
      = (V (Proc.devRef .tc main_arg12) : (⟨4, ![2, 6, 128, 128]⟩ : Shape).Idx → EReal) (ix4 (0 : Fin 2) (4 : Fin 6) q k) := by
  have e : (StableHlo.after hostOps10 V (Proc.devRef .tc main_v289) : (Sh2 128 128).Idx → EReal)
      = transpose (Sh2 128 128) [1, 0]
          (shapeCast (Sh2 128 128) (extractStridedSlice ⟨4, ![1, 1, 128, 128]⟩ ![0, 4, 0, 0]
            (V (Proc.devRef .tc main_arg12)) slices_S2x6x128x128_S1x1x128x128_0_4_0_0) shapeCasts_S1x1x128x128_S128x128)
          transposes_S128x128_S128x128_1_0 := by
    after_results_simp
    rfl
  rw [e, transpose_sq_apply, mat_slice_apply 0 4 (by decide) (by decide)]
  rfl

/-- The right weights likewise. -/
theorem med1_wr (V : Valuation τ sig (Elt Ideal)) (k q : Fin 128) :
    (StableHlo.after hostOps10 V (Proc.devRef .tc main_v292) : (Sh2 128 128).Idx → EReal) (ix2 k q)
      = (V (Proc.devRef .tc main_arg14) : (⟨4, ![2, 6, 128, 128]⟩ : Shape).Idx → EReal) (ix4 (0 : Fin 2) (4 : Fin 6) q k) := by
  have e : (StableHlo.after hostOps10 V (Proc.devRef .tc main_v292) : (Sh2 128 128).Idx → EReal)
      = transpose (Sh2 128 128) [1, 0]
          (shapeCast (Sh2 128 128) (extractStridedSlice ⟨4, ![1, 1, 128, 128]⟩ ![0, 4, 0, 0]
            (V (Proc.devRef .tc main_arg14)) slices_S2x6x128x128_S1x1x128x128_0_4_0_0) shapeCasts_S1x1x128x128_S128x128)
          transposes_S128x128_S128x128_1_0 := by
    after_results_simp
    rfl
  rw [e, transpose_sq_apply, mat_slice_apply 0 4 (by decide) (by decide)]
  rfl

/-- The bias row: entry q is entry (0, 4, q) of the bias array. -/
theorem med1_b (V : Valuation τ sig (Elt Ideal)) (q : Fin 128) :
    (StableHlo.after hostOps10 V (Proc.devRef .tc main_v295) : T1x128.Idx → EReal) (ix2 (0 : Fin 1) q)
      = (V (Proc.devRef .tc main_arg13) : (⟨3, ![2, 6, 128]⟩ : Shape).Idx → EReal) (ix3 (0 : Fin 2) (4 : Fin 6) q) := by
  have e : (StableHlo.after hostOps10 V (Proc.devRef .tc main_v295) : T1x128.Idx → EReal)
      = shapeCast T1x128 (shapeCast T128 (extractStridedSlice ⟨3, ![1, 1, 128]⟩ ![0, 4, 0]
            (V (Proc.devRef .tc main_arg13)) slices_S2x6x128_S1x1x128_0_4_0) shapeCasts_S1x1x128_S128) shapeCasts_S128_S1x128 := by
    after_results_simp
    rfl
  rw [e, shapeCast_a_1a_apply, vec_slice_apply 0 4 (by decide) (by decide)]
  rfl

/-! ## The normalisation stretch, at any contents -/

/-- The gain row of the medication normalisation of layer 0, cut out of the gain array. -/
abbrev med1_g (V : Valuation τ sig (Elt Ideal)) : FVec Ideal T128 .f32 :=
  shapeCast T128 (extractStridedSlice ⟨3, ![1, 1, 128]⟩ ![0, 3, 0] (V (Proc.devRef .tc main_arg15))
    slices_S2x4x128_S1x1x128_0_3_0) shapeCasts_S1x1x128_S128
/-- The offset row likewise. -/
abbrev med1_β (V : Valuation τ sig (Elt Ideal)) : FVec Ideal T128 .f32 :=
  shapeCast T128 (extractStridedSlice ⟨3, ![1, 1, 128]⟩ ![0, 3, 0] (V (Proc.devRef .tc main_arg16))
    slices_S2x4x128_S1x1x128_0_3_0) shapeCasts_S1x1x128_S128

/-- The scale row the host leaves for the second region. -/
theorem med1_scale (V : Valuation τ sig (Elt Ideal)) :
    (StableHlo.after hostOps11 V (Proc.devRef .tc main_v315) : T1x128.Idx → EReal)
      = shapeCast T1x128 (kScale shapeCasts_S1x128_S128 bcast_S_S128 0x453B8000#32
          (V (Proc.devRef .tc main_v296_1)) (V (Proc.devRef .tc main_v296_2)) (med1_g V)) shapeCasts_S128_S1x128 := by
  after_results_simp
  rfl

/-- The shift row. -/
theorem med1_shift (V : Valuation τ sig (Elt Ideal)) :
    (StableHlo.after hostOps11 V (Proc.devRef .tc main_v316) : T1x128.Idx → EReal)
      = shapeCast T1x128 (kShift shapeCasts_S1x128_S128 bcast_S_S128 0x453B8000#32
          (V (Proc.devRef .tc main_v296_1)) (V (Proc.devRef .tc main_v296_2)) (med1_g V) (med1_β V)) shapeCasts_S128_S1x128 := by
  after_results_simp
  rfl

/-! ## The branch -/

/-- A column's lane in the one-row arrays. -/
theorem med1_lane (p : Fin 3000) (q : Fin 128) : lane11 (ix2 p q) = ix2 (0 : Fin 1) q := by
  funext a
  match a with
  | ⟨0, _⟩ => rfl
  | ⟨1, _⟩ => rfl

/-- The row count as the host's literal. -/
theorem med1_N : Ideal.ofBits .f32 0x453B8000#32 = ((((3000 : ℕ) : ℝ)) : EReal) := by
  rw [ofBits_3000]; norm_num

variable (m : (ℓ : Loc nD τ sig) → Buf (Elt Ideal) ℓ) (ρ : Dev nD → PrngReg)

/-- What the first region leaves: the matrix y, the row of its column sums, the row of the column sums of y·y. -/
abbrev med1_Y (c : Dev nD) : (Sh2 3000 128).Idx → EReal := W21 m ρ c (Proc.devRef .tc main_v296_0)
abbrev med1_S (c : Dev nD) : T1x128.Idx → EReal := W21 m ρ c (Proc.devRef .tc main_v296_1)
abbrev med1_Q (c : Dev nD) : T1x128.Idx → EReal := W21 m ρ c (Proc.devRef .tc main_v296_2)

/-- What the first region leaves in its first output array: the affine map of the entry arrays, at (p, q). -/
theorem med1_y (c : Dev nD) (p : Fin 3000) (q : Fin 128) :
    med1_Y m ρ c (ix2 p q)
      = affC (0 : Fin 2) (4 : Fin 6) (coords (W19 m ρ c (Proc.devRef .tc main_v175))) (coords (W19 m ρ c (Proc.devRef .tc main_arg3)))
          (W19 m ρ c (Proc.devRef .tc main_arg12)) (W19 m ρ c (Proc.devRef .tc main_arg14)) (W19 m ρ c (Proc.devRef .tc main_arg13)) p q := by
  have hY : med1_Y m ρ c = Y10 (VE10 m ρ) c :=
    (Wexit10_arr m ρ c 5).trans (arrAt10_5_exact (VE10 m ρ) c)
  rw [hY, Y10_exact]
  unfold affC
  have hb : in10_4 (VE10 m ρ) c (ix2 0 q) = (W19 m ρ c (Proc.devRef .tc main_arg13) : (⟨3, ![2, 6, 128]⟩ : Shape).Idx → EReal) (ix3 (0 : Fin 2) (4 : Fin 6) q) :=
    (congrFun (congrFun (W20_eq m ρ c) (Proc.devRef .tc main_v295)) (ix2 0 q)).trans (med1_b (W19 m ρ c) q)
  have hwl : ∀ k : Fin 128, in10_2 (VE10 m ρ) c (ix2 k q) = (W19 m ρ c (Proc.devRef .tc main_arg12) : (⟨4, ![2, 6, 128, 128]⟩ : Shape).Idx → EReal) (ix4 (0 : Fin 2) (4 : Fin 6) q k) :=
    fun k => (congrFun (congrFun (W20_eq m ρ c) (Proc.devRef .tc main_v289)) (ix2 k q)).trans (med1_wl (W19 m ρ c) k q)
  have hwr : ∀ k : Fin 128, in10_3 (VE10 m ρ) c (ix2 k q) = (W19 m ρ c (Proc.devRef .tc main_arg14) : (⟨4, ![2, 6, 128, 128]⟩ : Shape).Idx → EReal) (ix4 (0 : Fin 2) (4 : Fin 6) q k) :=
    fun k => (congrFun (congrFun (W20_eq m ρ c) (Proc.devRef .tc main_v292)) (ix2 k q)).trans (med1_wr (W19 m ρ c) k q)
  have hA : (in10_0 (VE10 m ρ) c : (Sh2 3000 128).Idx → EReal) = W19 m ρ c (Proc.devRef .tc main_v175) :=
    W20_of m ρ c main_v175 (by decide)
  have hB : (in10_1 (VE10 m ρ) c : (Sh2 3000 128).Idx → EReal) = W19 m ρ c (Proc.devRef .tc main_arg3) :=
    W20_of m ρ c main_arg3 (by decide)
  rw [hb, hA, hB]
  simp only [hwl, hwr]

/-- THE MEDICATION BRANCH OF LAYER 0 in the kernel program. -/
theorem K_med1 (c : Dev nD) :
    (W23 m ρ c (Proc.devRef .tc main_v317) : (Sh2 3000 128).Idx → EReal)
      = bnK (((3000 : ℕ) : ℝ) : EReal) ((eps5 : ℝ) : EReal) (0 : Fin 2) (3 : Fin 4)
          (aff (0 : Fin 2) (4 : Fin 6) (W19 m ρ c (Proc.devRef .tc main_v175)) (W19 m ρ c (Proc.devRef .tc main_arg3))
            (W19 m ρ c (Proc.devRef .tc main_arg12) : FVec Ideal S2x6x128x128 .f32) (W19 m ρ c (Proc.devRef .tc main_arg14) : FVec Ideal S2x6x128x128 .f32) (W19 m ρ c (Proc.devRef .tc main_arg13) : FVec Ideal S2x6x128 .f32))
          (W19 m ρ c (Proc.devRef .tc main_arg15) : FVec Ideal S2x4x128 .f32) (W19 m ρ c (Proc.devRef .tc main_arg16) : FVec Ideal S2x4x128 .f32) := by
  funext j
  obtain ⟨p, q, rfl⟩ : ∃ (p : Fin 3000) (q : Fin 128), j = ix2 p q := ⟨j 0, j 1, eq_ix2 j⟩
  -- the first region's three arrays, as the normalisation stretch and the second region find them
  have hY : med1_Y m ρ c = Y10 (VE10 m ρ) c :=
    (Wexit10_arr m ρ c 5).trans (arrAt10_5_exact (VE10 m ρ) c)
  have hs : ∀ q' : Fin 128, med1_S m ρ c (ix2 (0 : Fin 1) q')
      = (0 : EReal) + ∑ i : Fin 3000, med1_Y m ρ c (ix2 i q') := fun q' => by
    rw [hY]
    exact (congrFun (Wexit10_arr m ρ c 6) (ix2 0 q')).trans (arrAt10_6_exact (VE10 m ρ) c (ix2 0 q'))
  have hsq : ∀ q' : Fin 128, med1_Q m ρ c (ix2 (0 : Fin 1) q')
      = (0 : EReal) + ∑ i : Fin 3000, med1_Y m ρ c (ix2 i q')
          * med1_Y m ρ c (ix2 i q') := fun q' => by
    rw [hY]
    exact (congrFun (Wexit10_arr m ρ c 7) (ix2 0 q')).trans (arrAt10_7_exact (VE10 m ρ) c (ix2 0 q'))
  -- the second region's output at (p, q)
  have h7 := (congrFun (Wexit11_arr m ρ c 3) (ix2 p q)).trans (arrAt11_3_ideal (VE11 m ρ) c (ix2 p q))
  have hy7 : (inY11 (VE11 m ρ) c : (Sh2 3000 128).Idx → EReal) = med1_Y m ρ c :=
    W22_of m ρ c main_v296_0 (by decide)
  have hsc : (inSc11 (VE11 m ρ) c : T1x128.Idx → EReal) = _ :=
    (congrFun (W22_eq m ρ c) (Proc.devRef .tc main_v315)).trans (med1_scale (W21 m ρ c))
  have hsf : (inSf11 (VE11 m ρ) c : T1x128.Idx → EReal) = _ :=
    (congrFun (W22_eq m ρ c) (Proc.devRef .tc main_v316)).trans (med1_shift (W21 m ρ c))
  rw [med1_lane, hy7, hsc, hsf] at h7
  refine h7.trans ?_
  rw [kBN_apply 0x453B8000#32 _ med1_N _ _ _ hs hsq]
  -- the two sides are the same scale-and-shift form: the same matrix, the same gain and offset rows
  show bnKC _ _ _ _ _ p q = bnKC _ _ _ _ _ p q
  have hyc : coords (med1_Y m ρ c)
      = coords (aff (0 : Fin 2) (4 : Fin 6) (W19 m ρ c (Proc.devRef .tc main_v175)) (W19 m ρ c (Proc.devRef .tc main_arg3))
          (W19 m ρ c (Proc.devRef .tc main_arg12)) (W19 m ρ c (Proc.devRef .tc main_arg14)) (W19 m ρ c (Proc.devRef .tc main_arg13))) :=
    funext fun p' => funext fun q' => med1_y m ρ c p' q'
  have h15 : (W21 m ρ c (Proc.devRef .tc main_arg15) : (⟨3, ![2, 4, 128]⟩ : Shape).Idx → EReal) = W19 m ρ c (Proc.devRef .tc main_arg15) :=
    (Wexit10_keep m ρ c main_arg15 (by decide)).trans (W20_of m ρ c main_arg15 (by decide))
  have h16 : (W21 m ρ c (Proc.devRef .tc main_arg16) : (⟨3, ![2, 4, 128]⟩ : Shape).Idx → EReal) = W19 m ρ c (Proc.devRef .tc main_arg16) :=
    (Wexit10_keep m ρ c main_arg16 (by decide)).trans (W20_of m ρ c main_arg16 (by decide))
  have hg : (fun q' : Fin 128 => med1_g (W21 m ρ c) (ix1 q'))
      = fun q' => (W19 m ρ c (Proc.devRef .tc main_arg15) : (⟨3, ![2, 4, 128]⟩ : Shape).Idx → EReal) (ix3 (0 : Fin 2) (3 : Fin 4) q') :=
    funext fun q' => by rw [← h15]; exact vec_slice_apply 0 3 (by decide) (by decide) _ _ _ q'
  have hβ : (fun q' : Fin 128 => med1_β (W21 m ρ c) (ix1 q'))
      = fun q' => (W19 m ρ c (Proc.devRef .tc main_arg16) : (⟨3, ![2, 4, 128]⟩ : Shape).Idx → EReal) (ix3 (0 : Fin 2) (3 : Fin 4) q') :=
    funext fun q' => by rw [← h16]; exact vec_slice_apply 0 3 (by decide) (by decide) _ _ _ q'
  rw [hyc, hg, hβ]

end Cert.Val.Lab

end
-- ==== Proof.KI.V14.lean ====
/- Region 14 of the kernel program: what its three output arrays hold after the region, each as ONE
   whole-array function of the arrays the region is entered with.

   The grid has one point and every window's one block is its whole array, so the array after the
   region is what the body left in the window's buffer: y = b + x0·w0 + x1·w1 (window 5), the column
   sums of y added onto a zero row (window 6), the column sums of y·y added onto a zero row (window 7),
   stated through the body's payloads applied to the whole entry arrays (any float semantics), and then,
   at the exact values, index by index over the extended reals: the products as sums over the 128
   contraction coordinates, the column sums as sums over the rows. -/
import proofs.«424088_j28020366639260_2_alg».proof.Proof.KI.R14
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The outputs' buffers after the body, as the payloads of the whole input blocks -/

theorem hz14 : (![0, 0] : Fin 2 → Nat) = fun _ => 0 := funext fun a => by fin_cases a <;> rfl

/-- Window 5's buffer: `y` of the blocks. -/
theorem out14_5_eq (x0 x1 : Vec F S2000x128 .f32) (x2 x3 : Vec F S128x128 .f32) (x4 : Vec F S1x128 .f32) :
    out14_5 x0 x1 x2 x3 x4 = k14_pay4 x4 x0 x2 x1 x3 := by
  unfold out14_5 y14
  rw [View.canon_unit_zero hz14]
  simp only [View.ld_unit_zero (S := S2000x128) hz14, View.ld_unit_zero (S := S128x128) hz14, View.ld_unit_zero (S := S1x128) hz14]

/-- Window 6's buffer: the column sums of `y` added onto the zero row. -/
theorem out14_6_eq (x0 x1 : Vec F S2000x128 .f32) (x2 x3 : Vec F S128x128 .f32) (x4 : Vec F S1x128 .f32) :
    out14_6 x0 x1 x2 x3 x4 = k14_pay6 x4 x0 x2 x1 x3 (k14_pay2 (F := F)) := by
  unfold out14_6
  rw [View.canon_cons_unit_zero hz14]
  simp only [View.ld_unit_zero (S := S2000x128) hz14, View.ld_unit_zero (S := S128x128) hz14, View.ld_unit_zero (S := S1x128) hz14]

/-- Window 7's buffer: the column sums of `y·y` added onto the zero row. -/
theorem out14_7_eq (x0 x1 : Vec F S2000x128 .f32) (x2 x3 : Vec F S128x128 .f32) (x4 : Vec F S1x128 .f32) :
    out14_7 x0 x1 x2 x3 x4 = k14_pay1 (k14_pay5 x4 x0 x2 x1 x3) (k14_pay3 (F := F)) := by
  unfold out14_7
  rw [View.canon_cons_unit_zero hz14]
  simp only [View.ld_unit_zero (S := S2000x128) hz14, View.ld_unit_zero (S := S128x128) hz14, View.ld_unit_zero (S := S1x128) hz14]

/-! ## Each window's one block is its whole array -/

/-- The region's array of window `w` as the region finds it. -/
abbrev A14 (c : Dev nD) (w : Fin cfg14.W) : Buf (Elt F) ((c : Thread nD τ).loc (Pipeline.arrRef spec14 w)) := V c (Pipeline.arrRef spec14 w)

theorem iblk14_0_eq (c : Dev nD) (t : Fin cfg14.N) : (iblk14 V c 0 t : Vec F S2000x128 .f32) = A14 V c 0 := by
  obtain rfl := fin_N14 t
  unfold iblk14
  have hz' : (fun a => win14_0.index t14_0 a * (Pipeline.arrRef spec14 0).ty.shape.size a) = fun _ => 0 :=
    funext fun a => by fin_cases a <;> decide
  exact Memref.read_access_unit_zero (Elt F) (Pipeline.arrRef spec14 0) hz' (fun a => by rw [congrFun hz' a]; simp) _
theorem iblk14_1_eq (c : Dev nD) (t : Fin cfg14.N) : (iblk14 V c 1 t : Vec F S2000x128 .f32) = A14 V c 1 := by
  obtain rfl := fin_N14 t
  unfold iblk14
  have hz' : (fun a => win14_1.index t14_0 a * (Pipeline.arrRef spec14 1).ty.shape.size a) = fun _ => 0 :=
    funext fun a => by fin_cases a <;> decide
  exact Memref.read_access_unit_zero (Elt F) (Pipeline.arrRef spec14 1) hz' (fun a => by rw [congrFun hz' a]; simp) _
theorem iblk14_2_eq (c : Dev nD) (t : Fin cfg14.N) : (iblk14 V c 2 t : Vec F S128x128 .f32) = A14 V c 2 := by
  obtain rfl := fin_N14 t
  unfold iblk14
  have hz' : (fun a => win14_2.index t14_0 a * (Pipeline.arrRef spec14 2).ty.shape.size a) = fun _ => 0 :=
    funext fun a => by fin_cases a <;> decide
  exact Memref.read_access_unit_zero (Elt F) (Pipeline.arrRef spec14 2) hz' (fun a => by rw [congrFun hz' a]; simp) _
theorem iblk14_3_eq (c : Dev nD) (t : Fin cfg14.N) : (iblk14 V c 3 t : Vec F S128x128 .f32) = A14 V c 3 := by
  obtain rfl := fin_N14 t
  unfold iblk14
  have hz' : (fun a => win14_3.index t14_0 a * (Pipeline.arrRef spec14 3).ty.shape.size a) = fun _ => 0 :=
    funext fun a => by fin_cases a <;> decide
  exact Memref.read_access_unit_zero (Elt F) (Pipeline.arrRef spec14 3) hz' (fun a => by rw [congrFun hz' a]; simp) _
theorem iblk14_4_eq (c : Dev nD) (t : Fin cfg14.N) : (iblk14 V c 4 t : Vec F S1x128 .f32) = A14 V c 4 := by
  obtain rfl := fin_N14 t
  unfold iblk14
  have hz' : (fun a => win14_4.index t14_0 a * (Pipeline.arrRef spec14 4).ty.shape.size a) = fun _ => 0 :=
    funext fun a => by fin_cases a <;> decide
  exact Memref.read_access_unit_zero (Elt F) (Pipeline.arrRef spec14 4) hz' (fun a => by rw [congrFun hz' a]; simp) _

/-! ## The arrays after the region -/

/-- What the region leaves in window 5's array: `y` of the entry arrays. -/
abbrev G14_5 (c : Dev nD) : Buf (Elt F) ((c : Thread nD τ).loc (Pipeline.arrRef spec14 5)) :=
  k14_pay4 (A14 V c 4) (A14 V c 0) (A14 V c 2) (A14 V c 1) (A14 V c 3)
/-- in window 6's: the column sums of `y` added onto the zero row; -/
abbrev G14_6 (c : Dev nD) : Buf (Elt F) ((c : Thread nD τ).loc (Pipeline.arrRef spec14 6)) :=
  k14_pay6 (A14 V c 4) (A14 V c 0) (A14 V c 2) (A14 V c 1) (A14 V c 3) (k14_pay2 (F := F))
/-- in window 7's: the column sums of `y·y` added onto the zero row. -/
abbrev G14_7 (c : Dev nD) : Buf (Elt F) ((c : Thread nD τ).loc (Pipeline.arrRef spec14 7)) :=
  k14_pay1 (k14_pay5 (A14 V c 4) (A14 V c 0) (A14 V c 2) (A14 V c 1) (A14 V c 3)) (k14_pay3 (F := F))

/-- The one write-back of window 5 writes it: the block at zero offsets is the array. -/
theorem flushed14_5 (c : Dev nD) (t : Fin cfg14.N) :
    (dat14 V c).flushed 5 t = ((cfg14.win 5).blk t).view.read (Elt F) (G14_5 V c) := by
  obtain rfl := fin_N14 t
  show (cfg14.win 5).cut (grid14.coords t14_0) ((dat14 V c).after 5 t14_0) = _
  rw [after14_5, out14_5_eq, iblk14_0_eq, iblk14_1_eq, iblk14_2_eq, iblk14_3_eq, iblk14_4_eq]
  have hz' : (fun a => win14_5.index t14_0 a * (Pipeline.arrRef spec14 5).ty.shape.size a) = fun _ => 0 :=
    funext fun a => by fin_cases a <;> decide
  exact (Memref.read_access_unit_zero (Elt F) (Pipeline.arrRef spec14 5) hz' (fun a => by rw [congrFun hz' a]; simp) (G14_5 V c)).symm

/-- Its one block covers the array. -/
theorem covers14_5 (c : Dev nD) (i : ((cfg14.win 5).arr.view.loc (c.tc : Thread nD τ)).2.ty.Idx) :
    ∃ t : Fin cfg14.N, (cfg14.win 5).flush t = true ∧ i ∈ ((cfg14.win 5).blk t).view.set := by
  refine ⟨t14_0, flush14_5 t14_0, ?_⟩
  show i ∈ ((View.whole (Pipeline.arrRef spec14 5)).slice (win14_5.rect t14_0)).set
  rw [View.set_slice_whole, Rect.mem_set_unit]
  intro a
  have h0 : win14_5.index t14_0 a * win14_5.size a = 0 := by fin_cases a <;> decide
  have h1 : win14_5.xsize (grid14.coords t14_0) a = (Pipeline.arrRef spec14 5).ty.shape.size a := by fin_cases a <;> decide
  show win14_5.index t14_0 a * win14_5.size a ≤ (i a : Nat) ∧ (i a : Nat) < win14_5.index t14_0 a * win14_5.size a + win14_5.xsize (grid14.coords t14_0) a
  rw [h0, h1]
  exact ⟨Nat.zero_le _, by simpa using (i a).isLt⟩

/-- THE VALUE of window 5's array after the region. -/
theorem arrAt14_5 (c : Dev nD) : (dat14 V c).arrAt 5 cfg14.N = G14_5 V c :=
  (dat14 V c).arrAt_eq_of_cover 5 (G14_5 V c) (fun t _ => flushed14_5 V c t) (covers14_5 c)

/-- The one write-back of window 6 writes it: the block at zero offsets is the array. -/
theorem flushed14_6 (c : Dev nD) (t : Fin cfg14.N) :
    (dat14 V c).flushed 6 t = ((cfg14.win 6).blk t).view.read (Elt F) (G14_6 V c) := by
  obtain rfl := fin_N14 t
  show (cfg14.win 6).cut (grid14.coords t14_0) ((dat14 V c).after 6 t14_0) = _
  rw [after14_6, out14_6_eq, iblk14_0_eq, iblk14_1_eq, iblk14_2_eq, iblk14_3_eq, iblk14_4_eq]
  have hz' : (fun a => win14_6.index t14_0 a * (Pipeline.arrRef spec14 6).ty.shape.size a) = fun _ => 0 :=
    funext fun a => by fin_cases a <;> decide
  exact (Memref.read_access_unit_zero (Elt F) (Pipeline.arrRef spec14 6) hz' (fun a => by rw [congrFun hz' a]; simp) (G14_6 V c)).symm

/-- Its one block covers the array. -/
theorem covers14_6 (c : Dev nD) (i : ((cfg14.win 6).arr.view.loc (c.tc : Thread nD τ)).2.ty.Idx) :
    ∃ t : Fin cfg14.N, (cfg14.win 6).flush t = true ∧ i ∈ ((cfg14.win 6).blk t).view.set := by
  refine ⟨t14_0, flush14_6 t14_0, ?_⟩
  show i ∈ ((View.whole (Pipeline.arrRef spec14 6)).slice (win14_6.rect t14_0)).set
  rw [View.set_slice_whole, Rect.mem_set_unit]
  intro a
  have h0 : win14_6.index t14_0 a * win14_6.size a = 0 := by fin_cases a <;> decide
  have h1 : win14_6.xsize (grid14.coords t14_0) a = (Pipeline.arrRef spec14 6).ty.shape.size a := by fin_cases a <;> decide
  show win14_6.index t14_0 a * win14_6.size a ≤ (i a : Nat) ∧ (i a : Nat) < win14_6.index t14_0 a * win14_6.size a + win14_6.xsize (grid14.coords t14_0) a
  rw [h0, h1]
  exact ⟨Nat.zero_le _, by simpa using (i a).isLt⟩

/-- THE VALUE of window 6's array after the region. -/
theorem arrAt14_6 (c : Dev nD) : (dat14 V c).arrAt 6 cfg14.N = G14_6 V c :=
  (dat14 V c).arrAt_eq_of_cover 6 (G14_6 V c) (fun t _ => flushed14_6 V c t) (covers14_6 c)

/-- The one write-back of window 7 writes it: the block at zero offsets is the array. -/
theorem flushed14_7 (c : Dev nD) (t : Fin cfg14.N) :
    (dat14 V c).flushed 7 t = ((cfg14.win 7).blk t).view.read (Elt F) (G14_7 V c) := by
  obtain rfl := fin_N14 t
  show (cfg14.win 7).cut (grid14.coords t14_0) ((dat14 V c).after 7 t14_0) = _
  rw [after14_7, out14_7_eq, iblk14_0_eq, iblk14_1_eq, iblk14_2_eq, iblk14_3_eq, iblk14_4_eq]
  have hz' : (fun a => win14_7.index t14_0 a * (Pipeline.arrRef spec14 7).ty.shape.size a) = fun _ => 0 :=
    funext fun a => by fin_cases a <;> decide
  exact (Memref.read_access_unit_zero (Elt F) (Pipeline.arrRef spec14 7) hz' (fun a => by rw [congrFun hz' a]; simp) (G14_7 V c)).symm

/-- Its one block covers the array. -/
theorem covers14_7 (c : Dev nD) (i : ((cfg14.win 7).arr.view.loc (c.tc : Thread nD τ)).2.ty.Idx) :
    ∃ t : Fin cfg14.N, (cfg14.win 7).flush t = true ∧ i ∈ ((cfg14.win 7).blk t).view.set := by
  refine ⟨t14_0, flush14_7 t14_0, ?_⟩
  show i ∈ ((View.whole (Pipeline.arrRef spec14 7)).slice (win14_7.rect t14_0)).set
  rw [View.set_slice_whole, Rect.mem_set_unit]
  intro a
  have h0 : win14_7.index t14_0 a * win14_7.size a = 0 := by fin_cases a <;> decide
  have h1 : win14_7.xsize (grid14.coords t14_0) a = (Pipeline.arrRef spec14 7).ty.shape.size a := by fin_cases a <;> decide
  show win14_7.index t14_0 a * win14_7.size a ≤ (i a : Nat) ∧ (i a : Nat) < win14_7.index t14_0 a * win14_7.size a + win14_7.xsize (grid14.coords t14_0) a
  rw [h0, h1]
  exact ⟨Nat.zero_le _, by simpa using (i a).isLt⟩

/-- THE VALUE of window 7's array after the region. -/
theorem arrAt14_7 (c : Dev nD) : (dat14 V c).arrAt 7 cfg14.N = G14_7 V c :=
  (dat14 V c).arrAt_eq_of_cover 7 (G14_7 V c) (fun t _ => flushed14_7 V c t) (covers14_7 c)

/-! ## At the exact values (F := Ideal): the payloads index by index, over the extended reals -/

section Exact
open Idealize.ShloMosaic.ValueIdx

/-- The dimension numbers of the body's two products: rows × (128 × 128). -/
abbrev dot14 : DotDims S2000x128 S128x128 S2000x128 := dot_S2000x128_S128x128_S2000x128_1_0_0_1_n_n

/-- `y` at an index: the bias at the column, plus the two products' sums over the contraction index. -/
theorem k14_pay4_exact (b : Vec Ideal S1x128 .f32) (x0 : Vec Ideal S2000x128 .f32) (w0 : Vec Ideal S128x128 .f32)
    (x1 : Vec Ideal S2000x128 .f32) (w1 : Vec Ideal S128x128 .f32) (j : S2000x128.Idx) :
    k14_pay4 (F := Ideal) b x0 w0 x1 w1 j
      = (broadcastTo S2000x128 b broadcasts_S1x128_S2000x128 j + ∑ q : dot14.contr.Idx, x0 (dot14.lhsIdx j q) * w0 (dot14.rhsIdx j q))
        + ∑ q : dot14.contr.Idx, x1 (dot14.lhsIdx j q) * w1 (dot14.rhsIdx j q) := by
  unfold k14_pay4
  simp only [shapeCast_self, matmul]
  rw [addf_apply, addf_apply, Ideal.matmul_constant_zero_apply, Ideal.matmul_constant_zero_apply]
  simp only [truncf_apply]

/-- The zero rows the body stores first. -/
theorem k14_pay2_exact (j : S1x128.Idx) : k14_pay2 (F := Ideal) j = 0 := by
  unfold k14_pay2; exact Ideal.ofBits_zero_f32
theorem k14_pay3_exact (j : S1x128.Idx) : k14_pay3 (F := Ideal) j = 0 := by
  unfold k14_pay3; exact Ideal.ofBits_zero_f32

/-- The column sums of `y` added onto the row read back. -/
theorem k14_pay6_exact (b : Vec Ideal S1x128 .f32) (x0 : Vec Ideal S2000x128 .f32) (w0 : Vec Ideal S128x128 .f32)
    (x1 : Vec Ideal S2000x128 .f32) (w1 : Vec Ideal S128x128 .f32) (z : Vec Ideal S1x128 .f32) (j : S1x128.Idx) :
    k14_pay6 (F := Ideal) b x0 w0 x1 w1 z j
      = z j + ∑ r : Fin (S2000x128.size 0), k14_pay4 (F := Ideal) b x0 w0 x1 w1 (reduces_S2000x128_S128.lift (fun a => j a.succ) r) := by
  unfold k14_pay6
  simp only [shapeCast_self]
  rw [addf_apply, shapeCast_addUnit_apply (n := 1) ![128]]
  exact congrArg (z j + ·) (Ideal.multiReduction_add_single _ _ reduces_S2000x128_S128 _ _ _)

/-- The column sums of `y·y`. -/
theorem k14_pay5_exact (b : Vec Ideal S1x128 .f32) (x0 : Vec Ideal S2000x128 .f32) (w0 : Vec Ideal S128x128 .f32)
    (x1 : Vec Ideal S2000x128 .f32) (w1 : Vec Ideal S128x128 .f32) (j : S1x128.Idx) :
    k14_pay5 (F := Ideal) b x0 w0 x1 w1 j
      = ∑ r : Fin (S2000x128.size 0), k14_pay4 (F := Ideal) b x0 w0 x1 w1 (reduces_S2000x128_S128.lift (fun a => j a.succ) r)
          * k14_pay4 (F := Ideal) b x0 w0 x1 w1 (reduces_S2000x128_S128.lift (fun a => j a.succ) r) := by
  unfold k14_pay5
  rw [shapeCast_addUnit_apply (n := 1) ![128]]
  exact Ideal.multiReduction_add_single _ _ reduces_S2000x128_S128 _ _ _

/-- They are added onto the row read back. -/
theorem k14_pay1_exact (s : Vec Ideal S1x128 .f32) (z : Vec Ideal S1x128 .f32) (j : S1x128.Idx) :
    k14_pay1 (F := Ideal) s z j = z j + s j := by
  unfold k14_pay1
  simp only [shapeCast_self]
  rw [addf_apply]

/-! ### The indices, by coordinates -/

/-- The row index a column sum runs over, put back beside the column. -/
theorem lift14_eq (j : S1x128.Idx) (r : Fin (S2000x128.size 0)) :
    reduces_S2000x128_S128.lift (fun a => j a.succ) r = ix2 r (j 1) := by
  funext a
  match a with
  | ⟨0, _⟩ => rfl
  | ⟨1, _⟩ => rfl

/-- The bias row's index under the broadcast. -/
theorem brow14_eq (b : Vec Ideal S1x128 .f32) (j : S2000x128.Idx) :
    broadcastTo S2000x128 b broadcasts_S1x128_S2000x128 j = b (ix2 0 (j 1)) := by
  refine broadcastTo_apply b _ j (ix2 0 (j 1)) fun a => ?_
  match a with
  | ⟨0, _⟩ => rfl
  | ⟨1, _⟩ => rfl

/-- The products' contraction index is its one coordinate. -/
abbrev ce14 : dot14.contr.Idx ≃ Fin 128 := contrEquiv1 dot14 128 rfl rfl

/-- The left operand is read at (row, contraction coordinate), -/
theorem dot14_lhs (j : S2000x128.Idx) (k : Fin 128) : dot14.lhsIdx j (ce14.symm k) = ix2 (j 0) k := by
  funext a
  match a with
  | ⟨0, _⟩ => rfl
  | ⟨1, _⟩ => rfl

/-- the right operand at (contraction coordinate, column). -/
theorem dot14_rhs (j : S2000x128.Idx) (k : Fin 128) : dot14.rhsIdx j (ce14.symm k) = ix2 k (j 1) := by
  funext a
  match a with
  | ⟨0, _⟩ => rfl
  | ⟨1, _⟩ => rfl

/-- A product's sum over the contraction index is the sum over its coordinate. -/
theorem dot14_sum (x : Vec Ideal S2000x128 .f32) (w : Vec Ideal S128x128 .f32) (j : S2000x128.Idx) :
    ∑ q : dot14.contr.Idx, x (dot14.lhsIdx j q) * w (dot14.rhsIdx j q) = ∑ k : Fin 128, x (ix2 (j 0) k) * w (ix2 k (j 1)) := by
  rw [← Equiv.sum_comp ce14.symm]
  exact Finset.sum_congr rfl fun k _ => by rw [dot14_lhs, dot14_rhs]; rfl

/-- `y` at (row, column): the bias at the column plus the two products' sums over the 128 contraction coordinates. -/
theorem y14_exact (b : Vec Ideal S1x128 .f32) (x0 : Vec Ideal S2000x128 .f32) (w0 : Vec Ideal S128x128 .f32)
    (x1 : Vec Ideal S2000x128 .f32) (w1 : Vec Ideal S128x128 .f32) (j : S2000x128.Idx) :
    k14_pay4 (F := Ideal) b x0 w0 x1 w1 j
      = (b (ix2 0 (j 1)) + ∑ k : Fin 128, x0 (ix2 (j 0) k) * w0 (ix2 k (j 1)))
        + ∑ k : Fin 128, x1 (ix2 (j 0) k) * w1 (ix2 k (j 1)) := by
  rw [k14_pay4_exact, brow14_eq, dot14_sum, dot14_sum]

/-- The column sums of `y` on the zero row, at a column: zero plus the sum over the rows. -/
theorem sum14_exact (b : Vec Ideal S1x128 .f32) (x0 : Vec Ideal S2000x128 .f32) (w0 : Vec Ideal S128x128 .f32)
    (x1 : Vec Ideal S2000x128 .f32) (w1 : Vec Ideal S128x128 .f32) (j : S1x128.Idx) :
    k14_pay6 (F := Ideal) b x0 w0 x1 w1 (k14_pay2 (F := Ideal)) j
      = 0 + ∑ r : Fin 2000, k14_pay4 (F := Ideal) b x0 w0 x1 w1 (ix2 r (j 1)) := by
  rw [k14_pay6_exact, k14_pay2_exact]
  exact congrArg (0 + ·) (Finset.sum_congr rfl fun r _ => by rw [lift14_eq]; rfl)

/-- The column sums of `y·y` on the zero row, at a column. -/
theorem sumsq14_exact (b : Vec Ideal S1x128 .f32) (x0 : Vec Ideal S2000x128 .f32) (w0 : Vec Ideal S128x128 .f32)
    (x1 : Vec Ideal S2000x128 .f32) (w1 : Vec Ideal S128x128 .f32) (j : S1x128.Idx) :
    k14_pay1 (F := Ideal) (k14_pay5 (F := Ideal) b x0 w0 x1 w1) (k14_pay3 (F := Ideal)) j
      = 0 + ∑ r : Fin 2000, k14_pay4 (F := Ideal) b x0 w0 x1 w1 (ix2 r (j 1)) * k14_pay4 (F := Ideal) b x0 w0 x1 w1 (ix2 r (j 1)) := by
  rw [k14_pay1_exact, k14_pay3_exact, k14_pay5_exact]
  exact congrArg (0 + ·) (Finset.sum_congr rfl fun r _ => by rw [lift14_eq]; rfl)

/-! ### The region's three arrays at the exact values, index by index -/

variable (VI : (c : Dev nD) → (b : Ref sig .tc) → Buf (Elt Ideal) ((c : Thread nD τ).loc b))

/-- The arrays the region is entered with, at the shapes the body sees: the two data arrays, their weights, the bias row; -/
abbrev in14_0 (c : Dev nD) : Vec Ideal S2000x128 .f32 := A14 VI c 0
abbrev in14_1 (c : Dev nD) : Vec Ideal S2000x128 .f32 := A14 VI c 1
abbrev in14_2 (c : Dev nD) : Vec Ideal S128x128 .f32 := A14 VI c 2
abbrev in14_3 (c : Dev nD) : Vec Ideal S128x128 .f32 := A14 VI c 3
abbrev in14_4 (c : Dev nD) : Vec Ideal S1x128 .f32 := A14 VI c 4
/-- and what the region leaves in window 5's array. -/
abbrev Y14 (c : Dev nD) : Vec Ideal S2000x128 .f32 := G14_5 VI c

/-- Window 5's array after the region, at (row, column): `b + x0·w0 + x1·w1` there. -/
theorem Y14_exact (c : Dev nD) (j : S2000x128.Idx) :
    Y14 VI c j = (in14_4 VI c (ix2 0 (j 1)) + ∑ k : Fin 128, in14_0 VI c (ix2 (j 0) k) * in14_2 VI c (ix2 k (j 1)))
        + ∑ k : Fin 128, in14_1 VI c (ix2 (j 0) k) * in14_3 VI c (ix2 k (j 1)) :=
  y14_exact _ _ _ _ _ j

theorem arrAt14_5_exact (c : Dev nD) : (dat14 VI c).arrAt 5 cfg14.N = Y14 VI c := arrAt14_5 VI c

/-- Window 6's array after the region, at a column: zero plus the sum of window 5's column over the rows. -/
theorem arrAt14_6_exact (c : Dev nD) (j : S1x128.Idx) :
    (show Vec Ideal S1x128 .f32 from (dat14 VI c).arrAt 6 cfg14.N) j = 0 + ∑ r : Fin 2000, Y14 VI c (ix2 r (j 1)) :=
  (congrFun (arrAt14_6 VI c) j).trans (sum14_exact _ _ _ _ _ j)

/-- Window 7's array after the region, at a column: zero plus the sum of the squares of window 5's column over the rows. -/
theorem arrAt14_7_exact (c : Dev nD) (j : S1x128.Idx) :
    (show Vec Ideal S1x128 .f32 from (dat14 VI c).arrAt 7 cfg14.N) j = 0 + ∑ r : Fin 2000, Y14 VI c (ix2 r (j 1)) * Y14 VI c (ix2 r (j 1)) :=
  (congrFun (arrAt14_7 VI c) j).trans (sumsq14_exact _ _ _ _ _ j)

end Exact

end Cert.KernelIdeal.Hand

end
-- ==== Proof.KI.V15.lean ====
/- Region 15 of the kernel program: the result array after the region, index by index, from the arrays the region
   is entered with. -/
import proofs.«424088_j28020366639260_2_alg».proof.Proof.KI.R15
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Values15

variable {F : FTy → Type} [FloatOps F]

variable (V : (c : Dev nD) → (b : Ref sig .tc) → Buf (Elt F) ((c : Thread nD τ).loc b))

/-- The offsets every access of the body is made at. -/
theorem off15_zero : (![0, 0] : Fin 2 → Nat) = fun _ => 0 := funext fun a => by fin_cases a <;> rfl

/-- The entry of a one-row operand that the result at index `j` reads: row 0, the lane of `j`. -/
def lane15 (j : S2000x128.Idx) : S1x128.Idx := fun a => match a with
  | ⟨0, _⟩ => ⟨0, Nat.zero_lt_one⟩
  | ⟨1, _⟩ => ⟨(j 1).val, (j 1).isLt⟩

theorem lane15_row (j : S2000x128.Idx) : (lane15 j 0).val = 0 := rfl
theorem lane15_col (j : S2000x128.Idx) : (lane15 j 1).val = (j 1).val := rfl

/-- The map the region computes, on whole arrays: at every index `max (y · scale + shift) 0`, the scale and the shift read
    at the index's lane. -/
def relu15 (y : Vec F S2000x128 .f32) (sc sf : Vec F S1x128 .f32) : Vec F S2000x128 .f32 := fun j =>
  FloatOps.maximumf (FloatOps.addf (FloatOps.mulf (y j : F .f32) (sc (lane15 j))) (sf (lane15 j))) (Scalar.ofBits .f32 0x00000000#32)

/-- A one-row operand broadcast over the rows, at an index, is the operand at the index's lane. -/
theorem bcast15_apply (x : Vec F S1x128 .f32) (j : S2000x128.Idx) :
    broadcastTo S2000x128 (x : FVec F S1x128 .f32) broadcasts_S1x128_S2000x128 j = x (lane15 j) :=
  broadcastTo_apply _ _ j (lane15 j) fun a => by fin_cases a <;> rfl

/-- The store's payload is that map of the three loaded values: the casts to the same shape are the identity, the
    broadcasts read the lane, the arithmetic is pointwise. -/
theorem pay15_eq (y : Vec F S2000x128 .f32) (sc sf : Vec F S1x128 .f32) : k15_pay1 y sc sf = relu15 y sc sf := by
  funext j
  unfold k15_pay1 relu15
  simp only [shapeCast_self]
  show FloatOps.maximumf (FloatOps.addf (FloatOps.mulf _ (broadcastTo S2000x128 (sc : FVec F S1x128 .f32) broadcasts_S1x128_S2000x128 j))
    (broadcastTo S2000x128 (sf : FVec F S1x128 .f32) broadcasts_S1x128_S2000x128 j)) _ = _
  rw [bcast15_apply, bcast15_apply]
  rfl

/-- So what the body leaves in the result's buffer is the map of the three operand buffers: each load reads its whole buffer, the
    one store writes the whole buffer. -/
theorem out15_3_eq (y : Vec F S2000x128 .f32) (sc sf : Vec F S1x128 .f32) : out15_3 y sc sf = relu15 y sc sf := by
  unfold out15_3
  rw [View.canon_unit_zero off15_zero, View.ld_unit_zero (S := S2000x128) off15_zero, View.ld_unit_zero (S := S1x128) off15_zero,
    View.ld_unit_zero (S := S1x128) off15_zero]
  exact pay15_eq y sc sf

/-! ## The region-entry arrays, at their shapes -/

/-- The operand `y` as the region finds it. -/
abbrev inY15 (c : Dev nD) : Vec F S2000x128 .f32 := V c (Pipeline.arrRef spec15 0)
/-- The scale row as the region finds it. -/
abbrev inSc15 (c : Dev nD) : Vec F S1x128 .f32 := V c (Pipeline.arrRef spec15 1)
/-- The shift row as the region finds it. -/
abbrev inSf15 (c : Dev nD) : Vec F S1x128 .f32 := V c (Pipeline.arrRef spec15 2)

/-- The result array the region leaves, as one function of the region-entry arrays. -/
abbrev res15 (c : Dev nD) : Vec F S2000x128 .f32 := relu15 (inY15 V c) (inSc15 V c) (inSf15 V c)

/-! ## Each window's one block is its whole array -/

theorem iblk15_0_eq (c : Dev nD) (t : Fin cfg15.N) : iblk15 V c 0 t = inY15 V c := by
  obtain rfl := fin_N15 t
  have hz : (fun a => win15_0.index t15_0 a * (Pipeline.arrRef spec15 0).ty.shape.size a) = fun _ => 0 :=
    funext fun a => by fin_cases a <;> decide +kernel
  exact Memref.read_access_unit_zero (Elt F) (Pipeline.arrRef spec15 0) hz (fun a => by rw [congrFun hz a]; simp) _

theorem iblk15_1_eq (c : Dev nD) (t : Fin cfg15.N) : iblk15 V c 1 t = inSc15 V c := by
  obtain rfl := fin_N15 t
  have hz : (fun a => win15_1.index t15_0 a * (Pipeline.arrRef spec15 1).ty.shape.size a) = fun _ => 0 :=
    funext fun a => by fin_cases a <;> decide +kernel
  exact Memref.read_access_unit_zero (Elt F) (Pipeline.arrRef spec15 1) hz (fun a => by rw [congrFun hz a]; simp) _

theorem iblk15_2_eq (c : Dev nD) (t : Fin cfg15.N) : iblk15 V c 2 t = inSf15 V c := by
  obtain rfl := fin_N15 t
  have hz : (fun a => win15_2.index t15_0 a * (Pipeline.arrRef spec15 2).ty.shape.size a) = fun _ => 0 :=
    funext fun a => by fin_cases a <;> decide +kernel
  exact Memref.read_access_unit_zero (Elt F) (Pipeline.arrRef spec15 2) hz (fun a => by rw [congrFun hz a]; simp) _

/-! ## The result array after the region -/

/-- The result window's block sits at the array's origin. -/
theorem org15_3 : (fun a => win15_3.index t15_0 a * (Pipeline.arrRef spec15 3).ty.shape.size a) = fun _ => 0 :=
  funext fun a => by fin_cases a <;> decide +kernel

/-- What the one write-back moves is the map of the region-entry arrays, read through the result's block. -/
theorem flushed15_3 (c : Dev nD) (t : Fin cfg15.N) (hf : (cfg15.win 3).flush t = true) :
    (dat15 V c).flushed 3 t = ((cfg15.win 3).blk t).view.read (Elt F) (res15 V c) := by
  obtain rfl := fin_N15 t
  show (cfg15.win 3).cut (grid15.coords t15_0) ((dat15 V c).after 3 t15_0) = _
  rw [after15_3, out15_3_eq, iblk15_0_eq, iblk15_1_eq, iblk15_2_eq]
  exact (Memref.read_access_unit_zero (Elt F) (Pipeline.arrRef spec15 3) org15_3 (fun a => by rw [congrFun org15_3 a]; simp) (res15 V c)).symm

/-- THE VALUE: after the region the result array holds, at every index, `max (y · scale + shift) 0` of the region-entry
    arrays. The one block of the result window is the whole array, so its write-back covers every index. -/
theorem arrAt15_3 (c : Dev nD) : (dat15 V c).arrAt 3 cfg15.N = fun i =>
    FloatOps.maximumf (FloatOps.addf (FloatOps.mulf (inY15 V c i : F .f32) (inSc15 V c (lane15 i))) (inSf15 V c (lane15 i)))
      (Scalar.ofBits .f32 0x00000000#32) :=
  (dat15 V c).arrAt_eq_of_cover 3 (res15 V c) (flushed15_3 V c) fun i =>
    ⟨t15_0, flush15_3 t15_0, by
      show i ∈ ((View.whole (Pipeline.arrRef spec15 3)).slice (win15_3.rect t15_0)).set
      rw [View.set_slice_whole]
      exact View.mem_set_unit_zero org15_3 _ i⟩

/-- The same, the map kept as the body's own store over the region-entry arrays. -/
theorem arrAt15_3_out (c : Dev nD) : (dat15 V c).arrAt 3 cfg15.N = out15_3 (inY15 V c) (inSc15 V c) (inSf15 V c) :=
  (arrAt15_3 V c).trans (out15_3_eq _ _ _).symm

end Values15

/-! ## The same at the extended reals -/

section Ideal15

variable (V : (c : Dev nD) → (b : Ref sig .tc) → Buf (Elt Ideal) ((c : Thread nD τ).loc b))

/-- At the exact arithmetic of the extended reals the result is `max (y * scale + shift) 0`, index by index. -/
theorem arrAt15_3_ideal (c : Dev nD) (i : S2000x128.Idx) :
    ((dat15 (F := Ideal) V c).arrAt 3 cfg15.N : Vec Ideal S2000x128 .f32) i
      = max ((inY15 V c i : EReal) * (inSc15 V c (lane15 i) : EReal) + (inSf15 V c (lane15 i) : EReal)) 0 := by
  rw [arrAt15_3]
  show max (_ * _ + _) (Ideal.ofBits .f32 0x00000000#32) = _
  rw [Ideal.ofBits_zero_f32]

end Ideal15

end Cert.KernelIdeal.Hand

end
-- ==== Proof.Val.LabK4.lean ====
/-
  The lab rows of the second graph layer in the kernel program, from the contents before the branch's weight slices
  to the contents after its rectified normalisation. The host cuts relation 0's two weight matrices out of the
  weight arrays and transposes them, and cuts out its bias row; the first region forms y = bias + mean·Wlᵀ + x·Wrᵀ
  together with the column sums of y and of y·y; the host turns the sums into the scale and the shift rows of the
  normalisation; the second region applies them and rectifies. Read at a row and a column this is the
  scale-and-shift form of the normalisation over the affine map.
-/
import proofs.«424088_j28020366639260_2_alg».proof.Proof.KI.Args
import proofs.«424088_j28020366639260_2_alg».proof.Proof.KI.V14
import proofs.«424088_j28020366639260_2_alg».proof.Proof.KI.V15
import proofs.«424088_j28020366639260_2_alg».proof.Proof.Val.LabTerms
import Idealize.ShloMosaic.Lib.StableHlo.Run

set_option maxRecDepth 16384
set_option maxHeartbeats 4000000

noncomputable section

namespace Cert.Val.Lab

open Cert.KernelIdeal Cert.KernelIdeal.Gen Cert.KernelIdeal.Hand
open Idealize.ShloMosaic Idealize.ShloMosaic.TcCoe Idealize.ShloMosaic.StableHlo Idealize.ShloMosaic.ValueIdx Idealize.SL.Sem
open Cert.Lib.ERealArith
open scoped BigOperators

/-! ## The weight stretch, at any contents -/

/-- The left weights as the region reads them: entry (k, q) is entry (q, k) of matrix (1, 0) of the weight array. -/
theorem lab2_wl (V : Valuation τ sig (Elt Ideal)) (k q : Fin 128) :
    (StableHlo.after hostOps14 V (Proc.devRef .tc main_v447) : (Sh2 128 128).Idx → EReal) (ix2 k q)
      = (V (Proc.devRef .tc main_arg12) : (⟨4, ![2, 6, 128, 128]⟩ : Shape).Idx → EReal) (ix4 (1 : Fin 2) (0 : Fin 6) q k) := by
  have e : (StableHlo.after hostOps14 V (Proc.devRef .tc main_v447) : (Sh2 128 128).Idx → EReal)
      = transpose (Sh2 128 128) [1, 0]
          (shapeCast (Sh2 128 128) (extractStridedSlice ⟨4, ![1, 1, 128, 128]⟩ ![1, 0, 0, 0]
            (V (Proc.devRef .tc main_arg12)) slices_S2x6x128x128_S1x1x128x128_1_0_0_0) shapeCasts_S1x1x128x128_S128x128)
          transposes_S128x128_S128x128_1_0 := by
    after_results_simp
    rfl
  rw [e, transpose_sq_apply, mat_slice_apply 1 0 (by decide) (by decide)]
  rfl

/-- The right weights likewise. -/
theorem lab2_wr (V : Valuation τ sig (Elt Ideal)) (k q : Fin 128) :
    (StableHlo.after hostOps14 V (Proc.devRef .tc main_v450) : (Sh2 128 128).Idx → EReal) (ix2 k q)
      = (V (Proc.devRef .tc main_arg14) : (⟨4, ![2, 6, 128, 128]⟩ : Shape).Idx → EReal) (ix4 (1 : Fin 2) (0 : Fin 6) q k) := by
  have e : (StableHlo.after hostOps14 V (Proc.devRef .tc main_v450) : (Sh2 128 128).Idx → EReal)
      = transpose (Sh2 128 128) [1, 0]
          (shapeCast (Sh2 128 128) (extractStridedSlice ⟨4, ![1, 1, 128, 128]⟩ ![1, 0, 0, 0]
            (V (Proc.devRef .tc main_arg14)) slices_S2x6x128x128_S1x1x128x128_1_0_0_0) shapeCasts_S1x1x128x128_S128x128)
          transposes_S128x128_S128x128_1_0 := by
    after_results_simp
    rfl
  rw [e, transpose_sq_apply, mat_slice_apply 1 0 (by decide) (by decide)]
  rfl

/-- The bias row: entry q is entry (1, 0, q) of the bias array. -/
theorem lab2_b (V : Valuation τ sig (Elt Ideal)) (q : Fin 128) :
    (StableHlo.after hostOps14 V (Proc.devRef .tc main_v453) : T1x128.Idx → EReal) (ix2 (0 : Fin 1) q)
      = (V (Proc.devRef .tc main_arg13) : (⟨3, ![2, 6, 128]⟩ : Shape).Idx → EReal) (ix3 (1 : Fin 2) (0 : Fin 6) q) := by
  have e : (StableHlo.after hostOps14 V (Proc.devRef .tc main_v453) : T1x128.Idx → EReal)
      = shapeCast T1x128 (shapeCast T128 (extractStridedSlice ⟨3, ![1, 1, 128]⟩ ![1, 0, 0]
            (V (Proc.devRef .tc main_arg13)) slices_S2x6x128_S1x1x128_1_0_0) shapeCasts_S1x1x128_S128) shapeCasts_S128_S1x128 := by
    after_results_simp
    rfl
  rw [e, shapeCast_a_1a_apply, vec_slice_apply 1 0 (by decide) (by decide)]
  rfl

/-! ## The normalisation stretch, at any contents -/

/-- The gain row of the lab normalisation of layer 1, cut out of the gain array. -/
abbrev lab2_g (V : Valuation τ sig (Elt Ideal)) : FVec Ideal T128 .f32 :=
  shapeCast T128 (extractStridedSlice ⟨3, ![1, 1, 128]⟩ ![1, 1, 0] (V (Proc.devRef .tc main_arg15))
    slices_S2x4x128_S1x1x128_1_1_0) shapeCasts_S1x1x128_S128
/-- The offset row likewise. -/
abbrev lab2_β (V : Valuation τ sig (Elt Ideal)) : FVec Ideal T128 .f32 :=
  shapeCast T128 (extractStridedSlice ⟨3, ![1, 1, 128]⟩ ![1, 1, 0] (V (Proc.devRef .tc main_arg16))
    slices_S2x4x128_S1x1x128_1_1_0) shapeCasts_S1x1x128_S128

/-- The scale row the host leaves for the second region. -/
theorem lab2_scale (V : Valuation τ sig (Elt Ideal)) :
    (StableHlo.after hostOps15 V (Proc.devRef .tc main_v473) : T1x128.Idx → EReal)
      = shapeCast T1x128 (kScale shapeCasts_S1x128_S128 bcast_S_S128 0x44FA0000#32
          (V (Proc.devRef .tc main_v454_1)) (V (Proc.devRef .tc main_v454_2)) (lab2_g V)) shapeCasts_S128_S1x128 := by
  after_results_simp
  rfl

/-- The shift row. -/
theorem lab2_shift (V : Valuation τ sig (Elt Ideal)) :
    (StableHlo.after hostOps15 V (Proc.devRef .tc main_v474) : T1x128.Idx → EReal)
      = shapeCast T1x128 (kShift shapeCasts_S1x128_S128 bcast_S_S128 0x44FA0000#32
          (V (Proc.devRef .tc main_v454_1)) (V (Proc.devRef .tc main_v454_2)) (lab2_g V) (lab2_β V)) shapeCasts_S128_S1x128 := by
  after_results_simp
  rfl

/-! ## The branch -/

/-- A column's lane in the one-row arrays. -/
theorem lab2_lane (p : Fin 2000) (q : Fin 128) : lane15 (ix2 p q) = ix2 (0 : Fin 1) q := by
  funext a
  match a with
  | ⟨0, _⟩ => rfl
  | ⟨1, _⟩ => rfl

/-- The row count as the host's literal. -/
theorem lab2_N : Ideal.ofBits .f32 0x44FA0000#32 = ((((2000 : ℕ) : ℝ)) : EReal) := by
  rw [ofBits_2000]; norm_num

variable (m : (ℓ : Loc nD τ sig) → Buf (Elt Ideal) ℓ) (ρ : Dev nD → PrngReg)

/-- What the first region leaves: the matrix y, the row of its column sums, the row of the column sums of y·y. -/
abbrev lab2_Y (c : Dev nD) : (Sh2 2000 128).Idx → EReal := W29 m ρ c (Proc.devRef .tc main_v454_0)
abbrev lab2_S (c : Dev nD) : T1x128.Idx → EReal := W29 m ρ c (Proc.devRef .tc main_v454_1)
abbrev lab2_Q (c : Dev nD) : T1x128.Idx → EReal := W29 m ρ c (Proc.devRef .tc main_v454_2)

/-- What the first region leaves in its first output array: the affine map of the entry arrays, at (p, q). -/
theorem lab2_y (c : Dev nD) (p : Fin 2000) (q : Fin 128) :
    lab2_Y m ρ c (ix2 p q)
      = affC (1 : Fin 2) (0 : Fin 6) (coords (W27 m ρ c (Proc.devRef .tc main_v369))) (coords (W27 m ρ c (Proc.devRef .tc main_v255)))
          (W27 m ρ c (Proc.devRef .tc main_arg12)) (W27 m ρ c (Proc.devRef .tc main_arg14)) (W27 m ρ c (Proc.devRef .tc main_arg13)) p q := by
  have hY : lab2_Y m ρ c = Y14 (VE14 m ρ) c :=
    (Wexit14_arr m ρ c 5).trans (arrAt14_5_exact (VE14 m ρ) c)
  rw [hY, Y14_exact]
  unfold affC
  have hb : in14_4 (VE14 m ρ) c (ix2 0 q) = (W27 m ρ c (Proc.devRef .tc main_arg13) : (⟨3, ![2, 6, 128]⟩ : Shape).Idx → EReal) (ix3 (1 : Fin 2) (0 : Fin 6) q) :=
    (congrFun (congrFun (W28_eq m ρ c) (Proc.devRef .tc main_v453)) (ix2 0 q)).trans (lab2_b (W27 m ρ c) q)
  have hwl : ∀ k : Fin 128, in14_2 (VE14 m ρ) c (ix2 k q) = (W27 m ρ c (Proc.devRef .tc main_arg12) : (⟨4, ![2, 6, 128, 128]⟩ : Shape).Idx → EReal) (ix4 (1 : Fin 2) (0 : Fin 6) q k) :=
    fun k => (congrFun (congrFun (W28_eq m ρ c) (Proc.devRef .tc main_v447)) (ix2 k q)).trans (lab2_wl (W27 m ρ c) k q)
  have hwr : ∀ k : Fin 128, in14_3 (VE14 m ρ) c (ix2 k q) = (W27 m ρ c (Proc.devRef .tc main_arg14) : (⟨4, ![2, 6, 128, 128]⟩ : Shape).Idx → EReal) (ix4 (1 : Fin 2) (0 : Fin 6) q k) :=
    fun k => (congrFun (congrFun (W28_eq m ρ c) (Proc.devRef .tc main_v450)) (ix2 k q)).trans (lab2_wr (W27 m ρ c) k q)
  have hA : (in14_0 (VE14 m ρ) c : (Sh2 2000 128).Idx → EReal) = W27 m ρ c (Proc.devRef .tc main_v369) :=
    W28_of m ρ c main_v369 (by decide)
  have hB : (in14_1 (VE14 m ρ) c : (Sh2 2000 128).Idx → EReal) = W27 m ρ c (Proc.devRef .tc main_v255) :=
    W28_of m ρ c main_v255 (by decide)
  rw [hb, hA, hB]
  simp only [hwl, hwr]

/-- THE LAB BRANCH OF LAYER 1 in the kernel program. -/
theorem K_lab2 (c : Dev nD) :
    (W31 m ρ c (Proc.devRef .tc main_v475) : (Sh2 2000 128).Idx → EReal)
      = bnK (((2000 : ℕ) : ℝ) : EReal) ((eps5 : ℝ) : EReal) (1 : Fin 2) (1 : Fin 4)
          (aff (1 : Fin 2) (0 : Fin 6) (W27 m ρ c (Proc.devRef .tc main_v369)) (W27 m ρ c (Proc.devRef .tc main_v255))
            (W27 m ρ c (Proc.devRef .tc main_arg12) : FVec Ideal S2x6x128x128 .f32) (W27 m ρ c (Proc.devRef .tc main_arg14) : FVec Ideal S2x6x128x128 .f32) (W27 m ρ c (Proc.devRef .tc main_arg13) : FVec Ideal S2x6x128 .f32))
          (W27 m ρ c (Proc.devRef .tc main_arg15) : FVec Ideal S2x4x128 .f32) (W27 m ρ c (Proc.devRef .tc main_arg16) : FVec Ideal S2x4x128 .f32) := by
  funext j
  obtain ⟨p, q, rfl⟩ : ∃ (p : Fin 2000) (q : Fin 128), j = ix2 p q := ⟨j 0, j 1, eq_ix2 j⟩
  -- the first region's three arrays, as the normalisation stretch and the second region find them
  have hY : lab2_Y m ρ c = Y14 (VE14 m ρ) c :=
    (Wexit14_arr m ρ c 5).trans (arrAt14_5_exact (VE14 m ρ) c)
  have hs : ∀ q' : Fin 128, lab2_S m ρ c (ix2 (0 : Fin 1) q')
      = (0 : EReal) + ∑ i : Fin 2000, lab2_Y m ρ c (ix2 i q') := fun q' => by
    rw [hY]
    exact (congrFun (Wexit14_arr m ρ c 6) (ix2 0 q')).trans (arrAt14_6_exact (VE14 m ρ) c (ix2 0 q'))
  have hsq : ∀ q' : Fin 128, lab2_Q m ρ c (ix2 (0 : Fin 1) q')
      = (0 : EReal) + ∑ i : Fin 2000, lab2_Y m ρ c (ix2 i q')
          * lab2_Y m ρ c (ix2 i q') := fun q' => by
    rw [hY]
    exact (congrFun (Wexit14_arr m ρ c 7) (ix2 0 q')).trans (arrAt14_7_exact (VE14 m ρ) c (ix2 0 q'))
  -- the second region's output at (p, q)
  have h7 := (congrFun (Wexit15_arr m ρ c 3) (ix2 p q)).trans (arrAt15_3_ideal (VE15 m ρ) c (ix2 p q))
  have hy7 : (inY15 (VE15 m ρ) c : (Sh2 2000 128).Idx → EReal) = lab2_Y m ρ c :=
    W30_of m ρ c main_v454_0 (by decide)
  have hsc : (inSc15 (VE15 m ρ) c : T1x128.Idx → EReal) = _ :=
    (congrFun (W30_eq m ρ c) (Proc.devRef .tc main_v473)).trans (lab2_scale (W29 m ρ c))
  have hsf : (inSf15 (VE15 m ρ) c : T1x128.Idx → EReal) = _ :=
    (congrFun (W30_eq m ρ c) (Proc.devRef .tc main_v474)).trans (lab2_shift (W29 m ρ c))
  rw [lab2_lane, hy7, hsc, hsf] at h7
  refine h7.trans ?_
  rw [kBN_apply 0x44FA0000#32 _ lab2_N _ _ _ hs hsq]
  -- the two sides are the same scale-and-shift form: the same matrix, the same gain and offset rows
  show bnKC _ _ _ _ _ p q = bnKC _ _ _ _ _ p q
  have hyc : coords (lab2_Y m ρ c)
      = coords (aff (1 : Fin 2) (0 : Fin 6) (W27 m ρ c (Proc.devRef .tc main_v369)) (W27 m ρ c (Proc.devRef .tc main_v255))
          (W27 m ρ c (Proc.devRef .tc main_arg12)) (W27 m ρ c (Proc.devRef .tc main_arg14)) (W27 m ρ c (Proc.devRef .tc main_arg13))) :=
    funext fun p' => funext fun q' => lab2_y m ρ c p' q'
  have h15 : (W29 m ρ c (Proc.devRef .tc main_arg15) : (⟨3, ![2, 4, 128]⟩ : Shape).Idx → EReal) = W27 m ρ c (Proc.devRef .tc main_arg15) :=
    (Wexit14_keep m ρ c main_arg15 (by decide)).trans (W28_of m ρ c main_arg15 (by decide))
  have h16 : (W29 m ρ c (Proc.devRef .tc main_arg16) : (⟨3, ![2, 4, 128]⟩ : Shape).Idx → EReal) = W27 m ρ c (Proc.devRef .tc main_arg16) :=
    (Wexit14_keep m ρ c main_arg16 (by decide)).trans (W28_of m ρ c main_arg16 (by decide))
  have hg : (fun q' : Fin 128 => lab2_g (W29 m ρ c) (ix1 q'))
      = fun q' => (W27 m ρ c (Proc.devRef .tc main_arg15) : (⟨3, ![2, 4, 128]⟩ : Shape).Idx → EReal) (ix3 (1 : Fin 2) (1 : Fin 4) q') :=
    funext fun q' => by rw [← h15]; exact vec_slice_apply 1 1 (by decide) (by decide) _ _ _ q'
  have hβ : (fun q' : Fin 128 => lab2_β (W29 m ρ c) (ix1 q'))
      = fun q' => (W27 m ρ c (Proc.devRef .tc main_arg16) : (⟨3, ![2, 4, 128]⟩ : Shape).Idx → EReal) (ix3 (1 : Fin 2) (1 : Fin 4) q') :=
    funext fun q' => by rw [← h16]; exact vec_slice_apply 1 1 (by decide) (by decide) _ _ _ q'
  rw [hyc, hg, hβ]

end Cert.Val.Lab

end
-- ==== Proof.KI.V16.lean ====
/- Region 16 of the kernel program: what its three output arrays hold after the region, each as ONE
   whole-array function of the arrays the region is entered with.

   The grid has one point and every window's one block is its whole array, so the array after the
   region is what the body left in the window's buffer: y = b + x0·w0 + x1·w1 (window 5), the column
   sums of y added onto a zero row (window 6), the column sums of y·y added onto a zero row (window 7),
   stated through the body's payloads applied to the whole entry arrays (any float semantics), and then,
   at the exact values, index by index over the extended reals: the products as sums over the 128
   contraction coordinates, the column sums as sums over the rows. -/
import proofs.«424088_j28020366639260_2_alg».proof.Proof.KI.R16
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The outputs' buffers after the body, as the payloads of the whole input blocks -/

theorem hz16 : (![0, 0] : Fin 2 → Nat) = fun _ => 0 := funext fun a => by fin_cases a <;> rfl

/-- Window 5's buffer: `y` of the blocks. -/
theorem out16_5_eq (x0 x1 : Vec F S5000x128 .f32) (x2 x3 : Vec F S128x128 .f32) (x4 : Vec F S1x128 .f32) :
    out16_5 x0 x1 x2 x3 x4 = k16_pay4 x4 x0 x2 x1 x3 := by
  unfold out16_5 y16
  rw [View.canon_unit_zero hz16]
  simp only [View.ld_unit_zero (S := S5000x128) hz16, View.ld_unit_zero (S := S128x128) hz16, View.ld_unit_zero (S := S1x128) hz16]

/-- Window 6's buffer: the column sums of `y` added onto the zero row. -/
theorem out16_6_eq (x0 x1 : Vec F S5000x128 .f32) (x2 x3 : Vec F S128x128 .f32) (x4 : Vec F S1x128 .f32) :
    out16_6 x0 x1 x2 x3 x4 = k16_pay6 x4 x0 x2 x1 x3 (k16_pay2 (F := F)) := by
  unfold out16_6
  rw [View.canon_cons_unit_zero hz16]
  simp only [View.ld_unit_zero (S := S5000x128) hz16, View.ld_unit_zero (S := S128x128) hz16, View.ld_unit_zero (S := S1x128) hz16]

/-- Window 7's buffer: the column sums of `y·y` added onto the zero row. -/
theorem out16_7_eq (x0 x1 : Vec F S5000x128 .f32) (x2 x3 : Vec F S128x128 .f32) (x4 : Vec F S1x128 .f32) :
    out16_7 x0 x1 x2 x3 x4 = k16_pay1 (k16_pay5 x4 x0 x2 x1 x3) (k16_pay3 (F := F)) := by
  unfold out16_7
  rw [View.canon_cons_unit_zero hz16]
  simp only [View.ld_unit_zero (S := S5000x128) hz16, View.ld_unit_zero (S := S128x128) hz16, View.ld_unit_zero (S := S1x128) hz16]

/-! ## Each window's one block is its whole array -/

/-- The region's array of window `w` as the region finds it. -/
abbrev A16 (c : Dev nD) (w : Fin cfg16.W) : Buf (Elt F) ((c : Thread nD τ).loc (Pipeline.arrRef spec16 w)) := V c (Pipeline.arrRef spec16 w)

theorem iblk16_0_eq (c : Dev nD) (t : Fin cfg16.N) : (iblk16 V c 0 t : Vec F S5000x128 .f32) = A16 V c 0 := by
  obtain rfl := fin_N16 t
  unfold iblk16
  have hz' : (fun a => win16_0.index t16_0 a * (Pipeline.arrRef spec16 0).ty.shape.size a) = fun _ => 0 :=
    funext fun a => by fin_cases a <;> decide
  exact Memref.read_access_unit_zero (Elt F) (Pipeline.arrRef spec16 0) hz' (fun a => by rw [congrFun hz' a]; simp) _
theorem iblk16_1_eq (c : Dev nD) (t : Fin cfg16.N) : (iblk16 V c 1 t : Vec F S5000x128 .f32) = A16 V c 1 := by
  obtain rfl := fin_N16 t
  unfold iblk16
  have hz' : (fun a => win16_1.index t16_0 a * (Pipeline.arrRef spec16 1).ty.shape.size a) = fun _ => 0 :=
    funext fun a => by fin_cases a <;> decide
  exact Memref.read_access_unit_zero (Elt F) (Pipeline.arrRef spec16 1) hz' (fun a => by rw [congrFun hz' a]; simp) _
theorem iblk16_2_eq (c : Dev nD) (t : Fin cfg16.N) : (iblk16 V c 2 t : Vec F S128x128 .f32) = A16 V c 2 := by
  obtain rfl := fin_N16 t
  unfold iblk16
  have hz' : (fun a => win16_2.index t16_0 a * (Pipeline.arrRef spec16 2).ty.shape.size a) = fun _ => 0 :=
    funext fun a => by fin_cases a <;> decide
  exact Memref.read_access_unit_zero (Elt F) (Pipeline.arrRef spec16 2) hz' (fun a => by rw [congrFun hz' a]; simp) _
theorem iblk16_3_eq (c : Dev nD) (t : Fin cfg16.N) : (iblk16 V c 3 t : Vec F S128x128 .f32) = A16 V c 3 := by
  obtain rfl := fin_N16 t
  unfold iblk16
  have hz' : (fun a => win16_3.index t16_0 a * (Pipeline.arrRef spec16 3).ty.shape.size a) = fun _ => 0 :=
    funext fun a => by fin_cases a <;> decide
  exact Memref.read_access_unit_zero (Elt F) (Pipeline.arrRef spec16 3) hz' (fun a => by rw [congrFun hz' a]; simp) _
theorem iblk16_4_eq (c : Dev nD) (t : Fin cfg16.N) : (iblk16 V c 4 t : Vec F S1x128 .f32) = A16 V c 4 := by
  obtain rfl := fin_N16 t
  unfold iblk16
  have hz' : (fun a => win16_4.index t16_0 a * (Pipeline.arrRef spec16 4).ty.shape.size a) = fun _ => 0 :=
    funext fun a => by fin_cases a <;> decide
  exact Memref.read_access_unit_zero (Elt F) (Pipeline.arrRef spec16 4) hz' (fun a => by rw [congrFun hz' a]; simp) _

/-! ## The arrays after the region -/

/-- What the region leaves in window 5's array: `y` of the entry arrays. -/
abbrev G16_5 (c : Dev nD) : Buf (Elt F) ((c : Thread nD τ).loc (Pipeline.arrRef spec16 5)) :=
  k16_pay4 (A16 V c 4) (A16 V c 0) (A16 V c 2) (A16 V c 1) (A16 V c 3)
/-- in window 6's: the column sums of `y` added onto the zero row; -/
abbrev G16_6 (c : Dev nD) : Buf (Elt F) ((c : Thread nD τ).loc (Pipeline.arrRef spec16 6)) :=
  k16_pay6 (A16 V c 4) (A16 V c 0) (A16 V c 2) (A16 V c 1) (A16 V c 3) (k16_pay2 (F := F))
/-- in window 7's: the column sums of `y·y` added onto the zero row. -/
abbrev G16_7 (c : Dev nD) : Buf (Elt F) ((c : Thread nD τ).loc (Pipeline.arrRef spec16 7)) :=
  k16_pay1 (k16_pay5 (A16 V c 4) (A16 V c 0) (A16 V c 2) (A16 V c 1) (A16 V c 3)) (k16_pay3 (F := F))

/-- The one write-back of window 5 writes it: the block at zero offsets is the array. -/
theorem flushed16_5 (c : Dev nD) (t : Fin cfg16.N) :
    (dat16 V c).flushed 5 t = ((cfg16.win 5).blk t).view.read (Elt F) (G16_5 V c) := by
  obtain rfl := fin_N16 t
  show (cfg16.win 5).cut (grid16.coords t16_0) ((dat16 V c).after 5 t16_0) = _
  rw [after16_5, out16_5_eq, iblk16_0_eq, iblk16_1_eq, iblk16_2_eq, iblk16_3_eq, iblk16_4_eq]
  have hz' : (fun a => win16_5.index t16_0 a * (Pipeline.arrRef spec16 5).ty.shape.size a) = fun _ => 0 :=
    funext fun a => by fin_cases a <;> decide
  exact (Memref.read_access_unit_zero (Elt F) (Pipeline.arrRef spec16 5) hz' (fun a => by rw [congrFun hz' a]; simp) (G16_5 V c)).symm

/-- Its one block covers the array. -/
theorem covers16_5 (c : Dev nD) (i : ((cfg16.win 5).arr.view.loc (c.tc : Thread nD τ)).2.ty.Idx) :
    ∃ t : Fin cfg16.N, (cfg16.win 5).flush t = true ∧ i ∈ ((cfg16.win 5).blk t).view.set := by
  refine ⟨t16_0, flush16_5 t16_0, ?_⟩
  show i ∈ ((View.whole (Pipeline.arrRef spec16 5)).slice (win16_5.rect t16_0)).set
  rw [View.set_slice_whole, Rect.mem_set_unit]
  intro a
  have h0 : win16_5.index t16_0 a * win16_5.size a = 0 := by fin_cases a <;> decide
  have h1 : win16_5.xsize (grid16.coords t16_0) a = (Pipeline.arrRef spec16 5).ty.shape.size a := by fin_cases a <;> decide
  show win16_5.index t16_0 a * win16_5.size a ≤ (i a : Nat) ∧ (i a : Nat) < win16_5.index t16_0 a * win16_5.size a + win16_5.xsize (grid16.coords t16_0) a
  rw [h0, h1]
  exact ⟨Nat.zero_le _, by simpa using (i a).isLt⟩

/-- THE VALUE of window 5's array after the region. -/
theorem arrAt16_5 (c : Dev nD) : (dat16 V c).arrAt 5 cfg16.N = G16_5 V c :=
  (dat16 V c).arrAt_eq_of_cover 5 (G16_5 V c) (fun t _ => flushed16_5 V c t) (covers16_5 c)

/-- The one write-back of window 6 writes it: the block at zero offsets is the array. -/
theorem flushed16_6 (c : Dev nD) (t : Fin cfg16.N) :
    (dat16 V c).flushed 6 t = ((cfg16.win 6).blk t).view.read (Elt F) (G16_6 V c) := by
  obtain rfl := fin_N16 t
  show (cfg16.win 6).cut (grid16.coords t16_0) ((dat16 V c).after 6 t16_0) = _
  rw [after16_6, out16_6_eq, iblk16_0_eq, iblk16_1_eq, iblk16_2_eq, iblk16_3_eq, iblk16_4_eq]
  have hz' : (fun a => win16_6.index t16_0 a * (Pipeline.arrRef spec16 6).ty.shape.size a) = fun _ => 0 :=
    funext fun a => by fin_cases a <;> decide
  exact (Memref.read_access_unit_zero (Elt F) (Pipeline.arrRef spec16 6) hz' (fun a => by rw [congrFun hz' a]; simp) (G16_6 V c)).symm

/-- Its one block covers the array. -/
theorem covers16_6 (c : Dev nD) (i : ((cfg16.win 6).arr.view.loc (c.tc : Thread nD τ)).2.ty.Idx) :
    ∃ t : Fin cfg16.N, (cfg16.win 6).flush t = true ∧ i ∈ ((cfg16.win 6).blk t).view.set := by
  refine ⟨t16_0, flush16_6 t16_0, ?_⟩
  show i ∈ ((View.whole (Pipeline.arrRef spec16 6)).slice (win16_6.rect t16_0)).set
  rw [View.set_slice_whole, Rect.mem_set_unit]
  intro a
  have h0 : win16_6.index t16_0 a * win16_6.size a = 0 := by fin_cases a <;> decide
  have h1 : win16_6.xsize (grid16.coords t16_0) a = (Pipeline.arrRef spec16 6).ty.shape.size a := by fin_cases a <;> decide
  show win16_6.index t16_0 a * win16_6.size a ≤ (i a : Nat) ∧ (i a : Nat) < win16_6.index t16_0 a * win16_6.size a + win16_6.xsize (grid16.coords t16_0) a
  rw [h0, h1]
  exact ⟨Nat.zero_le _, by simpa using (i a).isLt⟩

/-- THE VALUE of window 6's array after the region. -/
theorem arrAt16_6 (c : Dev nD) : (dat16 V c).arrAt 6 cfg16.N = G16_6 V c :=
  (dat16 V c).arrAt_eq_of_cover 6 (G16_6 V c) (fun t _ => flushed16_6 V c t) (covers16_6 c)

/-- The one write-back of window 7 writes it: the block at zero offsets is the array. -/
theorem flushed16_7 (c : Dev nD) (t : Fin cfg16.N) :
    (dat16 V c).flushed 7 t = ((cfg16.win 7).blk t).view.read (Elt F) (G16_7 V c) := by
  obtain rfl := fin_N16 t
  show (cfg16.win 7).cut (grid16.coords t16_0) ((dat16 V c).after 7 t16_0) = _
  rw [after16_7, out16_7_eq, iblk16_0_eq, iblk16_1_eq, iblk16_2_eq, iblk16_3_eq, iblk16_4_eq]
  have hz' : (fun a => win16_7.index t16_0 a * (Pipeline.arrRef spec16 7).ty.shape.size a) = fun _ => 0 :=
    funext fun a => by fin_cases a <;> decide
  exact (Memref.read_access_unit_zero (Elt F) (Pipeline.arrRef spec16 7) hz' (fun a => by rw [congrFun hz' a]; simp) (G16_7 V c)).symm

/-- Its one block covers the array. -/
theorem covers16_7 (c : Dev nD) (i : ((cfg16.win 7).arr.view.loc (c.tc : Thread nD τ)).2.ty.Idx) :
    ∃ t : Fin cfg16.N, (cfg16.win 7).flush t = true ∧ i ∈ ((cfg16.win 7).blk t).view.set := by
  refine ⟨t16_0, flush16_7 t16_0, ?_⟩
  show i ∈ ((View.whole (Pipeline.arrRef spec16 7)).slice (win16_7.rect t16_0)).set
  rw [View.set_slice_whole, Rect.mem_set_unit]
  intro a
  have h0 : win16_7.index t16_0 a * win16_7.size a = 0 := by fin_cases a <;> decide
  have h1 : win16_7.xsize (grid16.coords t16_0) a = (Pipeline.arrRef spec16 7).ty.shape.size a := by fin_cases a <;> decide
  show win16_7.index t16_0 a * win16_7.size a ≤ (i a : Nat) ∧ (i a : Nat) < win16_7.index t16_0 a * win16_7.size a + win16_7.xsize (grid16.coords t16_0) a
  rw [h0, h1]
  exact ⟨Nat.zero_le _, by simpa using (i a).isLt⟩

/-- THE VALUE of window 7's array after the region. -/
theorem arrAt16_7 (c : Dev nD) : (dat16 V c).arrAt 7 cfg16.N = G16_7 V c :=
  (dat16 V c).arrAt_eq_of_cover 7 (G16_7 V c) (fun t _ => flushed16_7 V c t) (covers16_7 c)

/-! ## At the exact values (F := Ideal): the payloads index by index, over the extended reals -/

section Exact
open Idealize.ShloMosaic.ValueIdx

/-- The dimension numbers of the body's two products: rows × (128 × 128). -/
abbrev dot16 : DotDims S5000x128 S128x128 S5000x128 := dot_S5000x128_S128x128_S5000x128_1_0_0_1_n_n

/-- `y` at an index: the bias at the column, plus the two products' sums over the contraction index. -/
theorem k16_pay4_exact (b : Vec Ideal S1x128 .f32) (x0 : Vec Ideal S5000x128 .f32) (w0 : Vec Ideal S128x128 .f32)
    (x1 : Vec Ideal S5000x128 .f32) (w1 : Vec Ideal S128x128 .f32) (j : S5000x128.Idx) :
    k16_pay4 (F := Ideal) b x0 w0 x1 w1 j
      = (broadcastTo S5000x128 b broadcasts_S1x128_S5000x128 j + ∑ q : dot16.contr.Idx, x0 (dot16.lhsIdx j q) * w0 (dot16.rhsIdx j q))
        + ∑ q : dot16.contr.Idx, x1 (dot16.lhsIdx j q) * w1 (dot16.rhsIdx j q) := by
  unfold k16_pay4
  simp only [shapeCast_self, matmul]
  rw [addf_apply, addf_apply, Ideal.matmul_constant_zero_apply, Ideal.matmul_constant_zero_apply]
  simp only [truncf_apply]

/-- The zero rows the body stores first. -/
theorem k16_pay2_exact (j : S1x128.Idx) : k16_pay2 (F := Ideal) j = 0 := by
  unfold k16_pay2; exact Ideal.ofBits_zero_f32
theorem k16_pay3_exact (j : S1x128.Idx) : k16_pay3 (F := Ideal) j = 0 := by
  unfold k16_pay3; exact Ideal.ofBits_zero_f32

/-- The column sums of `y` added onto the row read back. -/
theorem k16_pay6_exact (b : Vec Ideal S1x128 .f32) (x0 : Vec Ideal S5000x128 .f32) (w0 : Vec Ideal S128x128 .f32)
    (x1 : Vec Ideal S5000x128 .f32) (w1 : Vec Ideal S128x128 .f32) (z : Vec Ideal S1x128 .f32) (j : S1x128.Idx) :
    k16_pay6 (F := Ideal) b x0 w0 x1 w1 z j
      = z j + ∑ r : Fin (S5000x128.size 0), k16_pay4 (F := Ideal) b x0 w0 x1 w1 (reduces_S5000x128_S128.lift (fun a => j a.succ) r) := by
  unfold k16_pay6
  simp only [shapeCast_self]
  rw [addf_apply, shapeCast_addUnit_apply (n := 1) ![128]]
  exact congrArg (z j + ·) (Ideal.multiReduction_add_single _ _ reduces_S5000x128_S128 _ _ _)

/-- The column sums of `y·y`. -/
theorem k16_pay5_exact (b : Vec Ideal S1x128 .f32) (x0 : Vec Ideal S5000x128 .f32) (w0 : Vec Ideal S128x128 .f32)
    (x1 : Vec Ideal S5000x128 .f32) (w1 : Vec Ideal S128x128 .f32) (j : S1x128.Idx) :
    k16_pay5 (F := Ideal) b x0 w0 x1 w1 j
      = ∑ r : Fin (S5000x128.size 0), k16_pay4 (F := Ideal) b x0 w0 x1 w1 (reduces_S5000x128_S128.lift (fun a => j a.succ) r)
          * k16_pay4 (F := Ideal) b x0 w0 x1 w1 (reduces_S5000x128_S128.lift (fun a => j a.succ) r) := by
  unfold k16_pay5
  rw [shapeCast_addUnit_apply (n := 1) ![128]]
  exact Ideal.multiReduction_add_single _ _ reduces_S5000x128_S128 _ _ _

/-- They are added onto the row read back. -/
theorem k16_pay1_exact (s : Vec Ideal S1x128 .f32) (z : Vec Ideal S1x128 .f32) (j : S1x128.Idx) :
    k16_pay1 (F := Ideal) s z j = z j + s j := by
  unfold k16_pay1
  simp only [shapeCast_self]
  rw [addf_apply]

/-! ### The indices, by coordinates -/

/-- The row index a column sum runs over, put back beside the column. -/
theorem lift16_eq (j : S1x128.Idx) (r : Fin (S5000x128.size 0)) :
    reduces_S5000x128_S128.lift (fun a => j a.succ) r = ix2 r (j 1) := by
  funext a
  match a with
  | ⟨0, _⟩ => rfl
  | ⟨1, _⟩ => rfl

/-- The bias row's index under the broadcast. -/
theorem brow16_eq (b : Vec Ideal S1x128 .f32) (j : S5000x128.Idx) :
    broadcastTo S5000x128 b broadcasts_S1x128_S5000x128 j = b (ix2 0 (j 1)) := by
  refine broadcastTo_apply b _ j (ix2 0 (j 1)) fun a => ?_
  match a with
  | ⟨0, _⟩ => rfl
  | ⟨1, _⟩ => rfl

/-- The products' contraction index is its one coordinate. -/
abbrev ce16 : dot16.contr.Idx ≃ Fin 128 := contrEquiv1 dot16 128 rfl rfl

/-- The left operand is read at (row, contraction coordinate), -/
theorem dot16_lhs (j : S5000x128.Idx) (k : Fin 128) : dot16.lhsIdx j (ce16.symm k) = ix2 (j 0) k := by
  funext a
  match a with
  | ⟨0, _⟩ => rfl
  | ⟨1, _⟩ => rfl

/-- the right operand at (contraction coordinate, column). -/
theorem dot16_rhs (j : S5000x128.Idx) (k : Fin 128) : dot16.rhsIdx j (ce16.symm k) = ix2 k (j 1) := by
  funext a
  match a with
  | ⟨0, _⟩ => rfl
  | ⟨1, _⟩ => rfl

/-- A product's sum over the contraction index is the sum over its coordinate. -/
theorem dot16_sum (x : Vec Ideal S5000x128 .f32) (w : Vec Ideal S128x128 .f32) (j : S5000x128.Idx) :
    ∑ q : dot16.contr.Idx, x (dot16.lhsIdx j q) * w (dot16.rhsIdx j q) = ∑ k : Fin 128, x (ix2 (j 0) k) * w (ix2 k (j 1)) := by
  rw [← Equiv.sum_comp ce16.symm]
  exact Finset.sum_congr rfl fun k _ => by rw [dot16_lhs, dot16_rhs]; rfl

/-- `y` at (row, column): the bias at the column plus the two products' sums over the 128 contraction coordinates. -/
theorem y16_exact (b : Vec Ideal S1x128 .f32) (x0 : Vec Ideal S5000x128 .f32) (w0 : Vec Ideal S128x128 .f32)
    (x1 : Vec Ideal S5000x128 .f32) (w1 : Vec Ideal S128x128 .f32) (j : S5000x128.Idx) :
    k16_pay4 (F := Ideal) b x0 w0 x1 w1 j
      = (b (ix2 0 (j 1)) + ∑ k : Fin 128, x0 (ix2 (j 0) k) * w0 (ix2 k (j 1)))
        + ∑ k : Fin 128, x1 (ix2 (j 0) k) * w1 (ix2 k (j 1)) := by
  rw [k16_pay4_exact, brow16_eq, dot16_sum, dot16_sum]

/-- The column sums of `y` on the zero row, at a column: zero plus the sum over the rows. -/
theorem sum16_exact (b : Vec Ideal S1x128 .f32) (x0 : Vec Ideal S5000x128 .f32) (w0 : Vec Ideal S128x128 .f32)
    (x1 : Vec Ideal S5000x128 .f32) (w1 : Vec Ideal S128x128 .f32) (j : S1x128.Idx) :
    k16_pay6 (F := Ideal) b x0 w0 x1 w1 (k16_pay2 (F := Ideal)) j
      = 0 + ∑ r : Fin 5000, k16_pay4 (F := Ideal) b x0 w0 x1 w1 (ix2 r (j 1)) := by
  rw [k16_pay6_exact, k16_pay2_exact]
  exact congrArg (0 + ·) (Finset.sum_congr rfl fun r _ => by rw [lift16_eq]; rfl)

/-- The column sums of `y·y` on the zero row, at a column. -/
theorem sumsq16_exact (b : Vec Ideal S1x128 .f32) (x0 : Vec Ideal S5000x128 .f32) (w0 : Vec Ideal S128x128 .f32)
    (x1 : Vec Ideal S5000x128 .f32) (w1 : Vec Ideal S128x128 .f32) (j : S1x128.Idx) :
    k16_pay1 (F := Ideal) (k16_pay5 (F := Ideal) b x0 w0 x1 w1) (k16_pay3 (F := Ideal)) j
      = 0 + ∑ r : Fin 5000, k16_pay4 (F := Ideal) b x0 w0 x1 w1 (ix2 r (j 1)) * k16_pay4 (F := Ideal) b x0 w0 x1 w1 (ix2 r (j 1)) := by
  rw [k16_pay1_exact, k16_pay3_exact, k16_pay5_exact]
  exact congrArg (0 + ·) (Finset.sum_congr rfl fun r _ => by rw [lift16_eq]; rfl)

/-! ### The region's three arrays at the exact values, index by index -/

variable (VI : (c : Dev nD) → (b : Ref sig .tc) → Buf (Elt Ideal) ((c : Thread nD τ).loc b))

/-- The arrays the region is entered with, at the shapes the body sees: the two data arrays, their weights, the bias row; -/
abbrev in16_0 (c : Dev nD) : Vec Ideal S5000x128 .f32 := A16 VI c 0
abbrev in16_1 (c : Dev nD) : Vec Ideal S5000x128 .f32 := A16 VI c 1
abbrev in16_2 (c : Dev nD) : Vec Ideal S128x128 .f32 := A16 VI c 2
abbrev in16_3 (c : Dev nD) : Vec Ideal S128x128 .f32 := A16 VI c 3
abbrev in16_4 (c : Dev nD) : Vec Ideal S1x128 .f32 := A16 VI c 4
/-- and what the region leaves in window 5's array. -/
abbrev Y16 (c : Dev nD) : Vec Ideal S5000x128 .f32 := G16_5 VI c

/-- Window 5's array after the region, at (row, column): `b + x0·w0 + x1·w1` there. -/
theorem Y16_exact (c : Dev nD) (j : S5000x128.Idx) :
    Y16 VI c j = (in16_4 VI c (ix2 0 (j 1)) + ∑ k : Fin 128, in16_0 VI c (ix2 (j 0) k) * in16_2 VI c (ix2 k (j 1)))
        + ∑ k : Fin 128, in16_1 VI c (ix2 (j 0) k) * in16_3 VI c (ix2 k (j 1)) :=
  y16_exact _ _ _ _ _ j

theorem arrAt16_5_exact (c : Dev nD) : (dat16 VI c).arrAt 5 cfg16.N = Y16 VI c := arrAt16_5 VI c

/-- Window 6's array after the region, at a column: zero plus the sum of window 5's column over the rows. -/
theorem arrAt16_6_exact (c : Dev nD) (j : S1x128.Idx) :
    (show Vec Ideal S1x128 .f32 from (dat16 VI c).arrAt 6 cfg16.N) j = 0 + ∑ r : Fin 5000, Y16 VI c (ix2 r (j 1)) :=
  (congrFun (arrAt16_6 VI c) j).trans (sum16_exact _ _ _ _ _ j)

/-- Window 7's array after the region, at a column: zero plus the sum of the squares of window 5's column over the rows. -/
theorem arrAt16_7_exact (c : Dev nD) (j : S1x128.Idx) :
    (show Vec Ideal S1x128 .f32 from (dat16 VI c).arrAt 7 cfg16.N) j = 0 + ∑ r : Fin 5000, Y16 VI c (ix2 r (j 1)) * Y16 VI c (ix2 r (j 1)) :=
  (congrFun (arrAt16_7 VI c) j).trans (sumsq16_exact _ _ _ _ _ j)

end Exact

end Cert.KernelIdeal.Hand

end
-- ==== Proof.KI.V17.lean ====
/- Region 17 of the kernel program: the result array after the region, index by index, from the arrays the region
   is entered with. -/
import proofs.«424088_j28020366639260_2_alg».proof.Proof.KI.R17
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Values17

variable {F : FTy → Type} [FloatOps F]

variable (V : (c : Dev nD) → (b : Ref sig .tc) → Buf (Elt F) ((c : Thread nD τ).loc b))

/-- The offsets every access of the body is made at. -/
theorem off17_zero : (![0, 0] : Fin 2 → Nat) = fun _ => 0 := funext fun a => by fin_cases a <;> rfl

/-- The entry of a one-row operand that the result at index `j` reads: row 0, the lane of `j`. -/
def lane17 (j : S5000x128.Idx) : S1x128.Idx := fun a => match a with
  | ⟨0, _⟩ => ⟨0, Nat.zero_lt_one⟩
  | ⟨1, _⟩ => ⟨(j 1).val, (j 1).isLt⟩

theorem lane17_row (j : S5000x128.Idx) : (lane17 j 0).val = 0 := rfl
theorem lane17_col (j : S5000x128.Idx) : (lane17 j 1).val = (j 1).val := rfl

/-- The map the region computes, on whole arrays: at every index `max (y · scale + shift) 0`, the scale and the shift read
    at the index's lane. -/
def relu17 (y : Vec F S5000x128 .f32) (sc sf : Vec F S1x128 .f32) : Vec F S5000x128 .f32 := fun j =>
  FloatOps.maximumf (FloatOps.addf (FloatOps.mulf (y j : F .f32) (sc (lane17 j))) (sf (lane17 j))) (Scalar.ofBits .f32 0x00000000#32)

/-- A one-row operand broadcast over the rows, at an index, is the operand at the index's lane. -/
theorem bcast17_apply (x : Vec F S1x128 .f32) (j : S5000x128.Idx) :
    broadcastTo S5000x128 (x : FVec F S1x128 .f32) broadcasts_S1x128_S5000x128 j = x (lane17 j) :=
  broadcastTo_apply _ _ j (lane17 j) fun a => by fin_cases a <;> rfl

/-- The store's payload is that map of the three loaded values: the casts to the same shape are the identity, the
    broadcasts read the lane, the arithmetic is pointwise. -/
theorem pay17_eq (y : Vec F S5000x128 .f32) (sc sf : Vec F S1x128 .f32) : k17_pay1 y sc sf = relu17 y sc sf := by
  funext j
  unfold k17_pay1 relu17
  simp only [shapeCast_self]
  show FloatOps.maximumf (FloatOps.addf (FloatOps.mulf _ (broadcastTo S5000x128 (sc : FVec F S1x128 .f32) broadcasts_S1x128_S5000x128 j))
    (broadcastTo S5000x128 (sf : FVec F S1x128 .f32) broadcasts_S1x128_S5000x128 j)) _ = _
  rw [bcast17_apply, bcast17_apply]
  rfl

/-- So what the body leaves in the result's buffer is the map of the three operand buffers: each load reads its whole buffer, the
    one store writes the whole buffer. -/
theorem out17_3_eq (y : Vec F S5000x128 .f32) (sc sf : Vec F S1x128 .f32) : out17_3 y sc sf = relu17 y sc sf := by
  unfold out17_3
  rw [View.canon_unit_zero off17_zero, View.ld_unit_zero (S := S5000x128) off17_zero, View.ld_unit_zero (S := S1x128) off17_zero,
    View.ld_unit_zero (S := S1x128) off17_zero]
  exact pay17_eq y sc sf

/-! ## The region-entry arrays, at their shapes -/

/-- The operand `y` as the region finds it. -/
abbrev inY17 (c : Dev nD) : Vec F S5000x128 .f32 := V c (Pipeline.arrRef spec17 0)
/-- The scale row as the region finds it. -/
abbrev inSc17 (c : Dev nD) : Vec F S1x128 .f32 := V c (Pipeline.arrRef spec17 1)
/-- The shift row as the region finds it. -/
abbrev inSf17 (c : Dev nD) : Vec F S1x128 .f32 := V c (Pipeline.arrRef spec17 2)

/-- The result array the region leaves, as one function of the region-entry arrays. -/
abbrev res17 (c : Dev nD) : Vec F S5000x128 .f32 := relu17 (inY17 V c) (inSc17 V c) (inSf17 V c)

/-! ## Each window's one block is its whole array -/

theorem iblk17_0_eq (c : Dev nD) (t : Fin cfg17.N) : iblk17 V c 0 t = inY17 V c := by
  obtain rfl := fin_N17 t
  have hz : (fun a => win17_0.index t17_0 a * (Pipeline.arrRef spec17 0).ty.shape.size a) = fun _ => 0 :=
    funext fun a => by fin_cases a <;> decide +kernel
  exact Memref.read_access_unit_zero (Elt F) (Pipeline.arrRef spec17 0) hz (fun a => by rw [congrFun hz a]; simp) _

theorem iblk17_1_eq (c : Dev nD) (t : Fin cfg17.N) : iblk17 V c 1 t = inSc17 V c := by
  obtain rfl := fin_N17 t
  have hz : (fun a => win17_1.index t17_0 a * (Pipeline.arrRef spec17 1).ty.shape.size a) = fun _ => 0 :=
    funext fun a => by fin_cases a <;> decide +kernel
  exact Memref.read_access_unit_zero (Elt F) (Pipeline.arrRef spec17 1) hz (fun a => by rw [congrFun hz a]; simp) _

theorem iblk17_2_eq (c : Dev nD) (t : Fin cfg17.N) : iblk17 V c 2 t = inSf17 V c := by
  obtain rfl := fin_N17 t
  have hz : (fun a => win17_2.index t17_0 a * (Pipeline.arrRef spec17 2).ty.shape.size a) = fun _ => 0 :=
    funext fun a => by fin_cases a <;> decide +kernel
  exact Memref.read_access_unit_zero (Elt F) (Pipeline.arrRef spec17 2) hz (fun a => by rw [congrFun hz a]; simp) _

/-! ## The result array after the region -/

/-- The result window's block sits at the array's origin. -/
theorem org17_3 : (fun a => win17_3.index t17_0 a * (Pipeline.arrRef spec17 3).ty.shape.size a) = fun _ => 0 :=
  funext fun a => by fin_cases a <;> decide +kernel

/-- What the one write-back moves is the map of the region-entry arrays, read through the result's block. -/
theorem flushed17_3 (c : Dev nD) (t : Fin cfg17.N) (hf : (cfg17.win 3).flush t = true) :
    (dat17 V c).flushed 3 t = ((cfg17.win 3).blk t).view.read (Elt F) (res17 V c) := by
  obtain rfl := fin_N17 t
  show (cfg17.win 3).cut (grid17.coords t17_0) ((dat17 V c).after 3 t17_0) = _
  rw [after17_3, out17_3_eq, iblk17_0_eq, iblk17_1_eq, iblk17_2_eq]
  exact (Memref.read_access_unit_zero (Elt F) (Pipeline.arrRef spec17 3) org17_3 (fun a => by rw [congrFun org17_3 a]; simp) (res17 V c)).symm

/-- THE VALUE: after the region the result array holds, at every index, `max (y · scale + shift) 0` of the region-entry
    arrays. The one block of the result window is the whole array, so its write-back covers every index. -/
theorem arrAt17_3 (c : Dev nD) : (dat17 V c).arrAt 3 cfg17.N = fun i =>
    FloatOps.maximumf (FloatOps.addf (FloatOps.mulf (inY17 V c i : F .f32) (inSc17 V c (lane17 i))) (inSf17 V c (lane17 i)))
      (Scalar.ofBits .f32 0x00000000#32) :=
  (dat17 V c).arrAt_eq_of_cover 3 (res17 V c) (flushed17_3 V c) fun i =>
    ⟨t17_0, flush17_3 t17_0, by
      show i ∈ ((View.whole (Pipeline.arrRef spec17 3)).slice (win17_3.rect t17_0)).set
      rw [View.set_slice_whole]
      exact View.mem_set_unit_zero org17_3 _ i⟩

/-- The same, the map kept as the body's own store over the region-entry arrays. -/
theorem arrAt17_3_out (c : Dev nD) : (dat17 V c).arrAt 3 cfg17.N = out17_3 (inY17 V c) (inSc17 V c) (inSf17 V c) :=
  (arrAt17_3 V c).trans (out17_3_eq _ _ _).symm

end Values17

/-! ## The same at the extended reals -/

section Ideal17

variable (V : (c : Dev nD) → (b : Ref sig .tc) → Buf (Elt Ideal) ((c : Thread nD τ).loc b))

/-- At the exact arithmetic of the extended reals the result is `max (y * scale + shift) 0`, index by index. -/
theorem arrAt17_3_ideal (c : Dev nD) (i : S5000x128.Idx) :
    ((dat17 (F := Ideal) V c).arrAt 3 cfg17.N : Vec Ideal S5000x128 .f32) i
      = max ((inY17 V c i : EReal) * (inSc17 V c (lane17 i) : EReal) + (inSf17 V c (lane17 i) : EReal)) 0 := by
  rw [arrAt17_3]
  show max (_ * _ + _) (Ideal.ofBits .f32 0x00000000#32) = _
  rw [Ideal.ofBits_zero_f32]

end Ideal17

end Cert.KernelIdeal.Hand

end
-- ==== Proof.Val.LabK5.lean ====
/-
  The diagnosis rows of the second graph layer in the kernel program, from the contents before the branch's weight slices
  to the contents after its rectified normalisation. The host cuts relation 2's two weight matrices out of the
  weight arrays and transposes them, and cuts out its bias row; the first region forms y = bias + mean·Wlᵀ + x·Wrᵀ
  together with the column sums of y and of y·y; the host turns the sums into the scale and the shift rows of the
  normalisation; the second region applies them and rectifies. Read at a row and a column this is the
  scale-and-shift form of the normalisation over the affine map.
-/
import proofs.«424088_j28020366639260_2_alg».proof.Proof.KI.Args
import proofs.«424088_j28020366639260_2_alg».proof.Proof.KI.V16
import proofs.«424088_j28020366639260_2_alg».proof.Proof.KI.V17
import proofs.«424088_j28020366639260_2_alg».proof.Proof.Val.LabTerms
import Idealize.ShloMosaic.Lib.StableHlo.Run

set_option maxRecDepth 16384
set_option maxHeartbeats 4000000

noncomputable section

namespace Cert.Val.Lab

open Cert.KernelIdeal Cert.KernelIdeal.Gen Cert.KernelIdeal.Hand
open Idealize.ShloMosaic Idealize.ShloMosaic.TcCoe Idealize.ShloMosaic.StableHlo Idealize.ShloMosaic.ValueIdx Idealize.SL.Sem
open Cert.Lib.ERealArith
open scoped BigOperators

/-! ## The weight stretch, at any contents -/

/-- The left weights as the region reads them: entry (k, q) is entry (q, k) of matrix (1, 2) of the weight array. -/
theorem diag2_wl (V : Valuation τ sig (Elt Ideal)) (k q : Fin 128) :
    (StableHlo.after hostOps16 V (Proc.devRef .tc main_v478) : (Sh2 128 128).Idx → EReal) (ix2 k q)
      = (V (Proc.devRef .tc main_arg12) : (⟨4, ![2, 6, 128, 128]⟩ : Shape).Idx → EReal) (ix4 (1 : Fin 2) (2 : Fin 6) q k) := by
  have e : (StableHlo.after hostOps16 V (Proc.devRef .tc main_v478) : (Sh2 128 128).Idx → EReal)
      = transpose (Sh2 128 128) [1, 0]
          (shapeCast (Sh2 128 128) (extractStridedSlice ⟨4, ![1, 1, 128, 128]⟩ ![1, 2, 0, 0]
            (V (Proc.devRef .tc main_arg12)) slices_S2x6x128x128_S1x1x128x128_1_2_0_0) shapeCasts_S1x1x128x128_S128x128)
          transposes_S128x128_S128x128_1_0 := by
    after_results_simp
    rfl
  rw [e, transpose_sq_apply, mat_slice_apply 1 2 (by decide) (by decide)]
  rfl

/-- The right weights likewise. -/
theorem diag2_wr (V : Valuation τ sig (Elt Ideal)) (k q : Fin 128) :
    (StableHlo.after hostOps16 V (Proc.devRef .tc main_v481) : (Sh2 128 128).Idx → EReal) (ix2 k q)
      = (V (Proc.devRef .tc main_arg14) : (⟨4, ![2, 6, 128, 128]⟩ : Shape).Idx → EReal) (ix4 (1 : Fin 2) (2 : Fin 6) q k) := by
  have e : (StableHlo.after hostOps16 V (Proc.devRef .tc main_v481) : (Sh2 128 128).Idx → EReal)
      = transpose (Sh2 128 128) [1, 0]
          (shapeCast (Sh2 128 128) (extractStridedSlice ⟨4, ![1, 1, 128, 128]⟩ ![1, 2, 0, 0]
            (V (Proc.devRef .tc main_arg14)) slices_S2x6x128x128_S1x1x128x128_1_2_0_0) shapeCasts_S1x1x128x128_S128x128)
          transposes_S128x128_S128x128_1_0 := by
    after_results_simp
    rfl
  rw [e, transpose_sq_apply, mat_slice_apply 1 2 (by decide) (by decide)]
  rfl

/-- The bias row: entry q is entry (1, 2, q) of the bias array. -/
theorem diag2_b (V : Valuation τ sig (Elt Ideal)) (q : Fin 128) :
    (StableHlo.after hostOps16 V (Proc.devRef .tc main_v484) : T1x128.Idx → EReal) (ix2 (0 : Fin 1) q)
      = (V (Proc.devRef .tc main_arg13) : (⟨3, ![2, 6, 128]⟩ : Shape).Idx → EReal) (ix3 (1 : Fin 2) (2 : Fin 6) q) := by
  have e : (StableHlo.after hostOps16 V (Proc.devRef .tc main_v484) : T1x128.Idx → EReal)
      = shapeCast T1x128 (shapeCast T128 (extractStridedSlice ⟨3, ![1, 1, 128]⟩ ![1, 2, 0]
            (V (Proc.devRef .tc main_arg13)) slices_S2x6x128_S1x1x128_1_2_0) shapeCasts_S1x1x128_S128) shapeCasts_S128_S1x128 := by
    after_results_simp
    rfl
  rw [e, shapeCast_a_1a_apply, vec_slice_apply 1 2 (by decide) (by decide)]
  rfl

/-! ## The normalisation stretch, at any contents -/

/-- The gain row of the diagnosis normalisation of layer 1, cut out of the gain array. -/
abbrev diag2_g (V : Valuation τ sig (Elt Ideal)) : FVec Ideal T128 .f32 :=
  shapeCast T128 (extractStridedSlice ⟨3, ![1, 1, 128]⟩ ![1, 2, 0] (V (Proc.devRef .tc main_arg15))
    slices_S2x4x128_S1x1x128_1_2_0) shapeCasts_S1x1x128_S128
/-- The offset row likewise. -/
abbrev diag2_β (V : Valuation τ sig (Elt Ideal)) : FVec Ideal T128 .f32 :=
  shapeCast T128 (extractStridedSlice ⟨3, ![1, 1, 128]⟩ ![1, 2, 0] (V (Proc.devRef .tc main_arg16))
    slices_S2x4x128_S1x1x128_1_2_0) shapeCasts_S1x1x128_S128

/-- The scale row the host leaves for the second region. -/
theorem diag2_scale (V : Valuation τ sig (Elt Ideal)) :
    (StableHlo.after hostOps17 V (Proc.devRef .tc main_v504) : T1x128.Idx → EReal)
      = shapeCast T1x128 (kScale shapeCasts_S1x128_S128 bcast_S_S128 0x459C4000#32
          (V (Proc.devRef .tc main_v485_1)) (V (Proc.devRef .tc main_v485_2)) (diag2_g V)) shapeCasts_S128_S1x128 := by
  after_results_simp
  rfl

/-- The shift row. -/
theorem diag2_shift (V : Valuation τ sig (Elt Ideal)) :
    (StableHlo.after hostOps17 V (Proc.devRef .tc main_v505) : T1x128.Idx → EReal)
      = shapeCast T1x128 (kShift shapeCasts_S1x128_S128 bcast_S_S128 0x459C4000#32
          (V (Proc.devRef .tc main_v485_1)) (V (Proc.devRef .tc main_v485_2)) (diag2_g V) (diag2_β V)) shapeCasts_S128_S1x128 := by
  after_results_simp
  rfl

/-! ## The branch -/

/-- A column's lane in the one-row arrays. -/
theorem diag2_lane (p : Fin 5000) (q : Fin 128) : lane17 (ix2 p q) = ix2 (0 : Fin 1) q := by
  funext a
  match a with
  | ⟨0, _⟩ => rfl
  | ⟨1, _⟩ => rfl

/-- The row count as the host's literal. -/
theorem diag2_N : Ideal.ofBits .f32 0x459C4000#32 = ((((5000 : ℕ) : ℝ)) : EReal) := by
  rw [ofBits_5000]; norm_num

variable (m : (ℓ : Loc nD τ sig) → Buf (Elt Ideal) ℓ) (ρ : Dev nD → PrngReg)

/-- What the first region leaves: the matrix y, the row of its column sums, the row of the column sums of y·y. -/
abbrev diag2_Y (c : Dev nD) : (Sh2 5000 128).Idx → EReal := W33 m ρ c (Proc.devRef .tc main_v485_0)
abbrev diag2_S (c : Dev nD) : T1x128.Idx → EReal := W33 m ρ c (Proc.devRef .tc main_v485_1)
abbrev diag2_Q (c : Dev nD) : T1x128.Idx → EReal := W33 m ρ c (Proc.devRef .tc main_v485_2)

/-- What the first region leaves in its first output array: the affine map of the entry arrays, at (p, q). -/
theorem diag2_y (c : Dev nD) (p : Fin 5000) (q : Fin 128) :
    diag2_Y m ρ c (ix2 p q)
      = affC (1 : Fin 2) (2 : Fin 6) (coords (W31 m ρ c (Proc.devRef .tc main_v382))) (coords (W31 m ρ c (Proc.devRef .tc main_v286)))
          (W31 m ρ c (Proc.devRef .tc main_arg12)) (W31 m ρ c (Proc.devRef .tc main_arg14)) (W31 m ρ c (Proc.devRef .tc main_arg13)) p q := by
  have hY : diag2_Y m ρ c = Y16 (VE16 m ρ) c :=
    (Wexit16_arr m ρ c 5).trans (arrAt16_5_exact (VE16 m ρ) c)
  rw [hY, Y16_exact]
  unfold affC
  have hb : in16_4 (VE16 m ρ) c (ix2 0 q) = (W31 m ρ c (Proc.devRef .tc main_arg13) : (⟨3, ![2, 6, 128]⟩ : Shape).Idx → EReal) (ix3 (1 : Fin 2) (2 : Fin 6) q) :=
    (congrFun (congrFun (W32_eq m ρ c) (Proc.devRef .tc main_v484)) (ix2 0 q)).trans (diag2_b (W31 m ρ c) q)
  have hwl : ∀ k : Fin 128, in16_2 (VE16 m ρ) c (ix2 k q) = (W31 m ρ c (Proc.devRef .tc main_arg12) : (⟨4, ![2, 6, 128, 128]⟩ : Shape).Idx → EReal) (ix4 (1 : Fin 2) (2 : Fin 6) q k) :=
    fun k => (congrFun (congrFun (W32_eq m ρ c) (Proc.devRef .tc main_v478)) (ix2 k q)).trans (diag2_wl (W31 m ρ c) k q)
  have hwr : ∀ k : Fin 128, in16_3 (VE16 m ρ) c (ix2 k q) = (W31 m ρ c (Proc.devRef .tc main_arg14) : (⟨4, ![2, 6, 128, 128]⟩ : Shape).Idx → EReal) (ix4 (1 : Fin 2) (2 : Fin 6) q k) :=
    fun k => (congrFun (congrFun (W32_eq m ρ c) (Proc.devRef .tc main_v481)) (ix2 k q)).trans (diag2_wr (W31 m ρ c) k q)
  have hA : (in16_0 (VE16 m ρ) c : (Sh2 5000 128).Idx → EReal) = W31 m ρ c (Proc.devRef .tc main_v382) :=
    W32_of m ρ c main_v382 (by decide)
  have hB : (in16_1 (VE16 m ρ) c : (Sh2 5000 128).Idx → EReal) = W31 m ρ c (Proc.devRef .tc main_v286) :=
    W32_of m ρ c main_v286 (by decide)
  rw [hb, hA, hB]
  simp only [hwl, hwr]

/-- THE DIAGNOSIS BRANCH OF LAYER 1 in the kernel program. -/
theorem K_diag2 (c : Dev nD) :
    (W35 m ρ c (Proc.devRef .tc main_v506) : (Sh2 5000 128).Idx → EReal)
      = bnK (((5000 : ℕ) : ℝ) : EReal) ((eps5 : ℝ) : EReal) (1 : Fin 2) (2 : Fin 4)
          (aff (1 : Fin 2) (2 : Fin 6) (W31 m ρ c (Proc.devRef .tc main_v382)) (W31 m ρ c (Proc.devRef .tc main_v286))
            (W31 m ρ c (Proc.devRef .tc main_arg12) : FVec Ideal S2x6x128x128 .f32) (W31 m ρ c (Proc.devRef .tc main_arg14) : FVec Ideal S2x6x128x128 .f32) (W31 m ρ c (Proc.devRef .tc main_arg13) : FVec Ideal S2x6x128 .f32))
          (W31 m ρ c (Proc.devRef .tc main_arg15) : FVec Ideal S2x4x128 .f32) (W31 m ρ c (Proc.devRef .tc main_arg16) : FVec Ideal S2x4x128 .f32) := by
  funext j
  obtain ⟨p, q, rfl⟩ : ∃ (p : Fin 5000) (q : Fin 128), j = ix2 p q := ⟨j 0, j 1, eq_ix2 j⟩
  -- the first region's three arrays, as the normalisation stretch and the second region find them
  have hY : diag2_Y m ρ c = Y16 (VE16 m ρ) c :=
    (Wexit16_arr m ρ c 5).trans (arrAt16_5_exact (VE16 m ρ) c)
  have hs : ∀ q' : Fin 128, diag2_S m ρ c (ix2 (0 : Fin 1) q')
      = (0 : EReal) + ∑ i : Fin 5000, diag2_Y m ρ c (ix2 i q') := fun q' => by
    rw [hY]
    exact (congrFun (Wexit16_arr m ρ c 6) (ix2 0 q')).trans (arrAt16_6_exact (VE16 m ρ) c (ix2 0 q'))
  have hsq : ∀ q' : Fin 128, diag2_Q m ρ c (ix2 (0 : Fin 1) q')
      = (0 : EReal) + ∑ i : Fin 5000, diag2_Y m ρ c (ix2 i q')
          * diag2_Y m ρ c (ix2 i q') := fun q' => by
    rw [hY]
    exact (congrFun (Wexit16_arr m ρ c 7) (ix2 0 q')).trans (arrAt16_7_exact (VE16 m ρ) c (ix2 0 q'))
  -- the second region's output at (p, q)
  have h7 := (congrFun (Wexit17_arr m ρ c 3) (ix2 p q)).trans (arrAt17_3_ideal (VE17 m ρ) c (ix2 p q))
  have hy7 : (inY17 (VE17 m ρ) c : (Sh2 5000 128).Idx → EReal) = diag2_Y m ρ c :=
    W34_of m ρ c main_v485_0 (by decide)
  have hsc : (inSc17 (VE17 m ρ) c : T1x128.Idx → EReal) = _ :=
    (congrFun (W34_eq m ρ c) (Proc.devRef .tc main_v504)).trans (diag2_scale (W33 m ρ c))
  have hsf : (inSf17 (VE17 m ρ) c : T1x128.Idx → EReal) = _ :=
    (congrFun (W34_eq m ρ c) (Proc.devRef .tc main_v505)).trans (diag2_shift (W33 m ρ c))
  rw [diag2_lane, hy7, hsc, hsf] at h7
  refine h7.trans ?_
  rw [kBN_apply 0x459C4000#32 _ diag2_N _ _ _ hs hsq]
  -- the two sides are the same scale-and-shift form: the same matrix, the same gain and offset rows
  show bnKC _ _ _ _ _ p q = bnKC _ _ _ _ _ p q
  have hyc : coords (diag2_Y m ρ c)
      = coords (aff (1 : Fin 2) (2 : Fin 6) (W31 m ρ c (Proc.devRef .tc main_v382)) (W31 m ρ c (Proc.devRef .tc main_v286))
          (W31 m ρ c (Proc.devRef .tc main_arg12)) (W31 m ρ c (Proc.devRef .tc main_arg14)) (W31 m ρ c (Proc.devRef .tc main_arg13))) :=
    funext fun p' => funext fun q' => diag2_y m ρ c p' q'
  have h15 : (W33 m ρ c (Proc.devRef .tc main_arg15) : (⟨3, ![2, 4, 128]⟩ : Shape).Idx → EReal) = W31 m ρ c (Proc.devRef .tc main_arg15) :=
    (Wexit16_keep m ρ c main_arg15 (by decide)).trans (W32_of m ρ c main_arg15 (by decide))
  have h16 : (W33 m ρ c (Proc.devRef .tc main_arg16) : (⟨3, ![2, 4, 128]⟩ : Shape).Idx → EReal) = W31 m ρ c (Proc.devRef .tc main_arg16) :=
    (Wexit16_keep m ρ c main_arg16 (by decide)).trans (W32_of m ρ c main_arg16 (by decide))
  have hg : (fun q' : Fin 128 => diag2_g (W33 m ρ c) (ix1 q'))
      = fun q' => (W31 m ρ c (Proc.devRef .tc main_arg15) : (⟨3, ![2, 4, 128]⟩ : Shape).Idx → EReal) (ix3 (1 : Fin 2) (2 : Fin 4) q') :=
    funext fun q' => by rw [← h15]; exact vec_slice_apply 1 2 (by decide) (by decide) _ _ _ q'
  have hβ : (fun q' : Fin 128 => diag2_β (W33 m ρ c) (ix1 q'))
      = fun q' => (W31 m ρ c (Proc.devRef .tc main_arg16) : (⟨3, ![2, 4, 128]⟩ : Shape).Idx → EReal) (ix3 (1 : Fin 2) (2 : Fin 4) q') :=
    funext fun q' => by rw [← h16]; exact vec_slice_apply 1 2 (by decide) (by decide) _ _ _ q'
  rw [hyc, hg, hβ]

end Cert.Val.Lab

end
-- ==== Proof.KI.V18.lean ====
/- Region 18 of the kernel program: what its three output arrays hold after the region, each as ONE
   whole-array function of the arrays the region is entered with.

   The grid has one point and every window's one block is its whole array, so the array after the
   region is what the body left in the window's buffer: y = b + x0·w0 + x1·w1 (window 5), the column
   sums of y added onto a zero row (window 6), the column sums of y·y added onto a zero row (window 7),
   stated through the body's payloads applied to the whole entry arrays (any float semantics), and then,
   at the exact values, index by index over the extended reals: the products as sums over the 128
   contraction coordinates, the column sums as sums over the rows. -/
import proofs.«424088_j28020366639260_2_alg».proof.Proof.KI.R18
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## The outputs' buffers after the body, as the payloads of the whole input blocks -/

theorem hz18 : (![0, 0] : Fin 2 → Nat) = fun _ => 0 := funext fun a => by fin_cases a <;> rfl

/-- Window 5's buffer: `y` of the blocks. -/
theorem out18_5_eq (x0 x1 : Vec F S3000x128 .f32) (x2 x3 : Vec F S128x128 .f32) (x4 : Vec F S1x128 .f32) :
    out18_5 x0 x1 x2 x3 x4 = k18_pay4 x4 x0 x2 x1 x3 := by
  unfold out18_5 y18
  rw [View.canon_unit_zero hz18]
  simp only [View.ld_unit_zero (S := S3000x128) hz18, View.ld_unit_zero (S := S128x128) hz18, View.ld_unit_zero (S := S1x128) hz18]

/-- Window 6's buffer: the column sums of `y` added onto the zero row. -/
theorem out18_6_eq (x0 x1 : Vec F S3000x128 .f32) (x2 x3 : Vec F S128x128 .f32) (x4 : Vec F S1x128 .f32) :
    out18_6 x0 x1 x2 x3 x4 = k18_pay6 x4 x0 x2 x1 x3 (k18_pay2 (F := F)) := by
  unfold out18_6
  rw [View.canon_cons_unit_zero hz18]
  simp only [View.ld_unit_zero (S := S3000x128) hz18, View.ld_unit_zero (S := S128x128) hz18, View.ld_unit_zero (S := S1x128) hz18]

/-- Window 7's buffer: the column sums of `y·y` added onto the zero row. -/
theorem out18_7_eq (x0 x1 : Vec F S3000x128 .f32) (x2 x3 : Vec F S128x128 .f32) (x4 : Vec F S1x128 .f32) :
    out18_7 x0 x1 x2 x3 x4 = k18_pay1 (k18_pay5 x4 x0 x2 x1 x3) (k18_pay3 (F := F)) := by
  unfold out18_7
  rw [View.canon_cons_unit_zero hz18]
  simp only [View.ld_unit_zero (S := S3000x128) hz18, View.ld_unit_zero (S := S128x128) hz18, View.ld_unit_zero (S := S1x128) hz18]

/-! ## Each window's one block is its whole array -/

/-- The region's array of window `w` as the region finds it. -/
abbrev A18 (c : Dev nD) (w : Fin cfg18.W) : Buf (Elt F) ((c : Thread nD τ).loc (Pipeline.arrRef spec18 w)) := V c (Pipeline.arrRef spec18 w)

theorem iblk18_0_eq (c : Dev nD) (t : Fin cfg18.N) : (iblk18 V c 0 t : Vec F S3000x128 .f32) = A18 V c 0 := by
  obtain rfl := fin_N18 t
  unfold iblk18
  have hz' : (fun a => win18_0.index t18_0 a * (Pipeline.arrRef spec18 0).ty.shape.size a) = fun _ => 0 :=
    funext fun a => by fin_cases a <;> decide
  exact Memref.read_access_unit_zero (Elt F) (Pipeline.arrRef spec18 0) hz' (fun a => by rw [congrFun hz' a]; simp) _
theorem iblk18_1_eq (c : Dev nD) (t : Fin cfg18.N) : (iblk18 V c 1 t : Vec F S3000x128 .f32) = A18 V c 1 := by
  obtain rfl := fin_N18 t
  unfold iblk18
  have hz' : (fun a => win18_1.index t18_0 a * (Pipeline.arrRef spec18 1).ty.shape.size a) = fun _ => 0 :=
    funext fun a => by fin_cases a <;> decide
  exact Memref.read_access_unit_zero (Elt F) (Pipeline.arrRef spec18 1) hz' (fun a => by rw [congrFun hz' a]; simp) _
theorem iblk18_2_eq (c : Dev nD) (t : Fin cfg18.N) : (iblk18 V c 2 t : Vec F S128x128 .f32) = A18 V c 2 := by
  obtain rfl := fin_N18 t
  unfold iblk18
  have hz' : (fun a => win18_2.index t18_0 a * (Pipeline.arrRef spec18 2).ty.shape.size a) = fun _ => 0 :=
    funext fun a => by fin_cases a <;> decide
  exact Memref.read_access_unit_zero (Elt F) (Pipeline.arrRef spec18 2) hz' (fun a => by rw [congrFun hz' a]; simp) _
theorem iblk18_3_eq (c : Dev nD) (t : Fin cfg18.N) : (iblk18 V c 3 t : Vec F S128x128 .f32) = A18 V c 3 := by
  obtain rfl := fin_N18 t
  unfold iblk18
  have hz' : (fun a => win18_3.index t18_0 a * (Pipeline.arrRef spec18 3).ty.shape.size a) = fun _ => 0 :=
    funext fun a => by fin_cases a <;> decide
  exact Memref.read_access_unit_zero (Elt F) (Pipeline.arrRef spec18 3) hz' (fun a => by rw [congrFun hz' a]; simp) _
theorem iblk18_4_eq (c : Dev nD) (t : Fin cfg18.N) : (iblk18 V c 4 t : Vec F S1x128 .f32) = A18 V c 4 := by
  obtain rfl := fin_N18 t
  unfold iblk18
  have hz' : (fun a => win18_4.index t18_0 a * (Pipeline.arrRef spec18 4).ty.shape.size a) = fun _ => 0 :=
    funext fun a => by fin_cases a <;> decide
  exact Memref.read_access_unit_zero (Elt F) (Pipeline.arrRef spec18 4) hz' (fun a => by rw [congrFun hz' a]; simp) _

/-! ## The arrays after the region -/

/-- What the region leaves in window 5's array: `y` of the entry arrays. -/
abbrev G18_5 (c : Dev nD) : Buf (Elt F) ((c : Thread nD τ).loc (Pipeline.arrRef spec18 5)) :=
  k18_pay4 (A18 V c 4) (A18 V c 0) (A18 V c 2) (A18 V c 1) (A18 V c 3)
/-- in window 6's: the column sums of `y` added onto the zero row; -/
abbrev G18_6 (c : Dev nD) : Buf (Elt F) ((c : Thread nD τ).loc (Pipeline.arrRef spec18 6)) :=
  k18_pay6 (A18 V c 4) (A18 V c 0) (A18 V c 2) (A18 V c 1) (A18 V c 3) (k18_pay2 (F := F))
/-- in window 7's: the column sums of `y·y` added onto the zero row. -/
abbrev G18_7 (c : Dev nD) : Buf (Elt F) ((c : Thread nD τ).loc (Pipeline.arrRef spec18 7)) :=
  k18_pay1 (k18_pay5 (A18 V c 4) (A18 V c 0) (A18 V c 2) (A18 V c 1) (A18 V c 3)) (k18_pay3 (F := F))

/-- The one write-back of window 5 writes it: the block at zero offsets is the array. -/
theorem flushed18_5 (c : Dev nD) (t : Fin cfg18.N) :
    (dat18 V c).flushed 5 t = ((cfg18.win 5).blk t).view.read (Elt F) (G18_5 V c) := by
  obtain rfl := fin_N18 t
  show (cfg18.win 5).cut (grid18.coords t18_0) ((dat18 V c).after 5 t18_0) = _
  rw [after18_5, out18_5_eq, iblk18_0_eq, iblk18_1_eq, iblk18_2_eq, iblk18_3_eq, iblk18_4_eq]
  have hz' : (fun a => win18_5.index t18_0 a * (Pipeline.arrRef spec18 5).ty.shape.size a) = fun _ => 0 :=
    funext fun a => by fin_cases a <;> decide
  exact (Memref.read_access_unit_zero (Elt F) (Pipeline.arrRef spec18 5) hz' (fun a => by rw [congrFun hz' a]; simp) (G18_5 V c)).symm

/-- Its one block covers the array. -/
theorem covers18_5 (c : Dev nD) (i : ((cfg18.win 5).arr.view.loc (c.tc : Thread nD τ)).2.ty.Idx) :
    ∃ t : Fin cfg18.N, (cfg18.win 5).flush t = true ∧ i ∈ ((cfg18.win 5).blk t).view.set := by
  refine ⟨t18_0, flush18_5 t18_0, ?_⟩
  show i ∈ ((View.whole (Pipeline.arrRef spec18 5)).slice (win18_5.rect t18_0)).set
  rw [View.set_slice_whole, Rect.mem_set_unit]
  intro a
  have h0 : win18_5.index t18_0 a * win18_5.size a = 0 := by fin_cases a <;> decide
  have h1 : win18_5.xsize (grid18.coords t18_0) a = (Pipeline.arrRef spec18 5).ty.shape.size a := by fin_cases a <;> decide
  show win18_5.index t18_0 a * win18_5.size a ≤ (i a : Nat) ∧ (i a : Nat) < win18_5.index t18_0 a * win18_5.size a + win18_5.xsize (grid18.coords t18_0) a
  rw [h0, h1]
  exact ⟨Nat.zero_le _, by simpa using (i a).isLt⟩

/-- THE VALUE of window 5's array after the region. -/
theorem arrAt18_5 (c : Dev nD) : (dat18 V c).arrAt 5 cfg18.N = G18_5 V c :=
  (dat18 V c).arrAt_eq_of_cover 5 (G18_5 V c) (fun t _ => flushed18_5 V c t) (covers18_5 c)

/-- The one write-back of window 6 writes it: the block at zero offsets is the array. -/
theorem flushed18_6 (c : Dev nD) (t : Fin cfg18.N) :
    (dat18 V c).flushed 6 t = ((cfg18.win 6).blk t).view.read (Elt F) (G18_6 V c) := by
  obtain rfl := fin_N18 t
  show (cfg18.win 6).cut (grid18.coords t18_0) ((dat18 V c).after 6 t18_0) = _
  rw [after18_6, out18_6_eq, iblk18_0_eq, iblk18_1_eq, iblk18_2_eq, iblk18_3_eq, iblk18_4_eq]
  have hz' : (fun a => win18_6.index t18_0 a * (Pipeline.arrRef spec18 6).ty.shape.size a) = fun _ => 0 :=
    funext fun a => by fin_cases a <;> decide
  exact (Memref.read_access_unit_zero (Elt F) (Pipeline.arrRef spec18 6) hz' (fun a => by rw [congrFun hz' a]; simp) (G18_6 V c)).symm

/-- Its one block covers the array. -/
theorem covers18_6 (c : Dev nD) (i : ((cfg18.win 6).arr.view.loc (c.tc : Thread nD τ)).2.ty.Idx) :
    ∃ t : Fin cfg18.N, (cfg18.win 6).flush t = true ∧ i ∈ ((cfg18.win 6).blk t).view.set := by
  refine ⟨t18_0, flush18_6 t18_0, ?_⟩
  show i ∈ ((View.whole (Pipeline.arrRef spec18 6)).slice (win18_6.rect t18_0)).set
  rw [View.set_slice_whole, Rect.mem_set_unit]
  intro a
  have h0 : win18_6.index t18_0 a * win18_6.size a = 0 := by fin_cases a <;> decide
  have h1 : win18_6.xsize (grid18.coords t18_0) a = (Pipeline.arrRef spec18 6).ty.shape.size a := by fin_cases a <;> decide
  show win18_6.index t18_0 a * win18_6.size a ≤ (i a : Nat) ∧ (i a : Nat) < win18_6.index t18_0 a * win18_6.size a + win18_6.xsize (grid18.coords t18_0) a
  rw [h0, h1]
  exact ⟨Nat.zero_le _, by simpa using (i a).isLt⟩

/-- THE VALUE of window 6's array after the region. -/
theorem arrAt18_6 (c : Dev nD) : (dat18 V c).arrAt 6 cfg18.N = G18_6 V c :=
  (dat18 V c).arrAt_eq_of_cover 6 (G18_6 V c) (fun t _ => flushed18_6 V c t) (covers18_6 c)

/-- The one write-back of window 7 writes it: the block at zero offsets is the array. -/
theorem flushed18_7 (c : Dev nD) (t : Fin cfg18.N) :
    (dat18 V c).flushed 7 t = ((cfg18.win 7).blk t).view.read (Elt F) (G18_7 V c) := by
  obtain rfl := fin_N18 t
  show (cfg18.win 7).cut (grid18.coords t18_0) ((dat18 V c).after 7 t18_0) = _
  rw [after18_7, out18_7_eq, iblk18_0_eq, iblk18_1_eq, iblk18_2_eq, iblk18_3_eq, iblk18_4_eq]
  have hz' : (fun a => win18_7.index t18_0 a * (Pipeline.arrRef spec18 7).ty.shape.size a) = fun _ => 0 :=
    funext fun a => by fin_cases a <;> decide
  exact (Memref.read_access_unit_zero (Elt F) (Pipeline.arrRef spec18 7) hz' (fun a => by rw [congrFun hz' a]; simp) (G18_7 V c)).symm

/-- Its one block covers the array. -/
theorem covers18_7 (c : Dev nD) (i : ((cfg18.win 7).arr.view.loc (c.tc : Thread nD τ)).2.ty.Idx) :
    ∃ t : Fin cfg18.N, (cfg18.win 7).flush t = true ∧ i ∈ ((cfg18.win 7).blk t).view.set := by
  refine ⟨t18_0, flush18_7 t18_0, ?_⟩
  show i ∈ ((View.whole (Pipeline.arrRef spec18 7)).slice (win18_7.rect t18_0)).set
  rw [View.set_slice_whole, Rect.mem_set_unit]
  intro a
  have h0 : win18_7.index t18_0 a * win18_7.size a = 0 := by fin_cases a <;> decide
  have h1 : win18_7.xsize (grid18.coords t18_0) a = (Pipeline.arrRef spec18 7).ty.shape.size a := by fin_cases a <;> decide
  show win18_7.index t18_0 a * win18_7.size a ≤ (i a : Nat) ∧ (i a : Nat) < win18_7.index t18_0 a * win18_7.size a + win18_7.xsize (grid18.coords t18_0) a
  rw [h0, h1]
  exact ⟨Nat.zero_le _, by simpa using (i a).isLt⟩

/-- THE VALUE of window 7's array after the region. -/
theorem arrAt18_7 (c : Dev nD) : (dat18 V c).arrAt 7 cfg18.N = G18_7 V c :=
  (dat18 V c).arrAt_eq_of_cover 7 (G18_7 V c) (fun t _ => flushed18_7 V c t) (covers18_7 c)

/-! ## At the exact values (F := Ideal): the payloads index by index, over the extended reals -/

section Exact
open Idealize.ShloMosaic.ValueIdx

/-- The dimension numbers of the body's two products: rows × (128 × 128). -/
abbrev dot18 : DotDims S3000x128 S128x128 S3000x128 := dot_S3000x128_S128x128_S3000x128_1_0_0_1_n_n

/-- `y` at an index: the bias at the column, plus the two products' sums over the contraction index. -/
theorem k18_pay4_exact (b : Vec Ideal S1x128 .f32) (x0 : Vec Ideal S3000x128 .f32) (w0 : Vec Ideal S128x128 .f32)
    (x1 : Vec Ideal S3000x128 .f32) (w1 : Vec Ideal S128x128 .f32) (j : S3000x128.Idx) :
    k18_pay4 (F := Ideal) b x0 w0 x1 w1 j
      = (broadcastTo S3000x128 b broadcasts_S1x128_S3000x128 j + ∑ q : dot18.contr.Idx, x0 (dot18.lhsIdx j q) * w0 (dot18.rhsIdx j q))
        + ∑ q : dot18.contr.Idx, x1 (dot18.lhsIdx j q) * w1 (dot18.rhsIdx j q) := by
  unfold k18_pay4
  simp only [shapeCast_self, matmul]
  rw [addf_apply, addf_apply, Ideal.matmul_constant_zero_apply, Ideal.matmul_constant_zero_apply]
  simp only [truncf_apply]

/-- The zero rows the body stores first. -/
theorem k18_pay2_exact (j : S1x128.Idx) : k18_pay2 (F := Ideal) j = 0 := by
  unfold k18_pay2; exact Ideal.ofBits_zero_f32
theorem k18_pay3_exact (j : S1x128.Idx) : k18_pay3 (F := Ideal) j = 0 := by
  unfold k18_pay3; exact Ideal.ofBits_zero_f32

/-- The column sums of `y` added onto the row read back. -/
theorem k18_pay6_exact (b : Vec Ideal S1x128 .f32) (x0 : Vec Ideal S3000x128 .f32) (w0 : Vec Ideal S128x128 .f32)
    (x1 : Vec Ideal S3000x128 .f32) (w1 : Vec Ideal S128x128 .f32) (z : Vec Ideal S1x128 .f32) (j : S1x128.Idx) :
    k18_pay6 (F := Ideal) b x0 w0 x1 w1 z j
      = z j + ∑ r : Fin (S3000x128.size 0), k18_pay4 (F := Ideal) b x0 w0 x1 w1 (reduces_S3000x128_S128.lift (fun a => j a.succ) r) := by
  unfold k18_pay6
  simp only [shapeCast_self]
  rw [addf_apply, shapeCast_addUnit_apply (n := 1) ![128]]
  exact congrArg (z j + ·) (Ideal.multiReduction_add_single _ _ reduces_S3000x128_S128 _ _ _)

/-- The column sums of `y·y`. -/
theorem k18_pay5_exact (b : Vec Ideal S1x128 .f32) (x0 : Vec Ideal S3000x128 .f32) (w0 : Vec Ideal S128x128 .f32)
    (x1 : Vec Ideal S3000x128 .f32) (w1 : Vec Ideal S128x128 .f32) (j : S1x128.Idx) :
    k18_pay5 (F := Ideal) b x0 w0 x1 w1 j
      = ∑ r : Fin (S3000x128.size 0), k18_pay4 (F := Ideal) b x0 w0 x1 w1 (reduces_S3000x128_S128.lift (fun a => j a.succ) r)
          * k18_pay4 (F := Ideal) b x0 w0 x1 w1 (reduces_S3000x128_S128.lift (fun a => j a.succ) r) := by
  unfold k18_pay5
  rw [shapeCast_addUnit_apply (n := 1) ![128]]
  exact Ideal.multiReduction_add_single _ _ reduces_S3000x128_S128 _ _ _

/-- They are added onto the row read back. -/
theorem k18_pay1_exact (s : Vec Ideal S1x128 .f32) (z : Vec Ideal S1x128 .f32) (j : S1x128.Idx) :
    k18_pay1 (F := Ideal) s z j = z j + s j := by
  unfold k18_pay1
  simp only [shapeCast_self]
  rw [addf_apply]

/-! ### The indices, by coordinates -/

/-- The row index a column sum runs over, put back beside the column. -/
theorem lift18_eq (j : S1x128.Idx) (r : Fin (S3000x128.size 0)) :
    reduces_S3000x128_S128.lift (fun a => j a.succ) r = ix2 r (j 1) := by
  funext a
  match a with
  | ⟨0, _⟩ => rfl
  | ⟨1, _⟩ => rfl

/-- The bias row's index under the broadcast. -/
theorem brow18_eq (b : Vec Ideal S1x128 .f32) (j : S3000x128.Idx) :
    broadcastTo S3000x128 b broadcasts_S1x128_S3000x128 j = b (ix2 0 (j 1)) := by
  refine broadcastTo_apply b _ j (ix2 0 (j 1)) fun a => ?_
  match a with
  | ⟨0, _⟩ => rfl
  | ⟨1, _⟩ => rfl

/-- The products' contraction index is its one coordinate. -/
abbrev ce18 : dot18.contr.Idx ≃ Fin 128 := contrEquiv1 dot18 128 rfl rfl

/-- The left operand is read at (row, contraction coordinate), -/
theorem dot18_lhs (j : S3000x128.Idx) (k : Fin 128) : dot18.lhsIdx j (ce18.symm k) = ix2 (j 0) k := by
  funext a
  match a with
  | ⟨0, _⟩ => rfl
  | ⟨1, _⟩ => rfl

/-- the right operand at (contraction coordinate, column). -/
theorem dot18_rhs (j : S3000x128.Idx) (k : Fin 128) : dot18.rhsIdx j (ce18.symm k) = ix2 k (j 1) := by
  funext a
  match a with
  | ⟨0, _⟩ => rfl
  | ⟨1, _⟩ => rfl

/-- A product's sum over the contraction index is the sum over its coordinate. -/
theorem dot18_sum (x : Vec Ideal S3000x128 .f32) (w : Vec Ideal S128x128 .f32) (j : S3000x128.Idx) :
    ∑ q : dot18.contr.Idx, x (dot18.lhsIdx j q) * w (dot18.rhsIdx j q) = ∑ k : Fin 128, x (ix2 (j 0) k) * w (ix2 k (j 1)) := by
  rw [← Equiv.sum_comp ce18.symm]
  exact Finset.sum_congr rfl fun k _ => by rw [dot18_lhs, dot18_rhs]; rfl

/-- `y` at (row, column): the bias at the column plus the two products' sums over the 128 contraction coordinates. -/
theorem y18_exact (b : Vec Ideal S1x128 .f32) (x0 : Vec Ideal S3000x128 .f32) (w0 : Vec Ideal S128x128 .f32)
    (x1 : Vec Ideal S3000x128 .f32) (w1 : Vec Ideal S128x128 .f32) (j : S3000x128.Idx) :
    k18_pay4 (F := Ideal) b x0 w0 x1 w1 j
      = (b (ix2 0 (j 1)) + ∑ k : Fin 128, x0 (ix2 (j 0) k) * w0 (ix2 k (j 1)))
        + ∑ k : Fin 128, x1 (ix2 (j 0) k) * w1 (ix2 k (j 1)) := by
  rw [k18_pay4_exact, brow18_eq, dot18_sum, dot18_sum]

/-- The column sums of `y` on the zero row, at a column: zero plus the sum over the rows. -/
theorem sum18_exact (b : Vec Ideal S1x128 .f32) (x0 : Vec Ideal S3000x128 .f32) (w0 : Vec Ideal S128x128 .f32)
    (x1 : Vec Ideal S3000x128 .f32) (w1 : Vec Ideal S128x128 .f32) (j : S1x128.Idx) :
    k18_pay6 (F := Ideal) b x0 w0 x1 w1 (k18_pay2 (F := Ideal)) j
      = 0 + ∑ r : Fin 3000, k18_pay4 (F := Ideal) b x0 w0 x1 w1 (ix2 r (j 1)) := by
  rw [k18_pay6_exact, k18_pay2_exact]
  exact congrArg (0 + ·) (Finset.sum_congr rfl fun r _ => by rw [lift18_eq]; rfl)

/-- The column sums of `y·y` on the zero row, at a column. -/
theorem sumsq18_exact (b : Vec Ideal S1x128 .f32) (x0 : Vec Ideal S3000x128 .f32) (w0 : Vec Ideal S128x128 .f32)
    (x1 : Vec Ideal S3000x128 .f32) (w1 : Vec Ideal S128x128 .f32) (j : S1x128.Idx) :
    k18_pay1 (F := Ideal) (k18_pay5 (F := Ideal) b x0 w0 x1 w1) (k18_pay3 (F := Ideal)) j
      = 0 + ∑ r : Fin 3000, k18_pay4 (F := Ideal) b x0 w0 x1 w1 (ix2 r (j 1)) * k18_pay4 (F := Ideal) b x0 w0 x1 w1 (ix2 r (j 1)) := by
  rw [k18_pay1_exact, k18_pay3_exact, k18_pay5_exact]
  exact congrArg (0 + ·) (Finset.sum_congr rfl fun r _ => by rw [lift18_eq]; rfl)

/-! ### The region's three arrays at the exact values, index by index -/

variable (VI : (c : Dev nD) → (b : Ref sig .tc) → Buf (Elt Ideal) ((c : Thread nD τ).loc b))

/-- The arrays the region is entered with, at the shapes the body sees: the two data arrays, their weights, the bias row; -/
abbrev in18_0 (c : Dev nD) : Vec Ideal S3000x128 .f32 := A18 VI c 0
abbrev in18_1 (c : Dev nD) : Vec Ideal S3000x128 .f32 := A18 VI c 1
abbrev in18_2 (c : Dev nD) : Vec Ideal S128x128 .f32 := A18 VI c 2
abbrev in18_3 (c : Dev nD) : Vec Ideal S128x128 .f32 := A18 VI c 3
abbrev in18_4 (c : Dev nD) : Vec Ideal S1x128 .f32 := A18 VI c 4
/-- and what the region leaves in window 5's array. -/
abbrev Y18 (c : Dev nD) : Vec Ideal S3000x128 .f32 := G18_5 VI c

/-- Window 5's array after the region, at (row, column): `b + x0·w0 + x1·w1` there. -/
theorem Y18_exact (c : Dev nD) (j : S3000x128.Idx) :
    Y18 VI c j = (in18_4 VI c (ix2 0 (j 1)) + ∑ k : Fin 128, in18_0 VI c (ix2 (j 0) k) * in18_2 VI c (ix2 k (j 1)))
        + ∑ k : Fin 128, in18_1 VI c (ix2 (j 0) k) * in18_3 VI c (ix2 k (j 1)) :=
  y18_exact _ _ _ _ _ j

theorem arrAt18_5_exact (c : Dev nD) : (dat18 VI c).arrAt 5 cfg18.N = Y18 VI c := arrAt18_5 VI c

/-- Window 6's array after the region, at a column: zero plus the sum of window 5's column over the rows. -/
theorem arrAt18_6_exact (c : Dev nD) (j : S1x128.Idx) :
    (show Vec Ideal S1x128 .f32 from (dat18 VI c).arrAt 6 cfg18.N) j = 0 + ∑ r : Fin 3000, Y18 VI c (ix2 r (j 1)) :=
  (congrFun (arrAt18_6 VI c) j).trans (sum18_exact _ _ _ _ _ j)

/-- Window 7's array after the region, at a column: zero plus the sum of the squares of window 5's column over the rows. -/
theorem arrAt18_7_exact (c : Dev nD) (j : S1x128.Idx) :
    (show Vec Ideal S1x128 .f32 from (dat18 VI c).arrAt 7 cfg18.N) j = 0 + ∑ r : Fin 3000, Y18 VI c (ix2 r (j 1)) * Y18 VI c (ix2 r (j 1)) :=
  (congrFun (arrAt18_7 VI c) j).trans (sumsq18_exact _ _ _ _ _ j)

end Exact

end Cert.KernelIdeal.Hand

end
-- ==== Proof.KI.V19.lean ====
/- Region 19 of the kernel program: the result array after the region, index by index, from the arrays the region
   is entered with. -/
import proofs.«424088_j28020366639260_2_alg».proof.Proof.KI.R19
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Values19

variable {F : FTy → Type} [FloatOps F]

variable (V : (c : Dev nD) → (b : Ref sig .tc) → Buf (Elt F) ((c : Thread nD τ).loc b))

/-- The offsets every access of the body is made at. -/
theorem off19_zero : (![0, 0] : Fin 2 → Nat) = fun _ => 0 := funext fun a => by fin_cases a <;> rfl

/-- The entry of a one-row operand that the result at index `j` reads: row 0, the lane of `j`. -/
def lane19 (j : S3000x128.Idx) : S1x128.Idx := fun a => match a with
  | ⟨0, _⟩ => ⟨0, Nat.zero_lt_one⟩
  | ⟨1, _⟩ => ⟨(j 1).val, (j 1).isLt⟩

theorem lane19_row (j : S3000x128.Idx) : (lane19 j 0).val = 0 := rfl
theorem lane19_col (j : S3000x128.Idx) : (lane19 j 1).val = (j 1).val := rfl

/-- The map the region computes, on whole arrays: at every index `max (y · scale + shift) 0`, the scale and the shift read
    at the index's lane. -/
def relu19 (y : Vec F S3000x128 .f32) (sc sf : Vec F S1x128 .f32) : Vec F S3000x128 .f32 := fun j =>
  FloatOps.maximumf (FloatOps.addf (FloatOps.mulf (y j : F .f32) (sc (lane19 j))) (sf (lane19 j))) (Scalar.ofBits .f32 0x00000000#32)

/-- A one-row operand broadcast over the rows, at an index, is the operand at the index's lane. -/
theorem bcast19_apply (x : Vec F S1x128 .f32) (j : S3000x128.Idx) :
    broadcastTo S3000x128 (x : FVec F S1x128 .f32) broadcasts_S1x128_S3000x128 j = x (lane19 j) :=
  broadcastTo_apply _ _ j (lane19 j) fun a => by fin_cases a <;> rfl

/-- The store's payload is that map of the three loaded values: the casts to the same shape are the identity, the
    broadcasts read the lane, the arithmetic is pointwise. -/
theorem pay19_eq (y : Vec F S3000x128 .f32) (sc sf : Vec F S1x128 .f32) : k19_pay1 y sc sf = relu19 y sc sf := by
  funext j
  unfold k19_pay1 relu19
  simp only [shapeCast_self]
  show FloatOps.maximumf (FloatOps.addf (FloatOps.mulf _ (broadcastTo S3000x128 (sc : FVec F S1x128 .f32) broadcasts_S1x128_S3000x128 j))
    (broadcastTo S3000x128 (sf : FVec F S1x128 .f32) broadcasts_S1x128_S3000x128 j)) _ = _
  rw [bcast19_apply, bcast19_apply]
  rfl

/-- So what the body leaves in the result's buffer is the map of the three operand buffers: each load reads its whole buffer, the
    one store writes the whole buffer. -/
theorem out19_3_eq (y : Vec F S3000x128 .f32) (sc sf : Vec F S1x128 .f32) : out19_3 y sc sf = relu19 y sc sf := by
  unfold out19_3
  rw [View.canon_unit_zero off19_zero, View.ld_unit_zero (S := S3000x128) off19_zero, View.ld_unit_zero (S := S1x128) off19_zero,
    View.ld_unit_zero (S := S1x128) off19_zero]
  exact pay19_eq y sc sf

/-! ## The region-entry arrays, at their shapes -/

/-- The operand `y` as the region finds it. -/
abbrev inY19 (c : Dev nD) : Vec F S3000x128 .f32 := V c (Pipeline.arrRef spec19 0)
/-- The scale row as the region finds it. -/
abbrev inSc19 (c : Dev nD) : Vec F S1x128 .f32 := V c (Pipeline.arrRef spec19 1)
/-- The shift row as the region finds it. -/
abbrev inSf19 (c : Dev nD) : Vec F S1x128 .f32 := V c (Pipeline.arrRef spec19 2)

/-- The result array the region leaves, as one function of the region-entry arrays. -/
abbrev res19 (c : Dev nD) : Vec F S3000x128 .f32 := relu19 (inY19 V c) (inSc19 V c) (inSf19 V c)

/-! ## Each window's one block is its whole array -/

theorem iblk19_0_eq (c : Dev nD) (t : Fin cfg19.N) : iblk19 V c 0 t = inY19 V c := by
  obtain rfl := fin_N19 t
  have hz : (fun a => win19_0.index t19_0 a * (Pipeline.arrRef spec19 0).ty.shape.size a) = fun _ => 0 :=
    funext fun a => by fin_cases a <;> decide +kernel
  exact Memref.read_access_unit_zero (Elt F) (Pipeline.arrRef spec19 0) hz (fun a => by rw [congrFun hz a]; simp) _

theorem iblk19_1_eq (c : Dev nD) (t : Fin cfg19.N) : iblk19 V c 1 t = inSc19 V c := by
  obtain rfl := fin_N19 t
  have hz : (fun a => win19_1.index t19_0 a * (Pipeline.arrRef spec19 1).ty.shape.size a) = fun _ => 0 :=
    funext fun a => by fin_cases a <;> decide +kernel
  exact Memref.read_access_unit_zero (Elt F) (Pipeline.arrRef spec19 1) hz (fun a => by rw [congrFun hz a]; simp) _

theorem iblk19_2_eq (c : Dev nD) (t : Fin cfg19.N) : iblk19 V c 2 t = inSf19 V c := by
  obtain rfl := fin_N19 t
  have hz : (fun a => win19_2.index t19_0 a * (Pipeline.arrRef spec19 2).ty.shape.size a) = fun _ => 0 :=
    funext fun a => by fin_cases a <;> decide +kernel
  exact Memref.read_access_unit_zero (Elt F) (Pipeline.arrRef spec19 2) hz (fun a => by rw [congrFun hz a]; simp) _

/-! ## The result array after the region -/

/-- The result window's block sits at the array's origin. -/
theorem org19_3 : (fun a => win19_3.index t19_0 a * (Pipeline.arrRef spec19 3).ty.shape.size a) = fun _ => 0 :=
  funext fun a => by fin_cases a <;> decide +kernel

/-- What the one write-back moves is the map of the region-entry arrays, read through the result's block. -/
theorem flushed19_3 (c : Dev nD) (t : Fin cfg19.N) (hf : (cfg19.win 3).flush t = true) :
    (dat19 V c).flushed 3 t = ((cfg19.win 3).blk t).view.read (Elt F) (res19 V c) := by
  obtain rfl := fin_N19 t
  show (cfg19.win 3).cut (grid19.coords t19_0) ((dat19 V c).after 3 t19_0) = _
  rw [after19_3, out19_3_eq, iblk19_0_eq, iblk19_1_eq, iblk19_2_eq]
  exact (Memref.read_access_unit_zero (Elt F) (Pipeline.arrRef spec19 3) org19_3 (fun a => by rw [congrFun org19_3 a]; simp) (res19 V c)).symm

/-- THE VALUE: after the region the result array holds, at every index, `max (y · scale + shift) 0` of the region-entry
    arrays. The one block of the result window is the whole array, so its write-back covers every index. -/
theorem arrAt19_3 (c : Dev nD) : (dat19 V c).arrAt 3 cfg19.N = fun i =>
    FloatOps.maximumf (FloatOps.addf (FloatOps.mulf (inY19 V c i : F .f32) (inSc19 V c (lane19 i))) (inSf19 V c (lane19 i)))
      (Scalar.ofBits .f32 0x00000000#32) :=
  (dat19 V c).arrAt_eq_of_cover 3 (res19 V c) (flushed19_3 V c) fun i =>
    ⟨t19_0, flush19_3 t19_0, by
      show i ∈ ((View.whole (Pipeline.arrRef spec19 3)).slice (win19_3.rect t19_0)).set
      rw [View.set_slice_whole]
      exact View.mem_set_unit_zero org19_3 _ i⟩

/-- The same, the map kept as the body's own store over the region-entry arrays. -/
theorem arrAt19_3_out (c : Dev nD) : (dat19 V c).arrAt 3 cfg19.N = out19_3 (inY19 V c) (inSc19 V c) (inSf19 V c) :=
  (arrAt19_3 V c).trans (out19_3_eq _ _ _).symm

end Values19

/-! ## The same at the extended reals -/

section Ideal19

variable (V : (c : Dev nD) → (b : Ref sig .tc) → Buf (Elt Ideal) ((c : Thread nD τ).loc b))

/-- At the exact arithmetic of the extended reals the result is `max (y * scale + shift) 0`, index by index. -/
theorem arrAt19_3_ideal (c : Dev nD) (i : S3000x128.Idx) :
    ((dat19 (F := Ideal) V c).arrAt 3 cfg19.N : Vec Ideal S3000x128 .f32) i
      = max ((inY19 V c i : EReal) * (inSc19 V c (lane19 i) : EReal) + (inSf19 V c (lane19 i) : EReal)) 0 := by
  rw [arrAt19_3]
  show max (_ * _ + _) (Ideal.ofBits .f32 0x00000000#32) = _
  rw [Ideal.ofBits_zero_f32]

end Ideal19

end Cert.KernelIdeal.Hand

end
-- ==== Proof.Val.LabK6.lean ====
/-
  The medication rows of the second graph layer in the kernel program, from the contents before the branch's weight slices
  to the contents after its rectified normalisation. The host cuts relation 4's two weight matrices out of the
  weight arrays and transposes them, and cuts out its bias row; the first region forms y = bias + mean·Wlᵀ + x·Wrᵀ
  together with the column sums of y and of y·y; the host turns the sums into the scale and the shift rows of the
  normalisation; the second region applies them and rectifies. Read at a row and a column this is the
  scale-and-shift form of the normalisation over the affine map.
-/
import proofs.«424088_j28020366639260_2_alg».proof.Proof.KI.Args
import proofs.«424088_j28020366639260_2_alg».proof.Proof.KI.V18
import proofs.«424088_j28020366639260_2_alg».proof.Proof.KI.V19
import proofs.«424088_j28020366639260_2_alg».proof.Proof.Val.LabTerms
import Idealize.ShloMosaic.Lib.StableHlo.Run

set_option maxRecDepth 16384
set_option maxHeartbeats 4000000

noncomputable section

namespace Cert.Val.Lab

open Cert.KernelIdeal Cert.KernelIdeal.Gen Cert.KernelIdeal.Hand
open Idealize.ShloMosaic Idealize.ShloMosaic.TcCoe Idealize.ShloMosaic.StableHlo Idealize.ShloMosaic.ValueIdx Idealize.SL.Sem
open Cert.Lib.ERealArith
open scoped BigOperators

/-! ## The weight stretch, at any contents -/

/-- The left weights as the region reads them: entry (k, q) is entry (q, k) of matrix (1, 4) of the weight array. -/
theorem med2_wl (V : Valuation τ sig (Elt Ideal)) (k q : Fin 128) :
    (StableHlo.after hostOps18 V (Proc.devRef .tc main_v509) : (Sh2 128 128).Idx → EReal) (ix2 k q)
      = (V (Proc.devRef .tc main_arg12) : (⟨4, ![2, 6, 128, 128]⟩ : Shape).Idx → EReal) (ix4 (1 : Fin 2) (4 : Fin 6) q k) := by
  have e : (StableHlo.after hostOps18 V (Proc.devRef .tc main_v509) : (Sh2 128 128).Idx → EReal)
      = transpose (Sh2 128 128) [1, 0]
          (shapeCast (Sh2 128 128) (extractStridedSlice ⟨4, ![1, 1, 128, 128]⟩ ![1, 4, 0, 0]
            (V (Proc.devRef .tc main_arg12)) slices_S2x6x128x128_S1x1x128x128_1_4_0_0) shapeCasts_S1x1x128x128_S128x128)
          transposes_S128x128_S128x128_1_0 := by
    after_results_simp
    rfl
  rw [e, transpose_sq_apply, mat_slice_apply 1 4 (by decide) (by decide)]
  rfl

/-- The right weights likewise. -/
theorem med2_wr (V : Valuation τ sig (Elt Ideal)) (k q : Fin 128) :
    (StableHlo.after hostOps18 V (Proc.devRef .tc main_v512) : (Sh2 128 128).Idx → EReal) (ix2 k q)
      = (V (Proc.devRef .tc main_arg14) : (⟨4, ![2, 6, 128, 128]⟩ : Shape).Idx → EReal) (ix4 (1 : Fin 2) (4 : Fin 6) q k) := by
  have e : (StableHlo.after hostOps18 V (Proc.devRef .tc main_v512) : (Sh2 128 128).Idx → EReal)
      = transpose (Sh2 128 128) [1, 0]
          (shapeCast (Sh2 128 128) (extractStridedSlice ⟨4, ![1, 1, 128, 128]⟩ ![1, 4, 0, 0]
            (V (Proc.devRef .tc main_arg14)) slices_S2x6x128x128_S1x1x128x128_1_4_0_0) shapeCasts_S1x1x128x128_S128x128)
          transposes_S128x128_S128x128_1_0 := by
    after_results_simp
    rfl
  rw [e, transpose_sq_apply, mat_slice_apply 1 4 (by decide) (by decide)]
  rfl

/-- The bias row: entry q is entry (1, 4, q) of the bias array. -/
theorem med2_b (V : Valuation τ sig (Elt Ideal)) (q : Fin 128) :
    (StableHlo.after hostOps18 V (Proc.devRef .tc main_v515) : T1x128.Idx → EReal) (ix2 (0 : Fin 1) q)
      = (V (Proc.devRef .tc main_arg13) : (⟨3, ![2, 6, 128]⟩ : Shape).Idx → EReal) (ix3 (1 : Fin 2) (4 : Fin 6) q) := by
  have e : (StableHlo.after hostOps18 V (Proc.devRef .tc main_v515) : T1x128.Idx → EReal)
      = shapeCast T1x128 (shapeCast T128 (extractStridedSlice ⟨3, ![1, 1, 128]⟩ ![1, 4, 0]
            (V (Proc.devRef .tc main_arg13)) slices_S2x6x128_S1x1x128_1_4_0) shapeCasts_S1x1x128_S128) shapeCasts_S128_S1x128 := by
    after_results_simp
    rfl
  rw [e, shapeCast_a_1a_apply, vec_slice_apply 1 4 (by decide) (by decide)]
  rfl

/-! ## The normalisation stretch, at any contents -/

/-- The gain row of the medication normalisation of layer 1, cut out of the gain array. -/
abbrev med2_g (V : Valuation τ sig (Elt Ideal)) : FVec Ideal T128 .f32 :=
  shapeCast T128 (extractStridedSlice ⟨3, ![1, 1, 128]⟩ ![1, 3, 0] (V (Proc.devRef .tc main_arg15))
    slices_S2x4x128_S1x1x128_1_3_0) shapeCasts_S1x1x128_S128
/-- The offset row likewise. -/
abbrev med2_β (V : Valuation τ sig (Elt Ideal)) : FVec Ideal T128 .f32 :=
  shapeCast T128 (extractStridedSlice ⟨3, ![1, 1, 128]⟩ ![1, 3, 0] (V (Proc.devRef .tc main_arg16))
    slices_S2x4x128_S1x1x128_1_3_0) shapeCasts_S1x1x128_S128

/-- The scale row the host leaves for the second region. -/
theorem med2_scale (V : Valuation τ sig (Elt Ideal)) :
    (StableHlo.after hostOps19 V (Proc.devRef .tc main_v535) : T1x128.Idx → EReal)
      = shapeCast T1x128 (kScale shapeCasts_S1x128_S128 bcast_S_S128 0x453B8000#32
          (V (Proc.devRef .tc main_v516_1)) (V (Proc.devRef .tc main_v516_2)) (med2_g V)) shapeCasts_S128_S1x128 := by
  after_results_simp
  rfl

/-- The shift row. -/
theorem med2_shift (V : Valuation τ sig (Elt Ideal)) :
    (StableHlo.after hostOps19 V (Proc.devRef .tc main_v536) : T1x128.Idx → EReal)
      = shapeCast T1x128 (kShift shapeCasts_S1x128_S128 bcast_S_S128 0x453B8000#32
          (V (Proc.devRef .tc main_v516_1)) (V (Proc.devRef .tc main_v516_2)) (med2_g V) (med2_β V)) shapeCasts_S128_S1x128 := by
  after_results_simp
  rfl

/-! ## The branch -/

/-- A column's lane in the one-row arrays. -/
theorem med2_lane (p : Fin 3000) (q : Fin 128) : lane19 (ix2 p q) = ix2 (0 : Fin 1) q := by
  funext a
  match a with
  | ⟨0, _⟩ => rfl
  | ⟨1, _⟩ => rfl

/-- The row count as the host's literal. -/
theorem med2_N : Ideal.ofBits .f32 0x453B8000#32 = ((((3000 : ℕ) : ℝ)) : EReal) := by
  rw [ofBits_3000]; norm_num

variable (m : (ℓ : Loc nD τ sig) → Buf (Elt Ideal) ℓ) (ρ : Dev nD → PrngReg)

/-- What the first region leaves: the matrix y, the row of its column sums, the row of the column sums of y·y. -/
abbrev med2_Y (c : Dev nD) : (Sh2 3000 128).Idx → EReal := W37 m ρ c (Proc.devRef .tc main_v516_0)
abbrev med2_S (c : Dev nD) : T1x128.Idx → EReal := W37 m ρ c (Proc.devRef .tc main_v516_1)
abbrev med2_Q (c : Dev nD) : T1x128.Idx → EReal := W37 m ρ c (Proc.devRef .tc main_v516_2)

/-- What the first region leaves in its first output array: the affine map of the entry arrays, at (p, q). -/
theorem med2_y (c : Dev nD) (p : Fin 3000) (q : Fin 128) :
    med2_Y m ρ c (ix2 p q)
      = affC (1 : Fin 2) (4 : Fin 6) (coords (W35 m ρ c (Proc.devRef .tc main_v395))) (coords (W35 m ρ c (Proc.devRef .tc main_v317)))
          (W35 m ρ c (Proc.devRef .tc main_arg12)) (W35 m ρ c (Proc.devRef .tc main_arg14)) (W35 m ρ c (Proc.devRef .tc main_arg13)) p q := by
  have hY : med2_Y m ρ c = Y18 (VE18 m ρ) c :=
    (Wexit18_arr m ρ c 5).trans (arrAt18_5_exact (VE18 m ρ) c)
  rw [hY, Y18_exact]
  unfold affC
  have hb : in18_4 (VE18 m ρ) c (ix2 0 q) = (W35 m ρ c (Proc.devRef .tc main_arg13) : (⟨3, ![2, 6, 128]⟩ : Shape).Idx → EReal) (ix3 (1 : Fin 2) (4 : Fin 6) q) :=
    (congrFun (congrFun (W36_eq m ρ c) (Proc.devRef .tc main_v515)) (ix2 0 q)).trans (med2_b (W35 m ρ c) q)
  have hwl : ∀ k : Fin 128, in18_2 (VE18 m ρ) c (ix2 k q) = (W35 m ρ c (Proc.devRef .tc main_arg12) : (⟨4, ![2, 6, 128, 128]⟩ : Shape).Idx → EReal) (ix4 (1 : Fin 2) (4 : Fin 6) q k) :=
    fun k => (congrFun (congrFun (W36_eq m ρ c) (Proc.devRef .tc main_v509)) (ix2 k q)).trans (med2_wl (W35 m ρ c) k q)
  have hwr : ∀ k : Fin 128, in18_3 (VE18 m ρ) c (ix2 k q) = (W35 m ρ c (Proc.devRef .tc main_arg14) : (⟨4, ![2, 6, 128, 128]⟩ : Shape).Idx → EReal) (ix4 (1 : Fin 2) (4 : Fin 6) q k) :=
    fun k => (congrFun (congrFun (W36_eq m ρ c) (Proc.devRef .tc main_v512)) (ix2 k q)).trans (med2_wr (W35 m ρ c) k q)
  have hA : (in18_0 (VE18 m ρ) c : (Sh2 3000 128).Idx → EReal) = W35 m ρ c (Proc.devRef .tc main_v395) :=
    W36_of m ρ c main_v395 (by decide)
  have hB : (in18_1 (VE18 m ρ) c : (Sh2 3000 128).Idx → EReal) = W35 m ρ c (Proc.devRef .tc main_v317) :=
    W36_of m ρ c main_v317 (by decide)
  rw [hb, hA, hB]
  simp only [hwl, hwr]

/-- THE MEDICATION BRANCH OF LAYER 1 in the kernel program. -/
theorem K_med2 (c : Dev nD) :
    (W39 m ρ c (Proc.devRef .tc main_v537) : (Sh2 3000 128).Idx → EReal)
      = bnK (((3000 : ℕ) : ℝ) : EReal) ((eps5 : ℝ) : EReal) (1 : Fin 2) (3 : Fin 4)
          (aff (1 : Fin 2) (4 : Fin 6) (W35 m ρ c (Proc.devRef .tc main_v395)) (W35 m ρ c (Proc.devRef .tc main_v317))
            (W35 m ρ c (Proc.devRef .tc main_arg12) : FVec Ideal S2x6x128x128 .f32) (W35 m ρ c (Proc.devRef .tc main_arg14) : FVec Ideal S2x6x128x128 .f32) (W35 m ρ c (Proc.devRef .tc main_arg13) : FVec Ideal S2x6x128 .f32))
          (W35 m ρ c (Proc.devRef .tc main_arg15) : FVec Ideal S2x4x128 .f32) (W35 m ρ c (Proc.devRef .tc main_arg16) : FVec Ideal S2x4x128 .f32) := by
  funext j
  obtain ⟨p, q, rfl⟩ : ∃ (p : Fin 3000) (q : Fin 128), j = ix2 p q := ⟨j 0, j 1, eq_ix2 j⟩
  -- the first region's three arrays, as the normalisation stretch and the second region find them
  have hY : med2_Y m ρ c = Y18 (VE18 m ρ) c :=
    (Wexit18_arr m ρ c 5).trans (arrAt18_5_exact (VE18 m ρ) c)
  have hs : ∀ q' : Fin 128, med2_S m ρ c (ix2 (0 : Fin 1) q')
      = (0 : EReal) + ∑ i : Fin 3000, med2_Y m ρ c (ix2 i q') := fun q' => by
    rw [hY]
    exact (congrFun (Wexit18_arr m ρ c 6) (ix2 0 q')).trans (arrAt18_6_exact (VE18 m ρ) c (ix2 0 q'))
  have hsq : ∀ q' : Fin 128, med2_Q m ρ c (ix2 (0 : Fin 1) q')
      = (0 : EReal) + ∑ i : Fin 3000, med2_Y m ρ c (ix2 i q')
          * med2_Y m ρ c (ix2 i q') := fun q' => by
    rw [hY]
    exact (congrFun (Wexit18_arr m ρ c 7) (ix2 0 q')).trans (arrAt18_7_exact (VE18 m ρ) c (ix2 0 q'))
  -- the second region's output at (p, q)
  have h7 := (congrFun (Wexit19_arr m ρ c 3) (ix2 p q)).trans (arrAt19_3_ideal (VE19 m ρ) c (ix2 p q))
  have hy7 : (inY19 (VE19 m ρ) c : (Sh2 3000 128).Idx → EReal) = med2_Y m ρ c :=
    W38_of m ρ c main_v516_0 (by decide)
  have hsc : (inSc19 (VE19 m ρ) c : T1x128.Idx → EReal) = _ :=
    (congrFun (W38_eq m ρ c) (Proc.devRef .tc main_v535)).trans (med2_scale (W37 m ρ c))
  have hsf : (inSf19 (VE19 m ρ) c : T1x128.Idx → EReal) = _ :=
    (congrFun (W38_eq m ρ c) (Proc.devRef .tc main_v536)).trans (med2_shift (W37 m ρ c))
  rw [med2_lane, hy7, hsc, hsf] at h7
  refine h7.trans ?_
  rw [kBN_apply 0x453B8000#32 _ med2_N _ _ _ hs hsq]
  -- the two sides are the same scale-and-shift form: the same matrix, the same gain and offset rows
  show bnKC _ _ _ _ _ p q = bnKC _ _ _ _ _ p q
  have hyc : coords (med2_Y m ρ c)
      = coords (aff (1 : Fin 2) (4 : Fin 6) (W35 m ρ c (Proc.devRef .tc main_v395)) (W35 m ρ c (Proc.devRef .tc main_v317))
          (W35 m ρ c (Proc.devRef .tc main_arg12)) (W35 m ρ c (Proc.devRef .tc main_arg14)) (W35 m ρ c (Proc.devRef .tc main_arg13))) :=
    funext fun p' => funext fun q' => med2_y m ρ c p' q'
  have h15 : (W37 m ρ c (Proc.devRef .tc main_arg15) : (⟨3, ![2, 4, 128]⟩ : Shape).Idx → EReal) = W35 m ρ c (Proc.devRef .tc main_arg15) :=
    (Wexit18_keep m ρ c main_arg15 (by decide)).trans (W36_of m ρ c main_arg15 (by decide))
  have h16 : (W37 m ρ c (Proc.devRef .tc main_arg16) : (⟨3, ![2, 4, 128]⟩ : Shape).Idx → EReal) = W35 m ρ c (Proc.devRef .tc main_arg16) :=
    (Wexit18_keep m ρ c main_arg16 (by decide)).trans (W36_of m ρ c main_arg16 (by decide))
  have hg : (fun q' : Fin 128 => med2_g (W37 m ρ c) (ix1 q'))
      = fun q' => (W35 m ρ c (Proc.devRef .tc main_arg15) : (⟨3, ![2, 4, 128]⟩ : Shape).Idx → EReal) (ix3 (1 : Fin 2) (3 : Fin 4) q') :=
    funext fun q' => by rw [← h15]; exact vec_slice_apply 1 3 (by decide) (by decide) _ _ _ q'
  have hβ : (fun q' : Fin 128 => med2_β (W37 m ρ c) (ix1 q'))
      = fun q' => (W35 m ρ c (Proc.devRef .tc main_arg16) : (⟨3, ![2, 4, 128]⟩ : Shape).Idx → EReal) (ix3 (1 : Fin 2) (3 : Fin 4) q') :=
    funext fun q' => by rw [← h16]; exact vec_slice_apply 1 3 (by decide) (by decide) _ _ _ q'
  rw [hyc, hg, hβ]

end Cert.Val.Lab

end
-- ==== Proof.Ref.Typed.lean ====
/- Reading the outlined functions' operations at their own types. An operation of an outlined function is built over typed
   references; its function is conjugated by the transports between a value's type and its buffer's type. Read through
   `tget` (the buffer's contents moved to the value's type) the transports cancel once and for all, so a stretch of such
   operations is read with no transport in sight; one remains per boundary buffer (a call's argument or result). -/
import proofs.«424088_j28020366639260_2_alg».proof.Proof.Ref.Fix

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] {T Tx Ta Tb Tc Ty : BufTy}

/-- The contents of a typed reference's buffer, at the value's type. -/
def tget (x : TRef sig T) (V : Valuation τ sig (Elt F)) : T.Contents (Elt F) :=
  x.ofBuf (V (Proc.devRef .tc x.ref))

/-- Moving a value to the buffer's type and back is the identity. -/
theorem ofBuf_toBuf (y : TRef sig T) (z : T.Contents (Elt F)) : y.ofBuf (y.toBuf z) = z := by
  obtain ⟨r, h, hd, hu⟩ := y
  subst h
  rfl

/-- Moving the buffer's contents to the value's type and back is the identity. -/
theorem toBuf_ofBuf (y : TRef sig T) (z : y.ref.ty.Contents (Elt F)) : y.toBuf (y.ofBuf z) = z := by
  obtain ⟨r, h, hd, hu⟩ := y
  subst h
  rfl

/-- At a literal reference the typed contents are the buffer's contents moved along the reference's type equation. -/
theorem tget_of (b : Ref sig .tc) (h₁ : b.ty = T) (h₂ : b.space ≠ .host) (h₃ : b.isScoped = false)
    (V : Valuation τ sig (Elt F)) :
    tget (TRef.of b h₁ h₂ h₃ : TRef sig T) V
      = cast (congrArg (fun U : BufTy => U.Contents (Elt F)) h₁) (V (Proc.devRef .tc b)) := rfl

/-- At a literal reference taken at its own type the typed contents ARE the buffer's contents. (At a reference ascribed a
    literal type `T`, stating `tget (.of b : TRef sig T) V = V ↑b` makes Lean compare `T` with the buffer's type, once;
    the proof is then `rfl`.) -/
theorem tget_of_rfl (b : Ref sig .tc) (h₂ : b.space ≠ .host) (h₃ : b.isScoped = false) (V : Valuation τ sig (Elt F)) :
    tget (TRef.of b rfl h₂ h₃ : TRef sig b.ty) V = V (Proc.devRef .tc b) := rfl

/-- The buffer's contents from the typed contents. -/
theorem after_eq_toBuf (x : TRef sig T) (V : Valuation τ sig (Elt F)) :
    V (Proc.devRef .tc x.ref) = x.toBuf (tget x V) := (toBuf_ofBuf x _).symm

/-! ### An outlined function's operations, read at the values' types -/

theorem rt_nullary {y : TRef sig Ty} {v : Ty.Contents (Elt F)}
    (h : TRef.nullary y v ∈ (ops : List (HloOp τ sig (Elt F)))) (V : Valuation τ sig (Elt F)) :
    tget y (after ops V) = v :=
  (congrArg y.ofBuf (mem_nullary h V)).trans (ofBuf_toBuf y _)

theorem rt_unary {x : TRef sig Tx} {y : TRef sig Ty} {f : Tx.Contents (Elt F) → Ty.Contents (Elt F)}
    (h : TRef.unary x y f ∈ (ops : List (HloOp τ sig (Elt F)))) (V : Valuation τ sig (Elt F)) :
    tget y (after ops V) = f (tget x (after ops V)) :=
  (congrArg y.ofBuf (mem_unary h V)).trans (ofBuf_toBuf y _)

theorem rt_binary {a : TRef sig Ta} {b : TRef sig Tb} {y : TRef sig Ty}
    {f : Ta.Contents (Elt F) → Tb.Contents (Elt F) → Ty.Contents (Elt F)}
    (h : TRef.binary a b y f ∈ (ops : List (HloOp τ sig (Elt F)))) (V : Valuation τ sig (Elt F)) :
    tget y (after ops V) = f (tget a (after ops V)) (tget b (after ops V)) :=
  (congrArg y.ofBuf (mem_binary h V)).trans (ofBuf_toBuf y _)

theorem rt_ternary {c : TRef sig Tc} {a : TRef sig Ta} {b : TRef sig Tb} {y : TRef sig Ty}
    {f : Tc.Contents (Elt F) → Ta.Contents (Elt F) → Tb.Contents (Elt F) → Ty.Contents (Elt F)}
    (h : TRef.ternary c a b y f ∈ (ops : List (HloOp τ sig (Elt F)))) (V : Valuation τ sig (Elt F)) :
    tget y (after ops V) = f (tget c (after ops V)) (tget a (after ops V)) (tget b (after ops V)) :=
  (congrArg y.ofBuf (mem_ternary h V)).trans (ofBuf_toBuf y _)

/-! ### The same by the position in a window of the line -/

theorem rtin_nullary {w : List (HloOp τ sig (Elt F))} (hw : ∀ op ∈ w, op ∈ (ops : List (HloOp τ sig (Elt F)))) (i : ℕ)
    {y : TRef sig Ty} {v : Ty.Contents (Elt F)} (h : w[i]? = some (TRef.nullary y v)) (V : Valuation τ sig (Elt F)) :
    tget y (after ops V) = v :=
  rt_nullary (mem_of_sub_get? hw h) V

theorem rtin_unary {w : List (HloOp τ sig (Elt F))} (hw : ∀ op ∈ w, op ∈ (ops : List (HloOp τ sig (Elt F)))) (i : ℕ)
    {x : TRef sig Tx} {y : TRef sig Ty} {f : Tx.Contents (Elt F) → Ty.Contents (Elt F)}
    (h : w[i]? = some (TRef.unary x y f)) (V : Valuation τ sig (Elt F)) :
    tget y (after ops V) = f (tget x (after ops V)) :=
  rt_unary (mem_of_sub_get? hw h) V

theorem rtin_binary {w : List (HloOp τ sig (Elt F))} (hw : ∀ op ∈ w, op ∈ (ops : List (HloOp τ sig (Elt F)))) (i : ℕ)
    {a : TRef sig Ta} {b : TRef sig Tb} {y : TRef sig Ty}
    {f : Ta.Contents (Elt F) → Tb.Contents (Elt F) → Ty.Contents (Elt F)}
    (h : w[i]? = some (TRef.binary a b y f)) (V : Valuation τ sig (Elt F)) :
    tget y (after ops V) = f (tget a (after ops V)) (tget b (after ops V)) :=
  rt_binary (mem_of_sub_get? hw h) V

theorem rtin_ternary {w : List (HloOp τ sig (Elt F))} (hw : ∀ op ∈ w, op ∈ (ops : List (HloOp τ sig (Elt F)))) (i : ℕ)
    {c : TRef sig Tc} {a : TRef sig Ta} {b : TRef sig Tb} {y : TRef sig Ty}
    {f : Tc.Contents (Elt F) → Ta.Contents (Elt F) → Tb.Contents (Elt F) → Ty.Contents (Elt F)}
    (h : w[i]? = some (TRef.ternary c a b y f)) (V : Valuation τ sig (Elt F)) :
    tget y (after ops V) = f (tget c (after ops V)) (tget a (after ops V)) (tget b (after ops V)) :=
  rt_ternary (mem_of_sub_get? hw h) V

/-! ### At work: the last call of the variance function (window 12 of the line)

Inside the stretch no transport appears; at the boundary (the call's argument `main_v563`, its result `main_v643`) the
value's type is compared with the buffer's once and the transport is the identity. -/

example (V : Valuation τ sig (Elt F)) :
    tget main_call19.v1 (after ops V)
      = broadcastInDim S1x128 ![1] bcast_S128_S1x128_1
          (Host.reduceAdd (after ops V (Proc.devRef .tc main_v563)) (constant S_ .f32 0x00000000#32)
            reducesTo_S3000x128_S128_d0 h_S_) := by
  rw [rtin_unary mem_ops12 60 rfl V, rtin_binary mem_ops12 59 rfl V, rtin_nullary mem_ops12 58 rfl V]
  rfl

example (V : Valuation τ sig (Elt F)) :
    after ops V (Proc.devRef .tc main_v643) = tget main_call19.call0.v2 (after ops V) := rfl

end Cert.ReferenceIdeal.Hand

end
-- ==== Proof.Val.LabR1.lean ====
/- The reference's lab branch of graph layer 1: the final contents of its result buffer as the normalised form over the affine map
   of the final contents of the mean buffer, the branch's own array and the five parameter arrays. Each operation's
   result is its function of its operands' final contents; the operations' term is then read at an index. -/
import proofs.«424088_j28020366639260_2_alg».proof.Proof.Ref.Typed
import proofs.«424088_j28020366639260_2_alg».proof.Proof.Val.LabTerms

set_option maxRecDepth 8192

noncomputable section

namespace Cert.Val.Lab

open Cert.ReferenceIdeal Cert.ReferenceIdeal.Gen Cert.ReferenceIdeal.Hand
open Idealize.ShloMosaic Idealize.ShloMosaic.TcCoe Idealize.SL.Sem Idealize.ShloMosaic.StableHlo Idealize.ShloMosaic.ValueIdx
open Cert.Lib.ERealArith
open scoped BigOperators

variable (V : Valuation τ sig (Elt Ideal))

/-- The rows are reduced away along the first axis. -/
theorem reduces_lab1 : (Sh2 2000 128).Reduces [0] T128 := by decide

/-- The product's dimension numbers are the plain ones: rows by contraction times contraction by columns. -/
theorem dot_lab1 : dot_S2000x128_S128x128_S2000x128_1_0_0_1_n_n = DotDims.plain 2000 128 128 := rfl

/-- The affine map's buffer: the reference's affine term of the mean, the branch's array, the two weight matrices cut
    out of the weight arrays, and the bias vector cut out of the bias array. -/
theorem R_lab1_aff_term :
    (after ops V (Proc.devRef .tc main_v201) : FVec Ideal (Sh2 2000 128) .f32)
      = refAff dot_S2000x128_S128x128_S2000x128_1_0_0_1_n_n transposes_S128x128_S128x128_1_0 bcast_S128_S1x128_1 bcast_S1x128_S2000x128_0_1
          (after ops V (Proc.devRef .tc main_v193)) (after ops V (Proc.devRef .tc main_arg1)) (after ops V (Proc.devRef .tc main_v170)) (after ops V (Proc.devRef .tc main_v174)) (after ops V (Proc.devRef .tc main_v172)) := by
  rw [in_binary mem_ops3 54 rfl V,
    in_binary mem_ops3 53 rfl V,
    in_unary mem_ops3 52 rfl V,
    in_binary mem_ops3 51 rfl V,
    in_unary mem_ops3 50 rfl V,
    in_unary mem_ops3 49 rfl V,
    in_binary mem_ops3 48 rfl V,
    in_unary mem_ops3 47 rfl V]
  rfl

theorem R_lab1_wl (a b : Fin 128) :
    (after ops V (Proc.devRef .tc main_v170) : FVec Ideal (Sh2 128 128) .f32) (ix2 a b) = (after ops V (Proc.devRef .tc main_arg12) : FVec Ideal S2x6x128x128 .f32) (ix4 (0 : Fin 2) (0 : Fin 6) a b) := by
  rw [in_reshape mem_ops3 17 rfl V,
    in_unary mem_ops3 16 rfl V]
  exact mat_slice_apply 0 0 (by decide) (by decide) slices_S2x6x128x128_S1x1x128x128_0_0_0_0 shapeCasts_S1x1x128x128_S128x128 _ a b

theorem R_lab1_wr (a b : Fin 128) :
    (after ops V (Proc.devRef .tc main_v174) : FVec Ideal (Sh2 128 128) .f32) (ix2 a b) = (after ops V (Proc.devRef .tc main_arg14) : FVec Ideal S2x6x128x128 .f32) (ix4 (0 : Fin 2) (0 : Fin 6) a b) := by
  rw [in_reshape mem_ops3 21 rfl V,
    in_unary mem_ops3 20 rfl V]
  exact mat_slice_apply 0 0 (by decide) (by decide) slices_S2x6x128x128_S1x1x128x128_0_0_0_0 shapeCasts_S1x1x128x128_S128x128 _ a b

theorem R_lab1_bl (q : Fin 128) :
    (after ops V (Proc.devRef .tc main_v172) : FVec Ideal T128 .f32) (ix1 q) = (after ops V (Proc.devRef .tc main_arg13) : FVec Ideal S2x6x128 .f32) (ix3 (0 : Fin 2) (0 : Fin 6) q) := by
  rw [in_reshape mem_ops3 19 rfl V,
    in_unary mem_ops3 18 rfl V]
  exact vec_slice_apply 0 0 (by decide) (by decide) slices_S2x6x128_S1x1x128_0_0_0 shapeCasts_S1x1x128_S128 _ q

theorem R_lab1_g (q : Fin 128) :
    (after ops V (Proc.devRef .tc main_v293) : FVec Ideal T128 .f32) (ix1 q) = (after ops V (Proc.devRef .tc main_arg15) : FVec Ideal S2x4x128 .f32) (ix3 (0 : Fin 2) (1 : Fin 4) q) := by
  rw [in_reshape mem_ops5 65 rfl V,
    in_unary mem_ops5 64 rfl V]
  exact vec_slice_apply 0 1 (by decide) (by decide) slices_S2x4x128_S1x1x128_0_1_0 shapeCasts_S1x1x128_S128 _ q

theorem R_lab1_beta (q : Fin 128) :
    (after ops V (Proc.devRef .tc main_v295) : FVec Ideal T128 .f32) (ix1 q) = (after ops V (Proc.devRef .tc main_arg16) : FVec Ideal S2x4x128 .f32) (ix3 (0 : Fin 2) (1 : Fin 4) q) := by
  rw [in_reshape mem_ops5 67 rfl V,
    in_unary mem_ops5 66 rfl V]
  exact vec_slice_apply 0 1 (by decide) (by decide) slices_S2x4x128_S1x1x128_0_1_0 shapeCasts_S1x1x128_S128 _ q

/-- The affine map's buffer by coordinates. -/
theorem R_lab1_aff (p : Fin 2000) (q : Fin 128) :
    (after ops V (Proc.devRef .tc main_v201) : FVec Ideal (Sh2 2000 128) .f32) (ix2 p q)
      = affC (0 : Fin 2) (0 : Fin 6) (coords (after ops V (Proc.devRef .tc main_v193))) (coords (after ops V (Proc.devRef .tc main_arg1)))
          (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32) p q := by
  refine (congrFun (R_lab1_aff_term V) (ix2 p q)).trans ?_
  refine (refAff_apply (htr := transposes_S128x128_S128x128_1_0) (hb1 := bcast_S128_S1x128_1) (hb2 := bcast_S1x128_S2000x128_0_1) dot_lab1
    (after ops V (Proc.devRef .tc main_v193)) (after ops V (Proc.devRef .tc main_arg1)) (after ops V (Proc.devRef .tc main_v170)) (after ops V (Proc.devRef .tc main_v174)) (after ops V (Proc.devRef .tc main_v172)) p q).trans ?_
  unfold affC coords
  rw [R_lab1_bl]
  refine congrArg₂ (· + ·) (congrArg₂ (· + ·) rfl (Finset.sum_congr rfl fun k _ => ?_)) (Finset.sum_congr rfl fun k _ => ?_)
  · rw [R_lab1_wl]
  · rw [R_lab1_wr]

/-- The column mean's buffer: the column sums onto a zero, over the row count. -/
theorem R_lab1_mu_term :
    (after ops V (Proc.devRef .tc main_v298) : FVec Ideal T128 .f32)
      = Host.divf (Host.reduceAdd (after ops V (Proc.devRef .tc main_v201) : FVec Ideal (Sh2 2000 128) .f32) (constant (F := Ideal) T0 .f32 0x00000000#32) reducesTo_S2000x128_S128_d0 h_S_)
          (broadcastInDim T128 ![] bcast_S_S128 (constant (F := Ideal) T0 .f32 0x44FA0000#32)) := by
  rw [in_binary mem_ops5 72 rfl V,
    in_unary mem_ops5 71 rfl V,
    in_nullary mem_ops5 70 rfl V,
    in_binary mem_ops5 69 rfl V,
    in_nullary mem_ops5 68 rfl V]

/-- The variance's buffer: the reference's variance term of the affine map's buffer. The variance function's operations
    are read at the types their references carry; a transport is met only at the call's argument and result. -/
theorem R_lab1_var_term :
    (after ops V (Proc.devRef .tc main_v299) : FVec Ideal T128 .f32)
      = refVar reducesTo_S2000x128_S128_d0 h_S_ bcast_S_S128 bcast_S_S1x128 bcast_S128_S1x128_1 bcast_S1x128_S2000x128_0_1
          0x44FA0000#32 (after ops V (Proc.devRef .tc main_v201) : FVec Ideal (Sh2 2000 128) .f32) := by
  have hres : after ops V (Proc.devRef .tc main_v299) = tget main_call7.call0.v2 (after ops V) := rfl
  have harg1 : tget (.of main_v201 : TRef sig ⟨S2000x128, .f32⟩) (after ops V) = after ops V (Proc.devRef .tc main_v201) := rfl
  have harg2 : tget (.of main_c_49 : TRef sig ⟨S_, .i32⟩) (after ops V) = after ops V (Proc.devRef .tc main_c_49) := rfl
  rw [hres, rtin_ternary mem_ops5 95 rfl V,
    rtin_unary mem_ops5 94 rfl V,
    rtin_unary mem_ops5 93 rfl V,
    rtin_nullary mem_ops5 92 rfl V,
    rtin_binary mem_ops5 89 rfl V,
    rtin_unary mem_ops5 88 rfl V,
    rtin_binary mem_ops5 87 rfl V,
    rtin_nullary mem_ops5 86 rfl V,
    rtin_binary mem_ops5 82 rfl V,
    rtin_binary mem_ops5 81 rfl V,
    rtin_unary mem_ops5 80 rfl V,
    rtin_binary mem_ops5 79 rfl V,
    rtin_unary mem_ops5 78 rfl V,
    rtin_nullary mem_ops5 77 rfl V,
    rtin_unary mem_ops5 76 rfl V,
    rtin_binary mem_ops5 75 rfl V,
    rtin_nullary mem_ops5 74 rfl V,
    rtin_binary mem_ops5 91 rfl V,
    rtin_nullary mem_ops5 90 rfl V,
    rtin_binary mem_ops5 85 rfl V,
    rtin_unary mem_ops5 83 rfl V,
    rtin_nullary mem_ops5 84 rfl V,
    harg1,
    harg2,
    in_nullary mem_ops5 73 rfl V]
  rfl

/-- The result buffer: the reference's normalisation term of the affine map's buffer and the two parameter vectors. -/
theorem R_lab1_bn_term :
    (after ops V (Proc.devRef .tc main_v315) : FVec Ideal (Sh2 2000 128) .f32)
      = refBN reducesTo_S2000x128_S128_d0 h_S_ bcast_S_S128 bcast_S_S1x128 bcast_S128_S1x128_1 bcast_S1x128_S2000x128_0_1 bcast_S_S2000x128
          0x44FA0000#32 (after ops V (Proc.devRef .tc main_v201)) (after ops V (Proc.devRef .tc main_v293)) (after ops V (Proc.devRef .tc main_v295)) := by
  have hres : after ops V (Proc.devRef .tc main_v315) = tget main_call8.v1 (after ops V) := rfl
  have harg1 : tget (.of main_v314 : TRef sig ⟨S2000x128, .f32⟩) (after ops V) = after ops V (Proc.devRef .tc main_v314) := rfl
  rw [hres, rtin_binary mem_ops6 10 rfl V,
    rtin_unary mem_ops6 9 rfl V,
    rtin_nullary mem_ops6 8 rfl V,
    harg1,
    in_binary mem_ops6 7 rfl V,
    in_unary mem_ops6 6 rfl V,
    in_unary mem_ops6 5 rfl V,
    in_binary mem_ops6 4 rfl V,
    in_unary mem_ops6 3 rfl V,
    in_unary mem_ops6 2 rfl V,
    in_binary mem_ops6 1 rfl V,
    in_unary mem_ops6 0 rfl V,
    in_unary mem_ops5 103 rfl V,
    in_unary mem_ops5 102 rfl V,
    in_binary mem_ops5 101 rfl V,
    in_unary mem_ops5 100 rfl V,
    in_nullary mem_ops5 99 rfl V,
    in_binary mem_ops5 98 rfl V,
    in_unary mem_ops5 97 rfl V,
    in_unary mem_ops5 96 rfl V,
    R_lab1_mu_term, R_lab1_var_term]
  rfl

/-- The reading at row p, column q. -/
theorem R_lab1_pt (p : Fin 2000) (q : Fin 128) :
    (after ops V (Proc.devRef .tc main_v315) : FVec Ideal (Sh2 2000 128) .f32) (ix2 p q)
      = bnR (((2000 : ℕ) : ℝ) : EReal) ((eps5 : ℝ) : EReal) (0 : Fin 2) (1 : Fin 4)
          (aff (0 : Fin 2) (0 : Fin 6) (after ops V (Proc.devRef .tc main_v193)) (after ops V (Proc.devRef .tc main_arg1))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) (ix2 p q) := by
  have hy : coords (after ops V (Proc.devRef .tc main_v201)) = coords (aff (0 : Fin 2) (0 : Fin 6) (after ops V (Proc.devRef .tc main_v193)) (after ops V (Proc.devRef .tc main_arg1))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32)) :=
    funext fun p => funext fun q => R_lab1_aff V p q
  have hg : (fun q : Fin 128 => (after ops V (Proc.devRef .tc main_v293) : FVec Ideal T128 .f32) (ix1 q)) = fun q => (after ops V (Proc.devRef .tc main_arg15) : FVec Ideal S2x4x128 .f32) (ix3 (0 : Fin 2) (1 : Fin 4) q) :=
    funext fun q => R_lab1_g V q
  have hb : (fun q : Fin 128 => (after ops V (Proc.devRef .tc main_v295) : FVec Ideal T128 .f32) (ix1 q)) = fun q => (after ops V (Proc.devRef .tc main_arg16) : FVec Ideal S2x4x128 .f32) (ix3 (0 : Fin 2) (1 : Fin 4) q) :=
    funext fun q => R_lab1_beta V q
  rw [R_lab1_bn_term,
    refBN_apply (hred := reduces_lab1) (by decide) 0x44FA0000#32 (by rw [ofBits_2000]; norm_num), hy, hg, hb]
  rfl

/-- THE READING of the reference over this branch. -/
theorem R_lab1 :
    (after ops V (Proc.devRef .tc main_v315) : (Sh2 2000 128).Idx → EReal)
      = bnR (((2000 : ℕ) : ℝ) : EReal) ((eps5 : ℝ) : EReal) (0 : Fin 2) (1 : Fin 4)
          (aff (0 : Fin 2) (0 : Fin 6) (after ops V (Proc.devRef .tc main_v193)) (after ops V (Proc.devRef .tc main_arg1))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) := by
  refine funext fun (j : (Sh2 2000 128).Idx) => ?_
  obtain ⟨p, q, rfl⟩ : ∃ (p : Fin 2000) (q : Fin 128), j = ix2 p q := ⟨j 0, j 1, eq_ix2 j⟩
  exact R_lab1_pt V p q

end Cert.Val.Lab

end
-- ==== Proof.Val.LabR2.lean ====
/- The reference's diagnosis branch of graph layer 1: the final contents of its result buffer as the normalised form over the affine map
   of the final contents of the mean buffer, the branch's own array and the five parameter arrays. Each operation's
   result is its function of its operands' final contents; the operations' term is then read at an index. -/
import proofs.«424088_j28020366639260_2_alg».proof.Proof.Ref.Typed
import proofs.«424088_j28020366639260_2_alg».proof.Proof.Val.LabTerms

set_option maxRecDepth 8192

noncomputable section

namespace Cert.Val.Lab

open Cert.ReferenceIdeal Cert.ReferenceIdeal.Gen Cert.ReferenceIdeal.Hand
open Idealize.ShloMosaic Idealize.ShloMosaic.TcCoe Idealize.SL.Sem Idealize.ShloMosaic.StableHlo Idealize.ShloMosaic.ValueIdx
open Cert.Lib.ERealArith
open scoped BigOperators

variable (V : Valuation τ sig (Elt Ideal))

/-- The rows are reduced away along the first axis. -/
theorem reduces_diag1 : (Sh2 5000 128).Reduces [0] T128 := by decide

/-- The product's dimension numbers are the plain ones: rows by contraction times contraction by columns. -/
theorem dot_diag1 : dot_S5000x128_S128x128_S5000x128_1_0_0_1_n_n = DotDims.plain 5000 128 128 := rfl

/-- The affine map's buffer: the reference's affine term of the mean, the branch's array, the two weight matrices cut
    out of the weight arrays, and the bias vector cut out of the bias array. -/
theorem R_diag1_aff_term :
    (after ops V (Proc.devRef .tc main_v234) : FVec Ideal (Sh2 5000 128) .f32)
      = refAff dot_S5000x128_S128x128_S5000x128_1_0_0_1_n_n transposes_S128x128_S128x128_1_0 bcast_S128_S1x128_1 bcast_S1x128_S5000x128_0_1
          (after ops V (Proc.devRef .tc main_v226)) (after ops V (Proc.devRef .tc main_arg2)) (after ops V (Proc.devRef .tc main_v203)) (after ops V (Proc.devRef .tc main_v207)) (after ops V (Proc.devRef .tc main_v205)) := by
  rw [in_binary mem_ops4 33 rfl V,
    in_binary mem_ops4 32 rfl V,
    in_unary mem_ops4 31 rfl V,
    in_binary mem_ops4 30 rfl V,
    in_unary mem_ops4 29 rfl V,
    in_unary mem_ops4 28 rfl V,
    in_binary mem_ops4 27 rfl V,
    in_unary mem_ops4 26 rfl V]
  rfl

theorem R_diag1_wl (a b : Fin 128) :
    (after ops V (Proc.devRef .tc main_v203) : FVec Ideal (Sh2 128 128) .f32) (ix2 a b) = (after ops V (Proc.devRef .tc main_arg12) : FVec Ideal S2x6x128x128 .f32) (ix4 (0 : Fin 2) (2 : Fin 6) a b) := by
  rw [in_reshape mem_ops3 56 rfl V,
    in_unary mem_ops3 55 rfl V]
  exact mat_slice_apply 0 2 (by decide) (by decide) slices_S2x6x128x128_S1x1x128x128_0_2_0_0 shapeCasts_S1x1x128x128_S128x128 _ a b

theorem R_diag1_wr (a b : Fin 128) :
    (after ops V (Proc.devRef .tc main_v207) : FVec Ideal (Sh2 128 128) .f32) (ix2 a b) = (after ops V (Proc.devRef .tc main_arg14) : FVec Ideal S2x6x128x128 .f32) (ix4 (0 : Fin 2) (2 : Fin 6) a b) := by
  rw [in_reshape mem_ops4 0 rfl V,
    in_unary mem_ops3 59 rfl V]
  exact mat_slice_apply 0 2 (by decide) (by decide) slices_S2x6x128x128_S1x1x128x128_0_2_0_0 shapeCasts_S1x1x128x128_S128x128 _ a b

theorem R_diag1_bl (q : Fin 128) :
    (after ops V (Proc.devRef .tc main_v205) : FVec Ideal T128 .f32) (ix1 q) = (after ops V (Proc.devRef .tc main_arg13) : FVec Ideal S2x6x128 .f32) (ix3 (0 : Fin 2) (2 : Fin 6) q) := by
  rw [in_reshape mem_ops3 58 rfl V,
    in_unary mem_ops3 57 rfl V]
  exact vec_slice_apply 0 2 (by decide) (by decide) slices_S2x6x128_S1x1x128_0_2_0 shapeCasts_S1x1x128_S128 _ q

theorem R_diag1_g (q : Fin 128) :
    (after ops V (Proc.devRef .tc main_v317) : FVec Ideal T128 .f32) (ix1 q) = (after ops V (Proc.devRef .tc main_arg15) : FVec Ideal S2x4x128 .f32) (ix3 (0 : Fin 2) (2 : Fin 4) q) := by
  rw [in_reshape mem_ops6 12 rfl V,
    in_unary mem_ops6 11 rfl V]
  exact vec_slice_apply 0 2 (by decide) (by decide) slices_S2x4x128_S1x1x128_0_2_0 shapeCasts_S1x1x128_S128 _ q

theorem R_diag1_beta (q : Fin 128) :
    (after ops V (Proc.devRef .tc main_v319) : FVec Ideal T128 .f32) (ix1 q) = (after ops V (Proc.devRef .tc main_arg16) : FVec Ideal S2x4x128 .f32) (ix3 (0 : Fin 2) (2 : Fin 4) q) := by
  rw [in_reshape mem_ops6 14 rfl V,
    in_unary mem_ops6 13 rfl V]
  exact vec_slice_apply 0 2 (by decide) (by decide) slices_S2x4x128_S1x1x128_0_2_0 shapeCasts_S1x1x128_S128 _ q

/-- The affine map's buffer by coordinates. -/
theorem R_diag1_aff (p : Fin 5000) (q : Fin 128) :
    (after ops V (Proc.devRef .tc main_v234) : FVec Ideal (Sh2 5000 128) .f32) (ix2 p q)
      = affC (0 : Fin 2) (2 : Fin 6) (coords (after ops V (Proc.devRef .tc main_v226))) (coords (after ops V (Proc.devRef .tc main_arg2)))
          (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32) p q := by
  refine (congrFun (R_diag1_aff_term V) (ix2 p q)).trans ?_
  refine (refAff_apply (htr := transposes_S128x128_S128x128_1_0) (hb1 := bcast_S128_S1x128_1) (hb2 := bcast_S1x128_S5000x128_0_1) dot_diag1
    (after ops V (Proc.devRef .tc main_v226)) (after ops V (Proc.devRef .tc main_arg2)) (after ops V (Proc.devRef .tc main_v203)) (after ops V (Proc.devRef .tc main_v207)) (after ops V (Proc.devRef .tc main_v205)) p q).trans ?_
  unfold affC coords
  rw [R_diag1_bl]
  refine congrArg₂ (· + ·) (congrArg₂ (· + ·) rfl (Finset.sum_congr rfl fun k _ => ?_)) (Finset.sum_congr rfl fun k _ => ?_)
  · rw [R_diag1_wl]
  · rw [R_diag1_wr]

/-- The column mean's buffer: the column sums onto a zero, over the row count. -/
theorem R_diag1_mu_term :
    (after ops V (Proc.devRef .tc main_v322) : FVec Ideal T128 .f32)
      = Host.divf (Host.reduceAdd (after ops V (Proc.devRef .tc main_v234) : FVec Ideal (Sh2 5000 128) .f32) (constant (F := Ideal) T0 .f32 0x00000000#32) reducesTo_S5000x128_S128_d0 h_S_)
          (broadcastInDim T128 ![] bcast_S_S128 (constant (F := Ideal) T0 .f32 0x459C4000#32)) := by
  rw [in_binary mem_ops6 19 rfl V,
    in_unary mem_ops6 18 rfl V,
    in_nullary mem_ops6 17 rfl V,
    in_binary mem_ops6 16 rfl V,
    in_nullary mem_ops6 15 rfl V]

/-- The variance's buffer: the reference's variance term of the affine map's buffer. The variance function's operations
    are read at the types their references carry; a transport is met only at the call's argument and result. -/
theorem R_diag1_var_term :
    (after ops V (Proc.devRef .tc main_v323) : FVec Ideal T128 .f32)
      = refVar reducesTo_S5000x128_S128_d0 h_S_ bcast_S_S128 bcast_S_S1x128 bcast_S128_S1x128_1 bcast_S1x128_S5000x128_0_1
          0x459C4000#32 (after ops V (Proc.devRef .tc main_v234) : FVec Ideal (Sh2 5000 128) .f32) := by
  have hres : after ops V (Proc.devRef .tc main_v323) = tget main_call9.call0.v2 (after ops V) := rfl
  have harg1 : tget (.of main_v234 : TRef sig ⟨S5000x128, .f32⟩) (after ops V) = after ops V (Proc.devRef .tc main_v234) := rfl
  have harg2 : tget (.of main_c_53 : TRef sig ⟨S_, .i32⟩) (after ops V) = after ops V (Proc.devRef .tc main_c_53) := rfl
  rw [hres, rtin_ternary mem_ops6 42 rfl V,
    rtin_unary mem_ops6 41 rfl V,
    rtin_unary mem_ops6 40 rfl V,
    rtin_nullary mem_ops6 39 rfl V,
    rtin_binary mem_ops6 36 rfl V,
    rtin_unary mem_ops6 35 rfl V,
    rtin_binary mem_ops6 34 rfl V,
    rtin_nullary mem_ops6 33 rfl V,
    rtin_binary mem_ops6 29 rfl V,
    rtin_binary mem_ops6 28 rfl V,
    rtin_unary mem_ops6 27 rfl V,
    rtin_binary mem_ops6 26 rfl V,
    rtin_unary mem_ops6 25 rfl V,
    rtin_nullary mem_ops6 24 rfl V,
    rtin_unary mem_ops6 23 rfl V,
    rtin_binary mem_ops6 22 rfl V,
    rtin_nullary mem_ops6 21 rfl V,
    rtin_binary mem_ops6 38 rfl V,
    rtin_nullary mem_ops6 37 rfl V,
    rtin_binary mem_ops6 32 rfl V,
    rtin_unary mem_ops6 30 rfl V,
    rtin_nullary mem_ops6 31 rfl V,
    harg1,
    harg2,
    in_nullary mem_ops6 20 rfl V]
  rfl

/-- The result buffer: the reference's normalisation term of the affine map's buffer and the two parameter vectors. -/
theorem R_diag1_bn_term :
    (after ops V (Proc.devRef .tc main_v339) : FVec Ideal (Sh2 5000 128) .f32)
      = refBN reducesTo_S5000x128_S128_d0 h_S_ bcast_S_S128 bcast_S_S1x128 bcast_S128_S1x128_1 bcast_S1x128_S5000x128_0_1 bcast_S_S5000x128
          0x459C4000#32 (after ops V (Proc.devRef .tc main_v234)) (after ops V (Proc.devRef .tc main_v317)) (after ops V (Proc.devRef .tc main_v319)) := by
  have hres : after ops V (Proc.devRef .tc main_v339) = tget main_call10.v1 (after ops V) := rfl
  have harg1 : tget (.of main_v338 : TRef sig ⟨S5000x128, .f32⟩) (after ops V) = after ops V (Proc.devRef .tc main_v338) := rfl
  rw [hres, rtin_binary mem_ops6 61 rfl V,
    rtin_unary mem_ops6 60 rfl V,
    rtin_nullary mem_ops6 59 rfl V,
    harg1,
    in_binary mem_ops6 58 rfl V,
    in_unary mem_ops6 57 rfl V,
    in_unary mem_ops6 56 rfl V,
    in_binary mem_ops6 55 rfl V,
    in_unary mem_ops6 54 rfl V,
    in_unary mem_ops6 53 rfl V,
    in_binary mem_ops6 52 rfl V,
    in_unary mem_ops6 51 rfl V,
    in_unary mem_ops6 50 rfl V,
    in_unary mem_ops6 49 rfl V,
    in_binary mem_ops6 48 rfl V,
    in_unary mem_ops6 47 rfl V,
    in_nullary mem_ops6 46 rfl V,
    in_binary mem_ops6 45 rfl V,
    in_unary mem_ops6 44 rfl V,
    in_unary mem_ops6 43 rfl V,
    R_diag1_mu_term, R_diag1_var_term]
  rfl

/-- The reading at row p, column q. -/
theorem R_diag1_pt (p : Fin 5000) (q : Fin 128) :
    (after ops V (Proc.devRef .tc main_v339) : FVec Ideal (Sh2 5000 128) .f32) (ix2 p q)
      = bnR (((5000 : ℕ) : ℝ) : EReal) ((eps5 : ℝ) : EReal) (0 : Fin 2) (2 : Fin 4)
          (aff (0 : Fin 2) (2 : Fin 6) (after ops V (Proc.devRef .tc main_v226)) (after ops V (Proc.devRef .tc main_arg2))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) (ix2 p q) := by
  have hy : coords (after ops V (Proc.devRef .tc main_v234)) = coords (aff (0 : Fin 2) (2 : Fin 6) (after ops V (Proc.devRef .tc main_v226)) (after ops V (Proc.devRef .tc main_arg2))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32)) :=
    funext fun p => funext fun q => R_diag1_aff V p q
  have hg : (fun q : Fin 128 => (after ops V (Proc.devRef .tc main_v317) : FVec Ideal T128 .f32) (ix1 q)) = fun q => (after ops V (Proc.devRef .tc main_arg15) : FVec Ideal S2x4x128 .f32) (ix3 (0 : Fin 2) (2 : Fin 4) q) :=
    funext fun q => R_diag1_g V q
  have hb : (fun q : Fin 128 => (after ops V (Proc.devRef .tc main_v319) : FVec Ideal T128 .f32) (ix1 q)) = fun q => (after ops V (Proc.devRef .tc main_arg16) : FVec Ideal S2x4x128 .f32) (ix3 (0 : Fin 2) (2 : Fin 4) q) :=
    funext fun q => R_diag1_beta V q
  rw [R_diag1_bn_term,
    refBN_apply (hred := reduces_diag1) (by decide) 0x459C4000#32 (by rw [ofBits_5000]; norm_num), hy, hg, hb]
  rfl

/-- THE READING of the reference over this branch. -/
theorem R_diag1 :
    (after ops V (Proc.devRef .tc main_v339) : (Sh2 5000 128).Idx → EReal)
      = bnR (((5000 : ℕ) : ℝ) : EReal) ((eps5 : ℝ) : EReal) (0 : Fin 2) (2 : Fin 4)
          (aff (0 : Fin 2) (2 : Fin 6) (after ops V (Proc.devRef .tc main_v226)) (after ops V (Proc.devRef .tc main_arg2))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) := by
  refine funext fun (j : (Sh2 5000 128).Idx) => ?_
  obtain ⟨p, q, rfl⟩ : ∃ (p : Fin 5000) (q : Fin 128), j = ix2 p q := ⟨j 0, j 1, eq_ix2 j⟩
  exact R_diag1_pt V p q

end Cert.Val.Lab

end
-- ==== Proof.Val.LabR3.lean ====
/- The reference's medication branch of graph layer 1: the final contents of its result buffer as the normalised form over the affine map
   of the final contents of the mean buffer, the branch's own array and the five parameter arrays. Each operation's
   result is its function of its operands' final contents; the operations' term is then read at an index. -/
import proofs.«424088_j28020366639260_2_alg».proof.Proof.Ref.Typed
import proofs.«424088_j28020366639260_2_alg».proof.Proof.Val.LabTerms

set_option maxRecDepth 8192

noncomputable section

namespace Cert.Val.Lab

open Cert.ReferenceIdeal Cert.ReferenceIdeal.Gen Cert.ReferenceIdeal.Hand
open Idealize.ShloMosaic Idealize.ShloMosaic.TcCoe Idealize.SL.Sem Idealize.ShloMosaic.StableHlo Idealize.ShloMosaic.ValueIdx
open Cert.Lib.ERealArith
open scoped BigOperators

variable (V : Valuation τ sig (Elt Ideal))

/-- The rows are reduced away along the first axis. -/
theorem reduces_med1 : (Sh2 3000 128).Reduces [0] T128 := by decide

/-- The product's dimension numbers are the plain ones: rows by contraction times contraction by columns. -/
theorem dot_med1 : dot_S3000x128_S128x128_S3000x128_1_0_0_1_n_n = DotDims.plain 3000 128 128 := rfl

/-- The affine map's buffer: the reference's affine term of the mean, the branch's array, the two weight matrices cut
    out of the weight arrays, and the bias vector cut out of the bias array. -/
theorem R_med1_aff_term :
    (after ops V (Proc.devRef .tc main_v267) : FVec Ideal (Sh2 3000 128) .f32)
      = refAff dot_S3000x128_S128x128_S3000x128_1_0_0_1_n_n transposes_S128x128_S128x128_1_0 bcast_S128_S1x128_1 bcast_S1x128_S3000x128_0_1
          (after ops V (Proc.devRef .tc main_v259)) (after ops V (Proc.devRef .tc main_arg3)) (after ops V (Proc.devRef .tc main_v236)) (after ops V (Proc.devRef .tc main_v240)) (after ops V (Proc.devRef .tc main_v238)) := by
  rw [in_binary mem_ops5 12 rfl V,
    in_binary mem_ops5 11 rfl V,
    in_unary mem_ops5 10 rfl V,
    in_binary mem_ops5 9 rfl V,
    in_unary mem_ops5 8 rfl V,
    in_unary mem_ops5 7 rfl V,
    in_binary mem_ops5 6 rfl V,
    in_unary mem_ops5 5 rfl V]
  rfl

theorem R_med1_wl (a b : Fin 128) :
    (after ops V (Proc.devRef .tc main_v236) : FVec Ideal (Sh2 128 128) .f32) (ix2 a b) = (after ops V (Proc.devRef .tc main_arg12) : FVec Ideal S2x6x128x128 .f32) (ix4 (0 : Fin 2) (4 : Fin 6) a b) := by
  rw [in_reshape mem_ops4 35 rfl V,
    in_unary mem_ops4 34 rfl V]
  exact mat_slice_apply 0 4 (by decide) (by decide) slices_S2x6x128x128_S1x1x128x128_0_4_0_0 shapeCasts_S1x1x128x128_S128x128 _ a b

theorem R_med1_wr (a b : Fin 128) :
    (after ops V (Proc.devRef .tc main_v240) : FVec Ideal (Sh2 128 128) .f32) (ix2 a b) = (after ops V (Proc.devRef .tc main_arg14) : FVec Ideal S2x6x128x128 .f32) (ix4 (0 : Fin 2) (4 : Fin 6) a b) := by
  rw [in_reshape mem_ops4 39 rfl V,
    in_unary mem_ops4 38 rfl V]
  exact mat_slice_apply 0 4 (by decide) (by decide) slices_S2x6x128x128_S1x1x128x128_0_4_0_0 shapeCasts_S1x1x128x128_S128x128 _ a b

theorem R_med1_bl (q : Fin 128) :
    (after ops V (Proc.devRef .tc main_v238) : FVec Ideal T128 .f32) (ix1 q) = (after ops V (Proc.devRef .tc main_arg13) : FVec Ideal S2x6x128 .f32) (ix3 (0 : Fin 2) (4 : Fin 6) q) := by
  rw [in_reshape mem_ops4 37 rfl V,
    in_unary mem_ops4 36 rfl V]
  exact vec_slice_apply 0 4 (by decide) (by decide) slices_S2x6x128_S1x1x128_0_4_0 shapeCasts_S1x1x128_S128 _ q

theorem R_med1_g (q : Fin 128) :
    (after ops V (Proc.devRef .tc main_v341) : FVec Ideal T128 .f32) (ix1 q) = (after ops V (Proc.devRef .tc main_arg15) : FVec Ideal S2x4x128 .f32) (ix3 (0 : Fin 2) (3 : Fin 4) q) := by
  rw [in_reshape mem_ops6 63 rfl V,
    in_unary mem_ops6 62 rfl V]
  exact vec_slice_apply 0 3 (by decide) (by decide) slices_S2x4x128_S1x1x128_0_3_0 shapeCasts_S1x1x128_S128 _ q

theorem R_med1_beta (q : Fin 128) :
    (after ops V (Proc.devRef .tc main_v343) : FVec Ideal T128 .f32) (ix1 q) = (after ops V (Proc.devRef .tc main_arg16) : FVec Ideal S2x4x128 .f32) (ix3 (0 : Fin 2) (3 : Fin 4) q) := by
  rw [in_reshape mem_ops6 65 rfl V,
    in_unary mem_ops6 64 rfl V]
  exact vec_slice_apply 0 3 (by decide) (by decide) slices_S2x4x128_S1x1x128_0_3_0 shapeCasts_S1x1x128_S128 _ q

/-- The affine map's buffer by coordinates. -/
theorem R_med1_aff (p : Fin 3000) (q : Fin 128) :
    (after ops V (Proc.devRef .tc main_v267) : FVec Ideal (Sh2 3000 128) .f32) (ix2 p q)
      = affC (0 : Fin 2) (4 : Fin 6) (coords (after ops V (Proc.devRef .tc main_v259))) (coords (after ops V (Proc.devRef .tc main_arg3)))
          (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32) p q := by
  refine (congrFun (R_med1_aff_term V) (ix2 p q)).trans ?_
  refine (refAff_apply (htr := transposes_S128x128_S128x128_1_0) (hb1 := bcast_S128_S1x128_1) (hb2 := bcast_S1x128_S3000x128_0_1) dot_med1
    (after ops V (Proc.devRef .tc main_v259)) (after ops V (Proc.devRef .tc main_arg3)) (after ops V (Proc.devRef .tc main_v236)) (after ops V (Proc.devRef .tc main_v240)) (after ops V (Proc.devRef .tc main_v238)) p q).trans ?_
  unfold affC coords
  rw [R_med1_bl]
  refine congrArg₂ (· + ·) (congrArg₂ (· + ·) rfl (Finset.sum_congr rfl fun k _ => ?_)) (Finset.sum_congr rfl fun k _ => ?_)
  · rw [R_med1_wl]
  · rw [R_med1_wr]

/-- The column mean's buffer: the column sums onto a zero, over the row count. -/
theorem R_med1_mu_term :
    (after ops V (Proc.devRef .tc main_v346) : FVec Ideal T128 .f32)
      = Host.divf (Host.reduceAdd (after ops V (Proc.devRef .tc main_v267) : FVec Ideal (Sh2 3000 128) .f32) (constant (F := Ideal) T0 .f32 0x00000000#32) reducesTo_S3000x128_S128_d0 h_S_)
          (broadcastInDim T128 ![] bcast_S_S128 (constant (F := Ideal) T0 .f32 0x453B8000#32)) := by
  rw [in_binary mem_ops6 70 rfl V,
    in_unary mem_ops6 69 rfl V,
    in_nullary mem_ops6 68 rfl V,
    in_binary mem_ops6 67 rfl V,
    in_nullary mem_ops6 66 rfl V]

/-- The variance's buffer: the reference's variance term of the affine map's buffer. The variance function's operations
    are read at the types their references carry; a transport is met only at the call's argument and result. -/
theorem R_med1_var_term :
    (after ops V (Proc.devRef .tc main_v347) : FVec Ideal T128 .f32)
      = refVar reducesTo_S3000x128_S128_d0 h_S_ bcast_S_S128 bcast_S_S1x128 bcast_S128_S1x128_1 bcast_S1x128_S3000x128_0_1
          0x453B8000#32 (after ops V (Proc.devRef .tc main_v267) : FVec Ideal (Sh2 3000 128) .f32) := by
  have hres : after ops V (Proc.devRef .tc main_v347) = tget main_call11.call0.v2 (after ops V) := rfl
  have harg1 : tget (.of main_v267 : TRef sig ⟨S3000x128, .f32⟩) (after ops V) = after ops V (Proc.devRef .tc main_v267) := rfl
  have harg2 : tget (.of main_c_57 : TRef sig ⟨S_, .i32⟩) (after ops V) = after ops V (Proc.devRef .tc main_c_57) := rfl
  rw [hres, rtin_ternary mem_ops6 93 rfl V,
    rtin_unary mem_ops6 92 rfl V,
    rtin_unary mem_ops6 91 rfl V,
    rtin_nullary mem_ops6 90 rfl V,
    rtin_binary mem_ops6 87 rfl V,
    rtin_unary mem_ops6 86 rfl V,
    rtin_binary mem_ops6 85 rfl V,
    rtin_nullary mem_ops6 84 rfl V,
    rtin_binary mem_ops6 80 rfl V,
    rtin_binary mem_ops6 79 rfl V,
    rtin_unary mem_ops6 78 rfl V,
    rtin_binary mem_ops6 77 rfl V,
    rtin_unary mem_ops6 76 rfl V,
    rtin_nullary mem_ops6 75 rfl V,
    rtin_unary mem_ops6 74 rfl V,
    rtin_binary mem_ops6 73 rfl V,
    rtin_nullary mem_ops6 72 rfl V,
    rtin_binary mem_ops6 89 rfl V,
    rtin_nullary mem_ops6 88 rfl V,
    rtin_binary mem_ops6 83 rfl V,
    rtin_unary mem_ops6 81 rfl V,
    rtin_nullary mem_ops6 82 rfl V,
    harg1,
    harg2,
    in_nullary mem_ops6 71 rfl V]
  rfl

/-- The result buffer: the reference's normalisation term of the affine map's buffer and the two parameter vectors. -/
theorem R_med1_bn_term :
    (after ops V (Proc.devRef .tc main_v363) : FVec Ideal (Sh2 3000 128) .f32)
      = refBN reducesTo_S3000x128_S128_d0 h_S_ bcast_S_S128 bcast_S_S1x128 bcast_S128_S1x128_1 bcast_S1x128_S3000x128_0_1 bcast_S_S3000x128
          0x453B8000#32 (after ops V (Proc.devRef .tc main_v267)) (after ops V (Proc.devRef .tc main_v341)) (after ops V (Proc.devRef .tc main_v343)) := by
  have hres : after ops V (Proc.devRef .tc main_v363) = tget main_call12.v1 (after ops V) := rfl
  have harg1 : tget (.of main_v362 : TRef sig ⟨S3000x128, .f32⟩) (after ops V) = after ops V (Proc.devRef .tc main_v362) := rfl
  rw [hres, rtin_binary mem_ops7 6 rfl V,
    rtin_unary mem_ops7 5 rfl V,
    rtin_nullary mem_ops7 4 rfl V,
    harg1,
    in_binary mem_ops7 3 rfl V,
    in_unary mem_ops7 2 rfl V,
    in_unary mem_ops7 1 rfl V,
    in_binary mem_ops7 0 rfl V,
    in_unary mem_ops6 105 rfl V,
    in_unary mem_ops6 104 rfl V,
    in_binary mem_ops6 103 rfl V,
    in_unary mem_ops6 102 rfl V,
    in_unary mem_ops6 101 rfl V,
    in_unary mem_ops6 100 rfl V,
    in_binary mem_ops6 99 rfl V,
    in_unary mem_ops6 98 rfl V,
    in_nullary mem_ops6 97 rfl V,
    in_binary mem_ops6 96 rfl V,
    in_unary mem_ops6 95 rfl V,
    in_unary mem_ops6 94 rfl V,
    R_med1_mu_term, R_med1_var_term]
  rfl

/-- The reading at row p, column q. -/
theorem R_med1_pt (p : Fin 3000) (q : Fin 128) :
    (after ops V (Proc.devRef .tc main_v363) : FVec Ideal (Sh2 3000 128) .f32) (ix2 p q)
      = bnR (((3000 : ℕ) : ℝ) : EReal) ((eps5 : ℝ) : EReal) (0 : Fin 2) (3 : Fin 4)
          (aff (0 : Fin 2) (4 : Fin 6) (after ops V (Proc.devRef .tc main_v259)) (after ops V (Proc.devRef .tc main_arg3))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) (ix2 p q) := by
  have hy : coords (after ops V (Proc.devRef .tc main_v267)) = coords (aff (0 : Fin 2) (4 : Fin 6) (after ops V (Proc.devRef .tc main_v259)) (after ops V (Proc.devRef .tc main_arg3))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32)) :=
    funext fun p => funext fun q => R_med1_aff V p q
  have hg : (fun q : Fin 128 => (after ops V (Proc.devRef .tc main_v341) : FVec Ideal T128 .f32) (ix1 q)) = fun q => (after ops V (Proc.devRef .tc main_arg15) : FVec Ideal S2x4x128 .f32) (ix3 (0 : Fin 2) (3 : Fin 4) q) :=
    funext fun q => R_med1_g V q
  have hb : (fun q : Fin 128 => (after ops V (Proc.devRef .tc main_v343) : FVec Ideal T128 .f32) (ix1 q)) = fun q => (after ops V (Proc.devRef .tc main_arg16) : FVec Ideal S2x4x128 .f32) (ix3 (0 : Fin 2) (3 : Fin 4) q) :=
    funext fun q => R_med1_beta V q
  rw [R_med1_bn_term,
    refBN_apply (hred := reduces_med1) (by decide) 0x453B8000#32 (by rw [ofBits_3000]; norm_num), hy, hg, hb]
  rfl

/-- THE READING of the reference over this branch. -/
theorem R_med1 :
    (after ops V (Proc.devRef .tc main_v363) : (Sh2 3000 128).Idx → EReal)
      = bnR (((3000 : ℕ) : ℝ) : EReal) ((eps5 : ℝ) : EReal) (0 : Fin 2) (3 : Fin 4)
          (aff (0 : Fin 2) (4 : Fin 6) (after ops V (Proc.devRef .tc main_v259)) (after ops V (Proc.devRef .tc main_arg3))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) := by
  refine funext fun (j : (Sh2 3000 128).Idx) => ?_
  obtain ⟨p, q, rfl⟩ : ∃ (p : Fin 3000) (q : Fin 128), j = ix2 p q := ⟨j 0, j 1, eq_ix2 j⟩
  exact R_med1_pt V p q

end Cert.Val.Lab

end
-- ==== Proof.Val.LabR4.lean ====
/- The reference's lab branch of graph layer 2: the final contents of its result buffer as the normalised form over the affine map
   of the final contents of the mean buffer, the branch's own array and the five parameter arrays. Each operation's
   result is its function of its operands' final contents; the operations' term is then read at an index. -/
import proofs.«424088_j28020366639260_2_alg».proof.Proof.Ref.Typed
import proofs.«424088_j28020366639260_2_alg».proof.Proof.Val.LabTerms

set_option maxRecDepth 8192

noncomputable section

namespace Cert.Val.Lab

open Cert.ReferenceIdeal Cert.ReferenceIdeal.Gen Cert.ReferenceIdeal.Hand
open Idealize.ShloMosaic Idealize.ShloMosaic.TcCoe Idealize.SL.Sem Idealize.ShloMosaic.StableHlo Idealize.ShloMosaic.ValueIdx
open Cert.Lib.ERealArith
open scoped BigOperators

variable (V : Valuation τ sig (Elt Ideal))

/-- The rows are reduced away along the first axis. -/
theorem reduces_lab2 : (Sh2 2000 128).Reduces [0] T128 := by decide

/-- The product's dimension numbers are the plain ones: rows by contraction times contraction by columns. -/
theorem dot_lab2 : dot_S2000x128_S128x128_S2000x128_1_0_0_1_n_n = DotDims.plain 2000 128 128 := rfl

/-- The affine map's buffer: the reference's affine term of the mean, the branch's array, the two weight matrices cut
    out of the weight arrays, and the bias vector cut out of the bias array. -/
theorem R_lab2_aff_term :
    (after ops V (Proc.devRef .tc main_v497) : FVec Ideal (Sh2 2000 128) .f32)
      = refAff dot_S2000x128_S128x128_S2000x128_1_0_0_1_n_n transposes_S128x128_S128x128_1_0 bcast_S128_S1x128_1 bcast_S1x128_S2000x128_0_1
          (after ops V (Proc.devRef .tc main_v489)) (after ops V (Proc.devRef .tc main_v315)) (after ops V (Proc.devRef .tc main_v466)) (after ops V (Proc.devRef .tc main_v470)) (after ops V (Proc.devRef .tc main_v468)) := by
  rw [in_binary mem_ops9 42 rfl V,
    in_binary mem_ops9 41 rfl V,
    in_unary mem_ops9 40 rfl V,
    in_binary mem_ops9 39 rfl V,
    in_unary mem_ops9 38 rfl V,
    in_unary mem_ops9 37 rfl V,
    in_binary mem_ops9 36 rfl V,
    in_unary mem_ops9 35 rfl V]
  rfl

theorem R_lab2_wl (a b : Fin 128) :
    (after ops V (Proc.devRef .tc main_v466) : FVec Ideal (Sh2 128 128) .f32) (ix2 a b) = (after ops V (Proc.devRef .tc main_arg12) : FVec Ideal S2x6x128x128 .f32) (ix4 (1 : Fin 2) (0 : Fin 6) a b) := by
  rw [in_reshape mem_ops9 5 rfl V,
    in_unary mem_ops9 4 rfl V]
  exact mat_slice_apply 1 0 (by decide) (by decide) slices_S2x6x128x128_S1x1x128x128_1_0_0_0 shapeCasts_S1x1x128x128_S128x128 _ a b

theorem R_lab2_wr (a b : Fin 128) :
    (after ops V (Proc.devRef .tc main_v470) : FVec Ideal (Sh2 128 128) .f32) (ix2 a b) = (after ops V (Proc.devRef .tc main_arg14) : FVec Ideal S2x6x128x128 .f32) (ix4 (1 : Fin 2) (0 : Fin 6) a b) := by
  rw [in_reshape mem_ops9 9 rfl V,
    in_unary mem_ops9 8 rfl V]
  exact mat_slice_apply 1 0 (by decide) (by decide) slices_S2x6x128x128_S1x1x128x128_1_0_0_0 shapeCasts_S1x1x128x128_S128x128 _ a b

theorem R_lab2_bl (q : Fin 128) :
    (after ops V (Proc.devRef .tc main_v468) : FVec Ideal T128 .f32) (ix1 q) = (after ops V (Proc.devRef .tc main_arg13) : FVec Ideal S2x6x128 .f32) (ix3 (1 : Fin 2) (0 : Fin 6) q) := by
  rw [in_reshape mem_ops9 7 rfl V,
    in_unary mem_ops9 6 rfl V]
  exact vec_slice_apply 1 0 (by decide) (by decide) slices_S2x6x128_S1x1x128_1_0_0 shapeCasts_S1x1x128_S128 _ q

theorem R_lab2_g (q : Fin 128) :
    (after ops V (Proc.devRef .tc main_v589) : FVec Ideal T128 .f32) (ix1 q) = (after ops V (Proc.devRef .tc main_arg15) : FVec Ideal S2x4x128 .f32) (ix3 (1 : Fin 2) (1 : Fin 4) q) := by
  rw [in_reshape mem_ops11 53 rfl V,
    in_unary mem_ops11 52 rfl V]
  exact vec_slice_apply 1 1 (by decide) (by decide) slices_S2x4x128_S1x1x128_1_1_0 shapeCasts_S1x1x128_S128 _ q

theorem R_lab2_beta (q : Fin 128) :
    (after ops V (Proc.devRef .tc main_v591) : FVec Ideal T128 .f32) (ix1 q) = (after ops V (Proc.devRef .tc main_arg16) : FVec Ideal S2x4x128 .f32) (ix3 (1 : Fin 2) (1 : Fin 4) q) := by
  rw [in_reshape mem_ops11 55 rfl V,
    in_unary mem_ops11 54 rfl V]
  exact vec_slice_apply 1 1 (by decide) (by decide) slices_S2x4x128_S1x1x128_1_1_0 shapeCasts_S1x1x128_S128 _ q

/-- The affine map's buffer by coordinates. -/
theorem R_lab2_aff (p : Fin 2000) (q : Fin 128) :
    (after ops V (Proc.devRef .tc main_v497) : FVec Ideal (Sh2 2000 128) .f32) (ix2 p q)
      = affC (1 : Fin 2) (0 : Fin 6) (coords (after ops V (Proc.devRef .tc main_v489))) (coords (after ops V (Proc.devRef .tc main_v315)))
          (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32) p q := by
  refine (congrFun (R_lab2_aff_term V) (ix2 p q)).trans ?_
  refine (refAff_apply (htr := transposes_S128x128_S128x128_1_0) (hb1 := bcast_S128_S1x128_1) (hb2 := bcast_S1x128_S2000x128_0_1) dot_lab2
    (after ops V (Proc.devRef .tc main_v489)) (after ops V (Proc.devRef .tc main_v315)) (after ops V (Proc.devRef .tc main_v466)) (after ops V (Proc.devRef .tc main_v470)) (after ops V (Proc.devRef .tc main_v468)) p q).trans ?_
  unfold affC coords
  rw [R_lab2_bl]
  refine congrArg₂ (· + ·) (congrArg₂ (· + ·) rfl (Finset.sum_congr rfl fun k _ => ?_)) (Finset.sum_congr rfl fun k _ => ?_)
  · rw [R_lab2_wl]
  · rw [R_lab2_wr]

/-- The column mean's buffer: the column sums onto a zero, over the row count. -/
theorem R_lab2_mu_term :
    (after ops V (Proc.devRef .tc main_v594) : FVec Ideal T128 .f32)
      = Host.divf (Host.reduceAdd (after ops V (Proc.devRef .tc main_v497) : FVec Ideal (Sh2 2000 128) .f32) (constant (F := Ideal) T0 .f32 0x00000000#32) reducesTo_S2000x128_S128_d0 h_S_)
          (broadcastInDim T128 ![] bcast_S_S128 (constant (F := Ideal) T0 .f32 0x44FA0000#32)) := by
  rw [in_binary mem_ops11 60 rfl V,
    in_unary mem_ops11 59 rfl V,
    in_nullary mem_ops11 58 rfl V,
    in_binary mem_ops11 57 rfl V,
    in_nullary mem_ops11 56 rfl V]

/-- The variance's buffer: the reference's variance term of the affine map's buffer. The variance function's operations
    are read at the types their references carry; a transport is met only at the call's argument and result. -/
theorem R_lab2_var_term :
    (after ops V (Proc.devRef .tc main_v595) : FVec Ideal T128 .f32)
      = refVar reducesTo_S2000x128_S128_d0 h_S_ bcast_S_S128 bcast_S_S1x128 bcast_S128_S1x128_1 bcast_S1x128_S2000x128_0_1
          0x44FA0000#32 (after ops V (Proc.devRef .tc main_v497) : FVec Ideal (Sh2 2000 128) .f32) := by
  have hres : after ops V (Proc.devRef .tc main_v595) = tget main_call15.call0.v2 (after ops V) := rfl
  have harg1 : tget (.of main_v497 : TRef sig ⟨S2000x128, .f32⟩) (after ops V) = after ops V (Proc.devRef .tc main_v497) := rfl
  have harg2 : tget (.of main_c_101 : TRef sig ⟨S_, .i32⟩) (after ops V) = after ops V (Proc.devRef .tc main_c_101) := rfl
  rw [hres, rtin_ternary mem_ops11 83 rfl V,
    rtin_unary mem_ops11 82 rfl V,
    rtin_unary mem_ops11 81 rfl V,
    rtin_nullary mem_ops11 80 rfl V,
    rtin_binary mem_ops11 77 rfl V,
    rtin_unary mem_ops11 76 rfl V,
    rtin_binary mem_ops11 75 rfl V,
    rtin_nullary mem_ops11 74 rfl V,
    rtin_binary mem_ops11 70 rfl V,
    rtin_binary mem_ops11 69 rfl V,
    rtin_unary mem_ops11 68 rfl V,
    rtin_binary mem_ops11 67 rfl V,
    rtin_unary mem_ops11 66 rfl V,
    rtin_nullary mem_ops11 65 rfl V,
    rtin_unary mem_ops11 64 rfl V,
    rtin_binary mem_ops11 63 rfl V,
    rtin_nullary mem_ops11 62 rfl V,
    rtin_binary mem_ops11 79 rfl V,
    rtin_nullary mem_ops11 78 rfl V,
    rtin_binary mem_ops11 73 rfl V,
    rtin_unary mem_ops11 71 rfl V,
    rtin_nullary mem_ops11 72 rfl V,
    harg1,
    harg2,
    in_nullary mem_ops11 61 rfl V]
  rfl

/-- The result buffer: the reference's normalisation term of the affine map's buffer and the two parameter vectors. -/
theorem R_lab2_bn_term :
    (after ops V (Proc.devRef .tc main_v611) : FVec Ideal (Sh2 2000 128) .f32)
      = refBN reducesTo_S2000x128_S128_d0 h_S_ bcast_S_S128 bcast_S_S1x128 bcast_S128_S1x128_1 bcast_S1x128_S2000x128_0_1 bcast_S_S2000x128
          0x44FA0000#32 (after ops V (Proc.devRef .tc main_v497)) (after ops V (Proc.devRef .tc main_v589)) (after ops V (Proc.devRef .tc main_v591)) := by
  have hres : after ops V (Proc.devRef .tc main_v611) = tget main_call16.v1 (after ops V) := rfl
  have harg1 : tget (.of main_v610 : TRef sig ⟨S2000x128, .f32⟩) (after ops V) = after ops V (Proc.devRef .tc main_v610) := rfl
  rw [hres, rtin_binary mem_ops11 102 rfl V,
    rtin_unary mem_ops11 101 rfl V,
    rtin_nullary mem_ops11 100 rfl V,
    harg1,
    in_binary mem_ops11 99 rfl V,
    in_unary mem_ops11 98 rfl V,
    in_unary mem_ops11 97 rfl V,
    in_binary mem_ops11 96 rfl V,
    in_unary mem_ops11 95 rfl V,
    in_unary mem_ops11 94 rfl V,
    in_binary mem_ops11 93 rfl V,
    in_unary mem_ops11 92 rfl V,
    in_unary mem_ops11 91 rfl V,
    in_unary mem_ops11 90 rfl V,
    in_binary mem_ops11 89 rfl V,
    in_unary mem_ops11 88 rfl V,
    in_nullary mem_ops11 87 rfl V,
    in_binary mem_ops11 86 rfl V,
    in_unary mem_ops11 85 rfl V,
    in_unary mem_ops11 84 rfl V,
    R_lab2_mu_term, R_lab2_var_term]
  rfl

/-- The reading at row p, column q. -/
theorem R_lab2_pt (p : Fin 2000) (q : Fin 128) :
    (after ops V (Proc.devRef .tc main_v611) : FVec Ideal (Sh2 2000 128) .f32) (ix2 p q)
      = bnR (((2000 : ℕ) : ℝ) : EReal) ((eps5 : ℝ) : EReal) (1 : Fin 2) (1 : Fin 4)
          (aff (1 : Fin 2) (0 : Fin 6) (after ops V (Proc.devRef .tc main_v489)) (after ops V (Proc.devRef .tc main_v315))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) (ix2 p q) := by
  have hy : coords (after ops V (Proc.devRef .tc main_v497)) = coords (aff (1 : Fin 2) (0 : Fin 6) (after ops V (Proc.devRef .tc main_v489)) (after ops V (Proc.devRef .tc main_v315))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32)) :=
    funext fun p => funext fun q => R_lab2_aff V p q
  have hg : (fun q : Fin 128 => (after ops V (Proc.devRef .tc main_v589) : FVec Ideal T128 .f32) (ix1 q)) = fun q => (after ops V (Proc.devRef .tc main_arg15) : FVec Ideal S2x4x128 .f32) (ix3 (1 : Fin 2) (1 : Fin 4) q) :=
    funext fun q => R_lab2_g V q
  have hb : (fun q : Fin 128 => (after ops V (Proc.devRef .tc main_v591) : FVec Ideal T128 .f32) (ix1 q)) = fun q => (after ops V (Proc.devRef .tc main_arg16) : FVec Ideal S2x4x128 .f32) (ix3 (1 : Fin 2) (1 : Fin 4) q) :=
    funext fun q => R_lab2_beta V q
  rw [R_lab2_bn_term,
    refBN_apply (hred := reduces_lab2) (by decide) 0x44FA0000#32 (by rw [ofBits_2000]; norm_num), hy, hg, hb]
  rfl

/-- THE READING of the reference over this branch. -/
theorem R_lab2 :
    (after ops V (Proc.devRef .tc main_v611) : (Sh2 2000 128).Idx → EReal)
      = bnR (((2000 : ℕ) : ℝ) : EReal) ((eps5 : ℝ) : EReal) (1 : Fin 2) (1 : Fin 4)
          (aff (1 : Fin 2) (0 : Fin 6) (after ops V (Proc.devRef .tc main_v489)) (after ops V (Proc.devRef .tc main_v315))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) := by
  refine funext fun (j : (Sh2 2000 128).Idx) => ?_
  obtain ⟨p, q, rfl⟩ : ∃ (p : Fin 2000) (q : Fin 128), j = ix2 p q := ⟨j 0, j 1, eq_ix2 j⟩
  exact R_lab2_pt V p q

end Cert.Val.Lab

end
-- ==== Proof.Val.LabR5.lean ====
/- The reference's diagnosis branch of graph layer 2: the final contents of its result buffer as the normalised form over the affine map
   of the final contents of the mean buffer, the branch's own array and the five parameter arrays. Each operation's
   result is its function of its operands' final contents; the operations' term is then read at an index. -/
import proofs.«424088_j28020366639260_2_alg».proof.Proof.Ref.Typed
import proofs.«424088_j28020366639260_2_alg».proof.Proof.Val.LabTerms

set_option maxRecDepth 8192

noncomputable section

namespace Cert.Val.Lab

open Cert.ReferenceIdeal Cert.ReferenceIdeal.Gen Cert.ReferenceIdeal.Hand
open Idealize.ShloMosaic Idealize.ShloMosaic.TcCoe Idealize.SL.Sem Idealize.ShloMosaic.StableHlo Idealize.ShloMosaic.ValueIdx
open Cert.Lib.ERealArith
open scoped BigOperators

variable (V : Valuation τ sig (Elt Ideal))

/-- The rows are reduced away along the first axis. -/
theorem reduces_diag2 : (Sh2 5000 128).Reduces [0] T128 := by decide

/-- The product's dimension numbers are the plain ones: rows by contraction times contraction by columns. -/
theorem dot_diag2 : dot_S5000x128_S128x128_S5000x128_1_0_0_1_n_n = DotDims.plain 5000 128 128 := rfl

/-- The affine map's buffer: the reference's affine term of the mean, the branch's array, the two weight matrices cut
    out of the weight arrays, and the bias vector cut out of the bias array. -/
theorem R_diag2_aff_term :
    (after ops V (Proc.devRef .tc main_v530) : FVec Ideal (Sh2 5000 128) .f32)
      = refAff dot_S5000x128_S128x128_S5000x128_1_0_0_1_n_n transposes_S128x128_S128x128_1_0 bcast_S128_S1x128_1 bcast_S1x128_S5000x128_0_1
          (after ops V (Proc.devRef .tc main_v522)) (after ops V (Proc.devRef .tc main_v339)) (after ops V (Proc.devRef .tc main_v499)) (after ops V (Proc.devRef .tc main_v503)) (after ops V (Proc.devRef .tc main_v501)) := by
  rw [in_binary mem_ops10 21 rfl V,
    in_binary mem_ops10 20 rfl V,
    in_unary mem_ops10 19 rfl V,
    in_binary mem_ops10 18 rfl V,
    in_unary mem_ops10 17 rfl V,
    in_unary mem_ops10 16 rfl V,
    in_binary mem_ops10 15 rfl V,
    in_unary mem_ops10 14 rfl V]
  rfl

theorem R_diag2_wl (a b : Fin 128) :
    (after ops V (Proc.devRef .tc main_v499) : FVec Ideal (Sh2 128 128) .f32) (ix2 a b) = (after ops V (Proc.devRef .tc main_arg12) : FVec Ideal S2x6x128x128 .f32) (ix4 (1 : Fin 2) (2 : Fin 6) a b) := by
  rw [in_reshape mem_ops9 44 rfl V,
    in_unary mem_ops9 43 rfl V]
  exact mat_slice_apply 1 2 (by decide) (by decide) slices_S2x6x128x128_S1x1x128x128_1_2_0_0 shapeCasts_S1x1x128x128_S128x128 _ a b

theorem R_diag2_wr (a b : Fin 128) :
    (after ops V (Proc.devRef .tc main_v503) : FVec Ideal (Sh2 128 128) .f32) (ix2 a b) = (after ops V (Proc.devRef .tc main_arg14) : FVec Ideal S2x6x128x128 .f32) (ix4 (1 : Fin 2) (2 : Fin 6) a b) := by
  rw [in_reshape mem_ops9 48 rfl V,
    in_unary mem_ops9 47 rfl V]
  exact mat_slice_apply 1 2 (by decide) (by decide) slices_S2x6x128x128_S1x1x128x128_1_2_0_0 shapeCasts_S1x1x128x128_S128x128 _ a b

theorem R_diag2_bl (q : Fin 128) :
    (after ops V (Proc.devRef .tc main_v501) : FVec Ideal T128 .f32) (ix1 q) = (after ops V (Proc.devRef .tc main_arg13) : FVec Ideal S2x6x128 .f32) (ix3 (1 : Fin 2) (2 : Fin 6) q) := by
  rw [in_reshape mem_ops9 46 rfl V,
    in_unary mem_ops9 45 rfl V]
  exact vec_slice_apply 1 2 (by decide) (by decide) slices_S2x6x128_S1x1x128_1_2_0 shapeCasts_S1x1x128_S128 _ q

theorem R_diag2_g (q : Fin 128) :
    (after ops V (Proc.devRef .tc main_v613) : FVec Ideal T128 .f32) (ix1 q) = (after ops V (Proc.devRef .tc main_arg15) : FVec Ideal S2x4x128 .f32) (ix3 (1 : Fin 2) (2 : Fin 4) q) := by
  rw [in_reshape mem_ops11 104 rfl V,
    in_unary mem_ops11 103 rfl V]
  exact vec_slice_apply 1 2 (by decide) (by decide) slices_S2x4x128_S1x1x128_1_2_0 shapeCasts_S1x1x128_S128 _ q

theorem R_diag2_beta (q : Fin 128) :
    (after ops V (Proc.devRef .tc main_v615) : FVec Ideal T128 .f32) (ix1 q) = (after ops V (Proc.devRef .tc main_arg16) : FVec Ideal S2x4x128 .f32) (ix3 (1 : Fin 2) (2 : Fin 4) q) := by
  rw [in_reshape mem_ops12 0 rfl V,
    in_unary mem_ops11 105 rfl V]
  exact vec_slice_apply 1 2 (by decide) (by decide) slices_S2x4x128_S1x1x128_1_2_0 shapeCasts_S1x1x128_S128 _ q

/-- The affine map's buffer by coordinates. -/
theorem R_diag2_aff (p : Fin 5000) (q : Fin 128) :
    (after ops V (Proc.devRef .tc main_v530) : FVec Ideal (Sh2 5000 128) .f32) (ix2 p q)
      = affC (1 : Fin 2) (2 : Fin 6) (coords (after ops V (Proc.devRef .tc main_v522))) (coords (after ops V (Proc.devRef .tc main_v339)))
          (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32) p q := by
  refine (congrFun (R_diag2_aff_term V) (ix2 p q)).trans ?_
  refine (refAff_apply (htr := transposes_S128x128_S128x128_1_0) (hb1 := bcast_S128_S1x128_1) (hb2 := bcast_S1x128_S5000x128_0_1) dot_diag2
    (after ops V (Proc.devRef .tc main_v522)) (after ops V (Proc.devRef .tc main_v339)) (after ops V (Proc.devRef .tc main_v499)) (after ops V (Proc.devRef .tc main_v503)) (after ops V (Proc.devRef .tc main_v501)) p q).trans ?_
  unfold affC coords
  rw [R_diag2_bl]
  refine congrArg₂ (· + ·) (congrArg₂ (· + ·) rfl (Finset.sum_congr rfl fun k _ => ?_)) (Finset.sum_congr rfl fun k _ => ?_)
  · rw [R_diag2_wl]
  · rw [R_diag2_wr]

/-- The column mean's buffer: the column sums onto a zero, over the row count. -/
theorem R_diag2_mu_term :
    (after ops V (Proc.devRef .tc main_v618) : FVec Ideal T128 .f32)
      = Host.divf (Host.reduceAdd (after ops V (Proc.devRef .tc main_v530) : FVec Ideal (Sh2 5000 128) .f32) (constant (F := Ideal) T0 .f32 0x00000000#32) reducesTo_S5000x128_S128_d0 h_S_)
          (broadcastInDim T128 ![] bcast_S_S128 (constant (F := Ideal) T0 .f32 0x459C4000#32)) := by
  rw [in_binary mem_ops12 5 rfl V,
    in_unary mem_ops12 4 rfl V,
    in_nullary mem_ops12 3 rfl V,
    in_binary mem_ops12 2 rfl V,
    in_nullary mem_ops12 1 rfl V]

/-- The variance's buffer: the reference's variance term of the affine map's buffer. The variance function's operations
    are read at the types their references carry; a transport is met only at the call's argument and result. -/
theorem R_diag2_var_term :
    (after ops V (Proc.devRef .tc main_v619) : FVec Ideal T128 .f32)
      = refVar reducesTo_S5000x128_S128_d0 h_S_ bcast_S_S128 bcast_S_S1x128 bcast_S128_S1x128_1 bcast_S1x128_S5000x128_0_1
          0x459C4000#32 (after ops V (Proc.devRef .tc main_v530) : FVec Ideal (Sh2 5000 128) .f32) := by
  have hres : after ops V (Proc.devRef .tc main_v619) = tget main_call17.call0.v2 (after ops V) := rfl
  have harg1 : tget (.of main_v530 : TRef sig ⟨S5000x128, .f32⟩) (after ops V) = after ops V (Proc.devRef .tc main_v530) := rfl
  have harg2 : tget (.of main_c_105 : TRef sig ⟨S_, .i32⟩) (after ops V) = after ops V (Proc.devRef .tc main_c_105) := rfl
  rw [hres, rtin_ternary mem_ops12 28 rfl V,
    rtin_unary mem_ops12 27 rfl V,
    rtin_unary mem_ops12 26 rfl V,
    rtin_nullary mem_ops12 25 rfl V,
    rtin_binary mem_ops12 22 rfl V,
    rtin_unary mem_ops12 21 rfl V,
    rtin_binary mem_ops12 20 rfl V,
    rtin_nullary mem_ops12 19 rfl V,
    rtin_binary mem_ops12 15 rfl V,
    rtin_binary mem_ops12 14 rfl V,
    rtin_unary mem_ops12 13 rfl V,
    rtin_binary mem_ops12 12 rfl V,
    rtin_unary mem_ops12 11 rfl V,
    rtin_nullary mem_ops12 10 rfl V,
    rtin_unary mem_ops12 9 rfl V,
    rtin_binary mem_ops12 8 rfl V,
    rtin_nullary mem_ops12 7 rfl V,
    rtin_binary mem_ops12 24 rfl V,
    rtin_nullary mem_ops12 23 rfl V,
    rtin_binary mem_ops12 18 rfl V,
    rtin_unary mem_ops12 16 rfl V,
    rtin_nullary mem_ops12 17 rfl V,
    harg1,
    harg2,
    in_nullary mem_ops12 6 rfl V]
  rfl

/-- The result buffer: the reference's normalisation term of the affine map's buffer and the two parameter vectors. -/
theorem R_diag2_bn_term :
    (after ops V (Proc.devRef .tc main_v635) : FVec Ideal (Sh2 5000 128) .f32)
      = refBN reducesTo_S5000x128_S128_d0 h_S_ bcast_S_S128 bcast_S_S1x128 bcast_S128_S1x128_1 bcast_S1x128_S5000x128_0_1 bcast_S_S5000x128
          0x459C4000#32 (after ops V (Proc.devRef .tc main_v530)) (after ops V (Proc.devRef .tc main_v613)) (after ops V (Proc.devRef .tc main_v615)) := by
  have hres : after ops V (Proc.devRef .tc main_v635) = tget main_call18.v1 (after ops V) := rfl
  have harg1 : tget (.of main_v634 : TRef sig ⟨S5000x128, .f32⟩) (after ops V) = after ops V (Proc.devRef .tc main_v634) := rfl
  rw [hres, rtin_binary mem_ops12 47 rfl V,
    rtin_unary mem_ops12 46 rfl V,
    rtin_nullary mem_ops12 45 rfl V,
    harg1,
    in_binary mem_ops12 44 rfl V,
    in_unary mem_ops12 43 rfl V,
    in_unary mem_ops12 42 rfl V,
    in_binary mem_ops12 41 rfl V,
    in_unary mem_ops12 40 rfl V,
    in_unary mem_ops12 39 rfl V,
    in_binary mem_ops12 38 rfl V,
    in_unary mem_ops12 37 rfl V,
    in_unary mem_ops12 36 rfl V,
    in_unary mem_ops12 35 rfl V,
    in_binary mem_ops12 34 rfl V,
    in_unary mem_ops12 33 rfl V,
    in_nullary mem_ops12 32 rfl V,
    in_binary mem_ops12 31 rfl V,
    in_unary mem_ops12 30 rfl V,
    in_unary mem_ops12 29 rfl V,
    R_diag2_mu_term, R_diag2_var_term]
  rfl

/-- The reading at row p, column q. -/
theorem R_diag2_pt (p : Fin 5000) (q : Fin 128) :
    (after ops V (Proc.devRef .tc main_v635) : FVec Ideal (Sh2 5000 128) .f32) (ix2 p q)
      = bnR (((5000 : ℕ) : ℝ) : EReal) ((eps5 : ℝ) : EReal) (1 : Fin 2) (2 : Fin 4)
          (aff (1 : Fin 2) (2 : Fin 6) (after ops V (Proc.devRef .tc main_v522)) (after ops V (Proc.devRef .tc main_v339))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) (ix2 p q) := by
  have hy : coords (after ops V (Proc.devRef .tc main_v530)) = coords (aff (1 : Fin 2) (2 : Fin 6) (after ops V (Proc.devRef .tc main_v522)) (after ops V (Proc.devRef .tc main_v339))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32)) :=
    funext fun p => funext fun q => R_diag2_aff V p q
  have hg : (fun q : Fin 128 => (after ops V (Proc.devRef .tc main_v613) : FVec Ideal T128 .f32) (ix1 q)) = fun q => (after ops V (Proc.devRef .tc main_arg15) : FVec Ideal S2x4x128 .f32) (ix3 (1 : Fin 2) (2 : Fin 4) q) :=
    funext fun q => R_diag2_g V q
  have hb : (fun q : Fin 128 => (after ops V (Proc.devRef .tc main_v615) : FVec Ideal T128 .f32) (ix1 q)) = fun q => (after ops V (Proc.devRef .tc main_arg16) : FVec Ideal S2x4x128 .f32) (ix3 (1 : Fin 2) (2 : Fin 4) q) :=
    funext fun q => R_diag2_beta V q
  rw [R_diag2_bn_term,
    refBN_apply (hred := reduces_diag2) (by decide) 0x459C4000#32 (by rw [ofBits_5000]; norm_num), hy, hg, hb]
  rfl

/-- THE READING of the reference over this branch. -/
theorem R_diag2 :
    (after ops V (Proc.devRef .tc main_v635) : (Sh2 5000 128).Idx → EReal)
      = bnR (((5000 : ℕ) : ℝ) : EReal) ((eps5 : ℝ) : EReal) (1 : Fin 2) (2 : Fin 4)
          (aff (1 : Fin 2) (2 : Fin 6) (after ops V (Proc.devRef .tc main_v522)) (after ops V (Proc.devRef .tc main_v339))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) := by
  refine funext fun (j : (Sh2 5000 128).Idx) => ?_
  obtain ⟨p, q, rfl⟩ : ∃ (p : Fin 5000) (q : Fin 128), j = ix2 p q := ⟨j 0, j 1, eq_ix2 j⟩
  exact R_diag2_pt V p q

end Cert.Val.Lab

end
-- ==== Proof.Val.LabR6.lean ====
/- The reference's medication branch of graph layer 2: the final contents of its result buffer as the normalised form over the affine map
   of the final contents of the mean buffer, the branch's own array and the five parameter arrays. Each operation's
   result is its function of its operands' final contents; the operations' term is then read at an index. -/
import proofs.«424088_j28020366639260_2_alg».proof.Proof.Ref.Typed
import proofs.«424088_j28020366639260_2_alg».proof.Proof.Val.LabTerms

set_option maxRecDepth 8192

noncomputable section

namespace Cert.Val.Lab

open Cert.ReferenceIdeal Cert.ReferenceIdeal.Gen Cert.ReferenceIdeal.Hand
open Idealize.ShloMosaic Idealize.ShloMosaic.TcCoe Idealize.SL.Sem Idealize.ShloMosaic.StableHlo Idealize.ShloMosaic.ValueIdx
open Cert.Lib.ERealArith
open scoped BigOperators

variable (V : Valuation τ sig (Elt Ideal))

/-- The rows are reduced away along the first axis. -/
theorem reduces_med2 : (Sh2 3000 128).Reduces [0] T128 := by decide

/-- The product's dimension numbers are the plain ones: rows by contraction times contraction by columns. -/
theorem dot_med2 : dot_S3000x128_S128x128_S3000x128_1_0_0_1_n_n = DotDims.plain 3000 128 128 := rfl

/-- The affine map's buffer: the reference's affine term of the mean, the branch's array, the two weight matrices cut
    out of the weight arrays, and the bias vector cut out of the bias array. -/
theorem R_med2_aff_term :
    (after ops V (Proc.devRef .tc main_v563) : FVec Ideal (Sh2 3000 128) .f32)
      = refAff dot_S3000x128_S128x128_S3000x128_1_0_0_1_n_n transposes_S128x128_S128x128_1_0 bcast_S128_S1x128_1 bcast_S1x128_S3000x128_0_1
          (after ops V (Proc.devRef .tc main_v555)) (after ops V (Proc.devRef .tc main_v363)) (after ops V (Proc.devRef .tc main_v532)) (after ops V (Proc.devRef .tc main_v536)) (after ops V (Proc.devRef .tc main_v534)) := by
  rw [in_binary mem_ops11 0 rfl V,
    in_binary mem_ops10 59 rfl V,
    in_unary mem_ops10 58 rfl V,
    in_binary mem_ops10 57 rfl V,
    in_unary mem_ops10 56 rfl V,
    in_unary mem_ops10 55 rfl V,
    in_binary mem_ops10 54 rfl V,
    in_unary mem_ops10 53 rfl V]
  rfl

theorem R_med2_wl (a b : Fin 128) :
    (after ops V (Proc.devRef .tc main_v532) : FVec Ideal (Sh2 128 128) .f32) (ix2 a b) = (after ops V (Proc.devRef .tc main_arg12) : FVec Ideal S2x6x128x128 .f32) (ix4 (1 : Fin 2) (4 : Fin 6) a b) := by
  rw [in_reshape mem_ops10 23 rfl V,
    in_unary mem_ops10 22 rfl V]
  exact mat_slice_apply 1 4 (by decide) (by decide) slices_S2x6x128x128_S1x1x128x128_1_4_0_0 shapeCasts_S1x1x128x128_S128x128 _ a b

theorem R_med2_wr (a b : Fin 128) :
    (after ops V (Proc.devRef .tc main_v536) : FVec Ideal (Sh2 128 128) .f32) (ix2 a b) = (after ops V (Proc.devRef .tc main_arg14) : FVec Ideal S2x6x128x128 .f32) (ix4 (1 : Fin 2) (4 : Fin 6) a b) := by
  rw [in_reshape mem_ops10 27 rfl V,
    in_unary mem_ops10 26 rfl V]
  exact mat_slice_apply 1 4 (by decide) (by decide) slices_S2x6x128x128_S1x1x128x128_1_4_0_0 shapeCasts_S1x1x128x128_S128x128 _ a b

theorem R_med2_bl (q : Fin 128) :
    (after ops V (Proc.devRef .tc main_v534) : FVec Ideal T128 .f32) (ix1 q) = (after ops V (Proc.devRef .tc main_arg13) : FVec Ideal S2x6x128 .f32) (ix3 (1 : Fin 2) (4 : Fin 6) q) := by
  rw [in_reshape mem_ops10 25 rfl V,
    in_unary mem_ops10 24 rfl V]
  exact vec_slice_apply 1 4 (by decide) (by decide) slices_S2x6x128_S1x1x128_1_4_0 shapeCasts_S1x1x128_S128 _ q

theorem R_med2_g (q : Fin 128) :
    (after ops V (Proc.devRef .tc main_v637) : FVec Ideal T128 .f32) (ix1 q) = (after ops V (Proc.devRef .tc main_arg15) : FVec Ideal S2x4x128 .f32) (ix3 (1 : Fin 2) (3 : Fin 4) q) := by
  rw [in_reshape mem_ops12 49 rfl V,
    in_unary mem_ops12 48 rfl V]
  exact vec_slice_apply 1 3 (by decide) (by decide) slices_S2x4x128_S1x1x128_1_3_0 shapeCasts_S1x1x128_S128 _ q

theorem R_med2_beta (q : Fin 128) :
    (after ops V (Proc.devRef .tc main_v639) : FVec Ideal T128 .f32) (ix1 q) = (after ops V (Proc.devRef .tc main_arg16) : FVec Ideal S2x4x128 .f32) (ix3 (1 : Fin 2) (3 : Fin 4) q) := by
  rw [in_reshape mem_ops12 51 rfl V,
    in_unary mem_ops12 50 rfl V]
  exact vec_slice_apply 1 3 (by decide) (by decide) slices_S2x4x128_S1x1x128_1_3_0 shapeCasts_S1x1x128_S128 _ q

/-- The affine map's buffer by coordinates. -/
theorem R_med2_aff (p : Fin 3000) (q : Fin 128) :
    (after ops V (Proc.devRef .tc main_v563) : FVec Ideal (Sh2 3000 128) .f32) (ix2 p q)
      = affC (1 : Fin 2) (4 : Fin 6) (coords (after ops V (Proc.devRef .tc main_v555))) (coords (after ops V (Proc.devRef .tc main_v363)))
          (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32) p q := by
  refine (congrFun (R_med2_aff_term V) (ix2 p q)).trans ?_
  refine (refAff_apply (htr := transposes_S128x128_S128x128_1_0) (hb1 := bcast_S128_S1x128_1) (hb2 := bcast_S1x128_S3000x128_0_1) dot_med2
    (after ops V (Proc.devRef .tc main_v555)) (after ops V (Proc.devRef .tc main_v363)) (after ops V (Proc.devRef .tc main_v532)) (after ops V (Proc.devRef .tc main_v536)) (after ops V (Proc.devRef .tc main_v534)) p q).trans ?_
  unfold affC coords
  rw [R_med2_bl]
  refine congrArg₂ (· + ·) (congrArg₂ (· + ·) rfl (Finset.sum_congr rfl fun k _ => ?_)) (Finset.sum_congr rfl fun k _ => ?_)
  · rw [R_med2_wl]
  · rw [R_med2_wr]

/-- The column mean's buffer: the column sums onto a zero, over the row count. -/
theorem R_med2_mu_term :
    (after ops V (Proc.devRef .tc main_v642) : FVec Ideal T128 .f32)
      = Host.divf (Host.reduceAdd (after ops V (Proc.devRef .tc main_v563) : FVec Ideal (Sh2 3000 128) .f32) (constant (F := Ideal) T0 .f32 0x00000000#32) reducesTo_S3000x128_S128_d0 h_S_)
          (broadcastInDim T128 ![] bcast_S_S128 (constant (F := Ideal) T0 .f32 0x453B8000#32)) := by
  rw [in_binary mem_ops12 56 rfl V,
    in_unary mem_ops12 55 rfl V,
    in_nullary mem_ops12 54 rfl V,
    in_binary mem_ops12 53 rfl V,
    in_nullary mem_ops12 52 rfl V]

/-- The variance's buffer: the reference's variance term of the affine map's buffer. The variance function's operations
    are read at the types their references carry; a transport is met only at the call's argument and result. -/
theorem R_med2_var_term :
    (after ops V (Proc.devRef .tc main_v643) : FVec Ideal T128 .f32)
      = refVar reducesTo_S3000x128_S128_d0 h_S_ bcast_S_S128 bcast_S_S1x128 bcast_S128_S1x128_1 bcast_S1x128_S3000x128_0_1
          0x453B8000#32 (after ops V (Proc.devRef .tc main_v563) : FVec Ideal (Sh2 3000 128) .f32) := by
  have hres : after ops V (Proc.devRef .tc main_v643) = tget main_call19.call0.v2 (after ops V) := rfl
  have harg1 : tget (.of main_v563 : TRef sig ⟨S3000x128, .f32⟩) (after ops V) = after ops V (Proc.devRef .tc main_v563) := rfl
  have harg2 : tget (.of main_c_109 : TRef sig ⟨S_, .i32⟩) (after ops V) = after ops V (Proc.devRef .tc main_c_109) := rfl
  rw [hres, rtin_ternary mem_ops12 79 rfl V,
    rtin_unary mem_ops12 78 rfl V,
    rtin_unary mem_ops12 77 rfl V,
    rtin_nullary mem_ops12 76 rfl V,
    rtin_binary mem_ops12 73 rfl V,
    rtin_unary mem_ops12 72 rfl V,
    rtin_binary mem_ops12 71 rfl V,
    rtin_nullary mem_ops12 70 rfl V,
    rtin_binary mem_ops12 66 rfl V,
    rtin_binary mem_ops12 65 rfl V,
    rtin_unary mem_ops12 64 rfl V,
    rtin_binary mem_ops12 63 rfl V,
    rtin_unary mem_ops12 62 rfl V,
    rtin_nullary mem_ops12 61 rfl V,
    rtin_unary mem_ops12 60 rfl V,
    rtin_binary mem_ops12 59 rfl V,
    rtin_nullary mem_ops12 58 rfl V,
    rtin_binary mem_ops12 75 rfl V,
    rtin_nullary mem_ops12 74 rfl V,
    rtin_binary mem_ops12 69 rfl V,
    rtin_unary mem_ops12 67 rfl V,
    rtin_nullary mem_ops12 68 rfl V,
    harg1,
    harg2,
    in_nullary mem_ops12 57 rfl V]
  rfl

/-- The result buffer: the reference's normalisation term of the affine map's buffer and the two parameter vectors. -/
theorem R_med2_bn_term :
    (after ops V (Proc.devRef .tc main_v659) : FVec Ideal (Sh2 3000 128) .f32)
      = refBN reducesTo_S3000x128_S128_d0 h_S_ bcast_S_S128 bcast_S_S1x128 bcast_S128_S1x128_1 bcast_S1x128_S3000x128_0_1 bcast_S_S3000x128
          0x453B8000#32 (after ops V (Proc.devRef .tc main_v563)) (after ops V (Proc.devRef .tc main_v637)) (after ops V (Proc.devRef .tc main_v639)) := by
  have hres : after ops V (Proc.devRef .tc main_v659) = tget main_call20.v1 (after ops V) := rfl
  have harg1 : tget (.of main_v658 : TRef sig ⟨S3000x128, .f32⟩) (after ops V) = after ops V (Proc.devRef .tc main_v658) := rfl
  rw [hres, rtin_binary mem_ops12 98 rfl V,
    rtin_unary mem_ops12 97 rfl V,
    rtin_nullary mem_ops12 96 rfl V,
    harg1,
    in_binary mem_ops12 95 rfl V,
    in_unary mem_ops12 94 rfl V,
    in_unary mem_ops12 93 rfl V,
    in_binary mem_ops12 92 rfl V,
    in_unary mem_ops12 91 rfl V,
    in_unary mem_ops12 90 rfl V,
    in_binary mem_ops12 89 rfl V,
    in_unary mem_ops12 88 rfl V,
    in_unary mem_ops12 87 rfl V,
    in_unary mem_ops12 86 rfl V,
    in_binary mem_ops12 85 rfl V,
    in_unary mem_ops12 84 rfl V,
    in_nullary mem_ops12 83 rfl V,
    in_binary mem_ops12 82 rfl V,
    in_unary mem_ops12 81 rfl V,
    in_unary mem_ops12 80 rfl V,
    R_med2_mu_term, R_med2_var_term]
  rfl

/-- The reading at row p, column q. -/
theorem R_med2_pt (p : Fin 3000) (q : Fin 128) :
    (after ops V (Proc.devRef .tc main_v659) : FVec Ideal (Sh2 3000 128) .f32) (ix2 p q)
      = bnR (((3000 : ℕ) : ℝ) : EReal) ((eps5 : ℝ) : EReal) (1 : Fin 2) (3 : Fin 4)
          (aff (1 : Fin 2) (4 : Fin 6) (after ops V (Proc.devRef .tc main_v555)) (after ops V (Proc.devRef .tc main_v363))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) (ix2 p q) := by
  have hy : coords (after ops V (Proc.devRef .tc main_v563)) = coords (aff (1 : Fin 2) (4 : Fin 6) (after ops V (Proc.devRef .tc main_v555)) (after ops V (Proc.devRef .tc main_v363))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32)) :=
    funext fun p => funext fun q => R_med2_aff V p q
  have hg : (fun q : Fin 128 => (after ops V (Proc.devRef .tc main_v637) : FVec Ideal T128 .f32) (ix1 q)) = fun q => (after ops V (Proc.devRef .tc main_arg15) : FVec Ideal S2x4x128 .f32) (ix3 (1 : Fin 2) (3 : Fin 4) q) :=
    funext fun q => R_med2_g V q
  have hb : (fun q : Fin 128 => (after ops V (Proc.devRef .tc main_v639) : FVec Ideal T128 .f32) (ix1 q)) = fun q => (after ops V (Proc.devRef .tc main_arg16) : FVec Ideal S2x4x128 .f32) (ix3 (1 : Fin 2) (3 : Fin 4) q) :=
    funext fun q => R_med2_beta V q
  rw [R_med2_bn_term,
    refBN_apply (hred := reduces_med2) (by decide) 0x453B8000#32 (by rw [ofBits_3000]; norm_num), hy, hg, hb]
  rfl

/-- THE READING of the reference over this branch. -/
theorem R_med2 :
    (after ops V (Proc.devRef .tc main_v659) : (Sh2 3000 128).Idx → EReal)
      = bnR (((3000 : ℕ) : ℝ) : EReal) ((eps5 : ℝ) : EReal) (1 : Fin 2) (3 : Fin 4)
          (aff (1 : Fin 2) (4 : Fin 6) (after ops V (Proc.devRef .tc main_v555)) (after ops V (Proc.devRef .tc main_v363))
            (after ops V (Proc.devRef .tc main_arg12) : FVec Ideal S2x6x128x128 .f32) (after ops V (Proc.devRef .tc main_arg14) : FVec Ideal S2x6x128x128 .f32) (after ops V (Proc.devRef .tc main_arg13) : FVec Ideal S2x6x128 .f32))
          (after ops V (Proc.devRef .tc main_arg15) : FVec Ideal S2x4x128 .f32) (after ops V (Proc.devRef .tc main_arg16) : FVec Ideal S2x4x128 .f32) := by
  refine funext fun (j : (Sh2 3000 128).Idx) => ?_
  obtain ⟨p, q, rfl⟩ : ∃ (p : Fin 3000) (q : Fin 128), j = ix2 p q := ⟨j 0, j 1, eq_ix2 j⟩
  exact R_med2_pt V p q

end Cert.Val.Lab

end
-- ==== Proof.Val.LabLink.lean ====
/- One branch of one graph layer, the two programs joined: if the mean, the branch's own array and the five parameter
   arrays agree on the two sides and are real, the kernel program's result buffer holds the reference's, and it is real. -/
import proofs.«424088_j28020366639260_2_alg».proof.Proof.Val.LabK1
import proofs.«424088_j28020366639260_2_alg».proof.Proof.Val.LabK2
import proofs.«424088_j28020366639260_2_alg».proof.Proof.Val.LabK3
import proofs.«424088_j28020366639260_2_alg».proof.Proof.Val.LabK4
import proofs.«424088_j28020366639260_2_alg».proof.Proof.Val.LabK5
import proofs.«424088_j28020366639260_2_alg».proof.Proof.Val.LabK6
import proofs.«424088_j28020366639260_2_alg».proof.Proof.Val.LabR1
import proofs.«424088_j28020366639260_2_alg».proof.Proof.Val.LabR2
import proofs.«424088_j28020366639260_2_alg».proof.Proof.Val.LabR3
import proofs.«424088_j28020366639260_2_alg».proof.Proof.Val.LabR4
import proofs.«424088_j28020366639260_2_alg».proof.Proof.Val.LabR5
import proofs.«424088_j28020366639260_2_alg».proof.Proof.Val.LabR6

noncomputable section

namespace Cert.Val

open Idealize.ShloMosaic Idealize.ShloMosaic.StableHlo Idealize.SL.Sem Cert.Val.Lab Cert.Lib.ERealArith

/-- The lab branch of graph layer 1. -/
theorem link_main_v255 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_mean : (Cert.KernelIdeal.Hand.W11 m g c (Proc.devRef .tc Cert.KernelIdeal.main_v149) : (Sh2 2000 128).Idx → EReal) = (after Cert.ReferenceIdeal.Hand.ops V (Proc.devRef .tc Cert.ReferenceIdeal.main_v193)))
    (r_mean : ∀ i, ∃ r : ℝ, (after Cert.ReferenceIdeal.Hand.ops V (Proc.devRef .tc Cert.ReferenceIdeal.main_v193) : (Sh2 2000 128).Idx → EReal) i = (r : EReal))
    (e_x : (Cert.KernelIdeal.Hand.W11 m g c (Proc.devRef .tc Cert.KernelIdeal.main_arg1) : (Sh2 2000 128).Idx → EReal) = (after Cert.ReferenceIdeal.Hand.ops V (Proc.devRef .tc Cert.ReferenceIdeal.main_arg1)))
    (r_x : ∀ i, ∃ r : ℝ, (after Cert.ReferenceIdeal.Hand.ops V (Proc.devRef .tc Cert.ReferenceIdeal.main_arg1) : (Sh2 2000 128).Idx → EReal) i = (r : EReal))
    (e_arg12 : (Cert.KernelIdeal.Hand.W11 m g c (Proc.devRef .tc Cert.KernelIdeal.main_arg12) : (⟨4, ![2, 6, 128, 128]⟩ : Shape).Idx → EReal) = (after Cert.ReferenceIdeal.Hand.ops V (Proc.devRef .tc Cert.ReferenceIdeal.main_arg12)))
    (r_arg12 : ∀ i, ∃ r : ℝ, (after Cert.ReferenceIdeal.Hand.ops V (Proc.devRef .tc Cert.ReferenceIdeal.main_arg12) : (⟨4, ![2, 6, 128, 128]⟩ : Shape).Idx → EReal) i = (r : EReal))
    (e_arg14 : (Cert.KernelIdeal.Hand.W11 m g c (Proc.devRef .tc Cert.KernelIdeal.main_arg14) : (⟨4, ![2, 6, 128, 128]⟩ : Shape).Idx → EReal) = (after Cert.ReferenceIdeal.Hand.ops V (Proc.devRef .tc Cert.ReferenceIdeal.main_arg14)))
    (r_arg14 : ∀ i, ∃ r : ℝ, (after Cert.ReferenceIdeal.Hand.ops V (Proc.devRef .tc Cert.ReferenceIdeal.main_arg14) : (⟨4, ![2, 6, 128, 128]⟩ : Shape).Idx → EReal) i = (r : EReal))
    (e_arg13 : (Cert.KernelIdeal.Hand.W11 m g c (Proc.devRef .tc Cert.KernelIdeal.main_arg13) : (⟨3, ![2, 6, 128]⟩ : Shape).Idx → EReal) = (after Cert.ReferenceIdeal.Hand.ops V (Proc.devRef .tc Cert.ReferenceIdeal.main_arg13)))
    (r_arg13 : ∀ i, ∃ r : ℝ, (after Cert.ReferenceIdeal.Hand.ops V (Proc.devRef .tc Cert.ReferenceIdeal.main_arg13) : (⟨3, ![2, 6, 128]⟩ : Shape).Idx → EReal) i = (r : EReal))
    (e_arg15 : (Cert.KernelIdeal.Hand.W11 m g c (Proc.devRef .tc Cert.KernelIdeal.main_arg15) : (⟨3, ![2, 4, 128]⟩ : Shape).Idx → EReal) = (after Cert.ReferenceIdeal.Hand.ops V (Proc.devRef .tc Cert.ReferenceIdeal.main_arg15)))
    (r_arg15 : ∀ i, ∃ r : ℝ, (after Cert.ReferenceIdeal.Hand.ops V (Proc.devRef .tc Cert.ReferenceIdeal.main_arg15) : (⟨3, ![2, 4, 128]⟩ : Shape).Idx → EReal) i = (r : EReal))
    (e_arg16 : (Cert.KernelIdeal.Hand.W11 m g c (Proc.devRef .tc Cert.KernelIdeal.main_arg16) : (⟨3, ![2, 4, 128]⟩ : Shape).Idx → EReal) = (after Cert.ReferenceIdeal.Hand.ops V (Proc.devRef .tc Cert.ReferenceIdeal.main_arg16)))
    (r_arg16 : ∀ i, ∃ r : ℝ, (after Cert.ReferenceIdeal.Hand.ops V (Proc.devRef .tc Cert.ReferenceIdeal.main_arg16) : (⟨3, ![2, 4, 128]⟩ : Shape).Idx → EReal) i = (r : EReal))
    : (Cert.KernelIdeal.Hand.W15 m g c (Proc.devRef .tc Cert.KernelIdeal.main_v255) : (Sh2 2000 128).Idx → EReal) = (after Cert.ReferenceIdeal.Hand.ops V (Proc.devRef .tc Cert.ReferenceIdeal.main_v315))
      ∧ ∀ i, ∃ r : ℝ, (after Cert.ReferenceIdeal.Hand.ops V (Proc.devRef .tc Cert.ReferenceIdeal.main_v315) : (Sh2 2000 128).Idx → EReal) i = (r : EReal) := by
  have hb := branch_eq (n := 2000) (by decide) eps5 eps5_pos (0 : Fin 2) (0 : Fin 6) (1 : Fin 4) _ _ _ _ _ _ _ r_mean r_x r_arg12 r_arg14 r_arg13 r_arg15 r_arg16
  rw [K_lab1 m g c, R_lab1 V, e_mean, e_x, e_arg12, e_arg14, e_arg13, e_arg15, e_arg16]
  exact ⟨hb.1, fun i => hb.1 ▸ hb.2 i⟩

/-- The diagnosis branch of graph layer 1. -/
theorem link_main_v286 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_mean : (Cert.KernelIdeal.Hand.W15 m g c (Proc.devRef .tc Cert.KernelIdeal.main_v162) : (Sh2 5000 128).Idx → EReal) = (after Cert.ReferenceIdeal.Hand.ops V (Proc.devRef .tc Cert.ReferenceIdeal.main_v226)))
    (r_mean : ∀ i, ∃ r : ℝ, (after Cert.ReferenceIdeal.Hand.ops V (Proc.devRef .tc Cert.ReferenceIdeal.main_v226) : (Sh2 5000 128).Idx → EReal) i = (r : EReal))
    (e_x : (Cert.KernelIdeal.Hand.W15 m g c (Proc.devRef .tc Cert.KernelIdeal.main_arg2) : (Sh2 5000 128).Idx → EReal) = (after Cert.ReferenceIdeal.Hand.ops V (Proc.devRef .tc Cert.ReferenceIdeal.main_arg2)))
    (r_x : ∀ i, ∃ r : ℝ, (after Cert.ReferenceIdeal.Hand.ops V (Proc.devRef .tc Cert.ReferenceIdeal.main_arg2) : (Sh2 5000 128).Idx → EReal) i = (r : EReal))
    (e_arg12 : (Cert.KernelIdeal.Hand.W15 m g c (Proc.devRef .tc Cert.KernelIdeal.main_arg12) : (⟨4, ![2, 6, 128, 128]⟩ : Shape).Idx → EReal) = (after Cert.ReferenceIdeal.Hand.ops V (Proc.devRef .tc Cert.ReferenceIdeal.main_arg12)))
    (r_arg12 : ∀ i, ∃ r : ℝ, (after Cert.ReferenceIdeal.Hand.ops V (Proc.devRef .tc Cert.ReferenceIdeal.main_arg12) : (⟨4, ![2, 6, 128, 128]⟩ : Shape).Idx → EReal) i = (r : EReal))
    (e_arg14 : (Cert.KernelIdeal.Hand.W15 m g c (Proc.devRef .tc Cert.KernelIdeal.main_arg14) : (⟨4, ![2, 6, 128, 128]⟩ : Shape).Idx → EReal) = (after Cert.ReferenceIdeal.Hand.ops V (Proc.devRef .tc Cert.ReferenceIdeal.main_arg14)))
    (r_arg14 : ∀ i, ∃ r : ℝ, (after Cert.ReferenceIdeal.Hand.ops V (Proc.devRef .tc Cert.ReferenceIdeal.main_arg14) : (⟨4, ![2, 6, 128, 128]⟩ : Shape).Idx → EReal) i = (r : EReal))
    (e_arg13 : (Cert.KernelIdeal.Hand.W15 m g c (Proc.devRef .tc Cert.KernelIdeal.main_arg13) : (⟨3, ![2, 6, 128]⟩ : Shape).Idx → EReal) = (after Cert.ReferenceIdeal.Hand.ops V (Proc.devRef .tc Cert.ReferenceIdeal.main_arg13)))
    (r_arg13 : ∀ i, ∃ r : ℝ, (after Cert.ReferenceIdeal.Hand.ops V (Proc.devRef .tc Cert.ReferenceIdeal.main_arg13) : (⟨3, ![2, 6, 128]⟩ : Shape).Idx → EReal) i = (r : EReal))
    (e_arg15 : (Cert.KernelIdeal.Hand.W15 m g c (Proc.devRef .tc Cert.KernelIdeal.main_arg15) : (⟨3, ![2, 4, 128]⟩ : Shape).Idx → EReal) = (after Cert.ReferenceIdeal.Hand.ops V (Proc.devRef .tc Cert.ReferenceIdeal.main_arg15)))
    (r_arg15 : ∀ i, ∃ r : ℝ, (after Cert.ReferenceIdeal.Hand.ops V (Proc.devRef .tc Cert.ReferenceIdeal.main_arg15) : (⟨3, ![2, 4, 128]⟩ : Shape).Idx → EReal) i = (r : EReal))
    (e_arg16 : (Cert.KernelIdeal.Hand.W15 m g c (Proc.devRef .tc Cert.KernelIdeal.main_arg16) : (⟨3, ![2, 4, 128]⟩ : Shape).Idx → EReal) = (after Cert.ReferenceIdeal.Hand.ops V (Proc.devRef .tc Cert.ReferenceIdeal.main_arg16)))
    (r_arg16 : ∀ i, ∃ r : ℝ, (after Cert.ReferenceIdeal.Hand.ops V (Proc.devRef .tc Cert.ReferenceIdeal.main_arg16) : (⟨3, ![2, 4, 128]⟩ : Shape).Idx → EReal) i = (r : EReal))
    : (Cert.KernelIdeal.Hand.W19 m g c (Proc.devRef .tc Cert.KernelIdeal.main_v286) : (Sh2 5000 128).Idx → EReal) = (after Cert.ReferenceIdeal.Hand.ops V (Proc.devRef .tc Cert.ReferenceIdeal.main_v339))
      ∧ ∀ i, ∃ r : ℝ, (after Cert.ReferenceIdeal.Hand.ops V (Proc.devRef .tc Cert.ReferenceIdeal.main_v339) : (Sh2 5000 128).Idx → EReal) i = (r : EReal) := by
  have hb := branch_eq (n := 5000) (by decide) eps5 eps5_pos (0 : Fin 2) (2 : Fin 6) (2 : Fin 4) _ _ _ _ _ _ _ r_mean r_x r_arg12 r_arg14 r_arg13 r_arg15 r_arg16
  rw [K_diag1 m g c, R_diag1 V, e_mean, e_x, e_arg12, e_arg14, e_arg13, e_arg15, e_arg16]
  exact ⟨hb.1, fun i => hb.1 ▸ hb.2 i⟩

/-- The medication branch of graph layer 1. -/
theorem link_main_v317 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_mean : (Cert.KernelIdeal.Hand.W19 m g c (Proc.devRef .tc Cert.KernelIdeal.main_v175) : (Sh2 3000 128).Idx → EReal) = (after Cert.ReferenceIdeal.Hand.ops V (Proc.devRef .tc Cert.ReferenceIdeal.main_v259)))
    (r_mean : ∀ i, ∃ r : ℝ, (after Cert.ReferenceIdeal.Hand.ops V (Proc.devRef .tc Cert.ReferenceIdeal.main_v259) : (Sh2 3000 128).Idx → EReal) i = (r : EReal))
    (e_x : (Cert.KernelIdeal.Hand.W19 m g c (Proc.devRef .tc Cert.KernelIdeal.main_arg3) : (Sh2 3000 128).Idx → EReal) = (after Cert.ReferenceIdeal.Hand.ops V (Proc.devRef .tc Cert.ReferenceIdeal.main_arg3)))
    (r_x : ∀ i, ∃ r : ℝ, (after Cert.ReferenceIdeal.Hand.ops V (Proc.devRef .tc Cert.ReferenceIdeal.main_arg3) : (Sh2 3000 128).Idx → EReal) i = (r : EReal))
    (e_arg12 : (Cert.KernelIdeal.Hand.W19 m g c (Proc.devRef .tc Cert.KernelIdeal.main_arg12) : (⟨4, ![2, 6, 128, 128]⟩ : Shape).Idx → EReal) = (after Cert.ReferenceIdeal.Hand.ops V (Proc.devRef .tc Cert.ReferenceIdeal.main_arg12)))
    (r_arg12 : ∀ i, ∃ r : ℝ, (after Cert.ReferenceIdeal.Hand.ops V (Proc.devRef .tc Cert.ReferenceIdeal.main_arg12) : (⟨4, ![2, 6, 128, 128]⟩ : Shape).Idx → EReal) i = (r : EReal))
    (e_arg14 : (Cert.KernelIdeal.Hand.W19 m g c (Proc.devRef .tc Cert.KernelIdeal.main_arg14) : (⟨4, ![2, 6, 128, 128]⟩ : Shape).Idx → EReal) = (after Cert.ReferenceIdeal.Hand.ops V (Proc.devRef .tc Cert.ReferenceIdeal.main_arg14)))
    (r_arg14 : ∀ i, ∃ r : ℝ, (after Cert.ReferenceIdeal.Hand.ops V (Proc.devRef .tc Cert.ReferenceIdeal.main_arg14) : (⟨4, ![2, 6, 128, 128]⟩ : Shape).Idx → EReal) i = (r : EReal))
    (e_arg13 : (Cert.KernelIdeal.Hand.W19 m g c (Proc.devRef .tc Cert.KernelIdeal.main_arg13) : (⟨3, ![2, 6, 128]⟩ : Shape).Idx → EReal) = (after Cert.ReferenceIdeal.Hand.ops V (Proc.devRef .tc Cert.ReferenceIdeal.main_arg13)))
    (r_arg13 : ∀ i, ∃ r : ℝ, (after Cert.ReferenceIdeal.Hand.ops V (Proc.devRef .tc Cert.ReferenceIdeal.main_arg13) : (⟨3, ![2, 6, 128]⟩ : Shape).Idx → EReal) i = (r : EReal))
    (e_arg15 : (Cert.KernelIdeal.Hand.W19 m g c (Proc.devRef .tc Cert.KernelIdeal.main_arg15) : (⟨3, ![2, 4, 128]⟩ : Shape).Idx → EReal) = (after Cert.ReferenceIdeal.Hand.ops V (Proc.devRef .tc Cert.ReferenceIdeal.main_arg15)))
    (r_arg15 : ∀ i, ∃ r : ℝ, (after Cert.ReferenceIdeal.Hand.ops V (Proc.devRef .tc Cert.ReferenceIdeal.main_arg15) : (⟨3, ![2, 4, 128]⟩ : Shape).Idx → EReal) i = (r : EReal))
    (e_arg16 : (Cert.KernelIdeal.Hand.W19 m g c (Proc.devRef .tc Cert.KernelIdeal.main_arg16) : (⟨3, ![2, 4, 128]⟩ : Shape).Idx → EReal) = (after Cert.ReferenceIdeal.Hand.ops V (Proc.devRef .tc Cert.ReferenceIdeal.main_arg16)))
    (r_arg16 : ∀ i, ∃ r : ℝ, (after Cert.ReferenceIdeal.Hand.ops V (Proc.devRef .tc Cert.ReferenceIdeal.main_arg16) : (⟨3, ![2, 4, 128]⟩ : Shape).Idx → EReal) i = (r : EReal))
    : (Cert.KernelIdeal.Hand.W23 m g c (Proc.devRef .tc Cert.KernelIdeal.main_v317) : (Sh2 3000 128).Idx → EReal) = (after Cert.ReferenceIdeal.Hand.ops V (Proc.devRef .tc Cert.ReferenceIdeal.main_v363))
      ∧ ∀ i, ∃ r : ℝ, (after Cert.ReferenceIdeal.Hand.ops V (Proc.devRef .tc Cert.ReferenceIdeal.main_v363) : (Sh2 3000 128).Idx → EReal) i = (r : EReal) := by
  have hb := branch_eq (n := 3000) (by decide) eps5 eps5_pos (0 : Fin 2) (4 : Fin 6) (3 : Fin 4) _ _ _ _ _ _ _ r_mean r_x r_arg12 r_arg14 r_arg13 r_arg15 r_arg16
  rw [K_med1 m g c, R_med1 V, e_mean, e_x, e_arg12, e_arg14, e_arg13, e_arg15, e_arg16]
  exact ⟨hb.1, fun i => hb.1 ▸ hb.2 i⟩

/-- The lab branch of graph layer 2. -/
theorem link_main_v475 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_mean : (Cert.KernelIdeal.Hand.W27 m g c (Proc.devRef .tc Cert.KernelIdeal.main_v369) : (Sh2 2000 128).Idx → EReal) = (after Cert.ReferenceIdeal.Hand.ops V (Proc.devRef .tc Cert.ReferenceIdeal.main_v489)))
    (r_mean : ∀ i, ∃ r : ℝ, (after Cert.ReferenceIdeal.Hand.ops V (Proc.devRef .tc Cert.ReferenceIdeal.main_v489) : (Sh2 2000 128).Idx → EReal) i = (r : EReal))
    (e_x : (Cert.KernelIdeal.Hand.W27 m g c (Proc.devRef .tc Cert.KernelIdeal.main_v255) : (Sh2 2000 128).Idx → EReal) = (after Cert.ReferenceIdeal.Hand.ops V (Proc.devRef .tc Cert.ReferenceIdeal.main_v315)))
    (r_x : ∀ i, ∃ r : ℝ, (after Cert.ReferenceIdeal.Hand.ops V (Proc.devRef .tc Cert.ReferenceIdeal.main_v315) : (Sh2 2000 128).Idx → EReal) i = (r : EReal))
    (e_arg12 : (Cert.KernelIdeal.Hand.W27 m g c (Proc.devRef .tc Cert.KernelIdeal.main_arg12) : (⟨4, ![2, 6, 128, 128]⟩ : Shape).Idx → EReal) = (after Cert.ReferenceIdeal.Hand.ops V (Proc.devRef .tc Cert.ReferenceIdeal.main_arg12)))
    (r_arg12 : ∀ i, ∃ r : ℝ, (after Cert.ReferenceIdeal.Hand.ops V (Proc.devRef .tc Cert.ReferenceIdeal.main_arg12) : (⟨4, ![2, 6, 128, 128]⟩ : Shape).Idx → EReal) i = (r : EReal))
    (e_arg14 : (Cert.KernelIdeal.Hand.W27 m g c (Proc.devRef .tc Cert.KernelIdeal.main_arg14) : (⟨4, ![2, 6, 128, 128]⟩ : Shape).Idx → EReal) = (after Cert.ReferenceIdeal.Hand.ops V (Proc.devRef .tc Cert.ReferenceIdeal.main_arg14)))
    (r_arg14 : ∀ i, ∃ r : ℝ, (after Cert.ReferenceIdeal.Hand.ops V (Proc.devRef .tc Cert.ReferenceIdeal.main_arg14) : (⟨4, ![2, 6, 128, 128]⟩ : Shape).Idx → EReal) i = (r : EReal))
    (e_arg13 : (Cert.KernelIdeal.Hand.W27 m g c (Proc.devRef .tc Cert.KernelIdeal.main_arg13) : (⟨3, ![2, 6, 128]⟩ : Shape).Idx → EReal) = (after Cert.ReferenceIdeal.Hand.ops V (Proc.devRef .tc Cert.ReferenceIdeal.main_arg13)))
    (r_arg13 : ∀ i, ∃ r : ℝ, (after Cert.ReferenceIdeal.Hand.ops V (Proc.devRef .tc Cert.ReferenceIdeal.main_arg13) : (⟨3, ![2, 6, 128]⟩ : Shape).Idx → EReal) i = (r : EReal))
    (e_arg15 : (Cert.KernelIdeal.Hand.W27 m g c (Proc.devRef .tc Cert.KernelIdeal.main_arg15) : (⟨3, ![2, 4, 128]⟩ : Shape).Idx → EReal) = (after Cert.ReferenceIdeal.Hand.ops V (Proc.devRef .tc Cert.ReferenceIdeal.main_arg15)))
    (r_arg15 : ∀ i, ∃ r : ℝ, (after Cert.ReferenceIdeal.Hand.ops V (Proc.devRef .tc Cert.ReferenceIdeal.main_arg15) : (⟨3, ![2, 4, 128]⟩ : Shape).Idx → EReal) i = (r : EReal))
    (e_arg16 : (Cert.KernelIdeal.Hand.W27 m g c (Proc.devRef .tc Cert.KernelIdeal.main_arg16) : (⟨3, ![2, 4, 128]⟩ : Shape).Idx → EReal) = (after Cert.ReferenceIdeal.Hand.ops V (Proc.devRef .tc Cert.ReferenceIdeal.main_arg16)))
    (r_arg16 : ∀ i, ∃ r : ℝ, (after Cert.ReferenceIdeal.Hand.ops V (Proc.devRef .tc Cert.ReferenceIdeal.main_arg16) : (⟨3, ![2, 4, 128]⟩ : Shape).Idx → EReal) i = (r : EReal))
    : (Cert.KernelIdeal.Hand.W31 m g c (Proc.devRef .tc Cert.KernelIdeal.main_v475) : (Sh2 2000 128).Idx → EReal) = (after Cert.ReferenceIdeal.Hand.ops V (Proc.devRef .tc Cert.ReferenceIdeal.main_v611))
      ∧ ∀ i, ∃ r : ℝ, (after Cert.ReferenceIdeal.Hand.ops V (Proc.devRef .tc Cert.ReferenceIdeal.main_v611) : (Sh2 2000 128).Idx → EReal) i = (r : EReal) := by
  have hb := branch_eq (n := 2000) (by decide) eps5 eps5_pos (1 : Fin 2) (0 : Fin 6) (1 : Fin 4) _ _ _ _ _ _ _ r_mean r_x r_arg12 r_arg14 r_arg13 r_arg15 r_arg16
  rw [K_lab2 m g c, R_lab2 V, e_mean, e_x, e_arg12, e_arg14, e_arg13, e_arg15, e_arg16]
  exact ⟨hb.1, fun i => hb.1 ▸ hb.2 i⟩

/-- The diagnosis branch of graph layer 2. -/
theorem link_main_v506 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_mean : (Cert.KernelIdeal.Hand.W31 m g c (Proc.devRef .tc Cert.KernelIdeal.main_v382) : (Sh2 5000 128).Idx → EReal) = (after Cert.ReferenceIdeal.Hand.ops V (Proc.devRef .tc Cert.ReferenceIdeal.main_v522)))
    (r_mean : ∀ i, ∃ r : ℝ, (after Cert.ReferenceIdeal.Hand.ops V (Proc.devRef .tc Cert.ReferenceIdeal.main_v522) : (Sh2 5000 128).Idx → EReal) i = (r : EReal))
    (e_x : (Cert.KernelIdeal.Hand.W31 m g c (Proc.devRef .tc Cert.KernelIdeal.main_v286) : (Sh2 5000 128).Idx → EReal) = (after Cert.ReferenceIdeal.Hand.ops V (Proc.devRef .tc Cert.ReferenceIdeal.main_v339)))
    (r_x : ∀ i, ∃ r : ℝ, (after Cert.ReferenceIdeal.Hand.ops V (Proc.devRef .tc Cert.ReferenceIdeal.main_v339) : (Sh2 5000 128).Idx → EReal) i = (r : EReal))
    (e_arg12 : (Cert.KernelIdeal.Hand.W31 m g c (Proc.devRef .tc Cert.KernelIdeal.main_arg12) : (⟨4, ![2, 6, 128, 128]⟩ : Shape).Idx → EReal) = (after Cert.ReferenceIdeal.Hand.ops V (Proc.devRef .tc Cert.ReferenceIdeal.main_arg12)))
    (r_arg12 : ∀ i, ∃ r : ℝ, (after Cert.ReferenceIdeal.Hand.ops V (Proc.devRef .tc Cert.ReferenceIdeal.main_arg12) : (⟨4, ![2, 6, 128, 128]⟩ : Shape).Idx → EReal) i = (r : EReal))
    (e_arg14 : (Cert.KernelIdeal.Hand.W31 m g c (Proc.devRef .tc Cert.KernelIdeal.main_arg14) : (⟨4, ![2, 6, 128, 128]⟩ : Shape).Idx → EReal) = (after Cert.ReferenceIdeal.Hand.ops V (Proc.devRef .tc Cert.ReferenceIdeal.main_arg14)))
    (r_arg14 : ∀ i, ∃ r : ℝ, (after Cert.ReferenceIdeal.Hand.ops V (Proc.devRef .tc Cert.ReferenceIdeal.main_arg14) : (⟨4, ![2, 6, 128, 128]⟩ : Shape).Idx → EReal) i = (r : EReal))
    (e_arg13 : (Cert.KernelIdeal.Hand.W31 m g c (Proc.devRef .tc Cert.KernelIdeal.main_arg13) : (⟨3, ![2, 6, 128]⟩ : Shape).Idx → EReal) = (after Cert.ReferenceIdeal.Hand.ops V (Proc.devRef .tc Cert.ReferenceIdeal.main_arg13)))
    (r_arg13 : ∀ i, ∃ r : ℝ, (after Cert.ReferenceIdeal.Hand.ops V (Proc.devRef .tc Cert.ReferenceIdeal.main_arg13) : (⟨3, ![2, 6, 128]⟩ : Shape).Idx → EReal) i = (r : EReal))
    (e_arg15 : (Cert.KernelIdeal.Hand.W31 m g c (Proc.devRef .tc Cert.KernelIdeal.main_arg15) : (⟨3, ![2, 4, 128]⟩ : Shape).Idx → EReal) = (after Cert.ReferenceIdeal.Hand.ops V (Proc.devRef .tc Cert.ReferenceIdeal.main_arg15)))
    (r_arg15 : ∀ i, ∃ r : ℝ, (after Cert.ReferenceIdeal.Hand.ops V (Proc.devRef .tc Cert.ReferenceIdeal.main_arg15) : (⟨3, ![2, 4, 128]⟩ : Shape).Idx → EReal) i = (r : EReal))
    (e_arg16 : (Cert.KernelIdeal.Hand.W31 m g c (Proc.devRef .tc Cert.KernelIdeal.main_arg16) : (⟨3, ![2, 4, 128]⟩ : Shape).Idx → EReal) = (after Cert.ReferenceIdeal.Hand.ops V (Proc.devRef .tc Cert.ReferenceIdeal.main_arg16)))
    (r_arg16 : ∀ i, ∃ r : ℝ, (after Cert.ReferenceIdeal.Hand.ops V (Proc.devRef .tc Cert.ReferenceIdeal.main_arg16) : (⟨3, ![2, 4, 128]⟩ : Shape).Idx → EReal) i = (r : EReal))
    : (Cert.KernelIdeal.Hand.W35 m g c (Proc.devRef .tc Cert.KernelIdeal.main_v506) : (Sh2 5000 128).Idx → EReal) = (after Cert.ReferenceIdeal.Hand.ops V (Proc.devRef .tc Cert.ReferenceIdeal.main_v635))
      ∧ ∀ i, ∃ r : ℝ, (after Cert.ReferenceIdeal.Hand.ops V (Proc.devRef .tc Cert.ReferenceIdeal.main_v635) : (Sh2 5000 128).Idx → EReal) i = (r : EReal) := by
  have hb := branch_eq (n := 5000) (by decide) eps5 eps5_pos (1 : Fin 2) (2 : Fin 6) (2 : Fin 4) _ _ _ _ _ _ _ r_mean r_x r_arg12 r_arg14 r_arg13 r_arg15 r_arg16
  rw [K_diag2 m g c, R_diag2 V, e_mean, e_x, e_arg12, e_arg14, e_arg13, e_arg15, e_arg16]
  exact ⟨hb.1, fun i => hb.1 ▸ hb.2 i⟩

/-- The medication branch of graph layer 2. -/
theorem link_main_v537 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (V : Valuation Cert.ReferenceIdeal.τ Cert.ReferenceIdeal.sig (Elt Ideal))
    (e_mean : (Cert.KernelIdeal.Hand.W35 m g c (Proc.devRef .tc Cert.KernelIdeal.main_v395) : (Sh2 3000 128).Idx → EReal) = (after Cert.ReferenceIdeal.Hand.ops V (Proc.devRef .tc Cert.ReferenceIdeal.main_v555)))
    (r_mean : ∀ i, ∃ r : ℝ, (after Cert.ReferenceIdeal.Hand.ops V (Proc.devRef .tc Cert.ReferenceIdeal.main_v555) : (Sh2 3000 128).Idx → EReal) i = (r : EReal))
    (e_x : (Cert.KernelIdeal.Hand.W35 m g c (Proc.devRef .tc Cert.KernelIdeal.main_v317) : (Sh2 3000 128).Idx → EReal) = (after Cert.ReferenceIdeal.Hand.ops V (Proc.devRef .tc Cert.ReferenceIdeal.main_v363)))
    (r_x : ∀ i, ∃ r : ℝ, (after Cert.ReferenceIdeal.Hand.ops V (Proc.devRef .tc Cert.ReferenceIdeal.main_v363) : (Sh2 3000 128).Idx → EReal) i = (r : EReal))
    (e_arg12 : (Cert.KernelIdeal.Hand.W35 m g c (Proc.devRef .tc Cert.KernelIdeal.main_arg12) : (⟨4, ![2, 6, 128, 128]⟩ : Shape).Idx → EReal) = (after Cert.ReferenceIdeal.Hand.ops V (Proc.devRef .tc Cert.ReferenceIdeal.main_arg12)))
    (r_arg12 : ∀ i, ∃ r : ℝ, (after Cert.ReferenceIdeal.Hand.ops V (Proc.devRef .tc Cert.ReferenceIdeal.main_arg12) : (⟨4, ![2, 6, 128, 128]⟩ : Shape).Idx → EReal) i = (r : EReal))
    (e_arg14 : (Cert.KernelIdeal.Hand.W35 m g c (Proc.devRef .tc Cert.KernelIdeal.main_arg14) : (⟨4, ![2, 6, 128, 128]⟩ : Shape).Idx → EReal) = (after Cert.ReferenceIdeal.Hand.ops V (Proc.devRef .tc Cert.ReferenceIdeal.main_arg14)))
    (r_arg14 : ∀ i, ∃ r : ℝ, (after Cert.ReferenceIdeal.Hand.ops V (Proc.devRef .tc Cert.ReferenceIdeal.main_arg14) : (⟨4, ![2, 6, 128, 128]⟩ : Shape).Idx → EReal) i = (r : EReal))
    (e_arg13 : (Cert.KernelIdeal.Hand.W35 m g c (Proc.devRef .tc Cert.KernelIdeal.main_arg13) : (⟨3, ![2, 6, 128]⟩ : Shape).Idx → EReal) = (after Cert.ReferenceIdeal.Hand.ops V (Proc.devRef .tc Cert.ReferenceIdeal.main_arg13)))
    (r_arg13 : ∀ i, ∃ r : ℝ, (after Cert.ReferenceIdeal.Hand.ops V (Proc.devRef .tc Cert.ReferenceIdeal.main_arg13) : (⟨3, ![2, 6, 128]⟩ : Shape).Idx → EReal) i = (r : EReal))
    (e_arg15 : (Cert.KernelIdeal.Hand.W35 m g c (Proc.devRef .tc Cert.KernelIdeal.main_arg15) : (⟨3, ![2, 4, 128]⟩ : Shape).Idx → EReal) = (after Cert.ReferenceIdeal.Hand.ops V (Proc.devRef .tc Cert.ReferenceIdeal.main_arg15)))
    (r_arg15 : ∀ i, ∃ r : ℝ, (after Cert.ReferenceIdeal.Hand.ops V (Proc.devRef .tc Cert.ReferenceIdeal.main_arg15) : (⟨3, ![2, 4, 128]⟩ : Shape).Idx → EReal) i = (r : EReal))
    (e_arg16 : (Cert.KernelIdeal.Hand.W35 m g c (Proc.devRef .tc Cert.KernelIdeal.main_arg16) : (⟨3, ![2, 4, 128]⟩ : Shape).Idx → EReal) = (after Cert.ReferenceIdeal.Hand.ops V (Proc.devRef .tc Cert.ReferenceIdeal.main_arg16)))
    (r_arg16 : ∀ i, ∃ r : ℝ, (after Cert.ReferenceIdeal.Hand.ops V (Proc.devRef .tc Cert.ReferenceIdeal.main_arg16) : (⟨3, ![2, 4, 128]⟩ : Shape).Idx → EReal) i = (r : EReal))
    : (Cert.KernelIdeal.Hand.W39 m g c (Proc.devRef .tc Cert.KernelIdeal.main_v537) : (Sh2 3000 128).Idx → EReal) = (after Cert.ReferenceIdeal.Hand.ops V (Proc.devRef .tc Cert.ReferenceIdeal.main_v659))
      ∧ ∀ i, ∃ r : ℝ, (after Cert.ReferenceIdeal.Hand.ops V (Proc.devRef .tc Cert.ReferenceIdeal.main_v659) : (Sh2 3000 128).Idx → EReal) i = (r : EReal) := by
  have hb := branch_eq (n := 3000) (by decide) eps5 eps5_pos (1 : Fin 2) (4 : Fin 6) (3 : Fin 4) _ _ _ _ _ _ _ r_mean r_x r_arg12 r_arg14 r_arg13 r_arg15 r_arg16
  rw [K_med2 m g c, R_med2 V, e_mean, e_x, e_arg12, e_arg14, e_arg13, e_arg15, e_arg16]
  exact ⟨hb.1, fun i => hb.1 ▸ hb.2 i⟩

end Cert.Val

end
-- ==== Proof.Val.ChainL1.lean ====
/- The two programs end with equal results: the phases' equalities composed from the arguments to the result. Each phase
   says: if its input buffers hold equal real arrays on the two sides then so do its output buffers; between phases a buffer of
   the kernel program keeps its contents while no item of @main writes it, and the arguments are never written. -/
import proofs.«424088_j28020366639260_2_alg».proof.Defs
import proofs.«424088_j28020366639260_2_alg».proof.Proof.Val.ChainArgs
import proofs.«424088_j28020366639260_2_alg».proof.Proof.Val.Enc12
import proofs.«424088_j28020366639260_2_alg».proof.Proof.Val.EncK2
import proofs.«424088_j28020366639260_2_alg».proof.Proof.Val.Enc34
import proofs.«424088_j28020366639260_2_alg».proof.Proof.Val.AggLink
import proofs.«424088_j28020366639260_2_alg».proof.Proof.Val.PatientLink
import proofs.«424088_j28020366639260_2_alg».proof.Proof.Val.LabLink

set_option maxRecDepth 8192

noncomputable section

namespace Cert.Val

open Idealize.ShloMosaic Idealize.SL.Sem Idealize.ShloMosaic.StableHlo

section Chain

variable [hPre_finite_inputs : Cert.Pre_finite_inputs.Facts]
variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)
variable (hpre : Cert.Pre_KernelIdeal m) (hag : Agree m m') (c : Dev Cert.KernelIdeal.nD)
include hpre hag

/-! ## The encoder: the patient features -/

/-- After region 3 the kernel program's patient features are the reference's, and real. -/
theorem chain_xp :
    Cert.KernelIdeal.Hand.W7 m g c (Proc.devRef .tc Cert.KernelIdeal.main_v49)
        = after (Cert.ReferenceIdeal.Hand.ops (F := Ideal)) (launchContents m' c) (Proc.devRef .tc Cert.ReferenceIdeal.main_v67)
      ∧ ∀ i, ∃ r : ℝ, after (Cert.ReferenceIdeal.Hand.ops (F := Ideal)) (launchContents m' c) (Proc.devRef .tc Cert.ReferenceIdeal.main_v67) i = (r : EReal) := by
  have h25 := link_main_v25_0 m g c (launchContents m' c)
    (arg0_linkV g c hag 0 (by decide)) (arg0_realV c hpre hag) (arg4_linkV g c hag 0 (by decide)) (arg4_realV c hpre hag) (arg5_linkV g c hag 0 (by decide)) (arg5_realV c hpre hag) (arg6_linkV g c hag 0 (by decide)) (arg6_realV c hpre hag)
    (arg7_linkV g c hag 0 (by decide)) (arg7_realV c hpre hag) (arg10_linkV g c hag 0 (by decide)) (arg10_realV c hpre hag) (arg11_linkV g c hag 0 (by decide)) (arg11_realV c hpre hag)
  have h48 := link_main_v48 m g c (launchContents m' c) (e_y2 := h25.1) (r_y2 := h25.2)
    (e_a8 := (arg8_linkV g c hag 4 (by decide))) (r_a8 := (arg8_realV c hpre hag)) (e_a9 := (arg9_linkV g c hag 4 (by decide))) (r_a9 := (arg9_realV c hpre hag))
    (e_a10 := (arg10_linkV g c hag 4 (by decide))) (r_a10 := (arg10_realV c hpre hag)) (e_a11 := (arg11_linkV g c hag 4 (by decide))) (r_a11 := (arg11_realV c hpre hag))
    (hs := K_s2 m g c) (hq := K_q2 m g c)
  exact link_main_v49 m g c (launchContents m' c) h48.1 h48.2

/-! ## Layer 1 -/

/-- The four outputs of layer 1 (patients after region 5, labs after region 7, diagnoses after region 9, medications after
    region 11) are the reference's, and real. -/
theorem chain_L1 :
    (Cert.KernelIdeal.Hand.W11 m g c (Proc.devRef .tc Cert.KernelIdeal.main_v224)
        = after (Cert.ReferenceIdeal.Hand.ops (F := Ideal)) (launchContents m' c) (Proc.devRef .tc Cert.ReferenceIdeal.main_v291)
      ∧ ∀ i, ∃ r : ℝ, after (Cert.ReferenceIdeal.Hand.ops (F := Ideal)) (launchContents m' c) (Proc.devRef .tc Cert.ReferenceIdeal.main_v291) i = (r : EReal))
    ∧ (Cert.KernelIdeal.Hand.W15 m g c (Proc.devRef .tc Cert.KernelIdeal.main_v255)
        = after (Cert.ReferenceIdeal.Hand.ops (F := Ideal)) (launchContents m' c) (Proc.devRef .tc Cert.ReferenceIdeal.main_v315)
      ∧ ∀ i, ∃ r : ℝ, after (Cert.ReferenceIdeal.Hand.ops (F := Ideal)) (launchContents m' c) (Proc.devRef .tc Cert.ReferenceIdeal.main_v315) i = (r : EReal))
    ∧ (Cert.KernelIdeal.Hand.W19 m g c (Proc.devRef .tc Cert.KernelIdeal.main_v286)
        = after (Cert.ReferenceIdeal.Hand.ops (F := Ideal)) (launchContents m' c) (Proc.devRef .tc Cert.ReferenceIdeal.main_v339)
      ∧ ∀ i, ∃ r : ℝ, after (Cert.ReferenceIdeal.Hand.ops (F := Ideal)) (launchContents m' c) (Proc.devRef .tc Cert.ReferenceIdeal.main_v339) i = (r : EReal))
    ∧ (Cert.KernelIdeal.Hand.W23 m g c (Proc.devRef .tc Cert.KernelIdeal.main_v317)
        = after (Cert.ReferenceIdeal.Hand.ops (F := Ideal)) (launchContents m' c) (Proc.devRef .tc Cert.ReferenceIdeal.main_v363)
      ∧ ∀ i, ∃ r : ℝ, after (Cert.ReferenceIdeal.Hand.ops (F := Ideal)) (launchContents m' c) (Proc.devRef .tc Cert.ReferenceIdeal.main_v363) i = (r : EReal)) := by
  have xp := chain_xp m g m' hpre hag c
  -- the six neighbour means, after the host stretch before region 4
  have a110 := link_main_v110 m g c (launchContents m' c) (arg1_linkV g c hag 7 (by decide)) (arg1_realV c hpre hag) (arg18_linkV g c hag 7 (by decide)) (arg17_linkV g c hag 7 (by decide))
  have a123 := link_main_v123 m g c (launchContents m' c) (arg2_linkV g c hag 7 (by decide)) (arg2_realV c hpre hag) (arg20_linkV g c hag 7 (by decide)) (arg19_linkV g c hag 7 (by decide))
  have a136 := link_main_v136 m g c (launchContents m' c) (arg3_linkV g c hag 7 (by decide)) (arg3_realV c hpre hag) (arg22_linkV g c hag 7 (by decide)) (arg21_linkV g c hag 7 (by decide))
  have a149 := link_main_v149 m g c (launchContents m' c) xp.1 xp.2 (arg17_linkV g c hag 7 (by decide)) (arg18_linkV g c hag 7 (by decide))
  have a162 := link_main_v162 m g c (launchContents m' c) xp.1 xp.2 (arg19_linkV g c hag 7 (by decide)) (arg20_linkV g c hag 7 (by decide))
  have a175 := link_main_v175 m g c (launchContents m' c) xp.1 xp.2 (arg21_linkV g c hag 7 (by decide)) (arg22_linkV g c hag 7 (by decide))
  -- the patients
  have p1 := link_main_v224 m g c (launchContents m' c)
    (e_arg12 := (arg12_link g c hag 8 (by decide))) (r_arg12 := (arg12_real c hpre hag)) (e_arg13 := (arg13_link g c hag 8 (by decide))) (r_arg13 := (arg13_real c hpre hag))
    (e_arg14 := (arg14_link g c hag 8 (by decide))) (r_arg14 := (arg14_real c hpre hag)) (e_arg15 := (arg15_link g c hag 8 (by decide))) (r_arg15 := (arg15_real c hpre hag))
    (e_arg16 := (arg16_link g c hag 8 (by decide))) (r_arg16 := (arg16_real c hpre hag))
    (e_ml := a110.1) (r_ml := a110.2) (e_md := a123.1) (r_md := a123.2) (e_mm := a136.1) (r_mm := a136.2)
    (e_xp := ((Cert.KernelIdeal.Hand.Wn_keep m g c Cert.KernelIdeal.main_v49 7 1 (by decide) (by decide +kernel)).trans xp.1)) (r_xp := xp.2)
  -- the labs, the diagnoses, the medications
  have l1 := link_main_v255 m g c (launchContents m' c)
    (e_mean := ((Cert.KernelIdeal.Hand.Wn_keep m g c Cert.KernelIdeal.main_v149 8 3 (by decide) (by decide +kernel)).trans a149.1)) (r_mean := a149.2)
    (e_x := (arg1_link g c hag 11 (by decide))) (r_x := (arg1_real c hpre hag))
    (e_arg12 := (arg12_link g c hag 11 (by decide))) (r_arg12 := (arg12_real c hpre hag)) (e_arg14 := (arg14_link g c hag 11 (by decide))) (r_arg14 := (arg14_real c hpre hag))
    (e_arg13 := (arg13_link g c hag 11 (by decide))) (r_arg13 := (arg13_real c hpre hag)) (e_arg15 := (arg15_link g c hag 11 (by decide))) (r_arg15 := (arg15_real c hpre hag))
    (e_arg16 := (arg16_link g c hag 11 (by decide))) (r_arg16 := (arg16_real c hpre hag))
  have d1 := link_main_v286 m g c (launchContents m' c)
    (e_mean := ((Cert.KernelIdeal.Hand.Wn_keep m g c Cert.KernelIdeal.main_v162 8 7 (by decide) (by decide +kernel)).trans a162.1)) (r_mean := a162.2)
    (e_x := (arg2_link g c hag 15 (by decide))) (r_x := (arg2_real c hpre hag))
    (e_arg12 := (arg12_link g c hag 15 (by decide))) (r_arg12 := (arg12_real c hpre hag)) (e_arg14 := (arg14_link g c hag 15 (by decide))) (r_arg14 := (arg14_real c hpre hag))
    (e_arg13 := (arg13_link g c hag 15 (by decide))) (r_arg13 := (arg13_real c hpre hag)) (e_arg15 := (arg15_link g c hag 15 (by decide))) (r_arg15 := (arg15_real c hpre hag))
    (e_arg16 := (arg16_link g c hag 15 (by decide))) (r_arg16 := (arg16_real c hpre hag))
  have m1 := link_main_v317 m g c (launchContents m' c)
    (e_mean := ((Cert.KernelIdeal.Hand.Wn_keep m g c Cert.KernelIdeal.main_v175 8 11 (by decide) (by decide +kernel)).trans a175.1)) (r_mean := a175.2)
    (e_x := (arg3_link g c hag 19 (by decide))) (r_x := (arg3_real c hpre hag))
    (e_arg12 := (arg12_link g c hag 19 (by decide))) (r_arg12 := (arg12_real c hpre hag)) (e_arg14 := (arg14_link g c hag 19 (by decide))) (r_arg14 := (arg14_real c hpre hag))
    (e_arg13 := (arg13_link g c hag 19 (by decide))) (r_arg13 := (arg13_real c hpre hag)) (e_arg15 := (arg15_link g c hag 19 (by decide))) (r_arg15 := (arg15_real c hpre hag))
    (e_arg16 := (arg16_link g c hag 19 (by decide))) (r_arg16 := (arg16_real c hpre hag))
  exact ⟨p1, l1, d1, m1⟩

end Chain

end Cert.Val

end
-- ==== Proof.Val.ChainL2.lean ====
/- The second layer, composed: from the four outputs of the first layer (equal on the two sides and real) to the four
   outputs of the second, at the end of @main. The reciprocal neighbour counts the first layer's host operations made
   are carried, unwritten, to the host operations before the second layer's products; every other buffer is carried
   from the boundary where its phase states it to the boundary where the next phase reads it. -/
import proofs.«424088_j28020366639260_2_alg».proof.Proof.Val.ChainL1

set_option maxRecDepth 8192

noncomputable section

namespace Cert.Val

open Idealize.ShloMosaic Idealize.SL.Sem Idealize.ShloMosaic.StableHlo

section Chain

variable [hPre_finite_inputs : Cert.Pre_finite_inputs.Facts]
variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)
variable (hpre : Cert.Pre_KernelIdeal m) (hag : Agree m m') (c : Dev Cert.KernelIdeal.nD)
include hpre hag

/-! ## Layer 2 -/

/-- The four outputs of layer 2 (patients after region 13, labs after region 15, diagnoses after region 17, medications
    after region 19), read after the last region, are the reference's. -/
theorem chain_L2
    (h1 : (Cert.KernelIdeal.Hand.W11 m g c (Proc.devRef .tc Cert.KernelIdeal.main_v224)
        = after (Cert.ReferenceIdeal.Hand.ops (F := Ideal)) (launchContents m' c) (Proc.devRef .tc Cert.ReferenceIdeal.main_v291)
      ∧ ∀ i, ∃ r : ℝ, after (Cert.ReferenceIdeal.Hand.ops (F := Ideal)) (launchContents m' c) (Proc.devRef .tc Cert.ReferenceIdeal.main_v291) i = (r : EReal))
    ∧ (Cert.KernelIdeal.Hand.W15 m g c (Proc.devRef .tc Cert.KernelIdeal.main_v255)
        = after (Cert.ReferenceIdeal.Hand.ops (F := Ideal)) (launchContents m' c) (Proc.devRef .tc Cert.ReferenceIdeal.main_v315)
      ∧ ∀ i, ∃ r : ℝ, after (Cert.ReferenceIdeal.Hand.ops (F := Ideal)) (launchContents m' c) (Proc.devRef .tc Cert.ReferenceIdeal.main_v315) i = (r : EReal))
    ∧ (Cert.KernelIdeal.Hand.W19 m g c (Proc.devRef .tc Cert.KernelIdeal.main_v286)
        = after (Cert.ReferenceIdeal.Hand.ops (F := Ideal)) (launchContents m' c) (Proc.devRef .tc Cert.ReferenceIdeal.main_v339)
      ∧ ∀ i, ∃ r : ℝ, after (Cert.ReferenceIdeal.Hand.ops (F := Ideal)) (launchContents m' c) (Proc.devRef .tc Cert.ReferenceIdeal.main_v339) i = (r : EReal))
    ∧ (Cert.KernelIdeal.Hand.W23 m g c (Proc.devRef .tc Cert.KernelIdeal.main_v317)
        = after (Cert.ReferenceIdeal.Hand.ops (F := Ideal)) (launchContents m' c) (Proc.devRef .tc Cert.ReferenceIdeal.main_v363)
      ∧ ∀ i, ∃ r : ℝ, after (Cert.ReferenceIdeal.Hand.ops (F := Ideal)) (launchContents m' c) (Proc.devRef .tc Cert.ReferenceIdeal.main_v363) i = (r : EReal))) :
    (Cert.KernelIdeal.Hand.W39 m g c (Proc.devRef .tc Cert.KernelIdeal.main_v444)
        = after (Cert.ReferenceIdeal.Hand.ops (F := Ideal)) (launchContents m' c) (Proc.devRef .tc Cert.ReferenceIdeal.main_v587))
    ∧ (Cert.KernelIdeal.Hand.W39 m g c (Proc.devRef .tc Cert.KernelIdeal.main_v475)
        = after (Cert.ReferenceIdeal.Hand.ops (F := Ideal)) (launchContents m' c) (Proc.devRef .tc Cert.ReferenceIdeal.main_v611))
    ∧ (Cert.KernelIdeal.Hand.W39 m g c (Proc.devRef .tc Cert.KernelIdeal.main_v506)
        = after (Cert.ReferenceIdeal.Hand.ops (F := Ideal)) (launchContents m' c) (Proc.devRef .tc Cert.ReferenceIdeal.main_v635))
    ∧ (Cert.KernelIdeal.Hand.W39 m g c (Proc.devRef .tc Cert.KernelIdeal.main_v537)
        = after (Cert.ReferenceIdeal.Hand.ops (F := Ideal)) (launchContents m' c) (Proc.devRef .tc Cert.ReferenceIdeal.main_v659)) := by
  obtain ⟨p1, l1, d1, m1⟩ := h1
  -- the reciprocal neighbour counts, made before region 4 and carried to the boundary before the second layer's means
  have i57 := ((Cert.KernelIdeal.Hand.Wn_keep m g c Cert.KernelIdeal.main_v57 8 15 (by decide) (by decide +kernel))).trans
    (link_inv_main_v57 m g c (launchContents m' c) (arg17_linkV g c hag 7 (by decide)))
  have i65 := ((Cert.KernelIdeal.Hand.Wn_keep m g c Cert.KernelIdeal.main_v65 8 15 (by decide) (by decide +kernel))).trans
    (link_inv_main_v65 m g c (launchContents m' c) (arg19_linkV g c hag 7 (by decide)))
  have i73 := ((Cert.KernelIdeal.Hand.Wn_keep m g c Cert.KernelIdeal.main_v73 8 15 (by decide) (by decide +kernel))).trans
    (link_inv_main_v73 m g c (launchContents m' c) (arg21_linkV g c hag 7 (by decide)))
  have i81 := ((Cert.KernelIdeal.Hand.Wn_keep m g c Cert.KernelIdeal.main_v81 8 15 (by decide) (by decide +kernel))).trans
    (link_inv_main_v81 m g c (launchContents m' c) (arg18_linkV g c hag 7 (by decide)))
  have i89 := ((Cert.KernelIdeal.Hand.Wn_keep m g c Cert.KernelIdeal.main_v89 8 15 (by decide) (by decide +kernel))).trans
    (link_inv_main_v89 m g c (launchContents m' c) (arg20_linkV g c hag 7 (by decide)))
  have i97 := ((Cert.KernelIdeal.Hand.Wn_keep m g c Cert.KernelIdeal.main_v97 8 15 (by decide) (by decide +kernel))).trans
    (link_inv_main_v97 m g c (launchContents m' c) (arg22_linkV g c hag 7 (by decide)))
  -- the first layer's outputs, carried to that boundary
  have x224 := ((Cert.KernelIdeal.Hand.Wn_keep m g c Cert.KernelIdeal.main_v224 11 12 (by decide) (by decide +kernel))).trans p1.1
  have x255 := ((Cert.KernelIdeal.Hand.Wn_keep m g c Cert.KernelIdeal.main_v255 15 8 (by decide) (by decide +kernel))).trans l1.1
  have x286 := ((Cert.KernelIdeal.Hand.Wn_keep m g c Cert.KernelIdeal.main_v286 19 4 (by decide) (by decide +kernel))).trans d1.1
  have x317 := m1.1
  -- the six neighbour means of the second layer, after the host stretch before region 12
  have b330 := link_main_v330 m g c (launchContents m' c) x255 l1.2 (arg18_linkV g c hag 23 (by decide)) (arg17_linkV g c hag 23 (by decide)) i57
  have b343 := link_main_v343 m g c (launchContents m' c) x286 d1.2 (arg20_linkV g c hag 23 (by decide)) (arg19_linkV g c hag 23 (by decide)) i65
  have b356 := link_main_v356 m g c (launchContents m' c) x317 m1.2 (arg22_linkV g c hag 23 (by decide)) (arg21_linkV g c hag 23 (by decide)) i73
  have b369 := link_main_v369 m g c (launchContents m' c) x224 p1.2 (arg17_linkV g c hag 23 (by decide)) (arg18_linkV g c hag 23 (by decide)) i81
  have b382 := link_main_v382 m g c (launchContents m' c) x224 p1.2 (arg19_linkV g c hag 23 (by decide)) (arg20_linkV g c hag 23 (by decide)) i89
  have b395 := link_main_v395 m g c (launchContents m' c) x224 p1.2 (arg21_linkV g c hag 23 (by decide)) (arg22_linkV g c hag 23 (by decide)) i97
  -- the patients
  have p2 := link_main_v444 m g c (launchContents m' c)
    (e_arg12 := (arg12_link g c hag 24 (by decide))) (r_arg12 := (arg12_real c hpre hag)) (e_arg13 := (arg13_link g c hag 24 (by decide))) (r_arg13 := (arg13_real c hpre hag))
    (e_arg14 := (arg14_link g c hag 24 (by decide))) (r_arg14 := (arg14_real c hpre hag)) (e_arg15 := (arg15_link g c hag 24 (by decide))) (r_arg15 := (arg15_real c hpre hag))
    (e_arg16 := (arg16_link g c hag 24 (by decide))) (r_arg16 := (arg16_real c hpre hag))
    (e_ml := b330.1) (r_ml := b330.2) (e_md := b343.1) (r_md := b343.2) (e_mm := b356.1) (r_mm := b356.2)
    (e_xp := (((Cert.KernelIdeal.Hand.Wn_keep m g c Cert.KernelIdeal.main_v224 11 13 (by decide) (by decide +kernel))).trans p1.1)) (r_xp := p1.2)
  -- the labs, the diagnoses, the medications
  have l2 := link_main_v475 m g c (launchContents m' c)
    (e_mean := (((Cert.KernelIdeal.Hand.Wn_keep m g c Cert.KernelIdeal.main_v369 24 3 (by decide) (by decide +kernel))).trans b369.1)) (r_mean := b369.2)
    (e_x := (((Cert.KernelIdeal.Hand.Wn_keep m g c Cert.KernelIdeal.main_v255 15 12 (by decide) (by decide +kernel))).trans l1.1)) (r_x := l1.2)
    (e_arg12 := (arg12_link g c hag 27 (by decide))) (r_arg12 := (arg12_real c hpre hag)) (e_arg14 := (arg14_link g c hag 27 (by decide))) (r_arg14 := (arg14_real c hpre hag))
    (e_arg13 := (arg13_link g c hag 27 (by decide))) (r_arg13 := (arg13_real c hpre hag)) (e_arg15 := (arg15_link g c hag 27 (by decide))) (r_arg15 := (arg15_real c hpre hag))
    (e_arg16 := (arg16_link g c hag 27 (by decide))) (r_arg16 := (arg16_real c hpre hag))
  have d2 := link_main_v506 m g c (launchContents m' c)
    (e_mean := (((Cert.KernelIdeal.Hand.Wn_keep m g c Cert.KernelIdeal.main_v382 24 7 (by decide) (by decide +kernel))).trans b382.1)) (r_mean := b382.2)
    (e_x := (((Cert.KernelIdeal.Hand.Wn_keep m g c Cert.KernelIdeal.main_v286 19 12 (by decide) (by decide +kernel))).trans d1.1)) (r_x := d1.2)
    (e_arg12 := (arg12_link g c hag 31 (by decide))) (r_arg12 := (arg12_real c hpre hag)) (e_arg14 := (arg14_link g c hag 31 (by decide))) (r_arg14 := (arg14_real c hpre hag))
    (e_arg13 := (arg13_link g c hag 31 (by decide))) (r_arg13 := (arg13_real c hpre hag)) (e_arg15 := (arg15_link g c hag 31 (by decide))) (r_arg15 := (arg15_real c hpre hag))
    (e_arg16 := (arg16_link g c hag 31 (by decide))) (r_arg16 := (arg16_real c hpre hag))
  have m2 := link_main_v537 m g c (launchContents m' c)
    (e_mean := (((Cert.KernelIdeal.Hand.Wn_keep m g c Cert.KernelIdeal.main_v395 24 11 (by decide) (by decide +kernel))).trans b395.1)) (r_mean := b395.2)
    (e_x := (((Cert.KernelIdeal.Hand.Wn_keep m g c Cert.KernelIdeal.main_v317 23 12 (by decide) (by decide +kernel))).trans m1.1)) (r_x := m1.2)
    (e_arg12 := (arg12_link g c hag 35 (by decide))) (r_arg12 := (arg12_real c hpre hag)) (e_arg14 := (arg14_link g c hag 35 (by decide))) (r_arg14 := (arg14_real c hpre hag))
    (e_arg13 := (arg13_link g c hag 35 (by decide))) (r_arg13 := (arg13_real c hpre hag)) (e_arg15 := (arg15_link g c hag 35 (by decide))) (r_arg15 := (arg15_real c hpre hag))
    (e_arg16 := (arg16_link g c hag 35 (by decide))) (r_arg16 := (arg16_real c hpre hag))
  -- carried to the end of @main
  exact ⟨((Cert.KernelIdeal.Hand.Wn_keep m g c Cert.KernelIdeal.main_v444 27 12 (by decide) (by decide +kernel))).trans p2.1,
    ((Cert.KernelIdeal.Hand.Wn_keep m g c Cert.KernelIdeal.main_v475 31 8 (by decide) (by decide +kernel))).trans l2.1,
    ((Cert.KernelIdeal.Hand.Wn_keep m g c Cert.KernelIdeal.main_v506 35 4 (by decide) (by decide +kernel))).trans d2.1,
    m2.1⟩

end Chain

end Cert.Val

end
-- ==== Proof.Val.FinalGen.lean ====
import proofs.«424088_j28020366639260_2_alg».proof.Proof.Gen.KernelIdeal.Launch
import proofs.«424088_j28020366639260_2_alg».proof.Proof.Gen.ReferenceIdeal
import Idealize.ShloMosaic.Lib.StableHlo.Run

/-!
  The last step of both programs: the four layer-2 outputs (100000, 2000, 5000 and 3000 rows of 128)
  are laid one under the other into the 110000 × 128 result. Both programs end with this one
  concatenation, so equal parts give equal results.
-/

noncomputable section

namespace Cert.Val

open Idealize.ShloMosaic Idealize.SL.Sem Idealize.ShloMosaic.StableHlo

/-- The four blocks of rows make up the 110000 rows. -/
theorem cat4_ok : Shape.Concatenates [Cert.KernelIdeal.S100000x128, Cert.KernelIdeal.S2000x128,
    Cert.KernelIdeal.S5000x128, Cert.KernelIdeal.S3000x128] Cert.KernelIdeal.S110000x128 0 := by decide

/-- The concatenation along the rows of the four node-type blocks. -/
def cat4 {F : FTy → Type}
    (a : (⟨Cert.KernelIdeal.S100000x128, .f32⟩ : BufTy).Contents (Elt F))
    (b : (⟨Cert.KernelIdeal.S2000x128, .f32⟩ : BufTy).Contents (Elt F))
    (c : (⟨Cert.KernelIdeal.S5000x128, .f32⟩ : BufTy).Contents (Elt F))
    (d : (⟨Cert.KernelIdeal.S3000x128, .f32⟩ : BufTy).Contents (Elt F)) :
    (⟨Cert.KernelIdeal.S110000x128, .f32⟩ : BufTy).Contents (Elt F) :=
  concatenate Cert.KernelIdeal.S110000x128 0
    [⟨Cert.KernelIdeal.S100000x128, a⟩, ⟨Cert.KernelIdeal.S2000x128, b⟩, ⟨Cert.KernelIdeal.S5000x128, c⟩,
     ⟨Cert.KernelIdeal.S3000x128, d⟩] cat4_ok

/-- Running a list and then one more operation is that operation applied to the list's contents. -/
theorem after_snoc {τ : Topo} {sig : RefSig} {Val : EltTy → Type} (pre : List (HloOp τ sig Val)) (op : HloOp τ sig Val)
    (V : Valuation τ sig Val) : after (pre ++ [op]) V = op.result (after pre V) := by
  induction pre generalizing V with
  | nil => rfl
  | cons o l ih => simp only [List.cons_append, after_cons, ih]

section Kernel
open Cert.KernelIdeal Cert.KernelIdeal.Gen
variable {F : FTy → Type} [FloatOps F]

/-- The kernel program's last host stretch leaves the result at the concatenation of the four
    layer-2 outputs as they stood before it. -/
theorem K_final_gen (V : Valuation τ sig (Elt F)) :
    after (hostOps20 (F := F)) V (Proc.devRef .tc main_v538)
      = cat4 (V (Proc.devRef .tc main_v444)) (V (Proc.devRef .tc main_v475)) (V (Proc.devRef .tc main_v506))
          (V (Proc.devRef .tc main_v537)) := by
  after_results
  rfl

end Kernel

section Reference
open Cert.ReferenceIdeal Cert.ReferenceIdeal.Gen
variable {F : FTy → Type} [FloatOps F]

/-- The reference's last operation. -/
abbrev lastOp : HloOp τ sig (Elt F) :=
  nary ![main_v587, main_v611, main_v635, main_v659] main_v660 (fun u => concatenate S110000x128 0 [⟨S100000x128, u 0⟩, ⟨S2000x128, u 1⟩, ⟨S5000x128, u 2⟩, ⟨S3000x128, u 3⟩] concatenates_S100000x128_S2000x128_S5000x128_S3000x128_S110000x128_d0)

/-- Any list of operations ending with the reference's last one leaves the result at the
    concatenation of the four layer-2 outputs as the WHOLE list leaves them. -/
theorem R_final_gen (pre : List (HloOp τ sig (Elt F))) (V : Valuation τ sig (Elt F)) :
    after (pre ++ [lastOp (F := F)]) V (Proc.devRef .tc main_v660)
      = cat4 (after (pre ++ [lastOp (F := F)]) V (Proc.devRef .tc main_v587))
          (after (pre ++ [lastOp (F := F)]) V (Proc.devRef .tc main_v611))
          (after (pre ++ [lastOp (F := F)]) V (Proc.devRef .tc main_v635))
          (after (pre ++ [lastOp (F := F)]) V (Proc.devRef .tc main_v659)) := by
  rw [after_snoc]
  generalize after pre V = X
  have h1 : (lastOp (F := F)).result X (Proc.devRef .tc main_v587) = X (Proc.devRef .tc main_v587) :=
    nary_result_ne _ _ _ _ _ X (by decide)
  have h2 : (lastOp (F := F)).result X (Proc.devRef .tc main_v611) = X (Proc.devRef .tc main_v611) :=
    nary_result_ne _ _ _ _ _ X (by decide)
  have h3 : (lastOp (F := F)).result X (Proc.devRef .tc main_v635) = X (Proc.devRef .tc main_v635) :=
    nary_result_ne _ _ _ _ _ X (by decide)
  have h4 : (lastOp (F := F)).result X (Proc.devRef .tc main_v659) = X (Proc.devRef .tc main_v659) :=
    nary_result_ne _ _ _ _ _ X (by decide)
  rw [h1, h2, h3, h4]
  exact (nary4_result _ _ _ X).trans rfl

end Reference

end Cert.Val

end
-- ==== Proof.Val.Final.lean ====
import proofs.«424088_j28020366639260_2_alg».proof.Proof.KI.Fold
import proofs.«424088_j28020366639260_2_alg».proof.Proof.Ref.Ops
import proofs.«424088_j28020366639260_2_alg».proof.Proof.Val.FinalGen

/-!
  The last step, at the two programs' own contents: the kernel program's result after its last host
  stretch, and the reference's result after all of its operations, are the same concatenation of
  the four layer-2 outputs; equal outputs therefore give equal results.
-/

noncomputable section

namespace Cert.Val

open Idealize.ShloMosaic Idealize.SL.Sem Idealize.ShloMosaic.StableHlo

variable {F : FTy → Type} [FloatOps F]

section Kernel
open Cert.KernelIdeal Cert.KernelIdeal.Gen Cert.KernelIdeal.Hand

/-- The kernel program's result buffer at the end of @main is the concatenation of the four layer-2
    outputs as region 19 left them. -/
theorem K_final (m : (ℓ : Loc nD τ sig) → Buf (Elt F) ℓ) (ρ : Dev nD → PrngReg) (c : Dev nD) :
    W40 m ρ c (Proc.devRef .tc main_v538)
      = cat4 (W39 m ρ c (Proc.devRef .tc main_v444)) (W39 m ρ c (Proc.devRef .tc main_v475))
          (W39 m ρ c (Proc.devRef .tc main_v506)) (W39 m ρ c (Proc.devRef .tc main_v537)) := by
  rw [W40_eq]
  exact K_final_gen _

end Kernel

section Reference
open Cert.ReferenceIdeal Cert.ReferenceIdeal.Gen Cert.ReferenceIdeal.Hand

/-- All of the reference's operations but the last. -/
abbrev opsPre : List (HloOp τ sig (Elt F)) :=
  ops0 ++ (ops1 ++ (ops2 ++ (ops3 ++ (ops4 ++ (ops5 ++ (ops6 ++ (ops7 ++ (ops8 ++ (ops9 ++ (ops10 ++ (ops11 ++ (ops12.dropLast))))))))))))

theorem ops12_snoc : (ops12 : List (HloOp τ sig (Elt F))) = ops12.dropLast ++ [lastOp] := rfl

/-- The reference's operations are all but the last, then the last. -/
theorem ops_eq_snoc : (ops : List (HloOp τ sig (Elt F))) = opsPre ++ [lastOp] := by
  show ops0 ++ (ops1 ++ (ops2 ++ (ops3 ++ (ops4 ++ (ops5 ++ (ops6 ++ (ops7 ++ (ops8 ++ (ops9 ++ (ops10 ++ (ops11 ++ (ops12)))))))))))) = _
  rw [ops12_snoc (F := F)]
  simp only [opsPre, List.append_assoc]

/-- The reference's result buffer after all of its operations is the concatenation of the four
    layer-2 outputs as they stand after all of its operations. -/
theorem R_final (V : Valuation τ sig (Elt F)) :
    after (ops (F := F)) V (Proc.devRef .tc main_v660)
      = cat4 (after (ops (F := F)) V (Proc.devRef .tc main_v587)) (after (ops (F := F)) V (Proc.devRef .tc main_v611))
          (after (ops (F := F)) V (Proc.devRef .tc main_v635)) (after (ops (F := F)) V (Proc.devRef .tc main_v659)) := by
  rw [ops_eq_snoc]
  exact R_final_gen _ _

end Reference

/-- Equal parts give equal concatenations. -/
theorem cat4_congr
    {a a' : (⟨Cert.KernelIdeal.S100000x128, .f32⟩ : BufTy).Contents (Elt F)}
    {b b' : (⟨Cert.KernelIdeal.S2000x128, .f32⟩ : BufTy).Contents (Elt F)}
    {c c' : (⟨Cert.KernelIdeal.S5000x128, .f32⟩ : BufTy).Contents (Elt F)}
    {d d' : (⟨Cert.KernelIdeal.S3000x128, .f32⟩ : BufTy).Contents (Elt F)}
    (ha : a = a') (hb : b = b') (hc : c = c') (hd : d = d') : cat4 a b c d = cat4 a' b' c' d' := by
  rw [ha, hb, hc, hd]

/-- The last step: when the four layer-2 outputs agree between the two programs, so do the results. -/
theorem eq_final (m : (ℓ : Loc Cert.KernelIdeal.nD Cert.KernelIdeal.τ Cert.KernelIdeal.sig) → Buf (Elt F) ℓ)
    (ρ : Dev Cert.KernelIdeal.nD → PrngReg) (c : Dev Cert.KernelIdeal.nD)
    (V : Valuation Cert.ReferenceIdeal.τ Cert.ReferenceIdeal.sig (Elt F))
    (h0 : Cert.KernelIdeal.Hand.W39 m ρ c (Proc.devRef .tc Cert.KernelIdeal.main_v444)
      = after (Cert.ReferenceIdeal.Hand.ops (F := F)) V (Proc.devRef .tc Cert.ReferenceIdeal.main_v587))
    (h1 : Cert.KernelIdeal.Hand.W39 m ρ c (Proc.devRef .tc Cert.KernelIdeal.main_v475)
      = after (Cert.ReferenceIdeal.Hand.ops (F := F)) V (Proc.devRef .tc Cert.ReferenceIdeal.main_v611))
    (h2 : Cert.KernelIdeal.Hand.W39 m ρ c (Proc.devRef .tc Cert.KernelIdeal.main_v506)
      = after (Cert.ReferenceIdeal.Hand.ops (F := F)) V (Proc.devRef .tc Cert.ReferenceIdeal.main_v635))
    (h3 : Cert.KernelIdeal.Hand.W39 m ρ c (Proc.devRef .tc Cert.KernelIdeal.main_v537)
      = after (Cert.ReferenceIdeal.Hand.ops (F := F)) V (Proc.devRef .tc Cert.ReferenceIdeal.main_v659)) :
    Cert.KernelIdeal.Hand.W40 m ρ c (Proc.devRef .tc Cert.KernelIdeal.main_v538)
      = after (Cert.ReferenceIdeal.Hand.ops (F := F)) V (Proc.devRef .tc Cert.ReferenceIdeal.main_v660) :=
  (K_final m ρ c).trans ((cat4_congr h0 h1 h2 h3).trans (R_final V).symm)

end Cert.Val

end
-- ==== Proof.Val.Chain.lean ====
/- The two programs end with equal results: the encoder's and the two layers' equalities, then the final concatenation. -/
import proofs.«424088_j28020366639260_2_alg».proof.Defs
import proofs.«424088_j28020366639260_2_alg».proof.Proof.Val.ChainL2
import proofs.«424088_j28020366639260_2_alg».proof.Proof.Val.Final

noncomputable section

namespace Cert.Val

open Idealize.ShloMosaic Idealize.SL.Sem Idealize.ShloMosaic.StableHlo

/-- From memories that agree on the 23 arguments, all finite, the kernel program's result buffer at the end of @main holds
    what the reference's holds after all of its operations. -/
theorem value_eq [hPre_finite_inputs : Cert.Pre_finite_inputs.Facts]
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (c : Dev Cert.KernelIdeal.nD) :
    Cert.KernelIdeal.Hand.W40 m g c (Proc.devRef .tc Cert.KernelIdeal.main_v538)
      = after (Cert.ReferenceIdeal.Hand.ops (F := Ideal)) (launchContents m' c) (Proc.devRef .tc Cert.ReferenceIdeal.main_v660) := by
  have hag : Agree m m' := hagree
  have h1 := chain_L1 m g m' hpre hag c
  have h2 := chain_L2 m g m' hpre hag c h1
  exact eq_final m g c (launchContents m' c) h2.1 h2.2.1 h2.2.2.1 h2.2.2.2

end Cert.Val

end
-- ==== Proof.lean ====
/- The kernel computes a patient encoder (two linear layers, each followed by a batch normalisation and a ReLU,
   a third linear layer, every row scaled to unit length) and two graph layers in which every node type takes the
   mean of its neighbours' rows, a sum of linear maps of those means and of its own rows, and a batch normalisation
   with ReLU; the four final arrays are stacked. The reference computes the same with every batch normalisation in
   centred form, one matrix product per relation, and a division by the neighbour count where the kernel multiplies
   by its reciprocal. Under the precondition every argument is real, hence so is every intermediate array, and on
   real arrays the variance from the sums is the centred variance, the scale-and-shift form is the normalised form,
   a product with a sum of weight matrices is the sum of the products, and a product with the reciprocal of a
   positive count is the quotient: the two result arrays agree entry by entry. The three frames are the three
   programs' runs read at their argument arrays; the idealization rewrote no operation. -/
import proofs.«424088_j28020366639260_2_alg».proof.Defs
import proofs.«424088_j28020366639260_2_alg».proof.Proof.Gen.Kernel
import proofs.«424088_j28020366639260_2_alg».proof.Proof.Gen.KernelIdeal
import proofs.«424088_j28020366639260_2_alg».proof.Proof.Gen.ReferenceIdeal
import proofs.«424088_j28020366639260_2_alg».proof.Proof.Gen.Pre_finite_inputs
import proofs.«424088_j28020366639260_2_alg».proof.Proof.KB.Run
import proofs.«424088_j28020366639260_2_alg».proof.Proof.KI.Run
import proofs.«424088_j28020366639260_2_alg».proof.Proof.Ref.Run
import proofs.«424088_j28020366639260_2_alg».proof.Proof.Ref.Frame
import proofs.«424088_j28020366639260_2_alg».proof.Proof.Val.AlgebraicGen
import proofs.«424088_j28020366639260_2_alg».proof.Proof.Val.Chain
import Idealize.ShloMosaic.Adequacy
import Idealize.ShloMosaic.Init

noncomputable section

namespace Cert.Proof

open Idealize.ShloMosaic Idealize.SL.Sem

/-- The two programs at the ideal reading end with equal results. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  fun m g m' g' hpre hagree =>
    Cert.Val.algebraic_posts m g m' g' (Cert.KernelIdeal.Hand.W40 m g)
      (fun c => StableHlo.after Cert.ReferenceIdeal.Hand.ops (StableHlo.launchContents m' c))
      (Cert.KernelIdeal.Hand.run (F := Ideal) m g)
      (fun c => ⟨Cert.KernelIdeal.Hand.Wlast_main_arg0 m g c, Cert.KernelIdeal.Hand.Wlast_main_arg1 m g c, Cert.KernelIdeal.Hand.Wlast_main_arg2 m g c, Cert.KernelIdeal.Hand.Wlast_main_arg3 m g c, Cert.KernelIdeal.Hand.Wlast_main_arg4 m g c, Cert.KernelIdeal.Hand.Wlast_main_arg5 m g c, Cert.KernelIdeal.Hand.Wlast_main_arg6 m g c, Cert.KernelIdeal.Hand.Wlast_main_arg7 m g c, Cert.KernelIdeal.Hand.Wlast_main_arg8 m g c, Cert.KernelIdeal.Hand.Wlast_main_arg9 m g c, Cert.KernelIdeal.Hand.Wlast_main_arg10 m g c, Cert.KernelIdeal.Hand.Wlast_main_arg11 m g c, Cert.KernelIdeal.Hand.Wlast_main_arg12 m g c, Cert.KernelIdeal.Hand.Wlast_main_arg13 m g c, Cert.KernelIdeal.Hand.Wlast_main_arg14 m g c, Cert.KernelIdeal.Hand.Wlast_main_arg15 m g c, Cert.KernelIdeal.Hand.Wlast_main_arg16 m g c, Cert.KernelIdeal.Hand.Wlast_main_arg17 m g c, Cert.KernelIdeal.Hand.Wlast_main_arg18 m g c, Cert.KernelIdeal.Hand.Wlast_main_arg19 m g c, Cert.KernelIdeal.Hand.Wlast_main_arg20 m g c, Cert.KernelIdeal.Hand.Wlast_main_arg21 m g c, Cert.KernelIdeal.Hand.Wlast_main_arg22 m g c⟩)
      (Cert.ReferenceIdeal.Hand.run_after (F := Ideal) m' g')
      (fun c => ⟨Cert.ReferenceIdeal.Hand.arg_kept m' c Cert.ReferenceIdeal.main_arg0 (by decide),
        Cert.ReferenceIdeal.Hand.arg_kept m' c Cert.ReferenceIdeal.main_arg1 (by decide),
        Cert.ReferenceIdeal.Hand.arg_kept m' c Cert.ReferenceIdeal.main_arg2 (by decide),
        Cert.ReferenceIdeal.Hand.arg_kept m' c Cert.ReferenceIdeal.main_arg3 (by decide),
        Cert.ReferenceIdeal.Hand.arg_kept m' c Cert.ReferenceIdeal.main_arg4 (by decide),
        Cert.ReferenceIdeal.Hand.arg_kept m' c Cert.ReferenceIdeal.main_arg5 (by decide),
        Cert.ReferenceIdeal.Hand.arg_kept m' c Cert.ReferenceIdeal.main_arg6 (by decide),
        Cert.ReferenceIdeal.Hand.arg_kept m' c Cert.ReferenceIdeal.main_arg7 (by decide),
        Cert.ReferenceIdeal.Hand.arg_kept m' c Cert.ReferenceIdeal.main_arg8 (by decide),
        Cert.ReferenceIdeal.Hand.arg_kept m' c Cert.ReferenceIdeal.main_arg9 (by decide),
        Cert.ReferenceIdeal.Hand.arg_kept m' c Cert.ReferenceIdeal.main_arg10 (by decide),
        Cert.ReferenceIdeal.Hand.arg_kept m' c Cert.ReferenceIdeal.main_arg11 (by decide),
        Cert.ReferenceIdeal.Hand.arg_kept m' c Cert.ReferenceIdeal.main_arg12 (by decide),
        Cert.ReferenceIdeal.Hand.arg_kept m' c Cert.ReferenceIdeal.main_arg13 (by decide),
        Cert.ReferenceIdeal.Hand.arg_kept m' c Cert.ReferenceIdeal.main_arg14 (by decide),
        Cert.ReferenceIdeal.Hand.arg_kept m' c Cert.ReferenceIdeal.main_arg15 (by decide),
        Cert.ReferenceIdeal.Hand.arg_kept m' c Cert.ReferenceIdeal.main_arg16 (by decide),
        Cert.ReferenceIdeal.Hand.arg_kept m' c Cert.ReferenceIdeal.main_arg17 (by decide),
        Cert.ReferenceIdeal.Hand.arg_kept m' c Cert.ReferenceIdeal.main_arg18 (by decide),
        Cert.ReferenceIdeal.Hand.arg_kept m' c Cert.ReferenceIdeal.main_arg19 (by decide),
        Cert.ReferenceIdeal.Hand.arg_kept m' c Cert.ReferenceIdeal.main_arg20 (by decide),
        Cert.ReferenceIdeal.Hand.arg_kept m' c Cert.ReferenceIdeal.main_arg21 (by decide),
        Cert.ReferenceIdeal.Hand.arg_kept m' c Cert.ReferenceIdeal.main_arg22 (by decide)⟩)
      (fun c => @Cert.Val.value_eq Cert.Pre_finite_inputs.Gen.facts m g m' hpre hagree c)

theorem claim : Cert.Claim :=
  ⟨Cert.Kernel.Gen.facts, Cert.KernelIdeal.Gen.facts, Cert.ReferenceIdeal.Gen.facts, Cert.Pre_finite_inputs.Gen.facts,
    fun m g _ => Cert.Kernel.Hand.frame (F := Bits) m g,
    fun m g _ => Cert.KernelIdeal.Hand.frame (F := Ideal) m g,
    fun m g _ => Cert.ReferenceIdeal.Hand.frame (F := Ideal) m g,
    trivial,
    algebraic⟩

end Cert.Proof

end
